-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v535)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v535) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v555) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S800000x1 : Shape := ⟨2, ![800000, 1]⟩
abbrev S2x800000 : Shape := ⟨2, ![2, 800000]⟩
abbrev S1x32 : Shape := ⟨2, ![1, 32]⟩
abbrev S32 : Shape := ⟨1, ![32]⟩
abbrev S4x32x32 : Shape := ⟨3, ![4, 32, 32]⟩
abbrev S4x32 : Shape := ⟨2, ![4, 32]⟩
abbrev S96x32 : Shape := ⟨2, ![96, 32]⟩
abbrev S32x1 : Shape := ⟨2, ![32, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S4x32x32 : S_.BroadcastsInDim S4x32x32 (![] : Fin 0 → Fin S4x32x32.rank)
  reducesTo_S4x32x32_S_d0_1_2 : S4x32x32.ReducesTo [0, 1, 2] S_
  bcast_S_S4x32 : S_.BroadcastsInDim S4x32 (![] : Fin 0 → Fin S4x32.rank)
  reducesTo_S4x32_S_d0_1 : S4x32.ReducesTo [0, 1] S_
  bcast_S_S96x32 : S_.BroadcastsInDim S96x32 (![] : Fin 0 → Fin S96x32.rank)
  reducesTo_S96x32_S_d0_1 : S96x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S32 .f32) (main_arg23 : FVec F S32x1 .f32) (main_arg24 : FVec F S1 .f32) (main_v98 : IVec S_ 1) (main_v101 : IVec S96x32 1) (main_c_39 : IVec S_ 1) : IVec S_ 1 :=
  let main_v102 : IVec S_ 1 := (fun x v => Host.reduce IntOp.andi x v reducesTo_S96x32_S_d0_1 h_S_) main_v101 main_c_39
  let main_v103 : IVec S_ 1 := andi main_v98 main_v102
  let main_v104 : FVec F S32 .f32 := Host.absf main_arg22
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S32x1 .f32 := Host.absf main_arg23
  let main_cst_42 : FVec F S_ .f32 := constant S_ .f32 0x7F800000#32
  let main_v110 : FVec F S32x1 .f32 := broadcastInDim S32x1 ![] bcast_S_S32x1 main_cst_42
  let main_v111 : IVec S32x1 1 := cmpf .olt main_v109 main_v110
  let main_c_43 : IVec S_ 1 := constantI S_ 1 1#1
  let main_v112 : IVec S_ 1 := (fun x v => Host.reduce IntOp.andi x v reducesTo_S32x1_S_d0_1 h_S_) main_v111 main_c_43
  let main_v113 : IVec S_ 1 := andi main_v108 main_v112
  let main_v114 : FVec F S1 .f32 := Host.absf main_arg24
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg19 : FVec F S4x32 .f32) (main_arg20 : FVec F S4x32 .f32) (main_arg21 : FVec F S96x32 .f32) (main_arg22 : FVec F S32 .f32) (main_arg23 : FVec F S32x1 .f32) (main_arg24 : FVec F S1 .f32) (main_v83 : IVec S_ 1) (main_v84 : FVec F S4x32 .f32) (main_cst_32 : FVec F S_ .f32) : IVec S_ 1 :=
  let main_v85 : FVec F S4x32 .f32 := broadcastInDim S4x32 ![] bcast_S_S4x32 main_cst_32
  let main_v86 : IVec S4x32 1 := cmpf .olt main_v84 main_v85
  let main_c_33 : IVec S_ 1 := constantI S_ 1 1#1
  let main_v87 : IVec S_ 1 := (fun x v => Host.reduce IntOp.andi x v reducesTo_S4x32_S_d0_1 h_S_) main_v86 main_c_33
  let main_v88 : IVec S_ 1 := andi main_v83 main_v87
  let main_v89 : FVec F S4x32 .f32 := Host.absf main_arg19
  let main_cst_34 : FVec F S_ .f32 := constant S_ .f32 0x7F800000#32
  let main_v90 : FVec F S4x32 .f32 := broadcastInDim S4x32 ![] bcast_S_S4x32 main_cst_34
  let main_v91 : IVec S4x32 1 := cmpf .olt main_v89 main_v90
  let main_c_35 : IVec S_ 1 := constantI S_ 1 1#1
  let main_v92 : IVec S_ 1 := (fun x v => Host.reduce IntOp.andi x v reducesTo_S4x32_S_d0_1 h_S_) main_v91 main_c_35
  let main_v93 : IVec S_ 1 := andi main_v88 main_v92
  let main_v94 : FVec F S4x32 .f32 := Host.absf main_arg20
  let main_cst_36 : FVec F S_ .f32 := constant S_ .f32 0x7F800000#32
  let main_v95 : FVec F S4x32 .f32 := broadcastInDim S4x32 ![] bcast_S_S4x32 main_cst_36
  let main_v96 : IVec S4x32 1 := cmpf .olt main_v94 main_v95
  let main_c_37 : IVec S_ 1 := constantI S_ 1 1#1
  let main_v97 : IVec S_ 1 := (fun x v => Host.reduce IntOp.andi x v reducesTo_S4x32_S_d0_1 h_S_) main_v96 main_c_37
  let main_v98 : IVec S_ 1 := andi main_v93 main_v97
  let main_v99 : FVec F S96x32 .f32 := Host.absf main_arg21
  let main_cst_38 : FVec F S_ .f32 := constant S_ .f32 0x7F800000#32
  let main_v100 : FVec F S96x32 .f32 := broadcastInDim S96x32 ![] bcast_S_S96x32 main_cst_38
  let main_v101 : IVec S96x32 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S4x32x32 .f32) (main_arg16 : FVec F S4x32 .f32) (main_arg17 : FVec F S4x32 .f32) (main_arg18 : FVec F S4x32 .f32) (main_arg19 : FVec F S4x32 .f32) (main_arg20 : FVec F S4x32 .f32) (main_arg21 : FVec F S96x32 .f32) (main_arg22 : FVec F S32 .f32) (main_arg23 : FVec F S32x1 .f32) (main_arg24 : FVec F S1 .f32) (main_v63 : IVec S_ 1) (main_v67 : IVec S_ 1) : IVec S_ 1 :=
  let main_v68 : IVec S_ 1 := andi main_v63 main_v67
  let main_v69 : FVec F S4x32x32 .f32 := Host.absf main_arg15
  let main_cst_26 : FVec F S_ .f32 := constant S_ .f32 0x7F800000#32
  let main_v70 : FVec F S4x32x32 .f32 := broadcastInDim S4x32x32 ![] bcast_S_S4x32x32 main_cst_26
  let main_v71 : IVec S4x32x32 1 := cmpf .olt main_v69 main_v70
  let main_c_27 : IVec S_ 1 := constantI S_ 1 1#1
  let main_v72 : IVec S_ 1 := (fun x v => Host.reduce IntOp.andi x v reducesTo_S4x32x32_S_d0_1_2 h_S_) main_v71 main_c_27
  let main_v73 : IVec S_ 1 := andi main_v68 main_v72
  let main_v74 : FVec F S4x32 .f32 := Host.absf main_arg16
  let main_cst_28 : FVec F S_ .f32 := constant S_ .f32 0x7F800000#32
  let main_v75 : FVec F S4x32 .f32 := broadcastInDim S4x32 ![] bcast_S_S4x32 main_cst_28
  let main_v76 : IVec S4x32 1 := cmpf .olt main_v74 main_v75
  let main_c_29 : IVec S_ 1 := constantI S_ 1 1#1
  let main_v77 : IVec S_ 1 := (fun x v => Host.reduce IntOp.andi x v reducesTo_S4x32_S_d0_1 h_S_) main_v76 main_c_29
  let main_v78 : IVec S_ 1 := andi main_v73 main_v77
  let main_v79 : FVec F S4x32 .f32 := Host.absf main_arg17
  let main_cst_30 : FVec F S_ .f32 := constant S_ .f32 0x7F800000#32
  let main_v80 : FVec F S4x32 .f32 := broadcastInDim S4x32 ![] bcast_S_S4x32 main_cst_30
  let main_v81 : IVec S4x32 1 := cmpf .olt main_v79 main_v80
  let main_c_31 : IVec S_ 1 := constantI S_ 1 1#1
  let main_v82 : IVec S_ 1 := (fun x v => Host.reduce IntOp.andi x v reducesTo_S4x32_S_d0_1 h_S_) main_v81 main_c_31
  let main_v83 : IVec S_ 1 := andi main_v78 main_v82
  let main_v84 : FVec F S4x32 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S4x32 .f32) (main_arg13 : FVec F S4x32x32 .f32) (main_arg14 : FVec F S4x32 .f32) (main_arg15 : FVec F S4x32x32 .f32) (main_arg16 : FVec F S4x32 .f32) (main_arg17 : FVec F S4x32 .f32) (main_arg18 : FVec F S4x32 .f32) (main_arg19 : FVec F S4x32 .f32) (main_arg20 : FVec F S4x32 .f32) (main_arg21 : FVec F S96x32 .f32) (main_arg22 : FVec F S32 .f32) (main_arg23 : FVec F S32x1 .f32) (main_arg24 : FVec F S1 .f32) (main_v48 : IVec S_ 1) (main_v49 : FVec F S4x32x32 .f32) (main_v50 : FVec F S4x32x32 .f32) : IVec S_ 1 :=
  let main_v51 : IVec S4x32x32 1 := cmpf .olt main_v49 main_v50
  let main_c_19 : IVec S_ 1 := constantI S_ 1 1#1
  let main_v52 : IVec S_ 1 := (fun x v => Host.reduce IntOp.andi x v reducesTo_S4x32x32_S_d0_1_2 h_S_) main_v51 main_c_19
  let main_v53 : IVec S_ 1 := andi main_v48 main_v52
  let main_v54 : FVec F S4x32 .f32 := Host.absf main_arg12
  let main_cst_20 : FVec F S_ .f32 := constant S_ .f32 0x7F800000#32
  let main_v55 : FVec F S4x32 .f32 := broadcastInDim S4x32 ![] bcast_S_S4x32 main_cst_20
  let main_v56 : IVec S4x32 1 := cmpf .olt main_v54 main_v55
  let main_c_21 : IVec S_ 1 := constantI S_ 1 1#1
  let main_v57 : IVec S_ 1 := (fun x v => Host.reduce IntOp.andi x v reducesTo_S4x32_S_d0_1 h_S_) main_v56 main_c_21
  let main_v58 : IVec S_ 1 := andi main_v53 main_v57
  let main_v59 : FVec F S4x32x32 .f32 := Host.absf main_arg13
  let main_cst_22 : FVec F S_ .f32 := constant S_ .f32 0x7F800000#32
  let main_v60 : FVec F S4x32x32 .f32 := broadcastInDim S4x32x32 ![] bcast_S_S4x32x32 main_cst_22
  let main_v61 : IVec S4x32x32 1 := cmpf .olt main_v59 main_v60
  let main_c_23 : IVec S_ 1 := constantI S_ 1 1#1
  let main_v62 : IVec S_ 1 := (fun x v => Host.reduce IntOp.andi x v reducesTo_S4x32x32_S_d0_1_2 h_S_) main_v61 main_c_23
  let main_v63 : IVec S_ 1 := andi main_v58 main_v62
  let main_v64 : FVec F S4x32 .f32 := Host.absf main_arg14
  let main_cst_24 : FVec F S_ .f32 := constant S_ .f32 0x7F800000#32
  let main_v65 : FVec F S4x32 .f32 := broadcastInDim S4x32 ![] bcast_S_S4x32 main_cst_24
  let main_v66 : IVec S4x32 1 := cmpf .olt main_v64 main_v65
  let main_c_25 : IVec S_ 1 := constantI S_ 1 1#1
  let main_v67 : IVec S_ 1 := (fun x v => Host.reduce IntOp.andi x v reducesTo_S4x32_S_d0_1 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S4x32 .f32) (main_arg9 : FVec F S4x32x32 .f32) (main_arg10 : FVec F S4x32 .f32) (main_arg11 : FVec F S4x32x32 .f32) (main_arg12 : FVec F S4x32 .f32) (main_arg13 : FVec F S4x32x32 .f32) (main_arg14 : FVec F S4x32 .f32) (main_arg15 : FVec F S4x32x32 .f32) (main_arg16 : FVec F S4x32 .f32) (main_arg17 : FVec F S4x32 .f32) (main_arg18 : FVec F S4x32 .f32) (main_arg19 : FVec F S4x32 .f32) (main_arg20 : FVec F S4x32 .f32) (main_arg21 : FVec F S96x32 .f32) (main_arg22 : FVec F S32 .f32) (main_arg23 : FVec F S32x1 .f32) (main_arg24 : FVec F S1 .f32) (main_v33 : IVec S_ 1) : IVec S_ 1 :=
  let main_v34 : FVec F S4x32 .f32 := Host.absf main_arg8
  let main_cst_12 : FVec F S_ .f32 := constant S_ .f32 0x7F800000#32
  let main_v35 : FVec F S4x32 .f32 := broadcastInDim S4x32 ![] bcast_S_S4x32 main_cst_12
  let main_v36 : IVec S4x32 1 := cmpf .olt main_v34 main_v35
  let main_c_13 : IVec S_ 1 := constantI S_ 1 1#1
  let main_v37 : IVec S_ 1 := (fun x v => Host.reduce IntOp.andi x v reducesTo_S4x32_S_d0_1 h_S_) main_v36 main_c_13
  let main_v38 : IVec S_ 1 := andi main_v33 main_v37
  let main_v39 : FVec F S4x32x32 .f32 := Host.absf main_arg9
  let main_cst_14 : FVec F S_ .f32 := constant S_ .f32 0x7F800000#32
  let main_v40 : FVec F S4x32x32 .f32 := broadcastInDim S4x32x32 ![] bcast_S_S4x32x32 main_cst_14
  let main_v41 : IVec S4x32x32 1 := cmpf .olt main_v39 main_v40
  let main_c_15 : IVec S_ 1 := constantI S_ 1 1#1
  let main_v42 : IVec S_ 1 := (fun x v => Host.reduce IntOp.andi x v reducesTo_S4x32x32_S_d0_1_2 h_S_) main_v41 main_c_15
  let main_v43 : IVec S_ 1 := andi main_v38 main_v42
  let main_v44 : FVec F S4x32 .f32 := Host.absf main_arg10
  let main_cst_16 : FVec F S_ .f32 := constant S_ .f32 0x7F800000#32
  let main_v45 : FVec F S4x32 .f32 := broadcastInDim S4x32 ![] bcast_S_S4x32 main_cst_16
  let main_v46 : IVec S4x32 1 := cmpf .olt main_v44 main_v45
  let main_c_17 : IVec S_ 1 := constantI S_ 1 1#1
  let main_v47 : IVec S_ 1 := (fun x v => Host.reduce IntOp.andi x v reducesTo_S4x32_S_d0_1 h_S_) main_v46 main_c_17
  let main_v48 : IVec S_ 1 := andi main_v43 main_v47
  let main_v49 : FVec F S4x32x32 .f32 := Host.absf main_arg11
  let main_cst_18 : FVec F S_ .f32 := constant S_ .f32 0x7F800000#32
  let main_v50 : FVec F S4x32x32 .f32 := broadcastInDim S4x32x32 ![] bcast_S_S4x32x32 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S1x32 .f32) (main_arg6 : FVec F S32 .f32) (main_arg7 : FVec F S4x32x32 .f32) (main_arg8 : FVec F S4x32 .f32) (main_arg9 : FVec F S4x32x32 .f32) (main_arg10 : FVec F S4x32 .f32) (main_arg11 : FVec F S4x32x32 .f32) (main_arg12 : FVec F S4x32 .f32) (main_arg13 : FVec F S4x32x32 .f32) (main_arg14 : FVec F S4x32 .f32) (main_arg15 : FVec F S4x32x32 .f32) (main_arg16 : FVec F S4x32 .f32) (main_arg17 : FVec F S4x32 .f32) (main_arg18 : FVec F S4x32 .f32) (main_arg19 : FVec F S4x32 .f32) (main_arg20 : FVec F S4x32 .f32) (main_arg21 : FVec F S96x32 .f32) (main_arg22 : FVec F S32 .f32) (main_arg23 : FVec F S32x1 .f32) (main_arg24 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S1x32 .f32 := Host.absf main_arg5
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S4x32x32 .f32 := Host.absf main_arg7
  let main_cst_10 : FVec F S_ .f32 := constant S_ .f32 0x7F800000#32
  let main_v30 : FVec F S4x32x32 .f32 := broadcastInDim S4x32x32 ![] bcast_S_S4x32x32 main_cst_10
  let main_v31 : IVec S4x32x32 1 := cmpf .olt main_v29 main_v30
  let main_c_11 : IVec S_ 1 := constantI S_ 1 1#1
  let main_v32 : IVec S_ 1 := (fun x v => Host.reduce IntOp.andi x v reducesTo_S4x32x32_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x1 .f32) (main_arg1 : FVec F S800000x1 .f32) (main_arg2 : IVec S2x800000 32) (main_arg3 : FVec F S1x32 .f32) (main_arg4 : FVec F S32 .f32) (main_arg5 : FVec F S1x32 .f32) (main_arg6 : FVec F S32 .f32) (main_arg7 : FVec F S4x32x32 .f32) (main_arg8 : FVec F S4x32 .f32) (main_arg9 : FVec F S4x32x32 .f32) (main_arg10 : FVec F S4x32 .f32) (main_arg11 : FVec F S4x32x32 .f32) (main_arg12 : FVec F S4x32 .f32) (main_arg13 : FVec F S4x32x32 .f32) (main_arg14 : FVec F S4x32 .f32) (main_arg15 : FVec F S4x32x32 .f32) (main_arg16 : FVec F S4x32 .f32) (main_arg17 : FVec F S4x32 .f32) (main_arg18 : FVec F S4x32 .f32) (main_arg19 : FVec F S4x32 .f32) (main_arg20 : FVec F S4x32 .f32) (main_arg21 : FVec F S96x32 .f32) (main_arg22 : FVec F S32 .f32) (main_arg23 : FVec F S32x1 .f32) (main_arg24 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S1x32 .f32 := Host.absf main_arg3
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x1 : Shape := ⟨2, ![100000, 1]⟩
abbrev S800000x1 : Shape := ⟨2, ![800000, 1]⟩
abbrev S2x800000 : Shape := ⟨2, ![2, 800000]⟩
abbrev S1x32 : Shape := ⟨2, ![1, 32]⟩
abbrev S32 : Shape := ⟨1, ![32]⟩
abbrev S4x32x32 : Shape := ⟨3, ![4, 32, 32]⟩
abbrev S4x32 : Shape := ⟨2, ![4, 32]⟩
abbrev S96x32 : Shape := ⟨2, ![96, 32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S100000x32 : Shape := ⟨2, ![100000, 32]⟩
abbrev S5000x1 : Shape := ⟨2, ![5000, 1]⟩
abbrev S5000x32 : Shape := ⟨2, ![5000, 32]⟩
abbrev S800000x32 : Shape := ⟨2, ![800000, 32]⟩
abbrev S1x32x32 : Shape := ⟨3, ![1, 32, 32]⟩
abbrev S32x32 : Shape := ⟨2, ![32, 32]⟩
abbrev S32x128 : Shape := ⟨2, ![32, 128]⟩
abbrev S128 : Shape := ⟨1, ![128]⟩
abbrev S1x128 : Shape := ⟨2, ![1, 128]⟩
abbrev S100000x128 : Shape := ⟨2, ![100000, 128]⟩
abbrev S5000x128 : Shape := ⟨2, ![5000, 128]⟩
abbrev S100000x64 : Shape := ⟨2, ![100000, 64]⟩
abbrev S_ : Shape := ⟨0, ![]⟩
abbrev S800000x64 : Shape := ⟨2, ![800000, 64]⟩
abbrev S4x4 : Shape := ⟨2, ![4, 4]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S200000x128 : Shape := ⟨2, ![200000, 128]⟩
abbrev S4000x128 : Shape := ⟨2, ![4000, 128]⟩
abbrev S25000x128 : Shape := ⟨2, ![25000, 128]⟩
abbrev S1x1 : Shape := ⟨2, ![1, 1]⟩

abbrev nBuf : Space → Nat
  | .hbm => 813
  | .vmem => 226
  | .smem => 0
  | _ => 0

abbrev hbmTy0_0 (i : Nat) : BufTy := match i % 128 with
  | 0 => ⟨S100000x1, .f32⟩
  | 1 => ⟨S800000x1, .f32⟩
  | 2 => ⟨S2x800000, .i32⟩
  | 3 => ⟨S1x32, .f32⟩
  | 4 => ⟨S32, .f32⟩
  | 5 => ⟨S1x32, .f32⟩
  | 6 => ⟨S32, .f32⟩
  | 7 => ⟨S4x32x32, .f32⟩
  | 8 => ⟨S4x32, .f32⟩
  | 9 => ⟨S4x32x32, .f32⟩
  | 10 => ⟨S4x32, .f32⟩
  | 11 => ⟨S4x32x32, .f32⟩
  | 12 => ⟨S4x32, .f32⟩
  | 13 => ⟨S4x32x32, .f32⟩
  | 14 => ⟨S4x32, .f32⟩
  | 15 => ⟨S4x32x32, .f32⟩
  | 16 => ⟨S4x32, .f32⟩
  | 17 => ⟨S4x32, .f32⟩
  | 18 => ⟨S4x32, .f32⟩
  | 19 => ⟨S4x32, .f32⟩
  | 20 => ⟨S4x32, .f32⟩
  | 21 => ⟨S96x32, .f32⟩
  | 22 => ⟨S32, .f32⟩
  | 23 => ⟨S32x1, .f32⟩
  | 24 => ⟨S1, .f32⟩
  | 25 => ⟨S1x800000, .i32⟩
  | 26 => ⟨S800000, .i32⟩
  | 27 => ⟨S1x800000, .i32⟩
  | 28 => ⟨S800000, .i32⟩
  | 29 => ⟨S1x32, .f32⟩
  | 30 => ⟨S100000x32, .f32⟩
  | 31 => ⟨S1x32, .f32⟩
  | 32 => ⟨S800000x32, .f32⟩
  | 33 => ⟨S1x32x32, .f32⟩
  | 34 => ⟨S32x32, .f32⟩
  | 35 => ⟨S1x32x32, .f32⟩
  | 36 => ⟨S32x32, .f32⟩
  | 37 => ⟨S1x32x32, .f32⟩
  | 38 => ⟨S32x32, .f32⟩
  | 39 => ⟨S1x32x32, .f32⟩
  | 40 => ⟨S32x32, .f32⟩
  | 41 => ⟨S32x128, .f32⟩
  | 42 => ⟨S1x32, .f32⟩
  | 43 => ⟨S32, .f32⟩
  | 44 => ⟨S1x32, .f32⟩
  | 45 => ⟨S32, .f32⟩
  | 46 => ⟨S1x32, .f32⟩
  | 47 => ⟨S32, .f32⟩
  | 48 => ⟨S1x32, .f32⟩
  | 49 => ⟨S32, .f32⟩
  | 50 => ⟨S128, .f32⟩
  | 51 => ⟨S1x128, .f32⟩
  | 52 => ⟨S100000x128, .f32⟩
  | 53 => ⟨S100000x32, .f32⟩
  | 54 => ⟨S100000x64, .f32⟩
  | 55 => ⟨S100000x32, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x32, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x64, .f32⟩
  | 74 => ⟨S800000x32, .f32⟩
  | 75 => ⟨S800000x32, .f32⟩
  | 76 => ⟨S4x4, .i32⟩
  | 77 => ⟨S4x4, .i32⟩
  | 78 => ⟨S_, .i32⟩
  | 79 => ⟨S4x4, .i32⟩
  | 80 => ⟨S4x4, .i32⟩
  | 81 => ⟨S4x4, .i1⟩
  | 82 => ⟨S4x4, .f32⟩
  | 83 => ⟨S1x32x32, .f32⟩
  | 84 => ⟨S32x32, .f32⟩
  | 85 => ⟨S4x1x4x1, .f32⟩
  | 86 => ⟨S1x32x1x32, .f32⟩
  | 87 => ⟨S4x32x4x32, .f32⟩
  | 88 => ⟨S4x32x4x32, .f32⟩
  | 89 => ⟨S4x32x4x32, .f32⟩
  | 90 => ⟨S128x128, .f32⟩
  | 91 => ⟨S1x32, .f32⟩
  | 92 => ⟨S32, .f32⟩
  | 93 => ⟨S1x32, .f32⟩
  | 94 => ⟨S4x32, .f32⟩
  | 95 => ⟨S128, .f32⟩
  | 96 => ⟨S200000x128, .f32⟩
  | 97 => ⟨S200000x128, .f32⟩
  | 98 => ⟨S200000x128, .f32⟩
  | 99 => ⟨S200000x128, .f32⟩
  | 100 => ⟨S1x128, .f32⟩
  | 101 => ⟨S200000x128, .f32⟩
  | 102 => ⟨S200000x128, .f32⟩
  | 103 => ⟨S200000x128, .f32⟩
  | 104 => ⟨S800000x32, .f32⟩
  | 105 => ⟨S800000x32, .f32⟩
  | 106 => ⟨S800000x32, .f32⟩
  | 107 => ⟨S_, .f32⟩
  | 108 => ⟨S100000x32, .f32⟩
  | 109 => ⟨S800000x1, .i32⟩
  | 110 => ⟨S100000x32, .f32⟩
  | 111 => ⟨S_, .f32⟩
  | 112 => ⟨S100000x32, .f32⟩
  | 113 => ⟨S800000x1, .i32⟩
  | 114 => ⟨S100000x32, .f32⟩
  | 115 => ⟨S25000x128, .f32⟩
  | 116 => ⟨S25000x128, .f32⟩
  | 117 => ⟨S25000x128, .f32⟩
  | 118 => ⟨S25000x128, .f32⟩
  | 119 => ⟨S100000x32, .f32⟩
  | 120 => ⟨S_, .f32⟩
  | 121 => ⟨S32, .f32⟩
  | 122 => ⟨S_, .f32⟩
  | 123 => ⟨S32, .f32⟩
  | 124 => ⟨S32, .f32⟩
  | 125 => ⟨S_, .i32⟩
  | 126 => ⟨S_, .f32⟩
  | 127 => ⟨S32, .f32⟩
  | _ => ⟨S100000x1, .f32⟩

abbrev hbmTy0_1 (i : Nat) : BufTy := match i % 128 with
  | 0 => ⟨S1x32, .f32⟩
  | 1 => ⟨S_, .f32⟩
  | 2 => ⟨S1x32, .f32⟩
  | 3 => ⟨S1x32, .f32⟩
  | 4 => ⟨S100000x32, .f32⟩
  | 5 => ⟨S100000x32, .f32⟩
  | 6 => ⟨S100000x32, .f32⟩
  | 7 => ⟨S_, .f32⟩
  | 8 => ⟨S_, .f32⟩
  | 9 => ⟨S_, .f32⟩
  | 10 => ⟨S_, .f32⟩
  | 11 => ⟨S32, .f32⟩
  | 12 => ⟨S32, .f32⟩
  | 13 => ⟨S32, .f32⟩
  | 14 => ⟨S_, .f32⟩
  | 15 => ⟨S_, .i1⟩
  | 16 => ⟨S_, .f32⟩
  | 17 => ⟨S_, .f32⟩
  | 18 => ⟨S32, .f32⟩
  | 19 => ⟨S32, .f32⟩
  | 20 => ⟨S_, .f32⟩
  | 21 => ⟨S32, .f32⟩
  | 22 => ⟨S_, .f32⟩
  | 23 => ⟨S32, .f32⟩
  | 24 => ⟨S32, .f32⟩
  | 25 => ⟨S_, .i32⟩
  | 26 => ⟨S_, .f32⟩
  | 27 => ⟨S32, .f32⟩
  | 28 => ⟨S1x32, .f32⟩
  | 29 => ⟨S_, .f32⟩
  | 30 => ⟨S1x32, .f32⟩
  | 31 => ⟨S1x32, .f32⟩
  | 32 => ⟨S800000x32, .f32⟩
  | 33 => ⟨S800000x32, .f32⟩
  | 34 => ⟨S800000x32, .f32⟩
  | 35 => ⟨S_, .f32⟩
  | 36 => ⟨S_, .f32⟩
  | 37 => ⟨S_, .f32⟩
  | 38 => ⟨S_, .f32⟩
  | 39 => ⟨S32, .f32⟩
  | 40 => ⟨S32, .f32⟩
  | 41 => ⟨S32, .f32⟩
  | 42 => ⟨S_, .f32⟩
  | 43 => ⟨S_, .i1⟩
  | 44 => ⟨S_, .f32⟩
  | 45 => ⟨S_, .f32⟩
  | 46 => ⟨S32, .f32⟩
  | 47 => ⟨S32, .f32⟩
  | 48 => ⟨S1x32, .f32⟩
  | 49 => ⟨S4x32, .f32⟩
  | 50 => ⟨S128, .f32⟩
  | 51 => ⟨S1x32, .f32⟩
  | 52 => ⟨S4x32, .f32⟩
  | 53 => ⟨S128, .f32⟩
  | 54 => ⟨S1x32, .f32⟩
  | 55 => ⟨S32, .f32⟩
  | 56 => ⟨S1x32, .f32⟩
  | 57 => ⟨S4x32, .f32⟩
  | 58 => ⟨S128, .f32⟩
  | 59 => ⟨S1x32, .f32⟩
  | 60 => ⟨S32, .f32⟩
  | 61 => ⟨S1x32, .f32⟩
  | 62 => ⟨S4x32, .f32⟩
  | 63 => ⟨S128, .f32⟩
  | 64 => ⟨S1x32, .f32⟩
  | 65 => ⟨S4x32, .f32⟩
  | 66 => ⟨S128, .f32⟩
  | 67 => ⟨S1x32, .f32⟩
  | 68 => ⟨S4x32, .f32⟩
  | 69 => ⟨S128, .f32⟩
  | 70 => ⟨S1x32, .f32⟩
  | 71 => ⟨S32, .f32⟩
  | 72 => ⟨S1x32, .f32⟩
  | 73 => ⟨S4x32, .f32⟩
  | 74 => ⟨S128, .f32⟩
  | 75 => ⟨S1x32, .f32⟩
  | 76 => ⟨S32, .f32⟩
  | 77 => ⟨S1x32, .f32⟩
  | 78 => ⟨S4x32, .f32⟩
  | 79 => ⟨S128, .f32⟩
  | 80 => ⟨S25000x128, .f32⟩
  | 81 => ⟨S1x128, .f32⟩
  | 82 => ⟨S1x128, .f32⟩
  | 83 => ⟨S1x128, .f32⟩
  | 84 => ⟨S1x128, .f32⟩
  | 85 => ⟨S25000x128, .f32⟩
  | 86 => ⟨S100000x32, .f32⟩
  | 87 => ⟨S200000x128, .f32⟩
  | 88 => ⟨S1x128, .f32⟩
  | 89 => ⟨S1x128, .f32⟩
  | 90 => ⟨S1x128, .f32⟩
  | 91 => ⟨S1x128, .f32⟩
  | 92 => ⟨S200000x128, .f32⟩
  | 93 => ⟨S800000x32, .f32⟩
  | 94 => ⟨S1x32x32, .f32⟩
  | 95 => ⟨S32x32, .f32⟩
  | 96 => ⟨S1x32x32, .f32⟩
  | 97 => ⟨S32x32, .f32⟩
  | 98 => ⟨S1x32x32, .f32⟩
  | 99 => ⟨S32x32, .f32⟩
  | 100 => ⟨S1x32x32, .f32⟩
  | 101 => ⟨S32x32, .f32⟩
  | 102 => ⟨S32x128, .f32⟩
  | 103 => ⟨S1x32, .f32⟩
  | 104 => ⟨S32, .f32⟩
  | 105 => ⟨S1x32, .f32⟩
  | 106 => ⟨S32, .f32⟩
  | 107 => ⟨S1x32, .f32⟩
  | 108 => ⟨S32, .f32⟩
  | 109 => ⟨S1x32, .f32⟩
  | 110 => ⟨S32, .f32⟩
  | 111 => ⟨S128, .f32⟩
  | 112 => ⟨S1x128, .f32⟩
  | 113 => ⟨S100000x128, .f32⟩
  | 114 => ⟨S100000x32, .f32⟩
  | 115 => ⟨S100000x64, .f32⟩
  | 116 => ⟨S100000x32, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x32, .f32⟩
  | 126 => ⟨S_, .i32⟩
  | 127 => ⟨S800000, .i32⟩
  | _ => ⟨S100000x1, .f32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x64, .f32⟩
  | 7 => ⟨S800000x32, .f32⟩
  | 8 => ⟨S800000x32, .f32⟩
  | 9 => ⟨S4x4, .i32⟩
  | 10 => ⟨S4x4, .i32⟩
  | 11 => ⟨S_, .i32⟩
  | 12 => ⟨S4x4, .i32⟩
  | 13 => ⟨S4x4, .i32⟩
  | 14 => ⟨S4x4, .i1⟩
  | 15 => ⟨S4x4, .f32⟩
  | 16 => ⟨S1x32x32, .f32⟩
  | 17 => ⟨S32x32, .f32⟩
  | 18 => ⟨S4x1x4x1, .f32⟩
  | 19 => ⟨S1x32x1x32, .f32⟩
  | 20 => ⟨S4x32x4x32, .f32⟩
  | 21 => ⟨S4x32x4x32, .f32⟩
  | 22 => ⟨S4x32x4x32, .f32⟩
  | 23 => ⟨S128x128, .f32⟩
  | 24 => ⟨S1x32, .f32⟩
  | 25 => ⟨S32, .f32⟩
  | 26 => ⟨S1x32, .f32⟩
  | 27 => ⟨S4x32, .f32⟩
  | 28 => ⟨S128, .f32⟩
  | 29 => ⟨S200000x128, .f32⟩
  | 30 => ⟨S200000x128, .f32⟩
  | 31 => ⟨S200000x128, .f32⟩
  | 32 => ⟨S200000x128, .f32⟩
  | 33 => ⟨S1x128, .f32⟩
  | 34 => ⟨S200000x128, .f32⟩
  | 35 => ⟨S200000x128, .f32⟩
  | 36 => ⟨S200000x128, .f32⟩
  | 37 => ⟨S800000x32, .f32⟩
  | 38 => ⟨S800000x32, .f32⟩
  | 39 => ⟨S800000x32, .f32⟩
  | 40 => ⟨S_, .f32⟩
  | 41 => ⟨S100000x32, .f32⟩
  | 42 => ⟨S800000x1, .i32⟩
  | 43 => ⟨S100000x32, .f32⟩
  | 44 => ⟨S_, .f32⟩
  | 45 => ⟨S100000x32, .f32⟩
  | 46 => ⟨S800000x1, .i32⟩
  | 47 => ⟨S100000x32, .f32⟩
  | 48 => ⟨S25000x128, .f32⟩
  | 49 => ⟨S25000x128, .f32⟩
  | 50 => ⟨S25000x128, .f32⟩
  | 51 => ⟨S25000x128, .f32⟩
  | 52 => ⟨S100000x32, .f32⟩
  | 53 => ⟨S_, .f32⟩
  | 54 => ⟨S32, .f32⟩
  | 55 => ⟨S_, .f32⟩
  | 56 => ⟨S32, .f32⟩
  | 57 => ⟨S32, .f32⟩
  | 58 => ⟨S_, .i32⟩
  | 59 => ⟨S_, .f32⟩
  | 60 => ⟨S32, .f32⟩
  | 61 => ⟨S1x32, .f32⟩
  | 62 => ⟨S_, .f32⟩
  | 63 => ⟨S1x32, .f32⟩
  | 64 => ⟨S1x32, .f32⟩
  | 65 => ⟨S100000x32, .f32⟩
  | 66 => ⟨S100000x32, .f32⟩
  | 67 => ⟨S100000x32, .f32⟩
  | 68 => ⟨S_, .f32⟩
  | 69 => ⟨S_, .f32⟩
  | 70 => ⟨S_, .f32⟩
  | 71 => ⟨S_, .f32⟩
  | 72 => ⟨S32, .f32⟩
  | 73 => ⟨S32, .f32⟩
  | 74 => ⟨S32, .f32⟩
  | 75 => ⟨S_, .f32⟩
  | 76 => ⟨S_, .i1⟩
  | 77 => ⟨S_, .f32⟩
  | 78 => ⟨S_, .f32⟩
  | 79 => ⟨S32, .f32⟩
  | 80 => ⟨S32, .f32⟩
  | 81 => ⟨S_, .f32⟩
  | 82 => ⟨S32, .f32⟩
  | 83 => ⟨S_, .f32⟩
  | 84 => ⟨S32, .f32⟩
  | 85 => ⟨S32, .f32⟩
  | 86 => ⟨S_, .i32⟩
  | 87 => ⟨S_, .f32⟩
  | 88 => ⟨S32, .f32⟩
  | 89 => ⟨S1x32, .f32⟩
  | 90 => ⟨S_, .f32⟩
  | 91 => ⟨S1x32, .f32⟩
  | 92 => ⟨S1x32, .f32⟩
  | 93 => ⟨S800000x32, .f32⟩
  | 94 => ⟨S800000x32, .f32⟩
  | 95 => ⟨S800000x32, .f32⟩
  | 96 => ⟨S_, .f32⟩
  | 97 => ⟨S_, .f32⟩
  | 98 => ⟨S_, .f32⟩
  | 99 => ⟨S_, .f32⟩
  | 100 => ⟨S32, .f32⟩
  | 101 => ⟨S32, .f32⟩
  | 102 => ⟨S32, .f32⟩
  | 103 => ⟨S_, .f32⟩
  | 104 => ⟨S_, .i1⟩
  | 105 => ⟨S_, .f32⟩
  | 106 => ⟨S_, .f32⟩
  | 107 => ⟨S32, .f32⟩
  | 108 => ⟨S32, .f32⟩
  | 109 => ⟨S1x32, .f32⟩
  | 110 => ⟨S4x32, .f32⟩
  | 111 => ⟨S128, .f32⟩
  | 112 => ⟨S1x32, .f32⟩
  | 113 => ⟨S4x32, .f32⟩
  | 114 => ⟨S128, .f32⟩
  | 115 => ⟨S1x32, .f32⟩
  | 116 => ⟨S32, .f32⟩
  | 117 => ⟨S1x32, .f32⟩
  | 118 => ⟨S4x32, .f32⟩
  | 119 => ⟨S128, .f32⟩
  | 120 => ⟨S1x32, .f32⟩
  | 121 => ⟨S32, .f32⟩
  | 122 => ⟨S1x32, .f32⟩
  | 123 => ⟨S4x32, .f32⟩
  | 124 => ⟨S128, .f32⟩
  | 125 => ⟨S1x32, .f32⟩
  | 126 => ⟨S4x32, .f32⟩
  | 127 => ⟨S128, .f32⟩
  | _ => ⟨S100000x1, .f32⟩

abbrev hbmTy0_3 (i : Nat) : BufTy := match i % 128 with
  | 0 => ⟨S1x32, .f32⟩
  | 1 => ⟨S4x32, .f32⟩
  | 2 => ⟨S128, .f32⟩
  | 3 => ⟨S1x32, .f32⟩
  | 4 => ⟨S32, .f32⟩
  | 5 => ⟨S1x32, .f32⟩
  | 6 => ⟨S4x32, .f32⟩
  | 7 => ⟨S128, .f32⟩
  | 8 => ⟨S1x32, .f32⟩
  | 9 => ⟨S32, .f32⟩
  | 10 => ⟨S1x32, .f32⟩
  | 11 => ⟨S4x32, .f32⟩
  | 12 => ⟨S128, .f32⟩
  | 13 => ⟨S25000x128, .f32⟩
  | 14 => ⟨S1x128, .f32⟩
  | 15 => ⟨S1x128, .f32⟩
  | 16 => ⟨S1x128, .f32⟩
  | 17 => ⟨S1x128, .f32⟩
  | 18 => ⟨S25000x128, .f32⟩
  | 19 => ⟨S100000x32, .f32⟩
  | 20 => ⟨S200000x128, .f32⟩
  | 21 => ⟨S1x128, .f32⟩
  | 22 => ⟨S1x128, .f32⟩
  | 23 => ⟨S1x128, .f32⟩
  | 24 => ⟨S1x128, .f32⟩
  | 25 => ⟨S200000x128, .f32⟩
  | 26 => ⟨S800000x32, .f32⟩
  | 27 => ⟨S1x32x32, .f32⟩
  | 28 => ⟨S32x32, .f32⟩
  | 29 => ⟨S1x32x32, .f32⟩
  | 30 => ⟨S32x32, .f32⟩
  | 31 => ⟨S1x32x32, .f32⟩
  | 32 => ⟨S32x32, .f32⟩
  | 33 => ⟨S1x32x32, .f32⟩
  | 34 => ⟨S32x32, .f32⟩
  | 35 => ⟨S32x128, .f32⟩
  | 36 => ⟨S1x32, .f32⟩
  | 37 => ⟨S32, .f32⟩
  | 38 => ⟨S1x32, .f32⟩
  | 39 => ⟨S32, .f32⟩
  | 40 => ⟨S1x32, .f32⟩
  | 41 => ⟨S32, .f32⟩
  | 42 => ⟨S1x32, .f32⟩
  | 43 => ⟨S32, .f32⟩
  | 44 => ⟨S128, .f32⟩
  | 45 => ⟨S1x128, .f32⟩
  | 46 => ⟨S100000x128, .f32⟩
  | 47 => ⟨S100000x32, .f32⟩
  | 48 => ⟨S100000x64, .f32⟩
  | 49 => ⟨S100000x32, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x32, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .f32⟩
  | 68 => ⟨S800000x32, .f32⟩
  | 69 => ⟨S800000x32, .f32⟩
  | 70 => ⟨S4x4, .i32⟩
  | 71 => ⟨S4x4, .i32⟩
  | 72 => ⟨S_, .i32⟩
  | 73 => ⟨S4x4, .i32⟩
  | 74 => ⟨S4x4, .i32⟩
  | 75 => ⟨S4x4, .i1⟩
  | 76 => ⟨S4x4, .f32⟩
  | 77 => ⟨S1x32x32, .f32⟩
  | 78 => ⟨S32x32, .f32⟩
  | 79 => ⟨S4x1x4x1, .f32⟩
  | 80 => ⟨S1x32x1x32, .f32⟩
  | 81 => ⟨S4x32x4x32, .f32⟩
  | 82 => ⟨S4x32x4x32, .f32⟩
  | 83 => ⟨S4x32x4x32, .f32⟩
  | 84 => ⟨S128x128, .f32⟩
  | 85 => ⟨S1x32, .f32⟩
  | 86 => ⟨S32, .f32⟩
  | 87 => ⟨S1x32, .f32⟩
  | 88 => ⟨S4x32, .f32⟩
  | 89 => ⟨S128, .f32⟩
  | 90 => ⟨S200000x128, .f32⟩
  | 91 => ⟨S200000x128, .f32⟩
  | 92 => ⟨S200000x128, .f32⟩
  | 93 => ⟨S200000x128, .f32⟩
  | 94 => ⟨S1x128, .f32⟩
  | 95 => ⟨S200000x128, .f32⟩
  | 96 => ⟨S200000x128, .f32⟩
  | 97 => ⟨S200000x128, .f32⟩
  | 98 => ⟨S800000x32, .f32⟩
  | 99 => ⟨S800000x32, .f32⟩
  | 100 => ⟨S800000x32, .f32⟩
  | 101 => ⟨S_, .f32⟩
  | 102 => ⟨S100000x32, .f32⟩
  | 103 => ⟨S800000x1, .i32⟩
  | 104 => ⟨S100000x32, .f32⟩
  | 105 => ⟨S_, .f32⟩
  | 106 => ⟨S100000x32, .f32⟩
  | 107 => ⟨S800000x1, .i32⟩
  | 108 => ⟨S100000x32, .f32⟩
  | 109 => ⟨S25000x128, .f32⟩
  | 110 => ⟨S25000x128, .f32⟩
  | 111 => ⟨S25000x128, .f32⟩
  | 112 => ⟨S25000x128, .f32⟩
  | 113 => ⟨S100000x32, .f32⟩
  | 114 => ⟨S_, .f32⟩
  | 115 => ⟨S32, .f32⟩
  | 116 => ⟨S_, .f32⟩
  | 117 => ⟨S32, .f32⟩
  | 118 => ⟨S32, .f32⟩
  | 119 => ⟨S_, .i32⟩
  | 120 => ⟨S_, .f32⟩
  | 121 => ⟨S32, .f32⟩
  | 122 => ⟨S1x32, .f32⟩
  | 123 => ⟨S_, .f32⟩
  | 124 => ⟨S1x32, .f32⟩
  | 125 => ⟨S1x32, .f32⟩
  | 126 => ⟨S100000x32, .f32⟩
  | 127 => ⟨S100000x32, .f32⟩
  | _ => ⟨S100000x1, .f32⟩

abbrev hbmTy0_4 (i : Nat) : BufTy := match i % 128 with
  | 0 => ⟨S100000x32, .f32⟩
  | 1 => ⟨S_, .f32⟩
  | 2 => ⟨S_, .f32⟩
  | 3 => ⟨S_, .f32⟩
  | 4 => ⟨S_, .f32⟩
  | 5 => ⟨S32, .f32⟩
  | 6 => ⟨S32, .f32⟩
  | 7 => ⟨S32, .f32⟩
  | 8 => ⟨S_, .f32⟩
  | 9 => ⟨S_, .i1⟩
  | 10 => ⟨S_, .f32⟩
  | 11 => ⟨S_, .f32⟩
  | 12 => ⟨S32, .f32⟩
  | 13 => ⟨S32, .f32⟩
  | 14 => ⟨S_, .f32⟩
  | 15 => ⟨S32, .f32⟩
  | 16 => ⟨S_, .f32⟩
  | 17 => ⟨S32, .f32⟩
  | 18 => ⟨S32, .f32⟩
  | 19 => ⟨S_, .i32⟩
  | 20 => ⟨S_, .f32⟩
  | 21 => ⟨S32, .f32⟩
  | 22 => ⟨S1x32, .f32⟩
  | 23 => ⟨S_, .f32⟩
  | 24 => ⟨S1x32, .f32⟩
  | 25 => ⟨S1x32, .f32⟩
  | 26 => ⟨S800000x32, .f32⟩
  | 27 => ⟨S800000x32, .f32⟩
  | 28 => ⟨S800000x32, .f32⟩
  | 29 => ⟨S_, .f32⟩
  | 30 => ⟨S_, .f32⟩
  | 31 => ⟨S_, .f32⟩
  | 32 => ⟨S_, .f32⟩
  | 33 => ⟨S32, .f32⟩
  | 34 => ⟨S32, .f32⟩
  | 35 => ⟨S32, .f32⟩
  | 36 => ⟨S_, .f32⟩
  | 37 => ⟨S_, .i1⟩
  | 38 => ⟨S_, .f32⟩
  | 39 => ⟨S_, .f32⟩
  | 40 => ⟨S32, .f32⟩
  | 41 => ⟨S32, .f32⟩
  | 42 => ⟨S1x32, .f32⟩
  | 43 => ⟨S4x32, .f32⟩
  | 44 => ⟨S128, .f32⟩
  | 45 => ⟨S1x32, .f32⟩
  | 46 => ⟨S4x32, .f32⟩
  | 47 => ⟨S128, .f32⟩
  | 48 => ⟨S1x32, .f32⟩
  | 49 => ⟨S32, .f32⟩
  | 50 => ⟨S1x32, .f32⟩
  | 51 => ⟨S4x32, .f32⟩
  | 52 => ⟨S128, .f32⟩
  | 53 => ⟨S1x32, .f32⟩
  | 54 => ⟨S32, .f32⟩
  | 55 => ⟨S1x32, .f32⟩
  | 56 => ⟨S4x32, .f32⟩
  | 57 => ⟨S128, .f32⟩
  | 58 => ⟨S1x32, .f32⟩
  | 59 => ⟨S4x32, .f32⟩
  | 60 => ⟨S128, .f32⟩
  | 61 => ⟨S1x32, .f32⟩
  | 62 => ⟨S4x32, .f32⟩
  | 63 => ⟨S128, .f32⟩
  | 64 => ⟨S1x32, .f32⟩
  | 65 => ⟨S32, .f32⟩
  | 66 => ⟨S1x32, .f32⟩
  | 67 => ⟨S4x32, .f32⟩
  | 68 => ⟨S128, .f32⟩
  | 69 => ⟨S1x32, .f32⟩
  | 70 => ⟨S32, .f32⟩
  | 71 => ⟨S1x32, .f32⟩
  | 72 => ⟨S4x32, .f32⟩
  | 73 => ⟨S128, .f32⟩
  | 74 => ⟨S25000x128, .f32⟩
  | 75 => ⟨S1x128, .f32⟩
  | 76 => ⟨S1x128, .f32⟩
  | 77 => ⟨S1x128, .f32⟩
  | 78 => ⟨S1x128, .f32⟩
  | 79 => ⟨S25000x128, .f32⟩
  | 80 => ⟨S100000x32, .f32⟩
  | 81 => ⟨S200000x128, .f32⟩
  | 82 => ⟨S1x128, .f32⟩
  | 83 => ⟨S1x128, .f32⟩
  | 84 => ⟨S1x128, .f32⟩
  | 85 => ⟨S1x128, .f32⟩
  | 86 => ⟨S200000x128, .f32⟩
  | 87 => ⟨S800000x32, .f32⟩
  | 88 => ⟨S1x32x32, .f32⟩
  | 89 => ⟨S32x32, .f32⟩
  | 90 => ⟨S1x32x32, .f32⟩
  | 91 => ⟨S32x32, .f32⟩
  | 92 => ⟨S1x32x32, .f32⟩
  | 93 => ⟨S32x32, .f32⟩
  | 94 => ⟨S1x32x32, .f32⟩
  | 95 => ⟨S32x32, .f32⟩
  | 96 => ⟨S32x128, .f32⟩
  | 97 => ⟨S1x32, .f32⟩
  | 98 => ⟨S32, .f32⟩
  | 99 => ⟨S1x32, .f32⟩
  | 100 => ⟨S32, .f32⟩
  | 101 => ⟨S1x32, .f32⟩
  | 102 => ⟨S32, .f32⟩
  | 103 => ⟨S1x32, .f32⟩
  | 104 => ⟨S32, .f32⟩
  | 105 => ⟨S128, .f32⟩
  | 106 => ⟨S1x128, .f32⟩
  | 107 => ⟨S100000x128, .f32⟩
  | 108 => ⟨S100000x32, .f32⟩
  | 109 => ⟨S100000x64, .f32⟩
  | 110 => ⟨S100000x32, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x32, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S100000x1, .f32⟩

abbrev hbmTy0_5 (i : Nat) : BufTy := match i % 128 with
  | 0 => ⟨S800000x64, .f32⟩
  | 1 => ⟨S800000x32, .f32⟩
  | 2 => ⟨S800000x32, .f32⟩
  | 3 => ⟨S4x4, .i32⟩
  | 4 => ⟨S4x4, .i32⟩
  | 5 => ⟨S_, .i32⟩
  | 6 => ⟨S4x4, .i32⟩
  | 7 => ⟨S4x4, .i32⟩
  | 8 => ⟨S4x4, .i1⟩
  | 9 => ⟨S4x4, .f32⟩
  | 10 => ⟨S1x32x32, .f32⟩
  | 11 => ⟨S32x32, .f32⟩
  | 12 => ⟨S4x1x4x1, .f32⟩
  | 13 => ⟨S1x32x1x32, .f32⟩
  | 14 => ⟨S4x32x4x32, .f32⟩
  | 15 => ⟨S4x32x4x32, .f32⟩
  | 16 => ⟨S4x32x4x32, .f32⟩
  | 17 => ⟨S128x128, .f32⟩
  | 18 => ⟨S1x32, .f32⟩
  | 19 => ⟨S32, .f32⟩
  | 20 => ⟨S1x32, .f32⟩
  | 21 => ⟨S4x32, .f32⟩
  | 22 => ⟨S128, .f32⟩
  | 23 => ⟨S200000x128, .f32⟩
  | 24 => ⟨S200000x128, .f32⟩
  | 25 => ⟨S200000x128, .f32⟩
  | 26 => ⟨S200000x128, .f32⟩
  | 27 => ⟨S1x128, .f32⟩
  | 28 => ⟨S200000x128, .f32⟩
  | 29 => ⟨S200000x128, .f32⟩
  | 30 => ⟨S200000x128, .f32⟩
  | 31 => ⟨S800000x32, .f32⟩
  | 32 => ⟨S800000x32, .f32⟩
  | 33 => ⟨S800000x32, .f32⟩
  | 34 => ⟨S_, .f32⟩
  | 35 => ⟨S100000x32, .f32⟩
  | 36 => ⟨S800000x1, .i32⟩
  | 37 => ⟨S100000x32, .f32⟩
  | 38 => ⟨S_, .f32⟩
  | 39 => ⟨S100000x32, .f32⟩
  | 40 => ⟨S800000x1, .i32⟩
  | 41 => ⟨S100000x32, .f32⟩
  | 42 => ⟨S25000x128, .f32⟩
  | 43 => ⟨S25000x128, .f32⟩
  | 44 => ⟨S25000x128, .f32⟩
  | 45 => ⟨S25000x128, .f32⟩
  | 46 => ⟨S100000x32, .f32⟩
  | 47 => ⟨S_, .f32⟩
  | 48 => ⟨S32, .f32⟩
  | 49 => ⟨S_, .f32⟩
  | 50 => ⟨S32, .f32⟩
  | 51 => ⟨S32, .f32⟩
  | 52 => ⟨S_, .i32⟩
  | 53 => ⟨S_, .f32⟩
  | 54 => ⟨S32, .f32⟩
  | 55 => ⟨S1x32, .f32⟩
  | 56 => ⟨S_, .f32⟩
  | 57 => ⟨S1x32, .f32⟩
  | 58 => ⟨S1x32, .f32⟩
  | 59 => ⟨S100000x32, .f32⟩
  | 60 => ⟨S100000x32, .f32⟩
  | 61 => ⟨S100000x32, .f32⟩
  | 62 => ⟨S_, .f32⟩
  | 63 => ⟨S_, .f32⟩
  | 64 => ⟨S_, .f32⟩
  | 65 => ⟨S_, .f32⟩
  | 66 => ⟨S32, .f32⟩
  | 67 => ⟨S32, .f32⟩
  | 68 => ⟨S32, .f32⟩
  | 69 => ⟨S_, .f32⟩
  | 70 => ⟨S_, .i1⟩
  | 71 => ⟨S_, .f32⟩
  | 72 => ⟨S_, .f32⟩
  | 73 => ⟨S32, .f32⟩
  | 74 => ⟨S32, .f32⟩
  | 75 => ⟨S_, .f32⟩
  | 76 => ⟨S32, .f32⟩
  | 77 => ⟨S_, .f32⟩
  | 78 => ⟨S32, .f32⟩
  | 79 => ⟨S32, .f32⟩
  | 80 => ⟨S_, .i32⟩
  | 81 => ⟨S_, .f32⟩
  | 82 => ⟨S32, .f32⟩
  | 83 => ⟨S1x32, .f32⟩
  | 84 => ⟨S_, .f32⟩
  | 85 => ⟨S1x32, .f32⟩
  | 86 => ⟨S1x32, .f32⟩
  | 87 => ⟨S800000x32, .f32⟩
  | 88 => ⟨S800000x32, .f32⟩
  | 89 => ⟨S800000x32, .f32⟩
  | 90 => ⟨S_, .f32⟩
  | 91 => ⟨S_, .f32⟩
  | 92 => ⟨S_, .f32⟩
  | 93 => ⟨S_, .f32⟩
  | 94 => ⟨S32, .f32⟩
  | 95 => ⟨S32, .f32⟩
  | 96 => ⟨S32, .f32⟩
  | 97 => ⟨S_, .f32⟩
  | 98 => ⟨S_, .i1⟩
  | 99 => ⟨S_, .f32⟩
  | 100 => ⟨S_, .f32⟩
  | 101 => ⟨S32, .f32⟩
  | 102 => ⟨S32, .f32⟩
  | 103 => ⟨S1x32, .f32⟩
  | 104 => ⟨S4x32, .f32⟩
  | 105 => ⟨S128, .f32⟩
  | 106 => ⟨S1x32, .f32⟩
  | 107 => ⟨S4x32, .f32⟩
  | 108 => ⟨S128, .f32⟩
  | 109 => ⟨S1x32, .f32⟩
  | 110 => ⟨S32, .f32⟩
  | 111 => ⟨S1x32, .f32⟩
  | 112 => ⟨S4x32, .f32⟩
  | 113 => ⟨S128, .f32⟩
  | 114 => ⟨S1x32, .f32⟩
  | 115 => ⟨S32, .f32⟩
  | 116 => ⟨S1x32, .f32⟩
  | 117 => ⟨S4x32, .f32⟩
  | 118 => ⟨S128, .f32⟩
  | 119 => ⟨S1x32, .f32⟩
  | 120 => ⟨S4x32, .f32⟩
  | 121 => ⟨S128, .f32⟩
  | 122 => ⟨S1x32, .f32⟩
  | 123 => ⟨S4x32, .f32⟩
  | 124 => ⟨S128, .f32⟩
  | 125 => ⟨S1x32, .f32⟩
  | 126 => ⟨S32, .f32⟩
  | 127 => ⟨S1x32, .f32⟩
  | _ => ⟨S100000x1, .f32⟩

abbrev hbmTy0_6 (i : Nat) : BufTy := match i % 128 with
  | 0 => ⟨S4x32, .f32⟩
  | 1 => ⟨S128, .f32⟩
  | 2 => ⟨S1x32, .f32⟩
  | 3 => ⟨S32, .f32⟩
  | 4 => ⟨S1x32, .f32⟩
  | 5 => ⟨S4x32, .f32⟩
  | 6 => ⟨S128, .f32⟩
  | 7 => ⟨S25000x128, .f32⟩
  | 8 => ⟨S1x128, .f32⟩
  | 9 => ⟨S1x128, .f32⟩
  | 10 => ⟨S1x128, .f32⟩
  | 11 => ⟨S1x128, .f32⟩
  | 12 => ⟨S25000x128, .f32⟩
  | 13 => ⟨S100000x32, .f32⟩
  | 14 => ⟨S200000x128, .f32⟩
  | 15 => ⟨S1x128, .f32⟩
  | 16 => ⟨S1x128, .f32⟩
  | 17 => ⟨S1x128, .f32⟩
  | 18 => ⟨S1x128, .f32⟩
  | 19 => ⟨S200000x128, .f32⟩
  | 20 => ⟨S800000x32, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x32, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x32, .f32⟩
  | 39 => ⟨S32x32, .f32⟩
  | 40 => ⟨S32x32, .f32⟩
  | 41 => ⟨S32x32, .f32⟩
  | 42 => ⟨S1x32, .f32⟩
  | 43 => ⟨S1x1, .f32⟩
  | 44 => ⟨S800000x1, .f32⟩
  | _ => ⟨S100000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x1, .f32⟩

abbrev vmemTy0_0 (i : Nat) : BufTy := match i % 128 with
  | 0 => ⟨S5000x1, .f32⟩
  | 1 => ⟨S5000x1, .f32⟩
  | 2 => ⟨S1x32, .f32⟩
  | 3 => ⟨S1x32, .f32⟩
  | 4 => ⟨S5000x32, .f32⟩
  | 5 => ⟨S5000x32, .f32⟩
  | 6 => ⟨S5000x1, .f32⟩
  | 7 => ⟨S5000x1, .f32⟩
  | 8 => ⟨S1x32, .f32⟩
  | 9 => ⟨S1x32, .f32⟩
  | 10 => ⟨S5000x32, .f32⟩
  | 11 => ⟨S5000x32, .f32⟩
  | 12 => ⟨S5000x32, .f32⟩
  | 13 => ⟨S5000x32, .f32⟩
  | 14 => ⟨S32x128, .f32⟩
  | 15 => ⟨S1x128, .f32⟩
  | 16 => ⟨S5000x128, .f32⟩
  | 17 => ⟨S5000x128, .f32⟩
  | 18 => ⟨S4000x128, .f32⟩
  | 19 => ⟨S4000x128, .f32⟩
  | 20 => ⟨S4000x128, .f32⟩
  | 21 => ⟨S4000x128, .f32⟩
  | 22 => ⟨S4000x128, .f32⟩
  | 23 => ⟨S4000x128, .f32⟩
  | 24 => ⟨S4000x128, .f32⟩
  | 25 => ⟨S4000x128, .f32⟩
  | 26 => ⟨S128x128, .f32⟩
  | 27 => ⟨S1x128, .f32⟩
  | 28 => ⟨S4000x128, .f32⟩
  | 29 => ⟨S4000x128, .f32⟩
  | 30 => ⟨S4000x128, .f32⟩
  | 31 => ⟨S4000x128, .f32⟩
  | 32 => ⟨S4000x128, .f32⟩
  | 33 => ⟨S4000x128, .f32⟩
  | 34 => ⟨S5000x128, .f32⟩
  | 35 => ⟨S5000x128, .f32⟩
  | 36 => ⟨S5000x128, .f32⟩
  | 37 => ⟨S5000x128, .f32⟩
  | 38 => ⟨S5000x128, .f32⟩
  | 39 => ⟨S5000x128, .f32⟩
  | 40 => ⟨S5000x128, .f32⟩
  | 41 => ⟨S5000x128, .f32⟩
  | 42 => ⟨S5000x128, .f32⟩
  | 43 => ⟨S5000x128, .f32⟩
  | 44 => ⟨S5000x128, .f32⟩
  | 45 => ⟨S5000x128, .f32⟩
  | 46 => ⟨S1x128, .f32⟩
  | 47 => ⟨S1x128, .f32⟩
  | 48 => ⟨S1x128, .f32⟩
  | 49 => ⟨S1x128, .f32⟩
  | 50 => ⟨S5000x128, .f32⟩
  | 51 => ⟨S5000x128, .f32⟩
  | 52 => ⟨S4000x128, .f32⟩
  | 53 => ⟨S4000x128, .f32⟩
  | 54 => ⟨S4000x128, .f32⟩
  | 55 => ⟨S4000x128, .f32⟩
  | 56 => ⟨S1x128, .f32⟩
  | 57 => ⟨S1x128, .f32⟩
  | 58 => ⟨S1x128, .f32⟩
  | 59 => ⟨S1x128, .f32⟩
  | 60 => ⟨S4000x128, .f32⟩
  | 61 => ⟨S4000x128, .f32⟩
  | 62 => ⟨S5000x32, .f32⟩
  | 63 => ⟨S5000x32, .f32⟩
  | 64 => ⟨S32x128, .f32⟩
  | 65 => ⟨S1x128, .f32⟩
  | 66 => ⟨S5000x128, .f32⟩
  | 67 => ⟨S5000x128, .f32⟩
  | 68 => ⟨S4000x128, .f32⟩
  | 69 => ⟨S4000x128, .f32⟩
  | 70 => ⟨S4000x128, .f32⟩
  | 71 => ⟨S4000x128, .f32⟩
  | 72 => ⟨S4000x128, .f32⟩
  | 73 => ⟨S4000x128, .f32⟩
  | 74 => ⟨S4000x128, .f32⟩
  | 75 => ⟨S4000x128, .f32⟩
  | 76 => ⟨S128x128, .f32⟩
  | 77 => ⟨S1x128, .f32⟩
  | 78 => ⟨S4000x128, .f32⟩
  | 79 => ⟨S4000x128, .f32⟩
  | 80 => ⟨S4000x128, .f32⟩
  | 81 => ⟨S4000x128, .f32⟩
  | 82 => ⟨S4000x128, .f32⟩
  | 83 => ⟨S4000x128, .f32⟩
  | 84 => ⟨S5000x128, .f32⟩
  | 85 => ⟨S5000x128, .f32⟩
  | 86 => ⟨S5000x128, .f32⟩
  | 87 => ⟨S5000x128, .f32⟩
  | 88 => ⟨S5000x128, .f32⟩
  | 89 => ⟨S5000x128, .f32⟩
  | 90 => ⟨S5000x128, .f32⟩
  | 91 => ⟨S5000x128, .f32⟩
  | 92 => ⟨S5000x128, .f32⟩
  | 93 => ⟨S5000x128, .f32⟩
  | 94 => ⟨S5000x128, .f32⟩
  | 95 => ⟨S5000x128, .f32⟩
  | 96 => ⟨S1x128, .f32⟩
  | 97 => ⟨S1x128, .f32⟩
  | 98 => ⟨S1x128, .f32⟩
  | 99 => ⟨S1x128, .f32⟩
  | 100 => ⟨S5000x128, .f32⟩
  | 101 => ⟨S5000x128, .f32⟩
  | 102 => ⟨S4000x128, .f32⟩
  | 103 => ⟨S4000x128, .f32⟩
  | 104 => ⟨S4000x128, .f32⟩
  | 105 => ⟨S4000x128, .f32⟩
  | 106 => ⟨S1x128, .f32⟩
  | 107 => ⟨S1x128, .f32⟩
  | 108 => ⟨S1x128, .f32⟩
  | 109 => ⟨S1x128, .f32⟩
  | 110 => ⟨S4000x128, .f32⟩
  | 111 => ⟨S4000x128, .f32⟩
  | 112 => ⟨S5000x32, .f32⟩
  | 113 => ⟨S5000x32, .f32⟩
  | 114 => ⟨S32x128, .f32⟩
  | 115 => ⟨S1x128, .f32⟩
  | 116 => ⟨S5000x128, .f32⟩
  | 117 => ⟨S5000x128, .f32⟩
  | 118 => ⟨S4000x128, .f32⟩
  | 119 => ⟨S4000x128, .f32⟩
  | 120 => ⟨S4000x128, .f32⟩
  | 121 => ⟨S4000x128, .f32⟩
  | 122 => ⟨S4000x128, .f32⟩
  | 123 => ⟨S4000x128, .f32⟩
  | 124 => ⟨S4000x128, .f32⟩
  | 125 => ⟨S4000x128, .f32⟩
  | 126 => ⟨S128x128, .f32⟩
  | 127 => ⟨S1x128, .f32⟩
  | _ => ⟨S100000x1, .f32⟩

abbrev vmemTy0_1 (i : Nat) : BufTy := match i % 128 with
  | 0 => ⟨S4000x128, .f32⟩
  | 1 => ⟨S4000x128, .f32⟩
  | 2 => ⟨S4000x128, .f32⟩
  | 3 => ⟨S4000x128, .f32⟩
  | 4 => ⟨S4000x128, .f32⟩
  | 5 => ⟨S4000x128, .f32⟩
  | 6 => ⟨S5000x128, .f32⟩
  | 7 => ⟨S5000x128, .f32⟩
  | 8 => ⟨S5000x128, .f32⟩
  | 9 => ⟨S5000x128, .f32⟩
  | 10 => ⟨S5000x128, .f32⟩
  | 11 => ⟨S5000x128, .f32⟩
  | 12 => ⟨S5000x128, .f32⟩
  | 13 => ⟨S5000x128, .f32⟩
  | 14 => ⟨S5000x128, .f32⟩
  | 15 => ⟨S5000x128, .f32⟩
  | 16 => ⟨S5000x128, .f32⟩
  | 17 => ⟨S5000x128, .f32⟩
  | 18 => ⟨S1x128, .f32⟩
  | 19 => ⟨S1x128, .f32⟩
  | 20 => ⟨S1x128, .f32⟩
  | 21 => ⟨S1x128, .f32⟩
  | 22 => ⟨S5000x128, .f32⟩
  | 23 => ⟨S5000x128, .f32⟩
  | 24 => ⟨S4000x128, .f32⟩
  | 25 => ⟨S4000x128, .f32⟩
  | 26 => ⟨S4000x128, .f32⟩
  | 27 => ⟨S4000x128, .f32⟩
  | 28 => ⟨S1x128, .f32⟩
  | 29 => ⟨S1x128, .f32⟩
  | 30 => ⟨S1x128, .f32⟩
  | 31 => ⟨S1x128, .f32⟩
  | 32 => ⟨S4000x128, .f32⟩
  | 33 => ⟨S4000x128, .f32⟩
  | 34 => ⟨S5000x32, .f32⟩
  | 35 => ⟨S5000x32, .f32⟩
  | 36 => ⟨S32x128, .f32⟩
  | 37 => ⟨S1x128, .f32⟩
  | 38 => ⟨S5000x128, .f32⟩
  | 39 => ⟨S5000x128, .f32⟩
  | 40 => ⟨S4000x128, .f32⟩
  | 41 => ⟨S4000x128, .f32⟩
  | 42 => ⟨S4000x128, .f32⟩
  | 43 => ⟨S4000x128, .f32⟩
  | 44 => ⟨S4000x128, .f32⟩
  | 45 => ⟨S4000x128, .f32⟩
  | 46 => ⟨S4000x128, .f32⟩
  | 47 => ⟨S4000x128, .f32⟩
  | 48 => ⟨S128x128, .f32⟩
  | 49 => ⟨S1x128, .f32⟩
  | 50 => ⟨S4000x128, .f32⟩
  | 51 => ⟨S4000x128, .f32⟩
  | 52 => ⟨S4000x128, .f32⟩
  | 53 => ⟨S4000x128, .f32⟩
  | 54 => ⟨S4000x128, .f32⟩
  | 55 => ⟨S4000x128, .f32⟩
  | 56 => ⟨S5000x128, .f32⟩
  | 57 => ⟨S5000x128, .f32⟩
  | 58 => ⟨S5000x128, .f32⟩
  | 59 => ⟨S5000x128, .f32⟩
  | 60 => ⟨S5000x128, .f32⟩
  | 61 => ⟨S5000x128, .f32⟩
  | 62 => ⟨S5000x128, .f32⟩
  | 63 => ⟨S5000x128, .f32⟩
  | 64 => ⟨S5000x128, .f32⟩
  | 65 => ⟨S5000x128, .f32⟩
  | 66 => ⟨S5000x128, .f32⟩
  | 67 => ⟨S5000x128, .f32⟩
  | 68 => ⟨S1x128, .f32⟩
  | 69 => ⟨S1x128, .f32⟩
  | 70 => ⟨S1x128, .f32⟩
  | 71 => ⟨S1x128, .f32⟩
  | 72 => ⟨S5000x128, .f32⟩
  | 73 => ⟨S5000x128, .f32⟩
  | 74 => ⟨S4000x128, .f32⟩
  | 75 => ⟨S4000x128, .f32⟩
  | 76 => ⟨S4000x128, .f32⟩
  | 77 => ⟨S4000x128, .f32⟩
  | 78 => ⟨S1x128, .f32⟩
  | 79 => ⟨S1x128, .f32⟩
  | 80 => ⟨S1x128, .f32⟩
  | 81 => ⟨S1x128, .f32⟩
  | 82 => ⟨S4000x128, .f32⟩
  | 83 => ⟨S4000x128, .f32⟩
  | 84 => ⟨S5000x32, .f32⟩
  | 85 => ⟨S5000x32, .f32⟩
  | 86 => ⟨S5000x32, .f32⟩
  | 87 => ⟨S5000x32, .f32⟩
  | 88 => ⟨S5000x32, .f32⟩
  | 89 => ⟨S5000x32, .f32⟩
  | 90 => ⟨S32x32, .f32⟩
  | 91 => ⟨S32x32, .f32⟩
  | 92 => ⟨S32x32, .f32⟩
  | 93 => ⟨S1x32, .f32⟩
  | 94 => ⟨S32x1, .f32⟩
  | 95 => ⟨S1x1, .f32⟩
  | 96 => ⟨S5000x1, .f32⟩
  | 97 => ⟨S5000x1, .f32⟩
  | _ => ⟨S100000x1, .f32⟩

abbrev vmemTy (i : Nat) : BufTy := match i / 128 with
  | 0 => vmemTy0_0 i
  | 1 => vmemTy0_1 i
  | _ => ⟨S100000x1, .f32⟩

abbrev bufTy : (tb : Table) → Fin (tcTables nBuf tb) → BufTy
  | .hbm, ⟨i, _⟩ => hbmTy i
  | .local _ .vmem, ⟨i, _⟩ => vmemTy i
  | _, _ => ⟨S100000x1, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 226 → Bool
  | ⟨i, _⟩ => dmaSemScopedAt i

abbrev sig : RefSig :=
  ofTc nBuf bufTy 0 226 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c : Ref sig .tc := ⟨.hbm, 56, rfl⟩
abbrev main_v31 : Ref sig .tc := ⟨.hbm, 57, rfl⟩
abbrev main_v32 : Ref sig .tc := ⟨.hbm, 58, rfl⟩
abbrev main_c_0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_1 : Ref sig .tc := ⟨.hbm, 65, rfl⟩
abbrev main_v38 : Ref sig .tc := ⟨.hbm, 66, rfl⟩
abbrev main_v39 : Ref sig .tc := ⟨.hbm, 67, rfl⟩
abbrev main_c_2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_3 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66_0 : Ref sig .tc := ⟨.hbm, 101, rfl⟩
abbrev main_v66_1 : Ref sig .tc := ⟨.hbm, 102, rfl⟩
abbrev main_v66_2 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_4 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_5 : Ref sig .tc := ⟨.hbm, 120, rfl⟩
abbrev main_v81 : Ref sig .tc := ⟨.hbm, 121, rfl⟩
abbrev main_cst_6 : Ref sig .tc := ⟨.hbm, 122, rfl⟩
abbrev main_v82 : Ref sig .tc := ⟨.hbm, 123, rfl⟩
abbrev main_v83 : Ref sig .tc := ⟨.hbm, 124, rfl⟩
abbrev main_c_7 : Ref sig .tc := ⟨.hbm, 125, rfl⟩
abbrev main_call1_cst : Ref sig .tc := ⟨.hbm, 126, rfl⟩
abbrev main_call1_v0 : Ref sig .tc := ⟨.hbm, 127, rfl⟩
abbrev main_call1_v1 : Ref sig .tc := ⟨.hbm, 128, rfl⟩
abbrev main_call1_cst_0 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_call1_v5 : Ref sig .tc := ⟨.hbm, 133, rfl⟩
abbrev main_call1_v6 : Ref sig .tc := ⟨.hbm, 134, rfl⟩
abbrev main_call1_v7 : Ref sig .tc := ⟨.hbm, 135, rfl⟩
abbrev main_call1_cst_1 : Ref sig .tc := ⟨.hbm, 136, rfl⟩
abbrev main_call1_v8 : Ref sig .tc := ⟨.hbm, 137, rfl⟩
abbrev main_call1_cst_2 : Ref sig .tc := ⟨.hbm, 138, rfl⟩
abbrev main_call1_v9 : Ref sig .tc := ⟨.hbm, 139, rfl⟩
abbrev main_call1_v10 : Ref sig .tc := ⟨.hbm, 140, rfl⟩
abbrev main_call1_v11 : Ref sig .tc := ⟨.hbm, 141, rfl⟩
abbrev main_call1_cst_3 : Ref sig .tc := ⟨.hbm, 142, rfl⟩
abbrev main_call1_v12 : Ref sig .tc := ⟨.hbm, 143, rfl⟩
abbrev main_call1_cst_4 : Ref sig .tc := ⟨.hbm, 144, rfl⟩
abbrev main_call1_call0_v0 : Ref sig .tc := ⟨.hbm, 145, rfl⟩
abbrev main_call1_call0_v1 : Ref sig .tc := ⟨.hbm, 146, rfl⟩
abbrev main_v84 : Ref sig .tc := ⟨.hbm, 147, rfl⟩
abbrev main_cst_8 : Ref sig .tc := ⟨.hbm, 148, rfl⟩
abbrev main_v85 : Ref sig .tc := ⟨.hbm, 149, rfl⟩
abbrev main_cst_9 : Ref sig .tc := ⟨.hbm, 150, rfl⟩
abbrev main_v86 : Ref sig .tc := ⟨.hbm, 151, rfl⟩
abbrev main_v87 : Ref sig .tc := ⟨.hbm, 152, rfl⟩
abbrev main_c_10 : Ref sig .tc := ⟨.hbm, 153, rfl⟩
abbrev main_call2_cst : Ref sig .tc := ⟨.hbm, 154, rfl⟩
abbrev main_call2_v0 : Ref sig .tc := ⟨.hbm, 155, rfl⟩
abbrev main_call2_v1 : Ref sig .tc := ⟨.hbm, 156, rfl⟩
abbrev main_call2_cst_0 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_call2_v5 : Ref sig .tc := ⟨.hbm, 161, rfl⟩
abbrev main_call2_v6 : Ref sig .tc := ⟨.hbm, 162, rfl⟩
abbrev main_call2_v7 : Ref sig .tc := ⟨.hbm, 163, rfl⟩
abbrev main_call2_cst_1 : Ref sig .tc := ⟨.hbm, 164, rfl⟩
abbrev main_call2_v8 : Ref sig .tc := ⟨.hbm, 165, rfl⟩
abbrev main_call2_cst_2 : Ref sig .tc := ⟨.hbm, 166, rfl⟩
abbrev main_call2_v9 : Ref sig .tc := ⟨.hbm, 167, rfl⟩
abbrev main_call2_v10 : Ref sig .tc := ⟨.hbm, 168, rfl⟩
abbrev main_call2_v11 : Ref sig .tc := ⟨.hbm, 169, rfl⟩
abbrev main_call2_cst_3 : Ref sig .tc := ⟨.hbm, 170, rfl⟩
abbrev main_call2_v12 : Ref sig .tc := ⟨.hbm, 171, rfl⟩
abbrev main_call2_cst_4 : Ref sig .tc := ⟨.hbm, 172, rfl⟩
abbrev main_call2_call0_v0 : Ref sig .tc := ⟨.hbm, 173, rfl⟩
abbrev main_call2_call0_v1 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_c_11 : Ref sig .tc := ⟨.hbm, 245, rfl⟩
abbrev main_v158 : Ref sig .tc := ⟨.hbm, 246, rfl⟩
abbrev main_v159 : Ref sig .tc := ⟨.hbm, 247, rfl⟩
abbrev main_c_12 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_c_13 : Ref sig .tc := ⟨.hbm, 254, rfl⟩
abbrev main_v165 : Ref sig .tc := ⟨.hbm, 255, rfl⟩
abbrev main_v166 : Ref sig .tc := ⟨.hbm, 256, rfl⟩
abbrev main_c_14 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_c_15 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_call3_v0 : Ref sig .tc := ⟨.hbm, 274, rfl⟩
abbrev main_call3_v1 : Ref sig .tc := ⟨.hbm, 275, rfl⟩
abbrev main_call3_v2 : Ref sig .tc := ⟨.hbm, 276, rfl⟩
abbrev main_call3_v3 : Ref sig .tc := ⟨.hbm, 277, rfl⟩
abbrev main_call3_v4 : Ref sig .tc := ⟨.hbm, 278, rfl⟩
abbrev main_v182 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193_0 : Ref sig .tc := ⟨.hbm, 290, rfl⟩
abbrev main_v193_1 : Ref sig .tc := ⟨.hbm, 291, rfl⟩
abbrev main_v193_2 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_cst_16 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_cst_17 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_cst_18 : Ref sig .tc := ⟨.hbm, 309, rfl⟩
abbrev main_v208 : Ref sig .tc := ⟨.hbm, 310, rfl⟩
abbrev main_cst_19 : Ref sig .tc := ⟨.hbm, 311, rfl⟩
abbrev main_v209 : Ref sig .tc := ⟨.hbm, 312, rfl⟩
abbrev main_v210 : Ref sig .tc := ⟨.hbm, 313, rfl⟩
abbrev main_c_20 : Ref sig .tc := ⟨.hbm, 314, rfl⟩
abbrev main_call4_cst : Ref sig .tc := ⟨.hbm, 315, rfl⟩
abbrev main_call4_v0 : Ref sig .tc := ⟨.hbm, 316, rfl⟩
abbrev main_call4_v1 : Ref sig .tc := ⟨.hbm, 317, rfl⟩
abbrev main_call4_cst_0 : Ref sig .tc := ⟨.hbm, 318, rfl⟩
abbrev main_call4_v2 : Ref sig .tc := ⟨.hbm, 319, rfl⟩
abbrev main_call4_v3 : Ref sig .tc := ⟨.hbm, 320, rfl⟩
abbrev main_call4_v4 : Ref sig .tc := ⟨.hbm, 321, rfl⟩
abbrev main_call4_v5 : Ref sig .tc := ⟨.hbm, 322, rfl⟩
abbrev main_call4_v6 : Ref sig .tc := ⟨.hbm, 323, rfl⟩
abbrev main_call4_v7 : Ref sig .tc := ⟨.hbm, 324, rfl⟩
abbrev main_call4_cst_1 : Ref sig .tc := ⟨.hbm, 325, rfl⟩
abbrev main_call4_v8 : Ref sig .tc := ⟨.hbm, 326, rfl⟩
abbrev main_call4_cst_2 : Ref sig .tc := ⟨.hbm, 327, rfl⟩
abbrev main_call4_v9 : Ref sig .tc := ⟨.hbm, 328, rfl⟩
abbrev main_call4_v10 : Ref sig .tc := ⟨.hbm, 329, rfl⟩
abbrev main_call4_v11 : Ref sig .tc := ⟨.hbm, 330, rfl⟩
abbrev main_call4_cst_3 : Ref sig .tc := ⟨.hbm, 331, rfl⟩
abbrev main_call4_v12 : Ref sig .tc := ⟨.hbm, 332, rfl⟩
abbrev main_call4_cst_4 : Ref sig .tc := ⟨.hbm, 333, rfl⟩
abbrev main_call4_call0_v0 : Ref sig .tc := ⟨.hbm, 334, rfl⟩
abbrev main_call4_call0_v1 : Ref sig .tc := ⟨.hbm, 335, rfl⟩
abbrev main_v211 : Ref sig .tc := ⟨.hbm, 336, rfl⟩
abbrev main_cst_21 : Ref sig .tc := ⟨.hbm, 337, rfl⟩
abbrev main_v212 : Ref sig .tc := ⟨.hbm, 338, rfl⟩
abbrev main_cst_22 : Ref sig .tc := ⟨.hbm, 339, rfl⟩
abbrev main_v213 : Ref sig .tc := ⟨.hbm, 340, rfl⟩
abbrev main_v214 : Ref sig .tc := ⟨.hbm, 341, rfl⟩
abbrev main_c_23 : Ref sig .tc := ⟨.hbm, 342, rfl⟩
abbrev main_call5_cst : Ref sig .tc := ⟨.hbm, 343, rfl⟩
abbrev main_call5_v0 : Ref sig .tc := ⟨.hbm, 344, rfl⟩
abbrev main_call5_v1 : Ref sig .tc := ⟨.hbm, 345, rfl⟩
abbrev main_call5_cst_0 : Ref sig .tc := ⟨.hbm, 346, rfl⟩
abbrev main_call5_v2 : Ref sig .tc := ⟨.hbm, 347, rfl⟩
abbrev main_call5_v3 : Ref sig .tc := ⟨.hbm, 348, rfl⟩
abbrev main_call5_v4 : Ref sig .tc := ⟨.hbm, 349, rfl⟩
abbrev main_call5_v5 : Ref sig .tc := ⟨.hbm, 350, rfl⟩
abbrev main_call5_v6 : Ref sig .tc := ⟨.hbm, 351, rfl⟩
abbrev main_call5_v7 : Ref sig .tc := ⟨.hbm, 352, rfl⟩
abbrev main_call5_cst_1 : Ref sig .tc := ⟨.hbm, 353, rfl⟩
abbrev main_call5_v8 : Ref sig .tc := ⟨.hbm, 354, rfl⟩
abbrev main_call5_cst_2 : Ref sig .tc := ⟨.hbm, 355, rfl⟩
abbrev main_call5_v9 : Ref sig .tc := ⟨.hbm, 356, rfl⟩
abbrev main_call5_v10 : Ref sig .tc := ⟨.hbm, 357, rfl⟩
abbrev main_call5_v11 : Ref sig .tc := ⟨.hbm, 358, rfl⟩
abbrev main_call5_cst_3 : Ref sig .tc := ⟨.hbm, 359, rfl⟩
abbrev main_call5_v12 : Ref sig .tc := ⟨.hbm, 360, rfl⟩
abbrev main_call5_cst_4 : Ref sig .tc := ⟨.hbm, 361, rfl⟩
abbrev main_call5_call0_v0 : Ref sig .tc := ⟨.hbm, 362, rfl⟩
abbrev main_call5_call0_v1 : Ref sig .tc := ⟨.hbm, 363, rfl⟩
abbrev main_v215 : Ref sig .tc := ⟨.hbm, 364, rfl⟩
abbrev main_v216 : Ref sig .tc := ⟨.hbm, 365, rfl⟩
abbrev main_v217 : Ref sig .tc := ⟨.hbm, 366, rfl⟩
abbrev main_v218 : Ref sig .tc := ⟨.hbm, 367, rfl⟩
abbrev main_v219 : Ref sig .tc := ⟨.hbm, 368, rfl⟩
abbrev main_v220 : Ref sig .tc := ⟨.hbm, 369, rfl⟩
abbrev main_v221 : Ref sig .tc := ⟨.hbm, 370, rfl⟩
abbrev main_v222 : Ref sig .tc := ⟨.hbm, 371, rfl⟩
abbrev main_v223 : Ref sig .tc := ⟨.hbm, 372, rfl⟩
abbrev main_v224 : Ref sig .tc := ⟨.hbm, 373, rfl⟩
abbrev main_v225 : Ref sig .tc := ⟨.hbm, 374, rfl⟩
abbrev main_v226 : Ref sig .tc := ⟨.hbm, 375, rfl⟩
abbrev main_v227 : Ref sig .tc := ⟨.hbm, 376, rfl⟩
abbrev main_v228 : Ref sig .tc := ⟨.hbm, 377, rfl⟩
abbrev main_v229 : Ref sig .tc := ⟨.hbm, 378, rfl⟩
abbrev main_v230 : Ref sig .tc := ⟨.hbm, 379, rfl⟩
abbrev main_v231 : Ref sig .tc := ⟨.hbm, 380, rfl⟩
abbrev main_v232 : Ref sig .tc := ⟨.hbm, 381, rfl⟩
abbrev main_v233 : Ref sig .tc := ⟨.hbm, 382, rfl⟩
abbrev main_v234 : Ref sig .tc := ⟨.hbm, 383, rfl⟩
abbrev main_v235 : Ref sig .tc := ⟨.hbm, 384, rfl⟩
abbrev main_v236 : Ref sig .tc := ⟨.hbm, 385, rfl⟩
abbrev main_v237 : Ref sig .tc := ⟨.hbm, 386, rfl⟩
abbrev main_v238 : Ref sig .tc := ⟨.hbm, 387, rfl⟩
abbrev main_v239 : Ref sig .tc := ⟨.hbm, 388, rfl⟩
abbrev main_v240 : Ref sig .tc := ⟨.hbm, 389, rfl⟩
abbrev main_v241 : Ref sig .tc := ⟨.hbm, 390, rfl⟩
abbrev main_v242 : Ref sig .tc := ⟨.hbm, 391, rfl⟩
abbrev main_v243 : Ref sig .tc := ⟨.hbm, 392, rfl⟩
abbrev main_v244 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_v248 : Ref sig .tc := ⟨.hbm, 397, rfl⟩
abbrev main_v249 : Ref sig .tc := ⟨.hbm, 398, rfl⟩
abbrev main_v250 : Ref sig .tc := ⟨.hbm, 399, rfl⟩
abbrev main_v251 : Ref sig .tc := ⟨.hbm, 400, rfl⟩
abbrev main_v252 : Ref sig .tc := ⟨.hbm, 401, rfl⟩
abbrev main_v253 : Ref sig .tc := ⟨.hbm, 402, rfl⟩
abbrev main_v254 : Ref sig .tc := ⟨.hbm, 403, rfl⟩
abbrev main_v255 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_v259 : Ref sig .tc := ⟨.hbm, 408, rfl⟩
abbrev main_v260 : Ref sig .tc := ⟨.hbm, 409, rfl⟩
abbrev main_v261 : Ref sig .tc := ⟨.hbm, 410, rfl⟩
abbrev main_v262 : Ref sig .tc := ⟨.hbm, 411, rfl⟩
abbrev main_v263 : Ref sig .tc := ⟨.hbm, 412, rfl⟩
abbrev main_v264 : Ref sig .tc := ⟨.hbm, 413, rfl⟩
abbrev main_v265 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_v269 : Ref sig .tc := ⟨.hbm, 418, rfl⟩
abbrev main_v270 : Ref sig .tc := ⟨.hbm, 419, rfl⟩
abbrev main_v271 : Ref sig .tc := ⟨.hbm, 420, rfl⟩
abbrev main_v272 : Ref sig .tc := ⟨.hbm, 421, rfl⟩
abbrev main_v273 : Ref sig .tc := ⟨.hbm, 422, rfl⟩
abbrev main_v274 : Ref sig .tc := ⟨.hbm, 423, rfl⟩
abbrev main_v275 : Ref sig .tc := ⟨.hbm, 424, rfl⟩
abbrev main_v276 : Ref sig .tc := ⟨.hbm, 425, rfl⟩
abbrev main_v277 : Ref sig .tc := ⟨.hbm, 426, rfl⟩
abbrev main_v278 : Ref sig .tc := ⟨.hbm, 427, rfl⟩
abbrev main_v279 : Ref sig .tc := ⟨.hbm, 428, rfl⟩
abbrev main_v280 : Ref sig .tc := ⟨.hbm, 429, rfl⟩
abbrev main_v281 : Ref sig .tc := ⟨.hbm, 430, rfl⟩
abbrev main_v282 : Ref sig .tc := ⟨.hbm, 431, rfl⟩
abbrev main_v283 : Ref sig .tc := ⟨.hbm, 432, rfl⟩
abbrev main_v284 : Ref sig .tc := ⟨.hbm, 433, rfl⟩
abbrev main_c_24 : Ref sig .tc := ⟨.hbm, 434, rfl⟩
abbrev main_v285 : Ref sig .tc := ⟨.hbm, 435, rfl⟩
abbrev main_v286 : Ref sig .tc := ⟨.hbm, 436, rfl⟩
abbrev main_c_25 : Ref sig .tc := ⟨.hbm, 437, rfl⟩
abbrev main_v287 : Ref sig .tc := ⟨.hbm, 438, rfl⟩
abbrev main_v288 : Ref sig .tc := ⟨.hbm, 439, rfl⟩
abbrev main_v289 : Ref sig .tc := ⟨.hbm, 440, rfl⟩
abbrev main_v290 : Ref sig .tc := ⟨.hbm, 441, rfl⟩
abbrev main_v291 : Ref sig .tc := ⟨.hbm, 442, rfl⟩
abbrev main_c_26 : Ref sig .tc := ⟨.hbm, 443, rfl⟩
abbrev main_v292 : Ref sig .tc := ⟨.hbm, 444, rfl⟩
abbrev main_v293 : Ref sig .tc := ⟨.hbm, 445, rfl⟩
abbrev main_c_27 : Ref sig .tc := ⟨.hbm, 446, rfl⟩
abbrev main_v294 : Ref sig .tc := ⟨.hbm, 447, rfl⟩
abbrev main_v295 : Ref sig .tc := ⟨.hbm, 448, rfl⟩
abbrev main_v296 : Ref sig .tc := ⟨.hbm, 449, rfl⟩
abbrev main_v297 : Ref sig .tc := ⟨.hbm, 450, rfl⟩
abbrev main_v298 : Ref sig .tc := ⟨.hbm, 451, rfl⟩
abbrev main_v299 : Ref sig .tc := ⟨.hbm, 452, rfl⟩
abbrev main_v300 : Ref sig .tc := ⟨.hbm, 453, rfl⟩
abbrev main_v301 : Ref sig .tc := ⟨.hbm, 454, rfl⟩
abbrev main_v302 : Ref sig .tc := ⟨.hbm, 455, rfl⟩
abbrev main_c_28 : Ref sig .tc := ⟨.hbm, 456, rfl⟩
abbrev main_v303 : Ref sig .tc := ⟨.hbm, 457, rfl⟩
abbrev main_v304 : Ref sig .tc := ⟨.hbm, 458, rfl⟩
abbrev main_v305 : Ref sig .tc := ⟨.hbm, 459, rfl⟩
abbrev main_v306 : Ref sig .tc := ⟨.hbm, 460, rfl⟩
abbrev main_v307 : Ref sig .tc := ⟨.hbm, 461, rfl⟩
abbrev main_v308 : Ref sig .tc := ⟨.hbm, 462, rfl⟩
abbrev main_call6_v0 : Ref sig .tc := ⟨.hbm, 463, rfl⟩
abbrev main_call6_v1 : Ref sig .tc := ⟨.hbm, 464, rfl⟩
abbrev main_call6_v2 : Ref sig .tc := ⟨.hbm, 465, rfl⟩
abbrev main_call6_v3 : Ref sig .tc := ⟨.hbm, 466, rfl⟩
abbrev main_call6_v4 : Ref sig .tc := ⟨.hbm, 467, rfl⟩
abbrev main_v309 : Ref sig .tc := ⟨.hbm, 468, rfl⟩
abbrev main_v310 : Ref sig .tc := ⟨.hbm, 469, rfl⟩
abbrev main_v311 : Ref sig .tc := ⟨.hbm, 470, rfl⟩
abbrev main_v312 : Ref sig .tc := ⟨.hbm, 471, rfl⟩
abbrev main_v313 : Ref sig .tc := ⟨.hbm, 472, rfl⟩
abbrev main_v314 : Ref sig .tc := ⟨.hbm, 473, rfl⟩
abbrev main_v315 : Ref sig .tc := ⟨.hbm, 474, rfl⟩
abbrev main_v316 : Ref sig .tc := ⟨.hbm, 475, rfl⟩
abbrev main_v317 : Ref sig .tc := ⟨.hbm, 476, rfl⟩
abbrev main_v318 : Ref sig .tc := ⟨.hbm, 477, rfl⟩
abbrev main_v319 : Ref sig .tc := ⟨.hbm, 478, rfl⟩
abbrev main_v320_0 : Ref sig .tc := ⟨.hbm, 479, rfl⟩
abbrev main_v320_1 : Ref sig .tc := ⟨.hbm, 480, rfl⟩
abbrev main_v320_2 : Ref sig .tc := ⟨.hbm, 481, rfl⟩
abbrev main_v321 : Ref sig .tc := ⟨.hbm, 482, rfl⟩
abbrev main_v322 : Ref sig .tc := ⟨.hbm, 483, rfl⟩
abbrev main_v323 : Ref sig .tc := ⟨.hbm, 484, rfl⟩
abbrev main_cst_29 : Ref sig .tc := ⟨.hbm, 485, rfl⟩
abbrev main_v324 : Ref sig .tc := ⟨.hbm, 486, rfl⟩
abbrev main_v325 : Ref sig .tc := ⟨.hbm, 487, rfl⟩
abbrev main_v326 : Ref sig .tc := ⟨.hbm, 488, rfl⟩
abbrev main_cst_30 : Ref sig .tc := ⟨.hbm, 489, rfl⟩
abbrev main_v327 : Ref sig .tc := ⟨.hbm, 490, rfl⟩
abbrev main_v328 : Ref sig .tc := ⟨.hbm, 491, rfl⟩
abbrev main_v329 : Ref sig .tc := ⟨.hbm, 492, rfl⟩
abbrev main_v330 : Ref sig .tc := ⟨.hbm, 493, rfl⟩
abbrev main_v331 : Ref sig .tc := ⟨.hbm, 494, rfl⟩
abbrev main_v332 : Ref sig .tc := ⟨.hbm, 495, rfl⟩
abbrev main_v333 : Ref sig .tc := ⟨.hbm, 496, rfl⟩
abbrev main_v334 : Ref sig .tc := ⟨.hbm, 497, rfl⟩
abbrev main_cst_31 : Ref sig .tc := ⟨.hbm, 498, rfl⟩
abbrev main_v335 : Ref sig .tc := ⟨.hbm, 499, rfl⟩
abbrev main_cst_32 : Ref sig .tc := ⟨.hbm, 500, rfl⟩
abbrev main_v336 : Ref sig .tc := ⟨.hbm, 501, rfl⟩
abbrev main_v337 : Ref sig .tc := ⟨.hbm, 502, rfl⟩
abbrev main_c_33 : Ref sig .tc := ⟨.hbm, 503, rfl⟩
abbrev main_call7_cst : Ref sig .tc := ⟨.hbm, 504, rfl⟩
abbrev main_call7_v0 : Ref sig .tc := ⟨.hbm, 505, rfl⟩
abbrev main_call7_v1 : Ref sig .tc := ⟨.hbm, 506, rfl⟩
abbrev main_call7_cst_0 : Ref sig .tc := ⟨.hbm, 507, rfl⟩
abbrev main_call7_v2 : Ref sig .tc := ⟨.hbm, 508, rfl⟩
abbrev main_call7_v3 : Ref sig .tc := ⟨.hbm, 509, rfl⟩
abbrev main_call7_v4 : Ref sig .tc := ⟨.hbm, 510, rfl⟩
abbrev main_call7_v5 : Ref sig .tc := ⟨.hbm, 511, rfl⟩
abbrev main_call7_v6 : Ref sig .tc := ⟨.hbm, 512, rfl⟩
abbrev main_call7_v7 : Ref sig .tc := ⟨.hbm, 513, rfl⟩
abbrev main_call7_cst_1 : Ref sig .tc := ⟨.hbm, 514, rfl⟩
abbrev main_call7_v8 : Ref sig .tc := ⟨.hbm, 515, rfl⟩
abbrev main_call7_cst_2 : Ref sig .tc := ⟨.hbm, 516, rfl⟩
abbrev main_call7_v9 : Ref sig .tc := ⟨.hbm, 517, rfl⟩
abbrev main_call7_v10 : Ref sig .tc := ⟨.hbm, 518, rfl⟩
abbrev main_call7_v11 : Ref sig .tc := ⟨.hbm, 519, rfl⟩
abbrev main_call7_cst_3 : Ref sig .tc := ⟨.hbm, 520, rfl⟩
abbrev main_call7_v12 : Ref sig .tc := ⟨.hbm, 521, rfl⟩
abbrev main_call7_cst_4 : Ref sig .tc := ⟨.hbm, 522, rfl⟩
abbrev main_call7_call0_v0 : Ref sig .tc := ⟨.hbm, 523, rfl⟩
abbrev main_call7_call0_v1 : Ref sig .tc := ⟨.hbm, 524, rfl⟩
abbrev main_v338 : Ref sig .tc := ⟨.hbm, 525, rfl⟩
abbrev main_cst_34 : Ref sig .tc := ⟨.hbm, 526, rfl⟩
abbrev main_v339 : Ref sig .tc := ⟨.hbm, 527, rfl⟩
abbrev main_cst_35 : Ref sig .tc := ⟨.hbm, 528, rfl⟩
abbrev main_v340 : Ref sig .tc := ⟨.hbm, 529, rfl⟩
abbrev main_v341 : Ref sig .tc := ⟨.hbm, 530, rfl⟩
abbrev main_c_36 : Ref sig .tc := ⟨.hbm, 531, rfl⟩
abbrev main_call8_cst : Ref sig .tc := ⟨.hbm, 532, rfl⟩
abbrev main_call8_v0 : Ref sig .tc := ⟨.hbm, 533, rfl⟩
abbrev main_call8_v1 : Ref sig .tc := ⟨.hbm, 534, rfl⟩
abbrev main_call8_cst_0 : Ref sig .tc := ⟨.hbm, 535, rfl⟩
abbrev main_call8_v2 : Ref sig .tc := ⟨.hbm, 536, rfl⟩
abbrev main_call8_v3 : Ref sig .tc := ⟨.hbm, 537, rfl⟩
abbrev main_call8_v4 : Ref sig .tc := ⟨.hbm, 538, rfl⟩
abbrev main_call8_v5 : Ref sig .tc := ⟨.hbm, 539, rfl⟩
abbrev main_call8_v6 : Ref sig .tc := ⟨.hbm, 540, rfl⟩
abbrev main_call8_v7 : Ref sig .tc := ⟨.hbm, 541, rfl⟩
abbrev main_call8_cst_1 : Ref sig .tc := ⟨.hbm, 542, rfl⟩
abbrev main_call8_v8 : Ref sig .tc := ⟨.hbm, 543, rfl⟩
abbrev main_call8_cst_2 : Ref sig .tc := ⟨.hbm, 544, rfl⟩
abbrev main_call8_v9 : Ref sig .tc := ⟨.hbm, 545, rfl⟩
abbrev main_call8_v10 : Ref sig .tc := ⟨.hbm, 546, rfl⟩
abbrev main_call8_v11 : Ref sig .tc := ⟨.hbm, 547, rfl⟩
abbrev main_call8_cst_3 : Ref sig .tc := ⟨.hbm, 548, rfl⟩
abbrev main_call8_v12 : Ref sig .tc := ⟨.hbm, 549, rfl⟩
abbrev main_call8_cst_4 : Ref sig .tc := ⟨.hbm, 550, rfl⟩
abbrev main_call8_call0_v0 : Ref sig .tc := ⟨.hbm, 551, rfl⟩
abbrev main_call8_call0_v1 : Ref sig .tc := ⟨.hbm, 552, rfl⟩
abbrev main_v342 : Ref sig .tc := ⟨.hbm, 553, rfl⟩
abbrev main_v343 : Ref sig .tc := ⟨.hbm, 554, rfl⟩
abbrev main_v344 : Ref sig .tc := ⟨.hbm, 555, rfl⟩
abbrev main_v345 : Ref sig .tc := ⟨.hbm, 556, rfl⟩
abbrev main_v346 : Ref sig .tc := ⟨.hbm, 557, rfl⟩
abbrev main_v347 : Ref sig .tc := ⟨.hbm, 558, rfl⟩
abbrev main_v348 : Ref sig .tc := ⟨.hbm, 559, rfl⟩
abbrev main_v349 : Ref sig .tc := ⟨.hbm, 560, rfl⟩
abbrev main_v350 : Ref sig .tc := ⟨.hbm, 561, rfl⟩
abbrev main_v351 : Ref sig .tc := ⟨.hbm, 562, rfl⟩
abbrev main_v352 : Ref sig .tc := ⟨.hbm, 563, rfl⟩
abbrev main_v353 : Ref sig .tc := ⟨.hbm, 564, rfl⟩
abbrev main_v354 : Ref sig .tc := ⟨.hbm, 565, rfl⟩
abbrev main_v355 : Ref sig .tc := ⟨.hbm, 566, rfl⟩
abbrev main_v356 : Ref sig .tc := ⟨.hbm, 567, rfl⟩
abbrev main_v357 : Ref sig .tc := ⟨.hbm, 568, rfl⟩
abbrev main_v358 : Ref sig .tc := ⟨.hbm, 569, rfl⟩
abbrev main_v359 : Ref sig .tc := ⟨.hbm, 570, rfl⟩
abbrev main_v360 : Ref sig .tc := ⟨.hbm, 571, rfl⟩
abbrev main_v361 : Ref sig .tc := ⟨.hbm, 572, rfl⟩
abbrev main_v362 : Ref sig .tc := ⟨.hbm, 573, rfl⟩
abbrev main_v363 : Ref sig .tc := ⟨.hbm, 574, rfl⟩
abbrev main_v364 : Ref sig .tc := ⟨.hbm, 575, rfl⟩
abbrev main_v365 : Ref sig .tc := ⟨.hbm, 576, rfl⟩
abbrev main_v366 : Ref sig .tc := ⟨.hbm, 577, rfl⟩
abbrev main_v367 : Ref sig .tc := ⟨.hbm, 578, rfl⟩
abbrev main_v368 : Ref sig .tc := ⟨.hbm, 579, rfl⟩
abbrev main_v369 : Ref sig .tc := ⟨.hbm, 580, rfl⟩
abbrev main_v370 : Ref sig .tc := ⟨.hbm, 581, rfl⟩
abbrev main_v371 : Ref sig .tc := ⟨.hbm, 582, rfl⟩
abbrev main_v372 : Ref sig .tc := ⟨.hbm, 583, rfl⟩
abbrev main_v373 : Ref sig .tc := ⟨.hbm, 584, rfl⟩
abbrev main_v374 : Ref sig .tc := ⟨.hbm, 585, rfl⟩
abbrev main_v375 : Ref sig .tc := ⟨.hbm, 586, rfl⟩
abbrev main_v376 : Ref sig .tc := ⟨.hbm, 587, rfl⟩
abbrev main_v377 : Ref sig .tc := ⟨.hbm, 588, rfl⟩
abbrev main_v378 : Ref sig .tc := ⟨.hbm, 589, rfl⟩
abbrev main_v379 : Ref sig .tc := ⟨.hbm, 590, rfl⟩
abbrev main_v380 : Ref sig .tc := ⟨.hbm, 591, rfl⟩
abbrev main_v381 : Ref sig .tc := ⟨.hbm, 592, rfl⟩
abbrev main_v382 : Ref sig .tc := ⟨.hbm, 593, rfl⟩
abbrev main_v383 : Ref sig .tc := ⟨.hbm, 594, rfl⟩
abbrev main_v384 : Ref sig .tc := ⟨.hbm, 595, rfl⟩
abbrev main_v385 : Ref sig .tc := ⟨.hbm, 596, rfl⟩
abbrev main_v386 : Ref sig .tc := ⟨.hbm, 597, rfl⟩
abbrev main_v387 : Ref sig .tc := ⟨.hbm, 598, rfl⟩
abbrev main_v388 : Ref sig .tc := ⟨.hbm, 599, rfl⟩
abbrev main_v389 : Ref sig .tc := ⟨.hbm, 600, rfl⟩
abbrev main_v390 : Ref sig .tc := ⟨.hbm, 601, rfl⟩
abbrev main_v391 : Ref sig .tc := ⟨.hbm, 602, rfl⟩
abbrev main_v392 : Ref sig .tc := ⟨.hbm, 603, rfl⟩
abbrev main_v393 : Ref sig .tc := ⟨.hbm, 604, rfl⟩
abbrev main_v394 : Ref sig .tc := ⟨.hbm, 605, rfl⟩
abbrev main_v395 : Ref sig .tc := ⟨.hbm, 606, rfl⟩
abbrev main_v396 : Ref sig .tc := ⟨.hbm, 607, rfl⟩
abbrev main_v397 : Ref sig .tc := ⟨.hbm, 608, rfl⟩
abbrev main_v398 : Ref sig .tc := ⟨.hbm, 609, rfl⟩
abbrev main_v399 : Ref sig .tc := ⟨.hbm, 610, rfl⟩
abbrev main_v400 : Ref sig .tc := ⟨.hbm, 611, rfl⟩
abbrev main_v401 : Ref sig .tc := ⟨.hbm, 612, rfl⟩
abbrev main_v402 : Ref sig .tc := ⟨.hbm, 613, rfl⟩
abbrev main_v403 : Ref sig .tc := ⟨.hbm, 614, rfl⟩
abbrev main_v404 : Ref sig .tc := ⟨.hbm, 615, rfl⟩
abbrev main_v405 : Ref sig .tc := ⟨.hbm, 616, rfl⟩
abbrev main_v406 : Ref sig .tc := ⟨.hbm, 617, rfl⟩
abbrev main_v407 : Ref sig .tc := ⟨.hbm, 618, rfl⟩
abbrev main_v408 : Ref sig .tc := ⟨.hbm, 619, rfl⟩
abbrev main_v409 : Ref sig .tc := ⟨.hbm, 620, rfl⟩
abbrev main_v410 : Ref sig .tc := ⟨.hbm, 621, rfl⟩
abbrev main_v411 : Ref sig .tc := ⟨.hbm, 622, rfl⟩
abbrev main_c_37 : Ref sig .tc := ⟨.hbm, 623, rfl⟩
abbrev main_v412 : Ref sig .tc := ⟨.hbm, 624, rfl⟩
abbrev main_v413 : Ref sig .tc := ⟨.hbm, 625, rfl⟩
abbrev main_c_38 : Ref sig .tc := ⟨.hbm, 626, rfl⟩
abbrev main_v414 : Ref sig .tc := ⟨.hbm, 627, rfl⟩
abbrev main_v415 : Ref sig .tc := ⟨.hbm, 628, rfl⟩
abbrev main_v416 : Ref sig .tc := ⟨.hbm, 629, rfl⟩
abbrev main_v417 : Ref sig .tc := ⟨.hbm, 630, rfl⟩
abbrev main_v418 : Ref sig .tc := ⟨.hbm, 631, rfl⟩
abbrev main_c_39 : Ref sig .tc := ⟨.hbm, 632, rfl⟩
abbrev main_v419 : Ref sig .tc := ⟨.hbm, 633, rfl⟩
abbrev main_v420 : Ref sig .tc := ⟨.hbm, 634, rfl⟩
abbrev main_c_40 : Ref sig .tc := ⟨.hbm, 635, rfl⟩
abbrev main_v421 : Ref sig .tc := ⟨.hbm, 636, rfl⟩
abbrev main_v422 : Ref sig .tc := ⟨.hbm, 637, rfl⟩
abbrev main_v423 : Ref sig .tc := ⟨.hbm, 638, rfl⟩
abbrev main_v424 : Ref sig .tc := ⟨.hbm, 639, rfl⟩
abbrev main_v425 : Ref sig .tc := ⟨.hbm, 640, rfl⟩
abbrev main_v426 : Ref sig .tc := ⟨.hbm, 641, rfl⟩
abbrev main_v427 : Ref sig .tc := ⟨.hbm, 642, rfl⟩
abbrev main_v428 : Ref sig .tc := ⟨.hbm, 643, rfl⟩
abbrev main_v429 : Ref sig .tc := ⟨.hbm, 644, rfl⟩
abbrev main_c_41 : Ref sig .tc := ⟨.hbm, 645, rfl⟩
abbrev main_v430 : Ref sig .tc := ⟨.hbm, 646, rfl⟩
abbrev main_v431 : Ref sig .tc := ⟨.hbm, 647, rfl⟩
abbrev main_v432 : Ref sig .tc := ⟨.hbm, 648, rfl⟩
abbrev main_v433 : Ref sig .tc := ⟨.hbm, 649, rfl⟩
abbrev main_v434 : Ref sig .tc := ⟨.hbm, 650, rfl⟩
abbrev main_v435 : Ref sig .tc := ⟨.hbm, 651, rfl⟩
abbrev main_call9_v0 : Ref sig .tc := ⟨.hbm, 652, rfl⟩
abbrev main_call9_v1 : Ref sig .tc := ⟨.hbm, 653, rfl⟩
abbrev main_call9_v2 : Ref sig .tc := ⟨.hbm, 654, rfl⟩
abbrev main_call9_v3 : Ref sig .tc := ⟨.hbm, 655, rfl⟩
abbrev main_call9_v4 : Ref sig .tc := ⟨.hbm, 656, rfl⟩
abbrev main_v436 : Ref sig .tc := ⟨.hbm, 657, rfl⟩
abbrev main_v437 : Ref sig .tc := ⟨.hbm, 658, rfl⟩
abbrev main_v438 : Ref sig .tc := ⟨.hbm, 659, rfl⟩
abbrev main_v439 : Ref sig .tc := ⟨.hbm, 660, rfl⟩
abbrev main_v440 : Ref sig .tc := ⟨.hbm, 661, rfl⟩
abbrev main_v441 : Ref sig .tc := ⟨.hbm, 662, rfl⟩
abbrev main_v442 : Ref sig .tc := ⟨.hbm, 663, rfl⟩
abbrev main_v443 : Ref sig .tc := ⟨.hbm, 664, rfl⟩
abbrev main_v444 : Ref sig .tc := ⟨.hbm, 665, rfl⟩
abbrev main_v445 : Ref sig .tc := ⟨.hbm, 666, rfl⟩
abbrev main_v446 : Ref sig .tc := ⟨.hbm, 667, rfl⟩
abbrev main_v447_0 : Ref sig .tc := ⟨.hbm, 668, rfl⟩
abbrev main_v447_1 : Ref sig .tc := ⟨.hbm, 669, rfl⟩
abbrev main_v447_2 : Ref sig .tc := ⟨.hbm, 670, rfl⟩
abbrev main_v448 : Ref sig .tc := ⟨.hbm, 671, rfl⟩
abbrev main_v449 : Ref sig .tc := ⟨.hbm, 672, rfl⟩
abbrev main_v450 : Ref sig .tc := ⟨.hbm, 673, rfl⟩
abbrev main_cst_42 : Ref sig .tc := ⟨.hbm, 674, rfl⟩
abbrev main_v451 : Ref sig .tc := ⟨.hbm, 675, rfl⟩
abbrev main_v452 : Ref sig .tc := ⟨.hbm, 676, rfl⟩
abbrev main_v453 : Ref sig .tc := ⟨.hbm, 677, rfl⟩
abbrev main_cst_43 : Ref sig .tc := ⟨.hbm, 678, rfl⟩
abbrev main_v454 : Ref sig .tc := ⟨.hbm, 679, rfl⟩
abbrev main_v455 : Ref sig .tc := ⟨.hbm, 680, rfl⟩
abbrev main_v456 : Ref sig .tc := ⟨.hbm, 681, rfl⟩
abbrev main_v457 : Ref sig .tc := ⟨.hbm, 682, rfl⟩
abbrev main_v458 : Ref sig .tc := ⟨.hbm, 683, rfl⟩
abbrev main_v459 : Ref sig .tc := ⟨.hbm, 684, rfl⟩
abbrev main_v460 : Ref sig .tc := ⟨.hbm, 685, rfl⟩
abbrev main_v461 : Ref sig .tc := ⟨.hbm, 686, rfl⟩
abbrev main_cst_44 : Ref sig .tc := ⟨.hbm, 687, rfl⟩
abbrev main_v462 : Ref sig .tc := ⟨.hbm, 688, rfl⟩
abbrev main_cst_45 : Ref sig .tc := ⟨.hbm, 689, rfl⟩
abbrev main_v463 : Ref sig .tc := ⟨.hbm, 690, rfl⟩
abbrev main_v464 : Ref sig .tc := ⟨.hbm, 691, rfl⟩
abbrev main_c_46 : Ref sig .tc := ⟨.hbm, 692, rfl⟩
abbrev main_call10_cst : Ref sig .tc := ⟨.hbm, 693, rfl⟩
abbrev main_call10_v0 : Ref sig .tc := ⟨.hbm, 694, rfl⟩
abbrev main_call10_v1 : Ref sig .tc := ⟨.hbm, 695, rfl⟩
abbrev main_call10_cst_0 : Ref sig .tc := ⟨.hbm, 696, rfl⟩
abbrev main_call10_v2 : Ref sig .tc := ⟨.hbm, 697, rfl⟩
abbrev main_call10_v3 : Ref sig .tc := ⟨.hbm, 698, rfl⟩
abbrev main_call10_v4 : Ref sig .tc := ⟨.hbm, 699, rfl⟩
abbrev main_call10_v5 : Ref sig .tc := ⟨.hbm, 700, rfl⟩
abbrev main_call10_v6 : Ref sig .tc := ⟨.hbm, 701, rfl⟩
abbrev main_call10_v7 : Ref sig .tc := ⟨.hbm, 702, rfl⟩
abbrev main_call10_cst_1 : Ref sig .tc := ⟨.hbm, 703, rfl⟩
abbrev main_call10_v8 : Ref sig .tc := ⟨.hbm, 704, rfl⟩
abbrev main_call10_cst_2 : Ref sig .tc := ⟨.hbm, 705, rfl⟩
abbrev main_call10_v9 : Ref sig .tc := ⟨.hbm, 706, rfl⟩
abbrev main_call10_v10 : Ref sig .tc := ⟨.hbm, 707, rfl⟩
abbrev main_call10_v11 : Ref sig .tc := ⟨.hbm, 708, rfl⟩
abbrev main_call10_cst_3 : Ref sig .tc := ⟨.hbm, 709, rfl⟩
abbrev main_call10_v12 : Ref sig .tc := ⟨.hbm, 710, rfl⟩
abbrev main_call10_cst_4 : Ref sig .tc := ⟨.hbm, 711, rfl⟩
abbrev main_call10_call0_v0 : Ref sig .tc := ⟨.hbm, 712, rfl⟩
abbrev main_call10_call0_v1 : Ref sig .tc := ⟨.hbm, 713, rfl⟩
abbrev main_v465 : Ref sig .tc := ⟨.hbm, 714, rfl⟩
abbrev main_cst_47 : Ref sig .tc := ⟨.hbm, 715, rfl⟩
abbrev main_v466 : Ref sig .tc := ⟨.hbm, 716, rfl⟩
abbrev main_cst_48 : Ref sig .tc := ⟨.hbm, 717, rfl⟩
abbrev main_v467 : Ref sig .tc := ⟨.hbm, 718, rfl⟩
abbrev main_v468 : Ref sig .tc := ⟨.hbm, 719, rfl⟩
abbrev main_c_49 : Ref sig .tc := ⟨.hbm, 720, rfl⟩
abbrev main_call11_cst : Ref sig .tc := ⟨.hbm, 721, rfl⟩
abbrev main_call11_v0 : Ref sig .tc := ⟨.hbm, 722, rfl⟩
abbrev main_call11_v1 : Ref sig .tc := ⟨.hbm, 723, rfl⟩
abbrev main_call11_cst_0 : Ref sig .tc := ⟨.hbm, 724, rfl⟩
abbrev main_call11_v2 : Ref sig .tc := ⟨.hbm, 725, rfl⟩
abbrev main_call11_v3 : Ref sig .tc := ⟨.hbm, 726, rfl⟩
abbrev main_call11_v4 : Ref sig .tc := ⟨.hbm, 727, rfl⟩
abbrev main_call11_v5 : Ref sig .tc := ⟨.hbm, 728, rfl⟩
abbrev main_call11_v6 : Ref sig .tc := ⟨.hbm, 729, rfl⟩
abbrev main_call11_v7 : Ref sig .tc := ⟨.hbm, 730, rfl⟩
abbrev main_call11_cst_1 : Ref sig .tc := ⟨.hbm, 731, rfl⟩
abbrev main_call11_v8 : Ref sig .tc := ⟨.hbm, 732, rfl⟩
abbrev main_call11_cst_2 : Ref sig .tc := ⟨.hbm, 733, rfl⟩
abbrev main_call11_v9 : Ref sig .tc := ⟨.hbm, 734, rfl⟩
abbrev main_call11_v10 : Ref sig .tc := ⟨.hbm, 735, rfl⟩
abbrev main_call11_v11 : Ref sig .tc := ⟨.hbm, 736, rfl⟩
abbrev main_call11_cst_3 : Ref sig .tc := ⟨.hbm, 737, rfl⟩
abbrev main_call11_v12 : Ref sig .tc := ⟨.hbm, 738, rfl⟩
abbrev main_call11_cst_4 : Ref sig .tc := ⟨.hbm, 739, rfl⟩
abbrev main_call11_call0_v0 : Ref sig .tc := ⟨.hbm, 740, rfl⟩
abbrev main_call11_call0_v1 : Ref sig .tc := ⟨.hbm, 741, rfl⟩
abbrev main_v469 : Ref sig .tc := ⟨.hbm, 742, rfl⟩
abbrev main_v470 : Ref sig .tc := ⟨.hbm, 743, rfl⟩
abbrev main_v471 : Ref sig .tc := ⟨.hbm, 744, rfl⟩
abbrev main_v472 : Ref sig .tc := ⟨.hbm, 745, rfl⟩
abbrev main_v473 : Ref sig .tc := ⟨.hbm, 746, rfl⟩
abbrev main_v474 : Ref sig .tc := ⟨.hbm, 747, rfl⟩
abbrev main_v475 : Ref sig .tc := ⟨.hbm, 748, rfl⟩
abbrev main_v476 : Ref sig .tc := ⟨.hbm, 749, rfl⟩
abbrev main_v477 : Ref sig .tc := ⟨.hbm, 750, rfl⟩
abbrev main_v478 : Ref sig .tc := ⟨.hbm, 751, rfl⟩
abbrev main_v479 : Ref sig .tc := ⟨.hbm, 752, rfl⟩
abbrev main_v480 : Ref sig .tc := ⟨.hbm, 753, rfl⟩
abbrev main_v481 : Ref sig .tc := ⟨.hbm, 754, rfl⟩
abbrev main_v482 : Ref sig .tc := ⟨.hbm, 755, rfl⟩
abbrev main_v483 : Ref sig .tc := ⟨.hbm, 756, rfl⟩
abbrev main_v484 : Ref sig .tc := ⟨.hbm, 757, rfl⟩
abbrev main_v485 : Ref sig .tc := ⟨.hbm, 758, rfl⟩
abbrev main_v486 : Ref sig .tc := ⟨.hbm, 759, rfl⟩
abbrev main_v487 : Ref sig .tc := ⟨.hbm, 760, rfl⟩
abbrev main_v488 : Ref sig .tc := ⟨.hbm, 761, rfl⟩
abbrev main_v489 : Ref sig .tc := ⟨.hbm, 762, rfl⟩
abbrev main_v490 : Ref sig .tc := ⟨.hbm, 763, rfl⟩
abbrev main_v491 : Ref sig .tc := ⟨.hbm, 764, rfl⟩
abbrev main_v492 : Ref sig .tc := ⟨.hbm, 765, rfl⟩
abbrev main_v493 : Ref sig .tc := ⟨.hbm, 766, rfl⟩
abbrev main_v494 : Ref sig .tc := ⟨.hbm, 767, rfl⟩
abbrev main_v495 : Ref sig .tc := ⟨.hbm, 768, rfl⟩
abbrev main_v496 : Ref sig .tc := ⟨.hbm, 769, rfl⟩
abbrev main_v497 : Ref sig .tc := ⟨.hbm, 770, rfl⟩
abbrev main_v498 : Ref sig .tc := ⟨.hbm, 771, rfl⟩
abbrev main_v499 : Ref sig .tc := ⟨.hbm, 772, rfl⟩
abbrev main_v500 : Ref sig .tc := ⟨.hbm, 773, rfl⟩
abbrev main_v501 : Ref sig .tc := ⟨.hbm, 774, rfl⟩
abbrev main_v502 : Ref sig .tc := ⟨.hbm, 775, rfl⟩
abbrev main_v503 : Ref sig .tc := ⟨.hbm, 776, rfl⟩
abbrev main_v504 : Ref sig .tc := ⟨.hbm, 777, rfl⟩
abbrev main_v505 : Ref sig .tc := ⟨.hbm, 778, rfl⟩
abbrev main_v506 : Ref sig .tc := ⟨.hbm, 779, rfl⟩
abbrev main_v507 : Ref sig .tc := ⟨.hbm, 780, rfl⟩
abbrev main_v508 : Ref sig .tc := ⟨.hbm, 781, rfl⟩
abbrev main_v509 : Ref sig .tc := ⟨.hbm, 782, rfl⟩
abbrev main_v510 : Ref sig .tc := ⟨.hbm, 783, rfl⟩
abbrev main_v511 : Ref sig .tc := ⟨.hbm, 784, rfl⟩
abbrev main_v512 : Ref sig .tc := ⟨.hbm, 785, rfl⟩
abbrev main_v513 : Ref sig .tc := ⟨.hbm, 786, rfl⟩
abbrev main_v514 : Ref sig .tc := ⟨.hbm, 787, rfl⟩
abbrev main_v515 : Ref sig .tc := ⟨.hbm, 788, rfl⟩
abbrev main_c_50 : Ref sig .tc := ⟨.hbm, 789, rfl⟩
abbrev main_v516 : Ref sig .tc := ⟨.hbm, 790, rfl⟩
abbrev main_v517 : Ref sig .tc := ⟨.hbm, 791, rfl⟩
abbrev main_c_51 : Ref sig .tc := ⟨.hbm, 792, rfl⟩
abbrev main_v518 : Ref sig .tc := ⟨.hbm, 793, rfl⟩
abbrev main_v519 : Ref sig .tc := ⟨.hbm, 794, rfl⟩
abbrev main_v520 : Ref sig .tc := ⟨.hbm, 795, rfl⟩
abbrev main_v521 : Ref sig .tc := ⟨.hbm, 796, rfl⟩
abbrev main_v522 : Ref sig .tc := ⟨.hbm, 797, rfl⟩
abbrev main_c_52 : Ref sig .tc := ⟨.hbm, 798, rfl⟩
abbrev main_v523 : Ref sig .tc := ⟨.hbm, 799, rfl⟩
abbrev main_v524 : Ref sig .tc := ⟨.hbm, 800, rfl⟩
abbrev main_c_53 : Ref sig .tc := ⟨.hbm, 801, rfl⟩
abbrev main_v525 : Ref sig .tc := ⟨.hbm, 802, rfl⟩
abbrev main_v526 : Ref sig .tc := ⟨.hbm, 803, rfl⟩
abbrev main_v527 : Ref sig .tc := ⟨.hbm, 804, rfl⟩
abbrev main_v528 : Ref sig .tc := ⟨.hbm, 805, rfl⟩
abbrev main_v529 : Ref sig .tc := ⟨.hbm, 806, rfl⟩
abbrev main_v530 : Ref sig .tc := ⟨.hbm, 807, rfl⟩
abbrev main_v531 : Ref sig .tc := ⟨.hbm, 808, rfl⟩
abbrev main_v532 : Ref sig .tc := ⟨.hbm, 809, rfl⟩
abbrev main_v533 : Ref sig .tc := ⟨.hbm, 810, rfl⟩
abbrev main_v534 : Ref sig .tc := ⟨.hbm, 811, rfl⟩
abbrev main_v535 : Ref sig .tc := ⟨.hbm, 812, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc3_stg7_0 : Ref sig .tc := ⟨.vmem, 30, rfl⟩
abbrev cc3_stg7_1 : Ref sig .tc := ⟨.vmem, 31, rfl⟩
abbrev cc3_stg8_0 : Ref sig .tc := ⟨.vmem, 32, rfl⟩
abbrev cc3_stg8_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg6_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg2_1 : Ref sig .tc := ⟨.vmem, 73, rfl⟩
abbrev cc8_stg3_0 : Ref sig .tc := ⟨.vmem, 74, rfl⟩
abbrev cc8_stg3_1 : Ref sig .tc := ⟨.vmem, 75, rfl⟩
abbrev cc8_stg4_0 : Ref sig .tc := ⟨.vmem, 76, rfl⟩
abbrev cc8_stg5_0 : Ref sig .tc := ⟨.vmem, 77, rfl⟩
abbrev cc8_stg6_0 : Ref sig .tc := ⟨.vmem, 78, rfl⟩
abbrev cc8_stg6_1 : Ref sig .tc := ⟨.vmem, 79, rfl⟩
abbrev cc8_stg7_0 : Ref sig .tc := ⟨.vmem, 80, rfl⟩
abbrev cc8_stg7_1 : Ref sig .tc := ⟨.vmem, 81, rfl⟩
abbrev cc8_stg8_0 : Ref sig .tc := ⟨.vmem, 82, rfl⟩
abbrev cc8_stg8_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg1_1 : Ref sig .tc := ⟨.vmem, 87, rfl⟩
abbrev cc9_stg2_0 : Ref sig .tc := ⟨.vmem, 88, rfl⟩
abbrev cc9_stg2_1 : Ref sig .tc := ⟨.vmem, 89, rfl⟩
abbrev cc9_stg3_0 : Ref sig .tc := ⟨.vmem, 90, rfl⟩
abbrev cc9_stg3_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg1_1 : Ref sig .tc := ⟨.vmem, 95, rfl⟩
abbrev cc10_stg2_0 : Ref sig .tc := ⟨.vmem, 96, rfl⟩
abbrev cc10_stg3_0 : Ref sig .tc := ⟨.vmem, 97, rfl⟩
abbrev cc10_stg4_0 : Ref sig .tc := ⟨.vmem, 98, rfl⟩
abbrev cc10_stg5_0 : Ref sig .tc := ⟨.vmem, 99, rfl⟩
abbrev cc10_stg6_0 : Ref sig .tc := ⟨.vmem, 100, rfl⟩
abbrev cc10_stg6_1 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg1_1 : Ref sig .tc := ⟨.vmem, 105, rfl⟩
abbrev cc11_stg2_0 : Ref sig .tc := ⟨.vmem, 106, rfl⟩
abbrev cc11_stg3_0 : Ref sig .tc := ⟨.vmem, 107, rfl⟩
abbrev cc11_stg4_0 : Ref sig .tc := ⟨.vmem, 108, rfl⟩
abbrev cc11_stg5_0 : Ref sig .tc := ⟨.vmem, 109, rfl⟩
abbrev cc11_stg6_0 : Ref sig .tc := ⟨.vmem, 110, rfl⟩
abbrev cc11_stg6_1 : Ref sig .tc := ⟨.vmem, 111, rfl⟩
abbrev cc12_stg0_0 : Ref sig .tc := ⟨.vmem, 112, rfl⟩
abbrev cc12_stg0_1 : Ref sig .tc := ⟨.vmem, 113, rfl⟩
abbrev cc12_stg1_0 : Ref sig .tc := ⟨.vmem, 114, rfl⟩
abbrev cc12_stg2_0 : Ref sig .tc := ⟨.vmem, 115, rfl⟩
abbrev cc12_stg3_0 : Ref sig .tc := ⟨.vmem, 116, rfl⟩
abbrev cc12_stg3_1 : Ref sig .tc := ⟨.vmem, 117, rfl⟩
abbrev cc13_stg0_0 : Ref sig .tc := ⟨.vmem, 118, rfl⟩
abbrev cc13_stg0_1 : Ref sig .tc := ⟨.vmem, 119, rfl⟩
abbrev cc13_stg1_0 : Ref sig .tc := ⟨.vmem, 120, rfl⟩
abbrev cc13_stg1_1 : Ref sig .tc := ⟨.vmem, 121, rfl⟩
abbrev cc13_stg2_0 : Ref sig .tc := ⟨.vmem, 122, rfl⟩
abbrev cc13_stg2_1 : Ref sig .tc := ⟨.vmem, 123, rfl⟩
abbrev cc13_stg3_0 : Ref sig .tc := ⟨.vmem, 124, rfl⟩
abbrev cc13_stg3_1 : Ref sig .tc := ⟨.vmem, 125, rfl⟩
abbrev cc13_stg4_0 : Ref sig .tc := ⟨.vmem, 126, rfl⟩
abbrev cc13_stg5_0 : Ref sig .tc := ⟨.vmem, 127, rfl⟩
abbrev cc13_stg6_0 : Ref sig .tc := ⟨.vmem, 128, rfl⟩
abbrev cc13_stg6_1 : Ref sig .tc := ⟨.vmem, 129, rfl⟩
abbrev cc13_stg7_0 : Ref sig .tc := ⟨.vmem, 130, rfl⟩
abbrev cc13_stg7_1 : Ref sig .tc := ⟨.vmem, 131, rfl⟩
abbrev cc13_stg8_0 : Ref sig .tc := ⟨.vmem, 132, rfl⟩
abbrev cc13_stg8_1 : Ref sig .tc := ⟨.vmem, 133, rfl⟩
abbrev cc14_stg0_0 : Ref sig .tc := ⟨.vmem, 134, rfl⟩
abbrev cc14_stg0_1 : Ref sig .tc := ⟨.vmem, 135, rfl⟩
abbrev cc14_stg1_0 : Ref sig .tc := ⟨.vmem, 136, rfl⟩
abbrev cc14_stg1_1 : Ref sig .tc := ⟨.vmem, 137, rfl⟩
abbrev cc14_stg2_0 : Ref sig .tc := ⟨.vmem, 138, rfl⟩
abbrev cc14_stg2_1 : Ref sig .tc := ⟨.vmem, 139, rfl⟩
abbrev cc14_stg3_0 : Ref sig .tc := ⟨.vmem, 140, rfl⟩
abbrev cc14_stg3_1 : Ref sig .tc := ⟨.vmem, 141, rfl⟩
abbrev cc15_stg0_0 : Ref sig .tc := ⟨.vmem, 142, rfl⟩
abbrev cc15_stg0_1 : Ref sig .tc := ⟨.vmem, 143, rfl⟩
abbrev cc15_stg1_0 : Ref sig .tc := ⟨.vmem, 144, rfl⟩
abbrev cc15_stg1_1 : Ref sig .tc := ⟨.vmem, 145, rfl⟩
abbrev cc15_stg2_0 : Ref sig .tc := ⟨.vmem, 146, rfl⟩
abbrev cc15_stg3_0 : Ref sig .tc := ⟨.vmem, 147, rfl⟩
abbrev cc15_stg4_0 : Ref sig .tc := ⟨.vmem, 148, rfl⟩
abbrev cc15_stg5_0 : Ref sig .tc := ⟨.vmem, 149, rfl⟩
abbrev cc15_stg6_0 : Ref sig .tc := ⟨.vmem, 150, rfl⟩
abbrev cc15_stg6_1 : Ref sig .tc := ⟨.vmem, 151, rfl⟩
abbrev cc16_stg0_0 : Ref sig .tc := ⟨.vmem, 152, rfl⟩
abbrev cc16_stg0_1 : Ref sig .tc := ⟨.vmem, 153, rfl⟩
abbrev cc16_stg1_0 : Ref sig .tc := ⟨.vmem, 154, rfl⟩
abbrev cc16_stg1_1 : Ref sig .tc := ⟨.vmem, 155, rfl⟩
abbrev cc16_stg2_0 : Ref sig .tc := ⟨.vmem, 156, rfl⟩
abbrev cc16_stg3_0 : Ref sig .tc := ⟨.vmem, 157, rfl⟩
abbrev cc16_stg4_0 : Ref sig .tc := ⟨.vmem, 158, rfl⟩
abbrev cc16_stg5_0 : Ref sig .tc := ⟨.vmem, 159, rfl⟩
abbrev cc16_stg6_0 : Ref sig .tc := ⟨.vmem, 160, rfl⟩
abbrev cc16_stg6_1 : Ref sig .tc := ⟨.vmem, 161, rfl⟩
abbrev cc17_stg0_0 : Ref sig .tc := ⟨.vmem, 162, rfl⟩
abbrev cc17_stg0_1 : Ref sig .tc := ⟨.vmem, 163, rfl⟩
abbrev cc17_stg1_0 : Ref sig .tc := ⟨.vmem, 164, rfl⟩
abbrev cc17_stg2_0 : Ref sig .tc := ⟨.vmem, 165, rfl⟩
abbrev cc17_stg3_0 : Ref sig .tc := ⟨.vmem, 166, rfl⟩
abbrev cc17_stg3_1 : Ref sig .tc := ⟨.vmem, 167, rfl⟩
abbrev cc18_stg0_0 : Ref sig .tc := ⟨.vmem, 168, rfl⟩
abbrev cc18_stg0_1 : Ref sig .tc := ⟨.vmem, 169, rfl⟩
abbrev cc18_stg1_0 : Ref sig .tc := ⟨.vmem, 170, rfl⟩
abbrev cc18_stg1_1 : Ref sig .tc := ⟨.vmem, 171, rfl⟩
abbrev cc18_stg2_0 : Ref sig .tc := ⟨.vmem, 172, rfl⟩
abbrev cc18_stg2_1 : Ref sig .tc := ⟨.vmem, 173, rfl⟩
abbrev cc18_stg3_0 : Ref sig .tc := ⟨.vmem, 174, rfl⟩
abbrev cc18_stg3_1 : Ref sig .tc := ⟨.vmem, 175, rfl⟩
abbrev cc18_stg4_0 : Ref sig .tc := ⟨.vmem, 176, rfl⟩
abbrev cc18_stg5_0 : Ref sig .tc := ⟨.vmem, 177, rfl⟩
abbrev cc18_stg6_0 : Ref sig .tc := ⟨.vmem, 178, rfl⟩
abbrev cc18_stg6_1 : Ref sig .tc := ⟨.vmem, 179, rfl⟩
abbrev cc18_stg7_0 : Ref sig .tc := ⟨.vmem, 180, rfl⟩
abbrev cc18_stg7_1 : Ref sig .tc := ⟨.vmem, 181, rfl⟩
abbrev cc18_stg8_0 : Ref sig .tc := ⟨.vmem, 182, rfl⟩
abbrev cc18_stg8_1 : Ref sig .tc := ⟨.vmem, 183, rfl⟩
abbrev cc19_stg0_0 : Ref sig .tc := ⟨.vmem, 184, rfl⟩
abbrev cc19_stg0_1 : Ref sig .tc := ⟨.vmem, 185, rfl⟩
abbrev cc19_stg1_0 : Ref sig .tc := ⟨.vmem, 186, rfl⟩
abbrev cc19_stg1_1 : Ref sig .tc := ⟨.vmem, 187, rfl⟩
abbrev cc19_stg2_0 : Ref sig .tc := ⟨.vmem, 188, rfl⟩
abbrev cc19_stg2_1 : Ref sig .tc := ⟨.vmem, 189, rfl⟩
abbrev cc19_stg3_0 : Ref sig .tc := ⟨.vmem, 190, rfl⟩
abbrev cc19_stg3_1 : Ref sig .tc := ⟨.vmem, 191, rfl⟩
abbrev cc20_stg0_0 : Ref sig .tc := ⟨.vmem, 192, rfl⟩
abbrev cc20_stg0_1 : Ref sig .tc := ⟨.vmem, 193, rfl⟩
abbrev cc20_stg1_0 : Ref sig .tc := ⟨.vmem, 194, rfl⟩
abbrev cc20_stg1_1 : Ref sig .tc := ⟨.vmem, 195, rfl⟩
abbrev cc20_stg2_0 : Ref sig .tc := ⟨.vmem, 196, rfl⟩
abbrev cc20_stg3_0 : Ref sig .tc := ⟨.vmem, 197, rfl⟩
abbrev cc20_stg4_0 : Ref sig .tc := ⟨.vmem, 198, rfl⟩
abbrev cc20_stg5_0 : Ref sig .tc := ⟨.vmem, 199, rfl⟩
abbrev cc20_stg6_0 : Ref sig .tc := ⟨.vmem, 200, rfl⟩
abbrev cc20_stg6_1 : Ref sig .tc := ⟨.vmem, 201, rfl⟩
abbrev cc21_stg0_0 : Ref sig .tc := ⟨.vmem, 202, rfl⟩
abbrev cc21_stg0_1 : Ref sig .tc := ⟨.vmem, 203, rfl⟩
abbrev cc21_stg1_0 : Ref sig .tc := ⟨.vmem, 204, rfl⟩
abbrev cc21_stg1_1 : Ref sig .tc := ⟨.vmem, 205, rfl⟩
abbrev cc21_stg2_0 : Ref sig .tc := ⟨.vmem, 206, rfl⟩
abbrev cc21_stg3_0 : Ref sig .tc := ⟨.vmem, 207, rfl⟩
abbrev cc21_stg4_0 : Ref sig .tc := ⟨.vmem, 208, rfl⟩
abbrev cc21_stg5_0 : Ref sig .tc := ⟨.vmem, 209, rfl⟩
abbrev cc21_stg6_0 : Ref sig .tc := ⟨.vmem, 210, rfl⟩
abbrev cc21_stg6_1 : Ref sig .tc := ⟨.vmem, 211, rfl⟩
abbrev cc22_stg0_0 : Ref sig .tc := ⟨.vmem, 212, rfl⟩
abbrev cc22_stg0_1 : Ref sig .tc := ⟨.vmem, 213, rfl⟩
abbrev cc22_stg1_0 : Ref sig .tc := ⟨.vmem, 214, rfl⟩
abbrev cc22_stg1_1 : Ref sig .tc := ⟨.vmem, 215, rfl⟩
abbrev cc22_stg2_0 : Ref sig .tc := ⟨.vmem, 216, rfl⟩
abbrev cc22_stg2_1 : Ref sig .tc := ⟨.vmem, 217, rfl⟩
abbrev cc22_stg3_0 : Ref sig .tc := ⟨.vmem, 218, rfl⟩
abbrev cc22_stg4_0 : Ref sig .tc := ⟨.vmem, 219, rfl⟩
abbrev cc22_stg5_0 : Ref sig .tc := ⟨.vmem, 220, rfl⟩
abbrev cc22_stg6_0 : Ref sig .tc := ⟨.vmem, 221, rfl⟩
abbrev cc22_stg7_0 : Ref sig .tc := ⟨.vmem, 222, rfl⟩
abbrev cc22_stg8_0 : Ref sig .tc := ⟨.vmem, 223, rfl⟩
abbrev cc22_stg9_0 : Ref sig .tc := ⟨.vmem, 224, rfl⟩
abbrev cc22_stg9_1 : Ref sig .tc := ⟨.vmem, 225, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem5_0 : DmaSem sig := 27
abbrev cc3_sem6_0 : DmaSem sig := 28
abbrev cc3_sem6_1 : DmaSem sig := 29
abbrev cc3_sem7_0 : DmaSem sig := 30
abbrev cc3_sem7_1 : DmaSem sig := 31
abbrev cc3_sem8_0 : DmaSem sig := 32
abbrev cc3_sem8_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem6_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem6_0 : DmaSem sig := 60
abbrev cc6_sem6_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem3_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem2_1 : DmaSem sig := 73
abbrev cc8_sem3_0 : DmaSem sig := 74
abbrev cc8_sem3_1 : DmaSem sig := 75
abbrev cc8_sem4_0 : DmaSem sig := 76
abbrev cc8_sem5_0 : DmaSem sig := 77
abbrev cc8_sem6_0 : DmaSem sig := 78
abbrev cc8_sem6_1 : DmaSem sig := 79
abbrev cc8_sem7_0 : DmaSem sig := 80
abbrev cc8_sem7_1 : DmaSem sig := 81
abbrev cc8_sem8_0 : DmaSem sig := 82
abbrev cc8_sem8_1 : DmaSem sig := 83
abbrev cc9_sem0_0 : DmaSem sig := 84
abbrev cc9_sem0_1 : DmaSem sig := 85
abbrev cc9_sem1_0 : DmaSem sig := 86
abbrev cc9_sem1_1 : DmaSem sig := 87
abbrev cc9_sem2_0 : DmaSem sig := 88
abbrev cc9_sem2_1 : DmaSem sig := 89
abbrev cc9_sem3_0 : DmaSem sig := 90
abbrev cc9_sem3_1 : DmaSem sig := 91
abbrev cc10_sem0_0 : DmaSem sig := 92
abbrev cc10_sem0_1 : DmaSem sig := 93
abbrev cc10_sem1_0 : DmaSem sig := 94
abbrev cc10_sem1_1 : DmaSem sig := 95
abbrev cc10_sem2_0 : DmaSem sig := 96
abbrev cc10_sem3_0 : DmaSem sig := 97
abbrev cc10_sem4_0 : DmaSem sig := 98
abbrev cc10_sem5_0 : DmaSem sig := 99
abbrev cc10_sem6_0 : DmaSem sig := 100
abbrev cc10_sem6_1 : DmaSem sig := 101
abbrev cc11_sem0_0 : DmaSem sig := 102
abbrev cc11_sem0_1 : DmaSem sig := 103
abbrev cc11_sem1_0 : DmaSem sig := 104
abbrev cc11_sem1_1 : DmaSem sig := 105
abbrev cc11_sem2_0 : DmaSem sig := 106
abbrev cc11_sem3_0 : DmaSem sig := 107
abbrev cc11_sem4_0 : DmaSem sig := 108
abbrev cc11_sem5_0 : DmaSem sig := 109
abbrev cc11_sem6_0 : DmaSem sig := 110
abbrev cc11_sem6_1 : DmaSem sig := 111
abbrev cc12_sem0_0 : DmaSem sig := 112
abbrev cc12_sem0_1 : DmaSem sig := 113
abbrev cc12_sem1_0 : DmaSem sig := 114
abbrev cc12_sem2_0 : DmaSem sig := 115
abbrev cc12_sem3_0 : DmaSem sig := 116
abbrev cc12_sem3_1 : DmaSem sig := 117
abbrev cc13_sem0_0 : DmaSem sig := 118
abbrev cc13_sem0_1 : DmaSem sig := 119
abbrev cc13_sem1_0 : DmaSem sig := 120
abbrev cc13_sem1_1 : DmaSem sig := 121
abbrev cc13_sem2_0 : DmaSem sig := 122
abbrev cc13_sem2_1 : DmaSem sig := 123
abbrev cc13_sem3_0 : DmaSem sig := 124
abbrev cc13_sem3_1 : DmaSem sig := 125
abbrev cc13_sem4_0 : DmaSem sig := 126
abbrev cc13_sem5_0 : DmaSem sig := 127
abbrev cc13_sem6_0 : DmaSem sig := 128
abbrev cc13_sem6_1 : DmaSem sig := 129
abbrev cc13_sem7_0 : DmaSem sig := 130
abbrev cc13_sem7_1 : DmaSem sig := 131
abbrev cc13_sem8_0 : DmaSem sig := 132
abbrev cc13_sem8_1 : DmaSem sig := 133
abbrev cc14_sem0_0 : DmaSem sig := 134
abbrev cc14_sem0_1 : DmaSem sig := 135
abbrev cc14_sem1_0 : DmaSem sig := 136
abbrev cc14_sem1_1 : DmaSem sig := 137
abbrev cc14_sem2_0 : DmaSem sig := 138
abbrev cc14_sem2_1 : DmaSem sig := 139
abbrev cc14_sem3_0 : DmaSem sig := 140
abbrev cc14_sem3_1 : DmaSem sig := 141
abbrev cc15_sem0_0 : DmaSem sig := 142
abbrev cc15_sem0_1 : DmaSem sig := 143
abbrev cc15_sem1_0 : DmaSem sig := 144
abbrev cc15_sem1_1 : DmaSem sig := 145
abbrev cc15_sem2_0 : DmaSem sig := 146
abbrev cc15_sem3_0 : DmaSem sig := 147
abbrev cc15_sem4_0 : DmaSem sig := 148
abbrev cc15_sem5_0 : DmaSem sig := 149
abbrev cc15_sem6_0 : DmaSem sig := 150
abbrev cc15_sem6_1 : DmaSem sig := 151
abbrev cc16_sem0_0 : DmaSem sig := 152
abbrev cc16_sem0_1 : DmaSem sig := 153
abbrev cc16_sem1_0 : DmaSem sig := 154
abbrev cc16_sem1_1 : DmaSem sig := 155
abbrev cc16_sem2_0 : DmaSem sig := 156
abbrev cc16_sem3_0 : DmaSem sig := 157
abbrev cc16_sem4_0 : DmaSem sig := 158
abbrev cc16_sem5_0 : DmaSem sig := 159
abbrev cc16_sem6_0 : DmaSem sig := 160
abbrev cc16_sem6_1 : DmaSem sig := 161
abbrev cc17_sem0_0 : DmaSem sig := 162
abbrev cc17_sem0_1 : DmaSem sig := 163
abbrev cc17_sem1_0 : DmaSem sig := 164
abbrev cc17_sem2_0 : DmaSem sig := 165
abbrev cc17_sem3_0 : DmaSem sig := 166
abbrev cc17_sem3_1 : DmaSem sig := 167
abbrev cc18_sem0_0 : DmaSem sig := 168
abbrev cc18_sem0_1 : DmaSem sig := 169
abbrev cc18_sem1_0 : DmaSem sig := 170
abbrev cc18_sem1_1 : DmaSem sig := 171
abbrev cc18_sem2_0 : DmaSem sig := 172
abbrev cc18_sem2_1 : DmaSem sig := 173
abbrev cc18_sem3_0 : DmaSem sig := 174
abbrev cc18_sem3_1 : DmaSem sig := 175
abbrev cc18_sem4_0 : DmaSem sig := 176
abbrev cc18_sem5_0 : DmaSem sig := 177
abbrev cc18_sem6_0 : DmaSem sig := 178
abbrev cc18_sem6_1 : DmaSem sig := 179
abbrev cc18_sem7_0 : DmaSem sig := 180
abbrev cc18_sem7_1 : DmaSem sig := 181
abbrev cc18_sem8_0 : DmaSem sig := 182
abbrev cc18_sem8_1 : DmaSem sig := 183
abbrev cc19_sem0_0 : DmaSem sig := 184
abbrev cc19_sem0_1 : DmaSem sig := 185
abbrev cc19_sem1_0 : DmaSem sig := 186
abbrev cc19_sem1_1 : DmaSem sig := 187
abbrev cc19_sem2_0 : DmaSem sig := 188
abbrev cc19_sem2_1 : DmaSem sig := 189
abbrev cc19_sem3_0 : DmaSem sig := 190
abbrev cc19_sem3_1 : DmaSem sig := 191
abbrev cc20_sem0_0 : DmaSem sig := 192
abbrev cc20_sem0_1 : DmaSem sig := 193
abbrev cc20_sem1_0 : DmaSem sig := 194
abbrev cc20_sem1_1 : DmaSem sig := 195
abbrev cc20_sem2_0 : DmaSem sig := 196
abbrev cc20_sem3_0 : DmaSem sig := 197
abbrev cc20_sem4_0 : DmaSem sig := 198
abbrev cc20_sem5_0 : DmaSem sig := 199
abbrev cc20_sem6_0 : DmaSem sig := 200
abbrev cc20_sem6_1 : DmaSem sig := 201
abbrev cc21_sem0_0 : DmaSem sig := 202
abbrev cc21_sem0_1 : DmaSem sig := 203
abbrev cc21_sem1_0 : DmaSem sig := 204
abbrev cc21_sem1_1 : DmaSem sig := 205
abbrev cc21_sem2_0 : DmaSem sig := 206
abbrev cc21_sem3_0 : DmaSem sig := 207
abbrev cc21_sem4_0 : DmaSem sig := 208
abbrev cc21_sem5_0 : DmaSem sig := 209
abbrev cc21_sem6_0 : DmaSem sig := 210
abbrev cc21_sem6_1 : DmaSem sig := 211
abbrev cc22_sem0_0 : DmaSem sig := 212
abbrev cc22_sem0_1 : DmaSem sig := 213
abbrev cc22_sem1_0 : DmaSem sig := 214
abbrev cc22_sem1_1 : DmaSem sig := 215
abbrev cc22_sem2_0 : DmaSem sig := 216
abbrev cc22_sem2_1 : DmaSem sig := 217
abbrev cc22_sem3_0 : DmaSem sig := 218
abbrev cc22_sem4_0 : DmaSem sig := 219
abbrev cc22_sem5_0 : DmaSem sig := 220
abbrev cc22_sem6_0 : DmaSem sig := 221
abbrev cc22_sem7_0 : DmaSem sig := 222
abbrev cc22_sem8_0 : DmaSem sig := 223
abbrev cc22_sem9_0 : DmaSem sig := 224
abbrev cc22_sem9_1 : DmaSem sig := 225

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S4000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S4000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S4000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S4000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S4000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S4000x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S5000x128 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S4000x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S32x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_8 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S4000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S4000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 1 → Memref sig .tc .vmem S128x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S4000x128 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev stage13_7 : Fin 2 → Memref sig .tc .vmem S4000x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev stage13_8 : Fin 2 → Memref sig .tc .vmem S4000x128 .f32 := fun | 0 => Memref.whole cc13_stg8_0 | 1 => Memref.whole cc13_stg8_1 | ⟨_ + 2, h⟩ => absurd h (Nat.not_lt.2 (Nat.le_add_left _ _))
abbrev sem13_8 : Fin 2 → DmaSem sig := fun | 0 => cc13_sem8_0 | 1 => cc13_sem8_1 | ⟨_ + 2, h⟩ => absurd h (Nat.not_lt.2 (Nat.le_add_left _ _))
abbrev reads13_8 : Fin grid13.rank → Bool := ![true]

abbrev grid14 : Pipeline.Grid := ⟨1, ![5], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S5000x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S5000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1x128 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 2 → Memref sig .tc .vmem S5000x128 .f32 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true]

abbrev grid16 : Pipeline.Grid := ⟨1, ![50], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S4000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S4000x128 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x128 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 2 → Memref sig .tc .vmem S4000x128 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

abbrev grid17 : Pipeline.Grid := ⟨1, ![20], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x32 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S32x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S5000x128 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![50], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_6 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_7 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_8 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S4000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S4000x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S4000x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 2 → Memref sig .tc .vmem S4000x128 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev stage18_4 : Fin 1 → Memref sig .tc .vmem S128x128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S1x128 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

abbrev stage18_6 : Fin 2 → Memref sig .tc .vmem S4000x128 .f32 := fun | 0 => Memref.whole cc18_stg6_0 | 1 => Memref.whole cc18_stg6_1 | ⟨_ + 2, h⟩ => absurd h (Nat.not_lt.2 (Nat.le_add_left _ _))
abbrev sem18_6 : Fin 2 → DmaSem sig := fun | 0 => cc18_sem6_0 | 1 => cc18_sem6_1 | ⟨_ + 2, h⟩ => absurd h (Nat.not_lt.2 (Nat.le_add_left _ _))
abbrev reads18_6 : Fin grid18.rank → Bool := ![true]

abbrev stage18_7 : Fin 2 → Memref sig .tc .vmem S4000x128 .f32 := fun | 0 => Memref.whole cc18_stg7_0 | 1 => Memref.whole cc18_stg7_1 | ⟨_ + 2, h⟩ => absurd h (Nat.not_lt.2 (Nat.le_add_left _ _))
abbrev sem18_7 : Fin 2 → DmaSem sig := fun | 0 => cc18_sem7_0 | 1 => cc18_sem7_1 | ⟨_ + 2, h⟩ => absurd h (Nat.not_lt.2 (Nat.le_add_left _ _))
abbrev reads18_7 : Fin grid18.rank → Bool := ![true]

abbrev stage18_8 : Fin 2 → Memref sig .tc .vmem S4000x128 .f32 := fun | 0 => Memref.whole cc18_stg8_0 | 1 => Memref.whole cc18_stg8_1 | ⟨_ + 2, h⟩ => absurd h (Nat.not_lt.2 (Nat.le_add_left _ _))
abbrev sem18_8 : Fin 2 → DmaSem sig := fun | 0 => cc18_sem8_0 | 1 => cc18_sem8_1 | ⟨_ + 2, h⟩ => absurd h (Nat.not_lt.2 (Nat.le_add_left _ _))
abbrev reads18_8 : Fin grid18.rank → Bool := ![true]

abbrev grid19 : Pipeline.Grid := ⟨1, ![5], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S5000x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S5000x128 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev stage19_3 : Fin 2 → Memref sig .tc .vmem S5000x128 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev grid20 : Pipeline.Grid := ⟨1, ![5], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_6 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S5000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S5000x128 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S1x128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S1x128 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S1x128 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 1 → Memref sig .tc .vmem S1x128 .f32 := fun | 0 => Memref.whole cc20_stg5_0 | ⟨_ + 1, h⟩ => absurd h (Nat.not_lt.2 (Nat.le_add_left _ _))
abbrev sem20_5 : Fin 1 → DmaSem sig := fun | 0 => cc20_sem5_0 | ⟨_ + 1, h⟩ => absurd h (Nat.not_lt.2 (Nat.le_add_left _ _))
abbrev reads20_5 : Fin grid20.rank → Bool := ![false]

abbrev stage20_6 : Fin 2 → Memref sig .tc .vmem S5000x128 .f32 := fun | 0 => Memref.whole cc20_stg6_0 | 1 => Memref.whole cc20_stg6_1 | ⟨_ + 2, h⟩ => absurd h (Nat.not_lt.2 (Nat.le_add_left _ _))
abbrev sem20_6 : Fin 2 → DmaSem sig := fun | 0 => cc20_sem6_0 | 1 => cc20_sem6_1 | ⟨_ + 2, h⟩ => absurd h (Nat.not_lt.2 (Nat.le_add_left _ _))
abbrev reads20_6 : Fin grid20.rank → Bool := ![true]

abbrev grid21 : Pipeline.Grid := ⟨1, ![50], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_5 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_6 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S4000x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S4000x128 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 1 → Memref sig .tc .vmem S1x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S1x128 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S1x128 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 1 → Memref sig .tc .vmem S1x128 .f32 := fun | 0 => Memref.whole cc21_stg5_0 | ⟨_ + 1, h⟩ => absurd h (Nat.not_lt.2 (Nat.le_add_left _ _))
abbrev sem21_5 : Fin 1 → DmaSem sig := fun | 0 => cc21_sem5_0 | ⟨_ + 1, h⟩ => absurd h (Nat.not_lt.2 (Nat.le_add_left _ _))
abbrev reads21_5 : Fin grid21.rank → Bool := ![false]

abbrev stage21_6 : Fin 2 → Memref sig .tc .vmem S4000x128 .f32 := fun | 0 => Memref.whole cc21_stg6_0 | 1 => Memref.whole cc21_stg6_1 | ⟨_ + 2, h⟩ => absurd h (Nat.not_lt.2 (Nat.le_add_left _ _))
abbrev sem21_6 : Fin 2 → DmaSem sig := fun | 0 => cc21_sem6_0 | 1 => cc21_sem6_1 | ⟨_ + 2, h⟩ => absurd h (Nat.not_lt.2 (Nat.le_add_left _ _))
abbrev reads21_6 : Fin grid21.rank → Bool := ![true]

abbrev grid22 : Pipeline.Grid := ⟨1, ![160], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_3 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_4 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_5 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_6 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_7 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_8 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_9 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S5000x32 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S5000x32 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 2 → Memref sig .tc .vmem S5000x32 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev stage22_3 : Fin 1 → Memref sig .tc .vmem S32x32 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 1 → Memref sig .tc .vmem S32x32 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))
abbrev reads22_4 : Fin grid22.rank → Bool := ![false]

abbrev stage22_5 : Fin 1 → Memref sig .tc .vmem S32x32 .f32 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))
abbrev reads22_5 : Fin grid22.rank → Bool := ![false]

abbrev stage22_6 : Fin 1 → Memref sig .tc .vmem S1x32 .f32 := fun | 0 => Memref.whole cc22_stg6_0 | ⟨_ + 1, h⟩ => absurd h (Nat.not_lt.2 (Nat.le_add_left _ _))
abbrev sem22_6 : Fin 1 → DmaSem sig := fun | 0 => cc22_sem6_0 | ⟨_ + 1, h⟩ => absurd h (Nat.not_lt.2 (Nat.le_add_left _ _))
abbrev reads22_6 : Fin grid22.rank → Bool := ![false]

abbrev stage22_7 : Fin 1 → Memref sig .tc .vmem S32x1 .f32 := fun | 0 => Memref.whole cc22_stg7_0 | ⟨_ + 1, h⟩ => absurd h (Nat.not_lt.2 (Nat.le_add_left _ _))
abbrev sem22_7 : Fin 1 → DmaSem sig := fun | 0 => cc22_sem7_0 | ⟨_ + 1, h⟩ => absurd h (Nat.not_lt.2 (Nat.le_add_left _ _))
abbrev reads22_7 : Fin grid22.rank → Bool := ![false]

abbrev stage22_8 : Fin 1 → Memref sig .tc .vmem S1x1 .f32 := fun | 0 => Memref.whole cc22_stg8_0 | ⟨_ + 1, h⟩ => absurd h (Nat.not_lt.2 (Nat.le_add_left _ _))
abbrev sem22_8 : Fin 1 → DmaSem sig := fun | 0 => cc22_sem8_0 | ⟨_ + 1, h⟩ => absurd h (Nat.not_lt.2 (Nat.le_add_left _ _))
abbrev reads22_8 : Fin grid22.rank → Bool := ![false]

abbrev stage22_9 : Fin 2 → Memref sig .tc .vmem S5000x1 .f32 := fun | 0 => Memref.whole cc22_stg9_0 | 1 => Memref.whole cc22_stg9_1 | ⟨_ + 2, h⟩ => absurd h (Nat.not_lt.2 (Nat.le_add_left _ _))
abbrev sem22_9 : Fin 2 → DmaSem sig := fun | 0 => cc22_sem9_0 | 1 => cc22_sem9_1 | ⟨_ + 2, h⟩ => absurd h (Nat.not_lt.2 (Nat.le_add_left _ _))
abbrev reads22_9 : Fin grid22.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S32_S1x32 : S32.ShapeCasts S1x32
  inb_S5000x1_S5000x1_0_0 : ∀ a, (![0, 0] : Fin 2 → Nat) a + S5000x1.size a ≤ S5000x1.size a
  h_S5000x1 : 0 < S5000x1.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  slices_S4x32x32_S1x32x32_0_0_0 : S4x32x32.Slices ![0, 0, 0] S1x32x32
  shapeCasts_S1x32x32_S32x32 : S1x32x32.ShapeCasts S32x32
  concatenates_S32x32_S32x32_S32x32_S32x32_S32x128_d1 : Shape.Concatenates [S32x32, S32x32, S32x32, S32x32] S32x128 1
  slices_S4x32_S1x32_0_0 : S4x32.Slices ![0, 0] S1x32
  shapeCasts_S1x32_S32 : S1x32.ShapeCasts S32
  concatenates_S32_S32_S32_S32_S128_d0 : Shape.Concatenates [S32, S32, S32, S32] S128 0
  shapeCasts_S128_S1x128 : S128.ShapeCasts S1x128
  shapeCasts_S5000x32_S5000x32 : S5000x32.ShapeCasts S5000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S100000x128_S100000x32_0_0 : S100000x128.Slices ![0, 0] S100000x32
  slices_S100000x128_S100000x64_0_32 : S100000x128.Slices ![0, 32] S100000x64
  slices_S100000x128_S100000x32_0_96 : S100000x128.Slices ![0, 96] S100000x32
  bcast_S_S800000 : S_.BroadcastsInDim S800000 (![] : Fin 0 → Fin S800000.rank)
  bcast_S800000_S800000x1_0 : S800000.BroadcastsInDim S800000x1 (![0] : Fin 1 → Fin S800000x1.rank)
  slices_S800000x64_S800000x32_0_0 : S800000x64.Slices ![0, 0] S800000x32
  slices_S800000x64_S800000x32_0_32 : S800000x64.Slices ![0, 32] S800000x32
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  bcast_S1x32_S4x32_0_1 : S1x32.BroadcastsInDim S4x32 (![0, 1] : Fin 2 → Fin S4x32.rank)
  shapeCasts_S4x32_S128 : S4x32.ShapeCasts S128
  shapeCasts_S800000x32_S200000x128 : S800000x32.ShapeCasts S200000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S4000x128 : S1x128.Broadcasts S4000x128
  shapeCasts_S200000x128_S800000x32 : S200000x128.ShapeCasts S800000x32
  bcast_S_S100000x32 : S_.BroadcastsInDim S100000x32 (![] : Fin 0 → Fin S100000x32.rank)
  shapeCasts_S100000x32_S25000x128 : S100000x32.ShapeCasts S25000x128
  shapeCasts_S5000x128_S5000x128 : S5000x128.ShapeCasts S5000x128
  shapeCasts_S25000x128_S100000x32 : S25000x128.ShapeCasts S100000x32
  reducesTo_S100000x32_S32_d0 : S100000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S100000x32_0_1 : S1x32.BroadcastsInDim S100000x32 (![0, 1] : Fin 2 → Fin S100000x32.rank)
  reducesTo_S800000x32_S32_d0 : S800000x32.ReducesTo [0] S32
  bcast_S1x32_S800000x32_0_1 : S1x32.BroadcastsInDim S800000x32 (![0, 1] : Fin 2 → Fin S800000x32.rank)
  slices_S4x32x32_S1x32x32_1_0_0 : S4x32x32.Slices ![1, 0, 0] S1x32x32
  slices_S4x32_S1x32_1_0 : S4x32.Slices ![1, 0] S1x32
  slices_S4x32x32_S1x32x32_2_0_0 : S4x32x32.Slices ![2, 0, 0] S1x32x32
  slices_S4x32_S1x32_2_0 : S4x32.Slices ![2, 0] S1x32
  slices_S4x32x32_S1x32x32_3_0_0 : S4x32x32.Slices ![3, 0, 0] S1x32x32
  slices_S4x32_S1x32_3_0 : S4x32.Slices ![3, 0] S1x32
  slices_S96x32_S32x32_0_0 : S96x32.Slices ![0, 0] S32x32
  slices_S96x32_S32x32_32_0 : S96x32.Slices ![32, 0] S32x32
  slices_S96x32_S32x32_64_0 : S96x32.Slices ![64, 0] S32x32
  shapeCasts_S1_S1x1 : S1.ShapeCasts S1x1
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  dot_S5000x1_S1x32_S5000x32_1_0_0_1_n_n_wf : DotDims.WF S5000x1 S1x32 S5000x32 [1] [0] [0] [1] [] []
  dot_S5000x32_S32x128_S5000x128_1_0_0_1_n_n_wf : DotDims.WF S5000x32 S32x128 S5000x128 [1] [0] [0] [1] [] []
  gather_S100000x32_S800000x1_S800000x32_1_0_n_n_0_1_132_wf : GatherDims.WF S100000x32 S800000x1 S800000x32 [1] [0] [] [0] [] 1 ![1, 32]
  gather_S100000x64_S800000x1_S800000x64_1_0_n_n_0_1_164_wf : GatherDims.WF S100000x64 S800000x1 S800000x64 [1] [0] [] [0] [] 1 ![1, 64]
  dot_S4000x128_S128x128_S4000x128_1_0_0_1_n_n_wf : DotDims.WF S4000x128 S128x128 S4000x128 [1] [0] [0] [1] [] []
  scatter_S100000x32_S800000x1_S800000x32_1_0_0_1_wf : ScatterDims.WF S100000x32 S800000x1 S800000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S800000x1.size a
  hwx1_0 : ∀ i : grid1.Coords, EltTy.bits .f32 = 32 ∨ (Rect.block (s := S800000x1) S5000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S800000x32.size a
  hwx1_3 : ∀ i : grid1.Coords, EltTy.bits .f32 = 32 ∨ (Rect.block (s := S800000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x128.size a ≤ S32x128.size a
  hwx2_1 : ∀ i : grid2.Coords, EltTy.bits .f32 = 32 ∨ (Rect.block (s := S32x128) S32x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S200000x128.size a
  hwx3_1 : ∀ i : grid3.Coords, EltTy.bits .f32 = 32 ∨ (Rect.block (s := S200000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S200000x128.size a
  hwx3_2 : ∀ i : grid3.Coords, EltTy.bits .f32 = 32 ∨ (Rect.block (s := S200000x128) S4000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S200000x128.size a
  hwx3_3 : ∀ i : grid3.Coords, EltTy.bits .f32 = 32 ∨ (Rect.block (s := S200000x128) S4000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S200000x128.size a
  hwx3_6 : ∀ i : grid3.Coords, EltTy.bits .f32 = 32 ∨ (Rect.block (s := S200000x128) S4000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S200000x128.size a
  hwx3_7 : ∀ i : grid3.Coords, EltTy.bits .f32 = 32 ∨ (Rect.block (s := S200000x128) S4000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x128.size a ≤ S200000x128.size a
  hwx3_8 : ∀ i : grid3.Coords, EltTy.bits .f32 = 32 ∨ (Rect.block (s := S200000x128) S4000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S25000x128.size a
  hwx4_0 : ∀ i : grid4.Coords, EltTy.bits .f32 = 32 ∨ (Rect.block (s := S25000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S25000x128.size a
  hwx4_1 : ∀ i : grid4.Coords, EltTy.bits .f32 = 32 ∨ (Rect.block (s := S25000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S25000x128.size a
  hwx4_2 : ∀ i : grid4.Coords, EltTy.bits .f32 = 32 ∨ (Rect.block (s := S25000x128) S5000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S25000x128.size a
  hwx4_3 : ∀ i : grid4.Coords, EltTy.bits .f32 = 32 ∨ (Rect.block (s := S25000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S25000x128.size a
  hwx5_0 : ∀ i : grid5.Coords, EltTy.bits .f32 = 32 ∨ (Rect.block (s := S25000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S25000x128.size a
  hwx5_1 : ∀ i : grid5.Coords, EltTy.bits .f32 = 32 ∨ (Rect.block (s := S25000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S25000x128.size a
  hwx5_6 : ∀ i : grid5.Coords, EltTy.bits .f32 = 32 ∨ (Rect.block (s := S25000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S200000x128.size a
  hwx6_0 : ∀ i : grid6.Coords, EltTy.bits .f32 = 32 ∨ (Rect.block (s := S200000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S200000x128.size a
  hwx6_1 : ∀ i : grid6.Coords, EltTy.bits .f32 = 32 ∨ (Rect.block (s := S200000x128) S4000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4000x128.size a ≤ S200000x128.size a
  hwx6_6 : ∀ i : grid6.Coords, EltTy.bits .f32 = 32 ∨ (Rect.block (s := S200000x128) S4000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x128.size a ≤ S32x128.size a
  hwx7_1 : ∀ i : grid7.Coords, EltTy.bits .f32 = 32 ∨ (Rect.block (s := S32x128) S32x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S200000x128.size a
  hwx8_0 : ∀ i : grid8.Coords, EltTy.bits .f32 = 32 ∨ (Rect.block (s := S200000x128) S4000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x128.size a ≤ S200000x128.size a
  hwx8_1 : ∀ i : grid8.Coords, EltTy.bits .f32 = 32 ∨ (Rect.block (s := S200000x128) S4000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x128.size a ≤ S200000x128.size a
  hwx8_2 : ∀ i : grid8.Coords, EltTy.bits .f32 = 32 ∨ (Rect.block (s := S200000x128) S4000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x128.size a ≤ S200000x128.size a
  hwx8_3 : ∀ i : grid8.Coords, EltTy.bits .f32 = 32 ∨ (Rect.block (s := S200000x128) S4000x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S4000x128.size a ≤ S200000x128.size a
  hwx8_6 : ∀ i : grid8.Coords, EltTy.bits .f32 = 32 ∨ (Rect.block (s := S200000x128) S4000x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S4000x128.size a ≤ S200000x128.size a
  hwx8_7 : ∀ i : grid8.Coords, EltTy.bits .f32 = 32 ∨ (Rect.block (s := S200000x128) S4000x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S4000x128.size a ≤ S200000x128.size a
  hwx8_8 : ∀ i : grid8.Coords, EltTy.bits .f32 = 32 ∨ (Rect.block (s := S200000x128) S4000x128.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S25000x128.size a
  hwx9_0 : ∀ i : grid9.Coords, EltTy.bits .f32 = 32 ∨ (Rect.block (s := S25000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S25000x128.size a
  hwx9_1 : ∀ i : grid9.Coords, EltTy.bits .f32 = 32 ∨ (Rect.block (s := S25000x128) S5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S25000x128.size a
  hwx9_2 : ∀ i : grid9.Coords, EltTy.bits .f32 = 32 ∨ (Rect.block (s := S25000x128) S5000x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S25000x128.size a
  hwx9_3 : ∀ i : grid9.Coords, EltTy.bits .f32 = 32 ∨ (Rect.block (s := S25000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S25000x128.size a
  hwx10_0 : ∀ i : grid10.Coords, EltTy.bits .f32 = 32 ∨ (Rect.block (s := S25000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S25000x128.size a
  hwx10_1 : ∀ i : grid10.Coords, EltTy.bits .f32 = 32 ∨ (Rect.block (s := S25000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S5000x128.size a ≤ S25000x128.size a
  hwx10_6 : ∀ i : grid10.Coords, EltTy.bits .f32 = 32 ∨ (Rect.block (s := S25000x128) S5000x128.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x128.size a ≤ S200000x128.size a
  hwx11_0 : ∀ i : grid11.Coords, EltTy.bits .f32 = 32 ∨ (Rect.block (s := S200000x128) S4000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4000x128.size a ≤ S200000x128.size a
  hwx11_1 : ∀ i : grid11.Coords, EltTy.bits .f32 = 32 ∨ (Rect.block (s := S200000x128) S4000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S4000x128.size a ≤ S200000x128.size a
  hwx11_6 : ∀ i : grid11.Coords, EltTy.bits .f32 = 32 ∨ (Rect.block (s := S200000x128) S4000x128.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x32.size a ≤ S100000x32.size a
  hwx12_0 : ∀ i : grid12.Coords, EltTy.bits .f32 = 32 ∨ (Rect.block (s := S100000x32) S5000x32.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S32x128.size a ≤ S32x128.size a
  hwx12_1 : ∀ i : grid12.Coords, EltTy.bits .f32 = 32 ∨ (Rect.block (s := S32x128) S32x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x128.size a ≤ S100000x128.size a
  hwx12_3 : ∀ i : grid12.Coords, EltTy.bits .f32 = 32 ∨ (Rect.block (s := S100000x128) S5000x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x128.size a ≤ S200000x128.size a
  hwx13_0 : ∀ i : grid13.Coords, EltTy.bits .f32 = 32 ∨ (Rect.block (s := S200000x128) S4000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4000x128.size a ≤ S200000x128.size a
  hwx13_1 : ∀ i : grid13.Coords, EltTy.bits .f32 = 32 ∨ (Rect.block (s := S200000x128) S4000x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S4000x128.size a ≤ S200000x128.size a
  hwx13_2 : ∀ i : grid13.Coords, EltTy.bits .f32 = 32 ∨ (Rect.block (s := S200000x128) S4000x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S4000x128.size a ≤ S200000x128.size a
  hwx13_3 : ∀ i : grid13.Coords, EltTy.bits .f32 = 32 ∨ (Rect.block (s := S200000x128) S4000x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S128x128.size a ≤ S128x128.size a
  hwx13_4 : ∀ i : grid13.Coords, EltTy.bits .f32 = 32 ∨ (Rect.block (s := S128x128) S128x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x128.size a ≤ S1x128.size a
  hwx13_5 : ∀ i : grid13.Coords, EltTy.bits .f32 = 32 ∨ (Rect.block (s := S1x128) S1x128.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S4000x128.size a ≤ S200000x128.size a
  hwx13_6 : ∀ i : grid13.Coords, EltTy.bits .f32 = 32 ∨ (Rect.block (s := S200000x128) S4000x128.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S4000x128.size a ≤ S200000x128.size a
  hwx13_7 : ∀ i : grid13.Coords, EltTy.bits .f32 = 32 ∨ (Rect.block (s := S200000x128) S4000x128.size (cc13_transform_7 i) (hinb13_7 i)).WholeWords (EltTy.packing .f32)
  hstage13_8 : ∀ j, (stage13_8 j).IsWhole
  nbuf13_8 : grid13.bufCount reads13_8 false = 2
  hreads13_8 : ∀ i i' : grid13.Coords, (∀ a, reads13_8 a = true → i a = i' a) → cc13_transform_8 i = cc13_transform_8 i'
  hinb13_8 : ∀ (i : grid13.Coords) a, (cc13_transform_8 i a + 1) * S4000x128.size a ≤ S200000x128.size a
  hwx13_8 : ∀ i : grid13.Coords, EltTy.bits .f32 = 32 ∨ (Rect.block (s := S200000x128) S4000x128.size (cc13_transform_8 i) (hinb13_8 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S25000x128.size a
  hwx14_0 : ∀ i : grid14.Coords, EltTy.bits .f32 = 32 ∨ (Rect.block (s := S25000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x128.size a ≤ S25000x128.size a
  hwx14_1 : ∀ i : grid14.Coords, EltTy.bits .f32 = 32 ∨ (Rect.block (s := S25000x128) S5000x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x128.size a ≤ S25000x128.size a
  hwx14_2 : ∀ i : grid14.Coords, EltTy.bits .f32 = 32 ∨ (Rect.block (s := S25000x128) S5000x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S5000x128.size a ≤ S25000x128.size a
  hwx14_3 : ∀ i : grid14.Coords, EltTy.bits .f32 = 32 ∨ (Rect.block (s := S25000x128) S5000x128.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S25000x128.size a
  hwx15_0 : ∀ i : grid15.Coords, EltTy.bits .f32 = 32 ∨ (Rect.block (s := S25000x128) S5000x128.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x128.size a ≤ S25000x128.size a
  hwx15_1 : ∀ i : grid15.Coords, EltTy.bits .f32 = 32 ∨ (Rect.block (s := S25000x128) S5000x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S1x128.size a ≤ S1x128.size a
  hwx15_5 : ∀ i : grid15.Coords, EltTy.bits .f32 = 32 ∨ (Rect.block (s := S1x128) S1x128.size (cc15_transform_5 i) (hinb15_5 i)).WholeWords (EltTy.packing .f32)
  hstage15_6 : ∀ j, (stage15_6 j).IsWhole
  nbuf15_6 : grid15.bufCount reads15_6 false = 2
  hreads15_6 : ∀ i i' : grid15.Coords, (∀ a, reads15_6 a = true → i a = i' a) → cc15_transform_6 i = cc15_transform_6 i'
  hinb15_6 : ∀ (i : grid15.Coords) a, (cc15_transform_6 i a + 1) * S5000x128.size a ≤ S25000x128.size a
  hwx15_6 : ∀ i : grid15.Coords, EltTy.bits .f32 = 32 ∨ (Rect.block (s := S25000x128) S5000x128.size (cc15_transform_6 i) (hinb15_6 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S4000x128.size a ≤ S200000x128.size a
  hwx16_0 : ∀ i : grid16.Coords, EltTy.bits .f32 = 32 ∨ (Rect.block (s := S200000x128) S4000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S4000x128.size a ≤ S200000x128.size a
  hwx16_1 : ∀ i : grid16.Coords, EltTy.bits .f32 = 32 ∨ (Rect.block (s := S200000x128) S4000x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x128.size a ≤ S1x128.size a
  hwx16_3 : ∀ i : grid16.Coords, EltTy.bits .f32 = 32 ∨ (Rect.block (s := S1x128) S1x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x128.size a ≤ S1x128.size a
  hwx16_5 : ∀ i : grid16.Coords, EltTy.bits .f32 = 32 ∨ (Rect.block (s := S1x128) S1x128.size (cc16_transform_5 i) (hinb16_5 i)).WholeWords (EltTy.packing .f32)
  hstage16_6 : ∀ j, (stage16_6 j).IsWhole
  nbuf16_6 : grid16.bufCount reads16_6 false = 2
  hreads16_6 : ∀ i i' : grid16.Coords, (∀ a, reads16_6 a = true → i a = i' a) → cc16_transform_6 i = cc16_transform_6 i'
  hinb16_6 : ∀ (i : grid16.Coords) a, (cc16_transform_6 i a + 1) * S4000x128.size a ≤ S200000x128.size a
  hwx16_6 : ∀ i : grid16.Coords, EltTy.bits .f32 = 32 ∨ (Rect.block (s := S200000x128) S4000x128.size (cc16_transform_6 i) (hinb16_6 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x32.size a ≤ S100000x32.size a
  hwx17_0 : ∀ i : grid17.Coords, EltTy.bits .f32 = 32 ∨ (Rect.block (s := S100000x32) S5000x32.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S32x128.size a ≤ S32x128.size a
  hwx17_1 : ∀ i : grid17.Coords, EltTy.bits .f32 = 32 ∨ (Rect.block (s := S32x128) S32x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S5000x128.size a ≤ S100000x128.size a
  hwx17_3 : ∀ i : grid17.Coords, EltTy.bits .f32 = 32 ∨ (Rect.block (s := S100000x128) S5000x128.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S4000x128.size a ≤ S200000x128.size a
  hwx18_0 : ∀ i : grid18.Coords, EltTy.bits .f32 = 32 ∨ (Rect.block (s := S200000x128) S4000x128.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S4000x128.size a ≤ S200000x128.size a
  hwx18_1 : ∀ i : grid18.Coords, EltTy.bits .f32 = 32 ∨ (Rect.block (s := S200000x128) S4000x128.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S4000x128.size a ≤ S200000x128.size a
  hwx18_2 : ∀ i : grid18.Coords, EltTy.bits .f32 = 32 ∨ (Rect.block (s := S200000x128) S4000x128.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S4000x128.size a ≤ S200000x128.size a
  hwx18_3 : ∀ i : grid18.Coords, EltTy.bits .f32 = 32 ∨ (Rect.block (s := S200000x128) S4000x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S128x128.size a ≤ S128x128.size a
  hwx18_4 : ∀ i : grid18.Coords, EltTy.bits .f32 = 32 ∨ (Rect.block (s := S128x128) S128x128.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S1x128.size a ≤ S1x128.size a
  hwx18_5 : ∀ i : grid18.Coords, EltTy.bits .f32 = 32 ∨ (Rect.block (s := S1x128) S1x128.size (cc18_transform_5 i) (hinb18_5 i)).WholeWords (EltTy.packing .f32)
  hstage18_6 : ∀ j, (stage18_6 j).IsWhole
  nbuf18_6 : grid18.bufCount reads18_6 false = 2
  hreads18_6 : ∀ i i' : grid18.Coords, (∀ a, reads18_6 a = true → i a = i' a) → cc18_transform_6 i = cc18_transform_6 i'
  hinb18_6 : ∀ (i : grid18.Coords) a, (cc18_transform_6 i a + 1) * S4000x128.size a ≤ S200000x128.size a
  hwx18_6 : ∀ i : grid18.Coords, EltTy.bits .f32 = 32 ∨ (Rect.block (s := S200000x128) S4000x128.size (cc18_transform_6 i) (hinb18_6 i)).WholeWords (EltTy.packing .f32)
  hstage18_7 : ∀ j, (stage18_7 j).IsWhole
  nbuf18_7 : grid18.bufCount reads18_7 false = 2
  hreads18_7 : ∀ i i' : grid18.Coords, (∀ a, reads18_7 a = true → i a = i' a) → cc18_transform_7 i = cc18_transform_7 i'
  hinb18_7 : ∀ (i : grid18.Coords) a, (cc18_transform_7 i a + 1) * S4000x128.size a ≤ S200000x128.size a
  hwx18_7 : ∀ i : grid18.Coords, EltTy.bits .f32 = 32 ∨ (Rect.block (s := S200000x128) S4000x128.size (cc18_transform_7 i) (hinb18_7 i)).WholeWords (EltTy.packing .f32)
  hstage18_8 : ∀ j, (stage18_8 j).IsWhole
  nbuf18_8 : grid18.bufCount reads18_8 false = 2
  hreads18_8 : ∀ i i' : grid18.Coords, (∀ a, reads18_8 a = true → i a = i' a) → cc18_transform_8 i = cc18_transform_8 i'
  hinb18_8 : ∀ (i : grid18.Coords) a, (cc18_transform_8 i a + 1) * S4000x128.size a ≤ S200000x128.size a
  hwx18_8 : ∀ i : grid18.Coords, EltTy.bits .f32 = 32 ∨ (Rect.block (s := S200000x128) S4000x128.size (cc18_transform_8 i) (hinb18_8 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x128.size a ≤ S25000x128.size a
  hwx19_0 : ∀ i : grid19.Coords, EltTy.bits .f32 = 32 ∨ (Rect.block (s := S25000x128) S5000x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S5000x128.size a ≤ S25000x128.size a
  hwx19_1 : ∀ i : grid19.Coords, EltTy.bits .f32 = 32 ∨ (Rect.block (s := S25000x128) S5000x128.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S5000x128.size a ≤ S25000x128.size a
  hwx19_2 : ∀ i : grid19.Coords, EltTy.bits .f32 = 32 ∨ (Rect.block (s := S25000x128) S5000x128.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S5000x128.size a ≤ S25000x128.size a
  hwx19_3 : ∀ i : grid19.Coords, EltTy.bits .f32 = 32 ∨ (Rect.block (s := S25000x128) S5000x128.size (cc19_transform_3 i) (hinb19_3 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x128.size a ≤ S25000x128.size a
  hwx20_0 : ∀ i : grid20.Coords, EltTy.bits .f32 = 32 ∨ (Rect.block (s := S25000x128) S5000x128.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S5000x128.size a ≤ S25000x128.size a
  hwx20_1 : ∀ i : grid20.Coords, EltTy.bits .f32 = 32 ∨ (Rect.block (s := S25000x128) S5000x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x128.size a ≤ S1x128.size a
  hwx20_2 : ∀ i : grid20.Coords, EltTy.bits .f32 = 32 ∨ (Rect.block (s := S1x128) S1x128.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S1x128.size a ≤ S1x128.size a
  hwx20_3 : ∀ i : grid20.Coords, EltTy.bits .f32 = 32 ∨ (Rect.block (s := S1x128) S1x128.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S1x128.size a ≤ S1x128.size a
  hwx20_4 : ∀ i : grid20.Coords, EltTy.bits .f32 = 32 ∨ (Rect.block (s := S1x128) S1x128.size (cc20_transform_4 i) (hinb20_4 i)).WholeWords (EltTy.packing .f32)
  hstage20_5 : ∀ j, (stage20_5 j).IsWhole
  nbuf20_5 : grid20.bufCount reads20_5 true = 1
  hreads20_5 : ∀ i i' : grid20.Coords, (∀ a, reads20_5 a = true → i a = i' a) → cc20_transform_5 i = cc20_transform_5 i'
  hinb20_5 : ∀ (i : grid20.Coords) a, (cc20_transform_5 i a + 1) * S1x128.size a ≤ S1x128.size a
  hwx20_5 : ∀ i : grid20.Coords, EltTy.bits .f32 = 32 ∨ (Rect.block (s := S1x128) S1x128.size (cc20_transform_5 i) (hinb20_5 i)).WholeWords (EltTy.packing .f32)
  hstage20_6 : ∀ j, (stage20_6 j).IsWhole
  nbuf20_6 : grid20.bufCount reads20_6 false = 2
  hreads20_6 : ∀ i i' : grid20.Coords, (∀ a, reads20_6 a = true → i a = i' a) → cc20_transform_6 i = cc20_transform_6 i'
  hinb20_6 : ∀ (i : grid20.Coords) a, (cc20_transform_6 i a + 1) * S5000x128.size a ≤ S25000x128.size a
  hwx20_6 : ∀ i : grid20.Coords, EltTy.bits .f32 = 32 ∨ (Rect.block (s := S25000x128) S5000x128.size (cc20_transform_6 i) (hinb20_6 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S4000x128.size a ≤ S200000x128.size a
  hwx21_0 : ∀ i : grid21.Coords, EltTy.bits .f32 = 32 ∨ (Rect.block (s := S200000x128) S4000x128.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S4000x128.size a ≤ S200000x128.size a
  hwx21_1 : ∀ i : grid21.Coords, EltTy.bits .f32 = 32 ∨ (Rect.block (s := S200000x128) S4000x128.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x128.size a ≤ S1x128.size a
  hwx21_2 : ∀ i : grid21.Coords, EltTy.bits .f32 = 32 ∨ (Rect.block (s := S1x128) S1x128.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S1x128.size a ≤ S1x128.size a
  hwx21_3 : ∀ i : grid21.Coords, EltTy.bits .f32 = 32 ∨ (Rect.block (s := S1x128) S1x128.size (cc21_transform_3 i) (hinb21_3 i)).WholeWords (EltTy.packing .f32)
  hstage21_4 : ∀ j, (stage21_4 j).IsWhole
  nbuf21_4 : grid21.bufCount reads21_4 true = 1
  hreads21_4 : ∀ i i' : grid21.Coords, (∀ a, reads21_4 a = true → i a = i' a) → cc21_transform_4 i = cc21_transform_4 i'
  hinb21_4 : ∀ (i : grid21.Coords) a, (cc21_transform_4 i a + 1) * S1x128.size a ≤ S1x128.size a
  hwx21_4 : ∀ i : grid21.Coords, EltTy.bits .f32 = 32 ∨ (Rect.block (s := S1x128) S1x128.size (cc21_transform_4 i) (hinb21_4 i)).WholeWords (EltTy.packing .f32)
  hstage21_5 : ∀ j, (stage21_5 j).IsWhole
  nbuf21_5 : grid21.bufCount reads21_5 true = 1
  hreads21_5 : ∀ i i' : grid21.Coords, (∀ a, reads21_5 a = true → i a = i' a) → cc21_transform_5 i = cc21_transform_5 i'
  hinb21_5 : ∀ (i : grid21.Coords) a, (cc21_transform_5 i a + 1) * S1x128.size a ≤ S1x128.size a
  hwx21_5 : ∀ i : grid21.Coords, EltTy.bits .f32 = 32 ∨ (Rect.block (s := S1x128) S1x128.size (cc21_transform_5 i) (hinb21_5 i)).WholeWords (EltTy.packing .f32)
  hstage21_6 : ∀ j, (stage21_6 j).IsWhole
  nbuf21_6 : grid21.bufCount reads21_6 false = 2
  hreads21_6 : ∀ i i' : grid21.Coords, (∀ a, reads21_6 a = true → i a = i' a) → cc21_transform_6 i = cc21_transform_6 i'
  hinb21_6 : ∀ (i : grid21.Coords) a, (cc21_transform_6 i a + 1) * S4000x128.size a ≤ S200000x128.size a
  hwx21_6 : ∀ i : grid21.Coords, EltTy.bits .f32 = 32 ∨ (Rect.block (s := S200000x128) S4000x128.size (cc21_transform_6 i) (hinb21_6 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x32.size a ≤ S800000x32.size a
  hwx22_0 : ∀ i : grid22.Coords, EltTy.bits .f32 = 32 ∨ (Rect.block (s := S800000x32) S5000x32.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S5000x32.size a ≤ S800000x32.size a
  hwx22_1 : ∀ i : grid22.Coords, EltTy.bits .f32 = 32 ∨ (Rect.block (s := S800000x32) S5000x32.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S5000x32.size a ≤ S800000x32.size a
  hwx22_2 : ∀ i : grid22.Coords, EltTy.bits .f32 = 32 ∨ (Rect.block (s := S800000x32) S5000x32.size (cc22_transform_2 i) (hinb22_2 i)).WholeWords (EltTy.packing .f32)
  hstage22_3 : ∀ j, (stage22_3 j).IsWhole
  nbuf22_3 : grid22.bufCount reads22_3 true = 1
  hreads22_3 : ∀ i i' : grid22.Coords, (∀ a, reads22_3 a = true → i a = i' a) → cc22_transform_3 i = cc22_transform_3 i'
  hinb22_3 : ∀ (i : grid22.Coords) a, (cc22_transform_3 i a + 1) * S32x32.size a ≤ S32x32.size a
  hwx22_3 : ∀ i : grid22.Coords, EltTy.bits .f32 = 32 ∨ (Rect.block (s := S32x32) S32x32.size (cc22_transform_3 i) (hinb22_3 i)).WholeWords (EltTy.packing .f32)
  hstage22_4 : ∀ j, (stage22_4 j).IsWhole
  nbuf22_4 : grid22.bufCount reads22_4 true = 1
  hreads22_4 : ∀ i i' : grid22.Coords, (∀ a, reads22_4 a = true → i a = i' a) → cc22_transform_4 i = cc22_transform_4 i'
  hinb22_4 : ∀ (i : grid22.Coords) a, (cc22_transform_4 i a + 1) * S32x32.size a ≤ S32x32.size a
  hwx22_4 : ∀ i : grid22.Coords, EltTy.bits .f32 = 32 ∨ (Rect.block (s := S32x32) S32x32.size (cc22_transform_4 i) (hinb22_4 i)).WholeWords (EltTy.packing .f32)
  hstage22_5 : ∀ j, (stage22_5 j).IsWhole
  nbuf22_5 : grid22.bufCount reads22_5 true = 1
  hreads22_5 : ∀ i i' : grid22.Coords, (∀ a, reads22_5 a = true → i a = i' a) → cc22_transform_5 i = cc22_transform_5 i'
  hinb22_5 : ∀ (i : grid22.Coords) a, (cc22_transform_5 i a + 1) * S32x32.size a ≤ S32x32.size a
  hwx22_5 : ∀ i : grid22.Coords, EltTy.bits .f32 = 32 ∨ (Rect.block (s := S32x32) S32x32.size (cc22_transform_5 i) (hinb22_5 i)).WholeWords (EltTy.packing .f32)
  hstage22_6 : ∀ j, (stage22_6 j).IsWhole
  nbuf22_6 : grid22.bufCount reads22_6 true = 1
  hreads22_6 : ∀ i i' : grid22.Coords, (∀ a, reads22_6 a = true → i a = i' a) → cc22_transform_6 i = cc22_transform_6 i'
  hinb22_6 : ∀ (i : grid22.Coords) a, (cc22_transform_6 i a + 1) * S1x32.size a ≤ S1x32.size a
  hwx22_6 : ∀ i : grid22.Coords, EltTy.bits .f32 = 32 ∨ (Rect.block (s := S1x32) S1x32.size (cc22_transform_6 i) (hinb22_6 i)).WholeWords (EltTy.packing .f32)
  hstage22_7 : ∀ j, (stage22_7 j).IsWhole
  nbuf22_7 : grid22.bufCount reads22_7 true = 1
  hreads22_7 : ∀ i i' : grid22.Coords, (∀ a, reads22_7 a = true → i a = i' a) → cc22_transform_7 i = cc22_transform_7 i'
  hinb22_7 : ∀ (i : grid22.Coords) a, (cc22_transform_7 i a + 1) * S32x1.size a ≤ S32x1.size a
  hwx22_7 : ∀ i : grid22.Coords, EltTy.bits .f32 = 32 ∨ (Rect.block (s := S32x1) S32x1.size (cc22_transform_7 i) (hinb22_7 i)).WholeWords (EltTy.packing .f32)
  hstage22_8 : ∀ j, (stage22_8 j).IsWhole
  nbuf22_8 : grid22.bufCount reads22_8 true = 1
  hreads22_8 : ∀ i i' : grid22.Coords, (∀ a, reads22_8 a = true → i a = i' a) → cc22_transform_8 i = cc22_transform_8 i'
  hinb22_8 : ∀ (i : grid22.Coords) a, (cc22_transform_8 i a + 1) * S1x1.size a ≤ S1x1.size a
  hwx22_8 : ∀ i : grid22.Coords, EltTy.bits .f32 = 32 ∨ (Rect.block (s := S1x1) S1x1.size (cc22_transform_8 i) (hinb22_8 i)).WholeWords (EltTy.packing .f32)
  hstage22_9 : ∀ j, (stage22_9 j).IsWhole
  nbuf22_9 : grid22.bufCount reads22_9 false = 2
  hreads22_9 : ∀ i i' : grid22.Coords, (∀ a, reads22_9 a = true → i a = i' a) → cc22_transform_9 i = cc22_transform_9 i'
  hinb22_9 : ∀ (i : grid22.Coords) a, (cc22_transform_9 i a + 1) * S5000x1.size a ≤ S800000x1.size a
  hwx22_9 : ∀ i : grid22.Coords, EltTy.bits .f32 = 32 ∨ (Rect.block (s := S800000x1) S5000x1.size (cc22_transform_9 i) (hinb22_9 i)).WholeWords (EltTy.packing .f32)

variable [Facts₀]

def dot_S5000x1_S1x32_S5000x32_1_0_0_1_n_n : DotDims S5000x1 S1x32 S5000x32 where
  lhsContracting := [1]
  rhsContracting := [0]
  lhsNonContracting := [0]
  rhsNonContracting := [1]
  lhsBatch := []
  rhsBatch := []
  wf := dot_S5000x1_S1x32_S5000x32_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S32x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S4000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v55) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66_0) S4000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v66_1) S4000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v66_2) S4000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v79) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v79) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v121) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v122) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v124) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v125) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v126) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v66_0) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v128) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v129) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v131) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v132) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v133) S4000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v127) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v143) S32x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v153) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v154) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v188) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v189) S4000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v191) S4000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v190) S4000x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v182) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v192) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v193_0) S4000x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v193_1) S4000x128.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v193_2) S4000x128.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v203) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v204) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v205) S5000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v206) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v206) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v248) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v249) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v250) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v251) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v252) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v253) S5000x128.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v193_0) S4000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v255) S4000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v256) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v257) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v258) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v259) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v260) S4000x128.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v254) S5000x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v270) S32x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v280) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v281) S5000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v315) S4000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v316) S4000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v318) S4000x128.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v317) S4000x128.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v309) S128x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v319) S1x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v320_0) S4000x128.size cc13_transform_6 reads13_6 true false 2 stage13_6 sem13_6
    hrank13 hreads13_6 hinb13_6 nbuf13_6 (Memref.isWhole_whole _) hwx13_6 hstage13_6

abbrev win13_7 : Pipeline.Window sig grid13 :=
  Pipeline.Window.ofSpec (Memref.whole main_v320_1) S4000x128.size cc13_transform_7 reads13_7 true false 2 stage13_7 sem13_7
    hrank13 hreads13_7 hinb13_7 nbuf13_7 (Memref.isWhole_whole _) hwx13_7 hstage13_7

abbrev win13_8 : Pipeline.Window sig grid13 :=
  Pipeline.Window.ofSpec (Memref.whole main_v320_2) S4000x128.size cc13_transform_8 reads13_8 true false 2 stage13_8 sem13_8
    hrank13 hreads13_8 hinb13_8 nbuf13_8 (Memref.isWhole_whole _) hwx13_8 hstage13_8

abbrev win13 : Fin 9 → Pipeline.Window sig grid13 := fun | 0 => win13_0 | 1 => win13_1 | 2 => win13_2 | 3 => win13_3 | 4 => win13_4 | 5 => win13_5 | 6 => win13_6 | 7 => win13_7 | 8 => win13_8 | ⟨_ + 9, h⟩ => absurd h (Nat.not_lt.2 (Nat.le_add_left _ _))
abbrev spec13 : Fin 9 → Pipeline.WinSpec sig grid13.rank := fun w => (win13 w).toWinSpec

abbrev win14_0 : Pipeline.Window sig grid14 :=
  Pipeline.Window.ofSpec (Memref.whole main_v330) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v331) S5000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v332) S5000x128.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v333) S5000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v333) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v375) S5000x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v376) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v377) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v378) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v379) S1x128.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v380) S5000x128.size cc15_transform_6 reads15_6 true false 2 stage15_6 sem15_6
    hrank15 hreads15_6 hinb15_6 nbuf15_6 (Memref.isWhole_whole _) hwx15_6 hstage15_6

abbrev win15 : Fin 7 → Pipeline.Window sig grid15 := fun | 0 => win15_0 | 1 => win15_1 | 2 => win15_2 | 3 => win15_3 | 4 => win15_4 | 5 => win15_5 | 6 => win15_6 | ⟨_ + 7, h⟩ => absurd h (Nat.not_lt.2 (Nat.le_add_left _ _))
abbrev spec15 : Fin 7 → Pipeline.WinSpec sig grid15.rank := fun w => (win15 w).toWinSpec

abbrev win16_0 : Pipeline.Window sig grid16 :=
  Pipeline.Window.ofSpec (Memref.whole main_v320_0) S4000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v382) S4000x128.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v383) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v384) S1x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v385) S1x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v386) S1x128.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v387) S4000x128.size cc16_transform_6 reads16_6 true false 2 stage16_6 sem16_6
    hrank16 hreads16_6 hinb16_6 nbuf16_6 (Memref.isWhole_whole _) hwx16_6 hstage16_6

abbrev win16 : Fin 7 → Pipeline.Window sig grid16 := fun | 0 => win16_0 | 1 => win16_1 | 2 => win16_2 | 3 => win16_3 | 4 => win16_4 | 5 => win16_5 | 6 => win16_6 | ⟨_ + 7, h⟩ => absurd h (Nat.not_lt.2 (Nat.le_add_left _ _))
abbrev spec16 : Fin 7 → Pipeline.WinSpec sig grid16.rank := fun w => (win16 w).toWinSpec

abbrev win17_0 : Pipeline.Window sig grid17 :=
  Pipeline.Window.ofSpec (Memref.whole main_v381) S5000x32.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v397) S32x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v407) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v408) S5000x128.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v442) S4000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v443) S4000x128.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v445) S4000x128.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v444) S4000x128.size cc18_transform_3 reads18_3 false false 2 stage18_3 sem18_3
    hrank18 hreads18_3 hinb18_3 nbuf18_3 (Memref.isWhole_whole _) hwx18_3 hstage18_3

abbrev win18_4 : Pipeline.Window sig grid18 :=
  Pipeline.Window.ofSpec (Memref.whole main_v436) S128x128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v446) S1x128.size cc18_transform_5 reads18_5 false true 1 stage18_5 sem18_5
    hrank18 hreads18_5 hinb18_5 nbuf18_5 (Memref.isWhole_whole _) hwx18_5 hstage18_5

abbrev win18_6 : Pipeline.Window sig grid18 :=
  Pipeline.Window.ofSpec (Memref.whole main_v447_0) S4000x128.size cc18_transform_6 reads18_6 true false 2 stage18_6 sem18_6
    hrank18 hreads18_6 hinb18_6 nbuf18_6 (Memref.isWhole_whole _) hwx18_6 hstage18_6

abbrev win18_7 : Pipeline.Window sig grid18 :=
  Pipeline.Window.ofSpec (Memref.whole main_v447_1) S4000x128.size cc18_transform_7 reads18_7 true false 2 stage18_7 sem18_7
    hrank18 hreads18_7 hinb18_7 nbuf18_7 (Memref.isWhole_whole _) hwx18_7 hstage18_7

abbrev win18_8 : Pipeline.Window sig grid18 :=
  Pipeline.Window.ofSpec (Memref.whole main_v447_2) S4000x128.size cc18_transform_8 reads18_8 true false 2 stage18_8 sem18_8
    hrank18 hreads18_8 hinb18_8 nbuf18_8 (Memref.isWhole_whole _) hwx18_8 hstage18_8

abbrev win18 : Fin 9 → Pipeline.Window sig grid18 := fun | 0 => win18_0 | 1 => win18_1 | 2 => win18_2 | 3 => win18_3 | 4 => win18_4 | 5 => win18_5 | 6 => win18_6 | 7 => win18_7 | 8 => win18_8 | ⟨_ + 9, h⟩ => absurd h (Nat.not_lt.2 (Nat.le_add_left _ _))
abbrev spec18 : Fin 9 → Pipeline.WinSpec sig grid18.rank := fun w => (win18 w).toWinSpec

abbrev win19_0 : Pipeline.Window sig grid19 :=
  Pipeline.Window.ofSpec (Memref.whole main_v457) S5000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v458) S5000x128.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v459) S5000x128.size cc19_transform_2 reads19_2 false false 2 stage19_2 sem19_2
    hrank19 hreads19_2 hinb19_2 nbuf19_2 (Memref.isWhole_whole _) hwx19_2 hstage19_2

abbrev win19_3 : Pipeline.Window sig grid19 :=
  Pipeline.Window.ofSpec (Memref.whole main_v460) S5000x128.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev win20_0 : Pipeline.Window sig grid20 :=
  Pipeline.Window.ofSpec (Memref.whole main_v460) S5000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v502) S5000x128.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v503) S1x128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v504) S1x128.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v505) S1x128.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v506) S1x128.size cc20_transform_5 reads20_5 false true 1 stage20_5 sem20_5
    hrank20 hreads20_5 hinb20_5 nbuf20_5 (Memref.isWhole_whole _) hwx20_5 hstage20_5

abbrev win20_6 : Pipeline.Window sig grid20 :=
  Pipeline.Window.ofSpec (Memref.whole main_v507) S5000x128.size cc20_transform_6 reads20_6 true false 2 stage20_6 sem20_6
    hrank20 hreads20_6 hinb20_6 nbuf20_6 (Memref.isWhole_whole _) hwx20_6 hstage20_6

abbrev win20 : Fin 7 → Pipeline.Window sig grid20 := fun | 0 => win20_0 | 1 => win20_1 | 2 => win20_2 | 3 => win20_3 | 4 => win20_4 | 5 => win20_5 | 6 => win20_6 | ⟨_ + 7, h⟩ => absurd h (Nat.not_lt.2 (Nat.le_add_left _ _))
abbrev spec20 : Fin 7 → Pipeline.WinSpec sig grid20.rank := fun w => (win20 w).toWinSpec

abbrev win21_0 : Pipeline.Window sig grid21 :=
  Pipeline.Window.ofSpec (Memref.whole main_v447_0) S4000x128.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v509) S4000x128.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v510) S1x128.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v511) S1x128.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v512) S1x128.size cc21_transform_4 reads21_4 false true 1 stage21_4 sem21_4
    hrank21 hreads21_4 hinb21_4 nbuf21_4 (Memref.isWhole_whole _) hwx21_4 hstage21_4

abbrev win21_5 : Pipeline.Window sig grid21 :=
  Pipeline.Window.ofSpec (Memref.whole main_v513) S1x128.size cc21_transform_5 reads21_5 false true 1 stage21_5 sem21_5
    hrank21 hreads21_5 hinb21_5 nbuf21_5 (Memref.isWhole_whole _) hwx21_5 hstage21_5

abbrev win21_6 : Pipeline.Window sig grid21 :=
  Pipeline.Window.ofSpec (Memref.whole main_v514) S4000x128.size cc21_transform_6 reads21_6 true false 2 stage21_6 sem21_6
    hrank21 hreads21_6 hinb21_6 nbuf21_6 (Memref.isWhole_whole _) hwx21_6 hstage21_6

abbrev win21 : Fin 7 → Pipeline.Window sig grid21 := fun | 0 => win21_0 | 1 => win21_1 | 2 => win21_2 | 3 => win21_3 | 4 => win21_4 | 5 => win21_5 | 6 => win21_6 | ⟨_ + 7, h⟩ => absurd h (Nat.not_lt.2 (Nat.le_add_left _ _))
abbrev spec21 : Fin 7 → Pipeline.WinSpec sig grid21.rank := fun w => (win21 w).toWinSpec

abbrev win22_0 : Pipeline.Window sig grid22 :=
  Pipeline.Window.ofSpec (Memref.whole main_v522) S5000x32.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v529) S5000x32.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v515) S5000x32.size cc22_transform_2 reads22_2 false false 2 stage22_2 sem22_2
    hrank22 hreads22_2 hinb22_2 nbuf22_2 (Memref.isWhole_whole _) hwx22_2 hstage22_2

abbrev win22_3 : Pipeline.Window sig grid22 :=
  Pipeline.Window.ofSpec (Memref.whole main_v530) S32x32.size cc22_transform_3 reads22_3 false true 1 stage22_3 sem22_3
    hrank22 hreads22_3 hinb22_3 nbuf22_3 (Memref.isWhole_whole _) hwx22_3 hstage22_3

abbrev win22_4 : Pipeline.Window sig grid22 :=
  Pipeline.Window.ofSpec (Memref.whole main_v531) S32x32.size cc22_transform_4 reads22_4 false true 1 stage22_4 sem22_4
    hrank22 hreads22_4 hinb22_4 nbuf22_4 (Memref.isWhole_whole _) hwx22_4 hstage22_4

abbrev win22_5 : Pipeline.Window sig grid22 :=
  Pipeline.Window.ofSpec (Memref.whole main_v532) S32x32.size cc22_transform_5 reads22_5 false true 1 stage22_5 sem22_5
    hrank22 hreads22_5 hinb22_5 nbuf22_5 (Memref.isWhole_whole _) hwx22_5 hstage22_5

abbrev win22_6 : Pipeline.Window sig grid22 :=
  Pipeline.Window.ofSpec (Memref.whole main_v533) S1x32.size cc22_transform_6 reads22_6 false true 1 stage22_6 sem22_6
    hrank22 hreads22_6 hinb22_6 nbuf22_6 (Memref.isWhole_whole _) hwx22_6 hstage22_6

abbrev win22_7 : Pipeline.Window sig grid22 :=
  Pipeline.Window.ofSpec (Memref.whole main_arg23) S32x1.size cc22_transform_7 reads22_7 false true 1 stage22_7 sem22_7
    hrank22 hreads22_7 hinb22_7 nbuf22_7 (Memref.isWhole_whole _) hwx22_7 hstage22_7

abbrev win22_8 : Pipeline.Window sig grid22 :=
  Pipeline.Window.ofSpec (Memref.whole main_v534) S1x1.size cc22_transform_8 reads22_8 false true 1 stage22_8 sem22_8
    hrank22 hreads22_8 hinb22_8 nbuf22_8 (Memref.isWhole_whole _) hwx22_8 hstage22_8

abbrev win22_9 : Pipeline.Window sig grid22 :=
  Pipeline.Window.ofSpec (Memref.whole main_v535) S5000x1.size cc22_transform_9 reads22_9 true false 2 stage22_9 sem22_9
    hrank22 hreads22_9 hinb22_9 nbuf22_9 (Memref.isWhole_whole _) hwx22_9 hstage22_9

abbrev win22 : Fin 10 → Pipeline.Window sig grid22 := fun | 0 => win22_0 | 1 => win22_1 | 2 => win22_2 | 3 => win22_3 | 4 => win22_4 | 5 => win22_5 | 6 => win22_6 | 7 => win22_7 | 8 => win22_8 | 9 => win22_9 | ⟨_ + 10, h⟩ => absurd h (Nat.not_lt.2 (Nat.le_add_left _ _))
abbrev spec22 : Fin 10 → Pipeline.WinSpec sig grid22.rank := fun w => (win22 w).toWinSpec

class Facts : Prop extends Facts₀ where

variable [Facts]
-- ==== ReferenceIdeal.lean ====
abbrev S100000x1 : Shape := ⟨2, ![100000, 1]⟩
abbrev S800000x1 : Shape := ⟨2, ![800000, 1]⟩
abbrev S2x800000 : Shape := ⟨2, ![2, 800000]⟩
abbrev S1x32 : Shape := ⟨2, ![1, 32]⟩
abbrev S32 : Shape := ⟨1, ![32]⟩
abbrev S4x32x32 : Shape := ⟨3, ![4, 32, 32]⟩
abbrev S4x32 : Shape := ⟨2, ![4, 32]⟩
abbrev S96x32 : Shape := ⟨2, ![96, 32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S100000x32 : Shape := ⟨2, ![100000, 32]⟩
abbrev S800000x32 : Shape := ⟨2, ![800000, 32]⟩
abbrev S1x32x32 : Shape := ⟨3, ![1, 32, 32]⟩
abbrev S32x32 : Shape := ⟨2, ![32, 32]⟩
abbrev S_ : Shape := ⟨0, ![]⟩
abbrev S800000x96 : Shape := ⟨2, ![800000, 96]⟩
abbrev S1x1 : Shape := ⟨2, ![1, 1]⟩

abbrev nBuf : Space → Nat
  | .hbm => 847
  | .vmem => 0
  | .smem => 0
  | _ => 0

abbrev hbmTy0_0 (i : Nat) : BufTy := match i % 128 with
  | 0 => ⟨S100000x1, .f32⟩
  | 1 => ⟨S800000x1, .f32⟩
  | 2 => ⟨S2x800000, .i32⟩
  | 3 => ⟨S1x32, .f32⟩
  | 4 => ⟨S32, .f32⟩
  | 5 => ⟨S1x32, .f32⟩
  | 6 => ⟨S32, .f32⟩
  | 7 => ⟨S4x32x32, .f32⟩
  | 8 => ⟨S4x32, .f32⟩
  | 9 => ⟨S4x32x32, .f32⟩
  | 10 => ⟨S4x32, .f32⟩
  | 11 => ⟨S4x32x32, .f32⟩
  | 12 => ⟨S4x32, .f32⟩
  | 13 => ⟨S4x32x32, .f32⟩
  | 14 => ⟨S4x32, .f32⟩
  | 15 => ⟨S4x32x32, .f32⟩
  | 16 => ⟨S4x32, .f32⟩
  | 17 => ⟨S4x32, .f32⟩
  | 18 => ⟨S4x32, .f32⟩
  | 19 => ⟨S4x32, .f32⟩
  | 20 => ⟨S4x32, .f32⟩
  | 21 => ⟨S96x32, .f32⟩
  | 22 => ⟨S32, .f32⟩
  | 23 => ⟨S32x1, .f32⟩
  | 24 => ⟨S1, .f32⟩
  | 25 => ⟨S1x800000, .i32⟩
  | 26 => ⟨S800000, .i32⟩
  | 27 => ⟨S1x800000, .i32⟩
  | 28 => ⟨S800000, .i32⟩
  | 29 => ⟨S100000x32, .f32⟩
  | 30 => ⟨S1x32, .f32⟩
  | 31 => ⟨S100000x32, .f32⟩
  | 32 => ⟨S100000x32, .f32⟩
  | 33 => ⟨S800000x32, .f32⟩
  | 34 => ⟨S1x32, .f32⟩
  | 35 => ⟨S800000x32, .f32⟩
  | 36 => ⟨S800000x32, .f32⟩
  | 37 => ⟨S1x32x32, .f32⟩
  | 38 => ⟨S32x32, .f32⟩
  | 39 => ⟨S100000x32, .f32⟩
  | 40 => ⟨S1x32, .f32⟩
  | 41 => ⟨S32, .f32⟩
  | 42 => ⟨S1x32, .f32⟩
  | 43 => ⟨S100000x32, .f32⟩
  | 44 => ⟨S100000x32, .f32⟩
  | 45 => ⟨S1x32x32, .f32⟩
  | 46 => ⟨S32x32, .f32⟩
  | 47 => ⟨S100000x32, .f32⟩
  | 48 => ⟨S1x32, .f32⟩
  | 49 => ⟨S32, .f32⟩
  | 50 => ⟨S1x32, .f32⟩
  | 51 => ⟨S100000x32, .f32⟩
  | 52 => ⟨S100000x32, .f32⟩
  | 53 => ⟨S1x32x32, .f32⟩
  | 54 => ⟨S32x32, .f32⟩
  | 55 => ⟨S800000x32, .f32⟩
  | 56 => ⟨S1x32, .f32⟩
  | 57 => ⟨S32, .f32⟩
  | 58 => ⟨S1x32, .f32⟩
  | 59 => ⟨S800000x32, .f32⟩
  | 60 => ⟨S800000x32, .f32⟩
  | 61 => ⟨S1x32x32, .f32⟩
  | 62 => ⟨S32x32, .f32⟩
  | 63 => ⟨S100000x32, .f32⟩
  | 64 => ⟨S1x32, .f32⟩
  | 65 => ⟨S32, .f32⟩
  | 66 => ⟨S1x32, .f32⟩
  | 67 => ⟨S100000x32, .f32⟩
  | 68 => ⟨S100000x32, .f32⟩
  | 69 => ⟨S1x32x32, .f32⟩
  | 70 => ⟨S32x32, .f32⟩
  | 71 => ⟨S100000x32, .f32⟩
  | 72 => ⟨S1x32, .f32⟩
  | 73 => ⟨S32, .f32⟩
  | 74 => ⟨S1x32, .f32⟩
  | 75 => ⟨S100000x32, .f32⟩
  | 76 => ⟨S100000x32, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x32, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x32, .f32⟩
  | 95 => ⟨S800000x32, .f32⟩
  | 96 => ⟨S800000x32, .f32⟩
  | 97 => ⟨S800000x32, .f32⟩
  | 98 => ⟨S800000x32, .f32⟩
  | 99 => ⟨S_, .f32⟩
  | 100 => ⟨S800000x32, .f32⟩
  | 101 => ⟨S800000x32, .f32⟩
  | 102 => ⟨S_, .f32⟩
  | 103 => ⟨S800000x32, .f32⟩
  | 104 => ⟨S800000x32, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x32, .f32⟩
  | 114 => ⟨S800000x32, .f32⟩
  | 115 => ⟨S_, .f32⟩
  | 116 => ⟨S100000x32, .f32⟩
  | 117 => ⟨S800000x1, .i32⟩
  | 118 => ⟨S100000x32, .f32⟩
  | 119 => ⟨S_, .f32⟩
  | 120 => ⟨S100000x32, .f32⟩
  | 121 => ⟨S800000x1, .i32⟩
  | 122 => ⟨S100000x32, .f32⟩
  | 123 => ⟨S_, .f32⟩
  | 124 => ⟨S100000x32, .f32⟩
  | 125 => ⟨S100000x32, .f32⟩
  | 126 => ⟨S100000x32, .f32⟩
  | 127 => ⟨S100000x32, .f32⟩
  | _ => ⟨S100000x1, .f32⟩

abbrev hbmTy0_1 (i : Nat) : BufTy := match i % 128 with
  | 0 => ⟨S1x32, .f32⟩
  | 1 => ⟨S32, .f32⟩
  | 2 => ⟨S1x32, .f32⟩
  | 3 => ⟨S32, .f32⟩
  | 4 => ⟨S_, .f32⟩
  | 5 => ⟨S32, .f32⟩
  | 6 => ⟨S_, .f32⟩
  | 7 => ⟨S32, .f32⟩
  | 8 => ⟨S32, .f32⟩
  | 9 => ⟨S_, .i32⟩
  | 10 => ⟨S_, .f32⟩
  | 11 => ⟨S32, .f32⟩
  | 12 => ⟨S1x32, .f32⟩
  | 13 => ⟨S_, .f32⟩
  | 14 => ⟨S1x32, .f32⟩
  | 15 => ⟨S1x32, .f32⟩
  | 16 => ⟨S100000x32, .f32⟩
  | 17 => ⟨S100000x32, .f32⟩
  | 18 => ⟨S100000x32, .f32⟩
  | 19 => ⟨S_, .f32⟩
  | 20 => ⟨S_, .f32⟩
  | 21 => ⟨S_, .f32⟩
  | 22 => ⟨S_, .f32⟩
  | 23 => ⟨S32, .f32⟩
  | 24 => ⟨S32, .f32⟩
  | 25 => ⟨S32, .f32⟩
  | 26 => ⟨S_, .f32⟩
  | 27 => ⟨S_, .i1⟩
  | 28 => ⟨S_, .f32⟩
  | 29 => ⟨S_, .f32⟩
  | 30 => ⟨S32, .f32⟩
  | 31 => ⟨S32, .f32⟩
  | 32 => ⟨S1x32, .f32⟩
  | 33 => ⟨S100000x32, .f32⟩
  | 34 => ⟨S100000x32, .f32⟩
  | 35 => ⟨S_, .f32⟩
  | 36 => ⟨S32, .f32⟩
  | 37 => ⟨S32, .f32⟩
  | 38 => ⟨S32, .f32⟩
  | 39 => ⟨S1x32, .f32⟩
  | 40 => ⟨S100000x32, .f32⟩
  | 41 => ⟨S100000x32, .f32⟩
  | 42 => ⟨S1x32, .f32⟩
  | 43 => ⟨S100000x32, .f32⟩
  | 44 => ⟨S100000x32, .f32⟩
  | 45 => ⟨S1x32, .f32⟩
  | 46 => ⟨S100000x32, .f32⟩
  | 47 => ⟨S100000x32, .f32⟩
  | 48 => ⟨S_, .f32⟩
  | 49 => ⟨S100000x32, .f32⟩
  | 50 => ⟨S100000x32, .f32⟩
  | 51 => ⟨S100000x32, .f32⟩
  | 52 => ⟨S1x32, .f32⟩
  | 53 => ⟨S32, .f32⟩
  | 54 => ⟨S1x32, .f32⟩
  | 55 => ⟨S32, .f32⟩
  | 56 => ⟨S_, .f32⟩
  | 57 => ⟨S32, .f32⟩
  | 58 => ⟨S_, .f32⟩
  | 59 => ⟨S32, .f32⟩
  | 60 => ⟨S32, .f32⟩
  | 61 => ⟨S_, .i32⟩
  | 62 => ⟨S_, .f32⟩
  | 63 => ⟨S32, .f32⟩
  | 64 => ⟨S1x32, .f32⟩
  | 65 => ⟨S_, .f32⟩
  | 66 => ⟨S1x32, .f32⟩
  | 67 => ⟨S1x32, .f32⟩
  | 68 => ⟨S800000x32, .f32⟩
  | 69 => ⟨S800000x32, .f32⟩
  | 70 => ⟨S800000x32, .f32⟩
  | 71 => ⟨S_, .f32⟩
  | 72 => ⟨S_, .f32⟩
  | 73 => ⟨S_, .f32⟩
  | 74 => ⟨S_, .f32⟩
  | 75 => ⟨S32, .f32⟩
  | 76 => ⟨S32, .f32⟩
  | 77 => ⟨S32, .f32⟩
  | 78 => ⟨S_, .f32⟩
  | 79 => ⟨S_, .i1⟩
  | 80 => ⟨S_, .f32⟩
  | 81 => ⟨S_, .f32⟩
  | 82 => ⟨S32, .f32⟩
  | 83 => ⟨S32, .f32⟩
  | 84 => ⟨S1x32, .f32⟩
  | 85 => ⟨S800000x32, .f32⟩
  | 86 => ⟨S800000x32, .f32⟩
  | 87 => ⟨S_, .f32⟩
  | 88 => ⟨S32, .f32⟩
  | 89 => ⟨S32, .f32⟩
  | 90 => ⟨S32, .f32⟩
  | 91 => ⟨S1x32, .f32⟩
  | 92 => ⟨S800000x32, .f32⟩
  | 93 => ⟨S800000x32, .f32⟩
  | 94 => ⟨S1x32, .f32⟩
  | 95 => ⟨S800000x32, .f32⟩
  | 96 => ⟨S800000x32, .f32⟩
  | 97 => ⟨S1x32, .f32⟩
  | 98 => ⟨S800000x32, .f32⟩
  | 99 => ⟨S800000x32, .f32⟩
  | 100 => ⟨S_, .f32⟩
  | 101 => ⟨S800000x32, .f32⟩
  | 102 => ⟨S800000x32, .f32⟩
  | 103 => ⟨S800000x32, .f32⟩
  | 104 => ⟨S1x32x32, .f32⟩
  | 105 => ⟨S32x32, .f32⟩
  | 106 => ⟨S100000x32, .f32⟩
  | 107 => ⟨S1x32, .f32⟩
  | 108 => ⟨S32, .f32⟩
  | 109 => ⟨S1x32, .f32⟩
  | 110 => ⟨S100000x32, .f32⟩
  | 111 => ⟨S100000x32, .f32⟩
  | 112 => ⟨S1x32x32, .f32⟩
  | 113 => ⟨S32x32, .f32⟩
  | 114 => ⟨S100000x32, .f32⟩
  | 115 => ⟨S1x32, .f32⟩
  | 116 => ⟨S32, .f32⟩
  | 117 => ⟨S1x32, .f32⟩
  | 118 => ⟨S100000x32, .f32⟩
  | 119 => ⟨S100000x32, .f32⟩
  | 120 => ⟨S1x32x32, .f32⟩
  | 121 => ⟨S32x32, .f32⟩
  | 122 => ⟨S800000x32, .f32⟩
  | 123 => ⟨S1x32, .f32⟩
  | 124 => ⟨S32, .f32⟩
  | 125 => ⟨S1x32, .f32⟩
  | 126 => ⟨S800000x32, .f32⟩
  | 127 => ⟨S800000x32, .f32⟩
  | _ => ⟨S100000x1, .f32⟩

abbrev hbmTy0_2 (i : Nat) : BufTy := match i % 128 with
  | 0 => ⟨S1x32x32, .f32⟩
  | 1 => ⟨S32x32, .f32⟩
  | 2 => ⟨S100000x32, .f32⟩
  | 3 => ⟨S1x32, .f32⟩
  | 4 => ⟨S32, .f32⟩
  | 5 => ⟨S1x32, .f32⟩
  | 6 => ⟨S100000x32, .f32⟩
  | 7 => ⟨S100000x32, .f32⟩
  | 8 => ⟨S1x32x32, .f32⟩
  | 9 => ⟨S32x32, .f32⟩
  | 10 => ⟨S100000x32, .f32⟩
  | 11 => ⟨S1x32, .f32⟩
  | 12 => ⟨S32, .f32⟩
  | 13 => ⟨S1x32, .f32⟩
  | 14 => ⟨S100000x32, .f32⟩
  | 15 => ⟨S100000x32, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x32, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x32, .f32⟩
  | 34 => ⟨S800000x32, .f32⟩
  | 35 => ⟨S800000x32, .f32⟩
  | 36 => ⟨S800000x32, .f32⟩
  | 37 => ⟨S800000x32, .f32⟩
  | 38 => ⟨S_, .f32⟩
  | 39 => ⟨S800000x32, .f32⟩
  | 40 => ⟨S800000x32, .f32⟩
  | 41 => ⟨S_, .f32⟩
  | 42 => ⟨S800000x32, .f32⟩
  | 43 => ⟨S800000x32, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x32, .f32⟩
  | 53 => ⟨S800000x32, .f32⟩
  | 54 => ⟨S_, .f32⟩
  | 55 => ⟨S100000x32, .f32⟩
  | 56 => ⟨S800000x1, .i32⟩
  | 57 => ⟨S100000x32, .f32⟩
  | 58 => ⟨S_, .f32⟩
  | 59 => ⟨S100000x32, .f32⟩
  | 60 => ⟨S800000x1, .i32⟩
  | 61 => ⟨S100000x32, .f32⟩
  | 62 => ⟨S_, .f32⟩
  | 63 => ⟨S100000x32, .f32⟩
  | 64 => ⟨S100000x32, .f32⟩
  | 65 => ⟨S100000x32, .f32⟩
  | 66 => ⟨S100000x32, .f32⟩
  | 67 => ⟨S1x32, .f32⟩
  | 68 => ⟨S32, .f32⟩
  | 69 => ⟨S1x32, .f32⟩
  | 70 => ⟨S32, .f32⟩
  | 71 => ⟨S_, .f32⟩
  | 72 => ⟨S32, .f32⟩
  | 73 => ⟨S_, .f32⟩
  | 74 => ⟨S32, .f32⟩
  | 75 => ⟨S32, .f32⟩
  | 76 => ⟨S_, .i32⟩
  | 77 => ⟨S_, .f32⟩
  | 78 => ⟨S32, .f32⟩
  | 79 => ⟨S1x32, .f32⟩
  | 80 => ⟨S_, .f32⟩
  | 81 => ⟨S1x32, .f32⟩
  | 82 => ⟨S1x32, .f32⟩
  | 83 => ⟨S100000x32, .f32⟩
  | 84 => ⟨S100000x32, .f32⟩
  | 85 => ⟨S100000x32, .f32⟩
  | 86 => ⟨S_, .f32⟩
  | 87 => ⟨S_, .f32⟩
  | 88 => ⟨S_, .f32⟩
  | 89 => ⟨S_, .f32⟩
  | 90 => ⟨S32, .f32⟩
  | 91 => ⟨S32, .f32⟩
  | 92 => ⟨S32, .f32⟩
  | 93 => ⟨S_, .f32⟩
  | 94 => ⟨S_, .i1⟩
  | 95 => ⟨S_, .f32⟩
  | 96 => ⟨S_, .f32⟩
  | 97 => ⟨S32, .f32⟩
  | 98 => ⟨S32, .f32⟩
  | 99 => ⟨S1x32, .f32⟩
  | 100 => ⟨S100000x32, .f32⟩
  | 101 => ⟨S100000x32, .f32⟩
  | 102 => ⟨S_, .f32⟩
  | 103 => ⟨S32, .f32⟩
  | 104 => ⟨S32, .f32⟩
  | 105 => ⟨S32, .f32⟩
  | 106 => ⟨S1x32, .f32⟩
  | 107 => ⟨S100000x32, .f32⟩
  | 108 => ⟨S100000x32, .f32⟩
  | 109 => ⟨S1x32, .f32⟩
  | 110 => ⟨S100000x32, .f32⟩
  | 111 => ⟨S100000x32, .f32⟩
  | 112 => ⟨S1x32, .f32⟩
  | 113 => ⟨S100000x32, .f32⟩
  | 114 => ⟨S100000x32, .f32⟩
  | 115 => ⟨S_, .f32⟩
  | 116 => ⟨S100000x32, .f32⟩
  | 117 => ⟨S100000x32, .f32⟩
  | 118 => ⟨S100000x32, .f32⟩
  | 119 => ⟨S1x32, .f32⟩
  | 120 => ⟨S32, .f32⟩
  | 121 => ⟨S1x32, .f32⟩
  | 122 => ⟨S32, .f32⟩
  | 123 => ⟨S_, .f32⟩
  | 124 => ⟨S32, .f32⟩
  | 125 => ⟨S_, .f32⟩
  | 126 => ⟨S32, .f32⟩
  | 127 => ⟨S32, .f32⟩
  | _ => ⟨S100000x1, .f32⟩

abbrev hbmTy0_3 (i : Nat) : BufTy := match i % 128 with
  | 0 => ⟨S_, .i32⟩
  | 1 => ⟨S_, .f32⟩
  | 2 => ⟨S32, .f32⟩
  | 3 => ⟨S1x32, .f32⟩
  | 4 => ⟨S_, .f32⟩
  | 5 => ⟨S1x32, .f32⟩
  | 6 => ⟨S1x32, .f32⟩
  | 7 => ⟨S800000x32, .f32⟩
  | 8 => ⟨S800000x32, .f32⟩
  | 9 => ⟨S800000x32, .f32⟩
  | 10 => ⟨S_, .f32⟩
  | 11 => ⟨S_, .f32⟩
  | 12 => ⟨S_, .f32⟩
  | 13 => ⟨S_, .f32⟩
  | 14 => ⟨S32, .f32⟩
  | 15 => ⟨S32, .f32⟩
  | 16 => ⟨S32, .f32⟩
  | 17 => ⟨S_, .f32⟩
  | 18 => ⟨S_, .i1⟩
  | 19 => ⟨S_, .f32⟩
  | 20 => ⟨S_, .f32⟩
  | 21 => ⟨S32, .f32⟩
  | 22 => ⟨S32, .f32⟩
  | 23 => ⟨S1x32, .f32⟩
  | 24 => ⟨S800000x32, .f32⟩
  | 25 => ⟨S800000x32, .f32⟩
  | 26 => ⟨S_, .f32⟩
  | 27 => ⟨S32, .f32⟩
  | 28 => ⟨S32, .f32⟩
  | 29 => ⟨S32, .f32⟩
  | 30 => ⟨S1x32, .f32⟩
  | 31 => ⟨S800000x32, .f32⟩
  | 32 => ⟨S800000x32, .f32⟩
  | 33 => ⟨S1x32, .f32⟩
  | 34 => ⟨S800000x32, .f32⟩
  | 35 => ⟨S800000x32, .f32⟩
  | 36 => ⟨S1x32, .f32⟩
  | 37 => ⟨S800000x32, .f32⟩
  | 38 => ⟨S800000x32, .f32⟩
  | 39 => ⟨S_, .f32⟩
  | 40 => ⟨S800000x32, .f32⟩
  | 41 => ⟨S800000x32, .f32⟩
  | 42 => ⟨S800000x32, .f32⟩
  | 43 => ⟨S1x32x32, .f32⟩
  | 44 => ⟨S32x32, .f32⟩
  | 45 => ⟨S100000x32, .f32⟩
  | 46 => ⟨S1x32, .f32⟩
  | 47 => ⟨S32, .f32⟩
  | 48 => ⟨S1x32, .f32⟩
  | 49 => ⟨S100000x32, .f32⟩
  | 50 => ⟨S100000x32, .f32⟩
  | 51 => ⟨S1x32x32, .f32⟩
  | 52 => ⟨S32x32, .f32⟩
  | 53 => ⟨S100000x32, .f32⟩
  | 54 => ⟨S1x32, .f32⟩
  | 55 => ⟨S32, .f32⟩
  | 56 => ⟨S1x32, .f32⟩
  | 57 => ⟨S100000x32, .f32⟩
  | 58 => ⟨S100000x32, .f32⟩
  | 59 => ⟨S1x32x32, .f32⟩
  | 60 => ⟨S32x32, .f32⟩
  | 61 => ⟨S800000x32, .f32⟩
  | 62 => ⟨S1x32, .f32⟩
  | 63 => ⟨S32, .f32⟩
  | 64 => ⟨S1x32, .f32⟩
  | 65 => ⟨S800000x32, .f32⟩
  | 66 => ⟨S800000x32, .f32⟩
  | 67 => ⟨S1x32x32, .f32⟩
  | 68 => ⟨S32x32, .f32⟩
  | 69 => ⟨S100000x32, .f32⟩
  | 70 => ⟨S1x32, .f32⟩
  | 71 => ⟨S32, .f32⟩
  | 72 => ⟨S1x32, .f32⟩
  | 73 => ⟨S100000x32, .f32⟩
  | 74 => ⟨S100000x32, .f32⟩
  | 75 => ⟨S1x32x32, .f32⟩
  | 76 => ⟨S32x32, .f32⟩
  | 77 => ⟨S100000x32, .f32⟩
  | 78 => ⟨S1x32, .f32⟩
  | 79 => ⟨S32, .f32⟩
  | 80 => ⟨S1x32, .f32⟩
  | 81 => ⟨S100000x32, .f32⟩
  | 82 => ⟨S100000x32, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x32, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x32, .f32⟩
  | 101 => ⟨S800000x32, .f32⟩
  | 102 => ⟨S800000x32, .f32⟩
  | 103 => ⟨S800000x32, .f32⟩
  | 104 => ⟨S800000x32, .f32⟩
  | 105 => ⟨S_, .f32⟩
  | 106 => ⟨S800000x32, .f32⟩
  | 107 => ⟨S800000x32, .f32⟩
  | 108 => ⟨S_, .f32⟩
  | 109 => ⟨S800000x32, .f32⟩
  | 110 => ⟨S800000x32, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x32, .f32⟩
  | 120 => ⟨S800000x32, .f32⟩
  | 121 => ⟨S_, .f32⟩
  | 122 => ⟨S100000x32, .f32⟩
  | 123 => ⟨S800000x1, .i32⟩
  | 124 => ⟨S100000x32, .f32⟩
  | 125 => ⟨S_, .f32⟩
  | 126 => ⟨S100000x32, .f32⟩
  | 127 => ⟨S800000x1, .i32⟩
  | _ => ⟨S100000x1, .f32⟩

abbrev hbmTy0_4 (i : Nat) : BufTy := match i % 128 with
  | 0 => ⟨S100000x32, .f32⟩
  | 1 => ⟨S_, .f32⟩
  | 2 => ⟨S100000x32, .f32⟩
  | 3 => ⟨S100000x32, .f32⟩
  | 4 => ⟨S100000x32, .f32⟩
  | 5 => ⟨S100000x32, .f32⟩
  | 6 => ⟨S1x32, .f32⟩
  | 7 => ⟨S32, .f32⟩
  | 8 => ⟨S1x32, .f32⟩
  | 9 => ⟨S32, .f32⟩
  | 10 => ⟨S_, .f32⟩
  | 11 => ⟨S32, .f32⟩
  | 12 => ⟨S_, .f32⟩
  | 13 => ⟨S32, .f32⟩
  | 14 => ⟨S32, .f32⟩
  | 15 => ⟨S_, .i32⟩
  | 16 => ⟨S_, .f32⟩
  | 17 => ⟨S32, .f32⟩
  | 18 => ⟨S1x32, .f32⟩
  | 19 => ⟨S_, .f32⟩
  | 20 => ⟨S1x32, .f32⟩
  | 21 => ⟨S1x32, .f32⟩
  | 22 => ⟨S100000x32, .f32⟩
  | 23 => ⟨S100000x32, .f32⟩
  | 24 => ⟨S100000x32, .f32⟩
  | 25 => ⟨S_, .f32⟩
  | 26 => ⟨S_, .f32⟩
  | 27 => ⟨S_, .f32⟩
  | 28 => ⟨S_, .f32⟩
  | 29 => ⟨S32, .f32⟩
  | 30 => ⟨S32, .f32⟩
  | 31 => ⟨S32, .f32⟩
  | 32 => ⟨S_, .f32⟩
  | 33 => ⟨S_, .i1⟩
  | 34 => ⟨S_, .f32⟩
  | 35 => ⟨S_, .f32⟩
  | 36 => ⟨S32, .f32⟩
  | 37 => ⟨S32, .f32⟩
  | 38 => ⟨S1x32, .f32⟩
  | 39 => ⟨S100000x32, .f32⟩
  | 40 => ⟨S100000x32, .f32⟩
  | 41 => ⟨S_, .f32⟩
  | 42 => ⟨S32, .f32⟩
  | 43 => ⟨S32, .f32⟩
  | 44 => ⟨S32, .f32⟩
  | 45 => ⟨S1x32, .f32⟩
  | 46 => ⟨S100000x32, .f32⟩
  | 47 => ⟨S100000x32, .f32⟩
  | 48 => ⟨S1x32, .f32⟩
  | 49 => ⟨S100000x32, .f32⟩
  | 50 => ⟨S100000x32, .f32⟩
  | 51 => ⟨S1x32, .f32⟩
  | 52 => ⟨S100000x32, .f32⟩
  | 53 => ⟨S100000x32, .f32⟩
  | 54 => ⟨S_, .f32⟩
  | 55 => ⟨S100000x32, .f32⟩
  | 56 => ⟨S100000x32, .f32⟩
  | 57 => ⟨S100000x32, .f32⟩
  | 58 => ⟨S1x32, .f32⟩
  | 59 => ⟨S32, .f32⟩
  | 60 => ⟨S1x32, .f32⟩
  | 61 => ⟨S32, .f32⟩
  | 62 => ⟨S_, .f32⟩
  | 63 => ⟨S32, .f32⟩
  | 64 => ⟨S_, .f32⟩
  | 65 => ⟨S32, .f32⟩
  | 66 => ⟨S32, .f32⟩
  | 67 => ⟨S_, .i32⟩
  | 68 => ⟨S_, .f32⟩
  | 69 => ⟨S32, .f32⟩
  | 70 => ⟨S1x32, .f32⟩
  | 71 => ⟨S_, .f32⟩
  | 72 => ⟨S1x32, .f32⟩
  | 73 => ⟨S1x32, .f32⟩
  | 74 => ⟨S800000x32, .f32⟩
  | 75 => ⟨S800000x32, .f32⟩
  | 76 => ⟨S800000x32, .f32⟩
  | 77 => ⟨S_, .f32⟩
  | 78 => ⟨S_, .f32⟩
  | 79 => ⟨S_, .f32⟩
  | 80 => ⟨S_, .f32⟩
  | 81 => ⟨S32, .f32⟩
  | 82 => ⟨S32, .f32⟩
  | 83 => ⟨S32, .f32⟩
  | 84 => ⟨S_, .f32⟩
  | 85 => ⟨S_, .i1⟩
  | 86 => ⟨S_, .f32⟩
  | 87 => ⟨S_, .f32⟩
  | 88 => ⟨S32, .f32⟩
  | 89 => ⟨S32, .f32⟩
  | 90 => ⟨S1x32, .f32⟩
  | 91 => ⟨S800000x32, .f32⟩
  | 92 => ⟨S800000x32, .f32⟩
  | 93 => ⟨S_, .f32⟩
  | 94 => ⟨S32, .f32⟩
  | 95 => ⟨S32, .f32⟩
  | 96 => ⟨S32, .f32⟩
  | 97 => ⟨S1x32, .f32⟩
  | 98 => ⟨S800000x32, .f32⟩
  | 99 => ⟨S800000x32, .f32⟩
  | 100 => ⟨S1x32, .f32⟩
  | 101 => ⟨S800000x32, .f32⟩
  | 102 => ⟨S800000x32, .f32⟩
  | 103 => ⟨S1x32, .f32⟩
  | 104 => ⟨S800000x32, .f32⟩
  | 105 => ⟨S800000x32, .f32⟩
  | 106 => ⟨S_, .f32⟩
  | 107 => ⟨S800000x32, .f32⟩
  | 108 => ⟨S800000x32, .f32⟩
  | 109 => ⟨S800000x32, .f32⟩
  | 110 => ⟨S1x32x32, .f32⟩
  | 111 => ⟨S32x32, .f32⟩
  | 112 => ⟨S100000x32, .f32⟩
  | 113 => ⟨S1x32, .f32⟩
  | 114 => ⟨S32, .f32⟩
  | 115 => ⟨S1x32, .f32⟩
  | 116 => ⟨S100000x32, .f32⟩
  | 117 => ⟨S100000x32, .f32⟩
  | 118 => ⟨S1x32x32, .f32⟩
  | 119 => ⟨S32x32, .f32⟩
  | 120 => ⟨S100000x32, .f32⟩
  | 121 => ⟨S1x32, .f32⟩
  | 122 => ⟨S32, .f32⟩
  | 123 => ⟨S1x32, .f32⟩
  | 124 => ⟨S100000x32, .f32⟩
  | 125 => ⟨S100000x32, .f32⟩
  | 126 => ⟨S1x32x32, .f32⟩
  | 127 => ⟨S32x32, .f32⟩
  | _ => ⟨S100000x1, .f32⟩

abbrev hbmTy0_5 (i : Nat) : BufTy := match i % 128 with
  | 0 => ⟨S800000x32, .f32⟩
  | 1 => ⟨S1x32, .f32⟩
  | 2 => ⟨S32, .f32⟩
  | 3 => ⟨S1x32, .f32⟩
  | 4 => ⟨S800000x32, .f32⟩
  | 5 => ⟨S800000x32, .f32⟩
  | 6 => ⟨S1x32x32, .f32⟩
  | 7 => ⟨S32x32, .f32⟩
  | 8 => ⟨S100000x32, .f32⟩
  | 9 => ⟨S1x32, .f32⟩
  | 10 => ⟨S32, .f32⟩
  | 11 => ⟨S1x32, .f32⟩
  | 12 => ⟨S100000x32, .f32⟩
  | 13 => ⟨S100000x32, .f32⟩
  | 14 => ⟨S1x32x32, .f32⟩
  | 15 => ⟨S32x32, .f32⟩
  | 16 => ⟨S100000x32, .f32⟩
  | 17 => ⟨S1x32, .f32⟩
  | 18 => ⟨S32, .f32⟩
  | 19 => ⟨S1x32, .f32⟩
  | 20 => ⟨S100000x32, .f32⟩
  | 21 => ⟨S100000x32, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x32, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x32, .f32⟩
  | 40 => ⟨S800000x32, .f32⟩
  | 41 => ⟨S800000x32, .f32⟩
  | 42 => ⟨S800000x32, .f32⟩
  | 43 => ⟨S800000x32, .f32⟩
  | 44 => ⟨S_, .f32⟩
  | 45 => ⟨S800000x32, .f32⟩
  | 46 => ⟨S800000x32, .f32⟩
  | 47 => ⟨S_, .f32⟩
  | 48 => ⟨S800000x32, .f32⟩
  | 49 => ⟨S800000x32, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x32, .f32⟩
  | 59 => ⟨S800000x32, .f32⟩
  | 60 => ⟨S_, .f32⟩
  | 61 => ⟨S100000x32, .f32⟩
  | 62 => ⟨S800000x1, .i32⟩
  | 63 => ⟨S100000x32, .f32⟩
  | 64 => ⟨S_, .f32⟩
  | 65 => ⟨S100000x32, .f32⟩
  | 66 => ⟨S800000x1, .i32⟩
  | 67 => ⟨S100000x32, .f32⟩
  | 68 => ⟨S_, .f32⟩
  | 69 => ⟨S100000x32, .f32⟩
  | 70 => ⟨S100000x32, .f32⟩
  | 71 => ⟨S100000x32, .f32⟩
  | 72 => ⟨S100000x32, .f32⟩
  | 73 => ⟨S1x32, .f32⟩
  | 74 => ⟨S32, .f32⟩
  | 75 => ⟨S1x32, .f32⟩
  | 76 => ⟨S32, .f32⟩
  | 77 => ⟨S_, .f32⟩
  | 78 => ⟨S32, .f32⟩
  | 79 => ⟨S_, .f32⟩
  | 80 => ⟨S32, .f32⟩
  | 81 => ⟨S32, .f32⟩
  | 82 => ⟨S_, .i32⟩
  | 83 => ⟨S_, .f32⟩
  | 84 => ⟨S32, .f32⟩
  | 85 => ⟨S1x32, .f32⟩
  | 86 => ⟨S_, .f32⟩
  | 87 => ⟨S1x32, .f32⟩
  | 88 => ⟨S1x32, .f32⟩
  | 89 => ⟨S100000x32, .f32⟩
  | 90 => ⟨S100000x32, .f32⟩
  | 91 => ⟨S100000x32, .f32⟩
  | 92 => ⟨S_, .f32⟩
  | 93 => ⟨S_, .f32⟩
  | 94 => ⟨S_, .f32⟩
  | 95 => ⟨S_, .f32⟩
  | 96 => ⟨S32, .f32⟩
  | 97 => ⟨S32, .f32⟩
  | 98 => ⟨S32, .f32⟩
  | 99 => ⟨S_, .f32⟩
  | 100 => ⟨S_, .i1⟩
  | 101 => ⟨S_, .f32⟩
  | 102 => ⟨S_, .f32⟩
  | 103 => ⟨S32, .f32⟩
  | 104 => ⟨S32, .f32⟩
  | 105 => ⟨S1x32, .f32⟩
  | 106 => ⟨S100000x32, .f32⟩
  | 107 => ⟨S100000x32, .f32⟩
  | 108 => ⟨S_, .f32⟩
  | 109 => ⟨S32, .f32⟩
  | 110 => ⟨S32, .f32⟩
  | 111 => ⟨S32, .f32⟩
  | 112 => ⟨S1x32, .f32⟩
  | 113 => ⟨S100000x32, .f32⟩
  | 114 => ⟨S100000x32, .f32⟩
  | 115 => ⟨S1x32, .f32⟩
  | 116 => ⟨S100000x32, .f32⟩
  | 117 => ⟨S100000x32, .f32⟩
  | 118 => ⟨S1x32, .f32⟩
  | 119 => ⟨S100000x32, .f32⟩
  | 120 => ⟨S100000x32, .f32⟩
  | 121 => ⟨S_, .f32⟩
  | 122 => ⟨S100000x32, .f32⟩
  | 123 => ⟨S100000x32, .f32⟩
  | 124 => ⟨S100000x32, .f32⟩
  | 125 => ⟨S1x32, .f32⟩
  | 126 => ⟨S32, .f32⟩
  | 127 => ⟨S1x32, .f32⟩
  | _ => ⟨S100000x1, .f32⟩

abbrev hbmTy0_6 (i : Nat) : BufTy := match i % 128 with
  | 0 => ⟨S32, .f32⟩
  | 1 => ⟨S_, .f32⟩
  | 2 => ⟨S32, .f32⟩
  | 3 => ⟨S_, .f32⟩
  | 4 => ⟨S32, .f32⟩
  | 5 => ⟨S32, .f32⟩
  | 6 => ⟨S_, .i32⟩
  | 7 => ⟨S_, .f32⟩
  | 8 => ⟨S32, .f32⟩
  | 9 => ⟨S1x32, .f32⟩
  | 10 => ⟨S_, .f32⟩
  | 11 => ⟨S1x32, .f32⟩
  | 12 => ⟨S1x32, .f32⟩
  | 13 => ⟨S800000x32, .f32⟩
  | 14 => ⟨S800000x32, .f32⟩
  | 15 => ⟨S800000x32, .f32⟩
  | 16 => ⟨S_, .f32⟩
  | 17 => ⟨S_, .f32⟩
  | 18 => ⟨S_, .f32⟩
  | 19 => ⟨S_, .f32⟩
  | 20 => ⟨S32, .f32⟩
  | 21 => ⟨S32, .f32⟩
  | 22 => ⟨S32, .f32⟩
  | 23 => ⟨S_, .f32⟩
  | 24 => ⟨S_, .i1⟩
  | 25 => ⟨S_, .f32⟩
  | 26 => ⟨S_, .f32⟩
  | 27 => ⟨S32, .f32⟩
  | 28 => ⟨S32, .f32⟩
  | 29 => ⟨S1x32, .f32⟩
  | 30 => ⟨S800000x32, .f32⟩
  | 31 => ⟨S800000x32, .f32⟩
  | 32 => ⟨S_, .f32⟩
  | 33 => ⟨S32, .f32⟩
  | 34 => ⟨S32, .f32⟩
  | 35 => ⟨S32, .f32⟩
  | 36 => ⟨S1x32, .f32⟩
  | 37 => ⟨S800000x32, .f32⟩
  | 38 => ⟨S800000x32, .f32⟩
  | 39 => ⟨S1x32, .f32⟩
  | 40 => ⟨S800000x32, .f32⟩
  | 41 => ⟨S800000x32, .f32⟩
  | 42 => ⟨S1x32, .f32⟩
  | 43 => ⟨S800000x32, .f32⟩
  | 44 => ⟨S800000x32, .f32⟩
  | 45 => ⟨S_, .f32⟩
  | 46 => ⟨S800000x32, .f32⟩
  | 47 => ⟨S800000x32, .f32⟩
  | 48 => ⟨S800000x32, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x32, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x32, .f32⟩
  | 67 => ⟨S800000x96, .f32⟩
  | 68 => ⟨S800000x32, .f32⟩
  | 69 => ⟨S1x32, .f32⟩
  | 70 => ⟨S800000x32, .f32⟩
  | 71 => ⟨S800000x32, .f32⟩
  | 72 => ⟨S_, .f32⟩
  | 73 => ⟨S800000x32, .f32⟩
  | 74 => ⟨S800000x32, .f32⟩
  | 75 => ⟨S800000x1, .f32⟩
  | 76 => ⟨S1x1, .f32⟩
  | 77 => ⟨S800000x1, .f32⟩
  | 78 => ⟨S800000x1, .f32⟩
  | _ => ⟨S100000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c : Ref sig .tc := ⟨.hbm, 77, rfl⟩
abbrev main_v52 : Ref sig .tc := ⟨.hbm, 78, rfl⟩
abbrev main_v53 : Ref sig .tc := ⟨.hbm, 79, rfl⟩
abbrev main_c_0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_1 : Ref sig .tc := ⟨.hbm, 86, rfl⟩
abbrev main_v59 : Ref sig .tc := ⟨.hbm, 87, rfl⟩
abbrev main_v60 : Ref sig .tc := ⟨.hbm, 88, rfl⟩
abbrev main_c_2 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst : Ref sig .tc := ⟨.hbm, 99, rfl⟩
abbrev main_v70 : Ref sig .tc := ⟨.hbm, 100, rfl⟩
abbrev main_v71 : Ref sig .tc := ⟨.hbm, 101, rfl⟩
abbrev main_cst_3 : Ref sig .tc := ⟨.hbm, 102, rfl⟩
abbrev main_v72 : Ref sig .tc := ⟨.hbm, 103, rfl⟩
abbrev main_v73 : Ref sig .tc := ⟨.hbm, 104, rfl⟩
abbrev main_c_4 : Ref sig .tc := ⟨.hbm, 105, rfl⟩
abbrev main_v74 : Ref sig .tc := ⟨.hbm, 106, rfl⟩
abbrev main_v75 : Ref sig .tc := ⟨.hbm, 107, rfl⟩
abbrev main_c_5 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_6 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_7 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_8 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_9 : Ref sig .tc := ⟨.hbm, 132, rfl⟩
abbrev main_v96 : Ref sig .tc := ⟨.hbm, 133, rfl⟩
abbrev main_cst_10 : Ref sig .tc := ⟨.hbm, 134, rfl⟩
abbrev main_v97 : Ref sig .tc := ⟨.hbm, 135, rfl⟩
abbrev main_v98 : Ref sig .tc := ⟨.hbm, 136, rfl⟩
abbrev main_c_11 : Ref sig .tc := ⟨.hbm, 137, rfl⟩
abbrev main_call0_cst : Ref sig .tc := ⟨.hbm, 138, rfl⟩
abbrev main_call0_v0 : Ref sig .tc := ⟨.hbm, 139, rfl⟩
abbrev main_call0_v1 : Ref sig .tc := ⟨.hbm, 140, rfl⟩
abbrev main_call0_cst_0 : Ref sig .tc := ⟨.hbm, 141, rfl⟩
abbrev main_call0_v2 : Ref sig .tc := ⟨.hbm, 142, rfl⟩
abbrev main_call0_v3 : Ref sig .tc := ⟨.hbm, 143, rfl⟩
abbrev main_call0_v4 : Ref sig .tc := ⟨.hbm, 144, rfl⟩
abbrev main_call0_v5 : Ref sig .tc := ⟨.hbm, 145, rfl⟩
abbrev main_call0_v6 : Ref sig .tc := ⟨.hbm, 146, rfl⟩
abbrev main_call0_v7 : Ref sig .tc := ⟨.hbm, 147, rfl⟩
abbrev main_call0_cst_1 : Ref sig .tc := ⟨.hbm, 148, rfl⟩
abbrev main_call0_v8 : Ref sig .tc := ⟨.hbm, 149, rfl⟩
abbrev main_call0_cst_2 : Ref sig .tc := ⟨.hbm, 150, rfl⟩
abbrev main_call0_v9 : Ref sig .tc := ⟨.hbm, 151, rfl⟩
abbrev main_call0_v10 : Ref sig .tc := ⟨.hbm, 152, rfl⟩
abbrev main_call0_v11 : Ref sig .tc := ⟨.hbm, 153, rfl⟩
abbrev main_call0_cst_3 : Ref sig .tc := ⟨.hbm, 154, rfl⟩
abbrev main_call0_v12 : Ref sig .tc := ⟨.hbm, 155, rfl⟩
abbrev main_call0_cst_4 : Ref sig .tc := ⟨.hbm, 156, rfl⟩
abbrev main_call0_call0_v0 : Ref sig .tc := ⟨.hbm, 157, rfl⟩
abbrev main_call0_call0_v1 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_cst_12 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_call1_cst : Ref sig .tc := ⟨.hbm, 176, rfl⟩
abbrev main_call1_v0 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_cst_13 : Ref sig .tc := ⟨.hbm, 184, rfl⟩
abbrev main_v121 : Ref sig .tc := ⟨.hbm, 185, rfl⟩
abbrev main_cst_14 : Ref sig .tc := ⟨.hbm, 186, rfl⟩
abbrev main_v122 : Ref sig .tc := ⟨.hbm, 187, rfl⟩
abbrev main_v123 : Ref sig .tc := ⟨.hbm, 188, rfl⟩
abbrev main_c_15 : Ref sig .tc := ⟨.hbm, 189, rfl⟩
abbrev main_call2_cst : Ref sig .tc := ⟨.hbm, 190, rfl⟩
abbrev main_call2_v0 : Ref sig .tc := ⟨.hbm, 191, rfl⟩
abbrev main_call2_v1 : Ref sig .tc := ⟨.hbm, 192, rfl⟩
abbrev main_call2_cst_0 : Ref sig .tc := ⟨.hbm, 193, rfl⟩
abbrev main_call2_v2 : Ref sig .tc := ⟨.hbm, 194, rfl⟩
abbrev main_call2_v3 : Ref sig .tc := ⟨.hbm, 195, rfl⟩
abbrev main_call2_v4 : Ref sig .tc := ⟨.hbm, 196, rfl⟩
abbrev main_call2_v5 : Ref sig .tc := ⟨.hbm, 197, rfl⟩
abbrev main_call2_v6 : Ref sig .tc := ⟨.hbm, 198, rfl⟩
abbrev main_call2_v7 : Ref sig .tc := ⟨.hbm, 199, rfl⟩
abbrev main_call2_cst_1 : Ref sig .tc := ⟨.hbm, 200, rfl⟩
abbrev main_call2_v8 : Ref sig .tc := ⟨.hbm, 201, rfl⟩
abbrev main_call2_cst_2 : Ref sig .tc := ⟨.hbm, 202, rfl⟩
abbrev main_call2_v9 : Ref sig .tc := ⟨.hbm, 203, rfl⟩
abbrev main_call2_v10 : Ref sig .tc := ⟨.hbm, 204, rfl⟩
abbrev main_call2_v11 : Ref sig .tc := ⟨.hbm, 205, rfl⟩
abbrev main_call2_cst_3 : Ref sig .tc := ⟨.hbm, 206, rfl⟩
abbrev main_call2_v12 : Ref sig .tc := ⟨.hbm, 207, rfl⟩
abbrev main_call2_cst_4 : Ref sig .tc := ⟨.hbm, 208, rfl⟩
abbrev main_call2_call0_v0 : Ref sig .tc := ⟨.hbm, 209, rfl⟩
abbrev main_call2_call0_v1 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_cst_16 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_call3_cst : Ref sig .tc := ⟨.hbm, 228, rfl⟩
abbrev main_call3_v0 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_c_17 : Ref sig .tc := ⟨.hbm, 272, rfl⟩
abbrev main_v182 : Ref sig .tc := ⟨.hbm, 273, rfl⟩
abbrev main_v183 : Ref sig .tc := ⟨.hbm, 274, rfl⟩
abbrev main_c_18 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_c_19 : Ref sig .tc := ⟨.hbm, 281, rfl⟩
abbrev main_v189 : Ref sig .tc := ⟨.hbm, 282, rfl⟩
abbrev main_v190 : Ref sig .tc := ⟨.hbm, 283, rfl⟩
abbrev main_c_20 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_cst_21 : Ref sig .tc := ⟨.hbm, 294, rfl⟩
abbrev main_v200 : Ref sig .tc := ⟨.hbm, 295, rfl⟩
abbrev main_v201 : Ref sig .tc := ⟨.hbm, 296, rfl⟩
abbrev main_cst_22 : Ref sig .tc := ⟨.hbm, 297, rfl⟩
abbrev main_v202 : Ref sig .tc := ⟨.hbm, 298, rfl⟩
abbrev main_v203 : Ref sig .tc := ⟨.hbm, 299, rfl⟩
abbrev main_c_23 : Ref sig .tc := ⟨.hbm, 300, rfl⟩
abbrev main_v204 : Ref sig .tc := ⟨.hbm, 301, rfl⟩
abbrev main_v205 : Ref sig .tc := ⟨.hbm, 302, rfl⟩
abbrev main_c_24 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_cst_25 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_cst_26 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_cst_27 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_cst_28 : Ref sig .tc := ⟨.hbm, 327, rfl⟩
abbrev main_v226 : Ref sig .tc := ⟨.hbm, 328, rfl⟩
abbrev main_cst_29 : Ref sig .tc := ⟨.hbm, 329, rfl⟩
abbrev main_v227 : Ref sig .tc := ⟨.hbm, 330, rfl⟩
abbrev main_v228 : Ref sig .tc := ⟨.hbm, 331, rfl⟩
abbrev main_c_30 : Ref sig .tc := ⟨.hbm, 332, rfl⟩
abbrev main_call4_cst : Ref sig .tc := ⟨.hbm, 333, rfl⟩
abbrev main_call4_v0 : Ref sig .tc := ⟨.hbm, 334, rfl⟩
abbrev main_call4_v1 : Ref sig .tc := ⟨.hbm, 335, rfl⟩
abbrev main_call4_cst_0 : Ref sig .tc := ⟨.hbm, 336, rfl⟩
abbrev main_call4_v2 : Ref sig .tc := ⟨.hbm, 337, rfl⟩
abbrev main_call4_v3 : Ref sig .tc := ⟨.hbm, 338, rfl⟩
abbrev main_call4_v4 : Ref sig .tc := ⟨.hbm, 339, rfl⟩
abbrev main_call4_v5 : Ref sig .tc := ⟨.hbm, 340, rfl⟩
abbrev main_call4_v6 : Ref sig .tc := ⟨.hbm, 341, rfl⟩
abbrev main_call4_v7 : Ref sig .tc := ⟨.hbm, 342, rfl⟩
abbrev main_call4_cst_1 : Ref sig .tc := ⟨.hbm, 343, rfl⟩
abbrev main_call4_v8 : Ref sig .tc := ⟨.hbm, 344, rfl⟩
abbrev main_call4_cst_2 : Ref sig .tc := ⟨.hbm, 345, rfl⟩
abbrev main_call4_v9 : Ref sig .tc := ⟨.hbm, 346, rfl⟩
abbrev main_call4_v10 : Ref sig .tc := ⟨.hbm, 347, rfl⟩
abbrev main_call4_v11 : Ref sig .tc := ⟨.hbm, 348, rfl⟩
abbrev main_call4_cst_3 : Ref sig .tc := ⟨.hbm, 349, rfl⟩
abbrev main_call4_v12 : Ref sig .tc := ⟨.hbm, 350, rfl⟩
abbrev main_call4_cst_4 : Ref sig .tc := ⟨.hbm, 351, rfl⟩
abbrev main_call4_call0_v0 : Ref sig .tc := ⟨.hbm, 352, rfl⟩
abbrev main_call4_call0_v1 : Ref sig .tc := ⟨.hbm, 353, rfl⟩
abbrev main_v229 : Ref sig .tc := ⟨.hbm, 354, rfl⟩
abbrev main_v230 : Ref sig .tc := ⟨.hbm, 355, rfl⟩
abbrev main_v231 : Ref sig .tc := ⟨.hbm, 356, rfl⟩
abbrev main_v232 : Ref sig .tc := ⟨.hbm, 357, rfl⟩
abbrev main_cst_31 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_v238 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩
abbrev main_call5_cst : Ref sig .tc := ⟨.hbm, 371, rfl⟩
abbrev main_call5_v0 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_v248 : Ref sig .tc := ⟨.hbm, 376, rfl⟩
abbrev main_v249 : Ref sig .tc := ⟨.hbm, 377, rfl⟩
abbrev main_v250 : Ref sig .tc := ⟨.hbm, 378, rfl⟩
abbrev main_cst_32 : Ref sig .tc := ⟨.hbm, 379, rfl⟩
abbrev main_v251 : Ref sig .tc := ⟨.hbm, 380, rfl⟩
abbrev main_cst_33 : Ref sig .tc := ⟨.hbm, 381, rfl⟩
abbrev main_v252 : Ref sig .tc := ⟨.hbm, 382, rfl⟩
abbrev main_v253 : Ref sig .tc := ⟨.hbm, 383, rfl⟩
abbrev main_c_34 : Ref sig .tc := ⟨.hbm, 384, rfl⟩
abbrev main_call6_cst : Ref sig .tc := ⟨.hbm, 385, rfl⟩
abbrev main_call6_v0 : Ref sig .tc := ⟨.hbm, 386, rfl⟩
abbrev main_call6_v1 : Ref sig .tc := ⟨.hbm, 387, rfl⟩
abbrev main_call6_cst_0 : Ref sig .tc := ⟨.hbm, 388, rfl⟩
abbrev main_call6_v2 : Ref sig .tc := ⟨.hbm, 389, rfl⟩
abbrev main_call6_v3 : Ref sig .tc := ⟨.hbm, 390, rfl⟩
abbrev main_call6_v4 : Ref sig .tc := ⟨.hbm, 391, rfl⟩
abbrev main_call6_v5 : Ref sig .tc := ⟨.hbm, 392, rfl⟩
abbrev main_call6_v6 : Ref sig .tc := ⟨.hbm, 393, rfl⟩
abbrev main_call6_v7 : Ref sig .tc := ⟨.hbm, 394, rfl⟩
abbrev main_call6_cst_1 : Ref sig .tc := ⟨.hbm, 395, rfl⟩
abbrev main_call6_v8 : Ref sig .tc := ⟨.hbm, 396, rfl⟩
abbrev main_call6_cst_2 : Ref sig .tc := ⟨.hbm, 397, rfl⟩
abbrev main_call6_v9 : Ref sig .tc := ⟨.hbm, 398, rfl⟩
abbrev main_call6_v10 : Ref sig .tc := ⟨.hbm, 399, rfl⟩
abbrev main_call6_v11 : Ref sig .tc := ⟨.hbm, 400, rfl⟩
abbrev main_call6_cst_3 : Ref sig .tc := ⟨.hbm, 401, rfl⟩
abbrev main_call6_v12 : Ref sig .tc := ⟨.hbm, 402, rfl⟩
abbrev main_call6_cst_4 : Ref sig .tc := ⟨.hbm, 403, rfl⟩
abbrev main_call6_call0_v0 : Ref sig .tc := ⟨.hbm, 404, rfl⟩
abbrev main_call6_call0_v1 : Ref sig .tc := ⟨.hbm, 405, rfl⟩
abbrev main_v254 : Ref sig .tc := ⟨.hbm, 406, rfl⟩
abbrev main_v255 : Ref sig .tc := ⟨.hbm, 407, rfl⟩
abbrev main_v256 : Ref sig .tc := ⟨.hbm, 408, rfl⟩
abbrev main_v257 : Ref sig .tc := ⟨.hbm, 409, rfl⟩
abbrev main_cst_35 : Ref sig .tc := ⟨.hbm, 410, rfl⟩
abbrev main_v258 : Ref sig .tc := ⟨.hbm, 411, rfl⟩
abbrev main_v259 : Ref sig .tc := ⟨.hbm, 412, rfl⟩
abbrev main_v260 : Ref sig .tc := ⟨.hbm, 413, rfl⟩
abbrev main_v261 : Ref sig .tc := ⟨.hbm, 414, rfl⟩
abbrev main_v262 : Ref sig .tc := ⟨.hbm, 415, rfl⟩
abbrev main_v263 : Ref sig .tc := ⟨.hbm, 416, rfl⟩
abbrev main_v264 : Ref sig .tc := ⟨.hbm, 417, rfl⟩
abbrev main_v265 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_v269 : Ref sig .tc := ⟨.hbm, 422, rfl⟩
abbrev main_call7_cst : Ref sig .tc := ⟨.hbm, 423, rfl⟩
abbrev main_call7_v0 : Ref sig .tc := ⟨.hbm, 424, rfl⟩
abbrev main_v270 : Ref sig .tc := ⟨.hbm, 425, rfl⟩
abbrev main_v271 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_v275 : Ref sig .tc := ⟨.hbm, 430, rfl⟩
abbrev main_v276 : Ref sig .tc := ⟨.hbm, 431, rfl⟩
abbrev main_v277 : Ref sig .tc := ⟨.hbm, 432, rfl⟩
abbrev main_v278 : Ref sig .tc := ⟨.hbm, 433, rfl⟩
abbrev main_v279 : Ref sig .tc := ⟨.hbm, 434, rfl⟩
abbrev main_v280 : Ref sig .tc := ⟨.hbm, 435, rfl⟩
abbrev main_v281 : Ref sig .tc := ⟨.hbm, 436, rfl⟩
abbrev main_v282 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_v286 : Ref sig .tc := ⟨.hbm, 441, rfl⟩
abbrev main_v287 : Ref sig .tc := ⟨.hbm, 442, rfl⟩
abbrev main_v288 : Ref sig .tc := ⟨.hbm, 443, rfl⟩
abbrev main_v289 : Ref sig .tc := ⟨.hbm, 444, rfl⟩
abbrev main_v290 : Ref sig .tc := ⟨.hbm, 445, rfl⟩
abbrev main_v291 : Ref sig .tc := ⟨.hbm, 446, rfl⟩
abbrev main_v292 : Ref sig .tc := ⟨.hbm, 447, rfl⟩
abbrev main_v293 : Ref sig .tc := ⟨.hbm, 448, rfl⟩
abbrev main_v294 : Ref sig .tc := ⟨.hbm, 449, rfl⟩
abbrev main_v295 : Ref sig .tc := ⟨.hbm, 450, rfl⟩
abbrev main_v296 : Ref sig .tc := ⟨.hbm, 451, rfl⟩
abbrev main_v297 : Ref sig .tc := ⟨.hbm, 452, rfl⟩
abbrev main_v298 : Ref sig .tc := ⟨.hbm, 453, rfl⟩
abbrev main_v299 : Ref sig .tc := ⟨.hbm, 454, rfl⟩
abbrev main_v300 : Ref sig .tc := ⟨.hbm, 455, rfl⟩
abbrev main_v301 : Ref sig .tc := ⟨.hbm, 456, rfl⟩
abbrev main_v302 : Ref sig .tc := ⟨.hbm, 457, rfl⟩
abbrev main_v303 : Ref sig .tc := ⟨.hbm, 458, rfl⟩
abbrev main_v304 : Ref sig .tc := ⟨.hbm, 459, rfl⟩
abbrev main_v305 : Ref sig .tc := ⟨.hbm, 460, rfl⟩
abbrev main_v306 : Ref sig .tc := ⟨.hbm, 461, rfl⟩
abbrev main_v307 : Ref sig .tc := ⟨.hbm, 462, rfl⟩
abbrev main_v308 : Ref sig .tc := ⟨.hbm, 463, rfl⟩
abbrev main_v309 : Ref sig .tc := ⟨.hbm, 464, rfl⟩
abbrev main_v310 : Ref sig .tc := ⟨.hbm, 465, rfl⟩
abbrev main_v311 : Ref sig .tc := ⟨.hbm, 466, rfl⟩
abbrev main_c_36 : Ref sig .tc := ⟨.hbm, 467, rfl⟩
abbrev main_v312 : Ref sig .tc := ⟨.hbm, 468, rfl⟩
abbrev main_v313 : Ref sig .tc := ⟨.hbm, 469, rfl⟩
abbrev main_c_37 : Ref sig .tc := ⟨.hbm, 470, rfl⟩
abbrev main_v314 : Ref sig .tc := ⟨.hbm, 471, rfl⟩
abbrev main_v315 : Ref sig .tc := ⟨.hbm, 472, rfl⟩
abbrev main_v316 : Ref sig .tc := ⟨.hbm, 473, rfl⟩
abbrev main_v317 : Ref sig .tc := ⟨.hbm, 474, rfl⟩
abbrev main_v318 : Ref sig .tc := ⟨.hbm, 475, rfl⟩
abbrev main_c_38 : Ref sig .tc := ⟨.hbm, 476, rfl⟩
abbrev main_v319 : Ref sig .tc := ⟨.hbm, 477, rfl⟩
abbrev main_v320 : Ref sig .tc := ⟨.hbm, 478, rfl⟩
abbrev main_c_39 : Ref sig .tc := ⟨.hbm, 479, rfl⟩
abbrev main_v321 : Ref sig .tc := ⟨.hbm, 480, rfl⟩
abbrev main_v322 : Ref sig .tc := ⟨.hbm, 481, rfl⟩
abbrev main_v323 : Ref sig .tc := ⟨.hbm, 482, rfl⟩
abbrev main_v324 : Ref sig .tc := ⟨.hbm, 483, rfl⟩
abbrev main_v325 : Ref sig .tc := ⟨.hbm, 484, rfl⟩
abbrev main_v326 : Ref sig .tc := ⟨.hbm, 485, rfl⟩
abbrev main_v327 : Ref sig .tc := ⟨.hbm, 486, rfl⟩
abbrev main_v328 : Ref sig .tc := ⟨.hbm, 487, rfl⟩
abbrev main_v329 : Ref sig .tc := ⟨.hbm, 488, rfl⟩
abbrev main_cst_40 : Ref sig .tc := ⟨.hbm, 489, rfl⟩
abbrev main_v330 : Ref sig .tc := ⟨.hbm, 490, rfl⟩
abbrev main_v331 : Ref sig .tc := ⟨.hbm, 491, rfl⟩
abbrev main_cst_41 : Ref sig .tc := ⟨.hbm, 492, rfl⟩
abbrev main_v332 : Ref sig .tc := ⟨.hbm, 493, rfl⟩
abbrev main_v333 : Ref sig .tc := ⟨.hbm, 494, rfl⟩
abbrev main_c_42 : Ref sig .tc := ⟨.hbm, 495, rfl⟩
abbrev main_v334 : Ref sig .tc := ⟨.hbm, 496, rfl⟩
abbrev main_v335 : Ref sig .tc := ⟨.hbm, 497, rfl⟩
abbrev main_c_43 : Ref sig .tc := ⟨.hbm, 498, rfl⟩
abbrev main_v336 : Ref sig .tc := ⟨.hbm, 499, rfl⟩
abbrev main_v337 : Ref sig .tc := ⟨.hbm, 500, rfl⟩
abbrev main_v338 : Ref sig .tc := ⟨.hbm, 501, rfl⟩
abbrev main_v339 : Ref sig .tc := ⟨.hbm, 502, rfl⟩
abbrev main_v340 : Ref sig .tc := ⟨.hbm, 503, rfl⟩
abbrev main_v341 : Ref sig .tc := ⟨.hbm, 504, rfl⟩
abbrev main_cst_44 : Ref sig .tc := ⟨.hbm, 505, rfl⟩
abbrev main_v342 : Ref sig .tc := ⟨.hbm, 506, rfl⟩
abbrev main_v343 : Ref sig .tc := ⟨.hbm, 507, rfl⟩
abbrev main_v344 : Ref sig .tc := ⟨.hbm, 508, rfl⟩
abbrev main_cst_45 : Ref sig .tc := ⟨.hbm, 509, rfl⟩
abbrev main_v345 : Ref sig .tc := ⟨.hbm, 510, rfl⟩
abbrev main_v346 : Ref sig .tc := ⟨.hbm, 511, rfl⟩
abbrev main_v347 : Ref sig .tc := ⟨.hbm, 512, rfl⟩
abbrev main_cst_46 : Ref sig .tc := ⟨.hbm, 513, rfl⟩
abbrev main_v348 : Ref sig .tc := ⟨.hbm, 514, rfl⟩
abbrev main_v349 : Ref sig .tc := ⟨.hbm, 515, rfl⟩
abbrev main_v350 : Ref sig .tc := ⟨.hbm, 516, rfl⟩
abbrev main_v351 : Ref sig .tc := ⟨.hbm, 517, rfl⟩
abbrev main_v352 : Ref sig .tc := ⟨.hbm, 518, rfl⟩
abbrev main_v353 : Ref sig .tc := ⟨.hbm, 519, rfl⟩
abbrev main_v354 : Ref sig .tc := ⟨.hbm, 520, rfl⟩
abbrev main_v355 : Ref sig .tc := ⟨.hbm, 521, rfl⟩
abbrev main_cst_47 : Ref sig .tc := ⟨.hbm, 522, rfl⟩
abbrev main_v356 : Ref sig .tc := ⟨.hbm, 523, rfl⟩
abbrev main_cst_48 : Ref sig .tc := ⟨.hbm, 524, rfl⟩
abbrev main_v357 : Ref sig .tc := ⟨.hbm, 525, rfl⟩
abbrev main_v358 : Ref sig .tc := ⟨.hbm, 526, rfl⟩
abbrev main_c_49 : Ref sig .tc := ⟨.hbm, 527, rfl⟩
abbrev main_call8_cst : Ref sig .tc := ⟨.hbm, 528, rfl⟩
abbrev main_call8_v0 : Ref sig .tc := ⟨.hbm, 529, rfl⟩
abbrev main_call8_v1 : Ref sig .tc := ⟨.hbm, 530, rfl⟩
abbrev main_call8_cst_0 : Ref sig .tc := ⟨.hbm, 531, rfl⟩
abbrev main_call8_v2 : Ref sig .tc := ⟨.hbm, 532, rfl⟩
abbrev main_call8_v3 : Ref sig .tc := ⟨.hbm, 533, rfl⟩
abbrev main_call8_v4 : Ref sig .tc := ⟨.hbm, 534, rfl⟩
abbrev main_call8_v5 : Ref sig .tc := ⟨.hbm, 535, rfl⟩
abbrev main_call8_v6 : Ref sig .tc := ⟨.hbm, 536, rfl⟩
abbrev main_call8_v7 : Ref sig .tc := ⟨.hbm, 537, rfl⟩
abbrev main_call8_cst_1 : Ref sig .tc := ⟨.hbm, 538, rfl⟩
abbrev main_call8_v8 : Ref sig .tc := ⟨.hbm, 539, rfl⟩
abbrev main_call8_cst_2 : Ref sig .tc := ⟨.hbm, 540, rfl⟩
abbrev main_call8_v9 : Ref sig .tc := ⟨.hbm, 541, rfl⟩
abbrev main_call8_v10 : Ref sig .tc := ⟨.hbm, 542, rfl⟩
abbrev main_call8_v11 : Ref sig .tc := ⟨.hbm, 543, rfl⟩
abbrev main_call8_cst_3 : Ref sig .tc := ⟨.hbm, 544, rfl⟩
abbrev main_call8_v12 : Ref sig .tc := ⟨.hbm, 545, rfl⟩
abbrev main_call8_cst_4 : Ref sig .tc := ⟨.hbm, 546, rfl⟩
abbrev main_call8_call0_v0 : Ref sig .tc := ⟨.hbm, 547, rfl⟩
abbrev main_call8_call0_v1 : Ref sig .tc := ⟨.hbm, 548, rfl⟩
abbrev main_v359 : Ref sig .tc := ⟨.hbm, 549, rfl⟩
abbrev main_v360 : Ref sig .tc := ⟨.hbm, 550, rfl⟩
abbrev main_v361 : Ref sig .tc := ⟨.hbm, 551, rfl⟩
abbrev main_v362 : Ref sig .tc := ⟨.hbm, 552, rfl⟩
abbrev main_cst_50 : Ref sig .tc := ⟨.hbm, 553, rfl⟩
abbrev main_v363 : Ref sig .tc := ⟨.hbm, 554, rfl⟩
abbrev main_v364 : Ref sig .tc := ⟨.hbm, 555, rfl⟩
abbrev main_v365 : Ref sig .tc := ⟨.hbm, 556, rfl⟩
abbrev main_v366 : Ref sig .tc := ⟨.hbm, 557, rfl⟩
abbrev main_v367 : Ref sig .tc := ⟨.hbm, 558, rfl⟩
abbrev main_v368 : Ref sig .tc := ⟨.hbm, 559, rfl⟩
abbrev main_v369 : Ref sig .tc := ⟨.hbm, 560, rfl⟩
abbrev main_v370 : Ref sig .tc := ⟨.hbm, 561, rfl⟩
abbrev main_v371 : Ref sig .tc := ⟨.hbm, 562, rfl⟩
abbrev main_v372 : Ref sig .tc := ⟨.hbm, 563, rfl⟩
abbrev main_v373 : Ref sig .tc := ⟨.hbm, 564, rfl⟩
abbrev main_v374 : Ref sig .tc := ⟨.hbm, 565, rfl⟩
abbrev main_call9_cst : Ref sig .tc := ⟨.hbm, 566, rfl⟩
abbrev main_call9_v0 : Ref sig .tc := ⟨.hbm, 567, rfl⟩
abbrev main_v375 : Ref sig .tc := ⟨.hbm, 568, rfl⟩
abbrev main_v376 : Ref sig .tc := ⟨.hbm, 569, rfl⟩
abbrev main_v377 : Ref sig .tc := ⟨.hbm, 570, rfl⟩
abbrev main_v378 : Ref sig .tc := ⟨.hbm, 571, rfl⟩
abbrev main_v379 : Ref sig .tc := ⟨.hbm, 572, rfl⟩
abbrev main_v380 : Ref sig .tc := ⟨.hbm, 573, rfl⟩
abbrev main_cst_51 : Ref sig .tc := ⟨.hbm, 574, rfl⟩
abbrev main_v381 : Ref sig .tc := ⟨.hbm, 575, rfl⟩
abbrev main_cst_52 : Ref sig .tc := ⟨.hbm, 576, rfl⟩
abbrev main_v382 : Ref sig .tc := ⟨.hbm, 577, rfl⟩
abbrev main_v383 : Ref sig .tc := ⟨.hbm, 578, rfl⟩
abbrev main_c_53 : Ref sig .tc := ⟨.hbm, 579, rfl⟩
abbrev main_call10_cst : Ref sig .tc := ⟨.hbm, 580, rfl⟩
abbrev main_call10_v0 : Ref sig .tc := ⟨.hbm, 581, rfl⟩
abbrev main_call10_v1 : Ref sig .tc := ⟨.hbm, 582, rfl⟩
abbrev main_call10_cst_0 : Ref sig .tc := ⟨.hbm, 583, rfl⟩
abbrev main_call10_v2 : Ref sig .tc := ⟨.hbm, 584, rfl⟩
abbrev main_call10_v3 : Ref sig .tc := ⟨.hbm, 585, rfl⟩
abbrev main_call10_v4 : Ref sig .tc := ⟨.hbm, 586, rfl⟩
abbrev main_call10_v5 : Ref sig .tc := ⟨.hbm, 587, rfl⟩
abbrev main_call10_v6 : Ref sig .tc := ⟨.hbm, 588, rfl⟩
abbrev main_call10_v7 : Ref sig .tc := ⟨.hbm, 589, rfl⟩
abbrev main_call10_cst_1 : Ref sig .tc := ⟨.hbm, 590, rfl⟩
abbrev main_call10_v8 : Ref sig .tc := ⟨.hbm, 591, rfl⟩
abbrev main_call10_cst_2 : Ref sig .tc := ⟨.hbm, 592, rfl⟩
abbrev main_call10_v9 : Ref sig .tc := ⟨.hbm, 593, rfl⟩
abbrev main_call10_v10 : Ref sig .tc := ⟨.hbm, 594, rfl⟩
abbrev main_call10_v11 : Ref sig .tc := ⟨.hbm, 595, rfl⟩
abbrev main_call10_cst_3 : Ref sig .tc := ⟨.hbm, 596, rfl⟩
abbrev main_call10_v12 : Ref sig .tc := ⟨.hbm, 597, rfl⟩
abbrev main_call10_cst_4 : Ref sig .tc := ⟨.hbm, 598, rfl⟩
abbrev main_call10_call0_v0 : Ref sig .tc := ⟨.hbm, 599, rfl⟩
abbrev main_call10_call0_v1 : Ref sig .tc := ⟨.hbm, 600, rfl⟩
abbrev main_v384 : Ref sig .tc := ⟨.hbm, 601, rfl⟩
abbrev main_v385 : Ref sig .tc := ⟨.hbm, 602, rfl⟩
abbrev main_v386 : Ref sig .tc := ⟨.hbm, 603, rfl⟩
abbrev main_v387 : Ref sig .tc := ⟨.hbm, 604, rfl⟩
abbrev main_cst_54 : Ref sig .tc := ⟨.hbm, 605, rfl⟩
abbrev main_v388 : Ref sig .tc := ⟨.hbm, 606, rfl⟩
abbrev main_v389 : Ref sig .tc := ⟨.hbm, 607, rfl⟩
abbrev main_v390 : Ref sig .tc := ⟨.hbm, 608, rfl⟩
abbrev main_v391 : Ref sig .tc := ⟨.hbm, 609, rfl⟩
abbrev main_v392 : Ref sig .tc := ⟨.hbm, 610, rfl⟩
abbrev main_v393 : Ref sig .tc := ⟨.hbm, 611, rfl⟩
abbrev main_v394 : Ref sig .tc := ⟨.hbm, 612, rfl⟩
abbrev main_v395 : Ref sig .tc := ⟨.hbm, 613, rfl⟩
abbrev main_v396 : Ref sig .tc := ⟨.hbm, 614, rfl⟩
abbrev main_v397 : Ref sig .tc := ⟨.hbm, 615, rfl⟩
abbrev main_v398 : Ref sig .tc := ⟨.hbm, 616, rfl⟩
abbrev main_v399 : Ref sig .tc := ⟨.hbm, 617, rfl⟩
abbrev main_call11_cst : Ref sig .tc := ⟨.hbm, 618, rfl⟩
abbrev main_call11_v0 : Ref sig .tc := ⟨.hbm, 619, rfl⟩
abbrev main_v400 : Ref sig .tc := ⟨.hbm, 620, rfl⟩
abbrev main_v401 : Ref sig .tc := ⟨.hbm, 621, rfl⟩
abbrev main_v402 : Ref sig .tc := ⟨.hbm, 622, rfl⟩
abbrev main_v403 : Ref sig .tc := ⟨.hbm, 623, rfl⟩
abbrev main_v404 : Ref sig .tc := ⟨.hbm, 624, rfl⟩
abbrev main_v405 : Ref sig .tc := ⟨.hbm, 625, rfl⟩
abbrev main_v406 : Ref sig .tc := ⟨.hbm, 626, rfl⟩
abbrev main_v407 : Ref sig .tc := ⟨.hbm, 627, rfl⟩
abbrev main_v408 : Ref sig .tc := ⟨.hbm, 628, rfl⟩
abbrev main_v409 : Ref sig .tc := ⟨.hbm, 629, rfl⟩
abbrev main_v410 : Ref sig .tc := ⟨.hbm, 630, rfl⟩
abbrev main_v411 : Ref sig .tc := ⟨.hbm, 631, rfl⟩
abbrev main_v412 : Ref sig .tc := ⟨.hbm, 632, rfl⟩
abbrev main_v413 : Ref sig .tc := ⟨.hbm, 633, rfl⟩
abbrev main_v414 : Ref sig .tc := ⟨.hbm, 634, rfl⟩
abbrev main_v415 : Ref sig .tc := ⟨.hbm, 635, rfl⟩
abbrev main_v416 : Ref sig .tc := ⟨.hbm, 636, rfl⟩
abbrev main_v417 : Ref sig .tc := ⟨.hbm, 637, rfl⟩
abbrev main_v418 : Ref sig .tc := ⟨.hbm, 638, rfl⟩
abbrev main_v419 : Ref sig .tc := ⟨.hbm, 639, rfl⟩
abbrev main_v420 : Ref sig .tc := ⟨.hbm, 640, rfl⟩
abbrev main_v421 : Ref sig .tc := ⟨.hbm, 641, rfl⟩
abbrev main_v422 : Ref sig .tc := ⟨.hbm, 642, rfl⟩
abbrev main_v423 : Ref sig .tc := ⟨.hbm, 643, rfl⟩
abbrev main_v424 : Ref sig .tc := ⟨.hbm, 644, rfl⟩
abbrev main_v425 : Ref sig .tc := ⟨.hbm, 645, rfl⟩
abbrev main_v426 : Ref sig .tc := ⟨.hbm, 646, rfl⟩
abbrev main_v427 : Ref sig .tc := ⟨.hbm, 647, rfl⟩
abbrev main_v428 : Ref sig .tc := ⟨.hbm, 648, rfl⟩
abbrev main_v429 : Ref sig .tc := ⟨.hbm, 649, rfl⟩
abbrev main_v430 : Ref sig .tc := ⟨.hbm, 650, rfl⟩
abbrev main_v431 : Ref sig .tc := ⟨.hbm, 651, rfl⟩
abbrev main_v432 : Ref sig .tc := ⟨.hbm, 652, rfl⟩
abbrev main_v433 : Ref sig .tc := ⟨.hbm, 653, rfl⟩
abbrev main_v434 : Ref sig .tc := ⟨.hbm, 654, rfl⟩
abbrev main_v435 : Ref sig .tc := ⟨.hbm, 655, rfl⟩
abbrev main_v436 : Ref sig .tc := ⟨.hbm, 656, rfl⟩
abbrev main_v437 : Ref sig .tc := ⟨.hbm, 657, rfl⟩
abbrev main_v438 : Ref sig .tc := ⟨.hbm, 658, rfl⟩
abbrev main_v439 : Ref sig .tc := ⟨.hbm, 659, rfl⟩
abbrev main_v440 : Ref sig .tc := ⟨.hbm, 660, rfl⟩
abbrev main_v441 : Ref sig .tc := ⟨.hbm, 661, rfl⟩
abbrev main_c_55 : Ref sig .tc := ⟨.hbm, 662, rfl⟩
abbrev main_v442 : Ref sig .tc := ⟨.hbm, 663, rfl⟩
abbrev main_v443 : Ref sig .tc := ⟨.hbm, 664, rfl⟩
abbrev main_c_56 : Ref sig .tc := ⟨.hbm, 665, rfl⟩
abbrev main_v444 : Ref sig .tc := ⟨.hbm, 666, rfl⟩
abbrev main_v445 : Ref sig .tc := ⟨.hbm, 667, rfl⟩
abbrev main_v446 : Ref sig .tc := ⟨.hbm, 668, rfl⟩
abbrev main_v447 : Ref sig .tc := ⟨.hbm, 669, rfl⟩
abbrev main_v448 : Ref sig .tc := ⟨.hbm, 670, rfl⟩
abbrev main_c_57 : Ref sig .tc := ⟨.hbm, 671, rfl⟩
abbrev main_v449 : Ref sig .tc := ⟨.hbm, 672, rfl⟩
abbrev main_v450 : Ref sig .tc := ⟨.hbm, 673, rfl⟩
abbrev main_c_58 : Ref sig .tc := ⟨.hbm, 674, rfl⟩
abbrev main_v451 : Ref sig .tc := ⟨.hbm, 675, rfl⟩
abbrev main_v452 : Ref sig .tc := ⟨.hbm, 676, rfl⟩
abbrev main_v453 : Ref sig .tc := ⟨.hbm, 677, rfl⟩
abbrev main_v454 : Ref sig .tc := ⟨.hbm, 678, rfl⟩
abbrev main_v455 : Ref sig .tc := ⟨.hbm, 679, rfl⟩
abbrev main_v456 : Ref sig .tc := ⟨.hbm, 680, rfl⟩
abbrev main_v457 : Ref sig .tc := ⟨.hbm, 681, rfl⟩
abbrev main_v458 : Ref sig .tc := ⟨.hbm, 682, rfl⟩
abbrev main_v459 : Ref sig .tc := ⟨.hbm, 683, rfl⟩
abbrev main_cst_59 : Ref sig .tc := ⟨.hbm, 684, rfl⟩
abbrev main_v460 : Ref sig .tc := ⟨.hbm, 685, rfl⟩
abbrev main_v461 : Ref sig .tc := ⟨.hbm, 686, rfl⟩
abbrev main_cst_60 : Ref sig .tc := ⟨.hbm, 687, rfl⟩
abbrev main_v462 : Ref sig .tc := ⟨.hbm, 688, rfl⟩
abbrev main_v463 : Ref sig .tc := ⟨.hbm, 689, rfl⟩
abbrev main_c_61 : Ref sig .tc := ⟨.hbm, 690, rfl⟩
abbrev main_v464 : Ref sig .tc := ⟨.hbm, 691, rfl⟩
abbrev main_v465 : Ref sig .tc := ⟨.hbm, 692, rfl⟩
abbrev main_c_62 : Ref sig .tc := ⟨.hbm, 693, rfl⟩
abbrev main_v466 : Ref sig .tc := ⟨.hbm, 694, rfl⟩
abbrev main_v467 : Ref sig .tc := ⟨.hbm, 695, rfl⟩
abbrev main_v468 : Ref sig .tc := ⟨.hbm, 696, rfl⟩
abbrev main_v469 : Ref sig .tc := ⟨.hbm, 697, rfl⟩
abbrev main_v470 : Ref sig .tc := ⟨.hbm, 698, rfl⟩
abbrev main_v471 : Ref sig .tc := ⟨.hbm, 699, rfl⟩
abbrev main_cst_63 : Ref sig .tc := ⟨.hbm, 700, rfl⟩
abbrev main_v472 : Ref sig .tc := ⟨.hbm, 701, rfl⟩
abbrev main_v473 : Ref sig .tc := ⟨.hbm, 702, rfl⟩
abbrev main_v474 : Ref sig .tc := ⟨.hbm, 703, rfl⟩
abbrev main_cst_64 : Ref sig .tc := ⟨.hbm, 704, rfl⟩
abbrev main_v475 : Ref sig .tc := ⟨.hbm, 705, rfl⟩
abbrev main_v476 : Ref sig .tc := ⟨.hbm, 706, rfl⟩
abbrev main_v477 : Ref sig .tc := ⟨.hbm, 707, rfl⟩
abbrev main_cst_65 : Ref sig .tc := ⟨.hbm, 708, rfl⟩
abbrev main_v478 : Ref sig .tc := ⟨.hbm, 709, rfl⟩
abbrev main_v479 : Ref sig .tc := ⟨.hbm, 710, rfl⟩
abbrev main_v480 : Ref sig .tc := ⟨.hbm, 711, rfl⟩
abbrev main_v481 : Ref sig .tc := ⟨.hbm, 712, rfl⟩
abbrev main_v482 : Ref sig .tc := ⟨.hbm, 713, rfl⟩
abbrev main_v483 : Ref sig .tc := ⟨.hbm, 714, rfl⟩
abbrev main_v484 : Ref sig .tc := ⟨.hbm, 715, rfl⟩
abbrev main_v485 : Ref sig .tc := ⟨.hbm, 716, rfl⟩
abbrev main_cst_66 : Ref sig .tc := ⟨.hbm, 717, rfl⟩
abbrev main_v486 : Ref sig .tc := ⟨.hbm, 718, rfl⟩
abbrev main_cst_67 : Ref sig .tc := ⟨.hbm, 719, rfl⟩
abbrev main_v487 : Ref sig .tc := ⟨.hbm, 720, rfl⟩
abbrev main_v488 : Ref sig .tc := ⟨.hbm, 721, rfl⟩
abbrev main_c_68 : Ref sig .tc := ⟨.hbm, 722, rfl⟩
abbrev main_call12_cst : Ref sig .tc := ⟨.hbm, 723, rfl⟩
abbrev main_call12_v0 : Ref sig .tc := ⟨.hbm, 724, rfl⟩
abbrev main_call12_v1 : Ref sig .tc := ⟨.hbm, 725, rfl⟩
abbrev main_call12_cst_0 : Ref sig .tc := ⟨.hbm, 726, rfl⟩
abbrev main_call12_v2 : Ref sig .tc := ⟨.hbm, 727, rfl⟩
abbrev main_call12_v3 : Ref sig .tc := ⟨.hbm, 728, rfl⟩
abbrev main_call12_v4 : Ref sig .tc := ⟨.hbm, 729, rfl⟩
abbrev main_call12_v5 : Ref sig .tc := ⟨.hbm, 730, rfl⟩
abbrev main_call12_v6 : Ref sig .tc := ⟨.hbm, 731, rfl⟩
abbrev main_call12_v7 : Ref sig .tc := ⟨.hbm, 732, rfl⟩
abbrev main_call12_cst_1 : Ref sig .tc := ⟨.hbm, 733, rfl⟩
abbrev main_call12_v8 : Ref sig .tc := ⟨.hbm, 734, rfl⟩
abbrev main_call12_cst_2 : Ref sig .tc := ⟨.hbm, 735, rfl⟩
abbrev main_call12_v9 : Ref sig .tc := ⟨.hbm, 736, rfl⟩
abbrev main_call12_v10 : Ref sig .tc := ⟨.hbm, 737, rfl⟩
abbrev main_call12_v11 : Ref sig .tc := ⟨.hbm, 738, rfl⟩
abbrev main_call12_cst_3 : Ref sig .tc := ⟨.hbm, 739, rfl⟩
abbrev main_call12_v12 : Ref sig .tc := ⟨.hbm, 740, rfl⟩
abbrev main_call12_cst_4 : Ref sig .tc := ⟨.hbm, 741, rfl⟩
abbrev main_call12_call0_v0 : Ref sig .tc := ⟨.hbm, 742, rfl⟩
abbrev main_call12_call0_v1 : Ref sig .tc := ⟨.hbm, 743, rfl⟩
abbrev main_v489 : Ref sig .tc := ⟨.hbm, 744, rfl⟩
abbrev main_v490 : Ref sig .tc := ⟨.hbm, 745, rfl⟩
abbrev main_v491 : Ref sig .tc := ⟨.hbm, 746, rfl⟩
abbrev main_v492 : Ref sig .tc := ⟨.hbm, 747, rfl⟩
abbrev main_cst_69 : Ref sig .tc := ⟨.hbm, 748, rfl⟩
abbrev main_v493 : Ref sig .tc := ⟨.hbm, 749, rfl⟩
abbrev main_v494 : Ref sig .tc := ⟨.hbm, 750, rfl⟩
abbrev main_v495 : Ref sig .tc := ⟨.hbm, 751, rfl⟩
abbrev main_v496 : Ref sig .tc := ⟨.hbm, 752, rfl⟩
abbrev main_v497 : Ref sig .tc := ⟨.hbm, 753, rfl⟩
abbrev main_v498 : Ref sig .tc := ⟨.hbm, 754, rfl⟩
abbrev main_v499 : Ref sig .tc := ⟨.hbm, 755, rfl⟩
abbrev main_v500 : Ref sig .tc := ⟨.hbm, 756, rfl⟩
abbrev main_v501 : Ref sig .tc := ⟨.hbm, 757, rfl⟩
abbrev main_v502 : Ref sig .tc := ⟨.hbm, 758, rfl⟩
abbrev main_v503 : Ref sig .tc := ⟨.hbm, 759, rfl⟩
abbrev main_v504 : Ref sig .tc := ⟨.hbm, 760, rfl⟩
abbrev main_call13_cst : Ref sig .tc := ⟨.hbm, 761, rfl⟩
abbrev main_call13_v0 : Ref sig .tc := ⟨.hbm, 762, rfl⟩
abbrev main_v505 : Ref sig .tc := ⟨.hbm, 763, rfl⟩
abbrev main_v506 : Ref sig .tc := ⟨.hbm, 764, rfl⟩
abbrev main_v507 : Ref sig .tc := ⟨.hbm, 765, rfl⟩
abbrev main_v508 : Ref sig .tc := ⟨.hbm, 766, rfl⟩
abbrev main_v509 : Ref sig .tc := ⟨.hbm, 767, rfl⟩
abbrev main_v510 : Ref sig .tc := ⟨.hbm, 768, rfl⟩
abbrev main_cst_70 : Ref sig .tc := ⟨.hbm, 769, rfl⟩
abbrev main_v511 : Ref sig .tc := ⟨.hbm, 770, rfl⟩
abbrev main_cst_71 : Ref sig .tc := ⟨.hbm, 771, rfl⟩
abbrev main_v512 : Ref sig .tc := ⟨.hbm, 772, rfl⟩
abbrev main_v513 : Ref sig .tc := ⟨.hbm, 773, rfl⟩
abbrev main_c_72 : Ref sig .tc := ⟨.hbm, 774, rfl⟩
abbrev main_call14_cst : Ref sig .tc := ⟨.hbm, 775, rfl⟩
abbrev main_call14_v0 : Ref sig .tc := ⟨.hbm, 776, rfl⟩
abbrev main_call14_v1 : Ref sig .tc := ⟨.hbm, 777, rfl⟩
abbrev main_call14_cst_0 : Ref sig .tc := ⟨.hbm, 778, rfl⟩
abbrev main_call14_v2 : Ref sig .tc := ⟨.hbm, 779, rfl⟩
abbrev main_call14_v3 : Ref sig .tc := ⟨.hbm, 780, rfl⟩
abbrev main_call14_v4 : Ref sig .tc := ⟨.hbm, 781, rfl⟩
abbrev main_call14_v5 : Ref sig .tc := ⟨.hbm, 782, rfl⟩
abbrev main_call14_v6 : Ref sig .tc := ⟨.hbm, 783, rfl⟩
abbrev main_call14_v7 : Ref sig .tc := ⟨.hbm, 784, rfl⟩
abbrev main_call14_cst_1 : Ref sig .tc := ⟨.hbm, 785, rfl⟩
abbrev main_call14_v8 : Ref sig .tc := ⟨.hbm, 786, rfl⟩
abbrev main_call14_cst_2 : Ref sig .tc := ⟨.hbm, 787, rfl⟩
abbrev main_call14_v9 : Ref sig .tc := ⟨.hbm, 788, rfl⟩
abbrev main_call14_v10 : Ref sig .tc := ⟨.hbm, 789, rfl⟩
abbrev main_call14_v11 : Ref sig .tc := ⟨.hbm, 790, rfl⟩
abbrev main_call14_cst_3 : Ref sig .tc := ⟨.hbm, 791, rfl⟩
abbrev main_call14_v12 : Ref sig .tc := ⟨.hbm, 792, rfl⟩
abbrev main_call14_cst_4 : Ref sig .tc := ⟨.hbm, 793, rfl⟩
abbrev main_call14_call0_v0 : Ref sig .tc := ⟨.hbm, 794, rfl⟩
abbrev main_call14_call0_v1 : Ref sig .tc := ⟨.hbm, 795, rfl⟩
abbrev main_v514 : Ref sig .tc := ⟨.hbm, 796, rfl⟩
abbrev main_v515 : Ref sig .tc := ⟨.hbm, 797, rfl⟩
abbrev main_v516 : Ref sig .tc := ⟨.hbm, 798, rfl⟩
abbrev main_v517 : Ref sig .tc := ⟨.hbm, 799, rfl⟩
abbrev main_cst_73 : Ref sig .tc := ⟨.hbm, 800, rfl⟩
abbrev main_v518 : Ref sig .tc := ⟨.hbm, 801, rfl⟩
abbrev main_v519 : Ref sig .tc := ⟨.hbm, 802, rfl⟩
abbrev main_v520 : Ref sig .tc := ⟨.hbm, 803, rfl⟩
abbrev main_v521 : Ref sig .tc := ⟨.hbm, 804, rfl⟩
abbrev main_v522 : Ref sig .tc := ⟨.hbm, 805, rfl⟩
abbrev main_v523 : Ref sig .tc := ⟨.hbm, 806, rfl⟩
abbrev main_v524 : Ref sig .tc := ⟨.hbm, 807, rfl⟩
abbrev main_v525 : Ref sig .tc := ⟨.hbm, 808, rfl⟩
abbrev main_v526 : Ref sig .tc := ⟨.hbm, 809, rfl⟩
abbrev main_v527 : Ref sig .tc := ⟨.hbm, 810, rfl⟩
abbrev main_v528 : Ref sig .tc := ⟨.hbm, 811, rfl⟩
abbrev main_v529 : Ref sig .tc := ⟨.hbm, 812, rfl⟩
abbrev main_call15_cst : Ref sig .tc := ⟨.hbm, 813, rfl⟩
abbrev main_call15_v0 : Ref sig .tc := ⟨.hbm, 814, rfl⟩
abbrev main_v530 : Ref sig .tc := ⟨.hbm, 815, rfl⟩
abbrev main_v531 : Ref sig .tc := ⟨.hbm, 816, rfl⟩
abbrev main_c_74 : Ref sig .tc := ⟨.hbm, 817, rfl⟩
abbrev main_v532 : Ref sig .tc := ⟨.hbm, 818, rfl⟩
abbrev main_v533 : Ref sig .tc := ⟨.hbm, 819, rfl⟩
abbrev main_c_75 : Ref sig .tc := ⟨.hbm, 820, rfl⟩
abbrev main_v534 : Ref sig .tc := ⟨.hbm, 821, rfl⟩
abbrev main_v535 : Ref sig .tc := ⟨.hbm, 822, rfl⟩
abbrev main_v536 : Ref sig .tc := ⟨.hbm, 823, rfl⟩
abbrev main_v537 : Ref sig .tc := ⟨.hbm, 824, rfl⟩
abbrev main_v538 : Ref sig .tc := ⟨.hbm, 825, rfl⟩
abbrev main_c_76 : Ref sig .tc := ⟨.hbm, 826, rfl⟩
abbrev main_v539 : Ref sig .tc := ⟨.hbm, 827, rfl⟩
abbrev main_v540 : Ref sig .tc := ⟨.hbm, 828, rfl⟩
abbrev main_c_77 : Ref sig .tc := ⟨.hbm, 829, rfl⟩
abbrev main_v541 : Ref sig .tc := ⟨.hbm, 830, rfl⟩
abbrev main_v542 : Ref sig .tc := ⟨.hbm, 831, rfl⟩
abbrev main_v543 : Ref sig .tc := ⟨.hbm, 832, rfl⟩
abbrev main_v544 : Ref sig .tc := ⟨.hbm, 833, rfl⟩
abbrev main_v545 : Ref sig .tc := ⟨.hbm, 834, rfl⟩
abbrev main_v546 : Ref sig .tc := ⟨.hbm, 835, rfl⟩
abbrev main_v547 : Ref sig .tc := ⟨.hbm, 836, rfl⟩
abbrev main_v548 : Ref sig .tc := ⟨.hbm, 837, rfl⟩
abbrev main_v549 : Ref sig .tc := ⟨.hbm, 838, rfl⟩
abbrev main_v550 : Ref sig .tc := ⟨.hbm, 839, rfl⟩
abbrev main_call16_cst : Ref sig .tc := ⟨.hbm, 840, rfl⟩
abbrev main_call16_v0 : Ref sig .tc := ⟨.hbm, 841, rfl⟩
abbrev main_v551 : Ref sig .tc := ⟨.hbm, 842, rfl⟩
abbrev main_v552 : Ref sig .tc := ⟨.hbm, 843, rfl⟩
abbrev main_v553 : Ref sig .tc := ⟨.hbm, 844, rfl⟩
abbrev main_v554 : Ref sig .tc := ⟨.hbm, 845, rfl⟩
abbrev main_v555 : Ref sig .tc := ⟨.hbm, 846, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1x32_S800000x32_0_1 : S1x32.BroadcastsInDim S800000x32 (![0, 1] : Fin 2 → Fin S800000x32.rank)
  slices_S4x32x32_S1x32x32_0_0_0 : S4x32x32.Slices ![0, 0, 0] S1x32x32
  shapeCasts_S1x32x32_S32x32 : S1x32x32.ShapeCasts S32x32
  slices_S4x32_S1x32_0_0 : S4x32.Slices ![0, 0] S1x32
  shapeCasts_S1x32_S32 : S1x32.ShapeCasts S32
  bcast_S_S800000 : S_.BroadcastsInDim S800000 (![] : Fin 0 → Fin S800000.rank)
  bcast_S800000_S800000x1_0 : S800000.BroadcastsInDim S800000x1 (![0] : Fin 1 → Fin S800000x1.rank)
  bcast_S_S800000x32 : S_.BroadcastsInDim S800000x32 (![] : Fin 0 → Fin S800000x32.rank)
  bcast_S_S100000x32 : S_.BroadcastsInDim S100000x32 (![] : Fin 0 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  reducesTo_S800000x32_S32_d0 : S800000x32.ReducesTo [0] S32
  slices_S4x32x32_S1x32x32_1_0_0 : S4x32x32.Slices ![1, 0, 0] S1x32x32
  slices_S4x32_S1x32_1_0 : S4x32.Slices ![1, 0] S1x32
  slices_S4x32x32_S1x32x32_2_0_0 : S4x32x32.Slices ![2, 0, 0] S1x32x32
  slices_S4x32_S1x32_2_0 : S4x32.Slices ![2, 0] S1x32
  slices_S4x32x32_S1x32x32_3_0_0 : S4x32x32.Slices ![3, 0, 0] S1x32x32
  slices_S4x32_S1x32_3_0 : S4x32.Slices ![3, 0] S1x32
  concatenates_S800000x32_S800000x32_S800000x32_S800000x96_d1 : Shape.Concatenates [S800000x32, S800000x32, S800000x32] S800000x96 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  dot_S100000x1_S1x32_S100000x32_1_0_0_1_n_n_wf : DotDims.WF S100000x1 S1x32 S100000x32 [1] [0] [0] [1] [] []
  dot_S800000x1_S1x32_S800000x32_1_0_0_1_n_n_wf : DotDims.WF S800000x1 S1x32 S800000x32 [1] [0] [0] [1] [] []
  dot_S100000x32_S32x32_S100000x32_1_0_0_1_n_n_wf : DotDims.WF S100000x32 S32x32 S100000x32 [1] [0] [0] [1] [] []
  dot_S800000x32_S32x32_S800000x32_1_0_0_1_n_n_wf : DotDims.WF S800000x32 S32x32 S800000x32 [1] [0] [0] [1] [] []
  gather_S100000x32_S800000x1_S800000x32_1_0_n_n_0_1_132_wf : GatherDims.WF S100000x32 S800000x1 S800000x32 [1] [0] [] [0] [] 1 ![1, 32]
  scatter_S100000x32_S800000x1_S800000x32_1_0_0_1_wf : ScatterDims.WF S100000x32 S800000x1 S800000x32 [1] [0] [0] 1
  dot_S800000x96_S96x32_S800000x32_1_0_0_1_n_n_wf : DotDims.WF S800000x96 S96x32 S800000x32 [1] [0] [0] [1] [] []
  dot_S800000x32_S32x1_S800000x1_1_0_0_1_n_n_wf : DotDims.WF S800000x32 S32x1 S800000x1 [1] [0] [0] [1] [] []

variable [Facts₀]

def dot_S100000x1_S1x32_S100000x32_1_0_0_1_n_n : DotDims S100000x1 S1x32 S100000x32 where
  lhsContracting := [1]
  rhsContracting := [0]
  lhsNonContracting := [0]
  rhsNonContracting := [1]
  lhsBatch := []
  rhsBatch := []
  wf := dot_S100000x1_S1x32_S100000x32_1_0_0_1_n_n_wf
def dot_S800000x1_S1x32_S800000x32_1_0_0_1_n_n : DotDims S800000x1 S1x32 S800000x32 where
  lhsContracting := [1]
  rhsContracting := [0]
  lhsNonContracting := [0]
  rhsNonContracting := [1]
  lhsBatch := []
  rhsBatch := []
  wf := dot_S800000x1_S1x32_S800000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S800000x96_S96x32_S800000x32_1_0_0_1_n_n : DotDims S800000x96 S96x32 S800000x32 where
  lhsContracting := [1]
  rhsContracting := [0]
  lhsNonContracting := [0]
  rhsNonContracting := [1]
  lhsBatch := []
  rhsBatch := []
  wf := dot_S800000x96_S96x32_S800000x32_1_0_0_1_n_n_wf
def dot_S800000x32_S32x1_S800000x1_1_0_0_1_n_n : DotDims S800000x32 S32x1 S800000x1 where
  lhsContracting := [1]
  rhsContracting := [0]
  lhsNonContracting := [0]
  rhsNonContracting := [1]
  lhsBatch := []
  rhsBatch := []
  wf := dot_S800000x32_S32x1_S800000x1_1_0_0_1_n_n_wf

class Facts : Prop extends Facts₀ where

variable [Facts]
-- ==== Proof.Reg0.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 0: a linear layer on a one-column feature array, its frame half

The kernel body at a grid point reads a block of 5000 rows of the one-column feature array, the resident
1x32 weight row and the resident 1x32 bias row, and stores the 5000x32 block `x · w + b` whole. This module
states, at any entry contents `V` of the core's buffers, what each window's staging buffer holds around the
body, and proves the body's obligation at every grid point. -/

-- membership in a rectangle of 5000 rows: the structural look recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block's staging buffer holds the block of the point, for any proof data over `V`'s arrays whose
    body leaves that block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight row is fetched at the first point only; its block index never moves, so its staging buffer
    holds the (one) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S5000x1 := Rect.unit (s := S5000x1) ![0, 0] S5000x1.size inb_S5000x1_S5000x1_0_0
abbrev r0_1 : Rect S1x32 := Rect.unit (s := S1x32) ![0, 0] S1x32.size inb_S1x32_S1x32_0_0
abbrev r0_3 : Rect S5000x32 := Rect.unit (s := S5000x32) ![0, 0] S5000x32.size inb_S5000x32_S5000x32_0_0

/-! ## What the body leaves in the output window's buffer -/

/-- The output block after the body, from the three input blocks: its one whole store. -/
def out0_3 (x0 : Vec F S5000x1 .f32) (x1 : Vec F S1x32 .f32) (x2 : Vec F S1x32 .f32) : Vec F S5000x32 .f32 :=
  View.canon [⟨r0_3, k0_pay1 (View.ld x0 r0_0) (View.ld x1 r0_1) (View.ld x2 r0_1)⟩]

/-- The one store is the whole buffer, so it covers it. -/
theorem cover0_3 (p0 : Vec F S5000x32 .f32) (y : S5000x32.Idx) :
    ∃ pc ∈ ([⟨r0_3, p0⟩] : List (View.Piece (Elt F) S5000x32 .f32)), y ∈ pc.1.set :=
  View.cover_of_tiled [⟨r0_3, p0⟩] S5000x32.size (by rfl) y

/-! ## The body's triple -/

set_option maxHeartbeats 1000000 in
/-- The body on whole staging memrefs, the inputs' at read contents `x0 x1 x2` and the output's at anything, runs to
    the continuation holding the inputs' as they were and the output's at `out0_3` of them. -/
theorem sound_kernel0 (c : Dev nD) (E : Set ℕ) (i : grid0.Coords)
    (arg1 : Memref sig .tc .vmem S5000x1 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S5000x32 .f32) (harg4 : arg4.IsWhole)
    (x0 : Vec F S5000x1 .f32) (x1 : Vec F S1x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t`
    each input's buffer at its block and the output's at `out0_3` of the input blocks; the invariant that leaves
    the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.Reg1.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 1: a linear layer on a one-column feature array, its frame half

The kernel body at a grid point reads a block of 5000 rows of the one-column feature array, the resident
1x32 weight row and the resident 1x32 bias row, and stores the 5000x32 block `x · w + b` whole. This module
states, at any entry contents `V` of the core's buffers, what each window's staging buffer holds around the
body, and proves the body's obligation at every grid point. -/

-- membership in a rectangle of 5000 rows: the structural look recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature block's staging buffer holds the block of the point, for any proof data over `V`'s arrays whose
    body leaves that block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight row is fetched at the first point only; its block index never moves, so its staging buffer
    holds the (one) block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S5000x1 := Rect.unit (s := S5000x1) ![0, 0] S5000x1.size inb_S5000x1_S5000x1_0_0
abbrev r1_1 : Rect S1x32 := Rect.unit (s := S1x32) ![0, 0] S1x32.size inb_S1x32_S1x32_0_0
abbrev r1_3 : Rect S5000x32 := Rect.unit (s := S5000x32) ![0, 0] S5000x32.size inb_S5000x32_S5000x32_0_0

/-! ## What the body leaves in the output window's buffer -/

/-- The output block after the body, from the three input blocks: its one whole store. -/
def out1_3 (x0 : Vec F S5000x1 .f32) (x1 : Vec F S1x32 .f32) (x2 : Vec F S1x32 .f32) : Vec F S5000x32 .f32 :=
  View.canon [⟨r1_3, k1_pay1 (View.ld x0 r1_0) (View.ld x1 r1_1) (View.ld x2 r1_1)⟩]

/-- The one store is the whole buffer, so it covers it. -/
theorem cover1_3 (p0 : Vec F S5000x32 .f32) (y : S5000x32.Idx) :
    ∃ pc ∈ ([⟨r1_3, p0⟩] : List (View.Piece (Elt F) S5000x32 .f32)), y ∈ pc.1.set :=
  View.cover_of_tiled [⟨r1_3, p0⟩] S5000x32.size (by rfl) y

/-! ## The body's triple -/

set_option maxHeartbeats 1000000 in
/-- The body on whole staging memrefs, the inputs' at read contents `x0 x1 x2` and the output's at anything, runs to
    the continuation holding the inputs' as they were and the output's at `out1_3` of them. -/
theorem sound_kernel1 (c : Dev nD) (E : Set ℕ) (i : grid1.Coords)
    (arg1 : Memref sig .tc .vmem S5000x1 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S5000x32 .f32) (harg4 : arg4.IsWhole)
    (x0 : Vec F S5000x1 .f32) (x1 : Vec F S1x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them; after the body at point `t`
    each input's buffer at its block and the output's at `out1_3` of the input blocks; the invariant that leaves
    the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.Reg2.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 2 (`cc2_kernel`, pipeline 2): the body half of the frame

The kernel computes `o = x · w + b` on a row block: `x` is a block of 5000 rows of the 100000 × 32 array (one block
per grid point, 20 points), `w` (32 × 128) and `b` (1 × 128) are whole arrays fetched once and resident, and `o` is
the matching 5000 × 128 row block of the result, written back at every point.  This module states, at a parameter
`V` (the TensorCore's buffer contents when the region is entered), each window's block at a grid point, what the
body leaves in the output's staging buffer as a function of the three input blocks, the body's triple, the
pipeline's proof data and the body obligation at every point. -/

-- membership in a rectangle of 5000 rows: the structural check recurses once per coordinate of the long axis
set_option maxRecDepth 65536

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block `x` (window 0, fetched at every point): its current staging buffer holds its block at every
    point, for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight `w` (window 1, fetched at the first point only, its block index constant): at a point where it is not
    fetched the buffer still holds the previous point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias `b` (window 2, fetched at the first point only): as for the weight. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref is read or written whole -/

abbrev r2_0 : Rect S5000x32 := Rect.unit (s := S5000x32) ![0, 0] S5000x32.size inb_S5000x32_S5000x32_0_0
abbrev r2_1 : Rect S32x128 := Rect.unit (s := S32x128) ![0, 0] S32x128.size inb_S32x128_S32x128_0_0
abbrev r2_2 : Rect S1x128 := Rect.unit (s := S1x128) ![0, 0] S1x128.size inb_S1x128_S1x128_0_0
abbrev r2_3 : Rect S5000x128 := Rect.unit (s := S5000x128) ![0, 0] S5000x128.size inb_S5000x128_S5000x128_0_0

/-! ## What the body leaves in the output window's buffer -/

/-- Window 3's staging buffer after the body, from the three input blocks: its one store (the whole buffer) of the
    payload `x · w + b`. -/
def out2_3 (x0 : Vec F S5000x32 .f32) (x1 : Vec F S32x128 .f32) (x2 : Vec F S1x128 .f32) : Vec F S5000x128 .f32 :=
  View.canon [⟨r2_3, k2_pay1 (View.ld x0 r2_0) (View.ld x1 r2_1) (View.ld x2 r2_2)⟩]

/-- The one store's rectangle is the whole buffer, so it covers it. -/
theorem cover2_3 (p0 : Vec F S5000x128 .f32) (y : S5000x128.Idx) :
    ∃ pc ∈ ([⟨r2_3, p0⟩] : List (View.Piece (Elt F) S5000x128 .f32)), y ∈ pc.1.set :=
  View.cover_of_tiled [⟨r2_3, p0⟩] S5000x128.size (by rfl) y

/-! ## The body's triple -/

set_option maxHeartbeats 1000000 in
/-- The kernel body on whole staging memrefs, the inputs' at read contents `x0 x1 x2` and the output's at anything,
    runs to the continuation holding the inputs' as they were and the output's at `out2_3` of the inputs'. -/
theorem sound_kernel2 (c : Dev nD) (E : Set ℕ) (i : grid2.Coords) (arg1 : Memref sig .tc .vmem S5000x32 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.Reg3.lean ====
/- The edge-update region of one layer, its frame half, at any float model `F`.
   The body reads six windows — the row blocks `ah`, `bh`, `e`, `vh` (4000 × 128 each), the resident weight
   block `chat` (128 × 128) and the resident bias row `cbias` (1 × 128) — and writes three row blocks:
     e_new = ah + bh + (e · chat + cbias),   sigma = logistic e_new,   sigma * vh.
   Stated at a parameter `V`, the core's buffer contents when the region is entered:
   each window's block at a grid point, what the body leaves in each output buffer, the body's triple, the
   pipeline's proof data and its body obligation. -/
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: at every grid point its current staging buffer holds the window's block there, whether or not
    the block was copied in at that point (when it was not, the block index has not moved since the last copy),
    for any proof data whose array is `V`'s and whose body leaves the block in place. The window is never cut and
    never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: at every grid point its current staging buffer holds the window's block there, whether or not
    the block was copied in at that point (when it was not, the block index has not moved since the last copy),
    for any proof data whose array is `V`'s and whose body leaves the block in place. The window is never cut and
    never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: at every grid point its current staging buffer holds the window's block there, whether or not
    the block was copied in at that point (when it was not, the block index has not moved since the last copy),
    for any proof data whose array is `V`'s and whose body leaves the block in place. The window is never cut and
    never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: at every grid point its current staging buffer holds the window's block there, whether or not
    the block was copied in at that point (when it was not, the block index has not moved since the last copy),
    for any proof data whose array is `V`'s and whose body leaves the block in place. The window is never cut and
    never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: at every grid point its current staging buffer holds the window's block there, whether or not
    the block was copied in at that point (when it was not, the block index has not moved since the last copy),
    for any proof data whose array is `V`'s and whose body leaves the block in place. The window is never cut and
    never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5: at every grid point its current staging buffer holds the window's block there, whether or not
    the block was copied in at that point (when it was not, the block index has not moved since the last copy),
    for any proof data whose array is `V`'s and whose body leaves the block in place. The window is never cut and
    never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store takes a whole buffer -/

abbrev r3_0 : Rect S4000x128 := Rect.unit (s := S4000x128) ![0, 0] S4000x128.size inb_S4000x128_S4000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in each output buffer

`x0 … x5` are the contents of the six input buffers (`ah`, `bh`, `e`, `vh`, `chat`, `cbias`). Each output
buffer is written once, whole. -/

/-- Output window 6 (`e_new`): `ah + bh + (e · chat + cbias)`. -/
def out3_6 (x0 x1 x2 x3 : Vec F S4000x128 .f32) (x4 : Vec F S128x128 .f32) (x5 : Vec F S1x128 .f32) : Vec F S4000x128 .f32 :=
  View.canon [⟨r3_0, k3_pay1 (View.ld x2 r3_0) (View.ld x4 r3_1) (View.ld x5 r3_2) (View.ld x0 r3_0) (View.ld x1 r3_0)⟩]

/-- Output window 7 (`sigma`): the logistic of `e_new`. -/
def out3_7 (x0 x1 x2 x3 : Vec F S4000x128 .f32) (x4 : Vec F S128x128 .f32) (x5 : Vec F S1x128 .f32) : Vec F S4000x128 .f32 :=
  View.canon [⟨r3_0, k3_pay2 (View.ld x2 r3_0) (View.ld x4 r3_1) (View.ld x5 r3_2) (View.ld x0 r3_0) (View.ld x1 r3_0)⟩]

/-- Output window 8: `sigma * vh`. -/
def out3_8 (x0 x1 x2 x3 : Vec F S4000x128 .f32) (x4 : Vec F S128x128 .f32) (x5 : Vec F S1x128 .f32) : Vec F S4000x128 .f32 :=
  View.canon [⟨r3_0, k3_pay3 (View.ld x2 r3_0) (View.ld x4 r3_1) (View.ld x5 r3_2) (View.ld x0 r3_0) (View.ld x1 r3_0) (View.ld x3 r3_0)⟩]

/-- One whole-buffer store covers the buffer. -/
theorem cover3 (p0 : Vec F S4000x128 .f32) (y : S4000x128.Idx) :
    ∃ pc ∈ ([⟨r3_0, p0⟩] : List (View.Piece (Elt F) S4000x128 .f32)), y ∈ pc.1.set :=
  View.cover_of_tiled [⟨r3_0, p0⟩] S4000x128.size (by rfl) y

/-! ## The body's triple -/

set_option maxHeartbeats 1000000 in
/-- The kernel body on whole staging buffers, the six inputs at contents `x0 … x5` and the three outputs at
    anything, runs to a continuation that holds the inputs as they were and each output at `out3_W` of the inputs. -/
theorem sound_kernel3 (c : Dev nD) (E : Set ℕ) (i : grid3.Coords) (arg0 : Memref sig .tc .vmem S4000x128 .f32) (harg0 : arg0.IsWhole) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .f32) (harg6 : arg6.IsWhole) (arg7 : Memref sig .tc .vmem S4000x128 .f32) (harg7 : arg7.IsWhole) (arg8 : Memref sig .tc .vmem S4000x128 .f32) (harg8 : arg8.IsWhole)
    (x0 x1 x2 x3 : Vec F S4000x128 .f32) (x4 : Vec F S128x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out3_6 x0 x1 x2 x3 x4 x5) ∗ owns (c : Thread nD τ) arg7 fullShare (out3_7 x0 x1 x2 x3 x4 x5) ∗ owns (c : Thread nD τ) arg8 fullShare (out3_8 x0 x1 x2 x3 x4 x5)) -∗ K ⟨⟩))
      ⊢ wp frame (wpE (defs₀ (F := F)) Variants.none c none) E (cc3_kernel i arg0 harg0 arg1 harg1 arg2 harg2 arg3 harg3 arg4 harg4 arg5 harg5 arg6 harg6 arg7 harg7 arg8 harg8) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3 _)
  isplitl [H7]
  · iexists _; isplitr
    swap; · iexact H7
    ipureintro
    exact View.read_writes_eq_canon _ _ _ (cover3 _)
  iexists _; isplitr
  swap; · iexact H8
  ipureintro
  exact View.read_writes_eq_canon _ _ _ (cover3 _)

/-! ## The pipeline's proof data -/

/-- The proof data of this pipeline on core `c`: the arrays as the region finds them; after the body at point `t`
    each input's buffer at its block and each output's at `out3_W` of the six input blocks; the invariant says the
    rest of the core's state is untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
    | ⟨8, _⟩ => out3_8 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' buffers hold their blocks, so the body's triple applies; the invariant and the
    core's owed amounts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.Reg4.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! The node-update region (custom_call 4): per row block of 5000 rows, the output block is
    `uh + num / (den + eps)` entrywise. This module holds the region's frame half at a parameter `V`,
    the TensorCore's buffer contents when the region is entered: each window's block at a point, the
    output's staging buffer after the body, the body's triple, the pipeline's proof data and its body
    obligation. Generic in the float interpretation `F`. -/

-- membership in a rectangle of 5000 rows: the structural look recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data whose array is
    `V`'s and whose body leaves the block in place: the window is fetched at every point, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- Every load and the one store of the body take the whole 5000 x 128 staging buffer. -/
abbrev r4_0 : Rect S5000x128 := Rect.unit (s := S5000x128) ![0, 0] S5000x128.size inb_S5000x128_S5000x128_0_0

/-! ## What the body leaves in the output window's buffer -/

/-- Window 3's staging buffer after the body, from the three input blocks: its one store as a piece over the
    skeleton's payload `uh + num / (den + eps)`. -/
def out4_3 (x0 x1 x2 : Vec F S5000x128 .f32) : Vec F S5000x128 .f32 :=
  View.canon [⟨r4_0, k4_pay1 (View.ld x0 r4_0) (View.ld x1 r4_0) (View.ld x2 r4_0)⟩]

/-- The store takes the whole buffer, so it covers it. -/
theorem cover4_3 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out4_3` of the inputs'. -/
theorem sound_kernel4 (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point
    `t` each input's buffer at its block and the output's at `out4_3` of the input blocks; the invariant is the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Reg
-- ==== Proof.Reg5.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 5: the normalise-scale-shift-relu-residual kernel, its frame half

The body reads a value block `x0` and a residual block `x1` (both 5000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block
    index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): unfetched, the block
    index has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 5000×128 block. -/
abbrev r5_0 : Rect S5000x128 := Rect.unit (s := S5000x128) ![0, 0] S5000x128.size inb_S5000x128_S5000x128_0_0
/-- The whole 1×128 row. -/
abbrev r5_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out5_6 (x0 : Vec F S5000x128 .f32) (x1 : Vec F S5000x128 .f32) (x2 : Vec F S1x128 .f32) (x3 : Vec F S1x128 .f32)
    (x4 : Vec F S1x128 .f32) (x5 : Vec F S1x128 .f32) : Vec F S5000x128 .f32 :=
  View.canon [⟨r5_0, k5_pay1 (View.ld x0 r5_0) (View.ld x2 r5_1) (View.ld x3 r5_1) (View.ld x4 r5_1) (View.ld x5 r5_1) (View.ld x1 r5_0)⟩]

/-- The one store is the whole block, so it covers it. -/
theorem cover5_6 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at contents `x0 … x5` and the output's at anything, runs to
    the continuation holding the inputs' as they were and the output's at `out5_6` of the inputs'. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5_kernel i arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them (`V`); after the body at
    point `t` each input's buffer at its block and the output's at `out5_6` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the kernel's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Reg
-- ==== Proof.Reg6.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 6: the normalise-scale-shift-relu-residual kernel, its frame half

The body reads a value block `x0` and a residual block `x1` (both 4000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block
    index has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): unfetched, the block
    index has not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): unfetched, the block
    index has not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): unfetched, the block
    index has not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s (`hA`) and whose body leaves the block in place (`hafter`): unfetched, the block
    index has not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s (`hA`) and whose body leaves the block in place (`hafter`): unfetched, the block
    index has not moved; the window is uncut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 4000×128 block. -/
abbrev r6_0 : Rect S4000x128 := Rect.unit (s := S4000x128) ![0, 0] S4000x128.size inb_S4000x128_S4000x128_0_0
/-- The whole 1×128 row. -/
abbrev r6_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out6_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r6_0, k6_pay1 (View.ld x0 r6_0) (View.ld x2 r6_1) (View.ld x3 r6_1) (View.ld x4 r6_1) (View.ld x5 r6_1) (View.ld x1 r6_0)⟩]

/-- The one store is the whole block, so it covers it. -/
theorem cover6_6 (p0 : Vec F S4000x128 .f32) (y : S4000x128.Idx) :
    ∃ pc ∈ ([⟨r6_0, p0⟩] : List (View.Piece (Elt F) S4000x128 .f32)), y ∈ pc.1.set :=
  View.cover_of_tiled [⟨r6_0, p0⟩] S4000x128.size (by rfl) y

/-! ## The body's triple -/

set_option maxHeartbeats 1000000 in
/-- The kernel body on whole staging memrefs, the inputs' at contents `x0 … x5` and the output's at anything, runs to
    the continuation holding the inputs' as they were and the output's at `out6_6` of the inputs'. -/
theorem sound_kernel6 (c : Dev nD) (E : Set ℕ) (i : grid6.Coords) (arg1 : Memref sig .tc .vmem S4000x128 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as the region finds them (`V`); after the body at
    point `t` each input's buffer at its block and the output's at `out6_6` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the kernel's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Reg
-- ==== Proof.Reg7.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 7 (`cc7_kernel`, pipeline 2): the body half of the frame

The kernel computes `o = x · w + b` on a row block: `x` is a block of 5000 rows of the 100000 × 32 array (one block
per grid point, 20 points), `w` (32 × 128) and `b` (1 × 128) are whole arrays fetched once and resident, and `o` is
the matching 5000 × 128 row block of the result, written back at every point.  This module states, at a parameter
`V` (the TensorCore's buffer contents when the region is entered), each window's block at a grid point, what the
body leaves in the output's staging buffer as a function of the three input blocks, the body's triple, the
pipeline's proof data and the body obligation at every point. -/

-- membership in a rectangle of 5000 rows: the structural check recurses once per coordinate of the long axis
set_option maxRecDepth 65536

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The row block `x` (window 0, fetched at every point): its current staging buffer holds its block at every
    point, for any proof data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The weight `w` (window 1, fetched at the first point only, its block index constant): at a point where it is not
    fetched the buffer still holds the previous point's block, which is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The bias `b` (window 2, fetched at the first point only): as for the weight. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each memref is read or written whole -/

abbrev r7_0 : Rect S5000x32 := Rect.unit (s := S5000x32) ![0, 0] S5000x32.size inb_S5000x32_S5000x32_0_0
abbrev r7_1 : Rect S32x128 := Rect.unit (s := S32x128) ![0, 0] S32x128.size inb_S32x128_S32x128_0_0
abbrev r7_2 : Rect S1x128 := Rect.unit (s := S1x128) ![0, 0] S1x128.size inb_S1x128_S1x128_0_0
abbrev r7_3 : Rect S5000x128 := Rect.unit (s := S5000x128) ![0, 0] S5000x128.size inb_S5000x128_S5000x128_0_0

/-! ## What the body leaves in the output window's buffer -/

/-- Window 3's staging buffer after the body, from the three input blocks: its one store (the whole buffer) of the
    payload `x · w + b`. -/
def out7_3 (x0 : Vec F S5000x32 .f32) (x1 : Vec F S32x128 .f32) (x2 : Vec F S1x128 .f32) : Vec F S5000x128 .f32 :=
  View.canon [⟨r7_3, k7_pay1 (View.ld x0 r7_0) (View.ld x1 r7_1) (View.ld x2 r7_2)⟩]

/-- The one store's rectangle is the whole buffer, so it covers it. -/
theorem cover7_3 (p0 : Vec F S5000x128 .f32) (y : S5000x128.Idx) :
    ∃ pc ∈ ([⟨r7_3, p0⟩] : List (View.Piece (Elt F) S5000x128 .f32)), y ∈ pc.1.set :=
  View.cover_of_tiled [⟨r7_3, p0⟩] S5000x128.size (by rfl) y

/-! ## The body's triple -/

set_option maxHeartbeats 1000000 in
/-- The kernel body on whole staging memrefs, the inputs' at read contents `x0 x1 x2` and the output's at anything,
    runs to the continuation holding the inputs' as they were and the output's at `out7_3` of the inputs'. -/
theorem sound_kernel7 (c : Dev nD) (E : Set ℕ) (i : grid7.Coords) (arg1 : Memref sig .tc .vmem S5000x32 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 2 on core `c`: the arrays as the region finds them (`V`); after the body at point `t`
    each input's buffer at its block and the output's at `out7_3` of the input blocks; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and the
    core's obligations pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Reg

end
-- ==== Proof.Reg8.lean ====
/- The edge-update region of one layer, its frame half, at any float model `F`.
   The body reads six windows — the row blocks `ah`, `bh`, `e`, `vh` (4000 × 128 each), the resident weight
   block `chat` (128 × 128) and the resident bias row `cbias` (1 × 128) — and writes three row blocks:
     e_new = ah + bh + (e · chat + cbias),   sigma = logistic e_new,   sigma * vh.
   Stated at a parameter `V`, the core's buffer contents when the region is entered:
   each window's block at a grid point, what the body leaves in each output buffer, the body's triple, the
   pipeline's proof data and its body obligation. -/
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0: at every grid point its current staging buffer holds the window's block there, whether or not
    the block was copied in at that point (when it was not, the block index has not moved since the last copy),
    for any proof data whose array is `V`'s and whose body leaves the block in place. The window is never cut and
    never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1: at every grid point its current staging buffer holds the window's block there, whether or not
    the block was copied in at that point (when it was not, the block index has not moved since the last copy),
    for any proof data whose array is `V`'s and whose body leaves the block in place. The window is never cut and
    never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2: at every grid point its current staging buffer holds the window's block there, whether or not
    the block was copied in at that point (when it was not, the block index has not moved since the last copy),
    for any proof data whose array is `V`'s and whose body leaves the block in place. The window is never cut and
    never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3: at every grid point its current staging buffer holds the window's block there, whether or not
    the block was copied in at that point (when it was not, the block index has not moved since the last copy),
    for any proof data whose array is `V`'s and whose body leaves the block in place. The window is never cut and
    never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4: at every grid point its current staging buffer holds the window's block there, whether or not
    the block was copied in at that point (when it was not, the block index has not moved since the last copy),
    for any proof data whose array is `V`'s and whose body leaves the block in place. The window is never cut and
    never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5: at every grid point its current staging buffer holds the window's block there, whether or not
    the block was copied in at that point (when it was not, the block index has not moved since the last copy),
    for any proof data whose array is `V`'s and whose body leaves the block in place. The window is never cut and
    never idle. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and store takes a whole buffer -/

abbrev r8_0 : Rect S4000x128 := Rect.unit (s := S4000x128) ![0, 0] S4000x128.size inb_S4000x128_S4000x128_0_0
abbrev r8_1 : Rect S128x128 := Rect.unit (s := S128x128) ![0, 0] S128x128.size inb_S128x128_S128x128_0_0
abbrev r8_2 : Rect S1x128 := Rect.unit (s := S1x128) ![0, 0] S1x128.size inb_S1x128_S1x128_0_0

/-! ## What the body leaves in each output buffer

`x0 … x5` are the contents of the six input buffers (`ah`, `bh`, `e`, `vh`, `chat`, `cbias`). Each output
buffer is written once, whole. -/

/-- Output window 6 (`e_new`): `ah + bh + (e · chat + cbias)`. -/
def out8_6 (x0 x1 x2 x3 : Vec F S4000x128 .f32) (x4 : Vec F S128x128 .f32) (x5 : Vec F S1x128 .f32) : Vec F S4000x128 .f32 :=
  View.canon [⟨r8_0, k8_pay1 (View.ld x2 r8_0) (View.ld x4 r8_1) (View.ld x5 r8_2) (View.ld x0 r8_0) (View.ld x1 r8_0)⟩]

/-- Output window 7 (`sigma`): the logistic of `e_new`. -/
def out8_7 (x0 x1 x2 x3 : Vec F S4000x128 .f32) (x4 : Vec F S128x128 .f32) (x5 : Vec F S1x128 .f32) : Vec F S4000x128 .f32 :=
  View.canon [⟨r8_0, k8_pay2 (View.ld x2 r8_0) (View.ld x4 r8_1) (View.ld x5 r8_2) (View.ld x0 r8_0) (View.ld x1 r8_0)⟩]

/-- Output window 8: `sigma * vh`. -/
def out8_8 (x0 x1 x2 x3 : Vec F S4000x128 .f32) (x4 : Vec F S128x128 .f32) (x5 : Vec F S1x128 .f32) : Vec F S4000x128 .f32 :=
  View.canon [⟨r8_0, k8_pay3 (View.ld x2 r8_0) (View.ld x4 r8_1) (View.ld x5 r8_2) (View.ld x0 r8_0) (View.ld x1 r8_0) (View.ld x3 r8_0)⟩]

/-- One whole-buffer store covers the buffer. -/
theorem cover8 (p0 : Vec F S4000x128 .f32) (y : S4000x128.Idx) :
    ∃ pc ∈ ([⟨r8_0, p0⟩] : List (View.Piece (Elt F) S4000x128 .f32)), y ∈ pc.1.set :=
  View.cover_of_tiled [⟨r8_0, p0⟩] S4000x128.size (by rfl) y

/-! ## The body's triple -/

set_option maxHeartbeats 1000000 in
/-- The kernel body on whole staging buffers, the six inputs at contents `x0 … x5` and the three outputs at
    anything, runs to a continuation that holds the inputs as they were and each output at `out8_W` of the inputs. -/
theorem sound_kernel8 (c : Dev nD) (E : Set ℕ) (i : grid8.Coords) (arg0 : Memref sig .tc .vmem S4000x128 .f32) (harg0 : arg0.IsWhole) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .f32) (harg6 : arg6.IsWhole) (arg7 : Memref sig .tc .vmem S4000x128 .f32) (harg7 : arg7.IsWhole) (arg8 : Memref sig .tc .vmem S4000x128 .f32) (harg8 : arg8.IsWhole)
    (x0 x1 x2 x3 : Vec F S4000x128 .f32) (x4 : Vec F S128x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out8_6 x0 x1 x2 x3 x4 x5) ∗ owns (c : Thread nD τ) arg7 fullShare (out8_7 x0 x1 x2 x3 x4 x5) ∗ owns (c : Thread nD τ) arg8 fullShare (out8_8 x0 x1 x2 x3 x4 x5)) -∗ K ⟨⟩))
      ⊢ wp frame (wpE (defs₀ (F := F)) Variants.none c none) E (cc8_kernel i arg0 harg0 arg1 harg1 arg2 harg2 arg3 harg3 arg4 harg4 arg5 harg5 arg6 harg6 arg7 harg7 arg8 harg8) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover8 _)
  isplitl [H7]
  · iexists _; isplitr
    swap; · iexact H7
    ipureintro
    exact View.read_writes_eq_canon _ _ _ (cover8 _)
  iexists _; isplitr
  swap; · iexact H8
  ipureintro
  exact View.read_writes_eq_canon _ _ _ (cover8 _)

/-! ## The pipeline's proof data -/

/-- The proof data of this pipeline on core `c`: the arrays as the region finds them; after the body at point `t`
    each input's buffer at its block and each output's at `out8_W` of the six input blocks; the invariant says the
    rest of the core's state is untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
    | ⟨7, _⟩ => out8_7 (iblk8 V c 0 t) (iblk8 V c 1 t) (iblk8 V c 2 t) (iblk8 V c 3 t) (iblk8 V c 4 t) (iblk8 V c 5 t)
    | ⟨8, _⟩ => out8_8 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) := by dsimp only [dat8]
theorem after8_8 (c : Dev nD) (t : Fin cfg8.N) : (dat8 V c).after 8 t = out8_8 (iblk8 V c 0 t) (iblk8 V c 1 t) (iblk8 V c 2 t) (iblk8 V c 3 t) (iblk8 V c 4 t) (iblk8 V c 5 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t))

/-- The body at any point: the inputs' buffers hold their blocks, so the body's triple applies; the invariant and the
    core's owed amounts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel8 c Set.univ _ _ _ _ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Reg

end
-- ==== Proof.Reg9.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! The node-update region (custom_call 9): per row block of 5000 rows, the output block is
    `uh + num / (den + eps)` entrywise. This module holds the region's frame half at a parameter `V`,
    the TensorCore's buffer contents when the region is entered: each window's block at a point, the
    output's staging buffer after the body, the body's triple, the pipeline's proof data and its body
    obligation. Generic in the float interpretation `F`. -/

-- membership in a rectangle of 5000 rows: the structural look recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, for any proof data whose array is
    `V`'s and whose body leaves the block in place: the window is fetched at every point, uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- Every load and the one store of the body take the whole 5000 x 128 staging buffer. -/
abbrev r9_0 : Rect S5000x128 := Rect.unit (s := S5000x128) ![0, 0] S5000x128.size inb_S5000x128_S5000x128_0_0

/-! ## What the body leaves in the output window's buffer -/

/-- Window 3's staging buffer after the body, from the three input blocks: its one store as a piece over the
    skeleton's payload `uh + num / (den + eps)`. -/
def out9_3 (x0 x1 x2 : Vec F S5000x128 .f32) : Vec F S5000x128 .f32 :=
  View.canon [⟨r9_0, k9_pay1 (View.ld x0 r9_0) (View.ld x1 r9_0) (View.ld x2 r9_0)⟩]

/-- The store takes the whole buffer, so it covers it. -/
theorem cover9_3 (p0 : Vec F S5000x128 .f32) (y : S5000x128.Idx) :
    ∃ pc ∈ ([⟨r9_0, p0⟩] : List (View.Piece (Elt F) S5000x128 .f32)), y ∈ pc.1.set :=
  View.cover_of_tiled [⟨r9_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out9_3` of the inputs'. -/
theorem sound_kernel9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9_kernel i arg1 harg1 arg2 harg2 arg3 harg3 arg4 harg4) K := by
  simp only [cc9_kernel_eq_skeleton]; unfold cc9_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them (`V`); after the body at point
    `t` each input's buffer at its block and the output's at `out9_3` of the input blocks; the invariant is the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so `sound_kernel9` applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Reg
-- ==== Proof.Reg10.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 10: the normalise-scale-shift-relu-residual kernel, its frame half

The body reads a value block `x0` and a residual block `x1` (both 5000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): unfetched, the block
    index has not moved; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s (`hA`) and whose body leaves the block in place (`hafter`): unfetched, the block
    index has not moved; the window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s (`hA`) and whose body leaves the block in place (`hafter`): unfetched, the block
    index has not moved; the window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s (`hA`) and whose body leaves the block in place (`hafter`): unfetched, the block
    index has not moved; the window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s (`hA`) and whose body leaves the block in place (`hafter`): unfetched, the block
    index has not moved; the window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for any proof
    data whose array is `V`'s (`hA`) and whose body leaves the block in place (`hafter`): unfetched, the block
    index has not moved; the window is uncut and never idle. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

/-- The whole 5000×128 block. -/
abbrev r10_0 : Rect S5000x128 := Rect.unit (s := S5000x128) ![0, 0] S5000x128.size inb_S5000x128_S5000x128_0_0
/-- The whole 1×128 row. -/
abbrev r10_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out10_6 (x0 : Vec F S5000x128 .f32) (x1 : Vec F S5000x128 .f32) (x2 : Vec F S1x128 .f32) (x3 : Vec F S1x128 .f32)
    (x4 : Vec F S1x128 .f32) (x5 : Vec F S1x128 .f32) : Vec F S5000x128 .f32 :=
  View.canon [⟨r10_0, k10_pay1 (View.ld x0 r10_0) (View.ld x2 r10_1) (View.ld x3 r10_1) (View.ld x4 r10_1) (View.ld x5 r10_1) (View.ld x1 r10_0)⟩]

/-- The one store is the whole block, so it covers it. -/
theorem cover10_6 (p0 : Vec F S5000x128 .f32) (y : S5000x128.Idx) :
    ∃ pc ∈ ([⟨r10_0, p0⟩] : List (View.Piece (Elt F) S5000x128 .f32)), y ∈ pc.1.set :=
  View.cover_of_tiled [⟨r10_0, p0⟩] S5000x128.size (by rfl) y

/-! ## The body's triple -/

set_option maxHeartbeats 1000000 in
/-- The kernel body on whole staging memrefs, the inputs' at contents `x0 … x5` and the output's at anything, runs to
    the continuation holding the inputs' as they were and the output's at `out10_6` of the inputs'. -/
theorem sound_kernel10 (c : Dev nD) (E : Set ℕ) (i : grid10.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out10_6 x0 x1 x2 x3 x4 x5)) -∗ K ⟨⟩))
      ⊢ wp frame (wpE (defs₀ (F := F)) Variants.none c none) E (cc10_kernel i arg1 harg1 arg2 harg2 arg3 harg3 arg4 harg4 arg5 harg5 arg6 harg6 arg7 harg7) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10_6 _)

/-! ## The pipeline's proof data -/

/-- The proof data of pipeline 10 on core `c`: the arrays as the region finds them (`V`); after the body at
    point `t` each input's buffer at its block and the output's at `out10_6` of the input blocks; the invariant
    the scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' memrefs hold their blocks, so the kernel's triple applies; the invariant and
    the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Reg
-- ==== Proof.Reg11.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 11: the normalise-scale-shift-relu-residual kernel, its frame half

The body reads a value block `x0` and a residual block `x1` (both 4000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block
    index has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s (`hA`) and whose body leaves the block in place (`hafter`): unfetched, the block
    index has not moved; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s (`hA`) and whose body leaves the block in place (`hafter`): unfetched, the block
    index has not moved; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof
    data whose array is `V`'s (`hA`) and whose body leaves the block in place (`hafter`): unfetched, the block
    index has not moved; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof
    data whose array is `V`'s (`hA`) and whose body leaves the block in place (`hafter`): unfetched, the block
    index has not moved; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's current staging buffer holds its block at every point, fetched there or not, for any proof
    data whose array is `V`'s (`hA`) and whose body leaves the block in place (`hafter`): unfetched, the block
    index has not moved; the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- The whole 4000×128 block. -/
abbrev r11_0 : Rect S4000x128 := Rect.unit (s := S4000x128) ![0, 0] S4000x128.size inb_S4000x128_S4000x128_0_0
/-- The whole 1×128 row. -/
abbrev r11_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out11_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r11_0, k11_pay1 (View.ld x0 r11_0) (View.ld x2 r11_1) (View.ld x3 r11_1) (View.ld x4 r11_1) (View.ld x5 r11_1) (View.ld x1 r11_0)⟩]

/-- The one store is the whole block, so it covers it. -/
theorem cover11_6 (p0 : Vec F S4000x128 .f32) (y : S4000x128.Idx) :
    ∃ pc ∈ ([⟨r11_0, p0⟩] : List (View.Piece (Elt F) S4000x128 .f32)), y ∈ pc.1.set :=
  View.cover_of_tiled [⟨r11_0, p0⟩] S4000x128.size (by rfl) y

/-! ## The body's triple -/

set_option maxHeartbeats 1000000 in
/-- The kernel body on whole staging memrefs, the inputs' at contents `x0 … x5` and the output's at anything, runs to
    the continuation holding the inputs' as they were and the output's at `out11_6` of the inputs'. -/
theorem sound_kernel11 (c : Dev nD) (E : Set ℕ) (i : grid11.Coords) (arg1 : Memref sig .tc .vmem S4000x128 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11_kernel i arg1 harg1 arg2 harg2 arg3 harg3 arg4 harg4 arg5 harg5 arg6 harg6 arg7 harg7) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them (`V`); after the body at
    point `t` each input's buffer at its block and the output's at `out11_6` of the input blocks; the invariant
    the scoped rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks, so the kernel's triple applies; the invariant and
    the core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ _ _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Reg
-- ==== Proof.Reg12.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 12 (`cc12_kernel`, pipeline 2): the body half of the frame

The kernel computes `o = x · w + b` on a row block: `x` is a block of 5000 rows of the 100000 × 32 array (one block
per grid point, 20 points), `w` (32 × 128) and `b` (1 × 128) are whole arrays fetched once and resident, and `o` is
the matching 5000 × 128 row block of the result, written back at every point.  This module states, at a parameter
`V` (the TensorCore's buffer contents when the region is entered), each window's block at a grid point, what the
body leaves in the output's staging buffer as a function of the three input blocks, the body's triple, the
pipeline's proof data and the body obligation at every point. -/

-- membership in a rectangle of 5000 rows: the structural check recurses once per coordinate of the long axis
set_option maxRecDepth 65536

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The row block `x` (window 0, fetched at every point): its current staging buffer holds its block at every
    point, for any proof data whose array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- The weight `w` (window 1, fetched at the first point only, its block index constant): at a point where it is not
    fetched the buffer still holds the previous point's block, which is this point's. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The bias `b` (window 2, fetched at the first point only): as for the weight. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each memref is read or written whole -/

abbrev r12_0 : Rect S5000x32 := Rect.unit (s := S5000x32) ![0, 0] S5000x32.size inb_S5000x32_S5000x32_0_0
abbrev r12_1 : Rect S32x128 := Rect.unit (s := S32x128) ![0, 0] S32x128.size inb_S32x128_S32x128_0_0
abbrev r12_2 : Rect S1x128 := Rect.unit (s := S1x128) ![0, 0] S1x128.size inb_S1x128_S1x128_0_0
abbrev r12_3 : Rect S5000x128 := Rect.unit (s := S5000x128) ![0, 0] S5000x128.size inb_S5000x128_S5000x128_0_0

/-! ## What the body leaves in the output window's buffer -/

/-- Window 3's staging buffer after the body, from the three input blocks: its one store (the whole buffer) of the
    payload `x · w + b`. -/
def out12_3 (x0 : Vec F S5000x32 .f32) (x1 : Vec F S32x128 .f32) (x2 : Vec F S1x128 .f32) : Vec F S5000x128 .f32 :=
  View.canon [⟨r12_3, k12_pay1 (View.ld x0 r12_0) (View.ld x1 r12_1) (View.ld x2 r12_2)⟩]

/-- The one store's rectangle is the whole buffer, so it covers it. -/
theorem cover12_3 (p0 : Vec F S5000x128 .f32) (y : S5000x128.Idx) :
    ∃ pc ∈ ([⟨r12_3, p0⟩] : List (View.Piece (Elt F) S5000x128 .f32)), y ∈ pc.1.set :=
  View.cover_of_tiled [⟨r12_3, p0⟩] S5000x128.size (by rfl) y

/-! ## The body's triple -/

set_option maxHeartbeats 1000000 in
/-- The kernel body on whole staging memrefs, the inputs' at read contents `x0 x1 x2` and the output's at anything,
    runs to the continuation holding the inputs' as they were and the output's at `out12_3` of the inputs'. -/
theorem sound_kernel12 (c : Dev nD) (E : Set ℕ) (i : grid12.Coords) (arg1 : Memref sig .tc .vmem S5000x32 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12_kernel i arg1 harg1 arg2 harg2 arg3 harg3 arg4 harg4) K := by
  simp only [cc12_kernel_eq_skeleton]; unfold cc12_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-! ## The pipeline's proof data -/

/-- The proof data of pipeline 2 on core `c`: the arrays as the region finds them (`V`); after the body at point `t`
    each input's buffer at its block and the output's at `out12_3` of the input blocks; the invariant the scoped rest
    and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks, so the body's triple applies; the invariant and the
    core's obligations pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Reg

end
-- ==== Proof.Reg13.lean ====
/- The edge-update region of one layer, its frame half, at any float model `F`.
   The body reads six windows — the row blocks `ah`, `bh`, `e`, `vh` (4000 × 128 each), the resident weight
   block `chat` (128 × 128) and the resident bias row `cbias` (1 × 128) — and writes three row blocks:
     e_new = ah + bh + (e · chat + cbias),   sigma = logistic e_new,   sigma * vh.
   Stated at a parameter `V`, the core's buffer contents when the region is entered:
   each window's block at a grid point, what the body leaves in each output buffer, the body's triple, the
   pipeline's proof data and its body obligation. -/
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0: at every grid point its current staging buffer holds the window's block there, whether or not
    the block was copied in at that point (when it was not, the block index has not moved since the last copy),
    for any proof data whose array is `V`'s and whose body leaves the block in place. The window is never cut and
    never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1: at every grid point its current staging buffer holds the window's block there, whether or not
    the block was copied in at that point (when it was not, the block index has not moved since the last copy),
    for any proof data whose array is `V`'s and whose body leaves the block in place. The window is never cut and
    never idle. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2: at every grid point its current staging buffer holds the window's block there, whether or not
    the block was copied in at that point (when it was not, the block index has not moved since the last copy),
    for any proof data whose array is `V`'s and whose body leaves the block in place. The window is never cut and
    never idle. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3: at every grid point its current staging buffer holds the window's block there, whether or not
    the block was copied in at that point (when it was not, the block index has not moved since the last copy),
    for any proof data whose array is `V`'s and whose body leaves the block in place. The window is never cut and
    never idle. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4: at every grid point its current staging buffer holds the window's block there, whether or not
    the block was copied in at that point (when it was not, the block index has not moved since the last copy),
    for any proof data whose array is `V`'s and whose body leaves the block in place. The window is never cut and
    never idle. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5: at every grid point its current staging buffer holds the window's block there, whether or not
    the block was copied in at that point (when it was not, the block index has not moved since the last copy),
    for any proof data whose array is `V`'s and whose body leaves the block in place. The window is never cut and
    never idle. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: every load and store takes a whole buffer -/

abbrev r13_0 : Rect S4000x128 := Rect.unit (s := S4000x128) ![0, 0] S4000x128.size inb_S4000x128_S4000x128_0_0
abbrev r13_1 : Rect S128x128 := Rect.unit (s := S128x128) ![0, 0] S128x128.size inb_S128x128_S128x128_0_0
abbrev r13_2 : Rect S1x128 := Rect.unit (s := S1x128) ![0, 0] S1x128.size inb_S1x128_S1x128_0_0

/-! ## What the body leaves in each output buffer

`x0 … x5` are the contents of the six input buffers (`ah`, `bh`, `e`, `vh`, `chat`, `cbias`). Each output
buffer is written once, whole. -/

/-- Output window 6 (`e_new`): `ah + bh + (e · chat + cbias)`. -/
def out13_6 (x0 x1 x2 x3 : Vec F S4000x128 .f32) (x4 : Vec F S128x128 .f32) (x5 : Vec F S1x128 .f32) : Vec F S4000x128 .f32 :=
  View.canon [⟨r13_0, k13_pay1 (View.ld x2 r13_0) (View.ld x4 r13_1) (View.ld x5 r13_2) (View.ld x0 r13_0) (View.ld x1 r13_0)⟩]

/-- Output window 7 (`sigma`): the logistic of `e_new`. -/
def out13_7 (x0 x1 x2 x3 : Vec F S4000x128 .f32) (x4 : Vec F S128x128 .f32) (x5 : Vec F S1x128 .f32) : Vec F S4000x128 .f32 :=
  View.canon [⟨r13_0, k13_pay2 (View.ld x2 r13_0) (View.ld x4 r13_1) (View.ld x5 r13_2) (View.ld x0 r13_0) (View.ld x1 r13_0)⟩]

/-- Output window 8: `sigma * vh`. -/
def out13_8 (x0 x1 x2 x3 : Vec F S4000x128 .f32) (x4 : Vec F S128x128 .f32) (x5 : Vec F S1x128 .f32) : Vec F S4000x128 .f32 :=
  View.canon [⟨r13_0, k13_pay3 (View.ld x2 r13_0) (View.ld x4 r13_1) (View.ld x5 r13_2) (View.ld x0 r13_0) (View.ld x1 r13_0) (View.ld x3 r13_0)⟩]

/-- One whole-buffer store covers the buffer. -/
theorem cover13 (p0 : Vec F S4000x128 .f32) (y : S4000x128.Idx) :
    ∃ pc ∈ ([⟨r13_0, p0⟩] : List (View.Piece (Elt F) S4000x128 .f32)), y ∈ pc.1.set :=
  View.cover_of_tiled [⟨r13_0, p0⟩] S4000x128.size (by rfl) y

/-! ## The body's triple -/

set_option maxHeartbeats 1000000 in
/-- The kernel body on whole staging buffers, the six inputs at contents `x0 … x5` and the three outputs at
    anything, runs to a continuation that holds the inputs as they were and each output at `out13_W` of the inputs. -/
theorem sound_kernel13 (c : Dev nD) (E : Set ℕ) (i : grid13.Coords) (arg0 : Memref sig .tc .vmem S4000x128 .f32) (harg0 : arg0.IsWhole) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .f32) (harg6 : arg6.IsWhole) (arg7 : Memref sig .tc .vmem S4000x128 .f32) (harg7 : arg7.IsWhole) (arg8 : Memref sig .tc .vmem S4000x128 .f32) (harg8 : arg8.IsWhole)
    (x0 x1 x2 x3 : Vec F S4000x128 .f32) (x4 : Vec F S128x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out13_6 x0 x1 x2 x3 x4 x5) ∗ owns (c : Thread nD τ) arg7 fullShare (out13_7 x0 x1 x2 x3 x4 x5) ∗ owns (c : Thread nD τ) arg8 fullShare (out13_8 x0 x1 x2 x3 x4 x5)) -∗ K ⟨⟩))
      ⊢ wp frame (wpE (defs₀ (F := F)) Variants.none c none) E (cc13_kernel i arg0 harg0 arg1 harg1 arg2 harg2 arg3 harg3 arg4 harg4 arg5 harg5 arg6 harg6 arg7 harg7 arg8 harg8) K := by
  simp only [cc13_kernel_eq_skeleton]; unfold cc13_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover13 _)
  isplitl [H7]
  · iexists _; isplitr
    swap; · iexact H7
    ipureintro
    exact View.read_writes_eq_canon _ _ _ (cover13 _)
  iexists _; isplitr
  swap; · iexact H8
  ipureintro
  exact View.read_writes_eq_canon _ _ _ (cover13 _)

/-! ## The pipeline's proof data -/

/-- The proof data of this pipeline on core `c`: the arrays as the region finds them; after the body at point `t`
    each input's buffer at its block and each output's at `out13_W` of the six input blocks; the invariant says the
    rest of the core's state is untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
    | ⟨7, _⟩ => out13_7 (iblk13 V c 0 t) (iblk13 V c 1 t) (iblk13 V c 2 t) (iblk13 V c 3 t) (iblk13 V c 4 t) (iblk13 V c 5 t)
    | ⟨8, _⟩ => out13_8 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]
theorem after13_7 (c : Dev nD) (t : Fin cfg13.N) : (dat13 V c).after 7 t = out13_7 (iblk13 V c 0 t) (iblk13 V c 1 t) (iblk13 V c 2 t) (iblk13 V c 3 t) (iblk13 V c 4 t) (iblk13 V c 5 t) := by dsimp only [dat13]
theorem after13_8 (c : Dev nD) (t : Fin cfg13.N) : (dat13 V c).after 8 t = out13_8 (iblk13 V c 0 t) (iblk13 V c 1 t) (iblk13 V c 2 t) (iblk13 V c 3 t) (iblk13 V c 4 t) (iblk13 V c 5 t) := by dsimp only [dat13]

/-- Each input's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d))
    ∗ (∃ d, owns (c : Thread nD τ) (st13_8 t) fullShare ((dat13 V c).before 8 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t)
    ∗ owns (c : Thread nD τ) (st13_8 t) fullShare ((dat13 V c).after 8 t))

/-- The body at any point: the inputs' buffers hold their blocks, so the body's triple applies; the invariant and the
    core's owed amounts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7, after13_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel13 c Set.univ _ _ _ _ _ _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Reg

end
-- ==== Proof.Reg14.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! The node-update region (custom_call 14): per row block of 5000 rows, the output block is
    `uh + num / (den + eps)` entrywise. This module holds the region's frame half at a parameter `V`,
    the TensorCore's buffer contents when the region is entered: each window's block at a point, the
    output's staging buffer after the body, the body's triple, the pipeline's proof data and its body
    obligation. Generic in the float interpretation `F`. -/

-- membership in a rectangle of 5000 rows: the structural look recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, for any proof data whose array is
    `V`'s and whose body leaves the block in place: the window is fetched at every point, uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- Every load and the one store of the body take the whole 5000 x 128 staging buffer. -/
abbrev r14_0 : Rect S5000x128 := Rect.unit (s := S5000x128) ![0, 0] S5000x128.size inb_S5000x128_S5000x128_0_0

/-! ## What the body leaves in the output window's buffer -/

/-- Window 3's staging buffer after the body, from the three input blocks: its one store as a piece over the
    skeleton's payload `uh + num / (den + eps)`. -/
def out14_3 (x0 x1 x2 : Vec F S5000x128 .f32) : Vec F S5000x128 .f32 :=
  View.canon [⟨r14_0, k14_pay1 (View.ld x0 r14_0) (View.ld x1 r14_0) (View.ld x2 r14_0)⟩]

/-- The store takes the whole buffer, so it covers it. -/
theorem cover14_3 (p0 : Vec F S5000x128 .f32) (y : S5000x128.Idx) :
    ∃ pc ∈ ([⟨r14_0, p0⟩] : List (View.Piece (Elt F) S5000x128 .f32)), y ∈ pc.1.set :=
  View.cover_of_tiled [⟨r14_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out14_3` of the inputs'. -/
theorem sound_kernel14 (c : Dev nD) (E : Set ℕ) (i : grid14.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out14_3 x0 x1 x2)) -∗ K ⟨⟩))
      ⊢ wp frame (wpE (defs₀ (F := F)) Variants.none c none) E (cc14_kernel i arg1 harg1 arg2 harg2 arg3 harg3 arg4 harg4) K := by
  simp only [cc14_kernel_eq_skeleton]; unfold cc14_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-! ## The pipeline's proof data -/

/-- The proof data of pipeline 14 on core `c`: the arrays as the region finds them (`V`); after the body at point
    `t` each input's buffer at its block and the output's at `out14_3` of the input blocks; the invariant is the
    scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) :
    (dat14 V c).after 3 t = out14_3 (iblk14 V c 0 t) (iblk14 V c 1 t) (iblk14 V c 2 t) := by dsimp only [dat14]

/-- Each input's current staging buffer holds its block at every point. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks, so `sound_kernel14` applies; the invariant and
    the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Reg
-- ==== Proof.Reg15.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 15: the normalise-scale-shift-relu-residual kernel, its frame half

The body reads a value block `x0` and a residual block `x1` (both 5000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for any proof
    data whose array is `V`'s (`hA`) and whose body leaves the block in place (`hafter`): unfetched, the block
    index has not moved; the window is uncut and never idle. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's current staging buffer holds its block at every point, fetched there or not, for any proof
    data whose array is `V`'s (`hA`) and whose body leaves the block in place (`hafter`): unfetched, the block
    index has not moved; the window is uncut and never idle. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Input window 2's current staging buffer holds its block at every point, fetched there or not, for any proof
    data whose array is `V`'s (`hA`) and whose body leaves the block in place (`hafter`): unfetched, the block
    index has not moved; the window is uncut and never idle. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-- Input window 3's current staging buffer holds its block at every point, fetched there or not, for any proof
    data whose array is `V`'s (`hA`) and whose body leaves the block in place (`hafter`): unfetched, the block
    index has not moved; the window is uncut and never idle. -/
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

/-- Input window 4's current staging buffer holds its block at every point, fetched there or not, for any proof
    data whose array is `V`'s (`hA`) and whose body leaves the block in place (`hafter`): unfetched, the block
    index has not moved; the window is uncut and never idle. -/
theorem before15_4_of {c : Dev nD} (dat : Dat τ (Elt F) Unit ℕ (UR sig nD τ) ℕ cfg15 c) (hA : dat.A 4 = V c (Pipeline.arrRef spec15 4))
    (hafter : ∀ t, dat.after 4 t = iblk15 V c 4 t) (t : Fin cfg15.N) (d) : dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)

/-- Input window 5's current staging buffer holds its block at every point, fetched there or not, for any proof
    data whose array is `V`'s (`hA`) and whose body leaves the block in place (`hafter`): unfetched, the block
    index has not moved; the window is uncut and never idle. -/
theorem before15_5_of {c : Dev nD} (dat : Dat τ (Elt F) Unit ℕ (UR sig nD τ) ℕ cfg15 c) (hA : dat.A 5 = V c (Pipeline.arrRef spec15 5))
    (hafter : ∀ t, dat.after 5 t = iblk15 V c 5 t) (t : Fin cfg15.N) (d) : dat.before 5 t d = iblk15 V c 5 t :=
  (dat.before_in_eq_fetched 5 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

/-- The whole 5000×128 block. -/
abbrev r15_0 : Rect S5000x128 := Rect.unit (s := S5000x128) ![0, 0] S5000x128.size inb_S5000x128_S5000x128_0_0
/-- The whole 1×128 row. -/
abbrev r15_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out15_6 (x0 : Vec F S5000x128 .f32) (x1 : Vec F S5000x128 .f32) (x2 : Vec F S1x128 .f32) (x3 : Vec F S1x128 .f32)
    (x4 : Vec F S1x128 .f32) (x5 : Vec F S1x128 .f32) : Vec F S5000x128 .f32 :=
  View.canon [⟨r15_0, k15_pay1 (View.ld x0 r15_0) (View.ld x2 r15_1) (View.ld x3 r15_1) (View.ld x4 r15_1) (View.ld x5 r15_1) (View.ld x1 r15_0)⟩]

/-- The one store is the whole block, so it covers it. -/
theorem cover15_6 (p0 : Vec F S5000x128 .f32) (y : S5000x128.Idx) :
    ∃ pc ∈ ([⟨r15_0, p0⟩] : List (View.Piece (Elt F) S5000x128 .f32)), y ∈ pc.1.set :=
  View.cover_of_tiled [⟨r15_0, p0⟩] S5000x128.size (by rfl) y

/-! ## The body's triple -/

set_option maxHeartbeats 1000000 in
/-- The kernel body on whole staging memrefs, the inputs' at contents `x0 … x5` and the output's at anything, runs to
    the continuation holding the inputs' as they were and the output's at `out15_6` of the inputs'. -/
theorem sound_kernel15 (c : Dev nD) (E : Set ℕ) (i : grid15.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out15_6 x0 x1 x2 x3 x4 x5)) -∗ K ⟨⟩))
      ⊢ wp frame (wpE (defs₀ (F := F)) Variants.none c none) E (cc15_kernel i arg1 harg1 arg2 harg2 arg3 harg3 arg4 harg4 arg5 harg5 arg6 harg6 arg7 harg7) K := by
  simp only [cc15_kernel_eq_skeleton]; unfold cc15_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover15_6 _)

/-! ## The pipeline's proof data -/

/-- The proof data of pipeline 15 on core `c`: the arrays as the region finds them (`V`); after the body at
    point `t` each input's buffer at its block and the output's at `out15_6` of the input blocks; the invariant
    the scoped rest and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => iblk15 V c 5 t
    | ⟨6, _⟩ => out15_6 (iblk15 V c 0 t) (iblk15 V c 1 t) (iblk15 V c 2 t) (iblk15 V c 3 t) (iblk15 V c 4 t) (iblk15 V c 5 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = iblk15 V c 5 t := by dsimp only [dat15]
theorem after15_6 (c : Dev nD) (t : Fin cfg15.N) : (dat15 V c).after 6 t = out15_6 (iblk15 V c 0 t) (iblk15 V c 1 t) (iblk15 V c 2 t) (iblk15 V c 3 t) (iblk15 V c 4 t) (iblk15 V c 5 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d
theorem before15_4 (c : Dev nD) (t : Fin cfg15.N) (d) : (dat15 V c).before 4 t d = iblk15 V c 4 t :=
  before15_4_of V (dat15 V c) (A_eq15 V c 4) (after15_4 V c) t d
theorem before15_5 (c : Dev nD) (t : Fin cfg15.N) (d) : (dat15 V c).before 5 t d = iblk15 V c 5 t :=
  before15_5_of V (dat15 V c) (A_eq15 V c 5) (after15_5 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d))
    ∗ (∃ d, owns (c : Thread nD τ) (st15_6 t) fullShare ((dat15 V c).before 6 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t)
    ∗ owns (c : Thread nD τ) (st15_6 t) fullShare ((dat15 V c).after 6 t))

/-- The body at any point: the inputs' memrefs hold their blocks, so the kernel's triple applies; the invariant and
    the core's debts pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4, before15_5]
  rw [show (dat15 V c).Φ t.succ = (dat15 V c).Φ t.castSucc from rfl,
    show (dat15 V c).owesAt () t.succ = (dat15 V c).owesAt () t.castSucc from rfl,
    after15_0, after15_1, after15_2, after15_3, after15_4, after15_5, after15_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel15 c Set.univ _ _ _ _ _ _ _ _ _ _ _ _ _ _ _ (iblk15 V c 0 t) (iblk15 V c 1 t) (iblk15 V c 2 t) (iblk15 V c 3 t) (iblk15 V c 4 t) (iblk15 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Reg
-- ==== Proof.Reg16.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 16: the normalise-scale-shift-relu-residual kernel, its frame half

The body reads a value block `x0` and a residual block `x1` (both 4000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, fetched there or not, for any proof
    data whose array is `V`'s (`hA`) and whose body leaves the block in place (`hafter`): unfetched, the block
    index has not moved; the window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1's current staging buffer holds its block at every point, fetched there or not, for any proof
    data whose array is `V`'s (`hA`) and whose body leaves the block in place (`hafter`): unfetched, the block
    index has not moved; the window is uncut and never idle. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Input window 2's current staging buffer holds its block at every point, fetched there or not, for any proof
    data whose array is `V`'s (`hA`) and whose body leaves the block in place (`hafter`): unfetched, the block
    index has not moved; the window is uncut and never idle. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- Input window 3's current staging buffer holds its block at every point, fetched there or not, for any proof
    data whose array is `V`'s (`hA`) and whose body leaves the block in place (`hafter`): unfetched, the block
    index has not moved; the window is uncut and never idle. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

/-- Input window 4's current staging buffer holds its block at every point, fetched there or not, for any proof
    data whose array is `V`'s (`hA`) and whose body leaves the block in place (`hafter`): unfetched, the block
    index has not moved; the window is uncut and never idle. -/
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-- Input window 5's current staging buffer holds its block at every point, fetched there or not, for any proof
    data whose array is `V`'s (`hA`) and whose body leaves the block in place (`hafter`): unfetched, the block
    index has not moved; the window is uncut and never idle. -/
theorem before16_5_of {c : Dev nD} (dat : Dat τ (Elt F) Unit ℕ (UR sig nD τ) ℕ cfg16 c) (hA : dat.A 5 = V c (Pipeline.arrRef spec16 5))
    (hafter : ∀ t, dat.after 5 t = iblk16 V c 5 t) (t : Fin cfg16.N) (d) : dat.before 5 t d = iblk16 V c 5 t :=
  (dat.before_in_eq_fetched 5 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses -/

/-- The whole 4000×128 block. -/
abbrev r16_0 : Rect S4000x128 := Rect.unit (s := S4000x128) ![0, 0] S4000x128.size inb_S4000x128_S4000x128_0_0
/-- The whole 1×128 row. -/
abbrev r16_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out16_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r16_0, k16_pay1 (View.ld x0 r16_0) (View.ld x2 r16_1) (View.ld x3 r16_1) (View.ld x4 r16_1) (View.ld x5 r16_1) (View.ld x1 r16_0)⟩]

/-- The one store is the whole block, so it covers it. -/
theorem cover16_6 (p0 : Vec F S4000x128 .f32) (y : S4000x128.Idx) :
    ∃ pc ∈ ([⟨r16_0, p0⟩] : List (View.Piece (Elt F) S4000x128 .f32)), y ∈ pc.1.set :=
  View.cover_of_tiled [⟨r16_0, p0⟩] S4000x128.size (by rfl) y

/-! ## The body's triple -/

set_option maxHeartbeats 1000000 in
/-- The kernel body on whole staging memrefs, the inputs' at contents `x0 … x5` and the output's at anything, runs to
    the continuation holding the inputs' as they were and the output's at `out16_6` of the inputs'. -/
theorem sound_kernel16 (c : Dev nD) (E : Set ℕ) (i : grid16.Coords) (arg1 : Memref sig .tc .vmem S4000x128 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out16_6 x0 x1 x2 x3 x4 x5)) -∗ K ⟨⟩))
      ⊢ wp frame (wpE (defs₀ (F := F)) Variants.none c none) E (cc16_kernel i arg1 harg1 arg2 harg2 arg3 harg3 arg4 harg4 arg5 harg5 arg6 harg6 arg7 harg7) K := by
  simp only [cc16_kernel_eq_skeleton]; unfold cc16_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover16_6 _)

/-! ## The pipeline's proof data -/

/-- The proof data of pipeline 16 on core `c`: the arrays as the region finds them (`V`); after the body at
    point `t` each input's buffer at its block and the output's at `out16_6` of the input blocks; the invariant
    the scoped rest and the generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => out16_6 (iblk16 V c 0 t) (iblk16 V c 1 t) (iblk16 V c 2 t) (iblk16 V c 3 t) (iblk16 V c 4 t) (iblk16 V c 5 t)
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = out16_6 (iblk16 V c 0 t) (iblk16 V c 1 t) (iblk16 V c 2 t) (iblk16 V c 3 t) (iblk16 V c 4 t) (iblk16 V c 5 t) := by dsimp only [dat16]

/-- Each input's current staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d
theorem before16_5 (c : Dev nD) (t : Fin cfg16.N) (d) : (dat16 V c).before 5 t d = iblk16 V c 5 t :=
  before16_5_of V (dat16 V c) (A_eq16 V c 5) (after16_5 V c) t d

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t))

/-- The body at any point: the inputs' memrefs hold their blocks, so the kernel's triple applies; the invariant and
    the core's debts pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel16 c Set.univ _ _ _ _ _ _ _ _ _ _ _ _ _ _ _ (iblk16 V c 0 t) (iblk16 V c 1 t) (iblk16 V c 2 t) (iblk16 V c 3 t) (iblk16 V c 4 t) (iblk16 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Reg
-- ==== Proof.Reg17.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 17 (`cc17_kernel`, pipeline 2): the body half of the frame

The kernel computes `o = x · w + b` on a row block: `x` is a block of 5000 rows of the 100000 × 32 array (one block
per grid point, 20 points), `w` (32 × 128) and `b` (1 × 128) are whole arrays fetched once and resident, and `o` is
the matching 5000 × 128 row block of the result, written back at every point.  This module states, at a parameter
`V` (the TensorCore's buffer contents when the region is entered), each window's block at a grid point, what the
body leaves in the output's staging buffer as a function of the three input blocks, the body's triple, the
pipeline's proof data and the body obligation at every point. -/

-- membership in a rectangle of 5000 rows: the structural check recurses once per coordinate of the long axis
set_option maxRecDepth 65536

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The row block `x` (window 0, fetched at every point): its current staging buffer holds its block at every
    point, for any proof data whose array is `V`'s and whose body leaves the block in place. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The weight `w` (window 1, fetched at the first point only, its block index constant): at a point where it is not
    fetched the buffer still holds the previous point's block, which is this point's. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- The bias `b` (window 2, fetched at the first point only): as for the weight. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses: each memref is read or written whole -/

abbrev r17_0 : Rect S5000x32 := Rect.unit (s := S5000x32) ![0, 0] S5000x32.size inb_S5000x32_S5000x32_0_0
abbrev r17_1 : Rect S32x128 := Rect.unit (s := S32x128) ![0, 0] S32x128.size inb_S32x128_S32x128_0_0
abbrev r17_2 : Rect S1x128 := Rect.unit (s := S1x128) ![0, 0] S1x128.size inb_S1x128_S1x128_0_0
abbrev r17_3 : Rect S5000x128 := Rect.unit (s := S5000x128) ![0, 0] S5000x128.size inb_S5000x128_S5000x128_0_0

/-! ## What the body leaves in the output window's buffer -/

/-- Window 3's staging buffer after the body, from the three input blocks: its one store (the whole buffer) of the
    payload `x · w + b`. -/
def out17_3 (x0 : Vec F S5000x32 .f32) (x1 : Vec F S32x128 .f32) (x2 : Vec F S1x128 .f32) : Vec F S5000x128 .f32 :=
  View.canon [⟨r17_3, k17_pay1 (View.ld x0 r17_0) (View.ld x1 r17_1) (View.ld x2 r17_2)⟩]

/-- The one store's rectangle is the whole buffer, so it covers it. -/
theorem cover17_3 (p0 : Vec F S5000x128 .f32) (y : S5000x128.Idx) :
    ∃ pc ∈ ([⟨r17_3, p0⟩] : List (View.Piece (Elt F) S5000x128 .f32)), y ∈ pc.1.set :=
  View.cover_of_tiled [⟨r17_3, p0⟩] S5000x128.size (by rfl) y

/-! ## The body's triple -/

set_option maxHeartbeats 1000000 in
/-- The kernel body on whole staging memrefs, the inputs' at read contents `x0 x1 x2` and the output's at anything,
    runs to the continuation holding the inputs' as they were and the output's at `out17_3` of the inputs'. -/
theorem sound_kernel17 (c : Dev nD) (E : Set ℕ) (i : grid17.Coords) (arg1 : Memref sig .tc .vmem S5000x32 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out17_3 x0 x1 x2)) -∗ K ⟨⟩))
      ⊢ wp frame (wpE (defs₀ (F := F)) Variants.none c none) E (cc17_kernel i arg1 harg1 arg2 harg2 arg3 harg3 arg4 harg4) K := by
  simp only [cc17_kernel_eq_skeleton]; unfold cc17_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-! ## The pipeline's proof data -/

/-- The proof data of pipeline 2 on core `c`: the arrays as the region finds them (`V`); after the body at point `t`
    each input's buffer at its block and the output's at `out17_3` of the input blocks; the invariant the scoped rest
    and the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = out17_3 (iblk17 V c 0 t) (iblk17 V c 1 t) (iblk17 V c 2 t) := by dsimp only [dat17]

/-- Each input's current staging buffer holds its block at every point, fetched there or not. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body obligation, at a generic point -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

/-- The body at any point: the inputs' memrefs hold their blocks, so the body's triple applies; the invariant and the
    core's obligations pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.KernelIdeal.Reg

end
-- ==== Proof.Reg18.lean ====
/- The edge-update region of one layer, its frame half, at any float model `F`.
   The body reads six windows — the row blocks `ah`, `bh`, `e`, `vh` (4000 × 128 each), the resident weight
   block `chat` (128 × 128) and the resident bias row `cbias` (1 × 128) — and writes three row blocks:
     e_new = ah + bh + (e · chat + cbias),   sigma = logistic e_new,   sigma * vh.
   Stated at a parameter `V`, the core's buffer contents when the region is entered:
   each window's block at a grid point, what the body leaves in each output buffer, the body's triple, the
   pipeline's proof data and its body obligation. -/
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0: at every grid point its current staging buffer holds the window's block there, whether or not
    the block was copied in at that point (when it was not, the block index has not moved since the last copy),
    for any proof data whose array is `V`'s and whose body leaves the block in place. The window is never cut and
    never idle. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1: at every grid point its current staging buffer holds the window's block there, whether or not
    the block was copied in at that point (when it was not, the block index has not moved since the last copy),
    for any proof data whose array is `V`'s and whose body leaves the block in place. The window is never cut and
    never idle. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2: at every grid point its current staging buffer holds the window's block there, whether or not
    the block was copied in at that point (when it was not, the block index has not moved since the last copy),
    for any proof data whose array is `V`'s and whose body leaves the block in place. The window is never cut and
    never idle. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-- Input window 3: at every grid point its current staging buffer holds the window's block there, whether or not
    the block was copied in at that point (when it was not, the block index has not moved since the last copy),
    for any proof data whose array is `V`'s and whose body leaves the block in place. The window is never cut and
    never idle. -/
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

/-- Input window 4: at every grid point its current staging buffer holds the window's block there, whether or not
    the block was copied in at that point (when it was not, the block index has not moved since the last copy),
    for any proof data whose array is `V`'s and whose body leaves the block in place. The window is never cut and
    never idle. -/
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-- Input window 5: at every grid point its current staging buffer holds the window's block there, whether or not
    the block was copied in at that point (when it was not, the block index has not moved since the last copy),
    for any proof data whose array is `V`'s and whose body leaves the block in place. The window is never cut and
    never idle. -/
theorem before18_5_of {c : Dev nD} (dat : Dat τ (Elt F) Unit ℕ (UR sig nD τ) ℕ cfg18 c) (hA : dat.A 5 = V c (Pipeline.arrRef spec18 5))
    (hafter : ∀ t, dat.after 5 t = iblk18 V c 5 t) (t : Fin cfg18.N) (d) : dat.before 5 t d = iblk18 V c 5 t :=
  (dat.before_in_eq_fetched 5 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses: every load and store takes a whole buffer -/

abbrev r18_0 : Rect S4000x128 := Rect.unit (s := S4000x128) ![0, 0] S4000x128.size inb_S4000x128_S4000x128_0_0
abbrev r18_1 : Rect S128x128 := Rect.unit (s := S128x128) ![0, 0] S128x128.size inb_S128x128_S128x128_0_0
abbrev r18_2 : Rect S1x128 := Rect.unit (s := S1x128) ![0, 0] S1x128.size inb_S1x128_S1x128_0_0

/-! ## What the body leaves in each output buffer

`x0 … x5` are the contents of the six input buffers (`ah`, `bh`, `e`, `vh`, `chat`, `cbias`). Each output
buffer is written once, whole. -/

/-- Output window 6 (`e_new`): `ah + bh + (e · chat + cbias)`. -/
def out18_6 (x0 x1 x2 x3 : Vec F S4000x128 .f32) (x4 : Vec F S128x128 .f32) (x5 : Vec F S1x128 .f32) : Vec F S4000x128 .f32 :=
  View.canon [⟨r18_0, k18_pay1 (View.ld x2 r18_0) (View.ld x4 r18_1) (View.ld x5 r18_2) (View.ld x0 r18_0) (View.ld x1 r18_0)⟩]

/-- Output window 7 (`sigma`): the logistic of `e_new`. -/
def out18_7 (x0 x1 x2 x3 : Vec F S4000x128 .f32) (x4 : Vec F S128x128 .f32) (x5 : Vec F S1x128 .f32) : Vec F S4000x128 .f32 :=
  View.canon [⟨r18_0, k18_pay2 (View.ld x2 r18_0) (View.ld x4 r18_1) (View.ld x5 r18_2) (View.ld x0 r18_0) (View.ld x1 r18_0)⟩]

/-- Output window 8: `sigma * vh`. -/
def out18_8 (x0 x1 x2 x3 : Vec F S4000x128 .f32) (x4 : Vec F S128x128 .f32) (x5 : Vec F S1x128 .f32) : Vec F S4000x128 .f32 :=
  View.canon [⟨r18_0, k18_pay3 (View.ld x2 r18_0) (View.ld x4 r18_1) (View.ld x5 r18_2) (View.ld x0 r18_0) (View.ld x1 r18_0) (View.ld x3 r18_0)⟩]

/-- One whole-buffer store covers the buffer. -/
theorem cover18 (p0 : Vec F S4000x128 .f32) (y : S4000x128.Idx) :
    ∃ pc ∈ ([⟨r18_0, p0⟩] : List (View.Piece (Elt F) S4000x128 .f32)), y ∈ pc.1.set :=
  View.cover_of_tiled [⟨r18_0, p0⟩] S4000x128.size (by rfl) y

/-! ## The body's triple -/

set_option maxHeartbeats 1000000 in
/-- The kernel body on whole staging buffers, the six inputs at contents `x0 … x5` and the three outputs at
    anything, runs to a continuation that holds the inputs as they were and each output at `out18_W` of the inputs. -/
theorem sound_kernel18 (c : Dev nD) (E : Set ℕ) (i : grid18.Coords) (arg0 : Memref sig .tc .vmem S4000x128 .f32) (harg0 : arg0.IsWhole) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .f32) (harg6 : arg6.IsWhole) (arg7 : Memref sig .tc .vmem S4000x128 .f32) (harg7 : arg7.IsWhole) (arg8 : Memref sig .tc .vmem S4000x128 .f32) (harg8 : arg8.IsWhole)
    (x0 x1 x2 x3 : Vec F S4000x128 .f32) (x4 : Vec F S128x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out18_6 x0 x1 x2 x3 x4 x5) ∗ owns (c : Thread nD τ) arg7 fullShare (out18_7 x0 x1 x2 x3 x4 x5) ∗ owns (c : Thread nD τ) arg8 fullShare (out18_8 x0 x1 x2 x3 x4 x5)) -∗ K ⟨⟩))
      ⊢ wp frame (wpE (defs₀ (F := F)) Variants.none c none) E (cc18_kernel i arg0 harg0 arg1 harg1 arg2 harg2 arg3 harg3 arg4 harg4 arg5 harg5 arg6 harg6 arg7 harg7 arg8 harg8) K := by
  simp only [cc18_kernel_eq_skeleton]; unfold cc18_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover18 _)
  isplitl [H7]
  · iexists _; isplitr
    swap; · iexact H7
    ipureintro
    exact View.read_writes_eq_canon _ _ _ (cover18 _)
  iexists _; isplitr
  swap; · iexact H8
  ipureintro
  exact View.read_writes_eq_canon _ _ _ (cover18 _)

/-! ## The pipeline's proof data -/

/-- The proof data of this pipeline on core `c`: the arrays as the region finds them; after the body at point `t`
    each input's buffer at its block and each output's at `out18_W` of the six input blocks; the invariant says the
    rest of the core's state is untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => iblk18 V c 5 t
    | ⟨6, _⟩ => out18_6 (iblk18 V c 0 t) (iblk18 V c 1 t) (iblk18 V c 2 t) (iblk18 V c 3 t) (iblk18 V c 4 t) (iblk18 V c 5 t)
    | ⟨7, _⟩ => out18_7 (iblk18 V c 0 t) (iblk18 V c 1 t) (iblk18 V c 2 t) (iblk18 V c 3 t) (iblk18 V c 4 t) (iblk18 V c 5 t)
    | ⟨8, _⟩ => out18_8 (iblk18 V c 0 t) (iblk18 V c 1 t) (iblk18 V c 2 t) (iblk18 V c 3 t) (iblk18 V c 4 t) (iblk18 V c 5 t)
  Φ _ := Pipeline.ΦA spec18 c
  q _ := fullShare
  owed _ := 0

/-- The proof data's arrays are the region-entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = iblk18 V c 5 t := by dsimp only [dat18]
theorem after18_6 (c : Dev nD) (t : Fin cfg18.N) : (dat18 V c).after 6 t = out18_6 (iblk18 V c 0 t) (iblk18 V c 1 t) (iblk18 V c 2 t) (iblk18 V c 3 t) (iblk18 V c 4 t) (iblk18 V c 5 t) := by dsimp only [dat18]
theorem after18_7 (c : Dev nD) (t : Fin cfg18.N) : (dat18 V c).after 7 t = out18_7 (iblk18 V c 0 t) (iblk18 V c 1 t) (iblk18 V c 2 t) (iblk18 V c 3 t) (iblk18 V c 4 t) (iblk18 V c 5 t) := by dsimp only [dat18]
theorem after18_8 (c : Dev nD) (t : Fin cfg18.N) : (dat18 V c).after 8 t = out18_8 (iblk18 V c 0 t) (iblk18 V c 1 t) (iblk18 V c 2 t) (iblk18 V c 3 t) (iblk18 V c 4 t) (iblk18 V c 5 t) := by dsimp only [dat18]

/-- Each input's current staging buffer holds its block at every point. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d
theorem before18_5 (c : Dev nD) (t : Fin cfg18.N) (d) : (dat18 V c).before 5 t d = iblk18 V c 5 t :=
  before18_5_of V (dat18 V c) (A_eq18 V c 5) (after18_5 V c) t d

/-! ## The body obligation, at a generic point -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d))
    ∗ (∃ d, owns (c : Thread nD τ) (st18_6 t) fullShare ((dat18 V c).before 6 t d))
    ∗ (∃ d, owns (c : Thread nD τ) (st18_7 t) fullShare ((dat18 V c).before 7 t d))
    ∗ (∃ d, owns (c : Thread nD τ) (st18_8 t) fullShare ((dat18 V c).before 8 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t)
    ∗ owns (c : Thread nD τ) (st18_6 t) fullShare ((dat18 V c).after 6 t)
    ∗ owns (c : Thread nD τ) (st18_7 t) fullShare ((dat18 V c).after 7 t)
    ∗ owns (c : Thread nD τ) (st18_8 t) fullShare ((dat18 V c).after 8 t))

/-- The body at any point: the inputs' buffers hold their blocks, so the body's triple applies; the invariant and the
    core's owed amounts pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4, before18_5]
  rw [show (dat18 V c).Φ t.succ = (dat18 V c).Φ t.castSucc from rfl,
    show (dat18 V c).owesAt () t.succ = (dat18 V c).owesAt () t.castSucc from rfl,
    after18_0, after18_1, after18_2, after18_3, after18_4, after18_5, after18_6, after18_7, after18_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel18 c Set.univ _ _ _ _ _ _ _ _ _ _ _ _ _ _ _ _ _ _ _ (iblk18 V c 0 t) (iblk18 V c 1 t) (iblk18 V c 2 t) (iblk18 V c 3 t) (iblk18 V c 4 t) (iblk18 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation18 (c : Dev nD) : BodyObligation (dat18 (F := F) V c) (defs₀ (F := F)) Variants.none () Set.univ := fun t => by
  rw [bigSep_W18, bigSep_W18]
  exact sound_body18 V c t

end Cert.KernelIdeal.Reg

end
-- ==== Proof.Reg19.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! The node-update region (custom_call 19): per row block of 5000 rows, the output block is
    `uh + num / (den + eps)` entrywise. This module holds the region's frame half at a parameter `V`,
    the TensorCore's buffer contents when the region is entered: each window's block at a point, the
    output's staging buffer after the body, the body's triple, the pipeline's proof data and its body
    obligation. Generic in the float interpretation `F`. -/

-- membership in a rectangle of 5000 rows: the structural look recurses once per coordinate of the long axis
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- An input window's current staging buffer holds its block at every point, for any proof data whose array is
    `V`'s and whose body leaves the block in place: the window is fetched at every point, uncut and never idle. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)

/-! ## The body's accesses -/

/-- Every load and the one store of the body take the whole 5000 x 128 staging buffer. -/
abbrev r19_0 : Rect S5000x128 := Rect.unit (s := S5000x128) ![0, 0] S5000x128.size inb_S5000x128_S5000x128_0_0

/-! ## What the body leaves in the output window's buffer -/

/-- Window 3's staging buffer after the body, from the three input blocks: its one store as a piece over the
    skeleton's payload `uh + num / (den + eps)`. -/
def out19_3 (x0 x1 x2 : Vec F S5000x128 .f32) : Vec F S5000x128 .f32 :=
  View.canon [⟨r19_0, k19_pay1 (View.ld x0 r19_0) (View.ld x1 r19_0) (View.ld x2 r19_0)⟩]

/-- The store takes the whole buffer, so it covers it. -/
theorem cover19_3 (p0 : Vec F S5000x128 .f32) (y : S5000x128.Idx) :
    ∃ pc ∈ ([⟨r19_0, p0⟩] : List (View.Piece (Elt F) S5000x128 .f32)), y ∈ pc.1.set :=
  View.cover_of_tiled [⟨r19_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out19_3` of the inputs'. -/
theorem sound_kernel19 (c : Dev nD) (E : Set ℕ) (i : grid19.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out19_3 x0 x1 x2)) -∗ K ⟨⟩))
      ⊢ wp frame (wpE (defs₀ (F := F)) Variants.none c none) E (cc19_kernel i arg1 harg1 arg2 harg2 arg3 harg3 arg4 harg4) K := by
  simp only [cc19_kernel_eq_skeleton]; unfold cc19_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover19_3 _)

/-! ## The pipeline's proof data -/

/-- The proof data of pipeline 19 on core `c`: the arrays as the region finds them (`V`); after the body at point
    `t` each input's buffer at its block and the output's at `out19_3` of the input blocks; the invariant is the
    scoped rest and the generator register, untouched; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19_3 (iblk19 V c 0 t) (iblk19 V c 1 t) (iblk19 V c 2 t)
  Φ _ := Pipeline.ΦA spec19 c
  q _ := fullShare
  owed _ := 0

/-- The proof data's arrays are the region-entry contents. -/
theorem A_eq19 (c : Dev nD) (w : Fin cfg19.W) : (dat19 V c).A w = V c (Pipeline.arrRef spec19 w) := by
  dsimp only [dat19]

/-- What the body leaves, window by window. -/
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) :
    (dat19 V c).after 3 t = out19_3 (iblk19 V c 0 t) (iblk19 V c 1 t) (iblk19 V c 2 t) := by dsimp only [dat19]

/-- Each input's current staging buffer holds its block at every point. -/
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d

/-! ## The body obligation, at a generic point -/

/-- What the body is called with at point `t`, the windows one by one, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t))

/-- The body at any point: the inputs' memrefs hold their blocks, so `sound_kernel19` applies; the invariant and
    the core's `owes` pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2]
  rw [show (dat19 V c).Φ t.succ = (dat19 V c).Φ t.castSucc from rfl,
    show (dat19 V c).owesAt () t.succ = (dat19 V c).owesAt () t.castSucc from rfl,
    after19_0, after19_1, after19_2, after19_3]
  iintro ⟨HΦ, Ho, ⟨%d0, H0⟩, ⟨%d1, H1⟩, ⟨%d2, H2⟩, ⟨%d3, H3⟩⟩
  iapply (sound_kernel19 c Set.univ _ _ _ _ _ _ _ _ _ (iblk19 V c 0 t) (iblk19 V c 1 t) (iblk19 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation19 (c : Dev nD) : BodyObligation (dat19 (F := F) V c) (defs₀ (F := F)) Variants.none () Set.univ := fun t => by
  rw [bigSep_W19, bigSep_W19]
  exact sound_body19 V c t

end Cert.KernelIdeal.Reg
-- ==== Proof.Reg20.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 20: the normalise-scale-shift-relu-residual kernel, its frame half

The body reads a value block `x0` and a residual block `x1` (both 5000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's current staging buffer holds its block at every point, fetched there or not, for any proof
    data whose array is `V`'s (`hA`) and whose body leaves the block in place (`hafter`): unfetched, the block
    index has not moved; the window is uncut and never idle. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-- Input window 1's current staging buffer holds its block at every point, fetched there or not, for any proof
    data whose array is `V`'s (`hA`) and whose body leaves the block in place (`hafter`): unfetched, the block
    index has not moved; the window is uncut and never idle. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- Input window 2's current staging buffer holds its block at every point, fetched there or not, for any proof
    data whose array is `V`'s (`hA`) and whose body leaves the block in place (`hafter`): unfetched, the block
    index has not moved; the window is uncut and never idle. -/
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)

/-- Input window 3's current staging buffer holds its block at every point, fetched there or not, for any proof
    data whose array is `V`'s (`hA`) and whose body leaves the block in place (`hafter`): unfetched, the block
    index has not moved; the window is uncut and never idle. -/
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)

/-- Input window 4's current staging buffer holds its block at every point, fetched there or not, for any proof
    data whose array is `V`'s (`hA`) and whose body leaves the block in place (`hafter`): unfetched, the block
    index has not moved; the window is uncut and never idle. -/
theorem before20_4_of {c : Dev nD} (dat : Dat τ (Elt F) Unit ℕ (UR sig nD τ) ℕ cfg20 c) (hA : dat.A 4 = V c (Pipeline.arrRef spec20 4))
    (hafter : ∀ t, dat.after 4 t = iblk20 V c 4 t) (t : Fin cfg20.N) (d) : dat.before 4 t d = iblk20 V c 4 t :=
  (dat.before_in_eq_fetched 4 rfl (fun _ => rfl) (fun _ _ _ => rfl) (fun t => by rw [hafter]; unfold Dat.blockOf iblk20; rw [hA]; try rfl) t d).trans
    (by unfold Dat.fetched Dat.blockOf iblk20; rw [hA]; try rfl)

/-- Input window 5's current staging buffer holds its block at every point, fetched there or not, for any proof
    data whose array is `V`'s (`hA`) and whose body leaves the block in place (`hafter`): unfetched, the block
    index has not moved; the window is uncut and never idle. -/
theorem before20_5_of {c : Dev nD} (dat : Dat τ (Elt F) Unit ℕ (UR sig nD τ) ℕ cfg20 c) (hA : dat.A 5 = V c (Pipeline.arrRef spec20 5))
    (hafter : ∀ t, dat.after 5 t = iblk20 V c 5 t) (t : Fin cfg20.N) (d) : dat.before 5 t d = iblk20 V c 5 t :=
  (dat.before_in_eq_fetched 5 rfl (fun _ => rfl) (fun _ _ _ => rfl) (fun t => by rw [hafter]; unfold Dat.blockOf iblk20; rw [hA]; try rfl) t d).trans
    (by unfold Dat.fetched Dat.blockOf iblk20; rw [hA]; try rfl)

/-! ## The body's accesses -/

/-- The whole 5000×128 block. -/
abbrev r20_0 : Rect S5000x128 := Rect.unit (s := S5000x128) ![0, 0] S5000x128.size inb_S5000x128_S5000x128_0_0
/-- The whole 1×128 row. -/
abbrev r20_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out20_6 (x0 : Vec F S5000x128 .f32) (x1 : Vec F S5000x128 .f32) (x2 : Vec F S1x128 .f32) (x3 : Vec F S1x128 .f32)
    (x4 : Vec F S1x128 .f32) (x5 : Vec F S1x128 .f32) : Vec F S5000x128 .f32 :=
  View.canon [⟨r20_0, k20_pay1 (View.ld x0 r20_0) (View.ld x2 r20_1) (View.ld x3 r20_1) (View.ld x4 r20_1) (View.ld x5 r20_1) (View.ld x1 r20_0)⟩]

/-- The one store is the whole block, so it covers it. -/
theorem cover20_6 (p0 : Vec F S5000x128 .f32) (y : S5000x128.Idx) :
    ∃ pc ∈ ([⟨r20_0, p0⟩] : List (View.Piece (Elt F) S5000x128 .f32)), y ∈ pc.1.set :=
  View.cover_of_tiled [⟨r20_0, p0⟩] S5000x128.size (by rfl) y

/-! ## The body's triple -/

set_option maxHeartbeats 1000000 in
/-- The kernel body on whole staging memrefs, the inputs' at contents `x0 … x5` and the output's at anything, runs to
    the continuation holding the inputs' as they were and the output's at `out20_6` of the inputs'. -/
theorem sound_kernel20 (c : Dev nD) (E : Set ℕ) (i : grid20.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out20_6 x0 x1 x2 x3 x4 x5)) -∗ K ⟨⟩))
      ⊢ wp frame (wpE (defs₀ (F := F)) Variants.none c none) E (cc20_kernel i arg1 harg1 arg2 harg2 arg3 harg3 arg4 harg4 arg5 harg5 arg6 harg6 arg7 harg7) K := by
  simp only [cc20_kernel_eq_skeleton]; unfold cc20_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover20_6 _)

/-! ## The pipeline's proof data -/

/-- The proof data of pipeline 20 on core `c`: the arrays as the region finds them (`V`); after the body at
    point `t` each input's buffer at its block and the output's at `out20_6` of the input blocks; the invariant
    the scoped rest and the generator register, untouched; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => iblk20 V c 5 t
    | ⟨6, _⟩ => out20_6 (iblk20 V c 0 t) (iblk20 V c 1 t) (iblk20 V c 2 t) (iblk20 V c 3 t) (iblk20 V c 4 t) (iblk20 V c 5 t)
  Φ _ := Pipeline.ΦA spec20 c
  q _ := fullShare
  owed _ := 0

/-- The proof data's arrays are the region-entry contents. -/
theorem A_eq20 (c : Dev nD) (w : Fin cfg20.W) : (dat20 V c).A w = V c (Pipeline.arrRef spec20 w) := by
  dsimp only [dat20]

/-- What the body leaves, window by window. -/
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) : (dat20 V c).after 5 t = iblk20 V c 5 t := by dsimp only [dat20]
theorem after20_6 (c : Dev nD) (t : Fin cfg20.N) : (dat20 V c).after 6 t = out20_6 (iblk20 V c 0 t) (iblk20 V c 1 t) (iblk20 V c 2 t) (iblk20 V c 3 t) (iblk20 V c 4 t) (iblk20 V c 5 t) := by dsimp only [dat20]

/-- Each input's current staging buffer holds its block at every point, fetched there or not. -/
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d
theorem before20_4 (c : Dev nD) (t : Fin cfg20.N) (d) : (dat20 V c).before 4 t d = iblk20 V c 4 t :=
  before20_4_of V (dat20 V c) (A_eq20 V c 4) (after20_4 V c) t d
theorem before20_5 (c : Dev nD) (t : Fin cfg20.N) (d) : (dat20 V c).before 5 t d = iblk20 V c 5 t :=
  before20_5_of V (dat20 V c) (A_eq20 V c 5) (after20_5 V c) t d

/-! ## The body obligation, at a generic point -/

/-- What the body is called with at point `t`, the windows one by one, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d))
    ∗ (∃ d, owns (c : Thread nD τ) (st20_6 t) fullShare ((dat20 V c).before 6 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t)
    ∗ owns (c : Thread nD τ) (st20_6 t) fullShare ((dat20 V c).after 6 t))

/-- The body at any point: the inputs' memrefs hold their blocks, so the kernel's triple applies; the invariant and
    the core's debts pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4, before20_5]
  rw [show (dat20 V c).Φ t.succ = (dat20 V c).Φ t.castSucc from rfl,
    show (dat20 V c).owesAt () t.succ = (dat20 V c).owesAt () t.castSucc from rfl,
    after20_0, after20_1, after20_2, after20_3, after20_4, after20_5, after20_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel20 c Set.univ _ _ _ _ _ _ _ _ _ _ _ _ _ _ _ (iblk20 V c 0 t) (iblk20 V c 1 t) (iblk20 V c 2 t) (iblk20 V c 3 t) (iblk20 V c 4 t) (iblk20 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation20 (c : Dev nD) : BodyObligation (dat20 (F := F) V c) (defs₀ (F := F)) Variants.none () Set.univ := fun t => by
  rw [bigSep_W20, bigSep_W20]
  exact sound_body20 V c t

end Cert.KernelIdeal.Reg
-- ==== Proof.Reg21.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 21: the normalise-scale-shift-relu-residual kernel, its frame half

The body reads a value block `x0` and a residual block `x1` (both 4000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Input window 0's current staging buffer holds its block at every point, fetched there or not, for any proof
    data whose array is `V`'s (`hA`) and whose body leaves the block in place (`hafter`): unfetched, the block
    index has not moved; the window is uncut and never idle. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

/-- Input window 1's current staging buffer holds its block at every point, fetched there or not, for any proof
    data whose array is `V`'s (`hA`) and whose body leaves the block in place (`hafter`): unfetched, the block
    index has not moved; the window is uncut and never idle. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-- Input window 2's current staging buffer holds its block at every point, fetched there or not, for any proof
    data whose array is `V`'s (`hA`) and whose body leaves the block in place (`hafter`): unfetched, the block
    index has not moved; the window is uncut and never idle. -/
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)

/-- Input window 3's current staging buffer holds its block at every point, fetched there or not, for any proof
    data whose array is `V`'s (`hA`) and whose body leaves the block in place (`hafter`): unfetched, the block
    index has not moved; the window is uncut and never idle. -/
theorem before21_3_of {c : Dev nD} (dat : Dat τ (Elt F) Unit ℕ (UR sig nD τ) ℕ cfg21 c) (hA : dat.A 3 = V c (Pipeline.arrRef spec21 3))
    (hafter : ∀ t, dat.after 3 t = iblk21 V c 3 t) (t : Fin cfg21.N) (d) : dat.before 3 t d = iblk21 V c 3 t :=
  (dat.before_in_eq_fetched 3 rfl (fun _ => rfl) (fun _ _ _ => rfl) (fun t => by rw [hafter]; unfold Dat.blockOf iblk21; rw [hA]; try rfl) t d).trans
    (by unfold Dat.fetched Dat.blockOf iblk21; rw [hA]; try rfl)

/-- Input window 4's current staging buffer holds its block at every point, fetched there or not, for any proof
    data whose array is `V`'s (`hA`) and whose body leaves the block in place (`hafter`): unfetched, the block
    index has not moved; the window is uncut and never idle. -/
theorem before21_4_of {c : Dev nD} (dat : Dat τ (Elt F) Unit ℕ (UR sig nD τ) ℕ cfg21 c) (hA : dat.A 4 = V c (Pipeline.arrRef spec21 4))
    (hafter : ∀ t, dat.after 4 t = iblk21 V c 4 t) (t : Fin cfg21.N) (d) : dat.before 4 t d = iblk21 V c 4 t :=
  (dat.before_in_eq_fetched 4 rfl (fun _ => rfl) (fun _ _ _ => rfl) (fun t => by rw [hafter]; unfold Dat.blockOf iblk21; rw [hA]; try rfl) t d).trans
    (by unfold Dat.fetched Dat.blockOf iblk21; rw [hA]; try rfl)

/-- Input window 5's current staging buffer holds its block at every point, fetched there or not, for any proof
    data whose array is `V`'s (`hA`) and whose body leaves the block in place (`hafter`): unfetched, the block
    index has not moved; the window is uncut and never idle. -/
theorem before21_5_of {c : Dev nD} (dat : Dat τ (Elt F) Unit ℕ (UR sig nD τ) ℕ cfg21 c) (hA : dat.A 5 = V c (Pipeline.arrRef spec21 5))
    (hafter : ∀ t, dat.after 5 t = iblk21 V c 5 t) (t : Fin cfg21.N) (d) : dat.before 5 t d = iblk21 V c 5 t :=
  (dat.before_in_eq_fetched 5 rfl (fun _ => rfl) (fun _ _ _ => rfl) (fun t => by rw [hafter]; unfold Dat.blockOf iblk21; rw [hA]; try rfl) t d).trans
    (by unfold Dat.fetched Dat.blockOf iblk21; rw [hA]; try rfl)

/-! ## The body's accesses -/

/-- The whole 4000×128 block. -/
abbrev r21_0 : Rect S4000x128 := Rect.unit (s := S4000x128) ![0, 0] S4000x128.size inb_S4000x128_S4000x128_0_0
/-- The whole 1×128 row. -/
abbrev r21_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out21_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r21_0, k21_pay1 (View.ld x0 r21_0) (View.ld x2 r21_1) (View.ld x3 r21_1) (View.ld x4 r21_1) (View.ld x5 r21_1) (View.ld x1 r21_0)⟩]

/-- The one store is the whole block, so it covers it. -/
theorem cover21_6 (p0 : Vec F S4000x128 .f32) (y : S4000x128.Idx) :
    ∃ pc ∈ ([⟨r21_0, p0⟩] : List (View.Piece (Elt F) S4000x128 .f32)), y ∈ pc.1.set :=
  View.cover_of_tiled [⟨r21_0, p0⟩] S4000x128.size (by rfl) y

/-! ## The body's triple -/

set_option maxHeartbeats 1000000 in
/-- The kernel body on whole staging memrefs, the inputs' at contents `x0 … x5` and the output's at anything, runs to
    the continuation holding the inputs' as they were and the output's at `out21_6` of the inputs'. -/
theorem sound_kernel21 (c : Dev nD) (E : Set ℕ) (i : grid21.Coords) (arg1 : Memref sig .tc .vmem S4000x128 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out21_6 x0 x1 x2 x3 x4 x5)) -∗ K ⟨⟩))
      ⊢ wp frame (wpE (defs₀ (F := F)) Variants.none c none) E (cc21_kernel i arg1 harg1 arg2 harg2 arg3 harg3 arg4 harg4 arg5 harg5 arg6 harg6 arg7 harg7) K := by
  simp only [cc21_kernel_eq_skeleton]; unfold cc21_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover21_6 _)

/-! ## The pipeline's proof data -/

/-- The proof data of pipeline 21 on core `c`: the arrays as the region finds them (`V`); after the body at
    point `t` each input's buffer at its block and the output's at `out21_6` of the input blocks; the invariant
    the scoped rest and the generator register, untouched; nothing owed; full shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => iblk21 V c 4 t
    | ⟨5, _⟩ => iblk21 V c 5 t
    | ⟨6, _⟩ => out21_6 (iblk21 V c 0 t) (iblk21 V c 1 t) (iblk21 V c 2 t) (iblk21 V c 3 t) (iblk21 V c 4 t) (iblk21 V c 5 t)
  Φ _ := Pipeline.ΦA spec21 c
  q _ := fullShare
  owed _ := 0

/-- The proof data's arrays are the region-entry contents. -/
theorem A_eq21 (c : Dev nD) (w : Fin cfg21.W) : (dat21 V c).A w = V c (Pipeline.arrRef spec21 w) := by
  dsimp only [dat21]

/-- What the body leaves, window by window. -/
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = iblk21 V c 3 t := by dsimp only [dat21]
theorem after21_4 (c : Dev nD) (t : Fin cfg21.N) : (dat21 V c).after 4 t = iblk21 V c 4 t := by dsimp only [dat21]
theorem after21_5 (c : Dev nD) (t : Fin cfg21.N) : (dat21 V c).after 5 t = iblk21 V c 5 t := by dsimp only [dat21]
theorem after21_6 (c : Dev nD) (t : Fin cfg21.N) : (dat21 V c).after 6 t = out21_6 (iblk21 V c 0 t) (iblk21 V c 1 t) (iblk21 V c 2 t) (iblk21 V c 3 t) (iblk21 V c 4 t) (iblk21 V c 5 t) := by dsimp only [dat21]

/-- Each input's current staging buffer holds its block at every point, fetched there or not. -/
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d
theorem before21_3 (c : Dev nD) (t : Fin cfg21.N) (d) : (dat21 V c).before 3 t d = iblk21 V c 3 t :=
  before21_3_of V (dat21 V c) (A_eq21 V c 3) (after21_3 V c) t d
theorem before21_4 (c : Dev nD) (t : Fin cfg21.N) (d) : (dat21 V c).before 4 t d = iblk21 V c 4 t :=
  before21_4_of V (dat21 V c) (A_eq21 V c 4) (after21_4 V c) t d
theorem before21_5 (c : Dev nD) (t : Fin cfg21.N) (d) : (dat21 V c).before 5 t d = iblk21 V c 5 t :=
  before21_5_of V (dat21 V c) (A_eq21 V c 5) (after21_5 V c) t d

/-! ## The body obligation, at a generic point -/

/-- What the body is called with at point `t`, the windows one by one, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d))
    ∗ (∃ d, owns (c : Thread nD τ) (st21_4 t) fullShare ((dat21 V c).before 4 t d))
    ∗ (∃ d, owns (c : Thread nD τ) (st21_5 t) fullShare ((dat21 V c).before 5 t d))
    ∗ (∃ d, owns (c : Thread nD τ) (st21_6 t) fullShare ((dat21 V c).before 6 t d)))

/-- and what it returns. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t)
    ∗ owns (c : Thread nD τ) (st21_4 t) fullShare ((dat21 V c).after 4 t)
    ∗ owns (c : Thread nD τ) (st21_5 t) fullShare ((dat21 V c).after 5 t)
    ∗ owns (c : Thread nD τ) (st21_6 t) fullShare ((dat21 V c).after 6 t))

/-- The body at any point: the inputs' memrefs hold their blocks, so the kernel's triple applies; the invariant and
    the core's debts pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2, before21_3, before21_4, before21_5]
  rw [show (dat21 V c).Φ t.succ = (dat21 V c).Φ t.castSucc from rfl,
    show (dat21 V c).owesAt () t.succ = (dat21 V c).owesAt () t.castSucc from rfl,
    after21_0, after21_1, after21_2, after21_3, after21_4, after21_5, after21_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel21 c Set.univ _ _ _ _ _ _ _ _ _ _ _ _ _ _ _ (iblk21 V c 0 t) (iblk21 V c 1 t) (iblk21 V c 2 t) (iblk21 V c 3 t) (iblk21 V c 4 t) (iblk21 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation21 (c : Dev nD) : BodyObligation (dat21 (F := F) V c) (defs₀ (F := F)) Variants.none () Set.univ := fun t => by
  rw [bigSep_W21, bigSep_W21]
  exact sound_body21 V c t

end Cert.KernelIdeal.Reg
-- ==== Proof.Reg22.lean ====
import proofs.«425355_j88287347737110_2_alg».proof.Proof.Gen.KernelIdeal.Launch
import proofs.«425355_j88287347737110_2_alg».proof.Proof.Gen.KernelIdeal.Skeleton
import proofs.«425355_j88287347737110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # The edge-score region (pipeline 22): its frame half

At a parameter `V`, the core's buffer contents when the region is entered: each window's block at a grid point, what
the body leaves in the one output window's staging buffer, the body's triple, the pipeline's proof data and the body
obligation at every point. The body reads three row blocks `[5000,32]` and six resident blocks (three `[32,32]`
matrices, a `[1,32]` row, a `[32,1]` column, a `[1,1]` scalar) and stores one `[5000,1]` column:
`relu(hs·W₁ˢ + hd·W₁ᵈ + e·W₁ᵉ + b₁)·w₂ + b₂`. -/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0's current staging buffer holds its block at every point, whether or not it was fetched there,
    for any proof data whose array is `V`'s and whose body leaves the block in place: where no fetch happened the block
    index has not moved. The window is uncut and never idle. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)

/-- Input window 1's current staging buffer holds its block at every point, whether or not it was fetched there,
    for any proof data whose array is `V`'s and whose body leaves the block in place: where no fetch happened the block
    index has not moved. The window is uncut and never idle. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

/-- Input window 2's current staging buffer holds its block at every point, whether or not it was fetched there,
    for any proof data whose array is `V`'s and whose body leaves the block in place: where no fetch happened the block
    index has not moved. The window is uncut and never idle. -/
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)

/-- Input window 3's current staging buffer holds its block at every point, whether or not it was fetched there,
    for any proof data whose array is `V`'s and whose body leaves the block in place: where no fetch happened the block
    index has not moved. The window is uncut and never idle. -/
theorem before22_3_of {c : Dev nD} (dat : Dat τ (Elt F) Unit ℕ (UR sig nD τ) ℕ cfg22 c) (hA : dat.A 3 = V c (Pipeline.arrRef spec22 3))
    (hafter : ∀ t, dat.after 3 t = iblk22 V c 3 t) (t : Fin cfg22.N) (d) : dat.before 3 t d = iblk22 V c 3 t :=
  (dat.before_in_eq_fetched 3 rfl (fun _ => rfl) (fun _ _ _ => rfl) (fun t => by rw [hafter]; unfold Dat.blockOf iblk22; rw [hA]; try rfl) t d).trans
    (by unfold Dat.fetched Dat.blockOf iblk22; rw [hA]; try rfl)

/-- Input window 4's current staging buffer holds its block at every point, whether or not it was fetched there,
    for any proof data whose array is `V`'s and whose body leaves the block in place: where no fetch happened the block
    index has not moved. The window is uncut and never idle. -/
theorem before22_4_of {c : Dev nD} (dat : Dat τ (Elt F) Unit ℕ (UR sig nD τ) ℕ cfg22 c) (hA : dat.A 4 = V c (Pipeline.arrRef spec22 4))
    (hafter : ∀ t, dat.after 4 t = iblk22 V c 4 t) (t : Fin cfg22.N) (d) : dat.before 4 t d = iblk22 V c 4 t :=
  (dat.before_in_eq_fetched 4 rfl (fun _ => rfl) (fun _ _ _ => rfl) (fun t => by rw [hafter]; unfold Dat.blockOf iblk22; rw [hA]; try rfl) t d).trans
    (by unfold Dat.fetched Dat.blockOf iblk22; rw [hA]; try rfl)

/-- Input window 5's current staging buffer holds its block at every point, whether or not it was fetched there,
    for any proof data whose array is `V`'s and whose body leaves the block in place: where no fetch happened the block
    index has not moved. The window is uncut and never idle. -/
theorem before22_5_of {c : Dev nD} (dat : Dat τ (Elt F) Unit ℕ (UR sig nD τ) ℕ cfg22 c) (hA : dat.A 5 = V c (Pipeline.arrRef spec22 5))
    (hafter : ∀ t, dat.after 5 t = iblk22 V c 5 t) (t : Fin cfg22.N) (d) : dat.before 5 t d = iblk22 V c 5 t :=
  (dat.before_in_eq_fetched 5 rfl (fun _ => rfl) (fun _ _ _ => rfl) (fun t => by rw [hafter]; unfold Dat.blockOf iblk22; rw [hA]; try rfl) t d).trans
    (by unfold Dat.fetched Dat.blockOf iblk22; rw [hA]; try rfl)

/-- Input window 6's current staging buffer holds its block at every point, whether or not it was fetched there,
    for any proof data whose array is `V`'s and whose body leaves the block in place: where no fetch happened the block
    index has not moved. The window is uncut and never idle. -/
theorem before22_6_of {c : Dev nD} (dat : Dat τ (Elt F) Unit ℕ (UR sig nD τ) ℕ cfg22 c) (hA : dat.A 6 = V c (Pipeline.arrRef spec22 6))
    (hafter : ∀ t, dat.after 6 t = iblk22 V c 6 t) (t : Fin cfg22.N) (d) : dat.before 6 t d = iblk22 V c 6 t :=
  (dat.before_in_eq_fetched 6 rfl (fun _ => rfl) (fun _ _ _ => rfl) (fun t => by rw [hafter]; unfold Dat.blockOf iblk22; rw [hA]; try rfl) t d).trans
    (by unfold Dat.fetched Dat.blockOf iblk22; rw [hA]; try rfl)

/-- Input window 7's current staging buffer holds its block at every point, whether or not it was fetched there,
    for any proof data whose array is `V`'s and whose body leaves the block in place: where no fetch happened the block
    index has not moved. The window is uncut and never idle. -/
theorem before22_7_of {c : Dev nD} (dat : Dat τ (Elt F) Unit ℕ (UR sig nD τ) ℕ cfg22 c) (hA : dat.A 7 = V c (Pipeline.arrRef spec22 7))
    (hafter : ∀ t, dat.after 7 t = iblk22 V c 7 t) (t : Fin cfg22.N) (d) : dat.before 7 t d = iblk22 V c 7 t :=
  (dat.before_in_eq_fetched 7 rfl (fun _ => rfl) (fun _ _ _ => rfl) (fun t => by rw [hafter]; unfold Dat.blockOf iblk22; rw [hA]; try rfl) t d).trans
    (by unfold Dat.fetched Dat.blockOf iblk22; rw [hA]; try rfl)

/-- Input window 8's current staging buffer holds its block at every point, whether or not it was fetched there,
    for any proof data whose array is `V`'s and whose body leaves the block in place: where no fetch happened the block
    index has not moved. The window is uncut and never idle. -/
theorem before22_8_of {c : Dev nD} (dat : Dat τ (Elt F) Unit ℕ (UR sig nD τ) ℕ cfg22 c) (hA : dat.A 8 = V c (Pipeline.arrRef spec22 8))
    (hafter : ∀ t, dat.after 8 t = iblk22 V c 8 t) (t : Fin cfg22.N) (d) : dat.before 8 t d = iblk22 V c 8 t :=
  (dat.before_in_eq_fetched 8 rfl (fun _ => rfl) (fun _ _ _ => rfl) (fun t => by rw [hafter]; unfold Dat.blockOf iblk22; rw [hA]; try rfl) t d).trans
    (by unfold Dat.fetched Dat.blockOf iblk22; rw [hA]; try rfl)

/-! ## The body's accesses: every load and the store take a whole staging buffer -/

abbrev r22_0 : Rect S5000x32 := Rect.unit (s := S5000x32) ![0, 0] S5000x32.size inb_S5000x32_S5000x32_0_0
abbrev r22_1 : Rect S32x32 := Rect.unit (s := S32x32) ![0, 0] S32x32.size inb_S32x32_S32x32_0_0
abbrev r22_2 : Rect S1x32 := Rect.unit (s := S1x32) ![0, 0] S1x32.size inb_S1x32_S1x32_0_0
abbrev r22_3 : Rect S32x1 := Rect.unit (s := S32x1) ![0, 0] S32x1.size inb_S32x1_S32x1_0_0
abbrev r22_4 : Rect S1x1 := Rect.unit (s := S1x1) ![0, 0] S1x1.size inb_S1x1_S1x1_0_0
abbrev r22_5 : Rect S5000x1 := Rect.unit (s := S5000x1) ![0, 0] S5000x1.size inb_S5000x1_S5000x1_0_0

/-! ## What the body leaves in the output window's buffer -/

/-- Window 9's staging buffer after the body, from the input windows' blocks: its one store, of the second product
    plus the broadcast scalar bias, over the whole buffer. -/
def out22_9 (x0 : Vec F S5000x32 .f32) (x1 : Vec F S5000x32 .f32) (x2 : Vec F S5000x32 .f32) (x3 : Vec F S32x32 .f32) (x4 : Vec F S32x32 .f32) (x5 : Vec F S32x32 .f32) (x6 : Vec F S1x32 .f32) (x7 : Vec F S32x1 .f32) (x8 : Vec F S1x1 .f32) : Vec F S5000x1 .f32 :=
  View.canon [⟨r22_5, k22_pay1 (k22_pay2 (View.ld x0 r22_0) (View.ld x1 r22_0) (View.ld x2 r22_0) (View.ld x3 r22_1) (View.ld x4 r22_1) (View.ld x5 r22_1) (View.ld x6 r22_2) (View.ld x7 r22_3)) (k22_pay3 (View.ld x8 r22_4))⟩]

/-- The one store is the whole buffer, so it covers it. -/
theorem cover22_9 (p0 : Vec F S5000x1 .f32) (y : S5000x1.Idx) :
    ∃ pc ∈ ([⟨r22_5, p0⟩] : List (View.Piece (Elt F) S5000x1 .f32)), y ∈ pc.1.set :=
  View.cover_of_tiled [⟨r22_5, p0⟩] S5000x1.size (by rfl) y

/-! ## The body's triple -/

set_option maxHeartbeats 1000000 in
/-- The kernel body on whole staging memrefs, the inputs' at read contents `xW` and the output's at anything, runs to
    the continuation holding the inputs' as they were and the output's at `out22_9` of the inputs': the printed
    functions are their skeletons of memory operations, run one operation at a time through the part call. The body
    also loads the output buffer before storing it; that value is dropped. -/
theorem sound_kernel22 (c : Dev nD) (E : Set ℕ) (i : grid22.Coords) (arg1 : Memref sig .tc .vmem S5000x32 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S5000x1 .f32) (harg10 : arg10.IsWhole)
    (x0 : Vec F S5000x32 .f32) (x1 : Vec F S5000x32 .f32) (x2 : Vec F S5000x32 .f32) (x3 : Vec F S32x32 .f32) (x4 : Vec F S32x32 .f32) (x5 : Vec F S32x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out22_9 x0 x1 x2 x3 x4 x5 x6 x7 x8)) -∗ K ⟨⟩))
      ⊢ wp frame (wpE (defs₀ (F := F)) Variants.none c none) E (cc22_kernel i arg1 harg1 arg2 harg2 arg3 harg3 arg4 harg4 arg5 harg5 arg6 harg6 arg7 harg7 arg8 harg8 arg9 harg9 arg10 harg10) K := by
  simp only [cc22_kernel_eq_skeleton]; unfold cc22_kernel_skel
  simp only [k22_part1_eq_skeleton]; unfold k22_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover22_9 _)

/-! ## The pipeline's proof data -/

/-- The proof data of pipeline 22 on core `c`: the arrays as the region finds them (`V`); after the body at point `t`
    each input's buffer at its block and the output's at `out22_9` of the input blocks; the invariant that leaves the
    scoped rest and the generator register untouched; nothing owed; full shares. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => iblk22 V c 3 t
    | ⟨4, _⟩ => iblk22 V c 4 t
    | ⟨5, _⟩ => iblk22 V c 5 t
    | ⟨6, _⟩ => iblk22 V c 6 t
    | ⟨7, _⟩ => iblk22 V c 7 t
    | ⟨8, _⟩ => iblk22 V c 8 t
    | ⟨9, _⟩ => out22_9 (iblk22 V c 0 t) (iblk22 V c 1 t) (iblk22 V c 2 t) (iblk22 V c 3 t) (iblk22 V c 4 t) (iblk22 V c 5 t) (iblk22 V c 6 t) (iblk22 V c 7 t) (iblk22 V c 8 t)
  Φ _ := Pipeline.ΦA spec22 c
  q _ := fullShare
  owed _ := 0

/-- The proof data's arrays are the region-entry contents. -/
theorem A_eq22 (c : Dev nD) (w : Fin cfg22.W) : (dat22 V c).A w = V c (Pipeline.arrRef spec22 w) := by
  dsimp only [dat22]

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = iblk22 V c 3 t := by dsimp only [dat22]
theorem after22_4 (c : Dev nD) (t : Fin cfg22.N) : (dat22 V c).after 4 t = iblk22 V c 4 t := by dsimp only [dat22]
theorem after22_5 (c : Dev nD) (t : Fin cfg22.N) : (dat22 V c).after 5 t = iblk22 V c 5 t := by dsimp only [dat22]
theorem after22_6 (c : Dev nD) (t : Fin cfg22.N) : (dat22 V c).after 6 t = iblk22 V c 6 t := by dsimp only [dat22]
theorem after22_7 (c : Dev nD) (t : Fin cfg22.N) : (dat22 V c).after 7 t = iblk22 V c 7 t := by dsimp only [dat22]
theorem after22_8 (c : Dev nD) (t : Fin cfg22.N) : (dat22 V c).after 8 t = iblk22 V c 8 t := by dsimp only [dat22]
theorem after22_9 (c : Dev nD) (t : Fin cfg22.N) : (dat22 V c).after 9 t = out22_9 (iblk22 V c 0 t) (iblk22 V c 1 t) (iblk22 V c 2 t) (iblk22 V c 3 t) (iblk22 V c 4 t) (iblk22 V c 5 t) (iblk22 V c 6 t) (iblk22 V c 7 t) (iblk22 V c 8 t) := by dsimp only [dat22]

/-- Each input's current staging buffer holds its block at every point, fetched there or not. -/
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d
theorem before22_3 (c : Dev nD) (t : Fin cfg22.N) (d) : (dat22 V c).before 3 t d = iblk22 V c 3 t :=
  before22_3_of V (dat22 V c) (A_eq22 V c 3) (after22_3 V c) t d
theorem before22_4 (c : Dev nD) (t : Fin cfg22.N) (d) : (dat22 V c).before 4 t d = iblk22 V c 4 t :=
  before22_4_of V (dat22 V c) (A_eq22 V c 4) (after22_4 V c) t d
theorem before22_5 (c : Dev nD) (t : Fin cfg22.N) (d) : (dat22 V c).before 5 t d = iblk22 V c 5 t :=
  before22_5_of V (dat22 V c) (A_eq22 V c 5) (after22_5 V c) t d
theorem before22_6 (c : Dev nD) (t : Fin cfg22.N) (d) : (dat22 V c).before 6 t d = iblk22 V c 6 t :=
  before22_6_of V (dat22 V c) (A_eq22 V c 6) (after22_6 V c) t d
theorem before22_7 (c : Dev nD) (t : Fin cfg22.N) (d) : (dat22 V c).before 7 t d = iblk22 V c 7 t :=
  before22_7_of V (dat22 V c) (A_eq22 V c 7) (after22_7 V c) t d
theorem before22_8 (c : Dev nD) (t : Fin cfg22.N) (d) : (dat22 V c).before 8 t d = iblk22 V c 8 t :=
  before22_8_of V (dat22 V c) (A_eq22 V c 8) (after22_8 V c) t d

/-! ## The body obligation, at a generic point -/

/-- What the body is called with at point `t`, the windows one by one, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d))
    ∗ (∃ d, owns (c : Thread nD τ) (st22_4 t) fullShare ((dat22 V c).before 4 t d))
    ∗ (∃ d, owns (c : Thread nD τ) (st22_5 t) fullShare ((dat22 V c).before 5 t d))
    ∗ (∃ d, owns (c : Thread nD τ) (st22_6 t) fullShare ((dat22 V c).before 6 t d))
    ∗ (∃ d, owns (c : Thread nD τ) (st22_7 t) fullShare ((dat22 V c).before 7 t d))
    ∗ (∃ d, owns (c : Thread nD τ) (st22_8 t) fullShare ((dat22 V c).before 8 t d))
    ∗ (∃ d, owns (c : Thread nD τ) (st22_9 t) fullShare ((dat22 V c).before 9 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t)
    ∗ owns (c : Thread nD τ) (st22_4 t) fullShare ((dat22 V c).after 4 t)
    ∗ owns (c : Thread nD τ) (st22_5 t) fullShare ((dat22 V c).after 5 t)
    ∗ owns (c : Thread nD τ) (st22_6 t) fullShare ((dat22 V c).after 6 t)
    ∗ owns (c : Thread nD τ) (st22_7 t) fullShare ((dat22 V c).after 7 t)
    ∗ owns (c : Thread nD τ) (st22_8 t) fullShare ((dat22 V c).after 8 t)
    ∗ owns (c : Thread nD τ) (st22_9 t) fullShare ((dat22 V c).after 9 t))

/-- The body at any point: the inputs' memrefs hold their blocks, so the kernel's triple applies; the invariant and the
    core's `owes` pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2, before22_3, before22_4, before22_5, before22_6, before22_7, before22_8]
  rw [show (dat22 V c).Φ t.succ = (dat22 V c).Φ t.castSucc from rfl,
    show (dat22 V c).owesAt () t.succ = (dat22 V c).owesAt () t.castSucc from rfl,
    after22_0, after22_1, after22_2, after22_3, after22_4, after22_5, after22_6, after22_7, after22_8, after22_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel22 c Set.univ _ _ _ _ _ _ _ _ _ _ _ _ _ _ _ _ _ _ _ _ _ (iblk22 V c 0 t) (iblk22 V c 1 t) (iblk22 V c 2 t) (iblk22 V c 3 t) (iblk22 V c 4 t) (iblk22 V c 5 t) (iblk22 V c 6 t) (iblk22 V c 7 t) (iblk22 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation22 (c : Dev nD) : BodyObligation (dat22 (F := F) V c) (defs₀ (F := F)) Variants.none () Set.univ := fun t => by
  rw [bigSep_W22, bigSep_W22]
  exact sound_body22 V c t

end Cert.KernelIdeal.Reg

end
-- ==== Proof.KFold.lean ====
/- The buffer contents of core c at each boundary of @main's items: a host stretch applies its operations' fold; a kernel
   region replaces each of its output arrays by what its write-backs leave and keeps every other buffer. -/
import proofs.«425355_j88287347737110_2_alg».proof.Proof.GRegions
import proofs.«425355_j88287347737110_2_alg».proof.Proof.Reg0
import proofs.«425355_j88287347737110_2_alg».proof.Proof.Reg1
import proofs.«425355_j88287347737110_2_alg».proof.Proof.Reg2
import proofs.«425355_j88287347737110_2_alg».proof.Proof.Reg3
import proofs.«425355_j88287347737110_2_alg».proof.Proof.Reg4
import proofs.«425355_j88287347737110_2_alg».proof.Proof.Reg5
import proofs.«425355_j88287347737110_2_alg».proof.Proof.Reg6
import proofs.«425355_j88287347737110_2_alg».proof.Proof.Reg7
import proofs.«425355_j88287347737110_2_alg».proof.Proof.Reg8
import proofs.«425355_j88287347737110_2_alg».proof.Proof.Reg9
import proofs.«425355_j88287347737110_2_alg».proof.Proof.Reg10
import proofs.«425355_j88287347737110_2_alg».proof.Proof.Reg11
import proofs.«425355_j88287347737110_2_alg».proof.Proof.Reg12
import proofs.«425355_j88287347737110_2_alg».proof.Proof.Reg13
import proofs.«425355_j88287347737110_2_alg».proof.Proof.Reg14
import proofs.«425355_j88287347737110_2_alg».proof.Proof.Reg15
import proofs.«425355_j88287347737110_2_alg».proof.Proof.Reg16
import proofs.«425355_j88287347737110_2_alg».proof.Proof.Reg17
import proofs.«425355_j88287347737110_2_alg».proof.Proof.Reg18
import proofs.«425355_j88287347737110_2_alg».proof.Proof.Reg19
import proofs.«425355_j88287347737110_2_alg».proof.Proof.Reg20
import proofs.«425355_j88287347737110_2_alg».proof.Proof.Reg21
import proofs.«425355_j88287347737110_2_alg».proof.Proof.Reg22
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's unscoped buffers at launch. -/
abbrev W0 (c : Dev nD) : Valuation τ sig (Elt F) := fun b => m (c, b)
/-- After the host stretch hostOps0. -/
abbrev W1 (c : Dev nD) : Valuation τ sig (Elt F) := StableHlo.after hostOps0 (W0 m c)
/-- The contents region 0 is entered from, read at the TensorCore's references. -/
abbrev T1 : (c : Dev nD) → (b : Ref sig .tc) → Buf (Elt F) ((c : Thread nD τ).loc b) := fun c b => W1 m c b
/-- At region 0's exit: each output array at what the pipeline's write-backs leave, every other buffer as entered. -/
def W2 (c : Dev nD) : Valuation τ sig (Elt F) :=
  Function.update (W1 m c) main_v5 ((Reg.dat0 (T1 m) c).arrAt 3 cfg0.N)
abbrev T2 : (c : Dev nD) → (b : Ref sig .tc) → Buf (Elt F) ((c : Thread nD τ).loc b) := fun c b => W2 m c b
theorem W2_of_ne (c : Dev nD) (b : Ref sig .tc) (h0 : b ≠ main_v5) : W2 m c b = W1 m c b := by
  unfold W2
  rw [Function.update_of_ne (StableHlo.devRef_ne_of_ne h0)]
theorem W2_at0 (c : Dev nD) : W2 m c main_v5 = (Reg.dat0 (T1 m) c).arrAt 3 cfg0.N := by
  unfold W2
  rw [Function.update_self]
/-- After the host stretch hostOps1. -/
abbrev W3 (c : Dev nD) : Valuation τ sig (Elt F) := StableHlo.after hostOps1 (W2 m c)
/-- The contents region 1 is entered from, read at the TensorCore's references. -/
abbrev T3 : (c : Dev nD) → (b : Ref sig .tc) → Buf (Elt F) ((c : Thread nD τ).loc b) := fun c b => W3 m c b
/-- At region 1's exit: each output array at what the pipeline's write-backs leave, every other buffer as entered. -/
def W4 (c : Dev nD) : Valuation τ sig (Elt F) :=
  Function.update (W3 m c) main_v7 ((Reg.dat1 (T3 m) c).arrAt 3 cfg1.N)
abbrev T4 : (c : Dev nD) → (b : Ref sig .tc) → Buf (Elt F) ((c : Thread nD τ).loc b) := fun c b => W4 m c b
theorem W4_of_ne (c : Dev nD) (b : Ref sig .tc) (h0 : b ≠ main_v7) : W4 m c b = W3 m c b := by
  unfold W4
  rw [Function.update_of_ne (StableHlo.devRef_ne_of_ne h0)]
theorem W4_at0 (c : Dev nD) : W4 m c main_v7 = (Reg.dat1 (T3 m) c).arrAt 3 cfg1.N := by
  unfold W4
  rw [Function.update_self]
/-- After the host stretch hostOps2. -/
abbrev W5 (c : Dev nD) : Valuation τ sig (Elt F) := StableHlo.after hostOps2 (W4 m c)
/-- The contents region 2 is entered from, read at the TensorCore's references. -/
abbrev T5 : (c : Dev nD) → (b : Ref sig .tc) → Buf (Elt F) ((c : Thread nD τ).loc b) := fun c b => W5 m c b
/-- At region 2's exit: each output array at what the pipeline's write-backs leave, every other buffer as entered. -/
def W6 (c : Dev nD) : Valuation τ sig (Elt F) :=
  Function.update (W5 m c) main_v27 ((Reg.dat2 (T5 m) c).arrAt 3 cfg2.N)
abbrev T6 : (c : Dev nD) → (b : Ref sig .tc) → Buf (Elt F) ((c : Thread nD τ).loc b) := fun c b => W6 m c b
theorem W6_of_ne (c : Dev nD) (b : Ref sig .tc) (h0 : b ≠ main_v27) : W6 m c b = W5 m c b := by
  unfold W6
  rw [Function.update_of_ne (StableHlo.devRef_ne_of_ne h0)]
theorem W6_at0 (c : Dev nD) : W6 m c main_v27 = (Reg.dat2 (T5 m) c).arrAt 3 cfg2.N := by
  unfold W6
  rw [Function.update_self]
/-- After the host stretch hostOps3. -/
abbrev W7 (c : Dev nD) : Valuation τ sig (Elt F) := StableHlo.after hostOps3 (W6 m c)
/-- After the host stretch hostOps3_1. -/
abbrev W8 (c : Dev nD) : Valuation τ sig (Elt F) := StableHlo.after hostOps3_1 (W7 m c)
/-- After the host stretch hostOps3_2. -/
abbrev W9 (c : Dev nD) : Valuation τ sig (Elt F) := StableHlo.after hostOps3_2 (W8 m c)
/-- The contents region 3 is entered from, read at the TensorCore's references. -/
abbrev T9 : (c : Dev nD) → (b : Ref sig .tc) → Buf (Elt F) ((c : Thread nD τ).loc b) := fun c b => W9 m c b
/-- At region 3's exit: each output array at what the pipeline's write-backs leave, every other buffer as entered. -/
def W10 (c : Dev nD) : Valuation τ sig (Elt F) :=
  Function.update (Function.update (Function.update (W9 m c) main_v66_0 ((Reg.dat3 (T9 m) c).arrAt 6 cfg3.N)) main_v66_1 ((Reg.dat3 (T9 m) c).arrAt 7 cfg3.N)) main_v66_2 ((Reg.dat3 (T9 m) c).arrAt 8 cfg3.N)
abbrev T10 : (c : Dev nD) → (b : Ref sig .tc) → Buf (Elt F) ((c : Thread nD τ).loc b) := fun c b => W10 m c b
theorem W10_of_ne (c : Dev nD) (b : Ref sig .tc) (h0 : b ≠ main_v66_0) (h1 : b ≠ main_v66_1) (h2 : b ≠ main_v66_2) : W10 m c b = W9 m c b := by
  unfold W10
  rw [Function.update_of_ne (StableHlo.devRef_ne_of_ne h2)]
  rw [Function.update_of_ne (StableHlo.devRef_ne_of_ne h1)]
  rw [Function.update_of_ne (StableHlo.devRef_ne_of_ne h0)]
theorem W10_at0 (c : Dev nD) : W10 m c main_v66_0 = (Reg.dat3 (T9 m) c).arrAt 6 cfg3.N := by
  unfold W10
  rw [Function.update_of_ne (StableHlo.devRef_ne_of_ne (by decide : main_v66_0 ≠ main_v66_2))]
  rw [Function.update_of_ne (StableHlo.devRef_ne_of_ne (by decide : main_v66_0 ≠ main_v66_1))]
  rw [Function.update_self]
theorem W10_at1 (c : Dev nD) : W10 m c main_v66_1 = (Reg.dat3 (T9 m) c).arrAt 7 cfg3.N := by
  unfold W10
  rw [Function.update_of_ne (StableHlo.devRef_ne_of_ne (by decide : main_v66_1 ≠ main_v66_2))]
  rw [Function.update_self]
theorem W10_at2 (c : Dev nD) : W10 m c main_v66_2 = (Reg.dat3 (T9 m) c).arrAt 8 cfg3.N := by
  unfold W10
  rw [Function.update_self]
/-- After the host stretch hostOps4. -/
abbrev W11 (c : Dev nD) : Valuation τ sig (Elt F) := StableHlo.after hostOps4 (W10 m c)
/-- The contents region 4 is entered from, read at the TensorCore's references. -/
abbrev T11 : (c : Dev nD) → (b : Ref sig .tc) → Buf (Elt F) ((c : Thread nD τ).loc b) := fun c b => W11 m c b
/-- At region 4's exit: each output array at what the pipeline's write-backs leave, every other buffer as entered. -/
def W12 (c : Dev nD) : Valuation τ sig (Elt F) :=
  Function.update (W11 m c) main_v79 ((Reg.dat4 (T11 m) c).arrAt 3 cfg4.N)
abbrev T12 : (c : Dev nD) → (b : Ref sig .tc) → Buf (Elt F) ((c : Thread nD τ).loc b) := fun c b => W12 m c b
theorem W12_of_ne (c : Dev nD) (b : Ref sig .tc) (h0 : b ≠ main_v79) : W12 m c b = W11 m c b := by
  unfold W12
  rw [Function.update_of_ne (StableHlo.devRef_ne_of_ne h0)]
theorem W12_at0 (c : Dev nD) : W12 m c main_v79 = (Reg.dat4 (T11 m) c).arrAt 3 cfg4.N := by
  unfold W12
  rw [Function.update_self]
/-- After the host stretch hostOps5. -/
abbrev W13 (c : Dev nD) : Valuation τ sig (Elt F) := StableHlo.after hostOps5 (W12 m c)
/-- After the host stretch hostOps5_1. -/
abbrev W14 (c : Dev nD) : Valuation τ sig (Elt F) := StableHlo.after hostOps5_1 (W13 m c)
/-- After the host stretch hostOps5_2. -/
abbrev W15 (c : Dev nD) : Valuation τ sig (Elt F) := StableHlo.after hostOps5_2 (W14 m c)
/-- After the host stretch hostOps5_3. -/
abbrev W16 (c : Dev nD) : Valuation τ sig (Elt F) := StableHlo.after hostOps5_3 (W15 m c)
/-- After the host stretch hostOps5_4. -/
abbrev W17 (c : Dev nD) : Valuation τ sig (Elt F) := StableHlo.after hostOps5_4 (W16 m c)
/-- The contents region 5 is entered from, read at the TensorCore's references. -/
abbrev T17 : (c : Dev nD) → (b : Ref sig .tc) → Buf (Elt F) ((c : Thread nD τ).loc b) := fun c b => W17 m c b
/-- At region 5's exit: each output array at what the pipeline's write-backs leave, every other buffer as entered. -/
def W18 (c : Dev nD) : Valuation τ sig (Elt F) :=
  Function.update (W17 m c) main_v126 ((Reg.dat5 (T17 m) c).arrAt 6 cfg5.N)
abbrev T18 : (c : Dev nD) → (b : Ref sig .tc) → Buf (Elt F) ((c : Thread nD τ).loc b) := fun c b => W18 m c b
theorem W18_of_ne (c : Dev nD) (b : Ref sig .tc) (h0 : b ≠ main_v126) : W18 m c b = W17 m c b := by
  unfold W18
  rw [Function.update_of_ne (StableHlo.devRef_ne_of_ne h0)]
theorem W18_at0 (c : Dev nD) : W18 m c main_v126 = (Reg.dat5 (T17 m) c).arrAt 6 cfg5.N := by
  unfold W18
  rw [Function.update_self]
/-- After the host stretch hostOps6. -/
abbrev W19 (c : Dev nD) : Valuation τ sig (Elt F) := StableHlo.after hostOps6 (W18 m c)
/-- The contents region 6 is entered from, read at the TensorCore's references. -/
abbrev T19 : (c : Dev nD) → (b : Ref sig .tc) → Buf (Elt F) ((c : Thread nD τ).loc b) := fun c b => W19 m c b
/-- At region 6's exit: each output array at what the pipeline's write-backs leave, every other buffer as entered. -/
def W20 (c : Dev nD) : Valuation τ sig (Elt F) :=
  Function.update (W19 m c) main_v133 ((Reg.dat6 (T19 m) c).arrAt 6 cfg6.N)
abbrev T20 : (c : Dev nD) → (b : Ref sig .tc) → Buf (Elt F) ((c : Thread nD τ).loc b) := fun c b => W20 m c b
theorem W20_of_ne (c : Dev nD) (b : Ref sig .tc) (h0 : b ≠ main_v133) : W20 m c b = W19 m c b := by
  unfold W20
  rw [Function.update_of_ne (StableHlo.devRef_ne_of_ne h0)]
theorem W20_at0 (c : Dev nD) : W20 m c main_v133 = (Reg.dat6 (T19 m) c).arrAt 6 cfg6.N := by
  unfold W20
  rw [Function.update_self]
/-- After the host stretch hostOps7. -/
abbrev W21 (c : Dev nD) : Valuation τ sig (Elt F) := StableHlo.after hostOps7 (W20 m c)
/-- The contents region 7 is entered from, read at the TensorCore's references. -/
abbrev T21 : (c : Dev nD) → (b : Ref sig .tc) → Buf (Elt F) ((c : Thread nD τ).loc b) := fun c b => W21 m c b
/-- At region 7's exit: each output array at what the pipeline's write-backs leave, every other buffer as entered. -/
def W22 (c : Dev nD) : Valuation τ sig (Elt F) :=
  Function.update (W21 m c) main_v154 ((Reg.dat7 (T21 m) c).arrAt 3 cfg7.N)
abbrev T22 : (c : Dev nD) → (b : Ref sig .tc) → Buf (Elt F) ((c : Thread nD τ).loc b) := fun c b => W22 m c b
theorem W22_of_ne (c : Dev nD) (b : Ref sig .tc) (h0 : b ≠ main_v154) : W22 m c b = W21 m c b := by
  unfold W22
  rw [Function.update_of_ne (StableHlo.devRef_ne_of_ne h0)]
theorem W22_at0 (c : Dev nD) : W22 m c main_v154 = (Reg.dat7 (T21 m) c).arrAt 3 cfg7.N := by
  unfold W22
  rw [Function.update_self]
/-- After the host stretch hostOps8. -/
abbrev W23 (c : Dev nD) : Valuation τ sig (Elt F) := StableHlo.after hostOps8 (W22 m c)
/-- After the host stretch hostOps8_1. -/
abbrev W24 (c : Dev nD) : Valuation τ sig (Elt F) := StableHlo.after hostOps8_1 (W23 m c)
/-- After the host stretch hostOps8_2. -/
abbrev W25 (c : Dev nD) : Valuation τ sig (Elt F) := StableHlo.after hostOps8_2 (W24 m c)
/-- The contents region 8 is entered from, read at the TensorCore's references. -/
abbrev T25 : (c : Dev nD) → (b : Ref sig .tc) → Buf (Elt F) ((c : Thread nD τ).loc b) := fun c b => W25 m c b
/-- At region 8's exit: each output array at what the pipeline's write-backs leave, every other buffer as entered. -/
def W26 (c : Dev nD) : Valuation τ sig (Elt F) :=
  Function.update (Function.update (Function.update (W25 m c) main_v193_0 ((Reg.dat8 (T25 m) c).arrAt 6 cfg8.N)) main_v193_1 ((Reg.dat8 (T25 m) c).arrAt 7 cfg8.N)) main_v193_2 ((Reg.dat8 (T25 m) c).arrAt 8 cfg8.N)
abbrev T26 : (c : Dev nD) → (b : Ref sig .tc) → Buf (Elt F) ((c : Thread nD τ).loc b) := fun c b => W26 m c b
theorem W26_of_ne (c : Dev nD) (b : Ref sig .tc) (h0 : b ≠ main_v193_0) (h1 : b ≠ main_v193_1) (h2 : b ≠ main_v193_2) : W26 m c b = W25 m c b := by
  unfold W26
  rw [Function.update_of_ne (StableHlo.devRef_ne_of_ne h2)]
  rw [Function.update_of_ne (StableHlo.devRef_ne_of_ne h1)]
  rw [Function.update_of_ne (StableHlo.devRef_ne_of_ne h0)]
theorem W26_at0 (c : Dev nD) : W26 m c main_v193_0 = (Reg.dat8 (T25 m) c).arrAt 6 cfg8.N := by
  unfold W26
  rw [Function.update_of_ne (StableHlo.devRef_ne_of_ne (by decide : main_v193_0 ≠ main_v193_2))]
  rw [Function.update_of_ne (StableHlo.devRef_ne_of_ne (by decide : main_v193_0 ≠ main_v193_1))]
  rw [Function.update_self]
theorem W26_at1 (c : Dev nD) : W26 m c main_v193_1 = (Reg.dat8 (T25 m) c).arrAt 7 cfg8.N := by
  unfold W26
  rw [Function.update_of_ne (StableHlo.devRef_ne_of_ne (by decide : main_v193_1 ≠ main_v193_2))]
  rw [Function.update_self]
theorem W26_at2 (c : Dev nD) : W26 m c main_v193_2 = (Reg.dat8 (T25 m) c).arrAt 8 cfg8.N := by
  unfold W26
  rw [Function.update_self]
/-- After the host stretch hostOps9. -/
abbrev W27 (c : Dev nD) : Valuation τ sig (Elt F) := StableHlo.after hostOps9 (W26 m c)
/-- The contents region 9 is entered from, read at the TensorCore's references. -/
abbrev T27 : (c : Dev nD) → (b : Ref sig .tc) → Buf (Elt F) ((c : Thread nD τ).loc b) := fun c b => W27 m c b
/-- At region 9's exit: each output array at what the pipeline's write-backs leave, every other buffer as entered. -/
def W28 (c : Dev nD) : Valuation τ sig (Elt F) :=
  Function.update (W27 m c) main_v206 ((Reg.dat9 (T27 m) c).arrAt 3 cfg9.N)
abbrev T28 : (c : Dev nD) → (b : Ref sig .tc) → Buf (Elt F) ((c : Thread nD τ).loc b) := fun c b => W28 m c b
theorem W28_of_ne (c : Dev nD) (b : Ref sig .tc) (h0 : b ≠ main_v206) : W28 m c b = W27 m c b := by
  unfold W28
  rw [Function.update_of_ne (StableHlo.devRef_ne_of_ne h0)]
theorem W28_at0 (c : Dev nD) : W28 m c main_v206 = (Reg.dat9 (T27 m) c).arrAt 3 cfg9.N := by
  unfold W28
  rw [Function.update_self]
/-- After the host stretch hostOps10. -/
abbrev W29 (c : Dev nD) : Valuation τ sig (Elt F) := StableHlo.after hostOps10 (W28 m c)
/-- After the host stretch hostOps10_1. -/
abbrev W30 (c : Dev nD) : Valuation τ sig (Elt F) := StableHlo.after hostOps10_1 (W29 m c)
/-- After the host stretch hostOps10_2. -/
abbrev W31 (c : Dev nD) : Valuation τ sig (Elt F) := StableHlo.after hostOps10_2 (W30 m c)
/-- After the host stretch hostOps10_3. -/
abbrev W32 (c : Dev nD) : Valuation τ sig (Elt F) := StableHlo.after hostOps10_3 (W31 m c)
/-- After the host stretch hostOps10_4. -/
abbrev W33 (c : Dev nD) : Valuation τ sig (Elt F) := StableHlo.after hostOps10_4 (W32 m c)
/-- The contents region 10 is entered from, read at the TensorCore's references. -/
abbrev T33 : (c : Dev nD) → (b : Ref sig .tc) → Buf (Elt F) ((c : Thread nD τ).loc b) := fun c b => W33 m c b
/-- At region 10's exit: each output array at what the pipeline's write-backs leave, every other buffer as entered. -/
def W34 (c : Dev nD) : Valuation τ sig (Elt F) :=
  Function.update (W33 m c) main_v253 ((Reg.dat10 (T33 m) c).arrAt 6 cfg10.N)
abbrev T34 : (c : Dev nD) → (b : Ref sig .tc) → Buf (Elt F) ((c : Thread nD τ).loc b) := fun c b => W34 m c b
theorem W34_of_ne (c : Dev nD) (b : Ref sig .tc) (h0 : b ≠ main_v253) : W34 m c b = W33 m c b := by
  unfold W34
  rw [Function.update_of_ne (StableHlo.devRef_ne_of_ne h0)]
theorem W34_at0 (c : Dev nD) : W34 m c main_v253 = (Reg.dat10 (T33 m) c).arrAt 6 cfg10.N := by
  unfold W34
  rw [Function.update_self]
/-- After the host stretch hostOps11. -/
abbrev W35 (c : Dev nD) : Valuation τ sig (Elt F) := StableHlo.after hostOps11 (W34 m c)
/-- The contents region 11 is entered from, read at the TensorCore's references. -/
abbrev T35 : (c : Dev nD) → (b : Ref sig .tc) → Buf (Elt F) ((c : Thread nD τ).loc b) := fun c b => W35 m c b
/-- At region 11's exit: each output array at what the pipeline's write-backs leave, every other buffer as entered. -/
def W36 (c : Dev nD) : Valuation τ sig (Elt F) :=
  Function.update (W35 m c) main_v260 ((Reg.dat11 (T35 m) c).arrAt 6 cfg11.N)
abbrev T36 : (c : Dev nD) → (b : Ref sig .tc) → Buf (Elt F) ((c : Thread nD τ).loc b) := fun c b => W36 m c b
theorem W36_of_ne (c : Dev nD) (b : Ref sig .tc) (h0 : b ≠ main_v260) : W36 m c b = W35 m c b := by
  unfold W36
  rw [Function.update_of_ne (StableHlo.devRef_ne_of_ne h0)]
theorem W36_at0 (c : Dev nD) : W36 m c main_v260 = (Reg.dat11 (T35 m) c).arrAt 6 cfg11.N := by
  unfold W36
  rw [Function.update_self]
/-- After the host stretch hostOps12. -/
abbrev W37 (c : Dev nD) : Valuation τ sig (Elt F) := StableHlo.after hostOps12 (W36 m c)
/-- The contents region 12 is entered from, read at the TensorCore's references. -/
abbrev T37 : (c : Dev nD) → (b : Ref sig .tc) → Buf (Elt F) ((c : Thread nD τ).loc b) := fun c b => W37 m c b
/-- At region 12's exit: each output array at what the pipeline's write-backs leave, every other buffer as entered. -/
def W38 (c : Dev nD) : Valuation τ sig (Elt F) :=
  Function.update (W37 m c) main_v281 ((Reg.dat12 (T37 m) c).arrAt 3 cfg12.N)
abbrev T38 : (c : Dev nD) → (b : Ref sig .tc) → Buf (Elt F) ((c : Thread nD τ).loc b) := fun c b => W38 m c b
theorem W38_of_ne (c : Dev nD) (b : Ref sig .tc) (h0 : b ≠ main_v281) : W38 m c b = W37 m c b := by
  unfold W38
  rw [Function.update_of_ne (StableHlo.devRef_ne_of_ne h0)]
theorem W38_at0 (c : Dev nD) : W38 m c main_v281 = (Reg.dat12 (T37 m) c).arrAt 3 cfg12.N := by
  unfold W38
  rw [Function.update_self]
/-- After the host stretch hostOps13. -/
abbrev W39 (c : Dev nD) : Valuation τ sig (Elt F) := StableHlo.after hostOps13 (W38 m c)
/-- After the host stretch hostOps13_1. -/
abbrev W40 (c : Dev nD) : Valuation τ sig (Elt F) := StableHlo.after hostOps13_1 (W39 m c)
/-- After the host stretch hostOps13_2. -/
abbrev W41 (c : Dev nD) : Valuation τ sig (Elt F) := StableHlo.after hostOps13_2 (W40 m c)
/-- The contents region 13 is entered from, read at the TensorCore's references. -/
abbrev T41 : (c : Dev nD) → (b : Ref sig .tc) → Buf (Elt F) ((c : Thread nD τ).loc b) := fun c b => W41 m c b
/-- At region 13's exit: each output array at what the pipeline's write-backs leave, every other buffer as entered. -/
def W42 (c : Dev nD) : Valuation τ sig (Elt F) :=
  Function.update (Function.update (Function.update (W41 m c) main_v320_0 ((Reg.dat13 (T41 m) c).arrAt 6 cfg13.N)) main_v320_1 ((Reg.dat13 (T41 m) c).arrAt 7 cfg13.N)) main_v320_2 ((Reg.dat13 (T41 m) c).arrAt 8 cfg13.N)
abbrev T42 : (c : Dev nD) → (b : Ref sig .tc) → Buf (Elt F) ((c : Thread nD τ).loc b) := fun c b => W42 m c b
theorem W42_of_ne (c : Dev nD) (b : Ref sig .tc) (h0 : b ≠ main_v320_0) (h1 : b ≠ main_v320_1) (h2 : b ≠ main_v320_2) : W42 m c b = W41 m c b := by
  unfold W42
  rw [Function.update_of_ne (StableHlo.devRef_ne_of_ne h2)]
  rw [Function.update_of_ne (StableHlo.devRef_ne_of_ne h1)]
  rw [Function.update_of_ne (StableHlo.devRef_ne_of_ne h0)]
theorem W42_at0 (c : Dev nD) : W42 m c main_v320_0 = (Reg.dat13 (T41 m) c).arrAt 6 cfg13.N := by
  unfold W42
  rw [Function.update_of_ne (StableHlo.devRef_ne_of_ne (by decide : main_v320_0 ≠ main_v320_2))]
  rw [Function.update_of_ne (StableHlo.devRef_ne_of_ne (by decide : main_v320_0 ≠ main_v320_1))]
  rw [Function.update_self]
theorem W42_at1 (c : Dev nD) : W42 m c main_v320_1 = (Reg.dat13 (T41 m) c).arrAt 7 cfg13.N := by
  unfold W42
  rw [Function.update_of_ne (StableHlo.devRef_ne_of_ne (by decide : main_v320_1 ≠ main_v320_2))]
  rw [Function.update_self]
theorem W42_at2 (c : Dev nD) : W42 m c main_v320_2 = (Reg.dat13 (T41 m) c).arrAt 8 cfg13.N := by
  unfold W42
  rw [Function.update_self]
/-- After the host stretch hostOps14. -/
abbrev W43 (c : Dev nD) : Valuation τ sig (Elt F) := StableHlo.after hostOps14 (W42 m c)
/-- The contents region 14 is entered from, read at the TensorCore's references. -/
abbrev T43 : (c : Dev nD) → (b : Ref sig .tc) → Buf (Elt F) ((c : Thread nD τ).loc b) := fun c b => W43 m c b
/-- At region 14's exit: each output array at what the pipeline's write-backs leave, every other buffer as entered. -/
def W44 (c : Dev nD) : Valuation τ sig (Elt F) :=
  Function.update (W43 m c) main_v333 ((Reg.dat14 (T43 m) c).arrAt 3 cfg14.N)
abbrev T44 : (c : Dev nD) → (b : Ref sig .tc) → Buf (Elt F) ((c : Thread nD τ).loc b) := fun c b => W44 m c b
theorem W44_of_ne (c : Dev nD) (b : Ref sig .tc) (h0 : b ≠ main_v333) : W44 m c b = W43 m c b := by
  unfold W44
  rw [Function.update_of_ne (StableHlo.devRef_ne_of_ne h0)]
theorem W44_at0 (c : Dev nD) : W44 m c main_v333 = (Reg.dat14 (T43 m) c).arrAt 3 cfg14.N := by
  unfold W44
  rw [Function.update_self]
/-- After the host stretch hostOps15. -/
abbrev W45 (c : Dev nD) : Valuation τ sig (Elt F) := StableHlo.after hostOps15 (W44 m c)
/-- After the host stretch hostOps15_1. -/
abbrev W46 (c : Dev nD) : Valuation τ sig (Elt F) := StableHlo.after hostOps15_1 (W45 m c)
/-- After the host stretch hostOps15_2. -/
abbrev W47 (c : Dev nD) : Valuation τ sig (Elt F) := StableHlo.after hostOps15_2 (W46 m c)
/-- After the host stretch hostOps15_3. -/
abbrev W48 (c : Dev nD) : Valuation τ sig (Elt F) := StableHlo.after hostOps15_3 (W47 m c)
/-- After the host stretch hostOps15_4. -/
abbrev W49 (c : Dev nD) : Valuation τ sig (Elt F) := StableHlo.after hostOps15_4 (W48 m c)
/-- The contents region 15 is entered from, read at the TensorCore's references. -/
abbrev T49 : (c : Dev nD) → (b : Ref sig .tc) → Buf (Elt F) ((c : Thread nD τ).loc b) := fun c b => W49 m c b
/-- At region 15's exit: each output array at what the pipeline's write-backs leave, every other buffer as entered. -/
def W50 (c : Dev nD) : Valuation τ sig (Elt F) :=
  Function.update (W49 m c) main_v380 ((Reg.dat15 (T49 m) c).arrAt 6 cfg15.N)
abbrev T50 : (c : Dev nD) → (b : Ref sig .tc) → Buf (Elt F) ((c : Thread nD τ).loc b) := fun c b => W50 m c b
theorem W50_of_ne (c : Dev nD) (b : Ref sig .tc) (h0 : b ≠ main_v380) : W50 m c b = W49 m c b := by
  unfold W50
  rw [Function.update_of_ne (StableHlo.devRef_ne_of_ne h0)]
theorem W50_at0 (c : Dev nD) : W50 m c main_v380 = (Reg.dat15 (T49 m) c).arrAt 6 cfg15.N := by
  unfold W50
  rw [Function.update_self]
/-- After the host stretch hostOps16. -/
abbrev W51 (c : Dev nD) : Valuation τ sig (Elt F) := StableHlo.after hostOps16 (W50 m c)
/-- The contents region 16 is entered from, read at the TensorCore's references. -/
abbrev T51 : (c : Dev nD) → (b : Ref sig .tc) → Buf (Elt F) ((c : Thread nD τ).loc b) := fun c b => W51 m c b
/-- At region 16's exit: each output array at what the pipeline's write-backs leave, every other buffer as entered. -/
def W52 (c : Dev nD) : Valuation τ sig (Elt F) :=
  Function.update (W51 m c) main_v387 ((Reg.dat16 (T51 m) c).arrAt 6 cfg16.N)
abbrev T52 : (c : Dev nD) → (b : Ref sig .tc) → Buf (Elt F) ((c : Thread nD τ).loc b) := fun c b => W52 m c b
theorem W52_of_ne (c : Dev nD) (b : Ref sig .tc) (h0 : b ≠ main_v387) : W52 m c b = W51 m c b := by
  unfold W52
  rw [Function.update_of_ne (StableHlo.devRef_ne_of_ne h0)]
theorem W52_at0 (c : Dev nD) : W52 m c main_v387 = (Reg.dat16 (T51 m) c).arrAt 6 cfg16.N := by
  unfold W52
  rw [Function.update_self]
/-- After the host stretch hostOps17. -/
abbrev W53 (c : Dev nD) : Valuation τ sig (Elt F) := StableHlo.after hostOps17 (W52 m c)
/-- The contents region 17 is entered from, read at the TensorCore's references. -/
abbrev T53 : (c : Dev nD) → (b : Ref sig .tc) → Buf (Elt F) ((c : Thread nD τ).loc b) := fun c b => W53 m c b
/-- At region 17's exit: each output array at what the pipeline's write-backs leave, every other buffer as entered. -/
def W54 (c : Dev nD) : Valuation τ sig (Elt F) :=
  Function.update (W53 m c) main_v408 ((Reg.dat17 (T53 m) c).arrAt 3 cfg17.N)
abbrev T54 : (c : Dev nD) → (b : Ref sig .tc) → Buf (Elt F) ((c : Thread nD τ).loc b) := fun c b => W54 m c b
theorem W54_of_ne (c : Dev nD) (b : Ref sig .tc) (h0 : b ≠ main_v408) : W54 m c b = W53 m c b := by
  unfold W54
  rw [Function.update_of_ne (StableHlo.devRef_ne_of_ne h0)]
theorem W54_at0 (c : Dev nD) : W54 m c main_v408 = (Reg.dat17 (T53 m) c).arrAt 3 cfg17.N := by
  unfold W54
  rw [Function.update_self]
/-- After the host stretch hostOps18. -/
abbrev W55 (c : Dev nD) : Valuation τ sig (Elt F) := StableHlo.after hostOps18 (W54 m c)
/-- After the host stretch hostOps18_1. -/
abbrev W56 (c : Dev nD) : Valuation τ sig (Elt F) := StableHlo.after hostOps18_1 (W55 m c)
/-- After the host stretch hostOps18_2. -/
abbrev W57 (c : Dev nD) : Valuation τ sig (Elt F) := StableHlo.after hostOps18_2 (W56 m c)
/-- The contents region 18 is entered from, read at the TensorCore's references. -/
abbrev T57 : (c : Dev nD) → (b : Ref sig .tc) → Buf (Elt F) ((c : Thread nD τ).loc b) := fun c b => W57 m c b
/-- At region 18's exit: each output array at what the pipeline's write-backs leave, every other buffer as entered. -/
def W58 (c : Dev nD) : Valuation τ sig (Elt F) :=
  Function.update (Function.update (Function.update (W57 m c) main_v447_0 ((Reg.dat18 (T57 m) c).arrAt 6 cfg18.N)) main_v447_1 ((Reg.dat18 (T57 m) c).arrAt 7 cfg18.N)) main_v447_2 ((Reg.dat18 (T57 m) c).arrAt 8 cfg18.N)
abbrev T58 : (c : Dev nD) → (b : Ref sig .tc) → Buf (Elt F) ((c : Thread nD τ).loc b) := fun c b => W58 m c b
theorem W58_of_ne (c : Dev nD) (b : Ref sig .tc) (h0 : b ≠ main_v447_0) (h1 : b ≠ main_v447_1) (h2 : b ≠ main_v447_2) : W58 m c b = W57 m c b := by
  unfold W58
  rw [Function.update_of_ne (StableHlo.devRef_ne_of_ne h2)]
  rw [Function.update_of_ne (StableHlo.devRef_ne_of_ne h1)]
  rw [Function.update_of_ne (StableHlo.devRef_ne_of_ne h0)]
theorem W58_at0 (c : Dev nD) : W58 m c main_v447_0 = (Reg.dat18 (T57 m) c).arrAt 6 cfg18.N := by
  unfold W58
  rw [Function.update_of_ne (StableHlo.devRef_ne_of_ne (by decide : main_v447_0 ≠ main_v447_2))]
  rw [Function.update_of_ne (StableHlo.devRef_ne_of_ne (by decide : main_v447_0 ≠ main_v447_1))]
  rw [Function.update_self]
theorem W58_at1 (c : Dev nD) : W58 m c main_v447_1 = (Reg.dat18 (T57 m) c).arrAt 7 cfg18.N := by
  unfold W58
  rw [Function.update_of_ne (StableHlo.devRef_ne_of_ne (by decide : main_v447_1 ≠ main_v447_2))]
  rw [Function.update_self]
theorem W58_at2 (c : Dev nD) : W58 m c main_v447_2 = (Reg.dat18 (T57 m) c).arrAt 8 cfg18.N := by
  unfold W58
  rw [Function.update_self]
/-- After the host stretch hostOps19. -/
abbrev W59 (c : Dev nD) : Valuation τ sig (Elt F) := StableHlo.after hostOps19 (W58 m c)
/-- The contents region 19 is entered from, read at the TensorCore's references. -/
abbrev T59 : (c : Dev nD) → (b : Ref sig .tc) → Buf (Elt F) ((c : Thread nD τ).loc b) := fun c b => W59 m c b
/-- At region 19's exit: each output array at what the pipeline's write-backs leave, every other buffer as entered. -/
def W60 (c : Dev nD) : Valuation τ sig (Elt F) :=
  Function.update (W59 m c) main_v460 ((Reg.dat19 (T59 m) c).arrAt 3 cfg19.N)
abbrev T60 : (c : Dev nD) → (b : Ref sig .tc) → Buf (Elt F) ((c : Thread nD τ).loc b) := fun c b => W60 m c b
theorem W60_of_ne (c : Dev nD) (b : Ref sig .tc) (h0 : b ≠ main_v460) : W60 m c b = W59 m c b := by
  unfold W60
  rw [Function.update_of_ne (StableHlo.devRef_ne_of_ne h0)]
theorem W60_at0 (c : Dev nD) : W60 m c main_v460 = (Reg.dat19 (T59 m) c).arrAt 3 cfg19.N := by
  unfold W60
  rw [Function.update_self]
/-- After the host stretch hostOps20. -/
abbrev W61 (c : Dev nD) : Valuation τ sig (Elt F) := StableHlo.after hostOps20 (W60 m c)
/-- After the host stretch hostOps20_1. -/
abbrev W62 (c : Dev nD) : Valuation τ sig (Elt F) := StableHlo.after hostOps20_1 (W61 m c)
/-- After the host stretch hostOps20_2. -/
abbrev W63 (c : Dev nD) : Valuation τ sig (Elt F) := StableHlo.after hostOps20_2 (W62 m c)
/-- After the host stretch hostOps20_3. -/
abbrev W64 (c : Dev nD) : Valuation τ sig (Elt F) := StableHlo.after hostOps20_3 (W63 m c)
/-- After the host stretch hostOps20_4. -/
abbrev W65 (c : Dev nD) : Valuation τ sig (Elt F) := StableHlo.after hostOps20_4 (W64 m c)
/-- The contents region 20 is entered from, read at the TensorCore's references. -/
abbrev T65 : (c : Dev nD) → (b : Ref sig .tc) → Buf (Elt F) ((c : Thread nD τ).loc b) := fun c b => W65 m c b
/-- At region 20's exit: each output array at what the pipeline's write-backs leave, every other buffer as entered. -/
def W66 (c : Dev nD) : Valuation τ sig (Elt F) :=
  Function.update (W65 m c) main_v507 ((Reg.dat20 (T65 m) c).arrAt 6 cfg20.N)
abbrev T66 : (c : Dev nD) → (b : Ref sig .tc) → Buf (Elt F) ((c : Thread nD τ).loc b) := fun c b => W66 m c b
theorem W66_of_ne (c : Dev nD) (b : Ref sig .tc) (h0 : b ≠ main_v507) : W66 m c b = W65 m c b := by
  unfold W66
  rw [Function.update_of_ne (StableHlo.devRef_ne_of_ne h0)]
theorem W66_at0 (c : Dev nD) : W66 m c main_v507 = (Reg.dat20 (T65 m) c).arrAt 6 cfg20.N := by
  unfold W66
  rw [Function.update_self]
/-- After the host stretch hostOps21. -/
abbrev W67 (c : Dev nD) : Valuation τ sig (Elt F) := StableHlo.after hostOps21 (W66 m c)
/-- The contents region 21 is entered from, read at the TensorCore's references. -/
abbrev T67 : (c : Dev nD) → (b : Ref sig .tc) → Buf (Elt F) ((c : Thread nD τ).loc b) := fun c b => W67 m c b
/-- At region 21's exit: each output array at what the pipeline's write-backs leave, every other buffer as entered. -/
def W68 (c : Dev nD) : Valuation τ sig (Elt F) :=
  Function.update (W67 m c) main_v514 ((Reg.dat21 (T67 m) c).arrAt 6 cfg21.N)
abbrev T68 : (c : Dev nD) → (b : Ref sig .tc) → Buf (Elt F) ((c : Thread nD τ).loc b) := fun c b => W68 m c b
theorem W68_of_ne (c : Dev nD) (b : Ref sig .tc) (h0 : b ≠ main_v514) : W68 m c b = W67 m c b := by
  unfold W68
  rw [Function.update_of_ne (StableHlo.devRef_ne_of_ne h0)]
theorem W68_at0 (c : Dev nD) : W68 m c main_v514 = (Reg.dat21 (T67 m) c).arrAt 6 cfg21.N := by
  unfold W68
  rw [Function.update_self]
/-- After the host stretch hostOps22. -/
abbrev W69 (c : Dev nD) : Valuation τ sig (Elt F) := StableHlo.after hostOps22 (W68 m c)
/-- The contents region 22 is entered from, read at the TensorCore's references. -/
abbrev T69 : (c : Dev nD) → (b : Ref sig .tc) → Buf (Elt F) ((c : Thread nD τ).loc b) := fun c b => W69 m c b
/-- At region 22's exit: each output array at what the pipeline's write-backs leave, every other buffer as entered. -/
def W70 (c : Dev nD) : Valuation τ sig (Elt F) :=
  Function.update (W69 m c) main_v535 ((Reg.dat22 (T69 m) c).arrAt 9 cfg22.N)
abbrev T70 : (c : Dev nD) → (b : Ref sig .tc) → Buf (Elt F) ((c : Thread nD τ).loc b) := fun c b => W70 m c b
theorem W70_of_ne (c : Dev nD) (b : Ref sig .tc) (h0 : b ≠ main_v535) : W70 m c b = W69 m c b := by
  unfold W70
  rw [Function.update_of_ne (StableHlo.devRef_ne_of_ne h0)]
theorem W70_at0 (c : Dev nD) : W70 m c main_v535 = (Reg.dat22 (T69 m) c).arrAt 9 cfg22.N := by
  unfold W70
  rw [Function.update_self]

/-- Every pipeline's proof data, each at its region's entry contents. -/
def pdats : (p : Fin 23) → (c : Dev nD) → Dat τ (Elt F) Unit ℕ (UR sig nD τ) ℕ (cfgs p) c
  | ⟨0, _⟩ => fun c => Reg.dat0 (T1 m) c
  | ⟨1, _⟩ => fun c => Reg.dat1 (T3 m) c
  | ⟨2, _⟩ => fun c => Reg.dat2 (T5 m) c
  | ⟨3, _⟩ => fun c => Reg.dat3 (T9 m) c
  | ⟨4, _⟩ => fun c => Reg.dat4 (T11 m) c
  | ⟨5, _⟩ => fun c => Reg.dat5 (T17 m) c
  | ⟨6, _⟩ => fun c => Reg.dat6 (T19 m) c
  | ⟨7, _⟩ => fun c => Reg.dat7 (T21 m) c
  | ⟨8, _⟩ => fun c => Reg.dat8 (T25 m) c
  | ⟨9, _⟩ => fun c => Reg.dat9 (T27 m) c
  | ⟨10, _⟩ => fun c => Reg.dat10 (T33 m) c
  | ⟨11, _⟩ => fun c => Reg.dat11 (T35 m) c
  | ⟨12, _⟩ => fun c => Reg.dat12 (T37 m) c
  | ⟨13, _⟩ => fun c => Reg.dat13 (T41 m) c
  | ⟨14, _⟩ => fun c => Reg.dat14 (T43 m) c
  | ⟨15, _⟩ => fun c => Reg.dat15 (T49 m) c
  | ⟨16, _⟩ => fun c => Reg.dat16 (T51 m) c
  | ⟨17, _⟩ => fun c => Reg.dat17 (T53 m) c
  | ⟨18, _⟩ => fun c => Reg.dat18 (T57 m) c
  | ⟨19, _⟩ => fun c => Reg.dat19 (T59 m) c
  | ⟨20, _⟩ => fun c => Reg.dat20 (T65 m) c
  | ⟨21, _⟩ => fun c => Reg.dat21 (T67 m) c
  | ⟨22, _⟩ => fun c => Reg.dat22 (T69 m) c
  | ⟨_ + 23, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

end Cert.KernelIdeal.Run

end
-- ==== Proof.KOuts.lean ====
/- What the regions leave, as the contents the generated conditional frame is stated over: its valuations are this module's fold. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What each region leaves in its output buffers: the fold's contents at that boundary. -/
def outs : Outs (F := F) := fun J r c =>
  match J with
  | 2 => W2 m c r
  | 4 => W4 m c r
  | 6 => W6 m c r
  | 10 => W10 m c r
  | 12 => W12 m c r
  | 18 => W18 m c r
  | 20 => W20 m c r
  | 22 => W22 m c r
  | 26 => W26 m c r
  | 28 => W28 m c r
  | 34 => W34 m c r
  | 36 => W36 m c r
  | 38 => W38 m c r
  | 42 => W42 m c r
  | 44 => W44 m c r
  | 50 => W50 m c r
  | 52 => W52 m c r
  | 54 => W54 m c r
  | 58 => W58 m c r
  | 60 => W60 m c r
  | 66 => W66 m c r
  | 68 => W68 m c r
  | 70 => W70 m c r
  | _ => W0 m c r

theorem V_eq0 (c : Dev nD) : V0 m c = W0 m c := rfl
theorem V_eq1 (c : Dev nD) : V1 m c = W1 m c := rfl
theorem V_eq2 (c : Dev nD) : V2 m (outs m) c = W2 m c := by
  show Function.update (V1 m c) main_v5 (W2 m c main_v5) = _
  rw [V_eq1 m c, W2_at0 m c]
  rfl
theorem V_eq3 (c : Dev nD) : V3 m (outs m) c = W3 m c := by
  show StableHlo.after hostOps1 (V2 m (outs m) c) = _
  rw [V_eq2 m c]
theorem V_eq4 (c : Dev nD) : V4 m (outs m) c = W4 m c := by
  show Function.update (V3 m (outs m) c) main_v7 (W4 m c main_v7) = _
  rw [V_eq3 m c, W4_at0 m c]
  rfl
theorem V_eq5 (c : Dev nD) : V5 m (outs m) c = W5 m c := by
  show StableHlo.after hostOps2 (V4 m (outs m) c) = _
  rw [V_eq4 m c]
theorem V_eq6 (c : Dev nD) : V6 m (outs m) c = W6 m c := by
  show Function.update (V5 m (outs m) c) main_v27 (W6 m c main_v27) = _
  rw [V_eq5 m c, W6_at0 m c]
  rfl
theorem V_eq7 (c : Dev nD) : V7 m (outs m) c = W7 m c := by
  show StableHlo.after hostOps3 (V6 m (outs m) c) = _
  rw [V_eq6 m c]
theorem V_eq8 (c : Dev nD) : V8 m (outs m) c = W8 m c := by
  show StableHlo.after hostOps3_1 (V7 m (outs m) c) = _
  rw [V_eq7 m c]
theorem V_eq9 (c : Dev nD) : V9 m (outs m) c = W9 m c := by
  show StableHlo.after hostOps3_2 (V8 m (outs m) c) = _
  rw [V_eq8 m c]
theorem V_eq10 (c : Dev nD) : V10 m (outs m) c = W10 m c := by
  show Function.update (Function.update (Function.update (V9 m (outs m) c) main_v66_0 (W10 m c main_v66_0)) main_v66_1 (W10 m c main_v66_1)) main_v66_2 (W10 m c main_v66_2) = _
  rw [V_eq9 m c, W10_at0 m c, W10_at1 m c, W10_at2 m c]
  rfl
theorem V_eq11 (c : Dev nD) : V11 m (outs m) c = W11 m c := by
  show StableHlo.after hostOps4 (V10 m (outs m) c) = _
  rw [V_eq10 m c]
theorem V_eq12 (c : Dev nD) : V12 m (outs m) c = W12 m c := by
  show Function.update (V11 m (outs m) c) main_v79 (W12 m c main_v79) = _
  rw [V_eq11 m c, W12_at0 m c]
  rfl
theorem V_eq13 (c : Dev nD) : V13 m (outs m) c = W13 m c := by
  show StableHlo.after hostOps5 (V12 m (outs m) c) = _
  rw [V_eq12 m c]
theorem V_eq14 (c : Dev nD) : V14 m (outs m) c = W14 m c := by
  show StableHlo.after hostOps5_1 (V13 m (outs m) c) = _
  rw [V_eq13 m c]
theorem V_eq15 (c : Dev nD) : V15 m (outs m) c = W15 m c := by
  show StableHlo.after hostOps5_2 (V14 m (outs m) c) = _
  rw [V_eq14 m c]
theorem V_eq16 (c : Dev nD) : V16 m (outs m) c = W16 m c := by
  show StableHlo.after hostOps5_3 (V15 m (outs m) c) = _
  rw [V_eq15 m c]
theorem V_eq17 (c : Dev nD) : V17 m (outs m) c = W17 m c := by
  show StableHlo.after hostOps5_4 (V16 m (outs m) c) = _
  rw [V_eq16 m c]
theorem V_eq18 (c : Dev nD) : V18 m (outs m) c = W18 m c := by
  show Function.update (V17 m (outs m) c) main_v126 (W18 m c main_v126) = _
  rw [V_eq17 m c, W18_at0 m c]
  rfl
theorem V_eq19 (c : Dev nD) : V19 m (outs m) c = W19 m c := by
  show StableHlo.after hostOps6 (V18 m (outs m) c) = _
  rw [V_eq18 m c]
theorem V_eq20 (c : Dev nD) : V20 m (outs m) c = W20 m c := by
  show Function.update (V19 m (outs m) c) main_v133 (W20 m c main_v133) = _
  rw [V_eq19 m c, W20_at0 m c]
  rfl
theorem V_eq21 (c : Dev nD) : V21 m (outs m) c = W21 m c := by
  show StableHlo.after hostOps7 (V20 m (outs m) c) = _
  rw [V_eq20 m c]
theorem V_eq22 (c : Dev nD) : V22 m (outs m) c = W22 m c := by
  show Function.update (V21 m (outs m) c) main_v154 (W22 m c main_v154) = _
  rw [V_eq21 m c, W22_at0 m c]
  rfl
theorem V_eq23 (c : Dev nD) : V23 m (outs m) c = W23 m c := by
  show StableHlo.after hostOps8 (V22 m (outs m) c) = _
  rw [V_eq22 m c]
theorem V_eq24 (c : Dev nD) : V24 m (outs m) c = W24 m c := by
  show StableHlo.after hostOps8_1 (V23 m (outs m) c) = _
  rw [V_eq23 m c]
theorem V_eq25 (c : Dev nD) : V25 m (outs m) c = W25 m c := by
  show StableHlo.after hostOps8_2 (V24 m (outs m) c) = _
  rw [V_eq24 m c]
theorem V_eq26 (c : Dev nD) : V26 m (outs m) c = W26 m c := by
  show Function.update (Function.update (Function.update (V25 m (outs m) c) main_v193_0 (W26 m c main_v193_0)) main_v193_1 (W26 m c main_v193_1)) main_v193_2 (W26 m c main_v193_2) = _
  rw [V_eq25 m c, W26_at0 m c, W26_at1 m c, W26_at2 m c]
  rfl
theorem V_eq27 (c : Dev nD) : V27 m (outs m) c = W27 m c := by
  show StableHlo.after hostOps9 (V26 m (outs m) c) = _
  rw [V_eq26 m c]
theorem V_eq28 (c : Dev nD) : V28 m (outs m) c = W28 m c := by
  show Function.update (V27 m (outs m) c) main_v206 (W28 m c main_v206) = _
  rw [V_eq27 m c, W28_at0 m c]
  rfl
theorem V_eq29 (c : Dev nD) : V29 m (outs m) c = W29 m c := by
  show StableHlo.after hostOps10 (V28 m (outs m) c) = _
  rw [V_eq28 m c]
theorem V_eq30 (c : Dev nD) : V30 m (outs m) c = W30 m c := by
  show StableHlo.after hostOps10_1 (V29 m (outs m) c) = _
  rw [V_eq29 m c]
theorem V_eq31 (c : Dev nD) : V31 m (outs m) c = W31 m c := by
  show StableHlo.after hostOps10_2 (V30 m (outs m) c) = _
  rw [V_eq30 m c]
theorem V_eq32 (c : Dev nD) : V32 m (outs m) c = W32 m c := by
  show StableHlo.after hostOps10_3 (V31 m (outs m) c) = _
  rw [V_eq31 m c]
theorem V_eq33 (c : Dev nD) : V33 m (outs m) c = W33 m c := by
  show StableHlo.after hostOps10_4 (V32 m (outs m) c) = _
  rw [V_eq32 m c]
theorem V_eq34 (c : Dev nD) : V34 m (outs m) c = W34 m c := by
  show Function.update (V33 m (outs m) c) main_v253 (W34 m c main_v253) = _
  rw [V_eq33 m c, W34_at0 m c]
  rfl
theorem V_eq35 (c : Dev nD) : V35 m (outs m) c = W35 m c := by
  show StableHlo.after hostOps11 (V34 m (outs m) c) = _
  rw [V_eq34 m c]
theorem V_eq36 (c : Dev nD) : V36 m (outs m) c = W36 m c := by
  show Function.update (V35 m (outs m) c) main_v260 (W36 m c main_v260) = _
  rw [V_eq35 m c, W36_at0 m c]
  rfl
theorem V_eq37 (c : Dev nD) : V37 m (outs m) c = W37 m c := by
  show StableHlo.after hostOps12 (V36 m (outs m) c) = _
  rw [V_eq36 m c]
theorem V_eq38 (c : Dev nD) : V38 m (outs m) c = W38 m c := by
  show Function.update (V37 m (outs m) c) main_v281 (W38 m c main_v281) = _
  rw [V_eq37 m c, W38_at0 m c]
  rfl
theorem V_eq39 (c : Dev nD) : V39 m (outs m) c = W39 m c := by
  show StableHlo.after hostOps13 (V38 m (outs m) c) = _
  rw [V_eq38 m c]
theorem V_eq40 (c : Dev nD) : V40 m (outs m) c = W40 m c := by
  show StableHlo.after hostOps13_1 (V39 m (outs m) c) = _
  rw [V_eq39 m c]
theorem V_eq41 (c : Dev nD) : V41 m (outs m) c = W41 m c := by
  show StableHlo.after hostOps13_2 (V40 m (outs m) c) = _
  rw [V_eq40 m c]
theorem V_eq42 (c : Dev nD) : V42 m (outs m) c = W42 m c := by
  show Function.update (Function.update (Function.update (V41 m (outs m) c) main_v320_0 (W42 m c main_v320_0)) main_v320_1 (W42 m c main_v320_1)) main_v320_2 (W42 m c main_v320_2) = _
  rw [V_eq41 m c, W42_at0 m c, W42_at1 m c, W42_at2 m c]
  rfl
theorem V_eq43 (c : Dev nD) : V43 m (outs m) c = W43 m c := by
  show StableHlo.after hostOps14 (V42 m (outs m) c) = _
  rw [V_eq42 m c]
theorem V_eq44 (c : Dev nD) : V44 m (outs m) c = W44 m c := by
  show Function.update (V43 m (outs m) c) main_v333 (W44 m c main_v333) = _
  rw [V_eq43 m c, W44_at0 m c]
  rfl
theorem V_eq45 (c : Dev nD) : V45 m (outs m) c = W45 m c := by
  show StableHlo.after hostOps15 (V44 m (outs m) c) = _
  rw [V_eq44 m c]
theorem V_eq46 (c : Dev nD) : V46 m (outs m) c = W46 m c := by
  show StableHlo.after hostOps15_1 (V45 m (outs m) c) = _
  rw [V_eq45 m c]
theorem V_eq47 (c : Dev nD) : V47 m (outs m) c = W47 m c := by
  show StableHlo.after hostOps15_2 (V46 m (outs m) c) = _
  rw [V_eq46 m c]
theorem V_eq48 (c : Dev nD) : V48 m (outs m) c = W48 m c := by
  show StableHlo.after hostOps15_3 (V47 m (outs m) c) = _
  rw [V_eq47 m c]
theorem V_eq49 (c : Dev nD) : V49 m (outs m) c = W49 m c := by
  show StableHlo.after hostOps15_4 (V48 m (outs m) c) = _
  rw [V_eq48 m c]
theorem V_eq50 (c : Dev nD) : V50 m (outs m) c = W50 m c := by
  show Function.update (V49 m (outs m) c) main_v380 (W50 m c main_v380) = _
  rw [V_eq49 m c, W50_at0 m c]
  rfl
theorem V_eq51 (c : Dev nD) : V51 m (outs m) c = W51 m c := by
  show StableHlo.after hostOps16 (V50 m (outs m) c) = _
  rw [V_eq50 m c]
theorem V_eq52 (c : Dev nD) : V52 m (outs m) c = W52 m c := by
  show Function.update (V51 m (outs m) c) main_v387 (W52 m c main_v387) = _
  rw [V_eq51 m c, W52_at0 m c]
  rfl
theorem V_eq53 (c : Dev nD) : V53 m (outs m) c = W53 m c := by
  show StableHlo.after hostOps17 (V52 m (outs m) c) = _
  rw [V_eq52 m c]
theorem V_eq54 (c : Dev nD) : V54 m (outs m) c = W54 m c := by
  show Function.update (V53 m (outs m) c) main_v408 (W54 m c main_v408) = _
  rw [V_eq53 m c, W54_at0 m c]
  rfl
theorem V_eq55 (c : Dev nD) : V55 m (outs m) c = W55 m c := by
  show StableHlo.after hostOps18 (V54 m (outs m) c) = _
  rw [V_eq54 m c]
theorem V_eq56 (c : Dev nD) : V56 m (outs m) c = W56 m c := by
  show StableHlo.after hostOps18_1 (V55 m (outs m) c) = _
  rw [V_eq55 m c]
theorem V_eq57 (c : Dev nD) : V57 m (outs m) c = W57 m c := by
  show StableHlo.after hostOps18_2 (V56 m (outs m) c) = _
  rw [V_eq56 m c]
theorem V_eq58 (c : Dev nD) : V58 m (outs m) c = W58 m c := by
  show Function.update (Function.update (Function.update (V57 m (outs m) c) main_v447_0 (W58 m c main_v447_0)) main_v447_1 (W58 m c main_v447_1)) main_v447_2 (W58 m c main_v447_2) = _
  rw [V_eq57 m c, W58_at0 m c, W58_at1 m c, W58_at2 m c]
  rfl
theorem V_eq59 (c : Dev nD) : V59 m (outs m) c = W59 m c := by
  show StableHlo.after hostOps19 (V58 m (outs m) c) = _
  rw [V_eq58 m c]
theorem V_eq60 (c : Dev nD) : V60 m (outs m) c = W60 m c := by
  show Function.update (V59 m (outs m) c) main_v460 (W60 m c main_v460) = _
  rw [V_eq59 m c, W60_at0 m c]
  rfl
theorem V_eq61 (c : Dev nD) : V61 m (outs m) c = W61 m c := by
  show StableHlo.after hostOps20 (V60 m (outs m) c) = _
  rw [V_eq60 m c]
theorem V_eq62 (c : Dev nD) : V62 m (outs m) c = W62 m c := by
  show StableHlo.after hostOps20_1 (V61 m (outs m) c) = _
  rw [V_eq61 m c]
theorem V_eq63 (c : Dev nD) : V63 m (outs m) c = W63 m c := by
  show StableHlo.after hostOps20_2 (V62 m (outs m) c) = _
  rw [V_eq62 m c]
theorem V_eq64 (c : Dev nD) : V64 m (outs m) c = W64 m c := by
  show StableHlo.after hostOps20_3 (V63 m (outs m) c) = _
  rw [V_eq63 m c]
theorem V_eq65 (c : Dev nD) : V65 m (outs m) c = W65 m c := by
  show StableHlo.after hostOps20_4 (V64 m (outs m) c) = _
  rw [V_eq64 m c]
theorem V_eq66 (c : Dev nD) : V66 m (outs m) c = W66 m c := by
  show Function.update (V65 m (outs m) c) main_v507 (W66 m c main_v507) = _
  rw [V_eq65 m c, W66_at0 m c]
  rfl
theorem V_eq67 (c : Dev nD) : V67 m (outs m) c = W67 m c := by
  show StableHlo.after hostOps21 (V66 m (outs m) c) = _
  rw [V_eq66 m c]
theorem V_eq68 (c : Dev nD) : V68 m (outs m) c = W68 m c := by
  show Function.update (V67 m (outs m) c) main_v514 (W68 m c main_v514) = _
  rw [V_eq67 m c, W68_at0 m c]
  rfl
theorem V_eq69 (c : Dev nD) : V69 m (outs m) c = W69 m c := by
  show StableHlo.after hostOps22 (V68 m (outs m) c) = _
  rw [V_eq68 m c]
theorem V_eq70 (c : Dev nD) : V70 m (outs m) c = W70 m c := by
  show Function.update (V69 m (outs m) c) main_v535 (W70 m c main_v535) = _
  rw [V_eq69 m c, W70_at0 m c]
  rfl

end Cert.KernelIdeal.Run

end
-- ==== Proof.KSeg0.lean ====
/- Region 0 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 0's exit each of its arrays holds what the pipeline leaves: an input's array its entry contents, an output's its write-backs. -/
theorem hF0 (c : Dev nD) (w : Fin cfg0.W) : (Reg.dat0 (T1 m) c).arrAt w cfg0.N = T2 m c (Pipeline.arrRef spec0 w) := by
  match w with
  | ⟨0, _⟩ => exact (((Reg.dat0 (T1 m) c).arrAt_in 0 rfl _).trans (Reg.A_eq0 (T1 m) c 0)).trans (W2_of_ne m c (Pipeline.arrRef spec0 0) (by decide)).symm
  | ⟨1, _⟩ => exact (((Reg.dat0 (T1 m) c).arrAt_in 1 rfl _).trans (Reg.A_eq0 (T1 m) c 1)).trans (W2_of_ne m c (Pipeline.arrRef spec0 1) (by decide)).symm
  | ⟨2, _⟩ => exact (((Reg.dat0 (T1 m) c).arrAt_in 2 rfl _).trans (Reg.A_eq0 (T1 m) c 2)).trans (W2_of_ne m c (Pipeline.arrRef spec0 2) (by decide)).symm
  | ⟨3, _⟩ => exact (W2_at0 m c).symm
/-- Every buffer that is none of the region's arrays is kept. -/
theorem hrest0 (c : Dev nD) : ∀ b, b ∉ Finset.univ.image (Pipeline.arrRef spec0) → T2 m c b = T1 m c b :=
  fun b hb => W2_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 0 over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg.body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg1.lean ====
/- Region 1 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 1's exit each of its arrays holds what the pipeline leaves: an input's array its entry contents, an output's its write-backs. -/
theorem hF1 (c : Dev nD) (w : Fin cfg1.W) : (Reg.dat1 (T3 m) c).arrAt w cfg1.N = T4 m c (Pipeline.arrRef spec1 w) := by
  match w with
  | ⟨0, _⟩ => exact (((Reg.dat1 (T3 m) c).arrAt_in 0 rfl _).trans (Reg.A_eq1 (T3 m) c 0)).trans (W4_of_ne m c (Pipeline.arrRef spec1 0) (by decide)).symm
  | ⟨1, _⟩ => exact (((Reg.dat1 (T3 m) c).arrAt_in 1 rfl _).trans (Reg.A_eq1 (T3 m) c 1)).trans (W4_of_ne m c (Pipeline.arrRef spec1 1) (by decide)).symm
  | ⟨2, _⟩ => exact (((Reg.dat1 (T3 m) c).arrAt_in 2 rfl _).trans (Reg.A_eq1 (T3 m) c 2)).trans (W4_of_ne m c (Pipeline.arrRef spec1 2) (by decide)).symm
  | ⟨3, _⟩ => exact (W4_at0 m c).symm
/-- Every buffer that is none of the region's arrays is kept. -/
theorem hrest1 (c : Dev nD) : ∀ b, b ∉ Finset.univ.image (Pipeline.arrRef spec1) → T4 m c b = T3 m c b :=
  fun b hb => W4_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 1 over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg.body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg2.lean ====
/- Region 2 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 2's exit each of its arrays holds what the pipeline leaves: an input's array its entry contents, an output's its write-backs. -/
theorem hF2 (c : Dev nD) (w : Fin cfg2.W) : (Reg.dat2 (T5 m) c).arrAt w cfg2.N = T6 m c (Pipeline.arrRef spec2 w) := by
  match w with
  | ⟨0, _⟩ => exact (((Reg.dat2 (T5 m) c).arrAt_in 0 rfl _).trans (Reg.A_eq2 (T5 m) c 0)).trans (W6_of_ne m c (Pipeline.arrRef spec2 0) (by decide)).symm
  | ⟨1, _⟩ => exact (((Reg.dat2 (T5 m) c).arrAt_in 1 rfl _).trans (Reg.A_eq2 (T5 m) c 1)).trans (W6_of_ne m c (Pipeline.arrRef spec2 1) (by decide)).symm
  | ⟨2, _⟩ => exact (((Reg.dat2 (T5 m) c).arrAt_in 2 rfl _).trans (Reg.A_eq2 (T5 m) c 2)).trans (W6_of_ne m c (Pipeline.arrRef spec2 2) (by decide)).symm
  | ⟨3, _⟩ => exact (W6_at0 m c).symm
/-- Every buffer that is none of the region's arrays is kept. -/
theorem hrest2 (c : Dev nD) : ∀ b, b ∉ Finset.univ.image (Pipeline.arrRef spec2) → T6 m c b = T5 m c b :=
  fun b hb => W6_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 2 over the thread state. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg.body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg3.lean ====
/- Region 3 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 3's exit each of its arrays holds what the pipeline leaves: an input's array its entry contents, an output's its write-backs. -/
theorem hF3 (c : Dev nD) (w : Fin cfg3.W) : (Reg.dat3 (T9 m) c).arrAt w cfg3.N = T10 m c (Pipeline.arrRef spec3 w) := by
  match w with
  | ⟨0, _⟩ => exact (((Reg.dat3 (T9 m) c).arrAt_in 0 rfl _).trans (Reg.A_eq3 (T9 m) c 0)).trans (W10_of_ne m c (Pipeline.arrRef spec3 0) (by decide) (by decide) (by decide)).symm
  | ⟨1, _⟩ => exact (((Reg.dat3 (T9 m) c).arrAt_in 1 rfl _).trans (Reg.A_eq3 (T9 m) c 1)).trans (W10_of_ne m c (Pipeline.arrRef spec3 1) (by decide) (by decide) (by decide)).symm
  | ⟨2, _⟩ => exact (((Reg.dat3 (T9 m) c).arrAt_in 2 rfl _).trans (Reg.A_eq3 (T9 m) c 2)).trans (W10_of_ne m c (Pipeline.arrRef spec3 2) (by decide) (by decide) (by decide)).symm
  | ⟨3, _⟩ => exact (((Reg.dat3 (T9 m) c).arrAt_in 3 rfl _).trans (Reg.A_eq3 (T9 m) c 3)).trans (W10_of_ne m c (Pipeline.arrRef spec3 3) (by decide) (by decide) (by decide)).symm
  | ⟨4, _⟩ => exact (((Reg.dat3 (T9 m) c).arrAt_in 4 rfl _).trans (Reg.A_eq3 (T9 m) c 4)).trans (W10_of_ne m c (Pipeline.arrRef spec3 4) (by decide) (by decide) (by decide)).symm
  | ⟨5, _⟩ => exact (((Reg.dat3 (T9 m) c).arrAt_in 5 rfl _).trans (Reg.A_eq3 (T9 m) c 5)).trans (W10_of_ne m c (Pipeline.arrRef spec3 5) (by decide) (by decide) (by decide)).symm
  | ⟨6, _⟩ => exact (W10_at0 m c).symm
  | ⟨7, _⟩ => exact (W10_at1 m c).symm
  | ⟨8, _⟩ => exact (W10_at2 m c).symm
set_option maxHeartbeats 4000000 in
/-- Every buffer that is none of the region's arrays is kept. -/
theorem hrest3 (c : Dev nD) : ∀ b, b ∉ Finset.univ.image (Pipeline.arrRef spec3) → T10 m c b = T9 m c b :=
  fun b hb => W10_of_ne m c b (fun e => hb (Finset.mem_image.mpr ⟨6, Finset.mem_univ _, e.symm ▸ rfl⟩)) (fun e => hb (Finset.mem_image.mpr ⟨7, Finset.mem_univ _, e.symm ▸ rfl⟩)) (fun e => hb (Finset.mem_image.mpr ⟨8, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 3 over the thread state. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Reg.body_obligation3 (T9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (T9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T9 m c) (T10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg4.lean ====
/- Region 4 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 4's exit each of its arrays holds what the pipeline leaves: an input's array its entry contents, an output's its write-backs. -/
theorem hF4 (c : Dev nD) (w : Fin cfg4.W) : (Reg.dat4 (T11 m) c).arrAt w cfg4.N = T12 m c (Pipeline.arrRef spec4 w) := by
  match w with
  | ⟨0, _⟩ => exact (((Reg.dat4 (T11 m) c).arrAt_in 0 rfl _).trans (Reg.A_eq4 (T11 m) c 0)).trans (W12_of_ne m c (Pipeline.arrRef spec4 0) (by decide)).symm
  | ⟨1, _⟩ => exact (((Reg.dat4 (T11 m) c).arrAt_in 1 rfl _).trans (Reg.A_eq4 (T11 m) c 1)).trans (W12_of_ne m c (Pipeline.arrRef spec4 1) (by decide)).symm
  | ⟨2, _⟩ => exact (((Reg.dat4 (T11 m) c).arrAt_in 2 rfl _).trans (Reg.A_eq4 (T11 m) c 2)).trans (W12_of_ne m c (Pipeline.arrRef spec4 2) (by decide)).symm
  | ⟨3, _⟩ => exact (W12_at0 m c).symm
/-- Every buffer that is none of the region's arrays is kept. -/
theorem hrest4 (c : Dev nD) : ∀ b, b ∉ Finset.univ.image (Pipeline.arrRef spec4) → T12 m c b = T11 m c b :=
  fun b hb => W12_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 4 over the thread state. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (Reg.body_obligation4 (T11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (T11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T11 m c) (T12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg5.lean ====
/- Region 5 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 5's exit each of its arrays holds what the pipeline leaves: an input's array its entry contents, an output's its write-backs. -/
theorem hF5 (c : Dev nD) (w : Fin cfg5.W) : (Reg.dat5 (T17 m) c).arrAt w cfg5.N = T18 m c (Pipeline.arrRef spec5 w) := by
  match w with
  | ⟨0, _⟩ => exact (((Reg.dat5 (T17 m) c).arrAt_in 0 rfl _).trans (Reg.A_eq5 (T17 m) c 0)).trans (W18_of_ne m c (Pipeline.arrRef spec5 0) (by decide)).symm
  | ⟨1, _⟩ => exact (((Reg.dat5 (T17 m) c).arrAt_in 1 rfl _).trans (Reg.A_eq5 (T17 m) c 1)).trans (W18_of_ne m c (Pipeline.arrRef spec5 1) (by decide)).symm
  | ⟨2, _⟩ => exact (((Reg.dat5 (T17 m) c).arrAt_in 2 rfl _).trans (Reg.A_eq5 (T17 m) c 2)).trans (W18_of_ne m c (Pipeline.arrRef spec5 2) (by decide)).symm
  | ⟨3, _⟩ => exact (((Reg.dat5 (T17 m) c).arrAt_in 3 rfl _).trans (Reg.A_eq5 (T17 m) c 3)).trans (W18_of_ne m c (Pipeline.arrRef spec5 3) (by decide)).symm
  | ⟨4, _⟩ => exact (((Reg.dat5 (T17 m) c).arrAt_in 4 rfl _).trans (Reg.A_eq5 (T17 m) c 4)).trans (W18_of_ne m c (Pipeline.arrRef spec5 4) (by decide)).symm
  | ⟨5, _⟩ => exact (((Reg.dat5 (T17 m) c).arrAt_in 5 rfl _).trans (Reg.A_eq5 (T17 m) c 5)).trans (W18_of_ne m c (Pipeline.arrRef spec5 5) (by decide)).symm
  | ⟨6, _⟩ => exact (W18_at0 m c).symm
set_option maxHeartbeats 4000000 in
/-- Every buffer that is none of the region's arrays is kept. -/
theorem hrest5 (c : Dev nD) : ∀ b, b ∉ Finset.univ.image (Pipeline.arrRef spec5) → T18 m c b = T17 m c b :=
  fun b hb => W18_of_ne m c b (fun e => hb (Finset.mem_image.mpr ⟨6, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 5 over the thread state. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (Reg.body_obligation5 (T17 m) c).loose
  hwaits := Pipeline.hwaits_of_owed_zero _ _ _ _ L lv 5 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec5 c (T17 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T17 m c) (T18 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg6.lean ====
/- Region 6 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 6's exit each of its arrays holds what the pipeline leaves: an input's array its entry contents, an output's its write-backs. -/
theorem hF6 (c : Dev nD) (w : Fin cfg6.W) : (Reg.dat6 (T19 m) c).arrAt w cfg6.N = T20 m c (Pipeline.arrRef spec6 w) := by
  match w with
  | ⟨0, _⟩ => exact (((Reg.dat6 (T19 m) c).arrAt_in 0 rfl _).trans (Reg.A_eq6 (T19 m) c 0)).trans (W20_of_ne m c (Pipeline.arrRef spec6 0) (by decide)).symm
  | ⟨1, _⟩ => exact (((Reg.dat6 (T19 m) c).arrAt_in 1 rfl _).trans (Reg.A_eq6 (T19 m) c 1)).trans (W20_of_ne m c (Pipeline.arrRef spec6 1) (by decide)).symm
  | ⟨2, _⟩ => exact (((Reg.dat6 (T19 m) c).arrAt_in 2 rfl _).trans (Reg.A_eq6 (T19 m) c 2)).trans (W20_of_ne m c (Pipeline.arrRef spec6 2) (by decide)).symm
  | ⟨3, _⟩ => exact (((Reg.dat6 (T19 m) c).arrAt_in 3 rfl _).trans (Reg.A_eq6 (T19 m) c 3)).trans (W20_of_ne m c (Pipeline.arrRef spec6 3) (by decide)).symm
  | ⟨4, _⟩ => exact (((Reg.dat6 (T19 m) c).arrAt_in 4 rfl _).trans (Reg.A_eq6 (T19 m) c 4)).trans (W20_of_ne m c (Pipeline.arrRef spec6 4) (by decide)).symm
  | ⟨5, _⟩ => exact (((Reg.dat6 (T19 m) c).arrAt_in 5 rfl _).trans (Reg.A_eq6 (T19 m) c 5)).trans (W20_of_ne m c (Pipeline.arrRef spec6 5) (by decide)).symm
  | ⟨6, _⟩ => exact (W20_at0 m c).symm
set_option maxHeartbeats 4000000 in
/-- Every buffer that is none of the region's arrays is kept. -/
theorem hrest6 (c : Dev nD) : ∀ b, b ∉ Finset.univ.image (Pipeline.arrRef spec6) → T20 m c b = T19 m c b :=
  fun b hb => W20_of_ne m c b (fun e => hb (Finset.mem_image.mpr ⟨6, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 6 over the thread state. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (Reg.body_obligation6 (T19 m) c).loose
  hwaits := Pipeline.hwaits_of_owed_zero _ _ _ _ L lv 6 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec6 c (T19 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T19 m c) (T20 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg7.lean ====
/- Region 7 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 7's exit each of its arrays holds what the pipeline leaves: an input's array its entry contents, an output's its write-backs. -/
theorem hF7 (c : Dev nD) (w : Fin cfg7.W) : (Reg.dat7 (T21 m) c).arrAt w cfg7.N = T22 m c (Pipeline.arrRef spec7 w) := by
  match w with
  | ⟨0, _⟩ => exact (((Reg.dat7 (T21 m) c).arrAt_in 0 rfl _).trans (Reg.A_eq7 (T21 m) c 0)).trans (W22_of_ne m c (Pipeline.arrRef spec7 0) (by decide)).symm
  | ⟨1, _⟩ => exact (((Reg.dat7 (T21 m) c).arrAt_in 1 rfl _).trans (Reg.A_eq7 (T21 m) c 1)).trans (W22_of_ne m c (Pipeline.arrRef spec7 1) (by decide)).symm
  | ⟨2, _⟩ => exact (((Reg.dat7 (T21 m) c).arrAt_in 2 rfl _).trans (Reg.A_eq7 (T21 m) c 2)).trans (W22_of_ne m c (Pipeline.arrRef spec7 2) (by decide)).symm
  | ⟨3, _⟩ => exact (W22_at0 m c).symm
/-- Every buffer that is none of the region's arrays is kept. -/
theorem hrest7 (c : Dev nD) : ∀ b, b ∉ Finset.univ.image (Pipeline.arrRef spec7) → T22 m c b = T21 m c b :=
  fun b hb => W22_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 7 over the thread state. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (Reg.body_obligation7 (T21 m) c).loose
  hwaits := Pipeline.hwaits_of_owed_zero _ _ _ _ L lv 7 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec7 c (T21 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T21 m c) (T22 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg8.lean ====
/- Region 8 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 8's exit each of its arrays holds what the pipeline leaves: an input's array its entry contents, an output's its write-backs. -/
theorem hF8 (c : Dev nD) (w : Fin cfg8.W) : (Reg.dat8 (T25 m) c).arrAt w cfg8.N = T26 m c (Pipeline.arrRef spec8 w) := by
  match w with
  | ⟨0, _⟩ => exact (((Reg.dat8 (T25 m) c).arrAt_in 0 rfl _).trans (Reg.A_eq8 (T25 m) c 0)).trans (W26_of_ne m c (Pipeline.arrRef spec8 0) (by decide) (by decide) (by decide)).symm
  | ⟨1, _⟩ => exact (((Reg.dat8 (T25 m) c).arrAt_in 1 rfl _).trans (Reg.A_eq8 (T25 m) c 1)).trans (W26_of_ne m c (Pipeline.arrRef spec8 1) (by decide) (by decide) (by decide)).symm
  | ⟨2, _⟩ => exact (((Reg.dat8 (T25 m) c).arrAt_in 2 rfl _).trans (Reg.A_eq8 (T25 m) c 2)).trans (W26_of_ne m c (Pipeline.arrRef spec8 2) (by decide) (by decide) (by decide)).symm
  | ⟨3, _⟩ => exact (((Reg.dat8 (T25 m) c).arrAt_in 3 rfl _).trans (Reg.A_eq8 (T25 m) c 3)).trans (W26_of_ne m c (Pipeline.arrRef spec8 3) (by decide) (by decide) (by decide)).symm
  | ⟨4, _⟩ => exact (((Reg.dat8 (T25 m) c).arrAt_in 4 rfl _).trans (Reg.A_eq8 (T25 m) c 4)).trans (W26_of_ne m c (Pipeline.arrRef spec8 4) (by decide) (by decide) (by decide)).symm
  | ⟨5, _⟩ => exact (((Reg.dat8 (T25 m) c).arrAt_in 5 rfl _).trans (Reg.A_eq8 (T25 m) c 5)).trans (W26_of_ne m c (Pipeline.arrRef spec8 5) (by decide) (by decide) (by decide)).symm
  | ⟨6, _⟩ => exact (W26_at0 m c).symm
  | ⟨7, _⟩ => exact (W26_at1 m c).symm
  | ⟨8, _⟩ => exact (W26_at2 m c).symm
/-- Every buffer that is none of the region's arrays is kept. -/
theorem hrest8 (c : Dev nD) : ∀ b, b ∉ Finset.univ.image (Pipeline.arrRef spec8) → T26 m c b = T25 m c b :=
  fun b hb => W26_of_ne m c b (fun e => hb (Finset.mem_image.mpr ⟨6, Finset.mem_univ _, e.symm ▸ rfl⟩)) (fun e => hb (Finset.mem_image.mpr ⟨7, Finset.mem_univ _, e.symm ▸ rfl⟩)) (fun e => hb (Finset.mem_image.mpr ⟨8, Finset.mem_univ _, e.symm ▸ rfl⟩))

-- a library lemma stated over the pipeline family unifies with the printed configuration only when unification may
-- unfold plain definitions in a metavariable's type
set_option backward.isDefEq.respectTransparency.types false in
/-- REGION 8 over the thread state. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (Reg.body_obligation8 (T25 m) c).loose
  hwaits := Pipeline.hwaits_of_owed_zero _ _ _ _ L lv 8 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec8 c (T25 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T25 m c) (T26 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg9.lean ====
/- Region 9 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 9's exit each of its arrays holds what the pipeline leaves: an input's array its entry contents, an output's its write-backs. -/
theorem hF9 (c : Dev nD) (w : Fin cfg9.W) : (Reg.dat9 (T27 m) c).arrAt w cfg9.N = T28 m c (Pipeline.arrRef spec9 w) := by
  match w with
  | ⟨0, _⟩ => exact (((Reg.dat9 (T27 m) c).arrAt_in 0 rfl _).trans (Reg.A_eq9 (T27 m) c 0)).trans (W28_of_ne m c (Pipeline.arrRef spec9 0) (by decide)).symm
  | ⟨1, _⟩ => exact (((Reg.dat9 (T27 m) c).arrAt_in 1 rfl _).trans (Reg.A_eq9 (T27 m) c 1)).trans (W28_of_ne m c (Pipeline.arrRef spec9 1) (by decide)).symm
  | ⟨2, _⟩ => exact (((Reg.dat9 (T27 m) c).arrAt_in 2 rfl _).trans (Reg.A_eq9 (T27 m) c 2)).trans (W28_of_ne m c (Pipeline.arrRef spec9 2) (by decide)).symm
  | ⟨3, _⟩ => exact (W28_at0 m c).symm
/-- Every buffer that is none of the region's arrays is kept. -/
theorem hrest9 (c : Dev nD) : ∀ b, b ∉ Finset.univ.image (Pipeline.arrRef spec9) → T28 m c b = T27 m c b :=
  fun b hb => W28_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 9 over the thread state. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (Reg.body_obligation9 (T27 m) c).loose
  hwaits := Pipeline.hwaits_of_owed_zero _ _ _ _ L lv 9 fun _ _ => rfl
  pre c := iprop(StableHlo.held (c : Thread nD τ) (Pipeline.ucRefs τ sig) (W27 m c) ∗ R c)
  post c := iprop(StableHlo.held (c : Thread nD τ) (Pipeline.ucRefs τ sig) (W28 m c) ∗ R c)
  X c := iprop(∃ r, prngReg c r)
  Y c := iprop(∃ r, prngReg c r)
  Z c := Pipeline.unscopedRest (Ix := Unit) (Name := ℕ) (U := UR sig nD τ) (Lvl := ℕ) spec9 c (T27 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T27 m c) (T28 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg10.lean ====
/- Region 10 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 10's exit each of its arrays holds what the pipeline leaves: an input's array its entry contents, an output's its write-backs. -/
theorem hF10 (c : Dev nD) (w : Fin cfg10.W) : (Reg.dat10 (T33 m) c).arrAt w cfg10.N = T34 m c (Pipeline.arrRef spec10 w) := by
  match w with
  | ⟨0, _⟩ => exact (((Reg.dat10 (T33 m) c).arrAt_in 0 rfl _).trans (Reg.A_eq10 (T33 m) c 0)).trans (W34_of_ne m c (Pipeline.arrRef spec10 0) (by decide)).symm
  | ⟨1, _⟩ => exact (((Reg.dat10 (T33 m) c).arrAt_in 1 rfl _).trans (Reg.A_eq10 (T33 m) c 1)).trans (W34_of_ne m c (Pipeline.arrRef spec10 1) (by decide)).symm
  | ⟨2, _⟩ => exact (((Reg.dat10 (T33 m) c).arrAt_in 2 rfl _).trans (Reg.A_eq10 (T33 m) c 2)).trans (W34_of_ne m c (Pipeline.arrRef spec10 2) (by decide)).symm
  | ⟨3, _⟩ => exact (((Reg.dat10 (T33 m) c).arrAt_in 3 rfl _).trans (Reg.A_eq10 (T33 m) c 3)).trans (W34_of_ne m c (Pipeline.arrRef spec10 3) (by decide)).symm
  | ⟨4, _⟩ => exact (((Reg.dat10 (T33 m) c).arrAt_in 4 rfl _).trans (Reg.A_eq10 (T33 m) c 4)).trans (W34_of_ne m c (Pipeline.arrRef spec10 4) (by decide)).symm
  | ⟨5, _⟩ => exact (((Reg.dat10 (T33 m) c).arrAt_in 5 rfl _).trans (Reg.A_eq10 (T33 m) c 5)).trans (W34_of_ne m c (Pipeline.arrRef spec10 5) (by decide)).symm
  | ⟨6, _⟩ => exact (W34_at0 m c).symm
/-- Every buffer that is none of the region's arrays is kept. -/
theorem hrest10 (c : Dev nD) : ∀ b, b ∉ Finset.univ.image (Pipeline.arrRef spec10) → T34 m c b = T33 m c b :=
  fun b hb => W34_of_ne m c b (fun e => hb (Finset.mem_image.mpr ⟨6, Finset.mem_univ _, e.symm ▸ rfl⟩))

-- a library lemma stated over the pipeline family unifies with the printed configuration only when unification may
-- unfold plain definitions in a metavariable's type
set_option backward.isDefEq.respectTransparency.types false in
/-- REGION 10 over the thread state. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (Reg.body_obligation10 (T33 m) c).loose
  hwaits := Pipeline.hwaits_of_owed_zero _ _ _ _ L lv 10 fun _ _ => rfl
  pre c := iprop(StableHlo.held (c : Thread nD τ) (Pipeline.ucRefs τ sig) (W33 m c) ∗ R c)
  post c := iprop(StableHlo.held (c : Thread nD τ) (Pipeline.ucRefs τ sig) (W34 m c) ∗ R c)
  X c := iprop(∃ r, prngReg c r)
  Y c := iprop(∃ r, prngReg c r)
  Z c := Pipeline.unscopedRest (Ix := Unit) (Name := ℕ) (U := UR sig nD τ) (Lvl := ℕ) spec10 c (T33 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (T33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (T33 m c) (T34 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg11.lean ====
/- Region 11 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 11's exit each of its arrays holds what the pipeline leaves: an input's array its entry contents, an output's its write-backs. -/
theorem hF11 (c : Dev nD) (w : Fin cfg11.W) : (Reg.dat11 (T35 m) c).arrAt w cfg11.N = T36 m c (Pipeline.arrRef spec11 w) := by
  match w with
  | ⟨0, _⟩ => exact (((Reg.dat11 (T35 m) c).arrAt_in 0 rfl _).trans (Reg.A_eq11 (T35 m) c 0)).trans (W36_of_ne m c (Pipeline.arrRef spec11 0) (by decide)).symm
  | ⟨1, _⟩ => exact (((Reg.dat11 (T35 m) c).arrAt_in 1 rfl _).trans (Reg.A_eq11 (T35 m) c 1)).trans (W36_of_ne m c (Pipeline.arrRef spec11 1) (by decide)).symm
  | ⟨2, _⟩ => exact (((Reg.dat11 (T35 m) c).arrAt_in 2 rfl _).trans (Reg.A_eq11 (T35 m) c 2)).trans (W36_of_ne m c (Pipeline.arrRef spec11 2) (by decide)).symm
  | ⟨3, _⟩ => exact (((Reg.dat11 (T35 m) c).arrAt_in 3 rfl _).trans (Reg.A_eq11 (T35 m) c 3)).trans (W36_of_ne m c (Pipeline.arrRef spec11 3) (by decide)).symm
  | ⟨4, _⟩ => exact (((Reg.dat11 (T35 m) c).arrAt_in 4 rfl _).trans (Reg.A_eq11 (T35 m) c 4)).trans (W36_of_ne m c (Pipeline.arrRef spec11 4) (by decide)).symm
  | ⟨5, _⟩ => exact (((Reg.dat11 (T35 m) c).arrAt_in 5 rfl _).trans (Reg.A_eq11 (T35 m) c 5)).trans (W36_of_ne m c (Pipeline.arrRef spec11 5) (by decide)).symm
  | ⟨6, _⟩ => exact (W36_at0 m c).symm
/-- Every buffer that is none of the region's arrays is kept. -/
theorem hrest11 (c : Dev nD) : ∀ b, b ∉ Finset.univ.image (Pipeline.arrRef spec11) → T36 m c b = T35 m c b :=
  fun b hb => W36_of_ne m c b (fun e => hb (Finset.mem_image.mpr ⟨6, Finset.mem_univ _, e.symm ▸ rfl⟩))

-- a library lemma stated over the pipeline family unifies with the printed configuration only when unification may
-- unfold plain definitions in a metavariable's type
set_option backward.isDefEq.respectTransparency.types false in
/-- REGION 11 over the thread state. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (Reg.body_obligation11 (T35 m) c).loose
  hwaits := Pipeline.hwaits_of_owed_zero _ _ _ _ L lv 11 fun _ _ => rfl
  pre c := iprop(StableHlo.held (c : Thread nD τ) (Pipeline.ucRefs τ sig) (W35 m c) ∗ R c)
  post c := iprop(StableHlo.held (c : Thread nD τ) (Pipeline.ucRefs τ sig) (W36 m c) ∗ R c)
  X c := iprop(∃ r, prngReg c r)
  Y c := iprop(∃ r, prngReg c r)
  Z c := Pipeline.unscopedRest (Ix := Unit) (Name := ℕ) (U := UR sig nD τ) (Lvl := ℕ) spec11 c (T35 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (T35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (T35 m c) (T36 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg12.lean ====
/- Region 12 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 12's exit each of its arrays holds what the pipeline leaves: an input's array its entry contents, an output's its write-backs. -/
theorem hF12 (c : Dev nD) (w : Fin cfg12.W) : (Reg.dat12 (T37 m) c).arrAt w cfg12.N = T38 m c (Pipeline.arrRef spec12 w) := by
  match w with
  | ⟨0, _⟩ => exact (((Reg.dat12 (T37 m) c).arrAt_in 0 rfl _).trans (Reg.A_eq12 (T37 m) c 0)).trans (W38_of_ne m c (Pipeline.arrRef spec12 0) (by decide)).symm
  | ⟨1, _⟩ => exact (((Reg.dat12 (T37 m) c).arrAt_in 1 rfl _).trans (Reg.A_eq12 (T37 m) c 1)).trans (W38_of_ne m c (Pipeline.arrRef spec12 1) (by decide)).symm
  | ⟨2, _⟩ => exact (((Reg.dat12 (T37 m) c).arrAt_in 2 rfl _).trans (Reg.A_eq12 (T37 m) c 2)).trans (W38_of_ne m c (Pipeline.arrRef spec12 2) (by decide)).symm
  | ⟨3, _⟩ => exact (W38_at0 m c).symm
/-- Every buffer that is none of the region's arrays is kept. -/
theorem hrest12 (c : Dev nD) : ∀ b, b ∉ Finset.univ.image (Pipeline.arrRef spec12) → T38 m c b = T37 m c b :=
  fun b hb => W38_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 12 over the thread state. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (Reg.body_obligation12 (T37 m) c).loose
  hwaits := Pipeline.hwaits_of_owed_zero _ _ _ _ L lv 12 fun _ _ => rfl
  pre c := iprop(StableHlo.held (c : Thread nD τ) (Pipeline.ucRefs τ sig) (W37 m c) ∗ R c)
  post c := iprop(StableHlo.held (c : Thread nD τ) (Pipeline.ucRefs τ sig) (W38 m c) ∗ R c)
  X c := iprop(∃ r, prngReg c r)
  Y c := iprop(∃ r, prngReg c r)
  Z c := Pipeline.unscopedRest (Ix := Unit) (Name := ℕ) (U := UR sig nD τ) (Lvl := ℕ) spec12 c (T37 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (T37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (T37 m c) (T38 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg13.lean ====
/- Region 13 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 13's exit each of its arrays holds what the pipeline leaves: an input's array its entry contents, an output's its write-backs. -/
theorem hF13 (c : Dev nD) (w : Fin cfg13.W) : (Reg.dat13 (T41 m) c).arrAt w cfg13.N = T42 m c (Pipeline.arrRef spec13 w) := by
  match w with
  | ⟨0, _⟩ => exact (((Reg.dat13 (T41 m) c).arrAt_in 0 rfl _).trans (Reg.A_eq13 (T41 m) c 0)).trans (W42_of_ne m c (Pipeline.arrRef spec13 0) (by decide) (by decide) (by decide)).symm
  | ⟨1, _⟩ => exact (((Reg.dat13 (T41 m) c).arrAt_in 1 rfl _).trans (Reg.A_eq13 (T41 m) c 1)).trans (W42_of_ne m c (Pipeline.arrRef spec13 1) (by decide) (by decide) (by decide)).symm
  | ⟨2, _⟩ => exact (((Reg.dat13 (T41 m) c).arrAt_in 2 rfl _).trans (Reg.A_eq13 (T41 m) c 2)).trans (W42_of_ne m c (Pipeline.arrRef spec13 2) (by decide) (by decide) (by decide)).symm
  | ⟨3, _⟩ => exact (((Reg.dat13 (T41 m) c).arrAt_in 3 rfl _).trans (Reg.A_eq13 (T41 m) c 3)).trans (W42_of_ne m c (Pipeline.arrRef spec13 3) (by decide) (by decide) (by decide)).symm
  | ⟨4, _⟩ => exact (((Reg.dat13 (T41 m) c).arrAt_in 4 rfl _).trans (Reg.A_eq13 (T41 m) c 4)).trans (W42_of_ne m c (Pipeline.arrRef spec13 4) (by decide) (by decide) (by decide)).symm
  | ⟨5, _⟩ => exact (((Reg.dat13 (T41 m) c).arrAt_in 5 rfl _).trans (Reg.A_eq13 (T41 m) c 5)).trans (W42_of_ne m c (Pipeline.arrRef spec13 5) (by decide) (by decide) (by decide)).symm
  | ⟨6, _⟩ => exact (W42_at0 m c).symm
  | ⟨7, _⟩ => exact (W42_at1 m c).symm
  | ⟨8, _⟩ => exact (W42_at2 m c).symm
set_option maxHeartbeats 4000000 in
/-- Every buffer that is none of the region's arrays is kept. -/
theorem hrest13 (c : Dev nD) : ∀ b, b ∉ Finset.univ.image (Pipeline.arrRef spec13) → T42 m c b = T41 m c b :=
  fun b hb => W42_of_ne m c b (fun e => hb (Finset.mem_image.mpr ⟨6, Finset.mem_univ _, e.symm ▸ rfl⟩)) (fun e => hb (Finset.mem_image.mpr ⟨7, Finset.mem_univ _, e.symm ▸ rfl⟩)) (fun e => hb (Finset.mem_image.mpr ⟨8, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 13 over the thread state. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (Reg.body_obligation13 (T41 m) c).loose
  hwaits := Pipeline.hwaits_of_owed_zero _ _ _ _ L lv 13 fun _ _ => rfl
  pre c := iprop(StableHlo.held (c : Thread nD τ) (Pipeline.ucRefs τ sig) (W41 m c) ∗ R c)
  post c := iprop(StableHlo.held (c : Thread nD τ) (Pipeline.ucRefs τ sig) (W42 m c) ∗ R c)
  X c := iprop(∃ r, prngReg c r)
  Y c := iprop(∃ r, prngReg c r)
  Z c := Pipeline.unscopedRest (Ix := Unit) (Name := ℕ) (U := UR sig nD τ) (Lvl := ℕ) spec13 c (T41 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (T41 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (T41 m c) (T42 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg14.lean ====
/- Region 14 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 14's exit each of its arrays holds what the pipeline leaves: an input's array its entry contents, an output's its write-backs. -/
theorem hF14 (c : Dev nD) (w : Fin cfg14.W) : (Reg.dat14 (T43 m) c).arrAt w cfg14.N = T44 m c (Pipeline.arrRef spec14 w) := by
  match w with
  | ⟨0, _⟩ => exact (((Reg.dat14 (T43 m) c).arrAt_in 0 rfl _).trans (Reg.A_eq14 (T43 m) c 0)).trans (W44_of_ne m c (Pipeline.arrRef spec14 0) (by decide)).symm
  | ⟨1, _⟩ => exact (((Reg.dat14 (T43 m) c).arrAt_in 1 rfl _).trans (Reg.A_eq14 (T43 m) c 1)).trans (W44_of_ne m c (Pipeline.arrRef spec14 1) (by decide)).symm
  | ⟨2, _⟩ => exact (((Reg.dat14 (T43 m) c).arrAt_in 2 rfl _).trans (Reg.A_eq14 (T43 m) c 2)).trans (W44_of_ne m c (Pipeline.arrRef spec14 2) (by decide)).symm
  | ⟨3, _⟩ => exact (W44_at0 m c).symm
/-- Every buffer that is none of the region's arrays is kept. -/
theorem hrest14 (c : Dev nD) : ∀ b, b ∉ Finset.univ.image (Pipeline.arrRef spec14) → T44 m c b = T43 m c b :=
  fun b hb => W44_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 14 over the thread state. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (Reg.body_obligation14 (T43 m) c).loose
  hwaits := Pipeline.hwaits_of_owed_zero _ _ _ _ L lv 14 fun _ _ => rfl
  pre c := iprop(StableHlo.held (c : Thread nD τ) (Pipeline.ucRefs τ sig) (W43 m c) ∗ R c)
  post c := iprop(StableHlo.held (c : Thread nD τ) (Pipeline.ucRefs τ sig) (W44 m c) ∗ R c)
  X c := iprop(∃ r, prngReg c r)
  Y c := iprop(∃ r, prngReg c r)
  Z c := Pipeline.unscopedRest (Ix := Unit) (Name := ℕ) (U := UR sig nD τ) (Lvl := ℕ) spec14 c (T43 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (T43 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (T43 m c) (T44 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg15.lean ====
/- Region 15 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 15's exit each of its arrays holds what the pipeline leaves: an input's array its entry contents, an output's its write-backs. -/
theorem hF15 (c : Dev nD) (w : Fin cfg15.W) : (Reg.dat15 (T49 m) c).arrAt w cfg15.N = T50 m c (Pipeline.arrRef spec15 w) := by
  match w with
  | ⟨0, _⟩ => exact (((Reg.dat15 (T49 m) c).arrAt_in 0 rfl _).trans (Reg.A_eq15 (T49 m) c 0)).trans (W50_of_ne m c (Pipeline.arrRef spec15 0) (by decide)).symm
  | ⟨1, _⟩ => exact (((Reg.dat15 (T49 m) c).arrAt_in 1 rfl _).trans (Reg.A_eq15 (T49 m) c 1)).trans (W50_of_ne m c (Pipeline.arrRef spec15 1) (by decide)).symm
  | ⟨2, _⟩ => exact (((Reg.dat15 (T49 m) c).arrAt_in 2 rfl _).trans (Reg.A_eq15 (T49 m) c 2)).trans (W50_of_ne m c (Pipeline.arrRef spec15 2) (by decide)).symm
  | ⟨3, _⟩ => exact (((Reg.dat15 (T49 m) c).arrAt_in 3 rfl _).trans (Reg.A_eq15 (T49 m) c 3)).trans (W50_of_ne m c (Pipeline.arrRef spec15 3) (by decide)).symm
  | ⟨4, _⟩ => exact (((Reg.dat15 (T49 m) c).arrAt_in 4 rfl _).trans (Reg.A_eq15 (T49 m) c 4)).trans (W50_of_ne m c (Pipeline.arrRef spec15 4) (by decide)).symm
  | ⟨5, _⟩ => exact (((Reg.dat15 (T49 m) c).arrAt_in 5 rfl _).trans (Reg.A_eq15 (T49 m) c 5)).trans (W50_of_ne m c (Pipeline.arrRef spec15 5) (by decide)).symm
  | ⟨6, _⟩ => exact (W50_at0 m c).symm
set_option maxHeartbeats 4000000 in
/-- Every buffer that is none of the region's arrays is kept. -/
theorem hrest15 (c : Dev nD) : ∀ b, b ∉ Finset.univ.image (Pipeline.arrRef spec15) → T50 m c b = T49 m c b :=
  fun b hb => W50_of_ne m c b (fun e => hb (Finset.mem_image.mpr ⟨6, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 15 over the thread state. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (Reg.body_obligation15 (T49 m) c).loose
  hwaits := Pipeline.hwaits_of_owed_zero _ _ _ _ L lv 15 fun _ _ => rfl
  pre c := iprop(StableHlo.held (c : Thread nD τ) (Pipeline.ucRefs τ sig) (W49 m c) ∗ R c)
  post c := iprop(StableHlo.held (c : Thread nD τ) (Pipeline.ucRefs τ sig) (W50 m c) ∗ R c)
  X c := iprop(∃ r, prngReg c r)
  Y c := iprop(∃ r, prngReg c r)
  Z c := Pipeline.unscopedRest (Ix := Unit) (Name := ℕ) (U := UR sig nD τ) (Lvl := ℕ) spec15 c (T49 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (T49 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (T49 m c) (T50 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg16.lean ====
/- Region 16 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 16's exit each of its arrays holds what the pipeline leaves: an input's array its entry contents, an output's its write-backs. -/
theorem hF16 (c : Dev nD) (w : Fin cfg16.W) : (Reg.dat16 (T51 m) c).arrAt w cfg16.N = T52 m c (Pipeline.arrRef spec16 w) := by
  match w with
  | ⟨0, _⟩ => exact (((Reg.dat16 (T51 m) c).arrAt_in 0 rfl _).trans (Reg.A_eq16 (T51 m) c 0)).trans (W52_of_ne m c (Pipeline.arrRef spec16 0) (by decide)).symm
  | ⟨1, _⟩ => exact (((Reg.dat16 (T51 m) c).arrAt_in 1 rfl _).trans (Reg.A_eq16 (T51 m) c 1)).trans (W52_of_ne m c (Pipeline.arrRef spec16 1) (by decide)).symm
  | ⟨2, _⟩ => exact (((Reg.dat16 (T51 m) c).arrAt_in 2 rfl _).trans (Reg.A_eq16 (T51 m) c 2)).trans (W52_of_ne m c (Pipeline.arrRef spec16 2) (by decide)).symm
  | ⟨3, _⟩ => exact (((Reg.dat16 (T51 m) c).arrAt_in 3 rfl _).trans (Reg.A_eq16 (T51 m) c 3)).trans (W52_of_ne m c (Pipeline.arrRef spec16 3) (by decide)).symm
  | ⟨4, _⟩ => exact (((Reg.dat16 (T51 m) c).arrAt_in 4 rfl _).trans (Reg.A_eq16 (T51 m) c 4)).trans (W52_of_ne m c (Pipeline.arrRef spec16 4) (by decide)).symm
  | ⟨5, _⟩ => exact (((Reg.dat16 (T51 m) c).arrAt_in 5 rfl _).trans (Reg.A_eq16 (T51 m) c 5)).trans (W52_of_ne m c (Pipeline.arrRef spec16 5) (by decide)).symm
  | ⟨6, _⟩ => exact (W52_at0 m c).symm
set_option maxHeartbeats 4000000 in
/-- Every buffer that is none of the region's arrays is kept. -/
theorem hrest16 (c : Dev nD) : ∀ b, b ∉ Finset.univ.image (Pipeline.arrRef spec16) → T52 m c b = T51 m c b :=
  fun b hb => W52_of_ne m c b (fun e => hb (Finset.mem_image.mpr ⟨6, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 16 over the thread state. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (Reg.body_obligation16 (T51 m) c).loose
  hwaits := Pipeline.hwaits_of_owed_zero _ _ _ _ L lv 16 fun _ _ => rfl
  pre c := iprop(StableHlo.held (c : Thread nD τ) (Pipeline.ucRefs τ sig) (W51 m c) ∗ R c)
  post c := iprop(StableHlo.held (c : Thread nD τ) (Pipeline.ucRefs τ sig) (W52 m c) ∗ R c)
  X c := iprop(∃ r, prngReg c r)
  Y c := iprop(∃ r, prngReg c r)
  Z c := Pipeline.unscopedRest (Ix := Unit) (Name := ℕ) (U := UR sig nD τ) (Lvl := ℕ) spec16 c (T51 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (T51 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (T51 m c) (T52 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg17.lean ====
/- Region 17 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 17's exit each of its arrays holds what the pipeline leaves: an input's array its entry contents, an output's its write-backs. -/
theorem hF17 (c : Dev nD) (w : Fin cfg17.W) : (Reg.dat17 (T53 m) c).arrAt w cfg17.N = T54 m c (Pipeline.arrRef spec17 w) := by
  match w with
  | ⟨0, _⟩ => exact (((Reg.dat17 (T53 m) c).arrAt_in 0 rfl _).trans (Reg.A_eq17 (T53 m) c 0)).trans (W54_of_ne m c (Pipeline.arrRef spec17 0) (by decide)).symm
  | ⟨1, _⟩ => exact (((Reg.dat17 (T53 m) c).arrAt_in 1 rfl _).trans (Reg.A_eq17 (T53 m) c 1)).trans (W54_of_ne m c (Pipeline.arrRef spec17 1) (by decide)).symm
  | ⟨2, _⟩ => exact (((Reg.dat17 (T53 m) c).arrAt_in 2 rfl _).trans (Reg.A_eq17 (T53 m) c 2)).trans (W54_of_ne m c (Pipeline.arrRef spec17 2) (by decide)).symm
  | ⟨3, _⟩ => exact (W54_at0 m c).symm
/-- Every buffer that is none of the region's arrays is kept. -/
theorem hrest17 (c : Dev nD) : ∀ b, b ∉ Finset.univ.image (Pipeline.arrRef spec17) → T54 m c b = T53 m c b :=
  fun b hb => W54_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 17 over the thread state. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (Reg.body_obligation17 (T53 m) c).loose
  hwaits := Pipeline.hwaits_of_owed_zero _ _ _ _ L lv 17 fun _ _ => rfl
  pre c := iprop(StableHlo.held (c : Thread nD τ) (Pipeline.ucRefs τ sig) (W53 m c) ∗ R c)
  post c := iprop(StableHlo.held (c : Thread nD τ) (Pipeline.ucRefs τ sig) (W54 m c) ∗ R c)
  X c := iprop(∃ r, prngReg c r)
  Y c := iprop(∃ r, prngReg c r)
  Z c := Pipeline.unscopedRest (Ix := Unit) (Name := ℕ) (U := UR sig nD τ) (Lvl := ℕ) spec17 c (T53 m c)
  hentry c := by
    rw [Pipeline.ownSems0_none]
    have hsplit := Pipeline.arrays_of_unscopedBufs (p := 17) (pcfgs (F := F)) adm (pdats m) launch17.win launch17.arr_whole c
      ((pdats m 17 c).share_full fun _ => rfl) (T53 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (T53 m c) (T54 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg18.lean ====
/- Region 18 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 18's exit each of its arrays holds what the pipeline leaves: an input's array its entry contents, an output's its write-backs. -/
theorem hF18 (c : Dev nD) (w : Fin cfg18.W) : (Reg.dat18 (T57 m) c).arrAt w cfg18.N = T58 m c (Pipeline.arrRef spec18 w) := by
  match w with
  | ⟨0, _⟩ => exact (((Reg.dat18 (T57 m) c).arrAt_in 0 rfl _).trans (Reg.A_eq18 (T57 m) c 0)).trans (W58_of_ne m c (Pipeline.arrRef spec18 0) (by decide) (by decide) (by decide)).symm
  | ⟨1, _⟩ => exact (((Reg.dat18 (T57 m) c).arrAt_in 1 rfl _).trans (Reg.A_eq18 (T57 m) c 1)).trans (W58_of_ne m c (Pipeline.arrRef spec18 1) (by decide) (by decide) (by decide)).symm
  | ⟨2, _⟩ => exact (((Reg.dat18 (T57 m) c).arrAt_in 2 rfl _).trans (Reg.A_eq18 (T57 m) c 2)).trans (W58_of_ne m c (Pipeline.arrRef spec18 2) (by decide) (by decide) (by decide)).symm
  | ⟨3, _⟩ => exact (((Reg.dat18 (T57 m) c).arrAt_in 3 rfl _).trans (Reg.A_eq18 (T57 m) c 3)).trans (W58_of_ne m c (Pipeline.arrRef spec18 3) (by decide) (by decide) (by decide)).symm
  | ⟨4, _⟩ => exact (((Reg.dat18 (T57 m) c).arrAt_in 4 rfl _).trans (Reg.A_eq18 (T57 m) c 4)).trans (W58_of_ne m c (Pipeline.arrRef spec18 4) (by decide) (by decide) (by decide)).symm
  | ⟨5, _⟩ => exact (((Reg.dat18 (T57 m) c).arrAt_in 5 rfl _).trans (Reg.A_eq18 (T57 m) c 5)).trans (W58_of_ne m c (Pipeline.arrRef spec18 5) (by decide) (by decide) (by decide)).symm
  | ⟨6, _⟩ => exact (W58_at0 m c).symm
  | ⟨7, _⟩ => exact (W58_at1 m c).symm
  | ⟨8, _⟩ => exact (W58_at2 m c).symm
/-- Every buffer that is none of the region's arrays is kept. -/
theorem hrest18 (c : Dev nD) : ∀ b, b ∉ Finset.univ.image (Pipeline.arrRef spec18) → T58 m c b = T57 m c b :=
  fun b hb => W58_of_ne m c b (fun e => hb (Finset.mem_image.mpr ⟨6, Finset.mem_univ _, e.symm ▸ rfl⟩)) (fun e => hb (Finset.mem_image.mpr ⟨7, Finset.mem_univ _, e.symm ▸ rfl⟩)) (fun e => hb (Finset.mem_image.mpr ⟨8, Finset.mem_univ _, e.symm ▸ rfl⟩))

-- a library lemma stated over the pipeline family unifies with the printed configuration only when unification may
-- unfold plain definitions in a metavariable's type
set_option backward.isDefEq.respectTransparency.types false in
/-- REGION 18 over the thread state. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (Reg.body_obligation18 (T57 m) c).loose
  hwaits := Pipeline.hwaits_of_owed_zero _ _ _ _ L lv 18 fun _ _ => rfl
  pre c := iprop(StableHlo.held (c : Thread nD τ) (Pipeline.ucRefs τ sig) (W57 m c) ∗ R c)
  post c := iprop(StableHlo.held (c : Thread nD τ) (Pipeline.ucRefs τ sig) (W58 m c) ∗ R c)
  X c := iprop(∃ r, prngReg c r)
  Y c := iprop(∃ r, prngReg c r)
  Z c := Pipeline.unscopedRest (Ix := Unit) (Name := ℕ) (U := UR sig nD τ) (Lvl := ℕ) spec18 c (T57 m c)
  hentry c := by
    rw [Pipeline.ownSems0_none]
    have hsplit := Pipeline.arrays_of_unscopedBufs (p := 18) (pcfgs (F := F)) adm (pdats m) launch18.win launch18.arr_whole c
      ((pdats m 18 c).share_full fun _ => rfl) (T57 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (T57 m c) (T58 m c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg19.lean ====
/- Region 19 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 19's exit each of its arrays holds what the pipeline leaves: an input's array its entry contents, an output's its write-backs. -/
theorem hF19 (c : Dev nD) (w : Fin cfg19.W) : (Reg.dat19 (T59 m) c).arrAt w cfg19.N = T60 m c (Pipeline.arrRef spec19 w) := by
  match w with
  | ⟨0, _⟩ => exact (((Reg.dat19 (T59 m) c).arrAt_in 0 rfl _).trans (Reg.A_eq19 (T59 m) c 0)).trans (W60_of_ne m c (Pipeline.arrRef spec19 0) (by decide)).symm
  | ⟨1, _⟩ => exact (((Reg.dat19 (T59 m) c).arrAt_in 1 rfl _).trans (Reg.A_eq19 (T59 m) c 1)).trans (W60_of_ne m c (Pipeline.arrRef spec19 1) (by decide)).symm
  | ⟨2, _⟩ => exact (((Reg.dat19 (T59 m) c).arrAt_in 2 rfl _).trans (Reg.A_eq19 (T59 m) c 2)).trans (W60_of_ne m c (Pipeline.arrRef spec19 2) (by decide)).symm
  | ⟨3, _⟩ => exact (W60_at0 m c).symm
/-- Every buffer that is none of the region's arrays is kept. -/
theorem hrest19 (c : Dev nD) : ∀ b, b ∉ Finset.univ.image (Pipeline.arrRef spec19) → T60 m c b = T59 m c b :=
  fun b hb => W60_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 19 over the thread state. -/
def reg19 : Pipeline.RegionSeg (pcfgs (F := F)) adm (pdats m) () defs₀ 𝒱₀ L lv 19 where
  win := launch19.win.to₀
  block_pos := launch19.block_pos
  stage_whole := launch19.stage_whole
  K := PEmpty
  osem k := k.elim
  ho := Pipeline.OwnSemFacts.none _
  hbody c := (Reg.body_obligation19 (T59 m) c).loose
  hwaits := Pipeline.hwaits_of_owed_zero _ _ _ _ L lv 19 fun _ _ => rfl
  pre c := iprop(StableHlo.held (c : Thread nD τ) (Pipeline.ucRefs τ sig) (W59 m c) ∗ R c)
  post c := iprop(StableHlo.held (c : Thread nD τ) (Pipeline.ucRefs τ sig) (W60 m c) ∗ R c)
  X c := iprop(∃ r, prngReg c r)
  Y c := iprop(∃ r, prngReg c r)
  Z c := Pipeline.unscopedRest (Ix := Unit) (Name := ℕ) (U := UR sig nD τ) (Lvl := ℕ) spec19 c (T59 m c)
  hentry c := by
    rw [Pipeline.ownSems0_none]
    have hsplit := Pipeline.arrays_of_unscopedBufs (p := 19) (pcfgs (F := F)) adm (pdats m) launch19.win launch19.arr_whole c
      ((pdats m 19 c).share_full fun _ => rfl) (T59 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m) ((pdats m 19 c).share_full fun _ => rfl)
      (T59 m c) (T60 m c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg20.lean ====
/- Region 20 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 20's exit each of its arrays holds what the pipeline leaves: an input's array its entry contents, an output's its write-backs. -/
theorem hF20 (c : Dev nD) (w : Fin cfg20.W) : (Reg.dat20 (T65 m) c).arrAt w cfg20.N = T66 m c (Pipeline.arrRef spec20 w) := by
  match w with
  | ⟨0, _⟩ => exact (((Reg.dat20 (T65 m) c).arrAt_in 0 rfl _).trans (Reg.A_eq20 (T65 m) c 0)).trans (W66_of_ne m c (Pipeline.arrRef spec20 0) (by decide)).symm
  | ⟨1, _⟩ => exact (((Reg.dat20 (T65 m) c).arrAt_in 1 rfl _).trans (Reg.A_eq20 (T65 m) c 1)).trans (W66_of_ne m c (Pipeline.arrRef spec20 1) (by decide)).symm
  | ⟨2, _⟩ => exact (((Reg.dat20 (T65 m) c).arrAt_in 2 rfl _).trans (Reg.A_eq20 (T65 m) c 2)).trans (W66_of_ne m c (Pipeline.arrRef spec20 2) (by decide)).symm
  | ⟨3, _⟩ => exact (((Reg.dat20 (T65 m) c).arrAt_in 3 rfl _).trans (Reg.A_eq20 (T65 m) c 3)).trans (W66_of_ne m c (Pipeline.arrRef spec20 3) (by decide)).symm
  | ⟨4, _⟩ => exact (((Reg.dat20 (T65 m) c).arrAt_in 4 rfl _).trans (Reg.A_eq20 (T65 m) c 4)).trans (W66_of_ne m c (Pipeline.arrRef spec20 4) (by decide)).symm
  | ⟨5, _⟩ => exact (((Reg.dat20 (T65 m) c).arrAt_in 5 rfl _).trans (Reg.A_eq20 (T65 m) c 5)).trans (W66_of_ne m c (Pipeline.arrRef spec20 5) (by decide)).symm
  | ⟨6, _⟩ => exact (W66_at0 m c).symm
/-- Every buffer that is none of the region's arrays is kept. -/
theorem hrest20 (c : Dev nD) : ∀ b, b ∉ Finset.univ.image (Pipeline.arrRef spec20) → T66 m c b = T65 m c b :=
  fun b hb => W66_of_ne m c b (fun e => hb (Finset.mem_image.mpr ⟨6, Finset.mem_univ _, e.symm ▸ rfl⟩))

-- a library lemma stated over the pipeline family unifies with the printed configuration only when unification may
-- unfold plain definitions in a metavariable's type
set_option backward.isDefEq.respectTransparency.types false in
/-- REGION 20 over the thread state. -/
def reg20 : Pipeline.RegionSeg (pcfgs (F := F)) adm (pdats m) () defs₀ 𝒱₀ L lv 20 where
  win := launch20.win.to₀
  block_pos := launch20.block_pos
  stage_whole := launch20.stage_whole
  K := PEmpty
  osem k := k.elim
  ho := Pipeline.OwnSemFacts.none _
  hbody c := (Reg.body_obligation20 (T65 m) c).loose
  hwaits := Pipeline.hwaits_of_owed_zero _ _ _ _ L lv 20 fun _ _ => rfl
  pre c := iprop(StableHlo.held (c : Thread nD τ) (Pipeline.ucRefs τ sig) (W65 m c) ∗ R c)
  post c := iprop(StableHlo.held (c : Thread nD τ) (Pipeline.ucRefs τ sig) (W66 m c) ∗ R c)
  X c := iprop(∃ r, prngReg c r)
  Y c := iprop(∃ r, prngReg c r)
  Z c := Pipeline.unscopedRest (Ix := Unit) (Name := ℕ) (U := UR sig nD τ) (Lvl := ℕ) spec20 c (T65 m c)
  hentry c := by
    rw [Pipeline.ownSems0_none]
    have hsplit := Pipeline.arrays_of_unscopedBufs (p := 20) (pcfgs (F := F)) adm (pdats m) launch20.win launch20.arr_whole c
      ((pdats m 20 c).share_full fun _ => rfl) (T65 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m) ((pdats m 20 c).share_full fun _ => rfl)
      (T65 m c) (T66 m c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg21.lean ====
/- Region 21 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 21's exit each of its arrays holds what the pipeline leaves: an input's array its entry contents, an output's its write-backs. -/
theorem hF21 (c : Dev nD) (w : Fin cfg21.W) : (Reg.dat21 (T67 m) c).arrAt w cfg21.N = T68 m c (Pipeline.arrRef spec21 w) := by
  match w with
  | ⟨0, _⟩ => exact (((Reg.dat21 (T67 m) c).arrAt_in 0 rfl _).trans (Reg.A_eq21 (T67 m) c 0)).trans (W68_of_ne m c (Pipeline.arrRef spec21 0) (by decide)).symm
  | ⟨1, _⟩ => exact (((Reg.dat21 (T67 m) c).arrAt_in 1 rfl _).trans (Reg.A_eq21 (T67 m) c 1)).trans (W68_of_ne m c (Pipeline.arrRef spec21 1) (by decide)).symm
  | ⟨2, _⟩ => exact (((Reg.dat21 (T67 m) c).arrAt_in 2 rfl _).trans (Reg.A_eq21 (T67 m) c 2)).trans (W68_of_ne m c (Pipeline.arrRef spec21 2) (by decide)).symm
  | ⟨3, _⟩ => exact (((Reg.dat21 (T67 m) c).arrAt_in 3 rfl _).trans (Reg.A_eq21 (T67 m) c 3)).trans (W68_of_ne m c (Pipeline.arrRef spec21 3) (by decide)).symm
  | ⟨4, _⟩ => exact (((Reg.dat21 (T67 m) c).arrAt_in 4 rfl _).trans (Reg.A_eq21 (T67 m) c 4)).trans (W68_of_ne m c (Pipeline.arrRef spec21 4) (by decide)).symm
  | ⟨5, _⟩ => exact (((Reg.dat21 (T67 m) c).arrAt_in 5 rfl _).trans (Reg.A_eq21 (T67 m) c 5)).trans (W68_of_ne m c (Pipeline.arrRef spec21 5) (by decide)).symm
  | ⟨6, _⟩ => exact (W68_at0 m c).symm
/-- Every buffer that is none of the region's arrays is kept. -/
theorem hrest21 (c : Dev nD) : ∀ b, b ∉ Finset.univ.image (Pipeline.arrRef spec21) → T68 m c b = T67 m c b :=
  fun b hb => W68_of_ne m c b (fun e => hb (Finset.mem_image.mpr ⟨6, Finset.mem_univ _, e.symm ▸ rfl⟩))

-- a library lemma stated over the pipeline family unifies with the printed configuration only when unification may
-- unfold plain definitions in a metavariable's type
set_option backward.isDefEq.respectTransparency.types false in
/-- REGION 21 over the thread state. -/
def reg21 : Pipeline.RegionSeg (pcfgs (F := F)) adm (pdats m) () defs₀ 𝒱₀ L lv 21 where
  win := launch21.win.to₀
  block_pos := launch21.block_pos
  stage_whole := launch21.stage_whole
  K := PEmpty
  osem k := k.elim
  ho := Pipeline.OwnSemFacts.none _
  hbody c := (Reg.body_obligation21 (T67 m) c).loose
  hwaits := Pipeline.hwaits_of_owed_zero _ _ _ _ L lv 21 fun _ _ => rfl
  pre c := iprop(StableHlo.held (c : Thread nD τ) (Pipeline.ucRefs τ sig) (W67 m c) ∗ R c)
  post c := iprop(StableHlo.held (c : Thread nD τ) (Pipeline.ucRefs τ sig) (W68 m c) ∗ R c)
  X c := iprop(∃ r, prngReg c r)
  Y c := iprop(∃ r, prngReg c r)
  Z c := Pipeline.unscopedRest (Ix := Unit) (Name := ℕ) (U := UR sig nD τ) (Lvl := ℕ) spec21 c (T67 m c)
  hentry c := by
    rw [Pipeline.ownSems0_none]
    have hsplit := Pipeline.arrays_of_unscopedBufs (p := 21) (pcfgs (F := F)) adm (pdats m) launch21.win launch21.arr_whole c
      ((pdats m 21 c).share_full fun _ => rfl) (T67 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m) ((pdats m 21 c).share_full fun _ => rfl)
      (T67 m c) (T68 m c) ((pdats m 21 c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KSeg22.lean ====
/- Region 22 of @main over the thread state: entered with every unscoped buffer at the contents before it, left with them at
   the contents after it; its arrays are split out of the unscoped buffers and put back at what the pipeline leaves. -/
import proofs.«425355_j88287347737110_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 22's exit each of its arrays holds what the pipeline leaves: an input's array its entry contents, an output's its write-backs. -/
theorem hF22 (c : Dev nD) (w : Fin cfg22.W) : (Reg.dat22 (T69 m) c).arrAt w cfg22.N = T70 m c (Pipeline.arrRef spec22 w) := by
  match w with
  | ⟨0, _⟩ => exact (((Reg.dat22 (T69 m) c).arrAt_in 0 rfl _).trans (Reg.A_eq22 (T69 m) c 0)).trans (W70_of_ne m c (Pipeline.arrRef spec22 0) (by decide)).symm
  | ⟨1, _⟩ => exact (((Reg.dat22 (T69 m) c).arrAt_in 1 rfl _).trans (Reg.A_eq22 (T69 m) c 1)).trans (W70_of_ne m c (Pipeline.arrRef spec22 1) (by decide)).symm
  | ⟨2, _⟩ => exact (((Reg.dat22 (T69 m) c).arrAt_in 2 rfl _).trans (Reg.A_eq22 (T69 m) c 2)).trans (W70_of_ne m c (Pipeline.arrRef spec22 2) (by decide)).symm
  | ⟨3, _⟩ => exact (((Reg.dat22 (T69 m) c).arrAt_in 3 rfl _).trans (Reg.A_eq22 (T69 m) c 3)).trans (W70_of_ne m c (Pipeline.arrRef spec22 3) (by decide)).symm
  | ⟨4, _⟩ => exact (((Reg.dat22 (T69 m) c).arrAt_in 4 rfl _).trans (Reg.A_eq22 (T69 m) c 4)).trans (W70_of_ne m c (Pipeline.arrRef spec22 4) (by decide)).symm
  | ⟨5, _⟩ => exact (((Reg.dat22 (T69 m) c).arrAt_in 5 rfl _).trans (Reg.A_eq22 (T69 m) c 5)).trans (W70_of_ne m c (Pipeline.arrRef spec22 5) (by decide)).symm
  | ⟨6, _⟩ => exact (((Reg.dat22 (T69 m) c).arrAt_in 6 rfl _).trans (Reg.A_eq22 (T69 m) c 6)).trans (W70_of_ne m c (Pipeline.arrRef spec22 6) (by decide)).symm
  | ⟨7, _⟩ => exact (((Reg.dat22 (T69 m) c).arrAt_in 7 rfl _).trans (Reg.A_eq22 (T69 m) c 7)).trans (W70_of_ne m c (Pipeline.arrRef spec22 7) (by decide)).symm
  | ⟨8, _⟩ => exact (((Reg.dat22 (T69 m) c).arrAt_in 8 rfl _).trans (Reg.A_eq22 (T69 m) c 8)).trans (W70_of_ne m c (Pipeline.arrRef spec22 8) (by decide)).symm
  | ⟨9, _⟩ => exact (W70_at0 m c).symm
set_option maxHeartbeats 4000000 in
/-- Every buffer that is none of the region's arrays is kept. -/
theorem hrest22 (c : Dev nD) : ∀ b, b ∉ Finset.univ.image (Pipeline.arrRef spec22) → T70 m c b = T69 m c b :=
  fun b hb => W70_of_ne m c b (fun e => hb (Finset.mem_image.mpr ⟨9, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 22 over the thread state. -/
def reg22 : Pipeline.RegionSeg (pcfgs (F := F)) adm (pdats m) () defs₀ 𝒱₀ L lv 22 where
  win := launch22.win.to₀
  block_pos := launch22.block_pos
  stage_whole := launch22.stage_whole
  K := PEmpty
  osem k := k.elim
  ho := Pipeline.OwnSemFacts.none _
  hbody c := (Reg.body_obligation22 (T69 m) c).loose
  hwaits := Pipeline.hwaits_of_owed_zero _ _ _ _ L lv 22 fun _ _ => rfl
  pre c := iprop(StableHlo.held (c : Thread nD τ) (Pipeline.ucRefs τ sig) (W69 m c) ∗ R c)
  post c := iprop(StableHlo.held (c : Thread nD τ) (Pipeline.ucRefs τ sig) (W70 m c) ∗ R c)
  X c := iprop(∃ r, prngReg c r)
  Y c := iprop(∃ r, prngReg c r)
  Z c := Pipeline.unscopedRest (Ix := Unit) (Name := ℕ) (U := UR sig nD τ) (Lvl := ℕ) spec22 c (T69 m c)
  hentry c := by
    rw [Pipeline.ownSems0_none]
    have hsplit := Pipeline.arrays_of_unscopedBufs (p := 22) (pcfgs (F := F)) adm (pdats m) launch22.win launch22.arr_whole c
      ((pdats m 22 c).share_full fun _ => rfl) (T69 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m) ((pdats m 22 c).share_full fun _ => rfl)
      (T69 m c) (T70 m c) ((pdats m 22 c).arrAt · cfg22.N) (hF22 m c) (hrest22 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KRun.lean ====
/- The kernel program's run: every weakly fair execution of @main terminates, nothing faulting, the result buffer at the fold's last
   contents and every argument array as launched. -/
import proofs.«425355_j88287347737110_2_alg».proof.Proof.KOuts
import proofs.«425355_j88287347737110_2_alg».proof.Proof.KSeg0
import proofs.«425355_j88287347737110_2_alg».proof.Proof.KSeg1
import proofs.«425355_j88287347737110_2_alg».proof.Proof.KSeg2
import proofs.«425355_j88287347737110_2_alg».proof.Proof.KSeg3
import proofs.«425355_j88287347737110_2_alg».proof.Proof.KSeg4
import proofs.«425355_j88287347737110_2_alg».proof.Proof.KSeg5
import proofs.«425355_j88287347737110_2_alg».proof.Proof.KSeg6
import proofs.«425355_j88287347737110_2_alg».proof.Proof.KSeg7
import proofs.«425355_j88287347737110_2_alg».proof.Proof.KSeg8
import proofs.«425355_j88287347737110_2_alg».proof.Proof.KSeg9
import proofs.«425355_j88287347737110_2_alg».proof.Proof.KSeg10
import proofs.«425355_j88287347737110_2_alg».proof.Proof.KSeg11
import proofs.«425355_j88287347737110_2_alg».proof.Proof.KSeg12
import proofs.«425355_j88287347737110_2_alg».proof.Proof.KSeg13
import proofs.«425355_j88287347737110_2_alg».proof.Proof.KSeg14
import proofs.«425355_j88287347737110_2_alg».proof.Proof.KSeg15
import proofs.«425355_j88287347737110_2_alg».proof.Proof.KSeg16
import proofs.«425355_j88287347737110_2_alg».proof.Proof.KSeg17
import proofs.«425355_j88287347737110_2_alg».proof.Proof.KSeg18
import proofs.«425355_j88287347737110_2_alg».proof.Proof.KSeg19
import proofs.«425355_j88287347737110_2_alg».proof.Proof.KSeg20
import proofs.«425355_j88287347737110_2_alg».proof.Proof.KSeg21
import proofs.«425355_j88287347737110_2_alg».proof.Proof.KSeg22
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v535) = W70 m c main_v535
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE23 := fun c => by iintro ⟨-, H⟩; iexact H)
    (reg0 m) (fun c => by rw [V_eq1 m c]; exact .rfl) (fun c => by rw [V_eq2 m c]; exact .rfl)
    (reg1 m) (fun c => by rw [V_eq3 m c]; exact .rfl) (fun c => by rw [V_eq4 m c]; exact .rfl)
    (reg2 m) (fun c => by rw [V_eq5 m c]; exact .rfl) (fun c => by rw [V_eq6 m c]; exact .rfl)
    (reg3 m) (fun c => by rw [V_eq9 m c]; exact .rfl) (fun c => by rw [V_eq10 m c]; exact .rfl)
    (reg4 m) (fun c => by rw [V_eq11 m c]; exact .rfl) (fun c => by rw [V_eq12 m c]; exact .rfl)
    (reg5 m) (fun c => by rw [V_eq17 m c]; exact .rfl) (fun c => by rw [V_eq18 m c]; exact .rfl)
    (reg6 m) (fun c => by rw [V_eq19 m c]; exact .rfl) (fun c => by rw [V_eq20 m c]; exact .rfl)
    (reg7 m) (fun c => by rw [V_eq21 m c]; exact .rfl) (fun c => by rw [V_eq22 m c]; exact .rfl)
    (reg8 m) (fun c => by rw [V_eq25 m c]; exact .rfl) (fun c => by rw [V_eq26 m c]; exact .rfl)
    (reg9 m) (fun c => by rw [V_eq27 m c]; exact .rfl) (fun c => by rw [V_eq28 m c]; exact .rfl)
    (reg10 m) (fun c => by rw [V_eq33 m c]; exact .rfl) (fun c => by rw [V_eq34 m c]; exact .rfl)
    (reg11 m) (fun c => by rw [V_eq35 m c]; exact .rfl) (fun c => by rw [V_eq36 m c]; exact .rfl)
    (reg12 m) (fun c => by rw [V_eq37 m c]; exact .rfl) (fun c => by rw [V_eq38 m c]; exact .rfl)
    (reg13 m) (fun c => by rw [V_eq41 m c]; exact .rfl) (fun c => by rw [V_eq42 m c]; exact .rfl)
    (reg14 m) (fun c => by rw [V_eq43 m c]; exact .rfl) (fun c => by rw [V_eq44 m c]; exact .rfl)
    (reg15 m) (fun c => by rw [V_eq49 m c]; exact .rfl) (fun c => by rw [V_eq50 m c]; exact .rfl)
    (reg16 m) (fun c => by rw [V_eq51 m c]; exact .rfl) (fun c => by rw [V_eq52 m c]; exact .rfl)
    (reg17 m) (fun c => by rw [V_eq53 m c]; exact .rfl) (fun c => by rw [V_eq54 m c]; exact .rfl)
    (reg18 m) (fun c => by rw [V_eq57 m c]; exact .rfl) (fun c => by rw [V_eq58 m c]; exact .rfl)
    (reg19 m) (fun c => by rw [V_eq59 m c]; exact .rfl) (fun c => by rw [V_eq60 m c]; exact .rfl)
    (reg20 m) (fun c => by rw [V_eq65 m c]; exact .rfl) (fun c => by rw [V_eq66 m c]; exact .rfl)
    (reg21 m) (fun c => by rw [V_eq67 m c]; exact .rfl) (fun c => by rw [V_eq68 m c]; exact .rfl)
    (reg22 m) (fun c => by rw [V_eq69 m c]; exact .rfl) (fun c => by rw [V_eq70 m c]; exact .rfl)

end Cert.KernelIdeal.Run

end
-- ==== Proof.Bits.Reg0.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 0: a linear layer on a one-column feature array, its frame half

The kernel body at a grid point reads a block of 5000 rows of the one-column feature array, the resident
1x32 weight row and the resident 1x32 bias row, and stores the 5000x32 block `x · w + b` whole. This module
states, at any entry contents `V` of the core's buffers, what each window's staging buffer holds around the
body, and proves the body's obligation at every grid point. -/

-- membership in a rectangle of 5000 rows: the structural look recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block's staging buffer holds the block of the point, for any proof data over `V`'s arrays whose
    body leaves that block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight row is fetched at the first point only; its block index never moves, so its staging buffer
    holds the (one) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S5000x1 := Rect.unit (s := S5000x1) ![0, 0] S5000x1.size inb_S5000x1_S5000x1_0_0
abbrev r0_1 : Rect S1x32 := Rect.unit (s := S1x32) ![0, 0] S1x32.size inb_S1x32_S1x32_0_0
abbrev r0_3 : Rect S5000x32 := Rect.unit (s := S5000x32) ![0, 0] S5000x32.size inb_S5000x32_S5000x32_0_0

/-! ## What the body leaves in the output window's buffer -/

/-- The output block after the body, from the three input blocks: its one whole store. -/
def out0_3 (x0 : Vec F S5000x1 .f32) (x1 : Vec F S1x32 .f32) (x2 : Vec F S1x32 .f32) : Vec F S5000x32 .f32 :=
  View.canon [⟨r0_3, k0_pay1 (View.ld x0 r0_0) (View.ld x1 r0_1) (View.ld x2 r0_1)⟩]

/-- The one store is the whole buffer, so it covers it. -/
theorem cover0_3 (p0 : Vec F S5000x32 .f32) (y : S5000x32.Idx) :
    ∃ pc ∈ ([⟨r0_3, p0⟩] : List (View.Piece (Elt F) S5000x32 .f32)), y ∈ pc.1.set :=
  View.cover_of_tiled [⟨r0_3, p0⟩] S5000x32.size (by rfl) y

/-! ## The body's triple -/

set_option maxHeartbeats 1000000 in
/-- The body on whole staging memrefs, the inputs' at read contents `x0 x1 x2` and the output's at anything, runs to
    the continuation holding the inputs' as they were and the output's at `out0_3` of them. -/
theorem sound_kernel0 (c : Dev nD) (E : Set ℕ) (i : grid0.Coords)
    (arg1 : Memref sig .tc .vmem S5000x1 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S5000x32 .f32) (harg4 : arg4.IsWhole)
    (x0 : Vec F S5000x1 .f32) (x1 : Vec F S1x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them; after the body at point `t`
    each input's buffer at its block and the output's at `out0_3` of the input blocks; the invariant that leaves
    the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.Bits.Reg1.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 1: a linear layer on a one-column feature array, its frame half

The kernel body at a grid point reads a block of 5000 rows of the one-column feature array, the resident
1x32 weight row and the resident 1x32 bias row, and stores the 5000x32 block `x · w + b` whole. This module
states, at any entry contents `V` of the core's buffers, what each window's staging buffer holds around the
body, and proves the body's obligation at every grid point. -/

-- membership in a rectangle of 5000 rows: the structural look recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature block's staging buffer holds the block of the point, for any proof data over `V`'s arrays whose
    body leaves that block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight row is fetched at the first point only; its block index never moves, so its staging buffer
    holds the (one) block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staging buffer whole -/

abbrev r1_0 : Rect S5000x1 := Rect.unit (s := S5000x1) ![0, 0] S5000x1.size inb_S5000x1_S5000x1_0_0
abbrev r1_1 : Rect S1x32 := Rect.unit (s := S1x32) ![0, 0] S1x32.size inb_S1x32_S1x32_0_0
abbrev r1_3 : Rect S5000x32 := Rect.unit (s := S5000x32) ![0, 0] S5000x32.size inb_S5000x32_S5000x32_0_0

/-! ## What the body leaves in the output window's buffer -/

/-- The output block after the body, from the three input blocks: its one whole store. -/
def out1_3 (x0 : Vec F S5000x1 .f32) (x1 : Vec F S1x32 .f32) (x2 : Vec F S1x32 .f32) : Vec F S5000x32 .f32 :=
  View.canon [⟨r1_3, k1_pay1 (View.ld x0 r1_0) (View.ld x1 r1_1) (View.ld x2 r1_1)⟩]

/-- The one store is the whole buffer, so it covers it. -/
theorem cover1_3 (p0 : Vec F S5000x32 .f32) (y : S5000x32.Idx) :
    ∃ pc ∈ ([⟨r1_3, p0⟩] : List (View.Piece (Elt F) S5000x32 .f32)), y ∈ pc.1.set :=
  View.cover_of_tiled [⟨r1_3, p0⟩] S5000x32.size (by rfl) y

/-! ## The body's triple -/

set_option maxHeartbeats 1000000 in
/-- The body on whole staging memrefs, the inputs' at read contents `x0 x1 x2` and the output's at anything, runs to
    the continuation holding the inputs' as they were and the output's at `out1_3` of them. -/
theorem sound_kernel1 (c : Dev nD) (E : Set ℕ) (i : grid1.Coords)
    (arg1 : Memref sig .tc .vmem S5000x1 .f32) (harg1 : arg1.IsWhole) (arg2 : Memref sig .tc .vmem S1x32 .f32) (harg2 : arg2.IsWhole)
    (arg3 : Memref sig .tc .vmem S1x32 .f32) (harg3 : arg3.IsWhole) (arg4 : Memref sig .tc .vmem S5000x32 .f32) (harg4 : arg4.IsWhole)
    (x0 : Vec F S5000x1 .f32) (x1 : Vec F S1x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them; after the body at point `t`
    each input's buffer at its block and the output's at `out1_3` of the input blocks; the invariant that leaves
    the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.Bits.Reg2.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 2 (`cc2_kernel`, pipeline 2): the body half of the frame

The kernel computes `o = x · w + b` on a row block: `x` is a block of 5000 rows of the 100000 × 32 array (one block
per grid point, 20 points), `w` (32 × 128) and `b` (1 × 128) are whole arrays fetched once and resident, and `o` is
the matching 5000 × 128 row block of the result, written back at every point.  This module states, at a parameter
`V` (the TensorCore's buffer contents when the region is entered), each window's block at a grid point, what the
body leaves in the output's staging buffer as a function of the three input blocks, the body's triple, the
pipeline's proof data and the body obligation at every point. -/

-- membership in a rectangle of 5000 rows: the structural check recurses once per coordinate of the long axis
set_option maxRecDepth 65536

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block `x` (window 0, fetched at every point): its current staging buffer holds its block at every
    point, for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight `w` (window 1, fetched at the first point only, its block index constant): at a point where it is not
    fetched the buffer still holds the previous point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias `b` (window 2, fetched at the first point only): as for the weight. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref is read or written whole -/

abbrev r2_0 : Rect S5000x32 := Rect.unit (s := S5000x32) ![0, 0] S5000x32.size inb_S5000x32_S5000x32_0_0
abbrev r2_1 : Rect S32x128 := Rect.unit (s := S32x128) ![0, 0] S32x128.size inb_S32x128_S32x128_0_0
abbrev r2_2 : Rect S1x128 := Rect.unit (s := S1x128) ![0, 0] S1x128.size inb_S1x128_S1x128_0_0
abbrev r2_3 : Rect S5000x128 := Rect.unit (s := S5000x128) ![0, 0] S5000x128.size inb_S5000x128_S5000x128_0_0

/-! ## What the body leaves in the output window's buffer -/

/-- Window 3's staging buffer after the body, from the three input blocks: its one store (the whole buffer) of the
    payload `x · w + b`. -/
def out2_3 (x0 : Vec F S5000x32 .f32) (x1 : Vec F S32x128 .f32) (x2 : Vec F S1x128 .f32) : Vec F S5000x128 .f32 :=
  View.canon [⟨r2_3, k2_pay1 (View.ld x0 r2_0) (View.ld x1 r2_1) (View.ld x2 r2_2)⟩]

/-- The one store's rectangle is the whole buffer, so it covers it. -/
theorem cover2_3 (p0 : Vec F S5000x128 .f32) (y : S5000x128.Idx) :
    ∃ pc ∈ ([⟨r2_3, p0⟩] : List (View.Piece (Elt F) S5000x128 .f32)), y ∈ pc.1.set :=
  View.cover_of_tiled [⟨r2_3, p0⟩] S5000x128.size (by rfl) y

/-! ## The body's triple -/

set_option maxHeartbeats 1000000 in
/-- The kernel body on whole staging memrefs, the inputs' at read contents `x0 x1 x2` and the output's at anything,
    runs to the continuation holding the inputs' as they were and the output's at `out2_3` of the inputs'. -/
theorem sound_kernel2 (c : Dev nD) (E : Set ℕ) (i : grid2.Coords) (arg1 : Memref sig .tc .vmem S5000x32 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.Bits.Reg3.lean ====
/- The edge-update region of one layer, its frame half, at any float model `F`.
   The body reads six windows — the row blocks `ah`, `bh`, `e`, `vh` (4000 × 128 each), the resident weight
   block `chat` (128 × 128) and the resident bias row `cbias` (1 × 128) — and writes three row blocks:
     e_new = ah + bh + (e · chat + cbias),   sigma = logistic e_new,   sigma * vh.
   Stated at a parameter `V`, the core's buffer contents when the region is entered:
   each window's block at a grid point, what the body leaves in each output buffer, the body's triple, the
   pipeline's proof data and its body obligation. -/
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: at every grid point its current staging buffer holds the window's block there, whether or not
    the block was copied in at that point (when it was not, the block index has not moved since the last copy),
    for any proof data whose array is `V`'s and whose body leaves the block in place. The window is never cut and
    never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: at every grid point its current staging buffer holds the window's block there, whether or not
    the block was copied in at that point (when it was not, the block index has not moved since the last copy),
    for any proof data whose array is `V`'s and whose body leaves the block in place. The window is never cut and
    never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: at every grid point its current staging buffer holds the window's block there, whether or not
    the block was copied in at that point (when it was not, the block index has not moved since the last copy),
    for any proof data whose array is `V`'s and whose body leaves the block in place. The window is never cut and
    never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: at every grid point its current staging buffer holds the window's block there, whether or not
    the block was copied in at that point (when it was not, the block index has not moved since the last copy),
    for any proof data whose array is `V`'s and whose body leaves the block in place. The window is never cut and
    never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: at every grid point its current staging buffer holds the window's block there, whether or not
    the block was copied in at that point (when it was not, the block index has not moved since the last copy),
    for any proof data whose array is `V`'s and whose body leaves the block in place. The window is never cut and
    never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5: at every grid point its current staging buffer holds the window's block there, whether or not
    the block was copied in at that point (when it was not, the block index has not moved since the last copy),
    for any proof data whose array is `V`'s and whose body leaves the block in place. The window is never cut and
    never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store takes a whole buffer -/

abbrev r3_0 : Rect S4000x128 := Rect.unit (s := S4000x128) ![0, 0] S4000x128.size inb_S4000x128_S4000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in each output buffer

`x0 … x5` are the contents of the six input buffers (`ah`, `bh`, `e`, `vh`, `chat`, `cbias`). Each output
buffer is written once, whole. -/

/-- Output window 6 (`e_new`): `ah + bh + (e · chat + cbias)`. -/
def out3_6 (x0 x1 x2 x3 : Vec F S4000x128 .f32) (x4 : Vec F S128x128 .f32) (x5 : Vec F S1x128 .f32) : Vec F S4000x128 .f32 :=
  View.canon [⟨r3_0, k3_pay1 (View.ld x2 r3_0) (View.ld x4 r3_1) (View.ld x5 r3_2) (View.ld x0 r3_0) (View.ld x1 r3_0)⟩]

/-- Output window 7 (`sigma`): the logistic of `e_new`. -/
def out3_7 (x0 x1 x2 x3 : Vec F S4000x128 .f32) (x4 : Vec F S128x128 .f32) (x5 : Vec F S1x128 .f32) : Vec F S4000x128 .f32 :=
  View.canon [⟨r3_0, k3_pay2 (View.ld x2 r3_0) (View.ld x4 r3_1) (View.ld x5 r3_2) (View.ld x0 r3_0) (View.ld x1 r3_0)⟩]

/-- Output window 8: `sigma * vh`. -/
def out3_8 (x0 x1 x2 x3 : Vec F S4000x128 .f32) (x4 : Vec F S128x128 .f32) (x5 : Vec F S1x128 .f32) : Vec F S4000x128 .f32 :=
  View.canon [⟨r3_0, k3_pay3 (View.ld x2 r3_0) (View.ld x4 r3_1) (View.ld x5 r3_2) (View.ld x0 r3_0) (View.ld x1 r3_0) (View.ld x3 r3_0)⟩]

/-- One whole-buffer store covers the buffer. -/
theorem cover3 (p0 : Vec F S4000x128 .f32) (y : S4000x128.Idx) :
    ∃ pc ∈ ([⟨r3_0, p0⟩] : List (View.Piece (Elt F) S4000x128 .f32)), y ∈ pc.1.set :=
  View.cover_of_tiled [⟨r3_0, p0⟩] S4000x128.size (by rfl) y

/-! ## The body's triple -/

set_option maxHeartbeats 1000000 in
/-- The kernel body on whole staging buffers, the six inputs at contents `x0 … x5` and the three outputs at
    anything, runs to a continuation that holds the inputs as they were and each output at `out3_W` of the inputs. -/
theorem sound_kernel3 (c : Dev nD) (E : Set ℕ) (i : grid3.Coords) (arg0 : Memref sig .tc .vmem S4000x128 .f32) (harg0 : arg0.IsWhole) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .f32) (harg6 : arg6.IsWhole) (arg7 : Memref sig .tc .vmem S4000x128 .f32) (harg7 : arg7.IsWhole) (arg8 : Memref sig .tc .vmem S4000x128 .f32) (harg8 : arg8.IsWhole)
    (x0 x1 x2 x3 : Vec F S4000x128 .f32) (x4 : Vec F S128x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out3_6 x0 x1 x2 x3 x4 x5) ∗ owns (c : Thread nD τ) arg7 fullShare (out3_7 x0 x1 x2 x3 x4 x5) ∗ owns (c : Thread nD τ) arg8 fullShare (out3_8 x0 x1 x2 x3 x4 x5)) -∗ K ⟨⟩))
      ⊢ wp frame (wpE (defs₀ (F := F)) Variants.none c none) E (cc3_kernel i arg0 harg0 arg1 harg1 arg2 harg2 arg3 harg3 arg4 harg4 arg5 harg5 arg6 harg6 arg7 harg7 arg8 harg8) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3 _)
  isplitl [H7]
  · iexists _; isplitr
    swap; · iexact H7
    ipureintro
    exact View.read_writes_eq_canon _ _ _ (cover3 _)
  iexists _; isplitr
  swap; · iexact H8
  ipureintro
  exact View.read_writes_eq_canon _ _ _ (cover3 _)

/-! ## The pipeline's proof data -/

/-- The proof data of this pipeline on core `c`: the arrays as the region finds them; after the body at point `t`
    each input's buffer at its block and each output's at `out3_W` of the six input blocks; the invariant says the
    rest of the core's state is untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
    | ⟨8, _⟩ => out3_8 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' buffers hold their blocks, so the body's triple applies; the invariant and the
    core's owed amounts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.Bits.Reg4.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! The node-update region (custom_call 4): per row block of 5000 rows, the output block is
    `uh + num / (den + eps)` entrywise. This module holds the region's frame half at a parameter `V`,
    the TensorCore's buffer contents when the region is entered: each window's block at a point, the
    output's staging buffer after the body, the body's triple, the pipeline's proof data and its body
    obligation. Generic in the float interpretation `F`. -/

-- membership in a rectangle of 5000 rows: the structural look recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data whose array is
    `V`'s and whose body leaves the block in place: the window is fetched at every point, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- Every load and the one store of the body take the whole 5000 x 128 staging buffer. -/
abbrev r4_0 : Rect S5000x128 := Rect.unit (s := S5000x128) ![0, 0] S5000x128.size inb_S5000x128_S5000x128_0_0

/-! ## What the body leaves in the output window's buffer -/

/-- Window 3's staging buffer after the body, from the three input blocks: its one store as a piece over the
    skeleton's payload `uh + num / (den + eps)`. -/
def out4_3 (x0 x1 x2 : Vec F S5000x128 .f32) : Vec F S5000x128 .f32 :=
  View.canon [⟨r4_0, k4_pay1 (View.ld x0 r4_0) (View.ld x1 r4_0) (View.ld x2 r4_0)⟩]

/-- The store takes the whole buffer, so it covers it. -/
theorem cover4_3 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out4_3` of the inputs'. -/
theorem sound_kernel4 (c : Dev nD) (E : Set ℕ) (i : grid4.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point
    `t` each input's buffer at its block and the output's at `out4_3` of the input blocks; the invariant is the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Reg
-- ==== Proof.Bits.Reg5.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 5: the normalise-scale-shift-relu-residual kernel, its frame half

The body reads a value block `x0` and a residual block `x1` (both 5000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block
    index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): unfetched, the block
    index has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 5000×128 block. -/
abbrev r5_0 : Rect S5000x128 := Rect.unit (s := S5000x128) ![0, 0] S5000x128.size inb_S5000x128_S5000x128_0_0
/-- The whole 1×128 row. -/
abbrev r5_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out5_6 (x0 : Vec F S5000x128 .f32) (x1 : Vec F S5000x128 .f32) (x2 : Vec F S1x128 .f32) (x3 : Vec F S1x128 .f32)
    (x4 : Vec F S1x128 .f32) (x5 : Vec F S1x128 .f32) : Vec F S5000x128 .f32 :=
  View.canon [⟨r5_0, k5_pay1 (View.ld x0 r5_0) (View.ld x2 r5_1) (View.ld x3 r5_1) (View.ld x4 r5_1) (View.ld x5 r5_1) (View.ld x1 r5_0)⟩]

/-- The one store is the whole block, so it covers it. -/
theorem cover5_6 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the inputs' at contents `x0 … x5` and the output's at anything, runs to
    the continuation holding the inputs' as they were and the output's at `out5_6` of the inputs'. -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5_kernel i arg1 harg1 arg2 harg2 arg3 harg3 arg4 harg4 arg5 harg5 arg6 harg6 arg7 harg7) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them (`V`); after the body at
    point `t` each input's buffer at its block and the output's at `out5_6` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so the kernel's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Reg
-- ==== Proof.Bits.Reg6.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 6: the normalise-scale-shift-relu-residual kernel, its frame half

The body reads a value block `x0` and a residual block `x1` (both 4000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block
    index has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): unfetched, the block
    index has not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): unfetched, the block
    index has not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): unfetched, the block
    index has not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s (`hA`) and whose body leaves the block in place (`hafter`): unfetched, the block
    index has not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s (`hA`) and whose body leaves the block in place (`hafter`): unfetched, the block
    index has not moved; the window is uncut and never idle. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 4000×128 block. -/
abbrev r6_0 : Rect S4000x128 := Rect.unit (s := S4000x128) ![0, 0] S4000x128.size inb_S4000x128_S4000x128_0_0
/-- The whole 1×128 row. -/
abbrev r6_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out6_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r6_0, k6_pay1 (View.ld x0 r6_0) (View.ld x2 r6_1) (View.ld x3 r6_1) (View.ld x4 r6_1) (View.ld x5 r6_1) (View.ld x1 r6_0)⟩]

/-- The one store is the whole block, so it covers it. -/
theorem cover6_6 (p0 : Vec F S4000x128 .f32) (y : S4000x128.Idx) :
    ∃ pc ∈ ([⟨r6_0, p0⟩] : List (View.Piece (Elt F) S4000x128 .f32)), y ∈ pc.1.set :=
  View.cover_of_tiled [⟨r6_0, p0⟩] S4000x128.size (by rfl) y

/-! ## The body's triple -/

set_option maxHeartbeats 1000000 in
/-- The kernel body on whole staging memrefs, the inputs' at contents `x0 … x5` and the output's at anything, runs to
    the continuation holding the inputs' as they were and the output's at `out6_6` of the inputs'. -/
theorem sound_kernel6 (c : Dev nD) (E : Set ℕ) (i : grid6.Coords) (arg1 : Memref sig .tc .vmem S4000x128 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6_kernel i arg1 harg1 arg2 harg2 arg3 harg3 arg4 harg4 arg5 harg5 arg6 harg6 arg7 harg7) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as the region finds them (`V`); after the body at
    point `t` each input's buffer at its block and the output's at `out6_6` of the input blocks; the invariant
    the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the kernel's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Reg
-- ==== Proof.Bits.Reg7.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 7 (`cc7_kernel`, pipeline 2): the body half of the frame

The kernel computes `o = x · w + b` on a row block: `x` is a block of 5000 rows of the 100000 × 32 array (one block
per grid point, 20 points), `w` (32 × 128) and `b` (1 × 128) are whole arrays fetched once and resident, and `o` is
the matching 5000 × 128 row block of the result, written back at every point.  This module states, at a parameter
`V` (the TensorCore's buffer contents when the region is entered), each window's block at a grid point, what the
body leaves in the output's staging buffer as a function of the three input blocks, the body's triple, the
pipeline's proof data and the body obligation at every point. -/

-- membership in a rectangle of 5000 rows: the structural check recurses once per coordinate of the long axis
set_option maxRecDepth 65536

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The row block `x` (window 0, fetched at every point): its current staging buffer holds its block at every
    point, for any proof data whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The weight `w` (window 1, fetched at the first point only, its block index constant): at a point where it is not
    fetched the buffer still holds the previous point's block, which is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The bias `b` (window 2, fetched at the first point only): as for the weight. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each memref is read or written whole -/

abbrev r7_0 : Rect S5000x32 := Rect.unit (s := S5000x32) ![0, 0] S5000x32.size inb_S5000x32_S5000x32_0_0
abbrev r7_1 : Rect S32x128 := Rect.unit (s := S32x128) ![0, 0] S32x128.size inb_S32x128_S32x128_0_0
abbrev r7_2 : Rect S1x128 := Rect.unit (s := S1x128) ![0, 0] S1x128.size inb_S1x128_S1x128_0_0
abbrev r7_3 : Rect S5000x128 := Rect.unit (s := S5000x128) ![0, 0] S5000x128.size inb_S5000x128_S5000x128_0_0

/-! ## What the body leaves in the output window's buffer -/

/-- Window 3's staging buffer after the body, from the three input blocks: its one store (the whole buffer) of the
    payload `x · w + b`. -/
def out7_3 (x0 : Vec F S5000x32 .f32) (x1 : Vec F S32x128 .f32) (x2 : Vec F S1x128 .f32) : Vec F S5000x128 .f32 :=
  View.canon [⟨r7_3, k7_pay1 (View.ld x0 r7_0) (View.ld x1 r7_1) (View.ld x2 r7_2)⟩]

/-- The one store's rectangle is the whole buffer, so it covers it. -/
theorem cover7_3 (p0 : Vec F S5000x128 .f32) (y : S5000x128.Idx) :
    ∃ pc ∈ ([⟨r7_3, p0⟩] : List (View.Piece (Elt F) S5000x128 .f32)), y ∈ pc.1.set :=
  View.cover_of_tiled [⟨r7_3, p0⟩] S5000x128.size (by rfl) y

/-! ## The body's triple -/

set_option maxHeartbeats 1000000 in
/-- The kernel body on whole staging memrefs, the inputs' at read contents `x0 x1 x2` and the output's at anything,
    runs to the continuation holding the inputs' as they were and the output's at `out7_3` of the inputs'. -/
theorem sound_kernel7 (c : Dev nD) (E : Set ℕ) (i : grid7.Coords) (arg1 : Memref sig .tc .vmem S5000x32 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 2 on core `c`: the arrays as the region finds them (`V`); after the body at point `t`
    each input's buffer at its block and the output's at `out7_3` of the input blocks; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and the
    core's obligations pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Reg

end
-- ==== Proof.Bits.Reg8.lean ====
/- The edge-update region of one layer, its frame half, at any float model `F`.
   The body reads six windows — the row blocks `ah`, `bh`, `e`, `vh` (4000 × 128 each), the resident weight
   block `chat` (128 × 128) and the resident bias row `cbias` (1 × 128) — and writes three row blocks:
     e_new = ah + bh + (e · chat + cbias),   sigma = logistic e_new,   sigma * vh.
   Stated at a parameter `V`, the core's buffer contents when the region is entered:
   each window's block at a grid point, what the body leaves in each output buffer, the body's triple, the
   pipeline's proof data and its body obligation. -/
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0: at every grid point its current staging buffer holds the window's block there, whether or not
    the block was copied in at that point (when it was not, the block index has not moved since the last copy),
    for any proof data whose array is `V`'s and whose body leaves the block in place. The window is never cut and
    never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1: at every grid point its current staging buffer holds the window's block there, whether or not
    the block was copied in at that point (when it was not, the block index has not moved since the last copy),
    for any proof data whose array is `V`'s and whose body leaves the block in place. The window is never cut and
    never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2: at every grid point its current staging buffer holds the window's block there, whether or not
    the block was copied in at that point (when it was not, the block index has not moved since the last copy),
    for any proof data whose array is `V`'s and whose body leaves the block in place. The window is never cut and
    never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3: at every grid point its current staging buffer holds the window's block there, whether or not
    the block was copied in at that point (when it was not, the block index has not moved since the last copy),
    for any proof data whose array is `V`'s and whose body leaves the block in place. The window is never cut and
    never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4: at every grid point its current staging buffer holds the window's block there, whether or not
    the block was copied in at that point (when it was not, the block index has not moved since the last copy),
    for any proof data whose array is `V`'s and whose body leaves the block in place. The window is never cut and
    never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5: at every grid point its current staging buffer holds the window's block there, whether or not
    the block was copied in at that point (when it was not, the block index has not moved since the last copy),
    for any proof data whose array is `V`'s and whose body leaves the block in place. The window is never cut and
    never idle. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and store takes a whole buffer -/

abbrev r8_0 : Rect S4000x128 := Rect.unit (s := S4000x128) ![0, 0] S4000x128.size inb_S4000x128_S4000x128_0_0
abbrev r8_1 : Rect S128x128 := Rect.unit (s := S128x128) ![0, 0] S128x128.size inb_S128x128_S128x128_0_0
abbrev r8_2 : Rect S1x128 := Rect.unit (s := S1x128) ![0, 0] S1x128.size inb_S1x128_S1x128_0_0

/-! ## What the body leaves in each output buffer

`x0 … x5` are the contents of the six input buffers (`ah`, `bh`, `e`, `vh`, `chat`, `cbias`). Each output
buffer is written once, whole. -/

/-- Output window 6 (`e_new`): `ah + bh + (e · chat + cbias)`. -/
def out8_6 (x0 x1 x2 x3 : Vec F S4000x128 .f32) (x4 : Vec F S128x128 .f32) (x5 : Vec F S1x128 .f32) : Vec F S4000x128 .f32 :=
  View.canon [⟨r8_0, k8_pay1 (View.ld x2 r8_0) (View.ld x4 r8_1) (View.ld x5 r8_2) (View.ld x0 r8_0) (View.ld x1 r8_0)⟩]

/-- Output window 7 (`sigma`): the logistic of `e_new`. -/
def out8_7 (x0 x1 x2 x3 : Vec F S4000x128 .f32) (x4 : Vec F S128x128 .f32) (x5 : Vec F S1x128 .f32) : Vec F S4000x128 .f32 :=
  View.canon [⟨r8_0, k8_pay2 (View.ld x2 r8_0) (View.ld x4 r8_1) (View.ld x5 r8_2) (View.ld x0 r8_0) (View.ld x1 r8_0)⟩]

/-- Output window 8: `sigma * vh`. -/
def out8_8 (x0 x1 x2 x3 : Vec F S4000x128 .f32) (x4 : Vec F S128x128 .f32) (x5 : Vec F S1x128 .f32) : Vec F S4000x128 .f32 :=
  View.canon [⟨r8_0, k8_pay3 (View.ld x2 r8_0) (View.ld x4 r8_1) (View.ld x5 r8_2) (View.ld x0 r8_0) (View.ld x1 r8_0) (View.ld x3 r8_0)⟩]

/-- One whole-buffer store covers the buffer. -/
theorem cover8 (p0 : Vec F S4000x128 .f32) (y : S4000x128.Idx) :
    ∃ pc ∈ ([⟨r8_0, p0⟩] : List (View.Piece (Elt F) S4000x128 .f32)), y ∈ pc.1.set :=
  View.cover_of_tiled [⟨r8_0, p0⟩] S4000x128.size (by rfl) y

/-! ## The body's triple -/

set_option maxHeartbeats 1000000 in
/-- The kernel body on whole staging buffers, the six inputs at contents `x0 … x5` and the three outputs at
    anything, runs to a continuation that holds the inputs as they were and each output at `out8_W` of the inputs. -/
theorem sound_kernel8 (c : Dev nD) (E : Set ℕ) (i : grid8.Coords) (arg0 : Memref sig .tc .vmem S4000x128 .f32) (harg0 : arg0.IsWhole) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .f32) (harg6 : arg6.IsWhole) (arg7 : Memref sig .tc .vmem S4000x128 .f32) (harg7 : arg7.IsWhole) (arg8 : Memref sig .tc .vmem S4000x128 .f32) (harg8 : arg8.IsWhole)
    (x0 x1 x2 x3 : Vec F S4000x128 .f32) (x4 : Vec F S128x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out8_6 x0 x1 x2 x3 x4 x5) ∗ owns (c : Thread nD τ) arg7 fullShare (out8_7 x0 x1 x2 x3 x4 x5) ∗ owns (c : Thread nD τ) arg8 fullShare (out8_8 x0 x1 x2 x3 x4 x5)) -∗ K ⟨⟩))
      ⊢ wp frame (wpE (defs₀ (F := F)) Variants.none c none) E (cc8_kernel i arg0 harg0 arg1 harg1 arg2 harg2 arg3 harg3 arg4 harg4 arg5 harg5 arg6 harg6 arg7 harg7 arg8 harg8) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover8 _)
  isplitl [H7]
  · iexists _; isplitr
    swap; · iexact H7
    ipureintro
    exact View.read_writes_eq_canon _ _ _ (cover8 _)
  iexists _; isplitr
  swap; · iexact H8
  ipureintro
  exact View.read_writes_eq_canon _ _ _ (cover8 _)

/-! ## The pipeline's proof data -/

/-- The proof data of this pipeline on core `c`: the arrays as the region finds them; after the body at point `t`
    each input's buffer at its block and each output's at `out8_W` of the six input blocks; the invariant says the
    rest of the core's state is untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
    | ⟨7, _⟩ => out8_7 (iblk8 V c 0 t) (iblk8 V c 1 t) (iblk8 V c 2 t) (iblk8 V c 3 t) (iblk8 V c 4 t) (iblk8 V c 5 t)
    | ⟨8, _⟩ => out8_8 (iblk8 V c 0 t) (iblk8 V c 1 t) (iblk8 V c 2 t) (iblk8 V c 3 t) (iblk8 V c 4 t) (iblk8 V c 5 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) := by dsimp only [dat8]
theorem after8_8 (c : Dev nD) (t : Fin cfg8.N) : (dat8 V c).after 8 t = out8_8 (iblk8 V c 0 t) (iblk8 V c 1 t) (iblk8 V c 2 t) (iblk8 V c 3 t) (iblk8 V c 4 t) (iblk8 V c 5 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t))

/-- The body at any point: the inputs' buffers hold their blocks, so the body's triple applies; the invariant and the
    core's owed amounts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel8 c Set.univ _ _ _ _ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Reg

end
-- ==== Proof.Bits.Reg9.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! The node-update region (custom_call 9): per row block of 5000 rows, the output block is
    `uh + num / (den + eps)` entrywise. This module holds the region's frame half at a parameter `V`,
    the TensorCore's buffer contents when the region is entered: each window's block at a point, the
    output's staging buffer after the body, the body's triple, the pipeline's proof data and its body
    obligation. Generic in the float interpretation `F`. -/

-- membership in a rectangle of 5000 rows: the structural look recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, for any proof data whose array is
    `V`'s and whose body leaves the block in place: the window is fetched at every point, uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- Every load and the one store of the body take the whole 5000 x 128 staging buffer. -/
abbrev r9_0 : Rect S5000x128 := Rect.unit (s := S5000x128) ![0, 0] S5000x128.size inb_S5000x128_S5000x128_0_0

/-! ## What the body leaves in the output window's buffer -/

/-- Window 3's staging buffer after the body, from the three input blocks: its one store as a piece over the
    skeleton's payload `uh + num / (den + eps)`. -/
def out9_3 (x0 x1 x2 : Vec F S5000x128 .f32) : Vec F S5000x128 .f32 :=
  View.canon [⟨r9_0, k9_pay1 (View.ld x0 r9_0) (View.ld x1 r9_0) (View.ld x2 r9_0)⟩]

/-- The store takes the whole buffer, so it covers it. -/
theorem cover9_3 (p0 : Vec F S5000x128 .f32) (y : S5000x128.Idx) :
    ∃ pc ∈ ([⟨r9_0, p0⟩] : List (View.Piece (Elt F) S5000x128 .f32)), y ∈ pc.1.set :=
  View.cover_of_tiled [⟨r9_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out9_3` of the inputs'. -/
theorem sound_kernel9 (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9_kernel i arg1 harg1 arg2 harg2 arg3 harg3 arg4 harg4) K := by
  simp only [cc9_kernel_eq_skeleton]; unfold cc9_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them (`V`); after the body at point
    `t` each input's buffer at its block and the output's at `out9_3` of the input blocks; the invariant is the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so `sound_kernel9` applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Reg
-- ==== Proof.Bits.Reg10.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 10: the normalise-scale-shift-relu-residual kernel, its frame half

The body reads a value block `x0` and a residual block `x1` (both 5000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): unfetched, the block
    index has not moved; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s (`hA`) and whose body leaves the block in place (`hafter`): unfetched, the block
    index has not moved; the window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s (`hA`) and whose body leaves the block in place (`hafter`): unfetched, the block
    index has not moved; the window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s (`hA`) and whose body leaves the block in place (`hafter`): unfetched, the block
    index has not moved; the window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s (`hA`) and whose body leaves the block in place (`hafter`): unfetched, the block
    index has not moved; the window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for any proof
    data whose array is `V`'s (`hA`) and whose body leaves the block in place (`hafter`): unfetched, the block
    index has not moved; the window is uncut and never idle. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

/-- The whole 5000×128 block. -/
abbrev r10_0 : Rect S5000x128 := Rect.unit (s := S5000x128) ![0, 0] S5000x128.size inb_S5000x128_S5000x128_0_0
/-- The whole 1×128 row. -/
abbrev r10_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out10_6 (x0 : Vec F S5000x128 .f32) (x1 : Vec F S5000x128 .f32) (x2 : Vec F S1x128 .f32) (x3 : Vec F S1x128 .f32)
    (x4 : Vec F S1x128 .f32) (x5 : Vec F S1x128 .f32) : Vec F S5000x128 .f32 :=
  View.canon [⟨r10_0, k10_pay1 (View.ld x0 r10_0) (View.ld x2 r10_1) (View.ld x3 r10_1) (View.ld x4 r10_1) (View.ld x5 r10_1) (View.ld x1 r10_0)⟩]

/-- The one store is the whole block, so it covers it. -/
theorem cover10_6 (p0 : Vec F S5000x128 .f32) (y : S5000x128.Idx) :
    ∃ pc ∈ ([⟨r10_0, p0⟩] : List (View.Piece (Elt F) S5000x128 .f32)), y ∈ pc.1.set :=
  View.cover_of_tiled [⟨r10_0, p0⟩] S5000x128.size (by rfl) y

/-! ## The body's triple -/

set_option maxHeartbeats 1000000 in
/-- The kernel body on whole staging memrefs, the inputs' at contents `x0 … x5` and the output's at anything, runs to
    the continuation holding the inputs' as they were and the output's at `out10_6` of the inputs'. -/
theorem sound_kernel10 (c : Dev nD) (E : Set ℕ) (i : grid10.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out10_6 x0 x1 x2 x3 x4 x5)) -∗ K ⟨⟩))
      ⊢ wp frame (wpE (defs₀ (F := F)) Variants.none c none) E (cc10_kernel i arg1 harg1 arg2 harg2 arg3 harg3 arg4 harg4 arg5 harg5 arg6 harg6 arg7 harg7) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10_6 _)

/-! ## The pipeline's proof data -/

/-- The proof data of pipeline 10 on core `c`: the arrays as the region finds them (`V`); after the body at
    point `t` each input's buffer at its block and the output's at `out10_6` of the input blocks; the invariant
    the scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10_6 (iblk10 V c 0 t) (iblk10 V c 1 t) (iblk10 V c 2 t) (iblk10 V c 3 t) (iblk10 V c 4 t) (iblk10 V c 5 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10_6 (iblk10 V c 0 t) (iblk10 V c 1 t) (iblk10 V c 2 t) (iblk10 V c 3 t) (iblk10 V c 4 t) (iblk10 V c 5 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' memrefs hold their blocks, so the kernel's triple applies; the invariant and
    the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Reg
-- ==== Proof.Bits.Reg11.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 11: the normalise-scale-shift-relu-residual kernel, its frame half

The body reads a value block `x0` and a residual block `x1` (both 4000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block
    index has not moved; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s (`hA`) and whose body leaves the block in place (`hafter`): unfetched, the block
    index has not moved; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s (`hA`) and whose body leaves the block in place (`hafter`): unfetched, the block
    index has not moved; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof
    data whose array is `V`'s (`hA`) and whose body leaves the block in place (`hafter`): unfetched, the block
    index has not moved; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof
    data whose array is `V`'s (`hA`) and whose body leaves the block in place (`hafter`): unfetched, the block
    index has not moved; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's current staging buffer holds its block at every point, fetched there or not, for any proof
    data whose array is `V`'s (`hA`) and whose body leaves the block in place (`hafter`): unfetched, the block
    index has not moved; the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- The whole 4000×128 block. -/
abbrev r11_0 : Rect S4000x128 := Rect.unit (s := S4000x128) ![0, 0] S4000x128.size inb_S4000x128_S4000x128_0_0
/-- The whole 1×128 row. -/
abbrev r11_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out11_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r11_0, k11_pay1 (View.ld x0 r11_0) (View.ld x2 r11_1) (View.ld x3 r11_1) (View.ld x4 r11_1) (View.ld x5 r11_1) (View.ld x1 r11_0)⟩]

/-- The one store is the whole block, so it covers it. -/
theorem cover11_6 (p0 : Vec F S4000x128 .f32) (y : S4000x128.Idx) :
    ∃ pc ∈ ([⟨r11_0, p0⟩] : List (View.Piece (Elt F) S4000x128 .f32)), y ∈ pc.1.set :=
  View.cover_of_tiled [⟨r11_0, p0⟩] S4000x128.size (by rfl) y

/-! ## The body's triple -/

set_option maxHeartbeats 1000000 in
/-- The kernel body on whole staging memrefs, the inputs' at contents `x0 … x5` and the output's at anything, runs to
    the continuation holding the inputs' as they were and the output's at `out11_6` of the inputs'. -/
theorem sound_kernel11 (c : Dev nD) (E : Set ℕ) (i : grid11.Coords) (arg1 : Memref sig .tc .vmem S4000x128 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out11_6 x0 x1 x2 x3 x4 x5)) -∗ K ⟨⟩))
      ⊢ wp frame (wpE (defs₀ (F := F)) Variants.none c none) E (cc11_kernel i arg1 harg1 arg2 harg2 arg3 harg3 arg4 harg4 arg5 harg5 arg6 harg6 arg7 harg7) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-! ## The pipeline's proof data -/

/-- The proof data of pipeline 11 on core `c`: the arrays as the region finds them (`V`); after the body at
    point `t` each input's buffer at its block and the output's at `out11_6` of the input blocks; the invariant
    the scoped rest and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = out11_6 (iblk11 V c 0 t) (iblk11 V c 1 t) (iblk11 V c 2 t) (iblk11 V c 3 t) (iblk11 V c 4 t) (iblk11 V c 5 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks, so the kernel's triple applies; the invariant and
    the core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ _ _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Reg
-- ==== Proof.Bits.Reg12.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 12 (`cc12_kernel`, pipeline 2): the body half of the frame

The kernel computes `o = x · w + b` on a row block: `x` is a block of 5000 rows of the 100000 × 32 array (one block
per grid point, 20 points), `w` (32 × 128) and `b` (1 × 128) are whole arrays fetched once and resident, and `o` is
the matching 5000 × 128 row block of the result, written back at every point.  This module states, at a parameter
`V` (the TensorCore's buffer contents when the region is entered), each window's block at a grid point, what the
body leaves in the output's staging buffer as a function of the three input blocks, the body's triple, the
pipeline's proof data and the body obligation at every point. -/

-- membership in a rectangle of 5000 rows: the structural check recurses once per coordinate of the long axis
set_option maxRecDepth 65536

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The row block `x` (window 0, fetched at every point): its current staging buffer holds its block at every
    point, for any proof data whose array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- The weight `w` (window 1, fetched at the first point only, its block index constant): at a point where it is not
    fetched the buffer still holds the previous point's block, which is this point's. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The bias `b` (window 2, fetched at the first point only): as for the weight. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each memref is read or written whole -/

abbrev r12_0 : Rect S5000x32 := Rect.unit (s := S5000x32) ![0, 0] S5000x32.size inb_S5000x32_S5000x32_0_0
abbrev r12_1 : Rect S32x128 := Rect.unit (s := S32x128) ![0, 0] S32x128.size inb_S32x128_S32x128_0_0
abbrev r12_2 : Rect S1x128 := Rect.unit (s := S1x128) ![0, 0] S1x128.size inb_S1x128_S1x128_0_0
abbrev r12_3 : Rect S5000x128 := Rect.unit (s := S5000x128) ![0, 0] S5000x128.size inb_S5000x128_S5000x128_0_0

/-! ## What the body leaves in the output window's buffer -/

/-- Window 3's staging buffer after the body, from the three input blocks: its one store (the whole buffer) of the
    payload `x · w + b`. -/
def out12_3 (x0 : Vec F S5000x32 .f32) (x1 : Vec F S32x128 .f32) (x2 : Vec F S1x128 .f32) : Vec F S5000x128 .f32 :=
  View.canon [⟨r12_3, k12_pay1 (View.ld x0 r12_0) (View.ld x1 r12_1) (View.ld x2 r12_2)⟩]

/-- The one store's rectangle is the whole buffer, so it covers it. -/
theorem cover12_3 (p0 : Vec F S5000x128 .f32) (y : S5000x128.Idx) :
    ∃ pc ∈ ([⟨r12_3, p0⟩] : List (View.Piece (Elt F) S5000x128 .f32)), y ∈ pc.1.set :=
  View.cover_of_tiled [⟨r12_3, p0⟩] S5000x128.size (by rfl) y

/-! ## The body's triple -/

set_option maxHeartbeats 1000000 in
/-- The kernel body on whole staging memrefs, the inputs' at read contents `x0 x1 x2` and the output's at anything,
    runs to the continuation holding the inputs' as they were and the output's at `out12_3` of the inputs'. -/
theorem sound_kernel12 (c : Dev nD) (E : Set ℕ) (i : grid12.Coords) (arg1 : Memref sig .tc .vmem S5000x32 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12_kernel i arg1 harg1 arg2 harg2 arg3 harg3 arg4 harg4) K := by
  simp only [cc12_kernel_eq_skeleton]; unfold cc12_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-! ## The pipeline's proof data -/

/-- The proof data of pipeline 2 on core `c`: the arrays as the region finds them (`V`); after the body at point `t`
    each input's buffer at its block and the output's at `out12_3` of the input blocks; the invariant the scoped rest
    and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = out12_3 (iblk12 V c 0 t) (iblk12 V c 1 t) (iblk12 V c 2 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' memrefs hold their blocks, so the body's triple applies; the invariant and the
    core's obligations pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Reg

end
-- ==== Proof.Bits.Reg13.lean ====
/- The edge-update region of one layer, its frame half, at any float model `F`.
   The body reads six windows — the row blocks `ah`, `bh`, `e`, `vh` (4000 × 128 each), the resident weight
   block `chat` (128 × 128) and the resident bias row `cbias` (1 × 128) — and writes three row blocks:
     e_new = ah + bh + (e · chat + cbias),   sigma = logistic e_new,   sigma * vh.
   Stated at a parameter `V`, the core's buffer contents when the region is entered:
   each window's block at a grid point, what the body leaves in each output buffer, the body's triple, the
   pipeline's proof data and its body obligation. -/
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0: at every grid point its current staging buffer holds the window's block there, whether or not
    the block was copied in at that point (when it was not, the block index has not moved since the last copy),
    for any proof data whose array is `V`'s and whose body leaves the block in place. The window is never cut and
    never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1: at every grid point its current staging buffer holds the window's block there, whether or not
    the block was copied in at that point (when it was not, the block index has not moved since the last copy),
    for any proof data whose array is `V`'s and whose body leaves the block in place. The window is never cut and
    never idle. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2: at every grid point its current staging buffer holds the window's block there, whether or not
    the block was copied in at that point (when it was not, the block index has not moved since the last copy),
    for any proof data whose array is `V`'s and whose body leaves the block in place. The window is never cut and
    never idle. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3: at every grid point its current staging buffer holds the window's block there, whether or not
    the block was copied in at that point (when it was not, the block index has not moved since the last copy),
    for any proof data whose array is `V`'s and whose body leaves the block in place. The window is never cut and
    never idle. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4: at every grid point its current staging buffer holds the window's block there, whether or not
    the block was copied in at that point (when it was not, the block index has not moved since the last copy),
    for any proof data whose array is `V`'s and whose body leaves the block in place. The window is never cut and
    never idle. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5: at every grid point its current staging buffer holds the window's block there, whether or not
    the block was copied in at that point (when it was not, the block index has not moved since the last copy),
    for any proof data whose array is `V`'s and whose body leaves the block in place. The window is never cut and
    never idle. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: every load and store takes a whole buffer -/

abbrev r13_0 : Rect S4000x128 := Rect.unit (s := S4000x128) ![0, 0] S4000x128.size inb_S4000x128_S4000x128_0_0
abbrev r13_1 : Rect S128x128 := Rect.unit (s := S128x128) ![0, 0] S128x128.size inb_S128x128_S128x128_0_0
abbrev r13_2 : Rect S1x128 := Rect.unit (s := S1x128) ![0, 0] S1x128.size inb_S1x128_S1x128_0_0

/-! ## What the body leaves in each output buffer

`x0 … x5` are the contents of the six input buffers (`ah`, `bh`, `e`, `vh`, `chat`, `cbias`). Each output
buffer is written once, whole. -/

/-- Output window 6 (`e_new`): `ah + bh + (e · chat + cbias)`. -/
def out13_6 (x0 x1 x2 x3 : Vec F S4000x128 .f32) (x4 : Vec F S128x128 .f32) (x5 : Vec F S1x128 .f32) : Vec F S4000x128 .f32 :=
  View.canon [⟨r13_0, k13_pay1 (View.ld x2 r13_0) (View.ld x4 r13_1) (View.ld x5 r13_2) (View.ld x0 r13_0) (View.ld x1 r13_0)⟩]

/-- Output window 7 (`sigma`): the logistic of `e_new`. -/
def out13_7 (x0 x1 x2 x3 : Vec F S4000x128 .f32) (x4 : Vec F S128x128 .f32) (x5 : Vec F S1x128 .f32) : Vec F S4000x128 .f32 :=
  View.canon [⟨r13_0, k13_pay2 (View.ld x2 r13_0) (View.ld x4 r13_1) (View.ld x5 r13_2) (View.ld x0 r13_0) (View.ld x1 r13_0)⟩]

/-- Output window 8: `sigma * vh`. -/
def out13_8 (x0 x1 x2 x3 : Vec F S4000x128 .f32) (x4 : Vec F S128x128 .f32) (x5 : Vec F S1x128 .f32) : Vec F S4000x128 .f32 :=
  View.canon [⟨r13_0, k13_pay3 (View.ld x2 r13_0) (View.ld x4 r13_1) (View.ld x5 r13_2) (View.ld x0 r13_0) (View.ld x1 r13_0) (View.ld x3 r13_0)⟩]

/-- One whole-buffer store covers the buffer. -/
theorem cover13 (p0 : Vec F S4000x128 .f32) (y : S4000x128.Idx) :
    ∃ pc ∈ ([⟨r13_0, p0⟩] : List (View.Piece (Elt F) S4000x128 .f32)), y ∈ pc.1.set :=
  View.cover_of_tiled [⟨r13_0, p0⟩] S4000x128.size (by rfl) y

/-! ## The body's triple -/

set_option maxHeartbeats 1000000 in
/-- The kernel body on whole staging buffers, the six inputs at contents `x0 … x5` and the three outputs at
    anything, runs to a continuation that holds the inputs as they were and each output at `out13_W` of the inputs. -/
theorem sound_kernel13 (c : Dev nD) (E : Set ℕ) (i : grid13.Coords) (arg0 : Memref sig .tc .vmem S4000x128 .f32) (harg0 : arg0.IsWhole) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .f32) (harg6 : arg6.IsWhole) (arg7 : Memref sig .tc .vmem S4000x128 .f32) (harg7 : arg7.IsWhole) (arg8 : Memref sig .tc .vmem S4000x128 .f32) (harg8 : arg8.IsWhole)
    (x0 x1 x2 x3 : Vec F S4000x128 .f32) (x4 : Vec F S128x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out13_6 x0 x1 x2 x3 x4 x5) ∗ owns (c : Thread nD τ) arg7 fullShare (out13_7 x0 x1 x2 x3 x4 x5) ∗ owns (c : Thread nD τ) arg8 fullShare (out13_8 x0 x1 x2 x3 x4 x5)) -∗ K ⟨⟩))
      ⊢ wp frame (wpE (defs₀ (F := F)) Variants.none c none) E (cc13_kernel i arg0 harg0 arg1 harg1 arg2 harg2 arg3 harg3 arg4 harg4 arg5 harg5 arg6 harg6 arg7 harg7 arg8 harg8) K := by
  simp only [cc13_kernel_eq_skeleton]; unfold cc13_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover13 _)
  isplitl [H7]
  · iexists _; isplitr
    swap; · iexact H7
    ipureintro
    exact View.read_writes_eq_canon _ _ _ (cover13 _)
  iexists _; isplitr
  swap; · iexact H8
  ipureintro
  exact View.read_writes_eq_canon _ _ _ (cover13 _)

/-! ## The pipeline's proof data -/

/-- The proof data of this pipeline on core `c`: the arrays as the region finds them; after the body at point `t`
    each input's buffer at its block and each output's at `out13_W` of the six input blocks; the invariant says the
    rest of the core's state is untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
    | ⟨7, _⟩ => out13_7 (iblk13 V c 0 t) (iblk13 V c 1 t) (iblk13 V c 2 t) (iblk13 V c 3 t) (iblk13 V c 4 t) (iblk13 V c 5 t)
    | ⟨8, _⟩ => out13_8 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]
theorem after13_7 (c : Dev nD) (t : Fin cfg13.N) : (dat13 V c).after 7 t = out13_7 (iblk13 V c 0 t) (iblk13 V c 1 t) (iblk13 V c 2 t) (iblk13 V c 3 t) (iblk13 V c 4 t) (iblk13 V c 5 t) := by dsimp only [dat13]
theorem after13_8 (c : Dev nD) (t : Fin cfg13.N) : (dat13 V c).after 8 t = out13_8 (iblk13 V c 0 t) (iblk13 V c 1 t) (iblk13 V c 2 t) (iblk13 V c 3 t) (iblk13 V c 4 t) (iblk13 V c 5 t) := by dsimp only [dat13]

/-- Each input's current staging buffer holds its block at every point. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d))
    ∗ (∃ d, owns (c : Thread nD τ) (st13_8 t) fullShare ((dat13 V c).before 8 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t)
    ∗ owns (c : Thread nD τ) (st13_8 t) fullShare ((dat13 V c).after 8 t))

/-- The body at any point: the inputs' buffers hold their blocks, so the body's triple applies; the invariant and the
    core's owed amounts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7, after13_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel13 c Set.univ _ _ _ _ _ _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Reg

end
-- ==== Proof.Bits.Reg14.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! The node-update region (custom_call 14): per row block of 5000 rows, the output block is
    `uh + num / (den + eps)` entrywise. This module holds the region's frame half at a parameter `V`,
    the TensorCore's buffer contents when the region is entered: each window's block at a point, the
    output's staging buffer after the body, the body's triple, the pipeline's proof data and its body
    obligation. Generic in the float interpretation `F`. -/

-- membership in a rectangle of 5000 rows: the structural look recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, for any proof data whose array is
    `V`'s and whose body leaves the block in place: the window is fetched at every point, uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses -/

/-- Every load and the one store of the body take the whole 5000 x 128 staging buffer. -/
abbrev r14_0 : Rect S5000x128 := Rect.unit (s := S5000x128) ![0, 0] S5000x128.size inb_S5000x128_S5000x128_0_0

/-! ## What the body leaves in the output window's buffer -/

/-- Window 3's staging buffer after the body, from the three input blocks: its one store as a piece over the
    skeleton's payload `uh + num / (den + eps)`. -/
def out14_3 (x0 x1 x2 : Vec F S5000x128 .f32) : Vec F S5000x128 .f32 :=
  View.canon [⟨r14_0, k14_pay1 (View.ld x0 r14_0) (View.ld x1 r14_0) (View.ld x2 r14_0)⟩]

/-- The store takes the whole buffer, so it covers it. -/
theorem cover14_3 (p0 : Vec F S5000x128 .f32) (y : S5000x128.Idx) :
    ∃ pc ∈ ([⟨r14_0, p0⟩] : List (View.Piece (Elt F) S5000x128 .f32)), y ∈ pc.1.set :=
  View.cover_of_tiled [⟨r14_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out14_3` of the inputs'. -/
theorem sound_kernel14 (c : Dev nD) (E : Set ℕ) (i : grid14.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out14_3 x0 x1 x2)) -∗ K ⟨⟩))
      ⊢ wp frame (wpE (defs₀ (F := F)) Variants.none c none) E (cc14_kernel i arg1 harg1 arg2 harg2 arg3 harg3 arg4 harg4) K := by
  simp only [cc14_kernel_eq_skeleton]; unfold cc14_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-! ## The pipeline's proof data -/

/-- The proof data of pipeline 14 on core `c`: the arrays as the region finds them (`V`); after the body at point
    `t` each input's buffer at its block and the output's at `out14_3` of the input blocks; the invariant is the
    scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) :
    (dat14 V c).after 3 t = out14_3 (iblk14 V c 0 t) (iblk14 V c 1 t) (iblk14 V c 2 t) := by dsimp only [dat14]

/-- Each input's current staging buffer holds its block at every point. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

/-- The body at any point: the inputs' memrefs hold their blocks, so `sound_kernel14` applies; the invariant and
    the core's `owes` pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Reg
-- ==== Proof.Bits.Reg15.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 15: the normalise-scale-shift-relu-residual kernel, its frame half

The body reads a value block `x0` and a residual block `x1` (both 5000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's current staging buffer holds its block at every point, fetched there or not, for any proof
    data whose array is `V`'s (`hA`) and whose body leaves the block in place (`hafter`): unfetched, the block
    index has not moved; the window is uncut and never idle. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's current staging buffer holds its block at every point, fetched there or not, for any proof
    data whose array is `V`'s (`hA`) and whose body leaves the block in place (`hafter`): unfetched, the block
    index has not moved; the window is uncut and never idle. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Input window 2's current staging buffer holds its block at every point, fetched there or not, for any proof
    data whose array is `V`'s (`hA`) and whose body leaves the block in place (`hafter`): unfetched, the block
    index has not moved; the window is uncut and never idle. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-- Input window 3's current staging buffer holds its block at every point, fetched there or not, for any proof
    data whose array is `V`'s (`hA`) and whose body leaves the block in place (`hafter`): unfetched, the block
    index has not moved; the window is uncut and never idle. -/
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

/-- Input window 4's current staging buffer holds its block at every point, fetched there or not, for any proof
    data whose array is `V`'s (`hA`) and whose body leaves the block in place (`hafter`): unfetched, the block
    index has not moved; the window is uncut and never idle. -/
theorem before15_4_of {c : Dev nD} (dat : Dat τ (Elt F) Unit ℕ (UR sig nD τ) ℕ cfg15 c) (hA : dat.A 4 = V c (Pipeline.arrRef spec15 4))
    (hafter : ∀ t, dat.after 4 t = iblk15 V c 4 t) (t : Fin cfg15.N) (d) : dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)

/-- Input window 5's current staging buffer holds its block at every point, fetched there or not, for any proof
    data whose array is `V`'s (`hA`) and whose body leaves the block in place (`hafter`): unfetched, the block
    index has not moved; the window is uncut and never idle. -/
theorem before15_5_of {c : Dev nD} (dat : Dat τ (Elt F) Unit ℕ (UR sig nD τ) ℕ cfg15 c) (hA : dat.A 5 = V c (Pipeline.arrRef spec15 5))
    (hafter : ∀ t, dat.after 5 t = iblk15 V c 5 t) (t : Fin cfg15.N) (d) : dat.before 5 t d = iblk15 V c 5 t :=
  (dat.before_in_eq_fetched 5 rfl (fun _ => rfl) (fun _ _ _ => rfl) (fun t => by rw [hafter]; unfold Dat.blockOf iblk15; rw [hA]; try rfl) t d).trans
    (by unfold Dat.fetched Dat.blockOf iblk15; rw [hA]; try rfl)

/-! ## The body's accesses -/

/-- The whole 5000×128 block. -/
abbrev r15_0 : Rect S5000x128 := Rect.unit (s := S5000x128) ![0, 0] S5000x128.size inb_S5000x128_S5000x128_0_0
/-- The whole 1×128 row. -/
abbrev r15_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out15_6 (x0 : Vec F S5000x128 .f32) (x1 : Vec F S5000x128 .f32) (x2 : Vec F S1x128 .f32) (x3 : Vec F S1x128 .f32)
    (x4 : Vec F S1x128 .f32) (x5 : Vec F S1x128 .f32) : Vec F S5000x128 .f32 :=
  View.canon [⟨r15_0, k15_pay1 (View.ld x0 r15_0) (View.ld x2 r15_1) (View.ld x3 r15_1) (View.ld x4 r15_1) (View.ld x5 r15_1) (View.ld x1 r15_0)⟩]

/-- The one store is the whole block, so it covers it. -/
theorem cover15_6 (p0 : Vec F S5000x128 .f32) (y : S5000x128.Idx) :
    ∃ pc ∈ ([⟨r15_0, p0⟩] : List (View.Piece (Elt F) S5000x128 .f32)), y ∈ pc.1.set :=
  View.cover_of_tiled [⟨r15_0, p0⟩] S5000x128.size (by rfl) y

/-! ## The body's triple -/

set_option maxHeartbeats 1000000 in
/-- The kernel body on whole staging memrefs, the inputs' at contents `x0 … x5` and the output's at anything, runs to
    the continuation holding the inputs' as they were and the output's at `out15_6` of the inputs'. -/
theorem sound_kernel15 (c : Dev nD) (E : Set ℕ) (i : grid15.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out15_6 x0 x1 x2 x3 x4 x5)) -∗ K ⟨⟩))
      ⊢ wp frame (wpE (defs₀ (F := F)) Variants.none c none) E (cc15_kernel i arg1 harg1 arg2 harg2 arg3 harg3 arg4 harg4 arg5 harg5 arg6 harg6 arg7 harg7) K := by
  simp only [cc15_kernel_eq_skeleton]; unfold cc15_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover15_6 _)

/-! ## The pipeline's proof data -/

/-- The proof data of pipeline 15 on core `c`: the arrays as the region finds them (`V`); after the body at
    point `t` each input's buffer at its block and the output's at `out15_6` of the input blocks; the invariant
    the scoped rest and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => iblk15 V c 5 t
    | ⟨6, _⟩ => out15_6 (iblk15 V c 0 t) (iblk15 V c 1 t) (iblk15 V c 2 t) (iblk15 V c 3 t) (iblk15 V c 4 t) (iblk15 V c 5 t)
  Φ _ := Pipeline.ΦA spec15 c
  q _ := fullShare
  owed _ := 0

/-- The proof data's arrays are the region-entry contents. -/
theorem A_eq15 (c : Dev nD) (w : Fin cfg15.W) : (dat15 V c).A w = V c (Pipeline.arrRef spec15 w) := by
  dsimp only [dat15]

/-- What the body leaves, window by window. -/
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = iblk15 V c 5 t := by dsimp only [dat15]
theorem after15_6 (c : Dev nD) (t : Fin cfg15.N) : (dat15 V c).after 6 t = out15_6 (iblk15 V c 0 t) (iblk15 V c 1 t) (iblk15 V c 2 t) (iblk15 V c 3 t) (iblk15 V c 4 t) (iblk15 V c 5 t) := by dsimp only [dat15]

/-- Each input's current staging buffer holds its block at every point, fetched there or not. -/
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d
theorem before15_4 (c : Dev nD) (t : Fin cfg15.N) (d) : (dat15 V c).before 4 t d = iblk15 V c 4 t :=
  before15_4_of V (dat15 V c) (A_eq15 V c 4) (after15_4 V c) t d
theorem before15_5 (c : Dev nD) (t : Fin cfg15.N) (d) : (dat15 V c).before 5 t d = iblk15 V c 5 t :=
  before15_5_of V (dat15 V c) (A_eq15 V c 5) (after15_5 V c) t d

/-! ## The body obligation, at a generic point -/

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d))
    ∗ (∃ d, owns (c : Thread nD τ) (st15_6 t) fullShare ((dat15 V c).before 6 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t)
    ∗ owns (c : Thread nD τ) (st15_6 t) fullShare ((dat15 V c).after 6 t))

/-- The body at any point: the inputs' memrefs hold their blocks, so the kernel's triple applies; the invariant and
    the core's debts pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4, before15_5]
  rw [show (dat15 V c).Φ t.succ = (dat15 V c).Φ t.castSucc from rfl,
    show (dat15 V c).owesAt () t.succ = (dat15 V c).owesAt () t.castSucc from rfl,
    after15_0, after15_1, after15_2, after15_3, after15_4, after15_5, after15_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel15 c Set.univ _ _ _ _ _ _ _ _ _ _ _ _ _ _ _ (iblk15 V c 0 t) (iblk15 V c 1 t) (iblk15 V c 2 t) (iblk15 V c 3 t) (iblk15 V c 4 t) (iblk15 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Reg
-- ==== Proof.Bits.Reg16.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 16: the normalise-scale-shift-relu-residual kernel, its frame half

The body reads a value block `x0` and a residual block `x1` (both 4000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, fetched there or not, for any proof
    data whose array is `V`'s (`hA`) and whose body leaves the block in place (`hafter`): unfetched, the block
    index has not moved; the window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1's current staging buffer holds its block at every point, fetched there or not, for any proof
    data whose array is `V`'s (`hA`) and whose body leaves the block in place (`hafter`): unfetched, the block
    index has not moved; the window is uncut and never idle. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Input window 2's current staging buffer holds its block at every point, fetched there or not, for any proof
    data whose array is `V`'s (`hA`) and whose body leaves the block in place (`hafter`): unfetched, the block
    index has not moved; the window is uncut and never idle. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- Input window 3's current staging buffer holds its block at every point, fetched there or not, for any proof
    data whose array is `V`'s (`hA`) and whose body leaves the block in place (`hafter`): unfetched, the block
    index has not moved; the window is uncut and never idle. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

/-- Input window 4's current staging buffer holds its block at every point, fetched there or not, for any proof
    data whose array is `V`'s (`hA`) and whose body leaves the block in place (`hafter`): unfetched, the block
    index has not moved; the window is uncut and never idle. -/
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)

/-- Input window 5's current staging buffer holds its block at every point, fetched there or not, for any proof
    data whose array is `V`'s (`hA`) and whose body leaves the block in place (`hafter`): unfetched, the block
    index has not moved; the window is uncut and never idle. -/
theorem before16_5_of {c : Dev nD} (dat : Dat τ (Elt F) Unit ℕ (UR sig nD τ) ℕ cfg16 c) (hA : dat.A 5 = V c (Pipeline.arrRef spec16 5))
    (hafter : ∀ t, dat.after 5 t = iblk16 V c 5 t) (t : Fin cfg16.N) (d) : dat.before 5 t d = iblk16 V c 5 t :=
  (dat.before_in_eq_fetched 5 rfl (fun _ => rfl) (fun _ _ _ => rfl) (fun t => by rw [hafter]; unfold Dat.blockOf iblk16; rw [hA]; try rfl) t d).trans
    (by unfold Dat.fetched Dat.blockOf iblk16; rw [hA]; try rfl)

/-! ## The body's accesses -/

/-- The whole 4000×128 block. -/
abbrev r16_0 : Rect S4000x128 := Rect.unit (s := S4000x128) ![0, 0] S4000x128.size inb_S4000x128_S4000x128_0_0
/-- The whole 1×128 row. -/
abbrev r16_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out16_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r16_0, k16_pay1 (View.ld x0 r16_0) (View.ld x2 r16_1) (View.ld x3 r16_1) (View.ld x4 r16_1) (View.ld x5 r16_1) (View.ld x1 r16_0)⟩]

/-- The one store is the whole block, so it covers it. -/
theorem cover16_6 (p0 : Vec F S4000x128 .f32) (y : S4000x128.Idx) :
    ∃ pc ∈ ([⟨r16_0, p0⟩] : List (View.Piece (Elt F) S4000x128 .f32)), y ∈ pc.1.set :=
  View.cover_of_tiled [⟨r16_0, p0⟩] S4000x128.size (by rfl) y

/-! ## The body's triple -/

set_option maxHeartbeats 1000000 in
/-- The kernel body on whole staging memrefs, the inputs' at contents `x0 … x5` and the output's at anything, runs to
    the continuation holding the inputs' as they were and the output's at `out16_6` of the inputs'. -/
theorem sound_kernel16 (c : Dev nD) (E : Set ℕ) (i : grid16.Coords) (arg1 : Memref sig .tc .vmem S4000x128 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out16_6 x0 x1 x2 x3 x4 x5)) -∗ K ⟨⟩))
      ⊢ wp frame (wpE (defs₀ (F := F)) Variants.none c none) E (cc16_kernel i arg1 harg1 arg2 harg2 arg3 harg3 arg4 harg4 arg5 harg5 arg6 harg6 arg7 harg7) K := by
  simp only [cc16_kernel_eq_skeleton]; unfold cc16_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover16_6 _)

/-! ## The pipeline's proof data -/

/-- The proof data of pipeline 16 on core `c`: the arrays as the region finds them (`V`); after the body at
    point `t` each input's buffer at its block and the output's at `out16_6` of the input blocks; the invariant
    the scoped rest and the generator register, untouched; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => out16_6 (iblk16 V c 0 t) (iblk16 V c 1 t) (iblk16 V c 2 t) (iblk16 V c 3 t) (iblk16 V c 4 t) (iblk16 V c 5 t)
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = out16_6 (iblk16 V c 0 t) (iblk16 V c 1 t) (iblk16 V c 2 t) (iblk16 V c 3 t) (iblk16 V c 4 t) (iblk16 V c 5 t) := by dsimp only [dat16]

/-- Each input's current staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d
theorem before16_5 (c : Dev nD) (t : Fin cfg16.N) (d) : (dat16 V c).before 5 t d = iblk16 V c 5 t :=
  before16_5_of V (dat16 V c) (A_eq16 V c 5) (after16_5 V c) t d

/-! ## The body obligation, at a generic point -/

/-- What the body is called with at point `t`, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t))

/-- The body at any point: the inputs' memrefs hold their blocks, so the kernel's triple applies; the invariant and
    the core's debts pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel16 c Set.univ _ _ _ _ _ _ _ _ _ _ _ _ _ _ _ (iblk16 V c 0 t) (iblk16 V c 1 t) (iblk16 V c 2 t) (iblk16 V c 3 t) (iblk16 V c 4 t) (iblk16 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.Kernel.Reg
-- ==== Proof.Bits.Reg17.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 17 (`cc17_kernel`, pipeline 2): the body half of the frame

The kernel computes `o = x · w + b` on a row block: `x` is a block of 5000 rows of the 100000 × 32 array (one block
per grid point, 20 points), `w` (32 × 128) and `b` (1 × 128) are whole arrays fetched once and resident, and `o` is
the matching 5000 × 128 row block of the result, written back at every point.  This module states, at a parameter
`V` (the TensorCore's buffer contents when the region is entered), each window's block at a grid point, what the
body leaves in the output's staging buffer as a function of the three input blocks, the body's triple, the
pipeline's proof data and the body obligation at every point. -/

-- membership in a rectangle of 5000 rows: the structural check recurses once per coordinate of the long axis
set_option maxRecDepth 65536

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The row block `x` (window 0, fetched at every point): its current staging buffer holds its block at every
    point, for any proof data whose array is `V`'s and whose body leaves the block in place. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The weight `w` (window 1, fetched at the first point only, its block index constant): at a point where it is not
    fetched the buffer still holds the previous point's block, which is this point's. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- The bias `b` (window 2, fetched at the first point only): as for the weight. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-! ## The body's accesses: each memref is read or written whole -/

abbrev r17_0 : Rect S5000x32 := Rect.unit (s := S5000x32) ![0, 0] S5000x32.size inb_S5000x32_S5000x32_0_0
abbrev r17_1 : Rect S32x128 := Rect.unit (s := S32x128) ![0, 0] S32x128.size inb_S32x128_S32x128_0_0
abbrev r17_2 : Rect S1x128 := Rect.unit (s := S1x128) ![0, 0] S1x128.size inb_S1x128_S1x128_0_0
abbrev r17_3 : Rect S5000x128 := Rect.unit (s := S5000x128) ![0, 0] S5000x128.size inb_S5000x128_S5000x128_0_0

/-! ## What the body leaves in the output window's buffer -/

/-- Window 3's staging buffer after the body, from the three input blocks: its one store (the whole buffer) of the
    payload `x · w + b`. -/
def out17_3 (x0 : Vec F S5000x32 .f32) (x1 : Vec F S32x128 .f32) (x2 : Vec F S1x128 .f32) : Vec F S5000x128 .f32 :=
  View.canon [⟨r17_3, k17_pay1 (View.ld x0 r17_0) (View.ld x1 r17_1) (View.ld x2 r17_2)⟩]

/-- The one store's rectangle is the whole buffer, so it covers it. -/
theorem cover17_3 (p0 : Vec F S5000x128 .f32) (y : S5000x128.Idx) :
    ∃ pc ∈ ([⟨r17_3, p0⟩] : List (View.Piece (Elt F) S5000x128 .f32)), y ∈ pc.1.set :=
  View.cover_of_tiled [⟨r17_3, p0⟩] S5000x128.size (by rfl) y

/-! ## The body's triple -/

set_option maxHeartbeats 1000000 in
/-- The kernel body on whole staging memrefs, the inputs' at read contents `x0 x1 x2` and the output's at anything,
    runs to the continuation holding the inputs' as they were and the output's at `out17_3` of the inputs'. -/
theorem sound_kernel17 (c : Dev nD) (E : Set ℕ) (i : grid17.Coords) (arg1 : Memref sig .tc .vmem S5000x32 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out17_3 x0 x1 x2)) -∗ K ⟨⟩))
      ⊢ wp frame (wpE (defs₀ (F := F)) Variants.none c none) E (cc17_kernel i arg1 harg1 arg2 harg2 arg3 harg3 arg4 harg4) K := by
  simp only [cc17_kernel_eq_skeleton]; unfold cc17_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-! ## The pipeline's proof data -/

/-- The proof data of pipeline 2 on core `c`: the arrays as the region finds them (`V`); after the body at point `t`
    each input's buffer at its block and the output's at `out17_3` of the input blocks; the invariant the scoped rest
    and the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

/-- The proof data's arrays are the region-entry contents. -/
theorem A_eq17 (c : Dev nD) (w : Fin cfg17.W) : (dat17 V c).A w = V c (Pipeline.arrRef spec17 w) := by
  dsimp only [dat17]

/-- What the body leaves, window by window. -/
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = out17_3 (iblk17 V c 0 t) (iblk17 V c 1 t) (iblk17 V c 2 t) := by dsimp only [dat17]

/-- Each input's current staging buffer holds its block at every point, fetched there or not. -/
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body obligation, at a generic point -/

/-- What the body is called with at point `t`, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

/-- The body at any point: the inputs' memrefs hold their blocks, so the body's triple applies; the invariant and the
    core's obligations pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.Kernel.Reg

end
-- ==== Proof.Bits.Reg18.lean ====
/- The edge-update region of one layer, its frame half, at any float model `F`.
   The body reads six windows — the row blocks `ah`, `bh`, `e`, `vh` (4000 × 128 each), the resident weight
   block `chat` (128 × 128) and the resident bias row `cbias` (1 × 128) — and writes three row blocks:
     e_new = ah + bh + (e · chat + cbias),   sigma = logistic e_new,   sigma * vh.
   Stated at a parameter `V`, the core's buffer contents when the region is entered:
   each window's block at a grid point, what the body leaves in each output buffer, the body's triple, the
   pipeline's proof data and its body obligation. -/
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0: at every grid point its current staging buffer holds the window's block there, whether or not
    the block was copied in at that point (when it was not, the block index has not moved since the last copy),
    for any proof data whose array is `V`'s and whose body leaves the block in place. The window is never cut and
    never idle. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1: at every grid point its current staging buffer holds the window's block there, whether or not
    the block was copied in at that point (when it was not, the block index has not moved since the last copy),
    for any proof data whose array is `V`'s and whose body leaves the block in place. The window is never cut and
    never idle. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2: at every grid point its current staging buffer holds the window's block there, whether or not
    the block was copied in at that point (when it was not, the block index has not moved since the last copy),
    for any proof data whose array is `V`'s and whose body leaves the block in place. The window is never cut and
    never idle. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-- Input window 3: at every grid point its current staging buffer holds the window's block there, whether or not
    the block was copied in at that point (when it was not, the block index has not moved since the last copy),
    for any proof data whose array is `V`'s and whose body leaves the block in place. The window is never cut and
    never idle. -/
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

/-- Input window 4: at every grid point its current staging buffer holds the window's block there, whether or not
    the block was copied in at that point (when it was not, the block index has not moved since the last copy),
    for any proof data whose array is `V`'s and whose body leaves the block in place. The window is never cut and
    never idle. -/
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-- Input window 5: at every grid point its current staging buffer holds the window's block there, whether or not
    the block was copied in at that point (when it was not, the block index has not moved since the last copy),
    for any proof data whose array is `V`'s and whose body leaves the block in place. The window is never cut and
    never idle. -/
theorem before18_5_of {c : Dev nD} (dat : Dat τ (Elt F) Unit ℕ (UR sig nD τ) ℕ cfg18 c) (hA : dat.A 5 = V c (Pipeline.arrRef spec18 5))
    (hafter : ∀ t, dat.after 5 t = iblk18 V c 5 t) (t : Fin cfg18.N) (d) : dat.before 5 t d = iblk18 V c 5 t :=
  (dat.before_in_eq_fetched 5 rfl (fun _ => rfl) (fun _ _ _ => rfl) (fun t => by rw [hafter]; unfold Dat.blockOf iblk18; rw [hA]; try rfl) t d).trans
    (by unfold Dat.fetched Dat.blockOf iblk18; rw [hA]; try rfl)

/-! ## The body's accesses: every load and store takes a whole buffer -/

abbrev r18_0 : Rect S4000x128 := Rect.unit (s := S4000x128) ![0, 0] S4000x128.size inb_S4000x128_S4000x128_0_0
abbrev r18_1 : Rect S128x128 := Rect.unit (s := S128x128) ![0, 0] S128x128.size inb_S128x128_S128x128_0_0
abbrev r18_2 : Rect S1x128 := Rect.unit (s := S1x128) ![0, 0] S1x128.size inb_S1x128_S1x128_0_0

/-! ## What the body leaves in each output buffer

`x0 … x5` are the contents of the six input buffers (`ah`, `bh`, `e`, `vh`, `chat`, `cbias`). Each output
buffer is written once, whole. -/

/-- Output window 6 (`e_new`): `ah + bh + (e · chat + cbias)`. -/
def out18_6 (x0 x1 x2 x3 : Vec F S4000x128 .f32) (x4 : Vec F S128x128 .f32) (x5 : Vec F S1x128 .f32) : Vec F S4000x128 .f32 :=
  View.canon [⟨r18_0, k18_pay1 (View.ld x2 r18_0) (View.ld x4 r18_1) (View.ld x5 r18_2) (View.ld x0 r18_0) (View.ld x1 r18_0)⟩]

/-- Output window 7 (`sigma`): the logistic of `e_new`. -/
def out18_7 (x0 x1 x2 x3 : Vec F S4000x128 .f32) (x4 : Vec F S128x128 .f32) (x5 : Vec F S1x128 .f32) : Vec F S4000x128 .f32 :=
  View.canon [⟨r18_0, k18_pay2 (View.ld x2 r18_0) (View.ld x4 r18_1) (View.ld x5 r18_2) (View.ld x0 r18_0) (View.ld x1 r18_0)⟩]

/-- Output window 8: `sigma * vh`. -/
def out18_8 (x0 x1 x2 x3 : Vec F S4000x128 .f32) (x4 : Vec F S128x128 .f32) (x5 : Vec F S1x128 .f32) : Vec F S4000x128 .f32 :=
  View.canon [⟨r18_0, k18_pay3 (View.ld x2 r18_0) (View.ld x4 r18_1) (View.ld x5 r18_2) (View.ld x0 r18_0) (View.ld x1 r18_0) (View.ld x3 r18_0)⟩]

/-- One whole-buffer store covers the buffer. -/
theorem cover18 (p0 : Vec F S4000x128 .f32) (y : S4000x128.Idx) :
    ∃ pc ∈ ([⟨r18_0, p0⟩] : List (View.Piece (Elt F) S4000x128 .f32)), y ∈ pc.1.set :=
  View.cover_of_tiled [⟨r18_0, p0⟩] S4000x128.size (by rfl) y

/-! ## The body's triple -/

set_option maxHeartbeats 1000000 in
/-- The kernel body on whole staging buffers, the six inputs at contents `x0 … x5` and the three outputs at
    anything, runs to a continuation that holds the inputs as they were and each output at `out18_W` of the inputs. -/
theorem sound_kernel18 (c : Dev nD) (E : Set ℕ) (i : grid18.Coords) (arg0 : Memref sig .tc .vmem S4000x128 .f32) (harg0 : arg0.IsWhole) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .f32) (harg6 : arg6.IsWhole) (arg7 : Memref sig .tc .vmem S4000x128 .f32) (harg7 : arg7.IsWhole) (arg8 : Memref sig .tc .vmem S4000x128 .f32) (harg8 : arg8.IsWhole)
    (x0 x1 x2 x3 : Vec F S4000x128 .f32) (x4 : Vec F S128x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out18_6 x0 x1 x2 x3 x4 x5) ∗ owns (c : Thread nD τ) arg7 fullShare (out18_7 x0 x1 x2 x3 x4 x5) ∗ owns (c : Thread nD τ) arg8 fullShare (out18_8 x0 x1 x2 x3 x4 x5)) -∗ K ⟨⟩))
      ⊢ wp frame (wpE (defs₀ (F := F)) Variants.none c none) E (cc18_kernel i arg0 harg0 arg1 harg1 arg2 harg2 arg3 harg3 arg4 harg4 arg5 harg5 arg6 harg6 arg7 harg7 arg8 harg8) K := by
  simp only [cc18_kernel_eq_skeleton]; unfold cc18_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover18 _)
  isplitl [H7]
  · iexists _; isplitr
    swap; · iexact H7
    ipureintro
    exact View.read_writes_eq_canon _ _ _ (cover18 _)
  iexists _; isplitr
  swap; · iexact H8
  ipureintro
  exact View.read_writes_eq_canon _ _ _ (cover18 _)

/-! ## The pipeline's proof data -/

/-- The proof data of this pipeline on core `c`: the arrays as the region finds them; after the body at point `t`
    each input's buffer at its block and each output's at `out18_W` of the six input blocks; the invariant says the
    rest of the core's state is untouched; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => iblk18 V c 5 t
    | ⟨6, _⟩ => out18_6 (iblk18 V c 0 t) (iblk18 V c 1 t) (iblk18 V c 2 t) (iblk18 V c 3 t) (iblk18 V c 4 t) (iblk18 V c 5 t)
    | ⟨7, _⟩ => out18_7 (iblk18 V c 0 t) (iblk18 V c 1 t) (iblk18 V c 2 t) (iblk18 V c 3 t) (iblk18 V c 4 t) (iblk18 V c 5 t)
    | ⟨8, _⟩ => out18_8 (iblk18 V c 0 t) (iblk18 V c 1 t) (iblk18 V c 2 t) (iblk18 V c 3 t) (iblk18 V c 4 t) (iblk18 V c 5 t)
  Φ _ := Pipeline.ΦA spec18 c
  q _ := fullShare
  owed _ := 0

/-- The proof data's arrays are the region-entry contents. -/
theorem A_eq18 (c : Dev nD) (w : Fin cfg18.W) : (dat18 V c).A w = V c (Pipeline.arrRef spec18 w) := by
  dsimp only [dat18]

/-- What the body leaves, window by window. -/
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = iblk18 V c 5 t := by dsimp only [dat18]
theorem after18_6 (c : Dev nD) (t : Fin cfg18.N) : (dat18 V c).after 6 t = out18_6 (iblk18 V c 0 t) (iblk18 V c 1 t) (iblk18 V c 2 t) (iblk18 V c 3 t) (iblk18 V c 4 t) (iblk18 V c 5 t) := by dsimp only [dat18]
theorem after18_7 (c : Dev nD) (t : Fin cfg18.N) : (dat18 V c).after 7 t = out18_7 (iblk18 V c 0 t) (iblk18 V c 1 t) (iblk18 V c 2 t) (iblk18 V c 3 t) (iblk18 V c 4 t) (iblk18 V c 5 t) := by dsimp only [dat18]
theorem after18_8 (c : Dev nD) (t : Fin cfg18.N) : (dat18 V c).after 8 t = out18_8 (iblk18 V c 0 t) (iblk18 V c 1 t) (iblk18 V c 2 t) (iblk18 V c 3 t) (iblk18 V c 4 t) (iblk18 V c 5 t) := by dsimp only [dat18]

/-- Each input's current staging buffer holds its block at every point. -/
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d
theorem before18_5 (c : Dev nD) (t : Fin cfg18.N) (d) : (dat18 V c).before 5 t d = iblk18 V c 5 t :=
  before18_5_of V (dat18 V c) (A_eq18 V c 5) (after18_5 V c) t d

/-! ## The body obligation, at a generic point -/

/-- What the body is called with at point `t`, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d))
    ∗ (∃ d, owns (c : Thread nD τ) (st18_6 t) fullShare ((dat18 V c).before 6 t d))
    ∗ (∃ d, owns (c : Thread nD τ) (st18_7 t) fullShare ((dat18 V c).before 7 t d))
    ∗ (∃ d, owns (c : Thread nD τ) (st18_8 t) fullShare ((dat18 V c).before 8 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t)
    ∗ owns (c : Thread nD τ) (st18_6 t) fullShare ((dat18 V c).after 6 t)
    ∗ owns (c : Thread nD τ) (st18_7 t) fullShare ((dat18 V c).after 7 t)
    ∗ owns (c : Thread nD τ) (st18_8 t) fullShare ((dat18 V c).after 8 t))

/-- The body at any point: the inputs' buffers hold their blocks, so the body's triple applies; the invariant and the
    core's owed amounts pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4, before18_5]
  rw [show (dat18 V c).Φ t.succ = (dat18 V c).Φ t.castSucc from rfl,
    show (dat18 V c).owesAt () t.succ = (dat18 V c).owesAt () t.castSucc from rfl,
    after18_0, after18_1, after18_2, after18_3, after18_4, after18_5, after18_6, after18_7, after18_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel18 c Set.univ _ _ _ _ _ _ _ _ _ _ _ _ _ _ _ _ _ _ _ (iblk18 V c 0 t) (iblk18 V c 1 t) (iblk18 V c 2 t) (iblk18 V c 3 t) (iblk18 V c 4 t) (iblk18 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation18 (c : Dev nD) : BodyObligation (dat18 (F := F) V c) (defs₀ (F := F)) Variants.none () Set.univ := fun t => by
  rw [bigSep_W18, bigSep_W18]
  exact sound_body18 V c t

end Cert.Kernel.Reg

end
-- ==== Proof.Bits.Reg19.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! The node-update region (custom_call 19): per row block of 5000 rows, the output block is
    `uh + num / (den + eps)` entrywise. This module holds the region's frame half at a parameter `V`,
    the TensorCore's buffer contents when the region is entered: each window's block at a point, the
    output's staging buffer after the body, the body's triple, the pipeline's proof data and its body
    obligation. Generic in the float interpretation `F`. -/

-- membership in a rectangle of 5000 rows: the structural look recurses once per coordinate of the long axis
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- An input window's current staging buffer holds its block at every point, for any proof data whose array is
    `V`'s and whose body leaves the block in place: the window is fetched at every point, uncut and never idle. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)

/-! ## The body's accesses -/

/-- Every load and the one store of the body take the whole 5000 x 128 staging buffer. -/
abbrev r19_0 : Rect S5000x128 := Rect.unit (s := S5000x128) ![0, 0] S5000x128.size inb_S5000x128_S5000x128_0_0

/-! ## What the body leaves in the output window's buffer -/

/-- Window 3's staging buffer after the body, from the three input blocks: its one store as a piece over the
    skeleton's payload `uh + num / (den + eps)`. -/
def out19_3 (x0 x1 x2 : Vec F S5000x128 .f32) : Vec F S5000x128 .f32 :=
  View.canon [⟨r19_0, k19_pay1 (View.ld x0 r19_0) (View.ld x1 r19_0) (View.ld x2 r19_0)⟩]

/-- The store takes the whole buffer, so it covers it. -/
theorem cover19_3 (p0 : Vec F S5000x128 .f32) (y : S5000x128.Idx) :
    ∃ pc ∈ ([⟨r19_0, p0⟩] : List (View.Piece (Elt F) S5000x128 .f32)), y ∈ pc.1.set :=
  View.cover_of_tiled [⟨r19_0, p0⟩] S5000x128.size (by rfl) y

/-! ## The body's triple -/

set_option maxHeartbeats 1000000 in
/-- The kernel body on whole staging memrefs, the inputs' at read contents `x0 x1 x2` and the output's at anything,
    runs to the continuation holding the inputs' as they were and the output's at `out19_3` of the inputs'. -/
theorem sound_kernel19 (c : Dev nD) (E : Set ℕ) (i : grid19.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out19_3 x0 x1 x2)) -∗ K ⟨⟩))
      ⊢ wp frame (wpE (defs₀ (F := F)) Variants.none c none) E (cc19_kernel i arg1 harg1 arg2 harg2 arg3 harg3 arg4 harg4) K := by
  simp only [cc19_kernel_eq_skeleton]; unfold cc19_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover19_3 _)

/-! ## The pipeline's proof data -/

/-- The proof data of pipeline 19 on core `c`: the arrays as the region finds them (`V`); after the body at point
    `t` each input's buffer at its block and the output's at `out19_3` of the input blocks; the invariant is the
    scoped rest and the generator register, untouched; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => out19_3 (iblk19 V c 0 t) (iblk19 V c 1 t) (iblk19 V c 2 t)
  Φ _ := Pipeline.ΦA spec19 c
  q _ := fullShare
  owed _ := 0

/-- The proof data's arrays are the region-entry contents. -/
theorem A_eq19 (c : Dev nD) (w : Fin cfg19.W) : (dat19 V c).A w = V c (Pipeline.arrRef spec19 w) := by
  dsimp only [dat19]

/-- What the body leaves, window by window. -/
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) :
    (dat19 V c).after 3 t = out19_3 (iblk19 V c 0 t) (iblk19 V c 1 t) (iblk19 V c 2 t) := by dsimp only [dat19]

/-- Each input's current staging buffer holds its block at every point. -/
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d

/-! ## The body obligation, at a generic point -/

/-- What the body is called with at point `t`, the windows one by one, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t))

/-- The body at any point: the inputs' memrefs hold their blocks, so `sound_kernel19` applies; the invariant and
    the core's `owes` pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2]
  rw [show (dat19 V c).Φ t.succ = (dat19 V c).Φ t.castSucc from rfl,
    show (dat19 V c).owesAt () t.succ = (dat19 V c).owesAt () t.castSucc from rfl,
    after19_0, after19_1, after19_2, after19_3]
  iintro ⟨HΦ, Ho, ⟨%d0, H0⟩, ⟨%d1, H1⟩, ⟨%d2, H2⟩, ⟨%d3, H3⟩⟩
  iapply (sound_kernel19 c Set.univ _ _ _ _ _ _ _ _ _ (iblk19 V c 0 t) (iblk19 V c 1 t) (iblk19 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation19 (c : Dev nD) : BodyObligation (dat19 (F := F) V c) (defs₀ (F := F)) Variants.none () Set.univ := fun t => by
  rw [bigSep_W19, bigSep_W19]
  exact sound_body19 V c t

end Cert.Kernel.Reg
-- ==== Proof.Bits.Reg20.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 20: the normalise-scale-shift-relu-residual kernel, its frame half

The body reads a value block `x0` and a residual block `x1` (both 5000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's current staging buffer holds its block at every point, fetched there or not, for any proof
    data whose array is `V`'s (`hA`) and whose body leaves the block in place (`hafter`): unfetched, the block
    index has not moved; the window is uncut and never idle. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-- Input window 1's current staging buffer holds its block at every point, fetched there or not, for any proof
    data whose array is `V`'s (`hA`) and whose body leaves the block in place (`hafter`): unfetched, the block
    index has not moved; the window is uncut and never idle. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- Input window 2's current staging buffer holds its block at every point, fetched there or not, for any proof
    data whose array is `V`'s (`hA`) and whose body leaves the block in place (`hafter`): unfetched, the block
    index has not moved; the window is uncut and never idle. -/
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)

/-- Input window 3's current staging buffer holds its block at every point, fetched there or not, for any proof
    data whose array is `V`'s (`hA`) and whose body leaves the block in place (`hafter`): unfetched, the block
    index has not moved; the window is uncut and never idle. -/
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)

/-- Input window 4's current staging buffer holds its block at every point, fetched there or not, for any proof
    data whose array is `V`'s (`hA`) and whose body leaves the block in place (`hafter`): unfetched, the block
    index has not moved; the window is uncut and never idle. -/
theorem before20_4_of {c : Dev nD} (dat : Dat τ (Elt F) Unit ℕ (UR sig nD τ) ℕ cfg20 c) (hA : dat.A 4 = V c (Pipeline.arrRef spec20 4))
    (hafter : ∀ t, dat.after 4 t = iblk20 V c 4 t) (t : Fin cfg20.N) (d) : dat.before 4 t d = iblk20 V c 4 t :=
  (dat.before_in_eq_fetched 4 rfl (fun _ => rfl) (fun _ _ _ => rfl) (fun t => by rw [hafter]; unfold Dat.blockOf iblk20; rw [hA]; try rfl) t d).trans
    (by unfold Dat.fetched Dat.blockOf iblk20; rw [hA]; try rfl)

/-- Input window 5's current staging buffer holds its block at every point, fetched there or not, for any proof
    data whose array is `V`'s (`hA`) and whose body leaves the block in place (`hafter`): unfetched, the block
    index has not moved; the window is uncut and never idle. -/
theorem before20_5_of {c : Dev nD} (dat : Dat τ (Elt F) Unit ℕ (UR sig nD τ) ℕ cfg20 c) (hA : dat.A 5 = V c (Pipeline.arrRef spec20 5))
    (hafter : ∀ t, dat.after 5 t = iblk20 V c 5 t) (t : Fin cfg20.N) (d) : dat.before 5 t d = iblk20 V c 5 t :=
  (dat.before_in_eq_fetched 5 rfl (fun _ => rfl) (fun _ _ _ => rfl) (fun t => by rw [hafter]; unfold Dat.blockOf iblk20; rw [hA]; try rfl) t d).trans
    (by unfold Dat.fetched Dat.blockOf iblk20; rw [hA]; try rfl)

/-! ## The body's accesses -/

/-- The whole 5000×128 block. -/
abbrev r20_0 : Rect S5000x128 := Rect.unit (s := S5000x128) ![0, 0] S5000x128.size inb_S5000x128_S5000x128_0_0
/-- The whole 1×128 row. -/
abbrev r20_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out20_6 (x0 : Vec F S5000x128 .f32) (x1 : Vec F S5000x128 .f32) (x2 : Vec F S1x128 .f32) (x3 : Vec F S1x128 .f32)
    (x4 : Vec F S1x128 .f32) (x5 : Vec F S1x128 .f32) : Vec F S5000x128 .f32 :=
  View.canon [⟨r20_0, k20_pay1 (View.ld x0 r20_0) (View.ld x2 r20_1) (View.ld x3 r20_1) (View.ld x4 r20_1) (View.ld x5 r20_1) (View.ld x1 r20_0)⟩]

/-- The one store is the whole block, so it covers it. -/
theorem cover20_6 (p0 : Vec F S5000x128 .f32) (y : S5000x128.Idx) :
    ∃ pc ∈ ([⟨r20_0, p0⟩] : List (View.Piece (Elt F) S5000x128 .f32)), y ∈ pc.1.set :=
  View.cover_of_tiled [⟨r20_0, p0⟩] S5000x128.size (by rfl) y

/-! ## The body's triple -/

set_option maxHeartbeats 1000000 in
/-- The kernel body on whole staging memrefs, the inputs' at contents `x0 … x5` and the output's at anything, runs to
    the continuation holding the inputs' as they were and the output's at `out20_6` of the inputs'. -/
theorem sound_kernel20 (c : Dev nD) (E : Set ℕ) (i : grid20.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out20_6 x0 x1 x2 x3 x4 x5)) -∗ K ⟨⟩))
      ⊢ wp frame (wpE (defs₀ (F := F)) Variants.none c none) E (cc20_kernel i arg1 harg1 arg2 harg2 arg3 harg3 arg4 harg4 arg5 harg5 arg6 harg6 arg7 harg7) K := by
  simp only [cc20_kernel_eq_skeleton]; unfold cc20_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover20_6 _)

/-! ## The pipeline's proof data -/

/-- The proof data of pipeline 20 on core `c`: the arrays as the region finds them (`V`); after the body at
    point `t` each input's buffer at its block and the output's at `out20_6` of the input blocks; the invariant
    the scoped rest and the generator register, untouched; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => iblk20 V c 5 t
    | ⟨6, _⟩ => out20_6 (iblk20 V c 0 t) (iblk20 V c 1 t) (iblk20 V c 2 t) (iblk20 V c 3 t) (iblk20 V c 4 t) (iblk20 V c 5 t)
  Φ _ := Pipeline.ΦA spec20 c
  q _ := fullShare
  owed _ := 0

/-- The proof data's arrays are the region-entry contents. -/
theorem A_eq20 (c : Dev nD) (w : Fin cfg20.W) : (dat20 V c).A w = V c (Pipeline.arrRef spec20 w) := by
  dsimp only [dat20]

/-- What the body leaves, window by window. -/
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) : (dat20 V c).after 5 t = iblk20 V c 5 t := by dsimp only [dat20]
theorem after20_6 (c : Dev nD) (t : Fin cfg20.N) : (dat20 V c).after 6 t = out20_6 (iblk20 V c 0 t) (iblk20 V c 1 t) (iblk20 V c 2 t) (iblk20 V c 3 t) (iblk20 V c 4 t) (iblk20 V c 5 t) := by dsimp only [dat20]

/-- Each input's current staging buffer holds its block at every point, fetched there or not. -/
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d
theorem before20_4 (c : Dev nD) (t : Fin cfg20.N) (d) : (dat20 V c).before 4 t d = iblk20 V c 4 t :=
  before20_4_of V (dat20 V c) (A_eq20 V c 4) (after20_4 V c) t d
theorem before20_5 (c : Dev nD) (t : Fin cfg20.N) (d) : (dat20 V c).before 5 t d = iblk20 V c 5 t :=
  before20_5_of V (dat20 V c) (A_eq20 V c 5) (after20_5 V c) t d

/-! ## The body obligation, at a generic point -/

/-- What the body is called with at point `t`, the windows one by one, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d))
    ∗ (∃ d, owns (c : Thread nD τ) (st20_6 t) fullShare ((dat20 V c).before 6 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t)
    ∗ owns (c : Thread nD τ) (st20_6 t) fullShare ((dat20 V c).after 6 t))

/-- The body at any point: the inputs' memrefs hold their blocks, so the kernel's triple applies; the invariant and
    the core's debts pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4, before20_5]
  rw [show (dat20 V c).Φ t.succ = (dat20 V c).Φ t.castSucc from rfl,
    show (dat20 V c).owesAt () t.succ = (dat20 V c).owesAt () t.castSucc from rfl,
    after20_0, after20_1, after20_2, after20_3, after20_4, after20_5, after20_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel20 c Set.univ _ _ _ _ _ _ _ _ _ _ _ _ _ _ _ (iblk20 V c 0 t) (iblk20 V c 1 t) (iblk20 V c 2 t) (iblk20 V c 3 t) (iblk20 V c 4 t) (iblk20 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation20 (c : Dev nD) : BodyObligation (dat20 (F := F) V c) (defs₀ (F := F)) Variants.none () Set.univ := fun t => by
  rw [bigSep_W20, bigSep_W20]
  exact sound_body20 V c t

end Cert.Kernel.Reg
-- ==== Proof.Bits.Reg21.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # Region 21: the normalise-scale-shift-relu-residual kernel, its frame half

The body reads a value block `x0` and a residual block `x1` (both 4000×128) and four resident rows
`x2` (mean), `x3` (variance), `x4` (scale), `x5` (shift) (each 1×128), and stores
`x1 + max(((x0 - x2) * rsqrt(x3 + ε)) * x4 + x5, 0)` over the whole output block. Everything is stated at
any float interpretation `F` and at a parameter `V`: the core's buffer contents when the region is entered. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- Input window 0's current staging buffer holds its block at every point, fetched there or not, for any proof
    data whose array is `V`'s (`hA`) and whose body leaves the block in place (`hafter`): unfetched, the block
    index has not moved; the window is uncut and never idle. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)

/-- Input window 1's current staging buffer holds its block at every point, fetched there or not, for any proof
    data whose array is `V`'s (`hA`) and whose body leaves the block in place (`hafter`): unfetched, the block
    index has not moved; the window is uncut and never idle. -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-- Input window 2's current staging buffer holds its block at every point, fetched there or not, for any proof
    data whose array is `V`'s (`hA`) and whose body leaves the block in place (`hafter`): unfetched, the block
    index has not moved; the window is uncut and never idle. -/
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)

/-- Input window 3's current staging buffer holds its block at every point, fetched there or not, for any proof
    data whose array is `V`'s (`hA`) and whose body leaves the block in place (`hafter`): unfetched, the block
    index has not moved; the window is uncut and never idle. -/
theorem before21_3_of {c : Dev nD} (dat : Dat τ (Elt F) Unit ℕ (UR sig nD τ) ℕ cfg21 c) (hA : dat.A 3 = V c (Pipeline.arrRef spec21 3))
    (hafter : ∀ t, dat.after 3 t = iblk21 V c 3 t) (t : Fin cfg21.N) (d) : dat.before 3 t d = iblk21 V c 3 t :=
  (dat.before_in_eq_fetched 3 rfl (fun _ => rfl) (fun _ _ _ => rfl) (fun t => by rw [hafter]; unfold Dat.blockOf iblk21; rw [hA]; try rfl) t d).trans
    (by unfold Dat.fetched Dat.blockOf iblk21; rw [hA]; try rfl)

/-- Input window 4's current staging buffer holds its block at every point, fetched there or not, for any proof
    data whose array is `V`'s (`hA`) and whose body leaves the block in place (`hafter`): unfetched, the block
    index has not moved; the window is uncut and never idle. -/
theorem before21_4_of {c : Dev nD} (dat : Dat τ (Elt F) Unit ℕ (UR sig nD τ) ℕ cfg21 c) (hA : dat.A 4 = V c (Pipeline.arrRef spec21 4))
    (hafter : ∀ t, dat.after 4 t = iblk21 V c 4 t) (t : Fin cfg21.N) (d) : dat.before 4 t d = iblk21 V c 4 t :=
  (dat.before_in_eq_fetched 4 rfl (fun _ => rfl) (fun _ _ _ => rfl) (fun t => by rw [hafter]; unfold Dat.blockOf iblk21; rw [hA]; try rfl) t d).trans
    (by unfold Dat.fetched Dat.blockOf iblk21; rw [hA]; try rfl)

/-- Input window 5's current staging buffer holds its block at every point, fetched there or not, for any proof
    data whose array is `V`'s (`hA`) and whose body leaves the block in place (`hafter`): unfetched, the block
    index has not moved; the window is uncut and never idle. -/
theorem before21_5_of {c : Dev nD} (dat : Dat τ (Elt F) Unit ℕ (UR sig nD τ) ℕ cfg21 c) (hA : dat.A 5 = V c (Pipeline.arrRef spec21 5))
    (hafter : ∀ t, dat.after 5 t = iblk21 V c 5 t) (t : Fin cfg21.N) (d) : dat.before 5 t d = iblk21 V c 5 t :=
  (dat.before_in_eq_fetched 5 rfl (fun _ => rfl) (fun _ _ _ => rfl) (fun t => by rw [hafter]; unfold Dat.blockOf iblk21; rw [hA]; try rfl) t d).trans
    (by unfold Dat.fetched Dat.blockOf iblk21; rw [hA]; try rfl)

/-! ## The body's accesses -/

/-- The whole 4000×128 block. -/
abbrev r21_0 : Rect S4000x128 := Rect.unit (s := S4000x128) ![0, 0] S4000x128.size inb_S4000x128_S4000x128_0_0
/-- The whole 1×128 row. -/
abbrev r21_1 : Rect S1x128 := Rect.unit (s := S1x128) ![0, 0] S1x128.size inb_S1x128_S1x128_0_0

/-! ## What the body leaves in the output window's buffer -/

/-- Window 6's staging buffer after the body, from the input windows' blocks: its one store, over the whole
    block, of the payload at the six values read. -/
def out21_6 (x0 : Vec F S4000x128 .f32) (x1 : Vec F S4000x128 .f32) (x2 : Vec F S1x128 .f32) (x3 : Vec F S1x128 .f32)
    (x4 : Vec F S1x128 .f32) (x5 : Vec F S1x128 .f32) : Vec F S4000x128 .f32 :=
  View.canon [⟨r21_0, k21_pay1 (View.ld x0 r21_0) (View.ld x2 r21_1) (View.ld x3 r21_1) (View.ld x4 r21_1) (View.ld x5 r21_1) (View.ld x1 r21_0)⟩]

/-- The one store is the whole block, so it covers it. -/
theorem cover21_6 (p0 : Vec F S4000x128 .f32) (y : S4000x128.Idx) :
    ∃ pc ∈ ([⟨r21_0, p0⟩] : List (View.Piece (Elt F) S4000x128 .f32)), y ∈ pc.1.set :=
  View.cover_of_tiled [⟨r21_0, p0⟩] S4000x128.size (by rfl) y

/-! ## The body's triple -/

set_option maxHeartbeats 1000000 in
/-- The kernel body on whole staging memrefs, the inputs' at contents `x0 … x5` and the output's at anything, runs to
    the continuation holding the inputs' as they were and the output's at `out21_6` of the inputs'. -/
theorem sound_kernel21 (c : Dev nD) (E : Set ℕ) (i : grid21.Coords) (arg1 : Memref sig .tc .vmem S4000x128 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S4000x128 .f32) (harg7 : arg7.IsWhole)
    (x0 : Vec F S4000x128 .f32) (x1 : Vec F S4000x128 .f32) (x2 : Vec F S1x128 .f32) (x3 : Vec F S1x128 .f32)
    (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out21_6 x0 x1 x2 x3 x4 x5)) -∗ K ⟨⟩))
      ⊢ wp frame (wpE (defs₀ (F := F)) Variants.none c none) E (cc21_kernel i arg1 harg1 arg2 harg2 arg3 harg3 arg4 harg4 arg5 harg5 arg6 harg6 arg7 harg7) K := by
  simp only [cc21_kernel_eq_skeleton]; unfold cc21_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover21_6 _)

/-! ## The pipeline's proof data -/

/-- The proof data of pipeline 21 on core `c`: the arrays as the region finds them (`V`); after the body at
    point `t` each input's buffer at its block and the output's at `out21_6` of the input blocks; the invariant
    the scoped rest and the generator register, untouched; nothing owed; full shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => iblk21 V c 4 t
    | ⟨5, _⟩ => iblk21 V c 5 t
    | ⟨6, _⟩ => out21_6 (iblk21 V c 0 t) (iblk21 V c 1 t) (iblk21 V c 2 t) (iblk21 V c 3 t) (iblk21 V c 4 t) (iblk21 V c 5 t)
  Φ _ := Pipeline.ΦA spec21 c
  q _ := fullShare
  owed _ := 0

/-- The proof data's arrays are the region-entry contents. -/
theorem A_eq21 (c : Dev nD) (w : Fin cfg21.W) : (dat21 V c).A w = V c (Pipeline.arrRef spec21 w) := by
  dsimp only [dat21]

/-- What the body leaves, window by window. -/
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = iblk21 V c 3 t := by dsimp only [dat21]
theorem after21_4 (c : Dev nD) (t : Fin cfg21.N) : (dat21 V c).after 4 t = iblk21 V c 4 t := by dsimp only [dat21]
theorem after21_5 (c : Dev nD) (t : Fin cfg21.N) : (dat21 V c).after 5 t = iblk21 V c 5 t := by dsimp only [dat21]
theorem after21_6 (c : Dev nD) (t : Fin cfg21.N) : (dat21 V c).after 6 t = out21_6 (iblk21 V c 0 t) (iblk21 V c 1 t) (iblk21 V c 2 t) (iblk21 V c 3 t) (iblk21 V c 4 t) (iblk21 V c 5 t) := by dsimp only [dat21]

/-- Each input's current staging buffer holds its block at every point, fetched there or not. -/
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d
theorem before21_3 (c : Dev nD) (t : Fin cfg21.N) (d) : (dat21 V c).before 3 t d = iblk21 V c 3 t :=
  before21_3_of V (dat21 V c) (A_eq21 V c 3) (after21_3 V c) t d
theorem before21_4 (c : Dev nD) (t : Fin cfg21.N) (d) : (dat21 V c).before 4 t d = iblk21 V c 4 t :=
  before21_4_of V (dat21 V c) (A_eq21 V c 4) (after21_4 V c) t d
theorem before21_5 (c : Dev nD) (t : Fin cfg21.N) (d) : (dat21 V c).before 5 t d = iblk21 V c 5 t :=
  before21_5_of V (dat21 V c) (A_eq21 V c 5) (after21_5 V c) t d

/-! ## The body obligation, at a generic point -/

/-- What the body is called with at point `t`, the windows one by one, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d))
    ∗ (∃ d, owns (c : Thread nD τ) (st21_4 t) fullShare ((dat21 V c).before 4 t d))
    ∗ (∃ d, owns (c : Thread nD τ) (st21_5 t) fullShare ((dat21 V c).before 5 t d))
    ∗ (∃ d, owns (c : Thread nD τ) (st21_6 t) fullShare ((dat21 V c).before 6 t d)))

/-- and what it returns. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t)
    ∗ owns (c : Thread nD τ) (st21_4 t) fullShare ((dat21 V c).after 4 t)
    ∗ owns (c : Thread nD τ) (st21_5 t) fullShare ((dat21 V c).after 5 t)
    ∗ owns (c : Thread nD τ) (st21_6 t) fullShare ((dat21 V c).after 6 t))

/-- The body at any point: the inputs' memrefs hold their blocks, so the kernel's triple applies; the invariant and
    the core's debts pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2, before21_3, before21_4, before21_5]
  rw [show (dat21 V c).Φ t.succ = (dat21 V c).Φ t.castSucc from rfl,
    show (dat21 V c).owesAt () t.succ = (dat21 V c).owesAt () t.castSucc from rfl,
    after21_0, after21_1, after21_2, after21_3, after21_4, after21_5, after21_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel21 c Set.univ _ _ _ _ _ _ _ _ _ _ _ _ _ _ _ (iblk21 V c 0 t) (iblk21 V c 1 t) (iblk21 V c 2 t) (iblk21 V c 3 t) (iblk21 V c 4 t) (iblk21 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation21 (c : Dev nD) : BodyObligation (dat21 (F := F) V c) (defs₀ (F := F)) Variants.none () Set.univ := fun t => by
  rw [bigSep_W21, bigSep_W21]
  exact sound_body21 V c t

end Cert.Kernel.Reg
-- ==== Proof.Bits.Reg22.lean ====
import proofs.«425355_j88287347737110_2_alg».proof.Proof.Gen.Kernel.Launch
import proofs.«425355_j88287347737110_2_alg».proof.Proof.Gen.Kernel.Skeleton
import proofs.«425355_j88287347737110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-! # The edge-score region (pipeline 22): its frame half

At a parameter `V`, the core's buffer contents when the region is entered: each window's block at a grid point, what
the body leaves in the one output window's staging buffer, the body's triple, the pipeline's proof data and the body
obligation at every point. The body reads three row blocks `[5000,32]` and six resident blocks (three `[32,32]`
matrices, a `[1,32]` row, a `[32,1]` column, a `[1,1]` scalar) and stores one `[5000,1]` column:
`relu(hs·W₁ˢ + hd·W₁ᵈ + e·W₁ᵉ + b₁)·w₂ + b₂`. -/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- Input window 0's current staging buffer holds its block at every point, whether or not it was fetched there,
    for any proof data whose array is `V`'s and whose body leaves the block in place: where no fetch happened the block
    index has not moved. The window is uncut and never idle. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)

/-- Input window 1's current staging buffer holds its block at every point, whether or not it was fetched there,
    for any proof data whose array is `V`'s and whose body leaves the block in place: where no fetch happened the block
    index has not moved. The window is uncut and never idle. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

/-- Input window 2's current staging buffer holds its block at every point, whether or not it was fetched there,
    for any proof data whose array is `V`'s and whose body leaves the block in place: where no fetch happened the block
    index has not moved. The window is uncut and never idle. -/
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)

/-- Input window 3's current staging buffer holds its block at every point, whether or not it was fetched there,
    for any proof data whose array is `V`'s and whose body leaves the block in place: where no fetch happened the block
    index has not moved. The window is uncut and never idle. -/
theorem before22_3_of {c : Dev nD} (dat : Dat τ (Elt F) Unit ℕ (UR sig nD τ) ℕ cfg22 c) (hA : dat.A 3 = V c (Pipeline.arrRef spec22 3))
    (hafter : ∀ t, dat.after 3 t = iblk22 V c 3 t) (t : Fin cfg22.N) (d) : dat.before 3 t d = iblk22 V c 3 t :=
  (dat.before_in_eq_fetched 3 rfl (fun _ => rfl) (fun _ _ _ => rfl) (fun t => by rw [hafter]; unfold Dat.blockOf iblk22; rw [hA]; try rfl) t d).trans
    (by unfold Dat.fetched Dat.blockOf iblk22; rw [hA]; try rfl)

/-- Input window 4's current staging buffer holds its block at every point, whether or not it was fetched there,
    for any proof data whose array is `V`'s and whose body leaves the block in place: where no fetch happened the block
    index has not moved. The window is uncut and never idle. -/
theorem before22_4_of {c : Dev nD} (dat : Dat τ (Elt F) Unit ℕ (UR sig nD τ) ℕ cfg22 c) (hA : dat.A 4 = V c (Pipeline.arrRef spec22 4))
    (hafter : ∀ t, dat.after 4 t = iblk22 V c 4 t) (t : Fin cfg22.N) (d) : dat.before 4 t d = iblk22 V c 4 t :=
  (dat.before_in_eq_fetched 4 rfl (fun _ => rfl) (fun _ _ _ => rfl) (fun t => by rw [hafter]; unfold Dat.blockOf iblk22; rw [hA]; try rfl) t d).trans
    (by unfold Dat.fetched Dat.blockOf iblk22; rw [hA]; try rfl)

/-- Input window 5's current staging buffer holds its block at every point, whether or not it was fetched there,
    for any proof data whose array is `V`'s and whose body leaves the block in place: where no fetch happened the block
    index has not moved. The window is uncut and never idle. -/
theorem before22_5_of {c : Dev nD} (dat : Dat τ (Elt F) Unit ℕ (UR sig nD τ) ℕ cfg22 c) (hA : dat.A 5 = V c (Pipeline.arrRef spec22 5))
    (hafter : ∀ t, dat.after 5 t = iblk22 V c 5 t) (t : Fin cfg22.N) (d) : dat.before 5 t d = iblk22 V c 5 t :=
  (dat.before_in_eq_fetched 5 rfl (fun _ => rfl) (fun _ _ _ => rfl) (fun t => by rw [hafter]; unfold Dat.blockOf iblk22; rw [hA]; try rfl) t d).trans
    (by unfold Dat.fetched Dat.blockOf iblk22; rw [hA]; try rfl)

/-- Input window 6's current staging buffer holds its block at every point, whether or not it was fetched there,
    for any proof data whose array is `V`'s and whose body leaves the block in place: where no fetch happened the block
    index has not moved. The window is uncut and never idle. -/
theorem before22_6_of {c : Dev nD} (dat : Dat τ (Elt F) Unit ℕ (UR sig nD τ) ℕ cfg22 c) (hA : dat.A 6 = V c (Pipeline.arrRef spec22 6))
    (hafter : ∀ t, dat.after 6 t = iblk22 V c 6 t) (t : Fin cfg22.N) (d) : dat.before 6 t d = iblk22 V c 6 t :=
  (dat.before_in_eq_fetched 6 rfl (fun _ => rfl) (fun _ _ _ => rfl) (fun t => by rw [hafter]; unfold Dat.blockOf iblk22; rw [hA]; try rfl) t d).trans
    (by unfold Dat.fetched Dat.blockOf iblk22; rw [hA]; try rfl)

/-- Input window 7's current staging buffer holds its block at every point, whether or not it was fetched there,
    for any proof data whose array is `V`'s and whose body leaves the block in place: where no fetch happened the block
    index has not moved. The window is uncut and never idle. -/
theorem before22_7_of {c : Dev nD} (dat : Dat τ (Elt F) Unit ℕ (UR sig nD τ) ℕ cfg22 c) (hA : dat.A 7 = V c (Pipeline.arrRef spec22 7))
    (hafter : ∀ t, dat.after 7 t = iblk22 V c 7 t) (t : Fin cfg22.N) (d) : dat.before 7 t d = iblk22 V c 7 t :=
  (dat.before_in_eq_fetched 7 rfl (fun _ => rfl) (fun _ _ _ => rfl) (fun t => by rw [hafter]; unfold Dat.blockOf iblk22; rw [hA]; try rfl) t d).trans
    (by unfold Dat.fetched Dat.blockOf iblk22; rw [hA]; try rfl)

/-- Input window 8's current staging buffer holds its block at every point, whether or not it was fetched there,
    for any proof data whose array is `V`'s and whose body leaves the block in place: where no fetch happened the block
    index has not moved. The window is uncut and never idle. -/
theorem before22_8_of {c : Dev nD} (dat : Dat τ (Elt F) Unit ℕ (UR sig nD τ) ℕ cfg22 c) (hA : dat.A 8 = V c (Pipeline.arrRef spec22 8))
    (hafter : ∀ t, dat.after 8 t = iblk22 V c 8 t) (t : Fin cfg22.N) (d) : dat.before 8 t d = iblk22 V c 8 t :=
  (dat.before_in_eq_fetched 8 rfl (fun _ => rfl) (fun _ _ _ => rfl) (fun t => by rw [hafter]; unfold Dat.blockOf iblk22; rw [hA]; try rfl) t d).trans
    (by unfold Dat.fetched Dat.blockOf iblk22; rw [hA]; try rfl)

/-! ## The body's accesses: every load and the store take a whole staging buffer -/

abbrev r22_0 : Rect S5000x32 := Rect.unit (s := S5000x32) ![0, 0] S5000x32.size inb_S5000x32_S5000x32_0_0
abbrev r22_1 : Rect S32x32 := Rect.unit (s := S32x32) ![0, 0] S32x32.size inb_S32x32_S32x32_0_0
abbrev r22_2 : Rect S1x32 := Rect.unit (s := S1x32) ![0, 0] S1x32.size inb_S1x32_S1x32_0_0
abbrev r22_3 : Rect S32x1 := Rect.unit (s := S32x1) ![0, 0] S32x1.size inb_S32x1_S32x1_0_0
abbrev r22_4 : Rect S1x1 := Rect.unit (s := S1x1) ![0, 0] S1x1.size inb_S1x1_S1x1_0_0
abbrev r22_5 : Rect S5000x1 := Rect.unit (s := S5000x1) ![0, 0] S5000x1.size inb_S5000x1_S5000x1_0_0

/-! ## What the body leaves in the output window's buffer -/

/-- Window 9's staging buffer after the body, from the input windows' blocks: its one store, of the second product
    plus the broadcast scalar bias, over the whole buffer. -/
def out22_9 (x0 : Vec F S5000x32 .f32) (x1 : Vec F S5000x32 .f32) (x2 : Vec F S5000x32 .f32) (x3 : Vec F S32x32 .f32) (x4 : Vec F S32x32 .f32) (x5 : Vec F S32x32 .f32) (x6 : Vec F S1x32 .f32) (x7 : Vec F S32x1 .f32) (x8 : Vec F S1x1 .f32) : Vec F S5000x1 .f32 :=
  View.canon [⟨r22_5, k22_pay1 (k22_pay2 (View.ld x0 r22_0) (View.ld x1 r22_0) (View.ld x2 r22_0) (View.ld x3 r22_1) (View.ld x4 r22_1) (View.ld x5 r22_1) (View.ld x6 r22_2) (View.ld x7 r22_3)) (k22_pay3 (View.ld x8 r22_4))⟩]

/-- The one store is the whole buffer, so it covers it. -/
theorem cover22_9 (p0 : Vec F S5000x1 .f32) (y : S5000x1.Idx) :
    ∃ pc ∈ ([⟨r22_5, p0⟩] : List (View.Piece (Elt F) S5000x1 .f32)), y ∈ pc.1.set :=
  View.cover_of_tiled [⟨r22_5, p0⟩] S5000x1.size (by rfl) y

/-! ## The body's triple -/

set_option maxHeartbeats 1000000 in
/-- The kernel body on whole staging memrefs, the inputs' at read contents `xW` and the output's at anything, runs to
    the continuation holding the inputs' as they were and the output's at `out22_9` of the inputs': the printed
    functions are their skeletons of memory operations, run one operation at a time through the part call. The body
    also loads the output buffer before storing it; that value is dropped. -/
theorem sound_kernel22 (c : Dev nD) (E : Set ℕ) (i : grid22.Coords) (arg1 : Memref sig .tc .vmem S5000x32 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S32x1 .f32) (harg8 : arg8.IsWhole) (arg9 : Memref sig .tc .vmem S1x1 .f32) (harg9 : arg9.IsWhole) (arg10 : Memref sig .tc .vmem S5000x1 .f32) (harg10 : arg10.IsWhole)
    (x0 : Vec F S5000x32 .f32) (x1 : Vec F S5000x32 .f32) (x2 : Vec F S5000x32 .f32) (x3 : Vec F S32x32 .f32) (x4 : Vec F S32x32 .f32) (x5 : Vec F S32x32 .f32) (x6 : Vec F S1x32 .f32) (x7 : Vec F S32x1 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out22_9 x0 x1 x2 x3 x4 x5 x6 x7 x8)) -∗ K ⟨⟩))
      ⊢ wp frame (wpE (defs₀ (F := F)) Variants.none c none) E (cc22_kernel i arg1 harg1 arg2 harg2 arg3 harg3 arg4 harg4 arg5 harg5 arg6 harg6 arg7 harg7 arg8 harg8 arg9 harg9 arg10 harg10) K := by
  simp only [cc22_kernel_eq_skeleton]; unfold cc22_kernel_skel
  simp only [k22_part1_eq_skeleton]; unfold k22_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover22_9 _)

/-! ## The pipeline's proof data -/

/-- The proof data of pipeline 22 on core `c`: the arrays as the region finds them (`V`); after the body at point `t`
    each input's buffer at its block and the output's at `out22_9` of the input blocks; the invariant that leaves the
    scoped rest and the generator register untouched; nothing owed; full shares. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => iblk22 V c 3 t
    | ⟨4, _⟩ => iblk22 V c 4 t
    | ⟨5, _⟩ => iblk22 V c 5 t
    | ⟨6, _⟩ => iblk22 V c 6 t
    | ⟨7, _⟩ => iblk22 V c 7 t
    | ⟨8, _⟩ => iblk22 V c 8 t
    | ⟨9, _⟩ => out22_9 (iblk22 V c 0 t) (iblk22 V c 1 t) (iblk22 V c 2 t) (iblk22 V c 3 t) (iblk22 V c 4 t) (iblk22 V c 5 t) (iblk22 V c 6 t) (iblk22 V c 7 t) (iblk22 V c 8 t)
  Φ _ := Pipeline.ΦA spec22 c
  q _ := fullShare
  owed _ := 0

/-- The proof data's arrays are the region-entry contents. -/
theorem A_eq22 (c : Dev nD) (w : Fin cfg22.W) : (dat22 V c).A w = V c (Pipeline.arrRef spec22 w) := by
  dsimp only [dat22]

/-- What the body leaves, window by window. -/
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = iblk22 V c 3 t := by dsimp only [dat22]
theorem after22_4 (c : Dev nD) (t : Fin cfg22.N) : (dat22 V c).after 4 t = iblk22 V c 4 t := by dsimp only [dat22]
theorem after22_5 (c : Dev nD) (t : Fin cfg22.N) : (dat22 V c).after 5 t = iblk22 V c 5 t := by dsimp only [dat22]
theorem after22_6 (c : Dev nD) (t : Fin cfg22.N) : (dat22 V c).after 6 t = iblk22 V c 6 t := by dsimp only [dat22]
theorem after22_7 (c : Dev nD) (t : Fin cfg22.N) : (dat22 V c).after 7 t = iblk22 V c 7 t := by dsimp only [dat22]
theorem after22_8 (c : Dev nD) (t : Fin cfg22.N) : (dat22 V c).after 8 t = iblk22 V c 8 t := by dsimp only [dat22]
theorem after22_9 (c : Dev nD) (t : Fin cfg22.N) : (dat22 V c).after 9 t = out22_9 (iblk22 V c 0 t) (iblk22 V c 1 t) (iblk22 V c 2 t) (iblk22 V c 3 t) (iblk22 V c 4 t) (iblk22 V c 5 t) (iblk22 V c 6 t) (iblk22 V c 7 t) (iblk22 V c 8 t) := by dsimp only [dat22]

/-- Each input's current staging buffer holds its block at every point, fetched there or not. -/
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d
theorem before22_3 (c : Dev nD) (t : Fin cfg22.N) (d) : (dat22 V c).before 3 t d = iblk22 V c 3 t :=
  before22_3_of V (dat22 V c) (A_eq22 V c 3) (after22_3 V c) t d
theorem before22_4 (c : Dev nD) (t : Fin cfg22.N) (d) : (dat22 V c).before 4 t d = iblk22 V c 4 t :=
  before22_4_of V (dat22 V c) (A_eq22 V c 4) (after22_4 V c) t d
theorem before22_5 (c : Dev nD) (t : Fin cfg22.N) (d) : (dat22 V c).before 5 t d = iblk22 V c 5 t :=
  before22_5_of V (dat22 V c) (A_eq22 V c 5) (after22_5 V c) t d
theorem before22_6 (c : Dev nD) (t : Fin cfg22.N) (d) : (dat22 V c).before 6 t d = iblk22 V c 6 t :=
  before22_6_of V (dat22 V c) (A_eq22 V c 6) (after22_6 V c) t d
theorem before22_7 (c : Dev nD) (t : Fin cfg22.N) (d) : (dat22 V c).before 7 t d = iblk22 V c 7 t :=
  before22_7_of V (dat22 V c) (A_eq22 V c 7) (after22_7 V c) t d
theorem before22_8 (c : Dev nD) (t : Fin cfg22.N) (d) : (dat22 V c).before 8 t d = iblk22 V c 8 t :=
  before22_8_of V (dat22 V c) (A_eq22 V c 8) (after22_8 V c) t d

/-! ## The body obligation, at a generic point -/

/-- What the body is called with at point `t`, the windows one by one, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d))
    ∗ (∃ d, owns (c : Thread nD τ) (st22_4 t) fullShare ((dat22 V c).before 4 t d))
    ∗ (∃ d, owns (c : Thread nD τ) (st22_5 t) fullShare ((dat22 V c).before 5 t d))
    ∗ (∃ d, owns (c : Thread nD τ) (st22_6 t) fullShare ((dat22 V c).before 6 t d))
    ∗ (∃ d, owns (c : Thread nD τ) (st22_7 t) fullShare ((dat22 V c).before 7 t d))
    ∗ (∃ d, owns (c : Thread nD τ) (st22_8 t) fullShare ((dat22 V c).before 8 t d))
    ∗ (∃ d, owns (c : Thread nD τ) (st22_9 t) fullShare ((dat22 V c).before 9 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t)
    ∗ owns (c : Thread nD τ) (st22_4 t) fullShare ((dat22 V c).after 4 t)
    ∗ owns (c : Thread nD τ) (st22_5 t) fullShare ((dat22 V c).after 5 t)
    ∗ owns (c : Thread nD τ) (st22_6 t) fullShare ((dat22 V c).after 6 t)
    ∗ owns (c : Thread nD τ) (st22_7 t) fullShare ((dat22 V c).after 7 t)
    ∗ owns (c : Thread nD τ) (st22_8 t) fullShare ((dat22 V c).after 8 t)
    ∗ owns (c : Thread nD τ) (st22_9 t) fullShare ((dat22 V c).after 9 t))

/-- The body at any point: the inputs' memrefs hold their blocks, so the kernel's triple applies; the invariant and the
    core's `owes` pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2, before22_3, before22_4, before22_5, before22_6, before22_7, before22_8]
  rw [show (dat22 V c).Φ t.succ = (dat22 V c).Φ t.castSucc from rfl,
    show (dat22 V c).owesAt () t.succ = (dat22 V c).owesAt () t.castSucc from rfl,
    after22_0, after22_1, after22_2, after22_3, after22_4, after22_5, after22_6, after22_7, after22_8, after22_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel22 c Set.univ _ _ _ _ _ _ _ _ _ _ _ _ _ _ _ _ _ _ _ _ _ (iblk22 V c 0 t) (iblk22 V c 1 t) (iblk22 V c 2 t) (iblk22 V c 3 t) (iblk22 V c 4 t) (iblk22 V c 5 t) (iblk22 V c 6 t) (iblk22 V c 7 t) (iblk22 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation22 (c : Dev nD) : BodyObligation (dat22 (F := F) V c) (defs₀ (F := F)) Variants.none () Set.univ := fun t => by
  rw [bigSep_W22, bigSep_W22]
  exact sound_body22 V c t

end Cert.Kernel.Reg

end
-- ==== Proof.Bits.KFold.lean ====
/- The buffer contents of core c at each boundary of @main's items: a host stretch applies its operations' fold; a kernel
   region replaces each of its output arrays by what its write-backs leave and keeps every other buffer. -/
import proofs.«425355_j88287347737110_2_alg».proof.Proof.Bits.GRegions
import proofs.«425355_j88287347737110_2_alg».proof.Proof.Bits.Reg0
import proofs.«425355_j88287347737110_2_alg».proof.Proof.Bits.Reg1
import proofs.«425355_j88287347737110_2_alg».proof.Proof.Bits.Reg2
import proofs.«425355_j88287347737110_2_alg».proof.Proof.Bits.Reg3
import proofs.«425355_j88287347737110_2_alg».proof.Proof.Bits.Reg4
import proofs.«425355_j88287347737110_2_alg».proof.Proof.Bits.Reg5
import proofs.«425355_j88287347737110_2_alg».proof.Proof.Bits.Reg6
import proofs.«425355_j88287347737110_2_alg».proof.Proof.Bits.Reg7
import proofs.«425355_j88287347737110_2_alg».proof.Proof.Bits.Reg8
import proofs.«425355_j88287347737110_2_alg».proof.Proof.Bits.Reg9
import proofs.«425355_j88287347737110_2_alg».proof.Proof.Bits.Reg10
import proofs.«425355_j88287347737110_2_alg».proof.Proof.Bits.Reg11
import proofs.«425355_j88287347737110_2_alg».proof.Proof.Bits.Reg12
import proofs.«425355_j88287347737110_2_alg».proof.Proof.Bits.Reg13
import proofs.«425355_j88287347737110_2_alg».proof.Proof.Bits.Reg14
import proofs.«425355_j88287347737110_2_alg».proof.Proof.Bits.Reg15
import proofs.«425355_j88287347737110_2_alg».proof.Proof.Bits.Reg16
import proofs.«425355_j88287347737110_2_alg».proof.Proof.Bits.Reg17
import proofs.«425355_j88287347737110_2_alg».proof.Proof.Bits.Reg18
import proofs.«425355_j88287347737110_2_alg».proof.Proof.Bits.Reg19
import proofs.«425355_j88287347737110_2_alg».proof.Proof.Bits.Reg20
import proofs.«425355_j88287347737110_2_alg».proof.Proof.Bits.Reg21
import proofs.«425355_j88287347737110_2_alg».proof.Proof.Bits.Reg22
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's unscoped buffers at launch. -/
abbrev W0 (c : Dev nD) : Valuation τ sig (Elt F) := fun b => m (c, b)
/-- After the host stretch hostOps0. -/
abbrev W1 (c : Dev nD) : Valuation τ sig (Elt F) := StableHlo.after hostOps0 (W0 m c)
/-- The contents region 0 is entered from, read at the TensorCore's references. -/
abbrev T1 : (c : Dev nD) → (b : Ref sig .tc) → Buf (Elt F) ((c : Thread nD τ).loc b) := fun c b => W1 m c b
/-- At region 0's exit: each output array at what the pipeline's write-backs leave, every other buffer as entered. -/
def W2 (c : Dev nD) : Valuation τ sig (Elt F) :=
  Function.update (W1 m c) main_v5 ((Reg.dat0 (T1 m) c).arrAt 3 cfg0.N)
abbrev T2 : (c : Dev nD) → (b : Ref sig .tc) → Buf (Elt F) ((c : Thread nD τ).loc b) := fun c b => W2 m c b
theorem W2_of_ne (c : Dev nD) (b : Ref sig .tc) (h0 : b ≠ main_v5) : W2 m c b = W1 m c b := by
  unfold W2
  rw [Function.update_of_ne (StableHlo.devRef_ne_of_ne h0)]
theorem W2_at0 (c : Dev nD) : W2 m c main_v5 = (Reg.dat0 (T1 m) c).arrAt 3 cfg0.N := by
  unfold W2
  rw [Function.update_self]
/-- After the host stretch hostOps1. -/
abbrev W3 (c : Dev nD) : Valuation τ sig (Elt F) := StableHlo.after hostOps1 (W2 m c)
/-- The contents region 1 is entered from, read at the TensorCore's references. -/
abbrev T3 : (c : Dev nD) → (b : Ref sig .tc) → Buf (Elt F) ((c : Thread nD τ).loc b) := fun c b => W3 m c b
/-- At region 1's exit: each output array at what the pipeline's write-backs leave, every other buffer as entered. -/
def W4 (c : Dev nD) : Valuation τ sig (Elt F) :=
  Function.update (W3 m c) main_v7 ((Reg.dat1 (T3 m) c).arrAt 3 cfg1.N)
abbrev T4 : (c : Dev nD) → (b : Ref sig .tc) → Buf (Elt F) ((c : Thread nD τ).loc b) := fun c b => W4 m c b
theorem W4_of_ne (c : Dev nD) (b : Ref sig .tc) (h0 : b ≠ main_v7) : W4 m c b = W3 m c b := by
  unfold W4
  rw [Function.update_of_ne (StableHlo.devRef_ne_of_ne h0)]
theorem W4_at0 (c : Dev nD) : W4 m c main_v7 = (Reg.dat1 (T3 m) c).arrAt 3 cfg1.N := by
  unfold W4
  rw [Function.update_self]
/-- After the host stretch hostOps2. -/
abbrev W5 (c : Dev nD) : Valuation τ sig (Elt F) := StableHlo.after hostOps2 (W4 m c)
/-- The contents region 2 is entered from, read at the TensorCore's references. -/
abbrev T5 : (c : Dev nD) → (b : Ref sig .tc) → Buf (Elt F) ((c : Thread nD τ).loc b) := fun c b => W5 m c b
/-- At region 2's exit: each output array at what the pipeline's write-backs leave, every other buffer as entered. -/
def W6 (c : Dev nD) : Valuation τ sig (Elt F) :=
  Function.update (W5 m c) main_v27 ((Reg.dat2 (T5 m) c).arrAt 3 cfg2.N)
abbrev T6 : (c : Dev nD) → (b : Ref sig .tc) → Buf (Elt F) ((c : Thread nD τ).loc b) := fun c b => W6 m c b
theorem W6_of_ne (c : Dev nD) (b : Ref sig .tc) (h0 : b ≠ main_v27) : W6 m c b = W5 m c b := by
  unfold W6
  rw [Function.update_of_ne (StableHlo.devRef_ne_of_ne h0)]
theorem W6_at0 (c : Dev nD) : W6 m c main_v27 = (Reg.dat2 (T5 m) c).arrAt 3 cfg2.N := by
  unfold W6
  rw [Function.update_self]
/-- After the host stretch hostOps3. -/
abbrev W7 (c : Dev nD) : Valuation τ sig (Elt F) := StableHlo.after hostOps3 (W6 m c)
/-- After the host stretch hostOps3_1. -/
abbrev W8 (c : Dev nD) : Valuation τ sig (Elt F) := StableHlo.after hostOps3_1 (W7 m c)
/-- After the host stretch hostOps3_2. -/
abbrev W9 (c : Dev nD) : Valuation τ sig (Elt F) := StableHlo.after hostOps3_2 (W8 m c)
/-- The contents region 3 is entered from, read at the TensorCore's references. -/
abbrev T9 : (c : Dev nD) → (b : Ref sig .tc) → Buf (Elt F) ((c : Thread nD τ).loc b) := fun c b => W9 m c b
/-- At region 3's exit: each output array at what the pipeline's write-backs leave, every other buffer as entered. -/
def W10 (c : Dev nD) : Valuation τ sig (Elt F) :=
  Function.update (Function.update (Function.update (W9 m c) main_v66_0 ((Reg.dat3 (T9 m) c).arrAt 6 cfg3.N)) main_v66_1 ((Reg.dat3 (T9 m) c).arrAt 7 cfg3.N)) main_v66_2 ((Reg.dat3 (T9 m) c).arrAt 8 cfg3.N)
abbrev T10 : (c : Dev nD) → (b : Ref sig .tc) → Buf (Elt F) ((c : Thread nD τ).loc b) := fun c b => W10 m c b
theorem W10_of_ne (c : Dev nD) (b : Ref sig .tc) (h0 : b ≠ main_v66_0) (h1 : b ≠ main_v66_1) (h2 : b ≠ main_v66_2) : W10 m c b = W9 m c b := by
  unfold W10
  rw [Function.update_of_ne (StableHlo.devRef_ne_of_ne h2)]
  rw [Function.update_of_ne (StableHlo.devRef_ne_of_ne h1)]
  rw [Function.update_of_ne (StableHlo.devRef_ne_of_ne h0)]
theorem W10_at0 (c : Dev nD) : W10 m c main_v66_0 = (Reg.dat3 (T9 m) c).arrAt 6 cfg3.N := by
  unfold W10
  rw [Function.update_of_ne (StableHlo.devRef_ne_of_ne (by decide : main_v66_0 ≠ main_v66_2))]
  rw [Function.update_of_ne (StableHlo.devRef_ne_of_ne (by decide : main_v66_0 ≠ main_v66_1))]
  rw [Function.update_self]
theorem W10_at1 (c : Dev nD) : W10 m c main_v66_1 = (Reg.dat3 (T9 m) c).arrAt 7 cfg3.N := by
  unfold W10
  rw [Function.update_of_ne (StableHlo.devRef_ne_of_ne (by decide : main_v66_1 ≠ main_v66_2))]
  rw [Function.update_self]
theorem W10_at2 (c : Dev nD) : W10 m c main_v66_2 = (Reg.dat3 (T9 m) c).arrAt 8 cfg3.N := by
  unfold W10
  rw [Function.update_self]
/-- After the host stretch hostOps4. -/
abbrev W11 (c : Dev nD) : Valuation τ sig (Elt F) := StableHlo.after hostOps4 (W10 m c)
/-- The contents region 4 is entered from, read at the TensorCore's references. -/
abbrev T11 : (c : Dev nD) → (b : Ref sig .tc) → Buf (Elt F) ((c : Thread nD τ).loc b) := fun c b => W11 m c b
/-- At region 4's exit: each output array at what the pipeline's write-backs leave, every other buffer as entered. -/
def W12 (c : Dev nD) : Valuation τ sig (Elt F) :=
  Function.update (W11 m c) main_v79 ((Reg.dat4 (T11 m) c).arrAt 3 cfg4.N)
abbrev T12 : (c : Dev nD) → (b : Ref sig .tc) → Buf (Elt F) ((c : Thread nD τ).loc b) := fun c b => W12 m c b
theorem W12_of_ne (c : Dev nD) (b : Ref sig .tc) (h0 : b ≠ main_v79) : W12 m c b = W11 m c b := by
  unfold W12
  rw [Function.update_of_ne (StableHlo.devRef_ne_of_ne h0)]
theorem W12_at0 (c : Dev nD) : W12 m c main_v79 = (Reg.dat4 (T11 m) c).arrAt 3 cfg4.N := by
  unfold W12
  rw [Function.update_self]
/-- After the host stretch hostOps5. -/
abbrev W13 (c : Dev nD) : Valuation τ sig (Elt F) := StableHlo.after hostOps5 (W12 m c)
/-- After the host stretch hostOps5_1. -/
abbrev W14 (c : Dev nD) : Valuation τ sig (Elt F) := StableHlo.after hostOps5_1 (W13 m c)
/-- After the host stretch hostOps5_2. -/
abbrev W15 (c : Dev nD) : Valuation τ sig (Elt F) := StableHlo.after hostOps5_2 (W14 m c)
/-- After the host stretch hostOps5_3. -/
abbrev W16 (c : Dev nD) : Valuation τ sig (Elt F) := StableHlo.after hostOps5_3 (W15 m c)
/-- After the host stretch hostOps5_4. -/
abbrev W17 (c : Dev nD) : Valuation τ sig (Elt F) := StableHlo.after hostOps5_4 (W16 m c)
/-- The contents region 5 is entered from, read at the TensorCore's references. -/
abbrev T17 : (c : Dev nD) → (b : Ref sig .tc) → Buf (Elt F) ((c : Thread nD τ).loc b) := fun c b => W17 m c b
/-- At region 5's exit: each output array at what the pipeline's write-backs leave, every other buffer as entered. -/
def W18 (c : Dev nD) : Valuation τ sig (Elt F) :=
  Function.update (W17 m c) main_v126 ((Reg.dat5 (T17 m) c).arrAt 6 cfg5.N)
abbrev T18 : (c : Dev nD) → (b : Ref sig .tc) → Buf (Elt F) ((c : Thread nD τ).loc b) := fun c b => W18 m c b
theorem W18_of_ne (c : Dev nD) (b : Ref sig .tc) (h0 : b ≠ main_v126) : W18 m c b = W17 m c b := by
  unfold W18
  rw [Function.update_of_ne (StableHlo.devRef_ne_of_ne h0)]
theorem W18_at0 (c : Dev nD) : W18 m c main_v126 = (Reg.dat5 (T17 m) c).arrAt 6 cfg5.N := by
  unfold W18
  rw [Function.update_self]
/-- After the host stretch hostOps6. -/
abbrev W19 (c : Dev nD) : Valuation τ sig (Elt F) := StableHlo.after hostOps6 (W18 m c)
/-- The contents region 6 is entered from, read at the TensorCore's references. -/
abbrev T19 : (c : Dev nD) → (b : Ref sig .tc) → Buf (Elt F) ((c : Thread nD τ).loc b) := fun c b => W19 m c b
/-- At region 6's exit: each output array at what the pipeline's write-backs leave, every other buffer as entered. -/
def W20 (c : Dev nD) : Valuation τ sig (Elt F) :=
  Function.update (W19 m c) main_v133 ((Reg.dat6 (T19 m) c).arrAt 6 cfg6.N)
abbrev T20 : (c : Dev nD) → (b : Ref sig .tc) → Buf (Elt F) ((c : Thread nD τ).loc b) := fun c b => W20 m c b
theorem W20_of_ne (c : Dev nD) (b : Ref sig .tc) (h0 : b ≠ main_v133) : W20 m c b = W19 m c b := by
  unfold W20
  rw [Function.update_of_ne (StableHlo.devRef_ne_of_ne h0)]
theorem W20_at0 (c : Dev nD) : W20 m c main_v133 = (Reg.dat6 (T19 m) c).arrAt 6 cfg6.N := by
  unfold W20
  rw [Function.update_self]
/-- After the host stretch hostOps7. -/
abbrev W21 (c : Dev nD) : Valuation τ sig (Elt F) := StableHlo.after hostOps7 (W20 m c)
/-- The contents region 7 is entered from, read at the TensorCore's references. -/
abbrev T21 : (c : Dev nD) → (b : Ref sig .tc) → Buf (Elt F) ((c : Thread nD τ).loc b) := fun c b => W21 m c b
/-- At region 7's exit: each output array at what the pipeline's write-backs leave, every other buffer as entered. -/
def W22 (c : Dev nD) : Valuation τ sig (Elt F) :=
  Function.update (W21 m c) main_v154 ((Reg.dat7 (T21 m) c).arrAt 3 cfg7.N)
abbrev T22 : (c : Dev nD) → (b : Ref sig .tc) → Buf (Elt F) ((c : Thread nD τ).loc b) := fun c b => W22 m c b
theorem W22_of_ne (c : Dev nD) (b : Ref sig .tc) (h0 : b ≠ main_v154) : W22 m c b = W21 m c b := by
  unfold W22
  rw [Function.update_of_ne (StableHlo.devRef_ne_of_ne h0)]
theorem W22_at0 (c : Dev nD) : W22 m c main_v154 = (Reg.dat7 (T21 m) c).arrAt 3 cfg7.N := by
  unfold W22
  rw [Function.update_self]
/-- After the host stretch hostOps8. -/
abbrev W23 (c : Dev nD) : Valuation τ sig (Elt F) := StableHlo.after hostOps8 (W22 m c)
/-- After the host stretch hostOps8_1. -/
abbrev W24 (c : Dev nD) : Valuation τ sig (Elt F) := StableHlo.after hostOps8_1 (W23 m c)
/-- After the host stretch hostOps8_2. -/
abbrev W25 (c : Dev nD) : Valuation τ sig (Elt F) := StableHlo.after hostOps8_2 (W24 m c)
/-- The contents region 8 is entered from, read at the TensorCore's references. -/
abbrev T25 : (c : Dev nD) → (b : Ref sig .tc) → Buf (Elt F) ((c : Thread nD τ).loc b) := fun c b => W25 m c b
/-- At region 8's exit: each output array at what the pipeline's write-backs leave, every other buffer as entered. -/
def W26 (c : Dev nD) : Valuation τ sig (Elt F) :=
  Function.update (Function.update (Function.update (W25 m c) main_v193_0 ((Reg.dat8 (T25 m) c).arrAt 6 cfg8.N)) main_v193_1 ((Reg.dat8 (T25 m) c).arrAt 7 cfg8.N)) main_v193_2 ((Reg.dat8 (T25 m) c).arrAt 8 cfg8.N)
abbrev T26 : (c : Dev nD) → (b : Ref sig .tc) → Buf (Elt F) ((c : Thread nD τ).loc b) := fun c b => W26 m c b
theorem W26_of_ne (c : Dev nD) (b : Ref sig .tc) (h0 : b ≠ main_v193_0) (h1 : b ≠ main_v193_1) (h2 : b ≠ main_v193_2) : W26 m c b = W25 m c b := by
  unfold W26
  rw [Function.update_of_ne (StableHlo.devRef_ne_of_ne h2)]
  rw [Function.update_of_ne (StableHlo.devRef_ne_of_ne h1)]
  rw [Function.update_of_ne (StableHlo.devRef_ne_of_ne h0)]
theorem W26_at0 (c : Dev nD) : W26 m c main_v193_0 = (Reg.dat8 (T25 m) c).arrAt 6 cfg8.N := by
  unfold W26
  rw [Function.update_of_ne (StableHlo.devRef_ne_of_ne (by decide : main_v193_0 ≠ main_v193_2))]
  rw [Function.update_of_ne (StableHlo.devRef_ne_of_ne (by decide : main_v193_0 ≠ main_v193_1))]
  rw [Function.update_self]
theorem W26_at1 (c : Dev nD) : W26 m c main_v193_1 = (Reg.dat8 (T25 m) c).arrAt 7 cfg8.N := by
  unfold W26
  rw [Function.update_of_ne (StableHlo.devRef_ne_of_ne (by decide : main_v193_1 ≠ main_v193_2))]
  rw [Function.update_self]
theorem W26_at2 (c : Dev nD) : W26 m c main_v193_2 = (Reg.dat8 (T25 m) c).arrAt 8 cfg8.N := by
  unfold W26
  rw [Function.update_self]
/-- After the host stretch hostOps9. -/
abbrev W27 (c : Dev nD) : Valuation τ sig (Elt F) := StableHlo.after hostOps9 (W26 m c)
/-- The contents region 9 is entered from, read at the TensorCore's references. -/
abbrev T27 : (c : Dev nD) → (b : Ref sig .tc) → Buf (Elt F) ((c : Thread nD τ).loc b) := fun c b => W27 m c b
/-- At region 9's exit: each output array at what the pipeline's write-backs leave, every other buffer as entered. -/
def W28 (c : Dev nD) : Valuation τ sig (Elt F) :=
  Function.update (W27 m c) main_v206 ((Reg.dat9 (T27 m) c).arrAt 3 cfg9.N)
abbrev T28 : (c : Dev nD) → (b : Ref sig .tc) → Buf (Elt F) ((c : Thread nD τ).loc b) := fun c b => W28 m c b
theorem W28_of_ne (c : Dev nD) (b : Ref sig .tc) (h0 : b ≠ main_v206) : W28 m c b = W27 m c b := by
  unfold W28
  rw [Function.update_of_ne (StableHlo.devRef_ne_of_ne h0)]
theorem W28_at0 (c : Dev nD) : W28 m c main_v206 = (Reg.dat9 (T27 m) c).arrAt 3 cfg9.N := by
  unfold W28
  rw [Function.update_self]
/-- After the host stretch hostOps10. -/
abbrev W29 (c : Dev nD) : Valuation τ sig (Elt F) := StableHlo.after hostOps10 (W28 m c)
/-- After the host stretch hostOps10_1. -/
abbrev W30 (c : Dev nD) : Valuation τ sig (Elt F) := StableHlo.after hostOps10_1 (W29 m c)
/-- After the host stretch hostOps10_2. -/
abbrev W31 (c : Dev nD) : Valuation τ sig (Elt F) := StableHlo.after hostOps10_2 (W30 m c)
/-- After the host stretch hostOps10_3. -/
abbrev W32 (c : Dev nD) : Valuation τ sig (Elt F) := StableHlo.after hostOps10_3 (W31 m c)
/-- After the host stretch hostOps10_4. -/
abbrev W33 (c : Dev nD) : Valuation τ sig (Elt F) := StableHlo.after hostOps10_4 (W32 m c)
/-- The contents region 10 is entered from, read at the TensorCore's references. -/
abbrev T33 : (c : Dev nD) → (b : Ref sig .tc) → Buf (Elt F) ((c : Thread nD τ).loc b) := fun c b => W33 m c b
/-- At region 10's exit: each output array at what the pipeline's write-backs leave, every other buffer as entered. -/
def W34 (c : Dev nD) : Valuation τ sig (Elt F) :=
  Function.update (W33 m c) main_v253 ((Reg.dat10 (T33 m) c).arrAt 6 cfg10.N)
abbrev T34 : (c : Dev nD) → (b : Ref sig .tc) → Buf (Elt F) ((c : Thread nD τ).loc b) := fun c b => W34 m c b
theorem W34_of_ne (c : Dev nD) (b : Ref sig .tc) (h0 : b ≠ main_v253) : W34 m c b = W33 m c b := by
  unfold W34
  rw [Function.update_of_ne (StableHlo.devRef_ne_of_ne h0)]
theorem W34_at0 (c : Dev nD) : W34 m c main_v253 = (Reg.dat10 (T33 m) c).arrAt 6 cfg10.N := by
  unfold W34
  rw [Function.update_self]
/-- After the host stretch hostOps11. -/
abbrev W35 (c : Dev nD) : Valuation τ sig (Elt F) := StableHlo.after hostOps11 (W34 m c)
/-- The contents region 11 is entered from, read at the TensorCore's references. -/
abbrev T35 : (c : Dev nD) → (b : Ref sig .tc) → Buf (Elt F) ((c : Thread nD τ).loc b) := fun c b => W35 m c b
/-- At region 11's exit: each output array at what the pipeline's write-backs leave, every other buffer as entered. -/
def W36 (c : Dev nD) : Valuation τ sig (Elt F) :=
  Function.update (W35 m c) main_v260 ((Reg.dat11 (T35 m) c).arrAt 6 cfg11.N)
abbrev T36 : (c : Dev nD) → (b : Ref sig .tc) → Buf (Elt F) ((c : Thread nD τ).loc b) := fun c b => W36 m c b
theorem W36_of_ne (c : Dev nD) (b : Ref sig .tc) (h0 : b ≠ main_v260) : W36 m c b = W35 m c b := by
  unfold W36
  rw [Function.update_of_ne (StableHlo.devRef_ne_of_ne h0)]
theorem W36_at0 (c : Dev nD) : W36 m c main_v260 = (Reg.dat11 (T35 m) c).arrAt 6 cfg11.N := by
  unfold W36
  rw [Function.update_self]
/-- After the host stretch hostOps12. -/
abbrev W37 (c : Dev nD) : Valuation τ sig (Elt F) := StableHlo.after hostOps12 (W36 m c)
/-- The contents region 12 is entered from, read at the TensorCore's references. -/
abbrev T37 : (c : Dev nD) → (b : Ref sig .tc) → Buf (Elt F) ((c : Thread nD τ).loc b) := fun c b => W37 m c b
/-- At region 12's exit: each output array at what the pipeline's write-backs leave, every other buffer as entered. -/
def W38 (c : Dev nD) : Valuation τ sig (Elt F) :=
  Function.update (W37 m c) main_v281 ((Reg.dat12 (T37 m) c).arrAt 3 cfg12.N)
abbrev T38 : (c : Dev nD) → (b : Ref sig .tc) → Buf (Elt F) ((c : Thread nD τ).loc b) := fun c b => W38 m c b
theorem W38_of_ne (c : Dev nD) (b : Ref sig .tc) (h0 : b ≠ main_v281) : W38 m c b = W37 m c b := by
  unfold W38
  rw [Function.update_of_ne (StableHlo.devRef_ne_of_ne h0)]
theorem W38_at0 (c : Dev nD) : W38 m c main_v281 = (Reg.dat12 (T37 m) c).arrAt 3 cfg12.N := by
  unfold W38
  rw [Function.update_self]
/-- After the host stretch hostOps13. -/
abbrev W39 (c : Dev nD) : Valuation τ sig (Elt F) := StableHlo.after hostOps13 (W38 m c)
/-- After the host stretch hostOps13_1. -/
abbrev W40 (c : Dev nD) : Valuation τ sig (Elt F) := StableHlo.after hostOps13_1 (W39 m c)
/-- After the host stretch hostOps13_2. -/
abbrev W41 (c : Dev nD) : Valuation τ sig (Elt F) := StableHlo.after hostOps13_2 (W40 m c)
/-- The contents region 13 is entered from, read at the TensorCore's references. -/
abbrev T41 : (c : Dev nD) → (b : Ref sig .tc) → Buf (Elt F) ((c : Thread nD τ).loc b) := fun c b => W41 m c b
/-- At region 13's exit: each output array at what the pipeline's write-backs leave, every other buffer as entered. -/
def W42 (c : Dev nD) : Valuation τ sig (Elt F) :=
  Function.update (Function.update (Function.update (W41 m c) main_v320_0 ((Reg.dat13 (T41 m) c).arrAt 6 cfg13.N)) main_v320_1 ((Reg.dat13 (T41 m) c).arrAt 7 cfg13.N)) main_v320_2 ((Reg.dat13 (T41 m) c).arrAt 8 cfg13.N)
abbrev T42 : (c : Dev nD) → (b : Ref sig .tc) → Buf (Elt F) ((c : Thread nD τ).loc b) := fun c b => W42 m c b
theorem W42_of_ne (c : Dev nD) (b : Ref sig .tc) (h0 : b ≠ main_v320_0) (h1 : b ≠ main_v320_1) (h2 : b ≠ main_v320_2) : W42 m c b = W41 m c b := by
  unfold W42
  rw [Function.update_of_ne (StableHlo.devRef_ne_of_ne h2)]
  rw [Function.update_of_ne (StableHlo.devRef_ne_of_ne h1)]
  rw [Function.update_of_ne (StableHlo.devRef_ne_of_ne h0)]
theorem W42_at0 (c : Dev nD) : W42 m c main_v320_0 = (Reg.dat13 (T41 m) c).arrAt 6 cfg13.N := by
  unfold W42
  rw [Function.update_of_ne (StableHlo.devRef_ne_of_ne (by decide : main_v320_0 ≠ main_v320_2))]
  rw [Function.update_of_ne (StableHlo.devRef_ne_of_ne (by decide : main_v320_0 ≠ main_v320_1))]
  rw [Function.update_self]
theorem W42_at1 (c : Dev nD) : W42 m c main_v320_1 = (Reg.dat13 (T41 m) c).arrAt 7 cfg13.N := by
  unfold W42
  rw [Function.update_of_ne (StableHlo.devRef_ne_of_ne (by decide : main_v320_1 ≠ main_v320_2))]
  rw [Function.update_self]
theorem W42_at2 (c : Dev nD) : W42 m c main_v320_2 = (Reg.dat13 (T41 m) c).arrAt 8 cfg13.N := by
  unfold W42
  rw [Function.update_self]
/-- After the host stretch hostOps14. -/
abbrev W43 (c : Dev nD) : Valuation τ sig (Elt F) := StableHlo.after hostOps14 (W42 m c)
/-- The contents region 14 is entered from, read at the TensorCore's references. -/
abbrev T43 : (c : Dev nD) → (b : Ref sig .tc) → Buf (Elt F) ((c : Thread nD τ).loc b) := fun c b => W43 m c b
/-- At region 14's exit: each output array at what the pipeline's write-backs leave, every other buffer as entered. -/
def W44 (c : Dev nD) : Valuation τ sig (Elt F) :=
  Function.update (W43 m c) main_v333 ((Reg.dat14 (T43 m) c).arrAt 3 cfg14.N)
abbrev T44 : (c : Dev nD) → (b : Ref sig .tc) → Buf (Elt F) ((c : Thread nD τ).loc b) := fun c b => W44 m c b
theorem W44_of_ne (c : Dev nD) (b : Ref sig .tc) (h0 : b ≠ main_v333) : W44 m c b = W43 m c b := by
  unfold W44
  rw [Function.update_of_ne (StableHlo.devRef_ne_of_ne h0)]
theorem W44_at0 (c : Dev nD) : W44 m c main_v333 = (Reg.dat14 (T43 m) c).arrAt 3 cfg14.N := by
  unfold W44
  rw [Function.update_self]
/-- After the host stretch hostOps15. -/
abbrev W45 (c : Dev nD) : Valuation τ sig (Elt F) := StableHlo.after hostOps15 (W44 m c)
/-- After the host stretch hostOps15_1. -/
abbrev W46 (c : Dev nD) : Valuation τ sig (Elt F) := StableHlo.after hostOps15_1 (W45 m c)
/-- After the host stretch hostOps15_2. -/
abbrev W47 (c : Dev nD) : Valuation τ sig (Elt F) := StableHlo.after hostOps15_2 (W46 m c)
/-- After the host stretch hostOps15_3. -/
abbrev W48 (c : Dev nD) : Valuation τ sig (Elt F) := StableHlo.after hostOps15_3 (W47 m c)
/-- After the host stretch hostOps15_4. -/
abbrev W49 (c : Dev nD) : Valuation τ sig (Elt F) := StableHlo.after hostOps15_4 (W48 m c)
/-- The contents region 15 is entered from, read at the TensorCore's references. -/
abbrev T49 : (c : Dev nD) → (b : Ref sig .tc) → Buf (Elt F) ((c : Thread nD τ).loc b) := fun c b => W49 m c b
/-- At region 15's exit: each output array at what the pipeline's write-backs leave, every other buffer as entered. -/
def W50 (c : Dev nD) : Valuation τ sig (Elt F) :=
  Function.update (W49 m c) main_v380 ((Reg.dat15 (T49 m) c).arrAt 6 cfg15.N)
abbrev T50 : (c : Dev nD) → (b : Ref sig .tc) → Buf (Elt F) ((c : Thread nD τ).loc b) := fun c b => W50 m c b
theorem W50_of_ne (c : Dev nD) (b : Ref sig .tc) (h0 : b ≠ main_v380) : W50 m c b = W49 m c b := by
  unfold W50
  rw [Function.update_of_ne (StableHlo.devRef_ne_of_ne h0)]
theorem W50_at0 (c : Dev nD) : W50 m c main_v380 = (Reg.dat15 (T49 m) c).arrAt 6 cfg15.N := by
  unfold W50
  rw [Function.update_self]
/-- After the host stretch hostOps16. -/
abbrev W51 (c : Dev nD) : Valuation τ sig (Elt F) := StableHlo.after hostOps16 (W50 m c)
/-- The contents region 16 is entered from, read at the TensorCore's references. -/
abbrev T51 : (c : Dev nD) → (b : Ref sig .tc) → Buf (Elt F) ((c : Thread nD τ).loc b) := fun c b => W51 m c b
/-- At region 16's exit: each output array at what the pipeline's write-backs leave, every other buffer as entered. -/
def W52 (c : Dev nD) : Valuation τ sig (Elt F) :=
  Function.update (W51 m c) main_v387 ((Reg.dat16 (T51 m) c).arrAt 6 cfg16.N)
abbrev T52 : (c : Dev nD) → (b : Ref sig .tc) → Buf (Elt F) ((c : Thread nD τ).loc b) := fun c b => W52 m c b
theorem W52_of_ne (c : Dev nD) (b : Ref sig .tc) (h0 : b ≠ main_v387) : W52 m c b = W51 m c b := by
  unfold W52
  rw [Function.update_of_ne (StableHlo.devRef_ne_of_ne h0)]
theorem W52_at0 (c : Dev nD) : W52 m c main_v387 = (Reg.dat16 (T51 m) c).arrAt 6 cfg16.N := by
  unfold W52
  rw [Function.update_self]
/-- After the host stretch hostOps17. -/
abbrev W53 (c : Dev nD) : Valuation τ sig (Elt F) := StableHlo.after hostOps17 (W52 m c)
/-- The contents region 17 is entered from, read at the TensorCore's references. -/
abbrev T53 : (c : Dev nD) → (b : Ref sig .tc) → Buf (Elt F) ((c : Thread nD τ).loc b) := fun c b => W53 m c b
/-- At region 17's exit: each output array at what the pipeline's write-backs leave, every other buffer as entered. -/
def W54 (c : Dev nD) : Valuation τ sig (Elt F) :=
  Function.update (W53 m c) main_v408 ((Reg.dat17 (T53 m) c).arrAt 3 cfg17.N)
abbrev T54 : (c : Dev nD) → (b : Ref sig .tc) → Buf (Elt F) ((c : Thread nD τ).loc b) := fun c b => W54 m c b
theorem W54_of_ne (c : Dev nD) (b : Ref sig .tc) (h0 : b ≠ main_v408) : W54 m c b = W53 m c b := by
  unfold W54
  rw [Function.update_of_ne (StableHlo.devRef_ne_of_ne h0)]
theorem W54_at0 (c : Dev nD) : W54 m c main_v408 = (Reg.dat17 (T53 m) c).arrAt 3 cfg17.N := by
  unfold W54
  rw [Function.update_self]
/-- After the host stretch hostOps18. -/
abbrev W55 (c : Dev nD) : Valuation τ sig (Elt F) := StableHlo.after hostOps18 (W54 m c)
/-- After the host stretch hostOps18_1. -/
abbrev W56 (c : Dev nD) : Valuation τ sig (Elt F) := StableHlo.after hostOps18_1 (W55 m c)
/-- After the host stretch hostOps18_2. -/
abbrev W57 (c : Dev nD) : Valuation τ sig (Elt F) := StableHlo.after hostOps18_2 (W56 m c)
/-- The contents region 18 is entered from, read at the TensorCore's references. -/
abbrev T57 : (c : Dev nD) → (b : Ref sig .tc) → Buf (Elt F) ((c : Thread nD τ).loc b) := fun c b => W57 m c b
/-- At region 18's exit: each output array at what the pipeline's write-backs leave, every other buffer as entered. -/
def W58 (c : Dev nD) : Valuation τ sig (Elt F) :=
  Function.update (Function.update (Function.update (W57 m c) main_v447_0 ((Reg.dat18 (T57 m) c).arrAt 6 cfg18.N)) main_v447_1 ((Reg.dat18 (T57 m) c).arrAt 7 cfg18.N)) main_v447_2 ((Reg.dat18 (T57 m) c).arrAt 8 cfg18.N)
abbrev T58 : (c : Dev nD) → (b : Ref sig .tc) → Buf (Elt F) ((c : Thread nD τ).loc b) := fun c b => W58 m c b
theorem W58_of_ne (c : Dev nD) (b : Ref sig .tc) (h0 : b ≠ main_v447_0) (h1 : b ≠ main_v447_1) (h2 : b ≠ main_v447_2) : W58 m c b = W57 m c b := by
  unfold W58
  rw [Function.update_of_ne (StableHlo.devRef_ne_of_ne h2)]
  rw [Function.update_of_ne (StableHlo.devRef_ne_of_ne h1)]
  rw [Function.update_of_ne (StableHlo.devRef_ne_of_ne h0)]
theorem W58_at0 (c : Dev nD) : W58 m c main_v447_0 = (Reg.dat18 (T57 m) c).arrAt 6 cfg18.N := by
  unfold W58
  rw [Function.update_of_ne (StableHlo.devRef_ne_of_ne (by decide : main_v447_0 ≠ main_v447_2))]
  rw [Function.update_of_ne (StableHlo.devRef_ne_of_ne (by decide : main_v447_0 ≠ main_v447_1))]
  rw [Function.update_self]
theorem W58_at1 (c : Dev nD) : W58 m c main_v447_1 = (Reg.dat18 (T57 m) c).arrAt 7 cfg18.N := by
  unfold W58
  rw [Function.update_of_ne (StableHlo.devRef_ne_of_ne (by decide : main_v447_1 ≠ main_v447_2))]
  rw [Function.update_self]
theorem W58_at2 (c : Dev nD) : W58 m c main_v447_2 = (Reg.dat18 (T57 m) c).arrAt 8 cfg18.N := by
  unfold W58
  rw [Function.update_self]
/-- After the host stretch hostOps19. -/
abbrev W59 (c : Dev nD) : Valuation τ sig (Elt F) := StableHlo.after hostOps19 (W58 m c)
/-- The contents region 19 is entered from, read at the TensorCore's references. -/
abbrev T59 : (c : Dev nD) → (b : Ref sig .tc) → Buf (Elt F) ((c : Thread nD τ).loc b) := fun c b => W59 m c b
/-- At region 19's exit: each output array at what the pipeline's write-backs leave, every other buffer as entered. -/
def W60 (c : Dev nD) : Valuation τ sig (Elt F) :=
  Function.update (W59 m c) main_v460 ((Reg.dat19 (T59 m) c).arrAt 3 cfg19.N)
abbrev T60 : (c : Dev nD) → (b : Ref sig .tc) → Buf (Elt F) ((c : Thread nD τ).loc b) := fun c b => W60 m c b
theorem W60_of_ne (c : Dev nD) (b : Ref sig .tc) (h0 : b ≠ main_v460) : W60 m c b = W59 m c b := by
  unfold W60
  rw [Function.update_of_ne (StableHlo.devRef_ne_of_ne h0)]
theorem W60_at0 (c : Dev nD) : W60 m c main_v460 = (Reg.dat19 (T59 m) c).arrAt 3 cfg19.N := by
  unfold W60
  rw [Function.update_self]
/-- After the host stretch hostOps20. -/
abbrev W61 (c : Dev nD) : Valuation τ sig (Elt F) := StableHlo.after hostOps20 (W60 m c)
/-- After the host stretch hostOps20_1. -/
abbrev W62 (c : Dev nD) : Valuation τ sig (Elt F) := StableHlo.after hostOps20_1 (W61 m c)
/-- After the host stretch hostOps20_2. -/
abbrev W63 (c : Dev nD) : Valuation τ sig (Elt F) := StableHlo.after hostOps20_2 (W62 m c)
/-- After the host stretch hostOps20_3. -/
abbrev W64 (c : Dev nD) : Valuation τ sig (Elt F) := StableHlo.after hostOps20_3 (W63 m c)
/-- After the host stretch hostOps20_4. -/
abbrev W65 (c : Dev nD) : Valuation τ sig (Elt F) := StableHlo.after hostOps20_4 (W64 m c)
/-- The contents region 20 is entered from, read at the TensorCore's references. -/
abbrev T65 : (c : Dev nD) → (b : Ref sig .tc) → Buf (Elt F) ((c : Thread nD τ).loc b) := fun c b => W65 m c b
/-- At region 20's exit: each output array at what the pipeline's write-backs leave, every other buffer as entered. -/
def W66 (c : Dev nD) : Valuation τ sig (Elt F) :=
  Function.update (W65 m c) main_v507 ((Reg.dat20 (T65 m) c).arrAt 6 cfg20.N)
abbrev T66 : (c : Dev nD) → (b : Ref sig .tc) → Buf (Elt F) ((c : Thread nD τ).loc b) := fun c b => W66 m c b
theorem W66_of_ne (c : Dev nD) (b : Ref sig .tc) (h0 : b ≠ main_v507) : W66 m c b = W65 m c b := by
  unfold W66
  rw [Function.update_of_ne (StableHlo.devRef_ne_of_ne h0)]
theorem W66_at0 (c : Dev nD) : W66 m c main_v507 = (Reg.dat20 (T65 m) c).arrAt 6 cfg20.N := by
  unfold W66
  rw [Function.update_self]
/-- After the host stretch hostOps21. -/
abbrev W67 (c : Dev nD) : Valuation τ sig (Elt F) := StableHlo.after hostOps21 (W66 m c)
/-- The contents region 21 is entered from, read at the TensorCore's references. -/
abbrev T67 : (c : Dev nD) → (b : Ref sig .tc) → Buf (Elt F) ((c : Thread nD τ).loc b) := fun c b => W67 m c b
/-- At region 21's exit: each output array at what the pipeline's write-backs leave, every other buffer as entered. -/
def W68 (c : Dev nD) : Valuation τ sig (Elt F) :=
  Function.update (W67 m c) main_v514 ((Reg.dat21 (T67 m) c).arrAt 6 cfg21.N)
abbrev T68 : (c : Dev nD) → (b : Ref sig .tc) → Buf (Elt F) ((c : Thread nD τ).loc b) := fun c b => W68 m c b
theorem W68_of_ne (c : Dev nD) (b : Ref sig .tc) (h0 : b ≠ main_v514) : W68 m c b = W67 m c b := by
  unfold W68
  rw [Function.update_of_ne (StableHlo.devRef_ne_of_ne h0)]
theorem W68_at0 (c : Dev nD) : W68 m c main_v514 = (Reg.dat21 (T67 m) c).arrAt 6 cfg21.N := by
  unfold W68
  rw [Function.update_self]
/-- After the host stretch hostOps22. -/
abbrev W69 (c : Dev nD) : Valuation τ sig (Elt F) := StableHlo.after hostOps22 (W68 m c)
/-- The contents region 22 is entered from, read at the TensorCore's references. -/
abbrev T69 : (c : Dev nD) → (b : Ref sig .tc) → Buf (Elt F) ((c : Thread nD τ).loc b) := fun c b => W69 m c b
/-- At region 22's exit: each output array at what the pipeline's write-backs leave, every other buffer as entered. -/
def W70 (c : Dev nD) : Valuation τ sig (Elt F) :=
  Function.update (W69 m c) main_v535 ((Reg.dat22 (T69 m) c).arrAt 9 cfg22.N)
abbrev T70 : (c : Dev nD) → (b : Ref sig .tc) → Buf (Elt F) ((c : Thread nD τ).loc b) := fun c b => W70 m c b
theorem W70_of_ne (c : Dev nD) (b : Ref sig .tc) (h0 : b ≠ main_v535) : W70 m c b = W69 m c b := by
  unfold W70
  rw [Function.update_of_ne (StableHlo.devRef_ne_of_ne h0)]
theorem W70_at0 (c : Dev nD) : W70 m c main_v535 = (Reg.dat22 (T69 m) c).arrAt 9 cfg22.N := by
  unfold W70
  rw [Function.update_self]

/-- Every pipeline's proof data, each at its region's entry contents. -/
def pdats : (p : Fin 23) → (c : Dev nD) → Dat τ (Elt F) Unit ℕ (UR sig nD τ) ℕ (cfgs p) c
  | ⟨0, _⟩ => fun c => Reg.dat0 (T1 m) c
  | ⟨1, _⟩ => fun c => Reg.dat1 (T3 m) c
  | ⟨2, _⟩ => fun c => Reg.dat2 (T5 m) c
  | ⟨3, _⟩ => fun c => Reg.dat3 (T9 m) c
  | ⟨4, _⟩ => fun c => Reg.dat4 (T11 m) c
  | ⟨5, _⟩ => fun c => Reg.dat5 (T17 m) c
  | ⟨6, _⟩ => fun c => Reg.dat6 (T19 m) c
  | ⟨7, _⟩ => fun c => Reg.dat7 (T21 m) c
  | ⟨8, _⟩ => fun c => Reg.dat8 (T25 m) c
  | ⟨9, _⟩ => fun c => Reg.dat9 (T27 m) c
  | ⟨10, _⟩ => fun c => Reg.dat10 (T33 m) c
  | ⟨11, _⟩ => fun c => Reg.dat11 (T35 m) c
  | ⟨12, _⟩ => fun c => Reg.dat12 (T37 m) c
  | ⟨13, _⟩ => fun c => Reg.dat13 (T41 m) c
  | ⟨14, _⟩ => fun c => Reg.dat14 (T43 m) c
  | ⟨15, _⟩ => fun c => Reg.dat15 (T49 m) c
  | ⟨16, _⟩ => fun c => Reg.dat16 (T51 m) c
  | ⟨17, _⟩ => fun c => Reg.dat17 (T53 m) c
  | ⟨18, _⟩ => fun c => Reg.dat18 (T57 m) c
  | ⟨19, _⟩ => fun c => Reg.dat19 (T59 m) c
  | ⟨20, _⟩ => fun c => Reg.dat20 (T65 m) c
  | ⟨21, _⟩ => fun c => Reg.dat21 (T67 m) c
  | ⟨22, _⟩ => fun c => Reg.dat22 (T69 m) c
  | ⟨_ + 23, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

end Cert.Kernel.Run

end
-- ==== Proof.Bits.KOuts.lean ====
/- What the regions leave, as the contents the generated conditional frame is stated over: its valuations are this module's fold. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What each region leaves in its output buffers: the fold's contents at that boundary. -/
def outs : Outs (F := F) := fun J r c =>
  match J with
  | 2 => W2 m c r
  | 4 => W4 m c r
  | 6 => W6 m c r
  | 10 => W10 m c r
  | 12 => W12 m c r
  | 18 => W18 m c r
  | 20 => W20 m c r
  | 22 => W22 m c r
  | 26 => W26 m c r
  | 28 => W28 m c r
  | 34 => W34 m c r
  | 36 => W36 m c r
  | 38 => W38 m c r
  | 42 => W42 m c r
  | 44 => W44 m c r
  | 50 => W50 m c r
  | 52 => W52 m c r
  | 54 => W54 m c r
  | 58 => W58 m c r
  | 60 => W60 m c r
  | 66 => W66 m c r
  | 68 => W68 m c r
  | 70 => W70 m c r
  | _ => W0 m c r

theorem V_eq0 (c : Dev nD) : V0 m c = W0 m c := rfl
theorem V_eq1 (c : Dev nD) : V1 m c = W1 m c := rfl
theorem V_eq2 (c : Dev nD) : V2 m (outs m) c = W2 m c := by
  show Function.update (V1 m c) main_v5 (W2 m c main_v5) = _
  rw [V_eq1 m c, W2_at0 m c]
  rfl
theorem V_eq3 (c : Dev nD) : V3 m (outs m) c = W3 m c := by
  show StableHlo.after hostOps1 (V2 m (outs m) c) = _
  rw [V_eq2 m c]
theorem V_eq4 (c : Dev nD) : V4 m (outs m) c = W4 m c := by
  show Function.update (V3 m (outs m) c) main_v7 (W4 m c main_v7) = _
  rw [V_eq3 m c, W4_at0 m c]
  rfl
theorem V_eq5 (c : Dev nD) : V5 m (outs m) c = W5 m c := by
  show StableHlo.after hostOps2 (V4 m (outs m) c) = _
  rw [V_eq4 m c]
theorem V_eq6 (c : Dev nD) : V6 m (outs m) c = W6 m c := by
  show Function.update (V5 m (outs m) c) main_v27 (W6 m c main_v27) = _
  rw [V_eq5 m c, W6_at0 m c]
  rfl
theorem V_eq7 (c : Dev nD) : V7 m (outs m) c = W7 m c := by
  show StableHlo.after hostOps3 (V6 m (outs m) c) = _
  rw [V_eq6 m c]
theorem V_eq8 (c : Dev nD) : V8 m (outs m) c = W8 m c := by
  show StableHlo.after hostOps3_1 (V7 m (outs m) c) = _
  rw [V_eq7 m c]
theorem V_eq9 (c : Dev nD) : V9 m (outs m) c = W9 m c := by
  show StableHlo.after hostOps3_2 (V8 m (outs m) c) = _
  rw [V_eq8 m c]
theorem V_eq10 (c : Dev nD) : V10 m (outs m) c = W10 m c := by
  show Function.update (Function.update (Function.update (V9 m (outs m) c) main_v66_0 (W10 m c main_v66_0)) main_v66_1 (W10 m c main_v66_1)) main_v66_2 (W10 m c main_v66_2) = _
  rw [V_eq9 m c, W10_at0 m c, W10_at1 m c, W10_at2 m c]
  rfl
theorem V_eq11 (c : Dev nD) : V11 m (outs m) c = W11 m c := by
  show StableHlo.after hostOps4 (V10 m (outs m) c) = _
  rw [V_eq10 m c]
theorem V_eq12 (c : Dev nD) : V12 m (outs m) c = W12 m c := by
  show Function.update (V11 m (outs m) c) main_v79 (W12 m c main_v79) = _
  rw [V_eq11 m c, W12_at0 m c]
  rfl
theorem V_eq13 (c : Dev nD) : V13 m (outs m) c = W13 m c := by
  show StableHlo.after hostOps5 (V12 m (outs m) c) = _
  rw [V_eq12 m c]
theorem V_eq14 (c : Dev nD) : V14 m (outs m) c = W14 m c := by
  show StableHlo.after hostOps5_1 (V13 m (outs m) c) = _
  rw [V_eq13 m c]
theorem V_eq15 (c : Dev nD) : V15 m (outs m) c = W15 m c := by
  show StableHlo.after hostOps5_2 (V14 m (outs m) c) = _
  rw [V_eq14 m c]
theorem V_eq16 (c : Dev nD) : V16 m (outs m) c = W16 m c := by
  show StableHlo.after hostOps5_3 (V15 m (outs m) c) = _
  rw [V_eq15 m c]
theorem V_eq17 (c : Dev nD) : V17 m (outs m) c = W17 m c := by
  show StableHlo.after hostOps5_4 (V16 m (outs m) c) = _
  rw [V_eq16 m c]
theorem V_eq18 (c : Dev nD) : V18 m (outs m) c = W18 m c := by
  show Function.update (V17 m (outs m) c) main_v126 (W18 m c main_v126) = _
  rw [V_eq17 m c, W18_at0 m c]
  rfl
theorem V_eq19 (c : Dev nD) : V19 m (outs m) c = W19 m c := by
  show StableHlo.after hostOps6 (V18 m (outs m) c) = _
  rw [V_eq18 m c]
theorem V_eq20 (c : Dev nD) : V20 m (outs m) c = W20 m c := by
  show Function.update (V19 m (outs m) c) main_v133 (W20 m c main_v133) = _
  rw [V_eq19 m c, W20_at0 m c]
  rfl
theorem V_eq21 (c : Dev nD) : V21 m (outs m) c = W21 m c := by
  show StableHlo.after hostOps7 (V20 m (outs m) c) = _
  rw [V_eq20 m c]
theorem V_eq22 (c : Dev nD) : V22 m (outs m) c = W22 m c := by
  show Function.update (V21 m (outs m) c) main_v154 (W22 m c main_v154) = _
  rw [V_eq21 m c, W22_at0 m c]
  rfl
theorem V_eq23 (c : Dev nD) : V23 m (outs m) c = W23 m c := by
  show StableHlo.after hostOps8 (V22 m (outs m) c) = _
  rw [V_eq22 m c]
theorem V_eq24 (c : Dev nD) : V24 m (outs m) c = W24 m c := by
  show StableHlo.after hostOps8_1 (V23 m (outs m) c) = _
  rw [V_eq23 m c]
theorem V_eq25 (c : Dev nD) : V25 m (outs m) c = W25 m c := by
  show StableHlo.after hostOps8_2 (V24 m (outs m) c) = _
  rw [V_eq24 m c]
theorem V_eq26 (c : Dev nD) : V26 m (outs m) c = W26 m c := by
  show Function.update (Function.update (Function.update (V25 m (outs m) c) main_v193_0 (W26 m c main_v193_0)) main_v193_1 (W26 m c main_v193_1)) main_v193_2 (W26 m c main_v193_2) = _
  rw [V_eq25 m c, W26_at0 m c, W26_at1 m c, W26_at2 m c]
  rfl
theorem V_eq27 (c : Dev nD) : V27 m (outs m) c = W27 m c := by
  show StableHlo.after hostOps9 (V26 m (outs m) c) = _
  rw [V_eq26 m c]
theorem V_eq28 (c : Dev nD) : V28 m (outs m) c = W28 m c := by
  show Function.update (V27 m (outs m) c) main_v206 (W28 m c main_v206) = _
  rw [V_eq27 m c, W28_at0 m c]
  rfl
theorem V_eq29 (c : Dev nD) : V29 m (outs m) c = W29 m c := by
  show StableHlo.after hostOps10 (V28 m (outs m) c) = _
  rw [V_eq28 m c]
theorem V_eq30 (c : Dev nD) : V30 m (outs m) c = W30 m c := by
  show StableHlo.after hostOps10_1 (V29 m (outs m) c) = _
  rw [V_eq29 m c]
theorem V_eq31 (c : Dev nD) : V31 m (outs m) c = W31 m c := by
  show StableHlo.after hostOps10_2 (V30 m (outs m) c) = _
  rw [V_eq30 m c]
theorem V_eq32 (c : Dev nD) : V32 m (outs m) c = W32 m c := by
  show StableHlo.after hostOps10_3 (V31 m (outs m) c) = _
  rw [V_eq31 m c]
theorem V_eq33 (c : Dev nD) : V33 m (outs m) c = W33 m c := by
  show StableHlo.after hostOps10_4 (V32 m (outs m) c) = _
  rw [V_eq32 m c]
theorem V_eq34 (c : Dev nD) : V34 m (outs m) c = W34 m c := by
  show Function.update (V33 m (outs m) c) main_v253 (W34 m c main_v253) = _
  rw [V_eq33 m c, W34_at0 m c]
  rfl
theorem V_eq35 (c : Dev nD) : V35 m (outs m) c = W35 m c := by
  show StableHlo.after hostOps11 (V34 m (outs m) c) = _
  rw [V_eq34 m c]
theorem V_eq36 (c : Dev nD) : V36 m (outs m) c = W36 m c := by
  show Function.update (V35 m (outs m) c) main_v260 (W36 m c main_v260) = _
  rw [V_eq35 m c, W36_at0 m c]
  rfl
theorem V_eq37 (c : Dev nD) : V37 m (outs m) c = W37 m c := by
  show StableHlo.after hostOps12 (V36 m (outs m) c) = _
  rw [V_eq36 m c]
theorem V_eq38 (c : Dev nD) : V38 m (outs m) c = W38 m c := by
  show Function.update (V37 m (outs m) c) main_v281 (W38 m c main_v281) = _
  rw [V_eq37 m c, W38_at0 m c]
  rfl
theorem V_eq39 (c : Dev nD) : V39 m (outs m) c = W39 m c := by
  show StableHlo.after hostOps13 (V38 m (outs m) c) = _
  rw [V_eq38 m c]
theorem V_eq40 (c : Dev nD) : V40 m (outs m) c = W40 m c := by
  show StableHlo.after hostOps13_1 (V39 m (outs m) c) = _
  rw [V_eq39 m c]
theorem V_eq41 (c : Dev nD) : V41 m (outs m) c = W41 m c := by
  show StableHlo.after hostOps13_2 (V40 m (outs m) c) = _
  rw [V_eq40 m c]
theorem V_eq42 (c : Dev nD) : V42 m (outs m) c = W42 m c := by
  show Function.update (Function.update (Function.update (V41 m (outs m) c) main_v320_0 (W42 m c main_v320_0)) main_v320_1 (W42 m c main_v320_1)) main_v320_2 (W42 m c main_v320_2) = _
  rw [V_eq41 m c, W42_at0 m c, W42_at1 m c, W42_at2 m c]
  rfl
theorem V_eq43 (c : Dev nD) : V43 m (outs m) c = W43 m c := by
  show StableHlo.after hostOps14 (V42 m (outs m) c) = _
  rw [V_eq42 m c]
theorem V_eq44 (c : Dev nD) : V44 m (outs m) c = W44 m c := by
  show Function.update (V43 m (outs m) c) main_v333 (W44 m c main_v333) = _
  rw [V_eq43 m c, W44_at0 m c]
  rfl
theorem V_eq45 (c : Dev nD) : V45 m (outs m) c = W45 m c := by
  show StableHlo.after hostOps15 (V44 m (outs m) c) = _
  rw [V_eq44 m c]
theorem V_eq46 (c : Dev nD) : V46 m (outs m) c = W46 m c := by
  show StableHlo.after hostOps15_1 (V45 m (outs m) c) = _
  rw [V_eq45 m c]
theorem V_eq47 (c : Dev nD) : V47 m (outs m) c = W47 m c := by
  show StableHlo.after hostOps15_2 (V46 m (outs m) c) = _
  rw [V_eq46 m c]
theorem V_eq48 (c : Dev nD) : V48 m (outs m) c = W48 m c := by
  show StableHlo.after hostOps15_3 (V47 m (outs m) c) = _
  rw [V_eq47 m c]
theorem V_eq49 (c : Dev nD) : V49 m (outs m) c = W49 m c := by
  show StableHlo.after hostOps15_4 (V48 m (outs m) c) = _
  rw [V_eq48 m c]
theorem V_eq50 (c : Dev nD) : V50 m (outs m) c = W50 m c := by
  show Function.update (V49 m (outs m) c) main_v380 (W50 m c main_v380) = _
  rw [V_eq49 m c, W50_at0 m c]
  rfl
theorem V_eq51 (c : Dev nD) : V51 m (outs m) c = W51 m c := by
  show StableHlo.after hostOps16 (V50 m (outs m) c) = _
  rw [V_eq50 m c]
theorem V_eq52 (c : Dev nD) : V52 m (outs m) c = W52 m c := by
  show Function.update (V51 m (outs m) c) main_v387 (W52 m c main_v387) = _
  rw [V_eq51 m c, W52_at0 m c]
  rfl
theorem V_eq53 (c : Dev nD) : V53 m (outs m) c = W53 m c := by
  show StableHlo.after hostOps17 (V52 m (outs m) c) = _
  rw [V_eq52 m c]
theorem V_eq54 (c : Dev nD) : V54 m (outs m) c = W54 m c := by
  show Function.update (V53 m (outs m) c) main_v408 (W54 m c main_v408) = _
  rw [V_eq53 m c, W54_at0 m c]
  rfl
theorem V_eq55 (c : Dev nD) : V55 m (outs m) c = W55 m c := by
  show StableHlo.after hostOps18 (V54 m (outs m) c) = _
  rw [V_eq54 m c]
theorem V_eq56 (c : Dev nD) : V56 m (outs m) c = W56 m c := by
  show StableHlo.after hostOps18_1 (V55 m (outs m) c) = _
  rw [V_eq55 m c]
theorem V_eq57 (c : Dev nD) : V57 m (outs m) c = W57 m c := by
  show StableHlo.after hostOps18_2 (V56 m (outs m) c) = _
  rw [V_eq56 m c]
theorem V_eq58 (c : Dev nD) : V58 m (outs m) c = W58 m c := by
  show Function.update (Function.update (Function.update (V57 m (outs m) c) main_v447_0 (W58 m c main_v447_0)) main_v447_1 (W58 m c main_v447_1)) main_v447_2 (W58 m c main_v447_2) = _
  rw [V_eq57 m c, W58_at0 m c, W58_at1 m c, W58_at2 m c]
  rfl
theorem V_eq59 (c : Dev nD) : V59 m (outs m) c = W59 m c := by
  show StableHlo.after hostOps19 (V58 m (outs m) c) = _
  rw [V_eq58 m c]
theorem V_eq60 (c : Dev nD) : V60 m (outs m) c = W60 m c := by
  show Function.update (V59 m (outs m) c) main_v460 (W60 m c main_v460) = _
  rw [V_eq59 m c, W60_at0 m c]
  rfl
theorem V_eq61 (c : Dev nD) : V61 m (outs m) c = W61 m c := by
  show StableHlo.after hostOps20 (V60 m (outs m) c) = _
  rw [V_eq60 m c]
theorem V_eq62 (c : Dev nD) : V62 m (outs m) c = W62 m c := by
  show StableHlo.after hostOps20_1 (V61 m (outs m) c) = _
  rw [V_eq61 m c]
theorem V_eq63 (c : Dev nD) : V63 m (outs m) c = W63 m c := by
  show StableHlo.after hostOps20_2 (V62 m (outs m) c) = _
  rw [V_eq62 m c]
theorem V_eq64 (c : Dev nD) : V64 m (outs m) c = W64 m c := by
  show StableHlo.after hostOps20_3 (V63 m (outs m) c) = _
  rw [V_eq63 m c]
theorem V_eq65 (c : Dev nD) : V65 m (outs m) c = W65 m c := by
  show StableHlo.after hostOps20_4 (V64 m (outs m) c) = _
  rw [V_eq64 m c]
theorem V_eq66 (c : Dev nD) : V66 m (outs m) c = W66 m c := by
  show Function.update (V65 m (outs m) c) main_v507 (W66 m c main_v507) = _
  rw [V_eq65 m c, W66_at0 m c]
  rfl
theorem V_eq67 (c : Dev nD) : V67 m (outs m) c = W67 m c := by
  show StableHlo.after hostOps21 (V66 m (outs m) c) = _
  rw [V_eq66 m c]
theorem V_eq68 (c : Dev nD) : V68 m (outs m) c = W68 m c := by
  show Function.update (V67 m (outs m) c) main_v514 (W68 m c main_v514) = _
  rw [V_eq67 m c, W68_at0 m c]
  rfl
theorem V_eq69 (c : Dev nD) : V69 m (outs m) c = W69 m c := by
  show StableHlo.after hostOps22 (V68 m (outs m) c) = _
  rw [V_eq68 m c]
theorem V_eq70 (c : Dev nD) : V70 m (outs m) c = W70 m c := by
  show Function.update (V69 m (outs m) c) main_v535 (W70 m c main_v535) = _
  rw [V_eq69 m c, W70_at0 m c]
  rfl

end Cert.Kernel.Run

end
-- ==== Proof.Bits.KSeg0.lean ====
/- Region 0 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 0's exit each of its arrays holds what the pipeline leaves: an input's array its entry contents, an output's its write-backs. -/
theorem hF0 (c : Dev nD) (w : Fin cfg0.W) : (Reg.dat0 (T1 m) c).arrAt w cfg0.N = T2 m c (Pipeline.arrRef spec0 w) := by
  match w with
  | ⟨0, _⟩ => exact (((Reg.dat0 (T1 m) c).arrAt_in 0 rfl _).trans (Reg.A_eq0 (T1 m) c 0)).trans (W2_of_ne m c (Pipeline.arrRef spec0 0) (by decide)).symm
  | ⟨1, _⟩ => exact (((Reg.dat0 (T1 m) c).arrAt_in 1 rfl _).trans (Reg.A_eq0 (T1 m) c 1)).trans (W2_of_ne m c (Pipeline.arrRef spec0 1) (by decide)).symm
  | ⟨2, _⟩ => exact (((Reg.dat0 (T1 m) c).arrAt_in 2 rfl _).trans (Reg.A_eq0 (T1 m) c 2)).trans (W2_of_ne m c (Pipeline.arrRef spec0 2) (by decide)).symm
  | ⟨3, _⟩ => exact (W2_at0 m c).symm
/-- Every buffer that is none of the region's arrays is kept. -/
theorem hrest0 (c : Dev nD) : ∀ b, b ∉ Finset.univ.image (Pipeline.arrRef spec0) → T2 m c b = T1 m c b :=
  fun b hb => W2_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 0 over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg.body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg1.lean ====
/- Region 1 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 1's exit each of its arrays holds what the pipeline leaves: an input's array its entry contents, an output's its write-backs. -/
theorem hF1 (c : Dev nD) (w : Fin cfg1.W) : (Reg.dat1 (T3 m) c).arrAt w cfg1.N = T4 m c (Pipeline.arrRef spec1 w) := by
  match w with
  | ⟨0, _⟩ => exact (((Reg.dat1 (T3 m) c).arrAt_in 0 rfl _).trans (Reg.A_eq1 (T3 m) c 0)).trans (W4_of_ne m c (Pipeline.arrRef spec1 0) (by decide)).symm
  | ⟨1, _⟩ => exact (((Reg.dat1 (T3 m) c).arrAt_in 1 rfl _).trans (Reg.A_eq1 (T3 m) c 1)).trans (W4_of_ne m c (Pipeline.arrRef spec1 1) (by decide)).symm
  | ⟨2, _⟩ => exact (((Reg.dat1 (T3 m) c).arrAt_in 2 rfl _).trans (Reg.A_eq1 (T3 m) c 2)).trans (W4_of_ne m c (Pipeline.arrRef spec1 2) (by decide)).symm
  | ⟨3, _⟩ => exact (W4_at0 m c).symm
/-- Every buffer that is none of the region's arrays is kept. -/
theorem hrest1 (c : Dev nD) : ∀ b, b ∉ Finset.univ.image (Pipeline.arrRef spec1) → T4 m c b = T3 m c b :=
  fun b hb => W4_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 1 over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg.body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg2.lean ====
/- Region 2 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 2's exit each of its arrays holds what the pipeline leaves: an input's array its entry contents, an output's its write-backs. -/
theorem hF2 (c : Dev nD) (w : Fin cfg2.W) : (Reg.dat2 (T5 m) c).arrAt w cfg2.N = T6 m c (Pipeline.arrRef spec2 w) := by
  match w with
  | ⟨0, _⟩ => exact (((Reg.dat2 (T5 m) c).arrAt_in 0 rfl _).trans (Reg.A_eq2 (T5 m) c 0)).trans (W6_of_ne m c (Pipeline.arrRef spec2 0) (by decide)).symm
  | ⟨1, _⟩ => exact (((Reg.dat2 (T5 m) c).arrAt_in 1 rfl _).trans (Reg.A_eq2 (T5 m) c 1)).trans (W6_of_ne m c (Pipeline.arrRef spec2 1) (by decide)).symm
  | ⟨2, _⟩ => exact (((Reg.dat2 (T5 m) c).arrAt_in 2 rfl _).trans (Reg.A_eq2 (T5 m) c 2)).trans (W6_of_ne m c (Pipeline.arrRef spec2 2) (by decide)).symm
  | ⟨3, _⟩ => exact (W6_at0 m c).symm
/-- Every buffer that is none of the region's arrays is kept. -/
theorem hrest2 (c : Dev nD) : ∀ b, b ∉ Finset.univ.image (Pipeline.arrRef spec2) → T6 m c b = T5 m c b :=
  fun b hb => W6_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 2 over the thread state. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg.body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg3.lean ====
/- Region 3 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 3's exit each of its arrays holds what the pipeline leaves: an input's array its entry contents, an output's its write-backs. -/
theorem hF3 (c : Dev nD) (w : Fin cfg3.W) : (Reg.dat3 (T9 m) c).arrAt w cfg3.N = T10 m c (Pipeline.arrRef spec3 w) := by
  match w with
  | ⟨0, _⟩ => exact (((Reg.dat3 (T9 m) c).arrAt_in 0 rfl _).trans (Reg.A_eq3 (T9 m) c 0)).trans (W10_of_ne m c (Pipeline.arrRef spec3 0) (by decide) (by decide) (by decide)).symm
  | ⟨1, _⟩ => exact (((Reg.dat3 (T9 m) c).arrAt_in 1 rfl _).trans (Reg.A_eq3 (T9 m) c 1)).trans (W10_of_ne m c (Pipeline.arrRef spec3 1) (by decide) (by decide) (by decide)).symm
  | ⟨2, _⟩ => exact (((Reg.dat3 (T9 m) c).arrAt_in 2 rfl _).trans (Reg.A_eq3 (T9 m) c 2)).trans (W10_of_ne m c (Pipeline.arrRef spec3 2) (by decide) (by decide) (by decide)).symm
  | ⟨3, _⟩ => exact (((Reg.dat3 (T9 m) c).arrAt_in 3 rfl _).trans (Reg.A_eq3 (T9 m) c 3)).trans (W10_of_ne m c (Pipeline.arrRef spec3 3) (by decide) (by decide) (by decide)).symm
  | ⟨4, _⟩ => exact (((Reg.dat3 (T9 m) c).arrAt_in 4 rfl _).trans (Reg.A_eq3 (T9 m) c 4)).trans (W10_of_ne m c (Pipeline.arrRef spec3 4) (by decide) (by decide) (by decide)).symm
  | ⟨5, _⟩ => exact (((Reg.dat3 (T9 m) c).arrAt_in 5 rfl _).trans (Reg.A_eq3 (T9 m) c 5)).trans (W10_of_ne m c (Pipeline.arrRef spec3 5) (by decide) (by decide) (by decide)).symm
  | ⟨6, _⟩ => exact (W10_at0 m c).symm
  | ⟨7, _⟩ => exact (W10_at1 m c).symm
  | ⟨8, _⟩ => exact (W10_at2 m c).symm
set_option maxHeartbeats 4000000 in
/-- Every buffer that is none of the region's arrays is kept. -/
theorem hrest3 (c : Dev nD) : ∀ b, b ∉ Finset.univ.image (Pipeline.arrRef spec3) → T10 m c b = T9 m c b :=
  fun b hb => W10_of_ne m c b (fun e => hb (Finset.mem_image.mpr ⟨6, Finset.mem_univ _, e.symm ▸ rfl⟩)) (fun e => hb (Finset.mem_image.mpr ⟨7, Finset.mem_univ _, e.symm ▸ rfl⟩)) (fun e => hb (Finset.mem_image.mpr ⟨8, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 3 over the thread state. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Reg.body_obligation3 (T9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (T9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T9 m c) (T10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg4.lean ====
/- Region 4 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 4's exit each of its arrays holds what the pipeline leaves: an input's array its entry contents, an output's its write-backs. -/
theorem hF4 (c : Dev nD) (w : Fin cfg4.W) : (Reg.dat4 (T11 m) c).arrAt w cfg4.N = T12 m c (Pipeline.arrRef spec4 w) := by
  match w with
  | ⟨0, _⟩ => exact (((Reg.dat4 (T11 m) c).arrAt_in 0 rfl _).trans (Reg.A_eq4 (T11 m) c 0)).trans (W12_of_ne m c (Pipeline.arrRef spec4 0) (by decide)).symm
  | ⟨1, _⟩ => exact (((Reg.dat4 (T11 m) c).arrAt_in 1 rfl _).trans (Reg.A_eq4 (T11 m) c 1)).trans (W12_of_ne m c (Pipeline.arrRef spec4 1) (by decide)).symm
  | ⟨2, _⟩ => exact (((Reg.dat4 (T11 m) c).arrAt_in 2 rfl _).trans (Reg.A_eq4 (T11 m) c 2)).trans (W12_of_ne m c (Pipeline.arrRef spec4 2) (by decide)).symm
  | ⟨3, _⟩ => exact (W12_at0 m c).symm
/-- Every buffer that is none of the region's arrays is kept. -/
theorem hrest4 (c : Dev nD) : ∀ b, b ∉ Finset.univ.image (Pipeline.arrRef spec4) → T12 m c b = T11 m c b :=
  fun b hb => W12_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 4 over the thread state. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (Reg.body_obligation4 (T11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (T11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T11 m c) (T12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg5.lean ====
/- Region 5 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 5's exit each of its arrays holds what the pipeline leaves: an input's array its entry contents, an output's its write-backs. -/
theorem hF5 (c : Dev nD) (w : Fin cfg5.W) : (Reg.dat5 (T17 m) c).arrAt w cfg5.N = T18 m c (Pipeline.arrRef spec5 w) := by
  match w with
  | ⟨0, _⟩ => exact (((Reg.dat5 (T17 m) c).arrAt_in 0 rfl _).trans (Reg.A_eq5 (T17 m) c 0)).trans (W18_of_ne m c (Pipeline.arrRef spec5 0) (by decide)).symm
  | ⟨1, _⟩ => exact (((Reg.dat5 (T17 m) c).arrAt_in 1 rfl _).trans (Reg.A_eq5 (T17 m) c 1)).trans (W18_of_ne m c (Pipeline.arrRef spec5 1) (by decide)).symm
  | ⟨2, _⟩ => exact (((Reg.dat5 (T17 m) c).arrAt_in 2 rfl _).trans (Reg.A_eq5 (T17 m) c 2)).trans (W18_of_ne m c (Pipeline.arrRef spec5 2) (by decide)).symm
  | ⟨3, _⟩ => exact (((Reg.dat5 (T17 m) c).arrAt_in 3 rfl _).trans (Reg.A_eq5 (T17 m) c 3)).trans (W18_of_ne m c (Pipeline.arrRef spec5 3) (by decide)).symm
  | ⟨4, _⟩ => exact (((Reg.dat5 (T17 m) c).arrAt_in 4 rfl _).trans (Reg.A_eq5 (T17 m) c 4)).trans (W18_of_ne m c (Pipeline.arrRef spec5 4) (by decide)).symm
  | ⟨5, _⟩ => exact (((Reg.dat5 (T17 m) c).arrAt_in 5 rfl _).trans (Reg.A_eq5 (T17 m) c 5)).trans (W18_of_ne m c (Pipeline.arrRef spec5 5) (by decide)).symm
  | ⟨6, _⟩ => exact (W18_at0 m c).symm
set_option maxHeartbeats 4000000 in
/-- Every buffer that is none of the region's arrays is kept. -/
theorem hrest5 (c : Dev nD) : ∀ b, b ∉ Finset.univ.image (Pipeline.arrRef spec5) → T18 m c b = T17 m c b :=
  fun b hb => W18_of_ne m c b (fun e => hb (Finset.mem_image.mpr ⟨6, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 5 over the thread state. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (Reg.body_obligation5 (T17 m) c).loose
  hwaits := Pipeline.hwaits_of_owed_zero _ _ _ _ L lv 5 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec5 c (T17 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T17 m c) (T18 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg6.lean ====
/- Region 6 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 6's exit each of its arrays holds what the pipeline leaves: an input's array its entry contents, an output's its write-backs. -/
theorem hF6 (c : Dev nD) (w : Fin cfg6.W) : (Reg.dat6 (T19 m) c).arrAt w cfg6.N = T20 m c (Pipeline.arrRef spec6 w) := by
  match w with
  | ⟨0, _⟩ => exact (((Reg.dat6 (T19 m) c).arrAt_in 0 rfl _).trans (Reg.A_eq6 (T19 m) c 0)).trans (W20_of_ne m c (Pipeline.arrRef spec6 0) (by decide)).symm
  | ⟨1, _⟩ => exact (((Reg.dat6 (T19 m) c).arrAt_in 1 rfl _).trans (Reg.A_eq6 (T19 m) c 1)).trans (W20_of_ne m c (Pipeline.arrRef spec6 1) (by decide)).symm
  | ⟨2, _⟩ => exact (((Reg.dat6 (T19 m) c).arrAt_in 2 rfl _).trans (Reg.A_eq6 (T19 m) c 2)).trans (W20_of_ne m c (Pipeline.arrRef spec6 2) (by decide)).symm
  | ⟨3, _⟩ => exact (((Reg.dat6 (T19 m) c).arrAt_in 3 rfl _).trans (Reg.A_eq6 (T19 m) c 3)).trans (W20_of_ne m c (Pipeline.arrRef spec6 3) (by decide)).symm
  | ⟨4, _⟩ => exact (((Reg.dat6 (T19 m) c).arrAt_in 4 rfl _).trans (Reg.A_eq6 (T19 m) c 4)).trans (W20_of_ne m c (Pipeline.arrRef spec6 4) (by decide)).symm
  | ⟨5, _⟩ => exact (((Reg.dat6 (T19 m) c).arrAt_in 5 rfl _).trans (Reg.A_eq6 (T19 m) c 5)).trans (W20_of_ne m c (Pipeline.arrRef spec6 5) (by decide)).symm
  | ⟨6, _⟩ => exact (W20_at0 m c).symm
set_option maxHeartbeats 4000000 in
/-- Every buffer that is none of the region's arrays is kept. -/
theorem hrest6 (c : Dev nD) : ∀ b, b ∉ Finset.univ.image (Pipeline.arrRef spec6) → T20 m c b = T19 m c b :=
  fun b hb => W20_of_ne m c b (fun e => hb (Finset.mem_image.mpr ⟨6, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 6 over the thread state. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (Reg.body_obligation6 (T19 m) c).loose
  hwaits := Pipeline.hwaits_of_owed_zero _ _ _ _ L lv 6 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec6 c (T19 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T19 m c) (T20 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg7.lean ====
/- Region 7 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 7's exit each of its arrays holds what the pipeline leaves: an input's array its entry contents, an output's its write-backs. -/
theorem hF7 (c : Dev nD) (w : Fin cfg7.W) : (Reg.dat7 (T21 m) c).arrAt w cfg7.N = T22 m c (Pipeline.arrRef spec7 w) := by
  match w with
  | ⟨0, _⟩ => exact (((Reg.dat7 (T21 m) c).arrAt_in 0 rfl _).trans (Reg.A_eq7 (T21 m) c 0)).trans (W22_of_ne m c (Pipeline.arrRef spec7 0) (by decide)).symm
  | ⟨1, _⟩ => exact (((Reg.dat7 (T21 m) c).arrAt_in 1 rfl _).trans (Reg.A_eq7 (T21 m) c 1)).trans (W22_of_ne m c (Pipeline.arrRef spec7 1) (by decide)).symm
  | ⟨2, _⟩ => exact (((Reg.dat7 (T21 m) c).arrAt_in 2 rfl _).trans (Reg.A_eq7 (T21 m) c 2)).trans (W22_of_ne m c (Pipeline.arrRef spec7 2) (by decide)).symm
  | ⟨3, _⟩ => exact (W22_at0 m c).symm
/-- Every buffer that is none of the region's arrays is kept. -/
theorem hrest7 (c : Dev nD) : ∀ b, b ∉ Finset.univ.image (Pipeline.arrRef spec7) → T22 m c b = T21 m c b :=
  fun b hb => W22_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 7 over the thread state. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (Reg.body_obligation7 (T21 m) c).loose
  hwaits := Pipeline.hwaits_of_owed_zero _ _ _ _ L lv 7 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec7 c (T21 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T21 m c) (T22 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg8.lean ====
/- Region 8 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 8's exit each of its arrays holds what the pipeline leaves: an input's array its entry contents, an output's its write-backs. -/
theorem hF8 (c : Dev nD) (w : Fin cfg8.W) : (Reg.dat8 (T25 m) c).arrAt w cfg8.N = T26 m c (Pipeline.arrRef spec8 w) := by
  match w with
  | ⟨0, _⟩ => exact (((Reg.dat8 (T25 m) c).arrAt_in 0 rfl _).trans (Reg.A_eq8 (T25 m) c 0)).trans (W26_of_ne m c (Pipeline.arrRef spec8 0) (by decide) (by decide) (by decide)).symm
  | ⟨1, _⟩ => exact (((Reg.dat8 (T25 m) c).arrAt_in 1 rfl _).trans (Reg.A_eq8 (T25 m) c 1)).trans (W26_of_ne m c (Pipeline.arrRef spec8 1) (by decide) (by decide) (by decide)).symm
  | ⟨2, _⟩ => exact (((Reg.dat8 (T25 m) c).arrAt_in 2 rfl _).trans (Reg.A_eq8 (T25 m) c 2)).trans (W26_of_ne m c (Pipeline.arrRef spec8 2) (by decide) (by decide) (by decide)).symm
  | ⟨3, _⟩ => exact (((Reg.dat8 (T25 m) c).arrAt_in 3 rfl _).trans (Reg.A_eq8 (T25 m) c 3)).trans (W26_of_ne m c (Pipeline.arrRef spec8 3) (by decide) (by decide) (by decide)).symm
  | ⟨4, _⟩ => exact (((Reg.dat8 (T25 m) c).arrAt_in 4 rfl _).trans (Reg.A_eq8 (T25 m) c 4)).trans (W26_of_ne m c (Pipeline.arrRef spec8 4) (by decide) (by decide) (by decide)).symm
  | ⟨5, _⟩ => exact (((Reg.dat8 (T25 m) c).arrAt_in 5 rfl _).trans (Reg.A_eq8 (T25 m) c 5)).trans (W26_of_ne m c (Pipeline.arrRef spec8 5) (by decide) (by decide) (by decide)).symm
  | ⟨6, _⟩ => exact (W26_at0 m c).symm
  | ⟨7, _⟩ => exact (W26_at1 m c).symm
  | ⟨8, _⟩ => exact (W26_at2 m c).symm
/-- Every buffer that is none of the region's arrays is kept. -/
theorem hrest8 (c : Dev nD) : ∀ b, b ∉ Finset.univ.image (Pipeline.arrRef spec8) → T26 m c b = T25 m c b :=
  fun b hb => W26_of_ne m c b (fun e => hb (Finset.mem_image.mpr ⟨6, Finset.mem_univ _, e.symm ▸ rfl⟩)) (fun e => hb (Finset.mem_image.mpr ⟨7, Finset.mem_univ _, e.symm ▸ rfl⟩)) (fun e => hb (Finset.mem_image.mpr ⟨8, Finset.mem_univ _, e.symm ▸ rfl⟩))

-- a library lemma stated over the pipeline family unifies with the printed configuration only when unification may
-- unfold plain definitions in a metavariable's type
set_option backward.isDefEq.respectTransparency.types false in
/-- REGION 8 over the thread state. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (Reg.body_obligation8 (T25 m) c).loose
  hwaits := Pipeline.hwaits_of_owed_zero _ _ _ _ L lv 8 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec8 c (T25 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T25 m c) (T26 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg9.lean ====
/- Region 9 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 9's exit each of its arrays holds what the pipeline leaves: an input's array its entry contents, an output's its write-backs. -/
theorem hF9 (c : Dev nD) (w : Fin cfg9.W) : (Reg.dat9 (T27 m) c).arrAt w cfg9.N = T28 m c (Pipeline.arrRef spec9 w) := by
  match w with
  | ⟨0, _⟩ => exact (((Reg.dat9 (T27 m) c).arrAt_in 0 rfl _).trans (Reg.A_eq9 (T27 m) c 0)).trans (W28_of_ne m c (Pipeline.arrRef spec9 0) (by decide)).symm
  | ⟨1, _⟩ => exact (((Reg.dat9 (T27 m) c).arrAt_in 1 rfl _).trans (Reg.A_eq9 (T27 m) c 1)).trans (W28_of_ne m c (Pipeline.arrRef spec9 1) (by decide)).symm
  | ⟨2, _⟩ => exact (((Reg.dat9 (T27 m) c).arrAt_in 2 rfl _).trans (Reg.A_eq9 (T27 m) c 2)).trans (W28_of_ne m c (Pipeline.arrRef spec9 2) (by decide)).symm
  | ⟨3, _⟩ => exact (W28_at0 m c).symm
/-- Every buffer that is none of the region's arrays is kept. -/
theorem hrest9 (c : Dev nD) : ∀ b, b ∉ Finset.univ.image (Pipeline.arrRef spec9) → T28 m c b = T27 m c b :=
  fun b hb => W28_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 9 over the thread state. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (Reg.body_obligation9 (T27 m) c).loose
  hwaits := Pipeline.hwaits_of_owed_zero _ _ _ _ L lv 9 fun _ _ => rfl
  pre c := iprop(StableHlo.held (c : Thread nD τ) (Pipeline.ucRefs τ sig) (W27 m c) ∗ R c)
  post c := iprop(StableHlo.held (c : Thread nD τ) (Pipeline.ucRefs τ sig) (W28 m c) ∗ R c)
  X c := iprop(∃ r, prngReg c r)
  Y c := iprop(∃ r, prngReg c r)
  Z c := Pipeline.unscopedRest (Ix := Unit) (Name := ℕ) (U := UR sig nD τ) (Lvl := ℕ) spec9 c (T27 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T27 m c) (T28 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg10.lean ====
/- Region 10 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 10's exit each of its arrays holds what the pipeline leaves: an input's array its entry contents, an output's its write-backs. -/
theorem hF10 (c : Dev nD) (w : Fin cfg10.W) : (Reg.dat10 (T33 m) c).arrAt w cfg10.N = T34 m c (Pipeline.arrRef spec10 w) := by
  match w with
  | ⟨0, _⟩ => exact (((Reg.dat10 (T33 m) c).arrAt_in 0 rfl _).trans (Reg.A_eq10 (T33 m) c 0)).trans (W34_of_ne m c (Pipeline.arrRef spec10 0) (by decide)).symm
  | ⟨1, _⟩ => exact (((Reg.dat10 (T33 m) c).arrAt_in 1 rfl _).trans (Reg.A_eq10 (T33 m) c 1)).trans (W34_of_ne m c (Pipeline.arrRef spec10 1) (by decide)).symm
  | ⟨2, _⟩ => exact (((Reg.dat10 (T33 m) c).arrAt_in 2 rfl _).trans (Reg.A_eq10 (T33 m) c 2)).trans (W34_of_ne m c (Pipeline.arrRef spec10 2) (by decide)).symm
  | ⟨3, _⟩ => exact (((Reg.dat10 (T33 m) c).arrAt_in 3 rfl _).trans (Reg.A_eq10 (T33 m) c 3)).trans (W34_of_ne m c (Pipeline.arrRef spec10 3) (by decide)).symm
  | ⟨4, _⟩ => exact (((Reg.dat10 (T33 m) c).arrAt_in 4 rfl _).trans (Reg.A_eq10 (T33 m) c 4)).trans (W34_of_ne m c (Pipeline.arrRef spec10 4) (by decide)).symm
  | ⟨5, _⟩ => exact (((Reg.dat10 (T33 m) c).arrAt_in 5 rfl _).trans (Reg.A_eq10 (T33 m) c 5)).trans (W34_of_ne m c (Pipeline.arrRef spec10 5) (by decide)).symm
  | ⟨6, _⟩ => exact (W34_at0 m c).symm
/-- Every buffer that is none of the region's arrays is kept. -/
theorem hrest10 (c : Dev nD) : ∀ b, b ∉ Finset.univ.image (Pipeline.arrRef spec10) → T34 m c b = T33 m c b :=
  fun b hb => W34_of_ne m c b (fun e => hb (Finset.mem_image.mpr ⟨6, Finset.mem_univ _, e.symm ▸ rfl⟩))

-- a library lemma stated over the pipeline family unifies with the printed configuration only when unification may
-- unfold plain definitions in a metavariable's type
set_option backward.isDefEq.respectTransparency.types false in
/-- REGION 10 over the thread state. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (Reg.body_obligation10 (T33 m) c).loose
  hwaits := Pipeline.hwaits_of_owed_zero _ _ _ _ L lv 10 fun _ _ => rfl
  pre c := iprop(StableHlo.held (c : Thread nD τ) (Pipeline.ucRefs τ sig) (W33 m c) ∗ R c)
  post c := iprop(StableHlo.held (c : Thread nD τ) (Pipeline.ucRefs τ sig) (W34 m c) ∗ R c)
  X c := iprop(∃ r, prngReg c r)
  Y c := iprop(∃ r, prngReg c r)
  Z c := Pipeline.unscopedRest (Ix := Unit) (Name := ℕ) (U := UR sig nD τ) (Lvl := ℕ) spec10 c (T33 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (T33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (T33 m c) (T34 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg11.lean ====
/- Region 11 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 11's exit each of its arrays holds what the pipeline leaves: an input's array its entry contents, an output's its write-backs. -/
theorem hF11 (c : Dev nD) (w : Fin cfg11.W) : (Reg.dat11 (T35 m) c).arrAt w cfg11.N = T36 m c (Pipeline.arrRef spec11 w) := by
  match w with
  | ⟨0, _⟩ => exact (((Reg.dat11 (T35 m) c).arrAt_in 0 rfl _).trans (Reg.A_eq11 (T35 m) c 0)).trans (W36_of_ne m c (Pipeline.arrRef spec11 0) (by decide)).symm
  | ⟨1, _⟩ => exact (((Reg.dat11 (T35 m) c).arrAt_in 1 rfl _).trans (Reg.A_eq11 (T35 m) c 1)).trans (W36_of_ne m c (Pipeline.arrRef spec11 1) (by decide)).symm
  | ⟨2, _⟩ => exact (((Reg.dat11 (T35 m) c).arrAt_in 2 rfl _).trans (Reg.A_eq11 (T35 m) c 2)).trans (W36_of_ne m c (Pipeline.arrRef spec11 2) (by decide)).symm
  | ⟨3, _⟩ => exact (((Reg.dat11 (T35 m) c).arrAt_in 3 rfl _).trans (Reg.A_eq11 (T35 m) c 3)).trans (W36_of_ne m c (Pipeline.arrRef spec11 3) (by decide)).symm
  | ⟨4, _⟩ => exact (((Reg.dat11 (T35 m) c).arrAt_in 4 rfl _).trans (Reg.A_eq11 (T35 m) c 4)).trans (W36_of_ne m c (Pipeline.arrRef spec11 4) (by decide)).symm
  | ⟨5, _⟩ => exact (((Reg.dat11 (T35 m) c).arrAt_in 5 rfl _).trans (Reg.A_eq11 (T35 m) c 5)).trans (W36_of_ne m c (Pipeline.arrRef spec11 5) (by decide)).symm
  | ⟨6, _⟩ => exact (W36_at0 m c).symm
/-- Every buffer that is none of the region's arrays is kept. -/
theorem hrest11 (c : Dev nD) : ∀ b, b ∉ Finset.univ.image (Pipeline.arrRef spec11) → T36 m c b = T35 m c b :=
  fun b hb => W36_of_ne m c b (fun e => hb (Finset.mem_image.mpr ⟨6, Finset.mem_univ _, e.symm ▸ rfl⟩))

-- a library lemma stated over the pipeline family unifies with the printed configuration only when unification may
-- unfold plain definitions in a metavariable's type
set_option backward.isDefEq.respectTransparency.types false in
/-- REGION 11 over the thread state. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (Reg.body_obligation11 (T35 m) c).loose
  hwaits := Pipeline.hwaits_of_owed_zero _ _ _ _ L lv 11 fun _ _ => rfl
  pre c := iprop(StableHlo.held (c : Thread nD τ) (Pipeline.ucRefs τ sig) (W35 m c) ∗ R c)
  post c := iprop(StableHlo.held (c : Thread nD τ) (Pipeline.ucRefs τ sig) (W36 m c) ∗ R c)
  X c := iprop(∃ r, prngReg c r)
  Y c := iprop(∃ r, prngReg c r)
  Z c := Pipeline.unscopedRest (Ix := Unit) (Name := ℕ) (U := UR sig nD τ) (Lvl := ℕ) spec11 c (T35 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (T35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (T35 m c) (T36 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg12.lean ====
/- Region 12 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 12's exit each of its arrays holds what the pipeline leaves: an input's array its entry contents, an output's its write-backs. -/
theorem hF12 (c : Dev nD) (w : Fin cfg12.W) : (Reg.dat12 (T37 m) c).arrAt w cfg12.N = T38 m c (Pipeline.arrRef spec12 w) := by
  match w with
  | ⟨0, _⟩ => exact (((Reg.dat12 (T37 m) c).arrAt_in 0 rfl _).trans (Reg.A_eq12 (T37 m) c 0)).trans (W38_of_ne m c (Pipeline.arrRef spec12 0) (by decide)).symm
  | ⟨1, _⟩ => exact (((Reg.dat12 (T37 m) c).arrAt_in 1 rfl _).trans (Reg.A_eq12 (T37 m) c 1)).trans (W38_of_ne m c (Pipeline.arrRef spec12 1) (by decide)).symm
  | ⟨2, _⟩ => exact (((Reg.dat12 (T37 m) c).arrAt_in 2 rfl _).trans (Reg.A_eq12 (T37 m) c 2)).trans (W38_of_ne m c (Pipeline.arrRef spec12 2) (by decide)).symm
  | ⟨3, _⟩ => exact (W38_at0 m c).symm
/-- Every buffer that is none of the region's arrays is kept. -/
theorem hrest12 (c : Dev nD) : ∀ b, b ∉ Finset.univ.image (Pipeline.arrRef spec12) → T38 m c b = T37 m c b :=
  fun b hb => W38_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 12 over the thread state. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (Reg.body_obligation12 (T37 m) c).loose
  hwaits := Pipeline.hwaits_of_owed_zero _ _ _ _ L lv 12 fun _ _ => rfl
  pre c := iprop(StableHlo.held (c : Thread nD τ) (Pipeline.ucRefs τ sig) (W37 m c) ∗ R c)
  post c := iprop(StableHlo.held (c : Thread nD τ) (Pipeline.ucRefs τ sig) (W38 m c) ∗ R c)
  X c := iprop(∃ r, prngReg c r)
  Y c := iprop(∃ r, prngReg c r)
  Z c := Pipeline.unscopedRest (Ix := Unit) (Name := ℕ) (U := UR sig nD τ) (Lvl := ℕ) spec12 c (T37 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (T37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (T37 m c) (T38 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg13.lean ====
/- Region 13 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 13's exit each of its arrays holds what the pipeline leaves: an input's array its entry contents, an output's its write-backs. -/
theorem hF13 (c : Dev nD) (w : Fin cfg13.W) : (Reg.dat13 (T41 m) c).arrAt w cfg13.N = T42 m c (Pipeline.arrRef spec13 w) := by
  match w with
  | ⟨0, _⟩ => exact (((Reg.dat13 (T41 m) c).arrAt_in 0 rfl _).trans (Reg.A_eq13 (T41 m) c 0)).trans (W42_of_ne m c (Pipeline.arrRef spec13 0) (by decide) (by decide) (by decide)).symm
  | ⟨1, _⟩ => exact (((Reg.dat13 (T41 m) c).arrAt_in 1 rfl _).trans (Reg.A_eq13 (T41 m) c 1)).trans (W42_of_ne m c (Pipeline.arrRef spec13 1) (by decide) (by decide) (by decide)).symm
  | ⟨2, _⟩ => exact (((Reg.dat13 (T41 m) c).arrAt_in 2 rfl _).trans (Reg.A_eq13 (T41 m) c 2)).trans (W42_of_ne m c (Pipeline.arrRef spec13 2) (by decide) (by decide) (by decide)).symm
  | ⟨3, _⟩ => exact (((Reg.dat13 (T41 m) c).arrAt_in 3 rfl _).trans (Reg.A_eq13 (T41 m) c 3)).trans (W42_of_ne m c (Pipeline.arrRef spec13 3) (by decide) (by decide) (by decide)).symm
  | ⟨4, _⟩ => exact (((Reg.dat13 (T41 m) c).arrAt_in 4 rfl _).trans (Reg.A_eq13 (T41 m) c 4)).trans (W42_of_ne m c (Pipeline.arrRef spec13 4) (by decide) (by decide) (by decide)).symm
  | ⟨5, _⟩ => exact (((Reg.dat13 (T41 m) c).arrAt_in 5 rfl _).trans (Reg.A_eq13 (T41 m) c 5)).trans (W42_of_ne m c (Pipeline.arrRef spec13 5) (by decide) (by decide) (by decide)).symm
  | ⟨6, _⟩ => exact (W42_at0 m c).symm
  | ⟨7, _⟩ => exact (W42_at1 m c).symm
  | ⟨8, _⟩ => exact (W42_at2 m c).symm
set_option maxHeartbeats 4000000 in
/-- Every buffer that is none of the region's arrays is kept. -/
theorem hrest13 (c : Dev nD) : ∀ b, b ∉ Finset.univ.image (Pipeline.arrRef spec13) → T42 m c b = T41 m c b :=
  fun b hb => W42_of_ne m c b (fun e => hb (Finset.mem_image.mpr ⟨6, Finset.mem_univ _, e.symm ▸ rfl⟩)) (fun e => hb (Finset.mem_image.mpr ⟨7, Finset.mem_univ _, e.symm ▸ rfl⟩)) (fun e => hb (Finset.mem_image.mpr ⟨8, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 13 over the thread state. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (Reg.body_obligation13 (T41 m) c).loose
  hwaits := Pipeline.hwaits_of_owed_zero _ _ _ _ L lv 13 fun _ _ => rfl
  pre c := iprop(StableHlo.held (c : Thread nD τ) (Pipeline.ucRefs τ sig) (W41 m c) ∗ R c)
  post c := iprop(StableHlo.held (c : Thread nD τ) (Pipeline.ucRefs τ sig) (W42 m c) ∗ R c)
  X c := iprop(∃ r, prngReg c r)
  Y c := iprop(∃ r, prngReg c r)
  Z c := Pipeline.unscopedRest (Ix := Unit) (Name := ℕ) (U := UR sig nD τ) (Lvl := ℕ) spec13 c (T41 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (T41 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (T41 m c) (T42 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg14.lean ====
/- Region 14 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 14's exit each of its arrays holds what the pipeline leaves: an input's array its entry contents, an output's its write-backs. -/
theorem hF14 (c : Dev nD) (w : Fin cfg14.W) : (Reg.dat14 (T43 m) c).arrAt w cfg14.N = T44 m c (Pipeline.arrRef spec14 w) := by
  match w with
  | ⟨0, _⟩ => exact (((Reg.dat14 (T43 m) c).arrAt_in 0 rfl _).trans (Reg.A_eq14 (T43 m) c 0)).trans (W44_of_ne m c (Pipeline.arrRef spec14 0) (by decide)).symm
  | ⟨1, _⟩ => exact (((Reg.dat14 (T43 m) c).arrAt_in 1 rfl _).trans (Reg.A_eq14 (T43 m) c 1)).trans (W44_of_ne m c (Pipeline.arrRef spec14 1) (by decide)).symm
  | ⟨2, _⟩ => exact (((Reg.dat14 (T43 m) c).arrAt_in 2 rfl _).trans (Reg.A_eq14 (T43 m) c 2)).trans (W44_of_ne m c (Pipeline.arrRef spec14 2) (by decide)).symm
  | ⟨3, _⟩ => exact (W44_at0 m c).symm
/-- Every buffer that is none of the region's arrays is kept. -/
theorem hrest14 (c : Dev nD) : ∀ b, b ∉ Finset.univ.image (Pipeline.arrRef spec14) → T44 m c b = T43 m c b :=
  fun b hb => W44_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 14 over the thread state. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (Reg.body_obligation14 (T43 m) c).loose
  hwaits := Pipeline.hwaits_of_owed_zero _ _ _ _ L lv 14 fun _ _ => rfl
  pre c := iprop(StableHlo.held (c : Thread nD τ) (Pipeline.ucRefs τ sig) (W43 m c) ∗ R c)
  post c := iprop(StableHlo.held (c : Thread nD τ) (Pipeline.ucRefs τ sig) (W44 m c) ∗ R c)
  X c := iprop(∃ r, prngReg c r)
  Y c := iprop(∃ r, prngReg c r)
  Z c := Pipeline.unscopedRest (Ix := Unit) (Name := ℕ) (U := UR sig nD τ) (Lvl := ℕ) spec14 c (T43 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (T43 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (T43 m c) (T44 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg15.lean ====
/- Region 15 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 15's exit each of its arrays holds what the pipeline leaves: an input's array its entry contents, an output's its write-backs. -/
theorem hF15 (c : Dev nD) (w : Fin cfg15.W) : (Reg.dat15 (T49 m) c).arrAt w cfg15.N = T50 m c (Pipeline.arrRef spec15 w) := by
  match w with
  | ⟨0, _⟩ => exact (((Reg.dat15 (T49 m) c).arrAt_in 0 rfl _).trans (Reg.A_eq15 (T49 m) c 0)).trans (W50_of_ne m c (Pipeline.arrRef spec15 0) (by decide)).symm
  | ⟨1, _⟩ => exact (((Reg.dat15 (T49 m) c).arrAt_in 1 rfl _).trans (Reg.A_eq15 (T49 m) c 1)).trans (W50_of_ne m c (Pipeline.arrRef spec15 1) (by decide)).symm
  | ⟨2, _⟩ => exact (((Reg.dat15 (T49 m) c).arrAt_in 2 rfl _).trans (Reg.A_eq15 (T49 m) c 2)).trans (W50_of_ne m c (Pipeline.arrRef spec15 2) (by decide)).symm
  | ⟨3, _⟩ => exact (((Reg.dat15 (T49 m) c).arrAt_in 3 rfl _).trans (Reg.A_eq15 (T49 m) c 3)).trans (W50_of_ne m c (Pipeline.arrRef spec15 3) (by decide)).symm
  | ⟨4, _⟩ => exact (((Reg.dat15 (T49 m) c).arrAt_in 4 rfl _).trans (Reg.A_eq15 (T49 m) c 4)).trans (W50_of_ne m c (Pipeline.arrRef spec15 4) (by decide)).symm
  | ⟨5, _⟩ => exact (((Reg.dat15 (T49 m) c).arrAt_in 5 rfl _).trans (Reg.A_eq15 (T49 m) c 5)).trans (W50_of_ne m c (Pipeline.arrRef spec15 5) (by decide)).symm
  | ⟨6, _⟩ => exact (W50_at0 m c).symm
set_option maxHeartbeats 4000000 in
/-- Every buffer that is none of the region's arrays is kept. -/
theorem hrest15 (c : Dev nD) : ∀ b, b ∉ Finset.univ.image (Pipeline.arrRef spec15) → T50 m c b = T49 m c b :=
  fun b hb => W50_of_ne m c b (fun e => hb (Finset.mem_image.mpr ⟨6, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 15 over the thread state. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (Reg.body_obligation15 (T49 m) c).loose
  hwaits := Pipeline.hwaits_of_owed_zero _ _ _ _ L lv 15 fun _ _ => rfl
  pre c := iprop(StableHlo.held (c : Thread nD τ) (Pipeline.ucRefs τ sig) (W49 m c) ∗ R c)
  post c := iprop(StableHlo.held (c : Thread nD τ) (Pipeline.ucRefs τ sig) (W50 m c) ∗ R c)
  X c := iprop(∃ r, prngReg c r)
  Y c := iprop(∃ r, prngReg c r)
  Z c := Pipeline.unscopedRest (Ix := Unit) (Name := ℕ) (U := UR sig nD τ) (Lvl := ℕ) spec15 c (T49 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (T49 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (T49 m c) (T50 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg16.lean ====
/- Region 16 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 16's exit each of its arrays holds what the pipeline leaves: an input's array its entry contents, an output's its write-backs. -/
theorem hF16 (c : Dev nD) (w : Fin cfg16.W) : (Reg.dat16 (T51 m) c).arrAt w cfg16.N = T52 m c (Pipeline.arrRef spec16 w) := by
  match w with
  | ⟨0, _⟩ => exact (((Reg.dat16 (T51 m) c).arrAt_in 0 rfl _).trans (Reg.A_eq16 (T51 m) c 0)).trans (W52_of_ne m c (Pipeline.arrRef spec16 0) (by decide)).symm
  | ⟨1, _⟩ => exact (((Reg.dat16 (T51 m) c).arrAt_in 1 rfl _).trans (Reg.A_eq16 (T51 m) c 1)).trans (W52_of_ne m c (Pipeline.arrRef spec16 1) (by decide)).symm
  | ⟨2, _⟩ => exact (((Reg.dat16 (T51 m) c).arrAt_in 2 rfl _).trans (Reg.A_eq16 (T51 m) c 2)).trans (W52_of_ne m c (Pipeline.arrRef spec16 2) (by decide)).symm
  | ⟨3, _⟩ => exact (((Reg.dat16 (T51 m) c).arrAt_in 3 rfl _).trans (Reg.A_eq16 (T51 m) c 3)).trans (W52_of_ne m c (Pipeline.arrRef spec16 3) (by decide)).symm
  | ⟨4, _⟩ => exact (((Reg.dat16 (T51 m) c).arrAt_in 4 rfl _).trans (Reg.A_eq16 (T51 m) c 4)).trans (W52_of_ne m c (Pipeline.arrRef spec16 4) (by decide)).symm
  | ⟨5, _⟩ => exact (((Reg.dat16 (T51 m) c).arrAt_in 5 rfl _).trans (Reg.A_eq16 (T51 m) c 5)).trans (W52_of_ne m c (Pipeline.arrRef spec16 5) (by decide)).symm
  | ⟨6, _⟩ => exact (W52_at0 m c).symm
set_option maxHeartbeats 4000000 in
/-- Every buffer that is none of the region's arrays is kept. -/
theorem hrest16 (c : Dev nD) : ∀ b, b ∉ Finset.univ.image (Pipeline.arrRef spec16) → T52 m c b = T51 m c b :=
  fun b hb => W52_of_ne m c b (fun e => hb (Finset.mem_image.mpr ⟨6, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 16 over the thread state. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (Reg.body_obligation16 (T51 m) c).loose
  hwaits := Pipeline.hwaits_of_owed_zero _ _ _ _ L lv 16 fun _ _ => rfl
  pre c := iprop(StableHlo.held (c : Thread nD τ) (Pipeline.ucRefs τ sig) (W51 m c) ∗ R c)
  post c := iprop(StableHlo.held (c : Thread nD τ) (Pipeline.ucRefs τ sig) (W52 m c) ∗ R c)
  X c := iprop(∃ r, prngReg c r)
  Y c := iprop(∃ r, prngReg c r)
  Z c := Pipeline.unscopedRest (Ix := Unit) (Name := ℕ) (U := UR sig nD τ) (Lvl := ℕ) spec16 c (T51 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (T51 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (T51 m c) (T52 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg17.lean ====
/- Region 17 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 17's exit each of its arrays holds what the pipeline leaves: an input's array its entry contents, an output's its write-backs. -/
theorem hF17 (c : Dev nD) (w : Fin cfg17.W) : (Reg.dat17 (T53 m) c).arrAt w cfg17.N = T54 m c (Pipeline.arrRef spec17 w) := by
  match w with
  | ⟨0, _⟩ => exact (((Reg.dat17 (T53 m) c).arrAt_in 0 rfl _).trans (Reg.A_eq17 (T53 m) c 0)).trans (W54_of_ne m c (Pipeline.arrRef spec17 0) (by decide)).symm
  | ⟨1, _⟩ => exact (((Reg.dat17 (T53 m) c).arrAt_in 1 rfl _).trans (Reg.A_eq17 (T53 m) c 1)).trans (W54_of_ne m c (Pipeline.arrRef spec17 1) (by decide)).symm
  | ⟨2, _⟩ => exact (((Reg.dat17 (T53 m) c).arrAt_in 2 rfl _).trans (Reg.A_eq17 (T53 m) c 2)).trans (W54_of_ne m c (Pipeline.arrRef spec17 2) (by decide)).symm
  | ⟨3, _⟩ => exact (W54_at0 m c).symm
/-- Every buffer that is none of the region's arrays is kept. -/
theorem hrest17 (c : Dev nD) : ∀ b, b ∉ Finset.univ.image (Pipeline.arrRef spec17) → T54 m c b = T53 m c b :=
  fun b hb => W54_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 17 over the thread state. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (Reg.body_obligation17 (T53 m) c).loose
  hwaits := Pipeline.hwaits_of_owed_zero _ _ _ _ L lv 17 fun _ _ => rfl
  pre c := iprop(StableHlo.held (c : Thread nD τ) (Pipeline.ucRefs τ sig) (W53 m c) ∗ R c)
  post c := iprop(StableHlo.held (c : Thread nD τ) (Pipeline.ucRefs τ sig) (W54 m c) ∗ R c)
  X c := iprop(∃ r, prngReg c r)
  Y c := iprop(∃ r, prngReg c r)
  Z c := Pipeline.unscopedRest (Ix := Unit) (Name := ℕ) (U := UR sig nD τ) (Lvl := ℕ) spec17 c (T53 m c)
  hentry c := by
    rw [Pipeline.ownSems0_none]
    have hsplit := Pipeline.arrays_of_unscopedBufs (p := 17) (pcfgs (F := F)) adm (pdats m) launch17.win launch17.arr_whole c
      ((pdats m 17 c).share_full fun _ => rfl) (T53 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (T53 m c) (T54 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg18.lean ====
/- Region 18 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 18's exit each of its arrays holds what the pipeline leaves: an input's array its entry contents, an output's its write-backs. -/
theorem hF18 (c : Dev nD) (w : Fin cfg18.W) : (Reg.dat18 (T57 m) c).arrAt w cfg18.N = T58 m c (Pipeline.arrRef spec18 w) := by
  match w with
  | ⟨0, _⟩ => exact (((Reg.dat18 (T57 m) c).arrAt_in 0 rfl _).trans (Reg.A_eq18 (T57 m) c 0)).trans (W58_of_ne m c (Pipeline.arrRef spec18 0) (by decide) (by decide) (by decide)).symm
  | ⟨1, _⟩ => exact (((Reg.dat18 (T57 m) c).arrAt_in 1 rfl _).trans (Reg.A_eq18 (T57 m) c 1)).trans (W58_of_ne m c (Pipeline.arrRef spec18 1) (by decide) (by decide) (by decide)).symm
  | ⟨2, _⟩ => exact (((Reg.dat18 (T57 m) c).arrAt_in 2 rfl _).trans (Reg.A_eq18 (T57 m) c 2)).trans (W58_of_ne m c (Pipeline.arrRef spec18 2) (by decide) (by decide) (by decide)).symm
  | ⟨3, _⟩ => exact (((Reg.dat18 (T57 m) c).arrAt_in 3 rfl _).trans (Reg.A_eq18 (T57 m) c 3)).trans (W58_of_ne m c (Pipeline.arrRef spec18 3) (by decide) (by decide) (by decide)).symm
  | ⟨4, _⟩ => exact (((Reg.dat18 (T57 m) c).arrAt_in 4 rfl _).trans (Reg.A_eq18 (T57 m) c 4)).trans (W58_of_ne m c (Pipeline.arrRef spec18 4) (by decide) (by decide) (by decide)).symm
  | ⟨5, _⟩ => exact (((Reg.dat18 (T57 m) c).arrAt_in 5 rfl _).trans (Reg.A_eq18 (T57 m) c 5)).trans (W58_of_ne m c (Pipeline.arrRef spec18 5) (by decide) (by decide) (by decide)).symm
  | ⟨6, _⟩ => exact (W58_at0 m c).symm
  | ⟨7, _⟩ => exact (W58_at1 m c).symm
  | ⟨8, _⟩ => exact (W58_at2 m c).symm
/-- Every buffer that is none of the region's arrays is kept. -/
theorem hrest18 (c : Dev nD) : ∀ b, b ∉ Finset.univ.image (Pipeline.arrRef spec18) → T58 m c b = T57 m c b :=
  fun b hb => W58_of_ne m c b (fun e => hb (Finset.mem_image.mpr ⟨6, Finset.mem_univ _, e.symm ▸ rfl⟩)) (fun e => hb (Finset.mem_image.mpr ⟨7, Finset.mem_univ _, e.symm ▸ rfl⟩)) (fun e => hb (Finset.mem_image.mpr ⟨8, Finset.mem_univ _, e.symm ▸ rfl⟩))

-- a library lemma stated over the pipeline family unifies with the printed configuration only when unification may
-- unfold plain definitions in a metavariable's type
set_option backward.isDefEq.respectTransparency.types false in
/-- REGION 18 over the thread state. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (Reg.body_obligation18 (T57 m) c).loose
  hwaits := Pipeline.hwaits_of_owed_zero _ _ _ _ L lv 18 fun _ _ => rfl
  pre c := iprop(StableHlo.held (c : Thread nD τ) (Pipeline.ucRefs τ sig) (W57 m c) ∗ R c)
  post c := iprop(StableHlo.held (c : Thread nD τ) (Pipeline.ucRefs τ sig) (W58 m c) ∗ R c)
  X c := iprop(∃ r, prngReg c r)
  Y c := iprop(∃ r, prngReg c r)
  Z c := Pipeline.unscopedRest (Ix := Unit) (Name := ℕ) (U := UR sig nD τ) (Lvl := ℕ) spec18 c (T57 m c)
  hentry c := by
    rw [Pipeline.ownSems0_none]
    have hsplit := Pipeline.arrays_of_unscopedBufs (p := 18) (pcfgs (F := F)) adm (pdats m) launch18.win launch18.arr_whole c
      ((pdats m 18 c).share_full fun _ => rfl) (T57 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (T57 m c) (T58 m c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg19.lean ====
/- Region 19 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 19's exit each of its arrays holds what the pipeline leaves: an input's array its entry contents, an output's its write-backs. -/
theorem hF19 (c : Dev nD) (w : Fin cfg19.W) : (Reg.dat19 (T59 m) c).arrAt w cfg19.N = T60 m c (Pipeline.arrRef spec19 w) := by
  match w with
  | ⟨0, _⟩ => exact (((Reg.dat19 (T59 m) c).arrAt_in 0 rfl _).trans (Reg.A_eq19 (T59 m) c 0)).trans (W60_of_ne m c (Pipeline.arrRef spec19 0) (by decide)).symm
  | ⟨1, _⟩ => exact (((Reg.dat19 (T59 m) c).arrAt_in 1 rfl _).trans (Reg.A_eq19 (T59 m) c 1)).trans (W60_of_ne m c (Pipeline.arrRef spec19 1) (by decide)).symm
  | ⟨2, _⟩ => exact (((Reg.dat19 (T59 m) c).arrAt_in 2 rfl _).trans (Reg.A_eq19 (T59 m) c 2)).trans (W60_of_ne m c (Pipeline.arrRef spec19 2) (by decide)).symm
  | ⟨3, _⟩ => exact (W60_at0 m c).symm
/-- Every buffer that is none of the region's arrays is kept. -/
theorem hrest19 (c : Dev nD) : ∀ b, b ∉ Finset.univ.image (Pipeline.arrRef spec19) → T60 m c b = T59 m c b :=
  fun b hb => W60_of_ne m c b (fun e => hb (Finset.mem_image.mpr ⟨3, Finset.mem_univ _, e.symm ▸ rfl⟩))

-- a library lemma stated over the pipeline family unifies with the printed configuration only when unification may
-- unfold plain definitions in a metavariable's type
set_option backward.isDefEq.respectTransparency.types false in
/-- REGION 19 over the thread state. -/
def reg19 : Pipeline.RegionSeg (pcfgs (F := F)) adm (pdats m) () defs₀ 𝒱₀ L lv 19 where
  win := launch19.win.to₀
  block_pos := launch19.block_pos
  stage_whole := launch19.stage_whole
  K := PEmpty
  osem k := k.elim
  ho := Pipeline.OwnSemFacts.none _
  hbody c := (Reg.body_obligation19 (T59 m) c).loose
  hwaits := Pipeline.hwaits_of_owed_zero _ _ _ _ L lv 19 fun _ _ => rfl
  pre c := iprop(StableHlo.held (c : Thread nD τ) (Pipeline.ucRefs τ sig) (W59 m c) ∗ R c)
  post c := iprop(StableHlo.held (c : Thread nD τ) (Pipeline.ucRefs τ sig) (W60 m c) ∗ R c)
  X c := iprop(∃ r, prngReg c r)
  Y c := iprop(∃ r, prngReg c r)
  Z c := Pipeline.unscopedRest (Ix := Unit) (Name := ℕ) (U := UR sig nD τ) (Lvl := ℕ) spec19 c (T59 m c)
  hentry c := by
    rw [Pipeline.ownSems0_none]
    have hsplit := Pipeline.arrays_of_unscopedBufs (p := 19) (pcfgs (F := F)) adm (pdats m) launch19.win launch19.arr_whole c
      ((pdats m 19 c).share_full fun _ => rfl) (T59 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m) ((pdats m 19 c).share_full fun _ => rfl)
      (T59 m c) (T60 m c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg20.lean ====
/- Region 20 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 20's exit each of its arrays holds what the pipeline leaves: an input's array its entry contents, an output's its write-backs. -/
theorem hF20 (c : Dev nD) (w : Fin cfg20.W) : (Reg.dat20 (T65 m) c).arrAt w cfg20.N = T66 m c (Pipeline.arrRef spec20 w) := by
  match w with
  | ⟨0, _⟩ => exact (((Reg.dat20 (T65 m) c).arrAt_in 0 rfl _).trans (Reg.A_eq20 (T65 m) c 0)).trans (W66_of_ne m c (Pipeline.arrRef spec20 0) (by decide)).symm
  | ⟨1, _⟩ => exact (((Reg.dat20 (T65 m) c).arrAt_in 1 rfl _).trans (Reg.A_eq20 (T65 m) c 1)).trans (W66_of_ne m c (Pipeline.arrRef spec20 1) (by decide)).symm
  | ⟨2, _⟩ => exact (((Reg.dat20 (T65 m) c).arrAt_in 2 rfl _).trans (Reg.A_eq20 (T65 m) c 2)).trans (W66_of_ne m c (Pipeline.arrRef spec20 2) (by decide)).symm
  | ⟨3, _⟩ => exact (((Reg.dat20 (T65 m) c).arrAt_in 3 rfl _).trans (Reg.A_eq20 (T65 m) c 3)).trans (W66_of_ne m c (Pipeline.arrRef spec20 3) (by decide)).symm
  | ⟨4, _⟩ => exact (((Reg.dat20 (T65 m) c).arrAt_in 4 rfl _).trans (Reg.A_eq20 (T65 m) c 4)).trans (W66_of_ne m c (Pipeline.arrRef spec20 4) (by decide)).symm
  | ⟨5, _⟩ => exact (((Reg.dat20 (T65 m) c).arrAt_in 5 rfl _).trans (Reg.A_eq20 (T65 m) c 5)).trans (W66_of_ne m c (Pipeline.arrRef spec20 5) (by decide)).symm
  | ⟨6, _⟩ => exact (W66_at0 m c).symm
/-- Every buffer that is none of the region's arrays is kept. -/
theorem hrest20 (c : Dev nD) : ∀ b, b ∉ Finset.univ.image (Pipeline.arrRef spec20) → T66 m c b = T65 m c b :=
  fun b hb => W66_of_ne m c b (fun e => hb (Finset.mem_image.mpr ⟨6, Finset.mem_univ _, e.symm ▸ rfl⟩))

-- a library lemma stated over the pipeline family unifies with the printed configuration only when unification may
-- unfold plain definitions in a metavariable's type
set_option backward.isDefEq.respectTransparency.types false in
/-- REGION 20 over the thread state. -/
def reg20 : Pipeline.RegionSeg (pcfgs (F := F)) adm (pdats m) () defs₀ 𝒱₀ L lv 20 where
  win := launch20.win.to₀
  block_pos := launch20.block_pos
  stage_whole := launch20.stage_whole
  K := PEmpty
  osem k := k.elim
  ho := Pipeline.OwnSemFacts.none _
  hbody c := (Reg.body_obligation20 (T65 m) c).loose
  hwaits := Pipeline.hwaits_of_owed_zero _ _ _ _ L lv 20 fun _ _ => rfl
  pre c := iprop(StableHlo.held (c : Thread nD τ) (Pipeline.ucRefs τ sig) (W65 m c) ∗ R c)
  post c := iprop(StableHlo.held (c : Thread nD τ) (Pipeline.ucRefs τ sig) (W66 m c) ∗ R c)
  X c := iprop(∃ r, prngReg c r)
  Y c := iprop(∃ r, prngReg c r)
  Z c := Pipeline.unscopedRest (Ix := Unit) (Name := ℕ) (U := UR sig nD τ) (Lvl := ℕ) spec20 c (T65 m c)
  hentry c := by
    rw [Pipeline.ownSems0_none]
    have hsplit := Pipeline.arrays_of_unscopedBufs (p := 20) (pcfgs (F := F)) adm (pdats m) launch20.win launch20.arr_whole c
      ((pdats m 20 c).share_full fun _ => rfl) (T65 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m) ((pdats m 20 c).share_full fun _ => rfl)
      (T65 m c) (T66 m c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg21.lean ====
/- Region 21 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 21's exit each of its arrays holds what the pipeline leaves: an input's array its entry contents, an output's its write-backs. -/
theorem hF21 (c : Dev nD) (w : Fin cfg21.W) : (Reg.dat21 (T67 m) c).arrAt w cfg21.N = T68 m c (Pipeline.arrRef spec21 w) := by
  match w with
  | ⟨0, _⟩ => exact (((Reg.dat21 (T67 m) c).arrAt_in 0 rfl _).trans (Reg.A_eq21 (T67 m) c 0)).trans (W68_of_ne m c (Pipeline.arrRef spec21 0) (by decide)).symm
  | ⟨1, _⟩ => exact (((Reg.dat21 (T67 m) c).arrAt_in 1 rfl _).trans (Reg.A_eq21 (T67 m) c 1)).trans (W68_of_ne m c (Pipeline.arrRef spec21 1) (by decide)).symm
  | ⟨2, _⟩ => exact (((Reg.dat21 (T67 m) c).arrAt_in 2 rfl _).trans (Reg.A_eq21 (T67 m) c 2)).trans (W68_of_ne m c (Pipeline.arrRef spec21 2) (by decide)).symm
  | ⟨3, _⟩ => exact (((Reg.dat21 (T67 m) c).arrAt_in 3 rfl _).trans (Reg.A_eq21 (T67 m) c 3)).trans (W68_of_ne m c (Pipeline.arrRef spec21 3) (by decide)).symm
  | ⟨4, _⟩ => exact (((Reg.dat21 (T67 m) c).arrAt_in 4 rfl _).trans (Reg.A_eq21 (T67 m) c 4)).trans (W68_of_ne m c (Pipeline.arrRef spec21 4) (by decide)).symm
  | ⟨5, _⟩ => exact (((Reg.dat21 (T67 m) c).arrAt_in 5 rfl _).trans (Reg.A_eq21 (T67 m) c 5)).trans (W68_of_ne m c (Pipeline.arrRef spec21 5) (by decide)).symm
  | ⟨6, _⟩ => exact (W68_at0 m c).symm
/-- Every buffer that is none of the region's arrays is kept. -/
theorem hrest21 (c : Dev nD) : ∀ b, b ∉ Finset.univ.image (Pipeline.arrRef spec21) → T68 m c b = T67 m c b :=
  fun b hb => W68_of_ne m c b (fun e => hb (Finset.mem_image.mpr ⟨6, Finset.mem_univ _, e.symm ▸ rfl⟩))

-- a library lemma stated over the pipeline family unifies with the printed configuration only when unification may
-- unfold plain definitions in a metavariable's type
set_option backward.isDefEq.respectTransparency.types false in
/-- REGION 21 over the thread state. -/
def reg21 : Pipeline.RegionSeg (pcfgs (F := F)) adm (pdats m) () defs₀ 𝒱₀ L lv 21 where
  win := launch21.win.to₀
  block_pos := launch21.block_pos
  stage_whole := launch21.stage_whole
  K := PEmpty
  osem k := k.elim
  ho := Pipeline.OwnSemFacts.none _
  hbody c := (Reg.body_obligation21 (T67 m) c).loose
  hwaits := Pipeline.hwaits_of_owed_zero _ _ _ _ L lv 21 fun _ _ => rfl
  pre c := iprop(StableHlo.held (c : Thread nD τ) (Pipeline.ucRefs τ sig) (W67 m c) ∗ R c)
  post c := iprop(StableHlo.held (c : Thread nD τ) (Pipeline.ucRefs τ sig) (W68 m c) ∗ R c)
  X c := iprop(∃ r, prngReg c r)
  Y c := iprop(∃ r, prngReg c r)
  Z c := Pipeline.unscopedRest (Ix := Unit) (Name := ℕ) (U := UR sig nD τ) (Lvl := ℕ) spec21 c (T67 m c)
  hentry c := by
    rw [Pipeline.ownSems0_none]
    have hsplit := Pipeline.arrays_of_unscopedBufs (p := 21) (pcfgs (F := F)) adm (pdats m) launch21.win launch21.arr_whole c
      ((pdats m 21 c).share_full fun _ => rfl) (T67 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m) ((pdats m 21 c).share_full fun _ => rfl)
      (T67 m c) (T68 m c) ((pdats m 21 c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KSeg22.lean ====
/- Region 22 of @main over the thread state: entered with every unscoped buffer at the contents before it, left with them at
   the contents after it; its arrays are split out of the unscoped buffers and put back at what the pipeline leaves. -/
import proofs.«425355_j88287347737110_2_alg».proof.Proof.Bits.KFold
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At region 22's exit each of its arrays holds what the pipeline leaves: an input's array its entry contents, an output's its write-backs. -/
theorem hF22 (c : Dev nD) (w : Fin cfg22.W) : (Reg.dat22 (T69 m) c).arrAt w cfg22.N = T70 m c (Pipeline.arrRef spec22 w) := by
  match w with
  | ⟨0, _⟩ => exact (((Reg.dat22 (T69 m) c).arrAt_in 0 rfl _).trans (Reg.A_eq22 (T69 m) c 0)).trans (W70_of_ne m c (Pipeline.arrRef spec22 0) (by decide)).symm
  | ⟨1, _⟩ => exact (((Reg.dat22 (T69 m) c).arrAt_in 1 rfl _).trans (Reg.A_eq22 (T69 m) c 1)).trans (W70_of_ne m c (Pipeline.arrRef spec22 1) (by decide)).symm
  | ⟨2, _⟩ => exact (((Reg.dat22 (T69 m) c).arrAt_in 2 rfl _).trans (Reg.A_eq22 (T69 m) c 2)).trans (W70_of_ne m c (Pipeline.arrRef spec22 2) (by decide)).symm
  | ⟨3, _⟩ => exact (((Reg.dat22 (T69 m) c).arrAt_in 3 rfl _).trans (Reg.A_eq22 (T69 m) c 3)).trans (W70_of_ne m c (Pipeline.arrRef spec22 3) (by decide)).symm
  | ⟨4, _⟩ => exact (((Reg.dat22 (T69 m) c).arrAt_in 4 rfl _).trans (Reg.A_eq22 (T69 m) c 4)).trans (W70_of_ne m c (Pipeline.arrRef spec22 4) (by decide)).symm
  | ⟨5, _⟩ => exact (((Reg.dat22 (T69 m) c).arrAt_in 5 rfl _).trans (Reg.A_eq22 (T69 m) c 5)).trans (W70_of_ne m c (Pipeline.arrRef spec22 5) (by decide)).symm
  | ⟨6, _⟩ => exact (((Reg.dat22 (T69 m) c).arrAt_in 6 rfl _).trans (Reg.A_eq22 (T69 m) c 6)).trans (W70_of_ne m c (Pipeline.arrRef spec22 6) (by decide)).symm
  | ⟨7, _⟩ => exact (((Reg.dat22 (T69 m) c).arrAt_in 7 rfl _).trans (Reg.A_eq22 (T69 m) c 7)).trans (W70_of_ne m c (Pipeline.arrRef spec22 7) (by decide)).symm
  | ⟨8, _⟩ => exact (((Reg.dat22 (T69 m) c).arrAt_in 8 rfl _).trans (Reg.A_eq22 (T69 m) c 8)).trans (W70_of_ne m c (Pipeline.arrRef spec22 8) (by decide)).symm
  | ⟨9, _⟩ => exact (W70_at0 m c).symm
set_option maxHeartbeats 4000000 in
/-- Every buffer that is none of the region's arrays is kept. -/
theorem hrest22 (c : Dev nD) : ∀ b, b ∉ Finset.univ.image (Pipeline.arrRef spec22) → T70 m c b = T69 m c b :=
  fun b hb => W70_of_ne m c b (fun e => hb (Finset.mem_image.mpr ⟨9, Finset.mem_univ _, e.symm ▸ rfl⟩))

set_option maxHeartbeats 4000000 in
-- a library lemma stated over the pipeline family unifies with the printed configuration only when unification may
-- unfold plain definitions in a metavariable's type
set_option backward.isDefEq.respectTransparency.types false in
/-- REGION 22 over the thread state. -/
def reg22 : Pipeline.RegionSeg (pcfgs (F := F)) adm (pdats m) () defs₀ 𝒱₀ L lv 22 where
  win := launch22.win.to₀
  block_pos := launch22.block_pos
  stage_whole := launch22.stage_whole
  K := PEmpty
  osem k := k.elim
  ho := Pipeline.OwnSemFacts.none _
  hbody c := (Reg.body_obligation22 (T69 m) c).loose
  hwaits := Pipeline.hwaits_of_owed_zero _ _ _ _ L lv 22 fun _ _ => rfl
  pre c := iprop(StableHlo.held (c : Thread nD τ) (Pipeline.ucRefs τ sig) (W69 m c) ∗ R c)
  post c := iprop(StableHlo.held (c : Thread nD τ) (Pipeline.ucRefs τ sig) (W70 m c) ∗ R c)
  X c := iprop(∃ r, prngReg c r)
  Y c := iprop(∃ r, prngReg c r)
  Z c := Pipeline.unscopedRest (Ix := Unit) (Name := ℕ) (U := UR sig nD τ) (Lvl := ℕ) spec22 c (T69 m c)
  hentry c := by
    rw [Pipeline.ownSems0_none]
    have hsplit := Pipeline.arrays_of_unscopedBufs (p := 22) (pcfgs (F := F)) adm (pdats m) launch22.win launch22.arr_whole c
      ((pdats m 22 c).share_full fun _ => rfl) (T69 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m) ((pdats m 22 c).share_full fun _ => rfl)
      (T69 m c) (T70 m c) ((pdats m 22 c).arrAt · cfg22.N) (hF22 m c) (hrest22 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Bits.KRun.lean ====
/- The kernel program's run: every weakly fair execution of @main terminates, nothing faulting, the result buffer at the fold's last
   contents and every argument array as launched. -/
import proofs.«425355_j88287347737110_2_alg».proof.Proof.Bits.KOuts
import proofs.«425355_j88287347737110_2_alg».proof.Proof.Bits.KSeg0
import proofs.«425355_j88287347737110_2_alg».proof.Proof.Bits.KSeg1
import proofs.«425355_j88287347737110_2_alg».proof.Proof.Bits.KSeg2
import proofs.«425355_j88287347737110_2_alg».proof.Proof.Bits.KSeg3
import proofs.«425355_j88287347737110_2_alg».proof.Proof.Bits.KSeg4
import proofs.«425355_j88287347737110_2_alg».proof.Proof.Bits.KSeg5
import proofs.«425355_j88287347737110_2_alg».proof.Proof.Bits.KSeg6
import proofs.«425355_j88287347737110_2_alg».proof.Proof.Bits.KSeg7
import proofs.«425355_j88287347737110_2_alg».proof.Proof.Bits.KSeg8
import proofs.«425355_j88287347737110_2_alg».proof.Proof.Bits.KSeg9
import proofs.«425355_j88287347737110_2_alg».proof.Proof.Bits.KSeg10
import proofs.«425355_j88287347737110_2_alg».proof.Proof.Bits.KSeg11
import proofs.«425355_j88287347737110_2_alg».proof.Proof.Bits.KSeg12
import proofs.«425355_j88287347737110_2_alg».proof.Proof.Bits.KSeg13
import proofs.«425355_j88287347737110_2_alg».proof.Proof.Bits.KSeg14
import proofs.«425355_j88287347737110_2_alg».proof.Proof.Bits.KSeg15
import proofs.«425355_j88287347737110_2_alg».proof.Proof.Bits.KSeg16
import proofs.«425355_j88287347737110_2_alg».proof.Proof.Bits.KSeg17
import proofs.«425355_j88287347737110_2_alg».proof.Proof.Bits.KSeg18
import proofs.«425355_j88287347737110_2_alg».proof.Proof.Bits.KSeg19
import proofs.«425355_j88287347737110_2_alg».proof.Proof.Bits.KSeg20
import proofs.«425355_j88287347737110_2_alg».proof.Proof.Bits.KSeg21
import proofs.«425355_j88287347737110_2_alg».proof.Proof.Bits.KSeg22
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v535) = W70 m c main_v535
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE23 := fun c => by iintro ⟨-, H⟩; iexact H)
    (reg0 m) (fun c => by rw [V_eq1 m c]; exact .rfl) (fun c => by rw [V_eq2 m c]; exact .rfl)
    (reg1 m) (fun c => by rw [V_eq3 m c]; exact .rfl) (fun c => by rw [V_eq4 m c]; exact .rfl)
    (reg2 m) (fun c => by rw [V_eq5 m c]; exact .rfl) (fun c => by rw [V_eq6 m c]; exact .rfl)
    (reg3 m) (fun c => by rw [V_eq9 m c]; exact .rfl) (fun c => by rw [V_eq10 m c]; exact .rfl)
    (reg4 m) (fun c => by rw [V_eq11 m c]; exact .rfl) (fun c => by rw [V_eq12 m c]; exact .rfl)
    (reg5 m) (fun c => by rw [V_eq17 m c]; exact .rfl) (fun c => by rw [V_eq18 m c]; exact .rfl)
    (reg6 m) (fun c => by rw [V_eq19 m c]; exact .rfl) (fun c => by rw [V_eq20 m c]; exact .rfl)
    (reg7 m) (fun c => by rw [V_eq21 m c]; exact .rfl) (fun c => by rw [V_eq22 m c]; exact .rfl)
    (reg8 m) (fun c => by rw [V_eq25 m c]; exact .rfl) (fun c => by rw [V_eq26 m c]; exact .rfl)
    (reg9 m) (fun c => by rw [V_eq27 m c]; exact .rfl) (fun c => by rw [V_eq28 m c]; exact .rfl)
    (reg10 m) (fun c => by rw [V_eq33 m c]; exact .rfl) (fun c => by rw [V_eq34 m c]; exact .rfl)
    (reg11 m) (fun c => by rw [V_eq35 m c]; exact .rfl) (fun c => by rw [V_eq36 m c]; exact .rfl)
    (reg12 m) (fun c => by rw [V_eq37 m c]; exact .rfl) (fun c => by rw [V_eq38 m c]; exact .rfl)
    (reg13 m) (fun c => by rw [V_eq41 m c]; exact .rfl) (fun c => by rw [V_eq42 m c]; exact .rfl)
    (reg14 m) (fun c => by rw [V_eq43 m c]; exact .rfl) (fun c => by rw [V_eq44 m c]; exact .rfl)
    (reg15 m) (fun c => by rw [V_eq49 m c]; exact .rfl) (fun c => by rw [V_eq50 m c]; exact .rfl)
    (reg16 m) (fun c => by rw [V_eq51 m c]; exact .rfl) (fun c => by rw [V_eq52 m c]; exact .rfl)
    (reg17 m) (fun c => by rw [V_eq53 m c]; exact .rfl) (fun c => by rw [V_eq54 m c]; exact .rfl)
    (reg18 m) (fun c => by rw [V_eq57 m c]; exact .rfl) (fun c => by rw [V_eq58 m c]; exact .rfl)
    (reg19 m) (fun c => by rw [V_eq59 m c]; exact .rfl) (fun c => by rw [V_eq60 m c]; exact .rfl)
    (reg20 m) (fun c => by rw [V_eq65 m c]; exact .rfl) (fun c => by rw [V_eq66 m c]; exact .rfl)
    (reg21 m) (fun c => by rw [V_eq67 m c]; exact .rfl) (fun c => by rw [V_eq68 m c]; exact .rfl)
    (reg22 m) (fun c => by rw [V_eq69 m c]; exact .rfl) (fun c => by rw [V_eq70 m c]; exact .rfl)

end Cert.Kernel.Run

end
-- ==== Proof.RefOps0.lean ====
import proofs.«425355_j88287347737110_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The 60 operations of @main's window 0 (60 statements), in order: a call contributes its
    callee's operations over that call's record, a nested call's over the nested record. -/
abbrev ops0 : List (HloOp τ sig (Elt F)) :=
  [ StableHlo.unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg3 main_v4 ((fun l r => Host.dotGeneral dot_S100000x1_S1x32_S100000x32_1_0_0_1_n_n none l r) : (⟨S100000x1, .f32⟩ : BufTy).Contents (Elt F) → (⟨S1x32, .f32⟩ : BufTy).Contents (Elt F) → (⟨S100000x32, .f32⟩ : BufTy).Contents (Elt F)),
    StableHlo.unary main_arg4 main_v5 (broadcastInDim S1x32 ![1] bcast_S32_S1x32_1 : (⟨S32, .f32⟩ : BufTy).Contents (Elt F) → (⟨S1x32, .f32⟩ : BufTy).Contents (Elt F)),
    StableHlo.unary main_v5 main_v6 (broadcastInDim S100000x32 ![0, 1] bcast_S1x32_S100000x32_0_1 : (⟨S1x32, .f32⟩ : BufTy).Contents (Elt F) → (⟨S100000x32, .f32⟩ : BufTy).Contents (Elt F)),
    StableHlo.binary main_v4 main_v6 main_v7 (addf : (⟨S100000x32, .f32⟩ : BufTy).Contents (Elt F) → (⟨S100000x32, .f32⟩ : BufTy).Contents (Elt F) → (⟨S100000x32, .f32⟩ : BufTy).Contents (Elt F)),
    StableHlo.binary main_arg1 main_arg5 main_v8 ((fun l r => Host.dotGeneral dot_S800000x1_S1x32_S800000x32_1_0_0_1_n_n none l r) : (⟨S800000x1, .f32⟩ : BufTy).Contents (Elt F) → (⟨S1x32, .f32⟩ : BufTy).Contents (Elt F) → (⟨S800000x32, .f32⟩ : BufTy).Contents (Elt F)),
    StableHlo.unary main_arg6 main_v9 (broadcastInDim S1x32 ![1] bcast_S32_S1x32_1 : (⟨S32, .f32⟩ : BufTy).Contents (Elt F) → (⟨S1x32, .f32⟩ : BufTy).Contents (Elt F)),
    StableHlo.unary main_v9 main_v10 (broadcastInDim S800000x32 ![0, 1] bcast_S1x32_S800000x32_0_1 : (⟨S1x32, .f32⟩ : BufTy).Contents (Elt F) → (⟨S800000x32, .f32⟩ : BufTy).Contents (Elt F)),
    StableHlo.binary main_v8 main_v10 main_v11 (addf : (⟨S800000x32, .f32⟩ : BufTy).Contents (Elt F) → (⟨S800000x32, .f32⟩ : BufTy).Contents (Elt F) → (⟨S800000x32, .f32⟩ : BufTy).Contents (Elt F)),
    StableHlo.unary main_arg7 main_v12 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v12 main_v13 rfl shapeCasts_S1x32x32_S32x32,
    StableHlo.binary main_v7 main_v13 main_v14 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg8 main_v15 ((extractStridedSlice S1x32 ![0, 0] · slices_S4x32_S1x32_0_0) : (⟨S4x32, .f32⟩ : BufTy).Contents (Elt F) → (⟨S1x32, .f32⟩ : BufTy).Contents (Elt F)),
    StableHlo.reshape main_v15 main_v16 rfl shapeCasts_S1x32_S32,
    StableHlo.unary main_v16 main_v17 (broadcastInDim S1x32 ![1] bcast_S32_S1x32_1 : (⟨S32, .f32⟩ : BufTy).Contents (Elt F) → (⟨S1x32, .f32⟩ : BufTy).Contents (Elt F)),
    StableHlo.unary main_v17 main_v18 (broadcastInDim S100000x32 ![0, 1] bcast_S1x32_S100000x32_0_1 : (⟨S1x32, .f32⟩ : BufTy).Contents (Elt F) → (⟨S100000x32, .f32⟩ : BufTy).Contents (Elt F)),
    StableHlo.binary main_v14 main_v18 main_v19 (addf : (⟨S100000x32, .f32⟩ : BufTy).Contents (Elt F) → (⟨S100000x32, .f32⟩ : BufTy).Contents (Elt F) → (⟨S100000x32, .f32⟩ : BufTy).Contents (Elt F)),
    StableHlo.unary main_arg9 main_v20 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v20 main_v21 rfl shapeCasts_S1x32x32_S32x32,
    StableHlo.binary main_v7 main_v21 main_v22 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg10 main_v23 ((extractStridedSlice S1x32 ![0, 0] · slices_S4x32_S1x32_0_0) : (⟨S4x32, .f32⟩ : BufTy).Contents (Elt F) → (⟨S1x32, .f32⟩ : BufTy).Contents (Elt F)),
    StableHlo.reshape main_v23 main_v24 rfl shapeCasts_S1x32_S32,
    StableHlo.unary main_v24 main_v25 (broadcastInDim S1x32 ![1] bcast_S32_S1x32_1 : (⟨S32, .f32⟩ : BufTy).Contents (Elt F) → (⟨S1x32, .f32⟩ : BufTy).Contents (Elt F)),
    StableHlo.unary main_v25 main_v26 (broadcastInDim S100000x32 ![0, 1] bcast_S1x32_S100000x32_0_1 : (⟨S1x32, .f32⟩ : BufTy).Contents (Elt F) → (⟨S100000x32, .f32⟩ : BufTy).Contents (Elt F)),
    StableHlo.binary main_v22 main_v26 main_v27 (addf : (⟨S100000x32, .f32⟩ : BufTy).Contents (Elt F) → (⟨S100000x32, .f32⟩ : BufTy).Contents (Elt F) → (⟨S100000x32, .f32⟩ : BufTy).Contents (Elt F)),
    StableHlo.unary main_arg11 main_v28 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v28 main_v29 rfl shapeCasts_S1x32x32_S32x32,
    StableHlo.binary main_v11 main_v29 main_v30 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    StableHlo.unary main_arg12 main_v31 ((extractStridedSlice S1x32 ![0, 0] · slices_S4x32_S1x32_0_0) : (⟨S4x32, .f32⟩ : BufTy).Contents (Elt F) → (⟨S1x32, .f32⟩ : BufTy).Contents (Elt F)),
    StableHlo.reshape main_v31 main_v32 rfl shapeCasts_S1x32_S32,
    StableHlo.unary main_v32 main_v33 (broadcastInDim S1x32 ![1] bcast_S32_S1x32_1 : (⟨S32, .f32⟩ : BufTy).Contents (Elt F) → (⟨S1x32, .f32⟩ : BufTy).Contents (Elt F)),
    StableHlo.unary main_v33 main_v34 (broadcastInDim S800000x32 ![0, 1] bcast_S1x32_S800000x32_0_1 : (⟨S1x32, .f32⟩ : BufTy).Contents (Elt F) → (⟨S800000x32, .f32⟩ : BufTy).Contents (Elt F)),
    StableHlo.binary main_v30 main_v34 main_v35 (addf : (⟨S800000x32, .f32⟩ : BufTy).Contents (Elt F) → (⟨S800000x32, .f32⟩ : BufTy).Contents (Elt F) → (⟨S800000x32, .f32⟩ : BufTy).Contents (Elt F)),
    StableHlo.unary main_arg13 main_v36 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v36 main_v37 rfl shapeCasts_S1x32x32_S32x32,
    StableHlo.binary main_v7 main_v37 main_v38 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg14 main_v39 ((extractStridedSlice S1x32 ![0, 0] · slices_S4x32_S1x32_0_0) : (⟨S4x32, .f32⟩ : BufTy).Contents (Elt F) → (⟨S1x32, .f32⟩ : BufTy).Contents (Elt F)),
    StableHlo.reshape main_v39 main_v40 rfl shapeCasts_S1x32_S32,
    StableHlo.unary main_v40 main_v41 (broadcastInDim S1x32 ![1] bcast_S32_S1x32_1 : (⟨S32, .f32⟩ : BufTy).Contents (Elt F) → (⟨S1x32, .f32⟩ : BufTy).Contents (Elt F)),
    StableHlo.unary main_v41 main_v42 (broadcastInDim S100000x32 ![0, 1] bcast_S1x32_S100000x32_0_1 : (⟨S1x32, .f32⟩ : BufTy).Contents (Elt F) → (⟨S100000x32, .f32⟩ : BufTy).Contents (Elt F)),
    StableHlo.binary main_v38 main_v42 main_v43 (addf : (⟨S100000x32, .f32⟩ : BufTy).Contents (Elt F) → (⟨S100000x32, .f32⟩ : BufTy).Contents (Elt F) → (⟨S100000x32, .f32⟩ : BufTy).Contents (Elt F)),
    StableHlo.unary main_arg15 main_v44 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v44 main_v45 rfl shapeCasts_S1x32x32_S32x32,
    StableHlo.binary main_v7 main_v45 main_v46 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg16 main_v47 ((extractStridedSlice S1x32 ![0, 0] · slices_S4x32_S1x32_0_0) : (⟨S4x32, .f32⟩ : BufTy).Contents (Elt F) → (⟨S1x32, .f32⟩ : BufTy).Contents (Elt F)),
    StableHlo.reshape main_v47 main_v48 rfl shapeCasts_S1x32_S32,
    StableHlo.unary main_v48 main_v49 (broadcastInDim S1x32 ![1] bcast_S32_S1x32_1 : (⟨S32, .f32⟩ : BufTy).Contents (Elt F) → (⟨S1x32, .f32⟩ : BufTy).Contents (Elt F)),
    StableHlo.unary main_v49 main_v50 (broadcastInDim S100000x32 ![0, 1] bcast_S1x32_S100000x32_0_1 : (⟨S1x32, .f32⟩ : BufTy).Contents (Elt F) → (⟨S100000x32, .f32⟩ : BufTy).Contents (Elt F)),
    StableHlo.binary main_v46 main_v50 main_v51 (addf : (⟨S100000x32, .f32⟩ : BufTy).Contents (Elt F) → (⟨S100000x32, .f32⟩ : BufTy).Contents (Elt F) → (⟨S100000x32, .f32⟩ : BufTy).Contents (Elt F)),
    StableHlo.nullary main_c (constantI S_ 32 0#32),
    StableHlo.unary main_c main_v52 (broadcastInDim S800000 ![] bcast_S_S800000 : (⟨S_, .i32⟩ : BufTy).Contents (Elt F) → (⟨S800000, .i32⟩ : BufTy).Contents (Elt F)),
    StableHlo.binary main_v3 main_v52 main_v53 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v54 (broadcastInDim S800000 ![] bcast_S_S800000 : (⟨S_, .i32⟩ : BufTy).Contents (Elt F) → (⟨S800000, .i32⟩ : BufTy).Contents (Elt F)),
    StableHlo.binary main_v3 main_v54 main_v55 (addi : (⟨S800000, .i32⟩ : BufTy).Contents (Elt F) → (⟨S800000, .i32⟩ : BufTy).Contents (Elt F) → (⟨S800000, .i32⟩ : BufTy).Contents (Elt F)),
    StableHlo.ternary main_v53 main_v55 main_v3 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v56 main_v57 (broadcastInDim S800000x1 ![0] bcast_S800000_S800000x1_0 : (⟨S800000, .i32⟩ : BufTy).Contents (Elt F) → (⟨S800000x1, .i32⟩ : BufTy).Contents (Elt F)) ]

/-- The references the window's operations write, in order. -/
abbrev ops0_W : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_c, main_v52, main_v53, main_c_0, main_v54, main_v55, main_v56, main_v57]

/-- The window is that straight line: the callees' definitions unfolded at their calls and the records at their
    fields, both sides are one chain of `hlo` steps. -/
theorem main_part0_eq (c : Dev nD) : main_part0 (F := F) c = StableHlo.seq ops0 := rfl

/-- Every operation touches TensorCore buffers only. -/
theorem ops0_sub : (ops0 : List (HloOp τ sig (Elt F))).Forall fun op => op.bufs ⊆ StableHlo.tcRefs τ sig :=
  ⟨unary_bufs_sub .., reshape_bufs_sub .., unary_bufs_sub .., reshape_bufs_sub .., binary_bufs_sub .., unary_bufs_sub .., unary_bufs_sub .., binary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

/-- No operation leaves its result undetermined: each is one of the builders that compute it. -/
theorem ops0_fresh : ∀ op ∈ (ops0 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation writes one reference (its builder's written set is that singleton), and it is in `ops0_W`. -/
theorem ops0_writes : (ops0 : List (HloOp τ sig (Elt F))).Forall fun op =>
    op.writes ⊆ (ops0_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.RefRun

end
-- ==== Proof.RefOps1.lean ====
import proofs.«425355_j88287347737110_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The 81 operations of @main's window 1 (60 statements), in order: a call contributes its
    callee's operations over that call's record, a nested call's over the nested record. -/
abbrev ops1 : List (HloOp τ sig (Elt F)) :=
  [ StableHlo.binary main_v19 main_v57 main_v58 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nullary main_c_1 (constantI S_ 32 0#32),
    StableHlo.unary main_c_1 main_v59 (broadcastInDim S800000 ![] bcast_S_S800000 : (⟨S_, .i32⟩ : BufTy).Contents (Elt F) → (⟨S800000, .i32⟩ : BufTy).Contents (Elt F)),
    StableHlo.binary main_v1 main_v59 main_v60 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 100000#32),
    StableHlo.unary main_c_2 main_v61 (broadcastInDim S800000 ![] bcast_S_S800000 : (⟨S_, .i32⟩ : BufTy).Contents (Elt F) → (⟨S800000, .i32⟩ : BufTy).Contents (Elt F)),
    StableHlo.binary main_v1 main_v61 main_v62 (addi : (⟨S800000, .i32⟩ : BufTy).Contents (Elt F) → (⟨S800000, .i32⟩ : BufTy).Contents (Elt F) → (⟨S800000, .i32⟩ : BufTy).Contents (Elt F)),
    StableHlo.ternary main_v60 main_v62 main_v1 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v63 main_v64 (broadcastInDim S800000x1 ![0] bcast_S800000_S800000x1_0 : (⟨S800000, .i32⟩ : BufTy).Contents (Elt F) → (⟨S800000x1, .i32⟩ : BufTy).Contents (Elt F)),
    StableHlo.binary main_v27 main_v64 main_v65 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v58 main_v65 main_v66 (addf : (⟨S800000x32, .f32⟩ : BufTy).Contents (Elt F) → (⟨S800000x32, .f32⟩ : BufTy).Contents (Elt F) → (⟨S800000x32, .f32⟩ : BufTy).Contents (Elt F)),
    StableHlo.binary main_v66 main_v35 main_v67 (addf : (⟨S800000x32, .f32⟩ : BufTy).Contents (Elt F) → (⟨S800000x32, .f32⟩ : BufTy).Contents (Elt F) → (⟨S800000x32, .f32⟩ : BufTy).Contents (Elt F)),
    StableHlo.unary main_v67 main_v68 (Host.negf : (⟨S800000x32, .f32⟩ : BufTy).Contents (Elt F) → (⟨S800000x32, .f32⟩ : BufTy).Contents (Elt F)),
    StableHlo.unary main_v68 main_v69 (Host.exp : (⟨S800000x32, .f32⟩ : BufTy).Contents (Elt F) → (⟨S800000x32, .f32⟩ : BufTy).Contents (Elt F)),
    StableHlo.nullary main_cst (constant S_ .f32 0x3F800000#32),
    StableHlo.unary main_cst main_v70 (broadcastInDim S800000x32 ![] bcast_S_S800000x32 : (⟨S_, .f32⟩ : BufTy).Contents (Elt F) → (⟨S800000x32, .f32⟩ : BufTy).Contents (Elt F)),
    StableHlo.binary main_v70 main_v69 main_v71 (addf : (⟨S800000x32, .f32⟩ : BufTy).Contents (Elt F) → (⟨S800000x32, .f32⟩ : BufTy).Contents (Elt F) → (⟨S800000x32, .f32⟩ : BufTy).Contents (Elt F)),
    StableHlo.nullary main_cst_3 (constant S_ .f32 0x3F800000#32),
    StableHlo.unary main_cst_3 main_v72 (broadcastInDim S800000x32 ![] bcast_S_S800000x32 : (⟨S_, .f32⟩ : BufTy).Contents (Elt F) → (⟨S800000x32, .f32⟩ : BufTy).Contents (Elt F)),
    StableHlo.binary main_v72 main_v71 main_v73 (Host.divf : (⟨S800000x32, .f32⟩ : BufTy).Contents (Elt F) → (⟨S800000x32, .f32⟩ : BufTy).Contents (Elt F) → (⟨S800000x32, .f32⟩ : BufTy).Contents (Elt F)),
    StableHlo.nullary main_c_4 (constantI S_ 32 0#32),
    StableHlo.unary main_c_4 main_v74 (broadcastInDim S800000 ![] bcast_S_S800000 : (⟨S_, .i32⟩ : BufTy).Contents (Elt F) → (⟨S800000, .i32⟩ : BufTy).Contents (Elt F)),
    StableHlo.binary main_v1 main_v74 main_v75 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 100000#32),
    StableHlo.unary main_c_5 main_v76 (broadcastInDim S800000 ![] bcast_S_S800000 : (⟨S_, .i32⟩ : BufTy).Contents (Elt F) → (⟨S800000, .i32⟩ : BufTy).Contents (Elt F)),
    StableHlo.binary main_v1 main_v76 main_v77 (addi : (⟨S800000, .i32⟩ : BufTy).Contents (Elt F) → (⟨S800000, .i32⟩ : BufTy).Contents (Elt F) → (⟨S800000, .i32⟩ : BufTy).Contents (Elt F)),
    StableHlo.ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v78 main_v79 (broadcastInDim S800000x1 ![0] bcast_S800000_S800000x1_0 : (⟨S800000, .i32⟩ : BufTy).Contents (Elt F) → (⟨S800000x1, .i32⟩ : BufTy).Contents (Elt F)),
    StableHlo.binary main_v51 main_v79 main_v80 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v73 main_v80 main_v81 (mulf : (⟨S800000x32, .f32⟩ : BufTy).Contents (Elt F) → (⟨S800000x32, .f32⟩ : BufTy).Contents (Elt F) → (⟨S800000x32, .f32⟩ : BufTy).Contents (Elt F)),
    StableHlo.nullary main_cst_6 (constant S_ .f32 0x00000000#32),
    StableHlo.unary main_cst_6 main_v82 (broadcastInDim S100000x32 ![] bcast_S_S100000x32 : (⟨S_, .f32⟩ : BufTy).Contents (Elt F) → (⟨S100000x32, .f32⟩ : BufTy).Contents (Elt F)),
    StableHlo.unary main_v3 main_v83 (broadcastInDim S800000x1 ![0] bcast_S800000_S800000x1_0 : (⟨S800000, .i32⟩ : BufTy).Contents (Elt F) → (⟨S800000x1, .i32⟩ : BufTy).Contents (Elt F)),
    StableHlo.ternary main_v82 main_v83 main_v81 main_v84 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_7 (constant S_ .f32 0x00000000#32),
    StableHlo.unary main_cst_7 main_v85 (broadcastInDim S100000x32 ![] bcast_S_S100000x32 : (⟨S_, .f32⟩ : BufTy).Contents (Elt F) → (⟨S100000x32, .f32⟩ : BufTy).Contents (Elt F)),
    StableHlo.unary main_v3 main_v86 (broadcastInDim S800000x1 ![0] bcast_S800000_S800000x1_0 : (⟨S800000, .i32⟩ : BufTy).Contents (Elt F) → (⟨S800000x1, .i32⟩ : BufTy).Contents (Elt F)),
    StableHlo.ternary main_v85 main_v86 main_v73 main_v87 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_8 (constant S_ .f32 0x358637BD#32),
    StableHlo.unary main_cst_8 main_v88 (broadcastInDim S100000x32 ![] bcast_S_S100000x32 : (⟨S_, .f32⟩ : BufTy).Contents (Elt F) → (⟨S100000x32, .f32⟩ : BufTy).Contents (Elt F)),
    StableHlo.binary main_v87 main_v88 main_v89 (addf : (⟨S100000x32, .f32⟩ : BufTy).Contents (Elt F) → (⟨S100000x32, .f32⟩ : BufTy).Contents (Elt F) → (⟨S100000x32, .f32⟩ : BufTy).Contents (Elt F)),
    StableHlo.binary main_v84 main_v89 main_v90 (Host.divf : (⟨S100000x32, .f32⟩ : BufTy).Contents (Elt F) → (⟨S100000x32, .f32⟩ : BufTy).Contents (Elt F) → (⟨S100000x32, .f32⟩ : BufTy).Contents (Elt F)),
    StableHlo.binary main_v43 main_v90 main_v91 (addf : (⟨S100000x32, .f32⟩ : BufTy).Contents (Elt F) → (⟨S100000x32, .f32⟩ : BufTy).Contents (Elt F) → (⟨S100000x32, .f32⟩ : BufTy).Contents (Elt F)),
    StableHlo.unary main_arg17 main_v92 ((extractStridedSlice S1x32 ![0, 0] · slices_S4x32_S1x32_0_0) : (⟨S4x32, .f32⟩ : BufTy).Contents (Elt F) → (⟨S1x32, .f32⟩ : BufTy).Contents (Elt F)),
    StableHlo.reshape main_v92 main_v93 rfl shapeCasts_S1x32_S32,
    StableHlo.unary main_arg18 main_v94 ((extractStridedSlice S1x32 ![0, 0] · slices_S4x32_S1x32_0_0) : (⟨S4x32, .f32⟩ : BufTy).Contents (Elt F) → (⟨S1x32, .f32⟩ : BufTy).Contents (Elt F)),
    StableHlo.reshape main_v94 main_v95 rfl shapeCasts_S1x32_S32,
    StableHlo.nullary main_cst_9 (constant S_ .f32 0x00000000#32),
    StableHlo.binary main_v91 main_cst_9 main_v96 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_10 (constant S_ .f32 0x47C35000#32),
    StableHlo.unary main_cst_10 main_v97 (broadcastInDim S32 ![] bcast_S_S32 : (⟨S_, .f32⟩ : BufTy).Contents (Elt F) → (⟨S32, .f32⟩ : BufTy).Contents (Elt F)),
    StableHlo.binary main_v96 main_v97 main_v98 (Host.divf : (⟨S32, .f32⟩ : BufTy).Contents (Elt F) → (⟨S32, .f32⟩ : BufTy).Contents (Elt F) → (⟨S32, .f32⟩ : BufTy).Contents (Elt F)),
    StableHlo.nullary main_c_11 (constantI S_ 32 0#32),
    StableHlo.TRef.nullary main_call0.cst (constant S_ .f32 0x00000000#32),
    StableHlo.TRef.binary (.of main_v91) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (.of main_v91) main_call0.v4 main_call0.v5 subf,
    StableHlo.TRef.binary main_call0.v5 main_call0.v5 main_call0.v6 mulf,
    StableHlo.TRef.unary (.of main_c_11) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v98 main_v100 (broadcastInDim S1x32 ![1] bcast_S32_S1x32_1 : (⟨S32, .f32⟩ : BufTy).Contents (Elt F) → (⟨S1x32, .f32⟩ : BufTy).Contents (Elt F)),
    StableHlo.unary main_v100 main_v101 (broadcastInDim S100000x32 ![0, 1] bcast_S1x32_S100000x32_0_1 : (⟨S1x32, .f32⟩ : BufTy).Contents (Elt F) → (⟨S100000x32, .f32⟩ : BufTy).Contents (Elt F)),
    StableHlo.binary main_v91 main_v101 main_v102 (subf : (⟨S100000x32, .f32⟩ : BufTy).Contents (Elt F) → (⟨S100000x32, .f32⟩ : BufTy).Contents (Elt F) → (⟨S100000x32, .f32⟩ : BufTy).Contents (Elt F)),
    StableHlo.nullary main_cst_12 (constant S_ .f32 0x3727C5AC#32),
    StableHlo.unary main_cst_12 main_v103 (broadcastInDim S32 ![] bcast_S_S32 : (⟨S_, .f32⟩ : BufTy).Contents (Elt F) → (⟨S32, .f32⟩ : BufTy).Contents (Elt F)),
    StableHlo.binary main_v99 main_v103 main_v104 (addf : (⟨S32, .f32⟩ : BufTy).Contents (Elt F) → (⟨S32, .f32⟩ : BufTy).Contents (Elt F) → (⟨S32, .f32⟩ : BufTy).Contents (Elt F)) ]

/-- The references the window's operations write, in order. -/
abbrev ops1_W : List (Ref sig .tc) :=
  [main_v58, main_c_1, main_v59, main_v60, main_c_2, main_v61, main_v62, main_v63, main_v64, main_v65, main_v66, main_v67, main_v68, main_v69, main_cst, main_v70, main_v71, main_cst_3, main_v72, main_v73, main_c_4, main_v74, main_v75, main_c_5, main_v76, main_v77, main_v78, main_v79, main_v80, main_v81, main_cst_6, main_v82, main_v83, main_v84, main_cst_7, main_v85, main_v86, main_v87, main_cst_8, main_v88, main_v89, main_v90, main_v91, main_v92, main_v93, main_v94, main_v95, main_cst_9, main_v96, main_cst_10, main_v97, main_v98, main_c_11, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v100, main_v101, main_v102, main_cst_12, main_v103, main_v104]

/-- The window is that straight line: the callees' definitions unfolded at their calls and the records at their
    fields, both sides are one chain of `hlo` steps. -/
theorem main_part1_eq (c : Dev nD) : main_part1 (F := F) c = StableHlo.seq ops1 := rfl

/-- Every operation touches TensorCore buffers only. -/
theorem ops1_sub : (ops1 : List (HloOp τ sig (Elt F))).Forall fun op => op.bufs ⊆ StableHlo.tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

/-- No operation leaves its result undetermined: each is one of the builders that compute it. -/
theorem ops1_fresh : ∀ op ∈ (ops1 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation writes one reference (its builder's written set is that singleton), and it is in `ops1_W`. -/
theorem ops1_writes : (ops1 : List (HloOp τ sig (Elt F))).Forall fun op =>
    op.writes ⊆ (ops1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.RefRun

end
-- ==== Proof.RefOps2.lean ====
import proofs.«425355_j88287347737110_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The 85 operations of @main's window 2 (60 statements), in order: a call contributes its
    callee's operations over that call's record, a nested call's over the nested record. -/
abbrev ops2 : List (HloOp τ sig (Elt F)) :=
  [ StableHlo.unary main_v104 main_v105 (Host.rsqrt : (⟨S32, .f32⟩ : BufTy).Contents (Elt F) → (⟨S32, .f32⟩ : BufTy).Contents (Elt F)),
    StableHlo.unary main_v105 main_v106 (broadcastInDim S1x32 ![1] bcast_S32_S1x32_1 : (⟨S32, .f32⟩ : BufTy).Contents (Elt F) → (⟨S1x32, .f32⟩ : BufTy).Contents (Elt F)),
    StableHlo.unary main_v106 main_v107 (broadcastInDim S100000x32 ![0, 1] bcast_S1x32_S100000x32_0_1 : (⟨S1x32, .f32⟩ : BufTy).Contents (Elt F) → (⟨S100000x32, .f32⟩ : BufTy).Contents (Elt F)),
    StableHlo.binary main_v102 main_v107 main_v108 (mulf : (⟨S100000x32, .f32⟩ : BufTy).Contents (Elt F) → (⟨S100000x32, .f32⟩ : BufTy).Contents (Elt F) → (⟨S100000x32, .f32⟩ : BufTy).Contents (Elt F)),
    StableHlo.unary main_v93 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S100000x32 ![0, 1] bcast_S1x32_S100000x32_0_1 : (⟨S1x32, .f32⟩ : BufTy).Contents (Elt F) → (⟨S100000x32, .f32⟩ : BufTy).Contents (Elt F)),
    StableHlo.binary main_v108 main_v110 main_v111 (mulf : (⟨S100000x32, .f32⟩ : BufTy).Contents (Elt F) → (⟨S100000x32, .f32⟩ : BufTy).Contents (Elt F) → (⟨S100000x32, .f32⟩ : BufTy).Contents (Elt F)),
    StableHlo.unary main_v95 main_v112 (broadcastInDim S1x32 ![1] bcast_S32_S1x32_1 : (⟨S32, .f32⟩ : BufTy).Contents (Elt F) → (⟨S1x32, .f32⟩ : BufTy).Contents (Elt F)),
    StableHlo.unary main_v112 main_v113 (broadcastInDim S100000x32 ![0, 1] bcast_S1x32_S100000x32_0_1 : (⟨S1x32, .f32⟩ : BufTy).Contents (Elt F) → (⟨S100000x32, .f32⟩ : BufTy).Contents (Elt F)),
    StableHlo.binary main_v111 main_v113 main_v114 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (.of main_v114) main_call1.v0 main_call1.v1 maximumf,
    StableHlo.binary main_v7 main_v115 main_v116 (addf : (⟨S100000x32, .f32⟩ : BufTy).Contents (Elt F) → (⟨S100000x32, .f32⟩ : BufTy).Contents (Elt F) → (⟨S100000x32, .f32⟩ : BufTy).Contents (Elt F)),
    StableHlo.unary main_arg19 main_v117 ((extractStridedSlice S1x32 ![0, 0] · slices_S4x32_S1x32_0_0) : (⟨S4x32, .f32⟩ : BufTy).Contents (Elt F) → (⟨S1x32, .f32⟩ : BufTy).Contents (Elt F)),
    StableHlo.reshape main_v117 main_v118 rfl shapeCasts_S1x32_S32,
    StableHlo.unary main_arg20 main_v119 ((extractStridedSlice S1x32 ![0, 0] · slices_S4x32_S1x32_0_0) : (⟨S4x32, .f32⟩ : BufTy).Contents (Elt F) → (⟨S1x32, .f32⟩ : BufTy).Contents (Elt F)),
    StableHlo.reshape main_v119 main_v120 rfl shapeCasts_S1x32_S32,
    StableHlo.nullary main_cst_13 (constant S_ .f32 0x00000000#32),
    StableHlo.binary main_v67 main_cst_13 main_v121 ((fun x v => Host.reduceAdd x v reducesTo_S800000x32_S32_d0 h_S_) : (⟨S800000x32, .f32⟩ : BufTy).Contents (Elt F) → (⟨S_, .f32⟩ : BufTy).Contents (Elt F) → (⟨S32, .f32⟩ : BufTy).Contents (Elt F)),
    StableHlo.nullary main_cst_14 (constant S_ .f32 0x49435000#32),
    StableHlo.unary main_cst_14 main_v122 (broadcastInDim S32 ![] bcast_S_S32 : (⟨S_, .f32⟩ : BufTy).Contents (Elt F) → (⟨S32, .f32⟩ : BufTy).Contents (Elt F)),
    StableHlo.binary main_v121 main_v122 main_v123 (Host.divf : (⟨S32, .f32⟩ : BufTy).Contents (Elt F) → (⟨S32, .f32⟩ : BufTy).Contents (Elt F) → (⟨S32, .f32⟩ : BufTy).Contents (Elt F)),
    StableHlo.nullary main_c_15 (constantI S_ 32 0#32),
    StableHlo.TRef.nullary main_call2.cst (constant S_ .f32 0x00000000#32),
    StableHlo.TRef.binary (.of main_v67) main_call2.cst main_call2.v0 (fun x v => Host.reduceAdd x v reducesTo_S800000x32_S32_d0 h_S_),
    StableHlo.TRef.unary main_call2.v0 main_call2.v1 (broadcastInDim S1x32 ![1] bcast_S32_S1x32_1),
    StableHlo.TRef.nullary main_call2.cst_0 (constant S_ .f32 0x49435000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S800000x32 ![0, 1] bcast_S1x32_S800000x32_0_1),
    StableHlo.TRef.binary (.of main_v67) main_call2.v4 main_call2.v5 subf,
    StableHlo.TRef.binary main_call2.v5 main_call2.v5 main_call2.v6 mulf,
    StableHlo.TRef.unary (.of main_c_15) main_call2.v7 (sitofp .f32),
    StableHlo.TRef.nullary main_call2.cst_1 (constant S_ .f32 0x49435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S800000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v123 main_v125 (broadcastInDim S1x32 ![1] bcast_S32_S1x32_1 : (⟨S32, .f32⟩ : BufTy).Contents (Elt F) → (⟨S1x32, .f32⟩ : BufTy).Contents (Elt F)),
    StableHlo.unary main_v125 main_v126 (broadcastInDim S800000x32 ![0, 1] bcast_S1x32_S800000x32_0_1 : (⟨S1x32, .f32⟩ : BufTy).Contents (Elt F) → (⟨S800000x32, .f32⟩ : BufTy).Contents (Elt F)),
    StableHlo.binary main_v67 main_v126 main_v127 (subf : (⟨S800000x32, .f32⟩ : BufTy).Contents (Elt F) → (⟨S800000x32, .f32⟩ : BufTy).Contents (Elt F) → (⟨S800000x32, .f32⟩ : BufTy).Contents (Elt F)),
    StableHlo.nullary main_cst_16 (constant S_ .f32 0x3727C5AC#32),
    StableHlo.unary main_cst_16 main_v128 (broadcastInDim S32 ![] bcast_S_S32 : (⟨S_, .f32⟩ : BufTy).Contents (Elt F) → (⟨S32, .f32⟩ : BufTy).Contents (Elt F)),
    StableHlo.binary main_v124 main_v128 main_v129 (addf : (⟨S32, .f32⟩ : BufTy).Contents (Elt F) → (⟨S32, .f32⟩ : BufTy).Contents (Elt F) → (⟨S32, .f32⟩ : BufTy).Contents (Elt F)),
    StableHlo.unary main_v129 main_v130 (Host.rsqrt : (⟨S32, .f32⟩ : BufTy).Contents (Elt F) → (⟨S32, .f32⟩ : BufTy).Contents (Elt F)),
    StableHlo.unary main_v130 main_v131 (broadcastInDim S1x32 ![1] bcast_S32_S1x32_1 : (⟨S32, .f32⟩ : BufTy).Contents (Elt F) → (⟨S1x32, .f32⟩ : BufTy).Contents (Elt F)),
    StableHlo.unary main_v131 main_v132 (broadcastInDim S800000x32 ![0, 1] bcast_S1x32_S800000x32_0_1 : (⟨S1x32, .f32⟩ : BufTy).Contents (Elt F) → (⟨S800000x32, .f32⟩ : BufTy).Contents (Elt F)),
    StableHlo.binary main_v127 main_v132 main_v133 (mulf : (⟨S800000x32, .f32⟩ : BufTy).Contents (Elt F) → (⟨S800000x32, .f32⟩ : BufTy).Contents (Elt F) → (⟨S800000x32, .f32⟩ : BufTy).Contents (Elt F)),
    StableHlo.unary main_v118 main_v134 (broadcastInDim S1x32 ![1] bcast_S32_S1x32_1 : (⟨S32, .f32⟩ : BufTy).Contents (Elt F) → (⟨S1x32, .f32⟩ : BufTy).Contents (Elt F)),
    StableHlo.unary main_v134 main_v135 (broadcastInDim S800000x32 ![0, 1] bcast_S1x32_S800000x32_0_1 : (⟨S1x32, .f32⟩ : BufTy).Contents (Elt F) → (⟨S800000x32, .f32⟩ : BufTy).Contents (Elt F)),
    StableHlo.binary main_v133 main_v135 main_v136 (mulf : (⟨S800000x32, .f32⟩ : BufTy).Contents (Elt F) → (⟨S800000x32, .f32⟩ : BufTy).Contents (Elt F) → (⟨S800000x32, .f32⟩ : BufTy).Contents (Elt F)),
    StableHlo.unary main_v120 main_v137 (broadcastInDim S1x32 ![1] bcast_S32_S1x32_1 : (⟨S32, .f32⟩ : BufTy).Contents (Elt F) → (⟨S1x32, .f32⟩ : BufTy).Contents (Elt F)),
    StableHlo.unary main_v137 main_v138 (broadcastInDim S800000x32 ![0, 1] bcast_S1x32_S800000x32_0_1 : (⟨S1x32, .f32⟩ : BufTy).Contents (Elt F) → (⟨S800000x32, .f32⟩ : BufTy).Contents (Elt F)),
    StableHlo.binary main_v136 main_v138 main_v139 (addf : (⟨S800000x32, .f32⟩ : BufTy).Contents (Elt F) → (⟨S800000x32, .f32⟩ : BufTy).Contents (Elt F) → (⟨S800000x32, .f32⟩ : BufTy).Contents (Elt F)),
    StableHlo.TRef.nullary main_call3.cst (constant S_ .f32 0x00000000#32),
    StableHlo.TRef.unary main_call3.cst main_call3.v0 (broadcastInDim S800000x32 ![] bcast_S_S800000x32),
    StableHlo.TRef.binary (.of main_v139) main_call3.v0 main_call3.v1 maximumf,
    StableHlo.binary main_v11 main_v140 main_v141 (addf : (⟨S800000x32, .f32⟩ : BufTy).Contents (Elt F) → (⟨S800000x32, .f32⟩ : BufTy).Contents (Elt F) → (⟨S800000x32, .f32⟩ : BufTy).Contents (Elt F)),
    StableHlo.unary main_arg7 main_v142 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v142 main_v143 rfl shapeCasts_S1x32x32_S32x32,
    StableHlo.binary main_v116 main_v143 main_v144 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg8 main_v145 ((extractStridedSlice S1x32 ![1, 0] · slices_S4x32_S1x32_1_0) : (⟨S4x32, .f32⟩ : BufTy).Contents (Elt F) → (⟨S1x32, .f32⟩ : BufTy).Contents (Elt F)),
    StableHlo.reshape main_v145 main_v146 rfl shapeCasts_S1x32_S32,
    StableHlo.unary main_v146 main_v147 (broadcastInDim S1x32 ![1] bcast_S32_S1x32_1 : (⟨S32, .f32⟩ : BufTy).Contents (Elt F) → (⟨S1x32, .f32⟩ : BufTy).Contents (Elt F)),
    StableHlo.unary main_v147 main_v148 (broadcastInDim S100000x32 ![0, 1] bcast_S1x32_S100000x32_0_1 : (⟨S1x32, .f32⟩ : BufTy).Contents (Elt F) → (⟨S100000x32, .f32⟩ : BufTy).Contents (Elt F)),
    StableHlo.binary main_v144 main_v148 main_v149 (addf : (⟨S100000x32, .f32⟩ : BufTy).Contents (Elt F) → (⟨S100000x32, .f32⟩ : BufTy).Contents (Elt F) → (⟨S100000x32, .f32⟩ : BufTy).Contents (Elt F)),
    StableHlo.unary main_arg9 main_v150 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v150 main_v151 rfl shapeCasts_S1x32x32_S32x32,
    StableHlo.binary main_v116 main_v151 main_v152 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg10 main_v153 ((extractStridedSlice S1x32 ![1, 0] · slices_S4x32_S1x32_1_0) : (⟨S4x32, .f32⟩ : BufTy).Contents (Elt F) → (⟨S1x32, .f32⟩ : BufTy).Contents (Elt F)),
    StableHlo.reshape main_v153 main_v154 rfl shapeCasts_S1x32_S32,
    StableHlo.unary main_v154 main_v155 (broadcastInDim S1x32 ![1] bcast_S32_S1x32_1 : (⟨S32, .f32⟩ : BufTy).Contents (Elt F) → (⟨S1x32, .f32⟩ : BufTy).Contents (Elt F)),
    StableHlo.unary main_v155 main_v156 (broadcastInDim S100000x32 ![0, 1] bcast_S1x32_S100000x32_0_1 : (⟨S1x32, .f32⟩ : BufTy).Contents (Elt F) → (⟨S100000x32, .f32⟩ : BufTy).Contents (Elt F)),
    StableHlo.binary main_v152 main_v156 main_v157 (addf : (⟨S100000x32, .f32⟩ : BufTy).Contents (Elt F) → (⟨S100000x32, .f32⟩ : BufTy).Contents (Elt F) → (⟨S100000x32, .f32⟩ : BufTy).Contents (Elt F)),
    StableHlo.unary main_arg11 main_v158 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v158 main_v159 rfl shapeCasts_S1x32x32_S32x32,
    StableHlo.binary main_v141 main_v159 main_v160 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)) ]

/-- The references the window's operations write, in order. -/
abbrev ops2_W : List (Ref sig .tc) :=
  [main_v105, main_v106, main_v107, main_v108, main_v109, main_v110, main_v111, main_v112, main_v113, main_v114, main_call1.cst.ref, main_call1.v0.ref, main_call1.v1.ref, main_v116, main_v117, main_v118, main_v119, main_v120, main_cst_13, main_v121, main_cst_14, main_v122, main_v123, main_c_15, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v125, main_v126, main_v127, main_cst_16, main_v128, main_v129, main_v130, main_v131, main_v132, main_v133, main_v134, main_v135, main_v136, main_v137, main_v138, main_v139, main_call3.cst.ref, main_call3.v0.ref, main_call3.v1.ref, main_v141, main_v142, main_v143, main_v144, main_v145, main_v146, main_v147, main_v148, main_v149, main_v150, main_v151, main_v152, main_v153, main_v154, main_v155, main_v156, main_v157, main_v158, main_v159, main_v160]

/-- The window is that straight line: the callees' definitions unfolded at their calls and the records at their
    fields, both sides are one chain of `hlo` steps. -/
theorem main_part2_eq (c : Dev nD) : main_part2 (F := F) c = StableHlo.seq ops2 := rfl

/-- Every operation touches TensorCore buffers only. -/
theorem ops2_sub : (ops2 : List (HloOp τ sig (Elt F))).Forall fun op => op.bufs ⊆ StableHlo.tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub ..⟩

/-- No operation leaves its result undetermined: each is one of the builders that compute it. -/
theorem ops2_fresh : ∀ op ∈ (ops2 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation writes one reference (its builder's written set is that singleton), and it is in `ops2_W`. -/
theorem ops2_writes : (ops2 : List (HloOp τ sig (Elt F))).Forall fun op =>
    op.writes ⊆ (ops2_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.RefRun

end
-- ==== Proof.RefOps3.lean ====
import proofs.«425355_j88287347737110_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The 60 operations of @main's window 3 (60 statements), in order: a call contributes its
    callee's operations over that call's record, a nested call's over the nested record. -/
abbrev ops3 : List (HloOp τ sig (Elt F)) :=
  [ StableHlo.unary main_arg12 main_v161 ((extractStridedSlice S1x32 ![1, 0] · slices_S4x32_S1x32_1_0) : (⟨S4x32, .f32⟩ : BufTy).Contents (Elt F) → (⟨S1x32, .f32⟩ : BufTy).Contents (Elt F)),
    StableHlo.reshape main_v161 main_v162 rfl shapeCasts_S1x32_S32,
    StableHlo.unary main_v162 main_v163 (broadcastInDim S1x32 ![1] bcast_S32_S1x32_1 : (⟨S32, .f32⟩ : BufTy).Contents (Elt F) → (⟨S1x32, .f32⟩ : BufTy).Contents (Elt F)),
    StableHlo.unary main_v163 main_v164 (broadcastInDim S800000x32 ![0, 1] bcast_S1x32_S800000x32_0_1 : (⟨S1x32, .f32⟩ : BufTy).Contents (Elt F) → (⟨S800000x32, .f32⟩ : BufTy).Contents (Elt F)),
    StableHlo.binary main_v160 main_v164 main_v165 (addf : (⟨S800000x32, .f32⟩ : BufTy).Contents (Elt F) → (⟨S800000x32, .f32⟩ : BufTy).Contents (Elt F) → (⟨S800000x32, .f32⟩ : BufTy).Contents (Elt F)),
    StableHlo.unary main_arg13 main_v166 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v166 main_v167 rfl shapeCasts_S1x32x32_S32x32,
    StableHlo.binary main_v116 main_v167 main_v168 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg14 main_v169 ((extractStridedSlice S1x32 ![1, 0] · slices_S4x32_S1x32_1_0) : (⟨S4x32, .f32⟩ : BufTy).Contents (Elt F) → (⟨S1x32, .f32⟩ : BufTy).Contents (Elt F)),
    StableHlo.reshape main_v169 main_v170 rfl shapeCasts_S1x32_S32,
    StableHlo.unary main_v170 main_v171 (broadcastInDim S1x32 ![1] bcast_S32_S1x32_1 : (⟨S32, .f32⟩ : BufTy).Contents (Elt F) → (⟨S1x32, .f32⟩ : BufTy).Contents (Elt F)),
    StableHlo.unary main_v171 main_v172 (broadcastInDim S100000x32 ![0, 1] bcast_S1x32_S100000x32_0_1 : (⟨S1x32, .f32⟩ : BufTy).Contents (Elt F) → (⟨S100000x32, .f32⟩ : BufTy).Contents (Elt F)),
    StableHlo.binary main_v168 main_v172 main_v173 (addf : (⟨S100000x32, .f32⟩ : BufTy).Contents (Elt F) → (⟨S100000x32, .f32⟩ : BufTy).Contents (Elt F) → (⟨S100000x32, .f32⟩ : BufTy).Contents (Elt F)),
    StableHlo.unary main_arg15 main_v174 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v174 main_v175 rfl shapeCasts_S1x32x32_S32x32,
    StableHlo.binary main_v116 main_v175 main_v176 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg16 main_v177 ((extractStridedSlice S1x32 ![1, 0] · slices_S4x32_S1x32_1_0) : (⟨S4x32, .f32⟩ : BufTy).Contents (Elt F) → (⟨S1x32, .f32⟩ : BufTy).Contents (Elt F)),
    StableHlo.reshape main_v177 main_v178 rfl shapeCasts_S1x32_S32,
    StableHlo.unary main_v178 main_v179 (broadcastInDim S1x32 ![1] bcast_S32_S1x32_1 : (⟨S32, .f32⟩ : BufTy).Contents (Elt F) → (⟨S1x32, .f32⟩ : BufTy).Contents (Elt F)),
    StableHlo.unary main_v179 main_v180 (broadcastInDim S100000x32 ![0, 1] bcast_S1x32_S100000x32_0_1 : (⟨S1x32, .f32⟩ : BufTy).Contents (Elt F) → (⟨S100000x32, .f32⟩ : BufTy).Contents (Elt F)),
    StableHlo.binary main_v176 main_v180 main_v181 (addf : (⟨S100000x32, .f32⟩ : BufTy).Contents (Elt F) → (⟨S100000x32, .f32⟩ : BufTy).Contents (Elt F) → (⟨S100000x32, .f32⟩ : BufTy).Contents (Elt F)),
    StableHlo.nullary main_c_17 (constantI S_ 32 0#32),
    StableHlo.unary main_c_17 main_v182 (broadcastInDim S800000 ![] bcast_S_S800000 : (⟨S_, .i32⟩ : BufTy).Contents (Elt F) → (⟨S800000, .i32⟩ : BufTy).Contents (Elt F)),
    StableHlo.binary main_v3 main_v182 main_v183 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 100000#32),
    StableHlo.unary main_c_18 main_v184 (broadcastInDim S800000 ![] bcast_S_S800000 : (⟨S_, .i32⟩ : BufTy).Contents (Elt F) → (⟨S800000, .i32⟩ : BufTy).Contents (Elt F)),
    StableHlo.binary main_v3 main_v184 main_v185 (addi : (⟨S800000, .i32⟩ : BufTy).Contents (Elt F) → (⟨S800000, .i32⟩ : BufTy).Contents (Elt F) → (⟨S800000, .i32⟩ : BufTy).Contents (Elt F)),
    StableHlo.ternary main_v183 main_v185 main_v3 main_v186 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v186 main_v187 (broadcastInDim S800000x1 ![0] bcast_S800000_S800000x1_0 : (⟨S800000, .i32⟩ : BufTy).Contents (Elt F) → (⟨S800000x1, .i32⟩ : BufTy).Contents (Elt F)),
    StableHlo.binary main_v149 main_v187 main_v188 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nullary main_c_19 (constantI S_ 32 0#32),
    StableHlo.unary main_c_19 main_v189 (broadcastInDim S800000 ![] bcast_S_S800000 : (⟨S_, .i32⟩ : BufTy).Contents (Elt F) → (⟨S800000, .i32⟩ : BufTy).Contents (Elt F)),
    StableHlo.binary main_v1 main_v189 main_v190 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 100000#32),
    StableHlo.unary main_c_20 main_v191 (broadcastInDim S800000 ![] bcast_S_S800000 : (⟨S_, .i32⟩ : BufTy).Contents (Elt F) → (⟨S800000, .i32⟩ : BufTy).Contents (Elt F)),
    StableHlo.binary main_v1 main_v191 main_v192 (addi : (⟨S800000, .i32⟩ : BufTy).Contents (Elt F) → (⟨S800000, .i32⟩ : BufTy).Contents (Elt F) → (⟨S800000, .i32⟩ : BufTy).Contents (Elt F)),
    StableHlo.ternary main_v190 main_v192 main_v1 main_v193 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v193 main_v194 (broadcastInDim S800000x1 ![0] bcast_S800000_S800000x1_0 : (⟨S800000, .i32⟩ : BufTy).Contents (Elt F) → (⟨S800000x1, .i32⟩ : BufTy).Contents (Elt F)),
    StableHlo.binary main_v157 main_v194 main_v195 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v188 main_v195 main_v196 (addf : (⟨S800000x32, .f32⟩ : BufTy).Contents (Elt F) → (⟨S800000x32, .f32⟩ : BufTy).Contents (Elt F) → (⟨S800000x32, .f32⟩ : BufTy).Contents (Elt F)),
    StableHlo.binary main_v196 main_v165 main_v197 (addf : (⟨S800000x32, .f32⟩ : BufTy).Contents (Elt F) → (⟨S800000x32, .f32⟩ : BufTy).Contents (Elt F) → (⟨S800000x32, .f32⟩ : BufTy).Contents (Elt F)),
    StableHlo.unary main_v197 main_v198 (Host.negf : (⟨S800000x32, .f32⟩ : BufTy).Contents (Elt F) → (⟨S800000x32, .f32⟩ : BufTy).Contents (Elt F)),
    StableHlo.unary main_v198 main_v199 (Host.exp : (⟨S800000x32, .f32⟩ : BufTy).Contents (Elt F) → (⟨S800000x32, .f32⟩ : BufTy).Contents (Elt F)),
    StableHlo.nullary main_cst_21 (constant S_ .f32 0x3F800000#32),
    StableHlo.unary main_cst_21 main_v200 (broadcastInDim S800000x32 ![] bcast_S_S800000x32 : (⟨S_, .f32⟩ : BufTy).Contents (Elt F) → (⟨S800000x32, .f32⟩ : BufTy).Contents (Elt F)),
    StableHlo.binary main_v200 main_v199 main_v201 (addf : (⟨S800000x32, .f32⟩ : BufTy).Contents (Elt F) → (⟨S800000x32, .f32⟩ : BufTy).Contents (Elt F) → (⟨S800000x32, .f32⟩ : BufTy).Contents (Elt F)),
    StableHlo.nullary main_cst_22 (constant S_ .f32 0x3F800000#32),
    StableHlo.unary main_cst_22 main_v202 (broadcastInDim S800000x32 ![] bcast_S_S800000x32 : (⟨S_, .f32⟩ : BufTy).Contents (Elt F) → (⟨S800000x32, .f32⟩ : BufTy).Contents (Elt F)),
    StableHlo.binary main_v202 main_v201 main_v203 (Host.divf : (⟨S800000x32, .f32⟩ : BufTy).Contents (Elt F) → (⟨S800000x32, .f32⟩ : BufTy).Contents (Elt F) → (⟨S800000x32, .f32⟩ : BufTy).Contents (Elt F)),
    StableHlo.nullary main_c_23 (constantI S_ 32 0#32),
    StableHlo.unary main_c_23 main_v204 (broadcastInDim S800000 ![] bcast_S_S800000 : (⟨S_, .i32⟩ : BufTy).Contents (Elt F) → (⟨S800000, .i32⟩ : BufTy).Contents (Elt F)),
    StableHlo.binary main_v1 main_v204 main_v205 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 100000#32),
    StableHlo.unary main_c_24 main_v206 (broadcastInDim S800000 ![] bcast_S_S800000 : (⟨S_, .i32⟩ : BufTy).Contents (Elt F) → (⟨S800000, .i32⟩ : BufTy).Contents (Elt F)),
    StableHlo.binary main_v1 main_v206 main_v207 (addi : (⟨S800000, .i32⟩ : BufTy).Contents (Elt F) → (⟨S800000, .i32⟩ : BufTy).Contents (Elt F) → (⟨S800000, .i32⟩ : BufTy).Contents (Elt F)),
    StableHlo.ternary main_v205 main_v207 main_v1 main_v208 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v208 main_v209 (broadcastInDim S800000x1 ![0] bcast_S800000_S800000x1_0 : (⟨S800000, .i32⟩ : BufTy).Contents (Elt F) → (⟨S800000x1, .i32⟩ : BufTy).Contents (Elt F)),
    StableHlo.binary main_v181 main_v209 main_v210 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v203 main_v210 main_v211 (mulf : (⟨S800000x32, .f32⟩ : BufTy).Contents (Elt F) → (⟨S800000x32, .f32⟩ : BufTy).Contents (Elt F) → (⟨S800000x32, .f32⟩ : BufTy).Contents (Elt F)),
    StableHlo.nullary main_cst_25 (constant S_ .f32 0x00000000#32) ]

/-- The references the window's operations write, in order. -/
abbrev ops3_W : List (Ref sig .tc) :=
  [main_v161, main_v162, main_v163, main_v164, main_v165, main_v166, main_v167, main_v168, main_v169, main_v170, main_v171, main_v172, main_v173, main_v174, main_v175, main_v176, main_v177, main_v178, main_v179, main_v180, main_v181, main_c_17, main_v182, main_v183, main_c_18, main_v184, main_v185, main_v186, main_v187, main_v188, main_c_19, main_v189, main_v190, main_c_20, main_v191, main_v192, main_v193, main_v194, main_v195, main_v196, main_v197, main_v198, main_v199, main_cst_21, main_v200, main_v201, main_cst_22, main_v202, main_v203, main_c_23, main_v204, main_v205, main_c_24, main_v206, main_v207, main_v208, main_v209, main_v210, main_v211, main_cst_25]

/-- The window is that straight line: the callees' definitions unfolded at their calls and the records at their
    fields, both sides are one chain of `hlo` steps. -/
theorem main_part3_eq (c : Dev nD) : main_part3 (F := F) c = StableHlo.seq ops3 := rfl

/-- Every operation touches TensorCore buffers only. -/
theorem ops3_sub : (ops3 : List (HloOp τ sig (Elt F))).Forall fun op => op.bufs ⊆ StableHlo.tcRefs τ sig :=
  ⟨unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub ..⟩

/-- No operation leaves its result undetermined: each is one of the builders that compute it. -/
theorem ops3_fresh : ∀ op ∈ (ops3 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation writes one reference (its builder's written set is that singleton), and it is in `ops3_W`. -/
theorem ops3_writes : (ops3 : List (HloOp τ sig (Elt F))).Forall fun op =>
    op.writes ⊆ (ops3_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.RefRun

end
-- ==== Proof.RefOps4.lean ====
import proofs.«425355_j88287347737110_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The 104 operations of @main's window 4 (60 statements), in order: a call contributes its
    callee's operations over that call's record, a nested call's over the nested record. -/
abbrev ops4 : List (HloOp τ sig (Elt F)) :=
  [ StableHlo.unary main_cst_25 main_v212 (broadcastInDim S100000x32 ![] bcast_S_S100000x32 : (⟨S_, .f32⟩ : BufTy).Contents (Elt F) → (⟨S100000x32, .f32⟩ : BufTy).Contents (Elt F)),
    StableHlo.unary main_v3 main_v213 (broadcastInDim S800000x1 ![0] bcast_S800000_S800000x1_0 : (⟨S800000, .i32⟩ : BufTy).Contents (Elt F) → (⟨S800000x1, .i32⟩ : BufTy).Contents (Elt F)),
    StableHlo.ternary main_v212 main_v213 main_v211 main_v214 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_26 (constant S_ .f32 0x00000000#32),
    StableHlo.unary main_cst_26 main_v215 (broadcastInDim S100000x32 ![] bcast_S_S100000x32 : (⟨S_, .f32⟩ : BufTy).Contents (Elt F) → (⟨S100000x32, .f32⟩ : BufTy).Contents (Elt F)),
    StableHlo.unary main_v3 main_v216 (broadcastInDim S800000x1 ![0] bcast_S800000_S800000x1_0 : (⟨S800000, .i32⟩ : BufTy).Contents (Elt F) → (⟨S800000x1, .i32⟩ : BufTy).Contents (Elt F)),
    StableHlo.ternary main_v215 main_v216 main_v203 main_v217 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_27 (constant S_ .f32 0x358637BD#32),
    StableHlo.unary main_cst_27 main_v218 (broadcastInDim S100000x32 ![] bcast_S_S100000x32 : (⟨S_, .f32⟩ : BufTy).Contents (Elt F) → (⟨S100000x32, .f32⟩ : BufTy).Contents (Elt F)),
    StableHlo.binary main_v217 main_v218 main_v219 (addf : (⟨S100000x32, .f32⟩ : BufTy).Contents (Elt F) → (⟨S100000x32, .f32⟩ : BufTy).Contents (Elt F) → (⟨S100000x32, .f32⟩ : BufTy).Contents (Elt F)),
    StableHlo.binary main_v214 main_v219 main_v220 (Host.divf : (⟨S100000x32, .f32⟩ : BufTy).Contents (Elt F) → (⟨S100000x32, .f32⟩ : BufTy).Contents (Elt F) → (⟨S100000x32, .f32⟩ : BufTy).Contents (Elt F)),
    StableHlo.binary main_v173 main_v220 main_v221 (addf : (⟨S100000x32, .f32⟩ : BufTy).Contents (Elt F) → (⟨S100000x32, .f32⟩ : BufTy).Contents (Elt F) → (⟨S100000x32, .f32⟩ : BufTy).Contents (Elt F)),
    StableHlo.unary main_arg17 main_v222 ((extractStridedSlice S1x32 ![1, 0] · slices_S4x32_S1x32_1_0) : (⟨S4x32, .f32⟩ : BufTy).Contents (Elt F) → (⟨S1x32, .f32⟩ : BufTy).Contents (Elt F)),
    StableHlo.reshape main_v222 main_v223 rfl shapeCasts_S1x32_S32,
    StableHlo.unary main_arg18 main_v224 ((extractStridedSlice S1x32 ![1, 0] · slices_S4x32_S1x32_1_0) : (⟨S4x32, .f32⟩ : BufTy).Contents (Elt F) → (⟨S1x32, .f32⟩ : BufTy).Contents (Elt F)),
    StableHlo.reshape main_v224 main_v225 rfl shapeCasts_S1x32_S32,
    StableHlo.nullary main_cst_28 (constant S_ .f32 0x00000000#32),
    StableHlo.binary main_v221 main_cst_28 main_v226 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_29 (constant S_ .f32 0x47C35000#32),
    StableHlo.unary main_cst_29 main_v227 (broadcastInDim S32 ![] bcast_S_S32 : (⟨S_, .f32⟩ : BufTy).Contents (Elt F) → (⟨S32, .f32⟩ : BufTy).Contents (Elt F)),
    StableHlo.binary main_v226 main_v227 main_v228 (Host.divf : (⟨S32, .f32⟩ : BufTy).Contents (Elt F) → (⟨S32, .f32⟩ : BufTy).Contents (Elt F) → (⟨S32, .f32⟩ : BufTy).Contents (Elt F)),
    StableHlo.nullary main_c_30 (constantI S_ 32 0#32),
    StableHlo.TRef.nullary main_call4.cst (constant S_ .f32 0x00000000#32),
    StableHlo.TRef.binary (.of main_v221) main_call4.cst main_call4.v0 (fun x v => Host.reduceAdd x v reducesTo_S100000x32_S32_d0 h_S_),
    StableHlo.TRef.unary main_call4.v0 main_call4.v1 (broadcastInDim S1x32 ![1] bcast_S32_S1x32_1),
    StableHlo.TRef.nullary main_call4.cst_0 (constant S_ .f32 0x47C35000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S100000x32 ![0, 1] bcast_S1x32_S100000x32_0_1),
    StableHlo.TRef.binary (.of main_v221) main_call4.v4 main_call4.v5 subf,
    StableHlo.TRef.binary main_call4.v5 main_call4.v5 main_call4.v6 mulf,
    StableHlo.TRef.unary (.of main_c_30) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x32_S32_d0 h_S_),
    StableHlo.TRef.unary main_call4.v8 main_call4.v10 (broadcastInDim S32 ![] bcast_S_S32),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S32 ![] bcast_S_S32),
    StableHlo.TRef.ternary main_call4.v12 main_call4.v11 main_call4.call0.v1 main_call4.call0.v2 (fun p a b => select (broadcastInDim S32 ![] bcast_S_S32 p) a b),
    StableHlo.unary main_v228 main_v230 (broadcastInDim S1x32 ![1] bcast_S32_S1x32_1 : (⟨S32, .f32⟩ : BufTy).Contents (Elt F) → (⟨S1x32, .f32⟩ : BufTy).Contents (Elt F)),
    StableHlo.unary main_v230 main_v231 (broadcastInDim S100000x32 ![0, 1] bcast_S1x32_S100000x32_0_1 : (⟨S1x32, .f32⟩ : BufTy).Contents (Elt F) → (⟨S100000x32, .f32⟩ : BufTy).Contents (Elt F)),
    StableHlo.binary main_v221 main_v231 main_v232 (subf : (⟨S100000x32, .f32⟩ : BufTy).Contents (Elt F) → (⟨S100000x32, .f32⟩ : BufTy).Contents (Elt F) → (⟨S100000x32, .f32⟩ : BufTy).Contents (Elt F)),
    StableHlo.nullary main_cst_31 (constant S_ .f32 0x3727C5AC#32),
    StableHlo.unary main_cst_31 main_v233 (broadcastInDim S32 ![] bcast_S_S32 : (⟨S_, .f32⟩ : BufTy).Contents (Elt F) → (⟨S32, .f32⟩ : BufTy).Contents (Elt F)),
    StableHlo.binary main_v229 main_v233 main_v234 (addf : (⟨S32, .f32⟩ : BufTy).Contents (Elt F) → (⟨S32, .f32⟩ : BufTy).Contents (Elt F) → (⟨S32, .f32⟩ : BufTy).Contents (Elt F)),
    StableHlo.unary main_v234 main_v235 (Host.rsqrt : (⟨S32, .f32⟩ : BufTy).Contents (Elt F) → (⟨S32, .f32⟩ : BufTy).Contents (Elt F)),
    StableHlo.unary main_v235 main_v236 (broadcastInDim S1x32 ![1] bcast_S32_S1x32_1 : (⟨S32, .f32⟩ : BufTy).Contents (Elt F) → (⟨S1x32, .f32⟩ : BufTy).Contents (Elt F)),
    StableHlo.unary main_v236 main_v237 (broadcastInDim S100000x32 ![0, 1] bcast_S1x32_S100000x32_0_1 : (⟨S1x32, .f32⟩ : BufTy).Contents (Elt F) → (⟨S100000x32, .f32⟩ : BufTy).Contents (Elt F)),
    StableHlo.binary main_v232 main_v237 main_v238 (mulf : (⟨S100000x32, .f32⟩ : BufTy).Contents (Elt F) → (⟨S100000x32, .f32⟩ : BufTy).Contents (Elt F) → (⟨S100000x32, .f32⟩ : BufTy).Contents (Elt F)),
    StableHlo.unary main_v223 main_v239 (broadcastInDim S1x32 ![1] bcast_S32_S1x32_1 : (⟨S32, .f32⟩ : BufTy).Contents (Elt F) → (⟨S1x32, .f32⟩ : BufTy).Contents (Elt F)),
    StableHlo.unary main_v239 main_v240 (broadcastInDim S100000x32 ![0, 1] bcast_S1x32_S100000x32_0_1 : (⟨S1x32, .f32⟩ : BufTy).Contents (Elt F) → (⟨S100000x32, .f32⟩ : BufTy).Contents (Elt F)),
    StableHlo.binary main_v238 main_v240 main_v241 (mulf : (⟨S100000x32, .f32⟩ : BufTy).Contents (Elt F) → (⟨S100000x32, .f32⟩ : BufTy).Contents (Elt F) → (⟨S100000x32, .f32⟩ : BufTy).Contents (Elt F)),
    StableHlo.unary main_v225 main_v242 (broadcastInDim S1x32 ![1] bcast_S32_S1x32_1 : (⟨S32, .f32⟩ : BufTy).Contents (Elt F) → (⟨S1x32, .f32⟩ : BufTy).Contents (Elt F)),
    StableHlo.unary main_v242 main_v243 (broadcastInDim S100000x32 ![0, 1] bcast_S1x32_S100000x32_0_1 : (⟨S1x32, .f32⟩ : BufTy).Contents (Elt F) → (⟨S100000x32, .f32⟩ : BufTy).Contents (Elt F)),
    StableHlo.binary main_v241 main_v243 main_v244 (addf : (⟨S100000x32, .f32⟩ : BufTy).Contents (Elt F) → (⟨S100000x32, .f32⟩ : BufTy).Contents (Elt F) → (⟨S100000x32, .f32⟩ : BufTy).Contents (Elt F)),
    StableHlo.TRef.nullary main_call5.cst (constant S_ .f32 0x00000000#32),
    StableHlo.TRef.unary main_call5.cst main_call5.v0 (broadcastInDim S100000x32 ![] bcast_S_S100000x32),
    StableHlo.TRef.binary (.of main_v244) main_call5.v0 main_call5.v1 maximumf,
    StableHlo.binary main_v116 main_v245 main_v246 (addf : (⟨S100000x32, .f32⟩ : BufTy).Contents (Elt F) → (⟨S100000x32, .f32⟩ : BufTy).Contents (Elt F) → (⟨S100000x32, .f32⟩ : BufTy).Contents (Elt F)),
    StableHlo.unary main_arg19 main_v247 ((extractStridedSlice S1x32 ![1, 0] · slices_S4x32_S1x32_1_0) : (⟨S4x32, .f32⟩ : BufTy).Contents (Elt F) → (⟨S1x32, .f32⟩ : BufTy).Contents (Elt F)),
    StableHlo.reshape main_v247 main_v248 rfl shapeCasts_S1x32_S32,
    StableHlo.unary main_arg20 main_v249 ((extractStridedSlice S1x32 ![1, 0] · slices_S4x32_S1x32_1_0) : (⟨S4x32, .f32⟩ : BufTy).Contents (Elt F) → (⟨S1x32, .f32⟩ : BufTy).Contents (Elt F)),
    StableHlo.reshape main_v249 main_v250 rfl shapeCasts_S1x32_S32,
    StableHlo.nullary main_cst_32 (constant S_ .f32 0x00000000#32),
    StableHlo.binary main_v197 main_cst_32 main_v251 ((fun x v => Host.reduceAdd x v reducesTo_S800000x32_S32_d0 h_S_) : (⟨S800000x32, .f32⟩ : BufTy).Contents (Elt F) → (⟨S_, .f32⟩ : BufTy).Contents (Elt F) → (⟨S32, .f32⟩ : BufTy).Contents (Elt F)),
    StableHlo.nullary main_cst_33 (constant S_ .f32 0x49435000#32),
    StableHlo.unary main_cst_33 main_v252 (broadcastInDim S32 ![] bcast_S_S32 : (⟨S_, .f32⟩ : BufTy).Contents (Elt F) → (⟨S32, .f32⟩ : BufTy).Contents (Elt F)),
    StableHlo.binary main_v251 main_v252 main_v253 (Host.divf : (⟨S32, .f32⟩ : BufTy).Contents (Elt F) → (⟨S32, .f32⟩ : BufTy).Contents (Elt F) → (⟨S32, .f32⟩ : BufTy).Contents (Elt F)),
    StableHlo.nullary main_c_34 (constantI S_ 32 0#32),
    StableHlo.TRef.nullary main_call6.cst (constant S_ .f32 0x00000000#32),
    StableHlo.TRef.binary (.of main_v197) main_call6.cst main_call6.v0 (fun x v => Host.reduceAdd x v reducesTo_S800000x32_S32_d0 h_S_),
    StableHlo.TRef.unary main_call6.v0 main_call6.v1 (broadcastInDim S1x32 ![1] bcast_S32_S1x32_1),
    StableHlo.TRef.nullary main_call6.cst_0 (constant S_ .f32 0x49435000#32),
    StableHlo.TRef.unary main_call6.cst_0 main_call6.v2 (broadcastInDim S1x32 ![] bcast_S_S1x32),
    StableHlo.TRef.binary main_call6.v1 main_call6.v2 main_call6.v3 Host.divf,
    StableHlo.TRef.unary main_call6.v3 main_call6.v4 (broadcastInDim S800000x32 ![0, 1] bcast_S1x32_S800000x32_0_1),
    StableHlo.TRef.binary (.of main_v197) main_call6.v4 main_call6.v5 subf,
    StableHlo.TRef.binary main_call6.v5 main_call6.v5 main_call6.v6 mulf,
    StableHlo.TRef.unary (.of main_c_34) main_call6.v7 (sitofp .f32),
    StableHlo.TRef.nullary main_call6.cst_1 (constant S_ .f32 0x49435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S800000x32_S32_d0 h_S_),
    StableHlo.TRef.unary main_call6.v8 main_call6.v10 (broadcastInDim S32 ![] bcast_S_S32),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S32 ![] bcast_S_S32),
    StableHlo.TRef.ternary main_call6.v12 main_call6.v11 main_call6.call0.v1 main_call6.call0.v2 (fun p a b => select (broadcastInDim S32 ![] bcast_S_S32 p) a b),
    StableHlo.unary main_v253 main_v255 (broadcastInDim S1x32 ![1] bcast_S32_S1x32_1 : (⟨S32, .f32⟩ : BufTy).Contents (Elt F) → (⟨S1x32, .f32⟩ : BufTy).Contents (Elt F)),
    StableHlo.unary main_v255 main_v256 (broadcastInDim S800000x32 ![0, 1] bcast_S1x32_S800000x32_0_1 : (⟨S1x32, .f32⟩ : BufTy).Contents (Elt F) → (⟨S800000x32, .f32⟩ : BufTy).Contents (Elt F)),
    StableHlo.binary main_v197 main_v256 main_v257 (subf : (⟨S800000x32, .f32⟩ : BufTy).Contents (Elt F) → (⟨S800000x32, .f32⟩ : BufTy).Contents (Elt F) → (⟨S800000x32, .f32⟩ : BufTy).Contents (Elt F)),
    StableHlo.nullary main_cst_35 (constant S_ .f32 0x3727C5AC#32),
    StableHlo.unary main_cst_35 main_v258 (broadcastInDim S32 ![] bcast_S_S32 : (⟨S_, .f32⟩ : BufTy).Contents (Elt F) → (⟨S32, .f32⟩ : BufTy).Contents (Elt F)),
    StableHlo.binary main_v254 main_v258 main_v259 (addf : (⟨S32, .f32⟩ : BufTy).Contents (Elt F) → (⟨S32, .f32⟩ : BufTy).Contents (Elt F) → (⟨S32, .f32⟩ : BufTy).Contents (Elt F)),
    StableHlo.unary main_v259 main_v260 (Host.rsqrt : (⟨S32, .f32⟩ : BufTy).Contents (Elt F) → (⟨S32, .f32⟩ : BufTy).Contents (Elt F)),
    StableHlo.unary main_v260 main_v261 (broadcastInDim S1x32 ![1] bcast_S32_S1x32_1 : (⟨S32, .f32⟩ : BufTy).Contents (Elt F) → (⟨S1x32, .f32⟩ : BufTy).Contents (Elt F)) ]

/-- The references the window's operations write, in order. -/
abbrev ops4_W : List (Ref sig .tc) :=
  [main_v212, main_v213, main_v214, main_cst_26, main_v215, main_v216, main_v217, main_cst_27, main_v218, main_v219, main_v220, main_v221, main_v222, main_v223, main_v224, main_v225, main_cst_28, main_v226, main_cst_29, main_v227, main_v228, main_c_30, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v230, main_v231, main_v232, main_cst_31, main_v233, main_v234, main_v235, main_v236, main_v237, main_v238, main_v239, main_v240, main_v241, main_v242, main_v243, main_v244, main_call5.cst.ref, main_call5.v0.ref, main_call5.v1.ref, main_v246, main_v247, main_v248, main_v249, main_v250, main_cst_32, main_v251, main_cst_33, main_v252, main_v253, main_c_34, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v255, main_v256, main_v257, main_cst_35, main_v258, main_v259, main_v260, main_v261]

/-- The window is that straight line: the callees' definitions unfolded at their calls and the records at their
    fields, both sides are one chain of `hlo` steps. -/
theorem main_part4_eq (c : Dev nD) : main_part4 (F := F) c = StableHlo.seq ops4 := rfl

/-- Every operation touches TensorCore buffers only. -/
theorem ops4_sub : (ops4 : List (HloOp τ sig (Elt F))).Forall fun op => op.bufs ⊆ StableHlo.tcRefs τ sig :=
  ⟨unary_bufs_sub .., unary_bufs_sub .., ternary_bufs_sub .., nullary_bufs_sub .., unary_bufs_sub .., unary_bufs_sub .., ternary_bufs_sub .., nullary_bufs_sub .., unary_bufs_sub .., binary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub ..⟩

/-- No operation leaves its result undetermined: each is one of the builders that compute it. -/
theorem ops4_fresh : ∀ op ∈ (ops4 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation writes one reference (its builder's written set is that singleton), and it is in `ops4_W`. -/
theorem ops4_writes : (ops4 : List (HloOp τ sig (Elt F))).Forall fun op =>
    op.writes ⊆ (ops4_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.RefRun

end
-- ==== Proof.RefOps5.lean ====
import proofs.«425355_j88287347737110_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The 62 operations of @main's window 5 (60 statements), in order: a call contributes its
    callee's operations over that call's record, a nested call's over the nested record. -/
abbrev ops5 : List (HloOp τ sig (Elt F)) :=
  [ StableHlo.unary main_v261 main_v262 (broadcastInDim S800000x32 ![0, 1] bcast_S1x32_S800000x32_0_1 : (⟨S1x32, .f32⟩ : BufTy).Contents (Elt F) → (⟨S800000x32, .f32⟩ : BufTy).Contents (Elt F)),
    StableHlo.binary main_v257 main_v262 main_v263 (mulf : (⟨S800000x32, .f32⟩ : BufTy).Contents (Elt F) → (⟨S800000x32, .f32⟩ : BufTy).Contents (Elt F) → (⟨S800000x32, .f32⟩ : BufTy).Contents (Elt F)),
    StableHlo.unary main_v248 main_v264 (broadcastInDim S1x32 ![1] bcast_S32_S1x32_1 : (⟨S32, .f32⟩ : BufTy).Contents (Elt F) → (⟨S1x32, .f32⟩ : BufTy).Contents (Elt F)),
    StableHlo.unary main_v264 main_v265 (broadcastInDim S800000x32 ![0, 1] bcast_S1x32_S800000x32_0_1 : (⟨S1x32, .f32⟩ : BufTy).Contents (Elt F) → (⟨S800000x32, .f32⟩ : BufTy).Contents (Elt F)),
    StableHlo.binary main_v263 main_v265 main_v266 (mulf : (⟨S800000x32, .f32⟩ : BufTy).Contents (Elt F) → (⟨S800000x32, .f32⟩ : BufTy).Contents (Elt F) → (⟨S800000x32, .f32⟩ : BufTy).Contents (Elt F)),
    StableHlo.unary main_v250 main_v267 (broadcastInDim S1x32 ![1] bcast_S32_S1x32_1 : (⟨S32, .f32⟩ : BufTy).Contents (Elt F) → (⟨S1x32, .f32⟩ : BufTy).Contents (Elt F)),
    StableHlo.unary main_v267 main_v268 (broadcastInDim S800000x32 ![0, 1] bcast_S1x32_S800000x32_0_1 : (⟨S1x32, .f32⟩ : BufTy).Contents (Elt F) → (⟨S800000x32, .f32⟩ : BufTy).Contents (Elt F)),
    StableHlo.binary main_v266 main_v268 main_v269 (addf : (⟨S800000x32, .f32⟩ : BufTy).Contents (Elt F) → (⟨S800000x32, .f32⟩ : BufTy).Contents (Elt F) → (⟨S800000x32, .f32⟩ : BufTy).Contents (Elt F)),
    StableHlo.TRef.nullary main_call7.cst (constant S_ .f32 0x00000000#32),
    StableHlo.TRef.unary main_call7.cst main_call7.v0 (broadcastInDim S800000x32 ![] bcast_S_S800000x32),
    StableHlo.TRef.binary (.of main_v269) main_call7.v0 main_call7.v1 maximumf,
    StableHlo.binary main_v141 main_v270 main_v271 (addf : (⟨S800000x32, .f32⟩ : BufTy).Contents (Elt F) → (⟨S800000x32, .f32⟩ : BufTy).Contents (Elt F) → (⟨S800000x32, .f32⟩ : BufTy).Contents (Elt F)),
    StableHlo.unary main_arg7 main_v272 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v272 main_v273 rfl shapeCasts_S1x32x32_S32x32,
    StableHlo.binary main_v246 main_v273 main_v274 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg8 main_v275 ((extractStridedSlice S1x32 ![2, 0] · slices_S4x32_S1x32_2_0) : (⟨S4x32, .f32⟩ : BufTy).Contents (Elt F) → (⟨S1x32, .f32⟩ : BufTy).Contents (Elt F)),
    StableHlo.reshape main_v275 main_v276 rfl shapeCasts_S1x32_S32,
    StableHlo.unary main_v276 main_v277 (broadcastInDim S1x32 ![1] bcast_S32_S1x32_1 : (⟨S32, .f32⟩ : BufTy).Contents (Elt F) → (⟨S1x32, .f32⟩ : BufTy).Contents (Elt F)),
    StableHlo.unary main_v277 main_v278 (broadcastInDim S100000x32 ![0, 1] bcast_S1x32_S100000x32_0_1 : (⟨S1x32, .f32⟩ : BufTy).Contents (Elt F) → (⟨S100000x32, .f32⟩ : BufTy).Contents (Elt F)),
    StableHlo.binary main_v274 main_v278 main_v279 (addf : (⟨S100000x32, .f32⟩ : BufTy).Contents (Elt F) → (⟨S100000x32, .f32⟩ : BufTy).Contents (Elt F) → (⟨S100000x32, .f32⟩ : BufTy).Contents (Elt F)),
    StableHlo.unary main_arg9 main_v280 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v280 main_v281 rfl shapeCasts_S1x32x32_S32x32,
    StableHlo.binary main_v246 main_v281 main_v282 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg10 main_v283 ((extractStridedSlice S1x32 ![2, 0] · slices_S4x32_S1x32_2_0) : (⟨S4x32, .f32⟩ : BufTy).Contents (Elt F) → (⟨S1x32, .f32⟩ : BufTy).Contents (Elt F)),
    StableHlo.reshape main_v283 main_v284 rfl shapeCasts_S1x32_S32,
    StableHlo.unary main_v284 main_v285 (broadcastInDim S1x32 ![1] bcast_S32_S1x32_1 : (⟨S32, .f32⟩ : BufTy).Contents (Elt F) → (⟨S1x32, .f32⟩ : BufTy).Contents (Elt F)),
    StableHlo.unary main_v285 main_v286 (broadcastInDim S100000x32 ![0, 1] bcast_S1x32_S100000x32_0_1 : (⟨S1x32, .f32⟩ : BufTy).Contents (Elt F) → (⟨S100000x32, .f32⟩ : BufTy).Contents (Elt F)),
    StableHlo.binary main_v282 main_v286 main_v287 (addf : (⟨S100000x32, .f32⟩ : BufTy).Contents (Elt F) → (⟨S100000x32, .f32⟩ : BufTy).Contents (Elt F) → (⟨S100000x32, .f32⟩ : BufTy).Contents (Elt F)),
    StableHlo.unary main_arg11 main_v288 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v288 main_v289 rfl shapeCasts_S1x32x32_S32x32,
    StableHlo.binary main_v271 main_v289 main_v290 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    StableHlo.unary main_arg12 main_v291 ((extractStridedSlice S1x32 ![2, 0] · slices_S4x32_S1x32_2_0) : (⟨S4x32, .f32⟩ : BufTy).Contents (Elt F) → (⟨S1x32, .f32⟩ : BufTy).Contents (Elt F)),
    StableHlo.reshape main_v291 main_v292 rfl shapeCasts_S1x32_S32,
    StableHlo.unary main_v292 main_v293 (broadcastInDim S1x32 ![1] bcast_S32_S1x32_1 : (⟨S32, .f32⟩ : BufTy).Contents (Elt F) → (⟨S1x32, .f32⟩ : BufTy).Contents (Elt F)),
    StableHlo.unary main_v293 main_v294 (broadcastInDim S800000x32 ![0, 1] bcast_S1x32_S800000x32_0_1 : (⟨S1x32, .f32⟩ : BufTy).Contents (Elt F) → (⟨S800000x32, .f32⟩ : BufTy).Contents (Elt F)),
    StableHlo.binary main_v290 main_v294 main_v295 (addf : (⟨S800000x32, .f32⟩ : BufTy).Contents (Elt F) → (⟨S800000x32, .f32⟩ : BufTy).Contents (Elt F) → (⟨S800000x32, .f32⟩ : BufTy).Contents (Elt F)),
    StableHlo.unary main_arg13 main_v296 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v296 main_v297 rfl shapeCasts_S1x32x32_S32x32,
    StableHlo.binary main_v246 main_v297 main_v298 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg14 main_v299 ((extractStridedSlice S1x32 ![2, 0] · slices_S4x32_S1x32_2_0) : (⟨S4x32, .f32⟩ : BufTy).Contents (Elt F) → (⟨S1x32, .f32⟩ : BufTy).Contents (Elt F)),
    StableHlo.reshape main_v299 main_v300 rfl shapeCasts_S1x32_S32,
    StableHlo.unary main_v300 main_v301 (broadcastInDim S1x32 ![1] bcast_S32_S1x32_1 : (⟨S32, .f32⟩ : BufTy).Contents (Elt F) → (⟨S1x32, .f32⟩ : BufTy).Contents (Elt F)),
    StableHlo.unary main_v301 main_v302 (broadcastInDim S100000x32 ![0, 1] bcast_S1x32_S100000x32_0_1 : (⟨S1x32, .f32⟩ : BufTy).Contents (Elt F) → (⟨S100000x32, .f32⟩ : BufTy).Contents (Elt F)),
    StableHlo.binary main_v298 main_v302 main_v303 (addf : (⟨S100000x32, .f32⟩ : BufTy).Contents (Elt F) → (⟨S100000x32, .f32⟩ : BufTy).Contents (Elt F) → (⟨S100000x32, .f32⟩ : BufTy).Contents (Elt F)),
    StableHlo.unary main_arg15 main_v304 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v304 main_v305 rfl shapeCasts_S1x32x32_S32x32,
    StableHlo.binary main_v246 main_v305 main_v306 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg16 main_v307 ((extractStridedSlice S1x32 ![2, 0] · slices_S4x32_S1x32_2_0) : (⟨S4x32, .f32⟩ : BufTy).Contents (Elt F) → (⟨S1x32, .f32⟩ : BufTy).Contents (Elt F)),
    StableHlo.reshape main_v307 main_v308 rfl shapeCasts_S1x32_S32,
    StableHlo.unary main_v308 main_v309 (broadcastInDim S1x32 ![1] bcast_S32_S1x32_1 : (⟨S32, .f32⟩ : BufTy).Contents (Elt F) → (⟨S1x32, .f32⟩ : BufTy).Contents (Elt F)),
    StableHlo.unary main_v309 main_v310 (broadcastInDim S100000x32 ![0, 1] bcast_S1x32_S100000x32_0_1 : (⟨S1x32, .f32⟩ : BufTy).Contents (Elt F) → (⟨S100000x32, .f32⟩ : BufTy).Contents (Elt F)),
    StableHlo.binary main_v306 main_v310 main_v311 (addf : (⟨S100000x32, .f32⟩ : BufTy).Contents (Elt F) → (⟨S100000x32, .f32⟩ : BufTy).Contents (Elt F) → (⟨S100000x32, .f32⟩ : BufTy).Contents (Elt F)),
    StableHlo.nullary main_c_36 (constantI S_ 32 0#32),
    StableHlo.unary main_c_36 main_v312 (broadcastInDim S800000 ![] bcast_S_S800000 : (⟨S_, .i32⟩ : BufTy).Contents (Elt F) → (⟨S800000, .i32⟩ : BufTy).Contents (Elt F)),
    StableHlo.binary main_v3 main_v312 main_v313 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 100000#32),
    StableHlo.unary main_c_37 main_v314 (broadcastInDim S800000 ![] bcast_S_S800000 : (⟨S_, .i32⟩ : BufTy).Contents (Elt F) → (⟨S800000, .i32⟩ : BufTy).Contents (Elt F)),
    StableHlo.binary main_v3 main_v314 main_v315 (addi : (⟨S800000, .i32⟩ : BufTy).Contents (Elt F) → (⟨S800000, .i32⟩ : BufTy).Contents (Elt F) → (⟨S800000, .i32⟩ : BufTy).Contents (Elt F)),
    StableHlo.ternary main_v313 main_v315 main_v3 main_v316 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v316 main_v317 (broadcastInDim S800000x1 ![0] bcast_S800000_S800000x1_0 : (⟨S800000, .i32⟩ : BufTy).Contents (Elt F) → (⟨S800000x1, .i32⟩ : BufTy).Contents (Elt F)),
    StableHlo.binary main_v279 main_v317 main_v318 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nullary main_c_38 (constantI S_ 32 0#32) ]

/-- The references the window's operations write, in order. -/
abbrev ops5_W : List (Ref sig .tc) :=
  [main_v262, main_v263, main_v264, main_v265, main_v266, main_v267, main_v268, main_v269, main_call7.cst.ref, main_call7.v0.ref, main_call7.v1.ref, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_v308, main_v309, main_v310, main_v311, main_c_36, main_v312, main_v313, main_c_37, main_v314, main_v315, main_v316, main_v317, main_v318, main_c_38]

/-- The window is that straight line: the callees' definitions unfolded at their calls and the records at their
    fields, both sides are one chain of `hlo` steps. -/
theorem main_part5_eq (c : Dev nD) : main_part5 (F := F) c = StableHlo.seq ops5 := rfl

/-- Every operation touches TensorCore buffers only. -/
theorem ops5_sub : (ops5 : List (HloOp τ sig (Elt F))).Forall fun op => op.bufs ⊆ StableHlo.tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

/-- No operation leaves its result undetermined: each is one of the builders that compute it. -/
theorem ops5_fresh : ∀ op ∈ (ops5 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation writes one reference (its builder's written set is that singleton), and it is in `ops5_W`. -/
theorem ops5_writes : (ops5 : List (HloOp τ sig (Elt F))).Forall fun op =>
    op.writes ⊆ (ops5_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩

end Cert.ReferenceIdeal.RefRun

end
-- ==== Proof.RefOps6.lean ====
import proofs.«425355_j88287347737110_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxHeartbeats 4000000 in
/-- @main's statements 361 … 420, in order. The one call, of @_var at (main_v351, main_c_49), is laid out as the
    callee's twenty operations over that call's record main_call8, and the callee's own call of @_where as its
    three operations over main_call8.call0: what executing the callee's body on the operands runs. -/
abbrev ops6 : List (HloOp τ sig (Elt F)) :=
  [ StableHlo.unary main_c_38 main_v319 (broadcastInDim S800000 ![] bcast_S_S800000 : (⟨S_, .i32⟩ : BufTy).Contents (Elt F) → (⟨S800000, .i32⟩ : BufTy).Contents (Elt F)),
    StableHlo.binary main_v1 main_v319 main_v320 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 100000#32),
    StableHlo.unary main_c_39 main_v321 (broadcastInDim S800000 ![] bcast_S_S800000 : (⟨S_, .i32⟩ : BufTy).Contents (Elt F) → (⟨S800000, .i32⟩ : BufTy).Contents (Elt F)),
    StableHlo.binary main_v1 main_v321 main_v322 (addi : (⟨S800000, .i32⟩ : BufTy).Contents (Elt F) → (⟨S800000, .i32⟩ : BufTy).Contents (Elt F) → (⟨S800000, .i32⟩ : BufTy).Contents (Elt F)),
    StableHlo.ternary main_v320 main_v322 main_v1 main_v323 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v323 main_v324 (broadcastInDim S800000x1 ![0] bcast_S800000_S800000x1_0 : (⟨S800000, .i32⟩ : BufTy).Contents (Elt F) → (⟨S800000x1, .i32⟩ : BufTy).Contents (Elt F)),
    StableHlo.binary main_v287 main_v324 main_v325 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v318 main_v325 main_v326 (addf : (⟨S800000x32, .f32⟩ : BufTy).Contents (Elt F) → (⟨S800000x32, .f32⟩ : BufTy).Contents (Elt F) → (⟨S800000x32, .f32⟩ : BufTy).Contents (Elt F)),
    StableHlo.binary main_v326 main_v295 main_v327 (addf : (⟨S800000x32, .f32⟩ : BufTy).Contents (Elt F) → (⟨S800000x32, .f32⟩ : BufTy).Contents (Elt F) → (⟨S800000x32, .f32⟩ : BufTy).Contents (Elt F)),
    StableHlo.unary main_v327 main_v328 (Host.negf : (⟨S800000x32, .f32⟩ : BufTy).Contents (Elt F) → (⟨S800000x32, .f32⟩ : BufTy).Contents (Elt F)),
    StableHlo.unary main_v328 main_v329 (Host.exp : (⟨S800000x32, .f32⟩ : BufTy).Contents (Elt F) → (⟨S800000x32, .f32⟩ : BufTy).Contents (Elt F)),
    StableHlo.nullary main_cst_40 (constant S_ .f32 0x3F800000#32),
    StableHlo.unary main_cst_40 main_v330 (broadcastInDim S800000x32 ![] bcast_S_S800000x32 : (⟨S_, .f32⟩ : BufTy).Contents (Elt F) → (⟨S800000x32, .f32⟩ : BufTy).Contents (Elt F)),
    StableHlo.binary main_v330 main_v329 main_v331 (addf : (⟨S800000x32, .f32⟩ : BufTy).Contents (Elt F) → (⟨S800000x32, .f32⟩ : BufTy).Contents (Elt F) → (⟨S800000x32, .f32⟩ : BufTy).Contents (Elt F)),
    StableHlo.nullary main_cst_41 (constant S_ .f32 0x3F800000#32),
    StableHlo.unary main_cst_41 main_v332 (broadcastInDim S800000x32 ![] bcast_S_S800000x32 : (⟨S_, .f32⟩ : BufTy).Contents (Elt F) → (⟨S800000x32, .f32⟩ : BufTy).Contents (Elt F)),
    StableHlo.binary main_v332 main_v331 main_v333 (Host.divf : (⟨S800000x32, .f32⟩ : BufTy).Contents (Elt F) → (⟨S800000x32, .f32⟩ : BufTy).Contents (Elt F) → (⟨S800000x32, .f32⟩ : BufTy).Contents (Elt F)),
    StableHlo.nullary main_c_42 (constantI S_ 32 0#32),
    StableHlo.unary main_c_42 main_v334 (broadcastInDim S800000 ![] bcast_S_S800000 : (⟨S_, .i32⟩ : BufTy).Contents (Elt F) → (⟨S800000, .i32⟩ : BufTy).Contents (Elt F)),
    StableHlo.binary main_v1 main_v334 main_v335 (cmpi .slt : (⟨S800000, .i32⟩ : BufTy).Contents (Elt F) → (⟨S800000, .i32⟩ : BufTy).Contents (Elt F) → (⟨S800000, .i1⟩ : BufTy).Contents (Elt F)),
    StableHlo.nullary main_c_43 (constantI S_ 32 100000#32),
    StableHlo.unary main_c_43 main_v336 (broadcastInDim S800000 ![] bcast_S_S800000 : (⟨S_, .i32⟩ : BufTy).Contents (Elt F) → (⟨S800000, .i32⟩ : BufTy).Contents (Elt F)),
    StableHlo.binary main_v1 main_v336 main_v337 (addi : (⟨S800000, .i32⟩ : BufTy).Contents (Elt F) → (⟨S800000, .i32⟩ : BufTy).Contents (Elt F) → (⟨S800000, .i32⟩ : BufTy).Contents (Elt F)),
    StableHlo.ternary main_v335 main_v337 main_v1 main_v338 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v338 main_v339 (broadcastInDim S800000x1 ![0] bcast_S800000_S800000x1_0 : (⟨S800000, .i32⟩ : BufTy).Contents (Elt F) → (⟨S800000x1, .i32⟩ : BufTy).Contents (Elt F)),
    StableHlo.binary main_v311 main_v339 main_v340 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v333 main_v340 main_v341 (mulf : (⟨S800000x32, .f32⟩ : BufTy).Contents (Elt F) → (⟨S800000x32, .f32⟩ : BufTy).Contents (Elt F) → (⟨S800000x32, .f32⟩ : BufTy).Contents (Elt F)),
    StableHlo.nullary main_cst_44 (constant S_ .f32 0x00000000#32),
    StableHlo.unary main_cst_44 main_v342 (broadcastInDim S100000x32 ![] bcast_S_S100000x32 : (⟨S_, .f32⟩ : BufTy).Contents (Elt F) → (⟨S100000x32, .f32⟩ : BufTy).Contents (Elt F)),
    StableHlo.unary main_v3 main_v343 (broadcastInDim S800000x1 ![0] bcast_S800000_S800000x1_0 : (⟨S800000, .i32⟩ : BufTy).Contents (Elt F) → (⟨S800000x1, .i32⟩ : BufTy).Contents (Elt F)),
    StableHlo.ternary main_v342 main_v343 main_v341 main_v344 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_45 (constant S_ .f32 0x00000000#32),
    StableHlo.unary main_cst_45 main_v345 (broadcastInDim S100000x32 ![] bcast_S_S100000x32 : (⟨S_, .f32⟩ : BufTy).Contents (Elt F) → (⟨S100000x32, .f32⟩ : BufTy).Contents (Elt F)),
    StableHlo.unary main_v3 main_v346 (broadcastInDim S800000x1 ![0] bcast_S800000_S800000x1_0 : (⟨S800000, .i32⟩ : BufTy).Contents (Elt F) → (⟨S800000x1, .i32⟩ : BufTy).Contents (Elt F)),
    StableHlo.ternary main_v345 main_v346 main_v333 main_v347 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_46 (constant S_ .f32 0x358637BD#32),
    StableHlo.unary main_cst_46 main_v348 (broadcastInDim S100000x32 ![] bcast_S_S100000x32 : (⟨S_, .f32⟩ : BufTy).Contents (Elt F) → (⟨S100000x32, .f32⟩ : BufTy).Contents (Elt F)),
    StableHlo.binary main_v347 main_v348 main_v349 (addf : (⟨S100000x32, .f32⟩ : BufTy).Contents (Elt F) → (⟨S100000x32, .f32⟩ : BufTy).Contents (Elt F) → (⟨S100000x32, .f32⟩ : BufTy).Contents (Elt F)),
    StableHlo.binary main_v344 main_v349 main_v350 (Host.divf : (⟨S100000x32, .f32⟩ : BufTy).Contents (Elt F) → (⟨S100000x32, .f32⟩ : BufTy).Contents (Elt F) → (⟨S100000x32, .f32⟩ : BufTy).Contents (Elt F)),
    StableHlo.binary main_v303 main_v350 main_v351 (addf : (⟨S100000x32, .f32⟩ : BufTy).Contents (Elt F) → (⟨S100000x32, .f32⟩ : BufTy).Contents (Elt F) → (⟨S100000x32, .f32⟩ : BufTy).Contents (Elt F)),
    StableHlo.unary main_arg17 main_v352 ((extractStridedSlice S1x32 ![2, 0] · slices_S4x32_S1x32_2_0) : (⟨S4x32, .f32⟩ : BufTy).Contents (Elt F) → (⟨S1x32, .f32⟩ : BufTy).Contents (Elt F)),
    StableHlo.reshape main_v352 main_v353 rfl shapeCasts_S1x32_S32,
    StableHlo.unary main_arg18 main_v354 ((extractStridedSlice S1x32 ![2, 0] · slices_S4x32_S1x32_2_0) : (⟨S4x32, .f32⟩ : BufTy).Contents (Elt F) → (⟨S1x32, .f32⟩ : BufTy).Contents (Elt F)),
    StableHlo.reshape main_v354 main_v355 rfl shapeCasts_S1x32_S32,
    StableHlo.nullary main_cst_47 (constant S_ .f32 0x00000000#32),
    StableHlo.binary main_v351 main_cst_47 main_v356 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_48 (constant S_ .f32 0x47C35000#32),
    StableHlo.unary main_cst_48 main_v357 (broadcastInDim S32 ![] bcast_S_S32 : (⟨S_, .f32⟩ : BufTy).Contents (Elt F) → (⟨S32, .f32⟩ : BufTy).Contents (Elt F)),
    StableHlo.binary main_v356 main_v357 main_v358 (Host.divf : (⟨S32, .f32⟩ : BufTy).Contents (Elt F) → (⟨S32, .f32⟩ : BufTy).Contents (Elt F) → (⟨S32, .f32⟩ : BufTy).Contents (Elt F)),
    StableHlo.nullary main_c_49 (constantI S_ 32 0#32),
    StableHlo.TRef.nullary main_call8.cst (constant S_ .f32 0x00000000#32),
    StableHlo.TRef.binary (.of main_v351 : StableHlo.TRef sig ⟨S100000x32, .f32⟩) main_call8.cst main_call8.v0 (fun x v => Host.reduceAdd x v reducesTo_S100000x32_S32_d0 h_S_),
    StableHlo.TRef.unary main_call8.v0 main_call8.v1 (broadcastInDim S1x32 ![1] bcast_S32_S1x32_1),
    StableHlo.TRef.nullary main_call8.cst_0 (constant S_ .f32 0x47C35000#32),
    StableHlo.TRef.unary main_call8.cst_0 main_call8.v2 (broadcastInDim S1x32 ![] bcast_S_S1x32),
    StableHlo.TRef.binary main_call8.v1 main_call8.v2 main_call8.v3 Host.divf,
    StableHlo.TRef.unary main_call8.v3 main_call8.v4 (broadcastInDim S100000x32 ![0, 1] bcast_S1x32_S100000x32_0_1),
    StableHlo.TRef.binary (.of main_v351 : StableHlo.TRef sig ⟨S100000x32, .f32⟩) main_call8.v4 main_call8.v5 subf,
    StableHlo.TRef.binary main_call8.v5 main_call8.v5 main_call8.v6 mulf,
    StableHlo.TRef.unary (.of main_c_49 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x32_S32_d0 h_S_),
    StableHlo.TRef.unary main_call8.v8 main_call8.v10 (broadcastInDim S32 ![] bcast_S_S32),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S32 ![] bcast_S_S32),
    StableHlo.TRef.ternary main_call8.v12 main_call8.v11 main_call8.call0.v1 main_call8.call0.v2 (fun p a b => select (broadcastInDim S32 ![] bcast_S_S32 p) a b),
    StableHlo.unary main_v358 main_v360 (broadcastInDim S1x32 ![1] bcast_S32_S1x32_1 : (⟨S32, .f32⟩ : BufTy).Contents (Elt F) → (⟨S1x32, .f32⟩ : BufTy).Contents (Elt F)),
    StableHlo.unary main_v360 main_v361 (broadcastInDim S100000x32 ![0, 1] bcast_S1x32_S100000x32_0_1 : (⟨S1x32, .f32⟩ : BufTy).Contents (Elt F) → (⟨S100000x32, .f32⟩ : BufTy).Contents (Elt F)),
    StableHlo.binary main_v351 main_v361 main_v362 (subf : (⟨S100000x32, .f32⟩ : BufTy).Contents (Elt F) → (⟨S100000x32, .f32⟩ : BufTy).Contents (Elt F) → (⟨S100000x32, .f32⟩ : BufTy).Contents (Elt F)),
    StableHlo.nullary main_cst_50 (constant S_ .f32 0x3727C5AC#32),
    StableHlo.unary main_cst_50 main_v363 (broadcastInDim S32 ![] bcast_S_S32 : (⟨S_, .f32⟩ : BufTy).Contents (Elt F) → (⟨S32, .f32⟩ : BufTy).Contents (Elt F)),
    StableHlo.binary main_v359 main_v363 main_v364 (addf : (⟨S32, .f32⟩ : BufTy).Contents (Elt F) → (⟨S32, .f32⟩ : BufTy).Contents (Elt F) → (⟨S32, .f32⟩ : BufTy).Contents (Elt F)),
    StableHlo.unary main_v364 main_v365 (Host.rsqrt : (⟨S32, .f32⟩ : BufTy).Contents (Elt F) → (⟨S32, .f32⟩ : BufTy).Contents (Elt F)),
    StableHlo.unary main_v365 main_v366 (broadcastInDim S1x32 ![1] bcast_S32_S1x32_1 : (⟨S32, .f32⟩ : BufTy).Contents (Elt F) → (⟨S1x32, .f32⟩ : BufTy).Contents (Elt F)) ]

/-- The reference each operation of the window writes, in the list's order: a builder's result operand (of a typed
    reference, the buffer it carries). -/
abbrev ops6_W : List (Ref sig .tc) :=
  [ main_v319, main_v320, main_c_39, main_v321, main_v322, main_v323, main_v324, main_v325,
    main_v326, main_v327, main_v328, main_v329, main_cst_40, main_v330, main_v331, main_cst_41,
    main_v332, main_v333, main_c_42, main_v334, main_v335, main_c_43, main_v336, main_v337,
    main_v338, main_v339, main_v340, main_v341, main_cst_44, main_v342, main_v343, main_v344,
    main_cst_45, main_v345, main_v346, main_v347, main_cst_46, main_v348, main_v349, main_v350,
    main_v351, main_v352, main_v353, main_v354, main_v355, main_cst_47, main_v356, main_cst_48,
    main_v357, main_v358, main_c_49, main_call8.cst.ref, main_call8.v0.ref, main_call8.v1.ref, main_call8.cst_0.ref, main_call8.v2.ref,
    main_call8.v3.ref, main_call8.v4.ref, main_call8.v5.ref, main_call8.v6.ref, main_call8.v7.ref, main_call8.cst_1.ref, main_call8.v8.ref, main_call8.cst_2.ref,
    main_call8.v9.ref, main_call8.v10.ref, main_call8.v11.ref, main_call8.cst_3.ref, main_call8.v12.ref, main_call8.cst_4.ref, main_call8.call0.v0.ref, main_call8.call0.v1.ref,
    main_call8.call0.v2.ref, main_v360, main_v361, main_v362, main_cst_50, main_v363, main_v364, main_v365,
    main_v366 ]
set_option maxRecDepth 8192 in
set_option maxHeartbeats 4000000 in
/-- The window is that straight line, by computation: the called functions' bodies unfold at their calls, sequencing
    (`>>=`) computes through each `hlo` step, and what is left on both sides is the same chain of steps. -/
theorem main_part6_eq (c : Dev nD) : main_part6 (F := F) c = StableHlo.seq ops6 := rfl

/-- Every operation of the window touches TensorCore buffers only: the list's condition is the conjunction of one
    inclusion per operation, and each operation is one of the builders, whose buffers are literal TensorCore
    references (the builders' own inclusion lemmas). -/
theorem ops6_sub : (ops6 : List (HloOp τ sig (Elt F))).Forall fun op => op.bufs ⊆ StableHlo.tcRefs τ sig := by
  simp only [List.forall_cons, List.Forall, nullary_bufs_sub, unary_bufs_sub, binary_bufs_sub, ternary_bufs_sub,
    reshape_bufs_sub, nary_bufs_sub, and_self]

set_option maxRecDepth 8192 in
/-- No operation of the window leaves a buffer undetermined: none is an allocation, so each builder's set of
    fresh buffers is empty by its definition. -/
theorem ops6_fresh : ∀ op ∈ (ops6 : List (HloOp τ sig (Elt F))), op.fresh = ∅ :=
  List.forall_iff_forall_mem.mp (by
    repeat' apply And.intro
    all_goals rfl)

set_option maxRecDepth 8192 in
set_option maxHeartbeats 4000000 in
/-- Each operation writes exactly its result buffer, and that reference stands in the window's table: the
    builder's written set is the singleton of its result operand, whose membership in the literal table is
    decided. -/
theorem ops6_writes : (ops6 : List (HloOp τ sig (Elt F))).Forall fun op =>
    op.writes ⊆ (ops6_W.map (Proc.devRef (τ := τ) .tc)).toFinset := by
  repeat' apply And.intro
  all_goals exact Finset.singleton_subset_iff.mpr (List.mem_toFinset.mpr (List.mem_map_of_mem (by decide)))

end Cert.ReferenceIdeal.RefRun

end
-- ==== Proof.RefOps7.lean ====
import proofs.«425355_j88287347737110_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxHeartbeats 4000000 in
/-- @main's statements 421 … 480, in order. Its three calls are laid out as the callees' operations over the
    calls' records: @relu at main_v374 over main_call9 (three operations), @_var_0 at (main_v327, main_c_53) over
    main_call10 (twenty, then its own call of @_where as three over main_call10.call0), @relu_1 at main_v399 over
    main_call11 (three): what executing each callee's body on the operands runs. -/
abbrev ops7 : List (HloOp τ sig (Elt F)) :=
  [ StableHlo.unary main_v366 main_v367 (broadcastInDim S100000x32 ![0, 1] bcast_S1x32_S100000x32_0_1 : (⟨S1x32, .f32⟩ : BufTy).Contents (Elt F) → (⟨S100000x32, .f32⟩ : BufTy).Contents (Elt F)),
    StableHlo.binary main_v362 main_v367 main_v368 (mulf : (⟨S100000x32, .f32⟩ : BufTy).Contents (Elt F) → (⟨S100000x32, .f32⟩ : BufTy).Contents (Elt F) → (⟨S100000x32, .f32⟩ : BufTy).Contents (Elt F)),
    StableHlo.unary main_v353 main_v369 (broadcastInDim S1x32 ![1] bcast_S32_S1x32_1 : (⟨S32, .f32⟩ : BufTy).Contents (Elt F) → (⟨S1x32, .f32⟩ : BufTy).Contents (Elt F)),
    StableHlo.unary main_v369 main_v370 (broadcastInDim S100000x32 ![0, 1] bcast_S1x32_S100000x32_0_1 : (⟨S1x32, .f32⟩ : BufTy).Contents (Elt F) → (⟨S100000x32, .f32⟩ : BufTy).Contents (Elt F)),
    StableHlo.binary main_v368 main_v370 main_v371 (mulf : (⟨S100000x32, .f32⟩ : BufTy).Contents (Elt F) → (⟨S100000x32, .f32⟩ : BufTy).Contents (Elt F) → (⟨S100000x32, .f32⟩ : BufTy).Contents (Elt F)),
    StableHlo.unary main_v355 main_v372 (broadcastInDim S1x32 ![1] bcast_S32_S1x32_1 : (⟨S32, .f32⟩ : BufTy).Contents (Elt F) → (⟨S1x32, .f32⟩ : BufTy).Contents (Elt F)),
    StableHlo.unary main_v372 main_v373 (broadcastInDim S100000x32 ![0, 1] bcast_S1x32_S100000x32_0_1 : (⟨S1x32, .f32⟩ : BufTy).Contents (Elt F) → (⟨S100000x32, .f32⟩ : BufTy).Contents (Elt F)),
    StableHlo.binary main_v371 main_v373 main_v374 (addf : (⟨S100000x32, .f32⟩ : BufTy).Contents (Elt F) → (⟨S100000x32, .f32⟩ : BufTy).Contents (Elt F) → (⟨S100000x32, .f32⟩ : BufTy).Contents (Elt F)),
    StableHlo.TRef.nullary main_call9.cst (constant S_ .f32 0x00000000#32),
    StableHlo.TRef.unary main_call9.cst main_call9.v0 (broadcastInDim S100000x32 ![] bcast_S_S100000x32),
    StableHlo.TRef.binary (.of main_v374 : StableHlo.TRef sig ⟨S100000x32, .f32⟩) main_call9.v0 main_call9.v1 maximumf,
    StableHlo.binary main_v246 main_v375 main_v376 (addf : (⟨S100000x32, .f32⟩ : BufTy).Contents (Elt F) → (⟨S100000x32, .f32⟩ : BufTy).Contents (Elt F) → (⟨S100000x32, .f32⟩ : BufTy).Contents (Elt F)),
    StableHlo.unary main_arg19 main_v377 ((extractStridedSlice S1x32 ![2, 0] · slices_S4x32_S1x32_2_0) : (⟨S4x32, .f32⟩ : BufTy).Contents (Elt F) → (⟨S1x32, .f32⟩ : BufTy).Contents (Elt F)),
    StableHlo.reshape main_v377 main_v378 rfl shapeCasts_S1x32_S32,
    StableHlo.unary main_arg20 main_v379 ((extractStridedSlice S1x32 ![2, 0] · slices_S4x32_S1x32_2_0) : (⟨S4x32, .f32⟩ : BufTy).Contents (Elt F) → (⟨S1x32, .f32⟩ : BufTy).Contents (Elt F)),
    StableHlo.reshape main_v379 main_v380 rfl shapeCasts_S1x32_S32,
    StableHlo.nullary main_cst_51 (constant S_ .f32 0x00000000#32),
    StableHlo.binary main_v327 main_cst_51 main_v381 ((fun x v => Host.reduceAdd x v reducesTo_S800000x32_S32_d0 h_S_) : (⟨S800000x32, .f32⟩ : BufTy).Contents (Elt F) → (⟨S_, .f32⟩ : BufTy).Contents (Elt F) → (⟨S32, .f32⟩ : BufTy).Contents (Elt F)),
    StableHlo.nullary main_cst_52 (constant S_ .f32 0x49435000#32),
    StableHlo.unary main_cst_52 main_v382 (broadcastInDim S32 ![] bcast_S_S32 : (⟨S_, .f32⟩ : BufTy).Contents (Elt F) → (⟨S32, .f32⟩ : BufTy).Contents (Elt F)),
    StableHlo.binary main_v381 main_v382 main_v383 (Host.divf : (⟨S32, .f32⟩ : BufTy).Contents (Elt F) → (⟨S32, .f32⟩ : BufTy).Contents (Elt F) → (⟨S32, .f32⟩ : BufTy).Contents (Elt F)),
    StableHlo.nullary main_c_53 (constantI S_ 32 0#32),
    StableHlo.TRef.nullary main_call10.cst (constant S_ .f32 0x00000000#32),
    StableHlo.TRef.binary (.of main_v327 : StableHlo.TRef sig ⟨S800000x32, .f32⟩) main_call10.cst main_call10.v0 (fun x v => Host.reduceAdd x v reducesTo_S800000x32_S32_d0 h_S_),
    StableHlo.TRef.unary main_call10.v0 main_call10.v1 (broadcastInDim S1x32 ![1] bcast_S32_S1x32_1),
    StableHlo.TRef.nullary main_call10.cst_0 (constant S_ .f32 0x49435000#32),
    StableHlo.TRef.unary main_call10.cst_0 main_call10.v2 (broadcastInDim S1x32 ![] bcast_S_S1x32),
    StableHlo.TRef.binary main_call10.v1 main_call10.v2 main_call10.v3 Host.divf,
    StableHlo.TRef.unary main_call10.v3 main_call10.v4 (broadcastInDim S800000x32 ![0, 1] bcast_S1x32_S800000x32_0_1),
    StableHlo.TRef.binary (.of main_v327 : StableHlo.TRef sig ⟨S800000x32, .f32⟩) main_call10.v4 main_call10.v5 subf,
    StableHlo.TRef.binary main_call10.v5 main_call10.v5 main_call10.v6 mulf,
    StableHlo.TRef.unary (.of main_c_53 : StableHlo.TRef sig ⟨S_, .i32⟩) main_call10.v7 (sitofp .f32),
    StableHlo.TRef.nullary main_call10.cst_1 (constant S_ .f32 0x49435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S800000x32_S32_d0 h_S_),
    StableHlo.TRef.unary main_call10.v8 main_call10.v10 (broadcastInDim S32 ![] bcast_S_S32),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S32 ![] bcast_S_S32),
    StableHlo.TRef.ternary main_call10.v12 main_call10.v11 main_call10.call0.v1 main_call10.call0.v2 (fun p a b => select (broadcastInDim S32 ![] bcast_S_S32 p) a b),
    StableHlo.unary main_v383 main_v385 (broadcastInDim S1x32 ![1] bcast_S32_S1x32_1 : (⟨S32, .f32⟩ : BufTy).Contents (Elt F) → (⟨S1x32, .f32⟩ : BufTy).Contents (Elt F)),
    StableHlo.unary main_v385 main_v386 (broadcastInDim S800000x32 ![0, 1] bcast_S1x32_S800000x32_0_1 : (⟨S1x32, .f32⟩ : BufTy).Contents (Elt F) → (⟨S800000x32, .f32⟩ : BufTy).Contents (Elt F)),
    StableHlo.binary main_v327 main_v386 main_v387 (subf : (⟨S800000x32, .f32⟩ : BufTy).Contents (Elt F) → (⟨S800000x32, .f32⟩ : BufTy).Contents (Elt F) → (⟨S800000x32, .f32⟩ : BufTy).Contents (Elt F)),
    StableHlo.nullary main_cst_54 (constant S_ .f32 0x3727C5AC#32),
    StableHlo.unary main_cst_54 main_v388 (broadcastInDim S32 ![] bcast_S_S32 : (⟨S_, .f32⟩ : BufTy).Contents (Elt F) → (⟨S32, .f32⟩ : BufTy).Contents (Elt F)),
    StableHlo.binary main_v384 main_v388 main_v389 (addf : (⟨S32, .f32⟩ : BufTy).Contents (Elt F) → (⟨S32, .f32⟩ : BufTy).Contents (Elt F) → (⟨S32, .f32⟩ : BufTy).Contents (Elt F)),
    StableHlo.unary main_v389 main_v390 (Host.rsqrt : (⟨S32, .f32⟩ : BufTy).Contents (Elt F) → (⟨S32, .f32⟩ : BufTy).Contents (Elt F)),
    StableHlo.unary main_v390 main_v391 (broadcastInDim S1x32 ![1] bcast_S32_S1x32_1 : (⟨S32, .f32⟩ : BufTy).Contents (Elt F) → (⟨S1x32, .f32⟩ : BufTy).Contents (Elt F)),
    StableHlo.unary main_v391 main_v392 (broadcastInDim S800000x32 ![0, 1] bcast_S1x32_S800000x32_0_1 : (⟨S1x32, .f32⟩ : BufTy).Contents (Elt F) → (⟨S800000x32, .f32⟩ : BufTy).Contents (Elt F)),
    StableHlo.binary main_v387 main_v392 main_v393 (mulf : (⟨S800000x32, .f32⟩ : BufTy).Contents (Elt F) → (⟨S800000x32, .f32⟩ : BufTy).Contents (Elt F) → (⟨S800000x32, .f32⟩ : BufTy).Contents (Elt F)),
    StableHlo.unary main_v378 main_v394 (broadcastInDim S1x32 ![1] bcast_S32_S1x32_1 : (⟨S32, .f32⟩ : BufTy).Contents (Elt F) → (⟨S1x32, .f32⟩ : BufTy).Contents (Elt F)),
    StableHlo.unary main_v394 main_v395 (broadcastInDim S800000x32 ![0, 1] bcast_S1x32_S800000x32_0_1 : (⟨S1x32, .f32⟩ : BufTy).Contents (Elt F) → (⟨S800000x32, .f32⟩ : BufTy).Contents (Elt F)),
    StableHlo.binary main_v393 main_v395 main_v396 (mulf : (⟨S800000x32, .f32⟩ : BufTy).Contents (Elt F) → (⟨S800000x32, .f32⟩ : BufTy).Contents (Elt F) → (⟨S800000x32, .f32⟩ : BufTy).Contents (Elt F)),
    StableHlo.unary main_v380 main_v397 (broadcastInDim S1x32 ![1] bcast_S32_S1x32_1 : (⟨S32, .f32⟩ : BufTy).Contents (Elt F) → (⟨S1x32, .f32⟩ : BufTy).Contents (Elt F)),
    StableHlo.unary main_v397 main_v398 (broadcastInDim S800000x32 ![0, 1] bcast_S1x32_S800000x32_0_1 : (⟨S1x32, .f32⟩ : BufTy).Contents (Elt F) → (⟨S800000x32, .f32⟩ : BufTy).Contents (Elt F)),
    StableHlo.binary main_v396 main_v398 main_v399 (addf : (⟨S800000x32, .f32⟩ : BufTy).Contents (Elt F) → (⟨S800000x32, .f32⟩ : BufTy).Contents (Elt F) → (⟨S800000x32, .f32⟩ : BufTy).Contents (Elt F)),
    StableHlo.TRef.nullary main_call11.cst (constant S_ .f32 0x00000000#32),
    StableHlo.TRef.unary main_call11.cst main_call11.v0 (broadcastInDim S800000x32 ![] bcast_S_S800000x32),
    StableHlo.TRef.binary (.of main_v399 : StableHlo.TRef sig ⟨S800000x32, .f32⟩) main_call11.v0 main_call11.v1 maximumf,
    StableHlo.binary main_v271 main_v400 main_v401 (addf : (⟨S800000x32, .f32⟩ : BufTy).Contents (Elt F) → (⟨S800000x32, .f32⟩ : BufTy).Contents (Elt F) → (⟨S800000x32, .f32⟩ : BufTy).Contents (Elt F)),
    StableHlo.unary main_arg7 main_v402 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v402 main_v403 rfl shapeCasts_S1x32x32_S32x32,
    StableHlo.binary main_v376 main_v403 main_v404 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg8 main_v405 ((extractStridedSlice S1x32 ![3, 0] · slices_S4x32_S1x32_3_0) : (⟨S4x32, .f32⟩ : BufTy).Contents (Elt F) → (⟨S1x32, .f32⟩ : BufTy).Contents (Elt F)),
    StableHlo.reshape main_v405 main_v406 rfl shapeCasts_S1x32_S32,
    StableHlo.unary main_v406 main_v407 (broadcastInDim S1x32 ![1] bcast_S32_S1x32_1 : (⟨S32, .f32⟩ : BufTy).Contents (Elt F) → (⟨S1x32, .f32⟩ : BufTy).Contents (Elt F)),
    StableHlo.unary main_v407 main_v408 (broadcastInDim S100000x32 ![0, 1] bcast_S1x32_S100000x32_0_1 : (⟨S1x32, .f32⟩ : BufTy).Contents (Elt F) → (⟨S100000x32, .f32⟩ : BufTy).Contents (Elt F)),
    StableHlo.binary main_v404 main_v408 main_v409 (addf : (⟨S100000x32, .f32⟩ : BufTy).Contents (Elt F) → (⟨S100000x32, .f32⟩ : BufTy).Contents (Elt F) → (⟨S100000x32, .f32⟩ : BufTy).Contents (Elt F)),
    StableHlo.unary main_arg9 main_v410 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v410 main_v411 rfl shapeCasts_S1x32x32_S32x32,
    StableHlo.binary main_v376 main_v411 main_v412 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg10 main_v413 ((extractStridedSlice S1x32 ![3, 0] · slices_S4x32_S1x32_3_0) : (⟨S4x32, .f32⟩ : BufTy).Contents (Elt F) → (⟨S1x32, .f32⟩ : BufTy).Contents (Elt F)),
    StableHlo.reshape main_v413 main_v414 rfl shapeCasts_S1x32_S32,
    StableHlo.unary main_v414 main_v415 (broadcastInDim S1x32 ![1] bcast_S32_S1x32_1 : (⟨S32, .f32⟩ : BufTy).Contents (Elt F) → (⟨S1x32, .f32⟩ : BufTy).Contents (Elt F)),
    StableHlo.unary main_v415 main_v416 (broadcastInDim S100000x32 ![0, 1] bcast_S1x32_S100000x32_0_1 : (⟨S1x32, .f32⟩ : BufTy).Contents (Elt F) → (⟨S100000x32, .f32⟩ : BufTy).Contents (Elt F)),
    StableHlo.binary main_v412 main_v416 main_v417 (addf : (⟨S100000x32, .f32⟩ : BufTy).Contents (Elt F) → (⟨S100000x32, .f32⟩ : BufTy).Contents (Elt F) → (⟨S100000x32, .f32⟩ : BufTy).Contents (Elt F)),
    StableHlo.unary main_arg11 main_v418 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v418 main_v419 rfl shapeCasts_S1x32x32_S32x32,
    StableHlo.binary main_v401 main_v419 main_v420 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    StableHlo.unary main_arg12 main_v421 ((extractStridedSlice S1x32 ![3, 0] · slices_S4x32_S1x32_3_0) : (⟨S4x32, .f32⟩ : BufTy).Contents (Elt F) → (⟨S1x32, .f32⟩ : BufTy).Contents (Elt F)),
    StableHlo.reshape main_v421 main_v422 rfl shapeCasts_S1x32_S32 ]

/-- The reference each operation of the window writes, in the list's order: a builder's result operand (of a typed
    reference, the buffer it carries). -/
abbrev ops7_W : List (Ref sig .tc) :=
  [ main_v367, main_v368, main_v369, main_v370, main_v371, main_v372, main_v373, main_v374,
    main_call9.cst.ref, main_call9.v0.ref, main_call9.v1.ref, main_v376, main_v377, main_v378, main_v379, main_v380,
    main_cst_51, main_v381, main_cst_52, main_v382, main_v383, main_c_53, main_call10.cst.ref, main_call10.v0.ref,
    main_call10.v1.ref, main_call10.cst_0.ref, main_call10.v2.ref, main_call10.v3.ref, main_call10.v4.ref, main_call10.v5.ref, main_call10.v6.ref, main_call10.v7.ref,
    main_call10.cst_1.ref, main_call10.v8.ref, main_call10.cst_2.ref, main_call10.v9.ref, main_call10.v10.ref, main_call10.v11.ref, main_call10.cst_3.ref, main_call10.v12.ref,
    main_call10.cst_4.ref, main_call10.call0.v0.ref, main_call10.call0.v1.ref, main_call10.call0.v2.ref, main_v385, main_v386, main_v387, main_cst_54,
    main_v388, main_v389, main_v390, main_v391, main_v392, main_v393, main_v394, main_v395,
    main_v396, main_v397, main_v398, main_v399, main_call11.cst.ref, main_call11.v0.ref, main_call11.v1.ref, main_v401,
    main_v402, main_v403, main_v404, main_v405, main_v406, main_v407, main_v408, main_v409,
    main_v410, main_v411, main_v412, main_v413, main_v414, main_v415, main_v416, main_v417,
    main_v418, main_v419, main_v420, main_v421, main_v422 ]
set_option maxRecDepth 8192 in
set_option maxHeartbeats 4000000 in
/-- The window is that straight line, by computation: the called functions' bodies unfold at their calls, sequencing
    (`>>=`) computes through each `hlo` step, and what is left on both sides is the same chain of steps. -/
theorem main_part7_eq (c : Dev nD) : main_part7 (F := F) c = StableHlo.seq ops7 := rfl

/-- Every operation of the window touches TensorCore buffers only: the list's condition is the conjunction of one
    inclusion per operation, and each operation is one of the builders, whose buffers are literal TensorCore
    references (the builders' own inclusion lemmas). -/
theorem ops7_sub : (ops7 : List (HloOp τ sig (Elt F))).Forall fun op => op.bufs ⊆ StableHlo.tcRefs τ sig := by
  simp only [List.forall_cons, List.Forall, nullary_bufs_sub, unary_bufs_sub, binary_bufs_sub, ternary_bufs_sub,
    reshape_bufs_sub, nary_bufs_sub, and_self]

set_option maxRecDepth 8192 in
/-- No operation of the window leaves a buffer undetermined: none is an allocation, so each builder's set of
    fresh buffers is empty by its definition. -/
theorem ops7_fresh : ∀ op ∈ (ops7 : List (HloOp τ sig (Elt F))), op.fresh = ∅ :=
  List.forall_iff_forall_mem.mp (by
    repeat' apply And.intro
    all_goals rfl)

set_option maxRecDepth 8192 in
set_option maxHeartbeats 4000000 in
/-- Each operation writes exactly its result buffer, and that reference stands in the window's table: the
    builder's written set is the singleton of its result operand, whose membership in the literal table is
    decided. -/
theorem ops7_writes : (ops7 : List (HloOp τ sig (Elt F))).Forall fun op =>
    op.writes ⊆ (ops7_W.map (Proc.devRef (τ := τ) .tc)).toFinset := by
  repeat' apply And.intro
  all_goals exact Finset.singleton_subset_iff.mpr (List.mem_toFinset.mpr (List.mem_map_of_mem (by decide)))

end Cert.ReferenceIdeal.RefRun

end
-- ==== Proof.RefOps8.lean ====
import proofs.«425355_j88287347737110_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxHeartbeats 4000000 in
/-- @main's statements 481 … 540, in order: the window makes no call, so the list is its statements' operations. -/
abbrev ops8 : List (HloOp τ sig (Elt F)) :=
  [ StableHlo.unary main_v422 main_v423 (broadcastInDim S1x32 ![1] bcast_S32_S1x32_1 : (⟨S32, .f32⟩ : BufTy).Contents (Elt F) → (⟨S1x32, .f32⟩ : BufTy).Contents (Elt F)),
    StableHlo.unary main_v423 main_v424 (broadcastInDim S800000x32 ![0, 1] bcast_S1x32_S800000x32_0_1 : (⟨S1x32, .f32⟩ : BufTy).Contents (Elt F) → (⟨S800000x32, .f32⟩ : BufTy).Contents (Elt F)),
    StableHlo.binary main_v420 main_v424 main_v425 (addf : (⟨S800000x32, .f32⟩ : BufTy).Contents (Elt F) → (⟨S800000x32, .f32⟩ : BufTy).Contents (Elt F) → (⟨S800000x32, .f32⟩ : BufTy).Contents (Elt F)),
    StableHlo.unary main_arg13 main_v426 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v426 main_v427 rfl shapeCasts_S1x32x32_S32x32,
    StableHlo.binary main_v376 main_v427 main_v428 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg14 main_v429 ((extractStridedSlice S1x32 ![3, 0] · slices_S4x32_S1x32_3_0) : (⟨S4x32, .f32⟩ : BufTy).Contents (Elt F) → (⟨S1x32, .f32⟩ : BufTy).Contents (Elt F)),
    StableHlo.reshape main_v429 main_v430 rfl shapeCasts_S1x32_S32,
    StableHlo.unary main_v430 main_v431 (broadcastInDim S1x32 ![1] bcast_S32_S1x32_1 : (⟨S32, .f32⟩ : BufTy).Contents (Elt F) → (⟨S1x32, .f32⟩ : BufTy).Contents (Elt F)),
    StableHlo.unary main_v431 main_v432 (broadcastInDim S100000x32 ![0, 1] bcast_S1x32_S100000x32_0_1 : (⟨S1x32, .f32⟩ : BufTy).Contents (Elt F) → (⟨S100000x32, .f32⟩ : BufTy).Contents (Elt F)),
    StableHlo.binary main_v428 main_v432 main_v433 (addf : (⟨S100000x32, .f32⟩ : BufTy).Contents (Elt F) → (⟨S100000x32, .f32⟩ : BufTy).Contents (Elt F) → (⟨S100000x32, .f32⟩ : BufTy).Contents (Elt F)),
    StableHlo.unary main_arg15 main_v434 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v434 main_v435 rfl shapeCasts_S1x32x32_S32x32,
    StableHlo.binary main_v376 main_v435 main_v436 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg16 main_v437 ((extractStridedSlice S1x32 ![3, 0] · slices_S4x32_S1x32_3_0) : (⟨S4x32, .f32⟩ : BufTy).Contents (Elt F) → (⟨S1x32, .f32⟩ : BufTy).Contents (Elt F)),
    StableHlo.reshape main_v437 main_v438 rfl shapeCasts_S1x32_S32,
    StableHlo.unary main_v438 main_v439 (broadcastInDim S1x32 ![1] bcast_S32_S1x32_1 : (⟨S32, .f32⟩ : BufTy).Contents (Elt F) → (⟨S1x32, .f32⟩ : BufTy).Contents (Elt F)),
    StableHlo.unary main_v439 main_v440 (broadcastInDim S100000x32 ![0, 1] bcast_S1x32_S100000x32_0_1 : (⟨S1x32, .f32⟩ : BufTy).Contents (Elt F) → (⟨S100000x32, .f32⟩ : BufTy).Contents (Elt F)),
    StableHlo.binary main_v436 main_v440 main_v441 (addf : (⟨S100000x32, .f32⟩ : BufTy).Contents (Elt F) → (⟨S100000x32, .f32⟩ : BufTy).Contents (Elt F) → (⟨S100000x32, .f32⟩ : BufTy).Contents (Elt F)),
    StableHlo.nullary main_c_55 (constantI S_ 32 0#32),
    StableHlo.unary main_c_55 main_v442 (broadcastInDim S800000 ![] bcast_S_S800000 : (⟨S_, .i32⟩ : BufTy).Contents (Elt F) → (⟨S800000, .i32⟩ : BufTy).Contents (Elt F)),
    StableHlo.binary main_v3 main_v442 main_v443 (cmpi .slt : (⟨S800000, .i32⟩ : BufTy).Contents (Elt F) → (⟨S800000, .i32⟩ : BufTy).Contents (Elt F) → (⟨S800000, .i1⟩ : BufTy).Contents (Elt F)),
    StableHlo.nullary main_c_56 (constantI S_ 32 100000#32),
    StableHlo.unary main_c_56 main_v444 (broadcastInDim S800000 ![] bcast_S_S800000 : (⟨S_, .i32⟩ : BufTy).Contents (Elt F) → (⟨S800000, .i32⟩ : BufTy).Contents (Elt F)),
    StableHlo.binary main_v3 main_v444 main_v445 (addi : (⟨S800000, .i32⟩ : BufTy).Contents (Elt F) → (⟨S800000, .i32⟩ : BufTy).Contents (Elt F) → (⟨S800000, .i32⟩ : BufTy).Contents (Elt F)),
    StableHlo.ternary main_v443 main_v445 main_v3 main_v446 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v446 main_v447 (broadcastInDim S800000x1 ![0] bcast_S800000_S800000x1_0 : (⟨S800000, .i32⟩ : BufTy).Contents (Elt F) → (⟨S800000x1, .i32⟩ : BufTy).Contents (Elt F)),
    StableHlo.binary main_v409 main_v447 main_v448 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nullary main_c_57 (constantI S_ 32 0#32),
    StableHlo.unary main_c_57 main_v449 (broadcastInDim S800000 ![] bcast_S_S800000 : (⟨S_, .i32⟩ : BufTy).Contents (Elt F) → (⟨S800000, .i32⟩ : BufTy).Contents (Elt F)),
    StableHlo.binary main_v1 main_v449 main_v450 (cmpi .slt : (⟨S800000, .i32⟩ : BufTy).Contents (Elt F) → (⟨S800000, .i32⟩ : BufTy).Contents (Elt F) → (⟨S800000, .i1⟩ : BufTy).Contents (Elt F)),
    StableHlo.nullary main_c_58 (constantI S_ 32 100000#32),
    StableHlo.unary main_c_58 main_v451 (broadcastInDim S800000 ![] bcast_S_S800000 : (⟨S_, .i32⟩ : BufTy).Contents (Elt F) → (⟨S800000, .i32⟩ : BufTy).Contents (Elt F)),
    StableHlo.binary main_v1 main_v451 main_v452 (addi : (⟨S800000, .i32⟩ : BufTy).Contents (Elt F) → (⟨S800000, .i32⟩ : BufTy).Contents (Elt F) → (⟨S800000, .i32⟩ : BufTy).Contents (Elt F)),
    StableHlo.ternary main_v450 main_v452 main_v1 main_v453 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v453 main_v454 (broadcastInDim S800000x1 ![0] bcast_S800000_S800000x1_0 : (⟨S800000, .i32⟩ : BufTy).Contents (Elt F) → (⟨S800000x1, .i32⟩ : BufTy).Contents (Elt F)),
    StableHlo.binary main_v417 main_v454 main_v455 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v448 main_v455 main_v456 (addf : (⟨S800000x32, .f32⟩ : BufTy).Contents (Elt F) → (⟨S800000x32, .f32⟩ : BufTy).Contents (Elt F) → (⟨S800000x32, .f32⟩ : BufTy).Contents (Elt F)),
    StableHlo.binary main_v456 main_v425 main_v457 (addf : (⟨S800000x32, .f32⟩ : BufTy).Contents (Elt F) → (⟨S800000x32, .f32⟩ : BufTy).Contents (Elt F) → (⟨S800000x32, .f32⟩ : BufTy).Contents (Elt F)),
    StableHlo.unary main_v457 main_v458 (Host.negf : (⟨S800000x32, .f32⟩ : BufTy).Contents (Elt F) → (⟨S800000x32, .f32⟩ : BufTy).Contents (Elt F)),
    StableHlo.unary main_v458 main_v459 (Host.exp : (⟨S800000x32, .f32⟩ : BufTy).Contents (Elt F) → (⟨S800000x32, .f32⟩ : BufTy).Contents (Elt F)),
    StableHlo.nullary main_cst_59 (constant S_ .f32 0x3F800000#32),
    StableHlo.unary main_cst_59 main_v460 (broadcastInDim S800000x32 ![] bcast_S_S800000x32 : (⟨S_, .f32⟩ : BufTy).Contents (Elt F) → (⟨S800000x32, .f32⟩ : BufTy).Contents (Elt F)),
    StableHlo.binary main_v460 main_v459 main_v461 (addf : (⟨S800000x32, .f32⟩ : BufTy).Contents (Elt F) → (⟨S800000x32, .f32⟩ : BufTy).Contents (Elt F) → (⟨S800000x32, .f32⟩ : BufTy).Contents (Elt F)),
    StableHlo.nullary main_cst_60 (constant S_ .f32 0x3F800000#32),
    StableHlo.unary main_cst_60 main_v462 (broadcastInDim S800000x32 ![] bcast_S_S800000x32 : (⟨S_, .f32⟩ : BufTy).Contents (Elt F) → (⟨S800000x32, .f32⟩ : BufTy).Contents (Elt F)),
    StableHlo.binary main_v462 main_v461 main_v463 (Host.divf : (⟨S800000x32, .f32⟩ : BufTy).Contents (Elt F) → (⟨S800000x32, .f32⟩ : BufTy).Contents (Elt F) → (⟨S800000x32, .f32⟩ : BufTy).Contents (Elt F)),
    StableHlo.nullary main_c_61 (constantI S_ 32 0#32),
    StableHlo.unary main_c_61 main_v464 (broadcastInDim S800000 ![] bcast_S_S800000 : (⟨S_, .i32⟩ : BufTy).Contents (Elt F) → (⟨S800000, .i32⟩ : BufTy).Contents (Elt F)),
    StableHlo.binary main_v1 main_v464 main_v465 (cmpi .slt : (⟨S800000, .i32⟩ : BufTy).Contents (Elt F) → (⟨S800000, .i32⟩ : BufTy).Contents (Elt F) → (⟨S800000, .i1⟩ : BufTy).Contents (Elt F)),
    StableHlo.nullary main_c_62 (constantI S_ 32 100000#32),
    StableHlo.unary main_c_62 main_v466 (broadcastInDim S800000 ![] bcast_S_S800000 : (⟨S_, .i32⟩ : BufTy).Contents (Elt F) → (⟨S800000, .i32⟩ : BufTy).Contents (Elt F)),
    StableHlo.binary main_v1 main_v466 main_v467 (addi : (⟨S800000, .i32⟩ : BufTy).Contents (Elt F) → (⟨S800000, .i32⟩ : BufTy).Contents (Elt F) → (⟨S800000, .i32⟩ : BufTy).Contents (Elt F)),
    StableHlo.ternary main_v465 main_v467 main_v1 main_v468 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v468 main_v469 (broadcastInDim S800000x1 ![0] bcast_S800000_S800000x1_0 : (⟨S800000, .i32⟩ : BufTy).Contents (Elt F) → (⟨S800000x1, .i32⟩ : BufTy).Contents (Elt F)),
    StableHlo.binary main_v441 main_v469 main_v470 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v463 main_v470 main_v471 (mulf : (⟨S800000x32, .f32⟩ : BufTy).Contents (Elt F) → (⟨S800000x32, .f32⟩ : BufTy).Contents (Elt F) → (⟨S800000x32, .f32⟩ : BufTy).Contents (Elt F)),
    StableHlo.nullary main_cst_63 (constant S_ .f32 0x00000000#32),
    StableHlo.unary main_cst_63 main_v472 (broadcastInDim S100000x32 ![] bcast_S_S100000x32 : (⟨S_, .f32⟩ : BufTy).Contents (Elt F) → (⟨S100000x32, .f32⟩ : BufTy).Contents (Elt F)),
    StableHlo.unary main_v3 main_v473 (broadcastInDim S800000x1 ![0] bcast_S800000_S800000x1_0 : (⟨S800000, .i32⟩ : BufTy).Contents (Elt F) → (⟨S800000x1, .i32⟩ : BufTy).Contents (Elt F)) ]

/-- The reference each operation of the window writes, in the list's order: a builder's result operand (of a typed
    reference, the buffer it carries). -/
abbrev ops8_W : List (Ref sig .tc) :=
  [ main_v423, main_v424, main_v425, main_v426, main_v427, main_v428, main_v429, main_v430,
    main_v431, main_v432, main_v433, main_v434, main_v435, main_v436, main_v437, main_v438,
    main_v439, main_v440, main_v441, main_c_55, main_v442, main_v443, main_c_56, main_v444,
    main_v445, main_v446, main_v447, main_v448, main_c_57, main_v449, main_v450, main_c_58,
    main_v451, main_v452, main_v453, main_v454, main_v455, main_v456, main_v457, main_v458,
    main_v459, main_cst_59, main_v460, main_v461, main_cst_60, main_v462, main_v463, main_c_61,
    main_v464, main_v465, main_c_62, main_v466, main_v467, main_v468, main_v469, main_v470,
    main_v471, main_cst_63, main_v472, main_v473 ]
set_option maxRecDepth 8192 in
set_option maxHeartbeats 4000000 in
/-- The window is that straight line, by computation: sequencing
    (`>>=`) computes through each `hlo` step, and what is left on both sides is the same chain of steps. -/
theorem main_part8_eq (c : Dev nD) : main_part8 (F := F) c = StableHlo.seq ops8 := rfl

/-- Every operation of the window touches TensorCore buffers only: the list's condition is the conjunction of one
    inclusion per operation, and each operation is one of the builders, whose buffers are literal TensorCore
    references (the builders' own inclusion lemmas). -/
theorem ops8_sub : (ops8 : List (HloOp τ sig (Elt F))).Forall fun op => op.bufs ⊆ StableHlo.tcRefs τ sig := by
  simp only [List.forall_cons, List.Forall, nullary_bufs_sub, unary_bufs_sub, binary_bufs_sub, ternary_bufs_sub,
    reshape_bufs_sub, nary_bufs_sub, and_self]

set_option maxRecDepth 8192 in
/-- No operation of the window leaves a buffer undetermined: none is an allocation, so each builder's set of
    fresh buffers is empty by its definition. -/
theorem ops8_fresh : ∀ op ∈ (ops8 : List (HloOp τ sig (Elt F))), op.fresh = ∅ :=
  List.forall_iff_forall_mem.mp (by
    repeat' apply And.intro
    all_goals rfl)

set_option maxRecDepth 8192 in
set_option maxHeartbeats 4000000 in
/-- Each operation writes exactly its result buffer, and that reference stands in the window's table: the
    builder's written set is the singleton of its result operand, whose membership in the literal table is
    decided. -/
theorem ops8_writes : (ops8 : List (HloOp τ sig (Elt F))).Forall fun op =>
    op.writes ⊆ (ops8_W.map (Proc.devRef (τ := τ) .tc)).toFinset := by
  repeat' apply And.intro
  all_goals exact Finset.singleton_subset_iff.mpr (List.mem_toFinset.mpr (List.mem_map_of_mem (by decide)))

end Cert.ReferenceIdeal.RefRun

end
-- ==== Proof.RefOps9.lean ====
import proofs.«425355_j88287347737110_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxHeartbeats 4000000 in
/-- @main's statements 541 … 600, in order. Its three calls are laid out as the callees' operations over the
    calls' records: @_var at (main_v481, main_c_68) over main_call12 (twenty operations, then its own call of
    @_where as three over main_call12.call0), @relu at main_v504 over main_call13 (three), @_var_0 at
    (main_v457, main_c_72) over main_call14 (twenty, then @_where's three over main_call14.call0): what executing
    each callee's body on the operands runs. -/
abbrev ops9 : List (HloOp τ sig (Elt F)) :=
  [ StableHlo.ternary main_v472 main_v473 main_v471 main_v474 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_64 (constant S_ .f32 0x00000000#32),
    StableHlo.unary main_cst_64 main_v475 (broadcastInDim S100000x32 ![] bcast_S_S100000x32 : (⟨S_, .f32⟩ : BufTy).Contents (Elt F) → (⟨S100000x32, .f32⟩ : BufTy).Contents (Elt F)),
    StableHlo.unary main_v3 main_v476 (broadcastInDim S800000x1 ![0] bcast_S800000_S800000x1_0 : (⟨S800000, .i32⟩ : BufTy).Contents (Elt F) → (⟨S800000x1, .i32⟩ : BufTy).Contents (Elt F)),
    StableHlo.ternary main_v475 main_v476 main_v463 main_v477 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_65 (constant S_ .f32 0x358637BD#32),
    StableHlo.unary main_cst_65 main_v478 (broadcastInDim S100000x32 ![] bcast_S_S100000x32 : (⟨S_, .f32⟩ : BufTy).Contents (Elt F) → (⟨S100000x32, .f32⟩ : BufTy).Contents (Elt F)),
    StableHlo.binary main_v477 main_v478 main_v479 (addf : (⟨S100000x32, .f32⟩ : BufTy).Contents (Elt F) → (⟨S100000x32, .f32⟩ : BufTy).Contents (Elt F) → (⟨S100000x32, .f32⟩ : BufTy).Contents (Elt F)),
    StableHlo.binary main_v474 main_v479 main_v480 (Host.divf : (⟨S100000x32, .f32⟩ : BufTy).Contents (Elt F) → (⟨S100000x32, .f32⟩ : BufTy).Contents (Elt F) → (⟨S100000x32, .f32⟩ : BufTy).Contents (Elt F)),
    StableHlo.binary main_v433 main_v480 main_v481 (addf : (⟨S100000x32, .f32⟩ : BufTy).Contents (Elt F) → (⟨S100000x32, .f32⟩ : BufTy).Contents (Elt F) → (⟨S100000x32, .f32⟩ : BufTy).Contents (Elt F)),
    StableHlo.unary main_arg17 main_v482 ((extractStridedSlice S1x32 ![3, 0] · slices_S4x32_S1x32_3_0) : (⟨S4x32, .f32⟩ : BufTy).Contents (Elt F) → (⟨S1x32, .f32⟩ : BufTy).Contents (Elt F)),
    StableHlo.reshape main_v482 main_v483 rfl shapeCasts_S1x32_S32,
    StableHlo.unary main_arg18 main_v484 ((extractStridedSlice S1x32 ![3, 0] · slices_S4x32_S1x32_3_0) : (⟨S4x32, .f32⟩ : BufTy).Contents (Elt F) → (⟨S1x32, .f32⟩ : BufTy).Contents (Elt F)),
    StableHlo.reshape main_v484 main_v485 rfl shapeCasts_S1x32_S32,
    StableHlo.nullary main_cst_66 (constant S_ .f32 0x00000000#32),
    StableHlo.binary main_v481 main_cst_66 main_v486 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_67 (constant S_ .f32 0x47C35000#32),
    StableHlo.unary main_cst_67 main_v487 (broadcastInDim S32 ![] bcast_S_S32 : (⟨S_, .f32⟩ : BufTy).Contents (Elt F) → (⟨S32, .f32⟩ : BufTy).Contents (Elt F)),
    StableHlo.binary main_v486 main_v487 main_v488 (Host.divf : (⟨S32, .f32⟩ : BufTy).Contents (Elt F) → (⟨S32, .f32⟩ : BufTy).Contents (Elt F) → (⟨S32, .f32⟩ : BufTy).Contents (Elt F)),
    StableHlo.nullary main_c_68 (constantI S_ 32 0#32),
    StableHlo.TRef.nullary main_call12.cst (constant S_ .f32 0x00000000#32),
    StableHlo.TRef.binary (.of main_v481 : StableHlo.TRef sig ⟨S100000x32, .f32⟩) main_call12.cst main_call12.v0 (fun x v => Host.reduceAdd x v reducesTo_S100000x32_S32_d0 h_S_),
    StableHlo.TRef.unary main_call12.v0 main_call12.v1 (broadcastInDim S1x32 ![1] bcast_S32_S1x32_1),
    StableHlo.TRef.nullary main_call12.cst_0 (constant S_ .f32 0x47C35000#32),
    StableHlo.TRef.unary main_call12.cst_0 main_call12.v2 (broadcastInDim S1x32 ![] bcast_S_S1x32),
    StableHlo.TRef.binary main_call12.v1 main_call12.v2 main_call12.v3 Host.divf,
    StableHlo.TRef.unary main_call12.v3 main_call12.v4 (broadcastInDim S100000x32 ![0, 1] bcast_S1x32_S100000x32_0_1),
    StableHlo.TRef.binary (.of main_v481 : StableHlo.TRef sig ⟨S100000x32, .f32⟩) main_call12.v4 main_call12.v5 subf,
    StableHlo.TRef.binary main_call12.v5 main_call12.v5 main_call12.v6 mulf,
    StableHlo.TRef.unary (.of main_c_68 : StableHlo.TRef sig ⟨S_, .i32⟩) main_call12.v7 (sitofp .f32),
    StableHlo.TRef.nullary main_call12.cst_1 (constant S_ .f32 0x47C35000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S100000x32_S32_d0 h_S_),
    StableHlo.TRef.unary main_call12.v8 main_call12.v10 (broadcastInDim S32 ![] bcast_S_S32),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S32 ![] bcast_S_S32),
    StableHlo.TRef.ternary main_call12.v12 main_call12.v11 main_call12.call0.v1 main_call12.call0.v2 (fun p a b => select (broadcastInDim S32 ![] bcast_S_S32 p) a b),
    StableHlo.unary main_v488 main_v490 (broadcastInDim S1x32 ![1] bcast_S32_S1x32_1 : (⟨S32, .f32⟩ : BufTy).Contents (Elt F) → (⟨S1x32, .f32⟩ : BufTy).Contents (Elt F)),
    StableHlo.unary main_v490 main_v491 (broadcastInDim S100000x32 ![0, 1] bcast_S1x32_S100000x32_0_1 : (⟨S1x32, .f32⟩ : BufTy).Contents (Elt F) → (⟨S100000x32, .f32⟩ : BufTy).Contents (Elt F)),
    StableHlo.binary main_v481 main_v491 main_v492 (subf : (⟨S100000x32, .f32⟩ : BufTy).Contents (Elt F) → (⟨S100000x32, .f32⟩ : BufTy).Contents (Elt F) → (⟨S100000x32, .f32⟩ : BufTy).Contents (Elt F)),
    StableHlo.nullary main_cst_69 (constant S_ .f32 0x3727C5AC#32),
    StableHlo.unary main_cst_69 main_v493 (broadcastInDim S32 ![] bcast_S_S32 : (⟨S_, .f32⟩ : BufTy).Contents (Elt F) → (⟨S32, .f32⟩ : BufTy).Contents (Elt F)),
    StableHlo.binary main_v489 main_v493 main_v494 (addf : (⟨S32, .f32⟩ : BufTy).Contents (Elt F) → (⟨S32, .f32⟩ : BufTy).Contents (Elt F) → (⟨S32, .f32⟩ : BufTy).Contents (Elt F)),
    StableHlo.unary main_v494 main_v495 (Host.rsqrt : (⟨S32, .f32⟩ : BufTy).Contents (Elt F) → (⟨S32, .f32⟩ : BufTy).Contents (Elt F)),
    StableHlo.unary main_v495 main_v496 (broadcastInDim S1x32 ![1] bcast_S32_S1x32_1 : (⟨S32, .f32⟩ : BufTy).Contents (Elt F) → (⟨S1x32, .f32⟩ : BufTy).Contents (Elt F)),
    StableHlo.unary main_v496 main_v497 (broadcastInDim S100000x32 ![0, 1] bcast_S1x32_S100000x32_0_1 : (⟨S1x32, .f32⟩ : BufTy).Contents (Elt F) → (⟨S100000x32, .f32⟩ : BufTy).Contents (Elt F)),
    StableHlo.binary main_v492 main_v497 main_v498 (mulf : (⟨S100000x32, .f32⟩ : BufTy).Contents (Elt F) → (⟨S100000x32, .f32⟩ : BufTy).Contents (Elt F) → (⟨S100000x32, .f32⟩ : BufTy).Contents (Elt F)),
    StableHlo.unary main_v483 main_v499 (broadcastInDim S1x32 ![1] bcast_S32_S1x32_1 : (⟨S32, .f32⟩ : BufTy).Contents (Elt F) → (⟨S1x32, .f32⟩ : BufTy).Contents (Elt F)),
    StableHlo.unary main_v499 main_v500 (broadcastInDim S100000x32 ![0, 1] bcast_S1x32_S100000x32_0_1 : (⟨S1x32, .f32⟩ : BufTy).Contents (Elt F) → (⟨S100000x32, .f32⟩ : BufTy).Contents (Elt F)),
    StableHlo.binary main_v498 main_v500 main_v501 (mulf : (⟨S100000x32, .f32⟩ : BufTy).Contents (Elt F) → (⟨S100000x32, .f32⟩ : BufTy).Contents (Elt F) → (⟨S100000x32, .f32⟩ : BufTy).Contents (Elt F)),
    StableHlo.unary main_v485 main_v502 (broadcastInDim S1x32 ![1] bcast_S32_S1x32_1 : (⟨S32, .f32⟩ : BufTy).Contents (Elt F) → (⟨S1x32, .f32⟩ : BufTy).Contents (Elt F)),
    StableHlo.unary main_v502 main_v503 (broadcastInDim S100000x32 ![0, 1] bcast_S1x32_S100000x32_0_1 : (⟨S1x32, .f32⟩ : BufTy).Contents (Elt F) → (⟨S100000x32, .f32⟩ : BufTy).Contents (Elt F)),
    StableHlo.binary main_v501 main_v503 main_v504 (addf : (⟨S100000x32, .f32⟩ : BufTy).Contents (Elt F) → (⟨S100000x32, .f32⟩ : BufTy).Contents (Elt F) → (⟨S100000x32, .f32⟩ : BufTy).Contents (Elt F)),
    StableHlo.TRef.nullary main_call13.cst (constant S_ .f32 0x00000000#32),
    StableHlo.TRef.unary main_call13.cst main_call13.v0 (broadcastInDim S100000x32 ![] bcast_S_S100000x32),
    StableHlo.TRef.binary (.of main_v504 : StableHlo.TRef sig ⟨S100000x32, .f32⟩) main_call13.v0 main_call13.v1 maximumf,
    StableHlo.binary main_v376 main_v505 main_v506 (addf : (⟨S100000x32, .f32⟩ : BufTy).Contents (Elt F) → (⟨S100000x32, .f32⟩ : BufTy).Contents (Elt F) → (⟨S100000x32, .f32⟩ : BufTy).Contents (Elt F)),
    StableHlo.unary main_arg19 main_v507 ((extractStridedSlice S1x32 ![3, 0] · slices_S4x32_S1x32_3_0) : (⟨S4x32, .f32⟩ : BufTy).Contents (Elt F) → (⟨S1x32, .f32⟩ : BufTy).Contents (Elt F)),
    StableHlo.reshape main_v507 main_v508 rfl shapeCasts_S1x32_S32,
    StableHlo.unary main_arg20 main_v509 ((extractStridedSlice S1x32 ![3, 0] · slices_S4x32_S1x32_3_0) : (⟨S4x32, .f32⟩ : BufTy).Contents (Elt F) → (⟨S1x32, .f32⟩ : BufTy).Contents (Elt F)),
    StableHlo.reshape main_v509 main_v510 rfl shapeCasts_S1x32_S32,
    StableHlo.nullary main_cst_70 (constant S_ .f32 0x00000000#32),
    StableHlo.binary main_v457 main_cst_70 main_v511 ((fun x v => Host.reduceAdd x v reducesTo_S800000x32_S32_d0 h_S_) : (⟨S800000x32, .f32⟩ : BufTy).Contents (Elt F) → (⟨S_, .f32⟩ : BufTy).Contents (Elt F) → (⟨S32, .f32⟩ : BufTy).Contents (Elt F)),
    StableHlo.nullary main_cst_71 (constant S_ .f32 0x49435000#32),
    StableHlo.unary main_cst_71 main_v512 (broadcastInDim S32 ![] bcast_S_S32 : (⟨S_, .f32⟩ : BufTy).Contents (Elt F) → (⟨S32, .f32⟩ : BufTy).Contents (Elt F)),
    StableHlo.binary main_v511 main_v512 main_v513 (Host.divf : (⟨S32, .f32⟩ : BufTy).Contents (Elt F) → (⟨S32, .f32⟩ : BufTy).Contents (Elt F) → (⟨S32, .f32⟩ : BufTy).Contents (Elt F)),
    StableHlo.nullary main_c_72 (constantI S_ 32 0#32),
    StableHlo.TRef.nullary main_call14.cst (constant S_ .f32 0x00000000#32),
    StableHlo.TRef.binary (.of main_v457 : StableHlo.TRef sig ⟨S800000x32, .f32⟩) main_call14.cst main_call14.v0 (fun x v => Host.reduceAdd x v reducesTo_S800000x32_S32_d0 h_S_),
    StableHlo.TRef.unary main_call14.v0 main_call14.v1 (broadcastInDim S1x32 ![1] bcast_S32_S1x32_1),
    StableHlo.TRef.nullary main_call14.cst_0 (constant S_ .f32 0x49435000#32),
    StableHlo.TRef.unary main_call14.cst_0 main_call14.v2 (broadcastInDim S1x32 ![] bcast_S_S1x32),
    StableHlo.TRef.binary main_call14.v1 main_call14.v2 main_call14.v3 Host.divf,
    StableHlo.TRef.unary main_call14.v3 main_call14.v4 (broadcastInDim S800000x32 ![0, 1] bcast_S1x32_S800000x32_0_1),
    StableHlo.TRef.binary (.of main_v457 : StableHlo.TRef sig ⟨S800000x32, .f32⟩) main_call14.v4 main_call14.v5 subf,
    StableHlo.TRef.binary main_call14.v5 main_call14.v5 main_call14.v6 mulf,
    StableHlo.TRef.unary (.of main_c_72 : StableHlo.TRef sig ⟨S_, .i32⟩) main_call14.v7 (sitofp .f32),
    StableHlo.TRef.nullary main_call14.cst_1 (constant S_ .f32 0x49435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S800000x32_S32_d0 h_S_),
    StableHlo.TRef.unary main_call14.v8 main_call14.v10 (broadcastInDim S32 ![] bcast_S_S32),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S32 ![] bcast_S_S32),
    StableHlo.TRef.ternary main_call14.v12 main_call14.v11 main_call14.call0.v1 main_call14.call0.v2 (fun p a b => select (broadcastInDim S32 ![] bcast_S_S32 p) a b),
    StableHlo.unary main_v513 main_v515 (broadcastInDim S1x32 ![1] bcast_S32_S1x32_1 : (⟨S32, .f32⟩ : BufTy).Contents (Elt F) → (⟨S1x32, .f32⟩ : BufTy).Contents (Elt F)),
    StableHlo.unary main_v515 main_v516 (broadcastInDim S800000x32 ![0, 1] bcast_S1x32_S800000x32_0_1 : (⟨S1x32, .f32⟩ : BufTy).Contents (Elt F) → (⟨S800000x32, .f32⟩ : BufTy).Contents (Elt F)),
    StableHlo.binary main_v457 main_v516 main_v517 (subf : (⟨S800000x32, .f32⟩ : BufTy).Contents (Elt F) → (⟨S800000x32, .f32⟩ : BufTy).Contents (Elt F) → (⟨S800000x32, .f32⟩ : BufTy).Contents (Elt F)),
    StableHlo.nullary main_cst_73 (constant S_ .f32 0x3727C5AC#32),
    StableHlo.unary main_cst_73 main_v518 (broadcastInDim S32 ![] bcast_S_S32 : (⟨S_, .f32⟩ : BufTy).Contents (Elt F) → (⟨S32, .f32⟩ : BufTy).Contents (Elt F)),
    StableHlo.binary main_v514 main_v518 main_v519 (addf : (⟨S32, .f32⟩ : BufTy).Contents (Elt F) → (⟨S32, .f32⟩ : BufTy).Contents (Elt F) → (⟨S32, .f32⟩ : BufTy).Contents (Elt F)),
    StableHlo.unary main_v519 main_v520 (Host.rsqrt : (⟨S32, .f32⟩ : BufTy).Contents (Elt F) → (⟨S32, .f32⟩ : BufTy).Contents (Elt F)),
    StableHlo.unary main_v520 main_v521 (broadcastInDim S1x32 ![1] bcast_S32_S1x32_1 : (⟨S32, .f32⟩ : BufTy).Contents (Elt F) → (⟨S1x32, .f32⟩ : BufTy).Contents (Elt F)),
    StableHlo.unary main_v521 main_v522 (broadcastInDim S800000x32 ![0, 1] bcast_S1x32_S800000x32_0_1 : (⟨S1x32, .f32⟩ : BufTy).Contents (Elt F) → (⟨S800000x32, .f32⟩ : BufTy).Contents (Elt F)),
    StableHlo.binary main_v517 main_v522 main_v523 (mulf : (⟨S800000x32, .f32⟩ : BufTy).Contents (Elt F) → (⟨S800000x32, .f32⟩ : BufTy).Contents (Elt F) → (⟨S800000x32, .f32⟩ : BufTy).Contents (Elt F)) ]

/-- The reference each operation of the window writes, in the list's order: a builder's result operand (of a typed
    reference, the buffer it carries). -/
abbrev ops9_W : List (Ref sig .tc) :=
  [ main_v474, main_cst_64, main_v475, main_v476, main_v477, main_cst_65, main_v478, main_v479,
    main_v480, main_v481, main_v482, main_v483, main_v484, main_v485, main_cst_66, main_v486,
    main_cst_67, main_v487, main_v488, main_c_68, main_call12.cst.ref, main_call12.v0.ref, main_call12.v1.ref, main_call12.cst_0.ref,
    main_call12.v2.ref, main_call12.v3.ref, main_call12.v4.ref, main_call12.v5.ref, main_call12.v6.ref, main_call12.v7.ref, main_call12.cst_1.ref, main_call12.v8.ref,
    main_call12.cst_2.ref, main_call12.v9.ref, main_call12.v10.ref, main_call12.v11.ref, main_call12.cst_3.ref, main_call12.v12.ref, main_call12.cst_4.ref, main_call12.call0.v0.ref,
    main_call12.call0.v1.ref, main_call12.call0.v2.ref, main_v490, main_v491, main_v492, main_cst_69, main_v493, main_v494,
    main_v495, main_v496, main_v497, main_v498, main_v499, main_v500, main_v501, main_v502,
    main_v503, main_v504, main_call13.cst.ref, main_call13.v0.ref, main_call13.v1.ref, main_v506, main_v507, main_v508,
    main_v509, main_v510, main_cst_70, main_v511, main_cst_71, main_v512, main_v513, main_c_72,
    main_call14.cst.ref, main_call14.v0.ref, main_call14.v1.ref, main_call14.cst_0.ref, main_call14.v2.ref, main_call14.v3.ref, main_call14.v4.ref, main_call14.v5.ref,
    main_call14.v6.ref, main_call14.v7.ref, main_call14.cst_1.ref, main_call14.v8.ref, main_call14.cst_2.ref, main_call14.v9.ref, main_call14.v10.ref, main_call14.v11.ref,
    main_call14.cst_3.ref, main_call14.v12.ref, main_call14.cst_4.ref, main_call14.call0.v0.ref, main_call14.call0.v1.ref, main_call14.call0.v2.ref, main_v515, main_v516,
    main_v517, main_cst_73, main_v518, main_v519, main_v520, main_v521, main_v522, main_v523 ]
set_option maxRecDepth 8192 in
set_option maxHeartbeats 4000000 in
/-- The window is that straight line, by computation: the called functions' bodies unfold at their calls, sequencing
    (`>>=`) computes through each `hlo` step, and what is left on both sides is the same chain of steps. -/
theorem main_part9_eq (c : Dev nD) : main_part9 (F := F) c = StableHlo.seq ops9 := rfl

/-- Every operation of the window touches TensorCore buffers only: the list's condition is the conjunction of one
    inclusion per operation, and each operation is one of the builders, whose buffers are literal TensorCore
    references (the builders' own inclusion lemmas). -/
theorem ops9_sub : (ops9 : List (HloOp τ sig (Elt F))).Forall fun op => op.bufs ⊆ StableHlo.tcRefs τ sig := by
  simp only [List.forall_cons, List.Forall, nullary_bufs_sub, unary_bufs_sub, binary_bufs_sub, ternary_bufs_sub,
    reshape_bufs_sub, nary_bufs_sub, and_self]

set_option maxRecDepth 8192 in
/-- No operation of the window leaves a buffer undetermined: none is an allocation, so each builder's set of
    fresh buffers is empty by its definition. -/
theorem ops9_fresh : ∀ op ∈ (ops9 : List (HloOp τ sig (Elt F))), op.fresh = ∅ :=
  List.forall_iff_forall_mem.mp (by
    repeat' apply And.intro
    all_goals rfl)

set_option maxRecDepth 8192 in
set_option maxHeartbeats 4000000 in
/-- Each operation writes exactly its result buffer, and that reference stands in the window's table: the
    builder's written set is the singleton of its result operand, whose membership in the literal table is
    decided. -/
theorem ops9_writes : (ops9 : List (HloOp τ sig (Elt F))).Forall fun op =>
    op.writes ⊆ (ops9_W.map (Proc.devRef (τ := τ) .tc)).toFinset := by
  repeat' apply And.intro
  all_goals exact Finset.singleton_subset_iff.mpr (List.mem_toFinset.mpr (List.mem_map_of_mem (by decide)))

end Cert.ReferenceIdeal.RefRun

end
-- ==== Proof.RefOps10.lean ====
import proofs.«425355_j88287347737110_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxHeartbeats 4000000 in
/-- @main's statements 601 … 636, in order (statement 637 is the return). Its two calls of @relu_1, at main_v529
    over main_call15 and at main_v550 over main_call16, are laid out as the callee's three operations over each
    call's record: what executing the callee's body on the operand runs. -/
abbrev ops10 : List (HloOp τ sig (Elt F)) :=
  [ StableHlo.unary main_v508 main_v524 (broadcastInDim S1x32 ![1] bcast_S32_S1x32_1 : (⟨S32, .f32⟩ : BufTy).Contents (Elt F) → (⟨S1x32, .f32⟩ : BufTy).Contents (Elt F)),
    StableHlo.unary main_v524 main_v525 (broadcastInDim S800000x32 ![0, 1] bcast_S1x32_S800000x32_0_1 : (⟨S1x32, .f32⟩ : BufTy).Contents (Elt F) → (⟨S800000x32, .f32⟩ : BufTy).Contents (Elt F)),
    StableHlo.binary main_v523 main_v525 main_v526 (mulf : (⟨S800000x32, .f32⟩ : BufTy).Contents (Elt F) → (⟨S800000x32, .f32⟩ : BufTy).Contents (Elt F) → (⟨S800000x32, .f32⟩ : BufTy).Contents (Elt F)),
    StableHlo.unary main_v510 main_v527 (broadcastInDim S1x32 ![1] bcast_S32_S1x32_1 : (⟨S32, .f32⟩ : BufTy).Contents (Elt F) → (⟨S1x32, .f32⟩ : BufTy).Contents (Elt F)),
    StableHlo.unary main_v527 main_v528 (broadcastInDim S800000x32 ![0, 1] bcast_S1x32_S800000x32_0_1 : (⟨S1x32, .f32⟩ : BufTy).Contents (Elt F) → (⟨S800000x32, .f32⟩ : BufTy).Contents (Elt F)),
    StableHlo.binary main_v526 main_v528 main_v529 (addf : (⟨S800000x32, .f32⟩ : BufTy).Contents (Elt F) → (⟨S800000x32, .f32⟩ : BufTy).Contents (Elt F) → (⟨S800000x32, .f32⟩ : BufTy).Contents (Elt F)),
    StableHlo.TRef.nullary main_call15.cst (constant S_ .f32 0x00000000#32),
    StableHlo.TRef.unary main_call15.cst main_call15.v0 (broadcastInDim S800000x32 ![] bcast_S_S800000x32),
    StableHlo.TRef.binary (.of main_v529 : StableHlo.TRef sig ⟨S800000x32, .f32⟩) main_call15.v0 main_call15.v1 maximumf,
    StableHlo.binary main_v401 main_v530 main_v531 (addf : (⟨S800000x32, .f32⟩ : BufTy).Contents (Elt F) → (⟨S800000x32, .f32⟩ : BufTy).Contents (Elt F) → (⟨S800000x32, .f32⟩ : BufTy).Contents (Elt F)),
    StableHlo.nullary main_c_74 (constantI S_ 32 0#32),
    StableHlo.unary main_c_74 main_v532 (broadcastInDim S800000 ![] bcast_S_S800000 : (⟨S_, .i32⟩ : BufTy).Contents (Elt F) → (⟨S800000, .i32⟩ : BufTy).Contents (Elt F)),
    StableHlo.binary main_v1 main_v532 main_v533 (cmpi .slt : (⟨S800000, .i32⟩ : BufTy).Contents (Elt F) → (⟨S800000, .i32⟩ : BufTy).Contents (Elt F) → (⟨S800000, .i1⟩ : BufTy).Contents (Elt F)),
    StableHlo.nullary main_c_75 (constantI S_ 32 100000#32),
    StableHlo.unary main_c_75 main_v534 (broadcastInDim S800000 ![] bcast_S_S800000 : (⟨S_, .i32⟩ : BufTy).Contents (Elt F) → (⟨S800000, .i32⟩ : BufTy).Contents (Elt F)),
    StableHlo.binary main_v1 main_v534 main_v535 (addi : (⟨S800000, .i32⟩ : BufTy).Contents (Elt F) → (⟨S800000, .i32⟩ : BufTy).Contents (Elt F) → (⟨S800000, .i32⟩ : BufTy).Contents (Elt F)),
    StableHlo.ternary main_v533 main_v535 main_v1 main_v536 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v536 main_v537 (broadcastInDim S800000x1 ![0] bcast_S800000_S800000x1_0 : (⟨S800000, .i32⟩ : BufTy).Contents (Elt F) → (⟨S800000x1, .i32⟩ : BufTy).Contents (Elt F)),
    StableHlo.binary main_v506 main_v537 main_v538 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nullary main_c_76 (constantI S_ 32 0#32),
    StableHlo.unary main_c_76 main_v539 (broadcastInDim S800000 ![] bcast_S_S800000 : (⟨S_, .i32⟩ : BufTy).Contents (Elt F) → (⟨S800000, .i32⟩ : BufTy).Contents (Elt F)),
    StableHlo.binary main_v3 main_v539 main_v540 (cmpi .slt : (⟨S800000, .i32⟩ : BufTy).Contents (Elt F) → (⟨S800000, .i32⟩ : BufTy).Contents (Elt F) → (⟨S800000, .i1⟩ : BufTy).Contents (Elt F)),
    StableHlo.nullary main_c_77 (constantI S_ 32 100000#32),
    StableHlo.unary main_c_77 main_v541 (broadcastInDim S800000 ![] bcast_S_S800000 : (⟨S_, .i32⟩ : BufTy).Contents (Elt F) → (⟨S800000, .i32⟩ : BufTy).Contents (Elt F)),
    StableHlo.binary main_v3 main_v541 main_v542 (addi : (⟨S800000, .i32⟩ : BufTy).Contents (Elt F) → (⟨S800000, .i32⟩ : BufTy).Contents (Elt F) → (⟨S800000, .i32⟩ : BufTy).Contents (Elt F)),
    StableHlo.ternary main_v540 main_v542 main_v3 main_v543 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v543 main_v544 (broadcastInDim S800000x1 ![0] bcast_S800000_S800000x1_0 : (⟨S800000, .i32⟩ : BufTy).Contents (Elt F) → (⟨S800000x1, .i32⟩ : BufTy).Contents (Elt F)),
    StableHlo.binary main_v506 main_v544 main_v545 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nary ![main_v538, main_v545, main_v531] main_v546 (fun u => concatenate S800000x96 1 [⟨S800000x32, u 0⟩, ⟨S800000x32, u 1⟩, ⟨S800000x32, u 2⟩] concatenates_S800000x32_S800000x32_S800000x32_S800000x96_d1),
    StableHlo.binary main_v546 main_arg21 main_v547 ((fun l r => Host.dotGeneral dot_S800000x96_S96x32_S800000x32_1_0_0_1_n_n none l r) : (⟨S800000x96, .f32⟩ : BufTy).Contents (Elt F) → (⟨S96x32, .f32⟩ : BufTy).Contents (Elt F) → (⟨S800000x32, .f32⟩ : BufTy).Contents (Elt F)),
    StableHlo.unary main_arg22 main_v548 (broadcastInDim S1x32 ![1] bcast_S32_S1x32_1 : (⟨S32, .f32⟩ : BufTy).Contents (Elt F) → (⟨S1x32, .f32⟩ : BufTy).Contents (Elt F)),
    StableHlo.unary main_v548 main_v549 (broadcastInDim S800000x32 ![0, 1] bcast_S1x32_S800000x32_0_1 : (⟨S1x32, .f32⟩ : BufTy).Contents (Elt F) → (⟨S800000x32, .f32⟩ : BufTy).Contents (Elt F)),
    StableHlo.binary main_v547 main_v549 main_v550 (addf : (⟨S800000x32, .f32⟩ : BufTy).Contents (Elt F) → (⟨S800000x32, .f32⟩ : BufTy).Contents (Elt F) → (⟨S800000x32, .f32⟩ : BufTy).Contents (Elt F)),
    StableHlo.TRef.nullary main_call16.cst (constant S_ .f32 0x00000000#32),
    StableHlo.TRef.unary main_call16.cst main_call16.v0 (broadcastInDim S800000x32 ![] bcast_S_S800000x32),
    StableHlo.TRef.binary (.of main_v550 : StableHlo.TRef sig ⟨S800000x32, .f32⟩) main_call16.v0 main_call16.v1 maximumf,
    StableHlo.binary main_v551 main_arg23 main_v552 ((fun l r => Host.dotGeneral dot_S800000x32_S32x1_S800000x1_1_0_0_1_n_n none l r) : (⟨S800000x32, .f32⟩ : BufTy).Contents (Elt F) → (⟨S32x1, .f32⟩ : BufTy).Contents (Elt F) → (⟨S800000x1, .f32⟩ : BufTy).Contents (Elt F)),
    StableHlo.unary main_arg24 main_v553 (broadcastInDim S1x1 ![1] bcast_S1_S1x1_1 : (⟨S1, .f32⟩ : BufTy).Contents (Elt F) → (⟨S1x1, .f32⟩ : BufTy).Contents (Elt F)),
    StableHlo.unary main_v553 main_v554 (broadcastInDim S800000x1 ![0, 1] bcast_S1x1_S800000x1_0_1 : (⟨S1x1, .f32⟩ : BufTy).Contents (Elt F) → (⟨S800000x1, .f32⟩ : BufTy).Contents (Elt F)),
    StableHlo.binary main_v552 main_v554 main_v555 (addf : (⟨S800000x1, .f32⟩ : BufTy).Contents (Elt F) → (⟨S800000x1, .f32⟩ : BufTy).Contents (Elt F) → (⟨S800000x1, .f32⟩ : BufTy).Contents (Elt F)) ]

/-- The reference each operation of the window writes, in the list's order: a builder's result operand (of a typed
    reference, the buffer it carries). -/
abbrev ops10_W : List (Ref sig .tc) :=
  [ main_v524, main_v525, main_v526, main_v527, main_v528, main_v529, main_call15.cst.ref, main_call15.v0.ref,
    main_call15.v1.ref, main_v531, main_c_74, main_v532, main_v533, main_c_75, main_v534, main_v535,
    main_v536, main_v537, main_v538, main_c_76, main_v539, main_v540, main_c_77, main_v541,
    main_v542, main_v543, main_v544, main_v545, main_v546, main_v547, main_v548, main_v549,
    main_v550, main_call16.cst.ref, main_call16.v0.ref, main_call16.v1.ref, main_v552, main_v553, main_v554, main_v555 ]
set_option maxRecDepth 8192 in
set_option maxHeartbeats 4000000 in
/-- The window is that straight line, by computation: the called functions' bodies unfold at their calls, sequencing
    (`>>=`) computes through each `hlo` step, and what is left on both sides is the same chain of steps. -/
theorem main_part10_eq (c : Dev nD) : main_part10 (F := F) c = StableHlo.seq ops10 := rfl

/-- Every operation of the window touches TensorCore buffers only: the list's condition is the conjunction of one
    inclusion per operation, and each operation is one of the builders, whose buffers are literal TensorCore
    references (the builders' own inclusion lemmas). -/
theorem ops10_sub : (ops10 : List (HloOp τ sig (Elt F))).Forall fun op => op.bufs ⊆ StableHlo.tcRefs τ sig := by
  simp only [List.forall_cons, List.Forall, nullary_bufs_sub, unary_bufs_sub, binary_bufs_sub, ternary_bufs_sub,
    reshape_bufs_sub, nary_bufs_sub, and_self]

set_option maxRecDepth 8192 in
/-- No operation of the window leaves a buffer undetermined: none is an allocation, so each builder's set of
    fresh buffers is empty by its definition. -/
theorem ops10_fresh : ∀ op ∈ (ops10 : List (HloOp τ sig (Elt F))), op.fresh = ∅ :=
  List.forall_iff_forall_mem.mp (by
    repeat' apply And.intro
    all_goals rfl)

set_option maxRecDepth 8192 in
set_option maxHeartbeats 4000000 in
/-- Each operation writes exactly its result buffer, and that reference stands in the window's table: the
    builder's written set is the singleton of its result operand, whose membership in the literal table is
    decided. -/
theorem ops10_writes : (ops10 : List (HloOp τ sig (Elt F))).Forall fun op =>
    op.writes ⊆ (ops10_W.map (Proc.devRef (τ := τ) .tc)).toFinset := by
  repeat' apply And.intro
  all_goals exact Finset.singleton_subset_iff.mpr (List.mem_toFinset.mpr (List.mem_map_of_mem (by decide)))

end Cert.ReferenceIdeal.RefRun

end
-- ==== Proof.RefArgs.lean ====
import proofs.«425355_j88287347737110_2_alg».proof.Proof.RefOps0
import proofs.«425355_j88287347737110_2_alg».proof.Proof.RefOps1
import proofs.«425355_j88287347737110_2_alg».proof.Proof.RefOps2
import proofs.«425355_j88287347737110_2_alg».proof.Proof.RefOps3
import proofs.«425355_j88287347737110_2_alg».proof.Proof.RefOps4
import proofs.«425355_j88287347737110_2_alg».proof.Proof.RefOps5
import proofs.«425355_j88287347737110_2_alg».proof.Proof.RefOps6
import proofs.«425355_j88287347737110_2_alg».proof.Proof.RefOps7
import proofs.«425355_j88287347737110_2_alg».proof.Proof.RefOps8
import proofs.«425355_j88287347737110_2_alg».proof.Proof.RefOps9
import proofs.«425355_j88287347737110_2_alg».proof.Proof.RefOps10

noncomputable section

namespace Cert.ReferenceIdeal.RefRun

open Cert.ReferenceIdeal Idealize.ShloMosaic Idealize.ShloMosaic.TcCoe Idealize.SL.Sem Idealize.ShloMosaic.StableHlo

/-! No window writes an argument. @main's twenty-five arguments are the HBM references of index 0 … 24, and every
    reference a window's operations write has index 25 or more (each a tensor value's own buffer, declared after the
    arguments): so no argument is among a window's written references. Each bound is read off one literal reference. -/

/-- @main's argument references. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

/-- An argument's index is below 25. -/
theorem argRefs_lt : argRefs.Forall fun r => r.idx.val < 25 :=
  ⟨by decide, by decide, by decide, by decide, by decide, by decide, by decide, by decide, by decide, by decide, by decide, by decide, by decide, by decide, by decide, by decide, by decide, by decide, by decide, by decide, by decide, by decide, by decide, by decide, by decide⟩

/-- Window 0's written references have index 25 or more. -/
theorem ops0_W_ge : ops0_W.Forall fun x => 25 ≤ x.idx.val :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

/-- Window 1's written references have index 25 or more. -/
theorem ops1_W_ge : ops1_W.Forall fun x => 25 ≤ x.idx.val :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

/-- Window 2's written references have index 25 or more. -/
theorem ops2_W_ge : ops2_W.Forall fun x => 25 ≤ x.idx.val :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

/-- Window 3's written references have index 25 or more. -/
theorem ops3_W_ge : ops3_W.Forall fun x => 25 ≤ x.idx.val :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

/-- Window 4's written references have index 25 or more. -/
theorem ops4_W_ge : ops4_W.Forall fun x => 25 ≤ x.idx.val :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

/-- Window 5's written references have index 25 or more. -/
theorem ops5_W_ge : ops5_W.Forall fun x => 25 ≤ x.idx.val :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

/-- Window 6's written references have index 25 or more. -/
theorem ops6_W_ge : ops6_W.Forall fun x => 25 ≤ x.idx.val :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

/-- Window 7's written references have index 25 or more. -/
theorem ops7_W_ge : ops7_W.Forall fun x => 25 ≤ x.idx.val :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

/-- Window 8's written references have index 25 or more. -/
theorem ops8_W_ge : ops8_W.Forall fun x => 25 ≤ x.idx.val :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

/-- Window 9's written references have index 25 or more. -/
theorem ops9_W_ge : ops9_W.Forall fun x => 25 ≤ x.idx.val :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

/-- Window 10's written references have index 25 or more. -/
theorem ops10_W_ge : ops10_W.Forall fun x => 25 ≤ x.idx.val :=
  ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

/-- A list of references of index 25 or more holds no argument. -/
theorem args_not_in {W : List (Ref sig .tc)} (hW : W.Forall fun x => 25 ≤ x.idx.val) :
    ∀ r ∈ argRefs, r ∉ W :=
  fun r hr hm => absurd (List.forall_iff_forall_mem.mp hW r hm)
    (Nat.not_le.mpr (List.forall_iff_forall_mem.mp argRefs_lt r hr))

theorem args_not_in_W0 : ∀ r ∈ argRefs, r ∉ ops0_W := args_not_in ops0_W_ge
theorem args_not_in_W1 : ∀ r ∈ argRefs, r ∉ ops1_W := args_not_in ops1_W_ge
theorem args_not_in_W2 : ∀ r ∈ argRefs, r ∉ ops2_W := args_not_in ops2_W_ge
theorem args_not_in_W3 : ∀ r ∈ argRefs, r ∉ ops3_W := args_not_in ops3_W_ge
theorem args_not_in_W4 : ∀ r ∈ argRefs, r ∉ ops4_W := args_not_in ops4_W_ge
theorem args_not_in_W5 : ∀ r ∈ argRefs, r ∉ ops5_W := args_not_in ops5_W_ge
theorem args_not_in_W6 : ∀ r ∈ argRefs, r ∉ ops6_W := args_not_in ops6_W_ge
theorem args_not_in_W7 : ∀ r ∈ argRefs, r ∉ ops7_W := args_not_in ops7_W_ge
theorem args_not_in_W8 : ∀ r ∈ argRefs, r ∉ ops8_W := args_not_in ops8_W_ge
theorem args_not_in_W9 : ∀ r ∈ argRefs, r ∉ ops9_W := args_not_in ops9_W_ge
theorem args_not_in_W10 : ∀ r ∈ argRefs, r ∉ ops10_W := args_not_in ops10_W_ge

end Cert.ReferenceIdeal.RefRun

end
-- ==== Proof.RefRun.lean ====
import proofs.«425355_j88287347737110_2_alg».proof.Defs
import proofs.«425355_j88287347737110_2_alg».proof.Proof.RefOps0
import proofs.«425355_j88287347737110_2_alg».proof.Proof.RefOps1
import proofs.«425355_j88287347737110_2_alg».proof.Proof.RefOps2
import proofs.«425355_j88287347737110_2_alg».proof.Proof.RefOps3
import proofs.«425355_j88287347737110_2_alg».proof.Proof.RefOps4
import proofs.«425355_j88287347737110_2_alg».proof.Proof.RefOps5
import proofs.«425355_j88287347737110_2_alg».proof.Proof.RefOps6
import proofs.«425355_j88287347737110_2_alg».proof.Proof.RefOps7
import proofs.«425355_j88287347737110_2_alg».proof.Proof.RefOps8
import proofs.«425355_j88287347737110_2_alg».proof.Proof.RefOps9
import proofs.«425355_j88287347737110_2_alg».proof.Proof.RefOps10
import proofs.«425355_j88287347737110_2_alg».proof.Proof.RefArgs
import Idealize.ShloMosaic.Lib.StableHlo.Run
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- @main's operations: its windows' lists one after the other. -/
abbrev ops : List (HloOp τ sig (Elt F)) :=
  ops0 ++ ops1 ++ ops2 ++ ops3 ++ ops4 ++ ops5 ++ ops6 ++ ops7 ++ ops8 ++ ops9 ++ ops10

/-- @main runs its windows in order and each window is the straight line of its list, so @main is the straight
    line of the concatenation (a line over an append is the two lines in sequence; sequencing re-associated). -/
theorem main_eq (c : Dev nD) : main (F := F) c = StableHlo.seq ops := by
  simp only [main, main_part0_eq, main_part1_eq, main_part2_eq, main_part3_eq, main_part4_eq, main_part5_eq, main_part6_eq, main_part7_eq, main_part8_eq, main_part9_eq, main_part10_eq, ops, seq_append, bind_assoc]

/-- Every operation touches TensorCore buffers only: window by window. -/
theorem ops_sub : (ops : List (HloOp τ sig (Elt F))).Forall fun op => op.bufs ⊆ StableHlo.tcRefs τ sig := by
  simp only [ops, List.forall_append]
  exact ⟨⟨⟨⟨⟨⟨⟨⟨⟨⟨ops0_sub, ops1_sub⟩, ops2_sub⟩, ops3_sub⟩, ops4_sub⟩, ops5_sub⟩, ops6_sub⟩, ops7_sub⟩, ops8_sub⟩, ops9_sub⟩, ops10_sub⟩

/-- No operation leaves its result undetermined: window by window. -/
theorem ops_fresh : ∀ op ∈ (ops : List (HloOp τ sig (Elt F))), op.fresh = ∅ := by
  intro op h
  simp only [ops, List.mem_append] at h
  rcases h with ((((((((((h | h) | h) | h) | h) | h) | h) | h) | h) | h) | h)
  exacts [ops0_fresh op h, ops1_fresh op h, ops2_fresh op h, ops3_fresh op h, ops4_fresh op h, ops5_fresh op h, ops6_fresh op h, ops7_fresh op h, ops8_fresh op h, ops9_fresh op h, ops10_fresh op h]

/-- The signature scopes no buffer: every reference is to HBM (the other spaces are empty). -/
theorem scopedRefs_eq : (Finset.univ.filter fun b : Ref sig .tc => b.isScoped) = ∅ :=
  Finset.filter_eq_empty_iff.mpr fun b _ => by
    rcases b with ⟨sp, i, h⟩
    cases sp <;> first | (simp [Ref.isScoped]; done) | exact i.elim0 | rfl

/-- The signature has no semaphore. -/
theorem scopedSems_eq : (Finset.univ.filter fun sm : SemLoc sig => sm.isScoped .tc) = ∅ := by decide

/-- On every device, for any float values, from any memory with zero counters: every weakly fair execution of @main
    on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ (fun _ => ops_fresh)

/-- The fold over @main's list is the windows' folds composed. -/
theorem after_ops (V : Valuation τ sig (Elt F)) :
    after ops V = after ops10 (after ops9 (after ops8 (after ops7 (after ops6 (after ops5 (after ops4 (after ops3 (after ops2 (after ops1 (after ops0 (V))))))))))) := by
  simp only [ops, StableHlo.after_append]

/-- A reference that no window writes keeps its contents through @main. -/
theorem after_ops_keep (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) :
    after ops V (Proc.devRef .tc r) = V (Proc.devRef .tc r) := by
  rw [after_ops, after_of_writes_sub ops10 _ ops10_writes h10,
    after_of_writes_sub ops9 _ ops9_writes h9,
    after_of_writes_sub ops8 _ ops8_writes h8,
    after_of_writes_sub ops7 _ ops7_writes h7,
    after_of_writes_sub ops6 _ ops6_writes h6,
    after_of_writes_sub ops5 _ ops5_writes h5,
    after_of_writes_sub ops4 _ ops4_writes h4,
    after_of_writes_sub ops3 _ ops3_writes h3,
    after_of_writes_sub ops2 _ ops2_writes h2,
    after_of_writes_sub ops1 _ ops1_writes h1,
    after_of_writes_sub ops0 _ ops0_writes h0]

/-- No operation writes an argument: it keeps its contents through @main. -/
theorem after_ops_arg (V : Valuation τ sig (Elt F)) (r : Ref sig .tc) (hr : r ∈ argRefs) :
    after ops V (Proc.devRef .tc r) = V (Proc.devRef .tc r) :=
  after_ops_keep V r (args_not_in_W0 r hr) (args_not_in_W1 r hr) (args_not_in_W2 r hr) (args_not_in_W3 r hr) (args_not_in_W4 r hr) (args_not_in_W5 r hr) (args_not_in_W6 r hr) (args_not_in_W7 r hr) (args_not_in_W8 r hr) (args_not_in_W9 r hr) (args_not_in_W10 r hr)

/-- The reference runs (terminates, no fault) and its argument arrays end unchanged: the run's post read at each
    argument, which no operation writes. -/
theorem frame [Cert.Pre_finite_inputs.Facts] : Cert.frame_ReferenceIdeal := fun m g _ =>
  (θ_run defs _ _).mono (fun _ h c => ⟨(h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide)),
      (h c main_arg11).trans (after_ops_arg _ main_arg11 (by decide)),
      (h c main_arg12).trans (after_ops_arg _ main_arg12 (by decide)),
      (h c main_arg13).trans (after_ops_arg _ main_arg13 (by decide)),
      (h c main_arg14).trans (after_ops_arg _ main_arg14 (by decide)),
      (h c main_arg15).trans (after_ops_arg _ main_arg15 (by decide)),
      (h c main_arg16).trans (after_ops_arg _ main_arg16 (by decide)),
      (h c main_arg17).trans (after_ops_arg _ main_arg17 (by decide)),
      (h c main_arg18).trans (after_ops_arg _ main_arg18 (by decide)),
      (h c main_arg19).trans (after_ops_arg _ main_arg19 (by decide)),
      (h c main_arg20).trans (after_ops_arg _ main_arg20 (by decide)),
      (h c main_arg21).trans (after_ops_arg _ main_arg21 (by decide)),
      (h c main_arg22).trans (after_ops_arg _ main_arg22 (by decide)),
      (h c main_arg23).trans (after_ops_arg _ main_arg23 (by decide)),
      (h c main_arg24).trans (after_ops_arg _ main_arg24 (by decide))⟩)
    (run_main (F := Ideal) m g)

end Cert.ReferenceIdeal.RefRun

end
-- ==== Proof.Spec.lean ====
import Idealize.ShloMosaic.Lib.Pipeline
import Idealize.ShloMosaic.Lib.StableHlo
import Idealize.ShloMosaic.PureOps

/-! The reference network as pure functions of arrays: a four-layer gated graph network on
    100000 nodes and 800000 edges with 32 features, followed by an edge score head. Every function
    is built from the library's host operations at literal shapes, in the order the reference
    applies them. -/

noncomputable section

namespace Cert.Spec

open Idealize.ShloMosaic

variable {F : FTy → Type} [FloatOps F]

/-! ## Shapes -/

abbrev S100000x1 : Shape := ⟨2, ![100000, 1]⟩
abbrev S800000x1 : Shape := ⟨2, ![800000, 1]⟩
abbrev S2x800000 : Shape := ⟨2, ![2, 800000]⟩
abbrev S1x32 : Shape := ⟨2, ![1, 32]⟩
abbrev S32 : Shape := ⟨1, ![32]⟩
abbrev S4x32x32 : Shape := ⟨3, ![4, 32, 32]⟩
abbrev S4x32 : Shape := ⟨2, ![4, 32]⟩
abbrev S96x32 : Shape := ⟨2, ![96, 32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S100000x32 : Shape := ⟨2, ![100000, 32]⟩
abbrev S800000x32 : Shape := ⟨2, ![800000, 32]⟩
abbrev S1x32x32 : Shape := ⟨3, ![1, 32, 32]⟩
abbrev S32x32 : Shape := ⟨2, ![32, 32]⟩
abbrev S_ : Shape := ⟨0, ![]⟩
abbrev S800000x96 : Shape := ⟨2, ![800000, 96]⟩
abbrev S1x1 : Shape := ⟨2, ![1, 1]⟩

/-- A float array of shape s. -/
abbrev T (F : FTy → Type) [FloatOps F] (s : Shape) : Type := (⟨s, .f32⟩ : BufTy).Contents (Elt F)
/-- A 32-bit integer array of shape s. -/
abbrev J (F : FTy → Type) [FloatOps F] (s : Shape) : Type := (⟨s, .i32⟩ : BufTy).Contents (Elt F)

/-! ## Side conditions of the shape operations -/

theorem shapeCasts_S1x800000_S800000 : S1x800000.ShapeCasts S800000 := by decide
theorem bcast_S32_S1x32_1 : S32.BroadcastsInDim S1x32 (![1] : Fin 1 → Fin S1x32.rank) := by decide
theorem bcast_S1x32_S100000x32_0_1 : S1x32.BroadcastsInDim S100000x32 (![0, 1] : Fin 2 → Fin S100000x32.rank) := by decide
theorem bcast_S1x32_S800000x32_0_1 : S1x32.BroadcastsInDim S800000x32 (![0, 1] : Fin 2 → Fin S800000x32.rank) := by decide
theorem shapeCasts_S1x32x32_S32x32 : S1x32x32.ShapeCasts S32x32 := by decide
theorem shapeCasts_S1x32_S32 : S1x32.ShapeCasts S32 := by decide
theorem bcast_S_S800000 : S_.BroadcastsInDim S800000 (![] : Fin 0 → Fin S800000.rank) := by decide
theorem bcast_S800000_S800000x1_0 : S800000.BroadcastsInDim S800000x1 (![0] : Fin 1 → Fin S800000x1.rank) := by decide
theorem bcast_S_S800000x32 : S_.BroadcastsInDim S800000x32 (![] : Fin 0 → Fin S800000x32.rank) := by decide
theorem bcast_S_S100000x32 : S_.BroadcastsInDim S100000x32 (![] : Fin 0 → Fin S100000x32.rank) := by decide
theorem reducesTo_S100000x32_S32_d0 : S100000x32.ReducesTo [0] S32 := by decide
theorem h_S_ : 0 < S_.numel := by decide
theorem bcast_S_S32 : S_.BroadcastsInDim S32 (![] : Fin 0 → Fin S32.rank) := by decide
theorem bcast_S_S1x32 : S_.BroadcastsInDim S1x32 (![] : Fin 0 → Fin S1x32.rank) := by decide
theorem reducesTo_S800000x32_S32_d0 : S800000x32.ReducesTo [0] S32 := by decide
theorem concatenates_3 : Shape.Concatenates [S800000x32, S800000x32, S800000x32] S800000x96 1 := by decide
theorem bcast_S1_S1x1_1 : S1.BroadcastsInDim S1x1 (![1] : Fin 1 → Fin S1x1.rank) := by decide
theorem bcast_S1x1_S800000x1_0_1 : S1x1.BroadcastsInDim S800000x1 (![0, 1] : Fin 2 → Fin S800000x1.rank) := by decide

/-! ## Dimension records of the contractions, the gather and the scatter -/

def dotN1 : DotDims S100000x1 S1x32 S100000x32 where
  lhsContracting := [1]
  rhsContracting := [0]
  lhsNonContracting := [0]
  rhsNonContracting := [1]
  lhsBatch := []
  rhsBatch := []
  wf := by decide
def dotE1 : DotDims S800000x1 S1x32 S800000x32 where
  lhsContracting := [1]
  rhsContracting := [0]
  lhsNonContracting := [0]
  rhsNonContracting := [1]
  lhsBatch := []
  rhsBatch := []
  wf := by decide
def dotN : DotDims S100000x32 S32x32 S100000x32 where
  lhsContracting := [1]
  rhsContracting := [0]
  lhsNonContracting := [0]
  rhsNonContracting := [1]
  lhsBatch := []
  rhsBatch := []
  wf := by decide
def dotE : DotDims S800000x32 S32x32 S800000x32 where
  lhsContracting := [1]
  rhsContracting := [0]
  lhsNonContracting := [0]
  rhsNonContracting := [1]
  lhsBatch := []
  rhsBatch := []
  wf := by decide
def dotZ : DotDims S800000x96 S96x32 S800000x32 where
  lhsContracting := [1]
  rhsContracting := [0]
  lhsNonContracting := [0]
  rhsNonContracting := [1]
  lhsBatch := []
  rhsBatch := []
  wf := by decide
def dotO : DotDims S800000x32 S32x1 S800000x1 where
  lhsContracting := [1]
  rhsContracting := [0]
  lhsNonContracting := [0]
  rhsNonContracting := [1]
  lhsBatch := []
  rhsBatch := []
  wf := by decide
def gatherNE : GatherDims S100000x32 S800000x1 S800000x32 where
  offsetDims := [1]
  collapsedSliceDims := [0]
  operandBatchingDims := []
  startIndicesBatchingDims := []
  startIndexMap := [0]
  indexVectorDim := 1
  sliceSizes := ![1, 32]
  wf := by decide
def scatterEN : ScatterDims S100000x32 S800000x1 S800000x32 where
  updateWindowDims := [1]
  insertedWindowDims := [0]
  scatterDimsToOperandDims := [0]
  indexVectorDim := 1
  wf := by decide

/-! ## Small pieces -/

/-- Row k of the (2, E) edge index array as a vector: row 0 is the sources, row 1 the targets. -/
def idxRow (k : ℕ) (hk : S2x800000.Slices ![k, 0] S1x800000) (ei : J F S2x800000) : J F S800000 :=
  shapeCast S800000 (extractStridedSlice S1x800000 ![k, 0] ei hk) shapeCasts_S1x800000_S800000

/-- Layer l of a stacked (4, 32, 32) weight. -/
def wSl (l : ℕ) (hl : S4x32x32.Slices ![l, 0, 0] S1x32x32) (W : T F S4x32x32) : T F S32x32 :=
  shapeCast S32x32 (extractStridedSlice S1x32x32 ![l, 0, 0] W hl) shapeCasts_S1x32x32_S32x32

/-- Layer l of a stacked (4, 32) vector parameter. -/
def bSl (l : ℕ) (hl : S4x32.Slices ![l, 0] S1x32) (b : T F S4x32) : T F S32 :=
  shapeCast S32 (extractStridedSlice S1x32 ![l, 0] b hl) shapeCasts_S1x32_S32

/-- A 32-vector repeated along 100000 rows. -/
def rowsN (b : T F S32) : T F S100000x32 :=
  broadcastInDim S100000x32 ![0, 1] bcast_S1x32_S100000x32_0_1 (broadcastInDim S1x32 ![1] bcast_S32_S1x32_1 b)

/-- A 32-vector repeated along 800000 rows. -/
def rowsE (b : T F S32) : T F S800000x32 :=
  broadcastInDim S800000x32 ![0, 1] bcast_S1x32_S800000x32_0_1 (broadcastInDim S1x32 ![1] bcast_S32_S1x32_1 b)

/-- x W + b on node rows. -/
def linN (x : T F S100000x32) (W : T F S32x32) (b : T F S32) : T F S100000x32 :=
  addf (Host.dotGeneral dotN none x W) (rowsN b)

/-- x W + b on edge rows. -/
def linE (x : T F S800000x32) (W : T F S32x32) (b : T F S32) : T F S800000x32 :=
  addf (Host.dotGeneral dotE none x W) (rowsE b)

/-- Negative indices wrap by the node count; the result is a column of start indices. -/
def normIdx (i : J F S800000) : J F S800000x1 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 100000#32))) i)

/-- Node rows gathered to edges. -/
def gatherRows (x : T F S100000x32) (i : J F S800000) : T F S800000x32 :=
  Host.gather gatherNE x (normIdx i)

/-- Edge rows summed into their target node's row. -/
def segSum (u : T F S800000x32) (i : J F S800000) : T F S100000x32 :=
  Host.scatterAdd scatterEN
    (broadcastInDim S100000x32 ![] bcast_S_S100000x32 (constant S_ .f32 0x00000000#32))
    (broadcastInDim S800000x1 ![0] bcast_S800000_S800000x1_0 i) u

/-- The logistic function 1 / (1 + exp (-x)) on edge rows. -/
def sigmoidE (x : T F S800000x32) : T F S800000x32 :=
  Host.divf (broadcastInDim S800000x32 ![] bcast_S_S800000x32 (constant S_ .f32 0x3F800000#32))
    (addf (broadcastInDim S800000x32 ![] bcast_S_S800000x32 (constant S_ .f32 0x3F800000#32))
      (Host.exp (Host.negf x)))

/-- max x 0 on node rows. -/
def reluN (x : T F S100000x32) : T F S100000x32 :=
  maximumf x (broadcastInDim S100000x32 ![] bcast_S_S100000x32 (constant S_ .f32 0x00000000#32))

/-- max x 0 on edge rows. -/
def reluE (x : T F S800000x32) : T F S800000x32 :=
  maximumf x (broadcastInDim S800000x32 ![] bcast_S_S800000x32 (constant S_ .f32 0x00000000#32))

/-- Column means over the 100000 node rows. -/
def meanN (x : T F S100000x32) : T F S32 :=
  Host.divf (Host.reduceAdd x (constant S_ .f32 0x00000000#32) reducesTo_S100000x32_S32_d0 h_S_)
    (broadcastInDim S32 ![] bcast_S_S32 (constant S_ .f32 0x47C35000#32))

/-- Column means over the 800000 edge rows. -/
def meanE (x : T F S800000x32) : T F S32 :=
  Host.divf (Host.reduceAdd x (constant S_ .f32 0x00000000#32) reducesTo_S800000x32_S32_d0 h_S_)
    (broadcastInDim S32 ![] bcast_S_S32 (constant S_ .f32 0x49435000#32))

/-- Column variances over the node rows, with d degrees of freedom removed from the divisor
    (the divisor's sign selects between the quotient and a fixed constant). -/
def varN (x : T F S100000x32) (d : J F S_) : T F S32 :=
  select
    (broadcastInDim S32 ![] bcast_S_S32
      (cmpf .ogt (subf (constant (F := F) S_ .f32 0x47C35000#32) (sitofp .f32 d)) (constant (F := F) S_ .f32 0x00000000#32)))
    (Host.divf
      (Host.reduceAdd
        (mulf
          (subf x (broadcastInDim S100000x32 ![0, 1] bcast_S1x32_S100000x32_0_1
            (Host.divf
              (broadcastInDim S1x32 ![1] bcast_S32_S1x32_1
                (Host.reduceAdd x (constant S_ .f32 0x00000000#32) reducesTo_S100000x32_S32_d0 h_S_))
              (broadcastInDim S1x32 ![] bcast_S_S1x32 (constant S_ .f32 0x47C35000#32)))))
          (subf x (broadcastInDim S100000x32 ![0, 1] bcast_S1x32_S100000x32_0_1
            (Host.divf
              (broadcastInDim S1x32 ![1] bcast_S32_S1x32_1
                (Host.reduceAdd x (constant S_ .f32 0x00000000#32) reducesTo_S100000x32_S32_d0 h_S_))
              (broadcastInDim S1x32 ![] bcast_S_S1x32 (constant S_ .f32 0x47C35000#32))))))
        (constant S_ .f32 0x00000000#32) reducesTo_S100000x32_S32_d0 h_S_)
      (broadcastInDim S32 ![] bcast_S_S32
        (subf (constant S_ .f32 0x47C35000#32) (sitofp .f32 d))))
    (broadcastInDim S32 ![] bcast_S_S32 (id (constant S_ .f32 0x7FC00000#32)))

/-- Column variances over the edge rows. -/
def varE (x : T F S800000x32) (d : J F S_) : T F S32 :=
  select
    (broadcastInDim S32 ![] bcast_S_S32
      (cmpf .ogt (subf (constant (F := F) S_ .f32 0x49435000#32) (sitofp .f32 d)) (constant (F := F) S_ .f32 0x00000000#32)))
    (Host.divf
      (Host.reduceAdd
        (mulf
          (subf x (broadcastInDim S800000x32 ![0, 1] bcast_S1x32_S800000x32_0_1
            (Host.divf
              (broadcastInDim S1x32 ![1] bcast_S32_S1x32_1
                (Host.reduceAdd x (constant S_ .f32 0x00000000#32) reducesTo_S800000x32_S32_d0 h_S_))
              (broadcastInDim S1x32 ![] bcast_S_S1x32 (constant S_ .f32 0x49435000#32)))))
          (subf x (broadcastInDim S800000x32 ![0, 1] bcast_S1x32_S800000x32_0_1
            (Host.divf
              (broadcastInDim S1x32 ![1] bcast_S32_S1x32_1
                (Host.reduceAdd x (constant S_ .f32 0x00000000#32) reducesTo_S800000x32_S32_d0 h_S_))
              (broadcastInDim S1x32 ![] bcast_S_S1x32 (constant S_ .f32 0x49435000#32))))))
        (constant S_ .f32 0x00000000#32) reducesTo_S800000x32_S32_d0 h_S_)
      (broadcastInDim S32 ![] bcast_S_S32
        (subf (constant S_ .f32 0x49435000#32) (sitofp .f32 d))))
    (broadcastInDim S32 ![] bcast_S_S32 (id (constant S_ .f32 0x7FC00000#32)))

/-- 1 / sqrt (v + 1e-5) per column. -/
def invStd (v : T F S32) : T F S32 :=
  Host.rsqrt (addf v (broadcastInDim S32 ![] bcast_S_S32 (constant S_ .f32 0x3727C5AC#32)))

/-- Batch normalisation of node rows from given column statistics. -/
def bnApplyN (x : T F S100000x32) (mu v g b : T F S32) : T F S100000x32 :=
  addf (mulf (mulf (subf x (rowsN mu)) (rowsN (invStd v))) (rowsN g)) (rowsN b)

/-- Batch normalisation of edge rows from given column statistics. -/
def bnApplyE (x : T F S800000x32) (mu v g b : T F S32) : T F S800000x32 :=
  addf (mulf (mulf (subf x (rowsE mu)) (rowsE (invStd v))) (rowsE g)) (rowsE b)

/-- Training-mode batch normalisation over the node rows. -/
def bnN (x : T F S100000x32) (g b : T F S32) : T F S100000x32 :=
  bnApplyN x (meanN x) (varN x (constantI S_ 32 0#32)) g b

/-- Training-mode batch normalisation over the edge rows. -/
def bnE (x : T F S800000x32) (g b : T F S32) : T F S800000x32 :=
  bnApplyE x (meanE x) (varE x (constantI S_ 32 0#32)) g b

/-! ## The network -/

/-- The new edge features before normalisation: A h at the target + B h at the source + C e. -/
def edgeNew (h : T F S100000x32) (e : T F S800000x32) (src dst : J F S800000)
    (A : T F S32x32) (bA : T F S32) (B : T F S32x32) (bB : T F S32) (C : T F S32x32) (bC : T F S32) :
    T F S800000x32 :=
  addf (addf (gatherRows (linN h A bA) dst) (gatherRows (linN h B bB) src)) (linE e C bC)

/-- The new node features before normalisation: U h + (sum of gated messages) / (sum of gates + 1e-6). -/
def nodeNew (h : T F S100000x32) (enew : T F S800000x32) (src dst : J F S800000)
    (U : T F S32x32) (bU : T F S32) (Vw : T F S32x32) (bV : T F S32) : T F S100000x32 :=
  addf (linN h U bU)
    (Host.divf (segSum (mulf (sigmoidE enew) (gatherRows (linN h Vw bV) src)) dst)
      (addf (segSum (sigmoidE enew) dst)
        (broadcastInDim S100000x32 ![] bcast_S_S100000x32 (constant S_ .f32 0x358637BD#32))))

/-- One layer: node and edge features in, node and edge features out. -/
def layer (h : T F S100000x32) (e : T F S800000x32) (src dst : J F S800000)
    (A : T F S32x32) (bA : T F S32) (B : T F S32x32) (bB : T F S32) (C : T F S32x32) (bC : T F S32)
    (U : T F S32x32) (bU : T F S32) (Vw : T F S32x32) (bV : T F S32)
    (gh bh ge be : T F S32) : T F S100000x32 × T F S800000x32 :=
  (addf h (reluN (bnN (nodeNew h (edgeNew h e src dst A bA B bB C bC) src dst U bU Vw bV) gh bh)),
   addf e (reluE (bnE (edgeNew h e src dst A bA B bB C bC) ge be)))

/-- The input projections of the node and the edge scalars. -/
def prologueH (x : T F S100000x1) (pw : T F S1x32) (pb : T F S32) : T F S100000x32 :=
  addf (Host.dotGeneral dotN1 none x pw) (rowsN pb)
def prologueE (e : T F S800000x1) (ew : T F S1x32) (eb : T F S32) : T F S800000x32 :=
  addf (Host.dotGeneral dotE1 none e ew) (rowsE eb)

/-- The score head: relu ([h at source | h at target | e] W1 + b1) W2 + b2. -/
def head (h : T F S100000x32) (e : T F S800000x32) (src dst : J F S800000)
    (W1 : T F S96x32) (b1 : T F S32) (W2 : T F S32x1) (b2 : T F S1) : T F S800000x1 :=
  addf
    (Host.dotGeneral dotO none
      (reluE (addf
        (Host.dotGeneral dotZ none
          (concatenate S800000x96 1
            [⟨S800000x32, gatherRows h src⟩, ⟨S800000x32, gatherRows h dst⟩, ⟨S800000x32, e⟩] concatenates_3)
          W1)
        (rowsE b1)))
      W2)
    (broadcastInDim S800000x1 ![0, 1] bcast_S1x1_S800000x1_0_1 (broadcastInDim S1x1 ![1] bcast_S1_S1x1_1 b2))

/-- The layer's parameters taken at index l of the stacked arrays. -/
def layerAt (l : ℕ) (hW : S4x32x32.Slices ![l, 0, 0] S1x32x32) (hb : S4x32.Slices ![l, 0] S1x32)
    (h : T F S100000x32) (e : T F S800000x32) (src dst : J F S800000)
    (Aw : T F S4x32x32) (Ab : T F S4x32) (Bw : T F S4x32x32) (Bb : T F S4x32)
    (Cw : T F S4x32x32) (Cb : T F S4x32) (Uw : T F S4x32x32) (Ub : T F S4x32)
    (Vw : T F S4x32x32) (Vb : T F S4x32) (gh bh ge be : T F S4x32) :
    T F S100000x32 × T F S800000x32 :=
  layer h e src dst (wSl l hW Aw) (bSl l hb Ab) (wSl l hW Bw) (bSl l hb Bb) (wSl l hW Cw) (bSl l hb Cb)
    (wSl l hW Uw) (bSl l hb Ub) (wSl l hW Vw) (bSl l hb Vb)
    (bSl l hb gh) (bSl l hb bh) (bSl l hb ge) (bSl l hb be)

end Cert.Spec
-- ==== Proof.SpecWhole.lean ====
import proofs.«425355_j88287347737110_2_alg».proof.Proof.Spec

/-! The whole reference network as one function of its 25 argument arrays: the two input
    projections, four layers taking their parameters at indices 0 to 3 of the stacked arrays, and
    the score head. -/

noncomputable section

namespace Cert.Spec

open Idealize.ShloMosaic

variable {F : FTy → Type} [FloatOps F]

theorem slices_ei_0 : S2x800000.Slices ![0, 0] S1x800000 := by decide
theorem slices_ei_1 : S2x800000.Slices ![1, 0] S1x800000 := by decide
theorem slices_W_0 : S4x32x32.Slices ![0, 0, 0] S1x32x32 := by decide
theorem slices_W_1 : S4x32x32.Slices ![1, 0, 0] S1x32x32 := by decide
theorem slices_W_2 : S4x32x32.Slices ![2, 0, 0] S1x32x32 := by decide
theorem slices_W_3 : S4x32x32.Slices ![3, 0, 0] S1x32x32 := by decide
theorem slices_b_0 : S4x32.Slices ![0, 0] S1x32 := by decide
theorem slices_b_1 : S4x32.Slices ![1, 0] S1x32 := by decide
theorem slices_b_2 : S4x32.Slices ![2, 0] S1x32 := by decide
theorem slices_b_3 : S4x32.Slices ![3, 0] S1x32 := by decide

/-- The source node of every edge. -/
def srcOf (ei : J F S2x800000) : J F S800000 := idxRow 0 slices_ei_0 ei
/-- The target node of every edge. -/
def dstOf (ei : J F S2x800000) : J F S800000 := idxRow 1 slices_ei_1 ei

/-- The network: scores of all edges. -/
def whole (x : T F S100000x1) (e : T F S800000x1) (ei : J F S2x800000)
    (pw : T F S1x32) (pb : T F S32) (ew : T F S1x32) (eb : T F S32)
    (Aw : T F S4x32x32) (Ab : T F S4x32) (Bw : T F S4x32x32) (Bb : T F S4x32)
    (Cw : T F S4x32x32) (Cb : T F S4x32) (Uw : T F S4x32x32) (Ub : T F S4x32)
    (Vw : T F S4x32x32) (Vb : T F S4x32) (gh bh ge be : T F S4x32)
    (W1 : T F S96x32) (b1 : T F S32) (W2 : T F S32x1) (b2 : T F S1) : T F S800000x1 :=
  let s1 := layerAt 0 slices_W_0 slices_b_0 (prologueH x pw pb) (prologueE e ew eb) (srcOf ei) (dstOf ei)
    Aw Ab Bw Bb Cw Cb Uw Ub Vw Vb gh bh ge be
  let s2 := layerAt 1 slices_W_1 slices_b_1 s1.1 s1.2 (srcOf ei) (dstOf ei) Aw Ab Bw Bb Cw Cb Uw Ub Vw Vb gh bh ge be
  let s3 := layerAt 2 slices_W_2 slices_b_2 s2.1 s2.2 (srcOf ei) (dstOf ei) Aw Ab Bw Bb Cw Cb Uw Ub Vw Vb gh bh ge be
  let s4 := layerAt 3 slices_W_3 slices_b_3 s3.1 s3.2 (srcOf ei) (dstOf ei) Aw Ab Bw Bb Cw Cb Uw Ub Vw Vb gh bh ge be
  head s4.1 s4.2 (srcOf ei) (dstOf ei) W1 b1 W2 b2

end Cert.Spec
-- ==== Proof.KSpec.lean ====
import proofs.«425355_j88287347737110_2_alg».proof.Proof.Spec
import Idealize.ShloMosaic.Lib.ValueIdx

/-! The network as the kernel program arranges it: one fused projection sliced afterwards, one
    64-column gather sliced afterwards, 32-column tensors packed four rows to a 128-lane row with
    parameters repeated four times, the edge projection as a block-diagonal product, the score
    head's product over the concatenation split in three. Each compute region is a function of
    arrays over the extended reals, given entry by entry; the host steps between regions are the
    library's operations. The statements at the end say that this arrangement computes the same
    arrays as the reference's. -/

noncomputable section

namespace Cert.KSpec

open Idealize.ShloMosaic Idealize.ShloMosaic.ValueIdx Cert.Spec

/-! ## Shapes of the packed arrangement -/

abbrev S32x128 : Shape := ⟨2, ![32, 128]⟩
abbrev S128 : Shape := ⟨1, ![128]⟩
abbrev S1x128 : Shape := ⟨2, ![1, 128]⟩
abbrev S100000x128 : Shape := ⟨2, ![100000, 128]⟩
abbrev S100000x64 : Shape := ⟨2, ![100000, 64]⟩
abbrev S800000x64 : Shape := ⟨2, ![800000, 64]⟩
abbrev S4x4 : Shape := ⟨2, ![4, 4]⟩
abbrev S128x128 : Shape := ⟨2, ![128, 128]⟩
abbrev S200000x128 : Shape := ⟨2, ![200000, 128]⟩
abbrev S25000x128 : Shape := ⟨2, ![25000, 128]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩

/-- A float array over the extended reals. -/
abbrev R (s : Shape) : Type := T Ideal s

/-! ## Side conditions -/

theorem concatenates_W : Shape.Concatenates [S32x32, S32x32, S32x32, S32x32] S32x128 1 := by decide
theorem concatenates_b : Shape.Concatenates [S32, S32, S32, S32] S128 0 := by decide
theorem shapeCasts_S128_S1x128 : S128.ShapeCasts S1x128 := by decide
theorem slices_P_0 : S100000x128.Slices ![0, 0] S100000x32 := by decide
theorem slices_P_32 : S100000x128.Slices ![0, 32] S100000x64 := by decide
theorem slices_P_96 : S100000x128.Slices ![0, 96] S100000x32 := by decide
theorem slices_G_0 : S800000x64.Slices ![0, 0] S800000x32 := by decide
theorem slices_G_32 : S800000x64.Slices ![0, 32] S800000x32 := by decide
theorem bcast_S_S4x4 : S_.BroadcastsInDim S4x4 (![] : Fin 0 → Fin S4x4.rank) := by decide
theorem bcast_S4x4_S4x1x4x1_0_2 : S4x4.BroadcastsInDim S4x1x4x1 (![0, 2] : Fin 2 → Fin S4x1x4x1.rank) := by decide
theorem bcast_S32x32_S1x32x1x32_1_3 : S32x32.BroadcastsInDim S1x32x1x32 (![1, 3] : Fin 2 → Fin S1x32x1x32.rank) := by decide
theorem bcast_S4x1x4x1_S4x32x4x32 : S4x1x4x1.BroadcastsInDim S4x32x4x32 (![0, 1, 2, 3] : Fin 4 → Fin S4x32x4x32.rank) := by decide
theorem bcast_S1x32x1x32_S4x32x4x32 : S1x32x1x32.BroadcastsInDim S4x32x4x32 (![0, 1, 2, 3] : Fin 4 → Fin S4x32x4x32.rank) := by decide
theorem shapeCasts_S4x32x4x32_S128x128 : S4x32x4x32.ShapeCasts S128x128 := by decide
theorem shapeCasts_S32_S1x32 : S32.ShapeCasts S1x32 := by decide
theorem bcast_S1x32_S4x32_0_1 : S1x32.BroadcastsInDim S4x32 (![0, 1] : Fin 2 → Fin S4x32.rank) := by decide
theorem shapeCasts_S4x32_S128 : S4x32.ShapeCasts S128 := by decide
theorem shapeCasts_E_pack : S800000x32.ShapeCasts S200000x128 := by decide
theorem shapeCasts_E_unpack : S200000x128.ShapeCasts S800000x32 := by decide
theorem shapeCasts_N_pack : S100000x32.ShapeCasts S25000x128 := by decide
theorem shapeCasts_N_unpack : S25000x128.ShapeCasts S100000x32 := by decide
theorem slices_W1_0 : S96x32.Slices ![0, 0] S32x32 := by decide
theorem slices_W1_32 : S96x32.Slices ![32, 0] S32x32 := by decide
theorem slices_W1_64 : S96x32.Slices ![64, 0] S32x32 := by decide
theorem shapeCasts_S1_S1x1 : S1.ShapeCasts S1x1 := by decide

def gather64 : GatherDims S100000x64 S800000x1 S800000x64 where
  offsetDims := [1]
  collapsedSliceDims := [0]
  operandBatchingDims := []
  startIndicesBatchingDims := []
  startIndexMap := [0]
  indexVectorDim := 1
  sliceSizes := ![1, 64]
  wf := by decide

/-! ## The host steps between regions -/

section Glue
variable {F : FTy → Type} [FloatOps F]

/-- The four projection weights side by side: columns [A | B | V | U]. -/
def wcat (A B Vw U : T F S32x32) : T F S32x128 :=
  concatenate S32x128 1 [⟨S32x32, A⟩, ⟨S32x32, B⟩, ⟨S32x32, Vw⟩, ⟨S32x32, U⟩] concatenates_W

/-- The four projection biases end to end, as one row. -/
def bcat (bA bB bV bU : T F S32) : T F S1x128 :=
  shapeCast S1x128 (concatenate S128 0 [⟨S32, bA⟩, ⟨S32, bB⟩, ⟨S32, bV⟩, ⟨S32, bU⟩] concatenates_b)
    shapeCasts_S128_S1x128

def colsA (P : T F S100000x128) : T F S100000x32 := extractStridedSlice S100000x32 ![0, 0] P slices_P_0
def colsBV (P : T F S100000x128) : T F S100000x64 := extractStridedSlice S100000x64 ![0, 32] P slices_P_32
def colsU (P : T F S100000x128) : T F S100000x32 := extractStridedSlice S100000x32 ![0, 96] P slices_P_96

/-- 64-column node rows gathered to edges. -/
def gatherRows64 (Q : T F S100000x64) (i : J F S800000) : T F S800000x64 :=
  Host.gather gather64 Q (normIdx i)

def left32 (G : T F S800000x64) : T F S800000x32 := extractStridedSlice S800000x32 ![0, 0] G slices_G_0
def right32 (G : T F S800000x64) : T F S800000x32 := extractStridedSlice S800000x32 ![0, 32] G slices_G_32

/-- The 4 x 4 identity as floats. -/
def eye4 : T F S4x4 :=
  uitofp .f32 (cmpi .eq
    (addi (iotaInDim S4x4 32 0) (broadcastInDim S4x4 ![] bcast_S_S4x4 (constantI S_ 32 0#32)))
    (iotaInDim S4x4 32 1))

/-- The Kronecker product of a 4 x 4 and a 32 x 32 matrix. -/
def kron (a : T F S4x4) (b : T F S32x32) : T F S128x128 :=
  shapeCast S128x128
    (mulf
      (broadcastInDim S4x32x4x32 ![0, 1, 2, 3] bcast_S4x1x4x1_S4x32x4x32
        (broadcastInDim S4x1x4x1 ![0, 2] bcast_S4x4_S4x1x4x1_0_2 a))
      (broadcastInDim S4x32x4x32 ![0, 1, 2, 3] bcast_S1x32x1x32_S4x32x4x32
        (broadcastInDim S1x32x1x32 ![1, 3] bcast_S32x32_S1x32x1x32_1_3 b)))
    shapeCasts_S4x32x4x32_S128x128

/-- A 32-vector as a one-row matrix. -/
def row32 (p : T F S32) : T F S1x32 := shapeCast S1x32 p shapeCasts_S32_S1x32

/-- A 32-vector repeated four times. -/
def tile4 (p : T F S32) : T F S128 :=
  shapeCast S128 (broadcastInDim S4x32 ![0, 1] bcast_S1x32_S4x32_0_1 (row32 p)) shapeCasts_S4x32_S128

/-- A 128-vector as a one-row matrix. -/
def row128 (p : T F S128) : T F S1x128 := shapeCast S1x128 p shapeCasts_S128_S1x128

def packE (x : T F S800000x32) : T F S200000x128 := shapeCast S200000x128 x shapeCasts_E_pack
def unpackE (x : T F S200000x128) : T F S800000x32 := shapeCast S800000x32 x shapeCasts_E_unpack
def packN (x : T F S100000x32) : T F S25000x128 := shapeCast S25000x128 x shapeCasts_N_pack
def unpackN (x : T F S25000x128) : T F S100000x32 := shapeCast S100000x32 x shapeCasts_N_unpack

end Glue

/-! ## The regions, entry by entry -/

/-- x w + b with one input column (regions 0 and 1). -/
def lin1At {n : ℕ} (x : R ⟨2, ![n, 1]⟩) (w b : R S1x32) (r : Fin n) (j : Fin 32) : EReal :=
  (∑ k : Fin 1, x (ix2 r k) * w (ix2 k j)) + b (ix2 (0 : Fin 1) j)
def Glin1N (x : R S100000x1) (w b : R S1x32) : R S100000x32 := fun i => lin1At x w b (i 0) (i 1)
def Glin1E (x : R S800000x1) (w b : R S1x32) : R S800000x32 := fun i => lin1At x w b (i 0) (i 1)

/-- The fused projection x [A|B|V|U] + bias. -/
def lin128At (x : R S100000x32) (w : R S32x128) (b : R S1x128) (r : Fin 100000) (j : Fin 128) : EReal :=
  (∑ k : Fin 32, x (ix2 r k) * w (ix2 k j)) + b (ix2 (0 : Fin 1) j)
def Glin128 (x : R S100000x32) (w : R S32x128) (b : R S1x128) : R S100000x128 :=
  fun i => lin128At x w b (i 0) (i 1)

/-- The edge combine on packed rows: a0 + a1 + (a2 chat + cb). -/
def edgeNewAt (a0 a1 a2 : R S200000x128) (a4 : R S128x128) (a5 : R S1x128) (r : Fin 200000) (j : Fin 128) : EReal :=
  (a0 (ix2 r j) + a1 (ix2 r j)) + ((∑ k : Fin 128, a2 (ix2 r k) * a4 (ix2 k j)) + a5 (ix2 (0 : Fin 1) j))
def GedgeNew (a0 a1 a2 : R S200000x128) (a4 : R S128x128) (a5 : R S1x128) : R S200000x128 :=
  fun i => edgeNewAt a0 a1 a2 a4 a5 (i 0) (i 1)
def GedgeSig (a0 a1 a2 : R S200000x128) (a4 : R S128x128) (a5 : R S1x128) : R S200000x128 :=
  fun i => Ideal.logistic (edgeNewAt a0 a1 a2 a4 a5 (i 0) (i 1))
def GedgeNum (a0 a1 a2 a3 : R S200000x128) (a4 : R S128x128) (a5 : R S1x128) : R S200000x128 :=
  fun i => Ideal.logistic (edgeNewAt a0 a1 a2 a4 a5 (i 0) (i 1)) * a3 (ix2 (i 0) (i 1))

/-- The node update on packed rows: uh + num / (den + 1e-6). -/
def Gnode (uh num den : R S25000x128) : R S25000x128 :=
  fun i => uh i + Ideal.div (num i) (den i + Ideal.ofBits .f32 0x358637BD#32)

/-- Normalise, scale, shift, clamp at zero, add the residual; parameters one row of 128. -/
def bnAt {n : ℕ} (val orig : R ⟨2, ![n, 128]⟩) (mu v g b : R S1x128) (r : Fin n) (j : Fin 128) : EReal :=
  orig (ix2 r j) + max ((((val (ix2 r j)) - (mu (ix2 (0 : Fin 1) j))) * Ideal.rsqrt ((v (ix2 (0 : Fin 1) j)) + Ideal.ofBits .f32 0x3727C5AC#32)) * (g (ix2 (0 : Fin 1) j)) + (b (ix2 (0 : Fin 1) j))) 0
def GbnN (val orig : R S25000x128) (mu v g b : R S1x128) : R S25000x128 := fun i => bnAt val orig mu v g b (i 0) (i 1)
def GbnE (val orig : R S200000x128) (mu v g b : R S1x128) : R S200000x128 := fun i => bnAt val orig mu v g b (i 0) (i 1)

/-- The score head with the first product split over the three row blocks of W1. -/
def scoreAt (hs hd e : R S800000x32) (w1s w1d w1e : R S32x32) (b1 : R S1x32) (w2 : R S32x1) (b2 : R S1x1)
    (r : Fin 800000) (j : Fin 1) : EReal :=
  (∑ k : Fin 32, max ((∑ a : Fin 32, hs (ix2 r a) * w1s (ix2 a k)) + (∑ a : Fin 32, hd (ix2 r a) * w1d (ix2 a k)) + (∑ a : Fin 32, e (ix2 r a) * w1e (ix2 a k)) + b1 (ix2 0 k)) (Ideal.ofBits .f32 0x00000000#32) * w2 (ix2 k j)) + b2 (ix2 0 0)
def Ghead (hs hd e : R S800000x32) (w1s w1d w1e : R S32x32) (b1 : R S1x32) (w2 : R S32x1) (b2 : R S1x1) : R S800000x1 :=
  fun i => scoreAt hs hd e w1s w1d w1e b1 w2 b2 (i 0) (i 1)

/-! ## The kernel's layer -/

/-- The fused projection of the node features. -/
def kproj (h : R S100000x32) (A : R S32x32) (bA : R S32) (B : R S32x32) (bB : R S32)
    (U : R S32x32) (bU : R S32) (Vw : R S32x32) (bV : R S32) : R S100000x128 :=
  Glin128 h (wcat A B Vw U) (bcat bA bB bV bU)

/-- The packed new edge features (the edge region's first output). -/
def kedgeNewR (P : R S100000x128) (e : R S800000x32) (src dst : J Ideal S800000) (C : R S32x32) (bC : R S32) :
    R S200000x128 :=
  GedgeNew (packE (gatherRows (colsA P) dst)) (packE (left32 (gatherRows64 (colsBV P) src))) (packE e)
    (kron eye4 C) (row128 (tile4 bC))
def kedgeSigR (P : R S100000x128) (e : R S800000x32) (src dst : J Ideal S800000) (C : R S32x32) (bC : R S32) :
    R S200000x128 :=
  GedgeSig (packE (gatherRows (colsA P) dst)) (packE (left32 (gatherRows64 (colsBV P) src))) (packE e)
    (kron eye4 C) (row128 (tile4 bC))
def kedgeNumR (P : R S100000x128) (e : R S800000x32) (src dst : J Ideal S800000) (C : R S32x32) (bC : R S32) :
    R S200000x128 :=
  GedgeNum (packE (gatherRows (colsA P) dst)) (packE (left32 (gatherRows64 (colsBV P) src))) (packE e)
    (packE (right32 (gatherRows64 (colsBV P) src))) (kron eye4 C) (row128 (tile4 bC))

/-- The packed new node features (the node region's output). -/
def knodeNewR (P : R S100000x128) (e : R S800000x32) (src dst : J Ideal S800000) (C : R S32x32) (bC : R S32) :
    R S25000x128 :=
  Gnode (packN (colsU P)) (packN (segSum (unpackE (kedgeNumR P e src dst C bC)) dst))
    (packN (segSum (unpackE (kedgeSigR P e src dst C bC)) dst))

/-- The normalise-and-add region on node rows, statistics taken from the unpacked value. -/
def kbnN (valR : R S25000x128) (h : R S100000x32) (g b : R S32) : R S100000x32 :=
  unpackN (GbnN valR (packN h) (row128 (tile4 (meanN (unpackN valR))))
    (row128 (tile4 (varN (unpackN valR) (constantI S_ 32 0#32)))) (row128 (tile4 g)) (row128 (tile4 b)))
def kbnE (valR : R S200000x128) (e : R S800000x32) (g b : R S32) : R S800000x32 :=
  unpackE (GbnE valR (packE e) (row128 (tile4 (meanE (unpackE valR))))
    (row128 (tile4 (varE (unpackE valR) (constantI S_ 32 0#32)))) (row128 (tile4 g)) (row128 (tile4 b)))

/-- One layer as the kernel program arranges it. -/
def klayer (h : R S100000x32) (e : R S800000x32) (src dst : J Ideal S800000)
    (A : R S32x32) (bA : R S32) (B : R S32x32) (bB : R S32) (C : R S32x32) (bC : R S32)
    (U : R S32x32) (bU : R S32) (Vw : R S32x32) (bV : R S32)
    (gh bh ge be : R S32) : R S100000x32 × R S800000x32 :=
  (kbnN (knodeNewR (kproj h A bA B bB U bU Vw bV) e src dst C bC) h gh bh,
   kbnE (kedgeNewR (kproj h A bA B bB U bU Vw bV) e src dst C bC) e ge be)

def kprologueH (x : R S100000x1) (pw : R S1x32) (pb : R S32) : R S100000x32 := Glin1N x pw (row32 pb)
def kprologueE (e : R S800000x1) (ew : R S1x32) (eb : R S32) : R S800000x32 := Glin1E e ew (row32 eb)

def khead (h : R S100000x32) (e : R S800000x32) (src dst : J Ideal S800000)
    (W1 : R S96x32) (b1 : R S32) (W2 : R S32x1) (b2 : R S1) : R S800000x1 :=
  Ghead (gatherRows h src) (gatherRows h dst) e
    (extractStridedSlice S32x32 ![0, 0] W1 slices_W1_0) (extractStridedSlice S32x32 ![32, 0] W1 slices_W1_32)
    (extractStridedSlice S32x32 ![64, 0] W1 slices_W1_64) (row32 b1) W2 (shapeCast S1x1 b2 shapeCasts_S1_S1x1)

end Cert.KSpec
-- ==== Proof.KProj.lean ====
import proofs.«425355_j88287347737110_2_alg».proof.Proof.KSpec
import Idealize.ShloMosaic.Lib.StackMember
import Idealize.ShloMosaic.Lib.ValueLayout

/-! The fused projection's column blocks are the four separate projections, a 64-column gather
    followed by a column slice is the gather of the slice, and the one-column input projections. -/

noncomputable section

namespace Cert.KSpec

open Idealize.ShloMosaic Idealize.ShloMosaic.ValueIdx Cert.Spec

/-- The node-row product read at an entry: the sum over the contracted coordinate. -/
private theorem dotN_apply (prec : Option ContractPrecision) (x : R S100000x32) (W : R S32x32) (r : Fin 100000) (j : Fin 32) :
    Host.dotGeneral (F := Ideal) (φ₁ := .f32) (φ₂ := .f32) dotN prec x W (ix2 r j) = ∑ k : Fin 32, x (ix2 r k) * W (ix2 k j) :=
  StackMember.dotGeneral_plain_apply prec x W r j

/-- The product with a one-column left operand read at an entry. -/
private theorem dotN1_apply (prec : Option ContractPrecision) (x : R S100000x1) (W : R S1x32) (r : Fin 100000) (j : Fin 32) :
    Host.dotGeneral (F := Ideal) (φ₁ := .f32) (φ₂ := .f32) dotN1 prec x W (ix2 r j) = ∑ k : Fin 1, x (ix2 r k) * W (ix2 k j) :=
  StackMember.dotGeneral_plain_apply prec x W r j

private theorem dotE1_apply (prec : Option ContractPrecision) (x : R S800000x1) (W : R S1x32) (r : Fin 800000) (j : Fin 32) :
    Host.dotGeneral (F := Ideal) (φ₁ := .f32) (φ₂ := .f32) dotE1 prec x W (ix2 r j) = ∑ k : Fin 1, x (ix2 r k) * W (ix2 k j) :=
  StackMember.dotGeneral_plain_apply prec x W r j

/-- A 32-vector repeated along the node rows, read at an entry. -/
private theorem rowsN_apply (b : R S32) (r : Fin 100000) (j : Fin 32) : rowsN b (ix2 r j) = b (ix1 j) := by
  unfold rowsN
  refine (broadcastInDim_apply _ _ _ (ix2 r j) (ix2 (0 : Fin 1) j) ?_).trans ?_
  · intro a
    match a with
    | ⟨0, _⟩ => rfl
    | ⟨1, _⟩ => rfl
  · refine (broadcastInDim_apply _ _ _ (ix2 (0 : Fin 1) j) (ix1 j) ?_)
    intro a
    match a with
    | ⟨0, _⟩ => rfl

/-- A 32-vector repeated along the edge rows, read at an entry. -/
private theorem rowsE_apply (b : R S32) (r : Fin 800000) (j : Fin 32) : rowsE b (ix2 r j) = b (ix1 j) := by
  unfold rowsE
  refine (broadcastInDim_apply _ _ _ (ix2 r j) (ix2 (0 : Fin 1) j) ?_).trans ?_
  · intro a
    match a with
    | ⟨0, _⟩ => rfl
    | ⟨1, _⟩ => rfl
  · refine (broadcastInDim_apply _ _ _ (ix2 (0 : Fin 1) j) (ix1 j) ?_)
    intro a
    match a with
    | ⟨0, _⟩ => rfl

/-- x W + b on node rows, read at an entry. -/
private theorem linN_apply (x : R S100000x32) (W : R S32x32) (b : R S32) (r : Fin 100000) (j : Fin 32) :
    linN x W b (ix2 r j) = (∑ k : Fin 32, x (ix2 r k) * W (ix2 k j)) + b (ix1 j) := by
  unfold linN
  rw [addf_apply, dotN_apply, rowsN_apply]

/-! ## The column blocks of the concatenated weight and bias -/

private theorem wcat_apply_0 (A B Vw U : R S32x32) (k j : Fin 32) (c : Fin 128) (hc : c.val = 0 + j.val) :
    wcat A B Vw U (ix2 k c) = A (ix2 k j) := by
  unfold wcat
  exact concatenate_apply_piece (t := S32x128) 1 [⟨S32x32, A⟩, ⟨S32x32, B⟩, ⟨S32x32, Vw⟩, ⟨S32x32, U⟩] concatenates_W
    (ix2 k c) 0 (by simp) S32x32 A rfl rfl 0 rfl (ix2 k j)
    (fun b hb => by
      match b with
      | ⟨0, _⟩ => rfl
      | ⟨1, _⟩ => exact absurd rfl hb) hc.symm

private theorem wcat_apply_1 (A B Vw U : R S32x32) (k j : Fin 32) (c : Fin 128) (hc : c.val = 32 + j.val) :
    wcat A B Vw U (ix2 k c) = B (ix2 k j) := by
  unfold wcat
  exact concatenate_apply_piece (t := S32x128) 1 [⟨S32x32, A⟩, ⟨S32x32, B⟩, ⟨S32x32, Vw⟩, ⟨S32x32, U⟩] concatenates_W
    (ix2 k c) 1 (by simp) S32x32 B rfl rfl 32 rfl (ix2 k j)
    (fun b hb => by
      match b with
      | ⟨0, _⟩ => rfl
      | ⟨1, _⟩ => exact absurd rfl hb) hc.symm

private theorem wcat_apply_2 (A B Vw U : R S32x32) (k j : Fin 32) (c : Fin 128) (hc : c.val = 64 + j.val) :
    wcat A B Vw U (ix2 k c) = Vw (ix2 k j) := by
  unfold wcat
  exact concatenate_apply_piece (t := S32x128) 1 [⟨S32x32, A⟩, ⟨S32x32, B⟩, ⟨S32x32, Vw⟩, ⟨S32x32, U⟩] concatenates_W
    (ix2 k c) 2 (by simp) S32x32 Vw rfl rfl 64 rfl (ix2 k j)
    (fun b hb => by
      match b with
      | ⟨0, _⟩ => rfl
      | ⟨1, _⟩ => exact absurd rfl hb) hc.symm

private theorem wcat_apply_3 (A B Vw U : R S32x32) (k j : Fin 32) (c : Fin 128) (hc : c.val = 96 + j.val) :
    wcat A B Vw U (ix2 k c) = U (ix2 k j) := by
  unfold wcat
  exact concatenate_apply_piece (t := S32x128) 1 [⟨S32x32, A⟩, ⟨S32x32, B⟩, ⟨S32x32, Vw⟩, ⟨S32x32, U⟩] concatenates_W
    (ix2 k c) 3 (by simp) S32x32 U rfl rfl 96 rfl (ix2 k j)
    (fun b hb => by
      match b with
      | ⟨0, _⟩ => rfl
      | ⟨1, _⟩ => exact absurd rfl hb) hc.symm

private theorem bcat_apply_0 (bA bB bV bU : R S32) (j : Fin 32) (c : Fin 128) (hc : c.val = 0 + j.val) :
    bcat bA bB bV bU (ix2 (0 : Fin 1) c) = bA (ix1 j) := by
  unfold bcat
  refine (shapeCast_a_1a_apply _ _ _ _).trans ?_
  exact concatenate_apply_piece (t := S128) 0 [⟨S32, bA⟩, ⟨S32, bB⟩, ⟨S32, bV⟩, ⟨S32, bU⟩] concatenates_b
    (ix1 c) 0 (by simp) S32 bA rfl rfl 0 rfl (ix1 j)
    (fun b hb => by
      match b with
      | ⟨0, _⟩ => exact absurd rfl hb) hc.symm

private theorem bcat_apply_1 (bA bB bV bU : R S32) (j : Fin 32) (c : Fin 128) (hc : c.val = 32 + j.val) :
    bcat bA bB bV bU (ix2 (0 : Fin 1) c) = bB (ix1 j) := by
  unfold bcat
  refine (shapeCast_a_1a_apply _ _ _ _).trans ?_
  exact concatenate_apply_piece (t := S128) 0 [⟨S32, bA⟩, ⟨S32, bB⟩, ⟨S32, bV⟩, ⟨S32, bU⟩] concatenates_b
    (ix1 c) 1 (by simp) S32 bB rfl rfl 32 rfl (ix1 j)
    (fun b hb => by
      match b with
      | ⟨0, _⟩ => exact absurd rfl hb) hc.symm

private theorem bcat_apply_2 (bA bB bV bU : R S32) (j : Fin 32) (c : Fin 128) (hc : c.val = 64 + j.val) :
    bcat bA bB bV bU (ix2 (0 : Fin 1) c) = bV (ix1 j) := by
  unfold bcat
  refine (shapeCast_a_1a_apply _ _ _ _).trans ?_
  exact concatenate_apply_piece (t := S128) 0 [⟨S32, bA⟩, ⟨S32, bB⟩, ⟨S32, bV⟩, ⟨S32, bU⟩] concatenates_b
    (ix1 c) 2 (by simp) S32 bV rfl rfl 64 rfl (ix1 j)
    (fun b hb => by
      match b with
      | ⟨0, _⟩ => exact absurd rfl hb) hc.symm

private theorem bcat_apply_3 (bA bB bV bU : R S32) (j : Fin 32) (c : Fin 128) (hc : c.val = 96 + j.val) :
    bcat bA bB bV bU (ix2 (0 : Fin 1) c) = bU (ix1 j) := by
  unfold bcat
  refine (shapeCast_a_1a_apply _ _ _ _).trans ?_
  exact concatenate_apply_piece (t := S128) 0 [⟨S32, bA⟩, ⟨S32, bB⟩, ⟨S32, bV⟩, ⟨S32, bU⟩] concatenates_b
    (ix1 c) 3 (by simp) S32 bU rfl rfl 96 rfl (ix1 j)
    (fun b hb => by
      match b with
      | ⟨0, _⟩ => exact absurd rfl hb) hc.symm

/-- A 32-column block of the fused projection whose weight and bias blocks are W and bW is x W + bW. -/
private theorem lin128_block (h : R S100000x32) (w : R S32x128) (b : R S1x128) (W : R S32x32) (bW : R S32)
    (off : ℕ) (hs : S100000x128.Slices ![0, off] S100000x32)
    (hw : ∀ (k j : Fin 32) (c : Fin 128), c.val = off + j.val → w (ix2 k c) = W (ix2 k j))
    (hb : ∀ (j : Fin 32) (c : Fin 128), c.val = off + j.val → b (ix2 (0 : Fin 1) c) = bW (ix1 j)) :
    extractStridedSlice S100000x32 ![0, off] (Glin128 h w b) hs = linN h W bW := by
  funext i
  obtain ⟨r, j, rfl⟩ : ∃ (r : Fin 100000) (j : Fin 32), i = ix2 r j := ⟨i 0, i 1, eq_ix2 i⟩
  rw [slice2_axis1_eq, linN_apply]
  show (∑ k : Fin 32, h (ix2 r k) * w (ix2 k _)) + b (ix2 (0 : Fin 1) _) = _
  rw [hb j _ rfl]
  congr 1
  exact Finset.sum_congr rfl fun k _ => by rw [hw k j _ rfl]

theorem colsA_kproj (h : R S100000x32) (A : R S32x32) (bA : R S32) (B : R S32x32) (bB : R S32)
    (U : R S32x32) (bU : R S32) (Vw : R S32x32) (bV : R S32) :
    colsA (kproj h A bA B bB U bU Vw bV) = linN h A bA :=
  lin128_block h _ _ A bA 0 slices_P_0 (wcat_apply_0 A B Vw U) (bcat_apply_0 bA bB bV bU)

theorem colsU_kproj (h : R S100000x32) (A : R S32x32) (bA : R S32) (B : R S32x32) (bB : R S32)
    (U : R S32x32) (bU : R S32) (Vw : R S32x32) (bV : R S32) :
    colsU (kproj h A bA B bB U bU Vw bV) = linN h U bU :=
  lin128_block h _ _ U bU 96 slices_P_96 (wcat_apply_3 A B Vw U) (bcat_apply_3 bA bB bV bU)

/-! ## The one-column input projections -/

theorem kprologueH_eq (x : R S100000x1) (pw : R S1x32) (pb : R S32) :
    kprologueH x pw pb = prologueH x pw pb := by
  funext i
  obtain ⟨r, j, rfl⟩ : ∃ (r : Fin 100000) (j : Fin 32), i = ix2 r j := ⟨i 0, i 1, eq_ix2 i⟩
  unfold prologueH
  rw [addf_apply, dotN1_apply, rowsN_apply]
  show (∑ k : Fin 1, x (ix2 r k) * pw (ix2 k j)) + row32 pb (ix2 (0 : Fin 1) j) = _
  unfold row32
  rw [shapeCast_a_1a_apply]

theorem kprologueE_eq (e : R S800000x1) (ew : R S1x32) (eb : R S32) :
    kprologueE e ew eb = prologueE e ew eb := by
  funext i
  obtain ⟨r, j, rfl⟩ : ∃ (r : Fin 800000) (j : Fin 32), i = ix2 r j := ⟨i 0, i 1, eq_ix2 i⟩
  unfold prologueE
  rw [addf_apply, dotE1_apply, rowsE_apply]
  show (∑ k : Fin 1, e (ix2 r k) * ew (ix2 k j)) + row32 eb (ix2 (0 : Fin 1) j) = _
  unfold row32
  rw [shapeCast_a_1a_apply]

/-! ## A row gather commutes with a column slice -/

/-- The node row an edge's start index names: the index read signed and clamped into the rows. -/
private def gRow (i : J Ideal S800000x1) (r : Fin 800000) : Fin 100000 :=
  ⟨min (i (ix2 r (0 : Fin 1))).toInt.toNat 99999, by omega⟩

private theorem gatherNE_coord0 (i : J Ideal S800000x1) (r : Fin 800000) (c : Fin 32) :
    (gatherNE.operandIdx (ix2 r c) i (0 : Fin 2)).val = (gRow i r).val := by
  show gatherNE.start (ix2 r c) i (0 : Fin 2) + gatherNE.batchCoord (ix2 r c) (0 : Fin 2) + gatherNE.offCoord (ix2 r c) (0 : Fin 2) = _
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ gatherNE.startIndexMap from List.mem_singleton.mpr rfl)]
  have hsi : gatherNE.siIdx (ix2 r c) ⟨List.idxOf (0 : Fin 2) gatherNE.startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

private theorem gatherNE_coord1 (i : J Ideal S800000x1) (r : Fin 800000) (c : Fin 32) :
    (gatherNE.operandIdx (ix2 r c) i (1 : Fin 2)).val = c.val := by
  show gatherNE.start (ix2 r c) i (1 : Fin 2) + gatherNE.batchCoord (ix2 r c) (1 : Fin 2) + gatherNE.offCoord (ix2 r c) (1 : Fin 2) = _
  have h1 : (1 : Fin 2) ∉ gatherNE.startIndexMap :=
    fun h => Nat.one_ne_zero (congrArg Fin.val (List.mem_singleton.mp h))
  have hk : (1 : Fin 2) ∈ gatherNE.sKept :=
    (GatherDims.mem_sKept _ _).mpr
      ⟨fun h => Nat.one_ne_zero (congrArg Fin.val (List.mem_singleton.mp h)), List.not_mem_nil⟩
  rw [GatherDims.batchCoord_eq_zero _ _ _ List.not_mem_nil, Nat.add_zero]
  unfold GatherDims.start
  rw [dif_neg h1, Nat.zero_add]
  unfold GatherDims.offCoord
  rw [dif_pos hk]
  rfl

/-- The 32-column row gather reads the start index's row, same column. -/
private theorem gatherNE_operandIdx (i : J Ideal S800000x1) (r : Fin 800000) (c : Fin 32) :
    gatherNE.operandIdx (ix2 r c) i = ix2 (gRow i r) c := by
  funext a
  refine Fin.ext ?_
  match a with
  | ⟨0, _⟩ => exact gatherNE_coord0 i r c
  | ⟨1, _⟩ => exact gatherNE_coord1 i r c

private theorem gather64_coord0 (i : J Ideal S800000x1) (r : Fin 800000) (c : Fin 64) :
    (gather64.operandIdx (ix2 r c) i (0 : Fin 2)).val = (gRow i r).val := by
  show gather64.start (ix2 r c) i (0 : Fin 2) + gather64.batchCoord (ix2 r c) (0 : Fin 2) + gather64.offCoord (ix2 r c) (0 : Fin 2) = _
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ gather64.startIndexMap from List.mem_singleton.mpr rfl)]
  have hsi : gather64.siIdx (ix2 r c) ⟨List.idxOf (0 : Fin 2) gather64.startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

private theorem gather64_coord1 (i : J Ideal S800000x1) (r : Fin 800000) (c : Fin 64) :
    (gather64.operandIdx (ix2 r c) i (1 : Fin 2)).val = c.val := by
  show gather64.start (ix2 r c) i (1 : Fin 2) + gather64.batchCoord (ix2 r c) (1 : Fin 2) + gather64.offCoord (ix2 r c) (1 : Fin 2) = _
  have h1 : (1 : Fin 2) ∉ gather64.startIndexMap :=
    fun h => Nat.one_ne_zero (congrArg Fin.val (List.mem_singleton.mp h))
  have hk : (1 : Fin 2) ∈ gather64.sKept :=
    (GatherDims.mem_sKept _ _).mpr
      ⟨fun h => Nat.one_ne_zero (congrArg Fin.val (List.mem_singleton.mp h)), List.not_mem_nil⟩
  rw [GatherDims.batchCoord_eq_zero _ _ _ List.not_mem_nil, Nat.add_zero]
  unfold GatherDims.start
  rw [dif_neg h1, Nat.zero_add]
  unfold GatherDims.offCoord
  rw [dif_pos hk]
  rfl

/-- The 64-column row gather reads the start index's row, same column. -/
private theorem gather64_operandIdx (i : J Ideal S800000x1) (r : Fin 800000) (c : Fin 64) :
    gather64.operandIdx (ix2 r c) i = ix2 (gRow i r) c := by
  funext a
  refine Fin.ext ?_
  match a with
  | ⟨0, _⟩ => exact gather64_coord0 i r c
  | ⟨1, _⟩ => exact gather64_coord1 i r c

/-- Node rows gathered to edges, read at an entry. -/
private theorem gatherNE_apply (x : R S100000x32) (i : J Ideal S800000x1) (r : Fin 800000) (c : Fin 32) :
    Host.gather gatherNE x i (ix2 r c) = x (ix2 (gRow i r) c) := by
  show x (gatherNE.operandIdx (ix2 r c) i) = _
  rw [gatherNE_operandIdx]

/-- A 32-column slice of gathered 64-column rows is the gather of the sliced rows. -/
private theorem slice_gather64 (Q : R S100000x64) (i : J Ideal S800000x1) (off : ℕ)
    (hG : S800000x64.Slices ![0, off] S800000x32) (hQ : S100000x64.Slices ![0, off] S100000x32) :
    extractStridedSlice S800000x32 ![0, off] (Host.gather gather64 Q i) hG
      = Host.gather gatherNE (extractStridedSlice S100000x32 ![0, off] Q hQ) i := by
  funext y
  obtain ⟨r, c, rfl⟩ : ∃ (r : Fin 800000) (c : Fin 32), y = ix2 r c := ⟨y 0, y 1, eq_ix2 y⟩
  rw [slice2_axis1_eq, gatherNE_apply, slice2_axis1_eq]
  show Q (gather64.operandIdx (ix2 r _) i) = _
  rw [gather64_operandIdx]

/-- A column slice of the middle 64 columns is a column slice of the whole. -/
private theorem slice_colsBV (P : R S100000x128) (off off' : ℕ) (hoff : off' = 32 + off)
    (hQ : S100000x64.Slices ![0, off] S100000x32) (hP : S100000x128.Slices ![0, off'] S100000x32) :
    extractStridedSlice S100000x32 ![0, off] (colsBV P) hQ = extractStridedSlice S100000x32 ![0, off'] P hP := by
  subst hoff
  funext y
  obtain ⟨r, c, rfl⟩ : ∃ (r : Fin 100000) (c : Fin 32), y = ix2 r c := ⟨y 0, y 1, eq_ix2 y⟩
  unfold colsBV
  rw [slice2_axis1_eq, slice2_axis1_eq, slice2_axis1_eq]
  congr 2
  exact Fin.ext (Nat.add_assoc _ _ _).symm

private theorem slices_Q_0 : S100000x64.Slices ![0, 0] S100000x32 := by decide
private theorem slices_Q_32 : S100000x64.Slices ![0, 32] S100000x32 := by decide
private theorem slices_P_32' : S100000x128.Slices ![0, 32] S100000x32 := by decide
private theorem slices_P_64 : S100000x128.Slices ![0, 64] S100000x32 := by decide

/-- Gathering 64-column rows and then taking the left 32 columns is gathering the B projection. -/
theorem left32_gather_kproj (h : R S100000x32) (A : R S32x32) (bA : R S32) (B : R S32x32) (bB : R S32)
    (U : R S32x32) (bU : R S32) (Vw : R S32x32) (bV : R S32) (src : J Ideal S800000) :
    left32 (gatherRows64 (colsBV (kproj h A bA B bB U bU Vw bV)) src) = gatherRows (linN h B bB) src := by
  unfold left32 gatherRows64 gatherRows
  rw [slice_gather64 _ _ 0 slices_G_0 slices_Q_0, slice_colsBV _ 0 32 rfl slices_Q_0 slices_P_32']
  exact congrArg (fun x => Host.gather gatherNE x (normIdx src))
    (lin128_block h _ _ B bB 32 slices_P_32' (wcat_apply_1 A B Vw U) (bcat_apply_1 bA bB bV bU))

theorem right32_gather_kproj (h : R S100000x32) (A : R S32x32) (bA : R S32) (B : R S32x32) (bB : R S32)
    (U : R S32x32) (bU : R S32) (Vw : R S32x32) (bV : R S32) (src : J Ideal S800000) :
    right32 (gatherRows64 (colsBV (kproj h A bA B bB U bU Vw bV)) src) = gatherRows (linN h Vw bV) src := by
  unfold right32 gatherRows64 gatherRows
  rw [slice_gather64 _ _ 32 slices_G_32 slices_Q_32, slice_colsBV _ 32 64 rfl slices_Q_32 slices_P_64]
  exact congrArg (fun x => Host.gather gatherNE x (normIdx src))
    (lin128_block h _ _ Vw bV 64 slices_P_64 (wcat_apply_2 A B Vw U) (bcat_apply_2 bA bB bV bU))

end Cert.KSpec
-- ==== Proof.KEdge.lean ====
import proofs.«425355_j88287347737110_2_alg».proof.Proof.KSpec
import Idealize.ShloMosaic.Lib.IdealHost
import Idealize.ShloMosaic.Lib.StackMember

/-! The edge region on packed rows: four 32-column rows share one 128-lane row, the parameters are
    repeated four times, and the product with the block-diagonal matrix is the row-wise product. -/

noncomputable section

namespace Cert.KSpec

open Idealize.ShloMosaic Idealize.ShloMosaic.ValueIdx Cert.Spec

theorem unpackE_packE (x : R S800000x32) : unpackE (packE x) = x :=
  shapeCast_shapeCast x shapeCasts_E_pack shapeCasts_E_unpack

namespace Edge

/-! ## Where an entry sits in the packed arrangement

Row r of the 32-column array is block r % 4 of packed row r / 4: entry (r, j) sits at lane
32 (r % 4) + j, because both arrangements list the entries in the same row-major order. -/

/-- Lane 32 a + j of a 128-lane row: column j of block a. -/
def ln (a : Fin 4) (j : Fin 32) : Fin 128 := ⟨a.val * 32 + j.val, by have := a.isLt; have := j.isLt; omega⟩

/-- The block of a packed row that holds row r. -/
def blk (r : Fin 800000) : Fin 4 := ⟨r.val % 4, by omega⟩

/-- The packed row that holds row r. -/
def prow (r : Fin 800000) : Fin 200000 := ⟨r.val / 4, by have := r.isLt; omega⟩

theorem unpackE_apply (y : R S200000x128) (r : Fin 800000) (j : Fin 32) :
    unpackE y (ix2 r j) = y (ix2 (prow r) (ln (blk r) j)) := by
  unfold unpackE
  refine shapeCast_apply _ _ _ _ ?_
  rw [Shape.rowMajor_val_two, Shape.rowMajor_val_two]
  show (r.val / 4) * 128 + ((r.val % 4) * 32 + j.val) = r.val * 32 + j.val
  omega

theorem packE_apply (x : R S800000x32) (r : Fin 800000) (j : Fin 32) :
    packE x (ix2 (prow r) (ln (blk r) j)) = x (ix2 r j) := by
  unfold packE
  refine shapeCast_apply _ _ _ _ ?_
  rw [Shape.rowMajor_val_two, Shape.rowMajor_val_two]
  show r.val * 32 + j.val = (r.val / 4) * 128 + ((r.val % 4) * 32 + j.val)
  omega

/-! ## The repeated bias

Lane 32 a + j of the four-fold repetition of a 32-vector is its entry j, which is also what the
reference adds to every row in column j. -/

theorem tile4_apply (p : R S32) (a : Fin 4) (j : Fin 32) :
    row128 (tile4 p) (ix2 (0 : Fin 1) (ln a j)) = p (ix1 j) := by
  have ha := a.isLt
  have hj := j.isLt
  unfold row128 tile4 row32
  refine (shapeCast_apply _ _ _ (ix1 (ln a j)) (by
    rw [Shape.rowMajor_val_one, Shape.rowMajor_val_two]
    show a.val * 32 + j.val = 0 * 128 + (a.val * 32 + j.val)
    omega)).trans ?_
  refine (shapeCast_apply _ _ _ (ix2 a j) (by
    rw [Shape.rowMajor_val_two, Shape.rowMajor_val_one]
    show a.val * 32 + j.val = a.val * 32 + j.val
    rfl)).trans ?_
  refine (broadcastInDim_oneRow_apply _ _ a j).trans ?_
  refine shapeCast_apply _ _ _ (ix1 j) (by
    rw [Shape.rowMajor_val_one, Shape.rowMajor_val_two]
    show j.val = 0 * 32 + j.val
    omega)

theorem rowsE_apply (p : R S32) (r : Fin 800000) (j : Fin 32) : rowsE p (ix2 r j) = p (ix1 j) := by
  unfold rowsE
  refine (broadcastInDim_oneRow_apply _ _ r j).trans ?_
  refine broadcastInDim_apply _ _ _ _ (ix1 j) ?_
  intro ax
  fin_cases ax
  rfl

/-! ## The block-diagonal matrix

The 4 x 4 identity is one where its two coordinates agree and zero elsewhere, so entry
(32 a' + k, 32 a + j) of its Kronecker product with C is C (k, j) on the diagonal blocks and zero
off them. -/

theorem eye4_apply (p q : Fin 4) : (eye4 : R S4x4) (ix2 p q) = if p = q then 1 else 0 := by
  fin_cases p <;> fin_cases q <;>
    simp [eye4, uitofp, cmpi, addi, iotaInDim, constantI, broadcastInDim, IntOp.cmpi, IntOp.addi, FloatOps.uitofp,
      FloatOps.scalar]

theorem kron_apply (A : R S4x4) (C : R S32x32) (a' a : Fin 4) (k j : Fin 32) :
    kron A C (ix2 (ln a' k) (ln a j)) = A (ix2 a' a) * C (ix2 k j) := by
  have ha' := a'.isLt
  have ha := a.isLt
  have hk := k.isLt
  have hj := j.isLt
  unfold kron
  refine (shapeCast_apply _ _ _ (ix4 a' k a j) (by
    rw [Shape.rowMajor_val_four, Shape.rowMajor_val_two]
    show ((a'.val * 32 + k.val) * 4 + a.val) * 32 + j.val = (a'.val * 32 + k.val) * 128 + (a.val * 32 + j.val)
    omega)).trans ?_
  rw [mulf_apply]
  congr 1
  · refine (broadcastInDim_apply _ _ _ _ (ix4 a' (0 : Fin 1) a (0 : Fin 1)) ?_).trans ?_
    · intro ax; fin_cases ax <;> rfl
    · refine broadcastInDim_apply _ _ _ _ (ix2 a' a) ?_
      intro ax; fin_cases ax <;> rfl
  · refine (broadcastInDim_apply _ _ _ _ (ix4 (0 : Fin 1) k (0 : Fin 1) j) ?_).trans ?_
    · intro ax; fin_cases ax <;> rfl
    · refine broadcastInDim_apply _ _ _ _ (ix2 k j) ?_
      intro ax; fin_cases ax <;> rfl

/-! ## A sum over 128 lanes as four sums over 32 columns -/

theorem sum_lanes (f : Fin 128 → EReal) : ∑ c : Fin 128, f c = ∑ a : Fin 4, ∑ k : Fin 32, f (ln a k) := by
  have e := Equiv.sum_comp (finProdFinEquiv : Fin 4 × Fin 32 ≃ Fin (4 * 32)) f
  refine e.symm.trans ?_
  rw [Fintype.sum_prod_type]
  refine Finset.sum_congr rfl fun a _ => Finset.sum_congr rfl fun k _ => ?_
  congr 1
  apply Fin.ext
  show k.val + 32 * a.val = a.val * 32 + k.val
  omega

/-! ## The reference's edge projection at an entry -/

theorem linE_apply (e : R S800000x32) (C : R S32x32) (bC : R S32) (r : Fin 800000) (j : Fin 32) :
    linE e C bC (ix2 r j) = (∑ k : Fin 32, e (ix2 r k) * C (ix2 k j)) + bC (ix1 j) := by
  unfold linE
  rw [addf_apply, rowsE_apply]
  congr 1
  exact StackMember.dotGeneral_plain_apply none e C r j

/-! ## The packed product is the row-wise product

In the sum over the 128 lanes of packed row r / 4 against column 32 (r % 4) + j of the
block-diagonal matrix, the three blocks other than r % 4 meet a zero block and contribute zero
(a product with zero is zero for every extended real), and block r % 4 is row r against column j
of C. No product is distributed over a sum. -/

theorem sum_packed (e : R S800000x32) (C : R S32x32) (r : Fin 800000) (j : Fin 32) :
    ∑ c : Fin 128, packE e (ix2 (prow r) c) * kron eye4 C (ix2 c (ln (blk r) j))
      = ∑ k : Fin 32, e (ix2 r k) * C (ix2 k j) := by
  rw [sum_lanes, Finset.sum_eq_single (blk r)]
  · refine Finset.sum_congr rfl fun k _ => ?_
    rw [packE_apply, kron_apply, eye4_apply, if_pos rfl, one_mul]
  · intro a' _ hne
    refine Finset.sum_eq_zero fun k _ => ?_
    rw [kron_apply, eye4_apply, if_neg hne, zero_mul, mul_zero]
  · intro h
    exact absurd (Finset.mem_univ _) h

theorem edgeNewAt_packed (a b e : R S800000x32) (C : R S32x32) (bC : R S32) (r : Fin 800000) (j : Fin 32) :
    edgeNewAt (packE a) (packE b) (packE e) (kron eye4 C) (row128 (tile4 bC)) (prow r) (ln (blk r) j)
      = addf (addf a b) (linE e C bC) (ix2 r j) := by
  unfold edgeNewAt
  rw [packE_apply, packE_apply, sum_packed, tile4_apply, addf_apply, addf_apply, linE_apply]

/-! ## The logistic function as the reference spells it -/

theorem sigmoidE_apply (x : R S800000x32) (i : S800000x32.Idx) : sigmoidE x i = Ideal.logistic (x i) := by
  unfold sigmoidE Ideal.logistic
  rw [hostDivf_apply, addf_apply, broadcastInDim_scalar_apply, constant_apply, Ideal.ofBits_one_f32]
  rfl

/-! ## Two edge arrays are equal when they agree at every (row, column) -/

theorem ext_rows {x y : R S800000x32} (h : ∀ (r : Fin 800000) (j : Fin 32), x (ix2 r j) = y (ix2 r j)) : x = y := by
  funext i
  have hi : i = ix2 (n0 := 800000) (n1 := 32) (i 0) (i 1) := eq_ix2 (n0 := 800000) (n1 := 32) i
  exact (congrArg x hi).trans ((h (i 0) (i 1)).trans (congrArg y hi).symm)

end Edge

open Edge

theorem edgeNew_packed (a b e : R S800000x32) (C : R S32x32) (bC : R S32) :
    unpackE (GedgeNew (packE a) (packE b) (packE e) (kron eye4 C) (row128 (tile4 bC)))
      = addf (addf a b) (linE e C bC) := by
  refine ext_rows fun r j => ?_
  rw [unpackE_apply]
  exact edgeNewAt_packed a b e C bC r j

theorem edgeSig_packed (a b e : R S800000x32) (C : R S32x32) (bC : R S32) :
    unpackE (GedgeSig (packE a) (packE b) (packE e) (kron eye4 C) (row128 (tile4 bC)))
      = sigmoidE (addf (addf a b) (linE e C bC)) := by
  refine ext_rows fun r j => ?_
  rw [unpackE_apply, sigmoidE_apply]
  exact congrArg Ideal.logistic (edgeNewAt_packed a b e C bC r j)

theorem edgeNum_packed (a b e v : R S800000x32) (C : R S32x32) (bC : R S32) :
    unpackE (GedgeNum (packE a) (packE b) (packE e) (packE v) (kron eye4 C) (row128 (tile4 bC)))
      = mulf (sigmoidE (addf (addf a b) (linE e C bC))) v := by
  refine ext_rows fun r j => ?_
  rw [unpackE_apply, mulf_apply, sigmoidE_apply]
  show Ideal.logistic (edgeNewAt (packE a) (packE b) (packE e) (kron eye4 C) (row128 (tile4 bC)) (prow r) (ln (blk r) j))
      * packE v (ix2 (prow r) (ln (blk r) j)) = _
  rw [edgeNewAt_packed, packE_apply]

end Cert.KSpec
-- ==== Proof.KNodeBn.lean ====
import proofs.«425355_j88287347737110_2_alg».proof.Proof.KSpec
import Idealize.ShloMosaic.Lib.ValueLayout
import Idealize.ShloMosaic.Lib.IdealHost
import Idealize.ShloMosaic.Lib.KernelVsHost

/-! The node region and the normalise-and-add regions on packed rows. -/

noncomputable section

namespace Cert.KSpec

open Idealize.ShloMosaic Idealize.ShloMosaic.ValueIdx Cert.Spec

/-! ## Packing and its inverse -/

theorem unpackN_packN (x : R S100000x32) : unpackN (packN x) = x :=
  shapeCast_shapeCast x shapeCasts_N_pack shapeCasts_N_unpack

private theorem unpackE_packE (x : R S800000x32) : unpackE (packE x) = x :=
  shapeCast_shapeCast x shapeCasts_E_pack shapeCasts_E_unpack

/-! ## The node region is pointwise -/

theorem node_packed (uh num den : R S100000x32) :
    unpackN (Gnode (packN uh) (packN num) (packN den))
      = addf (F := Ideal) uh (Host.divf num
          (addf den (broadcastInDim S100000x32 ![] bcast_S_S100000x32 (constant (F := Ideal) S_ .f32 0x358637BD#32)))) := by
  funext i
  show unpackN (packN uh) i + Ideal.div (unpackN (packN num) i) (unpackN (packN den) i + Ideal.ofBits .f32 0x358637BD#32) = _
  rw [unpackN_packN, unpackN_packN, unpackN_packN]
  rfl

/-! ## A parameter vector repeated along rows, read at an entry -/

/-- A 32-vector repeated along n rows reads, at (r, j), its entry j. -/
private theorem rows_apply {n : ℕ} (hb : S1x32.BroadcastsInDim ⟨2, ![n, 32]⟩ (![0, 1] : Fin 2 → Fin 2))
    (p : R S32) (r : Fin n) (j : Fin 32) :
    broadcastInDim (⟨2, ![n, 32]⟩ : Shape) ![0, 1] hb (broadcastInDim S1x32 ![1] bcast_S32_S1x32_1 p) (ix2 r j) = p (ix1 j) := by
  rw [broadcastInDim_oneRow_apply]
  refine broadcastInDim_apply ![1] bcast_S32_S1x32_1 p (ix2 (0 : Fin 1) j) (ix1 j) ?_
  intro a
  fin_cases a
  show j.val = if (32 : ℕ) = 1 then 0 else j.val
  rw [if_neg (by decide)]

/-- The four-fold repetition of a 32-vector as one row of 128 reads, at column c, entry c mod 32. -/
private theorem row128_tile4_apply (p : R S32) (u : Fin 1) (c : Fin 128) :
    row128 (tile4 p) (ix2 u c) = p (ix1 (⟨c.val % 32, Nat.mod_lt _ (by decide)⟩ : Fin 32)) := by
  unfold row128
  rw [shapeCast_a_1a_apply]
  unfold tile4
  rw [shapeCast_apply _ shapeCasts_S4x32_S128 (ix1 c)
    (ix2 (⟨c.val / 32, by have := c.isLt; omega⟩ : Fin 4) (⟨c.val % 32, Nat.mod_lt _ (by decide)⟩ : Fin 32)) (by
      rw [Shape.rowMajor_val_two, Shape.rowMajor_val_one]
      show c.val / 32 * 32 + c.val % 32 = c.val
      omega)]
  rw [broadcastInDim_oneRow_apply]
  unfold row32
  rw [shapeCast_a_1a_apply]

/-! ## The normalise-and-add region at an unpacked entry -/

/-- Where the unpacked entry (r, j) sits at the packed entry (q, c), the region's value there is the
    normalise-and-add formula with the parameters' entry j: c is j modulo 32. -/
private theorem bn_entry {m n : ℕ} (hc : (⟨2, ![m, 128]⟩ : Shape).ShapeCasts ⟨2, ![n, 32]⟩)
    (val orig : R ⟨2, ![m, 128]⟩) (mu v g b : R S32) (r : Fin n) (j : Fin 32) (q : Fin m) (c : Fin 128)
    (hq : Shape.reshapeEquiv hc (ix2 r j) = ix2 q c) :
    bnAt val orig (row128 (tile4 mu)) (row128 (tile4 v)) (row128 (tile4 g)) (row128 (tile4 b)) q c
      = shapeCast ⟨2, ![n, 32]⟩ orig hc (ix2 r j)
        + max (((shapeCast ⟨2, ![n, 32]⟩ val hc (ix2 r j) - mu (ix1 j))
            * Ideal.rsqrt (v (ix1 j) + Ideal.ofBits .f32 0x3727C5AC#32)) * g (ix1 j) + b (ix1 j)) 0 := by
  have hcol : c.val % 32 = j.val := by
    have e := Shape.rowMajor_reshapeEquiv hc (ix2 r j)
    rw [hq, Shape.rowMajor_val_two, Shape.rowMajor_val_two] at e
    have h1 := c.isLt
    have h2 := j.isLt
    change q.val * 128 + c.val = r.val * 32 + j.val at e
    omega
  have hj : (⟨c.val % 32, Nat.mod_lt _ (by decide)⟩ : Fin 32) = j := Fin.ext hcol
  have ho : shapeCast ⟨2, ![n, 32]⟩ orig hc (ix2 r j) = orig (ix2 q c) := by unfold shapeCast; rw [hq]
  have hv : shapeCast ⟨2, ![n, 32]⟩ val hc (ix2 r j) = val (ix2 q c) := by unfold shapeCast; rw [hq]
  unfold bnAt
  rw [row128_tile4_apply, row128_tile4_apply, row128_tile4_apply, row128_tile4_apply, hj, ho, hv]

theorem bnN_packed (valR : R S25000x128) (h : R S100000x32) (mu v g b : R S32) :
    unpackN (GbnN valR (packN h) (row128 (tile4 mu)) (row128 (tile4 v)) (row128 (tile4 g)) (row128 (tile4 b)))
      = addf h (reluN (bnApplyN (unpackN valR) mu v g b)) := by
  funext i
  obtain ⟨r, j, rfl⟩ : ∃ (r : Fin 100000) (j : Fin 32), i = ix2 r j := ⟨i 0, i 1, eq_ix2 i⟩
  obtain ⟨q, c, hq⟩ : ∃ (q : Fin 25000) (c : Fin 128), Shape.reshapeEquiv shapeCasts_N_unpack (ix2 r j) = ix2 q c :=
    ⟨_, _, eq_ix2 _⟩
  have hL : unpackN (GbnN valR (packN h) (row128 (tile4 mu)) (row128 (tile4 v)) (row128 (tile4 g)) (row128 (tile4 b))) (ix2 r j)
      = bnAt valR (packN h) (row128 (tile4 mu)) (row128 (tile4 v)) (row128 (tile4 g)) (row128 (tile4 b)) q c := by
    show GbnN _ _ _ _ _ _ (Shape.reshapeEquiv shapeCasts_N_unpack (ix2 r j)) = _
    rw [hq]; rfl
  refine (hL.trans (bn_entry shapeCasts_N_unpack valR (packN h) mu v g b r j q c hq)).trans ?_
  show unpackN (packN h) (ix2 r j)
      + max (((unpackN valR (ix2 r j) - mu (ix1 j))
          * Ideal.rsqrt (v (ix1 j) + Ideal.ofBits .f32 0x3727C5AC#32)) * g (ix1 j) + b (ix1 j)) 0
    = h (ix2 r j)
      + max (((unpackN valR (ix2 r j) - rowsN mu (ix2 r j))
          * rowsN (invStd v) (ix2 r j)) * rowsN g (ix2 r j) + rowsN b (ix2 r j))
        (Ideal.ofBits .f32 0x00000000#32)
  unfold rowsN
  rw [unpackN_packN, rows_apply, rows_apply, rows_apply, rows_apply, Ideal.ofBits_zero_f32]
  rfl

theorem bnE_packed (valR : R S200000x128) (e : R S800000x32) (mu v g b : R S32) :
    unpackE (GbnE valR (packE e) (row128 (tile4 mu)) (row128 (tile4 v)) (row128 (tile4 g)) (row128 (tile4 b)))
      = addf e (reluE (bnApplyE (unpackE valR) mu v g b)) := by
  funext i
  obtain ⟨r, j, rfl⟩ : ∃ (r : Fin 800000) (j : Fin 32), i = ix2 r j := ⟨i 0, i 1, eq_ix2 i⟩
  obtain ⟨q, c, hq⟩ : ∃ (q : Fin 200000) (c : Fin 128), Shape.reshapeEquiv shapeCasts_E_unpack (ix2 r j) = ix2 q c :=
    ⟨_, _, eq_ix2 _⟩
  have hL : unpackE (GbnE valR (packE e) (row128 (tile4 mu)) (row128 (tile4 v)) (row128 (tile4 g)) (row128 (tile4 b))) (ix2 r j)
      = bnAt valR (packE e) (row128 (tile4 mu)) (row128 (tile4 v)) (row128 (tile4 g)) (row128 (tile4 b)) q c := by
    show GbnE _ _ _ _ _ _ (Shape.reshapeEquiv shapeCasts_E_unpack (ix2 r j)) = _
    rw [hq]; rfl
  refine (hL.trans (bn_entry shapeCasts_E_unpack valR (packE e) mu v g b r j q c hq)).trans ?_
  show unpackE (packE e) (ix2 r j)
      + max (((unpackE valR (ix2 r j) - mu (ix1 j))
          * Ideal.rsqrt (v (ix1 j) + Ideal.ofBits .f32 0x3727C5AC#32)) * g (ix1 j) + b (ix1 j)) 0
    = e (ix2 r j)
      + max (((unpackE valR (ix2 r j) - rowsE mu (ix2 r j))
          * rowsE (invStd v) (ix2 r j)) * rowsE g (ix2 r j) + rowsE b (ix2 r j))
        (Ideal.ofBits .f32 0x00000000#32)
  unfold rowsE
  rw [unpackE_packE, rows_apply, rows_apply, rows_apply, rows_apply, Ideal.ofBits_zero_f32]
  rfl

end Cert.KSpec
-- ==== Proof.KLayerEq.lean ====
import proofs.«425355_j88287347737110_2_alg».proof.Proof.KProj
import proofs.«425355_j88287347737110_2_alg».proof.Proof.KEdge
import proofs.«425355_j88287347737110_2_alg».proof.Proof.KNodeBn

/-! The kernel's arrangement of one layer computes the reference's layer: the layer equation
    assembled from the array-level facts about the fused projection, the packed edge region, the
    packed node region and the packed normalise-and-add regions. -/

noncomputable section

namespace Cert.KSpec

open Idealize.ShloMosaic Idealize.ShloMosaic.ValueIdx Cert.Spec

/-! ## The layer -/

theorem kedgeNew_eq (h : R S100000x32) (e : R S800000x32) (src dst : J Ideal S800000)
    (A : R S32x32) (bA : R S32) (B : R S32x32) (bB : R S32) (C : R S32x32) (bC : R S32)
    (U : R S32x32) (bU : R S32) (Vw : R S32x32) (bV : R S32) :
    unpackE (kedgeNewR (kproj h A bA B bB U bU Vw bV) e src dst C bC) = edgeNew h e src dst A bA B bB C bC := by
  unfold kedgeNewR edgeNew
  rw [colsA_kproj, left32_gather_kproj, edgeNew_packed]

theorem klayer_eq (h : R S100000x32) (e : R S800000x32) (src dst : J Ideal S800000)
    (A : R S32x32) (bA : R S32) (B : R S32x32) (bB : R S32) (C : R S32x32) (bC : R S32)
    (U : R S32x32) (bU : R S32) (Vw : R S32x32) (bV : R S32) (gh bh ge be : R S32) :
    klayer h e src dst A bA B bB C bC U bU Vw bV gh bh ge be
      = layer h e src dst A bA B bB C bC U bU Vw bV gh bh ge be := by
  have hE := kedgeNew_eq h e src dst A bA B bB C bC U bU Vw bV
  have hS : unpackE (kedgeSigR (kproj h A bA B bB U bU Vw bV) e src dst C bC)
      = sigmoidE (edgeNew h e src dst A bA B bB C bC) := by
    unfold kedgeSigR edgeNew
    rw [colsA_kproj, left32_gather_kproj, edgeSig_packed]
  have hM : unpackE (kedgeNumR (kproj h A bA B bB U bU Vw bV) e src dst C bC)
      = mulf (sigmoidE (edgeNew h e src dst A bA B bB C bC)) (gatherRows (linN h Vw bV) src) := by
    unfold kedgeNumR edgeNew
    rw [colsA_kproj, left32_gather_kproj, right32_gather_kproj, edgeNum_packed]
  have hN : unpackN (knodeNewR (kproj h A bA B bB U bU Vw bV) e src dst C bC)
      = nodeNew h (edgeNew h e src dst A bA B bB C bC) src dst U bU Vw bV := by
    unfold knodeNewR nodeNew
    rw [hM, hS, colsU_kproj, node_packed]
  unfold klayer layer kbnN kbnE bnN bnE
  rw [bnN_packed, bnE_packed, hN, hE]

end Cert.KSpec
-- ==== Proof.KHead.lean ====
import proofs.«425355_j88287347737110_2_alg».proof.Proof.KSpec
import Idealize.ShloMosaic.Lib.ValueLayout
import Idealize.ShloMosaic.Lib.IdealHost
import Idealize.ShloMosaic.Lib.KernelVsHost
import Idealize.ShloMosaic.Lib.StackMember

/-! The score head: the product over the three concatenated blocks is the sum of three products
    over the row blocks of the weight. -/

noncomputable section

namespace Cert.KSpec

open Idealize.ShloMosaic Idealize.ShloMosaic.ValueIdx Cert.Spec

/-! ## A sum over 96 terms in three blocks of 32 -/

private theorem sum_three_blocks (f : Fin 96 → EReal) :
    ∑ c : Fin 96, f c
      = (∑ a : Fin 32, f ⟨a.val, by have := a.isLt; omega⟩)
        + (∑ a : Fin 32, f ⟨32 + a.val, by have := a.isLt; omega⟩)
        + (∑ a : Fin 32, f ⟨64 + a.val, by have := a.isLt; omega⟩) := by
  have h1 := Fin.sum_univ_add (a := 32) (b := 64) f
  have h2 := Fin.sum_univ_add (a := 32) (b := 32) (fun i => f (Fin.natAdd 32 i))
  calc ∑ c : Fin 96, f c
      = ∑ i : Fin 32, f (Fin.castAdd 64 i) + ∑ i : Fin 64, f (Fin.natAdd 32 i) := h1
    _ = ∑ i : Fin 32, f (Fin.castAdd 64 i)
          + (∑ i : Fin 32, f (Fin.natAdd 32 (Fin.castAdd 32 i)) + ∑ i : Fin 32, f (Fin.natAdd 32 (Fin.natAdd 32 i))) :=
        congrArg _ h2
    _ = _ := by
      rw [← add_assoc]
      refine congrArg₂ (· + ·) rfl (Finset.sum_congr rfl fun i _ => congrArg f (Fin.ext ?_))
      show 32 + (32 + i.val) = 64 + i.val
      omega

/-! ## The operations of the head at an entry -/

private theorem dotZ_apply (z : R S800000x96) (W : R S96x32) (r : Fin 800000) (k : Fin 32) :
    Host.dotGeneral (F := Ideal) (φ₁ := .f32) (φ₂ := .f32) dotZ none z W (ix2 r k)
      = ∑ c : Fin 96, z (ix2 r c) * W (ix2 c k) :=
  StackMember.dotGeneral_plain_apply none z W r k

private theorem dotO_apply (z : R S800000x32) (W : R S32x1) (r : Fin 800000) (j : Fin 1) :
    Host.dotGeneral (F := Ideal) (φ₁ := .f32) (φ₂ := .f32) dotO none z W (ix2 r j)
      = ∑ k : Fin 32, z (ix2 r k) * W (ix2 k j) :=
  StackMember.dotGeneral_plain_apply none z W r j

/-- A 32-vector repeated along the edge rows reads, at (r, k), its entry k. -/
private theorem rowsE_apply (p : R S32) (r : Fin 800000) (k : Fin 32) : rowsE p (ix2 r k) = p (ix1 k) := by
  unfold rowsE
  rw [broadcastInDim_oneRow_apply]
  refine broadcastInDim_apply ![1] bcast_S32_S1x32_1 p (ix2 (0 : Fin 1) k) (ix1 k) ?_
  intro a
  fin_cases a
  show k.val = if (32 : ℕ) = 1 then 0 else k.val
  rw [if_neg (by decide)]

/-- The last bias, broadcast to a column, reads its one entry everywhere. -/
private theorem b2_apply (b2 : R S1) (r : Fin 800000) (j : Fin 1) :
    broadcastInDim S800000x1 ![0, 1] bcast_S1x1_S800000x1_0_1 (broadcastInDim S1x1 ![1] bcast_S1_S1x1_1 b2) (ix2 r j)
      = shapeCast S1x1 b2 shapeCasts_S1_S1x1 (ix2 (0 : Fin 1) (0 : Fin 1)) := by
  rw [broadcastInDim_oneRow_apply, shapeCast_a_1a_apply]
  refine broadcastInDim_apply ![1] bcast_S1_S1x1_1 b2 (ix2 (0 : Fin 1) j) (ix1 (0 : Fin 1)) ?_
  intro a
  fin_cases a
  show (0 : ℕ) = if (1 : ℕ) = 1 then 0 else _
  rw [if_pos rfl]

/-- The concatenation of three 32-column blocks reads, at column a of the first 32, the first block. -/
private theorem cat3_apply0 (x0 x1 x2 : R S800000x32) (r : Fin 800000) (a : Fin 32) (c : Fin 96) (hc : c.val = a.val) :
    concatenate (α := Ideal .f32) S800000x96 1 [⟨S800000x32, x0⟩, ⟨S800000x32, x1⟩, ⟨S800000x32, x2⟩] concatenates_3 (ix2 r c)
      = x0 (ix2 r a) := by
  refine concatenate_apply_piece (α := Ideal .f32) (t := S800000x96) 1 [⟨S800000x32, x0⟩, ⟨S800000x32, x1⟩, ⟨S800000x32, x2⟩]
    concatenates_3 (ix2 r c) 0 (by show 0 < 3; omega) S800000x32 x0 rfl rfl 0 rfl (ix2 r a) ?_ ?_
  · intro b hb
    match b with
    | ⟨0, _⟩ => rfl
    | ⟨1, _⟩ => exact absurd (Fin.ext rfl) hb
  · show 0 + a.val = c.val
    omega

/-- At column 32 + a, the second block. -/
private theorem cat3_apply1 (x0 x1 x2 : R S800000x32) (r : Fin 800000) (a : Fin 32) (c : Fin 96) (hc : c.val = 32 + a.val) :
    concatenate (α := Ideal .f32) S800000x96 1 [⟨S800000x32, x0⟩, ⟨S800000x32, x1⟩, ⟨S800000x32, x2⟩] concatenates_3 (ix2 r c)
      = x1 (ix2 r a) := by
  refine concatenate_apply_piece (α := Ideal .f32) (t := S800000x96) 1 [⟨S800000x32, x0⟩, ⟨S800000x32, x1⟩, ⟨S800000x32, x2⟩]
    concatenates_3 (ix2 r c) 1 (by show 1 < 3; omega) S800000x32 x1 rfl rfl 32 rfl (ix2 r a) ?_ ?_
  · intro b hb
    match b with
    | ⟨0, _⟩ => rfl
    | ⟨1, _⟩ => exact absurd (Fin.ext rfl) hb
  · show 32 + a.val = c.val
    omega

/-- At column 64 + a, the third block. -/
private theorem cat3_apply2 (x0 x1 x2 : R S800000x32) (r : Fin 800000) (a : Fin 32) (c : Fin 96) (hc : c.val = 64 + a.val) :
    concatenate (α := Ideal .f32) S800000x96 1 [⟨S800000x32, x0⟩, ⟨S800000x32, x1⟩, ⟨S800000x32, x2⟩] concatenates_3 (ix2 r c)
      = x2 (ix2 r a) := by
  refine concatenate_apply_piece (α := Ideal .f32) (t := S800000x96) 1 [⟨S800000x32, x0⟩, ⟨S800000x32, x1⟩, ⟨S800000x32, x2⟩]
    concatenates_3 (ix2 r c) 2 (by show 2 < 3; omega) S800000x32 x2 rfl rfl 64 rfl (ix2 r a) ?_ ?_
  · intro b hb
    match b with
    | ⟨0, _⟩ => rfl
    | ⟨1, _⟩ => exact absurd (Fin.ext rfl) hb
  · show 64 + a.val = c.val
    omega

/-! ## The hidden layer at an entry -/

/-- For an array z whose three column blocks at row r are the rows of hs, hd and e, the hidden layer of z at
    (r, k) is the clamped sum of the three products with the row blocks of the weight, plus the bias. -/
private theorem hidden_apply (hs hd e : R S800000x32) (z : R S800000x96) (W1 : R S96x32) (b1 : R S32) (r : Fin 800000)
    (h0 : ∀ a : Fin 32, z (ix2 r (⟨a.val, by have := a.isLt; omega⟩ : Fin 96)) = hs (ix2 r a))
    (h1 : ∀ a : Fin 32, z (ix2 r (⟨32 + a.val, by have := a.isLt; omega⟩ : Fin 96)) = hd (ix2 r a))
    (h2 : ∀ a : Fin 32, z (ix2 r (⟨64 + a.val, by have := a.isLt; omega⟩ : Fin 96)) = e (ix2 r a))
    (k : Fin 32) :
    reluE (addf (Host.dotGeneral (F := Ideal) (φ₁ := .f32) (φ₂ := .f32) dotZ none z W1) (rowsE b1)) (ix2 r k)
      = max ((∑ a : Fin 32, hs (ix2 r a) * (extractStridedSlice S32x32 ![0, 0] W1 slices_W1_0) (ix2 a k))
          + (∑ a : Fin 32, hd (ix2 r a) * (extractStridedSlice S32x32 ![32, 0] W1 slices_W1_32) (ix2 a k))
          + (∑ a : Fin 32, e (ix2 r a) * (extractStridedSlice S32x32 ![64, 0] W1 slices_W1_64) (ix2 a k))
          + row32 b1 (ix2 (0 : Fin 1) k)) (Ideal.ofBits .f32 0x00000000#32) := by
  have hb0 : ∀ a : Fin 32,
      hs (ix2 r a) * (extractStridedSlice S32x32 ![0, 0] W1 slices_W1_0) (ix2 a k)
        = z (ix2 r (⟨a.val, by have := a.isLt; omega⟩ : Fin 96)) * W1 (ix2 (⟨a.val, by have := a.isLt; omega⟩ : Fin 96) k) := fun a => by
    rw [h0 a, slice2_axis0_apply 0 W1 slices_W1_0 a k ⟨a.val, _⟩ (Nat.zero_add _).symm]
  have hb1 : ∀ a : Fin 32,
      hd (ix2 r a) * (extractStridedSlice S32x32 ![32, 0] W1 slices_W1_32) (ix2 a k)
        = z (ix2 r (⟨32 + a.val, by have := a.isLt; omega⟩ : Fin 96)) * W1 (ix2 (⟨32 + a.val, by have := a.isLt; omega⟩ : Fin 96) k) := fun a => by
    rw [h1 a, slice2_axis0_apply 32 W1 slices_W1_32 a k ⟨32 + a.val, _⟩ rfl]
  have hb2 : ∀ a : Fin 32,
      e (ix2 r a) * (extractStridedSlice S32x32 ![64, 0] W1 slices_W1_64) (ix2 a k)
        = z (ix2 r (⟨64 + a.val, by have := a.isLt; omega⟩ : Fin 96)) * W1 (ix2 (⟨64 + a.val, by have := a.isLt; omega⟩ : Fin 96) k) := fun a => by
    rw [h2 a, slice2_axis0_apply 64 W1 slices_W1_64 a k ⟨64 + a.val, _⟩ rfl]
  show max (Host.dotGeneral (F := Ideal) (φ₁ := .f32) (φ₂ := .f32) dotZ none z W1 (ix2 r k) + rowsE b1 (ix2 r k))
      (Ideal.ofBits .f32 0x00000000#32) = _
  rw [dotZ_apply, sum_three_blocks, rowsE_apply]
  unfold row32
  rw [shapeCast_a_1a_apply]
  simp only [hb0, hb1, hb2]

/-! ## The head -/

theorem khead_eq (h : R S100000x32) (e : R S800000x32) (src dst : J Ideal S800000)
    (W1 : R S96x32) (b1 : R S32) (W2 : R S32x1) (b2 : R S1) :
    khead h e src dst W1 b1 W2 b2 = head h e src dst W1 b1 W2 b2 := by
  funext i
  obtain ⟨r, j, rfl⟩ : ∃ (r : Fin 800000) (j : Fin 1), i = ix2 r j := ⟨i 0, i 1, eq_ix2 i⟩
  unfold head
  rw [addf_apply, dotO_apply, b2_apply]
  simp only [hidden_apply (gatherRows h src) (gatherRows h dst) e _ W1 b1 r
    (fun a => cat3_apply0 _ _ _ r a _ rfl) (fun a => cat3_apply1 _ _ _ r a _ rfl) (fun a => cat3_apply2 _ _ _ r a _ rfl)]
  rfl

end Cert.KSpec
-- ==== Proof.KWhole.lean ====
import proofs.«425355_j88287347737110_2_alg».proof.Proof.SpecWhole
import proofs.«425355_j88287347737110_2_alg».proof.Proof.KLayerEq
import proofs.«425355_j88287347737110_2_alg».proof.Proof.KHead

/-! The whole network as the kernel program arranges it, and its equality with the reference
    network: layer by layer from the layer equation, the input projections and the score head. -/

noncomputable section

namespace Cert.KSpec

open Idealize.ShloMosaic Cert.Spec

/-- The kernel's layer with its parameters taken at index l of the stacked arrays. -/
def klayerAt (l : ℕ) (hW : S4x32x32.Slices ![l, 0, 0] S1x32x32) (hb : S4x32.Slices ![l, 0] S1x32)
    (h : R S100000x32) (e : R S800000x32) (src dst : J Ideal S800000)
    (Aw : R S4x32x32) (Ab : R S4x32) (Bw : R S4x32x32) (Bb : R S4x32)
    (Cw : R S4x32x32) (Cb : R S4x32) (Uw : R S4x32x32) (Ub : R S4x32)
    (Vw : R S4x32x32) (Vb : R S4x32) (gh bh ge be : R S4x32) : R S100000x32 × R S800000x32 :=
  klayer h e src dst (wSl l hW Aw) (bSl l hb Ab) (wSl l hW Bw) (bSl l hb Bb) (wSl l hW Cw) (bSl l hb Cb)
    (wSl l hW Uw) (bSl l hb Ub) (wSl l hW Vw) (bSl l hb Vb)
    (bSl l hb gh) (bSl l hb bh) (bSl l hb ge) (bSl l hb be)

theorem klayerAt_eq (l : ℕ) (hW : S4x32x32.Slices ![l, 0, 0] S1x32x32) (hb : S4x32.Slices ![l, 0] S1x32)
    (h : R S100000x32) (e : R S800000x32) (src dst : J Ideal S800000)
    (Aw : R S4x32x32) (Ab : R S4x32) (Bw : R S4x32x32) (Bb : R S4x32)
    (Cw : R S4x32x32) (Cb : R S4x32) (Uw : R S4x32x32) (Ub : R S4x32)
    (Vw : R S4x32x32) (Vb : R S4x32) (gh bh ge be : R S4x32) :
    klayerAt l hW hb h e src dst Aw Ab Bw Bb Cw Cb Uw Ub Vw Vb gh bh ge be
      = layerAt l hW hb h e src dst Aw Ab Bw Bb Cw Cb Uw Ub Vw Vb gh bh ge be := by
  unfold klayerAt layerAt
  exact klayer_eq _ _ _ _ _ _ _ _ _ _ _ _ _ _ _ _ _ _

/-- The network as the kernel arranges it. -/
def kwhole (x : R S100000x1) (e : R S800000x1) (ei : J Ideal S2x800000)
    (pw : R S1x32) (pb : R S32) (ew : R S1x32) (eb : R S32)
    (Aw : R S4x32x32) (Ab : R S4x32) (Bw : R S4x32x32) (Bb : R S4x32)
    (Cw : R S4x32x32) (Cb : R S4x32) (Uw : R S4x32x32) (Ub : R S4x32)
    (Vw : R S4x32x32) (Vb : R S4x32) (gh bh ge be : R S4x32)
    (W1 : R S96x32) (b1 : R S32) (W2 : R S32x1) (b2 : R S1) : R S800000x1 :=
  let s1 := klayerAt 0 slices_W_0 slices_b_0 (kprologueH x pw pb) (kprologueE e ew eb) (srcOf ei) (dstOf ei)
    Aw Ab Bw Bb Cw Cb Uw Ub Vw Vb gh bh ge be
  let s2 := klayerAt 1 slices_W_1 slices_b_1 s1.1 s1.2 (srcOf ei) (dstOf ei) Aw Ab Bw Bb Cw Cb Uw Ub Vw Vb gh bh ge be
  let s3 := klayerAt 2 slices_W_2 slices_b_2 s2.1 s2.2 (srcOf ei) (dstOf ei) Aw Ab Bw Bb Cw Cb Uw Ub Vw Vb gh bh ge be
  let s4 := klayerAt 3 slices_W_3 slices_b_3 s3.1 s3.2 (srcOf ei) (dstOf ei) Aw Ab Bw Bb Cw Cb Uw Ub Vw Vb gh bh ge be
  khead s4.1 s4.2 (srcOf ei) (dstOf ei) W1 b1 W2 b2

theorem kwhole_eq (x : R S100000x1) (e : R S800000x1) (ei : J Ideal S2x800000)
    (pw : R S1x32) (pb : R S32) (ew : R S1x32) (eb : R S32)
    (Aw : R S4x32x32) (Ab : R S4x32) (Bw : R S4x32x32) (Bb : R S4x32)
    (Cw : R S4x32x32) (Cb : R S4x32) (Uw : R S4x32x32) (Ub : R S4x32)
    (Vw : R S4x32x32) (Vb : R S4x32) (gh bh ge be : R S4x32)
    (W1 : R S96x32) (b1 : R S32) (W2 : R S32x1) (b2 : R S1) :
    kwhole x e ei pw pb ew eb Aw Ab Bw Bb Cw Cb Uw Ub Vw Vb gh bh ge be W1 b1 W2 b2
      = whole x e ei pw pb ew eb Aw Ab Bw Bb Cw Cb Uw Ub Vw Vb gh bh ge be W1 b1 W2 b2 := by
  unfold kwhole whole
  simp only [klayerAt_eq, kprologueH_eq, kprologueE_eq, khead_eq]

end Cert.KSpec
-- ==== Proof.KReadDefs.lean ====
import proofs.«425355_j88287347737110_2_alg».proof.KernelIdeal

/-! The buffers every layer of the kernel program reads and none writes: the two index vectors
    and the parameter arrays. -/

noncomputable section

namespace Cert.KernelIdeal.KRead

open Cert.KernelIdeal Idealize.ShloMosaic

/-- The source and target index vectors and the arguments 7 to 24 (the stacked layer parameters
    and the score head's parameters). -/
abbrev keepRefs : List (Ref sig .tc) :=
  [main_v1, main_v3, main_arg7, main_arg8, main_arg9, main_arg10, main_arg11, main_arg12, main_arg13, main_arg14, main_arg15, main_arg16, main_arg17, main_arg18, main_arg19, main_arg20, main_arg21, main_arg22, main_arg23, main_arg24]

/-- The arguments 7 to 24 alone (the input projections write the two index vectors). -/
abbrev keepArgs : List (Ref sig .tc) :=
  [main_arg7, main_arg8, main_arg9, main_arg10, main_arg11, main_arg12, main_arg13, main_arg14, main_arg15, main_arg16, main_arg17, main_arg18, main_arg19, main_arg20, main_arg21, main_arg22, main_arg23, main_arg24]

end Cert.KernelIdeal.KRead
-- ==== Proof.Val0.lean ====
import proofs.«425355_j88287347737110_2_alg».proof.Proof.Reg0
import Idealize.ShloMosaic.Lib.Pipeline.Value
import Idealize.ShloMosaic.Lib.ValueLayout
import Idealize.ShloMosaic.PureOps.Ideal.Laws
import proofs.«425355_j88287347737110_2_alg».proof.Proof.KSpec

/-! # Region 0: a linear layer on a one-column feature array, its value

At the extended reals the region leaves in its output array, at row `r` and column `j`, the sum over the one
contracted coordinate of `x[r, k] * w[k, j]`, plus `b[0, j]`: the entries of the three arrays the region reads as it
finds them. The body's payload is read at an index; each input block is read as rows of its array; the point that
covers row `r` is `r / 5000`. -/

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)
open scoped BigOperators

/-! ## At any float instance: the stored block is the payload, the blocks are rows of the arrays -/

section AnyInstance

variable {F : FTy → Type} [FloatOps F]
variable (V : (c : Dev nD) → (b : Ref sig .tc) → Buf (Elt F) ((c : Thread nD τ).loc b))

theorem hz0 : (![0, 0] : Fin 2 → Nat) = fun _ => 0 := funext fun a => by fin_cases a <;> rfl

/-- The one whole store leaves its payload, and the whole loads read the blocks. -/
theorem out0_3_eq (x0 : Vec F S5000x1 .f32) (x1 : Vec F S1x32 .f32) (x2 : Vec F S1x32 .f32) :
    out0_3 x0 x1 x2 = k0_pay1 x0 x1 x2 := by
  unfold out0_3
  rw [View.canon_unit_zero hz0]
  simp only [View.ld_unit_zero (S := S5000x1) hz0, View.ld_unit_zero (S := S1x32) hz0]

/-- The index maps over the grid: the feature block and the output block move with the point along the rows; the
    weight and bias rows stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point `t` is rows `5000 t … 5000 t + 4999` of the feature array. -/
theorem blk0_0_apply (c : Dev nD) (t : Fin cfg0.N) (x : S5000x1.Idx) (k : S100000x1.Idx)
    (hk0 : (k 0).val = 5000 * t.val + (x 0).val) (hk1 : (k 1).val = (x 1).val) :
    (iblk0 V c 0 t : Vec F S5000x1 .f32) x = (V c (Pipeline.arrRef spec0 0) : S100000x1.Idx → Elt F .f32) k := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 1 + 1 * (x 1).val = (k 1).val; rw [e1, hk1]; omega

/-- The weight block at every point is the weight row. -/
theorem blk0_1_apply (c : Dev nD) (t : Fin cfg0.N) (x : S1x32.Idx) :
    (iblk0 V c 1 t : Vec F S1x32 .f32) x = (V c (Pipeline.arrRef spec0 1) : S1x32.Idx → Elt F .f32) x := by
  obtain ⟨-, -, e0, e1, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 1 + 1 * (x 0).val = (x 0).val; rw [e0]; omega
  | ⟨1, _⟩ => show win0_1.index t (1 : Fin 2) * 32 + 1 * (x 1).val = (x 1).val; rw [e1]; omega

/-- The bias block at every point is the bias row. -/
theorem blk0_2_apply (c : Dev nD) (t : Fin cfg0.N) (x : S1x32.Idx) :
    (iblk0 V c 2 t : Vec F S1x32 .f32) x = (V c (Pipeline.arrRef spec0 2) : S1x32.Idx → Elt F .f32) x := by
  obtain ⟨-, -, -, -, e0, e1, -⟩ := idx_facts0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 32 + 1 * (x 1).val = (x 1).val; rw [e1]; omega

/-- An index of the output array is in point `t`'s block iff each coordinate is in the block's range on its axis. -/
theorem mem_blk0_3 (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v5).slice (win0_3.rect t)).set ↔ _
  rw [View.set_slice_whole, Rect.mem_set_unit]
  exact Iff.rfl

/-- Every index of the output array is in the block of the point `row / 5000`, which writes back. -/
theorem covered0_3 (i : S100000x32.Idx) :
    ∃ t : Fin cfg0.N, (cfg0.win 3).flush t = true ∧ i ∈ ((cfg0.win 3).blk t).view.set := by
  have h0 : (i 0).val < 100000 := (i 0).isLt
  have h1 : (i 1).val < 32 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e0, e1⟩ := idx_facts0 t
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 32 ≤ (i 1).val ∧ (i 1).val < win0_3.index t (1 : Fin 2) * 32 + 32; rw [e1]; omega

end AnyInstance

/-! ## At the extended reals -/

/-! ### The contraction's operand indices, axis by axis -/

theorem dotL0_ax0 (i : S5000x32.Idx) (q : dot_S5000x1_S1x32_S5000x32_1_0_0_1_n_n.contr.Idx) :
    (dot_S5000x1_S1x32_S5000x32_1_0_0_1_n_n.lhsIdx i q 0).val = (i 0).val := by
  unfold DotDims.lhsIdx
  rw [dif_neg (show ¬(0 : Fin S5000x1.rank) ∈ dot_S5000x1_S1x32_S5000x32_1_0_0_1_n_n.lhsBatch by decide), dif_pos (show (0 : Fin S5000x1.rank) ∈ dot_S5000x1_S1x32_S5000x32_1_0_0_1_n_n.lhsNonContracting by decide)]
  rfl
theorem dotL0_ax1 (i : S5000x32.Idx) (q : dot_S5000x1_S1x32_S5000x32_1_0_0_1_n_n.contr.Idx) :
    (dot_S5000x1_S1x32_S5000x32_1_0_0_1_n_n.lhsIdx i q 1).val = (q ⟨0, by decide⟩).val :=
  dot_S5000x1_S1x32_S5000x32_1_0_0_1_n_n.lhsIdx_val_of_single rfl i q
theorem dotR0_ax0 (i : S5000x32.Idx) (q : dot_S5000x1_S1x32_S5000x32_1_0_0_1_n_n.contr.Idx) :
    (dot_S5000x1_S1x32_S5000x32_1_0_0_1_n_n.rhsIdx i q 0).val = (q ⟨0, by decide⟩).val :=
  dot_S5000x1_S1x32_S5000x32_1_0_0_1_n_n.rhsIdx_val_of_single rfl i q
theorem dotR0_ax1 (i : S5000x32.Idx) (q : dot_S5000x1_S1x32_S5000x32_1_0_0_1_n_n.contr.Idx) :
    (dot_S5000x1_S1x32_S5000x32_1_0_0_1_n_n.rhsIdx i q 1).val = (i 1).val := by
  unfold DotDims.rhsIdx
  rw [dif_neg (show ¬(1 : Fin S1x32.rank) ∈ dot_S5000x1_S1x32_S5000x32_1_0_0_1_n_n.rhsBatch by decide), dif_pos (show (1 : Fin S1x32.rank) ∈ dot_S5000x1_S1x32_S5000x32_1_0_0_1_n_n.rhsNonContracting by decide)]
  rfl

/-- The product into a zero accumulator at `(p, q)`: the sum over the one contracted coordinate. -/
theorem mm0_apply (x : FVec Ideal S5000x1 .bf16) (w : FVec Ideal S1x32 .bf16) (p : Fin 5000) (q : Fin 32) :
    matmul (F := Ideal) dot_S5000x1_S1x32_S5000x32_1_0_0_1_n_n none x w (constant (F := Ideal) S5000x32 .f32 0x00000000#32) (ix2 p q)
      = ∑ k : Fin 1, x (ix2 p k) * w (ix2 k q) := by
  simp only [matmul]
  rw [Ideal.matmul_constant_zero_apply, ← Equiv.sum_comp (contrEquiv1 dot_S5000x1_S1x32_S5000x32_1_0_0_1_n_n 1 rfl rfl).symm]
  refine Finset.sum_congr rfl fun k _ => ?_
  have hk := contrEquiv1_symm_val dot_S5000x1_S1x32_S5000x32_1_0_0_1_n_n 1 rfl rfl k
  have el : dot_S5000x1_S1x32_S5000x32_1_0_0_1_n_n.lhsIdx (ix2 p q) ((contrEquiv1 dot_S5000x1_S1x32_S5000x32_1_0_0_1_n_n 1 rfl rfl).symm k) = ix2 p k := funext fun a => Fin.ext (by
    match a with
    | ⟨0, _⟩ => exact dotL0_ax0 _ _
    | ⟨1, _⟩ => exact (dotL0_ax1 _ _).trans hk)
  have er : dot_S5000x1_S1x32_S5000x32_1_0_0_1_n_n.rhsIdx (ix2 p q) ((contrEquiv1 dot_S5000x1_S1x32_S5000x32_1_0_0_1_n_n 1 rfl rfl).symm k) = ix2 k q := funext fun a => Fin.ext (by
    match a with
    | ⟨0, _⟩ => exact (dotR0_ax0 _ _).trans hk
    | ⟨1, _⟩ => exact dotR0_ax1 _ _)
  rw [el, er]

/-- The body's payload at `(p, q)`: narrowing to bf16 and widening are the identity on extended reals, the bias row
    is broadcast over the rows. -/
theorem pay0_apply (x0 : Vec Ideal S5000x1 .f32) (x1 : Vec Ideal S1x32 .f32) (x2 : Vec Ideal S1x32 .f32) (p : Fin 5000) (q : Fin 32) :
    k0_pay1 (F := Ideal) x0 x1 x2 (ix2 p q) = (∑ k : Fin 1, x0 (ix2 p k) * x1 (ix2 k q)) + x2 (ix2 (0 : Fin 1) q) := by
  unfold k0_pay1
  refine (addf_apply _ _ _).trans ?_
  refine congrArg₂ (· + ·) ?_ ?_
  · exact mm0_apply _ _ p q
  · refine (broadcastTo_1b_ab_apply _ _ p q).trans ?_
    rw [shapeCast_self]

/-! ### From the blocks to the array -/

variable (V : (c : Dev nD) → (b : Ref sig .tc) → Buf (Elt Ideal) ((c : Thread nD τ).loc b))

/-- The three arrays the region reads, as it finds them, at their literal types. -/
abbrev xarr0 (c : Dev nD) : Vec Ideal S100000x1 .f32 := V c (Pipeline.arrRef spec0 0)
abbrev warr0 (c : Dev nD) : Vec Ideal S1x32 .f32 := V c (Pipeline.arrRef spec0 1)
abbrev barr0 (c : Dev nD) : Vec Ideal S1x32 .f32 := V c (Pipeline.arrRef spec0 2)

/-- What the output array ends holding, index by index. -/
def lin0 (c : Dev nD) : Vec Ideal S100000x32 .f32 := fun i =>
  (∑ k : Fin 1, xarr0 V c (ix2 (n0 := 100000) (i 0) k) * warr0 V c (ix2 k (n1 := 32) (i 1))) + barr0 V c (ix2 (0 : Fin 1) (n1 := 32) (i 1))

/-- What point `t` writes back is block `t` of `lin0`. -/
theorem flushed0_3_eq (c : Dev nD) (t : Fin cfg0.N) :
    (dat0 (F := Ideal) V c).flushed 3 t = ((cfg0.win 3).blk t).view.read (Elt Ideal) (lin0 V c) := by
  show (cfg0.win 3).cut (grid0.coords t) ((dat0 (F := Ideal) V c).after 3 t) = _
  rw [after0_3, out0_3_eq]
  obtain ⟨-, -, -, -, -, -, e0, e1⟩ := idx_facts0 t
  funext j
  obtain ⟨p, q, rfl⟩ : ∃ (p : Fin 5000) (q : Fin 32), j = ix2 p q := ⟨j 0, j 1, eq_ix2 j⟩
  show k0_pay1 (F := Ideal) (iblk0 V c 0 t) (iblk0 V c 1 t) (iblk0 V c 2 t) (ix2 p q) = lin0 V c (((cfg0.win 3).blk t).view.emb (ix2 p q))
  refine (pay0_apply (iblk0 V c 0 t) (iblk0 V c 1 t) (iblk0 V c 2 t) p q).trans ?_
  have hr : ((((cfg0.win 3).blk t).view.emb (ix2 p q)) 0).val = 5000 * t.val + p.val := by
    show win0_3.index t (0 : Fin 2) * 5000 + 1 * p.val = _; rw [e0]; omega
  have hc : ((((cfg0.win 3).blk t).view.emb (ix2 p q)) 1).val = q.val := by
    show win0_3.index t (1 : Fin 2) * 32 + 1 * q.val = _; rw [e1]; omega
  unfold lin0
  refine congrArg₂ (· + ·) (Finset.sum_congr rfl fun k _ => congrArg₂ (· * ·) ?_ ?_) ?_
  · exact blk0_0_apply V c t (ix2 p k) _ hr rfl
  · refine (blk0_1_apply V c t (ix2 k q)).trans (congrArg (warr0 V c) ?_)
    funext a; apply Fin.ext
    match a with
    | ⟨0, _⟩ => rfl
    | ⟨1, _⟩ => exact hc.symm
  · refine (blk0_2_apply V c t (ix2 (0 : Fin 1) q)).trans (congrArg (barr0 V c) ?_)
    funext a; apply Fin.ext
    match a with
    | ⟨0, _⟩ => rfl
    | ⟨1, _⟩ => exact hc.symm

/-- So the output array ends holding `lin0`. -/
theorem arr0_3_lin (c : Dev nD) : (dat0 (F := Ideal) V c).arrAt 3 cfg0.N = lin0 V c :=
  (dat0 (F := Ideal) V c).arrAt_eq_of_cover 3 (lin0 V c) (fun t _ => flushed0_3_eq V c t) covered0_3

/-- The output array after the region, index by index. -/
theorem arr0_3_apply (c : Dev nD) (r : Fin 100000) (j : Fin 32) :
    (dat0 (F := Ideal) V c).arrAt 3 cfg0.N (ValueIdx.ix2 r j)
      = (∑ k : Fin 1, xarr0 V c (ValueIdx.ix2 r k) * warr0 V c (ValueIdx.ix2 k j)) + barr0 V c (ValueIdx.ix2 (0 : Fin 1) j) :=
  (congrFun (arr0_3_lin V c) (ValueIdx.ix2 r j)).trans rfl

/-- The output array after the region, whole: the specification's one-column linear layer of the three arrays the
    region reads. -/
theorem arr0_3_eq (c : Dev nD) :
    (dat0 (F := Ideal) V c).arrAt 3 cfg0.N
      = Cert.KSpec.Glin1N (V c (Pipeline.arrRef spec0 0)) (V c (Pipeline.arrRef spec0 1)) (V c (Pipeline.arrRef spec0 2)) := by
  funext i
  rw [ValueIdx.eq_ix2 i]
  exact arr0_3_apply V c _ _

end Cert.KernelIdeal.Val

end
-- ==== Proof.Val1.lean ====
import proofs.«425355_j88287347737110_2_alg».proof.Proof.Reg1
import Idealize.ShloMosaic.Lib.Pipeline.Value
import Idealize.ShloMosaic.Lib.ValueLayout
import Idealize.ShloMosaic.PureOps.Ideal.Laws
import proofs.«425355_j88287347737110_2_alg».proof.Proof.KSpec

/-! # Region 1: a linear layer on a one-column feature array, its value

At the extended reals the region leaves in its output array, at row `r` and column `j`, the sum over the one
contracted coordinate of `x[r, k] * w[k, j]`, plus `b[0, j]`: the entries of the three arrays the region reads as it
finds them. The body's payload is read at an index; each input block is read as rows of its array; the point that
covers row `r` is `r / 5000`. -/

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)
open scoped BigOperators

/-! ## At any float instance: the stored block is the payload, the blocks are rows of the arrays -/

section AnyInstance

variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl

/-- The one whole store leaves its payload, and the whole loads read the blocks. -/
theorem out1_3_eq (x0 : Vec F S5000x1 .f32) (x1 : Vec F S1x32 .f32) (x2 : Vec F S1x32 .f32) :
    out1_3 x0 x1 x2 = k1_pay1 x0 x1 x2 := by
  unfold out1_3
  rw [View.canon_unit_zero hz1]
  simp only [View.ld_unit_zero (S := S5000x1) hz1, View.ld_unit_zero (S := S1x32) hz1]

/-- The index maps over the grid: the feature block and the output block move with the point along the rows; the
    weight and bias rows stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature block at point `t` is rows `5000 t … 5000 t + 4999` of the feature array. -/
theorem blk1_0_apply (c : Dev nD) (t : Fin cfg1.N) (x : S5000x1.Idx) (k : S800000x1.Idx)
    (hk0 : (k 0).val = 5000 * t.val + (x 0).val) (hk1 : (k 1).val = (x 1).val) :
    (iblk1 V c 0 t : Vec F S5000x1 .f32) x = (V c (Pipeline.arrRef spec1 0) : S800000x1.Idx → Elt F .f32) k := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 1 + 1 * (x 1).val = (k 1).val; rw [e1, hk1]; omega

/-- The weight block at every point is the weight row. -/
theorem blk1_1_apply (c : Dev nD) (t : Fin cfg1.N) (x : S1x32.Idx) :
    (iblk1 V c 1 t : Vec F S1x32 .f32) x = (V c (Pipeline.arrRef spec1 1) : S1x32.Idx → Elt F .f32) x := by
  obtain ⟨-, -, e0, e1, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * (x 0).val = (x 0).val; rw [e0]; omega
  | ⟨1, _⟩ => show win1_1.index t (1 : Fin 2) * 32 + 1 * (x 1).val = (x 1).val; rw [e1]; omega

/-- The bias block at every point is the bias row. -/
theorem blk1_2_apply (c : Dev nD) (t : Fin cfg1.N) (x : S1x32.Idx) :
    (iblk1 V c 2 t : Vec F S1x32 .f32) x = (V c (Pipeline.arrRef spec1 2) : S1x32.Idx → Elt F .f32) x := by
  obtain ⟨-, -, -, -, e0, e1, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 32 + 1 * (x 1).val = (x 1).val; rw [e1]; omega

/-- An index of the output array is in point `t`'s block iff each coordinate is in the block's range on its axis. -/
theorem mem_blk1_3 (t : Fin cfg1.N) (i : S800000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v7).slice (win1_3.rect t)).set ↔ _
  rw [View.set_slice_whole, Rect.mem_set_unit]
  exact Iff.rfl

/-- Every index of the output array is in the block of the point `row / 5000`, which writes back. -/
theorem covered1_3 (i : S800000x32.Idx) :
    ∃ t : Fin cfg1.N, (cfg1.win 3).flush t = true ∧ i ∈ ((cfg1.win 3).blk t).view.set := by
  have h0 : (i 0).val < 800000 := (i 0).isLt
  have h1 : (i 1).val < 32 := (i 1).isLt
  have hN : cfg1.N = 160 := N_1
  obtain ⟨t, ht⟩ : ∃ t : Fin cfg1.N, t.val = (i 0).val / 5000 := ⟨⟨(i 0).val / 5000, by rw [hN]; omega⟩, rfl⟩
  obtain ⟨-, -, -, -, -, -, e0, e1⟩ := idx_facts1 t
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 32 ≤ (i 1).val ∧ (i 1).val < win1_3.index t (1 : Fin 2) * 32 + 32; rw [e1]; omega

end AnyInstance

/-! ## At the extended reals -/

/-! ### The contraction's operand indices, axis by axis -/

theorem dotL1_ax0 (i : S5000x32.Idx) (q : dot_S5000x1_S1x32_S5000x32_1_0_0_1_n_n.contr.Idx) :
    (dot_S5000x1_S1x32_S5000x32_1_0_0_1_n_n.lhsIdx i q 0).val = (i 0).val := by
  unfold DotDims.lhsIdx
  rw [dif_neg (show ¬(0 : Fin S5000x1.rank) ∈ dot_S5000x1_S1x32_S5000x32_1_0_0_1_n_n.lhsBatch by decide), dif_pos (show (0 : Fin S5000x1.rank) ∈ dot_S5000x1_S1x32_S5000x32_1_0_0_1_n_n.lhsNonContracting by decide)]
  rfl
theorem dotL1_ax1 (i : S5000x32.Idx) (q : dot_S5000x1_S1x32_S5000x32_1_0_0_1_n_n.contr.Idx) :
    (dot_S5000x1_S1x32_S5000x32_1_0_0_1_n_n.lhsIdx i q 1).val = (q ⟨0, by decide⟩).val :=
  dot_S5000x1_S1x32_S5000x32_1_0_0_1_n_n.lhsIdx_val_of_single rfl i q
theorem dotR1_ax0 (i : S5000x32.Idx) (q : dot_S5000x1_S1x32_S5000x32_1_0_0_1_n_n.contr.Idx) :
    (dot_S5000x1_S1x32_S5000x32_1_0_0_1_n_n.rhsIdx i q 0).val = (q ⟨0, by decide⟩).val :=
  dot_S5000x1_S1x32_S5000x32_1_0_0_1_n_n.rhsIdx_val_of_single rfl i q
theorem dotR1_ax1 (i : S5000x32.Idx) (q : dot_S5000x1_S1x32_S5000x32_1_0_0_1_n_n.contr.Idx) :
    (dot_S5000x1_S1x32_S5000x32_1_0_0_1_n_n.rhsIdx i q 1).val = (i 1).val := by
  unfold DotDims.rhsIdx
  rw [dif_neg (show ¬(1 : Fin S1x32.rank) ∈ dot_S5000x1_S1x32_S5000x32_1_0_0_1_n_n.rhsBatch by decide), dif_pos (show (1 : Fin S1x32.rank) ∈ dot_S5000x1_S1x32_S5000x32_1_0_0_1_n_n.rhsNonContracting by decide)]
  rfl

/-- The product into a zero accumulator at `(p, q)`: the sum over the one contracted coordinate. -/
theorem mm1_apply (x : FVec Ideal S5000x1 .bf16) (w : FVec Ideal S1x32 .bf16) (p : Fin 5000) (q : Fin 32) :
    matmul (F := Ideal) dot_S5000x1_S1x32_S5000x32_1_0_0_1_n_n none x w (constant (F := Ideal) S5000x32 .f32 0x00000000#32) (ix2 p q)
      = ∑ k : Fin 1, x (ix2 p k) * w (ix2 k q) := by
  simp only [matmul]
  rw [Ideal.matmul_constant_zero_apply, ← Equiv.sum_comp (contrEquiv1 dot_S5000x1_S1x32_S5000x32_1_0_0_1_n_n 1 rfl rfl).symm]
  refine Finset.sum_congr rfl fun k _ => ?_
  have hk := contrEquiv1_symm_val dot_S5000x1_S1x32_S5000x32_1_0_0_1_n_n 1 rfl rfl k
  have el : dot_S5000x1_S1x32_S5000x32_1_0_0_1_n_n.lhsIdx (ix2 p q) ((contrEquiv1 dot_S5000x1_S1x32_S5000x32_1_0_0_1_n_n 1 rfl rfl).symm k) = ix2 p k := funext fun a => Fin.ext (by
    match a with
    | ⟨0, _⟩ => exact dotL1_ax0 _ _
    | ⟨1, _⟩ => exact (dotL1_ax1 _ _).trans hk)
  have er : dot_S5000x1_S1x32_S5000x32_1_0_0_1_n_n.rhsIdx (ix2 p q) ((contrEquiv1 dot_S5000x1_S1x32_S5000x32_1_0_0_1_n_n 1 rfl rfl).symm k) = ix2 k q := funext fun a => Fin.ext (by
    match a with
    | ⟨0, _⟩ => exact (dotR1_ax0 _ _).trans hk
    | ⟨1, _⟩ => exact dotR1_ax1 _ _)
  rw [el, er]

/-- The body's payload at `(p, q)`: narrowing to bf16 and widening are the identity on extended reals, the bias row
    is broadcast over the rows. -/
theorem pay1_apply (x0 : Vec Ideal S5000x1 .f32) (x1 : Vec Ideal S1x32 .f32) (x2 : Vec Ideal S1x32 .f32) (p : Fin 5000) (q : Fin 32) :
    k1_pay1 (F := Ideal) x0 x1 x2 (ix2 p q) = (∑ k : Fin 1, x0 (ix2 p k) * x1 (ix2 k q)) + x2 (ix2 (0 : Fin 1) q) := by
  unfold k1_pay1
  refine (addf_apply _ _ _).trans ?_
  refine congrArg₂ (· + ·) ?_ ?_
  · exact mm1_apply _ _ p q
  · refine (broadcastTo_1b_ab_apply _ _ p q).trans ?_
    rw [shapeCast_self]

/-! ### From the blocks to the array -/

variable (V : (c : Dev nD) → (b : Ref sig .tc) → Buf (Elt Ideal) ((c : Thread nD τ).loc b))

/-- The three arrays the region reads, as it finds them, at their literal types. -/
abbrev xarr1 (c : Dev nD) : Vec Ideal S800000x1 .f32 := V c (Pipeline.arrRef spec1 0)
abbrev warr1 (c : Dev nD) : Vec Ideal S1x32 .f32 := V c (Pipeline.arrRef spec1 1)
abbrev barr1 (c : Dev nD) : Vec Ideal S1x32 .f32 := V c (Pipeline.arrRef spec1 2)

/-- What the output array ends holding, index by index. -/
def lin1 (c : Dev nD) : Vec Ideal S800000x32 .f32 := fun i =>
  (∑ k : Fin 1, xarr1 V c (ix2 (n0 := 800000) (i 0) k) * warr1 V c (ix2 k (n1 := 32) (i 1))) + barr1 V c (ix2 (0 : Fin 1) (n1 := 32) (i 1))

/-- What point `t` writes back is block `t` of `lin1`. -/
theorem flushed1_3_eq (c : Dev nD) (t : Fin cfg1.N) :
    (dat1 (F := Ideal) V c).flushed 3 t = ((cfg1.win 3).blk t).view.read (Elt Ideal) (lin1 V c) := by
  show (cfg1.win 3).cut (grid1.coords t) ((dat1 (F := Ideal) V c).after 3 t) = _
  rw [after1_3, out1_3_eq]
  obtain ⟨-, -, -, -, -, -, e0, e1⟩ := idx_facts1 t
  funext j
  obtain ⟨p, q, rfl⟩ : ∃ (p : Fin 5000) (q : Fin 32), j = ix2 p q := ⟨j 0, j 1, eq_ix2 j⟩
  show k1_pay1 (F := Ideal) (iblk1 V c 0 t) (iblk1 V c 1 t) (iblk1 V c 2 t) (ix2 p q) = lin1 V c (((cfg1.win 3).blk t).view.emb (ix2 p q))
  refine (pay1_apply (iblk1 V c 0 t) (iblk1 V c 1 t) (iblk1 V c 2 t) p q).trans ?_
  have hr : ((((cfg1.win 3).blk t).view.emb (ix2 p q)) 0).val = 5000 * t.val + p.val := by
    show win1_3.index t (0 : Fin 2) * 5000 + 1 * p.val = _; rw [e0]; omega
  have hc : ((((cfg1.win 3).blk t).view.emb (ix2 p q)) 1).val = q.val := by
    show win1_3.index t (1 : Fin 2) * 32 + 1 * q.val = _; rw [e1]; omega
  unfold lin1
  refine congrArg₂ (· + ·) (Finset.sum_congr rfl fun k _ => congrArg₂ (· * ·) ?_ ?_) ?_
  · exact blk1_0_apply V c t (ix2 p k) _ hr rfl
  · refine (blk1_1_apply V c t (ix2 k q)).trans (congrArg (warr1 V c) ?_)
    funext a; apply Fin.ext
    match a with
    | ⟨0, _⟩ => rfl
    | ⟨1, _⟩ => exact hc.symm
  · refine (blk1_2_apply V c t (ix2 (0 : Fin 1) q)).trans (congrArg (barr1 V c) ?_)
    funext a; apply Fin.ext
    match a with
    | ⟨0, _⟩ => rfl
    | ⟨1, _⟩ => exact hc.symm

/-- So the output array ends holding `lin1`. -/
theorem arr1_3_lin (c : Dev nD) : (dat1 (F := Ideal) V c).arrAt 3 cfg1.N = lin1 V c :=
  (dat1 (F := Ideal) V c).arrAt_eq_of_cover 3 (lin1 V c) (fun t _ => flushed1_3_eq V c t) covered1_3

/-- The output array after the region, index by index. -/
theorem arr1_3_apply (c : Dev nD) (r : Fin 800000) (j : Fin 32) :
    (dat1 (F := Ideal) V c).arrAt 3 cfg1.N (ValueIdx.ix2 r j)
      = (∑ k : Fin 1, xarr1 V c (ValueIdx.ix2 r k) * warr1 V c (ValueIdx.ix2 k j)) + barr1 V c (ValueIdx.ix2 (0 : Fin 1) j) :=
  (congrFun (arr1_3_lin V c) (ValueIdx.ix2 r j)).trans rfl

/-- The output array after the region, whole: the specification's one-column linear layer of the three arrays the
    region reads. -/
theorem arr1_3_eq (c : Dev nD) :
    (dat1 (F := Ideal) V c).arrAt 3 cfg1.N
      = Cert.KSpec.Glin1E (V c (Pipeline.arrRef spec1 0)) (V c (Pipeline.arrRef spec1 1)) (V c (Pipeline.arrRef spec1 2)) := by
  funext i
  rw [ValueIdx.eq_ix2 i]
  exact arr1_3_apply V c _ _

end Cert.KernelIdeal.Val

end
-- ==== Proof.KHostP.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the host steps before the two input projections leave in the buffers later steps read:
    the source and target rows of the edge index array and the two input biases as one-row
    matrices, for an arbitrary starting state. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Before the node input projection -/

theorem hostOps0_v1 :
    after (hostOps0 (F := Ideal)) V (main_v1 : DevRef τ sig)
      = Cert.Spec.srcOf (V (main_arg2 : DevRef τ sig)) := by
  after_results_simp
  rfl

theorem hostOps0_v3 :
    after (hostOps0 (F := Ideal)) V (main_v3 : DevRef τ sig)
      = Cert.Spec.dstOf (V (main_arg2 : DevRef τ sig)) := by
  after_results_simp
  rfl

theorem hostOps0_v4 :
    after (hostOps0 (F := Ideal)) V (main_v4 : DevRef τ sig)
      = Cert.KSpec.row32 (V (main_arg4 : DevRef τ sig)) := by
  after_results_simp
  rfl

/-- A buffer these steps do not write stays as it was. -/
theorem hostOps0_keep {r : Ref sig .tc} (h0 : r ∉ GenP.hostOps0_W) :
    after (hostOps0 (F := Ideal)) V (Proc.devRef .tc r) = V (Proc.devRef .tc r) := by
  rw [after_of_writes_sub hostOps0 _ GenP.hostOps0_writes h0]

/-- The same for the buffers read later. -/
theorem hostOps0_keep_live {r : Ref sig .tc}
    (hr : r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps0 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl
  all_goals exact hostOps0_keep V (by decide)

/-! ## Before the edge input projection -/

theorem hostOps1_v6 :
    after (hostOps1 (F := Ideal)) V (main_v6 : DevRef τ sig)
      = Cert.KSpec.row32 (V (main_arg6 : DevRef τ sig)) := by
  after_results_simp
  rfl

/-- A buffer this step does not write stays as it was. -/
theorem hostOps1_keep {r : Ref sig .tc} (h0 : r ∉ GenP.hostOps1_W) :
    after (hostOps1 (F := Ideal)) V (Proc.devRef .tc r) = V (Proc.devRef .tc r) := by
  rw [after_of_writes_sub hostOps1 _ GenP.hostOps1_writes h0]

/-- The same for the buffers read later. -/
theorem hostOps1_keep_live {r : Ref sig .tc}
    (hr : r ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_v1, main_v3, main_v5] : List (Ref sig .tc))) :
    after (hostOps1 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl | rfl | rfl | rfl | rfl
  all_goals exact hostOps1_keep V (by decide)

end Cert.KernelIdeal.KHost
-- ==== Proof.KHostL1a.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the host steps of the first layer leave in the buffers later steps read, as the
    arrangement's glue functions of the buffers they start from, for an arbitrary starting state. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## The weight and bias concatenation (before the fused projection) -/

theorem hostOps2_v16 :
    after (hostOps2 (F := Ideal)) V (main_v16 : DevRef τ sig)
      = Cert.KSpec.wcat (Cert.Spec.wSl 0 Cert.Spec.slices_W_0 (V (main_arg7 : DevRef τ sig))) (Cert.Spec.wSl 0 Cert.Spec.slices_W_0 (V (main_arg9 : DevRef τ sig)))
          (Cert.Spec.wSl 0 Cert.Spec.slices_W_0 (V (main_arg15 : DevRef τ sig))) (Cert.Spec.wSl 0 Cert.Spec.slices_W_0 (V (main_arg13 : DevRef τ sig))) := by
  after_results_simp
  rfl

theorem hostOps2_v26 :
    after (hostOps2 (F := Ideal)) V (main_v26 : DevRef τ sig)
      = Cert.KSpec.bcat (Cert.Spec.bSl 0 Cert.Spec.slices_b_0 (V (main_arg8 : DevRef τ sig))) (Cert.Spec.bSl 0 Cert.Spec.slices_b_0 (V (main_arg10 : DevRef τ sig)))
          (Cert.Spec.bSl 0 Cert.Spec.slices_b_0 (V (main_arg16 : DevRef τ sig))) (Cert.Spec.bSl 0 Cert.Spec.slices_b_0 (V (main_arg14 : DevRef τ sig))) := by
  after_results_simp
  rfl

/-- A buffer the concatenation step does not write stays as it was. -/
theorem hostOps2_keep {r : Ref sig .tc} (h0 : r ∉ GenP.hostOps2_W) :
    after (hostOps2 (F := Ideal)) V (Proc.devRef .tc r) = V (Proc.devRef .tc r) := by
  rw [after_of_writes_sub hostOps2 _ GenP.hostOps2_writes h0]

/-- The same for the buffers read later. -/
theorem hostOps2_keep_live {r : Ref sig .tc}
    (hr : r ∈ ([main_v1, main_v3, main_v5, main_v7, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps2 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl
  all_goals exact hostOps2_keep V (by decide)

/-! ## Between the fused projection and the edge region: column slices, the two gathers, the
    block-diagonal edge weight, the packing -/

theorem hostOps3_v30 :
    after (hostOps3_2 (F := Ideal)) (after (hostOps3_1 (F := Ideal)) (after (hostOps3 (F := Ideal)) V)) (main_v30 : DevRef τ sig)
      = Cert.KSpec.colsU (V (main_v27 : DevRef τ sig)) := by
  after_results_simp <;> (try simp only [TRef.ofBuf, TRef.toBuf, cast_eq]) <;> rfl

theorem hostOps3_v61 :
    after (hostOps3_2 (F := Ideal)) (after (hostOps3_1 (F := Ideal)) (after (hostOps3 (F := Ideal)) V)) (main_v61 : DevRef τ sig)
      = Cert.KSpec.packE (Cert.Spec.gatherRows (Cert.KSpec.colsA (V (main_v27 : DevRef τ sig))) (V (main_v3 : DevRef τ sig))) := by
  after_results_simp <;> (try simp only [TRef.ofBuf, TRef.toBuf, cast_eq]) <;> rfl

theorem hostOps3_v62 :
    after (hostOps3_2 (F := Ideal)) (after (hostOps3_1 (F := Ideal)) (after (hostOps3 (F := Ideal)) V)) (main_v62 : DevRef τ sig)
      = Cert.KSpec.packE (Cert.KSpec.left32 (Cert.KSpec.gatherRows64 (Cert.KSpec.colsBV (V (main_v27 : DevRef τ sig))) (V (main_v1 : DevRef τ sig)))) := by
  after_results_simp <;> (try simp only [TRef.ofBuf, TRef.toBuf, cast_eq]) <;> rfl

theorem hostOps3_v63 :
    after (hostOps3_2 (F := Ideal)) (after (hostOps3_1 (F := Ideal)) (after (hostOps3 (F := Ideal)) V)) (main_v63 : DevRef τ sig)
      = Cert.KSpec.packE (Cert.KSpec.right32 (Cert.KSpec.gatherRows64 (Cert.KSpec.colsBV (V (main_v27 : DevRef τ sig))) (V (main_v1 : DevRef τ sig)))) := by
  after_results_simp <;> (try simp only [TRef.ofBuf, TRef.toBuf, cast_eq]) <;> rfl

theorem hostOps3_v64 :
    after (hostOps3_2 (F := Ideal)) (after (hostOps3_1 (F := Ideal)) (after (hostOps3 (F := Ideal)) V)) (main_v64 : DevRef τ sig)
      = Cert.KSpec.packE (V (main_v7 : DevRef τ sig)) := by
  after_results_simp <;> (try simp only [TRef.ofBuf, TRef.toBuf, cast_eq]) <;> rfl

theorem hostOps3_v55 :
    after (hostOps3_2 (F := Ideal)) (after (hostOps3_1 (F := Ideal)) (after (hostOps3 (F := Ideal)) V)) (main_v55 : DevRef τ sig)
      = Cert.KSpec.kron Cert.KSpec.eye4 (Cert.Spec.wSl 0 Cert.Spec.slices_W_0 (V (main_arg11 : DevRef τ sig))) := by
  after_results_simp <;> (try simp only [TRef.ofBuf, TRef.toBuf, cast_eq]) <;> rfl

theorem hostOps3_v65 :
    after (hostOps3_2 (F := Ideal)) (after (hostOps3_1 (F := Ideal)) (after (hostOps3 (F := Ideal)) V)) (main_v65 : DevRef τ sig)
      = Cert.KSpec.row128 (Cert.KSpec.tile4 (Cert.Spec.bSl 0 Cert.Spec.slices_b_0 (V (main_arg12 : DevRef τ sig)))) := by
  after_results_simp <;> (try simp only [TRef.ofBuf, TRef.toBuf, cast_eq]) <;> rfl

/-- A buffer none of these steps writes stays as it was. -/
theorem hostOps3_keep {r : Ref sig .tc} (h0 : r ∉ GenP.hostOps3_W) (h1 : r ∉ GenP.hostOps3_1_W) (h2 : r ∉ GenP.hostOps3_2_W) :
    after (hostOps3_2 (F := Ideal)) (after (hostOps3_1 (F := Ideal)) (after (hostOps3 (F := Ideal)) V)) (Proc.devRef .tc r) = V (Proc.devRef .tc r) := by
  rw [after_of_writes_sub hostOps3_2 _ GenP.hostOps3_2_writes h2,
    after_of_writes_sub hostOps3_1 _ GenP.hostOps3_1_writes h1,
    after_of_writes_sub hostOps3 _ GenP.hostOps3_writes h0]

/-- The same for the buffers read later. -/
theorem hostOps3_keep_live {r : Ref sig .tc}
    (hr : r ∈ ([main_v1, main_v3, main_v5, main_v7, main_v27, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps3_2 (F := Ideal)) (after (hostOps3_1 (F := Ideal)) (after (hostOps3 (F := Ideal)) V)) (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl
  all_goals exact hostOps3_keep V (by decide) (by decide) (by decide)

/-! ## Between the edge region and the node region: unpacking, the two segment sums, the packing -/

theorem hostOps4_v67 :
    after (hostOps4 (F := Ideal)) V (main_v67 : DevRef τ sig)
      = Cert.KSpec.unpackE (V (main_v66_0 : DevRef τ sig)) := by
  after_results_simp
  rfl

theorem hostOps4_v76 :
    after (hostOps4 (F := Ideal)) V (main_v76 : DevRef τ sig)
      = Cert.KSpec.packN (V (main_v30 : DevRef τ sig)) := by
  after_results_simp
  rfl

theorem hostOps4_v77 :
    after (hostOps4 (F := Ideal)) V (main_v77 : DevRef τ sig)
      = Cert.KSpec.packN (Cert.Spec.segSum (Cert.KSpec.unpackE (V (main_v66_2 : DevRef τ sig))) (V (main_v3 : DevRef τ sig))) := by
  after_results_simp
  rfl

theorem hostOps4_v78 :
    after (hostOps4 (F := Ideal)) V (main_v78 : DevRef τ sig)
      = Cert.KSpec.packN (Cert.Spec.segSum (Cert.KSpec.unpackE (V (main_v66_1 : DevRef τ sig))) (V (main_v3 : DevRef τ sig))) := by
  after_results_simp
  rfl

/-- A buffer none of these steps writes stays as it was. -/
theorem hostOps4_keep {r : Ref sig .tc} (h0 : r ∉ GenP.hostOps4_W) :
    after (hostOps4 (F := Ideal)) V (Proc.devRef .tc r) = V (Proc.devRef .tc r) := by
  rw [after_of_writes_sub hostOps4 _ GenP.hostOps4_writes h0]

/-- The same for the buffers read later. -/
theorem hostOps4_keep_live {r : Ref sig .tc}
    (hr : r ∈ ([main_v1, main_v3, main_v5, main_v7, main_v66_0, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps4 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl
  all_goals exact hostOps4_keep V (by decide)

end Cert.KernelIdeal.KHost
-- ==== Proof.KReadP.lean ====
import proofs.«425355_j88287347737110_2_alg».proof.Proof.KFold
import proofs.«425355_j88287347737110_2_alg».proof.Proof.Val0
import proofs.«425355_j88287347737110_2_alg».proof.Proof.Val1
import proofs.«425355_j88287347737110_2_alg».proof.Proof.KHostP
import proofs.«425355_j88287347737110_2_alg».proof.Proof.KHostL1a
import proofs.«425355_j88287347737110_2_alg».proof.Proof.SpecWhole
import proofs.«425355_j88287347737110_2_alg».proof.Proof.KReadDefs
import Idealize.ShloMosaic.Lib.StableHlo.Run

/-! # The kernel program's prologue, read

After the two input projections and the first layer's weight concatenation (the host stretch that splits the edge
index array and reshapes the node bias, the node projection's region, the reshape of the edge bias, the edge
projection's region, the stretch that slices and concatenates the first layer's weights and biases) the buffers
hold: the source and target rows of the index array, the node features `x · pe_w + pe_b`, the edge features
`e · ed_w + ed_b`, the four projection weights side by side and their biases end to end; every other argument is as
launched. -/

set_option maxRecDepth 16384

noncomputable section

namespace Cert.KernelIdeal.KRead

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (c : Dev nD)

/-! ## Buffers a step does not write -/

/-- Through the first host stretch. -/
theorem readKP_w1 (b : Ref sig .tc) (h : b ∉ hostOps0_W) : Run.W1 m c b = Run.W0 m c b :=
  after_of_writes_sub hostOps0 _ hostOps0_writes h

/-- Through the node projection's region as well. -/
theorem readKP_w2 (b : Ref sig .tc) (h : b ∉ hostOps0_W) (h5 : b ≠ main_v5) : Run.W2 m c b = Run.W0 m c b :=
  (Run.W2_of_ne m c b h5).trans (readKP_w1 m c b h)

/-- Through the second host stretch: only the edge bias row is written. -/
theorem readKP_w3 (b : Ref sig .tc) (h : b ∉ hostOps1_W) : Run.W3 m c b = Run.W2 m c b :=
  after_of_writes_sub hostOps1 _ hostOps1_writes h

/-- Through the concatenation stretch. -/
theorem readKP_w5 (b : Ref sig .tc) (h : b ∉ hostOps2_W) : Run.W5 m c b = Run.W4 m c b :=
  after_of_writes_sub hostOps2 _ hostOps2_writes h

/-- The references the two projections and the stretches around them write. -/
abbrev readKP_written4 : List (Ref sig .tc) := [main_v0, main_v1, main_v2, main_v3, main_v4, main_v5, main_v6, main_v7]

/-- Each host stretch of the projections writes those buffers only. -/
theorem readKP_sub0 : ∀ b ∈ hostOps0_W, b ∈ readKP_written4 := by decide
theorem readKP_sub1 : ∀ b ∈ hostOps1_W, b ∈ readKP_written4 := by decide

/-- Every other buffer is as launched after the two projections. -/
theorem readKP_keep4 (b : Ref sig .tc) (h : b ∉ readKP_written4) : Run.W4 m c b = Run.W0 m c b := by
  have h0 : b ∉ hostOps0_W := fun hb => h (readKP_sub0 b hb)
  have h5 : b ≠ main_v5 := fun hb => h (by subst hb; exact (by decide))
  have h6 : b ∉ hostOps1_W := fun hb => h (readKP_sub1 b hb)
  have h7 : b ≠ main_v7 := fun hb => h (by subst hb; exact (by decide))
  exact (Run.W4_of_ne m c b h7).trans ((readKP_w3 m c b h6).trans (readKP_w2 m c b h0 h5))

/-- None of the arguments 7 to 24 is written by the prologue. -/
theorem readKP_keepArgs4 : ∀ b ∈ keepArgs, b ∉ readKP_written4 := by decide
theorem readKP_keepArgs5 : ∀ b ∈ keepArgs, b ∉ hostOps2_W := by decide

/-- The stacked layer parameters and the score head's parameters are as launched after the prologue. -/
theorem readKP_keep (b : Ref sig .tc) (hb : b ∈ keepArgs) : Run.W5 m c b = Run.W0 m c b :=
  (readKP_w5 m c b (readKP_keepArgs5 b hb)).trans (readKP_keep4 m c b (readKP_keepArgs4 b hb))

/-! ## The index rows -/

/-- The sources: row 0 of the index array. -/
theorem readKP_src : Run.W5 m c main_v1 = Cert.Spec.srcOf (Run.W0 m c main_arg2) :=
  (readKP_w5 m c main_v1 (by decide)).trans ((Run.W4_of_ne m c main_v1 (by decide)).trans
    ((readKP_w3 m c main_v1 (by decide)).trans
      ((Run.W2_of_ne m c main_v1 (by decide)).trans (KHost.hostOps0_v1 (Run.W0 m c)))))

/-- The targets: row 1 of the index array. -/
theorem readKP_dst : Run.W5 m c main_v3 = Cert.Spec.dstOf (Run.W0 m c main_arg2) :=
  (readKP_w5 m c main_v3 (by decide)).trans ((Run.W4_of_ne m c main_v3 (by decide)).trans
    ((readKP_w3 m c main_v3 (by decide)).trans
      ((Run.W2_of_ne m c main_v3 (by decide)).trans (KHost.hostOps0_v3 (Run.W0 m c)))))

/-! ## The two projections -/

/-- At the node projection's exit its output array is the projection of the launch arguments. -/
theorem readKP_h_at2 :
    Run.W2 m c main_v5 = Cert.KSpec.kprologueH (Run.W0 m c main_arg0) (Run.W0 m c main_arg3) (Run.W0 m c main_arg4) := by
  rw [Run.W2_at0, Val.arr0_3_eq (Run.T1 m) c]
  show Cert.KSpec.Glin1N (Run.W1 m c main_arg0) (Run.W1 m c main_arg3) (Run.W1 m c main_v4) = _
  have e0 : Run.W1 m c main_arg0 = Run.W0 m c main_arg0 := readKP_w1 m c main_arg0 (by decide)
  have e1 : Run.W1 m c main_arg3 = Run.W0 m c main_arg3 := readKP_w1 m c main_arg3 (by decide)
  have e2 : Run.W1 m c main_v4 = Cert.KSpec.row32 (Run.W0 m c main_arg4) := KHost.hostOps0_v4 (Run.W0 m c)
  rw [e0, e1, e2]
  rfl

/-- The node features after the prologue. -/
theorem readKP_h :
    Run.W5 m c main_v5 = Cert.KSpec.kprologueH (Run.W0 m c main_arg0) (Run.W0 m c main_arg3) (Run.W0 m c main_arg4) :=
  (readKP_w5 m c main_v5 (by decide)).trans ((Run.W4_of_ne m c main_v5 (by decide)).trans
    ((readKP_w3 m c main_v5 (by decide)).trans (readKP_h_at2 m c)))

/-- At the edge projection's exit its output array is the projection of the launch arguments. -/
theorem readKP_e_at4 :
    Run.W4 m c main_v7 = Cert.KSpec.kprologueE (Run.W0 m c main_arg1) (Run.W0 m c main_arg5) (Run.W0 m c main_arg6) := by
  rw [Run.W4_at0, Val.arr1_3_eq (Run.T3 m) c]
  show Cert.KSpec.Glin1E (Run.W3 m c main_arg1) (Run.W3 m c main_arg5) (Run.W3 m c main_v6) = _
  have e0 : Run.W3 m c main_arg1 = Run.W0 m c main_arg1 :=
    (readKP_w3 m c main_arg1 (by decide)).trans (readKP_w2 m c main_arg1 (by decide) (by decide))
  have e1 : Run.W3 m c main_arg5 = Run.W0 m c main_arg5 :=
    (readKP_w3 m c main_arg5 (by decide)).trans (readKP_w2 m c main_arg5 (by decide) (by decide))
  have e2 : Run.W3 m c main_v6 = Cert.KSpec.row32 (Run.W0 m c main_arg6) :=
    (KHost.hostOps1_v6 (Run.W2 m c)).trans (congrArg Cert.KSpec.row32 (readKP_w2 m c main_arg6 (by decide) (by decide)))
  rw [e0, e1, e2]
  rfl

/-- The edge features after the prologue. -/
theorem readKP_e :
    Run.W5 m c main_v7 = Cert.KSpec.kprologueE (Run.W0 m c main_arg1) (Run.W0 m c main_arg5) (Run.W0 m c main_arg6) :=
  (readKP_w5 m c main_v7 (by decide)).trans (readKP_e_at4 m c)

/-! ## The first layer's concatenated weights and biases -/

/-- The four projection weights of layer 0 side by side, columns [A | B | V | U]. -/
theorem readKP_W :
    Run.W5 m c main_v16
      = Cert.KSpec.wcat (Cert.Spec.wSl 0 Cert.Spec.slices_W_0 (Run.W0 m c main_arg7)) (Cert.Spec.wSl 0 Cert.Spec.slices_W_0 (Run.W0 m c main_arg9))
          (Cert.Spec.wSl 0 Cert.Spec.slices_W_0 (Run.W0 m c main_arg15)) (Cert.Spec.wSl 0 Cert.Spec.slices_W_0 (Run.W0 m c main_arg13)) := by
  have e7 : Run.W4 m c main_arg7 = Run.W0 m c main_arg7 := readKP_keep4 m c main_arg7 (by decide)
  have e9 : Run.W4 m c main_arg9 = Run.W0 m c main_arg9 := readKP_keep4 m c main_arg9 (by decide)
  have e15 : Run.W4 m c main_arg15 = Run.W0 m c main_arg15 := readKP_keep4 m c main_arg15 (by decide)
  have e13 : Run.W4 m c main_arg13 = Run.W0 m c main_arg13 := readKP_keep4 m c main_arg13 (by decide)
  have h := KHost.hostOps2_v16 (Run.W4 m c)
  rw [e7, e9, e15, e13] at h
  exact h

/-- The four projection biases of layer 0 end to end, as one row. -/
theorem readKP_B :
    Run.W5 m c main_v26
      = Cert.KSpec.bcat (Cert.Spec.bSl 0 Cert.Spec.slices_b_0 (Run.W0 m c main_arg8)) (Cert.Spec.bSl 0 Cert.Spec.slices_b_0 (Run.W0 m c main_arg10))
          (Cert.Spec.bSl 0 Cert.Spec.slices_b_0 (Run.W0 m c main_arg16)) (Cert.Spec.bSl 0 Cert.Spec.slices_b_0 (Run.W0 m c main_arg14)) := by
  have e8 : Run.W4 m c main_arg8 = Run.W0 m c main_arg8 := readKP_keep4 m c main_arg8 (by decide)
  have e10 : Run.W4 m c main_arg10 = Run.W0 m c main_arg10 := readKP_keep4 m c main_arg10 (by decide)
  have e16 : Run.W4 m c main_arg16 = Run.W0 m c main_arg16 := readKP_keep4 m c main_arg16 (by decide)
  have e14 : Run.W4 m c main_arg14 = Run.W0 m c main_arg14 := readKP_keep4 m c main_arg14 (by decide)
  have h := KHost.hostOps2_v26 (Run.W4 m c)
  rw [e8, e10, e16, e14] at h
  exact h

end Cert.KernelIdeal.KRead

end
-- ==== Proof.Val2.lean ====
import proofs.«425355_j88287347737110_2_alg».proof.Proof.Reg2
import proofs.«425355_j88287347737110_2_alg».proof.Proof.KSpec
import Idealize.ShloMosaic.Lib.Pipeline.Value
import Idealize.ShloMosaic.Lib.ValueIdx
import Idealize.ShloMosaic.PureOps.Ideal.Laws

/-! # Region 2 (`cc2_kernel`): the result array, index by index, at the ideal values

After the region the result array (100000 × 128) holds, at row `r` and column `j`,
`∑ k < 32, x[r, k] · w[k, j] + b[0, j]` over the extended reals, where `x`, `w`, `b` are the three input arrays as
the region finds them.  The steps: the matrix product accumulated into zero is the sum over the contracted
coordinate; the format changes are the identity at the ideal values; the bias is broadcast down the rows; each input
block is read where the point's block index puts it (the row blocks of `x` and of the result move together, the
weight and the bias stay at block 0); row `r` is covered by the point `r / 5000`. -/

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)
open scoped BigOperators

theorem lin2_hz : (![0, 0] : Fin 2 → Nat) = fun _ => 0 := funext fun a => by fin_cases a <;> rfl

/-! ## The matrix product's operand indices, axis by axis -/

theorem lin2_lhs_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl

theorem lin2_lhs_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q

theorem lin2_rhs_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q

theorem lin2_rhs_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- The product of a 5000 × 32 block by a 32 × 128 matrix accumulated into zero, read at row `p`, column `q`: the
    sum over the 32 contracted coordinates of the products of the entries. -/
theorem lin2_mm_apply (a : FVec Ideal S5000x32 .bf16) (b : FVec Ideal S32x128 .bf16) (p : Fin 5000) (q : Fin 128) :
    matmul dot_S5000x32_S32x128_S5000x128_1_0_0_1_n_n none a b (constant S5000x128 .f32 0x00000000#32) (ix2 p q)
      = ∑ k : Fin 32, a (ix2 p k) * b (ix2 k q) := by
  show FloatOps.matmul _ none a b (constant S5000x128 .f32 0x00000000#32) (ix2 p q) = _
  rw [Ideal.matmul_constant_zero_apply, ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 p q) ((contrEquiv1 dot_S5000x32_S32x128_S5000x128_1_0_0_1_n_n 32 rfl rfl).symm k) = ix2 p k := funext fun ax => Fin.ext (by
    match ax with
    | ⟨0, _⟩ => exact lin2_lhs_0 _ _
    | ⟨1, _⟩ => exact (lin2_lhs_1 _ _).trans hk)
  have er : dot_S5000x32_S32x128_S5000x128_1_0_0_1_n_n.rhsIdx (ix2 p q) ((contrEquiv1 dot_S5000x32_S32x128_S5000x128_1_0_0_1_n_n 32 rfl rfl).symm k) = ix2 k q := funext fun ax => Fin.ext (by
    match ax with
    | ⟨0, _⟩ => exact (lin2_rhs_0 _ _).trans hk
    | ⟨1, _⟩ => exact lin2_rhs_1 _ _)
  rw [el, er]

/-! ## The body's payload at an index -/

/-- The payload `x · w + b` at row `p`, column `q` of the block: the format changes are the identity at the ideal
    values, the bias's one row is laid along every row. -/
theorem lin2_pay_apply (x0 : Vec Ideal S5000x32 .f32) (x1 : Vec Ideal S32x128 .f32) (x2 : Vec Ideal S1x128 .f32) (p : Fin 5000) (q : Fin 128) :
    k2_pay1 x0 x1 x2 (ix2 p q) = (∑ k : Fin 32, x0 (ix2 p k) * x1 (ix2 k q)) + x2 (ix2 (0 : Fin 1) q) := by
  unfold k2_pay1
  rw [addf_apply, lin2_mm_apply]
  simp only [truncf_apply, shapeCast_self]
  congr 1
  exact broadcastTo_apply x2 broadcasts_S1x128_S5000x128 (ix2 p q) (ix2 (0 : Fin 1) q) (fun a => by
    match a with
    | ⟨0, _⟩ => rfl
    | ⟨1, _⟩ => rfl)

/-- The same at any index of the block. -/
theorem lin2_pay_idx (x0 : Vec Ideal S5000x32 .f32) (x1 : Vec Ideal S32x128 .f32) (x2 : Vec Ideal S1x128 .f32) (y : S5000x128.Idx) :
    k2_pay1 x0 x1 x2 y = (∑ k : Fin 32, x0 (ix2 (y 0) k) * x1 (ix2 k (y 1))) + x2 (ix2 (0 : Fin 1) (y 1)) := by
  obtain ⟨p, q, rfl⟩ : ∃ (p : Fin 5000) (q : Fin 128), y = ix2 p q := ⟨y 0, y 1, eq_ix2 y⟩
  exact lin2_pay_apply x0 x1 x2 p q

/-! ## The arrays, and the result as one function of them -/

variable (V : (c : Dev nD) → (b : Ref sig .tc) → Buf (Elt Ideal) ((c : Thread nD τ).loc b))

/-- The three input arrays as the region finds them, at their literal types. -/
abbrev xarr2 (c : Dev nD) : S100000x32.Idx → EReal := V c (Pipeline.arrRef spec2 0)
abbrev warr2 (c : Dev nD) : S32x128.Idx → EReal := V c (Pipeline.arrRef spec2 1)
abbrev barr2 (c : Dev nD) : S1x128.Idx → EReal := V c (Pipeline.arrRef spec2 2)

/-- `x · w + b`, row by row, over the whole arrays. -/
def lin2_G (x : S100000x32.Idx → EReal) (w : S32x128.Idx → EReal) (b : S1x128.Idx → EReal) : S100000x128.Idx → EReal :=
  fun i => (∑ k : Fin 32, x (ix2 (i 0) k) * w (ix2 k (i 1))) + b (ix2 (0 : Fin 1) (i 1))

theorem lin2_N : cfg2.N = 20 := N_2

/-! ## The blocks -/

/-- The printed index maps over the grid: the row blocks of `x` and of the result move with the point, the weight
    and the bias stay at block 0. -/
theorem lin2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row block of `x` at point `t` is rows `5000 t … 5000 t + 4999` of the array. -/
theorem lin2_xblk_apply (c : Dev nD) (t : Fin cfg2.N) (x : S5000x32.Idx) (i : S100000x32.Idx)
    (h0 : (i 0).val = 5000 * t.val + (x 0).val) (h1 : (i 1).val = (x 1).val) :
    (iblk2 V c 0 t : Vec Ideal S5000x32 .f32) x = xarr2 V c i := by
  obtain ⟨e0, e1, -⟩ := lin2_idx_facts t
  unfold iblk2
  rw [View.read_apply]
  show V c (Pipeline.arrRef spec2 0) _ = V c (Pipeline.arrRef spec2 0) i
  congr 1
  funext a
  apply Fin.ext
  match a with
  | ⟨0, _⟩ => show win2_0.index t 0 * 5000 + 1 * (x 0).val = (i 0).val; rw [e0, h0]; omega
  | ⟨1, _⟩ => show win2_0.index t 1 * 32 + 1 * (x 1).val = (i 1).val; rw [e1, h1]; omega

/-- The weight's block at every point is the whole array. -/
theorem lin2_wblk_apply (c : Dev nD) (t : Fin cfg2.N) (x : S32x128.Idx) :
    (iblk2 V c 1 t : Vec Ideal S32x128 .f32) x = warr2 V c x := by
  obtain ⟨-, -, e0, e1, -⟩ := lin2_idx_facts t
  unfold iblk2
  rw [View.read_apply]
  show V c (Pipeline.arrRef spec2 1) _ = V c (Pipeline.arrRef spec2 1) x
  congr 1
  funext a
  apply Fin.ext
  match a with
  | ⟨0, _⟩ => show win2_1.index t 0 * 32 + 1 * (x 0).val = (x 0).val; rw [e0]; omega
  | ⟨1, _⟩ => show win2_1.index t 1 * 128 + 1 * (x 1).val = (x 1).val; rw [e1]; omega

/-- The bias's block at every point is the whole array. -/
theorem lin2_bblk_apply (c : Dev nD) (t : Fin cfg2.N) (x : S1x128.Idx) :
    (iblk2 V c 2 t : Vec Ideal S1x128 .f32) x = barr2 V c x := by
  obtain ⟨-, -, -, -, e0, e1, -⟩ := lin2_idx_facts t
  unfold iblk2
  rw [View.read_apply]
  show V c (Pipeline.arrRef spec2 2) _ = V c (Pipeline.arrRef spec2 2) x
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega

/-- Where the result's block at point `t` puts its local index `y`: row `5000 t + y 0`, column `y 1`. -/
theorem lin2_oemb (t : Fin cfg2.N) (y : S5000x128.Idx) :
    ((((cfg2.win 3).blk t).view.emb y : S100000x128.Idx) 0).val = 5000 * t.val + (y 0).val
    ∧ ((((cfg2.win 3).blk t).view.emb y : S100000x128.Idx) 1).val = (y 1).val := by
  obtain ⟨-, -, -, -, -, -, e0, e1⟩ := lin2_idx_facts t
  constructor
  · show win2_3.index t 0 * 5000 + 1 * (y 0).val = _; rw [e0]; omega
  · show win2_3.index t 1 * 128 + 1 * (y 1).val = _; rw [e1]; omega

/-! ## From the blocks to the array -/

/-- What point `t` writes back is block `t` of `lin2_G` of the arrays. -/
theorem lin2_flushed_3_eq (c : Dev nD) (t : Fin cfg2.N) :
    (dat2 (F := Ideal) V c).flushed 3 t = ((cfg2.win 3).blk t).view.read (Elt Ideal) (lin2_G (xarr2 V c) (warr2 V c) (barr2 V c)) := by
  show (cfg2.win 3).cut (grid2.coords t) ((dat2 V c).after 3 t) = _
  rw [after2_3]
  unfold out2_3
  rw [View.canon_unit_zero lin2_hz]
  simp only [View.ld_unit_zero (S := S5000x32) lin2_hz, View.ld_unit_zero (S := S32x128) lin2_hz, View.ld_unit_zero (S := S1x128) lin2_hz]
  funext y
  obtain ⟨o0, o1⟩ := lin2_oemb t y
  show k2_pay1 (iblk2 V c 0 t) (iblk2 V c 1 t) (iblk2 V c 2 t) y = lin2_G (xarr2 V c) (warr2 V c) (barr2 V c) (((cfg2.win 3).blk t).view.emb y)
  refine (lin2_pay_idx (iblk2 V c 0 t) (iblk2 V c 1 t) (iblk2 V c 2 t) y).trans ?_
  unfold lin2_G
  refine congrArg₂ (· + ·) (Finset.sum_congr rfl fun k _ => congrArg₂ (· * ·) ?_ ?_) ?_
  · exact lin2_xblk_apply V c t (ix2 (y 0) k) _ o0 rfl
  · refine (lin2_wblk_apply V c t (ix2 k (y 1))).trans (congrArg (warr2 V c) ?_)
    funext a; apply Fin.ext
    match a with
    | ⟨0, _⟩ => rfl
    | ⟨1, _⟩ => exact o1.symm
  · refine (lin2_bblk_apply V c t (ix2 (0 : Fin 1) (y 1))).trans (congrArg (barr2 V c) ?_)
    funext a; apply Fin.ext
    match a with
    | ⟨0, _⟩ => rfl
    | ⟨1, _⟩ => exact o1.symm

/-- An index of the result array is in point `t`'s block iff each coordinate is in the block's range on its axis. -/
theorem lin2_mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v27).slice (win2_3.rect t)).set ↔ _
  rw [View.set_slice_whole, Rect.mem_set_unit]
  exact Iff.rfl

/-- Row `r` of the result is in the block of point `r / 5000`, which is written back. -/
theorem lin2_cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  refine ⟨⟨(i 0).val / 5000, by rw [lin2_N]; omega⟩, flush2_3 _, ?_⟩
  rw [lin2_mem_blk]
  obtain ⟨-, -, -, -, -, -, e0, e1⟩ := lin2_idx_facts ⟨(i 0).val / 5000, by rw [lin2_N]; omega⟩
  intro a
  match a with
  | ⟨0, _⟩ => show win2_3.index _ (0 : Fin 2) * 5000 ≤ (i 0).val ∧ (i 0).val < win2_3.index _ (0 : Fin 2) * 5000 + 5000; rw [e0]; show (i 0).val / 5000 * 5000 ≤ _ ∧ _ < (i 0).val / 5000 * 5000 + 5000; omega
  | ⟨1, _⟩ => show win2_3.index _ (1 : Fin 2) * 128 ≤ (i 1).val ∧ (i 1).val < win2_3.index _ (1 : Fin 2) * 128 + 128; rw [e1]; omega

/-- The result array after the region is `lin2_G` of the three input arrays. -/
theorem lin2_final_3 (c : Dev nD) : (dat2 (F := Ideal) V c).arrAt 3 cfg2.N = lin2_G (xarr2 V c) (warr2 V c) (barr2 V c) :=
  (dat2 (F := Ideal) V c).arrAt_eq_of_cover 3 (lin2_G (xarr2 V c) (warr2 V c) (barr2 V c)) (fun t _ => lin2_flushed_3_eq V c t) (lin2_cover)

/-- The result array after the region, index by index: `∑ k, x[r, k] · w[k, j] + b[0, j]`. -/
theorem arr2_3_apply (c : Dev nD) (r : Fin 100000) (j : Fin 128) :
    ((dat2 (F := Ideal) V c).arrAt 3 cfg2.N : S100000x128.Idx → EReal) (ix2 r j)
      = (∑ k : Fin 32, xarr2 V c (ix2 r k) * warr2 V c (ix2 k j)) + barr2 V c (ix2 (0 : Fin 1) j) := by
  rw [lin2_final_3]
  rfl

/-- The result array after the region as the fused projection `x · w + b` of the three input arrays. -/
theorem arr2_3_eq (c : Dev nD) :
    (dat2 (F := Ideal) V c).arrAt 3 cfg2.N
      = Cert.KSpec.Glin128 (V c (Pipeline.arrRef spec2 0)) (V c (Pipeline.arrRef spec2 1)) (V c (Pipeline.arrRef spec2 2)) :=
  (lin2_final_3 V c).trans rfl

end Cert.KernelIdeal.Val

end
-- ==== Proof.Pay3.lean ====
/- The edge-update body's three stored values, read at an index, at the ideal float model: every entry as a formula
   over the extended reals of the entries of the six loaded blocks. -/
import proofs.«425355_j88287347737110_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-! ## The product `e · chat` at an index

The contraction runs over the second axis of the left operand and the first of the right; neither has a batch axis. -/

/-- The left operand's row coordinate is the output's. -/
theorem lhs3_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The left operand's column coordinate is the contracted one. -/
theorem lhs3_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

/-- The right operand's row coordinate is the contracted one. -/
theorem rhs3_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

/-- The right operand's column coordinate is the output's. -/
theorem rhs3_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into a zero accumulator, at row `p` and column `q`: the sum over the 128 contracted coordinates. -/
theorem matmul3_apply (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) := by
  show FloatOps.matmul dot_S4000x128_S128x128_S4000x128_1_0_0_1_n_n none x w (constant (F := Ideal) S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs3_0 _ _
    | ⟨1, _⟩ => exact (lhs3_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs3_0 _ _).trans hk
    | ⟨1, _⟩ => exact rhs3_1 _ _)
  rw [el, er]

/-! ## The stored values at an index -/

/-- The bias row, broadcast down the rows, at row `p` and column `q` is the row's entry at column `q`. -/
theorem bias3_apply (v : Vec Ideal S1x128 .f32) (p : Fin 4000) (q : Fin 128) :
    broadcastTo S4000x128 v broadcasts_S1x128_S4000x128 (ix2 p q) = v (ix2 (0 : Fin 1) q) :=
  broadcastTo_apply v broadcasts_S1x128_S4000x128 (ix2 p q) (ix2 (0 : Fin 1) q) (fun a => by
    match a with
    | ⟨0, _⟩ => rfl
    | ⟨1, _⟩ => rfl)

/-- `e_new` at row `p`, column `q`: `(ah + bh) + (∑ k, e[p,k] * chat[k,q] + cbias[0,q])`. -/
theorem pay3_1_apply (v0 : Vec Ideal S4000x128 .f32) (v3 : Vec Ideal S128x128 .f32) (v7 : Vec Ideal S1x128 .f32)
    (v11 v13 : Vec Ideal S4000x128 .f32) (p : Fin 4000) (q : Fin 128) :
    k3_pay1 v0 v3 v7 v11 v13 (ix2 p q)
      = (v11 (ix2 p q) + v13 (ix2 p q)) + ((∑ k : Fin 128, v0 (ix2 p k) * v3 (ix2 k q)) + v7 (ix2 (0 : Fin 1) q)) := by
  unfold k3_pay1
  simp only [shapeCast_self]
  show (v11 (ix2 p q) + v13 (ix2 p q)) + (matmul dot_S4000x128_S128x128_S4000x128_1_0_0_1_n_n none (truncf .bf16 v0 bitsLt_bf16_f32) (truncf .bf16 v3 bitsLt_bf16_f32) (constant (F := Ideal) S4000x128 .f32 0x00000000#32) (ix2 p q) + broadcastTo S4000x128 v7 broadcasts_S1x128_S4000x128 (ix2 p q)) = _
  rw [matmul3_apply, bias3_apply]
  rfl

/-- `sigma` at row `p`, column `q`: the logistic of `e_new` there. -/
theorem pay3_2_apply (v0 : Vec Ideal S4000x128 .f32) (v3 : Vec Ideal S128x128 .f32) (v7 : Vec Ideal S1x128 .f32)
    (v11 v13 : Vec Ideal S4000x128 .f32) (p : Fin 4000) (q : Fin 128) :
    k3_pay2 v0 v3 v7 v11 v13 (ix2 p q)
      = Ideal.logistic ((v11 (ix2 p q) + v13 (ix2 p q)) + ((∑ k : Fin 128, v0 (ix2 p k) * v3 (ix2 k q)) + v7 (ix2 (0 : Fin 1) q))) := by
  unfold k3_pay2
  show Ideal.logistic (k3_pay1 v0 v3 v7 v11 v13 (ix2 p q)) = _
  rw [pay3_1_apply]

/-- `sigma * vh` at row `p`, column `q`. -/
theorem pay3_3_apply (v0 : Vec Ideal S4000x128 .f32) (v3 : Vec Ideal S128x128 .f32) (v7 : Vec Ideal S1x128 .f32)
    (v11 v13 v20 : Vec Ideal S4000x128 .f32) (p : Fin 4000) (q : Fin 128) :
    k3_pay3 v0 v3 v7 v11 v13 v20 (ix2 p q)
      = Ideal.logistic ((v11 (ix2 p q) + v13 (ix2 p q)) + ((∑ k : Fin 128, v0 (ix2 p k) * v3 (ix2 k q)) + v7 (ix2 (0 : Fin 1) q))) * v20 (ix2 p q) := by
  unfold k3_pay3
  simp only [shapeCast_self]
  show k3_pay2 v0 v3 v7 v11 v13 (ix2 p q) * v20 (ix2 p q) = _
  rw [pay3_2_apply]

end Cert.KernelIdeal.Val

end
-- ==== Proof.Val3.lean ====
/- The edge-update region at the ideal float model: what each of its three output arrays holds after the region,
   index by index, as a formula over the extended reals of the entries of the six arrays the region reads. -/
import proofs.«425355_j88287347737110_2_alg».proof.Proof.Reg3
import proofs.«425355_j88287347737110_2_alg».proof.Proof.Pay3
import proofs.«425355_j88287347737110_2_alg».proof.Proof.KSpec
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

-- the core's buffer contents when the region is entered
variable (V : (c : Dev nD) → (b : Ref sig .tc) → Buf (Elt Ideal) ((c : Thread nD τ).loc b))

/-! ## The six arrays the region reads, as it finds them, at their literal types -/

abbrev ent3_0 (c : Dev nD) : S200000x128.Idx → EReal := V c (Pipeline.arrRef spec3 0)
abbrev ent3_1 (c : Dev nD) : S200000x128.Idx → EReal := V c (Pipeline.arrRef spec3 1)
abbrev ent3_2 (c : Dev nD) : S200000x128.Idx → EReal := V c (Pipeline.arrRef spec3 2)
abbrev ent3_3 (c : Dev nD) : S200000x128.Idx → EReal := V c (Pipeline.arrRef spec3 3)
abbrev ent3_4 (c : Dev nD) : S128x128.Idx → EReal := V c (Pipeline.arrRef spec3 4)
abbrev ent3_5 (c : Dev nD) : S1x128.Idx → EReal := V c (Pipeline.arrRef spec3 5)

/-! ## The block index maps, decided over the 50 grid points -/

theorem hz3 : (![0, 0] : Fin 2 → Nat) = fun _ => 0 := funext fun a => by fin_cases a <;> rfl

/-- The seven row-blocked windows sit at row block `t`, column block 0. -/
theorem idx3_row : ∀ t : Fin cfg3.N, (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_6.index t (0 : Fin 2) = t.val ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0) :=
  (by decide +kernel : ∀ t : Fin grid3.N, _)

/-- The two resident windows sit at block (0, 0) throughout. -/
theorem idx3_res : ∀ t : Fin cfg3.N, (win3_4.index t (0 : Fin 2) = 0 ∧ win3_4.index t (1 : Fin 2) = 0)
    ∧ (win3_5.index t (0 : Fin 2) = 0 ∧ win3_5.index t (1 : Fin 2) = 0) :=
  (by decide +kernel : ∀ t : Fin grid3.N, _)

/-! ## An input block's entry is an entry of its array -/

/-- Row block `t` of window 0 at row `p`, column `q` is the array's entry at row `t * 4000 + p`, column `q`. -/
theorem blk3_0_apply (c : Dev nD) (t : Fin cfg3.N) (p : Fin 4000) (q : Fin 128) (r : Fin 200000) (hr : r.val = t.val * 4000 + p.val) :
    (iblk3 V c 0 t : S4000x128.Idx → EReal) (ix2 p q) = ent3_0 V c (ix2 r q) := by
  show V c (Pipeline.arrRef spec3 0) (((cfg3.win 0).blk t).view.emb (ix2 p q)) = V c (Pipeline.arrRef spec3 0) (ix2 r q)
  obtain ⟨h0, h1⟩ := (idx3_row t).1
  refine congrArg _ (funext fun a => Fin.ext ?_)
  match a with
  | ⟨0, _⟩ => show win3_0.index t (0 : Fin 2) * 4000 + 1 * p.val = r.val; omega
  | ⟨1, _⟩ => show win3_0.index t (1 : Fin 2) * 128 + 1 * q.val = q.val; omega

/-- Row block `t` of window 1 at row `p`, column `q` is the array's entry at row `t * 4000 + p`, column `q`. -/
theorem blk3_1_apply (c : Dev nD) (t : Fin cfg3.N) (p : Fin 4000) (q : Fin 128) (r : Fin 200000) (hr : r.val = t.val * 4000 + p.val) :
    (iblk3 V c 1 t : S4000x128.Idx → EReal) (ix2 p q) = ent3_1 V c (ix2 r q) := by
  show V c (Pipeline.arrRef spec3 1) (((cfg3.win 1).blk t).view.emb (ix2 p q)) = V c (Pipeline.arrRef spec3 1) (ix2 r q)
  obtain ⟨h0, h1⟩ := (idx3_row t).2.1
  refine congrArg _ (funext fun a => Fin.ext ?_)
  match a with
  | ⟨0, _⟩ => show win3_1.index t (0 : Fin 2) * 4000 + 1 * p.val = r.val; omega
  | ⟨1, _⟩ => show win3_1.index t (1 : Fin 2) * 128 + 1 * q.val = q.val; omega

/-- Row block `t` of window 2 at row `p`, column `q` is the array's entry at row `t * 4000 + p`, column `q`. -/
theorem blk3_2_apply (c : Dev nD) (t : Fin cfg3.N) (p : Fin 4000) (q : Fin 128) (r : Fin 200000) (hr : r.val = t.val * 4000 + p.val) :
    (iblk3 V c 2 t : S4000x128.Idx → EReal) (ix2 p q) = ent3_2 V c (ix2 r q) := by
  show V c (Pipeline.arrRef spec3 2) (((cfg3.win 2).blk t).view.emb (ix2 p q)) = V c (Pipeline.arrRef spec3 2) (ix2 r q)
  obtain ⟨h0, h1⟩ := (idx3_row t).2.2.1
  refine congrArg _ (funext fun a => Fin.ext ?_)
  match a with
  | ⟨0, _⟩ => show win3_2.index t (0 : Fin 2) * 4000 + 1 * p.val = r.val; omega
  | ⟨1, _⟩ => show win3_2.index t (1 : Fin 2) * 128 + 1 * q.val = q.val; omega

/-- Row block `t` of window 3 at row `p`, column `q` is the array's entry at row `t * 4000 + p`, column `q`. -/
theorem blk3_3_apply (c : Dev nD) (t : Fin cfg3.N) (p : Fin 4000) (q : Fin 128) (r : Fin 200000) (hr : r.val = t.val * 4000 + p.val) :
    (iblk3 V c 3 t : S4000x128.Idx → EReal) (ix2 p q) = ent3_3 V c (ix2 r q) := by
  show V c (Pipeline.arrRef spec3 3) (((cfg3.win 3).blk t).view.emb (ix2 p q)) = V c (Pipeline.arrRef spec3 3) (ix2 r q)
  obtain ⟨h0, h1⟩ := (idx3_row t).2.2.2.1
  refine congrArg _ (funext fun a => Fin.ext ?_)
  match a with
  | ⟨0, _⟩ => show win3_3.index t (0 : Fin 2) * 4000 + 1 * p.val = r.val; omega
  | ⟨1, _⟩ => show win3_3.index t (1 : Fin 2) * 128 + 1 * q.val = q.val; omega

/-- The resident weight block is the whole weight array. -/
theorem blk3_4_apply (c : Dev nD) (t : Fin cfg3.N) (k : Fin 128) (q : Fin 128) :
    (iblk3 V c 4 t : S128x128.Idx → EReal) (ix2 k q) = ent3_4 V c (ix2 k q) := by
  show V c (Pipeline.arrRef spec3 4) (((cfg3.win 4).blk t).view.emb (ix2 k q)) = V c (Pipeline.arrRef spec3 4) (ix2 k q)
  obtain ⟨h0, h1⟩ := (idx3_res t).1
  refine congrArg _ (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- The resident bias block is the whole bias row. -/
theorem blk3_5_apply (c : Dev nD) (t : Fin cfg3.N) (q : Fin 128) :
    (iblk3 V c 5 t : S1x128.Idx → EReal) (ix2 (0 : Fin 1) q) = ent3_5 V c (ix2 (0 : Fin 1) q) := by
  show V c (Pipeline.arrRef spec3 5) (((cfg3.win 5).blk t).view.emb (ix2 (0 : Fin 1) q)) = V c (Pipeline.arrRef spec3 5) (ix2 (0 : Fin 1) q)
  obtain ⟨h0, h1⟩ := (idx3_res t).2
  refine congrArg _ (funext fun a => Fin.ext ?_)
  match a with
  | ⟨0, _⟩ => show win3_5.index t (0 : Fin 2) * 1 + 1 * (0 : Fin 1).val = (0 : Fin 1).val; omega
  | ⟨1, _⟩ => show win3_5.index t (1 : Fin 2) * 128 + 1 * q.val = q.val; omega

/-! ## Output window 6 -/

/-- What window 6's array holds after the region, as one function of the entry arrays. -/
abbrev G3_6 (c : Dev nD) : S200000x128.Idx → EReal := Cert.KSpec.GedgeNew (ent3_0 V c) (ent3_1 V c) (ent3_2 V c) (ent3_4 V c) (ent3_5 V c)

/-- Row block `t` of window 6: its index at row `p`, column `q` is row `t * 4000 + p`, column `q` of the array. -/
theorem emb3_6 (t : Fin cfg3.N) (p : Fin 4000) (q : Fin 128) (r : Fin 200000) (hr : r.val = t.val * 4000 + p.val) :
    (((cfg3.win 6).blk t).view.emb (ix2 p q) : S200000x128.Idx) = ix2 r q := by
  obtain ⟨h0, h1⟩ := (idx3_row t).2.2.2.2.1
  refine funext fun a => Fin.ext ?_
  match a with
  | ⟨0, _⟩ => show win3_6.index t (0 : Fin 2) * 4000 + 1 * p.val = r.val; omega
  | ⟨1, _⟩ => show win3_6.index t (1 : Fin 2) * 128 + 1 * q.val = q.val; omega

/-- What point `t` writes back to window 6's array is block `t` of `G3_6`. -/
theorem flushed3_6_eq (c : Dev nD) (t : Fin cfg3.N) :
    (dat3 (F := Ideal) V c).flushed 6 t = ((cfg3.win 6).blk t).view.read (Elt Ideal) (G3_6 V c) := by
  show (cfg3.win 6).cut (grid3.coords t) ((dat3 (F := Ideal) V c).after 6 t) = _
  rw [after3_6]
  unfold out3_6
  rw [View.canon_unit_zero hz3]
  simp only [View.ld_unit_zero (S := S4000x128) hz3, View.ld_unit_zero (S := S128x128) hz3, View.ld_unit_zero (S := S1x128) hz3]
  funext y
  obtain ⟨p, q, rfl⟩ : ∃ (p : Fin 4000) (q : Fin 128), y = ix2 p q := ⟨y 0, y 1, eq_ix2 y⟩
  have ht : t.val < 50 := lt_of_lt_of_eq t.isLt N_3
  have hp : p.val < 4000 := p.isLt
  have hr : ((⟨t.val * 4000 + p.val, by omega⟩ : Fin 200000)).val = t.val * 4000 + p.val := rfl
  show k3_pay1 (iblk3 V c 2 t) (iblk3 V c 4 t) (iblk3 V c 5 t) (iblk3 V c 0 t) (iblk3 V c 1 t) (ix2 p q) = G3_6 V c (((cfg3.win 6).blk t).view.emb (ix2 p q))
  rw [emb3_6 t p q _ hr]
  refine (pay3_1_apply (iblk3 V c 2 t) (iblk3 V c 4 t) (iblk3 V c 5 t) (iblk3 V c 0 t) (iblk3 V c 1 t) p q).trans ?_
  exact (congrArg₂ (· + ·) (congrArg₂ (· + ·) (blk3_0_apply V c t p q _ hr) (blk3_1_apply V c t p q _ hr))
    (congrArg₂ (· + ·) (Finset.sum_congr rfl fun k _ => congrArg₂ (· * ·) (blk3_2_apply V c t p k _ hr) (blk3_4_apply V c t k q)) (blk3_5_apply V c t q)))

/-- An index of the array is in point `t`'s block iff each coordinate is in the block's range on its axis. -/
theorem mem_blk3_6 (t : Fin cfg3.N) (i : S200000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v66_0).slice (win3_6.rect t)).set ↔ _
  rw [View.set_slice_whole, Rect.mem_set_unit]
  exact Iff.rfl

/-- Every index is in the block of the point its row falls in: point `row / 4000`. -/
theorem cover3_6 (i : S200000x128.Idx) :
    ∃ t : Fin cfg3.N, (cfg3.win 6).flush t = true ∧ i ∈ ((cfg3.win 6).blk t).view.set := by
  have hi0 : (i 0).val < 200000 := idx2_lt0 i
  have hi1 : (i 1).val < 128 := idx2_lt1 i
  have hN : cfg3.N = 50 := N_3
  refine ⟨⟨(i 0).val / 4000, by rw [hN]; omega⟩, flush3_6 _, ?_⟩
  rw [mem_blk3_6]
  obtain ⟨h0, h1⟩ := (idx3_row (⟨(i 0).val / 4000, by rw [hN]; omega⟩ : Fin cfg3.N)).2.2.2.2.1
  intro a
  match a with
  | ⟨0, _⟩ => show win3_6.index _ (0 : Fin 2) * 4000 ≤ (i 0).val ∧ (i 0).val < win3_6.index _ (0 : Fin 2) * 4000 + 4000; rw [h0]; show (i 0).val / 4000 * 4000 ≤ (i 0).val ∧ (i 0).val < (i 0).val / 4000 * 4000 + 4000; omega
  | ⟨1, _⟩ => show win3_6.index _ (1 : Fin 2) * 128 ≤ (i 1).val ∧ (i 1).val < win3_6.index _ (1 : Fin 2) * 128 + 128; rw [h1]; omega

/-- The array after the region: `G3_6` of the entry arrays, everywhere. -/
theorem final3_6 (c : Dev nD) : (dat3 (F := Ideal) V c).arrAt 6 cfg3.N = G3_6 V c :=
  (dat3 (F := Ideal) V c).arrAt_eq_of_cover 6 (G3_6 V c) (fun t _ => flushed3_6_eq V c t) (cover3_6)

/-! ## Output window 7 -/

/-- What window 7's array holds after the region, as one function of the entry arrays. -/
abbrev G3_7 (c : Dev nD) : S200000x128.Idx → EReal := Cert.KSpec.GedgeSig (ent3_0 V c) (ent3_1 V c) (ent3_2 V c) (ent3_4 V c) (ent3_5 V c)

/-- Row block `t` of window 7: its index at row `p`, column `q` is row `t * 4000 + p`, column `q` of the array. -/
theorem emb3_7 (t : Fin cfg3.N) (p : Fin 4000) (q : Fin 128) (r : Fin 200000) (hr : r.val = t.val * 4000 + p.val) :
    (((cfg3.win 7).blk t).view.emb (ix2 p q) : S200000x128.Idx) = ix2 r q := by
  obtain ⟨h0, h1⟩ := (idx3_row t).2.2.2.2.2.1
  refine funext fun a => Fin.ext ?_
  match a with
  | ⟨0, _⟩ => show win3_7.index t (0 : Fin 2) * 4000 + 1 * p.val = r.val; omega
  | ⟨1, _⟩ => show win3_7.index t (1 : Fin 2) * 128 + 1 * q.val = q.val; omega

/-- What point `t` writes back to window 7's array is block `t` of `G3_7`. -/
theorem flushed3_7_eq (c : Dev nD) (t : Fin cfg3.N) :
    (dat3 (F := Ideal) V c).flushed 7 t = ((cfg3.win 7).blk t).view.read (Elt Ideal) (G3_7 V c) := by
  show (cfg3.win 7).cut (grid3.coords t) ((dat3 (F := Ideal) V c).after 7 t) = _
  rw [after3_7]
  unfold out3_7
  rw [View.canon_unit_zero hz3]
  simp only [View.ld_unit_zero (S := S4000x128) hz3, View.ld_unit_zero (S := S128x128) hz3, View.ld_unit_zero (S := S1x128) hz3]
  funext y
  obtain ⟨p, q, rfl⟩ : ∃ (p : Fin 4000) (q : Fin 128), y = ix2 p q := ⟨y 0, y 1, eq_ix2 y⟩
  have ht : t.val < 50 := lt_of_lt_of_eq t.isLt N_3
  have hp : p.val < 4000 := p.isLt
  have hr : ((⟨t.val * 4000 + p.val, by omega⟩ : Fin 200000)).val = t.val * 4000 + p.val := rfl
  show k3_pay2 (iblk3 V c 2 t) (iblk3 V c 4 t) (iblk3 V c 5 t) (iblk3 V c 0 t) (iblk3 V c 1 t) (ix2 p q) = G3_7 V c (((cfg3.win 7).blk t).view.emb (ix2 p q))
  rw [emb3_7 t p q _ hr]
  refine (pay3_2_apply (iblk3 V c 2 t) (iblk3 V c 4 t) (iblk3 V c 5 t) (iblk3 V c 0 t) (iblk3 V c 1 t) p q).trans ?_
  exact congrArg Ideal.logistic (congrArg₂ (· + ·) (congrArg₂ (· + ·) (blk3_0_apply V c t p q _ hr) (blk3_1_apply V c t p q _ hr))
    (congrArg₂ (· + ·) (Finset.sum_congr rfl fun k _ => congrArg₂ (· * ·) (blk3_2_apply V c t p k _ hr) (blk3_4_apply V c t k q)) (blk3_5_apply V c t q)))

/-- An index of the array is in point `t`'s block iff each coordinate is in the block's range on its axis. -/
theorem mem_blk3_7 (t : Fin cfg3.N) (i : S200000x128.Idx) :
    i ∈ ((cfg3.win 7).blk t).view.set ↔ ∀ a : Fin 2, win3_7.index t a * S4000x128.size a ≤ (i a).val ∧ (i a).val < win3_7.index t a * S4000x128.size a + S4000x128.size a := by
  show i ∈ ((View.whole main_v66_1).slice (win3_7.rect t)).set ↔ _
  rw [View.set_slice_whole, Rect.mem_set_unit]
  exact Iff.rfl

/-- Every index is in the block of the point its row falls in: point `row / 4000`. -/
theorem cover3_7 (i : S200000x128.Idx) :
    ∃ t : Fin cfg3.N, (cfg3.win 7).flush t = true ∧ i ∈ ((cfg3.win 7).blk t).view.set := by
  have hi0 : (i 0).val < 200000 := idx2_lt0 i
  have hi1 : (i 1).val < 128 := idx2_lt1 i
  have hN : cfg3.N = 50 := N_3
  refine ⟨⟨(i 0).val / 4000, by rw [hN]; omega⟩, flush3_7 _, ?_⟩
  rw [mem_blk3_7]
  obtain ⟨h0, h1⟩ := (idx3_row (⟨(i 0).val / 4000, by rw [hN]; omega⟩ : Fin cfg3.N)).2.2.2.2.2.1
  intro a
  match a with
  | ⟨0, _⟩ => show win3_7.index _ (0 : Fin 2) * 4000 ≤ (i 0).val ∧ (i 0).val < win3_7.index _ (0 : Fin 2) * 4000 + 4000; rw [h0]; show (i 0).val / 4000 * 4000 ≤ (i 0).val ∧ (i 0).val < (i 0).val / 4000 * 4000 + 4000; omega
  | ⟨1, _⟩ => show win3_7.index _ (1 : Fin 2) * 128 ≤ (i 1).val ∧ (i 1).val < win3_7.index _ (1 : Fin 2) * 128 + 128; rw [h1]; omega

/-- The array after the region: `G3_7` of the entry arrays, everywhere. -/
theorem final3_7 (c : Dev nD) : (dat3 (F := Ideal) V c).arrAt 7 cfg3.N = G3_7 V c :=
  (dat3 (F := Ideal) V c).arrAt_eq_of_cover 7 (G3_7 V c) (fun t _ => flushed3_7_eq V c t) (cover3_7)

/-! ## Output window 8 -/

/-- What window 8's array holds after the region, as one function of the entry arrays. -/
abbrev G3_8 (c : Dev nD) : S200000x128.Idx → EReal := Cert.KSpec.GedgeNum (ent3_0 V c) (ent3_1 V c) (ent3_2 V c) (ent3_3 V c) (ent3_4 V c) (ent3_5 V c)

/-- Row block `t` of window 8: its index at row `p`, column `q` is row `t * 4000 + p`, column `q` of the array. -/
theorem emb3_8 (t : Fin cfg3.N) (p : Fin 4000) (q : Fin 128) (r : Fin 200000) (hr : r.val = t.val * 4000 + p.val) :
    (((cfg3.win 8).blk t).view.emb (ix2 p q) : S200000x128.Idx) = ix2 r q := by
  obtain ⟨h0, h1⟩ := (idx3_row t).2.2.2.2.2.2
  refine funext fun a => Fin.ext ?_
  match a with
  | ⟨0, _⟩ => show win3_8.index t (0 : Fin 2) * 4000 + 1 * p.val = r.val; omega
  | ⟨1, _⟩ => show win3_8.index t (1 : Fin 2) * 128 + 1 * q.val = q.val; omega

/-- What point `t` writes back to window 8's array is block `t` of `G3_8`. -/
theorem flushed3_8_eq (c : Dev nD) (t : Fin cfg3.N) :
    (dat3 (F := Ideal) V c).flushed 8 t = ((cfg3.win 8).blk t).view.read (Elt Ideal) (G3_8 V c) := by
  show (cfg3.win 8).cut (grid3.coords t) ((dat3 (F := Ideal) V c).after 8 t) = _
  rw [after3_8]
  unfold out3_8
  rw [View.canon_unit_zero hz3]
  simp only [View.ld_unit_zero (S := S4000x128) hz3, View.ld_unit_zero (S := S128x128) hz3, View.ld_unit_zero (S := S1x128) hz3]
  funext y
  obtain ⟨p, q, rfl⟩ : ∃ (p : Fin 4000) (q : Fin 128), y = ix2 p q := ⟨y 0, y 1, eq_ix2 y⟩
  have ht : t.val < 50 := lt_of_lt_of_eq t.isLt N_3
  have hp : p.val < 4000 := p.isLt
  have hr : ((⟨t.val * 4000 + p.val, by omega⟩ : Fin 200000)).val = t.val * 4000 + p.val := rfl
  show k3_pay3 (iblk3 V c 2 t) (iblk3 V c 4 t) (iblk3 V c 5 t) (iblk3 V c 0 t) (iblk3 V c 1 t) (iblk3 V c 3 t) (ix2 p q) = G3_8 V c (((cfg3.win 8).blk t).view.emb (ix2 p q))
  rw [emb3_8 t p q _ hr]
  refine (pay3_3_apply (iblk3 V c 2 t) (iblk3 V c 4 t) (iblk3 V c 5 t) (iblk3 V c 0 t) (iblk3 V c 1 t) (iblk3 V c 3 t) p q).trans ?_
  exact congrArg₂ (· * ·) (congrArg Ideal.logistic (congrArg₂ (· + ·) (congrArg₂ (· + ·) (blk3_0_apply V c t p q _ hr) (blk3_1_apply V c t p q _ hr))
    (congrArg₂ (· + ·) (Finset.sum_congr rfl fun k _ => congrArg₂ (· * ·) (blk3_2_apply V c t p k _ hr) (blk3_4_apply V c t k q)) (blk3_5_apply V c t q)))) (blk3_3_apply V c t p q _ hr)

/-- An index of the array is in point `t`'s block iff each coordinate is in the block's range on its axis. -/
theorem mem_blk3_8 (t : Fin cfg3.N) (i : S200000x128.Idx) :
    i ∈ ((cfg3.win 8).blk t).view.set ↔ ∀ a : Fin 2, win3_8.index t a * S4000x128.size a ≤ (i a).val ∧ (i a).val < win3_8.index t a * S4000x128.size a + S4000x128.size a := by
  show i ∈ ((View.whole main_v66_2).slice (win3_8.rect t)).set ↔ _
  rw [View.set_slice_whole, Rect.mem_set_unit]
  exact Iff.rfl

/-- Every index is in the block of the point its row falls in: point `row / 4000`. -/
theorem cover3_8 (i : S200000x128.Idx) :
    ∃ t : Fin cfg3.N, (cfg3.win 8).flush t = true ∧ i ∈ ((cfg3.win 8).blk t).view.set := by
  have hi0 : (i 0).val < 200000 := idx2_lt0 i
  have hi1 : (i 1).val < 128 := idx2_lt1 i
  have hN : cfg3.N = 50 := N_3
  refine ⟨⟨(i 0).val / 4000, by rw [hN]; omega⟩, flush3_8 _, ?_⟩
  rw [mem_blk3_8]
  obtain ⟨h0, h1⟩ := (idx3_row (⟨(i 0).val / 4000, by rw [hN]; omega⟩ : Fin cfg3.N)).2.2.2.2.2.2
  intro a
  match a with
  | ⟨0, _⟩ => show win3_8.index _ (0 : Fin 2) * 4000 ≤ (i 0).val ∧ (i 0).val < win3_8.index _ (0 : Fin 2) * 4000 + 4000; rw [h0]; show (i 0).val / 4000 * 4000 ≤ (i 0).val ∧ (i 0).val < (i 0).val / 4000 * 4000 + 4000; omega
  | ⟨1, _⟩ => show win3_8.index _ (1 : Fin 2) * 128 ≤ (i 1).val ∧ (i 1).val < win3_8.index _ (1 : Fin 2) * 128 + 128; rw [h1]; omega

/-- The array after the region: `G3_8` of the entry arrays, everywhere. -/
theorem final3_8 (c : Dev nD) : (dat3 (F := Ideal) V c).arrAt 8 cfg3.N = G3_8 V c :=
  (dat3 (F := Ideal) V c).arrAt_eq_of_cover 8 (G3_8 V c) (fun t _ => flushed3_8_eq V c t) (cover3_8)

/-! ## The three output arrays after the region -/

/-- `e_new`, the whole array: the new edge feature of the entry arrays. -/
theorem arr3_6_eq (c : Dev nD) :
    (dat3 (F := Ideal) V c).arrAt 6 cfg3.N = Cert.KSpec.GedgeNew (V c (Pipeline.arrRef spec3 0)) (V c (Pipeline.arrRef spec3 1)) (V c (Pipeline.arrRef spec3 2)) (V c (Pipeline.arrRef spec3 4)) (V c (Pipeline.arrRef spec3 5)) :=
  final3_6 V c

/-- `sigma`, the whole array: the logistic of the new edge feature. -/
theorem arr3_7_eq (c : Dev nD) :
    (dat3 (F := Ideal) V c).arrAt 7 cfg3.N = Cert.KSpec.GedgeSig (V c (Pipeline.arrRef spec3 0)) (V c (Pipeline.arrRef spec3 1)) (V c (Pipeline.arrRef spec3 2)) (V c (Pipeline.arrRef spec3 4)) (V c (Pipeline.arrRef spec3 5)) :=
  final3_7 V c

/-- The gated message `sigma * vh`, the whole array. -/
theorem arr3_8_eq (c : Dev nD) :
    (dat3 (F := Ideal) V c).arrAt 8 cfg3.N = Cert.KSpec.GedgeNum (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  final3_8 V c

/-- `e_new` at row `r`, column `j`. -/
theorem arr3_6_apply (c : Dev nD) (r : Fin 200000) (j : Fin 128) :
    (dat3 (F := Ideal) V c).arrAt 6 cfg3.N (ix2 r j) = Cert.KSpec.edgeNewAt (V c (Pipeline.arrRef spec3 0)) (V c (Pipeline.arrRef spec3 1)) (V c (Pipeline.arrRef spec3 2)) (V c (Pipeline.arrRef spec3 4)) (V c (Pipeline.arrRef spec3 5)) r j :=
  congrFun (final3_6 V c) (ix2 r j)

/-- `sigma` at row `r`, column `j`. -/
theorem arr3_7_apply (c : Dev nD) (r : Fin 200000) (j : Fin 128) :
    (dat3 (F := Ideal) V c).arrAt 7 cfg3.N (ix2 r j) = Ideal.logistic (Cert.KSpec.edgeNewAt (V c (Pipeline.arrRef spec3 0)) (V c (Pipeline.arrRef spec3 1)) (V c (Pipeline.arrRef spec3 2)) (V c (Pipeline.arrRef spec3 4)) (V c (Pipeline.arrRef spec3 5)) r j) :=
  congrFun (final3_7 V c) (ix2 r j)

/-- The gated message at row `r`, column `j`. -/
theorem arr3_8_apply (c : Dev nD) (r : Fin 200000) (j : Fin 128) :
    (dat3 (F := Ideal) V c).arrAt 8 cfg3.N (ix2 r j) = Cert.KSpec.GedgeNum (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (ix2 r j) :=
  congrFun (final3_8 V c) (ix2 r j)

end Cert.KernelIdeal.Val

end
-- ==== Proof.Val4.lean ====
import proofs.«425355_j88287347737110_2_alg».proof.Proof.Reg4
import proofs.«425355_j88287347737110_2_alg».proof.Proof.KSpec
import Idealize.ShloMosaic.Lib.Pipeline.Value
import Idealize.ShloMosaic.Lib.ValueIdx
import Idealize.ShloMosaic.Lib.Tactic

/-! The node-update region (custom_call 4), read at the extended reals: after the region the output array holds,
    at every row `r` and column `j`, `uh r j + num r j / (den r j + eps)` of the three input arrays as the region
    finds them. Each grid point writes the row block it reads; the five blocks tile the 25000 rows. -/

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three input arrays as the region finds them, at their literal type: `uh`, the numerator, the denominator. -/
abbrev ent4_0 (c : Dev nD) : S25000x128.Idx → EReal := V c (Pipeline.arrRef spec4 0)
abbrev ent4_1 (c : Dev nD) : S25000x128.Idx → EReal := V c (Pipeline.arrRef spec4 1)
abbrev ent4_2 (c : Dev nD) : S25000x128.Idx → EReal := V c (Pipeline.arrRef spec4 2)

/-- The body's rectangles start at the origin of the staging buffer. -/
theorem origin4 : (![0, 0] : Fin 2 → Nat) = fun _ => 0 := funext fun a => by fin_cases a <;> rfl

/-- The node update of three whole arrays, entry by entry: `uh + num / (den + eps)`, the divisor's constant kept
    as the word the body holds. -/
abbrev nodeArr4 (uh num den : S25000x128.Idx → EReal) : S25000x128.Idx → EReal :=
  fun i => uh i + Ideal.div (num i) (den i + Ideal.ofBits .f32 0x358637BD#32)

/-- The body's payload is that update of its three loaded blocks, entry by entry. -/
theorem pay4_eq (x0 x1 x2 : Vec Ideal S5000x128 .f32) :
    k4_pay1 x0 x1 x2 = fun y => x0 y + Ideal.div (x1 y) (x2 y + Ideal.ofBits .f32 0x358637BD#32) := by
  unfold k4_pay1
  simp only [shapeCast_self]
  rfl

/-- So is what the body leaves in the output's staging buffer: its one store takes the whole buffer. -/
theorem out4_3_eq (x0 x1 x2 : Vec Ideal S5000x128 .f32) :
    out4_3 x0 x1 x2 = fun y => x0 y + Ideal.div (x1 y) (x2 y + Ideal.ofBits .f32 0x358637BD#32) := by
  unfold out4_3
  rw [View.canon_unit_zero origin4]
  simp only [View.ld_unit_zero (S := S5000x128) origin4]
  exact pay4_eq x0 x1 x2

/-- The printed index maps, decided over the grid: at point `t` every window is on row block `t`, column block 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- A block's entry is the array's entry at row `5000 t + y 0`, column `y 1`: the four windows' blocks at a
    point sit at the same place of their arrays. -/
theorem emb4_eq (t : Fin cfg4.N) (j : S5000x128.Idx) :
    ((cfg4.win 0).blk t).view.emb j = ((cfg4.win 3).blk t).view.emb j
    ∧ ((cfg4.win 1).blk t).view.emb j = ((cfg4.win 3).blk t).view.emb j
    ∧ ((cfg4.win 2).blk t).view.emb j = ((cfg4.win 3).blk t).view.emb j := by
  obtain ⟨e00, e01, e10, e11, e20, e21, e30, e31⟩ := idx_facts4 t
  refine ⟨?_, ?_, ?_⟩
  · funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * (j 1).val = win4_3.index t (1 : Fin 2) * 128 + 1 * (j 1).val; omega
  · funext a; apply Fin.ext
    match a with
    | ⟨0, _⟩ => show win4_1.index t (0 : Fin 2) * 5000 + 1 * (j 0).val = win4_3.index t (0 : Fin 2) * 5000 + 1 * (j 0).val; omega
    | ⟨1, _⟩ => show win4_1.index t (1 : Fin 2) * 128 + 1 * (j 1).val = win4_3.index t (1 : Fin 2) * 128 + 1 * (j 1).val; omega
  · funext a; apply Fin.ext
    match a with
    | ⟨0, _⟩ => show win4_2.index t (0 : Fin 2) * 5000 + 1 * (j 0).val = win4_3.index t (0 : Fin 2) * 5000 + 1 * (j 0).val; omega
    | ⟨1, _⟩ => show win4_2.index t (1 : Fin 2) * 128 + 1 * (j 1).val = win4_3.index t (1 : Fin 2) * 128 + 1 * (j 1).val; omega

/-- What point `t` writes back is block `t` of the node update of the three input arrays as the region finds them. -/
theorem flushed4_3_eq (c : Dev nD) (t : Fin cfg4.N) :
    (dat4 V c).flushed 3 t = ((cfg4.win 3).blk t).view.read (Elt Ideal)
      (nodeArr4 (ent4_0 V c) (ent4_1 V c) (ent4_2 V c)) := by
  show (cfg4.win 3).cut (grid4.coords t) ((dat4 V c).after 3 t) = _
  rw [after4_3]
  refine (congrArg ((cfg4.win 3).cut (grid4.coords t)) (out4_3_eq (iblk4 V c 0 t) (iblk4 V c 1 t) (iblk4 V c 2 t))).trans ?_
  funext j
  obtain ⟨h0, h1, h2⟩ := emb4_eq t j
  show ent4_0 V c (((cfg4.win 0).blk t).view.emb j)
      + Ideal.div (ent4_1 V c (((cfg4.win 1).blk t).view.emb j))
          (ent4_2 V c (((cfg4.win 2).blk t).view.emb j) + Ideal.ofBits .f32 0x358637BD#32)
    = ent4_0 V c (((cfg4.win 3).blk t).view.emb j)
      + Ideal.div (ent4_1 V c (((cfg4.win 3).blk t).view.emb j))
          (ent4_2 V c (((cfg4.win 3).blk t).view.emb j) + Ideal.ofBits .f32 0x358637BD#32)
  rw [h0, h1, h2]

/-- An index of the output array is in point `t`'s block iff each coordinate is in the block's range on its axis. -/
theorem mem_blk4_3 (t : Fin cfg4.N) (i : S25000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v79).slice (win4_3.rect t)).set ↔ _
  rw [View.set_slice_whole, Rect.mem_set_unit]
  exact Iff.rfl

/-- Every index of the output array is in some point's block: row `r` is in row block `r / 5000`. -/
theorem cover4_3_arr (i : S25000x128.Idx) :
    ∃ t : Fin cfg4.N, (cfg4.win 3).flush t = true ∧ i ∈ ((cfg4.win 3).blk t).view.set := by
  have hi0 : (i 0).val < 25000 := (i 0).isLt
  have hi1 : (i 1).val < 128 := (i 1).isLt
  have hN : cfg4.N = 5 := N_4
  obtain ⟨t, ht⟩ : ∃ t : Fin cfg4.N, t.val = (i 0).val / 5000 := ⟨⟨(i 0).val / 5000, by rw [hN]; omega⟩, rfl⟩
  obtain ⟨e00, e01, e10, e11, e20, e21, e30, e31⟩ := idx_facts4 t
  refine ⟨t, flush4_3 t, ?_⟩
  rw [mem_blk4_3]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The output array after the region is the node update of the three input arrays. -/
theorem arr4_3_node (c : Dev nD) :
    (dat4 V c).arrAt 3 cfg4.N = nodeArr4 (ent4_0 V c) (ent4_1 V c) (ent4_2 V c) :=
  (dat4 V c).arrAt_eq_of_cover 3 _ (fun t _ => flushed4_3_eq V c t) cover4_3_arr

/-- The output array after the region, index by index. -/
theorem arr4_3_apply (c : Dev nD) (r : Fin 25000) (j : Fin 128) :
    (dat4 (F := Ideal) V c).arrAt 3 cfg4.N (ValueIdx.ix2 r j)
      = ent4_0 V c (ValueIdx.ix2 r j)
        + Ideal.div (ent4_1 V c (ValueIdx.ix2 r j)) (ent4_2 V c (ValueIdx.ix2 r j) + Ideal.ofBits .f32 0x358637BD#32) :=
  congrFun (arr4_3_node V c) (ValueIdx.ix2 r j)

/-- The same as one whole-array function of the three input arrays. -/
theorem arr4_3_eq (c : Dev nD) :
    (dat4 (F := Ideal) V c).arrAt 3 cfg4.N
      = Cert.KSpec.Gnode (V c (Pipeline.arrRef spec4 0)) (V c (Pipeline.arrRef spec4 1)) (V c (Pipeline.arrRef spec4 2)) :=
  arr4_3_node V c

end Cert.KernelIdeal.Val
-- ==== Proof.Val5.lean ====
import proofs.«425355_j88287347737110_2_alg».proof.Proof.Reg5
import proofs.«425355_j88287347737110_2_alg».proof.Proof.KSpec
import Idealize.ShloMosaic.Lib.Pipeline.Value
import Idealize.ShloMosaic.Lib.ValueLayout
import Idealize.ShloMosaic.Lib.ValueIdx
import Idealize.ShloMosaic.PureOps.Ideal.Laws

/-! # Region 5 at the extended reals: the output array, index by index

After the region the output array holds, at row `r` and lane `j`,
`orig r j + max (((val r j - mean j) * rsqrt (var j + ε)) * scale j + shift j) 0`
of the six input arrays as the region finds them. The payload is read at one index, each input block is read
off its array, each point's written-back block is identified with that block of one function of the arrays,
and the blocks of 5000 rows tile the 25000 rows. -/

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The six input arrays as the region finds them, over the extended reals -/

/-- The value to normalise. -/
abbrev val5 (c : Dev nD) : S25000x128.Idx → EReal := V c (Pipeline.arrRef spec5 0)
/-- The residual. -/
abbrev orig5 (c : Dev nD) : S25000x128.Idx → EReal := V c (Pipeline.arrRef spec5 1)
/-- The mean row. -/
abbrev mean5 (c : Dev nD) : S1x128.Idx → EReal := V c (Pipeline.arrRef spec5 2)
/-- The variance row. -/
abbrev var5 (c : Dev nD) : S1x128.Idx → EReal := V c (Pipeline.arrRef spec5 3)
/-- The scale row. -/
abbrev scale5 (c : Dev nD) : S1x128.Idx → EReal := V c (Pipeline.arrRef spec5 4)
/-- The shift row. -/
abbrev shift5 (c : Dev nD) : S1x128.Idx → EReal := V c (Pipeline.arrRef spec5 5)

/-! ## The payload at one index -/

/-- The stored value at row `p`, lane `q` of the block: the residual plus the rectified, scaled and shifted
    normalisation of the value, the four rows read at lane `q`. -/
theorem pay5_apply (v0 : Vec Ideal S5000x128 .f32) (v2 v6 v13 v17 : Vec Ideal S1x128 .f32) (v21 : Vec Ideal S5000x128 .f32)
    (p : Fin 5000) (q : Fin 128) :
    k5_pay1 v0 v2 v6 v13 v17 v21 (ix2 p q) =
      v21 (ix2 p q) + max (((v0 (ix2 p q) - v2 (ix2 (0 : Fin 1) q)) * Ideal.rsqrt (v6 (ix2 (0 : Fin 1) q) + Ideal.ofBits .f32 0x3727C5AC#32))
        * v13 (ix2 (0 : Fin 1) q) + v17 (ix2 (0 : Fin 1) q)) 0 := by
  unfold k5_pay1
  simp only [shapeCast_self]
  rw [addf_apply, maximumf_apply, addf_apply, mulf_apply, mulf_apply, subf_apply, broadcast_apply]
  simp only [broadcastTo_1b_ab_apply]
  simp only [Ideal.ofBits_def, Ideal.ofBits_zero_f32]
  rfl

/-! ## The blocks, read off the arrays -/

theorem hz5 : (![0, 0] : Fin 2 → Nat) = fun _ => 0 := funext fun a => by fin_cases a <;> rfl

/-- The index maps, decided over the grid: the two streamed inputs and the output are at block row `t`, the four
    one-row inputs at block 0. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The array row of row `p` of block `t`. -/
def row5 (t : Fin cfg5.N) (p : Fin 5000) : Fin 25000 :=
  ⟨t.val * 5000 + p.val, by have ht : t.val < 5 := lt_of_lt_of_eq t.isLt N_5; have hp := p.isLt; omega⟩

/-- Window 0's block at point `t`, at row `p`, lane `q`: the array at row `t · 5000 + p`. -/
theorem blk5_0_apply (c : Dev nD) (t : Fin cfg5.N) (p : Fin 5000) (q : Fin 128) :
    (iblk5 V c 0 t : Vec Ideal S5000x128 .f32) (ix2 p q) = val5 V c (ix2 (row5 t p) q) := by
  obtain ⟨e00, e01, e10, e11, e20, e21, e30, e31, e40, e41, e50, e51, e60, e61⟩ := idx_facts5 t
  show val5 V c (((cfg5.win 0).blk t).view.emb (ix2 p q)) = _
  refine congrArg (val5 V c) ?_
  funext a; apply Fin.ext
  match a with
  | ⟨0, _⟩ => show win5_0.index t (0 : Fin 2) * 5000 + 1 * p.val = t.val * 5000 + p.val; omega
  | ⟨1, _⟩ => show win5_0.index t (1 : Fin 2) * 128 + 1 * q.val = q.val; omega

/-- Window 1's block at point `t`, at row `p`, lane `q`: the array at row `t · 5000 + p`. -/
theorem blk5_1_apply (c : Dev nD) (t : Fin cfg5.N) (p : Fin 5000) (q : Fin 128) :
    (iblk5 V c 1 t : Vec Ideal S5000x128 .f32) (ix2 p q) = orig5 V c (ix2 (row5 t p) q) := by
  obtain ⟨e00, e01, e10, e11, e20, e21, e30, e31, e40, e41, e50, e51, e60, e61⟩ := idx_facts5 t
  show orig5 V c (((cfg5.win 1).blk t).view.emb (ix2 p q)) = _
  refine congrArg (orig5 V c) ?_
  funext a; apply Fin.ext
  match a with
  | ⟨0, _⟩ => show win5_1.index t (0 : Fin 2) * 5000 + 1 * p.val = t.val * 5000 + p.val; omega
  | ⟨1, _⟩ => show win5_1.index t (1 : Fin 2) * 128 + 1 * q.val = q.val; omega

/-- Window 2's block at any point is the whole one-row array. -/
theorem blk5_2_apply (c : Dev nD) (t : Fin cfg5.N) (q : Fin 128) :
    (iblk5 V c 2 t : Vec Ideal S1x128 .f32) (ix2 (0 : Fin 1) q) = mean5 V c (ix2 (0 : Fin 1) q) := by
  obtain ⟨e00, e01, e10, e11, e20, e21, e30, e31, e40, e41, e50, e51, e60, e61⟩ := idx_facts5 t
  show mean5 V c (((cfg5.win 2).blk t).view.emb (ix2 (0 : Fin 1) q)) = _
  refine congrArg (mean5 V c) ?_
  funext a; apply Fin.ext
  match a with
  | ⟨0, _⟩ => show win5_2.index t (0 : Fin 2) * 1 + 1 * 0 = 0; omega
  | ⟨1, _⟩ => show win5_2.index t (1 : Fin 2) * 128 + 1 * q.val = q.val; omega

/-- Window 3's block at any point is the whole one-row array. -/
theorem blk5_3_apply (c : Dev nD) (t : Fin cfg5.N) (q : Fin 128) :
    (iblk5 V c 3 t : Vec Ideal S1x128 .f32) (ix2 (0 : Fin 1) q) = var5 V c (ix2 (0 : Fin 1) q) := by
  obtain ⟨e00, e01, e10, e11, e20, e21, e30, e31, e40, e41, e50, e51, e60, e61⟩ := idx_facts5 t
  show var5 V c (((cfg5.win 3).blk t).view.emb (ix2 (0 : Fin 1) q)) = _
  refine congrArg (var5 V c) ?_
  funext a; apply Fin.ext
  match a with
  | ⟨0, _⟩ => show win5_3.index t (0 : Fin 2) * 1 + 1 * 0 = 0; omega
  | ⟨1, _⟩ => show win5_3.index t (1 : Fin 2) * 128 + 1 * q.val = q.val; omega

/-- Window 4's block at any point is the whole one-row array. -/
theorem blk5_4_apply (c : Dev nD) (t : Fin cfg5.N) (q : Fin 128) :
    (iblk5 V c 4 t : Vec Ideal S1x128 .f32) (ix2 (0 : Fin 1) q) = scale5 V c (ix2 (0 : Fin 1) q) := by
  obtain ⟨e00, e01, e10, e11, e20, e21, e30, e31, e40, e41, e50, e51, e60, e61⟩ := idx_facts5 t
  show scale5 V c (((cfg5.win 4).blk t).view.emb (ix2 (0 : Fin 1) q)) = _
  refine congrArg (scale5 V c) ?_
  funext a; apply Fin.ext
  match a with
  | ⟨0, _⟩ => show win5_4.index t (0 : Fin 2) * 1 + 1 * 0 = 0; omega
  | ⟨1, _⟩ => show win5_4.index t (1 : Fin 2) * 128 + 1 * q.val = q.val; omega

/-- Window 5's block at any point is the whole one-row array. -/
theorem blk5_5_apply (c : Dev nD) (t : Fin cfg5.N) (q : Fin 128) :
    (iblk5 V c 5 t : Vec Ideal S1x128 .f32) (ix2 (0 : Fin 1) q) = shift5 V c (ix2 (0 : Fin 1) q) := by
  obtain ⟨e00, e01, e10, e11, e20, e21, e30, e31, e40, e41, e50, e51, e60, e61⟩ := idx_facts5 t
  show shift5 V c (((cfg5.win 5).blk t).view.emb (ix2 (0 : Fin 1) q)) = _
  refine congrArg (shift5 V c) ?_
  funext a; apply Fin.ext
  match a with
  | ⟨0, _⟩ => show win5_5.index t (0 : Fin 2) * 1 + 1 * 0 = 0; omega
  | ⟨1, _⟩ => show win5_5.index t (1 : Fin 2) * 128 + 1 * q.val = q.val; omega

/-- The output window's block at point `t` sits at the same rows of its array. -/
theorem emb5_6 (t : Fin cfg5.N) (p : Fin 5000) (q : Fin 128) :
    ((cfg5.win 6).blk t).view.emb (ix2 p q) = (ix2 (row5 t p) q : S25000x128.Idx) := by
  obtain ⟨e00, e01, e10, e11, e20, e21, e30, e31, e40, e41, e50, e51, e60, e61⟩ := idx_facts5 t
  funext a; apply Fin.ext
  match a with
  | ⟨0, _⟩ => show win5_6.index t (0 : Fin 2) * 5000 + 1 * p.val = t.val * 5000 + p.val; omega
  | ⟨1, _⟩ => show win5_6.index t (1 : Fin 2) * 128 + 1 * q.val = q.val; omega

/-! ## From the blocks to the array -/

/-- What point `t` writes back is block `t` of the specification's array function of the six arrays. -/
theorem flushed5_6_eq (c : Dev nD) (t : Fin cfg5.N) :
    (dat5 (F := Ideal) V c).flushed 6 t = ((cfg5.win 6).blk t).view.read (Elt Ideal)
      (Cert.KSpec.GbnN (val5 V c) (orig5 V c) (mean5 V c) (var5 V c) (scale5 V c) (shift5 V c)) := by
  show (cfg5.win 6).cut (grid5.coords t) ((dat5 V c).after 6 t) = _
  rw [after5_6]
  unfold out5_6
  rw [View.canon_unit_zero hz5]
  simp only [View.ld_unit_zero (S := S5000x128) hz5, View.ld_unit_zero (S := S1x128) hz5]
  funext y
  obtain ⟨p, q, rfl⟩ : ∃ (p : Fin 5000) (q : Fin 128), y = ix2 p q := ⟨y 0, y 1, eq_ix2 y⟩
  show k5_pay1 (iblk5 V c 0 t) (iblk5 V c 2 t) (iblk5 V c 3 t) (iblk5 V c 4 t) (iblk5 V c 5 t) (iblk5 V c 1 t) (ix2 p q)
    = Cert.KSpec.GbnN (val5 V c) (orig5 V c) (mean5 V c) (var5 V c) (scale5 V c) (shift5 V c) (((cfg5.win 6).blk t).view.emb (ix2 p q))
  refine (pay5_apply (iblk5 V c 0 t) (iblk5 V c 2 t) (iblk5 V c 3 t) (iblk5 V c 4 t) (iblk5 V c 5 t) (iblk5 V c 1 t) p q).trans ?_
  rw [blk5_0_apply, blk5_1_apply, blk5_2_apply, blk5_3_apply, blk5_4_apply, blk5_5_apply, emb5_6]
  rfl

/-- An index of the array is in point `t`'s block iff each coordinate is in the block's range on its axis. -/
theorem mem_blk5_6 (t : Fin cfg5.N) (i : S25000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole (Pipeline.arrRef spec5 6)).slice (win5_6.rect t)).set ↔ _
  rw [View.set_slice_whole, Rect.mem_set_unit]
  exact Iff.rfl

/-- Every index of the array is in some point's block: row `r` is in block `r / 5000`. -/
theorem cover5_6_arr (i : S25000x128.Idx) : ∃ t : Fin cfg5.N, (cfg5.win 6).flush t = true ∧ i ∈ ((cfg5.win 6).blk t).view.set := by
  have hi0 : (i 0).val < 25000 := (i 0).isLt
  have hi1 : (i 1).val < 128 := (i 1).isLt
  have hlt : (i 0).val / 5000 < 5 := by omega
  refine ⟨⟨(i 0).val / 5000, lt_of_lt_of_eq hlt N_5.symm⟩, flush5_6 _, ?_⟩
  rw [mem_blk5_6]
  obtain ⟨e00, e01, e10, e11, e20, e21, e30, e31, e40, e41, e50, e51, e60, e61⟩ := idx_facts5 ⟨(i 0).val / 5000, lt_of_lt_of_eq hlt N_5.symm⟩
  intro a
  match a with
  | ⟨0, _⟩ => show win5_6.index _ (0 : Fin 2) * 5000 ≤ (i 0).val ∧ (i 0).val < win5_6.index _ (0 : Fin 2) * 5000 + 5000; rw [e60]; show (i 0).val / 5000 * 5000 ≤ _ ∧ _ < (i 0).val / 5000 * 5000 + 5000; omega
  | ⟨1, _⟩ => show win5_6.index _ (1 : Fin 2) * 128 ≤ (i 1).val ∧ (i 1).val < win5_6.index _ (1 : Fin 2) * 128 + 128; rw [e61]; omega

/-- The output array after the region is the specification's array function of the six arrays as the region
    finds them. -/
theorem arr5_6_eq (c : Dev nD) : (dat5 (F := Ideal) V c).arrAt 6 cfg5.N =
    Cert.KSpec.GbnN (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 (F := Ideal) V c).arrAt_eq_of_cover 6 (Cert.KSpec.GbnN (val5 V c) (orig5 V c) (mean5 V c) (var5 V c) (scale5 V c) (shift5 V c)) (fun t _ => flushed5_6_eq V c t) cover5_6_arr

/-- The output array after the region, index by index. -/
theorem arr5_6_apply (c : Dev nD) (r : Fin 25000) (j : Fin 128) :
    ((dat5 (F := Ideal) V c).arrAt 6 cfg5.N : S25000x128.Idx → EReal) (ix2 r j) =
      orig5 V c (ix2 r j)
        + max (((val5 V c (ix2 r j) - mean5 V c (ix2 (0 : Fin 1) j))
              * Ideal.rsqrt (var5 V c (ix2 (0 : Fin 1) j) + Ideal.ofBits .f32 0x3727C5AC#32))
              * scale5 V c (ix2 (0 : Fin 1) j) + shift5 V c (ix2 (0 : Fin 1) j)) 0 := by
  rw [arr5_6_eq]
  rfl

end Cert.KernelIdeal.Val
-- ==== Proof.Val6.lean ====
import proofs.«425355_j88287347737110_2_alg».proof.Proof.Reg6
import proofs.«425355_j88287347737110_2_alg».proof.Proof.KSpec
import Idealize.ShloMosaic.Lib.Pipeline.Value
import Idealize.ShloMosaic.Lib.ValueLayout
import Idealize.ShloMosaic.Lib.ValueIdx
import Idealize.ShloMosaic.PureOps.Ideal.Laws

/-! # Region 6 at the extended reals: the output array, index by index

After the region the output array holds, at row `r` and lane `j`,
`orig r j + max (((val r j - mean j) * rsqrt (var j + ε)) * scale j + shift j) 0`
of the six input arrays as the region finds them. The payload is read at one index, each input block is read
off its array, each point's written-back block is identified with that block of one function of the arrays,
and the blocks of 4000 rows tile the 200000 rows. -/

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The six input arrays as the region finds them, over the extended reals -/

/-- The value to normalise. -/
abbrev val6 (c : Dev nD) : S200000x128.Idx → EReal := V c (Pipeline.arrRef spec6 0)
/-- The residual. -/
abbrev orig6 (c : Dev nD) : S200000x128.Idx → EReal := V c (Pipeline.arrRef spec6 1)
/-- The mean row. -/
abbrev mean6 (c : Dev nD) : S1x128.Idx → EReal := V c (Pipeline.arrRef spec6 2)
/-- The variance row. -/
abbrev var6 (c : Dev nD) : S1x128.Idx → EReal := V c (Pipeline.arrRef spec6 3)
/-- The scale row. -/
abbrev scale6 (c : Dev nD) : S1x128.Idx → EReal := V c (Pipeline.arrRef spec6 4)
/-- The shift row. -/
abbrev shift6 (c : Dev nD) : S1x128.Idx → EReal := V c (Pipeline.arrRef spec6 5)

/-! ## The payload at one index -/

/-- The stored value at row `p`, lane `q` of the block: the residual plus the rectified, scaled and shifted
    normalisation of the value, the four rows read at lane `q`. -/
theorem pay6_apply (v0 : Vec Ideal S4000x128 .f32) (v2 v6 v13 v17 : Vec Ideal S1x128 .f32) (v21 : Vec Ideal S4000x128 .f32)
    (p : Fin 4000) (q : Fin 128) :
    k6_pay1 v0 v2 v6 v13 v17 v21 (ix2 p q) =
      v21 (ix2 p q) + max (((v0 (ix2 p q) - v2 (ix2 (0 : Fin 1) q)) * Ideal.rsqrt (v6 (ix2 (0 : Fin 1) q) + Ideal.ofBits .f32 0x3727C5AC#32))
        * v13 (ix2 (0 : Fin 1) q) + v17 (ix2 (0 : Fin 1) q)) 0 := by
  unfold k6_pay1
  simp only [shapeCast_self]
  rw [addf_apply, maximumf_apply, addf_apply, mulf_apply, mulf_apply, subf_apply, broadcast_apply]
  simp only [broadcastTo_1b_ab_apply]
  simp only [Ideal.ofBits_def, Ideal.ofBits_zero_f32]
  rfl

/-! ## The blocks, read off the arrays -/

theorem hz6 : (![0, 0] : Fin 2 → Nat) = fun _ => 0 := funext fun a => by fin_cases a <;> rfl

/-- The index maps, decided over the grid: the two streamed inputs and the output are at block row `t`, the four
    one-row inputs at block 0. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- The array row of row `p` of block `t`. -/
def row6 (t : Fin cfg6.N) (p : Fin 4000) : Fin 200000 :=
  ⟨t.val * 4000 + p.val, by have ht : t.val < 50 := lt_of_lt_of_eq t.isLt N_6; have hp := p.isLt; omega⟩

/-- Window 0's block at point `t`, at row `p`, lane `q`: the array at row `t · 4000 + p`. -/
theorem blk6_0_apply (c : Dev nD) (t : Fin cfg6.N) (p : Fin 4000) (q : Fin 128) :
    (iblk6 V c 0 t : Vec Ideal S4000x128 .f32) (ix2 p q) = val6 V c (ix2 (row6 t p) q) := by
  obtain ⟨e00, e01, e10, e11, e20, e21, e30, e31, e40, e41, e50, e51, e60, e61⟩ := idx_facts6 t
  show val6 V c (((cfg6.win 0).blk t).view.emb (ix2 p q)) = _
  refine congrArg (val6 V c) ?_
  funext a; apply Fin.ext
  match a with
  | ⟨0, _⟩ => show win6_0.index t (0 : Fin 2) * 4000 + 1 * p.val = t.val * 4000 + p.val; omega
  | ⟨1, _⟩ => show win6_0.index t (1 : Fin 2) * 128 + 1 * q.val = q.val; omega

/-- Window 1's block at point `t`, at row `p`, lane `q`: the array at row `t · 4000 + p`. -/
theorem blk6_1_apply (c : Dev nD) (t : Fin cfg6.N) (p : Fin 4000) (q : Fin 128) :
    (iblk6 V c 1 t : Vec Ideal S4000x128 .f32) (ix2 p q) = orig6 V c (ix2 (row6 t p) q) := by
  obtain ⟨e00, e01, e10, e11, e20, e21, e30, e31, e40, e41, e50, e51, e60, e61⟩ := idx_facts6 t
  show orig6 V c (((cfg6.win 1).blk t).view.emb (ix2 p q)) = _
  refine congrArg (orig6 V c) ?_
  funext a; apply Fin.ext
  match a with
  | ⟨0, _⟩ => show win6_1.index t (0 : Fin 2) * 4000 + 1 * p.val = t.val * 4000 + p.val; omega
  | ⟨1, _⟩ => show win6_1.index t (1 : Fin 2) * 128 + 1 * q.val = q.val; omega

/-- Window 2's block at any point is the whole one-row array. -/
theorem blk6_2_apply (c : Dev nD) (t : Fin cfg6.N) (q : Fin 128) :
    (iblk6 V c 2 t : Vec Ideal S1x128 .f32) (ix2 (0 : Fin 1) q) = mean6 V c (ix2 (0 : Fin 1) q) := by
  obtain ⟨e00, e01, e10, e11, e20, e21, e30, e31, e40, e41, e50, e51, e60, e61⟩ := idx_facts6 t
  show mean6 V c (((cfg6.win 2).blk t).view.emb (ix2 (0 : Fin 1) q)) = _
  refine congrArg (mean6 V c) ?_
  funext a; apply Fin.ext
  match a with
  | ⟨0, _⟩ => show win6_2.index t (0 : Fin 2) * 1 + 1 * 0 = 0; omega
  | ⟨1, _⟩ => show win6_2.index t (1 : Fin 2) * 128 + 1 * q.val = q.val; omega

/-- Window 3's block at any point is the whole one-row array. -/
theorem blk6_3_apply (c : Dev nD) (t : Fin cfg6.N) (q : Fin 128) :
    (iblk6 V c 3 t : Vec Ideal S1x128 .f32) (ix2 (0 : Fin 1) q) = var6 V c (ix2 (0 : Fin 1) q) := by
  obtain ⟨e00, e01, e10, e11, e20, e21, e30, e31, e40, e41, e50, e51, e60, e61⟩ := idx_facts6 t
  show var6 V c (((cfg6.win 3).blk t).view.emb (ix2 (0 : Fin 1) q)) = _
  refine congrArg (var6 V c) ?_
  funext a; apply Fin.ext
  match a with
  | ⟨0, _⟩ => show win6_3.index t (0 : Fin 2) * 1 + 1 * 0 = 0; omega
  | ⟨1, _⟩ => show win6_3.index t (1 : Fin 2) * 128 + 1 * q.val = q.val; omega

/-- Window 4's block at any point is the whole one-row array. -/
theorem blk6_4_apply (c : Dev nD) (t : Fin cfg6.N) (q : Fin 128) :
    (iblk6 V c 4 t : Vec Ideal S1x128 .f32) (ix2 (0 : Fin 1) q) = scale6 V c (ix2 (0 : Fin 1) q) := by
  obtain ⟨e00, e01, e10, e11, e20, e21, e30, e31, e40, e41, e50, e51, e60, e61⟩ := idx_facts6 t
  show scale6 V c (((cfg6.win 4).blk t).view.emb (ix2 (0 : Fin 1) q)) = _
  refine congrArg (scale6 V c) ?_
  funext a; apply Fin.ext
  match a with
  | ⟨0, _⟩ => show win6_4.index t (0 : Fin 2) * 1 + 1 * 0 = 0; omega
  | ⟨1, _⟩ => show win6_4.index t (1 : Fin 2) * 128 + 1 * q.val = q.val; omega

/-- Window 5's block at any point is the whole one-row array. -/
theorem blk6_5_apply (c : Dev nD) (t : Fin cfg6.N) (q : Fin 128) :
    (iblk6 V c 5 t : Vec Ideal S1x128 .f32) (ix2 (0 : Fin 1) q) = shift6 V c (ix2 (0 : Fin 1) q) := by
  obtain ⟨e00, e01, e10, e11, e20, e21, e30, e31, e40, e41, e50, e51, e60, e61⟩ := idx_facts6 t
  show shift6 V c (((cfg6.win 5).blk t).view.emb (ix2 (0 : Fin 1) q)) = _
  refine congrArg (shift6 V c) ?_
  funext a; apply Fin.ext
  match a with
  | ⟨0, _⟩ => show win6_5.index t (0 : Fin 2) * 1 + 1 * 0 = 0; omega
  | ⟨1, _⟩ => show win6_5.index t (1 : Fin 2) * 128 + 1 * q.val = q.val; omega

/-- The output window's block at point `t` sits at the same rows of its array. -/
theorem emb6_6 (t : Fin cfg6.N) (p : Fin 4000) (q : Fin 128) :
    ((cfg6.win 6).blk t).view.emb (ix2 p q) = (ix2 (row6 t p) q : S200000x128.Idx) := by
  obtain ⟨e00, e01, e10, e11, e20, e21, e30, e31, e40, e41, e50, e51, e60, e61⟩ := idx_facts6 t
  funext a; apply Fin.ext
  match a with
  | ⟨0, _⟩ => show win6_6.index t (0 : Fin 2) * 4000 + 1 * p.val = t.val * 4000 + p.val; omega
  | ⟨1, _⟩ => show win6_6.index t (1 : Fin 2) * 128 + 1 * q.val = q.val; omega

/-! ## From the blocks to the array -/

/-- What point `t` writes back is block `t` of the specification's array function of the six arrays. -/
theorem flushed6_6_eq (c : Dev nD) (t : Fin cfg6.N) :
    (dat6 (F := Ideal) V c).flushed 6 t = ((cfg6.win 6).blk t).view.read (Elt Ideal)
      (Cert.KSpec.GbnE (val6 V c) (orig6 V c) (mean6 V c) (var6 V c) (scale6 V c) (shift6 V c)) := by
  show (cfg6.win 6).cut (grid6.coords t) ((dat6 V c).after 6 t) = _
  rw [after6_6]
  unfold out6_6
  rw [View.canon_unit_zero hz6]
  simp only [View.ld_unit_zero (S := S4000x128) hz6, View.ld_unit_zero (S := S1x128) hz6]
  funext y
  obtain ⟨p, q, rfl⟩ : ∃ (p : Fin 4000) (q : Fin 128), y = ix2 p q := ⟨y 0, y 1, eq_ix2 y⟩
  show k6_pay1 (iblk6 V c 0 t) (iblk6 V c 2 t) (iblk6 V c 3 t) (iblk6 V c 4 t) (iblk6 V c 5 t) (iblk6 V c 1 t) (ix2 p q)
    = Cert.KSpec.GbnE (val6 V c) (orig6 V c) (mean6 V c) (var6 V c) (scale6 V c) (shift6 V c) (((cfg6.win 6).blk t).view.emb (ix2 p q))
  refine (pay6_apply (iblk6 V c 0 t) (iblk6 V c 2 t) (iblk6 V c 3 t) (iblk6 V c 4 t) (iblk6 V c 5 t) (iblk6 V c 1 t) p q).trans ?_
  rw [blk6_0_apply, blk6_1_apply, blk6_2_apply, blk6_3_apply, blk6_4_apply, blk6_5_apply, emb6_6]
  rfl

/-- An index of the array is in point `t`'s block iff each coordinate is in the block's range on its axis. -/
theorem mem_blk6_6 (t : Fin cfg6.N) (i : S200000x128.Idx) :
    i ∈ ((cfg6.win 6).blk t).view.set ↔ ∀ a : Fin 2, win6_6.index t a * S4000x128.size a ≤ (i a).val ∧ (i a).val < win6_6.index t a * S4000x128.size a + S4000x128.size a := by
  show i ∈ ((View.whole (Pipeline.arrRef spec6 6)).slice (win6_6.rect t)).set ↔ _
  rw [View.set_slice_whole, Rect.mem_set_unit]
  exact Iff.rfl

/-- Every index of the array is in some point's block: row `r` is in block `r / 4000`. -/
theorem cover6_6_arr (i : S200000x128.Idx) : ∃ t : Fin cfg6.N, (cfg6.win 6).flush t = true ∧ i ∈ ((cfg6.win 6).blk t).view.set := by
  have hi0 : (i 0).val < 200000 := (i 0).isLt
  have hi1 : (i 1).val < 128 := (i 1).isLt
  have hlt : (i 0).val / 4000 < 50 := by omega
  refine ⟨⟨(i 0).val / 4000, lt_of_lt_of_eq hlt N_6.symm⟩, flush6_6 _, ?_⟩
  rw [mem_blk6_6]
  obtain ⟨e00, e01, e10, e11, e20, e21, e30, e31, e40, e41, e50, e51, e60, e61⟩ := idx_facts6 ⟨(i 0).val / 4000, lt_of_lt_of_eq hlt N_6.symm⟩
  intro a
  match a with
  | ⟨0, _⟩ => show win6_6.index _ (0 : Fin 2) * 4000 ≤ (i 0).val ∧ (i 0).val < win6_6.index _ (0 : Fin 2) * 4000 + 4000; rw [e60]; show (i 0).val / 4000 * 4000 ≤ _ ∧ _ < (i 0).val / 4000 * 4000 + 4000; omega
  | ⟨1, _⟩ => show win6_6.index _ (1 : Fin 2) * 128 ≤ (i 1).val ∧ (i 1).val < win6_6.index _ (1 : Fin 2) * 128 + 128; rw [e61]; omega

/-- The output array after the region is the specification's array function of the six arrays as the region
    finds them. -/
theorem arr6_6_eq (c : Dev nD) : (dat6 (F := Ideal) V c).arrAt 6 cfg6.N =
    Cert.KSpec.GbnE (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) :=
  (dat6 (F := Ideal) V c).arrAt_eq_of_cover 6 (Cert.KSpec.GbnE (val6 V c) (orig6 V c) (mean6 V c) (var6 V c) (scale6 V c) (shift6 V c)) (fun t _ => flushed6_6_eq V c t) cover6_6_arr

/-- The output array after the region, index by index. -/
theorem arr6_6_apply (c : Dev nD) (r : Fin 200000) (j : Fin 128) :
    ((dat6 (F := Ideal) V c).arrAt 6 cfg6.N : S200000x128.Idx → EReal) (ix2 r j) =
      orig6 V c (ix2 r j)
        + max (((val6 V c (ix2 r j) - mean6 V c (ix2 (0 : Fin 1) j))
              * Ideal.rsqrt (var6 V c (ix2 (0 : Fin 1) j) + Ideal.ofBits .f32 0x3727C5AC#32))
              * scale6 V c (ix2 (0 : Fin 1) j) + shift6 V c (ix2 (0 : Fin 1) j)) 0 := by
  rw [arr6_6_eq]
  rfl

end Cert.KernelIdeal.Val
-- ==== Proof.KHostL1b.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the host steps between the node update and the node normalisation of the first layer
    leave in the arrays that later steps read: the column statistics of the node update and of the
    new edge features, and the statistics and the scale and shift parameters repeated four times
    and laid out as one row. Each statement holds for an arbitrary state of the arrays before the
    steps. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Each group of steps alone, from an arbitrary state of the arrays -/

section Groups

variable {F : FTy → Type} [FloatOps F] (W : Valuation τ sig (Elt F))

/-! ### The unpacked node update and its column means -/

theorem hostOps5_s0_v80 :
    after hostOps5 W (main_v80 : DevRef τ sig)
      = Cert.KSpec.unpackN (W (main_v79 : DevRef τ sig)) := by
  after_results_simp <;> rfl

theorem hostOps5_s0_v83 :
    after hostOps5 W (main_v83 : DevRef τ sig)
      = Cert.Spec.meanN (Cert.KSpec.unpackN (W (main_v79 : DevRef τ sig))) := by
  after_results_simp <;> rfl

theorem hostOps5_s0_c7 :
    after hostOps5 W (main_c_7 : DevRef τ sig)
      = constantI Cert.Spec.S_ 32 0#32 := by
  after_results_simp <;> rfl

theorem hostOps5_s0_keep {r : Ref sig .tc} (h : r ∉ GenP.hostOps5_W) :
    after hostOps5 W (Proc.devRef .tc r) = W (Proc.devRef .tc r) :=
  after_of_writes_sub hostOps5 _ GenP.hostOps5_writes h

/-! ### The column variances of the node update -/

theorem hostOps5_s1_v84 :
    after hostOps5_1 W (main_v84 : DevRef τ sig)
      = Cert.Spec.varN (W (main_v80 : DevRef τ sig)) (W (main_c_7 : DevRef τ sig)) := by
  after_results_simp
  all_goals (try simp only [TRef.ofBuf, TRef.toBuf, cast_eq])
  all_goals unfold Cert.Spec.varN
  all_goals with_reducible rfl

theorem hostOps5_s1_keep {r : Ref sig .tc} (h : r ∉ GenP.hostOps5_1_W) :
    after hostOps5_1 W (Proc.devRef .tc r) = W (Proc.devRef .tc r) :=
  after_of_writes_sub hostOps5_1 _ GenP.hostOps5_1_writes h

/-! ### The column means of the new edge features -/

theorem hostOps5_s2_v87 :
    after hostOps5_2 W (main_v87 : DevRef τ sig)
      = Cert.Spec.meanE (W (main_v67 : DevRef τ sig)) := by
  after_results_simp <;> rfl

theorem hostOps5_s2_c10 :
    after hostOps5_2 W (main_c_10 : DevRef τ sig)
      = constantI Cert.Spec.S_ 32 0#32 := by
  after_results_simp <;> rfl

theorem hostOps5_s2_keep {r : Ref sig .tc} (h : r ∉ GenP.hostOps5_2_W) :
    after hostOps5_2 W (Proc.devRef .tc r) = W (Proc.devRef .tc r) :=
  after_of_writes_sub hostOps5_2 _ GenP.hostOps5_2_writes h

/-! ### The column variances of the new edge features -/

theorem hostOps5_s3_v88 :
    after hostOps5_3 W (main_v88 : DevRef τ sig)
      = Cert.Spec.varE (W (main_v67 : DevRef τ sig)) (W (main_c_10 : DevRef τ sig)) := by
  after_results_simp
  all_goals (try simp only [TRef.ofBuf, TRef.toBuf, cast_eq])
  all_goals unfold Cert.Spec.varE
  all_goals with_reducible rfl

theorem hostOps5_s3_keep {r : Ref sig .tc} (h : r ∉ GenP.hostOps5_3_W) :
    after hostOps5_3 W (Proc.devRef .tc r) = W (Proc.devRef .tc r) :=
  after_of_writes_sub hostOps5_3 _ GenP.hostOps5_3_writes h

/-! ### The statistics and the parameters repeated four times; the node features packed -/

theorem hostOps5_s4_v121 :
    after hostOps5_4 W (main_v121 : DevRef τ sig)
      = Cert.KSpec.packN (W (main_v5 : DevRef τ sig)) := by
  after_results_simp <;> rfl

theorem hostOps5_s4_v122 :
    after hostOps5_4 W (main_v122 : DevRef τ sig)
      = Cert.KSpec.row128 (Cert.KSpec.tile4 (W (main_v83 : DevRef τ sig))) := by
  after_results_simp <;> rfl

theorem hostOps5_s4_v123 :
    after hostOps5_4 W (main_v123 : DevRef τ sig)
      = Cert.KSpec.row128 (Cert.KSpec.tile4 (W (main_v84 : DevRef τ sig))) := by
  after_results_simp <;> rfl

theorem hostOps5_s4_v124 :
    after hostOps5_4 W (main_v124 : DevRef τ sig)
      = Cert.KSpec.row128 (Cert.KSpec.tile4 (Cert.Spec.bSl 0 Cert.Spec.slices_b_0 (W (main_arg17 : DevRef τ sig)))) := by
  after_results_simp <;> rfl

theorem hostOps5_s4_v125 :
    after hostOps5_4 W (main_v125 : DevRef τ sig)
      = Cert.KSpec.row128 (Cert.KSpec.tile4 (Cert.Spec.bSl 0 Cert.Spec.slices_b_0 (W (main_arg18 : DevRef τ sig)))) := by
  after_results_simp <;> rfl

theorem hostOps5_s4_v107 :
    after hostOps5_4 W (main_v107 : DevRef τ sig)
      = Cert.KSpec.tile4 (W (main_v87 : DevRef τ sig)) := by
  after_results_simp <;> rfl

theorem hostOps5_s4_v110 :
    after hostOps5_4 W (main_v110 : DevRef τ sig)
      = Cert.KSpec.tile4 (W (main_v88 : DevRef τ sig)) := by
  after_results_simp <;> rfl

theorem hostOps5_s4_v115 :
    after hostOps5_4 W (main_v115 : DevRef τ sig)
      = Cert.KSpec.tile4 (Cert.Spec.bSl 0 Cert.Spec.slices_b_0 (W (main_arg19 : DevRef τ sig))) := by
  after_results_simp <;> rfl

theorem hostOps5_s4_v120 :
    after hostOps5_4 W (main_v120 : DevRef τ sig)
      = Cert.KSpec.tile4 (Cert.Spec.bSl 0 Cert.Spec.slices_b_0 (W (main_arg20 : DevRef τ sig))) := by
  after_results_simp <;> rfl

theorem hostOps5_s4_keep {r : Ref sig .tc} (h : r ∉ GenP.hostOps5_4_W) :
    after hostOps5_4 W (Proc.devRef .tc r) = W (Proc.devRef .tc r) :=
  after_of_writes_sub hostOps5_4 _ GenP.hostOps5_4_writes h

end Groups

/-! ## The five groups one after the other -/

theorem hostOps5_v121 :
    after (hostOps5_4 (F := Ideal)) (after (hostOps5_3 (F := Ideal)) (after (hostOps5_2 (F := Ideal)) (after (hostOps5_1 (F := Ideal)) (after (hostOps5 (F := Ideal)) V)))) (main_v121 : DevRef τ sig)
      = Cert.KSpec.packN (V (main_v5 : DevRef τ sig)) := by
  rw [hostOps5_s4_v121,
    hostOps5_s3_keep _ (r := main_v5) (by decide),
    hostOps5_s2_keep _ (r := main_v5) (by decide),
    hostOps5_s1_keep _ (r := main_v5) (by decide),
    hostOps5_s0_keep _ (r := main_v5) (by decide)]

theorem hostOps5_v122 :
    after (hostOps5_4 (F := Ideal)) (after (hostOps5_3 (F := Ideal)) (after (hostOps5_2 (F := Ideal)) (after (hostOps5_1 (F := Ideal)) (after (hostOps5 (F := Ideal)) V)))) (main_v122 : DevRef τ sig)
      = Cert.KSpec.row128 (Cert.KSpec.tile4 (Cert.Spec.meanN (Cert.KSpec.unpackN (V (main_v79 : DevRef τ sig))))) := by
  rw [hostOps5_s4_v122,
    hostOps5_s3_keep _ (r := main_v83) (by decide),
    hostOps5_s2_keep _ (r := main_v83) (by decide),
    hostOps5_s1_keep _ (r := main_v83) (by decide),
    hostOps5_s0_v83]

theorem hostOps5_v123 :
    after (hostOps5_4 (F := Ideal)) (after (hostOps5_3 (F := Ideal)) (after (hostOps5_2 (F := Ideal)) (after (hostOps5_1 (F := Ideal)) (after (hostOps5 (F := Ideal)) V)))) (main_v123 : DevRef τ sig)
      = Cert.KSpec.row128 (Cert.KSpec.tile4 (Cert.Spec.varN (Cert.KSpec.unpackN (V (main_v79 : DevRef τ sig))) (constantI Cert.Spec.S_ 32 0#32))) := by
  rw [hostOps5_s4_v123,
    hostOps5_s3_keep _ (r := main_v84) (by decide),
    hostOps5_s2_keep _ (r := main_v84) (by decide),
    hostOps5_s1_v84,
    hostOps5_s0_v80,
    hostOps5_s0_c7]

theorem hostOps5_v124 :
    after (hostOps5_4 (F := Ideal)) (after (hostOps5_3 (F := Ideal)) (after (hostOps5_2 (F := Ideal)) (after (hostOps5_1 (F := Ideal)) (after (hostOps5 (F := Ideal)) V)))) (main_v124 : DevRef τ sig)
      = Cert.KSpec.row128 (Cert.KSpec.tile4 (Cert.Spec.bSl 0 Cert.Spec.slices_b_0 (V (main_arg17 : DevRef τ sig)))) := by
  rw [hostOps5_s4_v124,
    hostOps5_s3_keep _ (r := main_arg17) (by decide),
    hostOps5_s2_keep _ (r := main_arg17) (by decide),
    hostOps5_s1_keep _ (r := main_arg17) (by decide),
    hostOps5_s0_keep _ (r := main_arg17) (by decide)]

theorem hostOps5_v125 :
    after (hostOps5_4 (F := Ideal)) (after (hostOps5_3 (F := Ideal)) (after (hostOps5_2 (F := Ideal)) (after (hostOps5_1 (F := Ideal)) (after (hostOps5 (F := Ideal)) V)))) (main_v125 : DevRef τ sig)
      = Cert.KSpec.row128 (Cert.KSpec.tile4 (Cert.Spec.bSl 0 Cert.Spec.slices_b_0 (V (main_arg18 : DevRef τ sig)))) := by
  rw [hostOps5_s4_v125,
    hostOps5_s3_keep _ (r := main_arg18) (by decide),
    hostOps5_s2_keep _ (r := main_arg18) (by decide),
    hostOps5_s1_keep _ (r := main_arg18) (by decide),
    hostOps5_s0_keep _ (r := main_arg18) (by decide)]

theorem hostOps5_v107 :
    after (hostOps5_4 (F := Ideal)) (after (hostOps5_3 (F := Ideal)) (after (hostOps5_2 (F := Ideal)) (after (hostOps5_1 (F := Ideal)) (after (hostOps5 (F := Ideal)) V)))) (main_v107 : DevRef τ sig)
      = Cert.KSpec.tile4 (Cert.Spec.meanE (V (main_v67 : DevRef τ sig))) := by
  rw [hostOps5_s4_v107,
    hostOps5_s3_keep _ (r := main_v87) (by decide),
    hostOps5_s2_v87,
    hostOps5_s1_keep _ (r := main_v67) (by decide),
    hostOps5_s0_keep _ (r := main_v67) (by decide)]

theorem hostOps5_v110 :
    after (hostOps5_4 (F := Ideal)) (after (hostOps5_3 (F := Ideal)) (after (hostOps5_2 (F := Ideal)) (after (hostOps5_1 (F := Ideal)) (after (hostOps5 (F := Ideal)) V)))) (main_v110 : DevRef τ sig)
      = Cert.KSpec.tile4 (Cert.Spec.varE (V (main_v67 : DevRef τ sig)) (constantI Cert.Spec.S_ 32 0#32)) := by
  rw [hostOps5_s4_v110,
    hostOps5_s3_v88,
    hostOps5_s2_keep _ (r := main_v67) (by decide),
    hostOps5_s1_keep _ (r := main_v67) (by decide),
    hostOps5_s0_keep _ (r := main_v67) (by decide),
    hostOps5_s2_c10]

theorem hostOps5_v115 :
    after (hostOps5_4 (F := Ideal)) (after (hostOps5_3 (F := Ideal)) (after (hostOps5_2 (F := Ideal)) (after (hostOps5_1 (F := Ideal)) (after (hostOps5 (F := Ideal)) V)))) (main_v115 : DevRef τ sig)
      = Cert.KSpec.tile4 (Cert.Spec.bSl 0 Cert.Spec.slices_b_0 (V (main_arg19 : DevRef τ sig))) := by
  rw [hostOps5_s4_v115,
    hostOps5_s3_keep _ (r := main_arg19) (by decide),
    hostOps5_s2_keep _ (r := main_arg19) (by decide),
    hostOps5_s1_keep _ (r := main_arg19) (by decide),
    hostOps5_s0_keep _ (r := main_arg19) (by decide)]

theorem hostOps5_v120 :
    after (hostOps5_4 (F := Ideal)) (after (hostOps5_3 (F := Ideal)) (after (hostOps5_2 (F := Ideal)) (after (hostOps5_1 (F := Ideal)) (after (hostOps5 (F := Ideal)) V)))) (main_v120 : DevRef τ sig)
      = Cert.KSpec.tile4 (Cert.Spec.bSl 0 Cert.Spec.slices_b_0 (V (main_arg20 : DevRef τ sig))) := by
  rw [hostOps5_s4_v120,
    hostOps5_s3_keep _ (r := main_arg20) (by decide),
    hostOps5_s2_keep _ (r := main_arg20) (by decide),
    hostOps5_s1_keep _ (r := main_arg20) (by decide),
    hostOps5_s0_keep _ (r := main_arg20) (by decide)]

/-- An array that none of the five groups writes stays as it was. -/
theorem hostOps5_keep {r : Ref sig .tc} (h0 : r ∉ GenP.hostOps5_W) (h1 : r ∉ GenP.hostOps5_1_W) (h2 : r ∉ GenP.hostOps5_2_W)
    (h3 : r ∉ GenP.hostOps5_3_W) (h4 : r ∉ GenP.hostOps5_4_W) :
    after (hostOps5_4 (F := Ideal)) (after (hostOps5_3 (F := Ideal)) (after (hostOps5_2 (F := Ideal)) (after (hostOps5_1 (F := Ideal)) (after (hostOps5 (F := Ideal)) V)))) (Proc.devRef .tc r) = V (Proc.devRef .tc r) := by
  rw [hostOps5_s4_keep _ h4, hostOps5_s3_keep _ h3, hostOps5_s2_keep _ h2, hostOps5_s1_keep _ h1, hostOps5_s0_keep _ h0]

/-- The same for the arrays that later steps read. -/
theorem hostOps5_keep_live {r : Ref sig .tc}
    (hr : r ∈ ([main_v1, main_v3, main_v5, main_v7, main_v66_0, main_v79, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps5_4 (F := Ideal)) (after (hostOps5_3 (F := Ideal)) (after (hostOps5_2 (F := Ideal)) (after (hostOps5_1 (F := Ideal)) (after (hostOps5 (F := Ideal)) V)))) (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl
  all_goals exact hostOps5_keep V (by decide) (by decide) (by decide) (by decide) (by decide)

end Cert.KernelIdeal.KHost
-- ==== Proof.KHostL1c.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the last two host steps of the first layer leave in the buffers later steps read: the
    unpacked node output and the packed operands of the edge normalisation, then the unpacked edge
    output and the next layer's concatenated weight and bias, for an arbitrary starting state. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Between the node normalisation and the edge normalisation -/

theorem hostOps6_v127 :
    after (hostOps6 (F := Ideal)) V (main_v127 : DevRef τ sig)
      = Cert.KSpec.unpackN (V (main_v126 : DevRef τ sig)) := by
  after_results_simp
  rfl

theorem hostOps6_v128 :
    after (hostOps6 (F := Ideal)) V (main_v128 : DevRef τ sig)
      = Cert.KSpec.packE (V (main_v7 : DevRef τ sig)) := by
  after_results_simp
  rfl

theorem hostOps6_v129 :
    after (hostOps6 (F := Ideal)) V (main_v129 : DevRef τ sig)
      = Cert.KSpec.row128 (V (main_v107 : DevRef τ sig)) := by
  after_results_simp
  rfl

theorem hostOps6_v130 :
    after (hostOps6 (F := Ideal)) V (main_v130 : DevRef τ sig)
      = Cert.KSpec.row128 (V (main_v110 : DevRef τ sig)) := by
  after_results_simp
  rfl

theorem hostOps6_v131 :
    after (hostOps6 (F := Ideal)) V (main_v131 : DevRef τ sig)
      = Cert.KSpec.row128 (V (main_v115 : DevRef τ sig)) := by
  after_results_simp
  rfl

theorem hostOps6_v132 :
    after (hostOps6 (F := Ideal)) V (main_v132 : DevRef τ sig)
      = Cert.KSpec.row128 (V (main_v120 : DevRef τ sig)) := by
  after_results_simp
  rfl

/-- A buffer these steps do not write stays as it was. -/
theorem hostOps6_keep {r : Ref sig .tc} (h0 : r ∉ GenP.hostOps6_W) :
    after (hostOps6 (F := Ideal)) V (Proc.devRef .tc r) = V (Proc.devRef .tc r) := by
  rw [after_of_writes_sub hostOps6 _ GenP.hostOps6_writes h0]

/-- The same for the buffers read later. -/
theorem hostOps6_keep_live {r : Ref sig .tc}
    (hr : r ∈ ([main_v1, main_v3, main_v66_0, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps6 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl
  all_goals exact hostOps6_keep V (by decide)

/-! ## After the edge normalisation: the layer's edge output -/

theorem hostOps7_v134 :
    after (hostOps7 (F := Ideal)) V (main_v134 : DevRef τ sig)
      = Cert.KSpec.unpackE (V (main_v133 : DevRef τ sig)) := by
  after_results_simp
  rfl

/-- A buffer these steps do not write stays as it was. -/
theorem hostOps7_keep {r : Ref sig .tc} (h0 : r ∉ GenP.hostOps7_W) :
    after (hostOps7 (F := Ideal)) V (Proc.devRef .tc r) = V (Proc.devRef .tc r) := by
  rw [after_of_writes_sub hostOps7 _ GenP.hostOps7_writes h0]

/-- The same for the buffers read later. -/
theorem hostOps7_keep_live {r : Ref sig .tc}
    (hr : r ∈ ([main_v1, main_v3, main_v127, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps7 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl
  all_goals exact hostOps7_keep V (by decide)

/-! ## The next layer's concatenated weights -/

theorem hostOps7_v143 :
    after (hostOps7 (F := Ideal)) V (main_v143 : DevRef τ sig)
      = Cert.KSpec.wcat (Cert.Spec.wSl 1 Cert.Spec.slices_W_1 (V (main_arg7 : DevRef τ sig))) (Cert.Spec.wSl 1 Cert.Spec.slices_W_1 (V (main_arg9 : DevRef τ sig)))
          (Cert.Spec.wSl 1 Cert.Spec.slices_W_1 (V (main_arg15 : DevRef τ sig))) (Cert.Spec.wSl 1 Cert.Spec.slices_W_1 (V (main_arg13 : DevRef τ sig))) := by
  after_results_simp
  rfl

theorem hostOps7_v153 :
    after (hostOps7 (F := Ideal)) V (main_v153 : DevRef τ sig)
      = Cert.KSpec.bcat (Cert.Spec.bSl 1 Cert.Spec.slices_b_1 (V (main_arg8 : DevRef τ sig))) (Cert.Spec.bSl 1 Cert.Spec.slices_b_1 (V (main_arg10 : DevRef τ sig)))
          (Cert.Spec.bSl 1 Cert.Spec.slices_b_1 (V (main_arg16 : DevRef τ sig))) (Cert.Spec.bSl 1 Cert.Spec.slices_b_1 (V (main_arg14 : DevRef τ sig))) := by
  after_results_simp
  rfl

end Cert.KernelIdeal.KHost
-- ==== Proof.KReadL1.lean ====
import proofs.«425355_j88287347737110_2_alg».proof.Proof.KFold
import proofs.«425355_j88287347737110_2_alg».proof.Proof.Val2
import proofs.«425355_j88287347737110_2_alg».proof.Proof.Val3
import proofs.«425355_j88287347737110_2_alg».proof.Proof.Val4
import proofs.«425355_j88287347737110_2_alg».proof.Proof.Val5
import proofs.«425355_j88287347737110_2_alg».proof.Proof.Val6
import proofs.«425355_j88287347737110_2_alg».proof.Proof.KHostL1a
import proofs.«425355_j88287347737110_2_alg».proof.Proof.KHostL1b
import proofs.«425355_j88287347737110_2_alg».proof.Proof.KHostL1c
import proofs.«425355_j88287347737110_2_alg».proof.Proof.KWhole
import proofs.«425355_j88287347737110_2_alg».proof.Proof.KReadDefs
import Idealize.ShloMosaic.Lib.StableHlo.Run

/-! # Layer 1 of the kernel program, read

The layer runs from just after its projection weights have been laid side by side to just after the next layer's
have: the fused projection's region, the gathers and packings, the edge region, the segment sums, the node region, the
column statistics, the two normalise-and-add regions and the two unpackings. Given that at entry the two concatenated
parameter buffers hold the index-0 slices of the stacked parameters, the layer's two result buffers end holding the
two components of the kernel's arrangement of the layer at parameter index 0; the index vectors and the parameters are
as they were, and the two concatenated parameter buffers of the next layer hold its index-1 slices. One statement per
item, each about the buffers a later item reads, each in terms of the contents the layer starts from. -/

set_option maxRecDepth 16384

noncomputable section

namespace Cert.KernelIdeal.KRead

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (c : Dev nD)

/-! ## What the layer starts from -/

/-- The node features, the edge features, the sources and the targets. -/
abbrev k1_h : Cert.KSpec.R Cert.Spec.S100000x32 := Run.W5 m c (main_v5 : DevRef τ sig)
abbrev k1_e : Cert.KSpec.R Cert.Spec.S800000x32 := Run.W5 m c (main_v7 : DevRef τ sig)
abbrev k1_src : Cert.Spec.J Ideal Cert.Spec.S800000 := Run.W5 m c (main_v1 : DevRef τ sig)
abbrev k1_dst : Cert.Spec.J Ideal Cert.Spec.S800000 := Run.W5 m c (main_v3 : DevRef τ sig)

/-- The layer's parameters: index 0 of the stacked arrays. -/
abbrev k1_A : Cert.KSpec.R Cert.Spec.S32x32 := Cert.Spec.wSl 0 Cert.Spec.slices_W_0 (Run.W5 m c (main_arg7 : DevRef τ sig))
abbrev k1_bA : Cert.KSpec.R Cert.Spec.S32 := Cert.Spec.bSl 0 Cert.Spec.slices_b_0 (Run.W5 m c (main_arg8 : DevRef τ sig))
abbrev k1_B : Cert.KSpec.R Cert.Spec.S32x32 := Cert.Spec.wSl 0 Cert.Spec.slices_W_0 (Run.W5 m c (main_arg9 : DevRef τ sig))
abbrev k1_bB : Cert.KSpec.R Cert.Spec.S32 := Cert.Spec.bSl 0 Cert.Spec.slices_b_0 (Run.W5 m c (main_arg10 : DevRef τ sig))
abbrev k1_C : Cert.KSpec.R Cert.Spec.S32x32 := Cert.Spec.wSl 0 Cert.Spec.slices_W_0 (Run.W5 m c (main_arg11 : DevRef τ sig))
abbrev k1_bC : Cert.KSpec.R Cert.Spec.S32 := Cert.Spec.bSl 0 Cert.Spec.slices_b_0 (Run.W5 m c (main_arg12 : DevRef τ sig))
abbrev k1_U : Cert.KSpec.R Cert.Spec.S32x32 := Cert.Spec.wSl 0 Cert.Spec.slices_W_0 (Run.W5 m c (main_arg13 : DevRef τ sig))
abbrev k1_bU : Cert.KSpec.R Cert.Spec.S32 := Cert.Spec.bSl 0 Cert.Spec.slices_b_0 (Run.W5 m c (main_arg14 : DevRef τ sig))
abbrev k1_V : Cert.KSpec.R Cert.Spec.S32x32 := Cert.Spec.wSl 0 Cert.Spec.slices_W_0 (Run.W5 m c (main_arg15 : DevRef τ sig))
abbrev k1_bV : Cert.KSpec.R Cert.Spec.S32 := Cert.Spec.bSl 0 Cert.Spec.slices_b_0 (Run.W5 m c (main_arg16 : DevRef τ sig))
abbrev k1_gh : Cert.KSpec.R Cert.Spec.S32 := Cert.Spec.bSl 0 Cert.Spec.slices_b_0 (Run.W5 m c (main_arg17 : DevRef τ sig))
abbrev k1_bh : Cert.KSpec.R Cert.Spec.S32 := Cert.Spec.bSl 0 Cert.Spec.slices_b_0 (Run.W5 m c (main_arg18 : DevRef τ sig))
abbrev k1_ge : Cert.KSpec.R Cert.Spec.S32 := Cert.Spec.bSl 0 Cert.Spec.slices_b_0 (Run.W5 m c (main_arg19 : DevRef τ sig))
abbrev k1_be : Cert.KSpec.R Cert.Spec.S32 := Cert.Spec.bSl 0 Cert.Spec.slices_b_0 (Run.W5 m c (main_arg20 : DevRef τ sig))

/-- The fused projection, the three packed outputs of the edge region and the packed output of the node region,
    as functions of what the layer starts from. -/
abbrev k1_proj : Cert.KSpec.R Cert.KSpec.S100000x128 :=
  Cert.KSpec.kproj (k1_h m c) (k1_A m c) (k1_bA m c) (k1_B m c) (k1_bB m c) (k1_U m c) (k1_bU m c) (k1_V m c) (k1_bV m c)
abbrev k1_edgeNew : Cert.KSpec.R Cert.KSpec.S200000x128 :=
  Cert.KSpec.kedgeNewR (k1_proj m c) (k1_e m c) (k1_src m c) (k1_dst m c) (k1_C m c) (k1_bC m c)
abbrev k1_edgeSig : Cert.KSpec.R Cert.KSpec.S200000x128 :=
  Cert.KSpec.kedgeSigR (k1_proj m c) (k1_e m c) (k1_src m c) (k1_dst m c) (k1_C m c) (k1_bC m c)
abbrev k1_edgeNum : Cert.KSpec.R Cert.KSpec.S200000x128 :=
  Cert.KSpec.kedgeNumR (k1_proj m c) (k1_e m c) (k1_src m c) (k1_dst m c) (k1_C m c) (k1_bC m c)
abbrev k1_nodeNew : Cert.KSpec.R Cert.KSpec.S25000x128 :=
  Cert.KSpec.knodeNewR (k1_proj m c) (k1_e m c) (k1_src m c) (k1_dst m c) (k1_C m c) (k1_bC m c)

/-! ## What each item leaves unwritten -/

/-- The references written up to each boundary of the layer. -/
abbrev k1_L6 : List (Ref sig .tc) := [main_v27]
abbrev k1_L9 : List (Ref sig .tc) := hostOps3_2_W ++ (hostOps3_1_W ++ (hostOps3_W ++ k1_L6))
abbrev k1_L10 : List (Ref sig .tc) := main_v66_0 :: main_v66_1 :: main_v66_2 :: k1_L9
abbrev k1_L11 : List (Ref sig .tc) := hostOps4_W ++ k1_L10
abbrev k1_L12 : List (Ref sig .tc) := main_v79 :: k1_L11
abbrev k1_L17 : List (Ref sig .tc) :=
  hostOps5_4_W ++ (hostOps5_3_W ++ (hostOps5_2_W ++ (hostOps5_1_W ++ (hostOps5_W ++ k1_L12))))
abbrev k1_L18 : List (Ref sig .tc) := main_v126 :: k1_L17
abbrev k1_L19 : List (Ref sig .tc) := hostOps6_W ++ k1_L18
abbrev k1_L20 : List (Ref sig .tc) := main_v133 :: k1_L19
abbrev k1_L21 : List (Ref sig .tc) := hostOps7_W ++ k1_L20

/-- One host stretch or one group of stretches keeps what it does not write. -/
theorem k1_s9 (b : Ref sig .tc) (h3 : b ∉ hostOps3_W) (h31 : b ∉ hostOps3_1_W) (h32 : b ∉ hostOps3_2_W) :
    Run.W9 m c b = Run.W6 m c b :=
  (after_of_writes_sub (hostOps3_2 (F := Ideal)) _ hostOps3_2_writes h32).trans
    ((after_of_writes_sub (hostOps3_1 (F := Ideal)) _ hostOps3_1_writes h31).trans (after_of_writes_sub (hostOps3 (F := Ideal)) _ hostOps3_writes h3))
theorem k1_s11 (b : Ref sig .tc) (h : b ∉ hostOps4_W) : Run.W11 m c b = Run.W10 m c b :=
  after_of_writes_sub (hostOps4 (F := Ideal)) _ hostOps4_writes h
theorem k1_s17 (b : Ref sig .tc) (h5 : b ∉ hostOps5_W) (h51 : b ∉ hostOps5_1_W) (h52 : b ∉ hostOps5_2_W)
    (h53 : b ∉ hostOps5_3_W) (h54 : b ∉ hostOps5_4_W) : Run.W17 m c b = Run.W12 m c b :=
  (after_of_writes_sub (hostOps5_4 (F := Ideal)) _ hostOps5_4_writes h54).trans
    ((after_of_writes_sub (hostOps5_3 (F := Ideal)) _ hostOps5_3_writes h53).trans
      ((after_of_writes_sub (hostOps5_2 (F := Ideal)) _ hostOps5_2_writes h52).trans
        ((after_of_writes_sub (hostOps5_1 (F := Ideal)) _ hostOps5_1_writes h51).trans (after_of_writes_sub (hostOps5 (F := Ideal)) _ hostOps5_writes h5))))
theorem k1_s19 (b : Ref sig .tc) (h : b ∉ hostOps6_W) : Run.W19 m c b = Run.W18 m c b :=
  after_of_writes_sub (hostOps6 (F := Ideal)) _ hostOps6_writes h
theorem k1_s21 (b : Ref sig .tc) (h : b ∉ hostOps7_W) : Run.W21 m c b = Run.W20 m c b :=
  after_of_writes_sub (hostOps7 (F := Ideal)) _ hostOps7_writes h

/-- A reference not written up to a boundary holds there what the layer started from. -/
theorem k1_keep6 (b : Ref sig .tc) (h : b ∉ k1_L6) : Run.W6 m c b = Run.W5 m c b :=
  Run.W6_of_ne m c b (List.ne_of_not_mem_cons h)
theorem k1_keep9 (b : Ref sig .tc) (h : b ∉ k1_L9) : Run.W9 m c b = Run.W5 m c b :=
  (k1_s9 m c b
    (fun hb => h (List.mem_append_right _ (List.mem_append_right _ (List.mem_append_left _ hb))))
    (fun hb => h (List.mem_append_right _ (List.mem_append_left _ hb)))
    (fun hb => h (List.mem_append_left _ hb))).trans
  (k1_keep6 m c b (fun hb => h (List.mem_append_right _ (List.mem_append_right _ (List.mem_append_right _ hb)))))
theorem k1_keep10 (b : Ref sig .tc) (h : b ∉ k1_L10) : Run.W10 m c b = Run.W5 m c b :=
  (Run.W10_of_ne m c b (List.ne_of_not_mem_cons h)
    (List.ne_of_not_mem_cons (List.not_mem_of_not_mem_cons h))
    (List.ne_of_not_mem_cons (List.not_mem_of_not_mem_cons (List.not_mem_of_not_mem_cons h)))).trans
  (k1_keep9 m c b (List.not_mem_of_not_mem_cons (List.not_mem_of_not_mem_cons (List.not_mem_of_not_mem_cons h))))
theorem k1_keep11 (b : Ref sig .tc) (h : b ∉ k1_L11) : Run.W11 m c b = Run.W5 m c b :=
  (k1_s11 m c b (fun hb => h (List.mem_append_left _ hb))).trans (k1_keep10 m c b (fun hb => h (List.mem_append_right _ hb)))
theorem k1_keep12 (b : Ref sig .tc) (h : b ∉ k1_L12) : Run.W12 m c b = Run.W5 m c b :=
  (Run.W12_of_ne m c b (List.ne_of_not_mem_cons h)).trans (k1_keep11 m c b (List.not_mem_of_not_mem_cons h))
theorem k1_keep17 (b : Ref sig .tc) (h : b ∉ k1_L17) : Run.W17 m c b = Run.W5 m c b :=
  (k1_s17 m c b
    (fun hb => h (List.mem_append_right _ (List.mem_append_right _ (List.mem_append_right _ (List.mem_append_right _ (List.mem_append_left _ hb))))))
    (fun hb => h (List.mem_append_right _ (List.mem_append_right _ (List.mem_append_right _ (List.mem_append_left _ hb)))))
    (fun hb => h (List.mem_append_right _ (List.mem_append_right _ (List.mem_append_left _ hb))))
    (fun hb => h (List.mem_append_right _ (List.mem_append_left _ hb)))
    (fun hb => h (List.mem_append_left _ hb))).trans
  (k1_keep12 m c b (fun hb => h (List.mem_append_right _ (List.mem_append_right _ (List.mem_append_right _
    (List.mem_append_right _ (List.mem_append_right _ hb)))))))
theorem k1_keep18 (b : Ref sig .tc) (h : b ∉ k1_L18) : Run.W18 m c b = Run.W5 m c b :=
  (Run.W18_of_ne m c b (List.ne_of_not_mem_cons h)).trans (k1_keep17 m c b (List.not_mem_of_not_mem_cons h))
theorem k1_keep19 (b : Ref sig .tc) (h : b ∉ k1_L19) : Run.W19 m c b = Run.W5 m c b :=
  (k1_s19 m c b (fun hb => h (List.mem_append_left _ hb))).trans (k1_keep18 m c b (fun hb => h (List.mem_append_right _ hb)))
theorem k1_keep20 (b : Ref sig .tc) (h : b ∉ k1_L20) : Run.W20 m c b = Run.W5 m c b :=
  (Run.W20_of_ne m c b (List.ne_of_not_mem_cons h)).trans (k1_keep19 m c b (List.not_mem_of_not_mem_cons h))
theorem k1_keep21 (b : Ref sig .tc) (h : b ∉ k1_L21) : Run.W21 m c b = Run.W5 m c b :=
  (k1_s21 m c b (fun hb => h (List.mem_append_left _ hb))).trans (k1_keep20 m c b (fun hb => h (List.mem_append_right _ hb)))

/-- The index vectors and the parameters are as the layer found them. -/
theorem readK1_keep (b : Ref sig .tc) (hb : b ∈ keepRefs) : Run.W21 m c b = Run.W5 m c b :=
  k1_keep21 m c b ((by decide : ∀ r ∈ keepRefs, r ∉ k1_L21) b hb)

/-! ## The next layer's projection parameters, side by side -/

/-- The four projection weights at index 1, side by side. -/
theorem readK1_W :
    Run.W21 m c (main_v143 : DevRef τ sig)
      = Cert.KSpec.wcat (Cert.Spec.wSl 1 Cert.Spec.slices_W_1 (Run.W21 m c (main_arg7 : DevRef τ sig)))
          (Cert.Spec.wSl 1 Cert.Spec.slices_W_1 (Run.W21 m c (main_arg9 : DevRef τ sig)))
          (Cert.Spec.wSl 1 Cert.Spec.slices_W_1 (Run.W21 m c (main_arg15 : DevRef τ sig)))
          (Cert.Spec.wSl 1 Cert.Spec.slices_W_1 (Run.W21 m c (main_arg13 : DevRef τ sig))) := by
  rw [k1_s21 m c main_arg7 (by decide), k1_s21 m c main_arg9 (by decide), k1_s21 m c main_arg15 (by decide),
    k1_s21 m c main_arg13 (by decide)]
  exact KHost.hostOps7_v143 (Run.W20 m c)

/-- The four projection biases at index 1, end to end, as one row. -/
theorem readK1_B :
    Run.W21 m c (main_v153 : DevRef τ sig)
      = Cert.KSpec.bcat (Cert.Spec.bSl 1 Cert.Spec.slices_b_1 (Run.W21 m c (main_arg8 : DevRef τ sig)))
          (Cert.Spec.bSl 1 Cert.Spec.slices_b_1 (Run.W21 m c (main_arg10 : DevRef τ sig)))
          (Cert.Spec.bSl 1 Cert.Spec.slices_b_1 (Run.W21 m c (main_arg16 : DevRef τ sig)))
          (Cert.Spec.bSl 1 Cert.Spec.slices_b_1 (Run.W21 m c (main_arg14 : DevRef τ sig))) := by
  rw [k1_s21 m c main_arg8 (by decide), k1_s21 m c main_arg10 (by decide), k1_s21 m c main_arg16 (by decide),
    k1_s21 m c main_arg14 (by decide)]
  exact KHost.hostOps7_v153 (Run.W20 m c)

/-! ## The layer's own projection parameters, side by side at its entry -/

variable
  (hW : Run.W5 m c (main_v16 : DevRef τ sig)
    = Cert.KSpec.wcat (Cert.Spec.wSl 0 Cert.Spec.slices_W_0 (Run.W5 m c (main_arg7 : DevRef τ sig)))
        (Cert.Spec.wSl 0 Cert.Spec.slices_W_0 (Run.W5 m c (main_arg9 : DevRef τ sig)))
        (Cert.Spec.wSl 0 Cert.Spec.slices_W_0 (Run.W5 m c (main_arg15 : DevRef τ sig)))
        (Cert.Spec.wSl 0 Cert.Spec.slices_W_0 (Run.W5 m c (main_arg13 : DevRef τ sig))))
  (hB : Run.W5 m c (main_v26 : DevRef τ sig)
    = Cert.KSpec.bcat (Cert.Spec.bSl 0 Cert.Spec.slices_b_0 (Run.W5 m c (main_arg8 : DevRef τ sig)))
        (Cert.Spec.bSl 0 Cert.Spec.slices_b_0 (Run.W5 m c (main_arg10 : DevRef τ sig)))
        (Cert.Spec.bSl 0 Cert.Spec.slices_b_0 (Run.W5 m c (main_arg16 : DevRef τ sig)))
        (Cert.Spec.bSl 0 Cert.Spec.slices_b_0 (Run.W5 m c (main_arg14 : DevRef τ sig))))
include hW hB

/-! ## The fused projection -/

theorem k1_w6_proj : Run.W6 m c main_v27 = k1_proj m c := by
  rw [Run.W6_at0, Val.arr2_3_eq (Run.T5 m) c]
  show Cert.KSpec.Glin128 (Run.W5 m c main_v5) (Run.W5 m c main_v16) (Run.W5 m c main_v26) = _
  rw [hW, hB]
  rfl

/-! ## The column blocks, the gathers, the packings, the edge parameters -/

/-- The first operand of the edge region: the A block gathered at the targets, packed. -/
theorem k1_w9_a0 :
    Run.W9 m c main_v61
      = Cert.KSpec.packE (Cert.Spec.gatherRows (Cert.KSpec.colsA (k1_proj m c)) (k1_dst m c)) := by
  refine (KHost.hostOps3_v61 (Run.W6 m c)).trans ?_
  rw [k1_w6_proj m c hW hB, k1_keep6 m c main_v3 (by decide)]

/-- The second: the left half of the B and V blocks gathered at the sources, packed. -/
theorem k1_w9_a1 :
    Run.W9 m c main_v62
      = Cert.KSpec.packE (Cert.KSpec.left32 (Cert.KSpec.gatherRows64 (Cert.KSpec.colsBV (k1_proj m c)) (k1_src m c))) := by
  refine (KHost.hostOps3_v62 (Run.W6 m c)).trans ?_
  rw [k1_w6_proj m c hW hB, k1_keep6 m c main_v1 (by decide)]

/-- The third: the edge features, packed. -/
theorem k1_w9_a2 : Run.W9 m c main_v64 = Cert.KSpec.packE (k1_e m c) := by
  refine (KHost.hostOps3_v64 (Run.W6 m c)).trans ?_
  rw [k1_keep6 m c main_v7 (by decide)]

/-- The fourth: the right half of the gathered B and V blocks, packed. -/
theorem k1_w9_a3 :
    Run.W9 m c main_v63
      = Cert.KSpec.packE (Cert.KSpec.right32 (Cert.KSpec.gatherRows64 (Cert.KSpec.colsBV (k1_proj m c)) (k1_src m c))) := by
  refine (KHost.hostOps3_v63 (Run.W6 m c)).trans ?_
  rw [k1_w6_proj m c hW hB, k1_keep6 m c main_v1 (by decide)]

/-- The fifth: the block-diagonal edge weight. -/
theorem k1_w9_a4 : Run.W9 m c main_v55 = Cert.KSpec.kron Cert.KSpec.eye4 (k1_C m c) := by
  refine (KHost.hostOps3_v55 (Run.W6 m c)).trans ?_
  rw [k1_keep6 m c main_arg11 (by decide)]

/-- The sixth: the edge bias repeated four times, as one row. -/
theorem k1_w9_a5 : Run.W9 m c main_v65 = Cert.KSpec.row128 (Cert.KSpec.tile4 (k1_bC m c)) := by
  refine (KHost.hostOps3_v65 (Run.W6 m c)).trans ?_
  rw [k1_keep6 m c main_arg12 (by decide)]

/-- The U block of the projection. -/
theorem k1_w9_colsU : Run.W9 m c main_v30 = Cert.KSpec.colsU (k1_proj m c) := by
  refine (KHost.hostOps3_v30 (Run.W6 m c)).trans ?_
  rw [k1_w6_proj m c hW hB]

/-! ## The edge region's three outputs -/

theorem k1_w10_new : Run.W10 m c main_v66_0 = k1_edgeNew m c := by
  rw [Run.W10_at0, Val.arr3_6_eq (Run.T9 m) c]
  show Cert.KSpec.GedgeNew (Run.W9 m c main_v61) (Run.W9 m c main_v62) (Run.W9 m c main_v64)
    (Run.W9 m c main_v55) (Run.W9 m c main_v65) = _
  rw [k1_w9_a0 m c hW hB, k1_w9_a1 m c hW hB, k1_w9_a2 m c hW hB, k1_w9_a4 m c hW hB, k1_w9_a5 m c hW hB]
  rfl

theorem k1_w10_sig : Run.W10 m c main_v66_1 = k1_edgeSig m c := by
  rw [Run.W10_at1, Val.arr3_7_eq (Run.T9 m) c]
  show Cert.KSpec.GedgeSig (Run.W9 m c main_v61) (Run.W9 m c main_v62) (Run.W9 m c main_v64)
    (Run.W9 m c main_v55) (Run.W9 m c main_v65) = _
  rw [k1_w9_a0 m c hW hB, k1_w9_a1 m c hW hB, k1_w9_a2 m c hW hB, k1_w9_a4 m c hW hB, k1_w9_a5 m c hW hB]
  rfl

theorem k1_w10_num : Run.W10 m c main_v66_2 = k1_edgeNum m c := by
  rw [Run.W10_at2, Val.arr3_8_eq (Run.T9 m) c]
  show Cert.KSpec.GedgeNum (Run.W9 m c main_v61) (Run.W9 m c main_v62) (Run.W9 m c main_v64) (Run.W9 m c main_v63)
    (Run.W9 m c main_v55) (Run.W9 m c main_v65) = _
  rw [k1_w9_a0 m c hW hB, k1_w9_a1 m c hW hB, k1_w9_a2 m c hW hB, k1_w9_a3 m c hW hB, k1_w9_a4 m c hW hB, k1_w9_a5 m c hW hB]
  rfl

/-! ## The unpackings and the segment sums -/

/-- The new edge features, unpacked. -/
theorem k1_w11_enew : Run.W11 m c main_v67 = Cert.KSpec.unpackE (k1_edgeNew m c) := by
  refine (KHost.hostOps4_v67 (Run.W10 m c)).trans ?_
  rw [k1_w10_new m c hW hB]

/-- The node region's three operands. -/
theorem k1_w11_uh : Run.W11 m c main_v76 = Cert.KSpec.packN (Cert.KSpec.colsU (k1_proj m c)) := by
  refine (KHost.hostOps4_v76 (Run.W10 m c)).trans ?_
  rw [Run.W10_of_ne m c main_v30 (by decide) (by decide) (by decide), k1_w9_colsU m c hW hB]
theorem k1_w11_num :
    Run.W11 m c main_v77
      = Cert.KSpec.packN (Cert.Spec.segSum (Cert.KSpec.unpackE (k1_edgeNum m c)) (k1_dst m c)) := by
  refine (KHost.hostOps4_v77 (Run.W10 m c)).trans ?_
  rw [k1_w10_num m c hW hB, k1_keep10 m c main_v3 (by decide)]
theorem k1_w11_den :
    Run.W11 m c main_v78
      = Cert.KSpec.packN (Cert.Spec.segSum (Cert.KSpec.unpackE (k1_edgeSig m c)) (k1_dst m c)) := by
  refine (KHost.hostOps4_v78 (Run.W10 m c)).trans ?_
  rw [k1_w10_sig m c hW hB, k1_keep10 m c main_v3 (by decide)]

/-! ## The node region -/

theorem k1_w12_node : Run.W12 m c main_v79 = k1_nodeNew m c := by
  rw [Run.W12_at0, Val.arr4_3_eq (Run.T11 m) c]
  show Cert.KSpec.Gnode (Run.W11 m c main_v76) (Run.W11 m c main_v77) (Run.W11 m c main_v78) = _
  rw [k1_w11_uh m c hW hB, k1_w11_num m c hW hB, k1_w11_den m c hW hB]
  rfl

/-- The unpacked new edge features are still there after the node region. -/
theorem k1_w12_enew : Run.W12 m c main_v67 = Cert.KSpec.unpackE (k1_edgeNew m c) :=
  (Run.W12_of_ne m c main_v67 (by decide)).trans (k1_w11_enew m c hW hB)

/-! ## The column statistics and the normalisation parameters, repeated four times -/

/-- The node normalisation's operands. -/
theorem k1_w17_h : Run.W17 m c main_v121 = Cert.KSpec.packN (k1_h m c) := by
  refine (KHost.hostOps5_v121 (Run.W12 m c)).trans ?_
  rw [k1_keep12 m c main_v5 (by decide)]
theorem k1_w17_muN :
    Run.W17 m c main_v122
      = Cert.KSpec.row128 (Cert.KSpec.tile4 (Cert.Spec.meanN (Cert.KSpec.unpackN (k1_nodeNew m c)))) := by
  refine (KHost.hostOps5_v122 (Run.W12 m c)).trans ?_
  rw [k1_w12_node m c hW hB]
theorem k1_w17_varN :
    Run.W17 m c main_v123
      = Cert.KSpec.row128 (Cert.KSpec.tile4
          (Cert.Spec.varN (Cert.KSpec.unpackN (k1_nodeNew m c)) (constantI Cert.Spec.S_ 32 0#32))) := by
  refine (KHost.hostOps5_v123 (Run.W12 m c)).trans ?_
  rw [k1_w12_node m c hW hB]
theorem k1_w17_gh : Run.W17 m c main_v124 = Cert.KSpec.row128 (Cert.KSpec.tile4 (k1_gh m c)) := by
  refine (KHost.hostOps5_v124 (Run.W12 m c)).trans ?_
  rw [k1_keep12 m c main_arg17 (by decide)]
theorem k1_w17_bh : Run.W17 m c main_v125 = Cert.KSpec.row128 (Cert.KSpec.tile4 (k1_bh m c)) := by
  refine (KHost.hostOps5_v125 (Run.W12 m c)).trans ?_
  rw [k1_keep12 m c main_arg18 (by decide)]

/-- The edge normalisation's parameters, before their reshaping to one row. -/
theorem k1_w17_muE :
    Run.W17 m c main_v107 = Cert.KSpec.tile4 (Cert.Spec.meanE (Cert.KSpec.unpackE (k1_edgeNew m c))) := by
  refine (KHost.hostOps5_v107 (Run.W12 m c)).trans ?_
  rw [k1_w12_enew m c hW hB]
theorem k1_w17_varE :
    Run.W17 m c main_v110
      = Cert.KSpec.tile4 (Cert.Spec.varE (Cert.KSpec.unpackE (k1_edgeNew m c)) (constantI Cert.Spec.S_ 32 0#32)) := by
  refine (KHost.hostOps5_v110 (Run.W12 m c)).trans ?_
  rw [k1_w12_enew m c hW hB]
theorem k1_w17_ge : Run.W17 m c main_v115 = Cert.KSpec.tile4 (k1_ge m c) := by
  refine (KHost.hostOps5_v115 (Run.W12 m c)).trans ?_
  rw [k1_keep12 m c main_arg19 (by decide)]
theorem k1_w17_be : Run.W17 m c main_v120 = Cert.KSpec.tile4 (k1_be m c) := by
  refine (KHost.hostOps5_v120 (Run.W12 m c)).trans ?_
  rw [k1_keep12 m c main_arg20 (by decide)]

/-- The node region's output is still there. -/
theorem k1_w17_node : Run.W17 m c main_v79 = k1_nodeNew m c :=
  (k1_s17 m c main_v79 (by decide) (by decide) (by decide) (by decide) (by decide)).trans (k1_w12_node m c hW hB)

/-! ## The node normalise-and-add region -/

theorem k1_w18_bnN :
    Run.W18 m c main_v126
      = Cert.KSpec.GbnN (k1_nodeNew m c) (Cert.KSpec.packN (k1_h m c))
          (Cert.KSpec.row128 (Cert.KSpec.tile4 (Cert.Spec.meanN (Cert.KSpec.unpackN (k1_nodeNew m c)))))
          (Cert.KSpec.row128 (Cert.KSpec.tile4
            (Cert.Spec.varN (Cert.KSpec.unpackN (k1_nodeNew m c)) (constantI Cert.Spec.S_ 32 0#32))))
          (Cert.KSpec.row128 (Cert.KSpec.tile4 (k1_gh m c))) (Cert.KSpec.row128 (Cert.KSpec.tile4 (k1_bh m c))) := by
  rw [Run.W18_at0, Val.arr5_6_eq (Run.T17 m) c]
  show Cert.KSpec.GbnN (Run.W17 m c main_v79) (Run.W17 m c main_v121) (Run.W17 m c main_v122) (Run.W17 m c main_v123)
    (Run.W17 m c main_v124) (Run.W17 m c main_v125) = _
  rw [k1_w17_node m c hW hB, k1_w17_h m c hW hB, k1_w17_muN m c hW hB, k1_w17_varN m c hW hB, k1_w17_gh m c hW hB,
    k1_w17_bh m c hW hB]

/-! ## The node result unpacked; the edge normalisation's operands -/

/-- The layer's node result. -/
theorem k1_w19_h :
    Run.W19 m c main_v127 = Cert.KSpec.kbnN (k1_nodeNew m c) (k1_h m c) (k1_gh m c) (k1_bh m c) := by
  refine (KHost.hostOps6_v127 (Run.W18 m c)).trans ?_
  rw [k1_w18_bnN m c hW hB]
  rfl

theorem k1_w19_e : Run.W19 m c main_v128 = Cert.KSpec.packE (k1_e m c) := by
  refine (KHost.hostOps6_v128 (Run.W18 m c)).trans ?_
  rw [k1_keep18 m c main_v7 (by decide)]
theorem k1_w19_muE :
    Run.W19 m c main_v129
      = Cert.KSpec.row128 (Cert.KSpec.tile4 (Cert.Spec.meanE (Cert.KSpec.unpackE (k1_edgeNew m c)))) := by
  refine (KHost.hostOps6_v129 (Run.W18 m c)).trans ?_
  rw [Run.W18_of_ne m c main_v107 (by decide), k1_w17_muE m c hW hB]
theorem k1_w19_varE :
    Run.W19 m c main_v130
      = Cert.KSpec.row128 (Cert.KSpec.tile4
          (Cert.Spec.varE (Cert.KSpec.unpackE (k1_edgeNew m c)) (constantI Cert.Spec.S_ 32 0#32))) := by
  refine (KHost.hostOps6_v130 (Run.W18 m c)).trans ?_
  rw [Run.W18_of_ne m c main_v110 (by decide), k1_w17_varE m c hW hB]
theorem k1_w19_ge : Run.W19 m c main_v131 = Cert.KSpec.row128 (Cert.KSpec.tile4 (k1_ge m c)) := by
  refine (KHost.hostOps6_v131 (Run.W18 m c)).trans ?_
  rw [Run.W18_of_ne m c main_v115 (by decide), k1_w17_ge m c hW hB]
theorem k1_w19_be : Run.W19 m c main_v132 = Cert.KSpec.row128 (Cert.KSpec.tile4 (k1_be m c)) := by
  refine (KHost.hostOps6_v132 (Run.W18 m c)).trans ?_
  rw [Run.W18_of_ne m c main_v120 (by decide), k1_w17_be m c hW hB]

/-- The packed new edge features are still there. -/
theorem k1_w19_enew : Run.W19 m c main_v66_0 = k1_edgeNew m c :=
  (k1_s19 m c main_v66_0 (by decide)).trans
    ((Run.W18_of_ne m c main_v66_0 (by decide)).trans
      ((k1_s17 m c main_v66_0 (by decide) (by decide) (by decide) (by decide) (by decide)).trans
        ((Run.W12_of_ne m c main_v66_0 (by decide)).trans
          ((k1_s11 m c main_v66_0 (by decide)).trans (k1_w10_new m c hW hB)))))

/-! ## The edge normalise-and-add region -/

theorem k1_w20_bnE :
    Run.W20 m c main_v133
      = Cert.KSpec.GbnE (k1_edgeNew m c) (Cert.KSpec.packE (k1_e m c))
          (Cert.KSpec.row128 (Cert.KSpec.tile4 (Cert.Spec.meanE (Cert.KSpec.unpackE (k1_edgeNew m c)))))
          (Cert.KSpec.row128 (Cert.KSpec.tile4
            (Cert.Spec.varE (Cert.KSpec.unpackE (k1_edgeNew m c)) (constantI Cert.Spec.S_ 32 0#32))))
          (Cert.KSpec.row128 (Cert.KSpec.tile4 (k1_ge m c))) (Cert.KSpec.row128 (Cert.KSpec.tile4 (k1_be m c))) := by
  rw [Run.W20_at0, Val.arr6_6_eq (Run.T19 m) c]
  show Cert.KSpec.GbnE (Run.W19 m c main_v66_0) (Run.W19 m c main_v128) (Run.W19 m c main_v129) (Run.W19 m c main_v130)
    (Run.W19 m c main_v131) (Run.W19 m c main_v132) = _
  rw [k1_w19_enew m c hW hB, k1_w19_e m c hW hB, k1_w19_muE m c hW hB, k1_w19_varE m c hW hB, k1_w19_ge m c hW hB,
    k1_w19_be m c hW hB]

/-! ## The edge result unpacked -/

/-- The layer's edge result. -/
theorem k1_w21_e :
    Run.W21 m c main_v134 = Cert.KSpec.kbnE (k1_edgeNew m c) (k1_e m c) (k1_ge m c) (k1_be m c) := by
  refine (KHost.hostOps7_v134 (Run.W20 m c)).trans ?_
  rw [k1_w20_bnE m c hW hB]
  rfl

/-! ## The layer -/

/-- The node features after layer 1. -/
theorem readK1_h :
    Run.W21 m c (main_v127 : DevRef τ sig)
      = (Cert.KSpec.klayerAt 0 Cert.Spec.slices_W_0 Cert.Spec.slices_b_0
          (Run.W5 m c (main_v5 : DevRef τ sig)) (Run.W5 m c (main_v7 : DevRef τ sig))
          (Run.W5 m c (main_v1 : DevRef τ sig)) (Run.W5 m c (main_v3 : DevRef τ sig))
          (Run.W5 m c (main_arg7 : DevRef τ sig)) (Run.W5 m c (main_arg8 : DevRef τ sig))
          (Run.W5 m c (main_arg9 : DevRef τ sig)) (Run.W5 m c (main_arg10 : DevRef τ sig))
          (Run.W5 m c (main_arg11 : DevRef τ sig)) (Run.W5 m c (main_arg12 : DevRef τ sig))
          (Run.W5 m c (main_arg13 : DevRef τ sig)) (Run.W5 m c (main_arg14 : DevRef τ sig))
          (Run.W5 m c (main_arg15 : DevRef τ sig)) (Run.W5 m c (main_arg16 : DevRef τ sig))
          (Run.W5 m c (main_arg17 : DevRef τ sig)) (Run.W5 m c (main_arg18 : DevRef τ sig))
          (Run.W5 m c (main_arg19 : DevRef τ sig)) (Run.W5 m c (main_arg20 : DevRef τ sig))).1 :=
  (k1_s21 m c main_v127 (by decide)).trans
    ((Run.W20_of_ne m c main_v127 (by decide)).trans (k1_w19_h m c hW hB))

/-- The edge features after layer 1. -/
theorem readK1_e :
    Run.W21 m c (main_v134 : DevRef τ sig)
      = (Cert.KSpec.klayerAt 0 Cert.Spec.slices_W_0 Cert.Spec.slices_b_0
          (Run.W5 m c (main_v5 : DevRef τ sig)) (Run.W5 m c (main_v7 : DevRef τ sig))
          (Run.W5 m c (main_v1 : DevRef τ sig)) (Run.W5 m c (main_v3 : DevRef τ sig))
          (Run.W5 m c (main_arg7 : DevRef τ sig)) (Run.W5 m c (main_arg8 : DevRef τ sig))
          (Run.W5 m c (main_arg9 : DevRef τ sig)) (Run.W5 m c (main_arg10 : DevRef τ sig))
          (Run.W5 m c (main_arg11 : DevRef τ sig)) (Run.W5 m c (main_arg12 : DevRef τ sig))
          (Run.W5 m c (main_arg13 : DevRef τ sig)) (Run.W5 m c (main_arg14 : DevRef τ sig))
          (Run.W5 m c (main_arg15 : DevRef τ sig)) (Run.W5 m c (main_arg16 : DevRef τ sig))
          (Run.W5 m c (main_arg17 : DevRef τ sig)) (Run.W5 m c (main_arg18 : DevRef τ sig))
          (Run.W5 m c (main_arg19 : DevRef τ sig)) (Run.W5 m c (main_arg20 : DevRef τ sig))).2 :=
  k1_w21_e m c hW hB

end Cert.KernelIdeal.KRead

end
-- ==== Proof.Val7.lean ====
import proofs.«425355_j88287347737110_2_alg».proof.Proof.Reg7
import proofs.«425355_j88287347737110_2_alg».proof.Proof.KSpec
import Idealize.ShloMosaic.Lib.Pipeline.Value
import Idealize.ShloMosaic.Lib.ValueIdx
import Idealize.ShloMosaic.PureOps.Ideal.Laws

/-! # Region 7 (`cc7_kernel`): the result array, index by index, at the ideal values

After the region the result array (100000 × 128) holds, at row `r` and column `j`,
`∑ k < 32, x[r, k] · w[k, j] + b[0, j]` over the extended reals, where `x`, `w`, `b` are the three input arrays as
the region finds them.  The steps: the matrix product accumulated into zero is the sum over the contracted
coordinate; the format changes are the identity at the ideal values; the bias is broadcast down the rows; each input
block is read where the point's block index puts it (the row blocks of `x` and of the result move together, the
weight and the bias stay at block 0); row `r` is covered by the point `r / 5000`. -/

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)
open scoped BigOperators

theorem lin7_hz : (![0, 0] : Fin 2 → Nat) = fun _ => 0 := funext fun a => by fin_cases a <;> rfl

/-! ## The matrix product's operand indices, axis by axis -/

theorem lin7_lhs_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl

theorem lin7_lhs_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q

theorem lin7_rhs_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q

theorem lin7_rhs_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- The product of a 5000 × 32 block by a 32 × 128 matrix accumulated into zero, read at row `p`, column `q`: the
    sum over the 32 contracted coordinates of the products of the entries. -/
theorem lin7_mm_apply (a : FVec Ideal S5000x32 .bf16) (b : FVec Ideal S32x128 .bf16) (p : Fin 5000) (q : Fin 128) :
    matmul dot_S5000x32_S32x128_S5000x128_1_0_0_1_n_n none a b (constant S5000x128 .f32 0x00000000#32) (ix2 p q)
      = ∑ k : Fin 32, a (ix2 p k) * b (ix2 k q) := by
  show FloatOps.matmul _ none a b (constant S5000x128 .f32 0x00000000#32) (ix2 p q) = _
  rw [Ideal.matmul_constant_zero_apply, ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 p q) ((contrEquiv1 dot_S5000x32_S32x128_S5000x128_1_0_0_1_n_n 32 rfl rfl).symm k) = ix2 p k := funext fun ax => Fin.ext (by
    match ax with
    | ⟨0, _⟩ => exact lin7_lhs_0 _ _
    | ⟨1, _⟩ => exact (lin7_lhs_1 _ _).trans hk)
  have er : dot_S5000x32_S32x128_S5000x128_1_0_0_1_n_n.rhsIdx (ix2 p q) ((contrEquiv1 dot_S5000x32_S32x128_S5000x128_1_0_0_1_n_n 32 rfl rfl).symm k) = ix2 k q := funext fun ax => Fin.ext (by
    match ax with
    | ⟨0, _⟩ => exact (lin7_rhs_0 _ _).trans hk
    | ⟨1, _⟩ => exact lin7_rhs_1 _ _)
  rw [el, er]

/-! ## The body's payload at an index -/

/-- The payload `x · w + b` at row `p`, column `q` of the block: the format changes are the identity at the ideal
    values, the bias's one row is laid along every row. -/
theorem lin7_pay_apply (x0 : Vec Ideal S5000x32 .f32) (x1 : Vec Ideal S32x128 .f32) (x2 : Vec Ideal S1x128 .f32) (p : Fin 5000) (q : Fin 128) :
    k7_pay1 x0 x1 x2 (ix2 p q) = (∑ k : Fin 32, x0 (ix2 p k) * x1 (ix2 k q)) + x2 (ix2 (0 : Fin 1) q) := by
  unfold k7_pay1
  rw [addf_apply, lin7_mm_apply]
  simp only [truncf_apply, shapeCast_self]
  congr 1
  exact broadcastTo_apply x2 broadcasts_S1x128_S5000x128 (ix2 p q) (ix2 (0 : Fin 1) q) (fun a => by
    match a with
    | ⟨0, _⟩ => rfl
    | ⟨1, _⟩ => rfl)

/-- The same at any index of the block. -/
theorem lin7_pay_idx (x0 : Vec Ideal S5000x32 .f32) (x1 : Vec Ideal S32x128 .f32) (x2 : Vec Ideal S1x128 .f32) (y : S5000x128.Idx) :
    k7_pay1 x0 x1 x2 y = (∑ k : Fin 32, x0 (ix2 (y 0) k) * x1 (ix2 k (y 1))) + x2 (ix2 (0 : Fin 1) (y 1)) := by
  obtain ⟨p, q, rfl⟩ : ∃ (p : Fin 5000) (q : Fin 128), y = ix2 p q := ⟨y 0, y 1, eq_ix2 y⟩
  exact lin7_pay_apply x0 x1 x2 p q

/-! ## The arrays, and the result as one function of them -/

variable (V : (c : Dev nD) → (b : Ref sig .tc) → Buf (Elt Ideal) ((c : Thread nD τ).loc b))

/-- The three input arrays as the region finds them, at their literal types. -/
abbrev xarr7 (c : Dev nD) : S100000x32.Idx → EReal := V c (Pipeline.arrRef spec7 0)
abbrev warr7 (c : Dev nD) : S32x128.Idx → EReal := V c (Pipeline.arrRef spec7 1)
abbrev barr7 (c : Dev nD) : S1x128.Idx → EReal := V c (Pipeline.arrRef spec7 2)

/-- `x · w + b`, row by row, over the whole arrays. -/
def lin7_G (x : S100000x32.Idx → EReal) (w : S32x128.Idx → EReal) (b : S1x128.Idx → EReal) : S100000x128.Idx → EReal :=
  fun i => (∑ k : Fin 32, x (ix2 (i 0) k) * w (ix2 k (i 1))) + b (ix2 (0 : Fin 1) (i 1))

theorem lin7_N : cfg7.N = 20 := N_7

/-! ## The blocks -/

/-- The printed index maps over the grid: the row blocks of `x` and of the result move with the point, the weight
    and the bias stay at block 0. -/
theorem lin7_idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The row block of `x` at point `t` is rows `5000 t … 5000 t + 4999` of the array. -/
theorem lin7_xblk_apply (c : Dev nD) (t : Fin cfg7.N) (x : S5000x32.Idx) (i : S100000x32.Idx)
    (h0 : (i 0).val = 5000 * t.val + (x 0).val) (h1 : (i 1).val = (x 1).val) :
    (iblk7 V c 0 t : Vec Ideal S5000x32 .f32) x = xarr7 V c i := by
  obtain ⟨e0, e1, -⟩ := lin7_idx_facts t
  unfold iblk7
  rw [View.read_apply]
  show V c (Pipeline.arrRef spec7 0) _ = V c (Pipeline.arrRef spec7 0) i
  congr 1
  funext a
  apply Fin.ext
  match a with
  | ⟨0, _⟩ => show win7_0.index t 0 * 5000 + 1 * (x 0).val = (i 0).val; rw [e0, h0]; omega
  | ⟨1, _⟩ => show win7_0.index t 1 * 32 + 1 * (x 1).val = (i 1).val; rw [e1, h1]; omega

/-- The weight's block at every point is the whole array. -/
theorem lin7_wblk_apply (c : Dev nD) (t : Fin cfg7.N) (x : S32x128.Idx) :
    (iblk7 V c 1 t : Vec Ideal S32x128 .f32) x = warr7 V c x := by
  obtain ⟨-, -, e0, e1, -⟩ := lin7_idx_facts t
  unfold iblk7
  rw [View.read_apply]
  show V c (Pipeline.arrRef spec7 1) _ = V c (Pipeline.arrRef spec7 1) x
  congr 1
  funext a
  apply Fin.ext
  match a with
  | ⟨0, _⟩ => show win7_1.index t 0 * 32 + 1 * (x 0).val = (x 0).val; rw [e0]; omega
  | ⟨1, _⟩ => show win7_1.index t 1 * 128 + 1 * (x 1).val = (x 1).val; rw [e1]; omega

/-- The bias's block at every point is the whole array. -/
theorem lin7_bblk_apply (c : Dev nD) (t : Fin cfg7.N) (x : S1x128.Idx) :
    (iblk7 V c 2 t : Vec Ideal S1x128 .f32) x = barr7 V c x := by
  obtain ⟨-, -, -, -, e0, e1, -⟩ := lin7_idx_facts t
  unfold iblk7
  rw [View.read_apply]
  show V c (Pipeline.arrRef spec7 2) _ = V c (Pipeline.arrRef spec7 2) x
  congr 1
  funext a
  apply Fin.ext
  match a with
  | ⟨0, _⟩ => show win7_2.index t 0 * 1 + 1 * (x 0).val = (x 0).val; rw [e0]; omega
  | ⟨1, _⟩ => show win7_2.index t 1 * 128 + 1 * (x 1).val = (x 1).val; rw [e1]; omega

/-- Where the result's block at point `t` puts its local index `y`: row `5000 t + y 0`, column `y 1`. -/
theorem lin7_oemb (t : Fin cfg7.N) (y : S5000x128.Idx) :
    ((((cfg7.win 3).blk t).view.emb y : S100000x128.Idx) 0).val = 5000 * t.val + (y 0).val
    ∧ ((((cfg7.win 3).blk t).view.emb y : S100000x128.Idx) 1).val = (y 1).val := by
  obtain ⟨-, -, -, -, -, -, e0, e1⟩ := lin7_idx_facts t
  constructor
  · show win7_3.index t 0 * 5000 + 1 * (y 0).val = _; rw [e0]; omega
  · show win7_3.index t 1 * 128 + 1 * (y 1).val = _; rw [e1]; omega

/-! ## From the blocks to the array -/

/-- What point `t` writes back is block `t` of `lin7_G` of the arrays. -/
theorem lin7_flushed_3_eq (c : Dev nD) (t : Fin cfg7.N) :
    (dat7 (F := Ideal) V c).flushed 3 t = ((cfg7.win 3).blk t).view.read (Elt Ideal) (lin7_G (xarr7 V c) (warr7 V c) (barr7 V c)) := by
  show (cfg7.win 3).cut (grid7.coords t) ((dat7 V c).after 3 t) = _
  rw [after7_3]
  unfold out7_3
  rw [View.canon_unit_zero lin7_hz]
  simp only [View.ld_unit_zero (S := S5000x32) lin7_hz, View.ld_unit_zero (S := S32x128) lin7_hz, View.ld_unit_zero (S := S1x128) lin7_hz]
  funext y
  obtain ⟨o0, o1⟩ := lin7_oemb t y
  show k7_pay1 (iblk7 V c 0 t) (iblk7 V c 1 t) (iblk7 V c 2 t) y = lin7_G (xarr7 V c) (warr7 V c) (barr7 V c) (((cfg7.win 3).blk t).view.emb y)
  refine (lin7_pay_idx (iblk7 V c 0 t) (iblk7 V c 1 t) (iblk7 V c 2 t) y).trans ?_
  unfold lin7_G
  refine congrArg₂ (· + ·) (Finset.sum_congr rfl fun k _ => congrArg₂ (· * ·) ?_ ?_) ?_
  · exact lin7_xblk_apply V c t (ix2 (y 0) k) _ o0 rfl
  · refine (lin7_wblk_apply V c t (ix2 k (y 1))).trans (congrArg (warr7 V c) ?_)
    funext a; apply Fin.ext
    match a with
    | ⟨0, _⟩ => rfl
    | ⟨1, _⟩ => exact o1.symm
  · refine (lin7_bblk_apply V c t (ix2 (0 : Fin 1) (y 1))).trans (congrArg (barr7 V c) ?_)
    funext a; apply Fin.ext
    match a with
    | ⟨0, _⟩ => rfl
    | ⟨1, _⟩ => exact o1.symm

/-- An index of the result array is in point `t`'s block iff each coordinate is in the block's range on its axis. -/
theorem lin7_mem_blk (t : Fin cfg7.N) (i : S100000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v154).slice (win7_3.rect t)).set ↔ _
  rw [View.set_slice_whole, Rect.mem_set_unit]
  exact Iff.rfl

/-- Row `r` of the result is in the block of point `r / 5000`, which is written back. -/
theorem lin7_cover (i : S100000x128.Idx) : ∃ t : Fin cfg7.N, (cfg7.win 3).flush t = true ∧ i ∈ ((cfg7.win 3).blk t).view.set := by
  have hi0 : (i 0).val < 100000 := (i 0).isLt
  have hi1 : (i 1).val < 128 := (i 1).isLt
  refine ⟨⟨(i 0).val / 5000, by rw [lin7_N]; omega⟩, flush7_3 _, ?_⟩
  rw [lin7_mem_blk]
  obtain ⟨-, -, -, -, -, -, e0, e1⟩ := lin7_idx_facts ⟨(i 0).val / 5000, by rw [lin7_N]; omega⟩
  intro a
  match a with
  | ⟨0, _⟩ => show win7_3.index _ (0 : Fin 2) * 5000 ≤ (i 0).val ∧ (i 0).val < win7_3.index _ (0 : Fin 2) * 5000 + 5000; rw [e0]; show (i 0).val / 5000 * 5000 ≤ _ ∧ _ < (i 0).val / 5000 * 5000 + 5000; omega
  | ⟨1, _⟩ => show win7_3.index _ (1 : Fin 2) * 128 ≤ (i 1).val ∧ (i 1).val < win7_3.index _ (1 : Fin 2) * 128 + 128; rw [e1]; omega

/-- The result array after the region is `lin7_G` of the three input arrays. -/
theorem lin7_final_3 (c : Dev nD) : (dat7 (F := Ideal) V c).arrAt 3 cfg7.N = lin7_G (xarr7 V c) (warr7 V c) (barr7 V c) :=
  (dat7 (F := Ideal) V c).arrAt_eq_of_cover 3 (lin7_G (xarr7 V c) (warr7 V c) (barr7 V c)) (fun t _ => lin7_flushed_3_eq V c t) (lin7_cover)

/-- The result array after the region, index by index: `∑ k, x[r, k] · w[k, j] + b[0, j]`. -/
theorem arr7_3_apply (c : Dev nD) (r : Fin 100000) (j : Fin 128) :
    ((dat7 (F := Ideal) V c).arrAt 3 cfg7.N : S100000x128.Idx → EReal) (ix2 r j)
      = (∑ k : Fin 32, xarr7 V c (ix2 r k) * warr7 V c (ix2 k j)) + barr7 V c (ix2 (0 : Fin 1) j) := by
  rw [lin7_final_3]
  rfl

/-- The result array after the region as the fused projection `x · w + b` of the three input arrays. -/
theorem arr7_3_eq (c : Dev nD) :
    (dat7 (F := Ideal) V c).arrAt 3 cfg7.N
      = Cert.KSpec.Glin128 (V c (Pipeline.arrRef spec7 0)) (V c (Pipeline.arrRef spec7 1)) (V c (Pipeline.arrRef spec7 2)) :=
  (lin7_final_3 V c).trans rfl

end Cert.KernelIdeal.Val

end
-- ==== Proof.Pay8.lean ====
/- The edge-update body's three stored values, read at an index, at the ideal float model: every entry as a formula
   over the extended reals of the entries of the six loaded blocks. -/
import proofs.«425355_j88287347737110_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-! ## The product `e · chat` at an index

The contraction runs over the second axis of the left operand and the first of the right; neither has a batch axis. -/

/-- The left operand's row coordinate is the output's. -/
theorem lhs8_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The left operand's column coordinate is the contracted one. -/
theorem lhs8_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

/-- The right operand's row coordinate is the contracted one. -/
theorem rhs8_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

/-- The right operand's column coordinate is the output's. -/
theorem rhs8_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into a zero accumulator, at row `p` and column `q`: the sum over the 128 contracted coordinates. -/
theorem matmul8_apply (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) := by
  show FloatOps.matmul dot_S4000x128_S128x128_S4000x128_1_0_0_1_n_n none x w (constant (F := Ideal) S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs8_0 _ _
    | ⟨1, _⟩ => exact (lhs8_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs8_0 _ _).trans hk
    | ⟨1, _⟩ => exact rhs8_1 _ _)
  rw [el, er]

/-! ## The stored values at an index -/

/-- The bias row, broadcast down the rows, at row `p` and column `q` is the row's entry at column `q`. -/
theorem bias8_apply (v : Vec Ideal S1x128 .f32) (p : Fin 4000) (q : Fin 128) :
    broadcastTo S4000x128 v broadcasts_S1x128_S4000x128 (ix2 p q) = v (ix2 (0 : Fin 1) q) :=
  broadcastTo_apply v broadcasts_S1x128_S4000x128 (ix2 p q) (ix2 (0 : Fin 1) q) (fun a => by
    match a with
    | ⟨0, _⟩ => rfl
    | ⟨1, _⟩ => rfl)

/-- `e_new` at row `p`, column `q`: `(ah + bh) + (∑ k, e[p,k] * chat[k,q] + cbias[0,q])`. -/
theorem pay8_1_apply (v0 : Vec Ideal S4000x128 .f32) (v3 : Vec Ideal S128x128 .f32) (v7 : Vec Ideal S1x128 .f32)
    (v11 v13 : Vec Ideal S4000x128 .f32) (p : Fin 4000) (q : Fin 128) :
    k8_pay1 v0 v3 v7 v11 v13 (ix2 p q)
      = (v11 (ix2 p q) + v13 (ix2 p q)) + ((∑ k : Fin 128, v0 (ix2 p k) * v3 (ix2 k q)) + v7 (ix2 (0 : Fin 1) q)) := by
  unfold k8_pay1
  simp only [shapeCast_self]
  show (v11 (ix2 p q) + v13 (ix2 p q)) + (matmul dot_S4000x128_S128x128_S4000x128_1_0_0_1_n_n none (truncf .bf16 v0 bitsLt_bf16_f32) (truncf .bf16 v3 bitsLt_bf16_f32) (constant (F := Ideal) S4000x128 .f32 0x00000000#32) (ix2 p q) + broadcastTo S4000x128 v7 broadcasts_S1x128_S4000x128 (ix2 p q)) = _
  rw [matmul8_apply, bias8_apply]
  rfl

/-- `sigma` at row `p`, column `q`: the logistic of `e_new` there. -/
theorem pay8_2_apply (v0 : Vec Ideal S4000x128 .f32) (v3 : Vec Ideal S128x128 .f32) (v7 : Vec Ideal S1x128 .f32)
    (v11 v13 : Vec Ideal S4000x128 .f32) (p : Fin 4000) (q : Fin 128) :
    k8_pay2 v0 v3 v7 v11 v13 (ix2 p q)
      = Ideal.logistic ((v11 (ix2 p q) + v13 (ix2 p q)) + ((∑ k : Fin 128, v0 (ix2 p k) * v3 (ix2 k q)) + v7 (ix2 (0 : Fin 1) q))) := by
  unfold k8_pay2
  show Ideal.logistic (k8_pay1 v0 v3 v7 v11 v13 (ix2 p q)) = _
  rw [pay8_1_apply]

/-- `sigma * vh` at row `p`, column `q`. -/
theorem pay8_3_apply (v0 : Vec Ideal S4000x128 .f32) (v3 : Vec Ideal S128x128 .f32) (v7 : Vec Ideal S1x128 .f32)
    (v11 v13 v20 : Vec Ideal S4000x128 .f32) (p : Fin 4000) (q : Fin 128) :
    k8_pay3 v0 v3 v7 v11 v13 v20 (ix2 p q)
      = Ideal.logistic ((v11 (ix2 p q) + v13 (ix2 p q)) + ((∑ k : Fin 128, v0 (ix2 p k) * v3 (ix2 k q)) + v7 (ix2 (0 : Fin 1) q))) * v20 (ix2 p q) := by
  unfold k8_pay3
  simp only [shapeCast_self]
  show k8_pay2 v0 v3 v7 v11 v13 (ix2 p q) * v20 (ix2 p q) = _
  rw [pay8_2_apply]

end Cert.KernelIdeal.Val

end
-- ==== Proof.Val8.lean ====
/- The edge-update region at the ideal float model: what each of its three output arrays holds after the region,
   index by index, as a formula over the extended reals of the entries of the six arrays the region reads. -/
import proofs.«425355_j88287347737110_2_alg».proof.Proof.Reg8
import proofs.«425355_j88287347737110_2_alg».proof.Proof.Pay8
import proofs.«425355_j88287347737110_2_alg».proof.Proof.KSpec
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

-- the core's buffer contents when the region is entered
variable (V : (c : Dev nD) → (b : Ref sig .tc) → Buf (Elt Ideal) ((c : Thread nD τ).loc b))

/-! ## The six arrays the region reads, as it finds them, at their literal types -/

abbrev ent8_0 (c : Dev nD) : S200000x128.Idx → EReal := V c (Pipeline.arrRef spec8 0)
abbrev ent8_1 (c : Dev nD) : S200000x128.Idx → EReal := V c (Pipeline.arrRef spec8 1)
abbrev ent8_2 (c : Dev nD) : S200000x128.Idx → EReal := V c (Pipeline.arrRef spec8 2)
abbrev ent8_3 (c : Dev nD) : S200000x128.Idx → EReal := V c (Pipeline.arrRef spec8 3)
abbrev ent8_4 (c : Dev nD) : S128x128.Idx → EReal := V c (Pipeline.arrRef spec8 4)
abbrev ent8_5 (c : Dev nD) : S1x128.Idx → EReal := V c (Pipeline.arrRef spec8 5)

/-! ## The block index maps, decided over the 50 grid points -/

theorem hz8 : (![0, 0] : Fin 2 → Nat) = fun _ => 0 := funext fun a => by fin_cases a <;> rfl

/-- The seven row-blocked windows sit at row block `t`, column block 0. -/
theorem idx8_row : ∀ t : Fin cfg8.N, (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = t.val ∧ win8_2.index t (1 : Fin 2) = 0)
    ∧ (win8_3.index t (0 : Fin 2) = t.val ∧ win8_3.index t (1 : Fin 2) = 0)
    ∧ (win8_6.index t (0 : Fin 2) = t.val ∧ win8_6.index t (1 : Fin 2) = 0)
    ∧ (win8_7.index t (0 : Fin 2) = t.val ∧ win8_7.index t (1 : Fin 2) = 0)
    ∧ (win8_8.index t (0 : Fin 2) = t.val ∧ win8_8.index t (1 : Fin 2) = 0) :=
  (by decide +kernel : ∀ t : Fin grid8.N, _)

/-- The two resident windows sit at block (0, 0) throughout. -/
theorem idx8_res : ∀ t : Fin cfg8.N, (win8_4.index t (0 : Fin 2) = 0 ∧ win8_4.index t (1 : Fin 2) = 0)
    ∧ (win8_5.index t (0 : Fin 2) = 0 ∧ win8_5.index t (1 : Fin 2) = 0) :=
  (by decide +kernel : ∀ t : Fin grid8.N, _)

/-! ## An input block's entry is an entry of its array -/

/-- Row block `t` of window 0 at row `p`, column `q` is the array's entry at row `t * 4000 + p`, column `q`. -/
theorem blk8_0_apply (c : Dev nD) (t : Fin cfg8.N) (p : Fin 4000) (q : Fin 128) (r : Fin 200000) (hr : r.val = t.val * 4000 + p.val) :
    (iblk8 V c 0 t : S4000x128.Idx → EReal) (ix2 p q) = ent8_0 V c (ix2 r q) := by
  show V c (Pipeline.arrRef spec8 0) (((cfg8.win 0).blk t).view.emb (ix2 p q)) = V c (Pipeline.arrRef spec8 0) (ix2 r q)
  obtain ⟨h0, h1⟩ := (idx8_row t).1
  refine congrArg _ (funext fun a => Fin.ext ?_)
  match a with
  | ⟨0, _⟩ => show win8_0.index t (0 : Fin 2) * 4000 + 1 * p.val = r.val; omega
  | ⟨1, _⟩ => show win8_0.index t (1 : Fin 2) * 128 + 1 * q.val = q.val; omega

/-- Row block `t` of window 1 at row `p`, column `q` is the array's entry at row `t * 4000 + p`, column `q`. -/
theorem blk8_1_apply (c : Dev nD) (t : Fin cfg8.N) (p : Fin 4000) (q : Fin 128) (r : Fin 200000) (hr : r.val = t.val * 4000 + p.val) :
    (iblk8 V c 1 t : S4000x128.Idx → EReal) (ix2 p q) = ent8_1 V c (ix2 r q) := by
  show V c (Pipeline.arrRef spec8 1) (((cfg8.win 1).blk t).view.emb (ix2 p q)) = V c (Pipeline.arrRef spec8 1) (ix2 r q)
  obtain ⟨h0, h1⟩ := (idx8_row t).2.1
  refine congrArg _ (funext fun a => Fin.ext ?_)
  match a with
  | ⟨0, _⟩ => show win8_1.index t (0 : Fin 2) * 4000 + 1 * p.val = r.val; omega
  | ⟨1, _⟩ => show win8_1.index t (1 : Fin 2) * 128 + 1 * q.val = q.val; omega

/-- Row block `t` of window 2 at row `p`, column `q` is the array's entry at row `t * 4000 + p`, column `q`. -/
theorem blk8_2_apply (c : Dev nD) (t : Fin cfg8.N) (p : Fin 4000) (q : Fin 128) (r : Fin 200000) (hr : r.val = t.val * 4000 + p.val) :
    (iblk8 V c 2 t : S4000x128.Idx → EReal) (ix2 p q) = ent8_2 V c (ix2 r q) := by
  show V c (Pipeline.arrRef spec8 2) (((cfg8.win 2).blk t).view.emb (ix2 p q)) = V c (Pipeline.arrRef spec8 2) (ix2 r q)
  obtain ⟨h0, h1⟩ := (idx8_row t).2.2.1
  refine congrArg _ (funext fun a => Fin.ext ?_)
  match a with
  | ⟨0, _⟩ => show win8_2.index t (0 : Fin 2) * 4000 + 1 * p.val = r.val; omega
  | ⟨1, _⟩ => show win8_2.index t (1 : Fin 2) * 128 + 1 * q.val = q.val; omega

/-- Row block `t` of window 3 at row `p`, column `q` is the array's entry at row `t * 4000 + p`, column `q`. -/
theorem blk8_3_apply (c : Dev nD) (t : Fin cfg8.N) (p : Fin 4000) (q : Fin 128) (r : Fin 200000) (hr : r.val = t.val * 4000 + p.val) :
    (iblk8 V c 3 t : S4000x128.Idx → EReal) (ix2 p q) = ent8_3 V c (ix2 r q) := by
  show V c (Pipeline.arrRef spec8 3) (((cfg8.win 3).blk t).view.emb (ix2 p q)) = V c (Pipeline.arrRef spec8 3) (ix2 r q)
  obtain ⟨h0, h1⟩ := (idx8_row t).2.2.2.1
  refine congrArg _ (funext fun a => Fin.ext ?_)
  match a with
  | ⟨0, _⟩ => show win8_3.index t (0 : Fin 2) * 4000 + 1 * p.val = r.val; omega
  | ⟨1, _⟩ => show win8_3.index t (1 : Fin 2) * 128 + 1 * q.val = q.val; omega

/-- The resident weight block is the whole weight array. -/
theorem blk8_4_apply (c : Dev nD) (t : Fin cfg8.N) (k : Fin 128) (q : Fin 128) :
    (iblk8 V c 4 t : S128x128.Idx → EReal) (ix2 k q) = ent8_4 V c (ix2 k q) := by
  show V c (Pipeline.arrRef spec8 4) (((cfg8.win 4).blk t).view.emb (ix2 k q)) = V c (Pipeline.arrRef spec8 4) (ix2 k q)
  obtain ⟨h0, h1⟩ := (idx8_res t).1
  refine congrArg _ (funext fun a => Fin.ext ?_)
  match a with
  | ⟨0, _⟩ => show win8_4.index t (0 : Fin 2) * 128 + 1 * k.val = k.val; omega
  | ⟨1, _⟩ => show win8_4.index t (1 : Fin 2) * 128 + 1 * q.val = q.val; omega

/-- The resident bias block is the whole bias row. -/
theorem blk8_5_apply (c : Dev nD) (t : Fin cfg8.N) (q : Fin 128) :
    (iblk8 V c 5 t : S1x128.Idx → EReal) (ix2 (0 : Fin 1) q) = ent8_5 V c (ix2 (0 : Fin 1) q) := by
  show V c (Pipeline.arrRef spec8 5) (((cfg8.win 5).blk t).view.emb (ix2 (0 : Fin 1) q)) = V c (Pipeline.arrRef spec8 5) (ix2 (0 : Fin 1) q)
  obtain ⟨h0, h1⟩ := (idx8_res t).2
  refine congrArg _ (funext fun a => Fin.ext ?_)
  match a with
  | ⟨0, _⟩ => show win8_5.index t (0 : Fin 2) * 1 + 1 * (0 : Fin 1).val = (0 : Fin 1).val; omega
  | ⟨1, _⟩ => show win8_5.index t (1 : Fin 2) * 128 + 1 * q.val = q.val; omega

/-! ## Output window 6 -/

/-- What window 6's array holds after the region, as one function of the entry arrays. -/
abbrev G8_6 (c : Dev nD) : S200000x128.Idx → EReal := Cert.KSpec.GedgeNew (ent8_0 V c) (ent8_1 V c) (ent8_2 V c) (ent8_4 V c) (ent8_5 V c)

/-- Row block `t` of window 6: its index at row `p`, column `q` is row `t * 4000 + p`, column `q` of the array. -/
theorem emb8_6 (t : Fin cfg8.N) (p : Fin 4000) (q : Fin 128) (r : Fin 200000) (hr : r.val = t.val * 4000 + p.val) :
    (((cfg8.win 6).blk t).view.emb (ix2 p q) : S200000x128.Idx) = ix2 r q := by
  obtain ⟨h0, h1⟩ := (idx8_row t).2.2.2.2.1
  refine funext fun a => Fin.ext ?_
  match a with
  | ⟨0, _⟩ => show win8_6.index t (0 : Fin 2) * 4000 + 1 * p.val = r.val; omega
  | ⟨1, _⟩ => show win8_6.index t (1 : Fin 2) * 128 + 1 * q.val = q.val; omega

/-- What point `t` writes back to window 6's array is block `t` of `G8_6`. -/
theorem flushed8_6_eq (c : Dev nD) (t : Fin cfg8.N) :
    (dat8 (F := Ideal) V c).flushed 6 t = ((cfg8.win 6).blk t).view.read (Elt Ideal) (G8_6 V c) := by
  show (cfg8.win 6).cut (grid8.coords t) ((dat8 (F := Ideal) V c).after 6 t) = _
  rw [after8_6]
  unfold out8_6
  rw [View.canon_unit_zero hz8]
  simp only [View.ld_unit_zero (S := S4000x128) hz8, View.ld_unit_zero (S := S128x128) hz8, View.ld_unit_zero (S := S1x128) hz8]
  funext y
  obtain ⟨p, q, rfl⟩ : ∃ (p : Fin 4000) (q : Fin 128), y = ix2 p q := ⟨y 0, y 1, eq_ix2 y⟩
  have ht : t.val < 50 := lt_of_lt_of_eq t.isLt N_8
  have hp : p.val < 4000 := p.isLt
  have hr : ((⟨t.val * 4000 + p.val, by omega⟩ : Fin 200000)).val = t.val * 4000 + p.val := rfl
  show k8_pay1 (iblk8 V c 2 t) (iblk8 V c 4 t) (iblk8 V c 5 t) (iblk8 V c 0 t) (iblk8 V c 1 t) (ix2 p q) = G8_6 V c (((cfg8.win 6).blk t).view.emb (ix2 p q))
  rw [emb8_6 t p q _ hr]
  refine (pay8_1_apply (iblk8 V c 2 t) (iblk8 V c 4 t) (iblk8 V c 5 t) (iblk8 V c 0 t) (iblk8 V c 1 t) p q).trans ?_
  exact (congrArg₂ (· + ·) (congrArg₂ (· + ·) (blk8_0_apply V c t p q _ hr) (blk8_1_apply V c t p q _ hr))
    (congrArg₂ (· + ·) (Finset.sum_congr rfl fun k _ => congrArg₂ (· * ·) (blk8_2_apply V c t p k _ hr) (blk8_4_apply V c t k q)) (blk8_5_apply V c t q)))

/-- An index of the array is in point `t`'s block iff each coordinate is in the block's range on its axis. -/
theorem mem_blk8_6 (t : Fin cfg8.N) (i : S200000x128.Idx) :
    i ∈ ((cfg8.win 6).blk t).view.set ↔ ∀ a : Fin 2, win8_6.index t a * S4000x128.size a ≤ (i a).val ∧ (i a).val < win8_6.index t a * S4000x128.size a + S4000x128.size a := by
  show i ∈ ((View.whole main_v193_0).slice (win8_6.rect t)).set ↔ _
  rw [View.set_slice_whole, Rect.mem_set_unit]
  exact Iff.rfl

/-- Every index is in the block of the point its row falls in: point `row / 4000`. -/
theorem cover8_6 (i : S200000x128.Idx) :
    ∃ t : Fin cfg8.N, (cfg8.win 6).flush t = true ∧ i ∈ ((cfg8.win 6).blk t).view.set := by
  have hi0 : (i 0).val < 200000 := idx2_lt0 i
  have hi1 : (i 1).val < 128 := idx2_lt1 i
  have hN : cfg8.N = 50 := N_8
  refine ⟨⟨(i 0).val / 4000, by rw [hN]; omega⟩, flush8_6 _, ?_⟩
  rw [mem_blk8_6]
  obtain ⟨h0, h1⟩ := (idx8_row (⟨(i 0).val / 4000, by rw [hN]; omega⟩ : Fin cfg8.N)).2.2.2.2.1
  intro a
  match a with
  | ⟨0, _⟩ => show win8_6.index _ (0 : Fin 2) * 4000 ≤ (i 0).val ∧ (i 0).val < win8_6.index _ (0 : Fin 2) * 4000 + 4000; rw [h0]; show (i 0).val / 4000 * 4000 ≤ (i 0).val ∧ (i 0).val < (i 0).val / 4000 * 4000 + 4000; omega
  | ⟨1, _⟩ => show win8_6.index _ (1 : Fin 2) * 128 ≤ (i 1).val ∧ (i 1).val < win8_6.index _ (1 : Fin 2) * 128 + 128; rw [h1]; omega

/-- The array after the region: `G8_6` of the entry arrays, everywhere. -/
theorem final8_6 (c : Dev nD) : (dat8 (F := Ideal) V c).arrAt 6 cfg8.N = G8_6 V c :=
  (dat8 (F := Ideal) V c).arrAt_eq_of_cover 6 (G8_6 V c) (fun t _ => flushed8_6_eq V c t) (cover8_6)

/-! ## Output window 7 -/

/-- What window 7's array holds after the region, as one function of the entry arrays. -/
abbrev G8_7 (c : Dev nD) : S200000x128.Idx → EReal := Cert.KSpec.GedgeSig (ent8_0 V c) (ent8_1 V c) (ent8_2 V c) (ent8_4 V c) (ent8_5 V c)

/-- Row block `t` of window 7: its index at row `p`, column `q` is row `t * 4000 + p`, column `q` of the array. -/
theorem emb8_7 (t : Fin cfg8.N) (p : Fin 4000) (q : Fin 128) (r : Fin 200000) (hr : r.val = t.val * 4000 + p.val) :
    (((cfg8.win 7).blk t).view.emb (ix2 p q) : S200000x128.Idx) = ix2 r q := by
  obtain ⟨h0, h1⟩ := (idx8_row t).2.2.2.2.2.1
  refine funext fun a => Fin.ext ?_
  match a with
  | ⟨0, _⟩ => show win8_7.index t (0 : Fin 2) * 4000 + 1 * p.val = r.val; omega
  | ⟨1, _⟩ => show win8_7.index t (1 : Fin 2) * 128 + 1 * q.val = q.val; omega

/-- What point `t` writes back to window 7's array is block `t` of `G8_7`. -/
theorem flushed8_7_eq (c : Dev nD) (t : Fin cfg8.N) :
    (dat8 (F := Ideal) V c).flushed 7 t = ((cfg8.win 7).blk t).view.read (Elt Ideal) (G8_7 V c) := by
  show (cfg8.win 7).cut (grid8.coords t) ((dat8 (F := Ideal) V c).after 7 t) = _
  rw [after8_7]
  unfold out8_7
  rw [View.canon_unit_zero hz8]
  simp only [View.ld_unit_zero (S := S4000x128) hz8, View.ld_unit_zero (S := S128x128) hz8, View.ld_unit_zero (S := S1x128) hz8]
  funext y
  obtain ⟨p, q, rfl⟩ : ∃ (p : Fin 4000) (q : Fin 128), y = ix2 p q := ⟨y 0, y 1, eq_ix2 y⟩
  have ht : t.val < 50 := lt_of_lt_of_eq t.isLt N_8
  have hp : p.val < 4000 := p.isLt
  have hr : ((⟨t.val * 4000 + p.val, by omega⟩ : Fin 200000)).val = t.val * 4000 + p.val := rfl
  show k8_pay2 (iblk8 V c 2 t) (iblk8 V c 4 t) (iblk8 V c 5 t) (iblk8 V c 0 t) (iblk8 V c 1 t) (ix2 p q) = G8_7 V c (((cfg8.win 7).blk t).view.emb (ix2 p q))
  rw [emb8_7 t p q _ hr]
  refine (pay8_2_apply (iblk8 V c 2 t) (iblk8 V c 4 t) (iblk8 V c 5 t) (iblk8 V c 0 t) (iblk8 V c 1 t) p q).trans ?_
  exact congrArg Ideal.logistic (congrArg₂ (· + ·) (congrArg₂ (· + ·) (blk8_0_apply V c t p q _ hr) (blk8_1_apply V c t p q _ hr))
    (congrArg₂ (· + ·) (Finset.sum_congr rfl fun k _ => congrArg₂ (· * ·) (blk8_2_apply V c t p k _ hr) (blk8_4_apply V c t k q)) (blk8_5_apply V c t q)))

/-- An index of the array is in point `t`'s block iff each coordinate is in the block's range on its axis. -/
theorem mem_blk8_7 (t : Fin cfg8.N) (i : S200000x128.Idx) :
    i ∈ ((cfg8.win 7).blk t).view.set ↔ ∀ a : Fin 2, win8_7.index t a * S4000x128.size a ≤ (i a).val ∧ (i a).val < win8_7.index t a * S4000x128.size a + S4000x128.size a := by
  show i ∈ ((View.whole main_v193_1).slice (win8_7.rect t)).set ↔ _
  rw [View.set_slice_whole, Rect.mem_set_unit]
  exact Iff.rfl

/-- Every index is in the block of the point its row falls in: point `row / 4000`. -/
theorem cover8_7 (i : S200000x128.Idx) :
    ∃ t : Fin cfg8.N, (cfg8.win 7).flush t = true ∧ i ∈ ((cfg8.win 7).blk t).view.set := by
  have hi0 : (i 0).val < 200000 := idx2_lt0 i
  have hi1 : (i 1).val < 128 := idx2_lt1 i
  have hN : cfg8.N = 50 := N_8
  refine ⟨⟨(i 0).val / 4000, by rw [hN]; omega⟩, flush8_7 _, ?_⟩
  rw [mem_blk8_7]
  obtain ⟨h0, h1⟩ := (idx8_row (⟨(i 0).val / 4000, by rw [hN]; omega⟩ : Fin cfg8.N)).2.2.2.2.2.1
  intro a
  match a with
  | ⟨0, _⟩ => show win8_7.index _ (0 : Fin 2) * 4000 ≤ (i 0).val ∧ (i 0).val < win8_7.index _ (0 : Fin 2) * 4000 + 4000; rw [h0]; show (i 0).val / 4000 * 4000 ≤ (i 0).val ∧ (i 0).val < (i 0).val / 4000 * 4000 + 4000; omega
  | ⟨1, _⟩ => show win8_7.index _ (1 : Fin 2) * 128 ≤ (i 1).val ∧ (i 1).val < win8_7.index _ (1 : Fin 2) * 128 + 128; rw [h1]; omega

/-- The array after the region: `G8_7` of the entry arrays, everywhere. -/
theorem final8_7 (c : Dev nD) : (dat8 (F := Ideal) V c).arrAt 7 cfg8.N = G8_7 V c :=
  (dat8 (F := Ideal) V c).arrAt_eq_of_cover 7 (G8_7 V c) (fun t _ => flushed8_7_eq V c t) (cover8_7)

/-! ## Output window 8 -/

/-- What window 8's array holds after the region, as one function of the entry arrays. -/
abbrev G8_8 (c : Dev nD) : S200000x128.Idx → EReal := Cert.KSpec.GedgeNum (ent8_0 V c) (ent8_1 V c) (ent8_2 V c) (ent8_3 V c) (ent8_4 V c) (ent8_5 V c)

/-- Row block `t` of window 8: its index at row `p`, column `q` is row `t * 4000 + p`, column `q` of the array. -/
theorem emb8_8 (t : Fin cfg8.N) (p : Fin 4000) (q : Fin 128) (r : Fin 200000) (hr : r.val = t.val * 4000 + p.val) :
    (((cfg8.win 8).blk t).view.emb (ix2 p q) : S200000x128.Idx) = ix2 r q := by
  obtain ⟨h0, h1⟩ := (idx8_row t).2.2.2.2.2.2
  refine funext fun a => Fin.ext ?_
  match a with
  | ⟨0, _⟩ => show win8_8.index t (0 : Fin 2) * 4000 + 1 * p.val = r.val; omega
  | ⟨1, _⟩ => show win8_8.index t (1 : Fin 2) * 128 + 1 * q.val = q.val; omega

/-- What point `t` writes back to window 8's array is block `t` of `G8_8`. -/
theorem flushed8_8_eq (c : Dev nD) (t : Fin cfg8.N) :
    (dat8 (F := Ideal) V c).flushed 8 t = ((cfg8.win 8).blk t).view.read (Elt Ideal) (G8_8 V c) := by
  show (cfg8.win 8).cut (grid8.coords t) ((dat8 (F := Ideal) V c).after 8 t) = _
  rw [after8_8]
  unfold out8_8
  rw [View.canon_unit_zero hz8]
  simp only [View.ld_unit_zero (S := S4000x128) hz8, View.ld_unit_zero (S := S128x128) hz8, View.ld_unit_zero (S := S1x128) hz8]
  funext y
  obtain ⟨p, q, rfl⟩ : ∃ (p : Fin 4000) (q : Fin 128), y = ix2 p q := ⟨y 0, y 1, eq_ix2 y⟩
  have ht : t.val < 50 := lt_of_lt_of_eq t.isLt N_8
  have hp : p.val < 4000 := p.isLt
  have hr : ((⟨t.val * 4000 + p.val, by omega⟩ : Fin 200000)).val = t.val * 4000 + p.val := rfl
  show k8_pay3 (iblk8 V c 2 t) (iblk8 V c 4 t) (iblk8 V c 5 t) (iblk8 V c 0 t) (iblk8 V c 1 t) (iblk8 V c 3 t) (ix2 p q) = G8_8 V c (((cfg8.win 8).blk t).view.emb (ix2 p q))
  rw [emb8_8 t p q _ hr]
  refine (pay8_3_apply (iblk8 V c 2 t) (iblk8 V c 4 t) (iblk8 V c 5 t) (iblk8 V c 0 t) (iblk8 V c 1 t) (iblk8 V c 3 t) p q).trans ?_
  exact congrArg₂ (· * ·) (congrArg Ideal.logistic (congrArg₂ (· + ·) (congrArg₂ (· + ·) (blk8_0_apply V c t p q _ hr) (blk8_1_apply V c t p q _ hr))
    (congrArg₂ (· + ·) (Finset.sum_congr rfl fun k _ => congrArg₂ (· * ·) (blk8_2_apply V c t p k _ hr) (blk8_4_apply V c t k q)) (blk8_5_apply V c t q)))) (blk8_3_apply V c t p q _ hr)

/-- An index of the array is in point `t`'s block iff each coordinate is in the block's range on its axis. -/
theorem mem_blk8_8 (t : Fin cfg8.N) (i : S200000x128.Idx) :
    i ∈ ((cfg8.win 8).blk t).view.set ↔ ∀ a : Fin 2, win8_8.index t a * S4000x128.size a ≤ (i a).val ∧ (i a).val < win8_8.index t a * S4000x128.size a + S4000x128.size a := by
  show i ∈ ((View.whole main_v193_2).slice (win8_8.rect t)).set ↔ _
  rw [View.set_slice_whole, Rect.mem_set_unit]
  exact Iff.rfl

/-- Every index is in the block of the point its row falls in: point `row / 4000`. -/
theorem cover8_8 (i : S200000x128.Idx) :
    ∃ t : Fin cfg8.N, (cfg8.win 8).flush t = true ∧ i ∈ ((cfg8.win 8).blk t).view.set := by
  have hi0 : (i 0).val < 200000 := idx2_lt0 i
  have hi1 : (i 1).val < 128 := idx2_lt1 i
  have hN : cfg8.N = 50 := N_8
  refine ⟨⟨(i 0).val / 4000, by rw [hN]; omega⟩, flush8_8 _, ?_⟩
  rw [mem_blk8_8]
  obtain ⟨h0, h1⟩ := (idx8_row (⟨(i 0).val / 4000, by rw [hN]; omega⟩ : Fin cfg8.N)).2.2.2.2.2.2
  intro a
  match a with
  | ⟨0, _⟩ => show win8_8.index _ (0 : Fin 2) * 4000 ≤ (i 0).val ∧ (i 0).val < win8_8.index _ (0 : Fin 2) * 4000 + 4000; rw [h0]; show (i 0).val / 4000 * 4000 ≤ (i 0).val ∧ (i 0).val < (i 0).val / 4000 * 4000 + 4000; omega
  | ⟨1, _⟩ => show win8_8.index _ (1 : Fin 2) * 128 ≤ (i 1).val ∧ (i 1).val < win8_8.index _ (1 : Fin 2) * 128 + 128; rw [h1]; omega

/-- The array after the region: `G8_8` of the entry arrays, everywhere. -/
theorem final8_8 (c : Dev nD) : (dat8 (F := Ideal) V c).arrAt 8 cfg8.N = G8_8 V c :=
  (dat8 (F := Ideal) V c).arrAt_eq_of_cover 8 (G8_8 V c) (fun t _ => flushed8_8_eq V c t) (cover8_8)

/-! ## The three output arrays after the region -/

/-- `e_new`, the whole array: the new edge feature of the entry arrays. -/
theorem arr8_6_eq (c : Dev nD) :
    (dat8 (F := Ideal) V c).arrAt 6 cfg8.N = Cert.KSpec.GedgeNew (V c (Pipeline.arrRef spec8 0)) (V c (Pipeline.arrRef spec8 1)) (V c (Pipeline.arrRef spec8 2)) (V c (Pipeline.arrRef spec8 4)) (V c (Pipeline.arrRef spec8 5)) :=
  final8_6 V c

/-- `sigma`, the whole array: the logistic of the new edge feature. -/
theorem arr8_7_eq (c : Dev nD) :
    (dat8 (F := Ideal) V c).arrAt 7 cfg8.N = Cert.KSpec.GedgeSig (V c (Pipeline.arrRef spec8 0)) (V c (Pipeline.arrRef spec8 1)) (V c (Pipeline.arrRef spec8 2)) (V c (Pipeline.arrRef spec8 4)) (V c (Pipeline.arrRef spec8 5)) :=
  final8_7 V c

/-- The gated message `sigma * vh`, the whole array. -/
theorem arr8_8_eq (c : Dev nD) :
    (dat8 (F := Ideal) V c).arrAt 8 cfg8.N = Cert.KSpec.GedgeNum (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) :=
  final8_8 V c

/-- `e_new` at row `r`, column `j`. -/
theorem arr8_6_apply (c : Dev nD) (r : Fin 200000) (j : Fin 128) :
    (dat8 (F := Ideal) V c).arrAt 6 cfg8.N (ix2 r j) = Cert.KSpec.edgeNewAt (V c (Pipeline.arrRef spec8 0)) (V c (Pipeline.arrRef spec8 1)) (V c (Pipeline.arrRef spec8 2)) (V c (Pipeline.arrRef spec8 4)) (V c (Pipeline.arrRef spec8 5)) r j :=
  congrFun (final8_6 V c) (ix2 r j)

/-- `sigma` at row `r`, column `j`. -/
theorem arr8_7_apply (c : Dev nD) (r : Fin 200000) (j : Fin 128) :
    (dat8 (F := Ideal) V c).arrAt 7 cfg8.N (ix2 r j) = Ideal.logistic (Cert.KSpec.edgeNewAt (V c (Pipeline.arrRef spec8 0)) (V c (Pipeline.arrRef spec8 1)) (V c (Pipeline.arrRef spec8 2)) (V c (Pipeline.arrRef spec8 4)) (V c (Pipeline.arrRef spec8 5)) r j) :=
  congrFun (final8_7 V c) (ix2 r j)

/-- The gated message at row `r`, column `j`. -/
theorem arr8_8_apply (c : Dev nD) (r : Fin 200000) (j : Fin 128) :
    (dat8 (F := Ideal) V c).arrAt 8 cfg8.N (ix2 r j) = Cert.KSpec.GedgeNum (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (ix2 r j) :=
  congrFun (final8_8 V c) (ix2 r j)

end Cert.KernelIdeal.Val

end
-- ==== Proof.Val9.lean ====
import proofs.«425355_j88287347737110_2_alg».proof.Proof.Reg9
import proofs.«425355_j88287347737110_2_alg».proof.Proof.KSpec
import Idealize.ShloMosaic.Lib.Pipeline.Value
import Idealize.ShloMosaic.Lib.ValueIdx
import Idealize.ShloMosaic.Lib.Tactic

/-! The node-update region (custom_call 9), read at the extended reals: after the region the output array holds,
    at every row `r` and column `j`, `uh r j + num r j / (den r j + eps)` of the three input arrays as the region
    finds them. Each grid point writes the row block it reads; the five blocks tile the 25000 rows. -/

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three input arrays as the region finds them, at their literal type: `uh`, the numerator, the denominator. -/
abbrev ent9_0 (c : Dev nD) : S25000x128.Idx → EReal := V c (Pipeline.arrRef spec9 0)
abbrev ent9_1 (c : Dev nD) : S25000x128.Idx → EReal := V c (Pipeline.arrRef spec9 1)
abbrev ent9_2 (c : Dev nD) : S25000x128.Idx → EReal := V c (Pipeline.arrRef spec9 2)

/-- The body's rectangles start at the origin of the staging buffer. -/
theorem origin9 : (![0, 0] : Fin 2 → Nat) = fun _ => 0 := funext fun a => by fin_cases a <;> rfl

/-- The node update of three whole arrays, entry by entry: `uh + num / (den + eps)`, the divisor's constant kept
    as the word the body holds. -/
abbrev nodeArr9 (uh num den : S25000x128.Idx → EReal) : S25000x128.Idx → EReal :=
  fun i => uh i + Ideal.div (num i) (den i + Ideal.ofBits .f32 0x358637BD#32)

/-- The body's payload is that update of its three loaded blocks, entry by entry. -/
theorem pay9_eq (x0 x1 x2 : Vec Ideal S5000x128 .f32) :
    k9_pay1 x0 x1 x2 = fun y => x0 y + Ideal.div (x1 y) (x2 y + Ideal.ofBits .f32 0x358637BD#32) := by
  unfold k9_pay1
  simp only [shapeCast_self]
  rfl

/-- So is what the body leaves in the output's staging buffer: its one store takes the whole buffer. -/
theorem out9_3_eq (x0 x1 x2 : Vec Ideal S5000x128 .f32) :
    out9_3 x0 x1 x2 = fun y => x0 y + Ideal.div (x1 y) (x2 y + Ideal.ofBits .f32 0x358637BD#32) := by
  unfold out9_3
  rw [View.canon_unit_zero origin9]
  simp only [View.ld_unit_zero (S := S5000x128) origin9]
  exact pay9_eq x0 x1 x2

/-- The printed index maps, decided over the grid: at point `t` every window is on row block `t`, column block 0. -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

/-- A block's entry is the array's entry at row `5000 t + y 0`, column `y 1`: the four windows' blocks at a
    point sit at the same place of their arrays. -/
theorem emb9_eq (t : Fin cfg9.N) (j : S5000x128.Idx) :
    ((cfg9.win 0).blk t).view.emb j = ((cfg9.win 3).blk t).view.emb j
    ∧ ((cfg9.win 1).blk t).view.emb j = ((cfg9.win 3).blk t).view.emb j
    ∧ ((cfg9.win 2).blk t).view.emb j = ((cfg9.win 3).blk t).view.emb j := by
  obtain ⟨e00, e01, e10, e11, e20, e21, e30, e31⟩ := idx_facts9 t
  refine ⟨?_, ?_, ?_⟩
  · funext a; apply Fin.ext
    match a with
    | ⟨0, _⟩ => show win9_0.index t (0 : Fin 2) * 5000 + 1 * (j 0).val = win9_3.index t (0 : Fin 2) * 5000 + 1 * (j 0).val; omega
    | ⟨1, _⟩ => show win9_0.index t (1 : Fin 2) * 128 + 1 * (j 1).val = win9_3.index t (1 : Fin 2) * 128 + 1 * (j 1).val; omega
  · funext a; apply Fin.ext
    match a with
    | ⟨0, _⟩ => show win9_1.index t (0 : Fin 2) * 5000 + 1 * (j 0).val = win9_3.index t (0 : Fin 2) * 5000 + 1 * (j 0).val; omega
    | ⟨1, _⟩ => show win9_1.index t (1 : Fin 2) * 128 + 1 * (j 1).val = win9_3.index t (1 : Fin 2) * 128 + 1 * (j 1).val; omega
  · funext a; apply Fin.ext
    match a with
    | ⟨0, _⟩ => show win9_2.index t (0 : Fin 2) * 5000 + 1 * (j 0).val = win9_3.index t (0 : Fin 2) * 5000 + 1 * (j 0).val; omega
    | ⟨1, _⟩ => show win9_2.index t (1 : Fin 2) * 128 + 1 * (j 1).val = win9_3.index t (1 : Fin 2) * 128 + 1 * (j 1).val; omega

/-- What point `t` writes back is block `t` of the node update of the three input arrays as the region finds them. -/
theorem flushed9_3_eq (c : Dev nD) (t : Fin cfg9.N) :
    (dat9 V c).flushed 3 t = ((cfg9.win 3).blk t).view.read (Elt Ideal)
      (nodeArr9 (ent9_0 V c) (ent9_1 V c) (ent9_2 V c)) := by
  show (cfg9.win 3).cut (grid9.coords t) ((dat9 V c).after 3 t) = _
  rw [after9_3]
  refine (congrArg ((cfg9.win 3).cut (grid9.coords t)) (out9_3_eq (iblk9 V c 0 t) (iblk9 V c 1 t) (iblk9 V c 2 t))).trans ?_
  funext j
  obtain ⟨h0, h1, h2⟩ := emb9_eq t j
  show ent9_0 V c (((cfg9.win 0).blk t).view.emb j)
      + Ideal.div (ent9_1 V c (((cfg9.win 1).blk t).view.emb j))
          (ent9_2 V c (((cfg9.win 2).blk t).view.emb j) + Ideal.ofBits .f32 0x358637BD#32)
    = ent9_0 V c (((cfg9.win 3).blk t).view.emb j)
      + Ideal.div (ent9_1 V c (((cfg9.win 3).blk t).view.emb j))
          (ent9_2 V c (((cfg9.win 3).blk t).view.emb j) + Ideal.ofBits .f32 0x358637BD#32)
  rw [h0, h1, h2]

/-- An index of the output array is in point `t`'s block iff each coordinate is in the block's range on its axis. -/
theorem mem_blk9_3 (t : Fin cfg9.N) (i : S25000x128.Idx) :
    i ∈ ((cfg9.win 3).blk t).view.set ↔ ∀ a : Fin 2, win9_3.index t a * S5000x128.size a ≤ (i a).val ∧ (i a).val < win9_3.index t a * S5000x128.size a + S5000x128.size a := by
  show i ∈ ((View.whole main_v206).slice (win9_3.rect t)).set ↔ _
  rw [View.set_slice_whole, Rect.mem_set_unit]
  exact Iff.rfl

/-- Every index of the output array is in some point's block: row `r` is in row block `r / 5000`. -/
theorem cover9_3_arr (i : S25000x128.Idx) :
    ∃ t : Fin cfg9.N, (cfg9.win 3).flush t = true ∧ i ∈ ((cfg9.win 3).blk t).view.set := by
  have hi0 : (i 0).val < 25000 := (i 0).isLt
  have hi1 : (i 1).val < 128 := (i 1).isLt
  have hN : cfg9.N = 5 := N_9
  obtain ⟨t, ht⟩ : ∃ t : Fin cfg9.N, t.val = (i 0).val / 5000 := ⟨⟨(i 0).val / 5000, by rw [hN]; omega⟩, rfl⟩
  obtain ⟨e00, e01, e10, e11, e20, e21, e30, e31⟩ := idx_facts9 t
  refine ⟨t, flush9_3 t, ?_⟩
  rw [mem_blk9_3]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 128 ≤ (i 1).val ∧ (i 1).val < win9_3.index t (1 : Fin 2) * 128 + 128; omega

/-- The output array after the region is the node update of the three input arrays. -/
theorem arr9_3_node (c : Dev nD) :
    (dat9 V c).arrAt 3 cfg9.N = nodeArr9 (ent9_0 V c) (ent9_1 V c) (ent9_2 V c) :=
  (dat9 V c).arrAt_eq_of_cover 3 _ (fun t _ => flushed9_3_eq V c t) cover9_3_arr

/-- The output array after the region, index by index. -/
theorem arr9_3_apply (c : Dev nD) (r : Fin 25000) (j : Fin 128) :
    (dat9 (F := Ideal) V c).arrAt 3 cfg9.N (ValueIdx.ix2 r j)
      = ent9_0 V c (ValueIdx.ix2 r j)
        + Ideal.div (ent9_1 V c (ValueIdx.ix2 r j)) (ent9_2 V c (ValueIdx.ix2 r j) + Ideal.ofBits .f32 0x358637BD#32) :=
  congrFun (arr9_3_node V c) (ValueIdx.ix2 r j)

/-- The same as one whole-array function of the three input arrays. -/
theorem arr9_3_eq (c : Dev nD) :
    (dat9 (F := Ideal) V c).arrAt 3 cfg9.N
      = Cert.KSpec.Gnode (V c (Pipeline.arrRef spec9 0)) (V c (Pipeline.arrRef spec9 1)) (V c (Pipeline.arrRef spec9 2)) :=
  arr9_3_node V c

end Cert.KernelIdeal.Val
-- ==== Proof.Val10.lean ====
import proofs.«425355_j88287347737110_2_alg».proof.Proof.Reg10
import proofs.«425355_j88287347737110_2_alg».proof.Proof.KSpec
import Idealize.ShloMosaic.Lib.Pipeline.Value
import Idealize.ShloMosaic.Lib.ValueLayout
import Idealize.ShloMosaic.Lib.ValueIdx
import Idealize.ShloMosaic.PureOps.Ideal.Laws

/-! # Region 10 at the extended reals: the output array, index by index

After the region the output array holds, at row `r` and lane `j`,
`orig r j + max (((val r j - mean j) * rsqrt (var j + ε)) * scale j + shift j) 0`
of the six input arrays as the region finds them. The payload is read at one index, each input block is read
off its array, each point's written-back block is identified with that block of one function of the arrays,
and the blocks of 5000 rows tile the 25000 rows. -/

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The six input arrays as the region finds them, over the extended reals -/

/-- The value to normalise. -/
abbrev val10 (c : Dev nD) : S25000x128.Idx → EReal := V c (Pipeline.arrRef spec10 0)
/-- The residual. -/
abbrev orig10 (c : Dev nD) : S25000x128.Idx → EReal := V c (Pipeline.arrRef spec10 1)
/-- The mean row. -/
abbrev mean10 (c : Dev nD) : S1x128.Idx → EReal := V c (Pipeline.arrRef spec10 2)
/-- The variance row. -/
abbrev var10 (c : Dev nD) : S1x128.Idx → EReal := V c (Pipeline.arrRef spec10 3)
/-- The scale row. -/
abbrev scale10 (c : Dev nD) : S1x128.Idx → EReal := V c (Pipeline.arrRef spec10 4)
/-- The shift row. -/
abbrev shift10 (c : Dev nD) : S1x128.Idx → EReal := V c (Pipeline.arrRef spec10 5)

/-! ## The payload at one index -/

/-- The stored value at row `p`, lane `q` of the block: the residual plus the rectified, scaled and shifted
    normalisation of the value, the four rows read at lane `q`. -/
theorem pay10_apply (v0 : Vec Ideal S5000x128 .f32) (v2 v6 v13 v17 : Vec Ideal S1x128 .f32) (v21 : Vec Ideal S5000x128 .f32)
    (p : Fin 5000) (q : Fin 128) :
    k10_pay1 v0 v2 v6 v13 v17 v21 (ix2 p q) =
      v21 (ix2 p q) + max (((v0 (ix2 p q) - v2 (ix2 (0 : Fin 1) q)) * Ideal.rsqrt (v6 (ix2 (0 : Fin 1) q) + Ideal.ofBits .f32 0x3727C5AC#32))
        * v13 (ix2 (0 : Fin 1) q) + v17 (ix2 (0 : Fin 1) q)) 0 := by
  unfold k10_pay1
  simp only [shapeCast_self]
  rw [addf_apply, maximumf_apply, addf_apply, mulf_apply, mulf_apply, subf_apply, broadcast_apply]
  simp only [broadcastTo_1b_ab_apply]
  simp only [Ideal.ofBits_def, Ideal.ofBits_zero_f32]
  rfl

/-! ## The blocks, read off the arrays -/

theorem hz10 : (![0, 0] : Fin 2 → Nat) = fun _ => 0 := funext fun a => by fin_cases a <;> rfl

/-- The index maps, decided over the grid: the two streamed inputs and the output are at block row `t`, the four
    one-row inputs at block 0. -/
theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0 :=
  (by decide +kernel : ∀ t : Fin grid10.N, _)

/-- The array row of row `p` of block `t`. -/
def row10 (t : Fin cfg10.N) (p : Fin 5000) : Fin 25000 :=
  ⟨t.val * 5000 + p.val, by have ht : t.val < 5 := lt_of_lt_of_eq t.isLt N_10; have hp := p.isLt; omega⟩

/-- Window 0's block at point `t`, at row `p`, lane `q`: the array at row `t · 5000 + p`. -/
theorem blk10_0_apply (c : Dev nD) (t : Fin cfg10.N) (p : Fin 5000) (q : Fin 128) :
    (iblk10 V c 0 t : Vec Ideal S5000x128 .f32) (ix2 p q) = val10 V c (ix2 (row10 t p) q) := by
  obtain ⟨e00, e01, e10, e11, e20, e21, e30, e31, e40, e41, e50, e51, e60, e61⟩ := idx_facts10 t
  show val10 V c (((cfg10.win 0).blk t).view.emb (ix2 p q)) = _
  refine congrArg (val10 V c) ?_
  funext a; apply Fin.ext
  match a with
  | ⟨0, _⟩ => show win10_0.index t (0 : Fin 2) * 5000 + 1 * p.val = t.val * 5000 + p.val; omega
  | ⟨1, _⟩ => show win10_0.index t (1 : Fin 2) * 128 + 1 * q.val = q.val; omega

/-- Window 1's block at point `t`, at row `p`, lane `q`: the array at row `t · 5000 + p`. -/
theorem blk10_1_apply (c : Dev nD) (t : Fin cfg10.N) (p : Fin 5000) (q : Fin 128) :
    (iblk10 V c 1 t : Vec Ideal S5000x128 .f32) (ix2 p q) = orig10 V c (ix2 (row10 t p) q) := by
  obtain ⟨e00, e01, e10, e11, e20, e21, e30, e31, e40, e41, e50, e51, e60, e61⟩ := idx_facts10 t
  show orig10 V c (((cfg10.win 1).blk t).view.emb (ix2 p q)) = _
  refine congrArg (orig10 V c) ?_
  funext a; apply Fin.ext
  match a with
  | ⟨0, _⟩ => show win10_1.index t (0 : Fin 2) * 5000 + 1 * p.val = t.val * 5000 + p.val; omega
  | ⟨1, _⟩ => show win10_1.index t (1 : Fin 2) * 128 + 1 * q.val = q.val; omega

/-- Window 2's block at any point is the whole one-row array. -/
theorem blk10_2_apply (c : Dev nD) (t : Fin cfg10.N) (q : Fin 128) :
    (iblk10 V c 2 t : Vec Ideal S1x128 .f32) (ix2 (0 : Fin 1) q) = mean10 V c (ix2 (0 : Fin 1) q) := by
  obtain ⟨e00, e01, e10, e11, e20, e21, e30, e31, e40, e41, e50, e51, e60, e61⟩ := idx_facts10 t
  show mean10 V c (((cfg10.win 2).blk t).view.emb (ix2 (0 : Fin 1) q)) = _
  refine congrArg (mean10 V c) ?_
  funext a; apply Fin.ext
  match a with
  | ⟨0, _⟩ => show win10_2.index t (0 : Fin 2) * 1 + 1 * 0 = 0; omega
  | ⟨1, _⟩ => show win10_2.index t (1 : Fin 2) * 128 + 1 * q.val = q.val; omega

/-- Window 3's block at any point is the whole one-row array. -/
theorem blk10_3_apply (c : Dev nD) (t : Fin cfg10.N) (q : Fin 128) :
    (iblk10 V c 3 t : Vec Ideal S1x128 .f32) (ix2 (0 : Fin 1) q) = var10 V c (ix2 (0 : Fin 1) q) := by
  obtain ⟨e00, e01, e10, e11, e20, e21, e30, e31, e40, e41, e50, e51, e60, e61⟩ := idx_facts10 t
  show var10 V c (((cfg10.win 3).blk t).view.emb (ix2 (0 : Fin 1) q)) = _
  refine congrArg (var10 V c) ?_
  funext a; apply Fin.ext
  match a with
  | ⟨0, _⟩ => show win10_3.index t (0 : Fin 2) * 1 + 1 * 0 = 0; omega
  | ⟨1, _⟩ => show win10_3.index t (1 : Fin 2) * 128 + 1 * q.val = q.val; omega

/-- Window 4's block at any point is the whole one-row array. -/
theorem blk10_4_apply (c : Dev nD) (t : Fin cfg10.N) (q : Fin 128) :
    (iblk10 V c 4 t : Vec Ideal S1x128 .f32) (ix2 (0 : Fin 1) q) = scale10 V c (ix2 (0 : Fin 1) q) := by
  obtain ⟨e00, e01, e10, e11, e20, e21, e30, e31, e40, e41, e50, e51, e60, e61⟩ := idx_facts10 t
  show scale10 V c (((cfg10.win 4).blk t).view.emb (ix2 (0 : Fin 1) q)) = _
  refine congrArg (scale10 V c) ?_
  funext a; apply Fin.ext
  match a with
  | ⟨0, _⟩ => show win10_4.index t (0 : Fin 2) * 1 + 1 * 0 = 0; omega
  | ⟨1, _⟩ => show win10_4.index t (1 : Fin 2) * 128 + 1 * q.val = q.val; omega

/-- Window 5's block at any point is the whole one-row array. -/
theorem blk10_5_apply (c : Dev nD) (t : Fin cfg10.N) (q : Fin 128) :
    (iblk10 V c 5 t : Vec Ideal S1x128 .f32) (ix2 (0 : Fin 1) q) = shift10 V c (ix2 (0 : Fin 1) q) := by
  obtain ⟨e00, e01, e10, e11, e20, e21, e30, e31, e40, e41, e50, e51, e60, e61⟩ := idx_facts10 t
  show shift10 V c (((cfg10.win 5).blk t).view.emb (ix2 (0 : Fin 1) q)) = _
  refine congrArg (shift10 V c) ?_
  funext a; apply Fin.ext
  match a with
  | ⟨0, _⟩ => show win10_5.index t (0 : Fin 2) * 1 + 1 * 0 = 0; omega
  | ⟨1, _⟩ => show win10_5.index t (1 : Fin 2) * 128 + 1 * q.val = q.val; omega

/-- The output window's block at point `t` sits at the same rows of its array. -/
theorem emb10_6 (t : Fin cfg10.N) (p : Fin 5000) (q : Fin 128) :
    ((cfg10.win 6).blk t).view.emb (ix2 p q) = (ix2 (row10 t p) q : S25000x128.Idx) := by
  obtain ⟨e00, e01, e10, e11, e20, e21, e30, e31, e40, e41, e50, e51, e60, e61⟩ := idx_facts10 t
  funext a; apply Fin.ext
  match a with
  | ⟨0, _⟩ => show win10_6.index t (0 : Fin 2) * 5000 + 1 * p.val = t.val * 5000 + p.val; omega
  | ⟨1, _⟩ => show win10_6.index t (1 : Fin 2) * 128 + 1 * q.val = q.val; omega

/-! ## From the blocks to the array -/

/-- What point `t` writes back is block `t` of the specification's array function of the six arrays. -/
theorem flushed10_6_eq (c : Dev nD) (t : Fin cfg10.N) :
    (dat10 (F := Ideal) V c).flushed 6 t = ((cfg10.win 6).blk t).view.read (Elt Ideal)
      (Cert.KSpec.GbnN (val10 V c) (orig10 V c) (mean10 V c) (var10 V c) (scale10 V c) (shift10 V c)) := by
  show (cfg10.win 6).cut (grid10.coords t) ((dat10 V c).after 6 t) = _
  rw [after10_6]
  unfold out10_6
  rw [View.canon_unit_zero hz10]
  simp only [View.ld_unit_zero (S := S5000x128) hz10, View.ld_unit_zero (S := S1x128) hz10]
  funext y
  obtain ⟨p, q, rfl⟩ : ∃ (p : Fin 5000) (q : Fin 128), y = ix2 p q := ⟨y 0, y 1, eq_ix2 y⟩
  show k10_pay1 (iblk10 V c 0 t) (iblk10 V c 2 t) (iblk10 V c 3 t) (iblk10 V c 4 t) (iblk10 V c 5 t) (iblk10 V c 1 t) (ix2 p q)
    = Cert.KSpec.GbnN (val10 V c) (orig10 V c) (mean10 V c) (var10 V c) (scale10 V c) (shift10 V c) (((cfg10.win 6).blk t).view.emb (ix2 p q))
  refine (pay10_apply (iblk10 V c 0 t) (iblk10 V c 2 t) (iblk10 V c 3 t) (iblk10 V c 4 t) (iblk10 V c 5 t) (iblk10 V c 1 t) p q).trans ?_
  rw [blk10_0_apply, blk10_1_apply, blk10_2_apply, blk10_3_apply, blk10_4_apply, blk10_5_apply, emb10_6]
  rfl

/-- An index of the array is in point `t`'s block iff each coordinate is in the block's range on its axis. -/
theorem mem_blk10_6 (t : Fin cfg10.N) (i : S25000x128.Idx) :
    i ∈ ((cfg10.win 6).blk t).view.set ↔ ∀ a : Fin 2, win10_6.index t a * S5000x128.size a ≤ (i a).val ∧ (i a).val < win10_6.index t a * S5000x128.size a + S5000x128.size a := by
  show i ∈ ((View.whole (Pipeline.arrRef spec10 6)).slice (win10_6.rect t)).set ↔ _
  rw [View.set_slice_whole, Rect.mem_set_unit]
  exact Iff.rfl

/-- Every index of the array is in some point's block: row `r` is in block `r / 5000`. -/
theorem cover10_6_arr (i : S25000x128.Idx) : ∃ t : Fin cfg10.N, (cfg10.win 6).flush t = true ∧ i ∈ ((cfg10.win 6).blk t).view.set := by
  have hi0 : (i 0).val < 25000 := (i 0).isLt
  have hi1 : (i 1).val < 128 := (i 1).isLt
  have hlt : (i 0).val / 5000 < 5 := by omega
  refine ⟨⟨(i 0).val / 5000, lt_of_lt_of_eq hlt N_10.symm⟩, flush10_6 _, ?_⟩
  rw [mem_blk10_6]
  obtain ⟨e00, e01, e10, e11, e20, e21, e30, e31, e40, e41, e50, e51, e60, e61⟩ := idx_facts10 ⟨(i 0).val / 5000, lt_of_lt_of_eq hlt N_10.symm⟩
  intro a
  match a with
  | ⟨0, _⟩ => show win10_6.index _ (0 : Fin 2) * 5000 ≤ (i 0).val ∧ (i 0).val < win10_6.index _ (0 : Fin 2) * 5000 + 5000; rw [e60]; show (i 0).val / 5000 * 5000 ≤ _ ∧ _ < (i 0).val / 5000 * 5000 + 5000; omega
  | ⟨1, _⟩ => show win10_6.index _ (1 : Fin 2) * 128 ≤ (i 1).val ∧ (i 1).val < win10_6.index _ (1 : Fin 2) * 128 + 128; rw [e61]; omega

/-- The output array after the region is the specification's array function of the six arrays as the region
    finds them. -/
theorem arr10_6_eq (c : Dev nD) : (dat10 (F := Ideal) V c).arrAt 6 cfg10.N =
    Cert.KSpec.GbnN (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) :=
  (dat10 (F := Ideal) V c).arrAt_eq_of_cover 6 (Cert.KSpec.GbnN (val10 V c) (orig10 V c) (mean10 V c) (var10 V c) (scale10 V c) (shift10 V c)) (fun t _ => flushed10_6_eq V c t) cover10_6_arr

/-- The output array after the region, index by index. -/
theorem arr10_6_apply (c : Dev nD) (r : Fin 25000) (j : Fin 128) :
    ((dat10 (F := Ideal) V c).arrAt 6 cfg10.N : S25000x128.Idx → EReal) (ix2 r j) =
      orig10 V c (ix2 r j)
        + max (((val10 V c (ix2 r j) - mean10 V c (ix2 (0 : Fin 1) j))
              * Ideal.rsqrt (var10 V c (ix2 (0 : Fin 1) j) + Ideal.ofBits .f32 0x3727C5AC#32))
              * scale10 V c (ix2 (0 : Fin 1) j) + shift10 V c (ix2 (0 : Fin 1) j)) 0 := by
  rw [arr10_6_eq]
  rfl

end Cert.KernelIdeal.Val
-- ==== Proof.Val11.lean ====
import proofs.«425355_j88287347737110_2_alg».proof.Proof.Reg11
import proofs.«425355_j88287347737110_2_alg».proof.Proof.KSpec
import Idealize.ShloMosaic.Lib.Pipeline.Value
import Idealize.ShloMosaic.Lib.ValueLayout
import Idealize.ShloMosaic.Lib.ValueIdx
import Idealize.ShloMosaic.PureOps.Ideal.Laws

/-! # Region 11 at the extended reals: the output array, index by index

After the region the output array holds, at row `r` and lane `j`,
`orig r j + max (((val r j - mean j) * rsqrt (var j + ε)) * scale j + shift j) 0`
of the six input arrays as the region finds them. The payload is read at one index, each input block is read
off its array, each point's written-back block is identified with that block of one function of the arrays,
and the blocks of 4000 rows tile the 200000 rows. -/

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The six input arrays as the region finds them, over the extended reals -/

/-- The value to normalise. -/
abbrev val11 (c : Dev nD) : S200000x128.Idx → EReal := V c (Pipeline.arrRef spec11 0)
/-- The residual. -/
abbrev orig11 (c : Dev nD) : S200000x128.Idx → EReal := V c (Pipeline.arrRef spec11 1)
/-- The mean row. -/
abbrev mean11 (c : Dev nD) : S1x128.Idx → EReal := V c (Pipeline.arrRef spec11 2)
/-- The variance row. -/
abbrev var11 (c : Dev nD) : S1x128.Idx → EReal := V c (Pipeline.arrRef spec11 3)
/-- The scale row. -/
abbrev scale11 (c : Dev nD) : S1x128.Idx → EReal := V c (Pipeline.arrRef spec11 4)
/-- The shift row. -/
abbrev shift11 (c : Dev nD) : S1x128.Idx → EReal := V c (Pipeline.arrRef spec11 5)

/-! ## The payload at one index -/

/-- The stored value at row `p`, lane `q` of the block: the residual plus the rectified, scaled and shifted
    normalisation of the value, the four rows read at lane `q`. -/
theorem pay11_apply (v0 : Vec Ideal S4000x128 .f32) (v2 v6 v13 v17 : Vec Ideal S1x128 .f32) (v21 : Vec Ideal S4000x128 .f32)
    (p : Fin 4000) (q : Fin 128) :
    k11_pay1 v0 v2 v6 v13 v17 v21 (ix2 p q) =
      v21 (ix2 p q) + max (((v0 (ix2 p q) - v2 (ix2 (0 : Fin 1) q)) * Ideal.rsqrt (v6 (ix2 (0 : Fin 1) q) + Ideal.ofBits .f32 0x3727C5AC#32))
        * v13 (ix2 (0 : Fin 1) q) + v17 (ix2 (0 : Fin 1) q)) 0 := by
  unfold k11_pay1
  simp only [shapeCast_self]
  rw [addf_apply, maximumf_apply, addf_apply, mulf_apply, mulf_apply, subf_apply, broadcast_apply]
  simp only [broadcastTo_1b_ab_apply]
  simp only [Ideal.ofBits_def, Ideal.ofBits_zero_f32]
  rfl

/-! ## The blocks, read off the arrays -/

theorem hz11 : (![0, 0] : Fin 2 → Nat) = fun _ => 0 := funext fun a => by fin_cases a <;> rfl

/-- The index maps, decided over the grid: the two streamed inputs and the output are at block row `t`, the four
    one-row inputs at block 0. -/
theorem idx_facts11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = t.val ∧ win11_6.index t (1 : Fin 2) = 0 :=
  (by decide +kernel : ∀ t : Fin grid11.N, _)

/-- The array row of row `p` of block `t`. -/
def row11 (t : Fin cfg11.N) (p : Fin 4000) : Fin 200000 :=
  ⟨t.val * 4000 + p.val, by have ht : t.val < 50 := lt_of_lt_of_eq t.isLt N_11; have hp := p.isLt; omega⟩

/-- Window 0's block at point `t`, at row `p`, lane `q`: the array at row `t · 4000 + p`. -/
theorem blk11_0_apply (c : Dev nD) (t : Fin cfg11.N) (p : Fin 4000) (q : Fin 128) :
    (iblk11 V c 0 t : Vec Ideal S4000x128 .f32) (ix2 p q) = val11 V c (ix2 (row11 t p) q) := by
  obtain ⟨e00, e01, e10, e11, e20, e21, e30, e31, e40, e41, e50, e51, e60, e61⟩ := idx_facts11 t
  show val11 V c (((cfg11.win 0).blk t).view.emb (ix2 p q)) = _
  refine congrArg (val11 V c) ?_
  funext a; apply Fin.ext
  match a with
  | ⟨0, _⟩ => show win11_0.index t (0 : Fin 2) * 4000 + 1 * p.val = t.val * 4000 + p.val; omega
  | ⟨1, _⟩ => show win11_0.index t (1 : Fin 2) * 128 + 1 * q.val = q.val; omega

/-- Window 1's block at point `t`, at row `p`, lane `q`: the array at row `t · 4000 + p`. -/
theorem blk11_1_apply (c : Dev nD) (t : Fin cfg11.N) (p : Fin 4000) (q : Fin 128) :
    (iblk11 V c 1 t : Vec Ideal S4000x128 .f32) (ix2 p q) = orig11 V c (ix2 (row11 t p) q) := by
  obtain ⟨e00, e01, e10, e11, e20, e21, e30, e31, e40, e41, e50, e51, e60, e61⟩ := idx_facts11 t
  show orig11 V c (((cfg11.win 1).blk t).view.emb (ix2 p q)) = _
  refine congrArg (orig11 V c) ?_
  funext a; apply Fin.ext
  match a with
  | ⟨0, _⟩ => show win11_1.index t (0 : Fin 2) * 4000 + 1 * p.val = t.val * 4000 + p.val; omega
  | ⟨1, _⟩ => show win11_1.index t (1 : Fin 2) * 128 + 1 * q.val = q.val; omega

/-- Window 2's block at any point is the whole one-row array. -/
theorem blk11_2_apply (c : Dev nD) (t : Fin cfg11.N) (q : Fin 128) :
    (iblk11 V c 2 t : Vec Ideal S1x128 .f32) (ix2 (0 : Fin 1) q) = mean11 V c (ix2 (0 : Fin 1) q) := by
  obtain ⟨e00, e01, e10, e11, e20, e21, e30, e31, e40, e41, e50, e51, e60, e61⟩ := idx_facts11 t
  show mean11 V c (((cfg11.win 2).blk t).view.emb (ix2 (0 : Fin 1) q)) = _
  refine congrArg (mean11 V c) ?_
  funext a; apply Fin.ext
  match a with
  | ⟨0, _⟩ => show win11_2.index t (0 : Fin 2) * 1 + 1 * 0 = 0; omega
  | ⟨1, _⟩ => show win11_2.index t (1 : Fin 2) * 128 + 1 * q.val = q.val; omega

/-- Window 3's block at any point is the whole one-row array. -/
theorem blk11_3_apply (c : Dev nD) (t : Fin cfg11.N) (q : Fin 128) :
    (iblk11 V c 3 t : Vec Ideal S1x128 .f32) (ix2 (0 : Fin 1) q) = var11 V c (ix2 (0 : Fin 1) q) := by
  obtain ⟨e00, e01, e10, e11, e20, e21, e30, e31, e40, e41, e50, e51, e60, e61⟩ := idx_facts11 t
  show var11 V c (((cfg11.win 3).blk t).view.emb (ix2 (0 : Fin 1) q)) = _
  refine congrArg (var11 V c) ?_
  funext a; apply Fin.ext
  match a with
  | ⟨0, _⟩ => show win11_3.index t (0 : Fin 2) * 1 + 1 * 0 = 0; omega
  | ⟨1, _⟩ => show win11_3.index t (1 : Fin 2) * 128 + 1 * q.val = q.val; omega

/-- Window 4's block at any point is the whole one-row array. -/
theorem blk11_4_apply (c : Dev nD) (t : Fin cfg11.N) (q : Fin 128) :
    (iblk11 V c 4 t : Vec Ideal S1x128 .f32) (ix2 (0 : Fin 1) q) = scale11 V c (ix2 (0 : Fin 1) q) := by
  obtain ⟨e00, e01, e10, e11, e20, e21, e30, e31, e40, e41, e50, e51, e60, e61⟩ := idx_facts11 t
  show scale11 V c (((cfg11.win 4).blk t).view.emb (ix2 (0 : Fin 1) q)) = _
  refine congrArg (scale11 V c) ?_
  funext a; apply Fin.ext
  match a with
  | ⟨0, _⟩ => show win11_4.index t (0 : Fin 2) * 1 + 1 * 0 = 0; omega
  | ⟨1, _⟩ => show win11_4.index t (1 : Fin 2) * 128 + 1 * q.val = q.val; omega

/-- Window 5's block at any point is the whole one-row array. -/
theorem blk11_5_apply (c : Dev nD) (t : Fin cfg11.N) (q : Fin 128) :
    (iblk11 V c 5 t : Vec Ideal S1x128 .f32) (ix2 (0 : Fin 1) q) = shift11 V c (ix2 (0 : Fin 1) q) := by
  obtain ⟨e00, e01, e10, e11, e20, e21, e30, e31, e40, e41, e50, e51, e60, e61⟩ := idx_facts11 t
  show shift11 V c (((cfg11.win 5).blk t).view.emb (ix2 (0 : Fin 1) q)) = _
  refine congrArg (shift11 V c) ?_
  funext a; apply Fin.ext
  match a with
  | ⟨0, _⟩ => show win11_5.index t (0 : Fin 2) * 1 + 1 * 0 = 0; omega
  | ⟨1, _⟩ => show win11_5.index t (1 : Fin 2) * 128 + 1 * q.val = q.val; omega

/-- The output window's block at point `t` sits at the same rows of its array. -/
theorem emb11_6 (t : Fin cfg11.N) (p : Fin 4000) (q : Fin 128) :
    ((cfg11.win 6).blk t).view.emb (ix2 p q) = (ix2 (row11 t p) q : S200000x128.Idx) := by
  obtain ⟨e00, e01, e10, e11, e20, e21, e30, e31, e40, e41, e50, e51, e60, e61⟩ := idx_facts11 t
  funext a; apply Fin.ext
  match a with
  | ⟨0, _⟩ => show win11_6.index t (0 : Fin 2) * 4000 + 1 * p.val = t.val * 4000 + p.val; omega
  | ⟨1, _⟩ => show win11_6.index t (1 : Fin 2) * 128 + 1 * q.val = q.val; omega

/-! ## From the blocks to the array -/

/-- What point `t` writes back is block `t` of the specification's array function of the six arrays. -/
theorem flushed11_6_eq (c : Dev nD) (t : Fin cfg11.N) :
    (dat11 (F := Ideal) V c).flushed 6 t = ((cfg11.win 6).blk t).view.read (Elt Ideal)
      (Cert.KSpec.GbnE (val11 V c) (orig11 V c) (mean11 V c) (var11 V c) (scale11 V c) (shift11 V c)) := by
  show (cfg11.win 6).cut (grid11.coords t) ((dat11 V c).after 6 t) = _
  rw [after11_6]
  unfold out11_6
  rw [View.canon_unit_zero hz11]
  simp only [View.ld_unit_zero (S := S4000x128) hz11, View.ld_unit_zero (S := S1x128) hz11]
  funext y
  obtain ⟨p, q, rfl⟩ : ∃ (p : Fin 4000) (q : Fin 128), y = ix2 p q := ⟨y 0, y 1, eq_ix2 y⟩
  show k11_pay1 (iblk11 V c 0 t) (iblk11 V c 2 t) (iblk11 V c 3 t) (iblk11 V c 4 t) (iblk11 V c 5 t) (iblk11 V c 1 t) (ix2 p q)
    = Cert.KSpec.GbnE (val11 V c) (orig11 V c) (mean11 V c) (var11 V c) (scale11 V c) (shift11 V c) (((cfg11.win 6).blk t).view.emb (ix2 p q))
  refine (pay11_apply (iblk11 V c 0 t) (iblk11 V c 2 t) (iblk11 V c 3 t) (iblk11 V c 4 t) (iblk11 V c 5 t) (iblk11 V c 1 t) p q).trans ?_
  rw [blk11_0_apply, blk11_1_apply, blk11_2_apply, blk11_3_apply, blk11_4_apply, blk11_5_apply, emb11_6]
  rfl

/-- An index of the array is in point `t`'s block iff each coordinate is in the block's range on its axis. -/
theorem mem_blk11_6 (t : Fin cfg11.N) (i : S200000x128.Idx) :
    i ∈ ((cfg11.win 6).blk t).view.set ↔ ∀ a : Fin 2, win11_6.index t a * S4000x128.size a ≤ (i a).val ∧ (i a).val < win11_6.index t a * S4000x128.size a + S4000x128.size a := by
  show i ∈ ((View.whole (Pipeline.arrRef spec11 6)).slice (win11_6.rect t)).set ↔ _
  rw [View.set_slice_whole, Rect.mem_set_unit]
  exact Iff.rfl

/-- Every index of the array is in some point's block: row `r` is in block `r / 4000`. -/
theorem cover11_6_arr (i : S200000x128.Idx) : ∃ t : Fin cfg11.N, (cfg11.win 6).flush t = true ∧ i ∈ ((cfg11.win 6).blk t).view.set := by
  have hi0 : (i 0).val < 200000 := (i 0).isLt
  have hi1 : (i 1).val < 128 := (i 1).isLt
  have hlt : (i 0).val / 4000 < 50 := by omega
  refine ⟨⟨(i 0).val / 4000, lt_of_lt_of_eq hlt N_11.symm⟩, flush11_6 _, ?_⟩
  rw [mem_blk11_6]
  obtain ⟨e00, e01, e10, e11, e20, e21, e30, e31, e40, e41, e50, e51, e60, e61⟩ := idx_facts11 ⟨(i 0).val / 4000, lt_of_lt_of_eq hlt N_11.symm⟩
  intro a
  match a with
  | ⟨0, _⟩ => show win11_6.index _ (0 : Fin 2) * 4000 ≤ (i 0).val ∧ (i 0).val < win11_6.index _ (0 : Fin 2) * 4000 + 4000; rw [e60]; show (i 0).val / 4000 * 4000 ≤ _ ∧ _ < (i 0).val / 4000 * 4000 + 4000; omega
  | ⟨1, _⟩ => show win11_6.index _ (1 : Fin 2) * 128 ≤ (i 1).val ∧ (i 1).val < win11_6.index _ (1 : Fin 2) * 128 + 128; rw [e61]; omega

/-- The output array after the region is the specification's array function of the six arrays as the region
    finds them. -/
theorem arr11_6_eq (c : Dev nD) : (dat11 (F := Ideal) V c).arrAt 6 cfg11.N =
    Cert.KSpec.GbnE (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) :=
  (dat11 (F := Ideal) V c).arrAt_eq_of_cover 6 (Cert.KSpec.GbnE (val11 V c) (orig11 V c) (mean11 V c) (var11 V c) (scale11 V c) (shift11 V c)) (fun t _ => flushed11_6_eq V c t) cover11_6_arr

/-- The output array after the region, index by index. -/
theorem arr11_6_apply (c : Dev nD) (r : Fin 200000) (j : Fin 128) :
    ((dat11 (F := Ideal) V c).arrAt 6 cfg11.N : S200000x128.Idx → EReal) (ix2 r j) =
      orig11 V c (ix2 r j)
        + max (((val11 V c (ix2 r j) - mean11 V c (ix2 (0 : Fin 1) j))
              * Ideal.rsqrt (var11 V c (ix2 (0 : Fin 1) j) + Ideal.ofBits .f32 0x3727C5AC#32))
              * scale11 V c (ix2 (0 : Fin 1) j) + shift11 V c (ix2 (0 : Fin 1) j)) 0 := by
  rw [arr11_6_eq]
  rfl

end Cert.KernelIdeal.Val
-- ==== Proof.KHostL2a.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the host steps of layer 2 leave in the buffers later steps read, as the
    arrangement's glue functions of the buffers they start from, for an arbitrary starting state. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Between the fused projection and the edge region: column slices, the two gathers, the
    block-diagonal edge weight, the packing -/

theorem hostOps8_v157 :
    after (hostOps8_2 (F := Ideal)) (after (hostOps8_1 (F := Ideal)) (after (hostOps8 (F := Ideal)) V)) (main_v157 : DevRef τ sig)
      = Cert.KSpec.colsU (V (main_v154 : DevRef τ sig)) := by
  after_results_simp <;> (try simp only [TRef.ofBuf, TRef.toBuf, cast_eq]) <;> rfl

theorem hostOps8_v188 :
    after (hostOps8_2 (F := Ideal)) (after (hostOps8_1 (F := Ideal)) (after (hostOps8 (F := Ideal)) V)) (main_v188 : DevRef τ sig)
      = Cert.KSpec.packE (Cert.Spec.gatherRows (Cert.KSpec.colsA (V (main_v154 : DevRef τ sig))) (V (main_v3 : DevRef τ sig))) := by
  after_results_simp <;> (try simp only [TRef.ofBuf, TRef.toBuf, cast_eq]) <;> rfl

theorem hostOps8_v189 :
    after (hostOps8_2 (F := Ideal)) (after (hostOps8_1 (F := Ideal)) (after (hostOps8 (F := Ideal)) V)) (main_v189 : DevRef τ sig)
      = Cert.KSpec.packE (Cert.KSpec.left32 (Cert.KSpec.gatherRows64 (Cert.KSpec.colsBV (V (main_v154 : DevRef τ sig))) (V (main_v1 : DevRef τ sig)))) := by
  after_results_simp <;> (try simp only [TRef.ofBuf, TRef.toBuf, cast_eq]) <;> rfl

theorem hostOps8_v190 :
    after (hostOps8_2 (F := Ideal)) (after (hostOps8_1 (F := Ideal)) (after (hostOps8 (F := Ideal)) V)) (main_v190 : DevRef τ sig)
      = Cert.KSpec.packE (Cert.KSpec.right32 (Cert.KSpec.gatherRows64 (Cert.KSpec.colsBV (V (main_v154 : DevRef τ sig))) (V (main_v1 : DevRef τ sig)))) := by
  after_results_simp <;> (try simp only [TRef.ofBuf, TRef.toBuf, cast_eq]) <;> rfl

theorem hostOps8_v191 :
    after (hostOps8_2 (F := Ideal)) (after (hostOps8_1 (F := Ideal)) (after (hostOps8 (F := Ideal)) V)) (main_v191 : DevRef τ sig)
      = Cert.KSpec.packE (V (main_v134 : DevRef τ sig)) := by
  after_results_simp <;> (try simp only [TRef.ofBuf, TRef.toBuf, cast_eq]) <;> rfl

theorem hostOps8_v182 :
    after (hostOps8_2 (F := Ideal)) (after (hostOps8_1 (F := Ideal)) (after (hostOps8 (F := Ideal)) V)) (main_v182 : DevRef τ sig)
      = Cert.KSpec.kron Cert.KSpec.eye4 (Cert.Spec.wSl 1 Cert.Spec.slices_W_1 (V (main_arg11 : DevRef τ sig))) := by
  after_results_simp <;> (try simp only [TRef.ofBuf, TRef.toBuf, cast_eq]) <;> rfl

theorem hostOps8_v192 :
    after (hostOps8_2 (F := Ideal)) (after (hostOps8_1 (F := Ideal)) (after (hostOps8 (F := Ideal)) V)) (main_v192 : DevRef τ sig)
      = Cert.KSpec.row128 (Cert.KSpec.tile4 (Cert.Spec.bSl 1 Cert.Spec.slices_b_1 (V (main_arg12 : DevRef τ sig)))) := by
  after_results_simp <;> (try simp only [TRef.ofBuf, TRef.toBuf, cast_eq]) <;> rfl

/-- A buffer none of these steps writes stays as it was. -/
theorem hostOps8_keep {r : Ref sig .tc} (h0 : r ∉ GenP.hostOps8_W) (h1 : r ∉ GenP.hostOps8_1_W) (h2 : r ∉ GenP.hostOps8_2_W) :
    after (hostOps8_2 (F := Ideal)) (after (hostOps8_1 (F := Ideal)) (after (hostOps8 (F := Ideal)) V)) (Proc.devRef .tc r) = V (Proc.devRef .tc r) := by
  rw [after_of_writes_sub hostOps8_2 _ GenP.hostOps8_2_writes h2,
    after_of_writes_sub hostOps8_1 _ GenP.hostOps8_1_writes h1,
    after_of_writes_sub hostOps8 _ GenP.hostOps8_writes h0]

/-- The same for the buffers read later. -/
theorem hostOps8_keep_live {r : Ref sig .tc}
    (hr : r ∈ ([main_v1, main_v3, main_v127, main_v134, main_v154, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps8_2 (F := Ideal)) (after (hostOps8_1 (F := Ideal)) (after (hostOps8 (F := Ideal)) V)) (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl
  all_goals exact hostOps8_keep V (by decide) (by decide) (by decide)

/-! ## Between the edge region and the node region: unpacking, the two segment sums, the packing -/

theorem hostOps9_v194 :
    after (hostOps9 (F := Ideal)) V (main_v194 : DevRef τ sig)
      = Cert.KSpec.unpackE (V (main_v193_0 : DevRef τ sig)) := by
  after_results_simp
  rfl

theorem hostOps9_v203 :
    after (hostOps9 (F := Ideal)) V (main_v203 : DevRef τ sig)
      = Cert.KSpec.packN (V (main_v157 : DevRef τ sig)) := by
  after_results_simp
  rfl

theorem hostOps9_v204 :
    after (hostOps9 (F := Ideal)) V (main_v204 : DevRef τ sig)
      = Cert.KSpec.packN (Cert.Spec.segSum (Cert.KSpec.unpackE (V (main_v193_2 : DevRef τ sig))) (V (main_v3 : DevRef τ sig))) := by
  after_results_simp
  rfl

theorem hostOps9_v205 :
    after (hostOps9 (F := Ideal)) V (main_v205 : DevRef τ sig)
      = Cert.KSpec.packN (Cert.Spec.segSum (Cert.KSpec.unpackE (V (main_v193_1 : DevRef τ sig))) (V (main_v3 : DevRef τ sig))) := by
  after_results_simp
  rfl

/-- A buffer none of these steps writes stays as it was. -/
theorem hostOps9_keep {r : Ref sig .tc} (h0 : r ∉ GenP.hostOps9_W) :
    after (hostOps9 (F := Ideal)) V (Proc.devRef .tc r) = V (Proc.devRef .tc r) := by
  rw [after_of_writes_sub hostOps9 _ GenP.hostOps9_writes h0]

/-- The same for the buffers read later. -/
theorem hostOps9_keep_live {r : Ref sig .tc}
    (hr : r ∈ ([main_v1, main_v3, main_v127, main_v134, main_v193_0, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps9 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl
  all_goals exact hostOps9_keep V (by decide)

end Cert.KernelIdeal.KHost
-- ==== Proof.KHostL2b.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the host steps between the node update and the node normalisation of layer 2
    leave in the arrays that later steps read: the column statistics of the node update and of the
    new edge features, and the statistics and the scale and shift parameters repeated four times
    and laid out as one row. Each statement holds for an arbitrary state of the arrays before the
    steps. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Each group of steps alone, from an arbitrary state of the arrays -/

section Groups

variable {F : FTy → Type} [FloatOps F] (W : Valuation τ sig (Elt F))

/-! ### The unpacked node update and its column means -/

theorem hostOps10_s0_v207 :
    after hostOps10 W (main_v207 : DevRef τ sig)
      = Cert.KSpec.unpackN (W (main_v206 : DevRef τ sig)) := by
  after_results_simp <;> rfl

theorem hostOps10_s0_v210 :
    after hostOps10 W (main_v210 : DevRef τ sig)
      = Cert.Spec.meanN (Cert.KSpec.unpackN (W (main_v206 : DevRef τ sig))) := by
  after_results_simp <;> rfl

theorem hostOps10_s0_c7 :
    after hostOps10 W (main_c_20 : DevRef τ sig)
      = constantI Cert.Spec.S_ 32 0#32 := by
  after_results_simp <;> rfl

theorem hostOps10_s0_keep {r : Ref sig .tc} (h : r ∉ GenP.hostOps10_W) :
    after hostOps10 W (Proc.devRef .tc r) = W (Proc.devRef .tc r) :=
  after_of_writes_sub hostOps10 _ GenP.hostOps10_writes h

/-! ### The column variances of the node update -/

theorem hostOps10_s1_v211 :
    after hostOps10_1 W (main_v211 : DevRef τ sig)
      = Cert.Spec.varN (W (main_v207 : DevRef τ sig)) (W (main_c_20 : DevRef τ sig)) := by
  after_results_simp
  all_goals (try simp only [TRef.ofBuf, TRef.toBuf, cast_eq])
  all_goals unfold Cert.Spec.varN
  all_goals with_reducible rfl

theorem hostOps10_s1_keep {r : Ref sig .tc} (h : r ∉ GenP.hostOps10_1_W) :
    after hostOps10_1 W (Proc.devRef .tc r) = W (Proc.devRef .tc r) :=
  after_of_writes_sub hostOps10_1 _ GenP.hostOps10_1_writes h

/-! ### The column means of the new edge features -/

theorem hostOps10_s2_v214 :
    after hostOps10_2 W (main_v214 : DevRef τ sig)
      = Cert.Spec.meanE (W (main_v194 : DevRef τ sig)) := by
  after_results_simp <;> rfl

theorem hostOps10_s2_c10 :
    after hostOps10_2 W (main_c_23 : DevRef τ sig)
      = constantI Cert.Spec.S_ 32 0#32 := by
  after_results_simp <;> rfl

theorem hostOps10_s2_keep {r : Ref sig .tc} (h : r ∉ GenP.hostOps10_2_W) :
    after hostOps10_2 W (Proc.devRef .tc r) = W (Proc.devRef .tc r) :=
  after_of_writes_sub hostOps10_2 _ GenP.hostOps10_2_writes h

/-! ### The column variances of the new edge features -/

theorem hostOps10_s3_v215 :
    after hostOps10_3 W (main_v215 : DevRef τ sig)
      = Cert.Spec.varE (W (main_v194 : DevRef τ sig)) (W (main_c_23 : DevRef τ sig)) := by
  after_results_simp
  all_goals (try simp only [TRef.ofBuf, TRef.toBuf, cast_eq])
  all_goals unfold Cert.Spec.varE
  all_goals with_reducible rfl

theorem hostOps10_s3_keep {r : Ref sig .tc} (h : r ∉ GenP.hostOps10_3_W) :
    after hostOps10_3 W (Proc.devRef .tc r) = W (Proc.devRef .tc r) :=
  after_of_writes_sub hostOps10_3 _ GenP.hostOps10_3_writes h

/-! ### The statistics and the parameters repeated four times; the node features packed -/

theorem hostOps10_s4_v248 :
    after hostOps10_4 W (main_v248 : DevRef τ sig)
      = Cert.KSpec.packN (W (main_v127 : DevRef τ sig)) := by
  after_results_simp <;> rfl

theorem hostOps10_s4_v249 :
    after hostOps10_4 W (main_v249 : DevRef τ sig)
      = Cert.KSpec.row128 (Cert.KSpec.tile4 (W (main_v210 : DevRef τ sig))) := by
  after_results_simp <;> rfl

theorem hostOps10_s4_v250 :
    after hostOps10_4 W (main_v250 : DevRef τ sig)
      = Cert.KSpec.row128 (Cert.KSpec.tile4 (W (main_v211 : DevRef τ sig))) := by
  after_results_simp <;> rfl

theorem hostOps10_s4_v251 :
    after hostOps10_4 W (main_v251 : DevRef τ sig)
      = Cert.KSpec.row128 (Cert.KSpec.tile4 (Cert.Spec.bSl 1 Cert.Spec.slices_b_1 (W (main_arg17 : DevRef τ sig)))) := by
  after_results_simp <;> rfl

theorem hostOps10_s4_v252 :
    after hostOps10_4 W (main_v252 : DevRef τ sig)
      = Cert.KSpec.row128 (Cert.KSpec.tile4 (Cert.Spec.bSl 1 Cert.Spec.slices_b_1 (W (main_arg18 : DevRef τ sig)))) := by
  after_results_simp <;> rfl

theorem hostOps10_s4_v234 :
    after hostOps10_4 W (main_v234 : DevRef τ sig)
      = Cert.KSpec.tile4 (W (main_v214 : DevRef τ sig)) := by
  after_results_simp <;> rfl

theorem hostOps10_s4_v237 :
    after hostOps10_4 W (main_v237 : DevRef τ sig)
      = Cert.KSpec.tile4 (W (main_v215 : DevRef τ sig)) := by
  after_results_simp <;> rfl

theorem hostOps10_s4_v242 :
    after hostOps10_4 W (main_v242 : DevRef τ sig)
      = Cert.KSpec.tile4 (Cert.Spec.bSl 1 Cert.Spec.slices_b_1 (W (main_arg19 : DevRef τ sig))) := by
  after_results_simp <;> rfl

theorem hostOps10_s4_v247 :
    after hostOps10_4 W (main_v247 : DevRef τ sig)
      = Cert.KSpec.tile4 (Cert.Spec.bSl 1 Cert.Spec.slices_b_1 (W (main_arg20 : DevRef τ sig))) := by
  after_results_simp <;> rfl

theorem hostOps10_s4_keep {r : Ref sig .tc} (h : r ∉ GenP.hostOps10_4_W) :
    after hostOps10_4 W (Proc.devRef .tc r) = W (Proc.devRef .tc r) :=
  after_of_writes_sub hostOps10_4 _ GenP.hostOps10_4_writes h

end Groups

/-! ## The five groups one after the other -/

theorem hostOps10_v248 :
    after (hostOps10_4 (F := Ideal)) (after (hostOps10_3 (F := Ideal)) (after (hostOps10_2 (F := Ideal)) (after (hostOps10_1 (F := Ideal)) (after (hostOps10 (F := Ideal)) V)))) (main_v248 : DevRef τ sig)
      = Cert.KSpec.packN (V (main_v127 : DevRef τ sig)) := by
  rw [hostOps10_s4_v248,
    hostOps10_s3_keep _ (r := main_v127) (by decide),
    hostOps10_s2_keep _ (r := main_v127) (by decide),
    hostOps10_s1_keep _ (r := main_v127) (by decide),
    hostOps10_s0_keep _ (r := main_v127) (by decide)]

theorem hostOps10_v249 :
    after (hostOps10_4 (F := Ideal)) (after (hostOps10_3 (F := Ideal)) (after (hostOps10_2 (F := Ideal)) (after (hostOps10_1 (F := Ideal)) (after (hostOps10 (F := Ideal)) V)))) (main_v249 : DevRef τ sig)
      = Cert.KSpec.row128 (Cert.KSpec.tile4 (Cert.Spec.meanN (Cert.KSpec.unpackN (V (main_v206 : DevRef τ sig))))) := by
  rw [hostOps10_s4_v249,
    hostOps10_s3_keep _ (r := main_v210) (by decide),
    hostOps10_s2_keep _ (r := main_v210) (by decide),
    hostOps10_s1_keep _ (r := main_v210) (by decide),
    hostOps10_s0_v210]

theorem hostOps10_v250 :
    after (hostOps10_4 (F := Ideal)) (after (hostOps10_3 (F := Ideal)) (after (hostOps10_2 (F := Ideal)) (after (hostOps10_1 (F := Ideal)) (after (hostOps10 (F := Ideal)) V)))) (main_v250 : DevRef τ sig)
      = Cert.KSpec.row128 (Cert.KSpec.tile4 (Cert.Spec.varN (Cert.KSpec.unpackN (V (main_v206 : DevRef τ sig))) (constantI Cert.Spec.S_ 32 0#32))) := by
  rw [hostOps10_s4_v250,
    hostOps10_s3_keep _ (r := main_v211) (by decide),
    hostOps10_s2_keep _ (r := main_v211) (by decide),
    hostOps10_s1_v211,
    hostOps10_s0_v207,
    hostOps10_s0_c7]

theorem hostOps10_v251 :
    after (hostOps10_4 (F := Ideal)) (after (hostOps10_3 (F := Ideal)) (after (hostOps10_2 (F := Ideal)) (after (hostOps10_1 (F := Ideal)) (after (hostOps10 (F := Ideal)) V)))) (main_v251 : DevRef τ sig)
      = Cert.KSpec.row128 (Cert.KSpec.tile4 (Cert.Spec.bSl 1 Cert.Spec.slices_b_1 (V (main_arg17 : DevRef τ sig)))) := by
  rw [hostOps10_s4_v251,
    hostOps10_s3_keep _ (r := main_arg17) (by decide),
    hostOps10_s2_keep _ (r := main_arg17) (by decide),
    hostOps10_s1_keep _ (r := main_arg17) (by decide),
    hostOps10_s0_keep _ (r := main_arg17) (by decide)]

theorem hostOps10_v252 :
    after (hostOps10_4 (F := Ideal)) (after (hostOps10_3 (F := Ideal)) (after (hostOps10_2 (F := Ideal)) (after (hostOps10_1 (F := Ideal)) (after (hostOps10 (F := Ideal)) V)))) (main_v252 : DevRef τ sig)
      = Cert.KSpec.row128 (Cert.KSpec.tile4 (Cert.Spec.bSl 1 Cert.Spec.slices_b_1 (V (main_arg18 : DevRef τ sig)))) := by
  rw [hostOps10_s4_v252,
    hostOps10_s3_keep _ (r := main_arg18) (by decide),
    hostOps10_s2_keep _ (r := main_arg18) (by decide),
    hostOps10_s1_keep _ (r := main_arg18) (by decide),
    hostOps10_s0_keep _ (r := main_arg18) (by decide)]

theorem hostOps10_v234 :
    after (hostOps10_4 (F := Ideal)) (after (hostOps10_3 (F := Ideal)) (after (hostOps10_2 (F := Ideal)) (after (hostOps10_1 (F := Ideal)) (after (hostOps10 (F := Ideal)) V)))) (main_v234 : DevRef τ sig)
      = Cert.KSpec.tile4 (Cert.Spec.meanE (V (main_v194 : DevRef τ sig))) := by
  rw [hostOps10_s4_v234,
    hostOps10_s3_keep _ (r := main_v214) (by decide),
    hostOps10_s2_v214,
    hostOps10_s1_keep _ (r := main_v194) (by decide),
    hostOps10_s0_keep _ (r := main_v194) (by decide)]

theorem hostOps10_v237 :
    after (hostOps10_4 (F := Ideal)) (after (hostOps10_3 (F := Ideal)) (after (hostOps10_2 (F := Ideal)) (after (hostOps10_1 (F := Ideal)) (after (hostOps10 (F := Ideal)) V)))) (main_v237 : DevRef τ sig)
      = Cert.KSpec.tile4 (Cert.Spec.varE (V (main_v194 : DevRef τ sig)) (constantI Cert.Spec.S_ 32 0#32)) := by
  rw [hostOps10_s4_v237,
    hostOps10_s3_v215,
    hostOps10_s2_keep _ (r := main_v194) (by decide),
    hostOps10_s1_keep _ (r := main_v194) (by decide),
    hostOps10_s0_keep _ (r := main_v194) (by decide),
    hostOps10_s2_c10]

theorem hostOps10_v242 :
    after (hostOps10_4 (F := Ideal)) (after (hostOps10_3 (F := Ideal)) (after (hostOps10_2 (F := Ideal)) (after (hostOps10_1 (F := Ideal)) (after (hostOps10 (F := Ideal)) V)))) (main_v242 : DevRef τ sig)
      = Cert.KSpec.tile4 (Cert.Spec.bSl 1 Cert.Spec.slices_b_1 (V (main_arg19 : DevRef τ sig))) := by
  rw [hostOps10_s4_v242,
    hostOps10_s3_keep _ (r := main_arg19) (by decide),
    hostOps10_s2_keep _ (r := main_arg19) (by decide),
    hostOps10_s1_keep _ (r := main_arg19) (by decide),
    hostOps10_s0_keep _ (r := main_arg19) (by decide)]

theorem hostOps10_v247 :
    after (hostOps10_4 (F := Ideal)) (after (hostOps10_3 (F := Ideal)) (after (hostOps10_2 (F := Ideal)) (after (hostOps10_1 (F := Ideal)) (after (hostOps10 (F := Ideal)) V)))) (main_v247 : DevRef τ sig)
      = Cert.KSpec.tile4 (Cert.Spec.bSl 1 Cert.Spec.slices_b_1 (V (main_arg20 : DevRef τ sig))) := by
  rw [hostOps10_s4_v247,
    hostOps10_s3_keep _ (r := main_arg20) (by decide),
    hostOps10_s2_keep _ (r := main_arg20) (by decide),
    hostOps10_s1_keep _ (r := main_arg20) (by decide),
    hostOps10_s0_keep _ (r := main_arg20) (by decide)]

/-- An array that none of the five groups writes stays as it was. -/
theorem hostOps10_keep {r : Ref sig .tc} (h0 : r ∉ GenP.hostOps10_W) (h1 : r ∉ GenP.hostOps10_1_W) (h2 : r ∉ GenP.hostOps10_2_W)
    (h3 : r ∉ GenP.hostOps10_3_W) (h4 : r ∉ GenP.hostOps10_4_W) :
    after (hostOps10_4 (F := Ideal)) (after (hostOps10_3 (F := Ideal)) (after (hostOps10_2 (F := Ideal)) (after (hostOps10_1 (F := Ideal)) (after (hostOps10 (F := Ideal)) V)))) (Proc.devRef .tc r) = V (Proc.devRef .tc r) := by
  rw [hostOps10_s4_keep _ h4, hostOps10_s3_keep _ h3, hostOps10_s2_keep _ h2, hostOps10_s1_keep _ h1, hostOps10_s0_keep _ h0]

/-- The same for the arrays that later steps read. -/
theorem hostOps10_keep_live {r : Ref sig .tc}
    (hr : r ∈ ([main_v1, main_v3, main_v127, main_v134, main_v193_0, main_v206, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps10_4 (F := Ideal)) (after (hostOps10_3 (F := Ideal)) (after (hostOps10_2 (F := Ideal)) (after (hostOps10_1 (F := Ideal)) (after (hostOps10 (F := Ideal)) V)))) (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl
  all_goals exact hostOps10_keep V (by decide) (by decide) (by decide) (by decide) (by decide)

end Cert.KernelIdeal.KHost
-- ==== Proof.KHostL2c.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the last two host steps of layer 2 leave in the buffers later steps read: the
    unpacked node output and the packed operands of the edge normalisation, then the unpacked edge
    output and the next layer's concatenated weight and bias, for an arbitrary starting state. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Between the node normalisation and the edge normalisation -/

theorem hostOps11_v254 :
    after (hostOps11 (F := Ideal)) V (main_v254 : DevRef τ sig)
      = Cert.KSpec.unpackN (V (main_v253 : DevRef τ sig)) := by
  after_results_simp
  rfl

theorem hostOps11_v255 :
    after (hostOps11 (F := Ideal)) V (main_v255 : DevRef τ sig)
      = Cert.KSpec.packE (V (main_v134 : DevRef τ sig)) := by
  after_results_simp
  rfl

theorem hostOps11_v256 :
    after (hostOps11 (F := Ideal)) V (main_v256 : DevRef τ sig)
      = Cert.KSpec.row128 (V (main_v234 : DevRef τ sig)) := by
  after_results_simp
  rfl

theorem hostOps11_v257 :
    after (hostOps11 (F := Ideal)) V (main_v257 : DevRef τ sig)
      = Cert.KSpec.row128 (V (main_v237 : DevRef τ sig)) := by
  after_results_simp
  rfl

theorem hostOps11_v258 :
    after (hostOps11 (F := Ideal)) V (main_v258 : DevRef τ sig)
      = Cert.KSpec.row128 (V (main_v242 : DevRef τ sig)) := by
  after_results_simp
  rfl

theorem hostOps11_v259 :
    after (hostOps11 (F := Ideal)) V (main_v259 : DevRef τ sig)
      = Cert.KSpec.row128 (V (main_v247 : DevRef τ sig)) := by
  after_results_simp
  rfl

/-- A buffer these steps do not write stays as it was. -/
theorem hostOps11_keep {r : Ref sig .tc} (h0 : r ∉ GenP.hostOps11_W) :
    after (hostOps11 (F := Ideal)) V (Proc.devRef .tc r) = V (Proc.devRef .tc r) := by
  rw [after_of_writes_sub hostOps11 _ GenP.hostOps11_writes h0]

/-- The same for the buffers read later. -/
theorem hostOps11_keep_live {r : Ref sig .tc}
    (hr : r ∈ ([main_v1, main_v3, main_v193_0, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps11 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl
  all_goals exact hostOps11_keep V (by decide)

/-! ## After the edge normalisation: the layer's edge output -/

theorem hostOps12_v261 :
    after (hostOps12 (F := Ideal)) V (main_v261 : DevRef τ sig)
      = Cert.KSpec.unpackE (V (main_v260 : DevRef τ sig)) := by
  after_results_simp
  rfl

/-- A buffer these steps do not write stays as it was. -/
theorem hostOps12_keep {r : Ref sig .tc} (h0 : r ∉ GenP.hostOps12_W) :
    after (hostOps12 (F := Ideal)) V (Proc.devRef .tc r) = V (Proc.devRef .tc r) := by
  rw [after_of_writes_sub hostOps12 _ GenP.hostOps12_writes h0]

/-- The same for the buffers read later. -/
theorem hostOps12_keep_live {r : Ref sig .tc}
    (hr : r ∈ ([main_v1, main_v3, main_v254, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps12 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl
  all_goals exact hostOps12_keep V (by decide)

/-! ## The next layer's concatenated weights -/

theorem hostOps12_v270 :
    after (hostOps12 (F := Ideal)) V (main_v270 : DevRef τ sig)
      = Cert.KSpec.wcat (Cert.Spec.wSl 2 Cert.Spec.slices_W_2 (V (main_arg7 : DevRef τ sig))) (Cert.Spec.wSl 2 Cert.Spec.slices_W_2 (V (main_arg9 : DevRef τ sig)))
          (Cert.Spec.wSl 2 Cert.Spec.slices_W_2 (V (main_arg15 : DevRef τ sig))) (Cert.Spec.wSl 2 Cert.Spec.slices_W_2 (V (main_arg13 : DevRef τ sig))) := by
  after_results_simp
  rfl

theorem hostOps12_v280 :
    after (hostOps12 (F := Ideal)) V (main_v280 : DevRef τ sig)
      = Cert.KSpec.bcat (Cert.Spec.bSl 2 Cert.Spec.slices_b_2 (V (main_arg8 : DevRef τ sig))) (Cert.Spec.bSl 2 Cert.Spec.slices_b_2 (V (main_arg10 : DevRef τ sig)))
          (Cert.Spec.bSl 2 Cert.Spec.slices_b_2 (V (main_arg16 : DevRef τ sig))) (Cert.Spec.bSl 2 Cert.Spec.slices_b_2 (V (main_arg14 : DevRef τ sig))) := by
  after_results_simp
  rfl

end Cert.KernelIdeal.KHost
-- ==== Proof.KReadL2.lean ====
import proofs.«425355_j88287347737110_2_alg».proof.Proof.KFold
import proofs.«425355_j88287347737110_2_alg».proof.Proof.Val7
import proofs.«425355_j88287347737110_2_alg».proof.Proof.Val8
import proofs.«425355_j88287347737110_2_alg».proof.Proof.Val9
import proofs.«425355_j88287347737110_2_alg».proof.Proof.Val10
import proofs.«425355_j88287347737110_2_alg».proof.Proof.Val11
import proofs.«425355_j88287347737110_2_alg».proof.Proof.KHostL2a
import proofs.«425355_j88287347737110_2_alg».proof.Proof.KHostL2b
import proofs.«425355_j88287347737110_2_alg».proof.Proof.KHostL2c
import proofs.«425355_j88287347737110_2_alg».proof.Proof.KWhole
import proofs.«425355_j88287347737110_2_alg».proof.Proof.KReadDefs
import Idealize.ShloMosaic.Lib.StableHlo.Run

/-! # Layer 1 of the kernel program, read

The layer runs from just after its projection weights have been laid side by side to just after the next layer's
have: the fused projection's region, the gathers and packings, the edge region, the segment sums, the node region, the
column statistics, the two normalise-and-add regions and the two unpackings. Given that at entry the two concatenated
parameter buffers hold the index-0 slices of the stacked parameters, the layer's two result buffers end holding the
two components of the kernel's arrangement of the layer at parameter index 0; the index vectors and the parameters are
as they were, and the two concatenated parameter buffers of the next layer hold its index-1 slices. One statement per
item, each about the buffers a later item reads, each in terms of the contents the layer starts from. -/

set_option maxRecDepth 16384

noncomputable section

namespace Cert.KernelIdeal.KRead

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (c : Dev nD)

/-! ## What the layer starts from -/

/-- The node features, the edge features, the sources and the targets. -/
abbrev k2_h : Cert.KSpec.R Cert.Spec.S100000x32 := Run.W21 m c (main_v127 : DevRef τ sig)
abbrev k2_e : Cert.KSpec.R Cert.Spec.S800000x32 := Run.W21 m c (main_v134 : DevRef τ sig)
abbrev k2_src : Cert.Spec.J Ideal Cert.Spec.S800000 := Run.W21 m c (main_v1 : DevRef τ sig)
abbrev k2_dst : Cert.Spec.J Ideal Cert.Spec.S800000 := Run.W21 m c (main_v3 : DevRef τ sig)

/-- The layer's parameters: index 0 of the stacked arrays. -/
abbrev k2_A : Cert.KSpec.R Cert.Spec.S32x32 := Cert.Spec.wSl 1 Cert.Spec.slices_W_1 (Run.W21 m c (main_arg7 : DevRef τ sig))
abbrev k2_bA : Cert.KSpec.R Cert.Spec.S32 := Cert.Spec.bSl 1 Cert.Spec.slices_b_1 (Run.W21 m c (main_arg8 : DevRef τ sig))
abbrev k2_B : Cert.KSpec.R Cert.Spec.S32x32 := Cert.Spec.wSl 1 Cert.Spec.slices_W_1 (Run.W21 m c (main_arg9 : DevRef τ sig))
abbrev k2_bB : Cert.KSpec.R Cert.Spec.S32 := Cert.Spec.bSl 1 Cert.Spec.slices_b_1 (Run.W21 m c (main_arg10 : DevRef τ sig))
abbrev k2_C : Cert.KSpec.R Cert.Spec.S32x32 := Cert.Spec.wSl 1 Cert.Spec.slices_W_1 (Run.W21 m c (main_arg11 : DevRef τ sig))
abbrev k2_bC : Cert.KSpec.R Cert.Spec.S32 := Cert.Spec.bSl 1 Cert.Spec.slices_b_1 (Run.W21 m c (main_arg12 : DevRef τ sig))
abbrev k2_U : Cert.KSpec.R Cert.Spec.S32x32 := Cert.Spec.wSl 1 Cert.Spec.slices_W_1 (Run.W21 m c (main_arg13 : DevRef τ sig))
abbrev k2_bU : Cert.KSpec.R Cert.Spec.S32 := Cert.Spec.bSl 1 Cert.Spec.slices_b_1 (Run.W21 m c (main_arg14 : DevRef τ sig))
abbrev k2_V : Cert.KSpec.R Cert.Spec.S32x32 := Cert.Spec.wSl 1 Cert.Spec.slices_W_1 (Run.W21 m c (main_arg15 : DevRef τ sig))
abbrev k2_bV : Cert.KSpec.R Cert.Spec.S32 := Cert.Spec.bSl 1 Cert.Spec.slices_b_1 (Run.W21 m c (main_arg16 : DevRef τ sig))
abbrev k2_gh : Cert.KSpec.R Cert.Spec.S32 := Cert.Spec.bSl 1 Cert.Spec.slices_b_1 (Run.W21 m c (main_arg17 : DevRef τ sig))
abbrev k2_bh : Cert.KSpec.R Cert.Spec.S32 := Cert.Spec.bSl 1 Cert.Spec.slices_b_1 (Run.W21 m c (main_arg18 : DevRef τ sig))
abbrev k2_ge : Cert.KSpec.R Cert.Spec.S32 := Cert.Spec.bSl 1 Cert.Spec.slices_b_1 (Run.W21 m c (main_arg19 : DevRef τ sig))
abbrev k2_be : Cert.KSpec.R Cert.Spec.S32 := Cert.Spec.bSl 1 Cert.Spec.slices_b_1 (Run.W21 m c (main_arg20 : DevRef τ sig))

/-- The fused projection, the three packed outputs of the edge region and the packed output of the node region,
    as functions of what the layer starts from. -/
abbrev k2_proj : Cert.KSpec.R Cert.KSpec.S100000x128 :=
  Cert.KSpec.kproj (k2_h m c) (k2_A m c) (k2_bA m c) (k2_B m c) (k2_bB m c) (k2_U m c) (k2_bU m c) (k2_V m c) (k2_bV m c)
abbrev k2_edgeNew : Cert.KSpec.R Cert.KSpec.S200000x128 :=
  Cert.KSpec.kedgeNewR (k2_proj m c) (k2_e m c) (k2_src m c) (k2_dst m c) (k2_C m c) (k2_bC m c)
abbrev k2_edgeSig : Cert.KSpec.R Cert.KSpec.S200000x128 :=
  Cert.KSpec.kedgeSigR (k2_proj m c) (k2_e m c) (k2_src m c) (k2_dst m c) (k2_C m c) (k2_bC m c)
abbrev k2_edgeNum : Cert.KSpec.R Cert.KSpec.S200000x128 :=
  Cert.KSpec.kedgeNumR (k2_proj m c) (k2_e m c) (k2_src m c) (k2_dst m c) (k2_C m c) (k2_bC m c)
abbrev k2_nodeNew : Cert.KSpec.R Cert.KSpec.S25000x128 :=
  Cert.KSpec.knodeNewR (k2_proj m c) (k2_e m c) (k2_src m c) (k2_dst m c) (k2_C m c) (k2_bC m c)

/-! ## What each item leaves unwritten -/

/-- The references written up to each boundary of the layer. -/
abbrev k2_L6 : List (Ref sig .tc) := [main_v154]
abbrev k2_L9 : List (Ref sig .tc) := hostOps8_2_W ++ (hostOps8_1_W ++ (hostOps8_W ++ k2_L6))
abbrev k2_L10 : List (Ref sig .tc) := main_v193_0 :: main_v193_1 :: main_v193_2 :: k2_L9
abbrev k2_L11 : List (Ref sig .tc) := hostOps9_W ++ k2_L10
abbrev k2_L12 : List (Ref sig .tc) := main_v206 :: k2_L11
abbrev k2_L17 : List (Ref sig .tc) :=
  hostOps10_4_W ++ (hostOps10_3_W ++ (hostOps10_2_W ++ (hostOps10_1_W ++ (hostOps10_W ++ k2_L12))))
abbrev k2_L18 : List (Ref sig .tc) := main_v253 :: k2_L17
abbrev k2_L19 : List (Ref sig .tc) := hostOps11_W ++ k2_L18
abbrev k2_L20 : List (Ref sig .tc) := main_v260 :: k2_L19
abbrev k2_L21 : List (Ref sig .tc) := hostOps12_W ++ k2_L20

/-- One host stretch or one group of stretches keeps what it does not write. -/
theorem k2_s9 (b : Ref sig .tc) (h3 : b ∉ hostOps8_W) (h31 : b ∉ hostOps8_1_W) (h32 : b ∉ hostOps8_2_W) :
    Run.W25 m c b = Run.W22 m c b :=
  (after_of_writes_sub (hostOps8_2 (F := Ideal)) _ hostOps8_2_writes h32).trans
    ((after_of_writes_sub (hostOps8_1 (F := Ideal)) _ hostOps8_1_writes h31).trans (after_of_writes_sub (hostOps8 (F := Ideal)) _ hostOps8_writes h3))
theorem k2_s11 (b : Ref sig .tc) (h : b ∉ hostOps9_W) : Run.W27 m c b = Run.W26 m c b :=
  after_of_writes_sub (hostOps9 (F := Ideal)) _ hostOps9_writes h
theorem k2_s17 (b : Ref sig .tc) (h5 : b ∉ hostOps10_W) (h51 : b ∉ hostOps10_1_W) (h52 : b ∉ hostOps10_2_W)
    (h53 : b ∉ hostOps10_3_W) (h54 : b ∉ hostOps10_4_W) : Run.W33 m c b = Run.W28 m c b :=
  (after_of_writes_sub (hostOps10_4 (F := Ideal)) _ hostOps10_4_writes h54).trans
    ((after_of_writes_sub (hostOps10_3 (F := Ideal)) _ hostOps10_3_writes h53).trans
      ((after_of_writes_sub (hostOps10_2 (F := Ideal)) _ hostOps10_2_writes h52).trans
        ((after_of_writes_sub (hostOps10_1 (F := Ideal)) _ hostOps10_1_writes h51).trans (after_of_writes_sub (hostOps10 (F := Ideal)) _ hostOps10_writes h5))))
theorem k2_s19 (b : Ref sig .tc) (h : b ∉ hostOps11_W) : Run.W35 m c b = Run.W34 m c b :=
  after_of_writes_sub (hostOps11 (F := Ideal)) _ hostOps11_writes h
theorem k2_s21 (b : Ref sig .tc) (h : b ∉ hostOps12_W) : Run.W37 m c b = Run.W36 m c b :=
  after_of_writes_sub (hostOps12 (F := Ideal)) _ hostOps12_writes h

/-- A reference not written up to a boundary holds there what the layer started from. -/
theorem k2_keep6 (b : Ref sig .tc) (h : b ∉ k2_L6) : Run.W22 m c b = Run.W21 m c b :=
  Run.W22_of_ne m c b (List.ne_of_not_mem_cons h)
theorem k2_keep9 (b : Ref sig .tc) (h : b ∉ k2_L9) : Run.W25 m c b = Run.W21 m c b :=
  (k2_s9 m c b
    (fun hb => h (List.mem_append_right _ (List.mem_append_right _ (List.mem_append_left _ hb))))
    (fun hb => h (List.mem_append_right _ (List.mem_append_left _ hb)))
    (fun hb => h (List.mem_append_left _ hb))).trans
  (k2_keep6 m c b (fun hb => h (List.mem_append_right _ (List.mem_append_right _ (List.mem_append_right _ hb)))))
theorem k2_keep10 (b : Ref sig .tc) (h : b ∉ k2_L10) : Run.W26 m c b = Run.W21 m c b :=
  (Run.W26_of_ne m c b (List.ne_of_not_mem_cons h)
    (List.ne_of_not_mem_cons (List.not_mem_of_not_mem_cons h))
    (List.ne_of_not_mem_cons (List.not_mem_of_not_mem_cons (List.not_mem_of_not_mem_cons h)))).trans
  (k2_keep9 m c b (List.not_mem_of_not_mem_cons (List.not_mem_of_not_mem_cons (List.not_mem_of_not_mem_cons h))))
theorem k2_keep11 (b : Ref sig .tc) (h : b ∉ k2_L11) : Run.W27 m c b = Run.W21 m c b :=
  (k2_s11 m c b (fun hb => h (List.mem_append_left _ hb))).trans (k2_keep10 m c b (fun hb => h (List.mem_append_right _ hb)))
theorem k2_keep12 (b : Ref sig .tc) (h : b ∉ k2_L12) : Run.W28 m c b = Run.W21 m c b :=
  (Run.W28_of_ne m c b (List.ne_of_not_mem_cons h)).trans (k2_keep11 m c b (List.not_mem_of_not_mem_cons h))
theorem k2_keep17 (b : Ref sig .tc) (h : b ∉ k2_L17) : Run.W33 m c b = Run.W21 m c b :=
  (k2_s17 m c b
    (fun hb => h (List.mem_append_right _ (List.mem_append_right _ (List.mem_append_right _ (List.mem_append_right _ (List.mem_append_left _ hb))))))
    (fun hb => h (List.mem_append_right _ (List.mem_append_right _ (List.mem_append_right _ (List.mem_append_left _ hb)))))
    (fun hb => h (List.mem_append_right _ (List.mem_append_right _ (List.mem_append_left _ hb))))
    (fun hb => h (List.mem_append_right _ (List.mem_append_left _ hb)))
    (fun hb => h (List.mem_append_left _ hb))).trans
  (k2_keep12 m c b (fun hb => h (List.mem_append_right _ (List.mem_append_right _ (List.mem_append_right _
    (List.mem_append_right _ (List.mem_append_right _ hb)))))))
theorem k2_keep18 (b : Ref sig .tc) (h : b ∉ k2_L18) : Run.W34 m c b = Run.W21 m c b :=
  (Run.W34_of_ne m c b (List.ne_of_not_mem_cons h)).trans (k2_keep17 m c b (List.not_mem_of_not_mem_cons h))
theorem k2_keep19 (b : Ref sig .tc) (h : b ∉ k2_L19) : Run.W35 m c b = Run.W21 m c b :=
  (k2_s19 m c b (fun hb => h (List.mem_append_left _ hb))).trans (k2_keep18 m c b (fun hb => h (List.mem_append_right _ hb)))
theorem k2_keep20 (b : Ref sig .tc) (h : b ∉ k2_L20) : Run.W36 m c b = Run.W21 m c b :=
  (Run.W36_of_ne m c b (List.ne_of_not_mem_cons h)).trans (k2_keep19 m c b (List.not_mem_of_not_mem_cons h))
theorem k2_keep21 (b : Ref sig .tc) (h : b ∉ k2_L21) : Run.W37 m c b = Run.W21 m c b :=
  (k2_s21 m c b (fun hb => h (List.mem_append_left _ hb))).trans (k2_keep20 m c b (fun hb => h (List.mem_append_right _ hb)))

/-- The index vectors and the parameters are as the layer found them. -/
theorem readK2_keep (b : Ref sig .tc) (hb : b ∈ keepRefs) : Run.W37 m c b = Run.W21 m c b :=
  k2_keep21 m c b ((by decide : ∀ r ∈ keepRefs, r ∉ k2_L21) b hb)

/-! ## The next layer's projection parameters, side by side -/

/-- The four projection weights at index 1, side by side. -/
theorem readK2_W :
    Run.W37 m c (main_v270 : DevRef τ sig)
      = Cert.KSpec.wcat (Cert.Spec.wSl 2 Cert.Spec.slices_W_2 (Run.W37 m c (main_arg7 : DevRef τ sig)))
          (Cert.Spec.wSl 2 Cert.Spec.slices_W_2 (Run.W37 m c (main_arg9 : DevRef τ sig)))
          (Cert.Spec.wSl 2 Cert.Spec.slices_W_2 (Run.W37 m c (main_arg15 : DevRef τ sig)))
          (Cert.Spec.wSl 2 Cert.Spec.slices_W_2 (Run.W37 m c (main_arg13 : DevRef τ sig))) := by
  rw [k2_s21 m c main_arg7 (by decide), k2_s21 m c main_arg9 (by decide), k2_s21 m c main_arg15 (by decide),
    k2_s21 m c main_arg13 (by decide)]
  exact KHost.hostOps12_v270 (Run.W36 m c)

/-- The four projection biases at index 1, end to end, as one row. -/
theorem readK2_B :
    Run.W37 m c (main_v280 : DevRef τ sig)
      = Cert.KSpec.bcat (Cert.Spec.bSl 2 Cert.Spec.slices_b_2 (Run.W37 m c (main_arg8 : DevRef τ sig)))
          (Cert.Spec.bSl 2 Cert.Spec.slices_b_2 (Run.W37 m c (main_arg10 : DevRef τ sig)))
          (Cert.Spec.bSl 2 Cert.Spec.slices_b_2 (Run.W37 m c (main_arg16 : DevRef τ sig)))
          (Cert.Spec.bSl 2 Cert.Spec.slices_b_2 (Run.W37 m c (main_arg14 : DevRef τ sig))) := by
  rw [k2_s21 m c main_arg8 (by decide), k2_s21 m c main_arg10 (by decide), k2_s21 m c main_arg16 (by decide),
    k2_s21 m c main_arg14 (by decide)]
  exact KHost.hostOps12_v280 (Run.W36 m c)

/-! ## The layer's own projection parameters, side by side at its entry -/

variable
  (hW : Run.W21 m c (main_v143 : DevRef τ sig)
    = Cert.KSpec.wcat (Cert.Spec.wSl 1 Cert.Spec.slices_W_1 (Run.W21 m c (main_arg7 : DevRef τ sig)))
        (Cert.Spec.wSl 1 Cert.Spec.slices_W_1 (Run.W21 m c (main_arg9 : DevRef τ sig)))
        (Cert.Spec.wSl 1 Cert.Spec.slices_W_1 (Run.W21 m c (main_arg15 : DevRef τ sig)))
        (Cert.Spec.wSl 1 Cert.Spec.slices_W_1 (Run.W21 m c (main_arg13 : DevRef τ sig))))
  (hB : Run.W21 m c (main_v153 : DevRef τ sig)
    = Cert.KSpec.bcat (Cert.Spec.bSl 1 Cert.Spec.slices_b_1 (Run.W21 m c (main_arg8 : DevRef τ sig)))
        (Cert.Spec.bSl 1 Cert.Spec.slices_b_1 (Run.W21 m c (main_arg10 : DevRef τ sig)))
        (Cert.Spec.bSl 1 Cert.Spec.slices_b_1 (Run.W21 m c (main_arg16 : DevRef τ sig)))
        (Cert.Spec.bSl 1 Cert.Spec.slices_b_1 (Run.W21 m c (main_arg14 : DevRef τ sig))))
include hW hB

/-! ## The fused projection -/

theorem k2_w6_proj : Run.W22 m c main_v154 = k2_proj m c := by
  rw [Run.W22_at0, Val.arr7_3_eq (Run.T21 m) c]
  show Cert.KSpec.Glin128 (Run.W21 m c main_v127) (Run.W21 m c main_v143) (Run.W21 m c main_v153) = _
  rw [hW, hB]
  rfl

/-! ## The column blocks, the gathers, the packings, the edge parameters -/

/-- The first operand of the edge region: the A block gathered at the targets, packed. -/
theorem k2_w9_a0 :
    Run.W25 m c main_v188
      = Cert.KSpec.packE (Cert.Spec.gatherRows (Cert.KSpec.colsA (k2_proj m c)) (k2_dst m c)) := by
  refine (KHost.hostOps8_v188 (Run.W22 m c)).trans ?_
  rw [k2_w6_proj m c hW hB, k2_keep6 m c main_v3 (by decide)]

/-- The second: the left half of the B and V blocks gathered at the sources, packed. -/
theorem k2_w9_a1 :
    Run.W25 m c main_v189
      = Cert.KSpec.packE (Cert.KSpec.left32 (Cert.KSpec.gatherRows64 (Cert.KSpec.colsBV (k2_proj m c)) (k2_src m c))) := by
  refine (KHost.hostOps8_v189 (Run.W22 m c)).trans ?_
  rw [k2_w6_proj m c hW hB, k2_keep6 m c main_v1 (by decide)]

/-- The third: the edge features, packed. -/
theorem k2_w9_a2 : Run.W25 m c main_v191 = Cert.KSpec.packE (k2_e m c) := by
  refine (KHost.hostOps8_v191 (Run.W22 m c)).trans ?_
  rw [k2_keep6 m c main_v134 (by decide)]

/-- The fourth: the right half of the gathered B and V blocks, packed. -/
theorem k2_w9_a3 :
    Run.W25 m c main_v190
      = Cert.KSpec.packE (Cert.KSpec.right32 (Cert.KSpec.gatherRows64 (Cert.KSpec.colsBV (k2_proj m c)) (k2_src m c))) := by
  refine (KHost.hostOps8_v190 (Run.W22 m c)).trans ?_
  rw [k2_w6_proj m c hW hB, k2_keep6 m c main_v1 (by decide)]

/-- The fifth: the block-diagonal edge weight. -/
theorem k2_w9_a4 : Run.W25 m c main_v182 = Cert.KSpec.kron Cert.KSpec.eye4 (k2_C m c) := by
  refine (KHost.hostOps8_v182 (Run.W22 m c)).trans ?_
  rw [k2_keep6 m c main_arg11 (by decide)]

/-- The sixth: the edge bias repeated four times, as one row. -/
theorem k2_w9_a5 : Run.W25 m c main_v192 = Cert.KSpec.row128 (Cert.KSpec.tile4 (k2_bC m c)) := by
  refine (KHost.hostOps8_v192 (Run.W22 m c)).trans ?_
  rw [k2_keep6 m c main_arg12 (by decide)]

/-- The U block of the projection. -/
theorem k2_w9_colsU : Run.W25 m c main_v157 = Cert.KSpec.colsU (k2_proj m c) := by
  refine (KHost.hostOps8_v157 (Run.W22 m c)).trans ?_
  rw [k2_w6_proj m c hW hB]

/-! ## The edge region's three outputs -/

theorem k2_w10_new : Run.W26 m c main_v193_0 = k2_edgeNew m c := by
  rw [Run.W26_at0, Val.arr8_6_eq (Run.T25 m) c]
  show Cert.KSpec.GedgeNew (Run.W25 m c main_v188) (Run.W25 m c main_v189) (Run.W25 m c main_v191)
    (Run.W25 m c main_v182) (Run.W25 m c main_v192) = _
  rw [k2_w9_a0 m c hW hB, k2_w9_a1 m c hW hB, k2_w9_a2 m c hW hB, k2_w9_a4 m c hW hB, k2_w9_a5 m c hW hB]
  rfl

theorem k2_w10_sig : Run.W26 m c main_v193_1 = k2_edgeSig m c := by
  rw [Run.W26_at1, Val.arr8_7_eq (Run.T25 m) c]
  show Cert.KSpec.GedgeSig (Run.W25 m c main_v188) (Run.W25 m c main_v189) (Run.W25 m c main_v191)
    (Run.W25 m c main_v182) (Run.W25 m c main_v192) = _
  rw [k2_w9_a0 m c hW hB, k2_w9_a1 m c hW hB, k2_w9_a2 m c hW hB, k2_w9_a4 m c hW hB, k2_w9_a5 m c hW hB]
  rfl

theorem k2_w10_num : Run.W26 m c main_v193_2 = k2_edgeNum m c := by
  rw [Run.W26_at2, Val.arr8_8_eq (Run.T25 m) c]
  show Cert.KSpec.GedgeNum (Run.W25 m c main_v188) (Run.W25 m c main_v189) (Run.W25 m c main_v191) (Run.W25 m c main_v190)
    (Run.W25 m c main_v182) (Run.W25 m c main_v192) = _
  rw [k2_w9_a0 m c hW hB, k2_w9_a1 m c hW hB, k2_w9_a2 m c hW hB, k2_w9_a3 m c hW hB, k2_w9_a4 m c hW hB, k2_w9_a5 m c hW hB]
  rfl

/-! ## The unpackings and the segment sums -/

/-- The new edge features, unpacked. -/
theorem k2_w11_enew : Run.W27 m c main_v194 = Cert.KSpec.unpackE (k2_edgeNew m c) := by
  refine (KHost.hostOps9_v194 (Run.W26 m c)).trans ?_
  rw [k2_w10_new m c hW hB]

/-- The node region's three operands. -/
theorem k2_w11_uh : Run.W27 m c main_v203 = Cert.KSpec.packN (Cert.KSpec.colsU (k2_proj m c)) := by
  refine (KHost.hostOps9_v203 (Run.W26 m c)).trans ?_
  rw [Run.W26_of_ne m c main_v157 (by decide) (by decide) (by decide), k2_w9_colsU m c hW hB]
theorem k2_w11_num :
    Run.W27 m c main_v204
      = Cert.KSpec.packN (Cert.Spec.segSum (Cert.KSpec.unpackE (k2_edgeNum m c)) (k2_dst m c)) := by
  refine (KHost.hostOps9_v204 (Run.W26 m c)).trans ?_
  rw [k2_w10_num m c hW hB, k2_keep10 m c main_v3 (by decide)]
theorem k2_w11_den :
    Run.W27 m c main_v205
      = Cert.KSpec.packN (Cert.Spec.segSum (Cert.KSpec.unpackE (k2_edgeSig m c)) (k2_dst m c)) := by
  refine (KHost.hostOps9_v205 (Run.W26 m c)).trans ?_
  rw [k2_w10_sig m c hW hB, k2_keep10 m c main_v3 (by decide)]

/-! ## The node region -/

theorem k2_w12_node : Run.W28 m c main_v206 = k2_nodeNew m c := by
  rw [Run.W28_at0, Val.arr9_3_eq (Run.T27 m) c]
  show Cert.KSpec.Gnode (Run.W27 m c main_v203) (Run.W27 m c main_v204) (Run.W27 m c main_v205) = _
  rw [k2_w11_uh m c hW hB, k2_w11_num m c hW hB, k2_w11_den m c hW hB]
  rfl

/-- The unpacked new edge features are still there after the node region. -/
theorem k2_w12_enew : Run.W28 m c main_v194 = Cert.KSpec.unpackE (k2_edgeNew m c) :=
  (Run.W28_of_ne m c main_v194 (by decide)).trans (k2_w11_enew m c hW hB)

/-! ## The column statistics and the normalisation parameters, repeated four times -/

/-- The node normalisation's operands. -/
theorem k2_w17_h : Run.W33 m c main_v248 = Cert.KSpec.packN (k2_h m c) := by
  refine (KHost.hostOps10_v248 (Run.W28 m c)).trans ?_
  rw [k2_keep12 m c main_v127 (by decide)]
theorem k2_w17_muN :
    Run.W33 m c main_v249
      = Cert.KSpec.row128 (Cert.KSpec.tile4 (Cert.Spec.meanN (Cert.KSpec.unpackN (k2_nodeNew m c)))) := by
  refine (KHost.hostOps10_v249 (Run.W28 m c)).trans ?_
  rw [k2_w12_node m c hW hB]
theorem k2_w17_varN :
    Run.W33 m c main_v250
      = Cert.KSpec.row128 (Cert.KSpec.tile4
          (Cert.Spec.varN (Cert.KSpec.unpackN (k2_nodeNew m c)) (constantI Cert.Spec.S_ 32 0#32))) := by
  refine (KHost.hostOps10_v250 (Run.W28 m c)).trans ?_
  rw [k2_w12_node m c hW hB]
theorem k2_w17_gh : Run.W33 m c main_v251 = Cert.KSpec.row128 (Cert.KSpec.tile4 (k2_gh m c)) := by
  refine (KHost.hostOps10_v251 (Run.W28 m c)).trans ?_
  rw [k2_keep12 m c main_arg17 (by decide)]
theorem k2_w17_bh : Run.W33 m c main_v252 = Cert.KSpec.row128 (Cert.KSpec.tile4 (k2_bh m c)) := by
  refine (KHost.hostOps10_v252 (Run.W28 m c)).trans ?_
  rw [k2_keep12 m c main_arg18 (by decide)]

/-- The edge normalisation's parameters, before their reshaping to one row. -/
theorem k2_w17_muE :
    Run.W33 m c main_v234 = Cert.KSpec.tile4 (Cert.Spec.meanE (Cert.KSpec.unpackE (k2_edgeNew m c))) := by
  refine (KHost.hostOps10_v234 (Run.W28 m c)).trans ?_
  rw [k2_w12_enew m c hW hB]
theorem k2_w17_varE :
    Run.W33 m c main_v237
      = Cert.KSpec.tile4 (Cert.Spec.varE (Cert.KSpec.unpackE (k2_edgeNew m c)) (constantI Cert.Spec.S_ 32 0#32)) := by
  refine (KHost.hostOps10_v237 (Run.W28 m c)).trans ?_
  rw [k2_w12_enew m c hW hB]
theorem k2_w17_ge : Run.W33 m c main_v242 = Cert.KSpec.tile4 (k2_ge m c) := by
  refine (KHost.hostOps10_v242 (Run.W28 m c)).trans ?_
  rw [k2_keep12 m c main_arg19 (by decide)]
theorem k2_w17_be : Run.W33 m c main_v247 = Cert.KSpec.tile4 (k2_be m c) := by
  refine (KHost.hostOps10_v247 (Run.W28 m c)).trans ?_
  rw [k2_keep12 m c main_arg20 (by decide)]

/-- The node region's output is still there. -/
theorem k2_w17_node : Run.W33 m c main_v206 = k2_nodeNew m c :=
  (k2_s17 m c main_v206 (by decide) (by decide) (by decide) (by decide) (by decide)).trans (k2_w12_node m c hW hB)

/-! ## The node normalise-and-add region -/

theorem k2_w18_bnN :
    Run.W34 m c main_v253
      = Cert.KSpec.GbnN (k2_nodeNew m c) (Cert.KSpec.packN (k2_h m c))
          (Cert.KSpec.row128 (Cert.KSpec.tile4 (Cert.Spec.meanN (Cert.KSpec.unpackN (k2_nodeNew m c)))))
          (Cert.KSpec.row128 (Cert.KSpec.tile4
            (Cert.Spec.varN (Cert.KSpec.unpackN (k2_nodeNew m c)) (constantI Cert.Spec.S_ 32 0#32))))
          (Cert.KSpec.row128 (Cert.KSpec.tile4 (k2_gh m c))) (Cert.KSpec.row128 (Cert.KSpec.tile4 (k2_bh m c))) := by
  rw [Run.W34_at0, Val.arr10_6_eq (Run.T33 m) c]
  show Cert.KSpec.GbnN (Run.W33 m c main_v206) (Run.W33 m c main_v248) (Run.W33 m c main_v249) (Run.W33 m c main_v250)
    (Run.W33 m c main_v251) (Run.W33 m c main_v252) = _
  rw [k2_w17_node m c hW hB, k2_w17_h m c hW hB, k2_w17_muN m c hW hB, k2_w17_varN m c hW hB, k2_w17_gh m c hW hB,
    k2_w17_bh m c hW hB]

/-! ## The node result unpacked; the edge normalisation's operands -/

/-- The layer's node result. -/
theorem k2_w19_h :
    Run.W35 m c main_v254 = Cert.KSpec.kbnN (k2_nodeNew m c) (k2_h m c) (k2_gh m c) (k2_bh m c) := by
  refine (KHost.hostOps11_v254 (Run.W34 m c)).trans ?_
  rw [k2_w18_bnN m c hW hB]
  rfl

theorem k2_w19_e : Run.W35 m c main_v255 = Cert.KSpec.packE (k2_e m c) := by
  refine (KHost.hostOps11_v255 (Run.W34 m c)).trans ?_
  rw [k2_keep18 m c main_v134 (by decide)]
theorem k2_w19_muE :
    Run.W35 m c main_v256
      = Cert.KSpec.row128 (Cert.KSpec.tile4 (Cert.Spec.meanE (Cert.KSpec.unpackE (k2_edgeNew m c)))) := by
  refine (KHost.hostOps11_v256 (Run.W34 m c)).trans ?_
  rw [Run.W34_of_ne m c main_v234 (by decide), k2_w17_muE m c hW hB]
theorem k2_w19_varE :
    Run.W35 m c main_v257
      = Cert.KSpec.row128 (Cert.KSpec.tile4
          (Cert.Spec.varE (Cert.KSpec.unpackE (k2_edgeNew m c)) (constantI Cert.Spec.S_ 32 0#32))) := by
  refine (KHost.hostOps11_v257 (Run.W34 m c)).trans ?_
  rw [Run.W34_of_ne m c main_v237 (by decide), k2_w17_varE m c hW hB]
theorem k2_w19_ge : Run.W35 m c main_v258 = Cert.KSpec.row128 (Cert.KSpec.tile4 (k2_ge m c)) := by
  refine (KHost.hostOps11_v258 (Run.W34 m c)).trans ?_
  rw [Run.W34_of_ne m c main_v242 (by decide), k2_w17_ge m c hW hB]
theorem k2_w19_be : Run.W35 m c main_v259 = Cert.KSpec.row128 (Cert.KSpec.tile4 (k2_be m c)) := by
  refine (KHost.hostOps11_v259 (Run.W34 m c)).trans ?_
  rw [Run.W34_of_ne m c main_v247 (by decide), k2_w17_be m c hW hB]

/-- The packed new edge features are still there. -/
theorem k2_w19_enew : Run.W35 m c main_v193_0 = k2_edgeNew m c :=
  (k2_s19 m c main_v193_0 (by decide)).trans
    ((Run.W34_of_ne m c main_v193_0 (by decide)).trans
      ((k2_s17 m c main_v193_0 (by decide) (by decide) (by decide) (by decide) (by decide)).trans
        ((Run.W28_of_ne m c main_v193_0 (by decide)).trans
          ((k2_s11 m c main_v193_0 (by decide)).trans (k2_w10_new m c hW hB)))))

/-! ## The edge normalise-and-add region -/

theorem k2_w20_bnE :
    Run.W36 m c main_v260
      = Cert.KSpec.GbnE (k2_edgeNew m c) (Cert.KSpec.packE (k2_e m c))
          (Cert.KSpec.row128 (Cert.KSpec.tile4 (Cert.Spec.meanE (Cert.KSpec.unpackE (k2_edgeNew m c)))))
          (Cert.KSpec.row128 (Cert.KSpec.tile4
            (Cert.Spec.varE (Cert.KSpec.unpackE (k2_edgeNew m c)) (constantI Cert.Spec.S_ 32 0#32))))
          (Cert.KSpec.row128 (Cert.KSpec.tile4 (k2_ge m c))) (Cert.KSpec.row128 (Cert.KSpec.tile4 (k2_be m c))) := by
  rw [Run.W36_at0, Val.arr11_6_eq (Run.T35 m) c]
  show Cert.KSpec.GbnE (Run.W35 m c main_v193_0) (Run.W35 m c main_v255) (Run.W35 m c main_v256) (Run.W35 m c main_v257)
    (Run.W35 m c main_v258) (Run.W35 m c main_v259) = _
  rw [k2_w19_enew m c hW hB, k2_w19_e m c hW hB, k2_w19_muE m c hW hB, k2_w19_varE m c hW hB, k2_w19_ge m c hW hB,
    k2_w19_be m c hW hB]

/-! ## The edge result unpacked -/

/-- The layer's edge result. -/
theorem k2_w21_e :
    Run.W37 m c main_v261 = Cert.KSpec.kbnE (k2_edgeNew m c) (k2_e m c) (k2_ge m c) (k2_be m c) := by
  refine (KHost.hostOps12_v261 (Run.W36 m c)).trans ?_
  rw [k2_w20_bnE m c hW hB]
  rfl

/-! ## The layer -/

/-- The node features after layer 2. -/
theorem readK2_h :
    Run.W37 m c (main_v254 : DevRef τ sig)
      = (Cert.KSpec.klayerAt 1 Cert.Spec.slices_W_1 Cert.Spec.slices_b_1
          (Run.W21 m c (main_v127 : DevRef τ sig)) (Run.W21 m c (main_v134 : DevRef τ sig))
          (Run.W21 m c (main_v1 : DevRef τ sig)) (Run.W21 m c (main_v3 : DevRef τ sig))
          (Run.W21 m c (main_arg7 : DevRef τ sig)) (Run.W21 m c (main_arg8 : DevRef τ sig))
          (Run.W21 m c (main_arg9 : DevRef τ sig)) (Run.W21 m c (main_arg10 : DevRef τ sig))
          (Run.W21 m c (main_arg11 : DevRef τ sig)) (Run.W21 m c (main_arg12 : DevRef τ sig))
          (Run.W21 m c (main_arg13 : DevRef τ sig)) (Run.W21 m c (main_arg14 : DevRef τ sig))
          (Run.W21 m c (main_arg15 : DevRef τ sig)) (Run.W21 m c (main_arg16 : DevRef τ sig))
          (Run.W21 m c (main_arg17 : DevRef τ sig)) (Run.W21 m c (main_arg18 : DevRef τ sig))
          (Run.W21 m c (main_arg19 : DevRef τ sig)) (Run.W21 m c (main_arg20 : DevRef τ sig))).1 :=
  (k2_s21 m c main_v254 (by decide)).trans
    ((Run.W36_of_ne m c main_v254 (by decide)).trans (k2_w19_h m c hW hB))

/-- The edge features after layer 2. -/
theorem readK2_e :
    Run.W37 m c (main_v261 : DevRef τ sig)
      = (Cert.KSpec.klayerAt 1 Cert.Spec.slices_W_1 Cert.Spec.slices_b_1
          (Run.W21 m c (main_v127 : DevRef τ sig)) (Run.W21 m c (main_v134 : DevRef τ sig))
          (Run.W21 m c (main_v1 : DevRef τ sig)) (Run.W21 m c (main_v3 : DevRef τ sig))
          (Run.W21 m c (main_arg7 : DevRef τ sig)) (Run.W21 m c (main_arg8 : DevRef τ sig))
          (Run.W21 m c (main_arg9 : DevRef τ sig)) (Run.W21 m c (main_arg10 : DevRef τ sig))
          (Run.W21 m c (main_arg11 : DevRef τ sig)) (Run.W21 m c (main_arg12 : DevRef τ sig))
          (Run.W21 m c (main_arg13 : DevRef τ sig)) (Run.W21 m c (main_arg14 : DevRef τ sig))
          (Run.W21 m c (main_arg15 : DevRef τ sig)) (Run.W21 m c (main_arg16 : DevRef τ sig))
          (Run.W21 m c (main_arg17 : DevRef τ sig)) (Run.W21 m c (main_arg18 : DevRef τ sig))
          (Run.W21 m c (main_arg19 : DevRef τ sig)) (Run.W21 m c (main_arg20 : DevRef τ sig))).2 :=
  k2_w21_e m c hW hB

end Cert.KernelIdeal.KRead

end
-- ==== Proof.Val12.lean ====
import proofs.«425355_j88287347737110_2_alg».proof.Proof.Reg12
import proofs.«425355_j88287347737110_2_alg».proof.Proof.KSpec
import Idealize.ShloMosaic.Lib.Pipeline.Value
import Idealize.ShloMosaic.Lib.ValueIdx
import Idealize.ShloMosaic.PureOps.Ideal.Laws

/-! # Region 12 (`cc12_kernel`): the result array, index by index, at the ideal values

After the region the result array (100000 × 128) holds, at row `r` and column `j`,
`∑ k < 32, x[r, k] · w[k, j] + b[0, j]` over the extended reals, where `x`, `w`, `b` are the three input arrays as
the region finds them.  The steps: the matrix product accumulated into zero is the sum over the contracted
coordinate; the format changes are the identity at the ideal values; the bias is broadcast down the rows; each input
block is read where the point's block index puts it (the row blocks of `x` and of the result move together, the
weight and the bias stay at block 0); row `r` is covered by the point `r / 5000`. -/

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)
open scoped BigOperators

theorem lin12_hz : (![0, 0] : Fin 2 → Nat) = fun _ => 0 := funext fun a => by fin_cases a <;> rfl

/-! ## The matrix product's operand indices, axis by axis -/

theorem lin12_lhs_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl

theorem lin12_lhs_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q

theorem lin12_rhs_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q

theorem lin12_rhs_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- The product of a 5000 × 32 block by a 32 × 128 matrix accumulated into zero, read at row `p`, column `q`: the
    sum over the 32 contracted coordinates of the products of the entries. -/
theorem lin12_mm_apply (a : FVec Ideal S5000x32 .bf16) (b : FVec Ideal S32x128 .bf16) (p : Fin 5000) (q : Fin 128) :
    matmul dot_S5000x32_S32x128_S5000x128_1_0_0_1_n_n none a b (constant S5000x128 .f32 0x00000000#32) (ix2 p q)
      = ∑ k : Fin 32, a (ix2 p k) * b (ix2 k q) := by
  show FloatOps.matmul _ none a b (constant S5000x128 .f32 0x00000000#32) (ix2 p q) = _
  rw [Ideal.matmul_constant_zero_apply, ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 p q) ((contrEquiv1 dot_S5000x32_S32x128_S5000x128_1_0_0_1_n_n 32 rfl rfl).symm k) = ix2 p k := funext fun ax => Fin.ext (by
    match ax with
    | ⟨0, _⟩ => exact lin12_lhs_0 _ _
    | ⟨1, _⟩ => exact (lin12_lhs_1 _ _).trans hk)
  have er : dot_S5000x32_S32x128_S5000x128_1_0_0_1_n_n.rhsIdx (ix2 p q) ((contrEquiv1 dot_S5000x32_S32x128_S5000x128_1_0_0_1_n_n 32 rfl rfl).symm k) = ix2 k q := funext fun ax => Fin.ext (by
    match ax with
    | ⟨0, _⟩ => exact (lin12_rhs_0 _ _).trans hk
    | ⟨1, _⟩ => exact lin12_rhs_1 _ _)
  rw [el, er]

/-! ## The body's payload at an index -/

/-- The payload `x · w + b` at row `p`, column `q` of the block: the format changes are the identity at the ideal
    values, the bias's one row is laid along every row. -/
theorem lin12_pay_apply (x0 : Vec Ideal S5000x32 .f32) (x1 : Vec Ideal S32x128 .f32) (x2 : Vec Ideal S1x128 .f32) (p : Fin 5000) (q : Fin 128) :
    k12_pay1 x0 x1 x2 (ix2 p q) = (∑ k : Fin 32, x0 (ix2 p k) * x1 (ix2 k q)) + x2 (ix2 (0 : Fin 1) q) := by
  unfold k12_pay1
  rw [addf_apply, lin12_mm_apply]
  simp only [truncf_apply, shapeCast_self]
  congr 1
  exact broadcastTo_apply x2 broadcasts_S1x128_S5000x128 (ix2 p q) (ix2 (0 : Fin 1) q) (fun a => by
    match a with
    | ⟨0, _⟩ => rfl
    | ⟨1, _⟩ => rfl)

/-- The same at any index of the block. -/
theorem lin12_pay_idx (x0 : Vec Ideal S5000x32 .f32) (x1 : Vec Ideal S32x128 .f32) (x2 : Vec Ideal S1x128 .f32) (y : S5000x128.Idx) :
    k12_pay1 x0 x1 x2 y = (∑ k : Fin 32, x0 (ix2 (y 0) k) * x1 (ix2 k (y 1))) + x2 (ix2 (0 : Fin 1) (y 1)) := by
  obtain ⟨p, q, rfl⟩ : ∃ (p : Fin 5000) (q : Fin 128), y = ix2 p q := ⟨y 0, y 1, eq_ix2 y⟩
  exact lin12_pay_apply x0 x1 x2 p q

/-! ## The arrays, and the result as one function of them -/

variable (V : (c : Dev nD) → (b : Ref sig .tc) → Buf (Elt Ideal) ((c : Thread nD τ).loc b))

/-- The three input arrays as the region finds them, at their literal types. -/
abbrev xarr12 (c : Dev nD) : S100000x32.Idx → EReal := V c (Pipeline.arrRef spec12 0)
abbrev warr12 (c : Dev nD) : S32x128.Idx → EReal := V c (Pipeline.arrRef spec12 1)
abbrev barr12 (c : Dev nD) : S1x128.Idx → EReal := V c (Pipeline.arrRef spec12 2)

/-- `x · w + b`, row by row, over the whole arrays. -/
def lin12_G (x : S100000x32.Idx → EReal) (w : S32x128.Idx → EReal) (b : S1x128.Idx → EReal) : S100000x128.Idx → EReal :=
  fun i => (∑ k : Fin 32, x (ix2 (i 0) k) * w (ix2 k (i 1))) + b (ix2 (0 : Fin 1) (i 1))

theorem lin12_N : cfg12.N = 20 := N_12

/-! ## The blocks -/

/-- The printed index maps over the grid: the row blocks of `x` and of the result move with the point, the weight
    and the bias stay at block 0. -/
theorem lin12_idx_facts : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- The row block of `x` at point `t` is rows `5000 t … 5000 t + 4999` of the array. -/
theorem lin12_xblk_apply (c : Dev nD) (t : Fin cfg12.N) (x : S5000x32.Idx) (i : S100000x32.Idx)
    (h0 : (i 0).val = 5000 * t.val + (x 0).val) (h1 : (i 1).val = (x 1).val) :
    (iblk12 V c 0 t : Vec Ideal S5000x32 .f32) x = xarr12 V c i := by
  obtain ⟨e0, e1, -⟩ := lin12_idx_facts t
  unfold iblk12
  rw [View.read_apply]
  show V c (Pipeline.arrRef spec12 0) _ = V c (Pipeline.arrRef spec12 0) i
  congr 1
  funext a
  apply Fin.ext
  match a with
  | ⟨0, _⟩ => show win12_0.index t 0 * 5000 + 1 * (x 0).val = (i 0).val; rw [e0, h0]; omega
  | ⟨1, _⟩ => show win12_0.index t 1 * 32 + 1 * (x 1).val = (i 1).val; rw [e1, h1]; omega

/-- The weight's block at every point is the whole array. -/
theorem lin12_wblk_apply (c : Dev nD) (t : Fin cfg12.N) (x : S32x128.Idx) :
    (iblk12 V c 1 t : Vec Ideal S32x128 .f32) x = warr12 V c x := by
  obtain ⟨-, -, e0, e1, -⟩ := lin12_idx_facts t
  unfold iblk12
  rw [View.read_apply]
  show V c (Pipeline.arrRef spec12 1) _ = V c (Pipeline.arrRef spec12 1) x
  congr 1
  funext a
  apply Fin.ext
  match a with
  | ⟨0, _⟩ => show win12_1.index t 0 * 32 + 1 * (x 0).val = (x 0).val; rw [e0]; omega
  | ⟨1, _⟩ => show win12_1.index t 1 * 128 + 1 * (x 1).val = (x 1).val; rw [e1]; omega

/-- The bias's block at every point is the whole array. -/
theorem lin12_bblk_apply (c : Dev nD) (t : Fin cfg12.N) (x : S1x128.Idx) :
    (iblk12 V c 2 t : Vec Ideal S1x128 .f32) x = barr12 V c x := by
  obtain ⟨-, -, -, -, e0, e1, -⟩ := lin12_idx_facts t
  unfold iblk12
  rw [View.read_apply]
  show V c (Pipeline.arrRef spec12 2) _ = V c (Pipeline.arrRef spec12 2) x
  congr 1
  funext a
  apply Fin.ext
  match a with
  | ⟨0, _⟩ => show win12_2.index t 0 * 1 + 1 * (x 0).val = (x 0).val; rw [e0]; omega
  | ⟨1, _⟩ => show win12_2.index t 1 * 128 + 1 * (x 1).val = (x 1).val; rw [e1]; omega

/-- Where the result's block at point `t` puts its local index `y`: row `5000 t + y 0`, column `y 1`. -/
theorem lin12_oemb (t : Fin cfg12.N) (y : S5000x128.Idx) :
    ((((cfg12.win 3).blk t).view.emb y : S100000x128.Idx) 0).val = 5000 * t.val + (y 0).val
    ∧ ((((cfg12.win 3).blk t).view.emb y : S100000x128.Idx) 1).val = (y 1).val := by
  obtain ⟨-, -, -, -, -, -, e0, e1⟩ := lin12_idx_facts t
  constructor
  · show win12_3.index t 0 * 5000 + 1 * (y 0).val = _; rw [e0]; omega
  · show win12_3.index t 1 * 128 + 1 * (y 1).val = _; rw [e1]; omega

/-! ## From the blocks to the array -/

/-- What point `t` writes back is block `t` of `lin12_G` of the arrays. -/
theorem lin12_flushed_3_eq (c : Dev nD) (t : Fin cfg12.N) :
    (dat12 (F := Ideal) V c).flushed 3 t = ((cfg12.win 3).blk t).view.read (Elt Ideal) (lin12_G (xarr12 V c) (warr12 V c) (barr12 V c)) := by
  show (cfg12.win 3).cut (grid12.coords t) ((dat12 V c).after 3 t) = _
  rw [after12_3]
  unfold out12_3
  rw [View.canon_unit_zero lin12_hz]
  simp only [View.ld_unit_zero (S := S5000x32) lin12_hz, View.ld_unit_zero (S := S32x128) lin12_hz, View.ld_unit_zero (S := S1x128) lin12_hz]
  funext y
  obtain ⟨o0, o1⟩ := lin12_oemb t y
  show k12_pay1 (iblk12 V c 0 t) (iblk12 V c 1 t) (iblk12 V c 2 t) y = lin12_G (xarr12 V c) (warr12 V c) (barr12 V c) (((cfg12.win 3).blk t).view.emb y)
  refine (lin12_pay_idx (iblk12 V c 0 t) (iblk12 V c 1 t) (iblk12 V c 2 t) y).trans ?_
  unfold lin12_G
  refine congrArg₂ (· + ·) (Finset.sum_congr rfl fun k _ => congrArg₂ (· * ·) ?_ ?_) ?_
  · exact lin12_xblk_apply V c t (ix2 (y 0) k) _ o0 rfl
  · refine (lin12_wblk_apply V c t (ix2 k (y 1))).trans (congrArg (warr12 V c) ?_)
    funext a; apply Fin.ext
    match a with
    | ⟨0, _⟩ => rfl
    | ⟨1, _⟩ => exact o1.symm
  · refine (lin12_bblk_apply V c t (ix2 (0 : Fin 1) (y 1))).trans (congrArg (barr12 V c) ?_)
    funext a; apply Fin.ext
    match a with
    | ⟨0, _⟩ => rfl
    | ⟨1, _⟩ => exact o1.symm

/-- An index of the result array is in point `t`'s block iff each coordinate is in the block's range on its axis. -/
theorem lin12_mem_blk (t : Fin cfg12.N) (i : S100000x128.Idx) :
    i ∈ ((cfg12.win 3).blk t).view.set ↔ ∀ a : Fin 2, win12_3.index t a * S5000x128.size a ≤ (i a).val ∧ (i a).val < win12_3.index t a * S5000x128.size a + S5000x128.size a := by
  show i ∈ ((View.whole main_v281).slice (win12_3.rect t)).set ↔ _
  rw [View.set_slice_whole, Rect.mem_set_unit]
  exact Iff.rfl

/-- Row `r` of the result is in the block of point `r / 5000`, which is written back. -/
theorem lin12_cover (i : S100000x128.Idx) : ∃ t : Fin cfg12.N, (cfg12.win 3).flush t = true ∧ i ∈ ((cfg12.win 3).blk t).view.set := by
  have hi0 : (i 0).val < 100000 := (i 0).isLt
  have hi1 : (i 1).val < 128 := (i 1).isLt
  refine ⟨⟨(i 0).val / 5000, by rw [lin12_N]; omega⟩, flush12_3 _, ?_⟩
  rw [lin12_mem_blk]
  obtain ⟨-, -, -, -, -, -, e0, e1⟩ := lin12_idx_facts ⟨(i 0).val / 5000, by rw [lin12_N]; omega⟩
  intro a
  match a with
  | ⟨0, _⟩ => show win12_3.index _ (0 : Fin 2) * 5000 ≤ (i 0).val ∧ (i 0).val < win12_3.index _ (0 : Fin 2) * 5000 + 5000; rw [e0]; show (i 0).val / 5000 * 5000 ≤ _ ∧ _ < (i 0).val / 5000 * 5000 + 5000; omega
  | ⟨1, _⟩ => show win12_3.index _ (1 : Fin 2) * 128 ≤ (i 1).val ∧ (i 1).val < win12_3.index _ (1 : Fin 2) * 128 + 128; rw [e1]; omega

/-- The result array after the region is `lin12_G` of the three input arrays. -/
theorem lin12_final_3 (c : Dev nD) : (dat12 (F := Ideal) V c).arrAt 3 cfg12.N = lin12_G (xarr12 V c) (warr12 V c) (barr12 V c) :=
  (dat12 (F := Ideal) V c).arrAt_eq_of_cover 3 (lin12_G (xarr12 V c) (warr12 V c) (barr12 V c)) (fun t _ => lin12_flushed_3_eq V c t) (lin12_cover)

/-- The result array after the region, index by index: `∑ k, x[r, k] · w[k, j] + b[0, j]`. -/
theorem arr12_3_apply (c : Dev nD) (r : Fin 100000) (j : Fin 128) :
    ((dat12 (F := Ideal) V c).arrAt 3 cfg12.N : S100000x128.Idx → EReal) (ix2 r j)
      = (∑ k : Fin 32, xarr12 V c (ix2 r k) * warr12 V c (ix2 k j)) + barr12 V c (ix2 (0 : Fin 1) j) := by
  rw [lin12_final_3]
  rfl

/-- The result array after the region as the fused projection `x · w + b` of the three input arrays. -/
theorem arr12_3_eq (c : Dev nD) :
    (dat12 (F := Ideal) V c).arrAt 3 cfg12.N
      = Cert.KSpec.Glin128 (V c (Pipeline.arrRef spec12 0)) (V c (Pipeline.arrRef spec12 1)) (V c (Pipeline.arrRef spec12 2)) :=
  (lin12_final_3 V c).trans rfl

end Cert.KernelIdeal.Val

end
-- ==== Proof.Pay13.lean ====
/- The edge-update body's three stored values, read at an index, at the ideal float model: every entry as a formula
   over the extended reals of the entries of the six loaded blocks. -/
import proofs.«425355_j88287347737110_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-! ## The product `e · chat` at an index

The contraction runs over the second axis of the left operand and the first of the right; neither has a batch axis. -/

/-- The left operand's row coordinate is the output's. -/
theorem lhs13_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The left operand's column coordinate is the contracted one. -/
theorem lhs13_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

/-- The right operand's row coordinate is the contracted one. -/
theorem rhs13_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

/-- The right operand's column coordinate is the output's. -/
theorem rhs13_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into a zero accumulator, at row `p` and column `q`: the sum over the 128 contracted coordinates. -/
theorem matmul13_apply (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) := by
  show FloatOps.matmul dot_S4000x128_S128x128_S4000x128_1_0_0_1_n_n none x w (constant (F := Ideal) S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs13_0 _ _
    | ⟨1, _⟩ => exact (lhs13_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs13_0 _ _).trans hk
    | ⟨1, _⟩ => exact rhs13_1 _ _)
  rw [el, er]

/-! ## The stored values at an index -/

/-- The bias row, broadcast down the rows, at row `p` and column `q` is the row's entry at column `q`. -/
theorem bias13_apply (v : Vec Ideal S1x128 .f32) (p : Fin 4000) (q : Fin 128) :
    broadcastTo S4000x128 v broadcasts_S1x128_S4000x128 (ix2 p q) = v (ix2 (0 : Fin 1) q) :=
  broadcastTo_apply v broadcasts_S1x128_S4000x128 (ix2 p q) (ix2 (0 : Fin 1) q) (fun a => by
    match a with
    | ⟨0, _⟩ => rfl
    | ⟨1, _⟩ => rfl)

/-- `e_new` at row `p`, column `q`: `(ah + bh) + (∑ k, e[p,k] * chat[k,q] + cbias[0,q])`. -/
theorem pay13_1_apply (v0 : Vec Ideal S4000x128 .f32) (v3 : Vec Ideal S128x128 .f32) (v7 : Vec Ideal S1x128 .f32)
    (v11 v13 : Vec Ideal S4000x128 .f32) (p : Fin 4000) (q : Fin 128) :
    k13_pay1 v0 v3 v7 v11 v13 (ix2 p q)
      = (v11 (ix2 p q) + v13 (ix2 p q)) + ((∑ k : Fin 128, v0 (ix2 p k) * v3 (ix2 k q)) + v7 (ix2 (0 : Fin 1) q)) := by
  unfold k13_pay1
  simp only [shapeCast_self]
  show (v11 (ix2 p q) + v13 (ix2 p q)) + (matmul dot_S4000x128_S128x128_S4000x128_1_0_0_1_n_n none (truncf .bf16 v0 bitsLt_bf16_f32) (truncf .bf16 v3 bitsLt_bf16_f32) (constant (F := Ideal) S4000x128 .f32 0x00000000#32) (ix2 p q) + broadcastTo S4000x128 v7 broadcasts_S1x128_S4000x128 (ix2 p q)) = _
  rw [matmul13_apply, bias13_apply]
  rfl

/-- `sigma` at row `p`, column `q`: the logistic of `e_new` there. -/
theorem pay13_2_apply (v0 : Vec Ideal S4000x128 .f32) (v3 : Vec Ideal S128x128 .f32) (v7 : Vec Ideal S1x128 .f32)
    (v11 v13 : Vec Ideal S4000x128 .f32) (p : Fin 4000) (q : Fin 128) :
    k13_pay2 v0 v3 v7 v11 v13 (ix2 p q)
      = Ideal.logistic ((v11 (ix2 p q) + v13 (ix2 p q)) + ((∑ k : Fin 128, v0 (ix2 p k) * v3 (ix2 k q)) + v7 (ix2 (0 : Fin 1) q))) := by
  unfold k13_pay2
  show Ideal.logistic (k13_pay1 v0 v3 v7 v11 v13 (ix2 p q)) = _
  rw [pay13_1_apply]

/-- `sigma * vh` at row `p`, column `q`. -/
theorem pay13_3_apply (v0 : Vec Ideal S4000x128 .f32) (v3 : Vec Ideal S128x128 .f32) (v7 : Vec Ideal S1x128 .f32)
    (v11 v13 v20 : Vec Ideal S4000x128 .f32) (p : Fin 4000) (q : Fin 128) :
    k13_pay3 v0 v3 v7 v11 v13 v20 (ix2 p q)
      = Ideal.logistic ((v11 (ix2 p q) + v13 (ix2 p q)) + ((∑ k : Fin 128, v0 (ix2 p k) * v3 (ix2 k q)) + v7 (ix2 (0 : Fin 1) q))) * v20 (ix2 p q) := by
  unfold k13_pay3
  simp only [shapeCast_self]
  show k13_pay2 v0 v3 v7 v11 v13 (ix2 p q) * v20 (ix2 p q) = _
  rw [pay13_2_apply]

end Cert.KernelIdeal.Val

end
-- ==== Proof.Val13.lean ====
/- The edge-update region at the ideal float model: what each of its three output arrays holds after the region,
   index by index, as a formula over the extended reals of the entries of the six arrays the region reads. -/
import proofs.«425355_j88287347737110_2_alg».proof.Proof.Reg13
import proofs.«425355_j88287347737110_2_alg».proof.Proof.Pay13
import proofs.«425355_j88287347737110_2_alg».proof.Proof.KSpec
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

-- the core's buffer contents when the region is entered
variable (V : (c : Dev nD) → (b : Ref sig .tc) → Buf (Elt Ideal) ((c : Thread nD τ).loc b))

/-! ## The six arrays the region reads, as it finds them, at their literal types -/

abbrev ent13_0 (c : Dev nD) : S200000x128.Idx → EReal := V c (Pipeline.arrRef spec13 0)
abbrev ent13_1 (c : Dev nD) : S200000x128.Idx → EReal := V c (Pipeline.arrRef spec13 1)
abbrev ent13_2 (c : Dev nD) : S200000x128.Idx → EReal := V c (Pipeline.arrRef spec13 2)
abbrev ent13_3 (c : Dev nD) : S200000x128.Idx → EReal := V c (Pipeline.arrRef spec13 3)
abbrev ent13_4 (c : Dev nD) : S128x128.Idx → EReal := V c (Pipeline.arrRef spec13 4)
abbrev ent13_5 (c : Dev nD) : S1x128.Idx → EReal := V c (Pipeline.arrRef spec13 5)

/-! ## The block index maps, decided over the 50 grid points -/

theorem hz13 : (![0, 0] : Fin 2 → Nat) = fun _ => 0 := funext fun a => by fin_cases a <;> rfl

/-- The seven row-blocked windows sit at row block `t`, column block 0. -/
theorem idx13_row : ∀ t : Fin cfg13.N, (win13_0.index t (0 : Fin 2) = t.val ∧ win13_0.index t (1 : Fin 2) = 0)
    ∧ (win13_1.index t (0 : Fin 2) = t.val ∧ win13_1.index t (1 : Fin 2) = 0)
    ∧ (win13_2.index t (0 : Fin 2) = t.val ∧ win13_2.index t (1 : Fin 2) = 0)
    ∧ (win13_3.index t (0 : Fin 2) = t.val ∧ win13_3.index t (1 : Fin 2) = 0)
    ∧ (win13_6.index t (0 : Fin 2) = t.val ∧ win13_6.index t (1 : Fin 2) = 0)
    ∧ (win13_7.index t (0 : Fin 2) = t.val ∧ win13_7.index t (1 : Fin 2) = 0)
    ∧ (win13_8.index t (0 : Fin 2) = t.val ∧ win13_8.index t (1 : Fin 2) = 0) :=
  (by decide +kernel : ∀ t : Fin grid13.N, _)

/-- The two resident windows sit at block (0, 0) throughout. -/
theorem idx13_res : ∀ t : Fin cfg13.N, (win13_4.index t (0 : Fin 2) = 0 ∧ win13_4.index t (1 : Fin 2) = 0)
    ∧ (win13_5.index t (0 : Fin 2) = 0 ∧ win13_5.index t (1 : Fin 2) = 0) :=
  (by decide +kernel : ∀ t : Fin grid13.N, _)

/-! ## An input block's entry is an entry of its array -/

/-- Row block `t` of window 0 at row `p`, column `q` is the array's entry at row `t * 4000 + p`, column `q`. -/
theorem blk13_0_apply (c : Dev nD) (t : Fin cfg13.N) (p : Fin 4000) (q : Fin 128) (r : Fin 200000) (hr : r.val = t.val * 4000 + p.val) :
    (iblk13 V c 0 t : S4000x128.Idx → EReal) (ix2 p q) = ent13_0 V c (ix2 r q) := by
  show V c (Pipeline.arrRef spec13 0) (((cfg13.win 0).blk t).view.emb (ix2 p q)) = V c (Pipeline.arrRef spec13 0) (ix2 r q)
  obtain ⟨h0, h1⟩ := (idx13_row t).1
  refine congrArg _ (funext fun a => Fin.ext ?_)
  match a with
  | ⟨0, _⟩ => show win13_0.index t (0 : Fin 2) * 4000 + 1 * p.val = r.val; omega
  | ⟨1, _⟩ => show win13_0.index t (1 : Fin 2) * 128 + 1 * q.val = q.val; omega

/-- Row block `t` of window 1 at row `p`, column `q` is the array's entry at row `t * 4000 + p`, column `q`. -/
theorem blk13_1_apply (c : Dev nD) (t : Fin cfg13.N) (p : Fin 4000) (q : Fin 128) (r : Fin 200000) (hr : r.val = t.val * 4000 + p.val) :
    (iblk13 V c 1 t : S4000x128.Idx → EReal) (ix2 p q) = ent13_1 V c (ix2 r q) := by
  show V c (Pipeline.arrRef spec13 1) (((cfg13.win 1).blk t).view.emb (ix2 p q)) = V c (Pipeline.arrRef spec13 1) (ix2 r q)
  obtain ⟨h0, h1⟩ := (idx13_row t).2.1
  refine congrArg _ (funext fun a => Fin.ext ?_)
  match a with
  | ⟨0, _⟩ => show win13_1.index t (0 : Fin 2) * 4000 + 1 * p.val = r.val; omega
  | ⟨1, _⟩ => show win13_1.index t (1 : Fin 2) * 128 + 1 * q.val = q.val; omega

/-- Row block `t` of window 2 at row `p`, column `q` is the array's entry at row `t * 4000 + p`, column `q`. -/
theorem blk13_2_apply (c : Dev nD) (t : Fin cfg13.N) (p : Fin 4000) (q : Fin 128) (r : Fin 200000) (hr : r.val = t.val * 4000 + p.val) :
    (iblk13 V c 2 t : S4000x128.Idx → EReal) (ix2 p q) = ent13_2 V c (ix2 r q) := by
  show V c (Pipeline.arrRef spec13 2) (((cfg13.win 2).blk t).view.emb (ix2 p q)) = V c (Pipeline.arrRef spec13 2) (ix2 r q)
  obtain ⟨h0, h1⟩ := (idx13_row t).2.2.1
  refine congrArg _ (funext fun a => Fin.ext ?_)
  match a with
  | ⟨0, _⟩ => show win13_2.index t (0 : Fin 2) * 4000 + 1 * p.val = r.val; omega
  | ⟨1, _⟩ => show win13_2.index t (1 : Fin 2) * 128 + 1 * q.val = q.val; omega

/-- Row block `t` of window 3 at row `p`, column `q` is the array's entry at row `t * 4000 + p`, column `q`. -/
theorem blk13_3_apply (c : Dev nD) (t : Fin cfg13.N) (p : Fin 4000) (q : Fin 128) (r : Fin 200000) (hr : r.val = t.val * 4000 + p.val) :
    (iblk13 V c 3 t : S4000x128.Idx → EReal) (ix2 p q) = ent13_3 V c (ix2 r q) := by
  show V c (Pipeline.arrRef spec13 3) (((cfg13.win 3).blk t).view.emb (ix2 p q)) = V c (Pipeline.arrRef spec13 3) (ix2 r q)
  obtain ⟨h0, h1⟩ := (idx13_row t).2.2.2.1
  refine congrArg _ (funext fun a => Fin.ext ?_)
  match a with
  | ⟨0, _⟩ => show win13_3.index t (0 : Fin 2) * 4000 + 1 * p.val = r.val; omega
  | ⟨1, _⟩ => show win13_3.index t (1 : Fin 2) * 128 + 1 * q.val = q.val; omega

/-- The resident weight block is the whole weight array. -/
theorem blk13_4_apply (c : Dev nD) (t : Fin cfg13.N) (k : Fin 128) (q : Fin 128) :
    (iblk13 V c 4 t : S128x128.Idx → EReal) (ix2 k q) = ent13_4 V c (ix2 k q) := by
  show V c (Pipeline.arrRef spec13 4) (((cfg13.win 4).blk t).view.emb (ix2 k q)) = V c (Pipeline.arrRef spec13 4) (ix2 k q)
  obtain ⟨h0, h1⟩ := (idx13_res t).1
  refine congrArg _ (funext fun a => Fin.ext ?_)
  match a with
  | ⟨0, _⟩ => show win13_4.index t (0 : Fin 2) * 128 + 1 * k.val = k.val; omega
  | ⟨1, _⟩ => show win13_4.index t (1 : Fin 2) * 128 + 1 * q.val = q.val; omega

/-- The resident bias block is the whole bias row. -/
theorem blk13_5_apply (c : Dev nD) (t : Fin cfg13.N) (q : Fin 128) :
    (iblk13 V c 5 t : S1x128.Idx → EReal) (ix2 (0 : Fin 1) q) = ent13_5 V c (ix2 (0 : Fin 1) q) := by
  show V c (Pipeline.arrRef spec13 5) (((cfg13.win 5).blk t).view.emb (ix2 (0 : Fin 1) q)) = V c (Pipeline.arrRef spec13 5) (ix2 (0 : Fin 1) q)
  obtain ⟨h0, h1⟩ := (idx13_res t).2
  refine congrArg _ (funext fun a => Fin.ext ?_)
  match a with
  | ⟨0, _⟩ => show win13_5.index t (0 : Fin 2) * 1 + 1 * (0 : Fin 1).val = (0 : Fin 1).val; omega
  | ⟨1, _⟩ => show win13_5.index t (1 : Fin 2) * 128 + 1 * q.val = q.val; omega

/-! ## Output window 6 -/

/-- What window 6's array holds after the region, as one function of the entry arrays. -/
abbrev G13_6 (c : Dev nD) : S200000x128.Idx → EReal := Cert.KSpec.GedgeNew (ent13_0 V c) (ent13_1 V c) (ent13_2 V c) (ent13_4 V c) (ent13_5 V c)

/-- Row block `t` of window 6: its index at row `p`, column `q` is row `t * 4000 + p`, column `q` of the array. -/
theorem emb13_6 (t : Fin cfg13.N) (p : Fin 4000) (q : Fin 128) (r : Fin 200000) (hr : r.val = t.val * 4000 + p.val) :
    (((cfg13.win 6).blk t).view.emb (ix2 p q) : S200000x128.Idx) = ix2 r q := by
  obtain ⟨h0, h1⟩ := (idx13_row t).2.2.2.2.1
  refine funext fun a => Fin.ext ?_
  match a with
  | ⟨0, _⟩ => show win13_6.index t (0 : Fin 2) * 4000 + 1 * p.val = r.val; omega
  | ⟨1, _⟩ => show win13_6.index t (1 : Fin 2) * 128 + 1 * q.val = q.val; omega

/-- What point `t` writes back to window 6's array is block `t` of `G13_6`. -/
theorem flushed13_6_eq (c : Dev nD) (t : Fin cfg13.N) :
    (dat13 (F := Ideal) V c).flushed 6 t = ((cfg13.win 6).blk t).view.read (Elt Ideal) (G13_6 V c) := by
  show (cfg13.win 6).cut (grid13.coords t) ((dat13 (F := Ideal) V c).after 6 t) = _
  rw [after13_6]
  unfold out13_6
  rw [View.canon_unit_zero hz13]
  simp only [View.ld_unit_zero (S := S4000x128) hz13, View.ld_unit_zero (S := S128x128) hz13, View.ld_unit_zero (S := S1x128) hz13]
  funext y
  obtain ⟨p, q, rfl⟩ : ∃ (p : Fin 4000) (q : Fin 128), y = ix2 p q := ⟨y 0, y 1, eq_ix2 y⟩
  have ht : t.val < 50 := lt_of_lt_of_eq t.isLt N_13
  have hp : p.val < 4000 := p.isLt
  have hr : ((⟨t.val * 4000 + p.val, by omega⟩ : Fin 200000)).val = t.val * 4000 + p.val := rfl
  show k13_pay1 (iblk13 V c 2 t) (iblk13 V c 4 t) (iblk13 V c 5 t) (iblk13 V c 0 t) (iblk13 V c 1 t) (ix2 p q) = G13_6 V c (((cfg13.win 6).blk t).view.emb (ix2 p q))
  rw [emb13_6 t p q _ hr]
  refine (pay13_1_apply (iblk13 V c 2 t) (iblk13 V c 4 t) (iblk13 V c 5 t) (iblk13 V c 0 t) (iblk13 V c 1 t) p q).trans ?_
  exact (congrArg₂ (· + ·) (congrArg₂ (· + ·) (blk13_0_apply V c t p q _ hr) (blk13_1_apply V c t p q _ hr))
    (congrArg₂ (· + ·) (Finset.sum_congr rfl fun k _ => congrArg₂ (· * ·) (blk13_2_apply V c t p k _ hr) (blk13_4_apply V c t k q)) (blk13_5_apply V c t q)))

/-- An index of the array is in point `t`'s block iff each coordinate is in the block's range on its axis. -/
theorem mem_blk13_6 (t : Fin cfg13.N) (i : S200000x128.Idx) :
    i ∈ ((cfg13.win 6).blk t).view.set ↔ ∀ a : Fin 2, win13_6.index t a * S4000x128.size a ≤ (i a).val ∧ (i a).val < win13_6.index t a * S4000x128.size a + S4000x128.size a := by
  show i ∈ ((View.whole main_v320_0).slice (win13_6.rect t)).set ↔ _
  rw [View.set_slice_whole, Rect.mem_set_unit]
  exact Iff.rfl

/-- Every index is in the block of the point its row falls in: point `row / 4000`. -/
theorem cover13_6 (i : S200000x128.Idx) :
    ∃ t : Fin cfg13.N, (cfg13.win 6).flush t = true ∧ i ∈ ((cfg13.win 6).blk t).view.set := by
  have hi0 : (i 0).val < 200000 := idx2_lt0 i
  have hi1 : (i 1).val < 128 := idx2_lt1 i
  have hN : cfg13.N = 50 := N_13
  refine ⟨⟨(i 0).val / 4000, by rw [hN]; omega⟩, flush13_6 _, ?_⟩
  rw [mem_blk13_6]
  obtain ⟨h0, h1⟩ := (idx13_row (⟨(i 0).val / 4000, by rw [hN]; omega⟩ : Fin cfg13.N)).2.2.2.2.1
  intro a
  match a with
  | ⟨0, _⟩ => show win13_6.index _ (0 : Fin 2) * 4000 ≤ (i 0).val ∧ (i 0).val < win13_6.index _ (0 : Fin 2) * 4000 + 4000; rw [h0]; show (i 0).val / 4000 * 4000 ≤ (i 0).val ∧ (i 0).val < (i 0).val / 4000 * 4000 + 4000; omega
  | ⟨1, _⟩ => show win13_6.index _ (1 : Fin 2) * 128 ≤ (i 1).val ∧ (i 1).val < win13_6.index _ (1 : Fin 2) * 128 + 128; rw [h1]; omega

/-- The array after the region: `G13_6` of the entry arrays, everywhere. -/
theorem final13_6 (c : Dev nD) : (dat13 (F := Ideal) V c).arrAt 6 cfg13.N = G13_6 V c :=
  (dat13 (F := Ideal) V c).arrAt_eq_of_cover 6 (G13_6 V c) (fun t _ => flushed13_6_eq V c t) (cover13_6)

/-! ## Output window 7 -/

/-- What window 7's array holds after the region, as one function of the entry arrays. -/
abbrev G13_7 (c : Dev nD) : S200000x128.Idx → EReal := Cert.KSpec.GedgeSig (ent13_0 V c) (ent13_1 V c) (ent13_2 V c) (ent13_4 V c) (ent13_5 V c)

/-- Row block `t` of window 7: its index at row `p`, column `q` is row `t * 4000 + p`, column `q` of the array. -/
theorem emb13_7 (t : Fin cfg13.N) (p : Fin 4000) (q : Fin 128) (r : Fin 200000) (hr : r.val = t.val * 4000 + p.val) :
    (((cfg13.win 7).blk t).view.emb (ix2 p q) : S200000x128.Idx) = ix2 r q := by
  obtain ⟨h0, h1⟩ := (idx13_row t).2.2.2.2.2.1
  refine funext fun a => Fin.ext ?_
  match a with
  | ⟨0, _⟩ => show win13_7.index t (0 : Fin 2) * 4000 + 1 * p.val = r.val; omega
  | ⟨1, _⟩ => show win13_7.index t (1 : Fin 2) * 128 + 1 * q.val = q.val; omega

/-- What point `t` writes back to window 7's array is block `t` of `G13_7`. -/
theorem flushed13_7_eq (c : Dev nD) (t : Fin cfg13.N) :
    (dat13 (F := Ideal) V c).flushed 7 t = ((cfg13.win 7).blk t).view.read (Elt Ideal) (G13_7 V c) := by
  show (cfg13.win 7).cut (grid13.coords t) ((dat13 (F := Ideal) V c).after 7 t) = _
  rw [after13_7]
  unfold out13_7
  rw [View.canon_unit_zero hz13]
  simp only [View.ld_unit_zero (S := S4000x128) hz13, View.ld_unit_zero (S := S128x128) hz13, View.ld_unit_zero (S := S1x128) hz13]
  funext y
  obtain ⟨p, q, rfl⟩ : ∃ (p : Fin 4000) (q : Fin 128), y = ix2 p q := ⟨y 0, y 1, eq_ix2 y⟩
  have ht : t.val < 50 := lt_of_lt_of_eq t.isLt N_13
  have hp : p.val < 4000 := p.isLt
  have hr : ((⟨t.val * 4000 + p.val, by omega⟩ : Fin 200000)).val = t.val * 4000 + p.val := rfl
  show k13_pay2 (iblk13 V c 2 t) (iblk13 V c 4 t) (iblk13 V c 5 t) (iblk13 V c 0 t) (iblk13 V c 1 t) (ix2 p q) = G13_7 V c (((cfg13.win 7).blk t).view.emb (ix2 p q))
  rw [emb13_7 t p q _ hr]
  refine (pay13_2_apply (iblk13 V c 2 t) (iblk13 V c 4 t) (iblk13 V c 5 t) (iblk13 V c 0 t) (iblk13 V c 1 t) p q).trans ?_
  exact congrArg Ideal.logistic (congrArg₂ (· + ·) (congrArg₂ (· + ·) (blk13_0_apply V c t p q _ hr) (blk13_1_apply V c t p q _ hr))
    (congrArg₂ (· + ·) (Finset.sum_congr rfl fun k _ => congrArg₂ (· * ·) (blk13_2_apply V c t p k _ hr) (blk13_4_apply V c t k q)) (blk13_5_apply V c t q)))

/-- An index of the array is in point `t`'s block iff each coordinate is in the block's range on its axis. -/
theorem mem_blk13_7 (t : Fin cfg13.N) (i : S200000x128.Idx) :
    i ∈ ((cfg13.win 7).blk t).view.set ↔ ∀ a : Fin 2, win13_7.index t a * S4000x128.size a ≤ (i a).val ∧ (i a).val < win13_7.index t a * S4000x128.size a + S4000x128.size a := by
  show i ∈ ((View.whole main_v320_1).slice (win13_7.rect t)).set ↔ _
  rw [View.set_slice_whole, Rect.mem_set_unit]
  exact Iff.rfl

/-- Every index is in the block of the point its row falls in: point `row / 4000`. -/
theorem cover13_7 (i : S200000x128.Idx) :
    ∃ t : Fin cfg13.N, (cfg13.win 7).flush t = true ∧ i ∈ ((cfg13.win 7).blk t).view.set := by
  have hi0 : (i 0).val < 200000 := idx2_lt0 i
  have hi1 : (i 1).val < 128 := idx2_lt1 i
  have hN : cfg13.N = 50 := N_13
  refine ⟨⟨(i 0).val / 4000, by rw [hN]; omega⟩, flush13_7 _, ?_⟩
  rw [mem_blk13_7]
  obtain ⟨h0, h1⟩ := (idx13_row (⟨(i 0).val / 4000, by rw [hN]; omega⟩ : Fin cfg13.N)).2.2.2.2.2.1
  intro a
  match a with
  | ⟨0, _⟩ => show win13_7.index _ (0 : Fin 2) * 4000 ≤ (i 0).val ∧ (i 0).val < win13_7.index _ (0 : Fin 2) * 4000 + 4000; rw [h0]; show (i 0).val / 4000 * 4000 ≤ (i 0).val ∧ (i 0).val < (i 0).val / 4000 * 4000 + 4000; omega
  | ⟨1, _⟩ => show win13_7.index _ (1 : Fin 2) * 128 ≤ (i 1).val ∧ (i 1).val < win13_7.index _ (1 : Fin 2) * 128 + 128; rw [h1]; omega

/-- The array after the region: `G13_7` of the entry arrays, everywhere. -/
theorem final13_7 (c : Dev nD) : (dat13 (F := Ideal) V c).arrAt 7 cfg13.N = G13_7 V c :=
  (dat13 (F := Ideal) V c).arrAt_eq_of_cover 7 (G13_7 V c) (fun t _ => flushed13_7_eq V c t) (cover13_7)

/-! ## Output window 8 -/

/-- What window 8's array holds after the region, as one function of the entry arrays. -/
abbrev G13_8 (c : Dev nD) : S200000x128.Idx → EReal := Cert.KSpec.GedgeNum (ent13_0 V c) (ent13_1 V c) (ent13_2 V c) (ent13_3 V c) (ent13_4 V c) (ent13_5 V c)

/-- Row block `t` of window 8: its index at row `p`, column `q` is row `t * 4000 + p`, column `q` of the array. -/
theorem emb13_8 (t : Fin cfg13.N) (p : Fin 4000) (q : Fin 128) (r : Fin 200000) (hr : r.val = t.val * 4000 + p.val) :
    (((cfg13.win 8).blk t).view.emb (ix2 p q) : S200000x128.Idx) = ix2 r q := by
  obtain ⟨h0, h1⟩ := (idx13_row t).2.2.2.2.2.2
  refine funext fun a => Fin.ext ?_
  match a with
  | ⟨0, _⟩ => show win13_8.index t (0 : Fin 2) * 4000 + 1 * p.val = r.val; omega
  | ⟨1, _⟩ => show win13_8.index t (1 : Fin 2) * 128 + 1 * q.val = q.val; omega

/-- What point `t` writes back to window 8's array is block `t` of `G13_8`. -/
theorem flushed13_8_eq (c : Dev nD) (t : Fin cfg13.N) :
    (dat13 (F := Ideal) V c).flushed 8 t = ((cfg13.win 8).blk t).view.read (Elt Ideal) (G13_8 V c) := by
  show (cfg13.win 8).cut (grid13.coords t) ((dat13 (F := Ideal) V c).after 8 t) = _
  rw [after13_8]
  unfold out13_8
  rw [View.canon_unit_zero hz13]
  simp only [View.ld_unit_zero (S := S4000x128) hz13, View.ld_unit_zero (S := S128x128) hz13, View.ld_unit_zero (S := S1x128) hz13]
  funext y
  obtain ⟨p, q, rfl⟩ : ∃ (p : Fin 4000) (q : Fin 128), y = ix2 p q := ⟨y 0, y 1, eq_ix2 y⟩
  have ht : t.val < 50 := lt_of_lt_of_eq t.isLt N_13
  have hp : p.val < 4000 := p.isLt
  have hr : ((⟨t.val * 4000 + p.val, by omega⟩ : Fin 200000)).val = t.val * 4000 + p.val := rfl
  show k13_pay3 (iblk13 V c 2 t) (iblk13 V c 4 t) (iblk13 V c 5 t) (iblk13 V c 0 t) (iblk13 V c 1 t) (iblk13 V c 3 t) (ix2 p q) = G13_8 V c (((cfg13.win 8).blk t).view.emb (ix2 p q))
  rw [emb13_8 t p q _ hr]
  refine (pay13_3_apply (iblk13 V c 2 t) (iblk13 V c 4 t) (iblk13 V c 5 t) (iblk13 V c 0 t) (iblk13 V c 1 t) (iblk13 V c 3 t) p q).trans ?_
  exact congrArg₂ (· * ·) (congrArg Ideal.logistic (congrArg₂ (· + ·) (congrArg₂ (· + ·) (blk13_0_apply V c t p q _ hr) (blk13_1_apply V c t p q _ hr))
    (congrArg₂ (· + ·) (Finset.sum_congr rfl fun k _ => congrArg₂ (· * ·) (blk13_2_apply V c t p k _ hr) (blk13_4_apply V c t k q)) (blk13_5_apply V c t q)))) (blk13_3_apply V c t p q _ hr)

/-- An index of the array is in point `t`'s block iff each coordinate is in the block's range on its axis. -/
theorem mem_blk13_8 (t : Fin cfg13.N) (i : S200000x128.Idx) :
    i ∈ ((cfg13.win 8).blk t).view.set ↔ ∀ a : Fin 2, win13_8.index t a * S4000x128.size a ≤ (i a).val ∧ (i a).val < win13_8.index t a * S4000x128.size a + S4000x128.size a := by
  show i ∈ ((View.whole main_v320_2).slice (win13_8.rect t)).set ↔ _
  rw [View.set_slice_whole, Rect.mem_set_unit]
  exact Iff.rfl

/-- Every index is in the block of the point its row falls in: point `row / 4000`. -/
theorem cover13_8 (i : S200000x128.Idx) :
    ∃ t : Fin cfg13.N, (cfg13.win 8).flush t = true ∧ i ∈ ((cfg13.win 8).blk t).view.set := by
  have hi0 : (i 0).val < 200000 := idx2_lt0 i
  have hi1 : (i 1).val < 128 := idx2_lt1 i
  have hN : cfg13.N = 50 := N_13
  refine ⟨⟨(i 0).val / 4000, by rw [hN]; omega⟩, flush13_8 _, ?_⟩
  rw [mem_blk13_8]
  obtain ⟨h0, h1⟩ := (idx13_row (⟨(i 0).val / 4000, by rw [hN]; omega⟩ : Fin cfg13.N)).2.2.2.2.2.2
  intro a
  match a with
  | ⟨0, _⟩ => show win13_8.index _ (0 : Fin 2) * 4000 ≤ (i 0).val ∧ (i 0).val < win13_8.index _ (0 : Fin 2) * 4000 + 4000; rw [h0]; show (i 0).val / 4000 * 4000 ≤ (i 0).val ∧ (i 0).val < (i 0).val / 4000 * 4000 + 4000; omega
  | ⟨1, _⟩ => show win13_8.index _ (1 : Fin 2) * 128 ≤ (i 1).val ∧ (i 1).val < win13_8.index _ (1 : Fin 2) * 128 + 128; rw [h1]; omega

/-- The array after the region: `G13_8` of the entry arrays, everywhere. -/
theorem final13_8 (c : Dev nD) : (dat13 (F := Ideal) V c).arrAt 8 cfg13.N = G13_8 V c :=
  (dat13 (F := Ideal) V c).arrAt_eq_of_cover 8 (G13_8 V c) (fun t _ => flushed13_8_eq V c t) (cover13_8)

/-! ## The three output arrays after the region -/

/-- `e_new`, the whole array: the new edge feature of the entry arrays. -/
theorem arr13_6_eq (c : Dev nD) :
    (dat13 (F := Ideal) V c).arrAt 6 cfg13.N = Cert.KSpec.GedgeNew (V c (Pipeline.arrRef spec13 0)) (V c (Pipeline.arrRef spec13 1)) (V c (Pipeline.arrRef spec13 2)) (V c (Pipeline.arrRef spec13 4)) (V c (Pipeline.arrRef spec13 5)) :=
  final13_6 V c

/-- `sigma`, the whole array: the logistic of the new edge feature. -/
theorem arr13_7_eq (c : Dev nD) :
    (dat13 (F := Ideal) V c).arrAt 7 cfg13.N = Cert.KSpec.GedgeSig (V c (Pipeline.arrRef spec13 0)) (V c (Pipeline.arrRef spec13 1)) (V c (Pipeline.arrRef spec13 2)) (V c (Pipeline.arrRef spec13 4)) (V c (Pipeline.arrRef spec13 5)) :=
  final13_7 V c

/-- The gated message `sigma * vh`, the whole array. -/
theorem arr13_8_eq (c : Dev nD) :
    (dat13 (F := Ideal) V c).arrAt 8 cfg13.N = Cert.KSpec.GedgeNum (V c (Pipeline.arrRef spec13 0)) (V c (Pipeline.arrRef spec13 1)) (V c (Pipeline.arrRef spec13 2)) (V c (Pipeline.arrRef spec13 3)) (V c (Pipeline.arrRef spec13 4)) (V c (Pipeline.arrRef spec13 5)) :=
  final13_8 V c

/-- `e_new` at row `r`, column `j`. -/
theorem arr13_6_apply (c : Dev nD) (r : Fin 200000) (j : Fin 128) :
    (dat13 (F := Ideal) V c).arrAt 6 cfg13.N (ix2 r j) = Cert.KSpec.edgeNewAt (V c (Pipeline.arrRef spec13 0)) (V c (Pipeline.arrRef spec13 1)) (V c (Pipeline.arrRef spec13 2)) (V c (Pipeline.arrRef spec13 4)) (V c (Pipeline.arrRef spec13 5)) r j :=
  congrFun (final13_6 V c) (ix2 r j)

/-- `sigma` at row `r`, column `j`. -/
theorem arr13_7_apply (c : Dev nD) (r : Fin 200000) (j : Fin 128) :
    (dat13 (F := Ideal) V c).arrAt 7 cfg13.N (ix2 r j) = Ideal.logistic (Cert.KSpec.edgeNewAt (V c (Pipeline.arrRef spec13 0)) (V c (Pipeline.arrRef spec13 1)) (V c (Pipeline.arrRef spec13 2)) (V c (Pipeline.arrRef spec13 4)) (V c (Pipeline.arrRef spec13 5)) r j) :=
  congrFun (final13_7 V c) (ix2 r j)

/-- The gated message at row `r`, column `j`. -/
theorem arr13_8_apply (c : Dev nD) (r : Fin 200000) (j : Fin 128) :
    (dat13 (F := Ideal) V c).arrAt 8 cfg13.N (ix2 r j) = Cert.KSpec.GedgeNum (V c (Pipeline.arrRef spec13 0)) (V c (Pipeline.arrRef spec13 1)) (V c (Pipeline.arrRef spec13 2)) (V c (Pipeline.arrRef spec13 3)) (V c (Pipeline.arrRef spec13 4)) (V c (Pipeline.arrRef spec13 5)) (ix2 r j) :=
  congrFun (final13_8 V c) (ix2 r j)

end Cert.KernelIdeal.Val

end
-- ==== Proof.Val14.lean ====
import proofs.«425355_j88287347737110_2_alg».proof.Proof.Reg14
import proofs.«425355_j88287347737110_2_alg».proof.Proof.KSpec
import Idealize.ShloMosaic.Lib.Pipeline.Value
import Idealize.ShloMosaic.Lib.ValueIdx
import Idealize.ShloMosaic.Lib.Tactic

/-! The node-update region (custom_call 14), read at the extended reals: after the region the output array holds,
    at every row `r` and column `j`, `uh r j + num r j / (den r j + eps)` of the three input arrays as the region
    finds them. Each grid point writes the row block it reads; the five blocks tile the 25000 rows. -/

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three input arrays as the region finds them, at their literal type: `uh`, the numerator, the denominator. -/
abbrev ent14_0 (c : Dev nD) : S25000x128.Idx → EReal := V c (Pipeline.arrRef spec14 0)
abbrev ent14_1 (c : Dev nD) : S25000x128.Idx → EReal := V c (Pipeline.arrRef spec14 1)
abbrev ent14_2 (c : Dev nD) : S25000x128.Idx → EReal := V c (Pipeline.arrRef spec14 2)

/-- The body's rectangles start at the origin of the staging buffer. -/
theorem origin14 : (![0, 0] : Fin 2 → Nat) = fun _ => 0 := funext fun a => by fin_cases a <;> rfl

/-- The node update of three whole arrays, entry by entry: `uh + num / (den + eps)`, the divisor's constant kept
    as the word the body holds. -/
abbrev nodeArr14 (uh num den : S25000x128.Idx → EReal) : S25000x128.Idx → EReal :=
  fun i => uh i + Ideal.div (num i) (den i + Ideal.ofBits .f32 0x358637BD#32)

/-- The body's payload is that update of its three loaded blocks, entry by entry. -/
theorem pay14_eq (x0 x1 x2 : Vec Ideal S5000x128 .f32) :
    k14_pay1 x0 x1 x2 = fun y => x0 y + Ideal.div (x1 y) (x2 y + Ideal.ofBits .f32 0x358637BD#32) := by
  unfold k14_pay1
  simp only [shapeCast_self]
  rfl

/-- So is what the body leaves in the output's staging buffer: its one store takes the whole buffer. -/
theorem out14_3_eq (x0 x1 x2 : Vec Ideal S5000x128 .f32) :
    out14_3 x0 x1 x2 = fun y => x0 y + Ideal.div (x1 y) (x2 y + Ideal.ofBits .f32 0x358637BD#32) := by
  unfold out14_3
  rw [View.canon_unit_zero origin14]
  simp only [View.ld_unit_zero (S := S5000x128) origin14]
  exact pay14_eq x0 x1 x2

/-- The printed index maps, decided over the grid: at point `t` every window is on row block `t`, column block 0. -/
theorem idx_facts14 : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = t.val ∧ win14_3.index t (1 : Fin 2) = 0 :=
  (by decide +kernel : ∀ t : Fin grid14.N, _)

/-- A block's entry is the array's entry at row `5000 t + y 0`, column `y 1`: the four windows' blocks at a
    point sit at the same place of their arrays. -/
theorem emb14_eq (t : Fin cfg14.N) (j : S5000x128.Idx) :
    ((cfg14.win 0).blk t).view.emb j = ((cfg14.win 3).blk t).view.emb j
    ∧ ((cfg14.win 1).blk t).view.emb j = ((cfg14.win 3).blk t).view.emb j
    ∧ ((cfg14.win 2).blk t).view.emb j = ((cfg14.win 3).blk t).view.emb j := by
  obtain ⟨e00, e01, e10, e11, e20, e21, e30, e31⟩ := idx_facts14 t
  refine ⟨?_, ?_, ?_⟩
  · funext a; apply Fin.ext
    match a with
    | ⟨0, _⟩ => show win14_0.index t (0 : Fin 2) * 5000 + 1 * (j 0).val = win14_3.index t (0 : Fin 2) * 5000 + 1 * (j 0).val; omega
    | ⟨1, _⟩ => show win14_0.index t (1 : Fin 2) * 128 + 1 * (j 1).val = win14_3.index t (1 : Fin 2) * 128 + 1 * (j 1).val; omega
  · funext a; apply Fin.ext
    match a with
    | ⟨0, _⟩ => show win14_1.index t (0 : Fin 2) * 5000 + 1 * (j 0).val = win14_3.index t (0 : Fin 2) * 5000 + 1 * (j 0).val; omega
    | ⟨1, _⟩ => show win14_1.index t (1 : Fin 2) * 128 + 1 * (j 1).val = win14_3.index t (1 : Fin 2) * 128 + 1 * (j 1).val; omega
  · funext a; apply Fin.ext
    match a with
    | ⟨0, _⟩ => show win14_2.index t (0 : Fin 2) * 5000 + 1 * (j 0).val = win14_3.index t (0 : Fin 2) * 5000 + 1 * (j 0).val; omega
    | ⟨1, _⟩ => show win14_2.index t (1 : Fin 2) * 128 + 1 * (j 1).val = win14_3.index t (1 : Fin 2) * 128 + 1 * (j 1).val; omega

/-- What point `t` writes back is block `t` of the node update of the three input arrays as the region finds them. -/
theorem flushed14_3_eq (c : Dev nD) (t : Fin cfg14.N) :
    (dat14 V c).flushed 3 t = ((cfg14.win 3).blk t).view.read (Elt Ideal)
      (nodeArr14 (ent14_0 V c) (ent14_1 V c) (ent14_2 V c)) := by
  show (cfg14.win 3).cut (grid14.coords t) ((dat14 V c).after 3 t) = _
  rw [after14_3]
  refine (congrArg ((cfg14.win 3).cut (grid14.coords t)) (out14_3_eq (iblk14 V c 0 t) (iblk14 V c 1 t) (iblk14 V c 2 t))).trans ?_
  funext j
  obtain ⟨h0, h1, h2⟩ := emb14_eq t j
  show ent14_0 V c (((cfg14.win 0).blk t).view.emb j)
      + Ideal.div (ent14_1 V c (((cfg14.win 1).blk t).view.emb j))
          (ent14_2 V c (((cfg14.win 2).blk t).view.emb j) + Ideal.ofBits .f32 0x358637BD#32)
    = ent14_0 V c (((cfg14.win 3).blk t).view.emb j)
      + Ideal.div (ent14_1 V c (((cfg14.win 3).blk t).view.emb j))
          (ent14_2 V c (((cfg14.win 3).blk t).view.emb j) + Ideal.ofBits .f32 0x358637BD#32)
  rw [h0, h1, h2]

/-- An index of the output array is in point `t`'s block iff each coordinate is in the block's range on its axis. -/
theorem mem_blk14_3 (t : Fin cfg14.N) (i : S25000x128.Idx) :
    i ∈ ((cfg14.win 3).blk t).view.set ↔ ∀ a : Fin 2, win14_3.index t a * S5000x128.size a ≤ (i a).val ∧ (i a).val < win14_3.index t a * S5000x128.size a + S5000x128.size a := by
  show i ∈ ((View.whole main_v333).slice (win14_3.rect t)).set ↔ _
  rw [View.set_slice_whole, Rect.mem_set_unit]
  exact Iff.rfl

/-- Every index of the output array is in some point's block: row `r` is in row block `r / 5000`. -/
theorem cover14_3_arr (i : S25000x128.Idx) :
    ∃ t : Fin cfg14.N, (cfg14.win 3).flush t = true ∧ i ∈ ((cfg14.win 3).blk t).view.set := by
  have hi0 : (i 0).val < 25000 := (i 0).isLt
  have hi1 : (i 1).val < 128 := (i 1).isLt
  have hN : cfg14.N = 5 := N_14
  obtain ⟨t, ht⟩ : ∃ t : Fin cfg14.N, t.val = (i 0).val / 5000 := ⟨⟨(i 0).val / 5000, by rw [hN]; omega⟩, rfl⟩
  obtain ⟨e00, e01, e10, e11, e20, e21, e30, e31⟩ := idx_facts14 t
  refine ⟨t, flush14_3 t, ?_⟩
  rw [mem_blk14_3]
  intro a
  match a with
  | ⟨0, _⟩ => show win14_3.index t (0 : Fin 2) * 5000 ≤ (i 0).val ∧ (i 0).val < win14_3.index t (0 : Fin 2) * 5000 + 5000; omega
  | ⟨1, _⟩ => show win14_3.index t (1 : Fin 2) * 128 ≤ (i 1).val ∧ (i 1).val < win14_3.index t (1 : Fin 2) * 128 + 128; omega

/-- The output array after the region is the node update of the three input arrays. -/
theorem arr14_3_node (c : Dev nD) :
    (dat14 V c).arrAt 3 cfg14.N = nodeArr14 (ent14_0 V c) (ent14_1 V c) (ent14_2 V c) :=
  (dat14 V c).arrAt_eq_of_cover 3 _ (fun t _ => flushed14_3_eq V c t) cover14_3_arr

/-- The output array after the region, index by index. -/
theorem arr14_3_apply (c : Dev nD) (r : Fin 25000) (j : Fin 128) :
    (dat14 (F := Ideal) V c).arrAt 3 cfg14.N (ValueIdx.ix2 r j)
      = ent14_0 V c (ValueIdx.ix2 r j)
        + Ideal.div (ent14_1 V c (ValueIdx.ix2 r j)) (ent14_2 V c (ValueIdx.ix2 r j) + Ideal.ofBits .f32 0x358637BD#32) :=
  congrFun (arr14_3_node V c) (ValueIdx.ix2 r j)

/-- The same as one whole-array function of the three input arrays. -/
theorem arr14_3_eq (c : Dev nD) :
    (dat14 (F := Ideal) V c).arrAt 3 cfg14.N
      = Cert.KSpec.Gnode (V c (Pipeline.arrRef spec14 0)) (V c (Pipeline.arrRef spec14 1)) (V c (Pipeline.arrRef spec14 2)) :=
  arr14_3_node V c

end Cert.KernelIdeal.Val
-- ==== Proof.Val15.lean ====
import proofs.«425355_j88287347737110_2_alg».proof.Proof.Reg15
import proofs.«425355_j88287347737110_2_alg».proof.Proof.KSpec
import Idealize.ShloMosaic.Lib.Pipeline.Value
import Idealize.ShloMosaic.Lib.ValueLayout
import Idealize.ShloMosaic.Lib.ValueIdx
import Idealize.ShloMosaic.PureOps.Ideal.Laws

/-! # Region 15 at the extended reals: the output array, index by index

After the region the output array holds, at row `r` and lane `j`,
`orig r j + max (((val r j - mean j) * rsqrt (var j + ε)) * scale j + shift j) 0`
of the six input arrays as the region finds them. The payload is read at one index, each input block is read
off its array, each point's written-back block is identified with that block of one function of the arrays,
and the blocks of 5000 rows tile the 25000 rows. -/

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The six input arrays as the region finds them, over the extended reals -/

/-- The value to normalise. -/
abbrev val15 (c : Dev nD) : S25000x128.Idx → EReal := V c (Pipeline.arrRef spec15 0)
/-- The residual. -/
abbrev orig15 (c : Dev nD) : S25000x128.Idx → EReal := V c (Pipeline.arrRef spec15 1)
/-- The mean row. -/
abbrev mean15 (c : Dev nD) : S1x128.Idx → EReal := V c (Pipeline.arrRef spec15 2)
/-- The variance row. -/
abbrev var15 (c : Dev nD) : S1x128.Idx → EReal := V c (Pipeline.arrRef spec15 3)
/-- The scale row. -/
abbrev scale15 (c : Dev nD) : S1x128.Idx → EReal := V c (Pipeline.arrRef spec15 4)
/-- The shift row. -/
abbrev shift15 (c : Dev nD) : S1x128.Idx → EReal := V c (Pipeline.arrRef spec15 5)

/-! ## The payload at one index -/

/-- The stored value at row `p`, lane `q` of the block: the residual plus the rectified, scaled and shifted
    normalisation of the value, the four rows read at lane `q`. -/
theorem pay15_apply (v0 : Vec Ideal S5000x128 .f32) (v2 v6 v13 v17 : Vec Ideal S1x128 .f32) (v21 : Vec Ideal S5000x128 .f32)
    (p : Fin 5000) (q : Fin 128) :
    k15_pay1 v0 v2 v6 v13 v17 v21 (ix2 p q) =
      v21 (ix2 p q) + max (((v0 (ix2 p q) - v2 (ix2 (0 : Fin 1) q)) * Ideal.rsqrt (v6 (ix2 (0 : Fin 1) q) + Ideal.ofBits .f32 0x3727C5AC#32))
        * v13 (ix2 (0 : Fin 1) q) + v17 (ix2 (0 : Fin 1) q)) 0 := by
  unfold k15_pay1
  simp only [shapeCast_self]
  rw [addf_apply, maximumf_apply, addf_apply, mulf_apply, mulf_apply, subf_apply, broadcast_apply]
  simp only [broadcastTo_1b_ab_apply]
  simp only [Ideal.ofBits_def, Ideal.ofBits_zero_f32]
  rfl

/-! ## The blocks, read off the arrays -/

theorem hz15 : (![0, 0] : Fin 2 → Nat) = fun _ => 0 := funext fun a => by fin_cases a <;> rfl

/-- The index maps, decided over the grid: the two streamed inputs and the output are at block row `t`, the four
    one-row inputs at block 0. -/
theorem idx_facts15 : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0
    ∧ win15_6.index t (0 : Fin 2) = t.val ∧ win15_6.index t (1 : Fin 2) = 0 :=
  (by decide +kernel : ∀ t : Fin grid15.N, _)

/-- The array row of row `p` of block `t`. -/
def row15 (t : Fin cfg15.N) (p : Fin 5000) : Fin 25000 :=
  ⟨t.val * 5000 + p.val, by have ht : t.val < 5 := lt_of_lt_of_eq t.isLt N_15; have hp := p.isLt; omega⟩

/-- Window 0's block at point `t`, at row `p`, lane `q`: the array at row `t · 5000 + p`. -/
theorem blk15_0_apply (c : Dev nD) (t : Fin cfg15.N) (p : Fin 5000) (q : Fin 128) :
    (iblk15 V c 0 t : Vec Ideal S5000x128 .f32) (ix2 p q) = val15 V c (ix2 (row15 t p) q) := by
  obtain ⟨e00, e01, e10, e11, e20, e21, e30, e31, e40, e41, e50, e51, e60, e61⟩ := idx_facts15 t
  show val15 V c (((cfg15.win 0).blk t).view.emb (ix2 p q)) = _
  refine congrArg (val15 V c) ?_
  funext a; apply Fin.ext
  match a with
  | ⟨0, _⟩ => show win15_0.index t (0 : Fin 2) * 5000 + 1 * p.val = t.val * 5000 + p.val; omega
  | ⟨1, _⟩ => show win15_0.index t (1 : Fin 2) * 128 + 1 * q.val = q.val; omega

/-- Window 1's block at point `t`, at row `p`, lane `q`: the array at row `t · 5000 + p`. -/
theorem blk15_1_apply (c : Dev nD) (t : Fin cfg15.N) (p : Fin 5000) (q : Fin 128) :
    (iblk15 V c 1 t : Vec Ideal S5000x128 .f32) (ix2 p q) = orig15 V c (ix2 (row15 t p) q) := by
  obtain ⟨e00, e01, e10, e11, e20, e21, e30, e31, e40, e41, e50, e51, e60, e61⟩ := idx_facts15 t
  show orig15 V c (((cfg15.win 1).blk t).view.emb (ix2 p q)) = _
  refine congrArg (orig15 V c) ?_
  funext a; apply Fin.ext
  match a with
  | ⟨0, _⟩ => show win15_1.index t (0 : Fin 2) * 5000 + 1 * p.val = t.val * 5000 + p.val; omega
  | ⟨1, _⟩ => show win15_1.index t (1 : Fin 2) * 128 + 1 * q.val = q.val; omega

/-- Window 2's block at any point is the whole one-row array. -/
theorem blk15_2_apply (c : Dev nD) (t : Fin cfg15.N) (q : Fin 128) :
    (iblk15 V c 2 t : Vec Ideal S1x128 .f32) (ix2 (0 : Fin 1) q) = mean15 V c (ix2 (0 : Fin 1) q) := by
  obtain ⟨e00, e01, e10, e11, e20, e21, e30, e31, e40, e41, e50, e51, e60, e61⟩ := idx_facts15 t
  show mean15 V c (((cfg15.win 2).blk t).view.emb (ix2 (0 : Fin 1) q)) = _
  refine congrArg (mean15 V c) ?_
  funext a; apply Fin.ext
  match a with
  | ⟨0, _⟩ => show win15_2.index t (0 : Fin 2) * 1 + 1 * 0 = 0; omega
  | ⟨1, _⟩ => show win15_2.index t (1 : Fin 2) * 128 + 1 * q.val = q.val; omega

/-- Window 3's block at any point is the whole one-row array. -/
theorem blk15_3_apply (c : Dev nD) (t : Fin cfg15.N) (q : Fin 128) :
    (iblk15 V c 3 t : Vec Ideal S1x128 .f32) (ix2 (0 : Fin 1) q) = var15 V c (ix2 (0 : Fin 1) q) := by
  obtain ⟨e00, e01, e10, e11, e20, e21, e30, e31, e40, e41, e50, e51, e60, e61⟩ := idx_facts15 t
  show var15 V c (((cfg15.win 3).blk t).view.emb (ix2 (0 : Fin 1) q)) = _
  refine congrArg (var15 V c) ?_
  funext a; apply Fin.ext
  match a with
  | ⟨0, _⟩ => show win15_3.index t (0 : Fin 2) * 1 + 1 * 0 = 0; omega
  | ⟨1, _⟩ => show win15_3.index t (1 : Fin 2) * 128 + 1 * q.val = q.val; omega

/-- Window 4's block at any point is the whole one-row array. -/
theorem blk15_4_apply (c : Dev nD) (t : Fin cfg15.N) (q : Fin 128) :
    (iblk15 V c 4 t : Vec Ideal S1x128 .f32) (ix2 (0 : Fin 1) q) = scale15 V c (ix2 (0 : Fin 1) q) := by
  obtain ⟨e00, e01, e10, e11, e20, e21, e30, e31, e40, e41, e50, e51, e60, e61⟩ := idx_facts15 t
  show scale15 V c (((cfg15.win 4).blk t).view.emb (ix2 (0 : Fin 1) q)) = _
  refine congrArg (scale15 V c) ?_
  funext a; apply Fin.ext
  match a with
  | ⟨0, _⟩ => show win15_4.index t (0 : Fin 2) * 1 + 1 * 0 = 0; omega
  | ⟨1, _⟩ => show win15_4.index t (1 : Fin 2) * 128 + 1 * q.val = q.val; omega

/-- Window 5's block at any point is the whole one-row array. -/
theorem blk15_5_apply (c : Dev nD) (t : Fin cfg15.N) (q : Fin 128) :
    (iblk15 V c 5 t : Vec Ideal S1x128 .f32) (ix2 (0 : Fin 1) q) = shift15 V c (ix2 (0 : Fin 1) q) := by
  obtain ⟨e00, e01, e10, e11, e20, e21, e30, e31, e40, e41, e50, e51, e60, e61⟩ := idx_facts15 t
  show shift15 V c (((cfg15.win 5).blk t).view.emb (ix2 (0 : Fin 1) q)) = _
  refine congrArg (shift15 V c) ?_
  funext a; apply Fin.ext
  match a with
  | ⟨0, _⟩ => show win15_5.index t (0 : Fin 2) * 1 + 1 * 0 = 0; omega
  | ⟨1, _⟩ => show win15_5.index t (1 : Fin 2) * 128 + 1 * q.val = q.val; omega

/-- The output window's block at point `t` sits at the same rows of its array. -/
theorem emb15_6 (t : Fin cfg15.N) (p : Fin 5000) (q : Fin 128) :
    ((cfg15.win 6).blk t).view.emb (ix2 p q) = (ix2 (row15 t p) q : S25000x128.Idx) := by
  obtain ⟨e00, e01, e10, e11, e20, e21, e30, e31, e40, e41, e50, e51, e60, e61⟩ := idx_facts15 t
  funext a; apply Fin.ext
  match a with
  | ⟨0, _⟩ => show win15_6.index t (0 : Fin 2) * 5000 + 1 * p.val = t.val * 5000 + p.val; omega
  | ⟨1, _⟩ => show win15_6.index t (1 : Fin 2) * 128 + 1 * q.val = q.val; omega

/-! ## From the blocks to the array -/

/-- What point `t` writes back is block `t` of the specification's array function of the six arrays. -/
theorem flushed15_6_eq (c : Dev nD) (t : Fin cfg15.N) :
    (dat15 (F := Ideal) V c).flushed 6 t = ((cfg15.win 6).blk t).view.read (Elt Ideal)
      (Cert.KSpec.GbnN (val15 V c) (orig15 V c) (mean15 V c) (var15 V c) (scale15 V c) (shift15 V c)) := by
  show (cfg15.win 6).cut (grid15.coords t) ((dat15 V c).after 6 t) = _
  rw [after15_6]
  unfold out15_6
  rw [View.canon_unit_zero hz15]
  simp only [View.ld_unit_zero (S := S5000x128) hz15, View.ld_unit_zero (S := S1x128) hz15]
  funext y
  obtain ⟨p, q, rfl⟩ : ∃ (p : Fin 5000) (q : Fin 128), y = ix2 p q := ⟨y 0, y 1, eq_ix2 y⟩
  show k15_pay1 (iblk15 V c 0 t) (iblk15 V c 2 t) (iblk15 V c 3 t) (iblk15 V c 4 t) (iblk15 V c 5 t) (iblk15 V c 1 t) (ix2 p q)
    = Cert.KSpec.GbnN (val15 V c) (orig15 V c) (mean15 V c) (var15 V c) (scale15 V c) (shift15 V c) (((cfg15.win 6).blk t).view.emb (ix2 p q))
  refine (pay15_apply (iblk15 V c 0 t) (iblk15 V c 2 t) (iblk15 V c 3 t) (iblk15 V c 4 t) (iblk15 V c 5 t) (iblk15 V c 1 t) p q).trans ?_
  rw [blk15_0_apply, blk15_1_apply, blk15_2_apply, blk15_3_apply, blk15_4_apply, blk15_5_apply, emb15_6]
  rfl

/-- An index of the array is in point `t`'s block iff each coordinate is in the block's range on its axis. -/
theorem mem_blk15_6 (t : Fin cfg15.N) (i : S25000x128.Idx) :
    i ∈ ((cfg15.win 6).blk t).view.set ↔ ∀ a : Fin 2, win15_6.index t a * S5000x128.size a ≤ (i a).val ∧ (i a).val < win15_6.index t a * S5000x128.size a + S5000x128.size a := by
  show i ∈ ((View.whole (Pipeline.arrRef spec15 6)).slice (win15_6.rect t)).set ↔ _
  rw [View.set_slice_whole, Rect.mem_set_unit]
  exact Iff.rfl

/-- Every index of the array is in some point's block: row `r` is in block `r / 5000`. -/
theorem cover15_6_arr (i : S25000x128.Idx) : ∃ t : Fin cfg15.N, (cfg15.win 6).flush t = true ∧ i ∈ ((cfg15.win 6).blk t).view.set := by
  have hi0 : (i 0).val < 25000 := (i 0).isLt
  have hi1 : (i 1).val < 128 := (i 1).isLt
  have hlt : (i 0).val / 5000 < 5 := by omega
  refine ⟨⟨(i 0).val / 5000, lt_of_lt_of_eq hlt N_15.symm⟩, flush15_6 _, ?_⟩
  rw [mem_blk15_6]
  obtain ⟨e00, e01, e10, e11, e20, e21, e30, e31, e40, e41, e50, e51, e60, e61⟩ := idx_facts15 ⟨(i 0).val / 5000, lt_of_lt_of_eq hlt N_15.symm⟩
  intro a
  match a with
  | ⟨0, _⟩ => show win15_6.index _ (0 : Fin 2) * 5000 ≤ (i 0).val ∧ (i 0).val < win15_6.index _ (0 : Fin 2) * 5000 + 5000; rw [e60]; show (i 0).val / 5000 * 5000 ≤ _ ∧ _ < (i 0).val / 5000 * 5000 + 5000; omega
  | ⟨1, _⟩ => show win15_6.index _ (1 : Fin 2) * 128 ≤ (i 1).val ∧ (i 1).val < win15_6.index _ (1 : Fin 2) * 128 + 128; rw [e61]; omega

/-- The output array after the region is the specification's array function of the six arrays as the region
    finds them. -/
theorem arr15_6_eq (c : Dev nD) : (dat15 (F := Ideal) V c).arrAt 6 cfg15.N =
    Cert.KSpec.GbnN (V c (Pipeline.arrRef spec15 0)) (V c (Pipeline.arrRef spec15 1)) (V c (Pipeline.arrRef spec15 2)) (V c (Pipeline.arrRef spec15 3)) (V c (Pipeline.arrRef spec15 4)) (V c (Pipeline.arrRef spec15 5)) :=
  (dat15 (F := Ideal) V c).arrAt_eq_of_cover 6 (Cert.KSpec.GbnN (val15 V c) (orig15 V c) (mean15 V c) (var15 V c) (scale15 V c) (shift15 V c)) (fun t _ => flushed15_6_eq V c t) cover15_6_arr

/-- The output array after the region, index by index. -/
theorem arr15_6_apply (c : Dev nD) (r : Fin 25000) (j : Fin 128) :
    ((dat15 (F := Ideal) V c).arrAt 6 cfg15.N : S25000x128.Idx → EReal) (ix2 r j) =
      orig15 V c (ix2 r j)
        + max (((val15 V c (ix2 r j) - mean15 V c (ix2 (0 : Fin 1) j))
              * Ideal.rsqrt (var15 V c (ix2 (0 : Fin 1) j) + Ideal.ofBits .f32 0x3727C5AC#32))
              * scale15 V c (ix2 (0 : Fin 1) j) + shift15 V c (ix2 (0 : Fin 1) j)) 0 := by
  rw [arr15_6_eq]
  rfl

end Cert.KernelIdeal.Val
-- ==== Proof.Val16.lean ====
import proofs.«425355_j88287347737110_2_alg».proof.Proof.Reg16
import proofs.«425355_j88287347737110_2_alg».proof.Proof.KSpec
import Idealize.ShloMosaic.Lib.Pipeline.Value
import Idealize.ShloMosaic.Lib.ValueLayout
import Idealize.ShloMosaic.Lib.ValueIdx
import Idealize.ShloMosaic.PureOps.Ideal.Laws

/-! # Region 16 at the extended reals: the output array, index by index

After the region the output array holds, at row `r` and lane `j`,
`orig r j + max (((val r j - mean j) * rsqrt (var j + ε)) * scale j + shift j) 0`
of the six input arrays as the region finds them. The payload is read at one index, each input block is read
off its array, each point's written-back block is identified with that block of one function of the arrays,
and the blocks of 4000 rows tile the 200000 rows. -/

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The six input arrays as the region finds them, over the extended reals -/

/-- The value to normalise. -/
abbrev val16 (c : Dev nD) : S200000x128.Idx → EReal := V c (Pipeline.arrRef spec16 0)
/-- The residual. -/
abbrev orig16 (c : Dev nD) : S200000x128.Idx → EReal := V c (Pipeline.arrRef spec16 1)
/-- The mean row. -/
abbrev mean16 (c : Dev nD) : S1x128.Idx → EReal := V c (Pipeline.arrRef spec16 2)
/-- The variance row. -/
abbrev var16 (c : Dev nD) : S1x128.Idx → EReal := V c (Pipeline.arrRef spec16 3)
/-- The scale row. -/
abbrev scale16 (c : Dev nD) : S1x128.Idx → EReal := V c (Pipeline.arrRef spec16 4)
/-- The shift row. -/
abbrev shift16 (c : Dev nD) : S1x128.Idx → EReal := V c (Pipeline.arrRef spec16 5)

/-! ## The payload at one index -/

/-- The stored value at row `p`, lane `q` of the block: the residual plus the rectified, scaled and shifted
    normalisation of the value, the four rows read at lane `q`. -/
theorem pay16_apply (v0 : Vec Ideal S4000x128 .f32) (v2 v6 v13 v17 : Vec Ideal S1x128 .f32) (v21 : Vec Ideal S4000x128 .f32)
    (p : Fin 4000) (q : Fin 128) :
    k16_pay1 v0 v2 v6 v13 v17 v21 (ix2 p q) =
      v21 (ix2 p q) + max (((v0 (ix2 p q) - v2 (ix2 (0 : Fin 1) q)) * Ideal.rsqrt (v6 (ix2 (0 : Fin 1) q) + Ideal.ofBits .f32 0x3727C5AC#32))
        * v13 (ix2 (0 : Fin 1) q) + v17 (ix2 (0 : Fin 1) q)) 0 := by
  unfold k16_pay1
  simp only [shapeCast_self]
  rw [addf_apply, maximumf_apply, addf_apply, mulf_apply, mulf_apply, subf_apply, broadcast_apply]
  simp only [broadcastTo_1b_ab_apply]
  simp only [Ideal.ofBits_def, Ideal.ofBits_zero_f32]
  rfl

/-! ## The blocks, read off the arrays -/

theorem hz16 : (![0, 0] : Fin 2 → Nat) = fun _ => 0 := funext fun a => by fin_cases a <;> rfl

/-- The index maps, decided over the grid: the two streamed inputs and the output are at block row `t`, the four
    one-row inputs at block 0. -/
theorem idx_facts16 : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0
    ∧ win16_6.index t (0 : Fin 2) = t.val ∧ win16_6.index t (1 : Fin 2) = 0 :=
  (by decide +kernel : ∀ t : Fin grid16.N, _)

/-- The array row of row `p` of block `t`. -/
def row16 (t : Fin cfg16.N) (p : Fin 4000) : Fin 200000 :=
  ⟨t.val * 4000 + p.val, by have ht : t.val < 50 := lt_of_lt_of_eq t.isLt N_16; have hp := p.isLt; omega⟩

/-- Window 0's block at point `t`, at row `p`, lane `q`: the array at row `t · 4000 + p`. -/
theorem blk16_0_apply (c : Dev nD) (t : Fin cfg16.N) (p : Fin 4000) (q : Fin 128) :
    (iblk16 V c 0 t : Vec Ideal S4000x128 .f32) (ix2 p q) = val16 V c (ix2 (row16 t p) q) := by
  obtain ⟨e00, e01, e10, e11, e20, e21, e30, e31, e40, e41, e50, e51, e60, e61⟩ := idx_facts16 t
  show val16 V c (((cfg16.win 0).blk t).view.emb (ix2 p q)) = _
  refine congrArg (val16 V c) ?_
  funext a; apply Fin.ext
  match a with
  | ⟨0, _⟩ => show win16_0.index t (0 : Fin 2) * 4000 + 1 * p.val = t.val * 4000 + p.val; omega
  | ⟨1, _⟩ => show win16_0.index t (1 : Fin 2) * 128 + 1 * q.val = q.val; omega

/-- Window 1's block at point `t`, at row `p`, lane `q`: the array at row `t · 4000 + p`. -/
theorem blk16_1_apply (c : Dev nD) (t : Fin cfg16.N) (p : Fin 4000) (q : Fin 128) :
    (iblk16 V c 1 t : Vec Ideal S4000x128 .f32) (ix2 p q) = orig16 V c (ix2 (row16 t p) q) := by
  obtain ⟨e00, e01, e10, e11, e20, e21, e30, e31, e40, e41, e50, e51, e60, e61⟩ := idx_facts16 t
  show orig16 V c (((cfg16.win 1).blk t).view.emb (ix2 p q)) = _
  refine congrArg (orig16 V c) ?_
  funext a; apply Fin.ext
  match a with
  | ⟨0, _⟩ => show win16_1.index t (0 : Fin 2) * 4000 + 1 * p.val = t.val * 4000 + p.val; omega
  | ⟨1, _⟩ => show win16_1.index t (1 : Fin 2) * 128 + 1 * q.val = q.val; omega

/-- Window 2's block at any point is the whole one-row array. -/
theorem blk16_2_apply (c : Dev nD) (t : Fin cfg16.N) (q : Fin 128) :
    (iblk16 V c 2 t : Vec Ideal S1x128 .f32) (ix2 (0 : Fin 1) q) = mean16 V c (ix2 (0 : Fin 1) q) := by
  obtain ⟨e00, e01, e10, e11, e20, e21, e30, e31, e40, e41, e50, e51, e60, e61⟩ := idx_facts16 t
  show mean16 V c (((cfg16.win 2).blk t).view.emb (ix2 (0 : Fin 1) q)) = _
  refine congrArg (mean16 V c) ?_
  funext a; apply Fin.ext
  match a with
  | ⟨0, _⟩ => show win16_2.index t (0 : Fin 2) * 1 + 1 * 0 = 0; omega
  | ⟨1, _⟩ => show win16_2.index t (1 : Fin 2) * 128 + 1 * q.val = q.val; omega

/-- Window 3's block at any point is the whole one-row array. -/
theorem blk16_3_apply (c : Dev nD) (t : Fin cfg16.N) (q : Fin 128) :
    (iblk16 V c 3 t : Vec Ideal S1x128 .f32) (ix2 (0 : Fin 1) q) = var16 V c (ix2 (0 : Fin 1) q) := by
  obtain ⟨e00, e01, e10, e11, e20, e21, e30, e31, e40, e41, e50, e51, e60, e61⟩ := idx_facts16 t
  show var16 V c (((cfg16.win 3).blk t).view.emb (ix2 (0 : Fin 1) q)) = _
  refine congrArg (var16 V c) ?_
  funext a; apply Fin.ext
  match a with
  | ⟨0, _⟩ => show win16_3.index t (0 : Fin 2) * 1 + 1 * 0 = 0; omega
  | ⟨1, _⟩ => show win16_3.index t (1 : Fin 2) * 128 + 1 * q.val = q.val; omega

/-- Window 4's block at any point is the whole one-row array. -/
theorem blk16_4_apply (c : Dev nD) (t : Fin cfg16.N) (q : Fin 128) :
    (iblk16 V c 4 t : Vec Ideal S1x128 .f32) (ix2 (0 : Fin 1) q) = scale16 V c (ix2 (0 : Fin 1) q) := by
  obtain ⟨e00, e01, e10, e11, e20, e21, e30, e31, e40, e41, e50, e51, e60, e61⟩ := idx_facts16 t
  show scale16 V c (((cfg16.win 4).blk t).view.emb (ix2 (0 : Fin 1) q)) = _
  refine congrArg (scale16 V c) ?_
  funext a; apply Fin.ext
  match a with
  | ⟨0, _⟩ => show win16_4.index t (0 : Fin 2) * 1 + 1 * 0 = 0; omega
  | ⟨1, _⟩ => show win16_4.index t (1 : Fin 2) * 128 + 1 * q.val = q.val; omega

/-- Window 5's block at any point is the whole one-row array. -/
theorem blk16_5_apply (c : Dev nD) (t : Fin cfg16.N) (q : Fin 128) :
    (iblk16 V c 5 t : Vec Ideal S1x128 .f32) (ix2 (0 : Fin 1) q) = shift16 V c (ix2 (0 : Fin 1) q) := by
  obtain ⟨e00, e01, e10, e11, e20, e21, e30, e31, e40, e41, e50, e51, e60, e61⟩ := idx_facts16 t
  show shift16 V c (((cfg16.win 5).blk t).view.emb (ix2 (0 : Fin 1) q)) = _
  refine congrArg (shift16 V c) ?_
  funext a; apply Fin.ext
  match a with
  | ⟨0, _⟩ => show win16_5.index t (0 : Fin 2) * 1 + 1 * 0 = 0; omega
  | ⟨1, _⟩ => show win16_5.index t (1 : Fin 2) * 128 + 1 * q.val = q.val; omega

/-- The output window's block at point `t` sits at the same rows of its array. -/
theorem emb16_6 (t : Fin cfg16.N) (p : Fin 4000) (q : Fin 128) :
    ((cfg16.win 6).blk t).view.emb (ix2 p q) = (ix2 (row16 t p) q : S200000x128.Idx) := by
  obtain ⟨e00, e01, e10, e11, e20, e21, e30, e31, e40, e41, e50, e51, e60, e61⟩ := idx_facts16 t
  funext a; apply Fin.ext
  match a with
  | ⟨0, _⟩ => show win16_6.index t (0 : Fin 2) * 4000 + 1 * p.val = t.val * 4000 + p.val; omega
  | ⟨1, _⟩ => show win16_6.index t (1 : Fin 2) * 128 + 1 * q.val = q.val; omega

/-! ## From the blocks to the array -/

/-- What point `t` writes back is block `t` of the specification's array function of the six arrays. -/
theorem flushed16_6_eq (c : Dev nD) (t : Fin cfg16.N) :
    (dat16 (F := Ideal) V c).flushed 6 t = ((cfg16.win 6).blk t).view.read (Elt Ideal)
      (Cert.KSpec.GbnE (val16 V c) (orig16 V c) (mean16 V c) (var16 V c) (scale16 V c) (shift16 V c)) := by
  show (cfg16.win 6).cut (grid16.coords t) ((dat16 V c).after 6 t) = _
  rw [after16_6]
  unfold out16_6
  rw [View.canon_unit_zero hz16]
  simp only [View.ld_unit_zero (S := S4000x128) hz16, View.ld_unit_zero (S := S1x128) hz16]
  funext y
  obtain ⟨p, q, rfl⟩ : ∃ (p : Fin 4000) (q : Fin 128), y = ix2 p q := ⟨y 0, y 1, eq_ix2 y⟩
  show k16_pay1 (iblk16 V c 0 t) (iblk16 V c 2 t) (iblk16 V c 3 t) (iblk16 V c 4 t) (iblk16 V c 5 t) (iblk16 V c 1 t) (ix2 p q)
    = Cert.KSpec.GbnE (val16 V c) (orig16 V c) (mean16 V c) (var16 V c) (scale16 V c) (shift16 V c) (((cfg16.win 6).blk t).view.emb (ix2 p q))
  refine (pay16_apply (iblk16 V c 0 t) (iblk16 V c 2 t) (iblk16 V c 3 t) (iblk16 V c 4 t) (iblk16 V c 5 t) (iblk16 V c 1 t) p q).trans ?_
  rw [blk16_0_apply, blk16_1_apply, blk16_2_apply, blk16_3_apply, blk16_4_apply, blk16_5_apply, emb16_6]
  rfl

/-- An index of the array is in point `t`'s block iff each coordinate is in the block's range on its axis. -/
theorem mem_blk16_6 (t : Fin cfg16.N) (i : S200000x128.Idx) :
    i ∈ ((cfg16.win 6).blk t).view.set ↔ ∀ a : Fin 2, win16_6.index t a * S4000x128.size a ≤ (i a).val ∧ (i a).val < win16_6.index t a * S4000x128.size a + S4000x128.size a := by
  show i ∈ ((View.whole (Pipeline.arrRef spec16 6)).slice (win16_6.rect t)).set ↔ _
  rw [View.set_slice_whole, Rect.mem_set_unit]
  exact Iff.rfl

/-- Every index of the array is in some point's block: row `r` is in block `r / 4000`. -/
theorem cover16_6_arr (i : S200000x128.Idx) : ∃ t : Fin cfg16.N, (cfg16.win 6).flush t = true ∧ i ∈ ((cfg16.win 6).blk t).view.set := by
  have hi0 : (i 0).val < 200000 := (i 0).isLt
  have hi1 : (i 1).val < 128 := (i 1).isLt
  have hlt : (i 0).val / 4000 < 50 := by omega
  refine ⟨⟨(i 0).val / 4000, lt_of_lt_of_eq hlt N_16.symm⟩, flush16_6 _, ?_⟩
  rw [mem_blk16_6]
  obtain ⟨e00, e01, e10, e11, e20, e21, e30, e31, e40, e41, e50, e51, e60, e61⟩ := idx_facts16 ⟨(i 0).val / 4000, lt_of_lt_of_eq hlt N_16.symm⟩
  intro a
  match a with
  | ⟨0, _⟩ => show win16_6.index _ (0 : Fin 2) * 4000 ≤ (i 0).val ∧ (i 0).val < win16_6.index _ (0 : Fin 2) * 4000 + 4000; rw [e60]; show (i 0).val / 4000 * 4000 ≤ _ ∧ _ < (i 0).val / 4000 * 4000 + 4000; omega
  | ⟨1, _⟩ => show win16_6.index _ (1 : Fin 2) * 128 ≤ (i 1).val ∧ (i 1).val < win16_6.index _ (1 : Fin 2) * 128 + 128; rw [e61]; omega

/-- The output array after the region is the specification's array function of the six arrays as the region
    finds them. -/
theorem arr16_6_eq (c : Dev nD) : (dat16 (F := Ideal) V c).arrAt 6 cfg16.N =
    Cert.KSpec.GbnE (V c (Pipeline.arrRef spec16 0)) (V c (Pipeline.arrRef spec16 1)) (V c (Pipeline.arrRef spec16 2)) (V c (Pipeline.arrRef spec16 3)) (V c (Pipeline.arrRef spec16 4)) (V c (Pipeline.arrRef spec16 5)) :=
  (dat16 (F := Ideal) V c).arrAt_eq_of_cover 6 (Cert.KSpec.GbnE (val16 V c) (orig16 V c) (mean16 V c) (var16 V c) (scale16 V c) (shift16 V c)) (fun t _ => flushed16_6_eq V c t) cover16_6_arr

/-- The output array after the region, index by index. -/
theorem arr16_6_apply (c : Dev nD) (r : Fin 200000) (j : Fin 128) :
    ((dat16 (F := Ideal) V c).arrAt 6 cfg16.N : S200000x128.Idx → EReal) (ix2 r j) =
      orig16 V c (ix2 r j)
        + max (((val16 V c (ix2 r j) - mean16 V c (ix2 (0 : Fin 1) j))
              * Ideal.rsqrt (var16 V c (ix2 (0 : Fin 1) j) + Ideal.ofBits .f32 0x3727C5AC#32))
              * scale16 V c (ix2 (0 : Fin 1) j) + shift16 V c (ix2 (0 : Fin 1) j)) 0 := by
  rw [arr16_6_eq]
  rfl

end Cert.KernelIdeal.Val
-- ==== Proof.KHostL3a.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the host steps of layer 3 leave in the buffers later steps read, as the
    arrangement's glue functions of the buffers they start from, for an arbitrary starting state. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Between the fused projection and the edge region: column slices, the two gathers, the
    block-diagonal edge weight, the packing -/

theorem hostOps13_v284 :
    after (hostOps13_2 (F := Ideal)) (after (hostOps13_1 (F := Ideal)) (after (hostOps13 (F := Ideal)) V)) (main_v284 : DevRef τ sig)
      = Cert.KSpec.colsU (V (main_v281 : DevRef τ sig)) := by
  after_results_simp <;> (try simp only [TRef.ofBuf, TRef.toBuf, cast_eq]) <;> rfl

theorem hostOps13_v315 :
    after (hostOps13_2 (F := Ideal)) (after (hostOps13_1 (F := Ideal)) (after (hostOps13 (F := Ideal)) V)) (main_v315 : DevRef τ sig)
      = Cert.KSpec.packE (Cert.Spec.gatherRows (Cert.KSpec.colsA (V (main_v281 : DevRef τ sig))) (V (main_v3 : DevRef τ sig))) := by
  after_results_simp <;> (try simp only [TRef.ofBuf, TRef.toBuf, cast_eq]) <;> rfl

theorem hostOps13_v316 :
    after (hostOps13_2 (F := Ideal)) (after (hostOps13_1 (F := Ideal)) (after (hostOps13 (F := Ideal)) V)) (main_v316 : DevRef τ sig)
      = Cert.KSpec.packE (Cert.KSpec.left32 (Cert.KSpec.gatherRows64 (Cert.KSpec.colsBV (V (main_v281 : DevRef τ sig))) (V (main_v1 : DevRef τ sig)))) := by
  after_results_simp <;> (try simp only [TRef.ofBuf, TRef.toBuf, cast_eq]) <;> rfl

theorem hostOps13_v317 :
    after (hostOps13_2 (F := Ideal)) (after (hostOps13_1 (F := Ideal)) (after (hostOps13 (F := Ideal)) V)) (main_v317 : DevRef τ sig)
      = Cert.KSpec.packE (Cert.KSpec.right32 (Cert.KSpec.gatherRows64 (Cert.KSpec.colsBV (V (main_v281 : DevRef τ sig))) (V (main_v1 : DevRef τ sig)))) := by
  after_results_simp <;> (try simp only [TRef.ofBuf, TRef.toBuf, cast_eq]) <;> rfl

theorem hostOps13_v318 :
    after (hostOps13_2 (F := Ideal)) (after (hostOps13_1 (F := Ideal)) (after (hostOps13 (F := Ideal)) V)) (main_v318 : DevRef τ sig)
      = Cert.KSpec.packE (V (main_v261 : DevRef τ sig)) := by
  after_results_simp <;> (try simp only [TRef.ofBuf, TRef.toBuf, cast_eq]) <;> rfl

theorem hostOps13_v309 :
    after (hostOps13_2 (F := Ideal)) (after (hostOps13_1 (F := Ideal)) (after (hostOps13 (F := Ideal)) V)) (main_v309 : DevRef τ sig)
      = Cert.KSpec.kron Cert.KSpec.eye4 (Cert.Spec.wSl 2 Cert.Spec.slices_W_2 (V (main_arg11 : DevRef τ sig))) := by
  after_results_simp <;> (try simp only [TRef.ofBuf, TRef.toBuf, cast_eq]) <;> rfl

theorem hostOps13_v319 :
    after (hostOps13_2 (F := Ideal)) (after (hostOps13_1 (F := Ideal)) (after (hostOps13 (F := Ideal)) V)) (main_v319 : DevRef τ sig)
      = Cert.KSpec.row128 (Cert.KSpec.tile4 (Cert.Spec.bSl 2 Cert.Spec.slices_b_2 (V (main_arg12 : DevRef τ sig)))) := by
  after_results_simp <;> (try simp only [TRef.ofBuf, TRef.toBuf, cast_eq]) <;> rfl

/-- A buffer none of these steps writes stays as it was. -/
theorem hostOps13_keep {r : Ref sig .tc} (h0 : r ∉ GenP.hostOps13_W) (h1 : r ∉ GenP.hostOps13_1_W) (h2 : r ∉ GenP.hostOps13_2_W) :
    after (hostOps13_2 (F := Ideal)) (after (hostOps13_1 (F := Ideal)) (after (hostOps13 (F := Ideal)) V)) (Proc.devRef .tc r) = V (Proc.devRef .tc r) := by
  rw [after_of_writes_sub hostOps13_2 _ GenP.hostOps13_2_writes h2,
    after_of_writes_sub hostOps13_1 _ GenP.hostOps13_1_writes h1,
    after_of_writes_sub hostOps13 _ GenP.hostOps13_writes h0]

/-- The same for the buffers read later. -/
theorem hostOps13_keep_live {r : Ref sig .tc}
    (hr : r ∈ ([main_v1, main_v3, main_v254, main_v261, main_v281, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps13_2 (F := Ideal)) (after (hostOps13_1 (F := Ideal)) (after (hostOps13 (F := Ideal)) V)) (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl
  all_goals exact hostOps13_keep V (by decide) (by decide) (by decide)

/-! ## Between the edge region and the node region: unpacking, the two segment sums, the packing -/

theorem hostOps14_v321 :
    after (hostOps14 (F := Ideal)) V (main_v321 : DevRef τ sig)
      = Cert.KSpec.unpackE (V (main_v320_0 : DevRef τ sig)) := by
  after_results_simp
  rfl

theorem hostOps14_v330 :
    after (hostOps14 (F := Ideal)) V (main_v330 : DevRef τ sig)
      = Cert.KSpec.packN (V (main_v284 : DevRef τ sig)) := by
  after_results_simp
  rfl

theorem hostOps14_v331 :
    after (hostOps14 (F := Ideal)) V (main_v331 : DevRef τ sig)
      = Cert.KSpec.packN (Cert.Spec.segSum (Cert.KSpec.unpackE (V (main_v320_2 : DevRef τ sig))) (V (main_v3 : DevRef τ sig))) := by
  after_results_simp
  rfl

theorem hostOps14_v332 :
    after (hostOps14 (F := Ideal)) V (main_v332 : DevRef τ sig)
      = Cert.KSpec.packN (Cert.Spec.segSum (Cert.KSpec.unpackE (V (main_v320_1 : DevRef τ sig))) (V (main_v3 : DevRef τ sig))) := by
  after_results_simp
  rfl

/-- A buffer none of these steps writes stays as it was. -/
theorem hostOps14_keep {r : Ref sig .tc} (h0 : r ∉ GenP.hostOps14_W) :
    after (hostOps14 (F := Ideal)) V (Proc.devRef .tc r) = V (Proc.devRef .tc r) := by
  rw [after_of_writes_sub hostOps14 _ GenP.hostOps14_writes h0]

/-- The same for the buffers read later. -/
theorem hostOps14_keep_live {r : Ref sig .tc}
    (hr : r ∈ ([main_v1, main_v3, main_v254, main_v261, main_v320_0, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps14 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl
  all_goals exact hostOps14_keep V (by decide)

end Cert.KernelIdeal.KHost
-- ==== Proof.KHostL3b.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the host steps between the node update and the node normalisation of layer 3
    leave in the arrays that later steps read: the column statistics of the node update and of the
    new edge features, and the statistics and the scale and shift parameters repeated four times
    and laid out as one row. Each statement holds for an arbitrary state of the arrays before the
    steps. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Each group of steps alone, from an arbitrary state of the arrays -/

section Groups

variable {F : FTy → Type} [FloatOps F] (W : Valuation τ sig (Elt F))

/-! ### The unpacked node update and its column means -/

theorem hostOps15_s0_v334 :
    after hostOps15 W (main_v334 : DevRef τ sig)
      = Cert.KSpec.unpackN (W (main_v333 : DevRef τ sig)) := by
  after_results_simp <;> rfl

theorem hostOps15_s0_v337 :
    after hostOps15 W (main_v337 : DevRef τ sig)
      = Cert.Spec.meanN (Cert.KSpec.unpackN (W (main_v333 : DevRef τ sig))) := by
  after_results_simp <;> rfl

theorem hostOps15_s0_c7 :
    after hostOps15 W (main_c_33 : DevRef τ sig)
      = constantI Cert.Spec.S_ 32 0#32 := by
  after_results_simp <;> rfl

theorem hostOps15_s0_keep {r : Ref sig .tc} (h : r ∉ GenP.hostOps15_W) :
    after hostOps15 W (Proc.devRef .tc r) = W (Proc.devRef .tc r) :=
  after_of_writes_sub hostOps15 _ GenP.hostOps15_writes h

/-! ### The column variances of the node update -/

theorem hostOps15_s1_v338 :
    after hostOps15_1 W (main_v338 : DevRef τ sig)
      = Cert.Spec.varN (W (main_v334 : DevRef τ sig)) (W (main_c_33 : DevRef τ sig)) := by
  after_results_simp
  all_goals (try simp only [TRef.ofBuf, TRef.toBuf, cast_eq])
  all_goals unfold Cert.Spec.varN
  all_goals with_reducible rfl

theorem hostOps15_s1_keep {r : Ref sig .tc} (h : r ∉ GenP.hostOps15_1_W) :
    after hostOps15_1 W (Proc.devRef .tc r) = W (Proc.devRef .tc r) :=
  after_of_writes_sub hostOps15_1 _ GenP.hostOps15_1_writes h

/-! ### The column means of the new edge features -/

theorem hostOps15_s2_v341 :
    after hostOps15_2 W (main_v341 : DevRef τ sig)
      = Cert.Spec.meanE (W (main_v321 : DevRef τ sig)) := by
  after_results_simp <;> rfl

theorem hostOps15_s2_c10 :
    after hostOps15_2 W (main_c_36 : DevRef τ sig)
      = constantI Cert.Spec.S_ 32 0#32 := by
  after_results_simp <;> rfl

theorem hostOps15_s2_keep {r : Ref sig .tc} (h : r ∉ GenP.hostOps15_2_W) :
    after hostOps15_2 W (Proc.devRef .tc r) = W (Proc.devRef .tc r) :=
  after_of_writes_sub hostOps15_2 _ GenP.hostOps15_2_writes h

/-! ### The column variances of the new edge features -/

theorem hostOps15_s3_v342 :
    after hostOps15_3 W (main_v342 : DevRef τ sig)
      = Cert.Spec.varE (W (main_v321 : DevRef τ sig)) (W (main_c_36 : DevRef τ sig)) := by
  after_results_simp
  all_goals (try simp only [TRef.ofBuf, TRef.toBuf, cast_eq])
  all_goals unfold Cert.Spec.varE
  all_goals with_reducible rfl

theorem hostOps15_s3_keep {r : Ref sig .tc} (h : r ∉ GenP.hostOps15_3_W) :
    after hostOps15_3 W (Proc.devRef .tc r) = W (Proc.devRef .tc r) :=
  after_of_writes_sub hostOps15_3 _ GenP.hostOps15_3_writes h

/-! ### The statistics and the parameters repeated four times; the node features packed -/

theorem hostOps15_s4_v375 :
    after hostOps15_4 W (main_v375 : DevRef τ sig)
      = Cert.KSpec.packN (W (main_v254 : DevRef τ sig)) := by
  after_results_simp <;> rfl

theorem hostOps15_s4_v376 :
    after hostOps15_4 W (main_v376 : DevRef τ sig)
      = Cert.KSpec.row128 (Cert.KSpec.tile4 (W (main_v337 : DevRef τ sig))) := by
  after_results_simp <;> rfl

theorem hostOps15_s4_v377 :
    after hostOps15_4 W (main_v377 : DevRef τ sig)
      = Cert.KSpec.row128 (Cert.KSpec.tile4 (W (main_v338 : DevRef τ sig))) := by
  after_results_simp <;> rfl

theorem hostOps15_s4_v378 :
    after hostOps15_4 W (main_v378 : DevRef τ sig)
      = Cert.KSpec.row128 (Cert.KSpec.tile4 (Cert.Spec.bSl 2 Cert.Spec.slices_b_2 (W (main_arg17 : DevRef τ sig)))) := by
  after_results_simp <;> rfl

theorem hostOps15_s4_v379 :
    after hostOps15_4 W (main_v379 : DevRef τ sig)
      = Cert.KSpec.row128 (Cert.KSpec.tile4 (Cert.Spec.bSl 2 Cert.Spec.slices_b_2 (W (main_arg18 : DevRef τ sig)))) := by
  after_results_simp <;> rfl

theorem hostOps15_s4_v361 :
    after hostOps15_4 W (main_v361 : DevRef τ sig)
      = Cert.KSpec.tile4 (W (main_v341 : DevRef τ sig)) := by
  after_results_simp <;> rfl

theorem hostOps15_s4_v364 :
    after hostOps15_4 W (main_v364 : DevRef τ sig)
      = Cert.KSpec.tile4 (W (main_v342 : DevRef τ sig)) := by
  after_results_simp <;> rfl

theorem hostOps15_s4_v369 :
    after hostOps15_4 W (main_v369 : DevRef τ sig)
      = Cert.KSpec.tile4 (Cert.Spec.bSl 2 Cert.Spec.slices_b_2 (W (main_arg19 : DevRef τ sig))) := by
  after_results_simp <;> rfl

theorem hostOps15_s4_v374 :
    after hostOps15_4 W (main_v374 : DevRef τ sig)
      = Cert.KSpec.tile4 (Cert.Spec.bSl 2 Cert.Spec.slices_b_2 (W (main_arg20 : DevRef τ sig))) := by
  after_results_simp <;> rfl

theorem hostOps15_s4_keep {r : Ref sig .tc} (h : r ∉ GenP.hostOps15_4_W) :
    after hostOps15_4 W (Proc.devRef .tc r) = W (Proc.devRef .tc r) :=
  after_of_writes_sub hostOps15_4 _ GenP.hostOps15_4_writes h

end Groups

/-! ## The five groups one after the other -/

theorem hostOps15_v375 :
    after (hostOps15_4 (F := Ideal)) (after (hostOps15_3 (F := Ideal)) (after (hostOps15_2 (F := Ideal)) (after (hostOps15_1 (F := Ideal)) (after (hostOps15 (F := Ideal)) V)))) (main_v375 : DevRef τ sig)
      = Cert.KSpec.packN (V (main_v254 : DevRef τ sig)) := by
  rw [hostOps15_s4_v375,
    hostOps15_s3_keep _ (r := main_v254) (by decide),
    hostOps15_s2_keep _ (r := main_v254) (by decide),
    hostOps15_s1_keep _ (r := main_v254) (by decide),
    hostOps15_s0_keep _ (r := main_v254) (by decide)]

theorem hostOps15_v376 :
    after (hostOps15_4 (F := Ideal)) (after (hostOps15_3 (F := Ideal)) (after (hostOps15_2 (F := Ideal)) (after (hostOps15_1 (F := Ideal)) (after (hostOps15 (F := Ideal)) V)))) (main_v376 : DevRef τ sig)
      = Cert.KSpec.row128 (Cert.KSpec.tile4 (Cert.Spec.meanN (Cert.KSpec.unpackN (V (main_v333 : DevRef τ sig))))) := by
  rw [hostOps15_s4_v376,
    hostOps15_s3_keep _ (r := main_v337) (by decide),
    hostOps15_s2_keep _ (r := main_v337) (by decide),
    hostOps15_s1_keep _ (r := main_v337) (by decide),
    hostOps15_s0_v337]

theorem hostOps15_v377 :
    after (hostOps15_4 (F := Ideal)) (after (hostOps15_3 (F := Ideal)) (after (hostOps15_2 (F := Ideal)) (after (hostOps15_1 (F := Ideal)) (after (hostOps15 (F := Ideal)) V)))) (main_v377 : DevRef τ sig)
      = Cert.KSpec.row128 (Cert.KSpec.tile4 (Cert.Spec.varN (Cert.KSpec.unpackN (V (main_v333 : DevRef τ sig))) (constantI Cert.Spec.S_ 32 0#32))) := by
  rw [hostOps15_s4_v377,
    hostOps15_s3_keep _ (r := main_v338) (by decide),
    hostOps15_s2_keep _ (r := main_v338) (by decide),
    hostOps15_s1_v338,
    hostOps15_s0_v334,
    hostOps15_s0_c7]

theorem hostOps15_v378 :
    after (hostOps15_4 (F := Ideal)) (after (hostOps15_3 (F := Ideal)) (after (hostOps15_2 (F := Ideal)) (after (hostOps15_1 (F := Ideal)) (after (hostOps15 (F := Ideal)) V)))) (main_v378 : DevRef τ sig)
      = Cert.KSpec.row128 (Cert.KSpec.tile4 (Cert.Spec.bSl 2 Cert.Spec.slices_b_2 (V (main_arg17 : DevRef τ sig)))) := by
  rw [hostOps15_s4_v378,
    hostOps15_s3_keep _ (r := main_arg17) (by decide),
    hostOps15_s2_keep _ (r := main_arg17) (by decide),
    hostOps15_s1_keep _ (r := main_arg17) (by decide),
    hostOps15_s0_keep _ (r := main_arg17) (by decide)]

theorem hostOps15_v379 :
    after (hostOps15_4 (F := Ideal)) (after (hostOps15_3 (F := Ideal)) (after (hostOps15_2 (F := Ideal)) (after (hostOps15_1 (F := Ideal)) (after (hostOps15 (F := Ideal)) V)))) (main_v379 : DevRef τ sig)
      = Cert.KSpec.row128 (Cert.KSpec.tile4 (Cert.Spec.bSl 2 Cert.Spec.slices_b_2 (V (main_arg18 : DevRef τ sig)))) := by
  rw [hostOps15_s4_v379,
    hostOps15_s3_keep _ (r := main_arg18) (by decide),
    hostOps15_s2_keep _ (r := main_arg18) (by decide),
    hostOps15_s1_keep _ (r := main_arg18) (by decide),
    hostOps15_s0_keep _ (r := main_arg18) (by decide)]

theorem hostOps15_v361 :
    after (hostOps15_4 (F := Ideal)) (after (hostOps15_3 (F := Ideal)) (after (hostOps15_2 (F := Ideal)) (after (hostOps15_1 (F := Ideal)) (after (hostOps15 (F := Ideal)) V)))) (main_v361 : DevRef τ sig)
      = Cert.KSpec.tile4 (Cert.Spec.meanE (V (main_v321 : DevRef τ sig))) := by
  rw [hostOps15_s4_v361,
    hostOps15_s3_keep _ (r := main_v341) (by decide),
    hostOps15_s2_v341,
    hostOps15_s1_keep _ (r := main_v321) (by decide),
    hostOps15_s0_keep _ (r := main_v321) (by decide)]

theorem hostOps15_v364 :
    after (hostOps15_4 (F := Ideal)) (after (hostOps15_3 (F := Ideal)) (after (hostOps15_2 (F := Ideal)) (after (hostOps15_1 (F := Ideal)) (after (hostOps15 (F := Ideal)) V)))) (main_v364 : DevRef τ sig)
      = Cert.KSpec.tile4 (Cert.Spec.varE (V (main_v321 : DevRef τ sig)) (constantI Cert.Spec.S_ 32 0#32)) := by
  rw [hostOps15_s4_v364,
    hostOps15_s3_v342,
    hostOps15_s2_keep _ (r := main_v321) (by decide),
    hostOps15_s1_keep _ (r := main_v321) (by decide),
    hostOps15_s0_keep _ (r := main_v321) (by decide),
    hostOps15_s2_c10]

theorem hostOps15_v369 :
    after (hostOps15_4 (F := Ideal)) (after (hostOps15_3 (F := Ideal)) (after (hostOps15_2 (F := Ideal)) (after (hostOps15_1 (F := Ideal)) (after (hostOps15 (F := Ideal)) V)))) (main_v369 : DevRef τ sig)
      = Cert.KSpec.tile4 (Cert.Spec.bSl 2 Cert.Spec.slices_b_2 (V (main_arg19 : DevRef τ sig))) := by
  rw [hostOps15_s4_v369,
    hostOps15_s3_keep _ (r := main_arg19) (by decide),
    hostOps15_s2_keep _ (r := main_arg19) (by decide),
    hostOps15_s1_keep _ (r := main_arg19) (by decide),
    hostOps15_s0_keep _ (r := main_arg19) (by decide)]

theorem hostOps15_v374 :
    after (hostOps15_4 (F := Ideal)) (after (hostOps15_3 (F := Ideal)) (after (hostOps15_2 (F := Ideal)) (after (hostOps15_1 (F := Ideal)) (after (hostOps15 (F := Ideal)) V)))) (main_v374 : DevRef τ sig)
      = Cert.KSpec.tile4 (Cert.Spec.bSl 2 Cert.Spec.slices_b_2 (V (main_arg20 : DevRef τ sig))) := by
  rw [hostOps15_s4_v374,
    hostOps15_s3_keep _ (r := main_arg20) (by decide),
    hostOps15_s2_keep _ (r := main_arg20) (by decide),
    hostOps15_s1_keep _ (r := main_arg20) (by decide),
    hostOps15_s0_keep _ (r := main_arg20) (by decide)]

/-- An array that none of the five groups writes stays as it was. -/
theorem hostOps15_keep {r : Ref sig .tc} (h0 : r ∉ GenP.hostOps15_W) (h1 : r ∉ GenP.hostOps15_1_W) (h2 : r ∉ GenP.hostOps15_2_W)
    (h3 : r ∉ GenP.hostOps15_3_W) (h4 : r ∉ GenP.hostOps15_4_W) :
    after (hostOps15_4 (F := Ideal)) (after (hostOps15_3 (F := Ideal)) (after (hostOps15_2 (F := Ideal)) (after (hostOps15_1 (F := Ideal)) (after (hostOps15 (F := Ideal)) V)))) (Proc.devRef .tc r) = V (Proc.devRef .tc r) := by
  rw [hostOps15_s4_keep _ h4, hostOps15_s3_keep _ h3, hostOps15_s2_keep _ h2, hostOps15_s1_keep _ h1, hostOps15_s0_keep _ h0]

/-- The same for the arrays that later steps read. -/
theorem hostOps15_keep_live {r : Ref sig .tc}
    (hr : r ∈ ([main_v1, main_v3, main_v254, main_v261, main_v320_0, main_v333, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps15_4 (F := Ideal)) (after (hostOps15_3 (F := Ideal)) (after (hostOps15_2 (F := Ideal)) (after (hostOps15_1 (F := Ideal)) (after (hostOps15 (F := Ideal)) V)))) (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl
  all_goals exact hostOps15_keep V (by decide) (by decide) (by decide) (by decide) (by decide)

end Cert.KernelIdeal.KHost
-- ==== Proof.KHostL3c.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the last two host steps of layer 3 leave in the buffers later steps read: the
    unpacked node output and the packed operands of the edge normalisation, then the unpacked edge
    output and the next layer's concatenated weight and bias, for an arbitrary starting state. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Between the node normalisation and the edge normalisation -/

theorem hostOps16_v381 :
    after (hostOps16 (F := Ideal)) V (main_v381 : DevRef τ sig)
      = Cert.KSpec.unpackN (V (main_v380 : DevRef τ sig)) := by
  after_results_simp
  rfl

theorem hostOps16_v382 :
    after (hostOps16 (F := Ideal)) V (main_v382 : DevRef τ sig)
      = Cert.KSpec.packE (V (main_v261 : DevRef τ sig)) := by
  after_results_simp
  rfl

theorem hostOps16_v383 :
    after (hostOps16 (F := Ideal)) V (main_v383 : DevRef τ sig)
      = Cert.KSpec.row128 (V (main_v361 : DevRef τ sig)) := by
  after_results_simp
  rfl

theorem hostOps16_v384 :
    after (hostOps16 (F := Ideal)) V (main_v384 : DevRef τ sig)
      = Cert.KSpec.row128 (V (main_v364 : DevRef τ sig)) := by
  after_results_simp
  rfl

theorem hostOps16_v385 :
    after (hostOps16 (F := Ideal)) V (main_v385 : DevRef τ sig)
      = Cert.KSpec.row128 (V (main_v369 : DevRef τ sig)) := by
  after_results_simp
  rfl

theorem hostOps16_v386 :
    after (hostOps16 (F := Ideal)) V (main_v386 : DevRef τ sig)
      = Cert.KSpec.row128 (V (main_v374 : DevRef τ sig)) := by
  after_results_simp
  rfl

/-- A buffer these steps do not write stays as it was. -/
theorem hostOps16_keep {r : Ref sig .tc} (h0 : r ∉ GenP.hostOps16_W) :
    after (hostOps16 (F := Ideal)) V (Proc.devRef .tc r) = V (Proc.devRef .tc r) := by
  rw [after_of_writes_sub hostOps16 _ GenP.hostOps16_writes h0]

/-- The same for the buffers read later. -/
theorem hostOps16_keep_live {r : Ref sig .tc}
    (hr : r ∈ ([main_v1, main_v3, main_v320_0, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps16 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl
  all_goals exact hostOps16_keep V (by decide)

/-! ## After the edge normalisation: the layer's edge output -/

theorem hostOps17_v388 :
    after (hostOps17 (F := Ideal)) V (main_v388 : DevRef τ sig)
      = Cert.KSpec.unpackE (V (main_v387 : DevRef τ sig)) := by
  after_results_simp
  rfl

/-- A buffer these steps do not write stays as it was. -/
theorem hostOps17_keep {r : Ref sig .tc} (h0 : r ∉ GenP.hostOps17_W) :
    after (hostOps17 (F := Ideal)) V (Proc.devRef .tc r) = V (Proc.devRef .tc r) := by
  rw [after_of_writes_sub hostOps17 _ GenP.hostOps17_writes h0]

/-- The same for the buffers read later. -/
theorem hostOps17_keep_live {r : Ref sig .tc}
    (hr : r ∈ ([main_v1, main_v3, main_v381, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps17 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl
  all_goals exact hostOps17_keep V (by decide)

/-! ## The next layer's concatenated weights -/

theorem hostOps17_v397 :
    after (hostOps17 (F := Ideal)) V (main_v397 : DevRef τ sig)
      = Cert.KSpec.wcat (Cert.Spec.wSl 3 Cert.Spec.slices_W_3 (V (main_arg7 : DevRef τ sig))) (Cert.Spec.wSl 3 Cert.Spec.slices_W_3 (V (main_arg9 : DevRef τ sig)))
          (Cert.Spec.wSl 3 Cert.Spec.slices_W_3 (V (main_arg15 : DevRef τ sig))) (Cert.Spec.wSl 3 Cert.Spec.slices_W_3 (V (main_arg13 : DevRef τ sig))) := by
  after_results_simp
  rfl

theorem hostOps17_v407 :
    after (hostOps17 (F := Ideal)) V (main_v407 : DevRef τ sig)
      = Cert.KSpec.bcat (Cert.Spec.bSl 3 Cert.Spec.slices_b_3 (V (main_arg8 : DevRef τ sig))) (Cert.Spec.bSl 3 Cert.Spec.slices_b_3 (V (main_arg10 : DevRef τ sig)))
          (Cert.Spec.bSl 3 Cert.Spec.slices_b_3 (V (main_arg16 : DevRef τ sig))) (Cert.Spec.bSl 3 Cert.Spec.slices_b_3 (V (main_arg14 : DevRef τ sig))) := by
  after_results_simp
  rfl

end Cert.KernelIdeal.KHost
-- ==== Proof.KReadL3.lean ====
import proofs.«425355_j88287347737110_2_alg».proof.Proof.KFold
import proofs.«425355_j88287347737110_2_alg».proof.Proof.Val12
import proofs.«425355_j88287347737110_2_alg».proof.Proof.Val13
import proofs.«425355_j88287347737110_2_alg».proof.Proof.Val14
import proofs.«425355_j88287347737110_2_alg».proof.Proof.Val15
import proofs.«425355_j88287347737110_2_alg».proof.Proof.Val16
import proofs.«425355_j88287347737110_2_alg».proof.Proof.KHostL3a
import proofs.«425355_j88287347737110_2_alg».proof.Proof.KHostL3b
import proofs.«425355_j88287347737110_2_alg».proof.Proof.KHostL3c
import proofs.«425355_j88287347737110_2_alg».proof.Proof.KWhole
import proofs.«425355_j88287347737110_2_alg».proof.Proof.KReadDefs
import Idealize.ShloMosaic.Lib.StableHlo.Run

/-! # Layer 1 of the kernel program, read

The layer runs from just after its projection weights have been laid side by side to just after the next layer's
have: the fused projection's region, the gathers and packings, the edge region, the segment sums, the node region, the
column statistics, the two normalise-and-add regions and the two unpackings. Given that at entry the two concatenated
parameter buffers hold the index-0 slices of the stacked parameters, the layer's two result buffers end holding the
two components of the kernel's arrangement of the layer at parameter index 0; the index vectors and the parameters are
as they were, and the two concatenated parameter buffers of the next layer hold its index-1 slices. One statement per
item, each about the buffers a later item reads, each in terms of the contents the layer starts from. -/

set_option maxRecDepth 16384

noncomputable section

namespace Cert.KernelIdeal.KRead

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (c : Dev nD)

/-! ## What the layer starts from -/

/-- The node features, the edge features, the sources and the targets. -/
abbrev k3_h : Cert.KSpec.R Cert.Spec.S100000x32 := Run.W37 m c (main_v254 : DevRef τ sig)
abbrev k3_e : Cert.KSpec.R Cert.Spec.S800000x32 := Run.W37 m c (main_v261 : DevRef τ sig)
abbrev k3_src : Cert.Spec.J Ideal Cert.Spec.S800000 := Run.W37 m c (main_v1 : DevRef τ sig)
abbrev k3_dst : Cert.Spec.J Ideal Cert.Spec.S800000 := Run.W37 m c (main_v3 : DevRef τ sig)

/-- The layer's parameters: index 0 of the stacked arrays. -/
abbrev k3_A : Cert.KSpec.R Cert.Spec.S32x32 := Cert.Spec.wSl 2 Cert.Spec.slices_W_2 (Run.W37 m c (main_arg7 : DevRef τ sig))
abbrev k3_bA : Cert.KSpec.R Cert.Spec.S32 := Cert.Spec.bSl 2 Cert.Spec.slices_b_2 (Run.W37 m c (main_arg8 : DevRef τ sig))
abbrev k3_B : Cert.KSpec.R Cert.Spec.S32x32 := Cert.Spec.wSl 2 Cert.Spec.slices_W_2 (Run.W37 m c (main_arg9 : DevRef τ sig))
abbrev k3_bB : Cert.KSpec.R Cert.Spec.S32 := Cert.Spec.bSl 2 Cert.Spec.slices_b_2 (Run.W37 m c (main_arg10 : DevRef τ sig))
abbrev k3_C : Cert.KSpec.R Cert.Spec.S32x32 := Cert.Spec.wSl 2 Cert.Spec.slices_W_2 (Run.W37 m c (main_arg11 : DevRef τ sig))
abbrev k3_bC : Cert.KSpec.R Cert.Spec.S32 := Cert.Spec.bSl 2 Cert.Spec.slices_b_2 (Run.W37 m c (main_arg12 : DevRef τ sig))
abbrev k3_U : Cert.KSpec.R Cert.Spec.S32x32 := Cert.Spec.wSl 2 Cert.Spec.slices_W_2 (Run.W37 m c (main_arg13 : DevRef τ sig))
abbrev k3_bU : Cert.KSpec.R Cert.Spec.S32 := Cert.Spec.bSl 2 Cert.Spec.slices_b_2 (Run.W37 m c (main_arg14 : DevRef τ sig))
abbrev k3_V : Cert.KSpec.R Cert.Spec.S32x32 := Cert.Spec.wSl 2 Cert.Spec.slices_W_2 (Run.W37 m c (main_arg15 : DevRef τ sig))
abbrev k3_bV : Cert.KSpec.R Cert.Spec.S32 := Cert.Spec.bSl 2 Cert.Spec.slices_b_2 (Run.W37 m c (main_arg16 : DevRef τ sig))
abbrev k3_gh : Cert.KSpec.R Cert.Spec.S32 := Cert.Spec.bSl 2 Cert.Spec.slices_b_2 (Run.W37 m c (main_arg17 : DevRef τ sig))
abbrev k3_bh : Cert.KSpec.R Cert.Spec.S32 := Cert.Spec.bSl 2 Cert.Spec.slices_b_2 (Run.W37 m c (main_arg18 : DevRef τ sig))
abbrev k3_ge : Cert.KSpec.R Cert.Spec.S32 := Cert.Spec.bSl 2 Cert.Spec.slices_b_2 (Run.W37 m c (main_arg19 : DevRef τ sig))
abbrev k3_be : Cert.KSpec.R Cert.Spec.S32 := Cert.Spec.bSl 2 Cert.Spec.slices_b_2 (Run.W37 m c (main_arg20 : DevRef τ sig))

/-- The fused projection, the three packed outputs of the edge region and the packed output of the node region,
    as functions of what the layer starts from. -/
abbrev k3_proj : Cert.KSpec.R Cert.KSpec.S100000x128 :=
  Cert.KSpec.kproj (k3_h m c) (k3_A m c) (k3_bA m c) (k3_B m c) (k3_bB m c) (k3_U m c) (k3_bU m c) (k3_V m c) (k3_bV m c)
abbrev k3_edgeNew : Cert.KSpec.R Cert.KSpec.S200000x128 :=
  Cert.KSpec.kedgeNewR (k3_proj m c) (k3_e m c) (k3_src m c) (k3_dst m c) (k3_C m c) (k3_bC m c)
abbrev k3_edgeSig : Cert.KSpec.R Cert.KSpec.S200000x128 :=
  Cert.KSpec.kedgeSigR (k3_proj m c) (k3_e m c) (k3_src m c) (k3_dst m c) (k3_C m c) (k3_bC m c)
abbrev k3_edgeNum : Cert.KSpec.R Cert.KSpec.S200000x128 :=
  Cert.KSpec.kedgeNumR (k3_proj m c) (k3_e m c) (k3_src m c) (k3_dst m c) (k3_C m c) (k3_bC m c)
abbrev k3_nodeNew : Cert.KSpec.R Cert.KSpec.S25000x128 :=
  Cert.KSpec.knodeNewR (k3_proj m c) (k3_e m c) (k3_src m c) (k3_dst m c) (k3_C m c) (k3_bC m c)

/-! ## What each item leaves unwritten -/

/-- The references written up to each boundary of the layer. -/
abbrev k3_L6 : List (Ref sig .tc) := [main_v281]
abbrev k3_L9 : List (Ref sig .tc) := hostOps13_2_W ++ (hostOps13_1_W ++ (hostOps13_W ++ k3_L6))
abbrev k3_L10 : List (Ref sig .tc) := main_v320_0 :: main_v320_1 :: main_v320_2 :: k3_L9
abbrev k3_L11 : List (Ref sig .tc) := hostOps14_W ++ k3_L10
abbrev k3_L12 : List (Ref sig .tc) := main_v333 :: k3_L11
abbrev k3_L17 : List (Ref sig .tc) :=
  hostOps15_4_W ++ (hostOps15_3_W ++ (hostOps15_2_W ++ (hostOps15_1_W ++ (hostOps15_W ++ k3_L12))))
abbrev k3_L18 : List (Ref sig .tc) := main_v380 :: k3_L17
abbrev k3_L19 : List (Ref sig .tc) := hostOps16_W ++ k3_L18
abbrev k3_L20 : List (Ref sig .tc) := main_v387 :: k3_L19
abbrev k3_L21 : List (Ref sig .tc) := hostOps17_W ++ k3_L20

/-- One host stretch or one group of stretches keeps what it does not write. -/
theorem k3_s9 (b : Ref sig .tc) (h3 : b ∉ hostOps13_W) (h31 : b ∉ hostOps13_1_W) (h32 : b ∉ hostOps13_2_W) :
    Run.W41 m c b = Run.W38 m c b :=
  (after_of_writes_sub (hostOps13_2 (F := Ideal)) _ hostOps13_2_writes h32).trans
    ((after_of_writes_sub (hostOps13_1 (F := Ideal)) _ hostOps13_1_writes h31).trans (after_of_writes_sub (hostOps13 (F := Ideal)) _ hostOps13_writes h3))
theorem k3_s11 (b : Ref sig .tc) (h : b ∉ hostOps14_W) : Run.W43 m c b = Run.W42 m c b :=
  after_of_writes_sub (hostOps14 (F := Ideal)) _ hostOps14_writes h
theorem k3_s17 (b : Ref sig .tc) (h5 : b ∉ hostOps15_W) (h51 : b ∉ hostOps15_1_W) (h52 : b ∉ hostOps15_2_W)
    (h53 : b ∉ hostOps15_3_W) (h54 : b ∉ hostOps15_4_W) : Run.W49 m c b = Run.W44 m c b :=
  (after_of_writes_sub (hostOps15_4 (F := Ideal)) _ hostOps15_4_writes h54).trans
    ((after_of_writes_sub (hostOps15_3 (F := Ideal)) _ hostOps15_3_writes h53).trans
      ((after_of_writes_sub (hostOps15_2 (F := Ideal)) _ hostOps15_2_writes h52).trans
        ((after_of_writes_sub (hostOps15_1 (F := Ideal)) _ hostOps15_1_writes h51).trans (after_of_writes_sub (hostOps15 (F := Ideal)) _ hostOps15_writes h5))))
theorem k3_s19 (b : Ref sig .tc) (h : b ∉ hostOps16_W) : Run.W51 m c b = Run.W50 m c b :=
  after_of_writes_sub (hostOps16 (F := Ideal)) _ hostOps16_writes h
theorem k3_s21 (b : Ref sig .tc) (h : b ∉ hostOps17_W) : Run.W53 m c b = Run.W52 m c b :=
  after_of_writes_sub (hostOps17 (F := Ideal)) _ hostOps17_writes h

/-- A reference not written up to a boundary holds there what the layer started from. -/
theorem k3_keep6 (b : Ref sig .tc) (h : b ∉ k3_L6) : Run.W38 m c b = Run.W37 m c b :=
  Run.W38_of_ne m c b (List.ne_of_not_mem_cons h)
theorem k3_keep9 (b : Ref sig .tc) (h : b ∉ k3_L9) : Run.W41 m c b = Run.W37 m c b :=
  (k3_s9 m c b
    (fun hb => h (List.mem_append_right _ (List.mem_append_right _ (List.mem_append_left _ hb))))
    (fun hb => h (List.mem_append_right _ (List.mem_append_left _ hb)))
    (fun hb => h (List.mem_append_left _ hb))).trans
  (k3_keep6 m c b (fun hb => h (List.mem_append_right _ (List.mem_append_right _ (List.mem_append_right _ hb)))))
theorem k3_keep10 (b : Ref sig .tc) (h : b ∉ k3_L10) : Run.W42 m c b = Run.W37 m c b :=
  (Run.W42_of_ne m c b (List.ne_of_not_mem_cons h)
    (List.ne_of_not_mem_cons (List.not_mem_of_not_mem_cons h))
    (List.ne_of_not_mem_cons (List.not_mem_of_not_mem_cons (List.not_mem_of_not_mem_cons h)))).trans
  (k3_keep9 m c b (List.not_mem_of_not_mem_cons (List.not_mem_of_not_mem_cons (List.not_mem_of_not_mem_cons h))))
theorem k3_keep11 (b : Ref sig .tc) (h : b ∉ k3_L11) : Run.W43 m c b = Run.W37 m c b :=
  (k3_s11 m c b (fun hb => h (List.mem_append_left _ hb))).trans (k3_keep10 m c b (fun hb => h (List.mem_append_right _ hb)))
theorem k3_keep12 (b : Ref sig .tc) (h : b ∉ k3_L12) : Run.W44 m c b = Run.W37 m c b :=
  (Run.W44_of_ne m c b (List.ne_of_not_mem_cons h)).trans (k3_keep11 m c b (List.not_mem_of_not_mem_cons h))
theorem k3_keep17 (b : Ref sig .tc) (h : b ∉ k3_L17) : Run.W49 m c b = Run.W37 m c b :=
  (k3_s17 m c b
    (fun hb => h (List.mem_append_right _ (List.mem_append_right _ (List.mem_append_right _ (List.mem_append_right _ (List.mem_append_left _ hb))))))
    (fun hb => h (List.mem_append_right _ (List.mem_append_right _ (List.mem_append_right _ (List.mem_append_left _ hb)))))
    (fun hb => h (List.mem_append_right _ (List.mem_append_right _ (List.mem_append_left _ hb))))
    (fun hb => h (List.mem_append_right _ (List.mem_append_left _ hb)))
    (fun hb => h (List.mem_append_left _ hb))).trans
  (k3_keep12 m c b (fun hb => h (List.mem_append_right _ (List.mem_append_right _ (List.mem_append_right _
    (List.mem_append_right _ (List.mem_append_right _ hb)))))))
theorem k3_keep18 (b : Ref sig .tc) (h : b ∉ k3_L18) : Run.W50 m c b = Run.W37 m c b :=
  (Run.W50_of_ne m c b (List.ne_of_not_mem_cons h)).trans (k3_keep17 m c b (List.not_mem_of_not_mem_cons h))
theorem k3_keep19 (b : Ref sig .tc) (h : b ∉ k3_L19) : Run.W51 m c b = Run.W37 m c b :=
  (k3_s19 m c b (fun hb => h (List.mem_append_left _ hb))).trans (k3_keep18 m c b (fun hb => h (List.mem_append_right _ hb)))
theorem k3_keep20 (b : Ref sig .tc) (h : b ∉ k3_L20) : Run.W52 m c b = Run.W37 m c b :=
  (Run.W52_of_ne m c b (List.ne_of_not_mem_cons h)).trans (k3_keep19 m c b (List.not_mem_of_not_mem_cons h))
theorem k3_keep21 (b : Ref sig .tc) (h : b ∉ k3_L21) : Run.W53 m c b = Run.W37 m c b :=
  (k3_s21 m c b (fun hb => h (List.mem_append_left _ hb))).trans (k3_keep20 m c b (fun hb => h (List.mem_append_right _ hb)))

/-- The index vectors and the parameters are as the layer found them. -/
theorem readK3_keep (b : Ref sig .tc) (hb : b ∈ keepRefs) : Run.W53 m c b = Run.W37 m c b :=
  k3_keep21 m c b ((by decide : ∀ r ∈ keepRefs, r ∉ k3_L21) b hb)

/-! ## The next layer's projection parameters, side by side -/

/-- The four projection weights at index 1, side by side. -/
theorem readK3_W :
    Run.W53 m c (main_v397 : DevRef τ sig)
      = Cert.KSpec.wcat (Cert.Spec.wSl 3 Cert.Spec.slices_W_3 (Run.W53 m c (main_arg7 : DevRef τ sig)))
          (Cert.Spec.wSl 3 Cert.Spec.slices_W_3 (Run.W53 m c (main_arg9 : DevRef τ sig)))
          (Cert.Spec.wSl 3 Cert.Spec.slices_W_3 (Run.W53 m c (main_arg15 : DevRef τ sig)))
          (Cert.Spec.wSl 3 Cert.Spec.slices_W_3 (Run.W53 m c (main_arg13 : DevRef τ sig))) := by
  rw [k3_s21 m c main_arg7 (by decide), k3_s21 m c main_arg9 (by decide), k3_s21 m c main_arg15 (by decide),
    k3_s21 m c main_arg13 (by decide)]
  exact KHost.hostOps17_v397 (Run.W52 m c)

/-- The four projection biases at index 1, end to end, as one row. -/
theorem readK3_B :
    Run.W53 m c (main_v407 : DevRef τ sig)
      = Cert.KSpec.bcat (Cert.Spec.bSl 3 Cert.Spec.slices_b_3 (Run.W53 m c (main_arg8 : DevRef τ sig)))
          (Cert.Spec.bSl 3 Cert.Spec.slices_b_3 (Run.W53 m c (main_arg10 : DevRef τ sig)))
          (Cert.Spec.bSl 3 Cert.Spec.slices_b_3 (Run.W53 m c (main_arg16 : DevRef τ sig)))
          (Cert.Spec.bSl 3 Cert.Spec.slices_b_3 (Run.W53 m c (main_arg14 : DevRef τ sig))) := by
  rw [k3_s21 m c main_arg8 (by decide), k3_s21 m c main_arg10 (by decide), k3_s21 m c main_arg16 (by decide),
    k3_s21 m c main_arg14 (by decide)]
  exact KHost.hostOps17_v407 (Run.W52 m c)

/-! ## The layer's own projection parameters, side by side at its entry -/

variable
  (hW : Run.W37 m c (main_v270 : DevRef τ sig)
    = Cert.KSpec.wcat (Cert.Spec.wSl 2 Cert.Spec.slices_W_2 (Run.W37 m c (main_arg7 : DevRef τ sig)))
        (Cert.Spec.wSl 2 Cert.Spec.slices_W_2 (Run.W37 m c (main_arg9 : DevRef τ sig)))
        (Cert.Spec.wSl 2 Cert.Spec.slices_W_2 (Run.W37 m c (main_arg15 : DevRef τ sig)))
        (Cert.Spec.wSl 2 Cert.Spec.slices_W_2 (Run.W37 m c (main_arg13 : DevRef τ sig))))
  (hB : Run.W37 m c (main_v280 : DevRef τ sig)
    = Cert.KSpec.bcat (Cert.Spec.bSl 2 Cert.Spec.slices_b_2 (Run.W37 m c (main_arg8 : DevRef τ sig)))
        (Cert.Spec.bSl 2 Cert.Spec.slices_b_2 (Run.W37 m c (main_arg10 : DevRef τ sig)))
        (Cert.Spec.bSl 2 Cert.Spec.slices_b_2 (Run.W37 m c (main_arg16 : DevRef τ sig)))
        (Cert.Spec.bSl 2 Cert.Spec.slices_b_2 (Run.W37 m c (main_arg14 : DevRef τ sig))))
include hW hB

/-! ## The fused projection -/

theorem k3_w6_proj : Run.W38 m c main_v281 = k3_proj m c := by
  rw [Run.W38_at0, Val.arr12_3_eq (Run.T37 m) c]
  show Cert.KSpec.Glin128 (Run.W37 m c main_v254) (Run.W37 m c main_v270) (Run.W37 m c main_v280) = _
  rw [hW, hB]
  rfl

/-! ## The column blocks, the gathers, the packings, the edge parameters -/

/-- The first operand of the edge region: the A block gathered at the targets, packed. -/
theorem k3_w9_a0 :
    Run.W41 m c main_v315
      = Cert.KSpec.packE (Cert.Spec.gatherRows (Cert.KSpec.colsA (k3_proj m c)) (k3_dst m c)) := by
  refine (KHost.hostOps13_v315 (Run.W38 m c)).trans ?_
  rw [k3_w6_proj m c hW hB, k3_keep6 m c main_v3 (by decide)]

/-- The second: the left half of the B and V blocks gathered at the sources, packed. -/
theorem k3_w9_a1 :
    Run.W41 m c main_v316
      = Cert.KSpec.packE (Cert.KSpec.left32 (Cert.KSpec.gatherRows64 (Cert.KSpec.colsBV (k3_proj m c)) (k3_src m c))) := by
  refine (KHost.hostOps13_v316 (Run.W38 m c)).trans ?_
  rw [k3_w6_proj m c hW hB, k3_keep6 m c main_v1 (by decide)]

/-- The third: the edge features, packed. -/
theorem k3_w9_a2 : Run.W41 m c main_v318 = Cert.KSpec.packE (k3_e m c) := by
  refine (KHost.hostOps13_v318 (Run.W38 m c)).trans ?_
  rw [k3_keep6 m c main_v261 (by decide)]

/-- The fourth: the right half of the gathered B and V blocks, packed. -/
theorem k3_w9_a3 :
    Run.W41 m c main_v317
      = Cert.KSpec.packE (Cert.KSpec.right32 (Cert.KSpec.gatherRows64 (Cert.KSpec.colsBV (k3_proj m c)) (k3_src m c))) := by
  refine (KHost.hostOps13_v317 (Run.W38 m c)).trans ?_
  rw [k3_w6_proj m c hW hB, k3_keep6 m c main_v1 (by decide)]

/-- The fifth: the block-diagonal edge weight. -/
theorem k3_w9_a4 : Run.W41 m c main_v309 = Cert.KSpec.kron Cert.KSpec.eye4 (k3_C m c) := by
  refine (KHost.hostOps13_v309 (Run.W38 m c)).trans ?_
  rw [k3_keep6 m c main_arg11 (by decide)]

/-- The sixth: the edge bias repeated four times, as one row. -/
theorem k3_w9_a5 : Run.W41 m c main_v319 = Cert.KSpec.row128 (Cert.KSpec.tile4 (k3_bC m c)) := by
  refine (KHost.hostOps13_v319 (Run.W38 m c)).trans ?_
  rw [k3_keep6 m c main_arg12 (by decide)]

/-- The U block of the projection. -/
theorem k3_w9_colsU : Run.W41 m c main_v284 = Cert.KSpec.colsU (k3_proj m c) := by
  refine (KHost.hostOps13_v284 (Run.W38 m c)).trans ?_
  rw [k3_w6_proj m c hW hB]

/-! ## The edge region's three outputs -/

theorem k3_w10_new : Run.W42 m c main_v320_0 = k3_edgeNew m c := by
  rw [Run.W42_at0, Val.arr13_6_eq (Run.T41 m) c]
  show Cert.KSpec.GedgeNew (Run.W41 m c main_v315) (Run.W41 m c main_v316) (Run.W41 m c main_v318)
    (Run.W41 m c main_v309) (Run.W41 m c main_v319) = _
  rw [k3_w9_a0 m c hW hB, k3_w9_a1 m c hW hB, k3_w9_a2 m c hW hB, k3_w9_a4 m c hW hB, k3_w9_a5 m c hW hB]
  rfl

theorem k3_w10_sig : Run.W42 m c main_v320_1 = k3_edgeSig m c := by
  rw [Run.W42_at1, Val.arr13_7_eq (Run.T41 m) c]
  show Cert.KSpec.GedgeSig (Run.W41 m c main_v315) (Run.W41 m c main_v316) (Run.W41 m c main_v318)
    (Run.W41 m c main_v309) (Run.W41 m c main_v319) = _
  rw [k3_w9_a0 m c hW hB, k3_w9_a1 m c hW hB, k3_w9_a2 m c hW hB, k3_w9_a4 m c hW hB, k3_w9_a5 m c hW hB]
  rfl

theorem k3_w10_num : Run.W42 m c main_v320_2 = k3_edgeNum m c := by
  rw [Run.W42_at2, Val.arr13_8_eq (Run.T41 m) c]
  show Cert.KSpec.GedgeNum (Run.W41 m c main_v315) (Run.W41 m c main_v316) (Run.W41 m c main_v318) (Run.W41 m c main_v317)
    (Run.W41 m c main_v309) (Run.W41 m c main_v319) = _
  rw [k3_w9_a0 m c hW hB, k3_w9_a1 m c hW hB, k3_w9_a2 m c hW hB, k3_w9_a3 m c hW hB, k3_w9_a4 m c hW hB, k3_w9_a5 m c hW hB]
  rfl

/-! ## The unpackings and the segment sums -/

/-- The new edge features, unpacked. -/
theorem k3_w11_enew : Run.W43 m c main_v321 = Cert.KSpec.unpackE (k3_edgeNew m c) := by
  refine (KHost.hostOps14_v321 (Run.W42 m c)).trans ?_
  rw [k3_w10_new m c hW hB]

/-- The node region's three operands. -/
theorem k3_w11_uh : Run.W43 m c main_v330 = Cert.KSpec.packN (Cert.KSpec.colsU (k3_proj m c)) := by
  refine (KHost.hostOps14_v330 (Run.W42 m c)).trans ?_
  rw [Run.W42_of_ne m c main_v284 (by decide) (by decide) (by decide), k3_w9_colsU m c hW hB]
theorem k3_w11_num :
    Run.W43 m c main_v331
      = Cert.KSpec.packN (Cert.Spec.segSum (Cert.KSpec.unpackE (k3_edgeNum m c)) (k3_dst m c)) := by
  refine (KHost.hostOps14_v331 (Run.W42 m c)).trans ?_
  rw [k3_w10_num m c hW hB, k3_keep10 m c main_v3 (by decide)]
theorem k3_w11_den :
    Run.W43 m c main_v332
      = Cert.KSpec.packN (Cert.Spec.segSum (Cert.KSpec.unpackE (k3_edgeSig m c)) (k3_dst m c)) := by
  refine (KHost.hostOps14_v332 (Run.W42 m c)).trans ?_
  rw [k3_w10_sig m c hW hB, k3_keep10 m c main_v3 (by decide)]

/-! ## The node region -/

theorem k3_w12_node : Run.W44 m c main_v333 = k3_nodeNew m c := by
  rw [Run.W44_at0, Val.arr14_3_eq (Run.T43 m) c]
  show Cert.KSpec.Gnode (Run.W43 m c main_v330) (Run.W43 m c main_v331) (Run.W43 m c main_v332) = _
  rw [k3_w11_uh m c hW hB, k3_w11_num m c hW hB, k3_w11_den m c hW hB]
  rfl

/-- The unpacked new edge features are still there after the node region. -/
theorem k3_w12_enew : Run.W44 m c main_v321 = Cert.KSpec.unpackE (k3_edgeNew m c) :=
  (Run.W44_of_ne m c main_v321 (by decide)).trans (k3_w11_enew m c hW hB)

/-! ## The column statistics and the normalisation parameters, repeated four times -/

/-- The node normalisation's operands. -/
theorem k3_w17_h : Run.W49 m c main_v375 = Cert.KSpec.packN (k3_h m c) := by
  refine (KHost.hostOps15_v375 (Run.W44 m c)).trans ?_
  rw [k3_keep12 m c main_v254 (by decide)]
theorem k3_w17_muN :
    Run.W49 m c main_v376
      = Cert.KSpec.row128 (Cert.KSpec.tile4 (Cert.Spec.meanN (Cert.KSpec.unpackN (k3_nodeNew m c)))) := by
  refine (KHost.hostOps15_v376 (Run.W44 m c)).trans ?_
  rw [k3_w12_node m c hW hB]
theorem k3_w17_varN :
    Run.W49 m c main_v377
      = Cert.KSpec.row128 (Cert.KSpec.tile4
          (Cert.Spec.varN (Cert.KSpec.unpackN (k3_nodeNew m c)) (constantI Cert.Spec.S_ 32 0#32))) := by
  refine (KHost.hostOps15_v377 (Run.W44 m c)).trans ?_
  rw [k3_w12_node m c hW hB]
theorem k3_w17_gh : Run.W49 m c main_v378 = Cert.KSpec.row128 (Cert.KSpec.tile4 (k3_gh m c)) := by
  refine (KHost.hostOps15_v378 (Run.W44 m c)).trans ?_
  rw [k3_keep12 m c main_arg17 (by decide)]
theorem k3_w17_bh : Run.W49 m c main_v379 = Cert.KSpec.row128 (Cert.KSpec.tile4 (k3_bh m c)) := by
  refine (KHost.hostOps15_v379 (Run.W44 m c)).trans ?_
  rw [k3_keep12 m c main_arg18 (by decide)]

/-- The edge normalisation's parameters, before their reshaping to one row. -/
theorem k3_w17_muE :
    Run.W49 m c main_v361 = Cert.KSpec.tile4 (Cert.Spec.meanE (Cert.KSpec.unpackE (k3_edgeNew m c))) := by
  refine (KHost.hostOps15_v361 (Run.W44 m c)).trans ?_
  rw [k3_w12_enew m c hW hB]
theorem k3_w17_varE :
    Run.W49 m c main_v364
      = Cert.KSpec.tile4 (Cert.Spec.varE (Cert.KSpec.unpackE (k3_edgeNew m c)) (constantI Cert.Spec.S_ 32 0#32)) := by
  refine (KHost.hostOps15_v364 (Run.W44 m c)).trans ?_
  rw [k3_w12_enew m c hW hB]
theorem k3_w17_ge : Run.W49 m c main_v369 = Cert.KSpec.tile4 (k3_ge m c) := by
  refine (KHost.hostOps15_v369 (Run.W44 m c)).trans ?_
  rw [k3_keep12 m c main_arg19 (by decide)]
theorem k3_w17_be : Run.W49 m c main_v374 = Cert.KSpec.tile4 (k3_be m c) := by
  refine (KHost.hostOps15_v374 (Run.W44 m c)).trans ?_
  rw [k3_keep12 m c main_arg20 (by decide)]

/-- The node region's output is still there. -/
theorem k3_w17_node : Run.W49 m c main_v333 = k3_nodeNew m c :=
  (k3_s17 m c main_v333 (by decide) (by decide) (by decide) (by decide) (by decide)).trans (k3_w12_node m c hW hB)

/-! ## The node normalise-and-add region -/

theorem k3_w18_bnN :
    Run.W50 m c main_v380
      = Cert.KSpec.GbnN (k3_nodeNew m c) (Cert.KSpec.packN (k3_h m c))
          (Cert.KSpec.row128 (Cert.KSpec.tile4 (Cert.Spec.meanN (Cert.KSpec.unpackN (k3_nodeNew m c)))))
          (Cert.KSpec.row128 (Cert.KSpec.tile4
            (Cert.Spec.varN (Cert.KSpec.unpackN (k3_nodeNew m c)) (constantI Cert.Spec.S_ 32 0#32))))
          (Cert.KSpec.row128 (Cert.KSpec.tile4 (k3_gh m c))) (Cert.KSpec.row128 (Cert.KSpec.tile4 (k3_bh m c))) := by
  rw [Run.W50_at0, Val.arr15_6_eq (Run.T49 m) c]
  show Cert.KSpec.GbnN (Run.W49 m c main_v333) (Run.W49 m c main_v375) (Run.W49 m c main_v376) (Run.W49 m c main_v377)
    (Run.W49 m c main_v378) (Run.W49 m c main_v379) = _
  rw [k3_w17_node m c hW hB, k3_w17_h m c hW hB, k3_w17_muN m c hW hB, k3_w17_varN m c hW hB, k3_w17_gh m c hW hB,
    k3_w17_bh m c hW hB]

/-! ## The node result unpacked; the edge normalisation's operands -/

/-- The layer's node result. -/
theorem k3_w19_h :
    Run.W51 m c main_v381 = Cert.KSpec.kbnN (k3_nodeNew m c) (k3_h m c) (k3_gh m c) (k3_bh m c) := by
  refine (KHost.hostOps16_v381 (Run.W50 m c)).trans ?_
  rw [k3_w18_bnN m c hW hB]
  rfl

theorem k3_w19_e : Run.W51 m c main_v382 = Cert.KSpec.packE (k3_e m c) := by
  refine (KHost.hostOps16_v382 (Run.W50 m c)).trans ?_
  rw [k3_keep18 m c main_v261 (by decide)]
theorem k3_w19_muE :
    Run.W51 m c main_v383
      = Cert.KSpec.row128 (Cert.KSpec.tile4 (Cert.Spec.meanE (Cert.KSpec.unpackE (k3_edgeNew m c)))) := by
  refine (KHost.hostOps16_v383 (Run.W50 m c)).trans ?_
  rw [Run.W50_of_ne m c main_v361 (by decide), k3_w17_muE m c hW hB]
theorem k3_w19_varE :
    Run.W51 m c main_v384
      = Cert.KSpec.row128 (Cert.KSpec.tile4
          (Cert.Spec.varE (Cert.KSpec.unpackE (k3_edgeNew m c)) (constantI Cert.Spec.S_ 32 0#32))) := by
  refine (KHost.hostOps16_v384 (Run.W50 m c)).trans ?_
  rw [Run.W50_of_ne m c main_v364 (by decide), k3_w17_varE m c hW hB]
theorem k3_w19_ge : Run.W51 m c main_v385 = Cert.KSpec.row128 (Cert.KSpec.tile4 (k3_ge m c)) := by
  refine (KHost.hostOps16_v385 (Run.W50 m c)).trans ?_
  rw [Run.W50_of_ne m c main_v369 (by decide), k3_w17_ge m c hW hB]
theorem k3_w19_be : Run.W51 m c main_v386 = Cert.KSpec.row128 (Cert.KSpec.tile4 (k3_be m c)) := by
  refine (KHost.hostOps16_v386 (Run.W50 m c)).trans ?_
  rw [Run.W50_of_ne m c main_v374 (by decide), k3_w17_be m c hW hB]

/-- The packed new edge features are still there. -/
theorem k3_w19_enew : Run.W51 m c main_v320_0 = k3_edgeNew m c :=
  (k3_s19 m c main_v320_0 (by decide)).trans
    ((Run.W50_of_ne m c main_v320_0 (by decide)).trans
      ((k3_s17 m c main_v320_0 (by decide) (by decide) (by decide) (by decide) (by decide)).trans
        ((Run.W44_of_ne m c main_v320_0 (by decide)).trans
          ((k3_s11 m c main_v320_0 (by decide)).trans (k3_w10_new m c hW hB)))))

/-! ## The edge normalise-and-add region -/

theorem k3_w20_bnE :
    Run.W52 m c main_v387
      = Cert.KSpec.GbnE (k3_edgeNew m c) (Cert.KSpec.packE (k3_e m c))
          (Cert.KSpec.row128 (Cert.KSpec.tile4 (Cert.Spec.meanE (Cert.KSpec.unpackE (k3_edgeNew m c)))))
          (Cert.KSpec.row128 (Cert.KSpec.tile4
            (Cert.Spec.varE (Cert.KSpec.unpackE (k3_edgeNew m c)) (constantI Cert.Spec.S_ 32 0#32))))
          (Cert.KSpec.row128 (Cert.KSpec.tile4 (k3_ge m c))) (Cert.KSpec.row128 (Cert.KSpec.tile4 (k3_be m c))) := by
  rw [Run.W52_at0, Val.arr16_6_eq (Run.T51 m) c]
  show Cert.KSpec.GbnE (Run.W51 m c main_v320_0) (Run.W51 m c main_v382) (Run.W51 m c main_v383) (Run.W51 m c main_v384)
    (Run.W51 m c main_v385) (Run.W51 m c main_v386) = _
  rw [k3_w19_enew m c hW hB, k3_w19_e m c hW hB, k3_w19_muE m c hW hB, k3_w19_varE m c hW hB, k3_w19_ge m c hW hB,
    k3_w19_be m c hW hB]

/-! ## The edge result unpacked -/

/-- The layer's edge result. -/
theorem k3_w21_e :
    Run.W53 m c main_v388 = Cert.KSpec.kbnE (k3_edgeNew m c) (k3_e m c) (k3_ge m c) (k3_be m c) := by
  refine (KHost.hostOps17_v388 (Run.W52 m c)).trans ?_
  rw [k3_w20_bnE m c hW hB]
  rfl

/-! ## The layer -/

/-- The node features after layer 3. -/
theorem readK3_h :
    Run.W53 m c (main_v381 : DevRef τ sig)
      = (Cert.KSpec.klayerAt 2 Cert.Spec.slices_W_2 Cert.Spec.slices_b_2
          (Run.W37 m c (main_v254 : DevRef τ sig)) (Run.W37 m c (main_v261 : DevRef τ sig))
          (Run.W37 m c (main_v1 : DevRef τ sig)) (Run.W37 m c (main_v3 : DevRef τ sig))
          (Run.W37 m c (main_arg7 : DevRef τ sig)) (Run.W37 m c (main_arg8 : DevRef τ sig))
          (Run.W37 m c (main_arg9 : DevRef τ sig)) (Run.W37 m c (main_arg10 : DevRef τ sig))
          (Run.W37 m c (main_arg11 : DevRef τ sig)) (Run.W37 m c (main_arg12 : DevRef τ sig))
          (Run.W37 m c (main_arg13 : DevRef τ sig)) (Run.W37 m c (main_arg14 : DevRef τ sig))
          (Run.W37 m c (main_arg15 : DevRef τ sig)) (Run.W37 m c (main_arg16 : DevRef τ sig))
          (Run.W37 m c (main_arg17 : DevRef τ sig)) (Run.W37 m c (main_arg18 : DevRef τ sig))
          (Run.W37 m c (main_arg19 : DevRef τ sig)) (Run.W37 m c (main_arg20 : DevRef τ sig))).1 :=
  (k3_s21 m c main_v381 (by decide)).trans
    ((Run.W52_of_ne m c main_v381 (by decide)).trans (k3_w19_h m c hW hB))

/-- The edge features after layer 3. -/
theorem readK3_e :
    Run.W53 m c (main_v388 : DevRef τ sig)
      = (Cert.KSpec.klayerAt 2 Cert.Spec.slices_W_2 Cert.Spec.slices_b_2
          (Run.W37 m c (main_v254 : DevRef τ sig)) (Run.W37 m c (main_v261 : DevRef τ sig))
          (Run.W37 m c (main_v1 : DevRef τ sig)) (Run.W37 m c (main_v3 : DevRef τ sig))
          (Run.W37 m c (main_arg7 : DevRef τ sig)) (Run.W37 m c (main_arg8 : DevRef τ sig))
          (Run.W37 m c (main_arg9 : DevRef τ sig)) (Run.W37 m c (main_arg10 : DevRef τ sig))
          (Run.W37 m c (main_arg11 : DevRef τ sig)) (Run.W37 m c (main_arg12 : DevRef τ sig))
          (Run.W37 m c (main_arg13 : DevRef τ sig)) (Run.W37 m c (main_arg14 : DevRef τ sig))
          (Run.W37 m c (main_arg15 : DevRef τ sig)) (Run.W37 m c (main_arg16 : DevRef τ sig))
          (Run.W37 m c (main_arg17 : DevRef τ sig)) (Run.W37 m c (main_arg18 : DevRef τ sig))
          (Run.W37 m c (main_arg19 : DevRef τ sig)) (Run.W37 m c (main_arg20 : DevRef τ sig))).2 :=
  k3_w21_e m c hW hB

end Cert.KernelIdeal.KRead

end
-- ==== Proof.Val17.lean ====
import proofs.«425355_j88287347737110_2_alg».proof.Proof.Reg17
import proofs.«425355_j88287347737110_2_alg».proof.Proof.KSpec
import Idealize.ShloMosaic.Lib.Pipeline.Value
import Idealize.ShloMosaic.Lib.ValueIdx
import Idealize.ShloMosaic.PureOps.Ideal.Laws

/-! # Region 17 (`cc17_kernel`): the result array, index by index, at the ideal values

After the region the result array (100000 × 128) holds, at row `r` and column `j`,
`∑ k < 32, x[r, k] · w[k, j] + b[0, j]` over the extended reals, where `x`, `w`, `b` are the three input arrays as
the region finds them.  The steps: the matrix product accumulated into zero is the sum over the contracted
coordinate; the format changes are the identity at the ideal values; the bias is broadcast down the rows; each input
block is read where the point's block index puts it (the row blocks of `x` and of the result move together, the
weight and the bias stay at block 0); row `r` is covered by the point `r / 5000`. -/

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)
open scoped BigOperators

theorem lin17_hz : (![0, 0] : Fin 2 → Nat) = fun _ => 0 := funext fun a => by fin_cases a <;> rfl

/-! ## The matrix product's operand indices, axis by axis -/

theorem lin17_lhs_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl

theorem lin17_lhs_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q

theorem lin17_rhs_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q

theorem lin17_rhs_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- The product of a 5000 × 32 block by a 32 × 128 matrix accumulated into zero, read at row `p`, column `q`: the
    sum over the 32 contracted coordinates of the products of the entries. -/
theorem lin17_mm_apply (a : FVec Ideal S5000x32 .bf16) (b : FVec Ideal S32x128 .bf16) (p : Fin 5000) (q : Fin 128) :
    matmul dot_S5000x32_S32x128_S5000x128_1_0_0_1_n_n none a b (constant S5000x128 .f32 0x00000000#32) (ix2 p q)
      = ∑ k : Fin 32, a (ix2 p k) * b (ix2 k q) := by
  show FloatOps.matmul _ none a b (constant S5000x128 .f32 0x00000000#32) (ix2 p q) = _
  rw [Ideal.matmul_constant_zero_apply, ← Equiv.sum_comp (contrEquiv1 dot_S5000x32_S32x128_S5000x128_1_0_0_1_n_n 32 rfl rfl).symm]
  refine Finset.sum_congr rfl fun k _ => ?_
  have hk := contrEquiv1_symm_val dot_S5000x32_S32x128_S5000x128_1_0_0_1_n_n 32 rfl rfl k
  have el : dot_S5000x32_S32x128_S5000x128_1_0_0_1_n_n.lhsIdx (ix2 p q) ((contrEquiv1 dot_S5000x32_S32x128_S5000x128_1_0_0_1_n_n 32 rfl rfl).symm k) = ix2 p k := funext fun ax => Fin.ext (by
    match ax with
    | ⟨0, _⟩ => exact lin17_lhs_0 _ _
    | ⟨1, _⟩ => exact (lin17_lhs_1 _ _).trans hk)
  have er : dot_S5000x32_S32x128_S5000x128_1_0_0_1_n_n.rhsIdx (ix2 p q) ((contrEquiv1 dot_S5000x32_S32x128_S5000x128_1_0_0_1_n_n 32 rfl rfl).symm k) = ix2 k q := funext fun ax => Fin.ext (by
    match ax with
    | ⟨0, _⟩ => exact (lin17_rhs_0 _ _).trans hk
    | ⟨1, _⟩ => exact lin17_rhs_1 _ _)
  rw [el, er]

/-! ## The body's payload at an index -/

/-- The payload `x · w + b` at row `p`, column `q` of the block: the format changes are the identity at the ideal
    values, the bias's one row is laid along every row. -/
theorem lin17_pay_apply (x0 : Vec Ideal S5000x32 .f32) (x1 : Vec Ideal S32x128 .f32) (x2 : Vec Ideal S1x128 .f32) (p : Fin 5000) (q : Fin 128) :
    k17_pay1 x0 x1 x2 (ix2 p q) = (∑ k : Fin 32, x0 (ix2 p k) * x1 (ix2 k q)) + x2 (ix2 (0 : Fin 1) q) := by
  unfold k17_pay1
  rw [addf_apply, lin17_mm_apply]
  simp only [truncf_apply, shapeCast_self]
  congr 1
  exact broadcastTo_apply x2 broadcasts_S1x128_S5000x128 (ix2 p q) (ix2 (0 : Fin 1) q) (fun a => by
    match a with
    | ⟨0, _⟩ => rfl
    | ⟨1, _⟩ => rfl)

/-- The same at any index of the block. -/
theorem lin17_pay_idx (x0 : Vec Ideal S5000x32 .f32) (x1 : Vec Ideal S32x128 .f32) (x2 : Vec Ideal S1x128 .f32) (y : S5000x128.Idx) :
    k17_pay1 x0 x1 x2 y = (∑ k : Fin 32, x0 (ix2 (y 0) k) * x1 (ix2 k (y 1))) + x2 (ix2 (0 : Fin 1) (y 1)) := by
  obtain ⟨p, q, rfl⟩ : ∃ (p : Fin 5000) (q : Fin 128), y = ix2 p q := ⟨y 0, y 1, eq_ix2 y⟩
  exact lin17_pay_apply x0 x1 x2 p q

/-! ## The arrays, and the result as one function of them -/

variable (V : (c : Dev nD) → (b : Ref sig .tc) → Buf (Elt Ideal) ((c : Thread nD τ).loc b))

/-- The three input arrays as the region finds them, at their literal types. -/
abbrev xarr17 (c : Dev nD) : S100000x32.Idx → EReal := V c (Pipeline.arrRef spec17 0)
abbrev warr17 (c : Dev nD) : S32x128.Idx → EReal := V c (Pipeline.arrRef spec17 1)
abbrev barr17 (c : Dev nD) : S1x128.Idx → EReal := V c (Pipeline.arrRef spec17 2)

/-- `x · w + b`, row by row, over the whole arrays. -/
def lin17_G (x : S100000x32.Idx → EReal) (w : S32x128.Idx → EReal) (b : S1x128.Idx → EReal) : S100000x128.Idx → EReal :=
  fun i => (∑ k : Fin 32, x (ix2 (i 0) k) * w (ix2 k (i 1))) + b (ix2 (0 : Fin 1) (i 1))

theorem lin17_N : cfg17.N = 20 := N_17

/-! ## The blocks -/

/-- The printed index maps over the grid: the row blocks of `x` and of the result move with the point, the weight
    and the bias stay at block 0. -/
theorem lin17_idx_facts : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0 :=
  (by decide +kernel : ∀ t : Fin grid17.N, _)

/-- The row block of `x` at point `t` is rows `5000 t … 5000 t + 4999` of the array. -/
theorem lin17_xblk_apply (c : Dev nD) (t : Fin cfg17.N) (x : S5000x32.Idx) (i : S100000x32.Idx)
    (h0 : (i 0).val = 5000 * t.val + (x 0).val) (h1 : (i 1).val = (x 1).val) :
    (iblk17 V c 0 t : Vec Ideal S5000x32 .f32) x = xarr17 V c i := by
  obtain ⟨e0, e1, -⟩ := lin17_idx_facts t
  unfold iblk17
  rw [View.read_apply]
  show V c (Pipeline.arrRef spec17 0) _ = V c (Pipeline.arrRef spec17 0) i
  congr 1
  funext a
  apply Fin.ext
  match a with
  | ⟨0, _⟩ => show win17_0.index t 0 * 5000 + 1 * (x 0).val = (i 0).val; rw [e0, h0]; omega
  | ⟨1, _⟩ => show win17_0.index t 1 * 32 + 1 * (x 1).val = (i 1).val; rw [e1, h1]; omega

/-- The weight's block at every point is the whole array. -/
theorem lin17_wblk_apply (c : Dev nD) (t : Fin cfg17.N) (x : S32x128.Idx) :
    (iblk17 V c 1 t : Vec Ideal S32x128 .f32) x = warr17 V c x := by
  obtain ⟨-, -, e0, e1, -⟩ := lin17_idx_facts t
  unfold iblk17
  rw [View.read_apply]
  show V c (Pipeline.arrRef spec17 1) _ = V c (Pipeline.arrRef spec17 1) x
  congr 1
  funext a
  apply Fin.ext
  match a with
  | ⟨0, _⟩ => show win17_1.index t 0 * 32 + 1 * (x 0).val = (x 0).val; rw [e0]; omega
  | ⟨1, _⟩ => show win17_1.index t 1 * 128 + 1 * (x 1).val = (x 1).val; rw [e1]; omega

/-- The bias's block at every point is the whole array. -/
theorem lin17_bblk_apply (c : Dev nD) (t : Fin cfg17.N) (x : S1x128.Idx) :
    (iblk17 V c 2 t : Vec Ideal S1x128 .f32) x = barr17 V c x := by
  obtain ⟨-, -, -, -, e0, e1, -⟩ := lin17_idx_facts t
  unfold iblk17
  rw [View.read_apply]
  show V c (Pipeline.arrRef spec17 2) _ = V c (Pipeline.arrRef spec17 2) x
  congr 1
  funext a
  apply Fin.ext
  match a with
  | ⟨0, _⟩ => show win17_2.index t 0 * 1 + 1 * (x 0).val = (x 0).val; rw [e0]; omega
  | ⟨1, _⟩ => show win17_2.index t 1 * 128 + 1 * (x 1).val = (x 1).val; rw [e1]; omega

/-- Where the result's block at point `t` puts its local index `y`: row `5000 t + y 0`, column `y 1`. -/
theorem lin17_oemb (t : Fin cfg17.N) (y : S5000x128.Idx) :
    ((((cfg17.win 3).blk t).view.emb y : S100000x128.Idx) 0).val = 5000 * t.val + (y 0).val
    ∧ ((((cfg17.win 3).blk t).view.emb y : S100000x128.Idx) 1).val = (y 1).val := by
  obtain ⟨-, -, -, -, -, -, e0, e1⟩ := lin17_idx_facts t
  constructor
  · show win17_3.index t 0 * 5000 + 1 * (y 0).val = _; rw [e0]; omega
  · show win17_3.index t 1 * 128 + 1 * (y 1).val = _; rw [e1]; omega

/-! ## From the blocks to the array -/

/-- What point `t` writes back is block `t` of `lin17_G` of the arrays. -/
theorem lin17_flushed_3_eq (c : Dev nD) (t : Fin cfg17.N) :
    (dat17 (F := Ideal) V c).flushed 3 t = ((cfg17.win 3).blk t).view.read (Elt Ideal) (lin17_G (xarr17 V c) (warr17 V c) (barr17 V c)) := by
  show (cfg17.win 3).cut (grid17.coords t) ((dat17 V c).after 3 t) = _
  rw [after17_3]
  unfold out17_3
  rw [View.canon_unit_zero lin17_hz]
  simp only [View.ld_unit_zero (S := S5000x32) lin17_hz, View.ld_unit_zero (S := S32x128) lin17_hz, View.ld_unit_zero (S := S1x128) lin17_hz]
  funext y
  obtain ⟨o0, o1⟩ := lin17_oemb t y
  show k17_pay1 (iblk17 V c 0 t) (iblk17 V c 1 t) (iblk17 V c 2 t) y = lin17_G (xarr17 V c) (warr17 V c) (barr17 V c) (((cfg17.win 3).blk t).view.emb y)
  refine (lin17_pay_idx (iblk17 V c 0 t) (iblk17 V c 1 t) (iblk17 V c 2 t) y).trans ?_
  unfold lin17_G
  refine congrArg₂ (· + ·) (Finset.sum_congr rfl fun k _ => congrArg₂ (· * ·) ?_ ?_) ?_
  · exact lin17_xblk_apply V c t (ix2 (y 0) k) _ o0 rfl
  · refine (lin17_wblk_apply V c t (ix2 k (y 1))).trans (congrArg (warr17 V c) ?_)
    funext a; apply Fin.ext
    match a with
    | ⟨0, _⟩ => rfl
    | ⟨1, _⟩ => exact o1.symm
  · refine (lin17_bblk_apply V c t (ix2 (0 : Fin 1) (y 1))).trans (congrArg (barr17 V c) ?_)
    funext a; apply Fin.ext
    match a with
    | ⟨0, _⟩ => rfl
    | ⟨1, _⟩ => exact o1.symm

/-- An index of the result array is in point `t`'s block iff each coordinate is in the block's range on its axis. -/
theorem lin17_mem_blk (t : Fin cfg17.N) (i : S100000x128.Idx) :
    i ∈ ((cfg17.win 3).blk t).view.set ↔ ∀ a : Fin 2, win17_3.index t a * S5000x128.size a ≤ (i a).val ∧ (i a).val < win17_3.index t a * S5000x128.size a + S5000x128.size a := by
  show i ∈ ((View.whole main_v408).slice (win17_3.rect t)).set ↔ _
  rw [View.set_slice_whole, Rect.mem_set_unit]
  exact Iff.rfl

/-- Row `r` of the result is in the block of point `r / 5000`, which is written back. -/
theorem lin17_cover (i : S100000x128.Idx) : ∃ t : Fin cfg17.N, (cfg17.win 3).flush t = true ∧ i ∈ ((cfg17.win 3).blk t).view.set := by
  have hi0 : (i 0).val < 100000 := (i 0).isLt
  have hi1 : (i 1).val < 128 := (i 1).isLt
  refine ⟨⟨(i 0).val / 5000, by rw [lin17_N]; omega⟩, flush17_3 _, ?_⟩
  rw [lin17_mem_blk]
  obtain ⟨-, -, -, -, -, -, e0, e1⟩ := lin17_idx_facts ⟨(i 0).val / 5000, by rw [lin17_N]; omega⟩
  intro a
  match a with
  | ⟨0, _⟩ => show win17_3.index _ (0 : Fin 2) * 5000 ≤ (i 0).val ∧ (i 0).val < win17_3.index _ (0 : Fin 2) * 5000 + 5000; rw [e0]; show (i 0).val / 5000 * 5000 ≤ _ ∧ _ < (i 0).val / 5000 * 5000 + 5000; omega
  | ⟨1, _⟩ => show win17_3.index _ (1 : Fin 2) * 128 ≤ (i 1).val ∧ (i 1).val < win17_3.index _ (1 : Fin 2) * 128 + 128; rw [e1]; omega

/-- The result array after the region is `lin17_G` of the three input arrays. -/
theorem lin17_final_3 (c : Dev nD) : (dat17 (F := Ideal) V c).arrAt 3 cfg17.N = lin17_G (xarr17 V c) (warr17 V c) (barr17 V c) :=
  (dat17 (F := Ideal) V c).arrAt_eq_of_cover 3 (lin17_G (xarr17 V c) (warr17 V c) (barr17 V c)) (fun t _ => lin17_flushed_3_eq V c t) (lin17_cover)

/-- The result array after the region, index by index: `∑ k, x[r, k] · w[k, j] + b[0, j]`. -/
theorem arr17_3_apply (c : Dev nD) (r : Fin 100000) (j : Fin 128) :
    ((dat17 (F := Ideal) V c).arrAt 3 cfg17.N : S100000x128.Idx → EReal) (ix2 r j)
      = (∑ k : Fin 32, xarr17 V c (ix2 r k) * warr17 V c (ix2 k j)) + barr17 V c (ix2 (0 : Fin 1) j) := by
  rw [lin17_final_3]
  rfl

/-- The result array after the region as the fused projection `x · w + b` of the three input arrays. -/
theorem arr17_3_eq (c : Dev nD) :
    (dat17 (F := Ideal) V c).arrAt 3 cfg17.N
      = Cert.KSpec.Glin128 (V c (Pipeline.arrRef spec17 0)) (V c (Pipeline.arrRef spec17 1)) (V c (Pipeline.arrRef spec17 2)) :=
  (lin17_final_3 V c).trans rfl

end Cert.KernelIdeal.Val

end
-- ==== Proof.Pay18.lean ====
/- The edge-update body's three stored values, read at an index, at the ideal float model: every entry as a formula
   over the extended reals of the entries of the six loaded blocks. -/
import proofs.«425355_j88287347737110_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-! ## The product `e · chat` at an index

The contraction runs over the second axis of the left operand and the first of the right; neither has a batch axis. -/

/-- The left operand's row coordinate is the output's. -/
theorem lhs18_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The left operand's column coordinate is the contracted one. -/
theorem lhs18_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

/-- The right operand's row coordinate is the contracted one. -/
theorem rhs18_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

/-- The right operand's column coordinate is the output's. -/
theorem rhs18_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into a zero accumulator, at row `p` and column `q`: the sum over the 128 contracted coordinates. -/
theorem matmul18_apply (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) := by
  show FloatOps.matmul dot_S4000x128_S128x128_S4000x128_1_0_0_1_n_n none x w (constant (F := Ideal) S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs18_0 _ _
    | ⟨1, _⟩ => exact (lhs18_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs18_0 _ _).trans hk
    | ⟨1, _⟩ => exact rhs18_1 _ _)
  rw [el, er]

/-! ## The stored values at an index -/

/-- The bias row, broadcast down the rows, at row `p` and column `q` is the row's entry at column `q`. -/
theorem bias18_apply (v : Vec Ideal S1x128 .f32) (p : Fin 4000) (q : Fin 128) :
    broadcastTo S4000x128 v broadcasts_S1x128_S4000x128 (ix2 p q) = v (ix2 (0 : Fin 1) q) :=
  broadcastTo_apply v broadcasts_S1x128_S4000x128 (ix2 p q) (ix2 (0 : Fin 1) q) (fun a => by
    match a with
    | ⟨0, _⟩ => rfl
    | ⟨1, _⟩ => rfl)

/-- `e_new` at row `p`, column `q`: `(ah + bh) + (∑ k, e[p,k] * chat[k,q] + cbias[0,q])`. -/
theorem pay18_1_apply (v0 : Vec Ideal S4000x128 .f32) (v3 : Vec Ideal S128x128 .f32) (v7 : Vec Ideal S1x128 .f32)
    (v11 v13 : Vec Ideal S4000x128 .f32) (p : Fin 4000) (q : Fin 128) :
    k18_pay1 v0 v3 v7 v11 v13 (ix2 p q)
      = (v11 (ix2 p q) + v13 (ix2 p q)) + ((∑ k : Fin 128, v0 (ix2 p k) * v3 (ix2 k q)) + v7 (ix2 (0 : Fin 1) q)) := by
  unfold k18_pay1
  simp only [shapeCast_self]
  show (v11 (ix2 p q) + v13 (ix2 p q)) + (matmul dot_S4000x128_S128x128_S4000x128_1_0_0_1_n_n none (truncf .bf16 v0 bitsLt_bf16_f32) (truncf .bf16 v3 bitsLt_bf16_f32) (constant (F := Ideal) S4000x128 .f32 0x00000000#32) (ix2 p q) + broadcastTo S4000x128 v7 broadcasts_S1x128_S4000x128 (ix2 p q)) = _
  rw [matmul18_apply, bias18_apply]
  rfl

/-- `sigma` at row `p`, column `q`: the logistic of `e_new` there. -/
theorem pay18_2_apply (v0 : Vec Ideal S4000x128 .f32) (v3 : Vec Ideal S128x128 .f32) (v7 : Vec Ideal S1x128 .f32)
    (v11 v13 : Vec Ideal S4000x128 .f32) (p : Fin 4000) (q : Fin 128) :
    k18_pay2 v0 v3 v7 v11 v13 (ix2 p q)
      = Ideal.logistic ((v11 (ix2 p q) + v13 (ix2 p q)) + ((∑ k : Fin 128, v0 (ix2 p k) * v3 (ix2 k q)) + v7 (ix2 (0 : Fin 1) q))) := by
  unfold k18_pay2
  show Ideal.logistic (k18_pay1 v0 v3 v7 v11 v13 (ix2 p q)) = _
  rw [pay18_1_apply]

/-- `sigma * vh` at row `p`, column `q`. -/
theorem pay18_3_apply (v0 : Vec Ideal S4000x128 .f32) (v3 : Vec Ideal S128x128 .f32) (v7 : Vec Ideal S1x128 .f32)
    (v11 v13 v20 : Vec Ideal S4000x128 .f32) (p : Fin 4000) (q : Fin 128) :
    k18_pay3 v0 v3 v7 v11 v13 v20 (ix2 p q)
      = Ideal.logistic ((v11 (ix2 p q) + v13 (ix2 p q)) + ((∑ k : Fin 128, v0 (ix2 p k) * v3 (ix2 k q)) + v7 (ix2 (0 : Fin 1) q))) * v20 (ix2 p q) := by
  unfold k18_pay3
  simp only [shapeCast_self]
  show k18_pay2 v0 v3 v7 v11 v13 (ix2 p q) * v20 (ix2 p q) = _
  rw [pay18_2_apply]

end Cert.KernelIdeal.Val

end
-- ==== Proof.Val18.lean ====
/- The edge-update region at the ideal float model: what each of its three output arrays holds after the region,
   index by index, as a formula over the extended reals of the entries of the six arrays the region reads. -/
import proofs.«425355_j88287347737110_2_alg».proof.Proof.Reg18
import proofs.«425355_j88287347737110_2_alg».proof.Proof.Pay18
import proofs.«425355_j88287347737110_2_alg».proof.Proof.KSpec
import Idealize.ShloMosaic.Lib.Pipeline.Value

set_option maxRecDepth 16384

noncomputable section

namespace Cert.KernelIdeal.Val

open Cert.KernelIdeal Cert.KernelIdeal.Gen Cert.KernelIdeal.Reg
open Idealize.ShloMosaic Idealize.ShloMosaic.TcCoe Idealize.ShloMosaic.ValueIdx
open Idealize.ShloMosaic.Pipeline (Dat Cfg Window)
open scoped BigOperators

-- the core's buffer contents when the region is entered
variable (V : (c : Dev nD) → (b : Ref sig .tc) → Buf (Elt Ideal) ((c : Thread nD τ).loc b))

/-! ## The six arrays the region reads, as it finds them, at their literal types -/

abbrev ent18_0 (c : Dev nD) : S200000x128.Idx → EReal := V c (Pipeline.arrRef spec18 0)
abbrev ent18_1 (c : Dev nD) : S200000x128.Idx → EReal := V c (Pipeline.arrRef spec18 1)
abbrev ent18_2 (c : Dev nD) : S200000x128.Idx → EReal := V c (Pipeline.arrRef spec18 2)
abbrev ent18_3 (c : Dev nD) : S200000x128.Idx → EReal := V c (Pipeline.arrRef spec18 3)
abbrev ent18_4 (c : Dev nD) : S128x128.Idx → EReal := V c (Pipeline.arrRef spec18 4)
abbrev ent18_5 (c : Dev nD) : S1x128.Idx → EReal := V c (Pipeline.arrRef spec18 5)

/-! ## The block index maps, decided over the 50 grid points -/

theorem hz18 : (![0, 0] : Fin 2 → Nat) = fun _ => 0 := funext fun a => by fin_cases a <;> rfl

/-- The seven row-blocked windows sit at row block `t`, column block 0. -/
theorem idx18_row : ∀ t : Fin cfg18.N, (win18_0.index t (0 : Fin 2) = t.val ∧ win18_0.index t (1 : Fin 2) = 0)
    ∧ (win18_1.index t (0 : Fin 2) = t.val ∧ win18_1.index t (1 : Fin 2) = 0)
    ∧ (win18_2.index t (0 : Fin 2) = t.val ∧ win18_2.index t (1 : Fin 2) = 0)
    ∧ (win18_3.index t (0 : Fin 2) = t.val ∧ win18_3.index t (1 : Fin 2) = 0)
    ∧ (win18_6.index t (0 : Fin 2) = t.val ∧ win18_6.index t (1 : Fin 2) = 0)
    ∧ (win18_7.index t (0 : Fin 2) = t.val ∧ win18_7.index t (1 : Fin 2) = 0)
    ∧ (win18_8.index t (0 : Fin 2) = t.val ∧ win18_8.index t (1 : Fin 2) = 0) :=
  (by decide +kernel : ∀ t : Fin grid18.N, _)

/-- The two resident windows sit at block (0, 0) throughout. -/
theorem idx18_res : ∀ t : Fin cfg18.N, (win18_4.index t (0 : Fin 2) = 0 ∧ win18_4.index t (1 : Fin 2) = 0)
    ∧ (win18_5.index t (0 : Fin 2) = 0 ∧ win18_5.index t (1 : Fin 2) = 0) :=
  (by decide +kernel : ∀ t : Fin grid18.N, _)

/-! ## An input block's entry is an entry of its array -/

/-- Row block `t` of window 0 at row `p`, column `q` is the array's entry at row `t * 4000 + p`, column `q`. -/
theorem blk18_0_apply (c : Dev nD) (t : Fin cfg18.N) (p : Fin 4000) (q : Fin 128) (r : Fin 200000) (hr : r.val = t.val * 4000 + p.val) :
    (iblk18 V c 0 t : S4000x128.Idx → EReal) (ix2 p q) = ent18_0 V c (ix2 r q) := by
  show V c (Pipeline.arrRef spec18 0) (((cfg18.win 0).blk t).view.emb (ix2 p q)) = V c (Pipeline.arrRef spec18 0) (ix2 r q)
  obtain ⟨h0, h1⟩ := (idx18_row t).1
  refine congrArg _ (funext fun a => Fin.ext ?_)
  match a with
  | ⟨0, _⟩ => show win18_0.index t (0 : Fin 2) * 4000 + 1 * p.val = r.val; omega
  | ⟨1, _⟩ => show win18_0.index t (1 : Fin 2) * 128 + 1 * q.val = q.val; omega

/-- Row block `t` of window 1 at row `p`, column `q` is the array's entry at row `t * 4000 + p`, column `q`. -/
theorem blk18_1_apply (c : Dev nD) (t : Fin cfg18.N) (p : Fin 4000) (q : Fin 128) (r : Fin 200000) (hr : r.val = t.val * 4000 + p.val) :
    (iblk18 V c 1 t : S4000x128.Idx → EReal) (ix2 p q) = ent18_1 V c (ix2 r q) := by
  show V c (Pipeline.arrRef spec18 1) (((cfg18.win 1).blk t).view.emb (ix2 p q)) = V c (Pipeline.arrRef spec18 1) (ix2 r q)
  obtain ⟨h0, h1⟩ := (idx18_row t).2.1
  refine congrArg _ (funext fun a => Fin.ext ?_)
  match a with
  | ⟨0, _⟩ => show win18_1.index t (0 : Fin 2) * 4000 + 1 * p.val = r.val; omega
  | ⟨1, _⟩ => show win18_1.index t (1 : Fin 2) * 128 + 1 * q.val = q.val; omega

/-- Row block `t` of window 2 at row `p`, column `q` is the array's entry at row `t * 4000 + p`, column `q`. -/
theorem blk18_2_apply (c : Dev nD) (t : Fin cfg18.N) (p : Fin 4000) (q : Fin 128) (r : Fin 200000) (hr : r.val = t.val * 4000 + p.val) :
    (iblk18 V c 2 t : S4000x128.Idx → EReal) (ix2 p q) = ent18_2 V c (ix2 r q) := by
  show V c (Pipeline.arrRef spec18 2) (((cfg18.win 2).blk t).view.emb (ix2 p q)) = V c (Pipeline.arrRef spec18 2) (ix2 r q)
  obtain ⟨h0, h1⟩ := (idx18_row t).2.2.1
  refine congrArg _ (funext fun a => Fin.ext ?_)
  match a with
  | ⟨0, _⟩ => show win18_2.index t (0 : Fin 2) * 4000 + 1 * p.val = r.val; omega
  | ⟨1, _⟩ => show win18_2.index t (1 : Fin 2) * 128 + 1 * q.val = q.val; omega

/-- Row block `t` of window 3 at row `p`, column `q` is the array's entry at row `t * 4000 + p`, column `q`. -/
theorem blk18_3_apply (c : Dev nD) (t : Fin cfg18.N) (p : Fin 4000) (q : Fin 128) (r : Fin 200000) (hr : r.val = t.val * 4000 + p.val) :
    (iblk18 V c 3 t : S4000x128.Idx → EReal) (ix2 p q) = ent18_3 V c (ix2 r q) := by
  show V c (Pipeline.arrRef spec18 3) (((cfg18.win 3).blk t).view.emb (ix2 p q)) = V c (Pipeline.arrRef spec18 3) (ix2 r q)
  obtain ⟨h0, h1⟩ := (idx18_row t).2.2.2.1
  refine congrArg _ (funext fun a => Fin.ext ?_)
  match a with
  | ⟨0, _⟩ => show win18_3.index t (0 : Fin 2) * 4000 + 1 * p.val = r.val; omega
  | ⟨1, _⟩ => show win18_3.index t (1 : Fin 2) * 128 + 1 * q.val = q.val; omega

/-- The resident weight block is the whole weight array. -/
theorem blk18_4_apply (c : Dev nD) (t : Fin cfg18.N) (k : Fin 128) (q : Fin 128) :
    (iblk18 V c 4 t : S128x128.Idx → EReal) (ix2 k q) = ent18_4 V c (ix2 k q) := by
  show V c (Pipeline.arrRef spec18 4) (((cfg18.win 4).blk t).view.emb (ix2 k q)) = V c (Pipeline.arrRef spec18 4) (ix2 k q)
  obtain ⟨h0, h1⟩ := (idx18_res t).1
  refine congrArg _ (funext fun a => Fin.ext ?_)
  match a with
  | ⟨0, _⟩ => show win18_4.index t (0 : Fin 2) * 128 + 1 * k.val = k.val; omega
  | ⟨1, _⟩ => show win18_4.index t (1 : Fin 2) * 128 + 1 * q.val = q.val; omega

/-- The resident bias block is the whole bias row. -/
theorem blk18_5_apply (c : Dev nD) (t : Fin cfg18.N) (q : Fin 128) :
    (iblk18 V c 5 t : S1x128.Idx → EReal) (ix2 (0 : Fin 1) q) = ent18_5 V c (ix2 (0 : Fin 1) q) := by
  show V c (Pipeline.arrRef spec18 5) (((cfg18.win 5).blk t).view.emb (ix2 (0 : Fin 1) q)) = V c (Pipeline.arrRef spec18 5) (ix2 (0 : Fin 1) q)
  obtain ⟨h0, h1⟩ := (idx18_res t).2
  refine congrArg _ (funext fun a => Fin.ext ?_)
  match a with
  | ⟨0, _⟩ => show win18_5.index t (0 : Fin 2) * 1 + 1 * (0 : Fin 1).val = (0 : Fin 1).val; omega
  | ⟨1, _⟩ => show win18_5.index t (1 : Fin 2) * 128 + 1 * q.val = q.val; omega

/-! ## Output window 6 -/

/-- What window 6's array holds after the region, as one function of the entry arrays. -/
abbrev G18_6 (c : Dev nD) : S200000x128.Idx → EReal := Cert.KSpec.GedgeNew (ent18_0 V c) (ent18_1 V c) (ent18_2 V c) (ent18_4 V c) (ent18_5 V c)

/-- Row block `t` of window 6: its index at row `p`, column `q` is row `t * 4000 + p`, column `q` of the array. -/
theorem emb18_6 (t : Fin cfg18.N) (p : Fin 4000) (q : Fin 128) (r : Fin 200000) (hr : r.val = t.val * 4000 + p.val) :
    (((cfg18.win 6).blk t).view.emb (ix2 p q) : S200000x128.Idx) = ix2 r q := by
  obtain ⟨h0, h1⟩ := (idx18_row t).2.2.2.2.1
  refine funext fun a => Fin.ext ?_
  match a with
  | ⟨0, _⟩ => show win18_6.index t (0 : Fin 2) * 4000 + 1 * p.val = r.val; omega
  | ⟨1, _⟩ => show win18_6.index t (1 : Fin 2) * 128 + 1 * q.val = q.val; omega

/-- What point `t` writes back to window 6's array is block `t` of `G18_6`. -/
theorem flushed18_6_eq (c : Dev nD) (t : Fin cfg18.N) :
    (dat18 (F := Ideal) V c).flushed 6 t = ((cfg18.win 6).blk t).view.read (Elt Ideal) (G18_6 V c) := by
  show (cfg18.win 6).cut (grid18.coords t) ((dat18 (F := Ideal) V c).after 6 t) = _
  rw [after18_6]
  unfold out18_6
  rw [View.canon_unit_zero hz18]
  simp only [View.ld_unit_zero (S := S4000x128) hz18, View.ld_unit_zero (S := S128x128) hz18, View.ld_unit_zero (S := S1x128) hz18]
  funext y
  obtain ⟨p, q, rfl⟩ : ∃ (p : Fin 4000) (q : Fin 128), y = ix2 p q := ⟨y 0, y 1, eq_ix2 y⟩
  have ht : t.val < 50 := lt_of_lt_of_eq t.isLt N_18
  have hp : p.val < 4000 := p.isLt
  have hr : ((⟨t.val * 4000 + p.val, by omega⟩ : Fin 200000)).val = t.val * 4000 + p.val := rfl
  show k18_pay1 (iblk18 V c 2 t) (iblk18 V c 4 t) (iblk18 V c 5 t) (iblk18 V c 0 t) (iblk18 V c 1 t) (ix2 p q) = G18_6 V c (((cfg18.win 6).blk t).view.emb (ix2 p q))
  rw [emb18_6 t p q _ hr]
  refine (pay18_1_apply (iblk18 V c 2 t) (iblk18 V c 4 t) (iblk18 V c 5 t) (iblk18 V c 0 t) (iblk18 V c 1 t) p q).trans ?_
  exact (congrArg₂ (· + ·) (congrArg₂ (· + ·) (blk18_0_apply V c t p q _ hr) (blk18_1_apply V c t p q _ hr))
    (congrArg₂ (· + ·) (Finset.sum_congr rfl fun k _ => congrArg₂ (· * ·) (blk18_2_apply V c t p k _ hr) (blk18_4_apply V c t k q)) (blk18_5_apply V c t q)))

/-- An index of the array is in point `t`'s block iff each coordinate is in the block's range on its axis. -/
theorem mem_blk18_6 (t : Fin cfg18.N) (i : S200000x128.Idx) :
    i ∈ ((cfg18.win 6).blk t).view.set ↔ ∀ a : Fin 2, win18_6.index t a * S4000x128.size a ≤ (i a).val ∧ (i a).val < win18_6.index t a * S4000x128.size a + S4000x128.size a := by
  show i ∈ ((View.whole main_v447_0).slice (win18_6.rect t)).set ↔ _
  rw [View.set_slice_whole, Rect.mem_set_unit]
  exact Iff.rfl

/-- Every index is in the block of the point its row falls in: point `row / 4000`. -/
theorem cover18_6 (i : S200000x128.Idx) :
    ∃ t : Fin cfg18.N, (cfg18.win 6).flush t = true ∧ i ∈ ((cfg18.win 6).blk t).view.set := by
  have hi0 : (i 0).val < 200000 := idx2_lt0 i
  have hi1 : (i 1).val < 128 := idx2_lt1 i
  have hN : cfg18.N = 50 := N_18
  refine ⟨⟨(i 0).val / 4000, by rw [hN]; omega⟩, flush18_6 _, ?_⟩
  rw [mem_blk18_6]
  obtain ⟨h0, h1⟩ := (idx18_row (⟨(i 0).val / 4000, by rw [hN]; omega⟩ : Fin cfg18.N)).2.2.2.2.1
  intro a
  match a with
  | ⟨0, _⟩ => show win18_6.index _ (0 : Fin 2) * 4000 ≤ (i 0).val ∧ (i 0).val < win18_6.index _ (0 : Fin 2) * 4000 + 4000; rw [h0]; show (i 0).val / 4000 * 4000 ≤ (i 0).val ∧ (i 0).val < (i 0).val / 4000 * 4000 + 4000; omega
  | ⟨1, _⟩ => show win18_6.index _ (1 : Fin 2) * 128 ≤ (i 1).val ∧ (i 1).val < win18_6.index _ (1 : Fin 2) * 128 + 128; rw [h1]; omega

/-- The array after the region: `G18_6` of the entry arrays, everywhere. -/
theorem final18_6 (c : Dev nD) : (dat18 (F := Ideal) V c).arrAt 6 cfg18.N = G18_6 V c :=
  (dat18 (F := Ideal) V c).arrAt_eq_of_cover 6 (G18_6 V c) (fun t _ => flushed18_6_eq V c t) (cover18_6)

/-! ## Output window 7 -/

/-- What window 7's array holds after the region, as one function of the entry arrays. -/
abbrev G18_7 (c : Dev nD) : S200000x128.Idx → EReal := Cert.KSpec.GedgeSig (ent18_0 V c) (ent18_1 V c) (ent18_2 V c) (ent18_4 V c) (ent18_5 V c)

/-- Row block `t` of window 7: its index at row `p`, column `q` is row `t * 4000 + p`, column `q` of the array. -/
theorem emb18_7 (t : Fin cfg18.N) (p : Fin 4000) (q : Fin 128) (r : Fin 200000) (hr : r.val = t.val * 4000 + p.val) :
    (((cfg18.win 7).blk t).view.emb (ix2 p q) : S200000x128.Idx) = ix2 r q := by
  obtain ⟨h0, h1⟩ := (idx18_row t).2.2.2.2.2.1
  refine funext fun a => Fin.ext ?_
  match a with
  | ⟨0, _⟩ => show win18_7.index t (0 : Fin 2) * 4000 + 1 * p.val = r.val; omega
  | ⟨1, _⟩ => show win18_7.index t (1 : Fin 2) * 128 + 1 * q.val = q.val; omega

/-- What point `t` writes back to window 7's array is block `t` of `G18_7`. -/
theorem flushed18_7_eq (c : Dev nD) (t : Fin cfg18.N) :
    (dat18 (F := Ideal) V c).flushed 7 t = ((cfg18.win 7).blk t).view.read (Elt Ideal) (G18_7 V c) := by
  show (cfg18.win 7).cut (grid18.coords t) ((dat18 (F := Ideal) V c).after 7 t) = _
  rw [after18_7]
  unfold out18_7
  rw [View.canon_unit_zero hz18]
  simp only [View.ld_unit_zero (S := S4000x128) hz18, View.ld_unit_zero (S := S128x128) hz18, View.ld_unit_zero (S := S1x128) hz18]
  funext y
  obtain ⟨p, q, rfl⟩ : ∃ (p : Fin 4000) (q : Fin 128), y = ix2 p q := ⟨y 0, y 1, eq_ix2 y⟩
  have ht : t.val < 50 := lt_of_lt_of_eq t.isLt N_18
  have hp : p.val < 4000 := p.isLt
  have hr : ((⟨t.val * 4000 + p.val, by omega⟩ : Fin 200000)).val = t.val * 4000 + p.val := rfl
  show k18_pay2 (iblk18 V c 2 t) (iblk18 V c 4 t) (iblk18 V c 5 t) (iblk18 V c 0 t) (iblk18 V c 1 t) (ix2 p q) = G18_7 V c (((cfg18.win 7).blk t).view.emb (ix2 p q))
  rw [emb18_7 t p q _ hr]
  refine (pay18_2_apply (iblk18 V c 2 t) (iblk18 V c 4 t) (iblk18 V c 5 t) (iblk18 V c 0 t) (iblk18 V c 1 t) p q).trans ?_
  exact congrArg Ideal.logistic (congrArg₂ (· + ·) (congrArg₂ (· + ·) (blk18_0_apply V c t p q _ hr) (blk18_1_apply V c t p q _ hr))
    (congrArg₂ (· + ·) (Finset.sum_congr rfl fun k _ => congrArg₂ (· * ·) (blk18_2_apply V c t p k _ hr) (blk18_4_apply V c t k q)) (blk18_5_apply V c t q)))

/-- An index of the array is in point `t`'s block iff each coordinate is in the block's range on its axis. -/
theorem mem_blk18_7 (t : Fin cfg18.N) (i : S200000x128.Idx) :
    i ∈ ((cfg18.win 7).blk t).view.set ↔ ∀ a : Fin 2, win18_7.index t a * S4000x128.size a ≤ (i a).val ∧ (i a).val < win18_7.index t a * S4000x128.size a + S4000x128.size a := by
  show i ∈ ((View.whole main_v447_1).slice (win18_7.rect t)).set ↔ _
  rw [View.set_slice_whole, Rect.mem_set_unit]
  exact Iff.rfl

/-- Every index is in the block of the point its row falls in: point `row / 4000`. -/
theorem cover18_7 (i : S200000x128.Idx) :
    ∃ t : Fin cfg18.N, (cfg18.win 7).flush t = true ∧ i ∈ ((cfg18.win 7).blk t).view.set := by
  have hi0 : (i 0).val < 200000 := idx2_lt0 i
  have hi1 : (i 1).val < 128 := idx2_lt1 i
  have hN : cfg18.N = 50 := N_18
  refine ⟨⟨(i 0).val / 4000, by rw [hN]; omega⟩, flush18_7 _, ?_⟩
  rw [mem_blk18_7]
  obtain ⟨h0, h1⟩ := (idx18_row (⟨(i 0).val / 4000, by rw [hN]; omega⟩ : Fin cfg18.N)).2.2.2.2.2.1
  intro a
  match a with
  | ⟨0, _⟩ => show win18_7.index _ (0 : Fin 2) * 4000 ≤ (i 0).val ∧ (i 0).val < win18_7.index _ (0 : Fin 2) * 4000 + 4000; rw [h0]; show (i 0).val / 4000 * 4000 ≤ (i 0).val ∧ (i 0).val < (i 0).val / 4000 * 4000 + 4000; omega
  | ⟨1, _⟩ => show win18_7.index _ (1 : Fin 2) * 128 ≤ (i 1).val ∧ (i 1).val < win18_7.index _ (1 : Fin 2) * 128 + 128; rw [h1]; omega

/-- The array after the region: `G18_7` of the entry arrays, everywhere. -/
theorem final18_7 (c : Dev nD) : (dat18 (F := Ideal) V c).arrAt 7 cfg18.N = G18_7 V c :=
  (dat18 (F := Ideal) V c).arrAt_eq_of_cover 7 (G18_7 V c) (fun t _ => flushed18_7_eq V c t) (cover18_7)

/-! ## Output window 8 -/

/-- What window 8's array holds after the region, as one function of the entry arrays. -/
abbrev G18_8 (c : Dev nD) : S200000x128.Idx → EReal := Cert.KSpec.GedgeNum (ent18_0 V c) (ent18_1 V c) (ent18_2 V c) (ent18_3 V c) (ent18_4 V c) (ent18_5 V c)

/-- Row block `t` of window 8: its index at row `p`, column `q` is row `t * 4000 + p`, column `q` of the array. -/
theorem emb18_8 (t : Fin cfg18.N) (p : Fin 4000) (q : Fin 128) (r : Fin 200000) (hr : r.val = t.val * 4000 + p.val) :
    (((cfg18.win 8).blk t).view.emb (ix2 p q) : S200000x128.Idx) = ix2 r q := by
  obtain ⟨h0, h1⟩ := (idx18_row t).2.2.2.2.2.2
  refine funext fun a => Fin.ext ?_
  match a with
  | ⟨0, _⟩ => show win18_8.index t (0 : Fin 2) * 4000 + 1 * p.val = r.val; omega
  | ⟨1, _⟩ => show win18_8.index t (1 : Fin 2) * 128 + 1 * q.val = q.val; omega

/-- What point `t` writes back to window 8's array is block `t` of `G18_8`. -/
theorem flushed18_8_eq (c : Dev nD) (t : Fin cfg18.N) :
    (dat18 (F := Ideal) V c).flushed 8 t = ((cfg18.win 8).blk t).view.read (Elt Ideal) (G18_8 V c) := by
  show (cfg18.win 8).cut (grid18.coords t) ((dat18 (F := Ideal) V c).after 8 t) = _
  rw [after18_8]
  unfold out18_8
  rw [View.canon_unit_zero hz18]
  simp only [View.ld_unit_zero (S := S4000x128) hz18, View.ld_unit_zero (S := S128x128) hz18, View.ld_unit_zero (S := S1x128) hz18]
  funext y
  obtain ⟨p, q, rfl⟩ : ∃ (p : Fin 4000) (q : Fin 128), y = ix2 p q := ⟨y 0, y 1, eq_ix2 y⟩
  have ht : t.val < 50 := lt_of_lt_of_eq t.isLt N_18
  have hp : p.val < 4000 := p.isLt
  have hr : ((⟨t.val * 4000 + p.val, by omega⟩ : Fin 200000)).val = t.val * 4000 + p.val := rfl
  show k18_pay3 (iblk18 V c 2 t) (iblk18 V c 4 t) (iblk18 V c 5 t) (iblk18 V c 0 t) (iblk18 V c 1 t) (iblk18 V c 3 t) (ix2 p q) = G18_8 V c (((cfg18.win 8).blk t).view.emb (ix2 p q))
  rw [emb18_8 t p q _ hr]
  refine (pay18_3_apply (iblk18 V c 2 t) (iblk18 V c 4 t) (iblk18 V c 5 t) (iblk18 V c 0 t) (iblk18 V c 1 t) (iblk18 V c 3 t) p q).trans ?_
  exact congrArg₂ (· * ·) (congrArg Ideal.logistic (congrArg₂ (· + ·) (congrArg₂ (· + ·) (blk18_0_apply V c t p q _ hr) (blk18_1_apply V c t p q _ hr))
    (congrArg₂ (· + ·) (Finset.sum_congr rfl fun k _ => congrArg₂ (· * ·) (blk18_2_apply V c t p k _ hr) (blk18_4_apply V c t k q)) (blk18_5_apply V c t q)))) (blk18_3_apply V c t p q _ hr)

/-- An index of the array is in point `t`'s block iff each coordinate is in the block's range on its axis. -/
theorem mem_blk18_8 (t : Fin cfg18.N) (i : S200000x128.Idx) :
    i ∈ ((cfg18.win 8).blk t).view.set ↔ ∀ a : Fin 2, win18_8.index t a * S4000x128.size a ≤ (i a).val ∧ (i a).val < win18_8.index t a * S4000x128.size a + S4000x128.size a := by
  show i ∈ ((View.whole main_v447_2).slice (win18_8.rect t)).set ↔ _
  rw [View.set_slice_whole, Rect.mem_set_unit]
  exact Iff.rfl

/-- Every index is in the block of the point its row falls in: point `row / 4000`. -/
theorem cover18_8 (i : S200000x128.Idx) :
    ∃ t : Fin cfg18.N, (cfg18.win 8).flush t = true ∧ i ∈ ((cfg18.win 8).blk t).view.set := by
  have hi0 : (i 0).val < 200000 := idx2_lt0 i
  have hi1 : (i 1).val < 128 := idx2_lt1 i
  have hN : cfg18.N = 50 := N_18
  refine ⟨⟨(i 0).val / 4000, by rw [hN]; omega⟩, flush18_8 _, ?_⟩
  rw [mem_blk18_8]
  obtain ⟨h0, h1⟩ := (idx18_row (⟨(i 0).val / 4000, by rw [hN]; omega⟩ : Fin cfg18.N)).2.2.2.2.2.2
  intro a
  match a with
  | ⟨0, _⟩ => show win18_8.index _ (0 : Fin 2) * 4000 ≤ (i 0).val ∧ (i 0).val < win18_8.index _ (0 : Fin 2) * 4000 + 4000; rw [h0]; show (i 0).val / 4000 * 4000 ≤ (i 0).val ∧ (i 0).val < (i 0).val / 4000 * 4000 + 4000; omega
  | ⟨1, _⟩ => show win18_8.index _ (1 : Fin 2) * 128 ≤ (i 1).val ∧ (i 1).val < win18_8.index _ (1 : Fin 2) * 128 + 128; rw [h1]; omega

/-- The array after the region: `G18_8` of the entry arrays, everywhere. -/
theorem final18_8 (c : Dev nD) : (dat18 (F := Ideal) V c).arrAt 8 cfg18.N = G18_8 V c :=
  (dat18 (F := Ideal) V c).arrAt_eq_of_cover 8 (G18_8 V c) (fun t _ => flushed18_8_eq V c t) (cover18_8)

/-! ## The three output arrays after the region -/

/-- `e_new`, the whole array: the new edge feature of the entry arrays. -/
theorem arr18_6_eq (c : Dev nD) :
    (dat18 (F := Ideal) V c).arrAt 6 cfg18.N = Cert.KSpec.GedgeNew (V c (Pipeline.arrRef spec18 0)) (V c (Pipeline.arrRef spec18 1)) (V c (Pipeline.arrRef spec18 2)) (V c (Pipeline.arrRef spec18 4)) (V c (Pipeline.arrRef spec18 5)) :=
  final18_6 V c

/-- `sigma`, the whole array: the logistic of the new edge feature. -/
theorem arr18_7_eq (c : Dev nD) :
    (dat18 (F := Ideal) V c).arrAt 7 cfg18.N = Cert.KSpec.GedgeSig (V c (Pipeline.arrRef spec18 0)) (V c (Pipeline.arrRef spec18 1)) (V c (Pipeline.arrRef spec18 2)) (V c (Pipeline.arrRef spec18 4)) (V c (Pipeline.arrRef spec18 5)) :=
  final18_7 V c

/-- The gated message `sigma * vh`, the whole array. -/
theorem arr18_8_eq (c : Dev nD) :
    (dat18 (F := Ideal) V c).arrAt 8 cfg18.N = Cert.KSpec.GedgeNum (V c (Pipeline.arrRef spec18 0)) (V c (Pipeline.arrRef spec18 1)) (V c (Pipeline.arrRef spec18 2)) (V c (Pipeline.arrRef spec18 3)) (V c (Pipeline.arrRef spec18 4)) (V c (Pipeline.arrRef spec18 5)) :=
  final18_8 V c

/-- `e_new` at row `r`, column `j`. -/
theorem arr18_6_apply (c : Dev nD) (r : Fin 200000) (j : Fin 128) :
    (dat18 (F := Ideal) V c).arrAt 6 cfg18.N (ix2 r j) = Cert.KSpec.edgeNewAt (V c (Pipeline.arrRef spec18 0)) (V c (Pipeline.arrRef spec18 1)) (V c (Pipeline.arrRef spec18 2)) (V c (Pipeline.arrRef spec18 4)) (V c (Pipeline.arrRef spec18 5)) r j :=
  congrFun (final18_6 V c) (ix2 r j)

/-- `sigma` at row `r`, column `j`. -/
theorem arr18_7_apply (c : Dev nD) (r : Fin 200000) (j : Fin 128) :
    (dat18 (F := Ideal) V c).arrAt 7 cfg18.N (ix2 r j) = Ideal.logistic (Cert.KSpec.edgeNewAt (V c (Pipeline.arrRef spec18 0)) (V c (Pipeline.arrRef spec18 1)) (V c (Pipeline.arrRef spec18 2)) (V c (Pipeline.arrRef spec18 4)) (V c (Pipeline.arrRef spec18 5)) r j) :=
  congrFun (final18_7 V c) (ix2 r j)

/-- The gated message at row `r`, column `j`. -/
theorem arr18_8_apply (c : Dev nD) (r : Fin 200000) (j : Fin 128) :
    (dat18 (F := Ideal) V c).arrAt 8 cfg18.N (ix2 r j) = Cert.KSpec.GedgeNum (V c (Pipeline.arrRef spec18 0)) (V c (Pipeline.arrRef spec18 1)) (V c (Pipeline.arrRef spec18 2)) (V c (Pipeline.arrRef spec18 3)) (V c (Pipeline.arrRef spec18 4)) (V c (Pipeline.arrRef spec18 5)) (ix2 r j) :=
  congrFun (final18_8 V c) (ix2 r j)

end Cert.KernelIdeal.Val

end
-- ==== Proof.Val19.lean ====
import proofs.«425355_j88287347737110_2_alg».proof.Proof.Reg19
import proofs.«425355_j88287347737110_2_alg».proof.Proof.KSpec
import Idealize.ShloMosaic.Lib.Pipeline.Value
import Idealize.ShloMosaic.Lib.ValueIdx
import Idealize.ShloMosaic.Lib.Tactic

/-! The node-update region (custom_call 19), read at the extended reals: after the region the output array holds,
    at every row `r` and column `j`, `uh r j + num r j / (den r j + eps)` of the three input arrays as the region
    finds them. Each grid point writes the row block it reads; the five blocks tile the 25000 rows. -/

set_option maxRecDepth 16384

noncomputable section

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three input arrays as the region finds them, at their literal type: `uh`, the numerator, the denominator. -/
abbrev ent19_0 (c : Dev nD) : S25000x128.Idx → EReal := V c (Pipeline.arrRef spec19 0)
abbrev ent19_1 (c : Dev nD) : S25000x128.Idx → EReal := V c (Pipeline.arrRef spec19 1)
abbrev ent19_2 (c : Dev nD) : S25000x128.Idx → EReal := V c (Pipeline.arrRef spec19 2)

/-- The body's rectangles start at the origin of the staging buffer. -/
theorem origin19 : (![0, 0] : Fin 2 → Nat) = fun _ => 0 := funext fun a => by fin_cases a <;> rfl

/-- The node update of three whole arrays, entry by entry: `uh + num / (den + eps)`, the divisor's constant kept
    as the word the body holds. -/
abbrev nodeArr19 (uh num den : S25000x128.Idx → EReal) : S25000x128.Idx → EReal :=
  fun i => uh i + Ideal.div (num i) (den i + Ideal.ofBits .f32 0x358637BD#32)

/-- The body's payload is that update of its three loaded blocks, entry by entry. -/
theorem pay19_eq (x0 x1 x2 : Vec Ideal S5000x128 .f32) :
    k19_pay1 x0 x1 x2 = fun y => x0 y + Ideal.div (x1 y) (x2 y + Ideal.ofBits .f32 0x358637BD#32) := by
  unfold k19_pay1
  simp only [shapeCast_self]
  rfl

/-- So is what the body leaves in the output's staging buffer: its one store takes the whole buffer. -/
theorem out19_3_eq (x0 x1 x2 : Vec Ideal S5000x128 .f32) :
    out19_3 x0 x1 x2 = fun y => x0 y + Ideal.div (x1 y) (x2 y + Ideal.ofBits .f32 0x358637BD#32) := by
  unfold out19_3
  rw [View.canon_unit_zero origin19]
  simp only [View.ld_unit_zero (S := S5000x128) origin19]
  exact pay19_eq x0 x1 x2

/-- The printed index maps, decided over the grid: at point `t` every window is on row block `t`, column block 0. -/
theorem idx_facts19 : ∀ t : Fin cfg19.N,
    win19_0.index t (0 : Fin 2) = t.val ∧ win19_0.index t (1 : Fin 2) = 0
    ∧ win19_1.index t (0 : Fin 2) = t.val ∧ win19_1.index t (1 : Fin 2) = 0
    ∧ win19_2.index t (0 : Fin 2) = t.val ∧ win19_2.index t (1 : Fin 2) = 0
    ∧ win19_3.index t (0 : Fin 2) = t.val ∧ win19_3.index t (1 : Fin 2) = 0 :=
  (by decide +kernel : ∀ t : Fin grid19.N, _)

/-- A block's entry is the array's entry at row `5000 t + y 0`, column `y 1`: the four windows' blocks at a
    point sit at the same place of their arrays. -/
theorem emb19_eq (t : Fin cfg19.N) (j : S5000x128.Idx) :
    ((cfg19.win 0).blk t).view.emb j = ((cfg19.win 3).blk t).view.emb j
    ∧ ((cfg19.win 1).blk t).view.emb j = ((cfg19.win 3).blk t).view.emb j
    ∧ ((cfg19.win 2).blk t).view.emb j = ((cfg19.win 3).blk t).view.emb j := by
  obtain ⟨e00, e01, e10, e11, e20, e21, e30, e31⟩ := idx_facts19 t
  refine ⟨?_, ?_, ?_⟩
  · funext a; apply Fin.ext
    match a with
    | ⟨0, _⟩ => show win19_0.index t (0 : Fin 2) * 5000 + 1 * (j 0).val = win19_3.index t (0 : Fin 2) * 5000 + 1 * (j 0).val; omega
    | ⟨1, _⟩ => show win19_0.index t (1 : Fin 2) * 128 + 1 * (j 1).val = win19_3.index t (1 : Fin 2) * 128 + 1 * (j 1).val; omega
  · funext a; apply Fin.ext
    match a with
    | ⟨0, _⟩ => show win19_1.index t (0 : Fin 2) * 5000 + 1 * (j 0).val = win19_3.index t (0 : Fin 2) * 5000 + 1 * (j 0).val; omega
    | ⟨1, _⟩ => show win19_1.index t (1 : Fin 2) * 128 + 1 * (j 1).val = win19_3.index t (1 : Fin 2) * 128 + 1 * (j 1).val; omega
  · funext a; apply Fin.ext
    match a with
    | ⟨0, _⟩ => show win19_2.index t (0 : Fin 2) * 5000 + 1 * (j 0).val = win19_3.index t (0 : Fin 2) * 5000 + 1 * (j 0).val; omega
    | ⟨1, _⟩ => show win19_2.index t (1 : Fin 2) * 128 + 1 * (j 1).val = win19_3.index t (1 : Fin 2) * 128 + 1 * (j 1).val; omega

/-- What point `t` writes back is block `t` of the node update of the three input arrays as the region finds them. -/
theorem flushed19_3_eq (c : Dev nD) (t : Fin cfg19.N) :
    (dat19 V c).flushed 3 t = ((cfg19.win 3).blk t).view.read (Elt Ideal)
      (nodeArr19 (ent19_0 V c) (ent19_1 V c) (ent19_2 V c)) := by
  show (cfg19.win 3).cut (grid19.coords t) ((dat19 V c).after 3 t) = _
  rw [after19_3]
  refine (congrArg ((cfg19.win 3).cut (grid19.coords t)) (out19_3_eq (iblk19 V c 0 t) (iblk19 V c 1 t) (iblk19 V c 2 t))).trans ?_
  funext j
  obtain ⟨h0, h1, h2⟩ := emb19_eq t j
  show ent19_0 V c (((cfg19.win 0).blk t).view.emb j)
      + Ideal.div (ent19_1 V c (((cfg19.win 1).blk t).view.emb j))
          (ent19_2 V c (((cfg19.win 2).blk t).view.emb j) + Ideal.ofBits .f32 0x358637BD#32)
    = ent19_0 V c (((cfg19.win 3).blk t).view.emb j)
      + Ideal.div (ent19_1 V c (((cfg19.win 3).blk t).view.emb j))
          (ent19_2 V c (((cfg19.win 3).blk t).view.emb j) + Ideal.ofBits .f32 0x358637BD#32)
  rw [h0, h1, h2]

/-- An index of the output array is in point `t`'s block iff each coordinate is in the block's range on its axis. -/
theorem mem_blk19_3 (t : Fin cfg19.N) (i : S25000x128.Idx) :
    i ∈ ((cfg19.win 3).blk t).view.set ↔ ∀ a : Fin 2, win19_3.index t a * S5000x128.size a ≤ (i a).val ∧ (i a).val < win19_3.index t a * S5000x128.size a + S5000x128.size a := by
  show i ∈ ((View.whole main_v460).slice (win19_3.rect t)).set ↔ _
  rw [View.set_slice_whole, Rect.mem_set_unit]
  exact Iff.rfl

/-- Every index of the output array is in some point's block: row `r` is in row block `r / 5000`. -/
theorem cover19_3_arr (i : S25000x128.Idx) :
    ∃ t : Fin cfg19.N, (cfg19.win 3).flush t = true ∧ i ∈ ((cfg19.win 3).blk t).view.set := by
  have hi0 : (i 0).val < 25000 := (i 0).isLt
  have hi1 : (i 1).val < 128 := (i 1).isLt
  have hN : cfg19.N = 5 := N_19
  obtain ⟨t, ht⟩ : ∃ t : Fin cfg19.N, t.val = (i 0).val / 5000 := ⟨⟨(i 0).val / 5000, by rw [hN]; omega⟩, rfl⟩
  obtain ⟨e00, e01, e10, e11, e20, e21, e30, e31⟩ := idx_facts19 t
  refine ⟨t, flush19_3 t, ?_⟩
  rw [mem_blk19_3]
  intro a
  match a with
  | ⟨0, _⟩ => show win19_3.index t (0 : Fin 2) * 5000 ≤ (i 0).val ∧ (i 0).val < win19_3.index t (0 : Fin 2) * 5000 + 5000; omega
  | ⟨1, _⟩ => show win19_3.index t (1 : Fin 2) * 128 ≤ (i 1).val ∧ (i 1).val < win19_3.index t (1 : Fin 2) * 128 + 128; omega

/-- The output array after the region is the node update of the three input arrays. -/
theorem arr19_3_node (c : Dev nD) :
    (dat19 V c).arrAt 3 cfg19.N = nodeArr19 (ent19_0 V c) (ent19_1 V c) (ent19_2 V c) :=
  (dat19 V c).arrAt_eq_of_cover 3 _ (fun t _ => flushed19_3_eq V c t) cover19_3_arr

/-- The output array after the region, index by index. -/
theorem arr19_3_apply (c : Dev nD) (r : Fin 25000) (j : Fin 128) :
    (dat19 (F := Ideal) V c).arrAt 3 cfg19.N (ValueIdx.ix2 r j)
      = ent19_0 V c (ValueIdx.ix2 r j)
        + Ideal.div (ent19_1 V c (ValueIdx.ix2 r j)) (ent19_2 V c (ValueIdx.ix2 r j) + Ideal.ofBits .f32 0x358637BD#32) :=
  congrFun (arr19_3_node V c) (ValueIdx.ix2 r j)

/-- The same as one whole-array function of the three input arrays. -/
theorem arr19_3_eq (c : Dev nD) :
    (dat19 (F := Ideal) V c).arrAt 3 cfg19.N
      = Cert.KSpec.Gnode (V c (Pipeline.arrRef spec19 0)) (V c (Pipeline.arrRef spec19 1)) (V c (Pipeline.arrRef spec19 2)) :=
  arr19_3_node V c

end Cert.KernelIdeal.Val
-- ==== Proof.Val20.lean ====
import proofs.«425355_j88287347737110_2_alg».proof.Proof.Reg20
import proofs.«425355_j88287347737110_2_alg».proof.Proof.KSpec
import Idealize.ShloMosaic.Lib.Pipeline.Value
import Idealize.ShloMosaic.Lib.ValueLayout
import Idealize.ShloMosaic.Lib.ValueIdx
import Idealize.ShloMosaic.PureOps.Ideal.Laws

/-! # Region 20 at the extended reals: the output array, index by index

After the region the output array holds, at row `r` and lane `j`,
`orig r j + max (((val r j - mean j) * rsqrt (var j + ε)) * scale j + shift j) 0`
of the six input arrays as the region finds them. The payload is read at one index, each input block is read
off its array, each point's written-back block is identified with that block of one function of the arrays,
and the blocks of 5000 rows tile the 25000 rows. -/

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The six input arrays as the region finds them, over the extended reals -/

/-- The value to normalise. -/
abbrev val20 (c : Dev nD) : S25000x128.Idx → EReal := V c (Pipeline.arrRef spec20 0)
/-- The residual. -/
abbrev orig20 (c : Dev nD) : S25000x128.Idx → EReal := V c (Pipeline.arrRef spec20 1)
/-- The mean row. -/
abbrev mean20 (c : Dev nD) : S1x128.Idx → EReal := V c (Pipeline.arrRef spec20 2)
/-- The variance row. -/
abbrev var20 (c : Dev nD) : S1x128.Idx → EReal := V c (Pipeline.arrRef spec20 3)
/-- The scale row. -/
abbrev scale20 (c : Dev nD) : S1x128.Idx → EReal := V c (Pipeline.arrRef spec20 4)
/-- The shift row. -/
abbrev shift20 (c : Dev nD) : S1x128.Idx → EReal := V c (Pipeline.arrRef spec20 5)

/-! ## The payload at one index -/

/-- The stored value at row `p`, lane `q` of the block: the residual plus the rectified, scaled and shifted
    normalisation of the value, the four rows read at lane `q`. -/
theorem pay20_apply (v0 : Vec Ideal S5000x128 .f32) (v2 v6 v13 v17 : Vec Ideal S1x128 .f32) (v21 : Vec Ideal S5000x128 .f32)
    (p : Fin 5000) (q : Fin 128) :
    k20_pay1 v0 v2 v6 v13 v17 v21 (ix2 p q) =
      v21 (ix2 p q) + max (((v0 (ix2 p q) - v2 (ix2 (0 : Fin 1) q)) * Ideal.rsqrt (v6 (ix2 (0 : Fin 1) q) + Ideal.ofBits .f32 0x3727C5AC#32))
        * v13 (ix2 (0 : Fin 1) q) + v17 (ix2 (0 : Fin 1) q)) 0 := by
  unfold k20_pay1
  simp only [shapeCast_self]
  rw [addf_apply, maximumf_apply, addf_apply, mulf_apply, mulf_apply, subf_apply, broadcast_apply]
  simp only [broadcastTo_1b_ab_apply]
  simp only [Ideal.ofBits_def, Ideal.ofBits_zero_f32]
  rfl

/-! ## The blocks, read off the arrays -/

theorem hz20 : (![0, 0] : Fin 2 → Nat) = fun _ => 0 := funext fun a => by fin_cases a <;> rfl

/-- The index maps, decided over the grid: the two streamed inputs and the output are at block row `t`, the four
    one-row inputs at block 0. -/
theorem idx_facts20 : ∀ t : Fin cfg20.N,
    win20_0.index t (0 : Fin 2) = t.val ∧ win20_0.index t (1 : Fin 2) = 0
    ∧ win20_1.index t (0 : Fin 2) = t.val ∧ win20_1.index t (1 : Fin 2) = 0
    ∧ win20_2.index t (0 : Fin 2) = 0 ∧ win20_2.index t (1 : Fin 2) = 0
    ∧ win20_3.index t (0 : Fin 2) = 0 ∧ win20_3.index t (1 : Fin 2) = 0
    ∧ win20_4.index t (0 : Fin 2) = 0 ∧ win20_4.index t (1 : Fin 2) = 0
    ∧ win20_5.index t (0 : Fin 2) = 0 ∧ win20_5.index t (1 : Fin 2) = 0
    ∧ win20_6.index t (0 : Fin 2) = t.val ∧ win20_6.index t (1 : Fin 2) = 0 :=
  (by decide +kernel : ∀ t : Fin grid20.N, _)

/-- The array row of row `p` of block `t`. -/
def row20 (t : Fin cfg20.N) (p : Fin 5000) : Fin 25000 :=
  ⟨t.val * 5000 + p.val, by have ht : t.val < 5 := lt_of_lt_of_eq t.isLt N_20; have hp := p.isLt; omega⟩

/-- Window 0's block at point `t`, at row `p`, lane `q`: the array at row `t · 5000 + p`. -/
theorem blk20_0_apply (c : Dev nD) (t : Fin cfg20.N) (p : Fin 5000) (q : Fin 128) :
    (iblk20 V c 0 t : Vec Ideal S5000x128 .f32) (ix2 p q) = val20 V c (ix2 (row20 t p) q) := by
  obtain ⟨e00, e01, e10, e11, e20, e21, e30, e31, e40, e41, e50, e51, e60, e61⟩ := idx_facts20 t
  show val20 V c (((cfg20.win 0).blk t).view.emb (ix2 p q)) = _
  refine congrArg (val20 V c) ?_
  funext a; apply Fin.ext
  match a with
  | ⟨0, _⟩ => show win20_0.index t (0 : Fin 2) * 5000 + 1 * p.val = t.val * 5000 + p.val; omega
  | ⟨1, _⟩ => show win20_0.index t (1 : Fin 2) * 128 + 1 * q.val = q.val; omega

/-- Window 1's block at point `t`, at row `p`, lane `q`: the array at row `t · 5000 + p`. -/
theorem blk20_1_apply (c : Dev nD) (t : Fin cfg20.N) (p : Fin 5000) (q : Fin 128) :
    (iblk20 V c 1 t : Vec Ideal S5000x128 .f32) (ix2 p q) = orig20 V c (ix2 (row20 t p) q) := by
  obtain ⟨e00, e01, e10, e11, e20, e21, e30, e31, e40, e41, e50, e51, e60, e61⟩ := idx_facts20 t
  show orig20 V c (((cfg20.win 1).blk t).view.emb (ix2 p q)) = _
  refine congrArg (orig20 V c) ?_
  funext a; apply Fin.ext
  match a with
  | ⟨0, _⟩ => show win20_1.index t (0 : Fin 2) * 5000 + 1 * p.val = t.val * 5000 + p.val; omega
  | ⟨1, _⟩ => show win20_1.index t (1 : Fin 2) * 128 + 1 * q.val = q.val; omega

/-- Window 2's block at any point is the whole one-row array. -/
theorem blk20_2_apply (c : Dev nD) (t : Fin cfg20.N) (q : Fin 128) :
    (iblk20 V c 2 t : Vec Ideal S1x128 .f32) (ix2 (0 : Fin 1) q) = mean20 V c (ix2 (0 : Fin 1) q) := by
  obtain ⟨e00, e01, e10, e11, e20, e21, e30, e31, e40, e41, e50, e51, e60, e61⟩ := idx_facts20 t
  show mean20 V c (((cfg20.win 2).blk t).view.emb (ix2 (0 : Fin 1) q)) = _
  refine congrArg (mean20 V c) ?_
  funext a; apply Fin.ext
  match a with
  | ⟨0, _⟩ => show win20_2.index t (0 : Fin 2) * 1 + 1 * 0 = 0; omega
  | ⟨1, _⟩ => show win20_2.index t (1 : Fin 2) * 128 + 1 * q.val = q.val; omega

/-- Window 3's block at any point is the whole one-row array. -/
theorem blk20_3_apply (c : Dev nD) (t : Fin cfg20.N) (q : Fin 128) :
    (iblk20 V c 3 t : Vec Ideal S1x128 .f32) (ix2 (0 : Fin 1) q) = var20 V c (ix2 (0 : Fin 1) q) := by
  obtain ⟨e00, e01, e10, e11, e20, e21, e30, e31, e40, e41, e50, e51, e60, e61⟩ := idx_facts20 t
  show var20 V c (((cfg20.win 3).blk t).view.emb (ix2 (0 : Fin 1) q)) = _
  refine congrArg (var20 V c) ?_
  funext a; apply Fin.ext
  match a with
  | ⟨0, _⟩ => show win20_3.index t (0 : Fin 2) * 1 + 1 * 0 = 0; omega
  | ⟨1, _⟩ => show win20_3.index t (1 : Fin 2) * 128 + 1 * q.val = q.val; omega

/-- Window 4's block at any point is the whole one-row array. -/
theorem blk20_4_apply (c : Dev nD) (t : Fin cfg20.N) (q : Fin 128) :
    (iblk20 V c 4 t : Vec Ideal S1x128 .f32) (ix2 (0 : Fin 1) q) = scale20 V c (ix2 (0 : Fin 1) q) := by
  obtain ⟨e00, e01, e10, e11, e20, e21, e30, e31, e40, e41, e50, e51, e60, e61⟩ := idx_facts20 t
  show scale20 V c (((cfg20.win 4).blk t).view.emb (ix2 (0 : Fin 1) q)) = _
  refine congrArg (scale20 V c) ?_
  funext a; apply Fin.ext
  match a with
  | ⟨0, _⟩ => show win20_4.index t (0 : Fin 2) * 1 + 1 * 0 = 0; omega
  | ⟨1, _⟩ => show win20_4.index t (1 : Fin 2) * 128 + 1 * q.val = q.val; omega

/-- Window 5's block at any point is the whole one-row array. -/
theorem blk20_5_apply (c : Dev nD) (t : Fin cfg20.N) (q : Fin 128) :
    (iblk20 V c 5 t : Vec Ideal S1x128 .f32) (ix2 (0 : Fin 1) q) = shift20 V c (ix2 (0 : Fin 1) q) := by
  obtain ⟨e00, e01, e10, e11, e20, e21, e30, e31, e40, e41, e50, e51, e60, e61⟩ := idx_facts20 t
  show shift20 V c (((cfg20.win 5).blk t).view.emb (ix2 (0 : Fin 1) q)) = _
  refine congrArg (shift20 V c) ?_
  funext a; apply Fin.ext
  match a with
  | ⟨0, _⟩ => show win20_5.index t (0 : Fin 2) * 1 + 1 * 0 = 0; omega
  | ⟨1, _⟩ => show win20_5.index t (1 : Fin 2) * 128 + 1 * q.val = q.val; omega

/-- The output window's block at point `t` sits at the same rows of its array. -/
theorem emb20_6 (t : Fin cfg20.N) (p : Fin 5000) (q : Fin 128) :
    ((cfg20.win 6).blk t).view.emb (ix2 p q) = (ix2 (row20 t p) q : S25000x128.Idx) := by
  obtain ⟨e00, e01, e10, e11, e20, e21, e30, e31, e40, e41, e50, e51, e60, e61⟩ := idx_facts20 t
  funext a; apply Fin.ext
  match a with
  | ⟨0, _⟩ => show win20_6.index t (0 : Fin 2) * 5000 + 1 * p.val = t.val * 5000 + p.val; omega
  | ⟨1, _⟩ => show win20_6.index t (1 : Fin 2) * 128 + 1 * q.val = q.val; omega

/-! ## From the blocks to the array -/

/-- What point `t` writes back is block `t` of the specification's array function of the six arrays. -/
theorem flushed20_6_eq (c : Dev nD) (t : Fin cfg20.N) :
    (dat20 (F := Ideal) V c).flushed 6 t = ((cfg20.win 6).blk t).view.read (Elt Ideal)
      (Cert.KSpec.GbnN (val20 V c) (orig20 V c) (mean20 V c) (var20 V c) (scale20 V c) (shift20 V c)) := by
  show (cfg20.win 6).cut (grid20.coords t) ((dat20 V c).after 6 t) = _
  rw [after20_6]
  unfold out20_6
  rw [View.canon_unit_zero hz20]
  simp only [View.ld_unit_zero (S := S5000x128) hz20, View.ld_unit_zero (S := S1x128) hz20]
  funext y
  obtain ⟨p, q, rfl⟩ : ∃ (p : Fin 5000) (q : Fin 128), y = ix2 p q := ⟨y 0, y 1, eq_ix2 y⟩
  show k20_pay1 (iblk20 V c 0 t) (iblk20 V c 2 t) (iblk20 V c 3 t) (iblk20 V c 4 t) (iblk20 V c 5 t) (iblk20 V c 1 t) (ix2 p q)
    = Cert.KSpec.GbnN (val20 V c) (orig20 V c) (mean20 V c) (var20 V c) (scale20 V c) (shift20 V c) (((cfg20.win 6).blk t).view.emb (ix2 p q))
  refine (pay20_apply (iblk20 V c 0 t) (iblk20 V c 2 t) (iblk20 V c 3 t) (iblk20 V c 4 t) (iblk20 V c 5 t) (iblk20 V c 1 t) p q).trans ?_
  rw [blk20_0_apply, blk20_1_apply, blk20_2_apply, blk20_3_apply, blk20_4_apply, blk20_5_apply, emb20_6]
  rfl

/-- An index of the array is in point `t`'s block iff each coordinate is in the block's range on its axis. -/
theorem mem_blk20_6 (t : Fin cfg20.N) (i : S25000x128.Idx) :
    i ∈ ((cfg20.win 6).blk t).view.set ↔ ∀ a : Fin 2, win20_6.index t a * S5000x128.size a ≤ (i a).val ∧ (i a).val < win20_6.index t a * S5000x128.size a + S5000x128.size a := by
  show i ∈ ((View.whole (Pipeline.arrRef spec20 6)).slice (win20_6.rect t)).set ↔ _
  rw [View.set_slice_whole, Rect.mem_set_unit]
  exact Iff.rfl

/-- Every index of the array is in some point's block: row `r` is in block `r / 5000`. -/
theorem cover20_6_arr (i : S25000x128.Idx) : ∃ t : Fin cfg20.N, (cfg20.win 6).flush t = true ∧ i ∈ ((cfg20.win 6).blk t).view.set := by
  have hi0 : (i 0).val < 25000 := (i 0).isLt
  have hi1 : (i 1).val < 128 := (i 1).isLt
  have hlt : (i 0).val / 5000 < 5 := by omega
  refine ⟨⟨(i 0).val / 5000, lt_of_lt_of_eq hlt N_20.symm⟩, flush20_6 _, ?_⟩
  rw [mem_blk20_6]
  obtain ⟨e00, e01, e10, e11, e20, e21, e30, e31, e40, e41, e50, e51, e60, e61⟩ := idx_facts20 ⟨(i 0).val / 5000, lt_of_lt_of_eq hlt N_20.symm⟩
  intro a
  match a with
  | ⟨0, _⟩ => show win20_6.index _ (0 : Fin 2) * 5000 ≤ (i 0).val ∧ (i 0).val < win20_6.index _ (0 : Fin 2) * 5000 + 5000; rw [e60]; show (i 0).val / 5000 * 5000 ≤ _ ∧ _ < (i 0).val / 5000 * 5000 + 5000; omega
  | ⟨1, _⟩ => show win20_6.index _ (1 : Fin 2) * 128 ≤ (i 1).val ∧ (i 1).val < win20_6.index _ (1 : Fin 2) * 128 + 128; rw [e61]; omega

/-- The output array after the region is the specification's array function of the six arrays as the region
    finds them. -/
theorem arr20_6_eq (c : Dev nD) : (dat20 (F := Ideal) V c).arrAt 6 cfg20.N =
    Cert.KSpec.GbnN (V c (Pipeline.arrRef spec20 0)) (V c (Pipeline.arrRef spec20 1)) (V c (Pipeline.arrRef spec20 2)) (V c (Pipeline.arrRef spec20 3)) (V c (Pipeline.arrRef spec20 4)) (V c (Pipeline.arrRef spec20 5)) :=
  (dat20 (F := Ideal) V c).arrAt_eq_of_cover 6 (Cert.KSpec.GbnN (val20 V c) (orig20 V c) (mean20 V c) (var20 V c) (scale20 V c) (shift20 V c)) (fun t _ => flushed20_6_eq V c t) cover20_6_arr

/-- The output array after the region, index by index. -/
theorem arr20_6_apply (c : Dev nD) (r : Fin 25000) (j : Fin 128) :
    ((dat20 (F := Ideal) V c).arrAt 6 cfg20.N : S25000x128.Idx → EReal) (ix2 r j) =
      orig20 V c (ix2 r j)
        + max (((val20 V c (ix2 r j) - mean20 V c (ix2 (0 : Fin 1) j))
              * Ideal.rsqrt (var20 V c (ix2 (0 : Fin 1) j) + Ideal.ofBits .f32 0x3727C5AC#32))
              * scale20 V c (ix2 (0 : Fin 1) j) + shift20 V c (ix2 (0 : Fin 1) j)) 0 := by
  rw [arr20_6_eq]
  rfl

end Cert.KernelIdeal.Val
-- ==== Proof.Val21.lean ====
import proofs.«425355_j88287347737110_2_alg».proof.Proof.Reg21
import proofs.«425355_j88287347737110_2_alg».proof.Proof.KSpec
import Idealize.ShloMosaic.Lib.Pipeline.Value
import Idealize.ShloMosaic.Lib.ValueLayout
import Idealize.ShloMosaic.Lib.ValueIdx
import Idealize.ShloMosaic.PureOps.Ideal.Laws

/-! # Region 21 at the extended reals: the output array, index by index

After the region the output array holds, at row `r` and lane `j`,
`orig r j + max (((val r j - mean j) * rsqrt (var j + ε)) * scale j + shift j) 0`
of the six input arrays as the region finds them. The payload is read at one index, each input block is read
off its array, each point's written-back block is identified with that block of one function of the arrays,
and the blocks of 4000 rows tile the 200000 rows. -/

noncomputable section

namespace Cert.KernelIdeal.Val

open Cert.KernelIdeal Cert.KernelIdeal.Gen Cert.KernelIdeal.Reg
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The six input arrays as the region finds them, over the extended reals -/

/-- The value to normalise. -/
abbrev val21 (c : Dev nD) : S200000x128.Idx → EReal := V c (Pipeline.arrRef spec21 0)
/-- The residual. -/
abbrev orig21 (c : Dev nD) : S200000x128.Idx → EReal := V c (Pipeline.arrRef spec21 1)
/-- The mean row. -/
abbrev mean21 (c : Dev nD) : S1x128.Idx → EReal := V c (Pipeline.arrRef spec21 2)
/-- The variance row. -/
abbrev var21 (c : Dev nD) : S1x128.Idx → EReal := V c (Pipeline.arrRef spec21 3)
/-- The scale row. -/
abbrev scale21 (c : Dev nD) : S1x128.Idx → EReal := V c (Pipeline.arrRef spec21 4)
/-- The shift row. -/
abbrev shift21 (c : Dev nD) : S1x128.Idx → EReal := V c (Pipeline.arrRef spec21 5)

/-! ## The payload at one index -/

/-- The stored value at row `p`, lane `q` of the block: the residual plus the rectified, scaled and shifted
    normalisation of the value, the four rows read at lane `q`. -/
theorem pay21_apply (v0 : Vec Ideal S4000x128 .f32) (v2 v6 v13 v17 : Vec Ideal S1x128 .f32) (v21 : Vec Ideal S4000x128 .f32)
    (p : Fin 4000) (q : Fin 128) :
    k21_pay1 v0 v2 v6 v13 v17 v21 (ix2 p q) =
      v21 (ix2 p q) + max (((v0 (ix2 p q) - v2 (ix2 (0 : Fin 1) q)) * Ideal.rsqrt (v6 (ix2 (0 : Fin 1) q) + Ideal.ofBits .f32 0x3727C5AC#32))
        * v13 (ix2 (0 : Fin 1) q) + v17 (ix2 (0 : Fin 1) q)) 0 := by
  unfold k21_pay1
  simp only [shapeCast_self]
  rw [addf_apply, maximumf_apply, addf_apply, mulf_apply, mulf_apply, subf_apply, broadcast_apply]
  simp only [broadcastTo_1b_ab_apply]
  simp only [Ideal.ofBits_def, Ideal.ofBits_zero_f32]
  rfl

/-! ## The blocks, read off the arrays -/

theorem hz21 : (![0, 0] : Fin 2 → Nat) = fun _ => 0 := funext fun a => by fin_cases a <;> rfl

/-- The index maps, decided over the grid: the two streamed inputs and the output are at block row `t`, the four
    one-row inputs at block 0. -/
theorem idx_facts21 : ∀ t : Fin cfg21.N,
    win21_0.index t (0 : Fin 2) = t.val ∧ win21_0.index t (1 : Fin 2) = 0
    ∧ win21_1.index t (0 : Fin 2) = t.val ∧ win21_1.index t (1 : Fin 2) = 0
    ∧ win21_2.index t (0 : Fin 2) = 0 ∧ win21_2.index t (1 : Fin 2) = 0
    ∧ win21_3.index t (0 : Fin 2) = 0 ∧ win21_3.index t (1 : Fin 2) = 0
    ∧ win21_4.index t (0 : Fin 2) = 0 ∧ win21_4.index t (1 : Fin 2) = 0
    ∧ win21_5.index t (0 : Fin 2) = 0 ∧ win21_5.index t (1 : Fin 2) = 0
    ∧ win21_6.index t (0 : Fin 2) = t.val ∧ win21_6.index t (1 : Fin 2) = 0 :=
  (by decide +kernel : ∀ t : Fin grid21.N, _)

/-- The array row of row `p` of block `t`. -/
def row21 (t : Fin cfg21.N) (p : Fin 4000) : Fin 200000 :=
  ⟨t.val * 4000 + p.val, by have ht : t.val < 50 := lt_of_lt_of_eq t.isLt N_21; have hp := p.isLt; omega⟩

/-- Window 0's block at point `t`, at row `p`, lane `q`: the array at row `t · 4000 + p`. -/
theorem blk21_0_apply (c : Dev nD) (t : Fin cfg21.N) (p : Fin 4000) (q : Fin 128) :
    (iblk21 V c 0 t : Vec Ideal S4000x128 .f32) (ix2 p q) = val21 V c (ix2 (row21 t p) q) := by
  obtain ⟨e00, e01, e10, e11, e20, e21, e30, e31, e40, e41, e50, e51, e60, e61⟩ := idx_facts21 t
  show val21 V c (((cfg21.win 0).blk t).view.emb (ix2 p q)) = _
  refine congrArg (val21 V c) ?_
  funext a; apply Fin.ext
  match a with
  | ⟨0, _⟩ => show win21_0.index t (0 : Fin 2) * 4000 + 1 * p.val = t.val * 4000 + p.val; omega
  | ⟨1, _⟩ => show win21_0.index t (1 : Fin 2) * 128 + 1 * q.val = q.val; omega

/-- Window 1's block at point `t`, at row `p`, lane `q`: the array at row `t · 4000 + p`. -/
theorem blk21_1_apply (c : Dev nD) (t : Fin cfg21.N) (p : Fin 4000) (q : Fin 128) :
    (iblk21 V c 1 t : Vec Ideal S4000x128 .f32) (ix2 p q) = orig21 V c (ix2 (row21 t p) q) := by
  obtain ⟨e00, e01, e10, e11, e20, e21, e30, e31, e40, e41, e50, e51, e60, e61⟩ := idx_facts21 t
  show orig21 V c (((cfg21.win 1).blk t).view.emb (ix2 p q)) = _
  refine congrArg (orig21 V c) ?_
  funext a; apply Fin.ext
  match a with
  | ⟨0, _⟩ => show win21_1.index t (0 : Fin 2) * 4000 + 1 * p.val = t.val * 4000 + p.val; omega
  | ⟨1, _⟩ => show win21_1.index t (1 : Fin 2) * 128 + 1 * q.val = q.val; omega

/-- Window 2's block at any point is the whole one-row array. -/
theorem blk21_2_apply (c : Dev nD) (t : Fin cfg21.N) (q : Fin 128) :
    (iblk21 V c 2 t : Vec Ideal S1x128 .f32) (ix2 (0 : Fin 1) q) = mean21 V c (ix2 (0 : Fin 1) q) := by
  obtain ⟨e00, e01, e10, e11, e20, e21, e30, e31, e40, e41, e50, e51, e60, e61⟩ := idx_facts21 t
  show mean21 V c (((cfg21.win 2).blk t).view.emb (ix2 (0 : Fin 1) q)) = _
  refine congrArg (mean21 V c) ?_
  funext a; apply Fin.ext
  match a with
  | ⟨0, _⟩ => show win21_2.index t (0 : Fin 2) * 1 + 1 * 0 = 0; omega
  | ⟨1, _⟩ => show win21_2.index t (1 : Fin 2) * 128 + 1 * q.val = q.val; omega

/-- Window 3's block at any point is the whole one-row array. -/
theorem blk21_3_apply (c : Dev nD) (t : Fin cfg21.N) (q : Fin 128) :
    (iblk21 V c 3 t : Vec Ideal S1x128 .f32) (ix2 (0 : Fin 1) q) = var21 V c (ix2 (0 : Fin 1) q) := by
  obtain ⟨e00, e01, e10, e11, e20, e21, e30, e31, e40, e41, e50, e51, e60, e61⟩ := idx_facts21 t
  show var21 V c (((cfg21.win 3).blk t).view.emb (ix2 (0 : Fin 1) q)) = _
  refine congrArg (var21 V c) ?_
  funext a; apply Fin.ext
  match a with
  | ⟨0, _⟩ => show win21_3.index t (0 : Fin 2) * 1 + 1 * 0 = 0; omega
  | ⟨1, _⟩ => show win21_3.index t (1 : Fin 2) * 128 + 1 * q.val = q.val; omega

/-- Window 4's block at any point is the whole one-row array. -/
theorem blk21_4_apply (c : Dev nD) (t : Fin cfg21.N) (q : Fin 128) :
    (iblk21 V c 4 t : Vec Ideal S1x128 .f32) (ix2 (0 : Fin 1) q) = scale21 V c (ix2 (0 : Fin 1) q) := by
  obtain ⟨e00, e01, e10, e11, e20, e21, e30, e31, e40, e41, e50, e51, e60, e61⟩ := idx_facts21 t
  show scale21 V c (((cfg21.win 4).blk t).view.emb (ix2 (0 : Fin 1) q)) = _
  refine congrArg (scale21 V c) ?_
  funext a; apply Fin.ext
  match a with
  | ⟨0, _⟩ => show win21_4.index t (0 : Fin 2) * 1 + 1 * 0 = 0; omega
  | ⟨1, _⟩ => show win21_4.index t (1 : Fin 2) * 128 + 1 * q.val = q.val; omega

/-- Window 5's block at any point is the whole one-row array. -/
theorem blk21_5_apply (c : Dev nD) (t : Fin cfg21.N) (q : Fin 128) :
    (iblk21 V c 5 t : Vec Ideal S1x128 .f32) (ix2 (0 : Fin 1) q) = shift21 V c (ix2 (0 : Fin 1) q) := by
  obtain ⟨e00, e01, e10, e11, e20, e21, e30, e31, e40, e41, e50, e51, e60, e61⟩ := idx_facts21 t
  show shift21 V c (((cfg21.win 5).blk t).view.emb (ix2 (0 : Fin 1) q)) = _
  refine congrArg (shift21 V c) ?_
  funext a; apply Fin.ext
  match a with
  | ⟨0, _⟩ => show win21_5.index t (0 : Fin 2) * 1 + 1 * 0 = 0; omega
  | ⟨1, _⟩ => show win21_5.index t (1 : Fin 2) * 128 + 1 * q.val = q.val; omega

/-- The output window's block at point `t` sits at the same rows of its array. -/
theorem emb21_6 (t : Fin cfg21.N) (p : Fin 4000) (q : Fin 128) :
    ((cfg21.win 6).blk t).view.emb (ix2 p q) = (ix2 (row21 t p) q : S200000x128.Idx) := by
  obtain ⟨e00, e01, e10, e11, e20, e21, e30, e31, e40, e41, e50, e51, e60, e61⟩ := idx_facts21 t
  funext a; apply Fin.ext
  match a with
  | ⟨0, _⟩ => show win21_6.index t (0 : Fin 2) * 4000 + 1 * p.val = t.val * 4000 + p.val; omega
  | ⟨1, _⟩ => show win21_6.index t (1 : Fin 2) * 128 + 1 * q.val = q.val; omega

/-! ## From the blocks to the array -/

/-- What point `t` writes back is block `t` of the specification's array function of the six arrays. -/
theorem flushed21_6_eq (c : Dev nD) (t : Fin cfg21.N) :
    (dat21 (F := Ideal) V c).flushed 6 t = ((cfg21.win 6).blk t).view.read (Elt Ideal)
      (Cert.KSpec.GbnE (val21 V c) (orig21 V c) (mean21 V c) (var21 V c) (scale21 V c) (shift21 V c)) := by
  show (cfg21.win 6).cut (grid21.coords t) ((dat21 V c).after 6 t) = _
  rw [after21_6]
  unfold out21_6
  rw [View.canon_unit_zero hz21]
  simp only [View.ld_unit_zero (S := S4000x128) hz21, View.ld_unit_zero (S := S1x128) hz21]
  funext y
  obtain ⟨p, q, rfl⟩ : ∃ (p : Fin 4000) (q : Fin 128), y = ix2 p q := ⟨y 0, y 1, eq_ix2 y⟩
  show k21_pay1 (iblk21 V c 0 t) (iblk21 V c 2 t) (iblk21 V c 3 t) (iblk21 V c 4 t) (iblk21 V c 5 t) (iblk21 V c 1 t) (ix2 p q)
    = Cert.KSpec.GbnE (val21 V c) (orig21 V c) (mean21 V c) (var21 V c) (scale21 V c) (shift21 V c) (((cfg21.win 6).blk t).view.emb (ix2 p q))
  refine (pay21_apply (iblk21 V c 0 t) (iblk21 V c 2 t) (iblk21 V c 3 t) (iblk21 V c 4 t) (iblk21 V c 5 t) (iblk21 V c 1 t) p q).trans ?_
  rw [blk21_0_apply, blk21_1_apply, blk21_2_apply, blk21_3_apply, blk21_4_apply, blk21_5_apply, emb21_6]
  rfl

/-- An index of the array is in point `t`'s block iff each coordinate is in the block's range on its axis. -/
theorem mem_blk21_6 (t : Fin cfg21.N) (i : S200000x128.Idx) :
    i ∈ ((cfg21.win 6).blk t).view.set ↔ ∀ a : Fin 2, win21_6.index t a * S4000x128.size a ≤ (i a).val ∧ (i a).val < win21_6.index t a * S4000x128.size a + S4000x128.size a := by
  show i ∈ ((View.whole (Pipeline.arrRef spec21 6)).slice (win21_6.rect t)).set ↔ _
  rw [View.set_slice_whole, Rect.mem_set_unit]
  exact Iff.rfl

/-- Every index of the array is in some point's block: row `r` is in block `r / 4000`. -/
theorem cover21_6_arr (i : S200000x128.Idx) : ∃ t : Fin cfg21.N, (cfg21.win 6).flush t = true ∧ i ∈ ((cfg21.win 6).blk t).view.set := by
  have hi0 : (i 0).val < 200000 := (i 0).isLt
  have hi1 : (i 1).val < 128 := (i 1).isLt
  have hlt : (i 0).val / 4000 < 50 := by omega
  refine ⟨⟨(i 0).val / 4000, lt_of_lt_of_eq hlt N_21.symm⟩, flush21_6 _, ?_⟩
  rw [mem_blk21_6]
  obtain ⟨e00, e01, e10, e11, e20, e21, e30, e31, e40, e41, e50, e51, e60, e61⟩ := idx_facts21 ⟨(i 0).val / 4000, lt_of_lt_of_eq hlt N_21.symm⟩
  intro a
  match a with
  | ⟨0, _⟩ => show win21_6.index _ (0 : Fin 2) * 4000 ≤ (i 0).val ∧ (i 0).val < win21_6.index _ (0 : Fin 2) * 4000 + 4000; rw [e60]; show (i 0).val / 4000 * 4000 ≤ _ ∧ _ < (i 0).val / 4000 * 4000 + 4000; omega
  | ⟨1, _⟩ => show win21_6.index _ (1 : Fin 2) * 128 ≤ (i 1).val ∧ (i 1).val < win21_6.index _ (1 : Fin 2) * 128 + 128; rw [e61]; omega

/-- The output array after the region is the specification's array function of the six arrays as the region
    finds them. -/
theorem arr21_6_eq (c : Dev nD) : (dat21 (F := Ideal) V c).arrAt 6 cfg21.N =
    Cert.KSpec.GbnE (V c (Pipeline.arrRef spec21 0)) (V c (Pipeline.arrRef spec21 1)) (V c (Pipeline.arrRef spec21 2)) (V c (Pipeline.arrRef spec21 3)) (V c (Pipeline.arrRef spec21 4)) (V c (Pipeline.arrRef spec21 5)) :=
  (dat21 (F := Ideal) V c).arrAt_eq_of_cover 6 (Cert.KSpec.GbnE (val21 V c) (orig21 V c) (mean21 V c) (var21 V c) (scale21 V c) (shift21 V c)) (fun t _ => flushed21_6_eq V c t) cover21_6_arr

/-- The output array after the region, index by index. -/
theorem arr21_6_apply (c : Dev nD) (r : Fin 200000) (j : Fin 128) :
    ((dat21 (F := Ideal) V c).arrAt 6 cfg21.N : S200000x128.Idx → EReal) (ix2 r j) =
      orig21 V c (ix2 r j)
        + max (((val21 V c (ix2 r j) - mean21 V c (ix2 (0 : Fin 1) j))
              * Ideal.rsqrt (var21 V c (ix2 (0 : Fin 1) j) + Ideal.ofBits .f32 0x3727C5AC#32))
              * scale21 V c (ix2 (0 : Fin 1) j) + shift21 V c (ix2 (0 : Fin 1) j)) 0 := by
  rw [arr21_6_eq]
  rfl

end Cert.KernelIdeal.Val
-- ==== Proof.KHostL4a.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the host steps of layer 4 leave in the buffers later steps read, as the
    arrangement's glue functions of the buffers they start from, for an arbitrary starting state. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Between the fused projection and the edge region: column slices, the two gathers, the
    block-diagonal edge weight, the packing -/

theorem hostOps18_v411 :
    after (hostOps18_2 (F := Ideal)) (after (hostOps18_1 (F := Ideal)) (after (hostOps18 (F := Ideal)) V)) (main_v411 : DevRef τ sig)
      = Cert.KSpec.colsU (V (main_v408 : DevRef τ sig)) := by
  after_results_simp <;> (try simp only [TRef.ofBuf, TRef.toBuf, cast_eq]) <;> rfl

theorem hostOps18_v442 :
    after (hostOps18_2 (F := Ideal)) (after (hostOps18_1 (F := Ideal)) (after (hostOps18 (F := Ideal)) V)) (main_v442 : DevRef τ sig)
      = Cert.KSpec.packE (Cert.Spec.gatherRows (Cert.KSpec.colsA (V (main_v408 : DevRef τ sig))) (V (main_v3 : DevRef τ sig))) := by
  after_results_simp <;> (try simp only [TRef.ofBuf, TRef.toBuf, cast_eq]) <;> rfl

theorem hostOps18_v443 :
    after (hostOps18_2 (F := Ideal)) (after (hostOps18_1 (F := Ideal)) (after (hostOps18 (F := Ideal)) V)) (main_v443 : DevRef τ sig)
      = Cert.KSpec.packE (Cert.KSpec.left32 (Cert.KSpec.gatherRows64 (Cert.KSpec.colsBV (V (main_v408 : DevRef τ sig))) (V (main_v1 : DevRef τ sig)))) := by
  after_results_simp <;> (try simp only [TRef.ofBuf, TRef.toBuf, cast_eq]) <;> rfl

theorem hostOps18_v444 :
    after (hostOps18_2 (F := Ideal)) (after (hostOps18_1 (F := Ideal)) (after (hostOps18 (F := Ideal)) V)) (main_v444 : DevRef τ sig)
      = Cert.KSpec.packE (Cert.KSpec.right32 (Cert.KSpec.gatherRows64 (Cert.KSpec.colsBV (V (main_v408 : DevRef τ sig))) (V (main_v1 : DevRef τ sig)))) := by
  after_results_simp <;> (try simp only [TRef.ofBuf, TRef.toBuf, cast_eq]) <;> rfl

theorem hostOps18_v445 :
    after (hostOps18_2 (F := Ideal)) (after (hostOps18_1 (F := Ideal)) (after (hostOps18 (F := Ideal)) V)) (main_v445 : DevRef τ sig)
      = Cert.KSpec.packE (V (main_v388 : DevRef τ sig)) := by
  after_results_simp <;> (try simp only [TRef.ofBuf, TRef.toBuf, cast_eq]) <;> rfl

theorem hostOps18_v436 :
    after (hostOps18_2 (F := Ideal)) (after (hostOps18_1 (F := Ideal)) (after (hostOps18 (F := Ideal)) V)) (main_v436 : DevRef τ sig)
      = Cert.KSpec.kron Cert.KSpec.eye4 (Cert.Spec.wSl 3 Cert.Spec.slices_W_3 (V (main_arg11 : DevRef τ sig))) := by
  after_results_simp <;> (try simp only [TRef.ofBuf, TRef.toBuf, cast_eq]) <;> rfl

theorem hostOps18_v446 :
    after (hostOps18_2 (F := Ideal)) (after (hostOps18_1 (F := Ideal)) (after (hostOps18 (F := Ideal)) V)) (main_v446 : DevRef τ sig)
      = Cert.KSpec.row128 (Cert.KSpec.tile4 (Cert.Spec.bSl 3 Cert.Spec.slices_b_3 (V (main_arg12 : DevRef τ sig)))) := by
  after_results_simp <;> (try simp only [TRef.ofBuf, TRef.toBuf, cast_eq]) <;> rfl

/-- A buffer none of these steps writes stays as it was. -/
theorem hostOps18_keep {r : Ref sig .tc} (h0 : r ∉ GenP.hostOps18_W) (h1 : r ∉ GenP.hostOps18_1_W) (h2 : r ∉ GenP.hostOps18_2_W) :
    after (hostOps18_2 (F := Ideal)) (after (hostOps18_1 (F := Ideal)) (after (hostOps18 (F := Ideal)) V)) (Proc.devRef .tc r) = V (Proc.devRef .tc r) := by
  rw [after_of_writes_sub hostOps18_2 _ GenP.hostOps18_2_writes h2,
    after_of_writes_sub hostOps18_1 _ GenP.hostOps18_1_writes h1,
    after_of_writes_sub hostOps18 _ GenP.hostOps18_writes h0]

/-- The same for the buffers read later. -/
theorem hostOps18_keep_live {r : Ref sig .tc}
    (hr : r ∈ ([main_v1, main_v3, main_v381, main_v388, main_v408, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps18_2 (F := Ideal)) (after (hostOps18_1 (F := Ideal)) (after (hostOps18 (F := Ideal)) V)) (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl
  all_goals exact hostOps18_keep V (by decide) (by decide) (by decide)

/-! ## Between the edge region and the node region: unpacking, the two segment sums, the packing -/

theorem hostOps19_v448 :
    after (hostOps19 (F := Ideal)) V (main_v448 : DevRef τ sig)
      = Cert.KSpec.unpackE (V (main_v447_0 : DevRef τ sig)) := by
  after_results_simp
  rfl

theorem hostOps19_v457 :
    after (hostOps19 (F := Ideal)) V (main_v457 : DevRef τ sig)
      = Cert.KSpec.packN (V (main_v411 : DevRef τ sig)) := by
  after_results_simp
  rfl

theorem hostOps19_v458 :
    after (hostOps19 (F := Ideal)) V (main_v458 : DevRef τ sig)
      = Cert.KSpec.packN (Cert.Spec.segSum (Cert.KSpec.unpackE (V (main_v447_2 : DevRef τ sig))) (V (main_v3 : DevRef τ sig))) := by
  after_results_simp
  rfl

theorem hostOps19_v459 :
    after (hostOps19 (F := Ideal)) V (main_v459 : DevRef τ sig)
      = Cert.KSpec.packN (Cert.Spec.segSum (Cert.KSpec.unpackE (V (main_v447_1 : DevRef τ sig))) (V (main_v3 : DevRef τ sig))) := by
  after_results_simp
  rfl

/-- A buffer none of these steps writes stays as it was. -/
theorem hostOps19_keep {r : Ref sig .tc} (h0 : r ∉ GenP.hostOps19_W) :
    after (hostOps19 (F := Ideal)) V (Proc.devRef .tc r) = V (Proc.devRef .tc r) := by
  rw [after_of_writes_sub hostOps19 _ GenP.hostOps19_writes h0]

/-- The same for the buffers read later. -/
theorem hostOps19_keep_live {r : Ref sig .tc}
    (hr : r ∈ ([main_v1, main_v3, main_v381, main_v388, main_v447_0, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps19 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl
  all_goals exact hostOps19_keep V (by decide)

end Cert.KernelIdeal.KHost
-- ==== Proof.KHostL4b.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the host steps between the node update and the node normalisation of layer 4
    leave in the arrays that later steps read: the column statistics of the node update and of the
    new edge features, and the statistics and the scale and shift parameters repeated four times
    and laid out as one row. Each statement holds for an arbitrary state of the arrays before the
    steps. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Each group of steps alone, from an arbitrary state of the arrays -/

section Groups

variable {F : FTy → Type} [FloatOps F] (W : Valuation τ sig (Elt F))

/-! ### The unpacked node update and its column means -/

theorem hostOps20_s0_v461 :
    after hostOps20 W (main_v461 : DevRef τ sig)
      = Cert.KSpec.unpackN (W (main_v460 : DevRef τ sig)) := by
  after_results_simp <;> rfl

theorem hostOps20_s0_v464 :
    after hostOps20 W (main_v464 : DevRef τ sig)
      = Cert.Spec.meanN (Cert.KSpec.unpackN (W (main_v460 : DevRef τ sig))) := by
  after_results_simp <;> rfl

theorem hostOps20_s0_c7 :
    after hostOps20 W (main_c_46 : DevRef τ sig)
      = constantI Cert.Spec.S_ 32 0#32 := by
  after_results_simp <;> rfl

theorem hostOps20_s0_keep {r : Ref sig .tc} (h : r ∉ GenP.hostOps20_W) :
    after hostOps20 W (Proc.devRef .tc r) = W (Proc.devRef .tc r) :=
  after_of_writes_sub hostOps20 _ GenP.hostOps20_writes h

/-! ### The column variances of the node update -/

theorem hostOps20_s1_v465 :
    after hostOps20_1 W (main_v465 : DevRef τ sig)
      = Cert.Spec.varN (W (main_v461 : DevRef τ sig)) (W (main_c_46 : DevRef τ sig)) := by
  after_results_simp
  all_goals (try simp only [TRef.ofBuf, TRef.toBuf, cast_eq])
  all_goals unfold Cert.Spec.varN
  all_goals with_reducible rfl

theorem hostOps20_s1_keep {r : Ref sig .tc} (h : r ∉ GenP.hostOps20_1_W) :
    after hostOps20_1 W (Proc.devRef .tc r) = W (Proc.devRef .tc r) :=
  after_of_writes_sub hostOps20_1 _ GenP.hostOps20_1_writes h

/-! ### The column means of the new edge features -/

theorem hostOps20_s2_v468 :
    after hostOps20_2 W (main_v468 : DevRef τ sig)
      = Cert.Spec.meanE (W (main_v448 : DevRef τ sig)) := by
  after_results_simp <;> rfl

theorem hostOps20_s2_c10 :
    after hostOps20_2 W (main_c_49 : DevRef τ sig)
      = constantI Cert.Spec.S_ 32 0#32 := by
  after_results_simp <;> rfl

theorem hostOps20_s2_keep {r : Ref sig .tc} (h : r ∉ GenP.hostOps20_2_W) :
    after hostOps20_2 W (Proc.devRef .tc r) = W (Proc.devRef .tc r) :=
  after_of_writes_sub hostOps20_2 _ GenP.hostOps20_2_writes h

/-! ### The column variances of the new edge features -/

theorem hostOps20_s3_v469 :
    after hostOps20_3 W (main_v469 : DevRef τ sig)
      = Cert.Spec.varE (W (main_v448 : DevRef τ sig)) (W (main_c_49 : DevRef τ sig)) := by
  after_results_simp
  all_goals (try simp only [TRef.ofBuf, TRef.toBuf, cast_eq])
  all_goals unfold Cert.Spec.varE
  all_goals with_reducible rfl

theorem hostOps20_s3_keep {r : Ref sig .tc} (h : r ∉ GenP.hostOps20_3_W) :
    after hostOps20_3 W (Proc.devRef .tc r) = W (Proc.devRef .tc r) :=
  after_of_writes_sub hostOps20_3 _ GenP.hostOps20_3_writes h

/-! ### The statistics and the parameters repeated four times; the node features packed -/

theorem hostOps20_s4_v502 :
    after hostOps20_4 W (main_v502 : DevRef τ sig)
      = Cert.KSpec.packN (W (main_v381 : DevRef τ sig)) := by
  after_results_simp <;> rfl

theorem hostOps20_s4_v503 :
    after hostOps20_4 W (main_v503 : DevRef τ sig)
      = Cert.KSpec.row128 (Cert.KSpec.tile4 (W (main_v464 : DevRef τ sig))) := by
  after_results_simp <;> rfl

theorem hostOps20_s4_v504 :
    after hostOps20_4 W (main_v504 : DevRef τ sig)
      = Cert.KSpec.row128 (Cert.KSpec.tile4 (W (main_v465 : DevRef τ sig))) := by
  after_results_simp <;> rfl

theorem hostOps20_s4_v505 :
    after hostOps20_4 W (main_v505 : DevRef τ sig)
      = Cert.KSpec.row128 (Cert.KSpec.tile4 (Cert.Spec.bSl 3 Cert.Spec.slices_b_3 (W (main_arg17 : DevRef τ sig)))) := by
  after_results_simp <;> rfl

theorem hostOps20_s4_v506 :
    after hostOps20_4 W (main_v506 : DevRef τ sig)
      = Cert.KSpec.row128 (Cert.KSpec.tile4 (Cert.Spec.bSl 3 Cert.Spec.slices_b_3 (W (main_arg18 : DevRef τ sig)))) := by
  after_results_simp <;> rfl

theorem hostOps20_s4_v488 :
    after hostOps20_4 W (main_v488 : DevRef τ sig)
      = Cert.KSpec.tile4 (W (main_v468 : DevRef τ sig)) := by
  after_results_simp <;> rfl

theorem hostOps20_s4_v491 :
    after hostOps20_4 W (main_v491 : DevRef τ sig)
      = Cert.KSpec.tile4 (W (main_v469 : DevRef τ sig)) := by
  after_results_simp <;> rfl

theorem hostOps20_s4_v496 :
    after hostOps20_4 W (main_v496 : DevRef τ sig)
      = Cert.KSpec.tile4 (Cert.Spec.bSl 3 Cert.Spec.slices_b_3 (W (main_arg19 : DevRef τ sig))) := by
  after_results_simp <;> rfl

theorem hostOps20_s4_v501 :
    after hostOps20_4 W (main_v501 : DevRef τ sig)
      = Cert.KSpec.tile4 (Cert.Spec.bSl 3 Cert.Spec.slices_b_3 (W (main_arg20 : DevRef τ sig))) := by
  after_results_simp <;> rfl

theorem hostOps20_s4_keep {r : Ref sig .tc} (h : r ∉ GenP.hostOps20_4_W) :
    after hostOps20_4 W (Proc.devRef .tc r) = W (Proc.devRef .tc r) :=
  after_of_writes_sub hostOps20_4 _ GenP.hostOps20_4_writes h

end Groups

/-! ## The five groups one after the other -/

theorem hostOps20_v502 :
    after (hostOps20_4 (F := Ideal)) (after (hostOps20_3 (F := Ideal)) (after (hostOps20_2 (F := Ideal)) (after (hostOps20_1 (F := Ideal)) (after (hostOps20 (F := Ideal)) V)))) (main_v502 : DevRef τ sig)
      = Cert.KSpec.packN (V (main_v381 : DevRef τ sig)) := by
  rw [hostOps20_s4_v502,
    hostOps20_s3_keep _ (r := main_v381) (by decide),
    hostOps20_s2_keep _ (r := main_v381) (by decide),
    hostOps20_s1_keep _ (r := main_v381) (by decide),
    hostOps20_s0_keep _ (r := main_v381) (by decide)]

theorem hostOps20_v503 :
    after (hostOps20_4 (F := Ideal)) (after (hostOps20_3 (F := Ideal)) (after (hostOps20_2 (F := Ideal)) (after (hostOps20_1 (F := Ideal)) (after (hostOps20 (F := Ideal)) V)))) (main_v503 : DevRef τ sig)
      = Cert.KSpec.row128 (Cert.KSpec.tile4 (Cert.Spec.meanN (Cert.KSpec.unpackN (V (main_v460 : DevRef τ sig))))) := by
  rw [hostOps20_s4_v503,
    hostOps20_s3_keep _ (r := main_v464) (by decide),
    hostOps20_s2_keep _ (r := main_v464) (by decide),
    hostOps20_s1_keep _ (r := main_v464) (by decide),
    hostOps20_s0_v464]

theorem hostOps20_v504 :
    after (hostOps20_4 (F := Ideal)) (after (hostOps20_3 (F := Ideal)) (after (hostOps20_2 (F := Ideal)) (after (hostOps20_1 (F := Ideal)) (after (hostOps20 (F := Ideal)) V)))) (main_v504 : DevRef τ sig)
      = Cert.KSpec.row128 (Cert.KSpec.tile4 (Cert.Spec.varN (Cert.KSpec.unpackN (V (main_v460 : DevRef τ sig))) (constantI Cert.Spec.S_ 32 0#32))) := by
  rw [hostOps20_s4_v504,
    hostOps20_s3_keep _ (r := main_v465) (by decide),
    hostOps20_s2_keep _ (r := main_v465) (by decide),
    hostOps20_s1_v465,
    hostOps20_s0_v461,
    hostOps20_s0_c7]

theorem hostOps20_v505 :
    after (hostOps20_4 (F := Ideal)) (after (hostOps20_3 (F := Ideal)) (after (hostOps20_2 (F := Ideal)) (after (hostOps20_1 (F := Ideal)) (after (hostOps20 (F := Ideal)) V)))) (main_v505 : DevRef τ sig)
      = Cert.KSpec.row128 (Cert.KSpec.tile4 (Cert.Spec.bSl 3 Cert.Spec.slices_b_3 (V (main_arg17 : DevRef τ sig)))) := by
  rw [hostOps20_s4_v505,
    hostOps20_s3_keep _ (r := main_arg17) (by decide),
    hostOps20_s2_keep _ (r := main_arg17) (by decide),
    hostOps20_s1_keep _ (r := main_arg17) (by decide),
    hostOps20_s0_keep _ (r := main_arg17) (by decide)]

theorem hostOps20_v506 :
    after (hostOps20_4 (F := Ideal)) (after (hostOps20_3 (F := Ideal)) (after (hostOps20_2 (F := Ideal)) (after (hostOps20_1 (F := Ideal)) (after (hostOps20 (F := Ideal)) V)))) (main_v506 : DevRef τ sig)
      = Cert.KSpec.row128 (Cert.KSpec.tile4 (Cert.Spec.bSl 3 Cert.Spec.slices_b_3 (V (main_arg18 : DevRef τ sig)))) := by
  rw [hostOps20_s4_v506,
    hostOps20_s3_keep _ (r := main_arg18) (by decide),
    hostOps20_s2_keep _ (r := main_arg18) (by decide),
    hostOps20_s1_keep _ (r := main_arg18) (by decide),
    hostOps20_s0_keep _ (r := main_arg18) (by decide)]

theorem hostOps20_v488 :
    after (hostOps20_4 (F := Ideal)) (after (hostOps20_3 (F := Ideal)) (after (hostOps20_2 (F := Ideal)) (after (hostOps20_1 (F := Ideal)) (after (hostOps20 (F := Ideal)) V)))) (main_v488 : DevRef τ sig)
      = Cert.KSpec.tile4 (Cert.Spec.meanE (V (main_v448 : DevRef τ sig))) := by
  rw [hostOps20_s4_v488,
    hostOps20_s3_keep _ (r := main_v468) (by decide),
    hostOps20_s2_v468,
    hostOps20_s1_keep _ (r := main_v448) (by decide),
    hostOps20_s0_keep _ (r := main_v448) (by decide)]

theorem hostOps20_v491 :
    after (hostOps20_4 (F := Ideal)) (after (hostOps20_3 (F := Ideal)) (after (hostOps20_2 (F := Ideal)) (after (hostOps20_1 (F := Ideal)) (after (hostOps20 (F := Ideal)) V)))) (main_v491 : DevRef τ sig)
      = Cert.KSpec.tile4 (Cert.Spec.varE (V (main_v448 : DevRef τ sig)) (constantI Cert.Spec.S_ 32 0#32)) := by
  rw [hostOps20_s4_v491,
    hostOps20_s3_v469,
    hostOps20_s2_keep _ (r := main_v448) (by decide),
    hostOps20_s1_keep _ (r := main_v448) (by decide),
    hostOps20_s0_keep _ (r := main_v448) (by decide),
    hostOps20_s2_c10]

theorem hostOps20_v496 :
    after (hostOps20_4 (F := Ideal)) (after (hostOps20_3 (F := Ideal)) (after (hostOps20_2 (F := Ideal)) (after (hostOps20_1 (F := Ideal)) (after (hostOps20 (F := Ideal)) V)))) (main_v496 : DevRef τ sig)
      = Cert.KSpec.tile4 (Cert.Spec.bSl 3 Cert.Spec.slices_b_3 (V (main_arg19 : DevRef τ sig))) := by
  rw [hostOps20_s4_v496,
    hostOps20_s3_keep _ (r := main_arg19) (by decide),
    hostOps20_s2_keep _ (r := main_arg19) (by decide),
    hostOps20_s1_keep _ (r := main_arg19) (by decide),
    hostOps20_s0_keep _ (r := main_arg19) (by decide)]

theorem hostOps20_v501 :
    after (hostOps20_4 (F := Ideal)) (after (hostOps20_3 (F := Ideal)) (after (hostOps20_2 (F := Ideal)) (after (hostOps20_1 (F := Ideal)) (after (hostOps20 (F := Ideal)) V)))) (main_v501 : DevRef τ sig)
      = Cert.KSpec.tile4 (Cert.Spec.bSl 3 Cert.Spec.slices_b_3 (V (main_arg20 : DevRef τ sig))) := by
  rw [hostOps20_s4_v501,
    hostOps20_s3_keep _ (r := main_arg20) (by decide),
    hostOps20_s2_keep _ (r := main_arg20) (by decide),
    hostOps20_s1_keep _ (r := main_arg20) (by decide),
    hostOps20_s0_keep _ (r := main_arg20) (by decide)]

/-- An array that none of the five groups writes stays as it was. -/
theorem hostOps20_keep {r : Ref sig .tc} (h0 : r ∉ GenP.hostOps20_W) (h1 : r ∉ GenP.hostOps20_1_W) (h2 : r ∉ GenP.hostOps20_2_W)
    (h3 : r ∉ GenP.hostOps20_3_W) (h4 : r ∉ GenP.hostOps20_4_W) :
    after (hostOps20_4 (F := Ideal)) (after (hostOps20_3 (F := Ideal)) (after (hostOps20_2 (F := Ideal)) (after (hostOps20_1 (F := Ideal)) (after (hostOps20 (F := Ideal)) V)))) (Proc.devRef .tc r) = V (Proc.devRef .tc r) := by
  rw [hostOps20_s4_keep _ h4, hostOps20_s3_keep _ h3, hostOps20_s2_keep _ h2, hostOps20_s1_keep _ h1, hostOps20_s0_keep _ h0]

/-- The same for the arrays that later steps read. -/
theorem hostOps20_keep_live {r : Ref sig .tc}
    (hr : r ∈ ([main_v1, main_v3, main_v381, main_v388, main_v447_0, main_v460, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps20_4 (F := Ideal)) (after (hostOps20_3 (F := Ideal)) (after (hostOps20_2 (F := Ideal)) (after (hostOps20_1 (F := Ideal)) (after (hostOps20 (F := Ideal)) V)))) (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl | rfl | rfl | rfl
  all_goals exact hostOps20_keep V (by decide) (by decide) (by decide) (by decide) (by decide)

end Cert.KernelIdeal.KHost
-- ==== Proof.KHostL4c.lean ====
import proofs.«425355_j88287347737110_2_alg».proof.Proof.Gen.KernelIdeal.Launch
import proofs.«425355_j88287347737110_2_alg».proof.Proof.GRegions
import proofs.«425355_j88287347737110_2_alg».proof.Proof.KSpec
import proofs.«425355_j88287347737110_2_alg».proof.Proof.SpecWhole
import Idealize.ShloMosaic.Lib.StableHlo.Run

/-! What the last two host steps of layer 4 leave in the buffers later steps read: the
    unpacked node output and the packed operands of the edge normalisation, then the unpacked edge
    output and the next layer's concatenated weight and bias, for an arbitrary starting state. -/

noncomputable section

namespace Cert.KernelIdeal.KHost

open Cert.KernelIdeal Cert.KernelIdeal.Gen
open Idealize.ShloMosaic Idealize.ShloMosaic.TcCoe Idealize.SL.Sem Idealize.ShloMosaic.StableHlo
open Facts₀ Facts

variable (V : Valuation τ sig (Elt Ideal))

attribute [local irreducible] Host.gather Host.scatterAdd Host.reduceAdd

/-! ## Between the node normalisation and the edge normalisation -/

theorem hostOps21_v508 :
    after (hostOps21 (F := Ideal)) V (main_v508 : DevRef τ sig)
      = Cert.KSpec.unpackN (V (main_v507 : DevRef τ sig)) := by
  after_results_simp
  rfl

theorem hostOps21_v509 :
    after (hostOps21 (F := Ideal)) V (main_v509 : DevRef τ sig)
      = Cert.KSpec.packE (V (main_v388 : DevRef τ sig)) := by
  after_results_simp
  rfl

theorem hostOps21_v510 :
    after (hostOps21 (F := Ideal)) V (main_v510 : DevRef τ sig)
      = Cert.KSpec.row128 (V (main_v488 : DevRef τ sig)) := by
  after_results_simp
  rfl

theorem hostOps21_v511 :
    after (hostOps21 (F := Ideal)) V (main_v511 : DevRef τ sig)
      = Cert.KSpec.row128 (V (main_v491 : DevRef τ sig)) := by
  after_results_simp
  rfl

theorem hostOps21_v512 :
    after (hostOps21 (F := Ideal)) V (main_v512 : DevRef τ sig)
      = Cert.KSpec.row128 (V (main_v496 : DevRef τ sig)) := by
  after_results_simp
  rfl

theorem hostOps21_v513 :
    after (hostOps21 (F := Ideal)) V (main_v513 : DevRef τ sig)
      = Cert.KSpec.row128 (V (main_v501 : DevRef τ sig)) := by
  after_results_simp
  rfl

/-- A buffer these steps do not write stays as it was. -/
theorem hostOps21_keep {r : Ref sig .tc} (h0 : r ∉ GenP.hostOps21_W) :
    after (hostOps21 (F := Ideal)) V (Proc.devRef .tc r) = V (Proc.devRef .tc r) := by
  rw [after_of_writes_sub hostOps21 _ GenP.hostOps21_writes h0]

/-- The same for the buffers read later. -/
theorem hostOps21_keep_live {r : Ref sig .tc}
    (hr : r ∈ ([main_v1, main_v3, main_v447_0, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps21 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl
  all_goals exact hostOps21_keep V (by decide)

/-! ## After the edge normalisation: the layer's edge output -/

theorem hostOps22_v515 :
    after (hostOps22 (F := Ideal)) V (main_v515 : DevRef τ sig)
      = Cert.KSpec.unpackE (V (main_v514 : DevRef τ sig)) := by
  after_results_simp
  rfl

/-- A buffer these steps do not write stays as it was. -/
theorem hostOps22_keep {r : Ref sig .tc} (h0 : r ∉ GenP.hostOps22_W) :
    after (hostOps22 (F := Ideal)) V (Proc.devRef .tc r) = V (Proc.devRef .tc r) := by
  rw [after_of_writes_sub hostOps22 _ GenP.hostOps22_writes h0]

/-- The same for the buffers read later. -/
theorem hostOps22_keep_live {r : Ref sig .tc}
    (hr : r ∈ ([main_v1, main_v3, main_v508, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (hostOps22 (F := Ideal)) V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl | rfl | rfl | rfl | rfl
  all_goals exact hostOps22_keep V (by decide)

end Cert.KernelIdeal.KHost
-- ==== Proof.KReadL4.lean ====
import proofs.«425355_j88287347737110_2_alg».proof.Proof.KFold
import proofs.«425355_j88287347737110_2_alg».proof.Proof.Val17
import proofs.«425355_j88287347737110_2_alg».proof.Proof.Val18
import proofs.«425355_j88287347737110_2_alg».proof.Proof.Val19
import proofs.«425355_j88287347737110_2_alg».proof.Proof.Val20
import proofs.«425355_j88287347737110_2_alg».proof.Proof.Val21
import proofs.«425355_j88287347737110_2_alg».proof.Proof.KHostL4a
import proofs.«425355_j88287347737110_2_alg».proof.Proof.KHostL4b
import proofs.«425355_j88287347737110_2_alg».proof.Proof.KHostL4c
import proofs.«425355_j88287347737110_2_alg».proof.Proof.KWhole
import proofs.«425355_j88287347737110_2_alg».proof.Proof.KReadDefs
import Idealize.ShloMosaic.Lib.StableHlo.Run

/-! # Layer 1 of the kernel program, read

The layer runs from just after its projection weights have been laid side by side to just after the next layer's
have: the fused projection's region, the gathers and packings, the edge region, the segment sums, the node region, the
column statistics, the two normalise-and-add regions and the two unpackings. Given that at entry the two concatenated
parameter buffers hold the index-0 slices of the stacked parameters, the layer's two result buffers end holding the
two components of the kernel's arrangement of the layer at parameter index 0; the index vectors and the parameters are
as they were, and the two concatenated parameter buffers of the next layer hold its index-1 slices. One statement per
item, each about the buffers a later item reads, each in terms of the contents the layer starts from. -/

set_option maxRecDepth 16384

noncomputable section

namespace Cert.KernelIdeal.KRead

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (c : Dev nD)

/-! ## What the layer starts from -/

/-- The node features, the edge features, the sources and the targets. -/
abbrev k4_h : Cert.KSpec.R Cert.Spec.S100000x32 := Run.W53 m c (main_v381 : DevRef τ sig)
abbrev k4_e : Cert.KSpec.R Cert.Spec.S800000x32 := Run.W53 m c (main_v388 : DevRef τ sig)
abbrev k4_src : Cert.Spec.J Ideal Cert.Spec.S800000 := Run.W53 m c (main_v1 : DevRef τ sig)
abbrev k4_dst : Cert.Spec.J Ideal Cert.Spec.S800000 := Run.W53 m c (main_v3 : DevRef τ sig)

/-- The layer's parameters: index 0 of the stacked arrays. -/
abbrev k4_A : Cert.KSpec.R Cert.Spec.S32x32 := Cert.Spec.wSl 3 Cert.Spec.slices_W_3 (Run.W53 m c (main_arg7 : DevRef τ sig))
abbrev k4_bA : Cert.KSpec.R Cert.Spec.S32 := Cert.Spec.bSl 3 Cert.Spec.slices_b_3 (Run.W53 m c (main_arg8 : DevRef τ sig))
abbrev k4_B : Cert.KSpec.R Cert.Spec.S32x32 := Cert.Spec.wSl 3 Cert.Spec.slices_W_3 (Run.W53 m c (main_arg9 : DevRef τ sig))
abbrev k4_bB : Cert.KSpec.R Cert.Spec.S32 := Cert.Spec.bSl 3 Cert.Spec.slices_b_3 (Run.W53 m c (main_arg10 : DevRef τ sig))
abbrev k4_C : Cert.KSpec.R Cert.Spec.S32x32 := Cert.Spec.wSl 3 Cert.Spec.slices_W_3 (Run.W53 m c (main_arg11 : DevRef τ sig))
abbrev k4_bC : Cert.KSpec.R Cert.Spec.S32 := Cert.Spec.bSl 3 Cert.Spec.slices_b_3 (Run.W53 m c (main_arg12 : DevRef τ sig))
abbrev k4_U : Cert.KSpec.R Cert.Spec.S32x32 := Cert.Spec.wSl 3 Cert.Spec.slices_W_3 (Run.W53 m c (main_arg13 : DevRef τ sig))
abbrev k4_bU : Cert.KSpec.R Cert.Spec.S32 := Cert.Spec.bSl 3 Cert.Spec.slices_b_3 (Run.W53 m c (main_arg14 : DevRef τ sig))
abbrev k4_V : Cert.KSpec.R Cert.Spec.S32x32 := Cert.Spec.wSl 3 Cert.Spec.slices_W_3 (Run.W53 m c (main_arg15 : DevRef τ sig))
abbrev k4_bV : Cert.KSpec.R Cert.Spec.S32 := Cert.Spec.bSl 3 Cert.Spec.slices_b_3 (Run.W53 m c (main_arg16 : DevRef τ sig))
abbrev k4_gh : Cert.KSpec.R Cert.Spec.S32 := Cert.Spec.bSl 3 Cert.Spec.slices_b_3 (Run.W53 m c (main_arg17 : DevRef τ sig))
abbrev k4_bh : Cert.KSpec.R Cert.Spec.S32 := Cert.Spec.bSl 3 Cert.Spec.slices_b_3 (Run.W53 m c (main_arg18 : DevRef τ sig))
abbrev k4_ge : Cert.KSpec.R Cert.Spec.S32 := Cert.Spec.bSl 3 Cert.Spec.slices_b_3 (Run.W53 m c (main_arg19 : DevRef τ sig))
abbrev k4_be : Cert.KSpec.R Cert.Spec.S32 := Cert.Spec.bSl 3 Cert.Spec.slices_b_3 (Run.W53 m c (main_arg20 : DevRef τ sig))

/-- The fused projection, the three packed outputs of the edge region and the packed output of the node region,
    as functions of what the layer starts from. -/
abbrev k4_proj : Cert.KSpec.R Cert.KSpec.S100000x128 :=
  Cert.KSpec.kproj (k4_h m c) (k4_A m c) (k4_bA m c) (k4_B m c) (k4_bB m c) (k4_U m c) (k4_bU m c) (k4_V m c) (k4_bV m c)
abbrev k4_edgeNew : Cert.KSpec.R Cert.KSpec.S200000x128 :=
  Cert.KSpec.kedgeNewR (k4_proj m c) (k4_e m c) (k4_src m c) (k4_dst m c) (k4_C m c) (k4_bC m c)
abbrev k4_edgeSig : Cert.KSpec.R Cert.KSpec.S200000x128 :=
  Cert.KSpec.kedgeSigR (k4_proj m c) (k4_e m c) (k4_src m c) (k4_dst m c) (k4_C m c) (k4_bC m c)
abbrev k4_edgeNum : Cert.KSpec.R Cert.KSpec.S200000x128 :=
  Cert.KSpec.kedgeNumR (k4_proj m c) (k4_e m c) (k4_src m c) (k4_dst m c) (k4_C m c) (k4_bC m c)
abbrev k4_nodeNew : Cert.KSpec.R Cert.KSpec.S25000x128 :=
  Cert.KSpec.knodeNewR (k4_proj m c) (k4_e m c) (k4_src m c) (k4_dst m c) (k4_C m c) (k4_bC m c)

/-! ## What each item leaves unwritten -/

/-- The references written up to each boundary of the layer. -/
abbrev k4_L6 : List (Ref sig .tc) := [main_v408]
abbrev k4_L9 : List (Ref sig .tc) := hostOps18_2_W ++ (hostOps18_1_W ++ (hostOps18_W ++ k4_L6))
abbrev k4_L10 : List (Ref sig .tc) := main_v447_0 :: main_v447_1 :: main_v447_2 :: k4_L9
abbrev k4_L11 : List (Ref sig .tc) := hostOps19_W ++ k4_L10
abbrev k4_L12 : List (Ref sig .tc) := main_v460 :: k4_L11
abbrev k4_L17 : List (Ref sig .tc) :=
  hostOps20_4_W ++ (hostOps20_3_W ++ (hostOps20_2_W ++ (hostOps20_1_W ++ (hostOps20_W ++ k4_L12))))
abbrev k4_L18 : List (Ref sig .tc) := main_v507 :: k4_L17
abbrev k4_L19 : List (Ref sig .tc) := hostOps21_W ++ k4_L18
abbrev k4_L20 : List (Ref sig .tc) := main_v514 :: k4_L19
abbrev k4_L21 : List (Ref sig .tc) := hostOps22_W ++ k4_L20

/-- One host stretch or one group of stretches keeps what it does not write. -/
theorem k4_s9 (b : Ref sig .tc) (h3 : b ∉ hostOps18_W) (h31 : b ∉ hostOps18_1_W) (h32 : b ∉ hostOps18_2_W) :
    Run.W57 m c b = Run.W54 m c b :=
  (after_of_writes_sub (hostOps18_2 (F := Ideal)) _ hostOps18_2_writes h32).trans
    ((after_of_writes_sub (hostOps18_1 (F := Ideal)) _ hostOps18_1_writes h31).trans (after_of_writes_sub (hostOps18 (F := Ideal)) _ hostOps18_writes h3))
theorem k4_s11 (b : Ref sig .tc) (h : b ∉ hostOps19_W) : Run.W59 m c b = Run.W58 m c b :=
  after_of_writes_sub (hostOps19 (F := Ideal)) _ hostOps19_writes h
theorem k4_s17 (b : Ref sig .tc) (h5 : b ∉ hostOps20_W) (h51 : b ∉ hostOps20_1_W) (h52 : b ∉ hostOps20_2_W)
    (h53 : b ∉ hostOps20_3_W) (h54 : b ∉ hostOps20_4_W) : Run.W65 m c b = Run.W60 m c b :=
  (after_of_writes_sub (hostOps20_4 (F := Ideal)) _ hostOps20_4_writes h54).trans
    ((after_of_writes_sub (hostOps20_3 (F := Ideal)) _ hostOps20_3_writes h53).trans
      ((after_of_writes_sub (hostOps20_2 (F := Ideal)) _ hostOps20_2_writes h52).trans
        ((after_of_writes_sub (hostOps20_1 (F := Ideal)) _ hostOps20_1_writes h51).trans (after_of_writes_sub (hostOps20 (F := Ideal)) _ hostOps20_writes h5))))
theorem k4_s19 (b : Ref sig .tc) (h : b ∉ hostOps21_W) : Run.W67 m c b = Run.W66 m c b :=
  after_of_writes_sub (hostOps21 (F := Ideal)) _ hostOps21_writes h
theorem k4_s21 (b : Ref sig .tc) (h : b ∉ hostOps22_W) : Run.W69 m c b = Run.W68 m c b :=
  after_of_writes_sub (hostOps22 (F := Ideal)) _ hostOps22_writes h

/-- A reference not written up to a boundary holds there what the layer started from. -/
theorem k4_keep6 (b : Ref sig .tc) (h : b ∉ k4_L6) : Run.W54 m c b = Run.W53 m c b :=
  Run.W54_of_ne m c b (List.ne_of_not_mem_cons h)
theorem k4_keep9 (b : Ref sig .tc) (h : b ∉ k4_L9) : Run.W57 m c b = Run.W53 m c b :=
  (k4_s9 m c b
    (fun hb => h (List.mem_append_right _ (List.mem_append_right _ (List.mem_append_left _ hb))))
    (fun hb => h (List.mem_append_right _ (List.mem_append_left _ hb)))
    (fun hb => h (List.mem_append_left _ hb))).trans
  (k4_keep6 m c b (fun hb => h (List.mem_append_right _ (List.mem_append_right _ (List.mem_append_right _ hb)))))
theorem k4_keep10 (b : Ref sig .tc) (h : b ∉ k4_L10) : Run.W58 m c b = Run.W53 m c b :=
  (Run.W58_of_ne m c b (List.ne_of_not_mem_cons h)
    (List.ne_of_not_mem_cons (List.not_mem_of_not_mem_cons h))
    (List.ne_of_not_mem_cons (List.not_mem_of_not_mem_cons (List.not_mem_of_not_mem_cons h)))).trans
  (k4_keep9 m c b (List.not_mem_of_not_mem_cons (List.not_mem_of_not_mem_cons (List.not_mem_of_not_mem_cons h))))
theorem k4_keep11 (b : Ref sig .tc) (h : b ∉ k4_L11) : Run.W59 m c b = Run.W53 m c b :=
  (k4_s11 m c b (fun hb => h (List.mem_append_left _ hb))).trans (k4_keep10 m c b (fun hb => h (List.mem_append_right _ hb)))
theorem k4_keep12 (b : Ref sig .tc) (h : b ∉ k4_L12) : Run.W60 m c b = Run.W53 m c b :=
  (Run.W60_of_ne m c b (List.ne_of_not_mem_cons h)).trans (k4_keep11 m c b (List.not_mem_of_not_mem_cons h))
theorem k4_keep17 (b : Ref sig .tc) (h : b ∉ k4_L17) : Run.W65 m c b = Run.W53 m c b :=
  (k4_s17 m c b
    (fun hb => h (List.mem_append_right _ (List.mem_append_right _ (List.mem_append_right _ (List.mem_append_right _ (List.mem_append_left _ hb))))))
    (fun hb => h (List.mem_append_right _ (List.mem_append_right _ (List.mem_append_right _ (List.mem_append_left _ hb)))))
    (fun hb => h (List.mem_append_right _ (List.mem_append_right _ (List.mem_append_left _ hb))))
    (fun hb => h (List.mem_append_right _ (List.mem_append_left _ hb)))
    (fun hb => h (List.mem_append_left _ hb))).trans
  (k4_keep12 m c b (fun hb => h (List.mem_append_right _ (List.mem_append_right _ (List.mem_append_right _
    (List.mem_append_right _ (List.mem_append_right _ hb)))))))
theorem k4_keep18 (b : Ref sig .tc) (h : b ∉ k4_L18) : Run.W66 m c b = Run.W53 m c b :=
  (Run.W66_of_ne m c b (List.ne_of_not_mem_cons h)).trans (k4_keep17 m c b (List.not_mem_of_not_mem_cons h))
theorem k4_keep19 (b : Ref sig .tc) (h : b ∉ k4_L19) : Run.W67 m c b = Run.W53 m c b :=
  (k4_s19 m c b (fun hb => h (List.mem_append_left _ hb))).trans (k4_keep18 m c b (fun hb => h (List.mem_append_right _ hb)))
theorem k4_keep20 (b : Ref sig .tc) (h : b ∉ k4_L20) : Run.W68 m c b = Run.W53 m c b :=
  (Run.W68_of_ne m c b (List.ne_of_not_mem_cons h)).trans (k4_keep19 m c b (List.not_mem_of_not_mem_cons h))
theorem k4_keep21 (b : Ref sig .tc) (h : b ∉ k4_L21) : Run.W69 m c b = Run.W53 m c b :=
  (k4_s21 m c b (fun hb => h (List.mem_append_left _ hb))).trans (k4_keep20 m c b (fun hb => h (List.mem_append_right _ hb)))

/-- The index vectors and the parameters are as the layer found them. -/
theorem readK4_keep (b : Ref sig .tc) (hb : b ∈ keepRefs) : Run.W69 m c b = Run.W53 m c b :=
  k4_keep21 m c b ((by decide : ∀ r ∈ keepRefs, r ∉ k4_L21) b hb)

/-! ## The layer's own projection parameters, side by side at its entry -/

variable
  (hW : Run.W53 m c (main_v397 : DevRef τ sig)
    = Cert.KSpec.wcat (Cert.Spec.wSl 3 Cert.Spec.slices_W_3 (Run.W53 m c (main_arg7 : DevRef τ sig)))
        (Cert.Spec.wSl 3 Cert.Spec.slices_W_3 (Run.W53 m c (main_arg9 : DevRef τ sig)))
        (Cert.Spec.wSl 3 Cert.Spec.slices_W_3 (Run.W53 m c (main_arg15 : DevRef τ sig)))
        (Cert.Spec.wSl 3 Cert.Spec.slices_W_3 (Run.W53 m c (main_arg13 : DevRef τ sig))))
  (hB : Run.W53 m c (main_v407 : DevRef τ sig)
    = Cert.KSpec.bcat (Cert.Spec.bSl 3 Cert.Spec.slices_b_3 (Run.W53 m c (main_arg8 : DevRef τ sig)))
        (Cert.Spec.bSl 3 Cert.Spec.slices_b_3 (Run.W53 m c (main_arg10 : DevRef τ sig)))
        (Cert.Spec.bSl 3 Cert.Spec.slices_b_3 (Run.W53 m c (main_arg16 : DevRef τ sig)))
        (Cert.Spec.bSl 3 Cert.Spec.slices_b_3 (Run.W53 m c (main_arg14 : DevRef τ sig))))
include hW hB

/-! ## The fused projection -/

theorem k4_w6_proj : Run.W54 m c main_v408 = k4_proj m c := by
  rw [Run.W54_at0, Val.arr17_3_eq (Run.T53 m) c]
  show Cert.KSpec.Glin128 (Run.W53 m c main_v381) (Run.W53 m c main_v397) (Run.W53 m c main_v407) = _
  rw [hW, hB]
  rfl

/-! ## The column blocks, the gathers, the packings, the edge parameters -/

/-- The first operand of the edge region: the A block gathered at the targets, packed. -/
theorem k4_w9_a0 :
    Run.W57 m c main_v442
      = Cert.KSpec.packE (Cert.Spec.gatherRows (Cert.KSpec.colsA (k4_proj m c)) (k4_dst m c)) := by
  refine (KHost.hostOps18_v442 (Run.W54 m c)).trans ?_
  rw [k4_w6_proj m c hW hB, k4_keep6 m c main_v3 (by decide)]

/-- The second: the left half of the B and V blocks gathered at the sources, packed. -/
theorem k4_w9_a1 :
    Run.W57 m c main_v443
      = Cert.KSpec.packE (Cert.KSpec.left32 (Cert.KSpec.gatherRows64 (Cert.KSpec.colsBV (k4_proj m c)) (k4_src m c))) := by
  refine (KHost.hostOps18_v443 (Run.W54 m c)).trans ?_
  rw [k4_w6_proj m c hW hB, k4_keep6 m c main_v1 (by decide)]

/-- The third: the edge features, packed. -/
theorem k4_w9_a2 : Run.W57 m c main_v445 = Cert.KSpec.packE (k4_e m c) := by
  refine (KHost.hostOps18_v445 (Run.W54 m c)).trans ?_
  rw [k4_keep6 m c main_v388 (by decide)]

/-- The fourth: the right half of the gathered B and V blocks, packed. -/
theorem k4_w9_a3 :
    Run.W57 m c main_v444
      = Cert.KSpec.packE (Cert.KSpec.right32 (Cert.KSpec.gatherRows64 (Cert.KSpec.colsBV (k4_proj m c)) (k4_src m c))) := by
  refine (KHost.hostOps18_v444 (Run.W54 m c)).trans ?_
  rw [k4_w6_proj m c hW hB, k4_keep6 m c main_v1 (by decide)]

/-- The fifth: the block-diagonal edge weight. -/
theorem k4_w9_a4 : Run.W57 m c main_v436 = Cert.KSpec.kron Cert.KSpec.eye4 (k4_C m c) := by
  refine (KHost.hostOps18_v436 (Run.W54 m c)).trans ?_
  rw [k4_keep6 m c main_arg11 (by decide)]

/-- The sixth: the edge bias repeated four times, as one row. -/
theorem k4_w9_a5 : Run.W57 m c main_v446 = Cert.KSpec.row128 (Cert.KSpec.tile4 (k4_bC m c)) := by
  refine (KHost.hostOps18_v446 (Run.W54 m c)).trans ?_
  rw [k4_keep6 m c main_arg12 (by decide)]

/-- The U block of the projection. -/
theorem k4_w9_colsU : Run.W57 m c main_v411 = Cert.KSpec.colsU (k4_proj m c) := by
  refine (KHost.hostOps18_v411 (Run.W54 m c)).trans ?_
  rw [k4_w6_proj m c hW hB]

/-! ## The edge region's three outputs -/

theorem k4_w10_new : Run.W58 m c main_v447_0 = k4_edgeNew m c := by
  rw [Run.W58_at0, Val.arr18_6_eq (Run.T57 m) c]
  show Cert.KSpec.GedgeNew (Run.W57 m c main_v442) (Run.W57 m c main_v443) (Run.W57 m c main_v445)
    (Run.W57 m c main_v436) (Run.W57 m c main_v446) = _
  rw [k4_w9_a0 m c hW hB, k4_w9_a1 m c hW hB, k4_w9_a2 m c hW hB, k4_w9_a4 m c hW hB, k4_w9_a5 m c hW hB]
  rfl

theorem k4_w10_sig : Run.W58 m c main_v447_1 = k4_edgeSig m c := by
  rw [Run.W58_at1, Val.arr18_7_eq (Run.T57 m) c]
  show Cert.KSpec.GedgeSig (Run.W57 m c main_v442) (Run.W57 m c main_v443) (Run.W57 m c main_v445)
    (Run.W57 m c main_v436) (Run.W57 m c main_v446) = _
  rw [k4_w9_a0 m c hW hB, k4_w9_a1 m c hW hB, k4_w9_a2 m c hW hB, k4_w9_a4 m c hW hB, k4_w9_a5 m c hW hB]
  rfl

theorem k4_w10_num : Run.W58 m c main_v447_2 = k4_edgeNum m c := by
  rw [Run.W58_at2, Val.arr18_8_eq (Run.T57 m) c]
  show Cert.KSpec.GedgeNum (Run.W57 m c main_v442) (Run.W57 m c main_v443) (Run.W57 m c main_v445) (Run.W57 m c main_v444)
    (Run.W57 m c main_v436) (Run.W57 m c main_v446) = _
  rw [k4_w9_a0 m c hW hB, k4_w9_a1 m c hW hB, k4_w9_a2 m c hW hB, k4_w9_a3 m c hW hB, k4_w9_a4 m c hW hB, k4_w9_a5 m c hW hB]
  rfl

/-! ## The unpackings and the segment sums -/

/-- The new edge features, unpacked. -/
theorem k4_w11_enew : Run.W59 m c main_v448 = Cert.KSpec.unpackE (k4_edgeNew m c) := by
  refine (KHost.hostOps19_v448 (Run.W58 m c)).trans ?_
  rw [k4_w10_new m c hW hB]

/-- The node region's three operands. -/
theorem k4_w11_uh : Run.W59 m c main_v457 = Cert.KSpec.packN (Cert.KSpec.colsU (k4_proj m c)) := by
  refine (KHost.hostOps19_v457 (Run.W58 m c)).trans ?_
  rw [Run.W58_of_ne m c main_v411 (by decide) (by decide) (by decide), k4_w9_colsU m c hW hB]
theorem k4_w11_num :
    Run.W59 m c main_v458
      = Cert.KSpec.packN (Cert.Spec.segSum (Cert.KSpec.unpackE (k4_edgeNum m c)) (k4_dst m c)) := by
  refine (KHost.hostOps19_v458 (Run.W58 m c)).trans ?_
  rw [k4_w10_num m c hW hB, k4_keep10 m c main_v3 (by decide)]
theorem k4_w11_den :
    Run.W59 m c main_v459
      = Cert.KSpec.packN (Cert.Spec.segSum (Cert.KSpec.unpackE (k4_edgeSig m c)) (k4_dst m c)) := by
  refine (KHost.hostOps19_v459 (Run.W58 m c)).trans ?_
  rw [k4_w10_sig m c hW hB, k4_keep10 m c main_v3 (by decide)]

/-! ## The node region -/

theorem k4_w12_node : Run.W60 m c main_v460 = k4_nodeNew m c := by
  rw [Run.W60_at0, Val.arr19_3_eq (Run.T59 m) c]
  show Cert.KSpec.Gnode (Run.W59 m c main_v457) (Run.W59 m c main_v458) (Run.W59 m c main_v459) = _
  rw [k4_w11_uh m c hW hB, k4_w11_num m c hW hB, k4_w11_den m c hW hB]
  rfl

/-- The unpacked new edge features are still there after the node region. -/
theorem k4_w12_enew : Run.W60 m c main_v448 = Cert.KSpec.unpackE (k4_edgeNew m c) :=
  (Run.W60_of_ne m c main_v448 (by decide)).trans (k4_w11_enew m c hW hB)

/-! ## The column statistics and the normalisation parameters, repeated four times -/

/-- The node normalisation's operands. -/
theorem k4_w17_h : Run.W65 m c main_v502 = Cert.KSpec.packN (k4_h m c) := by
  refine (KHost.hostOps20_v502 (Run.W60 m c)).trans ?_
  rw [k4_keep12 m c main_v381 (by decide)]
theorem k4_w17_muN :
    Run.W65 m c main_v503
      = Cert.KSpec.row128 (Cert.KSpec.tile4 (Cert.Spec.meanN (Cert.KSpec.unpackN (k4_nodeNew m c)))) := by
  refine (KHost.hostOps20_v503 (Run.W60 m c)).trans ?_
  rw [k4_w12_node m c hW hB]
theorem k4_w17_varN :
    Run.W65 m c main_v504
      = Cert.KSpec.row128 (Cert.KSpec.tile4
          (Cert.Spec.varN (Cert.KSpec.unpackN (k4_nodeNew m c)) (constantI Cert.Spec.S_ 32 0#32))) := by
  refine (KHost.hostOps20_v504 (Run.W60 m c)).trans ?_
  rw [k4_w12_node m c hW hB]
theorem k4_w17_gh : Run.W65 m c main_v505 = Cert.KSpec.row128 (Cert.KSpec.tile4 (k4_gh m c)) := by
  refine (KHost.hostOps20_v505 (Run.W60 m c)).trans ?_
  rw [k4_keep12 m c main_arg17 (by decide)]
theorem k4_w17_bh : Run.W65 m c main_v506 = Cert.KSpec.row128 (Cert.KSpec.tile4 (k4_bh m c)) := by
  refine (KHost.hostOps20_v506 (Run.W60 m c)).trans ?_
  rw [k4_keep12 m c main_arg18 (by decide)]

/-- The edge normalisation's parameters, before their reshaping to one row. -/
theorem k4_w17_muE :
    Run.W65 m c main_v488 = Cert.KSpec.tile4 (Cert.Spec.meanE (Cert.KSpec.unpackE (k4_edgeNew m c))) := by
  refine (KHost.hostOps20_v488 (Run.W60 m c)).trans ?_
  rw [k4_w12_enew m c hW hB]
theorem k4_w17_varE :
    Run.W65 m c main_v491
      = Cert.KSpec.tile4 (Cert.Spec.varE (Cert.KSpec.unpackE (k4_edgeNew m c)) (constantI Cert.Spec.S_ 32 0#32)) := by
  refine (KHost.hostOps20_v491 (Run.W60 m c)).trans ?_
  rw [k4_w12_enew m c hW hB]
theorem k4_w17_ge : Run.W65 m c main_v496 = Cert.KSpec.tile4 (k4_ge m c) := by
  refine (KHost.hostOps20_v496 (Run.W60 m c)).trans ?_
  rw [k4_keep12 m c main_arg19 (by decide)]
theorem k4_w17_be : Run.W65 m c main_v501 = Cert.KSpec.tile4 (k4_be m c) := by
  refine (KHost.hostOps20_v501 (Run.W60 m c)).trans ?_
  rw [k4_keep12 m c main_arg20 (by decide)]

/-- The node region's output is still there. -/
theorem k4_w17_node : Run.W65 m c main_v460 = k4_nodeNew m c :=
  (k4_s17 m c main_v460 (by decide) (by decide) (by decide) (by decide) (by decide)).trans (k4_w12_node m c hW hB)

/-! ## The node normalise-and-add region -/

theorem k4_w18_bnN :
    Run.W66 m c main_v507
      = Cert.KSpec.GbnN (k4_nodeNew m c) (Cert.KSpec.packN (k4_h m c))
          (Cert.KSpec.row128 (Cert.KSpec.tile4 (Cert.Spec.meanN (Cert.KSpec.unpackN (k4_nodeNew m c)))))
          (Cert.KSpec.row128 (Cert.KSpec.tile4
            (Cert.Spec.varN (Cert.KSpec.unpackN (k4_nodeNew m c)) (constantI Cert.Spec.S_ 32 0#32))))
          (Cert.KSpec.row128 (Cert.KSpec.tile4 (k4_gh m c))) (Cert.KSpec.row128 (Cert.KSpec.tile4 (k4_bh m c))) := by
  rw [Run.W66_at0, Val.arr20_6_eq (Run.T65 m) c]
  show Cert.KSpec.GbnN (Run.W65 m c main_v460) (Run.W65 m c main_v502) (Run.W65 m c main_v503) (Run.W65 m c main_v504)
    (Run.W65 m c main_v505) (Run.W65 m c main_v506) = _
  rw [k4_w17_node m c hW hB, k4_w17_h m c hW hB, k4_w17_muN m c hW hB, k4_w17_varN m c hW hB, k4_w17_gh m c hW hB,
    k4_w17_bh m c hW hB]

/-! ## The node result unpacked; the edge normalisation's operands -/

/-- The layer's node result. -/
theorem k4_w19_h :
    Run.W67 m c main_v508 = Cert.KSpec.kbnN (k4_nodeNew m c) (k4_h m c) (k4_gh m c) (k4_bh m c) := by
  refine (KHost.hostOps21_v508 (Run.W66 m c)).trans ?_
  rw [k4_w18_bnN m c hW hB]
  rfl

theorem k4_w19_e : Run.W67 m c main_v509 = Cert.KSpec.packE (k4_e m c) := by
  refine (KHost.hostOps21_v509 (Run.W66 m c)).trans ?_
  rw [k4_keep18 m c main_v388 (by decide)]
theorem k4_w19_muE :
    Run.W67 m c main_v510
      = Cert.KSpec.row128 (Cert.KSpec.tile4 (Cert.Spec.meanE (Cert.KSpec.unpackE (k4_edgeNew m c)))) := by
  refine (KHost.hostOps21_v510 (Run.W66 m c)).trans ?_
  rw [Run.W66_of_ne m c main_v488 (by decide), k4_w17_muE m c hW hB]
theorem k4_w19_varE :
    Run.W67 m c main_v511
      = Cert.KSpec.row128 (Cert.KSpec.tile4
          (Cert.Spec.varE (Cert.KSpec.unpackE (k4_edgeNew m c)) (constantI Cert.Spec.S_ 32 0#32))) := by
  refine (KHost.hostOps21_v511 (Run.W66 m c)).trans ?_
  rw [Run.W66_of_ne m c main_v491 (by decide), k4_w17_varE m c hW hB]
theorem k4_w19_ge : Run.W67 m c main_v512 = Cert.KSpec.row128 (Cert.KSpec.tile4 (k4_ge m c)) := by
  refine (KHost.hostOps21_v512 (Run.W66 m c)).trans ?_
  rw [Run.W66_of_ne m c main_v496 (by decide), k4_w17_ge m c hW hB]
theorem k4_w19_be : Run.W67 m c main_v513 = Cert.KSpec.row128 (Cert.KSpec.tile4 (k4_be m c)) := by
  refine (KHost.hostOps21_v513 (Run.W66 m c)).trans ?_
  rw [Run.W66_of_ne m c main_v501 (by decide), k4_w17_be m c hW hB]

/-- The packed new edge features are still there. -/
theorem k4_w19_enew : Run.W67 m c main_v447_0 = k4_edgeNew m c :=
  (k4_s19 m c main_v447_0 (by decide)).trans
    ((Run.W66_of_ne m c main_v447_0 (by decide)).trans
      ((k4_s17 m c main_v447_0 (by decide) (by decide) (by decide) (by decide) (by decide)).trans
        ((Run.W60_of_ne m c main_v447_0 (by decide)).trans
          ((k4_s11 m c main_v447_0 (by decide)).trans (k4_w10_new m c hW hB)))))

/-! ## The edge normalise-and-add region -/

theorem k4_w20_bnE :
    Run.W68 m c main_v514
      = Cert.KSpec.GbnE (k4_edgeNew m c) (Cert.KSpec.packE (k4_e m c))
          (Cert.KSpec.row128 (Cert.KSpec.tile4 (Cert.Spec.meanE (Cert.KSpec.unpackE (k4_edgeNew m c)))))
          (Cert.KSpec.row128 (Cert.KSpec.tile4
            (Cert.Spec.varE (Cert.KSpec.unpackE (k4_edgeNew m c)) (constantI Cert.Spec.S_ 32 0#32))))
          (Cert.KSpec.row128 (Cert.KSpec.tile4 (k4_ge m c))) (Cert.KSpec.row128 (Cert.KSpec.tile4 (k4_be m c))) := by
  rw [Run.W68_at0, Val.arr21_6_eq (Run.T67 m) c]
  show Cert.KSpec.GbnE (Run.W67 m c main_v447_0) (Run.W67 m c main_v509) (Run.W67 m c main_v510) (Run.W67 m c main_v511)
    (Run.W67 m c main_v512) (Run.W67 m c main_v513) = _
  rw [k4_w19_enew m c hW hB, k4_w19_e m c hW hB, k4_w19_muE m c hW hB, k4_w19_varE m c hW hB, k4_w19_ge m c hW hB,
    k4_w19_be m c hW hB]

/-! ## The edge result unpacked -/

/-- The layer's edge result. -/
theorem k4_w21_e :
    Run.W69 m c main_v515 = Cert.KSpec.kbnE (k4_edgeNew m c) (k4_e m c) (k4_ge m c) (k4_be m c) := by
  refine (KHost.hostOps22_v515 (Run.W68 m c)).trans ?_
  rw [k4_w20_bnE m c hW hB]
  rfl

/-! ## The layer -/

/-- The node features after layer 4. -/
theorem readK4_h :
    Run.W69 m c (main_v508 : DevRef τ sig)
      = (Cert.KSpec.klayerAt 3 Cert.Spec.slices_W_3 Cert.Spec.slices_b_3
          (Run.W53 m c (main_v381 : DevRef τ sig)) (Run.W53 m c (main_v388 : DevRef τ sig))
          (Run.W53 m c (main_v1 : DevRef τ sig)) (Run.W53 m c (main_v3 : DevRef τ sig))
          (Run.W53 m c (main_arg7 : DevRef τ sig)) (Run.W53 m c (main_arg8 : DevRef τ sig))
          (Run.W53 m c (main_arg9 : DevRef τ sig)) (Run.W53 m c (main_arg10 : DevRef τ sig))
          (Run.W53 m c (main_arg11 : DevRef τ sig)) (Run.W53 m c (main_arg12 : DevRef τ sig))
          (Run.W53 m c (main_arg13 : DevRef τ sig)) (Run.W53 m c (main_arg14 : DevRef τ sig))
          (Run.W53 m c (main_arg15 : DevRef τ sig)) (Run.W53 m c (main_arg16 : DevRef τ sig))
          (Run.W53 m c (main_arg17 : DevRef τ sig)) (Run.W53 m c (main_arg18 : DevRef τ sig))
          (Run.W53 m c (main_arg19 : DevRef τ sig)) (Run.W53 m c (main_arg20 : DevRef τ sig))).1 :=
  (k4_s21 m c main_v508 (by decide)).trans
    ((Run.W68_of_ne m c main_v508 (by decide)).trans (k4_w19_h m c hW hB))

/-- The edge features after layer 4. -/
theorem readK4_e :
    Run.W69 m c (main_v515 : DevRef τ sig)
      = (Cert.KSpec.klayerAt 3 Cert.Spec.slices_W_3 Cert.Spec.slices_b_3
          (Run.W53 m c (main_v381 : DevRef τ sig)) (Run.W53 m c (main_v388 : DevRef τ sig))
          (Run.W53 m c (main_v1 : DevRef τ sig)) (Run.W53 m c (main_v3 : DevRef τ sig))
          (Run.W53 m c (main_arg7 : DevRef τ sig)) (Run.W53 m c (main_arg8 : DevRef τ sig))
          (Run.W53 m c (main_arg9 : DevRef τ sig)) (Run.W53 m c (main_arg10 : DevRef τ sig))
          (Run.W53 m c (main_arg11 : DevRef τ sig)) (Run.W53 m c (main_arg12 : DevRef τ sig))
          (Run.W53 m c (main_arg13 : DevRef τ sig)) (Run.W53 m c (main_arg14 : DevRef τ sig))
          (Run.W53 m c (main_arg15 : DevRef τ sig)) (Run.W53 m c (main_arg16 : DevRef τ sig))
          (Run.W53 m c (main_arg17 : DevRef τ sig)) (Run.W53 m c (main_arg18 : DevRef τ sig))
          (Run.W53 m c (main_arg19 : DevRef τ sig)) (Run.W53 m c (main_arg20 : DevRef τ sig))).2 :=
  k4_w21_e m c hW hB

end Cert.KernelIdeal.KRead

end
-- ==== Proof.Pay22.lean ====
import proofs.«425355_j88287347737110_2_alg».proof.Proof.Gen.KernelIdeal.Skeleton
import Idealize.ShloMosaic.Lib.Pipeline.Value
import Idealize.ShloMosaic.Lib.ValueIdx
import Idealize.ShloMosaic.PureOps.Ideal.Laws

/-! # The edge-score body's arithmetic, read at an index over the extended reals

The body's stored value at row `p` of a block is
`∑ₖ max(∑ₐ hs[p,a]·W₁ˢ[a,k] + ∑ₐ hd[p,a]·W₁ᵈ[a,k] + ∑ₐ e[p,a]·W₁ᵉ[a,k] + b₁[0,k], 0)·w₂[k,0] + b₂[0,0]`:
each matrix product into the zero accumulator is its contraction's sum, re-indexed by the contracted coordinate; the
format changes are the identity on extended reals; the two biases are broadcasts of a row and of a scalar. -/

noncomputable section

open scoped BigOperators

namespace Cert.KernelIdeal.Val

open Cert.KernelIdeal Cert.KernelIdeal.Gen
open Idealize.ShloMosaic Idealize.ShloMosaic.ValueIdx

/-! ## The hidden layer's products, `[5000,32]·[32,32]`: the operand indices, axis by axis -/

theorem lhs_hid_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide),
    dif_pos (show (0 : Fin S5000x32.rank) ∈ dot_S5000x32_S32x32_S5000x32_1_0_0_1_n_n.lhsNonContracting by decide)]
  rfl
theorem lhs_hid_1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
theorem rhs_hid_0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
theorem rhs_hid_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide),
    dif_pos (show (1 : Fin S32x32.rank) ∈ dot_S5000x32_S32x32_S5000x32_1_0_0_1_n_n.rhsNonContracting by decide)]
  rfl

/-! ## The output product, `[5000,32]·[32,1]` -/

theorem lhs_out_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide),
    dif_pos (show (0 : Fin S5000x32.rank) ∈ dot_S5000x32_S32x1_S5000x1_1_0_0_1_n_n.lhsNonContracting by decide)]
  rfl
theorem lhs_out_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
theorem rhs_out_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
theorem rhs_out_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide),
    dif_pos (show (1 : Fin S32x1.rank) ∈ dot_S5000x32_S32x1_S5000x1_1_0_0_1_n_n.rhsNonContracting by decide)]
  rfl

/-! ## The products at an index -/

/-- A hidden-layer product into the zero accumulator, at row `p` and column `k`: the sum over the contracted coordinate. -/
theorem hid_matmul_apply (x : FVec Ideal S5000x32 .bf16) (w : FVec Ideal S32x32 .bf16) (p : Fin 5000) (k : Fin 32) :
    matmul dot_S5000x32_S32x32_S5000x32_1_0_0_1_n_n none x w (constant (F := Ideal) S5000x32 .f32 0x00000000#32) (ix2 p k)
      = ∑ a : Fin 32, x (ix2 p a) * w (ix2 a k) := by
  simp only [matmul]
  rw [Ideal.matmul_constant_zero_apply, ← Equiv.sum_comp (contrEquiv1 dot_S5000x32_S32x32_S5000x32_1_0_0_1_n_n 32 rfl rfl).symm]
  refine Finset.sum_congr rfl fun a _ => ?_
  have hk := contrEquiv1_symm_val dot_S5000x32_S32x32_S5000x32_1_0_0_1_n_n 32 rfl rfl a
  have el : dot_S5000x32_S32x32_S5000x32_1_0_0_1_n_n.lhsIdx (ix2 p k) ((contrEquiv1 dot_S5000x32_S32x32_S5000x32_1_0_0_1_n_n 32 rfl rfl).symm a) = ix2 p a := funext fun b => Fin.ext (by
    match b with
    | ⟨0, _⟩ => exact lhs_hid_0 _ _
    | ⟨1, _⟩ => exact (lhs_hid_1 _ _).trans hk)
  have er : dot_S5000x32_S32x32_S5000x32_1_0_0_1_n_n.rhsIdx (ix2 p k) ((contrEquiv1 dot_S5000x32_S32x32_S5000x32_1_0_0_1_n_n 32 rfl rfl).symm a) = ix2 a k := funext fun b => Fin.ext (by
    match b with
    | ⟨0, _⟩ => exact (rhs_hid_0 _ _).trans hk
    | ⟨1, _⟩ => exact rhs_hid_1 _ _)
  rw [el, er]

/-- The output product into the zero accumulator, at row `p` and its one column: the sum over the hidden coordinate. -/
theorem out_matmul_apply (x : FVec Ideal S5000x32 .bf16) (w : FVec Ideal S32x1 .bf16) (p : Fin 5000) (k : Fin 1) :
    matmul dot_S5000x32_S32x1_S5000x1_1_0_0_1_n_n none x w (constant (F := Ideal) S5000x1 .f32 0x00000000#32) (ix2 p k)
      = ∑ a : Fin 32, x (ix2 p a) * w (ix2 a k) := by
  simp only [matmul]
  rw [Ideal.matmul_constant_zero_apply, ← Equiv.sum_comp (contrEquiv1 dot_S5000x32_S32x1_S5000x1_1_0_0_1_n_n 32 rfl rfl).symm]
  refine Finset.sum_congr rfl fun a _ => ?_
  have hk := contrEquiv1_symm_val dot_S5000x32_S32x1_S5000x1_1_0_0_1_n_n 32 rfl rfl a
  have el : dot_S5000x32_S32x1_S5000x1_1_0_0_1_n_n.lhsIdx (ix2 p k) ((contrEquiv1 dot_S5000x32_S32x1_S5000x1_1_0_0_1_n_n 32 rfl rfl).symm a) = ix2 p a := funext fun b => Fin.ext (by
    match b with
    | ⟨0, _⟩ => exact lhs_out_0 _ _
    | ⟨1, _⟩ => exact (lhs_out_1 _ _).trans hk)
  have er : dot_S5000x32_S32x1_S5000x1_1_0_0_1_n_n.rhsIdx (ix2 p k) ((contrEquiv1 dot_S5000x32_S32x1_S5000x1_1_0_0_1_n_n 32 rfl rfl).symm a) = ix2 a k := funext fun b => Fin.ext (by
    match b with
    | ⟨0, _⟩ => exact (rhs_out_0 _ _).trans hk
    | ⟨1, _⟩ => exact rhs_out_1 _ _)
  rw [el, er]

/-! ## The biases at an index -/

/-- The hidden bias row, broadcast down the rows. -/
theorem bias1_apply (v23 : FVec Ideal S1x32 .f32) (p : Fin 5000) (k : Fin 32) :
    broadcastTo S5000x32 (shapeCast S1x32 v23 shapeCasts_S1x32_S1x32) broadcasts_S1x32_S5000x32 (ix2 p k) = v23 (ix2 0 k) := by
  rw [shapeCast_self]
  refine broadcastTo_apply v23 broadcasts_S1x32_S5000x32 (ix2 p k) (ix2 0 k) fun a => ?_
  match a with
  | ⟨0, _⟩ => rfl
  | ⟨1, _⟩ => rfl

/-- The output bias scalar, broadcast down the rows. -/
theorem bias2_apply (v33 : FVec Ideal S1x1 .f32) (p : Fin 5000) (j : Fin 1) :
    broadcastTo S5000x1 (shapeCast S1x1 v33 shapeCasts_S1x1_S1x1) broadcasts_S1x1_S5000x1 (ix2 p j) = v33 (ix2 0 0) := by
  rw [shapeCast_self]
  refine broadcastTo_apply v33 broadcasts_S1x1_S5000x1 (ix2 p j) (ix2 0 0) fun a => ?_
  match a with
  | ⟨0, _⟩ => rfl
  | ⟨1, _⟩ => rfl

/-! ## The payloads at an index -/

/-- The second product's payload: the hidden layer (three products, the bias row, the maximum with zero) contracted
    with the output column. -/
theorem pay2_apply (v0 v3 v6 : FVec Ideal S5000x32 .f32) (v9 v12 v15 : FVec Ideal S32x32 .f32) (v23 : FVec Ideal S1x32 .f32)
    (v30 : FVec Ideal S32x1 .f32) (p : Fin 5000) (j : Fin 1) :
    k22_pay2 (F := Ideal) v0 v3 v6 v9 v12 v15 v23 v30 (ix2 p j)
      = ∑ k : Fin 32, max ((∑ a : Fin 32, v0 (ix2 p a) * v9 (ix2 a k)) + (∑ a : Fin 32, v3 (ix2 p a) * v12 (ix2 a k))
            + (∑ a : Fin 32, v6 (ix2 p a) * v15 (ix2 a k)) + v23 (ix2 0 k)) (Ideal.ofBits .f32 0x00000000#32)
          * v30 (ix2 k j) := by
  unfold k22_pay2
  refine (out_matmul_apply _ _ p j).trans ?_
  refine Finset.sum_congr rfl fun k _ => ?_
  rw [truncf_apply, truncf_apply, maximumf_apply, addf_apply, addf_apply, addf_apply, broadcast_apply,
    hid_matmul_apply, hid_matmul_apply, hid_matmul_apply, bias1_apply]
  simp only [truncf_apply, shapeCast_self]
  rfl

/-- The stored value: the second product plus the broadcast scalar bias. -/
theorem pay_apply (v0 v3 v6 : FVec Ideal S5000x32 .f32) (v9 v12 v15 : FVec Ideal S32x32 .f32) (v23 : FVec Ideal S1x32 .f32)
    (v30 : FVec Ideal S32x1 .f32) (v33 : FVec Ideal S1x1 .f32) (p : Fin 5000) (j : Fin 1) :
    k22_pay1 (F := Ideal) (k22_pay2 v0 v3 v6 v9 v12 v15 v23 v30) (k22_pay3 v33) (ix2 p j)
      = (∑ k : Fin 32, max ((∑ a : Fin 32, v0 (ix2 p a) * v9 (ix2 a k)) + (∑ a : Fin 32, v3 (ix2 p a) * v12 (ix2 a k))
            + (∑ a : Fin 32, v6 (ix2 p a) * v15 (ix2 a k)) + v23 (ix2 0 k)) (Ideal.ofBits .f32 0x00000000#32)
          * v30 (ix2 k j)) + v33 (ix2 0 0) := by
  unfold k22_pay1 k22_pay3
  rw [addf_apply, pay2_apply, bias2_apply]

end Cert.KernelIdeal.Val

end
-- ==== Proof.Val22.lean ====
import proofs.«425355_j88287347737110_2_alg».proof.Proof.Reg22
import proofs.«425355_j88287347737110_2_alg».proof.Proof.Pay22
import proofs.«425355_j88287347737110_2_alg».proof.Proof.KSpec
import Idealize.ShloMosaic.Lib.Pipeline.Value
import Idealize.ShloMosaic.Lib.Tactic

/-! # The edge-score region (pipeline 22): what its output array holds after the region, index by index

At the extended reals. Point `t` of the grid writes back rows `5000·t … 5000·t + 4999` of the score column; the 160
points tile the 800000 rows. Row `r` holds the score of row `r` of the three row arrays under the six resident arrays,
each read as the region finds it. -/

set_option maxRecDepth 16384

noncomputable section

open scoped BigOperators

namespace Cert.KernelIdeal.Val

open Cert.KernelIdeal Cert.KernelIdeal.Gen Cert.KernelIdeal.Reg
open Idealize.ShloMosaic Idealize.ShloMosaic.TcCoe Idealize.SL.Sem
open Idealize.ShloMosaic.Pipeline (Dat)
open Idealize.ShloMosaic.ValueIdx

/-! ## The specification -/

/-- The edge score at row `r`: the hidden layer `max(hs·W₁ˢ + hd·W₁ᵈ + e·W₁ᵉ + b₁, 0)` contracted with the output column,
    plus the output bias. -/
def score22 (hs hd e : S800000x32.Idx → EReal) (w1s w1d w1e : S32x32.Idx → EReal) (b1 : S1x32.Idx → EReal)
    (w2 : S32x1.Idx → EReal) (b2 : S1x1.Idx → EReal) (r : Fin 800000) (j : Fin 1) : EReal :=
  (∑ k : Fin 32, max ((∑ a : Fin 32, hs (ix2 r a) * w1s (ix2 a k)) + (∑ a : Fin 32, hd (ix2 r a) * w1d (ix2 a k))
        + (∑ a : Fin 32, e (ix2 r a) * w1e (ix2 a k)) + b1 (ix2 0 k)) (Ideal.ofBits .f32 0x00000000#32) * w2 (ix2 k j))
    + b2 (ix2 0 0)

/-- The score column as one function of the output array's index. -/
def scoreArr22 (hs hd e : S800000x32.Idx → EReal) (w1s w1d w1e : S32x32.Idx → EReal) (b1 : S1x32.Idx → EReal)
    (w2 : S32x1.Idx → EReal) (b2 : S1x1.Idx → EReal) : S800000x1.Idx → EReal :=
  fun i => score22 hs hd e w1s w1d w1e b1 w2 b2 (i 0) (i 1)

variable (V : (c : Dev nD) → (b : Ref sig .tc) → Buf (Elt Ideal) ((c : Thread nD τ).loc b))

/-! ## The index maps over the grid -/

theorem hz22 : (![0, 0] : Fin 2 → Nat) = fun _ => 0 := funext fun a => by fin_cases a <;> rfl

/-- The printed index maps, decided over the 160 points: the three row windows and the output window are at block row
    `t`; the six resident windows stay at block `(0, 0)`. -/
theorem idx_facts22 : ∀ t : Fin cfg22.N,
    win22_0.index t (0 : Fin 2) = t.val ∧ win22_0.index t (1 : Fin 2) = 0
    ∧ win22_1.index t (0 : Fin 2) = t.val ∧ win22_1.index t (1 : Fin 2) = 0
    ∧ win22_2.index t (0 : Fin 2) = t.val ∧ win22_2.index t (1 : Fin 2) = 0
    ∧ win22_3.index t (0 : Fin 2) = 0 ∧ win22_3.index t (1 : Fin 2) = 0
    ∧ win22_4.index t (0 : Fin 2) = 0 ∧ win22_4.index t (1 : Fin 2) = 0
    ∧ win22_5.index t (0 : Fin 2) = 0 ∧ win22_5.index t (1 : Fin 2) = 0
    ∧ win22_6.index t (0 : Fin 2) = 0 ∧ win22_6.index t (1 : Fin 2) = 0
    ∧ win22_7.index t (0 : Fin 2) = 0 ∧ win22_7.index t (1 : Fin 2) = 0
    ∧ win22_8.index t (0 : Fin 2) = 0 ∧ win22_8.index t (1 : Fin 2) = 0
    ∧ win22_9.index t (0 : Fin 2) = t.val ∧ win22_9.index t (1 : Fin 2) = 0 :=
  (by decide +kernel : ∀ t : Fin grid22.N, _)

/-! ## Each input block, read where the output block's rows sit -/

/-- Row `p` of window 0's block at point `t` is the array's row that the output block's row `p` sits at. -/
theorem read22_0 (c : Dev nD) (t : Fin cfg22.N) (p : Fin 5000) (a : Fin 32) (j : Fin 1) :
    iblk22 V c 0 t (ix2 p a) = (V c (Pipeline.arrRef spec22 0)) (ix2 ((((cfg22.win 9).blk t).view.emb (ix2 p j)) 0) a) := by
  obtain ⟨e00, e01, e10, e11, e20, e21, e30, e31, e40, e41, e50, e51, e60, e61, e70, e71, e80, e81, e90, e91⟩ := idx_facts22 t
  show (V c (Pipeline.arrRef spec22 0)) (((cfg22.win 0).blk t).view.emb (ix2 p a)) = _
  refine congrArg (V c (Pipeline.arrRef spec22 0)) (funext fun b => Fin.ext ?_)
  match b with
  | ⟨0, _⟩ => show win22_0.index t (0 : Fin 2) * 5000 + 1 * p.val = win22_9.index t (0 : Fin 2) * 5000 + 1 * p.val; omega
  | ⟨1, _⟩ => show win22_0.index t (1 : Fin 2) * 32 + 1 * a.val = a.val; omega

/-- Row `p` of window 1's block at point `t` is the array's row that the output block's row `p` sits at. -/
theorem read22_1 (c : Dev nD) (t : Fin cfg22.N) (p : Fin 5000) (a : Fin 32) (j : Fin 1) :
    iblk22 V c 1 t (ix2 p a) = (V c (Pipeline.arrRef spec22 1)) (ix2 ((((cfg22.win 9).blk t).view.emb (ix2 p j)) 0) a) := by
  obtain ⟨e00, e01, e10, e11, e20, e21, e30, e31, e40, e41, e50, e51, e60, e61, e70, e71, e80, e81, e90, e91⟩ := idx_facts22 t
  show (V c (Pipeline.arrRef spec22 1)) (((cfg22.win 1).blk t).view.emb (ix2 p a)) = _
  refine congrArg (V c (Pipeline.arrRef spec22 1)) (funext fun b => Fin.ext ?_)
  match b with
  | ⟨0, _⟩ => show win22_1.index t (0 : Fin 2) * 5000 + 1 * p.val = win22_9.index t (0 : Fin 2) * 5000 + 1 * p.val; omega
  | ⟨1, _⟩ => show win22_1.index t (1 : Fin 2) * 32 + 1 * a.val = a.val; omega

/-- Row `p` of window 2's block at point `t` is the array's row that the output block's row `p` sits at. -/
theorem read22_2 (c : Dev nD) (t : Fin cfg22.N) (p : Fin 5000) (a : Fin 32) (j : Fin 1) :
    iblk22 V c 2 t (ix2 p a) = (V c (Pipeline.arrRef spec22 2)) (ix2 ((((cfg22.win 9).blk t).view.emb (ix2 p j)) 0) a) := by
  obtain ⟨e00, e01, e10, e11, e20, e21, e30, e31, e40, e41, e50, e51, e60, e61, e70, e71, e80, e81, e90, e91⟩ := idx_facts22 t
  show (V c (Pipeline.arrRef spec22 2)) (((cfg22.win 2).blk t).view.emb (ix2 p a)) = _
  refine congrArg (V c (Pipeline.arrRef spec22 2)) (funext fun b => Fin.ext ?_)
  match b with
  | ⟨0, _⟩ => show win22_2.index t (0 : Fin 2) * 5000 + 1 * p.val = win22_9.index t (0 : Fin 2) * 5000 + 1 * p.val; omega
  | ⟨1, _⟩ => show win22_2.index t (1 : Fin 2) * 32 + 1 * a.val = a.val; omega

/-- Window 3 is its whole array at every point. -/
theorem read22_3 (c : Dev nD) (t : Fin cfg22.N) (x : Fin 32) (y : Fin 32) :
    iblk22 V c 3 t (ix2 x y) = (V c (Pipeline.arrRef spec22 3)) (ix2 x y) := by
  obtain ⟨e00, e01, e10, e11, e20, e21, e30, e31, e40, e41, e50, e51, e60, e61, e70, e71, e80, e81, e90, e91⟩ := idx_facts22 t
  show (V c (Pipeline.arrRef spec22 3)) (((cfg22.win 3).blk t).view.emb (ix2 x y)) = _
  refine congrArg (V c (Pipeline.arrRef spec22 3)) (funext fun b => Fin.ext ?_)
  match b with
  | ⟨0, _⟩ => show win22_3.index t (0 : Fin 2) * 32 + 1 * x.val = x.val; omega
  | ⟨1, _⟩ => show win22_3.index t (1 : Fin 2) * 32 + 1 * y.val = y.val; omega

/-- Window 4 is its whole array at every point. -/
theorem read22_4 (c : Dev nD) (t : Fin cfg22.N) (x : Fin 32) (y : Fin 32) :
    iblk22 V c 4 t (ix2 x y) = (V c (Pipeline.arrRef spec22 4)) (ix2 x y) := by
  obtain ⟨e00, e01, e10, e11, e20, e21, e30, e31, e40, e41, e50, e51, e60, e61, e70, e71, e80, e81, e90, e91⟩ := idx_facts22 t
  show (V c (Pipeline.arrRef spec22 4)) (((cfg22.win 4).blk t).view.emb (ix2 x y)) = _
  refine congrArg (V c (Pipeline.arrRef spec22 4)) (funext fun b => Fin.ext ?_)
  match b with
  | ⟨0, _⟩ => show win22_4.index t (0 : Fin 2) * 32 + 1 * x.val = x.val; omega
  | ⟨1, _⟩ => show win22_4.index t (1 : Fin 2) * 32 + 1 * y.val = y.val; omega

/-- Window 5 is its whole array at every point. -/
theorem read22_5 (c : Dev nD) (t : Fin cfg22.N) (x : Fin 32) (y : Fin 32) :
    iblk22 V c 5 t (ix2 x y) = (V c (Pipeline.arrRef spec22 5)) (ix2 x y) := by
  obtain ⟨e00, e01, e10, e11, e20, e21, e30, e31, e40, e41, e50, e51, e60, e61, e70, e71, e80, e81, e90, e91⟩ := idx_facts22 t
  show (V c (Pipeline.arrRef spec22 5)) (((cfg22.win 5).blk t).view.emb (ix2 x y)) = _
  refine congrArg (V c (Pipeline.arrRef spec22 5)) (funext fun b => Fin.ext ?_)
  match b with
  | ⟨0, _⟩ => show win22_5.index t (0 : Fin 2) * 32 + 1 * x.val = x.val; omega
  | ⟨1, _⟩ => show win22_5.index t (1 : Fin 2) * 32 + 1 * y.val = y.val; omega

/-- Window 6 is its whole array at every point. -/
theorem read22_6 (c : Dev nD) (t : Fin cfg22.N) (x : Fin 1) (y : Fin 32) :
    iblk22 V c 6 t (ix2 x y) = (V c (Pipeline.arrRef spec22 6)) (ix2 x y) := by
  obtain ⟨e00, e01, e10, e11, e20, e21, e30, e31, e40, e41, e50, e51, e60, e61, e70, e71, e80, e81, e90, e91⟩ := idx_facts22 t
  show (V c (Pipeline.arrRef spec22 6)) (((cfg22.win 6).blk t).view.emb (ix2 x y)) = _
  refine congrArg (V c (Pipeline.arrRef spec22 6)) (funext fun b => Fin.ext ?_)
  match b with
  | ⟨0, _⟩ => show win22_6.index t (0 : Fin 2) * 1 + 1 * x.val = x.val; omega
  | ⟨1, _⟩ => show win22_6.index t (1 : Fin 2) * 32 + 1 * y.val = y.val; omega

/-- Window 7 is its whole array at every point. -/
theorem read22_7 (c : Dev nD) (t : Fin cfg22.N) (x : Fin 32) (y : Fin 1) :
    iblk22 V c 7 t (ix2 x y) = (V c (Pipeline.arrRef spec22 7)) (ix2 x y) := by
  obtain ⟨e00, e01, e10, e11, e20, e21, e30, e31, e40, e41, e50, e51, e60, e61, e70, e71, e80, e81, e90, e91⟩ := idx_facts22 t
  show (V c (Pipeline.arrRef spec22 7)) (((cfg22.win 7).blk t).view.emb (ix2 x y)) = _
  refine congrArg (V c (Pipeline.arrRef spec22 7)) (funext fun b => Fin.ext ?_)
  match b with
  | ⟨0, _⟩ => show win22_7.index t (0 : Fin 2) * 32 + 1 * x.val = x.val; omega
  | ⟨1, _⟩ => show win22_7.index t (1 : Fin 2) * 1 + 1 * y.val = y.val; omega

/-- Window 8 is its whole array at every point. -/
theorem read22_8 (c : Dev nD) (t : Fin cfg22.N) (x : Fin 1) (y : Fin 1) :
    iblk22 V c 8 t (ix2 x y) = (V c (Pipeline.arrRef spec22 8)) (ix2 x y) := by
  obtain ⟨e00, e01, e10, e11, e20, e21, e30, e31, e40, e41, e50, e51, e60, e61, e70, e71, e80, e81, e90, e91⟩ := idx_facts22 t
  show (V c (Pipeline.arrRef spec22 8)) (((cfg22.win 8).blk t).view.emb (ix2 x y)) = _
  refine congrArg (V c (Pipeline.arrRef spec22 8)) (funext fun b => Fin.ext ?_)
  match b with
  | ⟨0, _⟩ => show win22_8.index t (0 : Fin 2) * 1 + 1 * x.val = x.val; omega
  | ⟨1, _⟩ => show win22_8.index t (1 : Fin 2) * 1 + 1 * y.val = y.val; omega

/-! ## What a point writes back -/

/-- Point `t` writes back block `t` of the score column of the arrays as the region finds them. -/
theorem flushed22_9_eq (c : Dev nD) (t : Fin cfg22.N) :
    (dat22 (F := Ideal) V c).flushed 9 t
      = ((cfg22.win 9).blk t).view.read (Elt Ideal) (scoreArr22 (V c (Pipeline.arrRef spec22 0)) (V c (Pipeline.arrRef spec22 1)) (V c (Pipeline.arrRef spec22 2)) (V c (Pipeline.arrRef spec22 3)) (V c (Pipeline.arrRef spec22 4)) (V c (Pipeline.arrRef spec22 5)) (V c (Pipeline.arrRef spec22 6)) (V c (Pipeline.arrRef spec22 7)) (V c (Pipeline.arrRef spec22 8))) := by
  show (cfg22.win 9).cut (grid22.coords t) ((dat22 V c).after 9 t) = _
  rw [after22_9]
  unfold out22_9
  rw [View.canon_unit_zero hz22]
  simp only [View.ld_unit_zero (S := S5000x32) hz22, View.ld_unit_zero (S := S32x32) hz22, View.ld_unit_zero (S := S1x32) hz22,
    View.ld_unit_zero (S := S32x1) hz22, View.ld_unit_zero (S := S1x1) hz22]
  funext y
  obtain ⟨p, j, rfl⟩ : ∃ (p : Fin 5000) (j : Fin 1), y = ix2 p j := ⟨y 0, y 1, eq_ix2 y⟩
  refine (pay_apply (iblk22 V c 0 t) (iblk22 V c 1 t) (iblk22 V c 2 t) (iblk22 V c 3 t) (iblk22 V c 4 t) (iblk22 V c 5 t)
    (iblk22 V c 6 t) (iblk22 V c 7 t) (iblk22 V c 8 t) p j).trans ?_
  show _ = score22 (V c (Pipeline.arrRef spec22 0)) (V c (Pipeline.arrRef spec22 1)) (V c (Pipeline.arrRef spec22 2)) (V c (Pipeline.arrRef spec22 3)) (V c (Pipeline.arrRef spec22 4)) (V c (Pipeline.arrRef spec22 5)) (V c (Pipeline.arrRef spec22 6)) (V c (Pipeline.arrRef spec22 7)) (V c (Pipeline.arrRef spec22 8)) ((((cfg22.win 9).blk t).view.emb (ix2 p j)) 0) ((((cfg22.win 9).blk t).view.emb (ix2 p j)) 1)
  unfold score22
  refine congrArg₂ (· + ·) (Finset.sum_congr rfl fun k _ => congrArg₂ (· * ·) (congrArg₂ max (congrArg₂ (· + ·) (congrArg₂ (· + ·)
    (congrArg₂ (· + ·)
      (Finset.sum_congr rfl fun a _ => congrArg₂ (· * ·) (read22_0 V c t p a j) (read22_3 V c t a k))
      (Finset.sum_congr rfl fun a _ => congrArg₂ (· * ·) (read22_1 V c t p a j) (read22_4 V c t a k)))
      (Finset.sum_congr rfl fun a _ => congrArg₂ (· * ·) (read22_2 V c t p a j) (read22_5 V c t a k)))
      (read22_6 V c t 0 k)) rfl) ?_) (read22_8 V c t 0 0)
  exact (read22_7 V c t k j).trans (congrArg (fun j' : Fin 1 => (V c (Pipeline.arrRef spec22 7)) (ix2 k j')) (Subsingleton.elim _ _))

/-! ## The cover -/

/-- An index of the score column is in point `t`'s block iff each coordinate is in the block's range on its axis. -/
theorem mem_blk22_9 (t : Fin cfg22.N) (i : S800000x1.Idx) :
    i ∈ ((cfg22.win 9).blk t).view.set ↔ ∀ a : Fin 2, win22_9.index t a * S5000x1.size a ≤ (i a).val ∧ (i a).val < win22_9.index t a * S5000x1.size a + S5000x1.size a := by
  show i ∈ ((View.whole main_v535).slice (win22_9.rect t)).set ↔ _
  rw [View.set_slice_whole, Rect.mem_set_unit]
  exact Iff.rfl

/-- Row `r` is in the block of point `r / 5000`: the 160 blocks tile the column. -/
theorem cover22_9_arr (i : S800000x1.Idx) :
    ∃ t : Fin cfg22.N, (cfg22.win 9).flush t = true ∧ i ∈ ((cfg22.win 9).blk t).view.set := by
  have hi0 : (i 0).val < 800000 := idx2_lt0 i
  have hi1 : (i 1).val < 1 := idx2_lt1 i
  have hN : cfg22.N = 160 := N_22
  let t : Fin cfg22.N := ⟨(i 0).val / 5000, by rw [hN]; omega⟩
  obtain ⟨e00, e01, e10, e11, e20, e21, e30, e31, e40, e41, e50, e51, e60, e61, e70, e71, e80, e81, e90, e91⟩ := idx_facts22 t
  have ht : t.val = (i 0).val / 5000 := rfl
  refine ⟨t, flush22_9 t, ?_⟩
  rw [mem_blk22_9]
  intro a
  match a with
  | ⟨0, _⟩ => show win22_9.index t (0 : Fin 2) * 5000 ≤ (i 0).val ∧ (i 0).val < win22_9.index t (0 : Fin 2) * 5000 + 5000; omega
  | ⟨1, _⟩ => show win22_9.index t (1 : Fin 2) * 1 ≤ (i 1).val ∧ (i 1).val < win22_9.index t (1 : Fin 2) * 1 + 1; omega

/-! ## The array after the region -/

/-- The score column after the region is `scoreArr22` of the arrays as the region finds them. -/
theorem arr22_9 (c : Dev nD) :
    (dat22 (F := Ideal) V c).arrAt 9 cfg22.N = scoreArr22 (V c (Pipeline.arrRef spec22 0)) (V c (Pipeline.arrRef spec22 1)) (V c (Pipeline.arrRef spec22 2)) (V c (Pipeline.arrRef spec22 3)) (V c (Pipeline.arrRef spec22 4)) (V c (Pipeline.arrRef spec22 5)) (V c (Pipeline.arrRef spec22 6)) (V c (Pipeline.arrRef spec22 7)) (V c (Pipeline.arrRef spec22 8)) :=
  (dat22 (F := Ideal) V c).arrAt_eq_of_cover 9 (scoreArr22 (V c (Pipeline.arrRef spec22 0)) (V c (Pipeline.arrRef spec22 1)) (V c (Pipeline.arrRef spec22 2)) (V c (Pipeline.arrRef spec22 3)) (V c (Pipeline.arrRef spec22 4)) (V c (Pipeline.arrRef spec22 5)) (V c (Pipeline.arrRef spec22 6)) (V c (Pipeline.arrRef spec22 7)) (V c (Pipeline.arrRef spec22 8)))
    (fun t _ => flushed22_9_eq V c t) cover22_9_arr

/-- Index by index: row `r` of the score column after the region. -/
theorem arr22_9_apply (c : Dev nD) (r : Fin 800000) (j : Fin 1) :
    (dat22 (F := Ideal) V c).arrAt 9 cfg22.N (ValueIdx.ix2 r j)
      = score22 (V c (Pipeline.arrRef spec22 0)) (V c (Pipeline.arrRef spec22 1)) (V c (Pipeline.arrRef spec22 2)) (V c (Pipeline.arrRef spec22 3)) (V c (Pipeline.arrRef spec22 4)) (V c (Pipeline.arrRef spec22 5)) (V c (Pipeline.arrRef spec22 6)) (V c (Pipeline.arrRef spec22 7)) (V c (Pipeline.arrRef spec22 8)) r j := by
  rw [arr22_9]
  rfl

/-- The same against the arrangement's score head: the two functions are one formula. -/
theorem arr22_9_eq (c : Dev nD) :
    (dat22 (F := Ideal) V c).arrAt 9 cfg22.N
      = Cert.KSpec.Ghead (V c (Pipeline.arrRef spec22 0)) (V c (Pipeline.arrRef spec22 1)) (V c (Pipeline.arrRef spec22 2)) (V c (Pipeline.arrRef spec22 3)) (V c (Pipeline.arrRef spec22 4)) (V c (Pipeline.arrRef spec22 5)) (V c (Pipeline.arrRef spec22 6)) (V c (Pipeline.arrRef spec22 7)) (V c (Pipeline.arrRef spec22 8)) :=
  (arr22_9 V c).trans rfl

end Cert.KernelIdeal.Val

end
-- ==== Proof.HRead_head.lean ====
import proofs.«425355_j88287347737110_2_alg».proof.Proof.Gen.KernelIdeal.Launch
import proofs.«425355_j88287347737110_2_alg».proof.Proof.KSpec
import Idealize.ShloMosaic.Lib.StableHlo.Run
import Idealize.ShloMosaic.PureOps.Ideal

/-! # The host stretch before the score head, read at any valuation

The stretch unpacks the last layer's edge features, turns the two index vectors into gather indices (a negative index
wraps by the node count) and gathers the node features at the edges' sources and targets, cuts the first head matrix
into its three row blocks and gives the two biases matrix shapes. Each buffer it leaves for the score region is the
named function of the valuation's earlier buffers; a buffer it does not write keeps its contents. -/

noncomputable section

namespace Cert.KernelIdeal.HRead

open Cert.KernelIdeal Cert.KernelIdeal.Gen
open Idealize.ShloMosaic Idealize.ShloMosaic.TcCoe

variable (V : Valuation τ sig (Elt Ideal))

/-! ## What the stretch writes -/

attribute [local irreducible] Host.gather in
/-- The last layer's packed edge features, unpacked to one edge per row. -/
theorem hr_main_v515 : StableHlo.after (hostOps22 (F := Ideal)) V (main_v515 : DevRef τ sig)
    = Cert.KSpec.unpackE (V (main_v514 : DevRef τ sig)) := by
  dsimp only [hostOps22]
  after_results
  rfl

attribute [local irreducible] Host.gather in
/-- The node features gathered at the edges' sources. -/
theorem hr_main_v522 : StableHlo.after (hostOps22 (F := Ideal)) V (main_v522 : DevRef τ sig)
    = Cert.Spec.gatherRows (V (main_v508 : DevRef τ sig)) (V (main_v1 : DevRef τ sig)) := by
  dsimp only [hostOps22]
  after_results
  rfl

attribute [local irreducible] Host.gather in
/-- The node features gathered at the edges' targets. -/
theorem hr_main_v529 : StableHlo.after (hostOps22 (F := Ideal)) V (main_v529 : DevRef τ sig)
    = Cert.Spec.gatherRows (V (main_v508 : DevRef τ sig)) (V (main_v3 : DevRef τ sig)) := by
  dsimp only [hostOps22]
  after_results
  rfl

attribute [local irreducible] Host.gather in
/-- Rows 0–31 of the first head matrix: the block that multiplies the source features. -/
theorem hr_main_v530 : StableHlo.after (hostOps22 (F := Ideal)) V (main_v530 : DevRef τ sig)
    = extractStridedSlice Cert.Spec.S32x32 ![0, 0] (V (main_arg21 : DevRef τ sig)) Cert.KSpec.slices_W1_0 := by
  dsimp only [hostOps22]
  after_results

attribute [local irreducible] Host.gather in
/-- Rows 32–63: the block that multiplies the target features. -/
theorem hr_main_v531 : StableHlo.after (hostOps22 (F := Ideal)) V (main_v531 : DevRef τ sig)
    = extractStridedSlice Cert.Spec.S32x32 ![32, 0] (V (main_arg21 : DevRef τ sig)) Cert.KSpec.slices_W1_32 := by
  dsimp only [hostOps22]
  after_results

attribute [local irreducible] Host.gather in
/-- Rows 64–95: the block that multiplies the edge features. -/
theorem hr_main_v532 : StableHlo.after (hostOps22 (F := Ideal)) V (main_v532 : DevRef τ sig)
    = extractStridedSlice Cert.Spec.S32x32 ![64, 0] (V (main_arg21 : DevRef τ sig)) Cert.KSpec.slices_W1_64 := by
  dsimp only [hostOps22]
  after_results

attribute [local irreducible] Host.gather in
/-- The hidden bias as a one-row matrix. -/
theorem hr_main_v533 : StableHlo.after (hostOps22 (F := Ideal)) V (main_v533 : DevRef τ sig)
    = Cert.KSpec.row32 (V (main_arg22 : DevRef τ sig)) := by
  dsimp only [hostOps22]
  after_results
  rfl

attribute [local irreducible] Host.gather in
/-- The output bias as a one-by-one matrix. -/
theorem hr_main_v534 : StableHlo.after (hostOps22 (F := Ideal)) V (main_v534 : DevRef τ sig)
    = shapeCast Cert.Spec.S1x1 (V (main_arg24 : DevRef τ sig)) Cert.KSpec.shapeCasts_S1_S1x1 := by
  dsimp only [hostOps22]
  after_results
  rfl

/-! ## What it keeps -/

/-- The references the stretch's operations write. -/
abbrev written22 : List (Ref sig .tc) := [main_v515, main_c_50, main_v516, main_v517, main_c_51, main_v518, main_v519, main_v520, main_v521, main_v522, main_c_52, main_v523, main_v524, main_c_53, main_v525, main_v526, main_v527, main_v528, main_v529, main_v530, main_v531, main_v532, main_v533, main_v534]

theorem writes22 : (hostOps22 (F := Ideal)).Forall fun op => op.writes ⊆ (written22.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]
     exact List.mem_map_of_mem (by decide))

/-- A buffer none of the stretch's operations writes keeps the valuation's contents. -/
theorem hr_keep (r : Ref sig .tc) (h : r ∉ written22) :
    StableHlo.after (hostOps22 (F := Ideal)) V (Proc.devRef .tc r) = V (Proc.devRef .tc r) :=
  StableHlo.after_of_writes_sub hostOps22 V writes22 h

end Cert.KernelIdeal.HRead

end
-- ==== Proof.KReadH.lean ====
import proofs.«425355_j88287347737110_2_alg».proof.Proof.KFold
import proofs.«425355_j88287347737110_2_alg».proof.Proof.Val22
import proofs.«425355_j88287347737110_2_alg».proof.Proof.HRead_head
import proofs.«425355_j88287347737110_2_alg».proof.Proof.KSpec
import proofs.«425355_j88287347737110_2_alg».proof.Proof.KReadDefs

/-! # The score head, read off the kernel program's fold

The last kernel region replaces the score column by the score head of its nine window arrays as it finds them. Seven of
them were written by the host stretch just before it (the two gathers of the node features, the three row blocks of the
first head matrix, the two biases in matrix shapes); the edge features and the output column are read as they stand.
Every operand is named at the same boundary, the one after that stretch: a buffer the stretch reads and does not write
holds there what it held before. -/

noncomputable section

namespace Cert.KernelIdeal.KRead

open Cert.KernelIdeal Cert.KernelIdeal.Gen Cert.KernelIdeal.Run
open Idealize.ShloMosaic Idealize.ShloMosaic.TcCoe

variable (m : (ℓ : Loc nD τ sig) → Buf (Elt Ideal) ℓ) (c : Dev nD)

/-- The score column after the last region is the score head of the node features, the edge features, the two index
    vectors and the head's four parameters, each as the boundary before the region holds it. -/
theorem readKH :
    Run.W70 m c (main_v535 : DevRef τ sig)
      = Cert.KSpec.khead (Run.W69 m c (main_v508 : DevRef τ sig)) (Run.W69 m c (main_v515 : DevRef τ sig)) (Run.W69 m c (main_v1 : DevRef τ sig)) (Run.W69 m c (main_v3 : DevRef τ sig))
          (Run.W69 m c (main_arg21 : DevRef τ sig)) (Run.W69 m c (main_arg22 : DevRef τ sig)) (Run.W69 m c (main_arg23 : DevRef τ sig)) (Run.W69 m c (main_arg24 : DevRef τ sig)) := by
  -- what the stretch does not write it keeps
  have k508 : W69 m c main_v508 = W68 m c main_v508 := HRead.hr_keep (W68 m c) main_v508 (by decide)
  have k1 : W69 m c main_v1 = W68 m c main_v1 := HRead.hr_keep (W68 m c) main_v1 (by decide)
  have k3 : W69 m c main_v3 = W68 m c main_v3 := HRead.hr_keep (W68 m c) main_v3 (by decide)
  have k21 : W69 m c main_arg21 = W68 m c main_arg21 := HRead.hr_keep (W68 m c) main_arg21 (by decide)
  have k22 : W69 m c main_arg22 = W68 m c main_arg22 := HRead.hr_keep (W68 m c) main_arg22 (by decide)
  have k24 : W69 m c main_arg24 = W68 m c main_arg24 := HRead.hr_keep (W68 m c) main_arg24 (by decide)
  -- the seven window arrays the stretch writes
  have e0 : T69 m c (Pipeline.arrRef spec22 0) = Cert.Spec.gatherRows (W69 m c main_v508) (W69 m c main_v1) := by
    rw [k508, k1]; exact HRead.hr_main_v522 (W68 m c)
  have e1 : T69 m c (Pipeline.arrRef spec22 1) = Cert.Spec.gatherRows (W69 m c main_v508) (W69 m c main_v3) := by
    rw [k508, k3]; exact HRead.hr_main_v529 (W68 m c)
  have e3 : T69 m c (Pipeline.arrRef spec22 3) = extractStridedSlice Cert.Spec.S32x32 ![0, 0] (W69 m c main_arg21) Cert.KSpec.slices_W1_0 := by
    rw [k21]; exact HRead.hr_main_v530 (W68 m c)
  have e4 : T69 m c (Pipeline.arrRef spec22 4) = extractStridedSlice Cert.Spec.S32x32 ![32, 0] (W69 m c main_arg21) Cert.KSpec.slices_W1_32 := by
    rw [k21]; exact HRead.hr_main_v531 (W68 m c)
  have e5 : T69 m c (Pipeline.arrRef spec22 5) = extractStridedSlice Cert.Spec.S32x32 ![64, 0] (W69 m c main_arg21) Cert.KSpec.slices_W1_64 := by
    rw [k21]; exact HRead.hr_main_v532 (W68 m c)
  have e6 : T69 m c (Pipeline.arrRef spec22 6) = Cert.KSpec.row32 (W69 m c main_arg22) := by
    rw [k22]; exact HRead.hr_main_v533 (W68 m c)
  have e8 : T69 m c (Pipeline.arrRef spec22 8) = shapeCast Cert.Spec.S1x1 (W69 m c main_arg24) Cert.KSpec.shapeCasts_S1_S1x1 := by
    rw [k24]; exact HRead.hr_main_v534 (W68 m c)
  rw [W70_at0, Val.arr22_9_eq (T69 m) c, e0, e1, e3, e4, e5, e6, e8]
  rfl

end Cert.KernelIdeal.KRead

end
-- ==== Proof.KRead.lean ====
import proofs.«425355_j88287347737110_2_alg».proof.Proof.KFold
import proofs.«425355_j88287347737110_2_alg».proof.Proof.KWhole
import proofs.«425355_j88287347737110_2_alg».proof.Proof.KReadDefs
import proofs.«425355_j88287347737110_2_alg».proof.Proof.KReadP
import proofs.«425355_j88287347737110_2_alg».proof.Proof.KReadL1
import proofs.«425355_j88287347737110_2_alg».proof.Proof.KReadL2
import proofs.«425355_j88287347737110_2_alg».proof.Proof.KReadL3
import proofs.«425355_j88287347737110_2_alg».proof.Proof.KReadL4
import proofs.«425355_j88287347737110_2_alg».proof.Proof.KReadH

/-! The kernel program's result buffer, read off its fold of buffer contents: the input
    projections, four layers and the score head chained, which is the network in the kernel's
    arrangement applied to the launch contents of the 25 arguments. -/

noncomputable section

namespace Cert.KernelIdeal.KRead

open Cert.KernelIdeal Idealize.ShloMosaic Idealize.ShloMosaic.TcCoe Idealize.SL.Sem Cert.Spec Cert.KSpec

variable (m : (ℓ : Loc nD τ sig) → Buf (Elt Ideal) ℓ) (c : Dev nD)

/-- Peel the fold from the result backwards: the head reads layer 4's outputs, each layer reads
    the previous one's outputs and the concatenated weights the previous stage left for it, the
    first reads the input projections; the index vectors and the parameters pass through every
    stage unchanged. -/
theorem kread :
    Run.W70 m c (main_v535 : DevRef τ sig)
      = kwhole (Run.W0 m c (main_arg0 : DevRef τ sig)) (Run.W0 m c (main_arg1 : DevRef τ sig)) (Run.W0 m c (main_arg2 : DevRef τ sig)) (Run.W0 m c (main_arg3 : DevRef τ sig)) (Run.W0 m c (main_arg4 : DevRef τ sig)) (Run.W0 m c (main_arg5 : DevRef τ sig)) (Run.W0 m c (main_arg6 : DevRef τ sig)) (Run.W0 m c (main_arg7 : DevRef τ sig)) (Run.W0 m c (main_arg8 : DevRef τ sig)) (Run.W0 m c (main_arg9 : DevRef τ sig)) (Run.W0 m c (main_arg10 : DevRef τ sig)) (Run.W0 m c (main_arg11 : DevRef τ sig)) (Run.W0 m c (main_arg12 : DevRef τ sig)) (Run.W0 m c (main_arg13 : DevRef τ sig)) (Run.W0 m c (main_arg14 : DevRef τ sig)) (Run.W0 m c (main_arg15 : DevRef τ sig)) (Run.W0 m c (main_arg16 : DevRef τ sig)) (Run.W0 m c (main_arg17 : DevRef τ sig)) (Run.W0 m c (main_arg18 : DevRef τ sig)) (Run.W0 m c (main_arg19 : DevRef τ sig)) (Run.W0 m c (main_arg20 : DevRef τ sig)) (Run.W0 m c (main_arg21 : DevRef τ sig)) (Run.W0 m c (main_arg22 : DevRef τ sig)) (Run.W0 m c (main_arg23 : DevRef τ sig)) (Run.W0 m c (main_arg24 : DevRef τ sig)) := by
  have hW1 : (Run.W5 m c (main_v16 : DevRef τ sig)) = wcat (wSl 0 slices_W_0 (Run.W5 m c (main_arg7 : DevRef τ sig))) (wSl 0 slices_W_0 (Run.W5 m c (main_arg9 : DevRef τ sig))) (wSl 0 slices_W_0 (Run.W5 m c (main_arg15 : DevRef τ sig))) (wSl 0 slices_W_0 (Run.W5 m c (main_arg13 : DevRef τ sig))) := by
    rw [readKP_W m c]; simp (disch := decide) only [readKP_keep m c]
  have hB1 : (Run.W5 m c (main_v26 : DevRef τ sig)) = bcat (bSl 0 slices_b_0 (Run.W5 m c (main_arg8 : DevRef τ sig))) (bSl 0 slices_b_0 (Run.W5 m c (main_arg10 : DevRef τ sig))) (bSl 0 slices_b_0 (Run.W5 m c (main_arg16 : DevRef τ sig))) (bSl 0 slices_b_0 (Run.W5 m c (main_arg14 : DevRef τ sig))) := by
    rw [readKP_B m c]; simp (disch := decide) only [readKP_keep m c]
  rw [readKH m c, readK4_h m c (readK3_W m c) (readK3_B m c), readK4_e m c (readK3_W m c) (readK3_B m c)]
  simp (disch := decide) only [readK4_keep m c]
  rw [readK3_h m c (readK2_W m c) (readK2_B m c), readK3_e m c (readK2_W m c) (readK2_B m c)]
  simp (disch := decide) only [readK3_keep m c]
  rw [readK2_h m c (readK1_W m c) (readK1_B m c), readK2_e m c (readK1_W m c) (readK1_B m c)]
  simp (disch := decide) only [readK2_keep m c]
  rw [readK1_h m c hW1 hB1, readK1_e m c hW1 hB1]
  simp (disch := decide) only [readK1_keep m c]
  rw [readKP_h m c, readKP_e m c, readKP_src m c, readKP_dst m c]
  simp (disch := decide) only [readKP_keep m c]
  rfl

end Cert.KernelIdeal.KRead
-- ==== Proof.RCutP.lean ====
import proofs.«425355_j88287347737110_2_alg».proof.Proof.Gen.ReferenceIdeal
import Idealize.ShloMosaic.Lib.StableHlo.Run

noncomputable section

namespace Cert.ReferenceIdeal.RRead

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxHeartbeats 8000000 in
/-- The prologue of @main: its first twelve operations, which write main_v0 … main_v11 (the two rows of the edge index
    array as vectors at main_v1 and main_v3, the node projection at main_v7, the edge projection at main_v11). -/
abbrev opsP : List (HloOp τ sig (Elt F)) :=
  [ StableHlo.unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg3 main_v4 ((fun l r => Host.dotGeneral dot_S100000x1_S1x32_S100000x32_1_0_0_1_n_n none l r) : (⟨S100000x1, .f32⟩ : BufTy).Contents (Elt F) → (⟨S1x32, .f32⟩ : BufTy).Contents (Elt F) → (⟨S100000x32, .f32⟩ : BufTy).Contents (Elt F)),
    StableHlo.unary main_arg4 main_v5 (broadcastInDim S1x32 ![1] bcast_S32_S1x32_1 : (⟨S32, .f32⟩ : BufTy).Contents (Elt F) → (⟨S1x32, .f32⟩ : BufTy).Contents (Elt F)),
    StableHlo.unary main_v5 main_v6 (broadcastInDim S100000x32 ![0, 1] bcast_S1x32_S100000x32_0_1 : (⟨S1x32, .f32⟩ : BufTy).Contents (Elt F) → (⟨S100000x32, .f32⟩ : BufTy).Contents (Elt F)),
    StableHlo.binary main_v4 main_v6 main_v7 (addf : (⟨S100000x32, .f32⟩ : BufTy).Contents (Elt F) → (⟨S100000x32, .f32⟩ : BufTy).Contents (Elt F) → (⟨S100000x32, .f32⟩ : BufTy).Contents (Elt F)),
    StableHlo.binary main_arg1 main_arg5 main_v8 ((fun l r => Host.dotGeneral dot_S800000x1_S1x32_S800000x32_1_0_0_1_n_n none l r) : (⟨S800000x1, .f32⟩ : BufTy).Contents (Elt F) → (⟨S1x32, .f32⟩ : BufTy).Contents (Elt F) → (⟨S800000x32, .f32⟩ : BufTy).Contents (Elt F)),
    StableHlo.unary main_arg6 main_v9 (broadcastInDim S1x32 ![1] bcast_S32_S1x32_1 : (⟨S32, .f32⟩ : BufTy).Contents (Elt F) → (⟨S1x32, .f32⟩ : BufTy).Contents (Elt F)),
    StableHlo.unary main_v9 main_v10 (broadcastInDim S800000x32 ![0, 1] bcast_S1x32_S800000x32_0_1 : (⟨S1x32, .f32⟩ : BufTy).Contents (Elt F) → (⟨S800000x32, .f32⟩ : BufTy).Contents (Elt F)),
    StableHlo.binary main_v8 main_v10 main_v11 (addf : (⟨S800000x32, .f32⟩ : BufTy).Contents (Elt F) → (⟨S800000x32, .f32⟩ : BufTy).Contents (Elt F) → (⟨S800000x32, .f32⟩ : BufTy).Contents (Elt F)) ]

/-- The reference each operation of the stretch writes, in the list's order: a builder's result operand (of a typed
    reference, the buffer it carries). -/
abbrev opsP_W : List (Ref sig .tc) :=
  [ main_v0, main_v1, main_v2, main_v3, main_v4, main_v5, main_v6, main_v7,
    main_v8, main_v9, main_v10, main_v11 ]

set_option maxRecDepth 16384 in
set_option maxHeartbeats 8000000 in
/-- Each operation writes exactly its result buffer, and that reference stands in the stretch's table: the
    builder's written set is the singleton of its result operand, whose membership in the literal table is
    decided. -/
theorem opsP_writes : (opsP : List (HloOp τ sig (Elt F))).Forall fun op =>
    op.writes ⊆ (opsP_W.map (Proc.devRef (τ := τ) .tc)).toFinset := by
  repeat' apply And.intro
  all_goals exact Finset.singleton_subset_iff.mpr (List.mem_toFinset.mpr (List.mem_map_of_mem (by decide)))

end Cert.ReferenceIdeal.RRead

end
-- ==== Proof.RCutL1.lean ====
import proofs.«425355_j88287347737110_2_alg».proof.Proof.Gen.ReferenceIdeal
import Idealize.ShloMosaic.Lib.StableHlo.Run

noncomputable section

namespace Cert.ReferenceIdeal.RRead

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxHeartbeats 8000000 in
/-- Layer 1 of the network as @main runs it: the operations from the one writing main_v12 through the one writing
    main_v141, in @main's order, constants and the called functions' operations (over main_call0 … main_call3) where they stand. It reads the node and edge features at
    (main_v7, main_v11) and leaves the layer's at (main_v116, main_v141). -/
abbrev opsL1 : List (HloOp τ sig (Elt F)) :=
  [ StableHlo.unary main_arg7 main_v12 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v12 main_v13 rfl shapeCasts_S1x32x32_S32x32,
    StableHlo.binary main_v7 main_v13 main_v14 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg8 main_v15 ((extractStridedSlice S1x32 ![0, 0] · slices_S4x32_S1x32_0_0) : (⟨S4x32, .f32⟩ : BufTy).Contents (Elt F) → (⟨S1x32, .f32⟩ : BufTy).Contents (Elt F)),
    StableHlo.reshape main_v15 main_v16 rfl shapeCasts_S1x32_S32,
    StableHlo.unary main_v16 main_v17 (broadcastInDim S1x32 ![1] bcast_S32_S1x32_1 : (⟨S32, .f32⟩ : BufTy).Contents (Elt F) → (⟨S1x32, .f32⟩ : BufTy).Contents (Elt F)),
    StableHlo.unary main_v17 main_v18 (broadcastInDim S100000x32 ![0, 1] bcast_S1x32_S100000x32_0_1 : (⟨S1x32, .f32⟩ : BufTy).Contents (Elt F) → (⟨S100000x32, .f32⟩ : BufTy).Contents (Elt F)),
    StableHlo.binary main_v14 main_v18 main_v19 (addf : (⟨S100000x32, .f32⟩ : BufTy).Contents (Elt F) → (⟨S100000x32, .f32⟩ : BufTy).Contents (Elt F) → (⟨S100000x32, .f32⟩ : BufTy).Contents (Elt F)),
    StableHlo.unary main_arg9 main_v20 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v20 main_v21 rfl shapeCasts_S1x32x32_S32x32,
    StableHlo.binary main_v7 main_v21 main_v22 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg10 main_v23 ((extractStridedSlice S1x32 ![0, 0] · slices_S4x32_S1x32_0_0) : (⟨S4x32, .f32⟩ : BufTy).Contents (Elt F) → (⟨S1x32, .f32⟩ : BufTy).Contents (Elt F)),
    StableHlo.reshape main_v23 main_v24 rfl shapeCasts_S1x32_S32,
    StableHlo.unary main_v24 main_v25 (broadcastInDim S1x32 ![1] bcast_S32_S1x32_1 : (⟨S32, .f32⟩ : BufTy).Contents (Elt F) → (⟨S1x32, .f32⟩ : BufTy).Contents (Elt F)),
    StableHlo.unary main_v25 main_v26 (broadcastInDim S100000x32 ![0, 1] bcast_S1x32_S100000x32_0_1 : (⟨S1x32, .f32⟩ : BufTy).Contents (Elt F) → (⟨S100000x32, .f32⟩ : BufTy).Contents (Elt F)),
    StableHlo.binary main_v22 main_v26 main_v27 (addf : (⟨S100000x32, .f32⟩ : BufTy).Contents (Elt F) → (⟨S100000x32, .f32⟩ : BufTy).Contents (Elt F) → (⟨S100000x32, .f32⟩ : BufTy).Contents (Elt F)),
    StableHlo.unary main_arg11 main_v28 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v28 main_v29 rfl shapeCasts_S1x32x32_S32x32,
    StableHlo.binary main_v11 main_v29 main_v30 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    StableHlo.unary main_arg12 main_v31 ((extractStridedSlice S1x32 ![0, 0] · slices_S4x32_S1x32_0_0) : (⟨S4x32, .f32⟩ : BufTy).Contents (Elt F) → (⟨S1x32, .f32⟩ : BufTy).Contents (Elt F)),
    StableHlo.reshape main_v31 main_v32 rfl shapeCasts_S1x32_S32,
    StableHlo.unary main_v32 main_v33 (broadcastInDim S1x32 ![1] bcast_S32_S1x32_1 : (⟨S32, .f32⟩ : BufTy).Contents (Elt F) → (⟨S1x32, .f32⟩ : BufTy).Contents (Elt F)),
    StableHlo.unary main_v33 main_v34 (broadcastInDim S800000x32 ![0, 1] bcast_S1x32_S800000x32_0_1 : (⟨S1x32, .f32⟩ : BufTy).Contents (Elt F) → (⟨S800000x32, .f32⟩ : BufTy).Contents (Elt F)),
    StableHlo.binary main_v30 main_v34 main_v35 (addf : (⟨S800000x32, .f32⟩ : BufTy).Contents (Elt F) → (⟨S800000x32, .f32⟩ : BufTy).Contents (Elt F) → (⟨S800000x32, .f32⟩ : BufTy).Contents (Elt F)),
    StableHlo.unary main_arg13 main_v36 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v36 main_v37 rfl shapeCasts_S1x32x32_S32x32,
    StableHlo.binary main_v7 main_v37 main_v38 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg14 main_v39 ((extractStridedSlice S1x32 ![0, 0] · slices_S4x32_S1x32_0_0) : (⟨S4x32, .f32⟩ : BufTy).Contents (Elt F) → (⟨S1x32, .f32⟩ : BufTy).Contents (Elt F)),
    StableHlo.reshape main_v39 main_v40 rfl shapeCasts_S1x32_S32,
    StableHlo.unary main_v40 main_v41 (broadcastInDim S1x32 ![1] bcast_S32_S1x32_1 : (⟨S32, .f32⟩ : BufTy).Contents (Elt F) → (⟨S1x32, .f32⟩ : BufTy).Contents (Elt F)),
    StableHlo.unary main_v41 main_v42 (broadcastInDim S100000x32 ![0, 1] bcast_S1x32_S100000x32_0_1 : (⟨S1x32, .f32⟩ : BufTy).Contents (Elt F) → (⟨S100000x32, .f32⟩ : BufTy).Contents (Elt F)),
    StableHlo.binary main_v38 main_v42 main_v43 (addf : (⟨S100000x32, .f32⟩ : BufTy).Contents (Elt F) → (⟨S100000x32, .f32⟩ : BufTy).Contents (Elt F) → (⟨S100000x32, .f32⟩ : BufTy).Contents (Elt F)),
    StableHlo.unary main_arg15 main_v44 ((extractStridedSlice S1x32x32 ![0, 0, 0] · slices_S4x32x32_S1x32x32_0_0_0) : (⟨S4x32x32, .f32⟩ : BufTy).Contents (Elt F) → (⟨S1x32x32, .f32⟩ : BufTy).Contents (Elt F)),
    StableHlo.reshape main_v44 main_v45 rfl shapeCasts_S1x32x32_S32x32,
    StableHlo.binary main_v7 main_v45 main_v46 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg16 main_v47 ((extractStridedSlice S1x32 ![0, 0] · slices_S4x32_S1x32_0_0) : (⟨S4x32, .f32⟩ : BufTy).Contents (Elt F) → (⟨S1x32, .f32⟩ : BufTy).Contents (Elt F)),
    StableHlo.reshape main_v47 main_v48 rfl shapeCasts_S1x32_S32,
    StableHlo.unary main_v48 main_v49 (broadcastInDim S1x32 ![1] bcast_S32_S1x32_1 : (⟨S32, .f32⟩ : BufTy).Contents (Elt F) → (⟨S1x32, .f32⟩ : BufTy).Contents (Elt F)),
    StableHlo.unary main_v49 main_v50 (broadcastInDim S100000x32 ![0, 1] bcast_S1x32_S100000x32_0_1 : (⟨S1x32, .f32⟩ : BufTy).Contents (Elt F) → (⟨S100000x32, .f32⟩ : BufTy).Contents (Elt F)),
    StableHlo.binary main_v46 main_v50 main_v51 (addf : (⟨S100000x32, .f32⟩ : BufTy).Contents (Elt F) → (⟨S100000x32, .f32⟩ : BufTy).Contents (Elt F) → (⟨S100000x32, .f32⟩ : BufTy).Contents (Elt F)),
    StableHlo.nullary main_c (constantI S_ 32 0#32),
    StableHlo.unary main_c main_v52 (broadcastInDim S800000 ![] bcast_S_S800000 : (⟨S_, .i32⟩ : BufTy).Contents (Elt F) → (⟨S800000, .i32⟩ : BufTy).Contents (Elt F)),
    StableHlo.binary main_v3 main_v52 main_v53 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v54 (broadcastInDim S800000 ![] bcast_S_S800000 : (⟨S_, .i32⟩ : BufTy).Contents (Elt F) → (⟨S800000, .i32⟩ : BufTy).Contents (Elt F)),
    StableHlo.binary main_v3 main_v54 main_v55 (addi : (⟨S800000, .i32⟩ : BufTy).Contents (Elt F) → (⟨S800000, .i32⟩ : BufTy).Contents (Elt F) → (⟨S800000, .i32⟩ : BufTy).Contents (Elt F)),
    StableHlo.ternary main_v53 main_v55 main_v3 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v56 main_v57 (broadcastInDim S800000x1 ![0] bcast_S800000_S800000x1_0 : (⟨S800000, .i32⟩ : BufTy).Contents (Elt F) → (⟨S800000x1, .i32⟩ : BufTy).Contents (Elt F)),
    StableHlo.binary main_v19 main_v57 main_v58 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nullary main_c_1 (constantI S_ 32 0#32),
    StableHlo.unary main_c_1 main_v59 (broadcastInDim S800000 ![] bcast_S_S800000 : (⟨S_, .i32⟩ : BufTy).Contents (Elt F) → (⟨S800000, .i32⟩ : BufTy).Contents (Elt F)),
    StableHlo.binary main_v1 main_v59 main_v60 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 100000#32),
    StableHlo.unary main_c_2 main_v61 (broadcastInDim S800000 ![] bcast_S_S800000 : (⟨S_, .i32⟩ : BufTy).Contents (Elt F) → (⟨S800000, .i32⟩ : BufTy).Contents (Elt F)),
    StableHlo.binary main_v1 main_v61 main_v62 (addi : (⟨S800000, .i32⟩ : BufTy).Contents (Elt F) → (⟨S800000, .i32⟩ : BufTy).Contents (Elt F) → (⟨S800000, .i32⟩ : BufTy).Contents (Elt F)),
    StableHlo.ternary main_v60 main_v62 main_v1 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v63 main_v64 (broadcastInDim S800000x1 ![0] bcast_S800000_S800000x1_0 : (⟨S800000, .i32⟩ : BufTy).Contents (Elt F) → (⟨S800000x1, .i32⟩ : BufTy).Contents (Elt F)),
    StableHlo.binary main_v27 main_v64 main_v65 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v58 main_v65 main_v66 (addf : (⟨S800000x32, .f32⟩ : BufTy).Contents (Elt F) → (⟨S800000x32, .f32⟩ : BufTy).Contents (Elt F) → (⟨S800000x32, .f32⟩ : BufTy).Contents (Elt F)),
    StableHlo.binary main_v66 main_v35 main_v67 (addf : (⟨S800000x32, .f32⟩ : BufTy).Contents (Elt F) → (⟨S800000x32, .f32⟩ : BufTy).Contents (Elt F) → (⟨S800000x32, .f32⟩ : BufTy).Contents (Elt F)),
    StableHlo.unary main_v67 main_v68 (Host.negf : (⟨S800000x32, .f32⟩ : BufTy).Contents (Elt F) → (⟨S800000x32, .f32⟩ : BufTy).Contents (Elt F)),
    StableHlo.unary main_v68 main_v69 (Host.exp : (⟨S800000x32, .f32⟩ : BufTy).Contents (Elt F) → (⟨S800000x32, .f32⟩ : BufTy).Contents (Elt F)),
    StableHlo.nullary main_cst (constant S_ .f32 0x3F800000#32),
    StableHlo.unary main_cst main_v70 (broadcastInDim S800000x32 ![] bcast_S_S800000x32 : (⟨S_, .f32⟩ : BufTy).Contents (Elt F) → (⟨S800000x32, .f32⟩ : BufTy).Contents (Elt F)),
    StableHlo.binary main_v70 main_v69 main_v71 (addf : (⟨S800000x32, .f32⟩ : BufTy).Contents (Elt F) → (⟨S800000x32, .f32⟩ : BufTy).Contents (Elt F) → (⟨S800000x32, .f32⟩ : BufTy).Contents (Elt F)),
    StableHlo.nullary main_cst_3 (constant S_ .f32 0x3F800000#32),
    StableHlo.unary main_cst_3 main_v72 (broadcastInDim S800000x32 ![] bcast_S_S800000x32 : (⟨S_, .f32⟩ : BufTy).Contents (Elt F) → (⟨S800000x32, .f32⟩ : BufTy).Contents (Elt F)),
    StableHlo.binary main_v72 main_v71 main_v73 (Host.divf : (⟨S800000x32, .f32⟩ : BufTy).Contents (Elt F) → (⟨S800000x32, .f32⟩ : BufTy).Contents (Elt F) → (⟨S800000x32, .f32⟩ : BufTy).Contents (Elt F)),
    StableHlo.nullary main_c_4 (constantI S_ 32 0#32),
    StableHlo.unary main_c_4 main_v74 (broadcastInDim S800000 ![] bcast_S_S800000 : (⟨S_, .i32⟩ : BufTy).Contents (Elt F) → (⟨S800000, .i32⟩ : BufTy).Contents (Elt F)),
    StableHlo.binary main_v1 main_v74 main_v75 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 100000#32),
    StableHlo.unary main_c_5 main_v76 (broadcastInDim S800000 ![] bcast_S_S800000 : (⟨S_, .i32⟩ : BufTy).Contents (Elt F) → (⟨S800000, .i32⟩ : BufTy).Contents (Elt F)),
    StableHlo.binary main_v1 main_v76 main_v77 (addi : (⟨S800000, .i32⟩ : BufTy).Contents (Elt F) → (⟨S800000, .i32⟩ : BufTy).Contents (Elt F) → (⟨S800000, .i32⟩ : BufTy).Contents (Elt F)),
    StableHlo.ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v78 main_v79 (broadcastInDim S800000x1 ![0] bcast_S800000_S800000x1_0 : (⟨S800000, .i32⟩ : BufTy).Contents (Elt F) → (⟨S800000x1, .i32⟩ : BufTy).Contents (Elt F)),
    StableHlo.binary main_v51 main_v79 main_v80 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v73 main_v80 main_v81 (mulf : (⟨S800000x32, .f32⟩ : BufTy).Contents (Elt F) → (⟨S800000x32, .f32⟩ : BufTy).Contents (Elt F) → (⟨S800000x32, .f32⟩ : BufTy).Contents (Elt F)),
    StableHlo.nullary main_cst_6 (constant S_ .f32 0x00000000#32),
    StableHlo.unary main_cst_6 main_v82 (broadcastInDim S100000x32 ![] bcast_S_S100000x32 : (⟨S_, .f32⟩ : BufTy).Contents (Elt F) → (⟨S100000x32, .f32⟩ : BufTy).Contents (Elt F)),
    StableHlo.unary main_v3 main_v83 (broadcastInDim S800000x1 ![0] bcast_S800000_S800000x1_0 : (⟨S800000, .i32⟩ : BufTy).Contents (Elt F) → (⟨S800000x1, .i32⟩ : BufTy).Contents (Elt F)),
    StableHlo.ternary main_v82 main_v83 main_v81 main_v84 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_7 (constant S_ .f32 0x00000000#32),
    StableHlo.unary main_cst_7 main_v85 (broadcastInDim S100000x32 ![] bcast_S_S100000x32 : (⟨S_, .f32⟩ : BufTy).Contents (Elt F) → (⟨S100000x32, .f32⟩ : BufTy).Contents (Elt F)),
    StableHlo.unary main_v3 main_v86 (broadcastInDim S800000x1 ![0] bcast_S800000_S800000x1_0 : (⟨S800000, .i32⟩ : BufTy).Contents (Elt F) → (⟨S800000x1, .i32⟩ : BufTy).Contents (Elt F)),
    StableHlo.ternary main_v85 main_v86 main_v73 main_v87 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_8 (constant S_ .f32 0x358637BD#32),
    StableHlo.unary main_cst_8 main_v88 (broadcastInDim S100000x32 ![] bcast_S_S100000x32 : (⟨S_, .f32⟩ : BufTy).Contents (Elt F) → (⟨S100000x32, .f32⟩ : BufTy).Contents (Elt F)),
    StableHlo.binary main_v87 main_v88 main_v89 (addf : (⟨S100000x32, .f32⟩ : BufTy).Contents (Elt F) → (⟨S100000x32, .f32⟩ : BufTy).Contents (Elt F) → (⟨S100000x32, .f32⟩ : BufTy).Contents (Elt F)),
    StableHlo.binary main_v84 main_v89 main_v90 (Host.divf : (⟨S100000x32, .f32⟩ : BufTy).Contents (Elt F) → (⟨S100000x32, .f32⟩ : BufTy).Contents (Elt F) → (⟨S100000x32, .f32⟩ : BufTy).Contents (Elt F)),
    StableHlo.binary main_v43 main_v90 main_v91 (addf : (⟨S100000x32, .f32⟩ : BufTy).Contents (Elt F) → (⟨S100000x32, .f32⟩ : BufTy).Contents (Elt F) → (⟨S100000x32, .f32⟩ : BufTy).Contents (Elt F)),
    StableHlo.unary main_arg17 main_v92 ((extractStridedSlice S1x32 ![0, 0] · slices_S4x32_S1x32_0_0) : (⟨S4x32, .f32⟩ : BufTy).Contents (Elt F) → (⟨S1x32, .f32⟩ : BufTy).Contents (Elt F)),
    StableHlo.reshape main_v92 main_v93 rfl shapeCasts_S1x32_S32,
    StableHlo.unary main_arg18 main_v94 ((extractStridedSlice S1x32 ![0, 0] · slices_S4x32_S1x32_0_0) : (⟨S4x32, .f32⟩ : BufTy).Contents (Elt F) → (⟨S1x32, .f32⟩ : BufTy).Contents (Elt F)),
    StableHlo.reshape main_v94 main_v95 rfl shapeCasts_S1x32_S32,
    StableHlo.nullary main_cst_9 (constant S_ .f32 0x00000000#32),
    StableHlo.binary main_v91 main_cst_9 main_v96 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_10 (constant S_ .f32 0x47C35000#32),
    StableHlo.unary main_cst_10 main_v97 (broadcastInDim S32 ![] bcast_S_S32 : (⟨S_, .f32⟩ : BufTy).Contents (Elt F) → (⟨S32, .f32⟩ : BufTy).Contents (Elt F)),
    StableHlo.binary main_v96 main_v97 main_v98 (Host.divf : (⟨S32, .f32⟩ : BufTy).Contents (Elt F) → (⟨S32, .f32⟩ : BufTy).Contents (Elt F) → (⟨S32, .f32⟩ : BufTy).Contents (Elt F)),
    StableHlo.nullary main_c_11 (constantI S_ 32 0#32),
    StableHlo.TRef.nullary main_call0.cst (constant S_ .f32 0x00000000#32),
    StableHlo.TRef.binary (.of main_v91 : StableHlo.TRef sig ⟨S100000x32, .f32⟩) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (.of main_v91 : StableHlo.TRef sig ⟨S100000x32, .f32⟩) main_call0.v4 main_call0.v5 subf,
    StableHlo.TRef.binary main_call0.v5 main_call0.v5 main_call0.v6 mulf,
    StableHlo.TRef.unary (.of main_c_11 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v98 main_v100 (broadcastInDim S1x32 ![1] bcast_S32_S1x32_1 : (⟨S32, .f32⟩ : BufTy).Contents (Elt F) → (⟨S1x32, .f32⟩ : BufTy).Contents (Elt F)),
    StableHlo.unary main_v100 main_v101 (broadcastInDim S100000x32 ![0, 1] bcast_S1x32_S100000x32_0_1 : (⟨S1x32, .f32⟩ : BufTy).Contents (Elt F) → (⟨S100000x32, .f32⟩ : BufTy).Contents (Elt F)),
    StableHlo.binary main_v91 main_v101 main_v102 (subf : (⟨S100000x32, .f32⟩ : BufTy).Contents (Elt F) → (⟨S100000x32, .f32⟩ : BufTy).Contents (Elt F) → (⟨S100000x32, .f32⟩ : BufTy).Contents (Elt F)),
    StableHlo.nullary main_cst_12 (constant S_ .f32 0x3727C5AC#32),
    StableHlo.unary main_cst_12 main_v103 (broadcastInDim S32 ![] bcast_S_S32 : (⟨S_, .f32⟩ : BufTy).Contents (Elt F) → (⟨S32, .f32⟩ : BufTy).Contents (Elt F)),
    StableHlo.binary main_v99 main_v103 main_v104 (addf : (⟨S32, .f32⟩ : BufTy).Contents (Elt F) → (⟨S32, .f32⟩ : BufTy).Contents (Elt F) → (⟨S32, .f32⟩ : BufTy).Contents (Elt F)),
    StableHlo.unary main_v104 main_v105 (Host.rsqrt : (⟨S32, .f32⟩ : BufTy).Contents (Elt F) → (⟨S32, .f32⟩ : BufTy).Contents (Elt F)),
    StableHlo.unary main_v105 main_v106 (broadcastInDim S1x32 ![1] bcast_S32_S1x32_1 : (⟨S32, .f32⟩ : BufTy).Contents (Elt F) → (⟨S1x32, .f32⟩ : BufTy).Contents (Elt F)),
    StableHlo.unary main_v106 main_v107 (broadcastInDim S100000x32 ![0, 1] bcast_S1x32_S100000x32_0_1 : (⟨S1x32, .f32⟩ : BufTy).Contents (Elt F) → (⟨S100000x32, .f32⟩ : BufTy).Contents (Elt F)),
    StableHlo.binary main_v102 main_v107 main_v108 (mulf : (⟨S100000x32, .f32⟩ : BufTy).Contents (Elt F) → (⟨S100000x32, .f32⟩ : BufTy).Contents (Elt F) → (⟨S100000x32, .f32⟩ : BufTy).Contents (Elt F)),
    StableHlo.unary main_v93 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S100000x32 ![0, 1] bcast_S1x32_S100000x32_0_1 : (⟨S1x32, .f32⟩ : BufTy).Contents (Elt F) → (⟨S100000x32, .f32⟩ : BufTy).Contents (Elt F)),
    StableHlo.binary main_v108 main_v110 main_v111 (mulf : (⟨S100000x32, .f32⟩ : BufTy).Contents (Elt F) → (⟨S100000x32, .f32⟩ : BufTy).Contents (Elt F) → (⟨S100000x32, .f32⟩ : BufTy).Contents (Elt F)),
    StableHlo.unary main_v95 main_v112 (broadcastInDim S1x32 ![1] bcast_S32_S1x32_1 : (⟨S32, .f32⟩ : BufTy).Contents (Elt F) → (⟨S1x32, .f32⟩ : BufTy).Contents (Elt F)),
    StableHlo.unary main_v112 main_v113 (broadcastInDim S100000x32 ![0, 1] bcast_S1x32_S100000x32_0_1 : (⟨S1x32, .f32⟩ : BufTy).Contents (Elt F) → (⟨S100000x32, .f32⟩ : BufTy).Contents (Elt F)),
    StableHlo.binary main_v111 main_v113 main_v114 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (.of main_v114 : StableHlo.TRef sig ⟨S100000x32, .f32⟩) main_call1.v0 main_call1.v1 maximumf,
    StableHlo.binary main_v7 main_v115 main_v116 (addf : (⟨S100000x32, .f32⟩ : BufTy).Contents (Elt F) → (⟨S100000x32, .f32⟩ : BufTy).Contents (Elt F) → (⟨S100000x32, .f32⟩ : BufTy).Contents (Elt F)),
    StableHlo.unary main_arg19 main_v117 ((extractStridedSlice S1x32 ![0, 0] · slices_S4x32_S1x32_0_0) : (⟨S4x32, .f32⟩ : BufTy).Contents (Elt F) → (⟨S1x32, .f32⟩ : BufTy).Contents (Elt F)),
    StableHlo.reshape main_v117 main_v118 rfl shapeCasts_S1x32_S32,
    StableHlo.unary main_arg20 main_v119 ((extractStridedSlice S1x32 ![0, 0] · slices_S4x32_S1x32_0_0) : (⟨S4x32, .f32⟩ : BufTy).Contents (Elt F) → (⟨S1x32, .f32⟩ : BufTy).Contents (Elt F)),
    StableHlo.reshape main_v119 main_v120 rfl shapeCasts_S1x32_S32,
    StableHlo.nullary main_cst_13 (constant S_ .f32 0x00000000#32),
    StableHlo.binary main_v67 main_cst_13 main_v121 ((fun x v => Host.reduceAdd x v reducesTo_S800000x32_S32_d0 h_S_) : (⟨S800000x32, .f32⟩ : BufTy).Contents (Elt F) → (⟨S_, .f32⟩ : BufTy).Contents (Elt F) → (⟨S32, .f32⟩ : BufTy).Contents (Elt F)),
    StableHlo.nullary main_cst_14 (constant S_ .f32 0x49435000#32),
    StableHlo.unary main_cst_14 main_v122 (broadcastInDim S32 ![] bcast_S_S32 : (⟨S_, .f32⟩ : BufTy).Contents (Elt F) → (⟨S32, .f32⟩ : BufTy).Contents (Elt F)),
    StableHlo.binary main_v121 main_v122 main_v123 (Host.divf : (⟨S32, .f32⟩ : BufTy).Contents (Elt F) → (⟨S32, .f32⟩ : BufTy).Contents (Elt F) → (⟨S32, .f32⟩ : BufTy).Contents (Elt F)),
    StableHlo.nullary main_c_15 (constantI S_ 32 0#32),
    StableHlo.TRef.nullary main_call2.cst (constant S_ .f32 0x00000000#32),
    StableHlo.TRef.binary (.of main_v67 : StableHlo.TRef sig ⟨S800000x32, .f32⟩) main_call2.cst main_call2.v0 (fun x v => Host.reduceAdd x v reducesTo_S800000x32_S32_d0 h_S_),
    StableHlo.TRef.unary main_call2.v0 main_call2.v1 (broadcastInDim S1x32 ![1] bcast_S32_S1x32_1),
    StableHlo.TRef.nullary main_call2.cst_0 (constant S_ .f32 0x49435000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S800000x32 ![0, 1] bcast_S1x32_S800000x32_0_1),
    StableHlo.TRef.binary (.of main_v67 : StableHlo.TRef sig ⟨S800000x32, .f32⟩) main_call2.v4 main_call2.v5 subf,
    StableHlo.TRef.binary main_call2.v5 main_call2.v5 main_call2.v6 mulf,
    StableHlo.TRef.unary (.of main_c_15 : StableHlo.TRef sig ⟨S_, .i32⟩) main_call2.v7 (sitofp .f32),
    StableHlo.TRef.nullary main_call2.cst_1 (constant S_ .f32 0x49435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S800000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v123 main_v125 (broadcastInDim S1x32 ![1] bcast_S32_S1x32_1 : (⟨S32, .f32⟩ : BufTy).Contents (Elt F) → (⟨S1x32, .f32⟩ : BufTy).Contents (Elt F)),
    StableHlo.unary main_v125 main_v126 (broadcastInDim S800000x32 ![0, 1] bcast_S1x32_S800000x32_0_1 : (⟨S1x32, .f32⟩ : BufTy).Contents (Elt F) → (⟨S800000x32, .f32⟩ : BufTy).Contents (Elt F)),
    StableHlo.binary main_v67 main_v126 main_v127 (subf : (⟨S800000x32, .f32⟩ : BufTy).Contents (Elt F) → (⟨S800000x32, .f32⟩ : BufTy).Contents (Elt F) → (⟨S800000x32, .f32⟩ : BufTy).Contents (Elt F)),
    StableHlo.nullary main_cst_16 (constant S_ .f32 0x3727C5AC#32),
    StableHlo.unary main_cst_16 main_v128 (broadcastInDim S32 ![] bcast_S_S32 : (⟨S_, .f32⟩ : BufTy).Contents (Elt F) → (⟨S32, .f32⟩ : BufTy).Contents (Elt F)),
    StableHlo.binary main_v124 main_v128 main_v129 (addf : (⟨S32, .f32⟩ : BufTy).Contents (Elt F) → (⟨S32, .f32⟩ : BufTy).Contents (Elt F) → (⟨S32, .f32⟩ : BufTy).Contents (Elt F)),
    StableHlo.unary main_v129 main_v130 (Host.rsqrt : (⟨S32, .f32⟩ : BufTy).Contents (Elt F) → (⟨S32, .f32⟩ : BufTy).Contents (Elt F)),
    StableHlo.unary main_v130 main_v131 (broadcastInDim S1x32 ![1] bcast_S32_S1x32_1 : (⟨S32, .f32⟩ : BufTy).Contents (Elt F) → (⟨S1x32, .f32⟩ : BufTy).Contents (Elt F)),
    StableHlo.unary main_v131 main_v132 (broadcastInDim S800000x32 ![0, 1] bcast_S1x32_S800000x32_0_1 : (⟨S1x32, .f32⟩ : BufTy).Contents (Elt F) → (⟨S800000x32, .f32⟩ : BufTy).Contents (Elt F)),
    StableHlo.binary main_v127 main_v132 main_v133 (mulf : (⟨S800000x32, .f32⟩ : BufTy).Contents (Elt F) → (⟨S800000x32, .f32⟩ : BufTy).Contents (Elt F) → (⟨S800000x32, .f32⟩ : BufTy).Contents (Elt F)),
    StableHlo.unary main_v118 main_v134 (broadcastInDim S1x32 ![1] bcast_S32_S1x32_1 : (⟨S32, .f32⟩ : BufTy).Contents (Elt F) → (⟨S1x32, .f32⟩ : BufTy).Contents (Elt F)),
    StableHlo.unary main_v134 main_v135 (broadcastInDim S800000x32 ![0, 1] bcast_S1x32_S800000x32_0_1 : (⟨S1x32, .f32⟩ : BufTy).Contents (Elt F) → (⟨S800000x32, .f32⟩ : BufTy).Contents (Elt F)),
    StableHlo.binary main_v133 main_v135 main_v136 (mulf : (⟨S800000x32, .f32⟩ : BufTy).Contents (Elt F) → (⟨S800000x32, .f32⟩ : BufTy).Contents (Elt F) → (⟨S800000x32, .f32⟩ : BufTy).Contents (Elt F)),
    StableHlo.unary main_v120 main_v137 (broadcastInDim S1x32 ![1] bcast_S32_S1x32_1 : (⟨S32, .f32⟩ : BufTy).Contents (Elt F) → (⟨S1x32, .f32⟩ : BufTy).Contents (Elt F)),
    StableHlo.unary main_v137 main_v138 (broadcastInDim S800000x32 ![0, 1] bcast_S1x32_S800000x32_0_1 : (⟨S1x32, .f32⟩ : BufTy).Contents (Elt F) → (⟨S800000x32, .f32⟩ : BufTy).Contents (Elt F)),
    StableHlo.binary main_v136 main_v138 main_v139 (addf : (⟨S800000x32, .f32⟩ : BufTy).Contents (Elt F) → (⟨S800000x32, .f32⟩ : BufTy).Contents (Elt F) → (⟨S800000x32, .f32⟩ : BufTy).Contents (Elt F)),
    StableHlo.TRef.nullary main_call3.cst (constant S_ .f32 0x00000000#32),
    StableHlo.TRef.unary main_call3.cst main_call3.v0 (broadcastInDim S800000x32 ![] bcast_S_S800000x32),
    StableHlo.TRef.binary (.of main_v139 : StableHlo.TRef sig ⟨S800000x32, .f32⟩) main_call3.v0 main_call3.v1 maximumf,
    StableHlo.binary main_v11 main_v140 main_v141 (addf : (⟨S800000x32, .f32⟩ : BufTy).Contents (Elt F) → (⟨S800000x32, .f32⟩ : BufTy).Contents (Elt F) → (⟨S800000x32, .f32⟩ : BufTy).Contents (Elt F)) ]

/-- The reference each operation of the stretch writes, in the list's order: a builder's result operand (of a typed
    reference, the buffer it carries). -/
abbrev opsL1_W : List (Ref sig .tc) :=
  [ main_v12, main_v13, main_v14, main_v15, main_v16, main_v17, main_v18, main_v19,
    main_v20, main_v21, main_v22, main_v23, main_v24, main_v25, main_v26, main_v27,
    main_v28, main_v29, main_v30, main_v31, main_v32, main_v33, main_v34, main_v35,
    main_v36, main_v37, main_v38, main_v39, main_v40, main_v41, main_v42, main_v43,
    main_v44, main_v45, main_v46, main_v47, main_v48, main_v49, main_v50, main_v51,
    main_c, main_v52, main_v53, main_c_0, main_v54, main_v55, main_v56, main_v57,
    main_v58, main_c_1, main_v59, main_v60, main_c_2, main_v61, main_v62, main_v63,
    main_v64, main_v65, main_v66, main_v67, main_v68, main_v69, main_cst, main_v70,
    main_v71, main_cst_3, main_v72, main_v73, main_c_4, main_v74, main_v75, main_c_5,
    main_v76, main_v77, main_v78, main_v79, main_v80, main_v81, main_cst_6, main_v82,
    main_v83, main_v84, main_cst_7, main_v85, main_v86, main_v87, main_cst_8, main_v88,
    main_v89, main_v90, main_v91, main_v92, main_v93, main_v94, main_v95, main_cst_9,
    main_v96, main_cst_10, main_v97, main_v98, main_c_11, main_call0.cst.ref, main_call0.v0.ref, main_call0.v1.ref,
    main_call0.cst_0.ref, main_call0.v2.ref, main_call0.v3.ref, main_call0.v4.ref, main_call0.v5.ref, main_call0.v6.ref, main_call0.v7.ref, main_call0.cst_1.ref,
    main_call0.v8.ref, main_call0.cst_2.ref, main_call0.v9.ref, main_call0.v10.ref, main_call0.v11.ref, main_call0.cst_3.ref, main_call0.v12.ref, main_call0.cst_4.ref,
    main_call0.call0.v0.ref, main_call0.call0.v1.ref, main_call0.call0.v2.ref, main_v100, main_v101, main_v102, main_cst_12, main_v103,
    main_v104, main_v105, main_v106, main_v107, main_v108, main_v109, main_v110, main_v111,
    main_v112, main_v113, main_v114, main_call1.cst.ref, main_call1.v0.ref, main_call1.v1.ref, main_v116, main_v117,
    main_v118, main_v119, main_v120, main_cst_13, main_v121, main_cst_14, main_v122, main_v123,
    main_c_15, main_call2.cst.ref, main_call2.v0.ref, main_call2.v1.ref, main_call2.cst_0.ref, main_call2.v2.ref, main_call2.v3.ref, main_call2.v4.ref,
    main_call2.v5.ref, main_call2.v6.ref, main_call2.v7.ref, main_call2.cst_1.ref, main_call2.v8.ref, main_call2.cst_2.ref, main_call2.v9.ref, main_call2.v10.ref,
    main_call2.v11.ref, main_call2.cst_3.ref, main_call2.v12.ref, main_call2.cst_4.ref, main_call2.call0.v0.ref, main_call2.call0.v1.ref, main_call2.call0.v2.ref, main_v125,
    main_v126, main_v127, main_cst_16, main_v128, main_v129, main_v130, main_v131, main_v132,
    main_v133, main_v134, main_v135, main_v136, main_v137, main_v138, main_v139, main_call3.cst.ref,
    main_call3.v0.ref, main_call3.v1.ref, main_v141 ]

set_option maxRecDepth 16384 in
set_option maxHeartbeats 8000000 in
/-- Each operation writes exactly its result buffer, and that reference stands in the stretch's table: the
    builder's written set is the singleton of its result operand, whose membership in the literal table is
    decided. -/
theorem opsL1_writes : (opsL1 : List (HloOp τ sig (Elt F))).Forall fun op =>
    op.writes ⊆ (opsL1_W.map (Proc.devRef (τ := τ) .tc)).toFinset := by
  repeat' apply And.intro
  all_goals exact Finset.singleton_subset_iff.mpr (List.mem_toFinset.mpr (List.mem_map_of_mem (by decide)))

end Cert.ReferenceIdeal.RRead

end
-- ==== Proof.RCutL2.lean ====
import proofs.«425355_j88287347737110_2_alg».proof.Proof.Gen.ReferenceIdeal
import Idealize.ShloMosaic.Lib.StableHlo.Run

noncomputable section

namespace Cert.ReferenceIdeal.RRead

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxHeartbeats 8000000 in
/-- Layer 2 of the network as @main runs it: the operations from the one writing main_v142 through the one writing
    main_v271, in @main's order, constants and the called functions' operations (over main_call4 … main_call7) where they stand. It reads the node and edge features at
    (main_v116, main_v141) and leaves the layer's at (main_v246, main_v271). -/
abbrev opsL2 : List (HloOp τ sig (Elt F)) :=
  [ StableHlo.unary main_arg7 main_v142 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v142 main_v143 rfl shapeCasts_S1x32x32_S32x32,
    StableHlo.binary main_v116 main_v143 main_v144 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg8 main_v145 ((extractStridedSlice S1x32 ![1, 0] · slices_S4x32_S1x32_1_0) : (⟨S4x32, .f32⟩ : BufTy).Contents (Elt F) → (⟨S1x32, .f32⟩ : BufTy).Contents (Elt F)),
    StableHlo.reshape main_v145 main_v146 rfl shapeCasts_S1x32_S32,
    StableHlo.unary main_v146 main_v147 (broadcastInDim S1x32 ![1] bcast_S32_S1x32_1 : (⟨S32, .f32⟩ : BufTy).Contents (Elt F) → (⟨S1x32, .f32⟩ : BufTy).Contents (Elt F)),
    StableHlo.unary main_v147 main_v148 (broadcastInDim S100000x32 ![0, 1] bcast_S1x32_S100000x32_0_1 : (⟨S1x32, .f32⟩ : BufTy).Contents (Elt F) → (⟨S100000x32, .f32⟩ : BufTy).Contents (Elt F)),
    StableHlo.binary main_v144 main_v148 main_v149 (addf : (⟨S100000x32, .f32⟩ : BufTy).Contents (Elt F) → (⟨S100000x32, .f32⟩ : BufTy).Contents (Elt F) → (⟨S100000x32, .f32⟩ : BufTy).Contents (Elt F)),
    StableHlo.unary main_arg9 main_v150 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v150 main_v151 rfl shapeCasts_S1x32x32_S32x32,
    StableHlo.binary main_v116 main_v151 main_v152 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg10 main_v153 ((extractStridedSlice S1x32 ![1, 0] · slices_S4x32_S1x32_1_0) : (⟨S4x32, .f32⟩ : BufTy).Contents (Elt F) → (⟨S1x32, .f32⟩ : BufTy).Contents (Elt F)),
    StableHlo.reshape main_v153 main_v154 rfl shapeCasts_S1x32_S32,
    StableHlo.unary main_v154 main_v155 (broadcastInDim S1x32 ![1] bcast_S32_S1x32_1 : (⟨S32, .f32⟩ : BufTy).Contents (Elt F) → (⟨S1x32, .f32⟩ : BufTy).Contents (Elt F)),
    StableHlo.unary main_v155 main_v156 (broadcastInDim S100000x32 ![0, 1] bcast_S1x32_S100000x32_0_1 : (⟨S1x32, .f32⟩ : BufTy).Contents (Elt F) → (⟨S100000x32, .f32⟩ : BufTy).Contents (Elt F)),
    StableHlo.binary main_v152 main_v156 main_v157 (addf : (⟨S100000x32, .f32⟩ : BufTy).Contents (Elt F) → (⟨S100000x32, .f32⟩ : BufTy).Contents (Elt F) → (⟨S100000x32, .f32⟩ : BufTy).Contents (Elt F)),
    StableHlo.unary main_arg11 main_v158 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v158 main_v159 rfl shapeCasts_S1x32x32_S32x32,
    StableHlo.binary main_v141 main_v159 main_v160 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    StableHlo.unary main_arg12 main_v161 ((extractStridedSlice S1x32 ![1, 0] · slices_S4x32_S1x32_1_0) : (⟨S4x32, .f32⟩ : BufTy).Contents (Elt F) → (⟨S1x32, .f32⟩ : BufTy).Contents (Elt F)),
    StableHlo.reshape main_v161 main_v162 rfl shapeCasts_S1x32_S32,
    StableHlo.unary main_v162 main_v163 (broadcastInDim S1x32 ![1] bcast_S32_S1x32_1 : (⟨S32, .f32⟩ : BufTy).Contents (Elt F) → (⟨S1x32, .f32⟩ : BufTy).Contents (Elt F)),
    StableHlo.unary main_v163 main_v164 (broadcastInDim S800000x32 ![0, 1] bcast_S1x32_S800000x32_0_1 : (⟨S1x32, .f32⟩ : BufTy).Contents (Elt F) → (⟨S800000x32, .f32⟩ : BufTy).Contents (Elt F)),
    StableHlo.binary main_v160 main_v164 main_v165 (addf : (⟨S800000x32, .f32⟩ : BufTy).Contents (Elt F) → (⟨S800000x32, .f32⟩ : BufTy).Contents (Elt F) → (⟨S800000x32, .f32⟩ : BufTy).Contents (Elt F)),
    StableHlo.unary main_arg13 main_v166 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v166 main_v167 rfl shapeCasts_S1x32x32_S32x32,
    StableHlo.binary main_v116 main_v167 main_v168 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg14 main_v169 ((extractStridedSlice S1x32 ![1, 0] · slices_S4x32_S1x32_1_0) : (⟨S4x32, .f32⟩ : BufTy).Contents (Elt F) → (⟨S1x32, .f32⟩ : BufTy).Contents (Elt F)),
    StableHlo.reshape main_v169 main_v170 rfl shapeCasts_S1x32_S32,
    StableHlo.unary main_v170 main_v171 (broadcastInDim S1x32 ![1] bcast_S32_S1x32_1 : (⟨S32, .f32⟩ : BufTy).Contents (Elt F) → (⟨S1x32, .f32⟩ : BufTy).Contents (Elt F)),
    StableHlo.unary main_v171 main_v172 (broadcastInDim S100000x32 ![0, 1] bcast_S1x32_S100000x32_0_1 : (⟨S1x32, .f32⟩ : BufTy).Contents (Elt F) → (⟨S100000x32, .f32⟩ : BufTy).Contents (Elt F)),
    StableHlo.binary main_v168 main_v172 main_v173 (addf : (⟨S100000x32, .f32⟩ : BufTy).Contents (Elt F) → (⟨S100000x32, .f32⟩ : BufTy).Contents (Elt F) → (⟨S100000x32, .f32⟩ : BufTy).Contents (Elt F)),
    StableHlo.unary main_arg15 main_v174 ((extractStridedSlice S1x32x32 ![1, 0, 0] · slices_S4x32x32_S1x32x32_1_0_0) : (⟨S4x32x32, .f32⟩ : BufTy).Contents (Elt F) → (⟨S1x32x32, .f32⟩ : BufTy).Contents (Elt F)),
    StableHlo.reshape main_v174 main_v175 rfl shapeCasts_S1x32x32_S32x32,
    StableHlo.binary main_v116 main_v175 main_v176 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg16 main_v177 ((extractStridedSlice S1x32 ![1, 0] · slices_S4x32_S1x32_1_0) : (⟨S4x32, .f32⟩ : BufTy).Contents (Elt F) → (⟨S1x32, .f32⟩ : BufTy).Contents (Elt F)),
    StableHlo.reshape main_v177 main_v178 rfl shapeCasts_S1x32_S32,
    StableHlo.unary main_v178 main_v179 (broadcastInDim S1x32 ![1] bcast_S32_S1x32_1 : (⟨S32, .f32⟩ : BufTy).Contents (Elt F) → (⟨S1x32, .f32⟩ : BufTy).Contents (Elt F)),
    StableHlo.unary main_v179 main_v180 (broadcastInDim S100000x32 ![0, 1] bcast_S1x32_S100000x32_0_1 : (⟨S1x32, .f32⟩ : BufTy).Contents (Elt F) → (⟨S100000x32, .f32⟩ : BufTy).Contents (Elt F)),
    StableHlo.binary main_v176 main_v180 main_v181 (addf : (⟨S100000x32, .f32⟩ : BufTy).Contents (Elt F) → (⟨S100000x32, .f32⟩ : BufTy).Contents (Elt F) → (⟨S100000x32, .f32⟩ : BufTy).Contents (Elt F)),
    StableHlo.nullary main_c_17 (constantI S_ 32 0#32),
    StableHlo.unary main_c_17 main_v182 (broadcastInDim S800000 ![] bcast_S_S800000 : (⟨S_, .i32⟩ : BufTy).Contents (Elt F) → (⟨S800000, .i32⟩ : BufTy).Contents (Elt F)),
    StableHlo.binary main_v3 main_v182 main_v183 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 100000#32),
    StableHlo.unary main_c_18 main_v184 (broadcastInDim S800000 ![] bcast_S_S800000 : (⟨S_, .i32⟩ : BufTy).Contents (Elt F) → (⟨S800000, .i32⟩ : BufTy).Contents (Elt F)),
    StableHlo.binary main_v3 main_v184 main_v185 (addi : (⟨S800000, .i32⟩ : BufTy).Contents (Elt F) → (⟨S800000, .i32⟩ : BufTy).Contents (Elt F) → (⟨S800000, .i32⟩ : BufTy).Contents (Elt F)),
    StableHlo.ternary main_v183 main_v185 main_v3 main_v186 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v186 main_v187 (broadcastInDim S800000x1 ![0] bcast_S800000_S800000x1_0 : (⟨S800000, .i32⟩ : BufTy).Contents (Elt F) → (⟨S800000x1, .i32⟩ : BufTy).Contents (Elt F)),
    StableHlo.binary main_v149 main_v187 main_v188 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nullary main_c_19 (constantI S_ 32 0#32),
    StableHlo.unary main_c_19 main_v189 (broadcastInDim S800000 ![] bcast_S_S800000 : (⟨S_, .i32⟩ : BufTy).Contents (Elt F) → (⟨S800000, .i32⟩ : BufTy).Contents (Elt F)),
    StableHlo.binary main_v1 main_v189 main_v190 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 100000#32),
    StableHlo.unary main_c_20 main_v191 (broadcastInDim S800000 ![] bcast_S_S800000 : (⟨S_, .i32⟩ : BufTy).Contents (Elt F) → (⟨S800000, .i32⟩ : BufTy).Contents (Elt F)),
    StableHlo.binary main_v1 main_v191 main_v192 (addi : (⟨S800000, .i32⟩ : BufTy).Contents (Elt F) → (⟨S800000, .i32⟩ : BufTy).Contents (Elt F) → (⟨S800000, .i32⟩ : BufTy).Contents (Elt F)),
    StableHlo.ternary main_v190 main_v192 main_v1 main_v193 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v193 main_v194 (broadcastInDim S800000x1 ![0] bcast_S800000_S800000x1_0 : (⟨S800000, .i32⟩ : BufTy).Contents (Elt F) → (⟨S800000x1, .i32⟩ : BufTy).Contents (Elt F)),
    StableHlo.binary main_v157 main_v194 main_v195 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v188 main_v195 main_v196 (addf : (⟨S800000x32, .f32⟩ : BufTy).Contents (Elt F) → (⟨S800000x32, .f32⟩ : BufTy).Contents (Elt F) → (⟨S800000x32, .f32⟩ : BufTy).Contents (Elt F)),
    StableHlo.binary main_v196 main_v165 main_v197 (addf : (⟨S800000x32, .f32⟩ : BufTy).Contents (Elt F) → (⟨S800000x32, .f32⟩ : BufTy).Contents (Elt F) → (⟨S800000x32, .f32⟩ : BufTy).Contents (Elt F)),
    StableHlo.unary main_v197 main_v198 (Host.negf : (⟨S800000x32, .f32⟩ : BufTy).Contents (Elt F) → (⟨S800000x32, .f32⟩ : BufTy).Contents (Elt F)),
    StableHlo.unary main_v198 main_v199 (Host.exp : (⟨S800000x32, .f32⟩ : BufTy).Contents (Elt F) → (⟨S800000x32, .f32⟩ : BufTy).Contents (Elt F)),
    StableHlo.nullary main_cst_21 (constant S_ .f32 0x3F800000#32),
    StableHlo.unary main_cst_21 main_v200 (broadcastInDim S800000x32 ![] bcast_S_S800000x32 : (⟨S_, .f32⟩ : BufTy).Contents (Elt F) → (⟨S800000x32, .f32⟩ : BufTy).Contents (Elt F)),
    StableHlo.binary main_v200 main_v199 main_v201 (addf : (⟨S800000x32, .f32⟩ : BufTy).Contents (Elt F) → (⟨S800000x32, .f32⟩ : BufTy).Contents (Elt F) → (⟨S800000x32, .f32⟩ : BufTy).Contents (Elt F)),
    StableHlo.nullary main_cst_22 (constant S_ .f32 0x3F800000#32),
    StableHlo.unary main_cst_22 main_v202 (broadcastInDim S800000x32 ![] bcast_S_S800000x32 : (⟨S_, .f32⟩ : BufTy).Contents (Elt F) → (⟨S800000x32, .f32⟩ : BufTy).Contents (Elt F)),
    StableHlo.binary main_v202 main_v201 main_v203 (Host.divf : (⟨S800000x32, .f32⟩ : BufTy).Contents (Elt F) → (⟨S800000x32, .f32⟩ : BufTy).Contents (Elt F) → (⟨S800000x32, .f32⟩ : BufTy).Contents (Elt F)),
    StableHlo.nullary main_c_23 (constantI S_ 32 0#32),
    StableHlo.unary main_c_23 main_v204 (broadcastInDim S800000 ![] bcast_S_S800000 : (⟨S_, .i32⟩ : BufTy).Contents (Elt F) → (⟨S800000, .i32⟩ : BufTy).Contents (Elt F)),
    StableHlo.binary main_v1 main_v204 main_v205 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 100000#32),
    StableHlo.unary main_c_24 main_v206 (broadcastInDim S800000 ![] bcast_S_S800000 : (⟨S_, .i32⟩ : BufTy).Contents (Elt F) → (⟨S800000, .i32⟩ : BufTy).Contents (Elt F)),
    StableHlo.binary main_v1 main_v206 main_v207 (addi : (⟨S800000, .i32⟩ : BufTy).Contents (Elt F) → (⟨S800000, .i32⟩ : BufTy).Contents (Elt F) → (⟨S800000, .i32⟩ : BufTy).Contents (Elt F)),
    StableHlo.ternary main_v205 main_v207 main_v1 main_v208 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v208 main_v209 (broadcastInDim S800000x1 ![0] bcast_S800000_S800000x1_0 : (⟨S800000, .i32⟩ : BufTy).Contents (Elt F) → (⟨S800000x1, .i32⟩ : BufTy).Contents (Elt F)),
    StableHlo.binary main_v181 main_v209 main_v210 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v203 main_v210 main_v211 (mulf : (⟨S800000x32, .f32⟩ : BufTy).Contents (Elt F) → (⟨S800000x32, .f32⟩ : BufTy).Contents (Elt F) → (⟨S800000x32, .f32⟩ : BufTy).Contents (Elt F)),
    StableHlo.nullary main_cst_25 (constant S_ .f32 0x00000000#32),
    StableHlo.unary main_cst_25 main_v212 (broadcastInDim S100000x32 ![] bcast_S_S100000x32 : (⟨S_, .f32⟩ : BufTy).Contents (Elt F) → (⟨S100000x32, .f32⟩ : BufTy).Contents (Elt F)),
    StableHlo.unary main_v3 main_v213 (broadcastInDim S800000x1 ![0] bcast_S800000_S800000x1_0 : (⟨S800000, .i32⟩ : BufTy).Contents (Elt F) → (⟨S800000x1, .i32⟩ : BufTy).Contents (Elt F)),
    StableHlo.ternary main_v212 main_v213 main_v211 main_v214 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_26 (constant S_ .f32 0x00000000#32),
    StableHlo.unary main_cst_26 main_v215 (broadcastInDim S100000x32 ![] bcast_S_S100000x32 : (⟨S_, .f32⟩ : BufTy).Contents (Elt F) → (⟨S100000x32, .f32⟩ : BufTy).Contents (Elt F)),
    StableHlo.unary main_v3 main_v216 (broadcastInDim S800000x1 ![0] bcast_S800000_S800000x1_0 : (⟨S800000, .i32⟩ : BufTy).Contents (Elt F) → (⟨S800000x1, .i32⟩ : BufTy).Contents (Elt F)),
    StableHlo.ternary main_v215 main_v216 main_v203 main_v217 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_27 (constant S_ .f32 0x358637BD#32),
    StableHlo.unary main_cst_27 main_v218 (broadcastInDim S100000x32 ![] bcast_S_S100000x32 : (⟨S_, .f32⟩ : BufTy).Contents (Elt F) → (⟨S100000x32, .f32⟩ : BufTy).Contents (Elt F)),
    StableHlo.binary main_v217 main_v218 main_v219 (addf : (⟨S100000x32, .f32⟩ : BufTy).Contents (Elt F) → (⟨S100000x32, .f32⟩ : BufTy).Contents (Elt F) → (⟨S100000x32, .f32⟩ : BufTy).Contents (Elt F)),
    StableHlo.binary main_v214 main_v219 main_v220 (Host.divf : (⟨S100000x32, .f32⟩ : BufTy).Contents (Elt F) → (⟨S100000x32, .f32⟩ : BufTy).Contents (Elt F) → (⟨S100000x32, .f32⟩ : BufTy).Contents (Elt F)),
    StableHlo.binary main_v173 main_v220 main_v221 (addf : (⟨S100000x32, .f32⟩ : BufTy).Contents (Elt F) → (⟨S100000x32, .f32⟩ : BufTy).Contents (Elt F) → (⟨S100000x32, .f32⟩ : BufTy).Contents (Elt F)),
    StableHlo.unary main_arg17 main_v222 ((extractStridedSlice S1x32 ![1, 0] · slices_S4x32_S1x32_1_0) : (⟨S4x32, .f32⟩ : BufTy).Contents (Elt F) → (⟨S1x32, .f32⟩ : BufTy).Contents (Elt F)),
    StableHlo.reshape main_v222 main_v223 rfl shapeCasts_S1x32_S32,
    StableHlo.unary main_arg18 main_v224 ((extractStridedSlice S1x32 ![1, 0] · slices_S4x32_S1x32_1_0) : (⟨S4x32, .f32⟩ : BufTy).Contents (Elt F) → (⟨S1x32, .f32⟩ : BufTy).Contents (Elt F)),
    StableHlo.reshape main_v224 main_v225 rfl shapeCasts_S1x32_S32,
    StableHlo.nullary main_cst_28 (constant S_ .f32 0x00000000#32),
    StableHlo.binary main_v221 main_cst_28 main_v226 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_29 (constant S_ .f32 0x47C35000#32),
    StableHlo.unary main_cst_29 main_v227 (broadcastInDim S32 ![] bcast_S_S32 : (⟨S_, .f32⟩ : BufTy).Contents (Elt F) → (⟨S32, .f32⟩ : BufTy).Contents (Elt F)),
    StableHlo.binary main_v226 main_v227 main_v228 (Host.divf : (⟨S32, .f32⟩ : BufTy).Contents (Elt F) → (⟨S32, .f32⟩ : BufTy).Contents (Elt F) → (⟨S32, .f32⟩ : BufTy).Contents (Elt F)),
    StableHlo.nullary main_c_30 (constantI S_ 32 0#32),
    StableHlo.TRef.nullary main_call4.cst (constant S_ .f32 0x00000000#32),
    StableHlo.TRef.binary (.of main_v221 : StableHlo.TRef sig ⟨S100000x32, .f32⟩) main_call4.cst main_call4.v0 (fun x v => Host.reduceAdd x v reducesTo_S100000x32_S32_d0 h_S_),
    StableHlo.TRef.unary main_call4.v0 main_call4.v1 (broadcastInDim S1x32 ![1] bcast_S32_S1x32_1),
    StableHlo.TRef.nullary main_call4.cst_0 (constant S_ .f32 0x47C35000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S100000x32 ![0, 1] bcast_S1x32_S100000x32_0_1),
    StableHlo.TRef.binary (.of main_v221 : StableHlo.TRef sig ⟨S100000x32, .f32⟩) main_call4.v4 main_call4.v5 subf,
    StableHlo.TRef.binary main_call4.v5 main_call4.v5 main_call4.v6 mulf,
    StableHlo.TRef.unary (.of main_c_30 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x32_S32_d0 h_S_),
    StableHlo.TRef.unary main_call4.v8 main_call4.v10 (broadcastInDim S32 ![] bcast_S_S32),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S32 ![] bcast_S_S32),
    StableHlo.TRef.ternary main_call4.v12 main_call4.v11 main_call4.call0.v1 main_call4.call0.v2 (fun p a b => select (broadcastInDim S32 ![] bcast_S_S32 p) a b),
    StableHlo.unary main_v228 main_v230 (broadcastInDim S1x32 ![1] bcast_S32_S1x32_1 : (⟨S32, .f32⟩ : BufTy).Contents (Elt F) → (⟨S1x32, .f32⟩ : BufTy).Contents (Elt F)),
    StableHlo.unary main_v230 main_v231 (broadcastInDim S100000x32 ![0, 1] bcast_S1x32_S100000x32_0_1 : (⟨S1x32, .f32⟩ : BufTy).Contents (Elt F) → (⟨S100000x32, .f32⟩ : BufTy).Contents (Elt F)),
    StableHlo.binary main_v221 main_v231 main_v232 (subf : (⟨S100000x32, .f32⟩ : BufTy).Contents (Elt F) → (⟨S100000x32, .f32⟩ : BufTy).Contents (Elt F) → (⟨S100000x32, .f32⟩ : BufTy).Contents (Elt F)),
    StableHlo.nullary main_cst_31 (constant S_ .f32 0x3727C5AC#32),
    StableHlo.unary main_cst_31 main_v233 (broadcastInDim S32 ![] bcast_S_S32 : (⟨S_, .f32⟩ : BufTy).Contents (Elt F) → (⟨S32, .f32⟩ : BufTy).Contents (Elt F)),
    StableHlo.binary main_v229 main_v233 main_v234 (addf : (⟨S32, .f32⟩ : BufTy).Contents (Elt F) → (⟨S32, .f32⟩ : BufTy).Contents (Elt F) → (⟨S32, .f32⟩ : BufTy).Contents (Elt F)),
    StableHlo.unary main_v234 main_v235 (Host.rsqrt : (⟨S32, .f32⟩ : BufTy).Contents (Elt F) → (⟨S32, .f32⟩ : BufTy).Contents (Elt F)),
    StableHlo.unary main_v235 main_v236 (broadcastInDim S1x32 ![1] bcast_S32_S1x32_1 : (⟨S32, .f32⟩ : BufTy).Contents (Elt F) → (⟨S1x32, .f32⟩ : BufTy).Contents (Elt F)),
    StableHlo.unary main_v236 main_v237 (broadcastInDim S100000x32 ![0, 1] bcast_S1x32_S100000x32_0_1 : (⟨S1x32, .f32⟩ : BufTy).Contents (Elt F) → (⟨S100000x32, .f32⟩ : BufTy).Contents (Elt F)),
    StableHlo.binary main_v232 main_v237 main_v238 (mulf : (⟨S100000x32, .f32⟩ : BufTy).Contents (Elt F) → (⟨S100000x32, .f32⟩ : BufTy).Contents (Elt F) → (⟨S100000x32, .f32⟩ : BufTy).Contents (Elt F)),
    StableHlo.unary main_v223 main_v239 (broadcastInDim S1x32 ![1] bcast_S32_S1x32_1 : (⟨S32, .f32⟩ : BufTy).Contents (Elt F) → (⟨S1x32, .f32⟩ : BufTy).Contents (Elt F)),
    StableHlo.unary main_v239 main_v240 (broadcastInDim S100000x32 ![0, 1] bcast_S1x32_S100000x32_0_1 : (⟨S1x32, .f32⟩ : BufTy).Contents (Elt F) → (⟨S100000x32, .f32⟩ : BufTy).Contents (Elt F)),
    StableHlo.binary main_v238 main_v240 main_v241 (mulf : (⟨S100000x32, .f32⟩ : BufTy).Contents (Elt F) → (⟨S100000x32, .f32⟩ : BufTy).Contents (Elt F) → (⟨S100000x32, .f32⟩ : BufTy).Contents (Elt F)),
    StableHlo.unary main_v225 main_v242 (broadcastInDim S1x32 ![1] bcast_S32_S1x32_1 : (⟨S32, .f32⟩ : BufTy).Contents (Elt F) → (⟨S1x32, .f32⟩ : BufTy).Contents (Elt F)),
    StableHlo.unary main_v242 main_v243 (broadcastInDim S100000x32 ![0, 1] bcast_S1x32_S100000x32_0_1 : (⟨S1x32, .f32⟩ : BufTy).Contents (Elt F) → (⟨S100000x32, .f32⟩ : BufTy).Contents (Elt F)),
    StableHlo.binary main_v241 main_v243 main_v244 (addf : (⟨S100000x32, .f32⟩ : BufTy).Contents (Elt F) → (⟨S100000x32, .f32⟩ : BufTy).Contents (Elt F) → (⟨S100000x32, .f32⟩ : BufTy).Contents (Elt F)),
    StableHlo.TRef.nullary main_call5.cst (constant S_ .f32 0x00000000#32),
    StableHlo.TRef.unary main_call5.cst main_call5.v0 (broadcastInDim S100000x32 ![] bcast_S_S100000x32),
    StableHlo.TRef.binary (.of main_v244 : StableHlo.TRef sig ⟨S100000x32, .f32⟩) main_call5.v0 main_call5.v1 maximumf,
    StableHlo.binary main_v116 main_v245 main_v246 (addf : (⟨S100000x32, .f32⟩ : BufTy).Contents (Elt F) → (⟨S100000x32, .f32⟩ : BufTy).Contents (Elt F) → (⟨S100000x32, .f32⟩ : BufTy).Contents (Elt F)),
    StableHlo.unary main_arg19 main_v247 ((extractStridedSlice S1x32 ![1, 0] · slices_S4x32_S1x32_1_0) : (⟨S4x32, .f32⟩ : BufTy).Contents (Elt F) → (⟨S1x32, .f32⟩ : BufTy).Contents (Elt F)),
    StableHlo.reshape main_v247 main_v248 rfl shapeCasts_S1x32_S32,
    StableHlo.unary main_arg20 main_v249 ((extractStridedSlice S1x32 ![1, 0] · slices_S4x32_S1x32_1_0) : (⟨S4x32, .f32⟩ : BufTy).Contents (Elt F) → (⟨S1x32, .f32⟩ : BufTy).Contents (Elt F)),
    StableHlo.reshape main_v249 main_v250 rfl shapeCasts_S1x32_S32,
    StableHlo.nullary main_cst_32 (constant S_ .f32 0x00000000#32),
    StableHlo.binary main_v197 main_cst_32 main_v251 ((fun x v => Host.reduceAdd x v reducesTo_S800000x32_S32_d0 h_S_) : (⟨S800000x32, .f32⟩ : BufTy).Contents (Elt F) → (⟨S_, .f32⟩ : BufTy).Contents (Elt F) → (⟨S32, .f32⟩ : BufTy).Contents (Elt F)),
    StableHlo.nullary main_cst_33 (constant S_ .f32 0x49435000#32),
    StableHlo.unary main_cst_33 main_v252 (broadcastInDim S32 ![] bcast_S_S32 : (⟨S_, .f32⟩ : BufTy).Contents (Elt F) → (⟨S32, .f32⟩ : BufTy).Contents (Elt F)),
    StableHlo.binary main_v251 main_v252 main_v253 (Host.divf : (⟨S32, .f32⟩ : BufTy).Contents (Elt F) → (⟨S32, .f32⟩ : BufTy).Contents (Elt F) → (⟨S32, .f32⟩ : BufTy).Contents (Elt F)),
    StableHlo.nullary main_c_34 (constantI S_ 32 0#32),
    StableHlo.TRef.nullary main_call6.cst (constant S_ .f32 0x00000000#32),
    StableHlo.TRef.binary (.of main_v197 : StableHlo.TRef sig ⟨S800000x32, .f32⟩) main_call6.cst main_call6.v0 (fun x v => Host.reduceAdd x v reducesTo_S800000x32_S32_d0 h_S_),
    StableHlo.TRef.unary main_call6.v0 main_call6.v1 (broadcastInDim S1x32 ![1] bcast_S32_S1x32_1),
    StableHlo.TRef.nullary main_call6.cst_0 (constant S_ .f32 0x49435000#32),
    StableHlo.TRef.unary main_call6.cst_0 main_call6.v2 (broadcastInDim S1x32 ![] bcast_S_S1x32),
    StableHlo.TRef.binary main_call6.v1 main_call6.v2 main_call6.v3 Host.divf,
    StableHlo.TRef.unary main_call6.v3 main_call6.v4 (broadcastInDim S800000x32 ![0, 1] bcast_S1x32_S800000x32_0_1),
    StableHlo.TRef.binary (.of main_v197 : StableHlo.TRef sig ⟨S800000x32, .f32⟩) main_call6.v4 main_call6.v5 subf,
    StableHlo.TRef.binary main_call6.v5 main_call6.v5 main_call6.v6 mulf,
    StableHlo.TRef.unary (.of main_c_34 : StableHlo.TRef sig ⟨S_, .i32⟩) main_call6.v7 (sitofp .f32),
    StableHlo.TRef.nullary main_call6.cst_1 (constant S_ .f32 0x49435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S800000x32_S32_d0 h_S_),
    StableHlo.TRef.unary main_call6.v8 main_call6.v10 (broadcastInDim S32 ![] bcast_S_S32),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S32 ![] bcast_S_S32),
    StableHlo.TRef.ternary main_call6.v12 main_call6.v11 main_call6.call0.v1 main_call6.call0.v2 (fun p a b => select (broadcastInDim S32 ![] bcast_S_S32 p) a b),
    StableHlo.unary main_v253 main_v255 (broadcastInDim S1x32 ![1] bcast_S32_S1x32_1 : (⟨S32, .f32⟩ : BufTy).Contents (Elt F) → (⟨S1x32, .f32⟩ : BufTy).Contents (Elt F)),
    StableHlo.unary main_v255 main_v256 (broadcastInDim S800000x32 ![0, 1] bcast_S1x32_S800000x32_0_1 : (⟨S1x32, .f32⟩ : BufTy).Contents (Elt F) → (⟨S800000x32, .f32⟩ : BufTy).Contents (Elt F)),
    StableHlo.binary main_v197 main_v256 main_v257 (subf : (⟨S800000x32, .f32⟩ : BufTy).Contents (Elt F) → (⟨S800000x32, .f32⟩ : BufTy).Contents (Elt F) → (⟨S800000x32, .f32⟩ : BufTy).Contents (Elt F)),
    StableHlo.nullary main_cst_35 (constant S_ .f32 0x3727C5AC#32),
    StableHlo.unary main_cst_35 main_v258 (broadcastInDim S32 ![] bcast_S_S32 : (⟨S_, .f32⟩ : BufTy).Contents (Elt F) → (⟨S32, .f32⟩ : BufTy).Contents (Elt F)),
    StableHlo.binary main_v254 main_v258 main_v259 (addf : (⟨S32, .f32⟩ : BufTy).Contents (Elt F) → (⟨S32, .f32⟩ : BufTy).Contents (Elt F) → (⟨S32, .f32⟩ : BufTy).Contents (Elt F)),
    StableHlo.unary main_v259 main_v260 (Host.rsqrt : (⟨S32, .f32⟩ : BufTy).Contents (Elt F) → (⟨S32, .f32⟩ : BufTy).Contents (Elt F)),
    StableHlo.unary main_v260 main_v261 (broadcastInDim S1x32 ![1] bcast_S32_S1x32_1 : (⟨S32, .f32⟩ : BufTy).Contents (Elt F) → (⟨S1x32, .f32⟩ : BufTy).Contents (Elt F)),
    StableHlo.unary main_v261 main_v262 (broadcastInDim S800000x32 ![0, 1] bcast_S1x32_S800000x32_0_1 : (⟨S1x32, .f32⟩ : BufTy).Contents (Elt F) → (⟨S800000x32, .f32⟩ : BufTy).Contents (Elt F)),
    StableHlo.binary main_v257 main_v262 main_v263 (mulf : (⟨S800000x32, .f32⟩ : BufTy).Contents (Elt F) → (⟨S800000x32, .f32⟩ : BufTy).Contents (Elt F) → (⟨S800000x32, .f32⟩ : BufTy).Contents (Elt F)),
    StableHlo.unary main_v248 main_v264 (broadcastInDim S1x32 ![1] bcast_S32_S1x32_1 : (⟨S32, .f32⟩ : BufTy).Contents (Elt F) → (⟨S1x32, .f32⟩ : BufTy).Contents (Elt F)),
    StableHlo.unary main_v264 main_v265 (broadcastInDim S800000x32 ![0, 1] bcast_S1x32_S800000x32_0_1 : (⟨S1x32, .f32⟩ : BufTy).Contents (Elt F) → (⟨S800000x32, .f32⟩ : BufTy).Contents (Elt F)),
    StableHlo.binary main_v263 main_v265 main_v266 (mulf : (⟨S800000x32, .f32⟩ : BufTy).Contents (Elt F) → (⟨S800000x32, .f32⟩ : BufTy).Contents (Elt F) → (⟨S800000x32, .f32⟩ : BufTy).Contents (Elt F)),
    StableHlo.unary main_v250 main_v267 (broadcastInDim S1x32 ![1] bcast_S32_S1x32_1 : (⟨S32, .f32⟩ : BufTy).Contents (Elt F) → (⟨S1x32, .f32⟩ : BufTy).Contents (Elt F)),
    StableHlo.unary main_v267 main_v268 (broadcastInDim S800000x32 ![0, 1] bcast_S1x32_S800000x32_0_1 : (⟨S1x32, .f32⟩ : BufTy).Contents (Elt F) → (⟨S800000x32, .f32⟩ : BufTy).Contents (Elt F)),
    StableHlo.binary main_v266 main_v268 main_v269 (addf : (⟨S800000x32, .f32⟩ : BufTy).Contents (Elt F) → (⟨S800000x32, .f32⟩ : BufTy).Contents (Elt F) → (⟨S800000x32, .f32⟩ : BufTy).Contents (Elt F)),
    StableHlo.TRef.nullary main_call7.cst (constant S_ .f32 0x00000000#32),
    StableHlo.TRef.unary main_call7.cst main_call7.v0 (broadcastInDim S800000x32 ![] bcast_S_S800000x32),
    StableHlo.TRef.binary (.of main_v269 : StableHlo.TRef sig ⟨S800000x32, .f32⟩) main_call7.v0 main_call7.v1 maximumf,
    StableHlo.binary main_v141 main_v270 main_v271 (addf : (⟨S800000x32, .f32⟩ : BufTy).Contents (Elt F) → (⟨S800000x32, .f32⟩ : BufTy).Contents (Elt F) → (⟨S800000x32, .f32⟩ : BufTy).Contents (Elt F)) ]

/-- The reference each operation of the stretch writes, in the list's order: a builder's result operand (of a typed
    reference, the buffer it carries). -/
abbrev opsL2_W : List (Ref sig .tc) :=
  [ main_v142, main_v143, main_v144, main_v145, main_v146, main_v147, main_v148, main_v149,
    main_v150, main_v151, main_v152, main_v153, main_v154, main_v155, main_v156, main_v157,
    main_v158, main_v159, main_v160, main_v161, main_v162, main_v163, main_v164, main_v165,
    main_v166, main_v167, main_v168, main_v169, main_v170, main_v171, main_v172, main_v173,
    main_v174, main_v175, main_v176, main_v177, main_v178, main_v179, main_v180, main_v181,
    main_c_17, main_v182, main_v183, main_c_18, main_v184, main_v185, main_v186, main_v187,
    main_v188, main_c_19, main_v189, main_v190, main_c_20, main_v191, main_v192, main_v193,
    main_v194, main_v195, main_v196, main_v197, main_v198, main_v199, main_cst_21, main_v200,
    main_v201, main_cst_22, main_v202, main_v203, main_c_23, main_v204, main_v205, main_c_24,
    main_v206, main_v207, main_v208, main_v209, main_v210, main_v211, main_cst_25, main_v212,
    main_v213, main_v214, main_cst_26, main_v215, main_v216, main_v217, main_cst_27, main_v218,
    main_v219, main_v220, main_v221, main_v222, main_v223, main_v224, main_v225, main_cst_28,
    main_v226, main_cst_29, main_v227, main_v228, main_c_30, main_call4.cst.ref, main_call4.v0.ref, main_call4.v1.ref,
    main_call4.cst_0.ref, main_call4.v2.ref, main_call4.v3.ref, main_call4.v4.ref, main_call4.v5.ref, main_call4.v6.ref, main_call4.v7.ref, main_call4.cst_1.ref,
    main_call4.v8.ref, main_call4.cst_2.ref, main_call4.v9.ref, main_call4.v10.ref, main_call4.v11.ref, main_call4.cst_3.ref, main_call4.v12.ref, main_call4.cst_4.ref,
    main_call4.call0.v0.ref, main_call4.call0.v1.ref, main_call4.call0.v2.ref, main_v230, main_v231, main_v232, main_cst_31, main_v233,
    main_v234, main_v235, main_v236, main_v237, main_v238, main_v239, main_v240, main_v241,
    main_v242, main_v243, main_v244, main_call5.cst.ref, main_call5.v0.ref, main_call5.v1.ref, main_v246, main_v247,
    main_v248, main_v249, main_v250, main_cst_32, main_v251, main_cst_33, main_v252, main_v253,
    main_c_34, main_call6.cst.ref, main_call6.v0.ref, main_call6.v1.ref, main_call6.cst_0.ref, main_call6.v2.ref, main_call6.v3.ref, main_call6.v4.ref,
    main_call6.v5.ref, main_call6.v6.ref, main_call6.v7.ref, main_call6.cst_1.ref, main_call6.v8.ref, main_call6.cst_2.ref, main_call6.v9.ref, main_call6.v10.ref,
    main_call6.v11.ref, main_call6.cst_3.ref, main_call6.v12.ref, main_call6.cst_4.ref, main_call6.call0.v0.ref, main_call6.call0.v1.ref, main_call6.call0.v2.ref, main_v255,
    main_v256, main_v257, main_cst_35, main_v258, main_v259, main_v260, main_v261, main_v262,
    main_v263, main_v264, main_v265, main_v266, main_v267, main_v268, main_v269, main_call7.cst.ref,
    main_call7.v0.ref, main_call7.v1.ref, main_v271 ]

set_option maxRecDepth 16384 in
set_option maxHeartbeats 8000000 in
/-- Each operation writes exactly its result buffer, and that reference stands in the stretch's table: the
    builder's written set is the singleton of its result operand, whose membership in the literal table is
    decided. -/
theorem opsL2_writes : (opsL2 : List (HloOp τ sig (Elt F))).Forall fun op =>
    op.writes ⊆ (opsL2_W.map (Proc.devRef (τ := τ) .tc)).toFinset := by
  repeat' apply And.intro
  all_goals exact Finset.singleton_subset_iff.mpr (List.mem_toFinset.mpr (List.mem_map_of_mem (by decide)))

end Cert.ReferenceIdeal.RRead

end
-- ==== Proof.RCutL3.lean ====
import proofs.«425355_j88287347737110_2_alg».proof.Proof.Gen.ReferenceIdeal
import Idealize.ShloMosaic.Lib.StableHlo.Run

noncomputable section

namespace Cert.ReferenceIdeal.RRead

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxHeartbeats 8000000 in
/-- Layer 3 of the network as @main runs it: the operations from the one writing main_v272 through the one writing
    main_v401, in @main's order, constants and the called functions' operations (over main_call8 … main_call11) where they stand. It reads the node and edge features at
    (main_v246, main_v271) and leaves the layer's at (main_v376, main_v401). -/
abbrev opsL3 : List (HloOp τ sig (Elt F)) :=
  [ StableHlo.unary main_arg7 main_v272 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v272 main_v273 rfl shapeCasts_S1x32x32_S32x32,
    StableHlo.binary main_v246 main_v273 main_v274 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg8 main_v275 ((extractStridedSlice S1x32 ![2, 0] · slices_S4x32_S1x32_2_0) : (⟨S4x32, .f32⟩ : BufTy).Contents (Elt F) → (⟨S1x32, .f32⟩ : BufTy).Contents (Elt F)),
    StableHlo.reshape main_v275 main_v276 rfl shapeCasts_S1x32_S32,
    StableHlo.unary main_v276 main_v277 (broadcastInDim S1x32 ![1] bcast_S32_S1x32_1 : (⟨S32, .f32⟩ : BufTy).Contents (Elt F) → (⟨S1x32, .f32⟩ : BufTy).Contents (Elt F)),
    StableHlo.unary main_v277 main_v278 (broadcastInDim S100000x32 ![0, 1] bcast_S1x32_S100000x32_0_1 : (⟨S1x32, .f32⟩ : BufTy).Contents (Elt F) → (⟨S100000x32, .f32⟩ : BufTy).Contents (Elt F)),
    StableHlo.binary main_v274 main_v278 main_v279 (addf : (⟨S100000x32, .f32⟩ : BufTy).Contents (Elt F) → (⟨S100000x32, .f32⟩ : BufTy).Contents (Elt F) → (⟨S100000x32, .f32⟩ : BufTy).Contents (Elt F)),
    StableHlo.unary main_arg9 main_v280 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v280 main_v281 rfl shapeCasts_S1x32x32_S32x32,
    StableHlo.binary main_v246 main_v281 main_v282 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg10 main_v283 ((extractStridedSlice S1x32 ![2, 0] · slices_S4x32_S1x32_2_0) : (⟨S4x32, .f32⟩ : BufTy).Contents (Elt F) → (⟨S1x32, .f32⟩ : BufTy).Contents (Elt F)),
    StableHlo.reshape main_v283 main_v284 rfl shapeCasts_S1x32_S32,
    StableHlo.unary main_v284 main_v285 (broadcastInDim S1x32 ![1] bcast_S32_S1x32_1 : (⟨S32, .f32⟩ : BufTy).Contents (Elt F) → (⟨S1x32, .f32⟩ : BufTy).Contents (Elt F)),
    StableHlo.unary main_v285 main_v286 (broadcastInDim S100000x32 ![0, 1] bcast_S1x32_S100000x32_0_1 : (⟨S1x32, .f32⟩ : BufTy).Contents (Elt F) → (⟨S100000x32, .f32⟩ : BufTy).Contents (Elt F)),
    StableHlo.binary main_v282 main_v286 main_v287 (addf : (⟨S100000x32, .f32⟩ : BufTy).Contents (Elt F) → (⟨S100000x32, .f32⟩ : BufTy).Contents (Elt F) → (⟨S100000x32, .f32⟩ : BufTy).Contents (Elt F)),
    StableHlo.unary main_arg11 main_v288 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v288 main_v289 rfl shapeCasts_S1x32x32_S32x32,
    StableHlo.binary main_v271 main_v289 main_v290 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    StableHlo.unary main_arg12 main_v291 ((extractStridedSlice S1x32 ![2, 0] · slices_S4x32_S1x32_2_0) : (⟨S4x32, .f32⟩ : BufTy).Contents (Elt F) → (⟨S1x32, .f32⟩ : BufTy).Contents (Elt F)),
    StableHlo.reshape main_v291 main_v292 rfl shapeCasts_S1x32_S32,
    StableHlo.unary main_v292 main_v293 (broadcastInDim S1x32 ![1] bcast_S32_S1x32_1 : (⟨S32, .f32⟩ : BufTy).Contents (Elt F) → (⟨S1x32, .f32⟩ : BufTy).Contents (Elt F)),
    StableHlo.unary main_v293 main_v294 (broadcastInDim S800000x32 ![0, 1] bcast_S1x32_S800000x32_0_1 : (⟨S1x32, .f32⟩ : BufTy).Contents (Elt F) → (⟨S800000x32, .f32⟩ : BufTy).Contents (Elt F)),
    StableHlo.binary main_v290 main_v294 main_v295 (addf : (⟨S800000x32, .f32⟩ : BufTy).Contents (Elt F) → (⟨S800000x32, .f32⟩ : BufTy).Contents (Elt F) → (⟨S800000x32, .f32⟩ : BufTy).Contents (Elt F)),
    StableHlo.unary main_arg13 main_v296 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v296 main_v297 rfl shapeCasts_S1x32x32_S32x32,
    StableHlo.binary main_v246 main_v297 main_v298 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg14 main_v299 ((extractStridedSlice S1x32 ![2, 0] · slices_S4x32_S1x32_2_0) : (⟨S4x32, .f32⟩ : BufTy).Contents (Elt F) → (⟨S1x32, .f32⟩ : BufTy).Contents (Elt F)),
    StableHlo.reshape main_v299 main_v300 rfl shapeCasts_S1x32_S32,
    StableHlo.unary main_v300 main_v301 (broadcastInDim S1x32 ![1] bcast_S32_S1x32_1 : (⟨S32, .f32⟩ : BufTy).Contents (Elt F) → (⟨S1x32, .f32⟩ : BufTy).Contents (Elt F)),
    StableHlo.unary main_v301 main_v302 (broadcastInDim S100000x32 ![0, 1] bcast_S1x32_S100000x32_0_1 : (⟨S1x32, .f32⟩ : BufTy).Contents (Elt F) → (⟨S100000x32, .f32⟩ : BufTy).Contents (Elt F)),
    StableHlo.binary main_v298 main_v302 main_v303 (addf : (⟨S100000x32, .f32⟩ : BufTy).Contents (Elt F) → (⟨S100000x32, .f32⟩ : BufTy).Contents (Elt F) → (⟨S100000x32, .f32⟩ : BufTy).Contents (Elt F)),
    StableHlo.unary main_arg15 main_v304 ((extractStridedSlice S1x32x32 ![2, 0, 0] · slices_S4x32x32_S1x32x32_2_0_0) : (⟨S4x32x32, .f32⟩ : BufTy).Contents (Elt F) → (⟨S1x32x32, .f32⟩ : BufTy).Contents (Elt F)),
    StableHlo.reshape main_v304 main_v305 rfl shapeCasts_S1x32x32_S32x32,
    StableHlo.binary main_v246 main_v305 main_v306 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg16 main_v307 ((extractStridedSlice S1x32 ![2, 0] · slices_S4x32_S1x32_2_0) : (⟨S4x32, .f32⟩ : BufTy).Contents (Elt F) → (⟨S1x32, .f32⟩ : BufTy).Contents (Elt F)),
    StableHlo.reshape main_v307 main_v308 rfl shapeCasts_S1x32_S32,
    StableHlo.unary main_v308 main_v309 (broadcastInDim S1x32 ![1] bcast_S32_S1x32_1 : (⟨S32, .f32⟩ : BufTy).Contents (Elt F) → (⟨S1x32, .f32⟩ : BufTy).Contents (Elt F)),
    StableHlo.unary main_v309 main_v310 (broadcastInDim S100000x32 ![0, 1] bcast_S1x32_S100000x32_0_1 : (⟨S1x32, .f32⟩ : BufTy).Contents (Elt F) → (⟨S100000x32, .f32⟩ : BufTy).Contents (Elt F)),
    StableHlo.binary main_v306 main_v310 main_v311 (addf : (⟨S100000x32, .f32⟩ : BufTy).Contents (Elt F) → (⟨S100000x32, .f32⟩ : BufTy).Contents (Elt F) → (⟨S100000x32, .f32⟩ : BufTy).Contents (Elt F)),
    StableHlo.nullary main_c_36 (constantI S_ 32 0#32),
    StableHlo.unary main_c_36 main_v312 (broadcastInDim S800000 ![] bcast_S_S800000 : (⟨S_, .i32⟩ : BufTy).Contents (Elt F) → (⟨S800000, .i32⟩ : BufTy).Contents (Elt F)),
    StableHlo.binary main_v3 main_v312 main_v313 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 100000#32),
    StableHlo.unary main_c_37 main_v314 (broadcastInDim S800000 ![] bcast_S_S800000 : (⟨S_, .i32⟩ : BufTy).Contents (Elt F) → (⟨S800000, .i32⟩ : BufTy).Contents (Elt F)),
    StableHlo.binary main_v3 main_v314 main_v315 (addi : (⟨S800000, .i32⟩ : BufTy).Contents (Elt F) → (⟨S800000, .i32⟩ : BufTy).Contents (Elt F) → (⟨S800000, .i32⟩ : BufTy).Contents (Elt F)),
    StableHlo.ternary main_v313 main_v315 main_v3 main_v316 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v316 main_v317 (broadcastInDim S800000x1 ![0] bcast_S800000_S800000x1_0 : (⟨S800000, .i32⟩ : BufTy).Contents (Elt F) → (⟨S800000x1, .i32⟩ : BufTy).Contents (Elt F)),
    StableHlo.binary main_v279 main_v317 main_v318 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nullary main_c_38 (constantI S_ 32 0#32),
    StableHlo.unary main_c_38 main_v319 (broadcastInDim S800000 ![] bcast_S_S800000 : (⟨S_, .i32⟩ : BufTy).Contents (Elt F) → (⟨S800000, .i32⟩ : BufTy).Contents (Elt F)),
    StableHlo.binary main_v1 main_v319 main_v320 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 100000#32),
    StableHlo.unary main_c_39 main_v321 (broadcastInDim S800000 ![] bcast_S_S800000 : (⟨S_, .i32⟩ : BufTy).Contents (Elt F) → (⟨S800000, .i32⟩ : BufTy).Contents (Elt F)),
    StableHlo.binary main_v1 main_v321 main_v322 (addi : (⟨S800000, .i32⟩ : BufTy).Contents (Elt F) → (⟨S800000, .i32⟩ : BufTy).Contents (Elt F) → (⟨S800000, .i32⟩ : BufTy).Contents (Elt F)),
    StableHlo.ternary main_v320 main_v322 main_v1 main_v323 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v323 main_v324 (broadcastInDim S800000x1 ![0] bcast_S800000_S800000x1_0 : (⟨S800000, .i32⟩ : BufTy).Contents (Elt F) → (⟨S800000x1, .i32⟩ : BufTy).Contents (Elt F)),
    StableHlo.binary main_v287 main_v324 main_v325 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v318 main_v325 main_v326 (addf : (⟨S800000x32, .f32⟩ : BufTy).Contents (Elt F) → (⟨S800000x32, .f32⟩ : BufTy).Contents (Elt F) → (⟨S800000x32, .f32⟩ : BufTy).Contents (Elt F)),
    StableHlo.binary main_v326 main_v295 main_v327 (addf : (⟨S800000x32, .f32⟩ : BufTy).Contents (Elt F) → (⟨S800000x32, .f32⟩ : BufTy).Contents (Elt F) → (⟨S800000x32, .f32⟩ : BufTy).Contents (Elt F)),
    StableHlo.unary main_v327 main_v328 (Host.negf : (⟨S800000x32, .f32⟩ : BufTy).Contents (Elt F) → (⟨S800000x32, .f32⟩ : BufTy).Contents (Elt F)),
    StableHlo.unary main_v328 main_v329 (Host.exp : (⟨S800000x32, .f32⟩ : BufTy).Contents (Elt F) → (⟨S800000x32, .f32⟩ : BufTy).Contents (Elt F)),
    StableHlo.nullary main_cst_40 (constant S_ .f32 0x3F800000#32),
    StableHlo.unary main_cst_40 main_v330 (broadcastInDim S800000x32 ![] bcast_S_S800000x32 : (⟨S_, .f32⟩ : BufTy).Contents (Elt F) → (⟨S800000x32, .f32⟩ : BufTy).Contents (Elt F)),
    StableHlo.binary main_v330 main_v329 main_v331 (addf : (⟨S800000x32, .f32⟩ : BufTy).Contents (Elt F) → (⟨S800000x32, .f32⟩ : BufTy).Contents (Elt F) → (⟨S800000x32, .f32⟩ : BufTy).Contents (Elt F)),
    StableHlo.nullary main_cst_41 (constant S_ .f32 0x3F800000#32),
    StableHlo.unary main_cst_41 main_v332 (broadcastInDim S800000x32 ![] bcast_S_S800000x32 : (⟨S_, .f32⟩ : BufTy).Contents (Elt F) → (⟨S800000x32, .f32⟩ : BufTy).Contents (Elt F)),
    StableHlo.binary main_v332 main_v331 main_v333 (Host.divf : (⟨S800000x32, .f32⟩ : BufTy).Contents (Elt F) → (⟨S800000x32, .f32⟩ : BufTy).Contents (Elt F) → (⟨S800000x32, .f32⟩ : BufTy).Contents (Elt F)),
    StableHlo.nullary main_c_42 (constantI S_ 32 0#32),
    StableHlo.unary main_c_42 main_v334 (broadcastInDim S800000 ![] bcast_S_S800000 : (⟨S_, .i32⟩ : BufTy).Contents (Elt F) → (⟨S800000, .i32⟩ : BufTy).Contents (Elt F)),
    StableHlo.binary main_v1 main_v334 main_v335 (cmpi .slt : (⟨S800000, .i32⟩ : BufTy).Contents (Elt F) → (⟨S800000, .i32⟩ : BufTy).Contents (Elt F) → (⟨S800000, .i1⟩ : BufTy).Contents (Elt F)),
    StableHlo.nullary main_c_43 (constantI S_ 32 100000#32),
    StableHlo.unary main_c_43 main_v336 (broadcastInDim S800000 ![] bcast_S_S800000 : (⟨S_, .i32⟩ : BufTy).Contents (Elt F) → (⟨S800000, .i32⟩ : BufTy).Contents (Elt F)),
    StableHlo.binary main_v1 main_v336 main_v337 (addi : (⟨S800000, .i32⟩ : BufTy).Contents (Elt F) → (⟨S800000, .i32⟩ : BufTy).Contents (Elt F) → (⟨S800000, .i32⟩ : BufTy).Contents (Elt F)),
    StableHlo.ternary main_v335 main_v337 main_v1 main_v338 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v338 main_v339 (broadcastInDim S800000x1 ![0] bcast_S800000_S800000x1_0 : (⟨S800000, .i32⟩ : BufTy).Contents (Elt F) → (⟨S800000x1, .i32⟩ : BufTy).Contents (Elt F)),
    StableHlo.binary main_v311 main_v339 main_v340 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v333 main_v340 main_v341 (mulf : (⟨S800000x32, .f32⟩ : BufTy).Contents (Elt F) → (⟨S800000x32, .f32⟩ : BufTy).Contents (Elt F) → (⟨S800000x32, .f32⟩ : BufTy).Contents (Elt F)),
    StableHlo.nullary main_cst_44 (constant S_ .f32 0x00000000#32),
    StableHlo.unary main_cst_44 main_v342 (broadcastInDim S100000x32 ![] bcast_S_S100000x32 : (⟨S_, .f32⟩ : BufTy).Contents (Elt F) → (⟨S100000x32, .f32⟩ : BufTy).Contents (Elt F)),
    StableHlo.unary main_v3 main_v343 (broadcastInDim S800000x1 ![0] bcast_S800000_S800000x1_0 : (⟨S800000, .i32⟩ : BufTy).Contents (Elt F) → (⟨S800000x1, .i32⟩ : BufTy).Contents (Elt F)),
    StableHlo.ternary main_v342 main_v343 main_v341 main_v344 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_45 (constant S_ .f32 0x00000000#32),
    StableHlo.unary main_cst_45 main_v345 (broadcastInDim S100000x32 ![] bcast_S_S100000x32 : (⟨S_, .f32⟩ : BufTy).Contents (Elt F) → (⟨S100000x32, .f32⟩ : BufTy).Contents (Elt F)),
    StableHlo.unary main_v3 main_v346 (broadcastInDim S800000x1 ![0] bcast_S800000_S800000x1_0 : (⟨S800000, .i32⟩ : BufTy).Contents (Elt F) → (⟨S800000x1, .i32⟩ : BufTy).Contents (Elt F)),
    StableHlo.ternary main_v345 main_v346 main_v333 main_v347 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_46 (constant S_ .f32 0x358637BD#32),
    StableHlo.unary main_cst_46 main_v348 (broadcastInDim S100000x32 ![] bcast_S_S100000x32 : (⟨S_, .f32⟩ : BufTy).Contents (Elt F) → (⟨S100000x32, .f32⟩ : BufTy).Contents (Elt F)),
    StableHlo.binary main_v347 main_v348 main_v349 (addf : (⟨S100000x32, .f32⟩ : BufTy).Contents (Elt F) → (⟨S100000x32, .f32⟩ : BufTy).Contents (Elt F) → (⟨S100000x32, .f32⟩ : BufTy).Contents (Elt F)),
    StableHlo.binary main_v344 main_v349 main_v350 (Host.divf : (⟨S100000x32, .f32⟩ : BufTy).Contents (Elt F) → (⟨S100000x32, .f32⟩ : BufTy).Contents (Elt F) → (⟨S100000x32, .f32⟩ : BufTy).Contents (Elt F)),
    StableHlo.binary main_v303 main_v350 main_v351 (addf : (⟨S100000x32, .f32⟩ : BufTy).Contents (Elt F) → (⟨S100000x32, .f32⟩ : BufTy).Contents (Elt F) → (⟨S100000x32, .f32⟩ : BufTy).Contents (Elt F)),
    StableHlo.unary main_arg17 main_v352 ((extractStridedSlice S1x32 ![2, 0] · slices_S4x32_S1x32_2_0) : (⟨S4x32, .f32⟩ : BufTy).Contents (Elt F) → (⟨S1x32, .f32⟩ : BufTy).Contents (Elt F)),
    StableHlo.reshape main_v352 main_v353 rfl shapeCasts_S1x32_S32,
    StableHlo.unary main_arg18 main_v354 ((extractStridedSlice S1x32 ![2, 0] · slices_S4x32_S1x32_2_0) : (⟨S4x32, .f32⟩ : BufTy).Contents (Elt F) → (⟨S1x32, .f32⟩ : BufTy).Contents (Elt F)),
    StableHlo.reshape main_v354 main_v355 rfl shapeCasts_S1x32_S32,
    StableHlo.nullary main_cst_47 (constant S_ .f32 0x00000000#32),
    StableHlo.binary main_v351 main_cst_47 main_v356 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_48 (constant S_ .f32 0x47C35000#32),
    StableHlo.unary main_cst_48 main_v357 (broadcastInDim S32 ![] bcast_S_S32 : (⟨S_, .f32⟩ : BufTy).Contents (Elt F) → (⟨S32, .f32⟩ : BufTy).Contents (Elt F)),
    StableHlo.binary main_v356 main_v357 main_v358 (Host.divf : (⟨S32, .f32⟩ : BufTy).Contents (Elt F) → (⟨S32, .f32⟩ : BufTy).Contents (Elt F) → (⟨S32, .f32⟩ : BufTy).Contents (Elt F)),
    StableHlo.nullary main_c_49 (constantI S_ 32 0#32),
    StableHlo.TRef.nullary main_call8.cst (constant S_ .f32 0x00000000#32),
    StableHlo.TRef.binary (.of main_v351 : StableHlo.TRef sig ⟨S100000x32, .f32⟩) main_call8.cst main_call8.v0 (fun x v => Host.reduceAdd x v reducesTo_S100000x32_S32_d0 h_S_),
    StableHlo.TRef.unary main_call8.v0 main_call8.v1 (broadcastInDim S1x32 ![1] bcast_S32_S1x32_1),
    StableHlo.TRef.nullary main_call8.cst_0 (constant S_ .f32 0x47C35000#32),
    StableHlo.TRef.unary main_call8.cst_0 main_call8.v2 (broadcastInDim S1x32 ![] bcast_S_S1x32),
    StableHlo.TRef.binary main_call8.v1 main_call8.v2 main_call8.v3 Host.divf,
    StableHlo.TRef.unary main_call8.v3 main_call8.v4 (broadcastInDim S100000x32 ![0, 1] bcast_S1x32_S100000x32_0_1),
    StableHlo.TRef.binary (.of main_v351 : StableHlo.TRef sig ⟨S100000x32, .f32⟩) main_call8.v4 main_call8.v5 subf,
    StableHlo.TRef.binary main_call8.v5 main_call8.v5 main_call8.v6 mulf,
    StableHlo.TRef.unary (.of main_c_49 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x32_S32_d0 h_S_),
    StableHlo.TRef.unary main_call8.v8 main_call8.v10 (broadcastInDim S32 ![] bcast_S_S32),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S32 ![] bcast_S_S32),
    StableHlo.TRef.ternary main_call8.v12 main_call8.v11 main_call8.call0.v1 main_call8.call0.v2 (fun p a b => select (broadcastInDim S32 ![] bcast_S_S32 p) a b),
    StableHlo.unary main_v358 main_v360 (broadcastInDim S1x32 ![1] bcast_S32_S1x32_1 : (⟨S32, .f32⟩ : BufTy).Contents (Elt F) → (⟨S1x32, .f32⟩ : BufTy).Contents (Elt F)),
    StableHlo.unary main_v360 main_v361 (broadcastInDim S100000x32 ![0, 1] bcast_S1x32_S100000x32_0_1 : (⟨S1x32, .f32⟩ : BufTy).Contents (Elt F) → (⟨S100000x32, .f32⟩ : BufTy).Contents (Elt F)),
    StableHlo.binary main_v351 main_v361 main_v362 (subf : (⟨S100000x32, .f32⟩ : BufTy).Contents (Elt F) → (⟨S100000x32, .f32⟩ : BufTy).Contents (Elt F) → (⟨S100000x32, .f32⟩ : BufTy).Contents (Elt F)),
    StableHlo.nullary main_cst_50 (constant S_ .f32 0x3727C5AC#32),
    StableHlo.unary main_cst_50 main_v363 (broadcastInDim S32 ![] bcast_S_S32 : (⟨S_, .f32⟩ : BufTy).Contents (Elt F) → (⟨S32, .f32⟩ : BufTy).Contents (Elt F)),
    StableHlo.binary main_v359 main_v363 main_v364 (addf : (⟨S32, .f32⟩ : BufTy).Contents (Elt F) → (⟨S32, .f32⟩ : BufTy).Contents (Elt F) → (⟨S32, .f32⟩ : BufTy).Contents (Elt F)),
    StableHlo.unary main_v364 main_v365 (Host.rsqrt : (⟨S32, .f32⟩ : BufTy).Contents (Elt F) → (⟨S32, .f32⟩ : BufTy).Contents (Elt F)),
    StableHlo.unary main_v365 main_v366 (broadcastInDim S1x32 ![1] bcast_S32_S1x32_1 : (⟨S32, .f32⟩ : BufTy).Contents (Elt F) → (⟨S1x32, .f32⟩ : BufTy).Contents (Elt F)),
    StableHlo.unary main_v366 main_v367 (broadcastInDim S100000x32 ![0, 1] bcast_S1x32_S100000x32_0_1 : (⟨S1x32, .f32⟩ : BufTy).Contents (Elt F) → (⟨S100000x32, .f32⟩ : BufTy).Contents (Elt F)),
    StableHlo.binary main_v362 main_v367 main_v368 (mulf : (⟨S100000x32, .f32⟩ : BufTy).Contents (Elt F) → (⟨S100000x32, .f32⟩ : BufTy).Contents (Elt F) → (⟨S100000x32, .f32⟩ : BufTy).Contents (Elt F)),
    StableHlo.unary main_v353 main_v369 (broadcastInDim S1x32 ![1] bcast_S32_S1x32_1 : (⟨S32, .f32⟩ : BufTy).Contents (Elt F) → (⟨S1x32, .f32⟩ : BufTy).Contents (Elt F)),
    StableHlo.unary main_v369 main_v370 (broadcastInDim S100000x32 ![0, 1] bcast_S1x32_S100000x32_0_1 : (⟨S1x32, .f32⟩ : BufTy).Contents (Elt F) → (⟨S100000x32, .f32⟩ : BufTy).Contents (Elt F)),
    StableHlo.binary main_v368 main_v370 main_v371 (mulf : (⟨S100000x32, .f32⟩ : BufTy).Contents (Elt F) → (⟨S100000x32, .f32⟩ : BufTy).Contents (Elt F) → (⟨S100000x32, .f32⟩ : BufTy).Contents (Elt F)),
    StableHlo.unary main_v355 main_v372 (broadcastInDim S1x32 ![1] bcast_S32_S1x32_1 : (⟨S32, .f32⟩ : BufTy).Contents (Elt F) → (⟨S1x32, .f32⟩ : BufTy).Contents (Elt F)),
    StableHlo.unary main_v372 main_v373 (broadcastInDim S100000x32 ![0, 1] bcast_S1x32_S100000x32_0_1 : (⟨S1x32, .f32⟩ : BufTy).Contents (Elt F) → (⟨S100000x32, .f32⟩ : BufTy).Contents (Elt F)),
    StableHlo.binary main_v371 main_v373 main_v374 (addf : (⟨S100000x32, .f32⟩ : BufTy).Contents (Elt F) → (⟨S100000x32, .f32⟩ : BufTy).Contents (Elt F) → (⟨S100000x32, .f32⟩ : BufTy).Contents (Elt F)),
    StableHlo.TRef.nullary main_call9.cst (constant S_ .f32 0x00000000#32),
    StableHlo.TRef.unary main_call9.cst main_call9.v0 (broadcastInDim S100000x32 ![] bcast_S_S100000x32),
    StableHlo.TRef.binary (.of main_v374 : StableHlo.TRef sig ⟨S100000x32, .f32⟩) main_call9.v0 main_call9.v1 maximumf,
    StableHlo.binary main_v246 main_v375 main_v376 (addf : (⟨S100000x32, .f32⟩ : BufTy).Contents (Elt F) → (⟨S100000x32, .f32⟩ : BufTy).Contents (Elt F) → (⟨S100000x32, .f32⟩ : BufTy).Contents (Elt F)),
    StableHlo.unary main_arg19 main_v377 ((extractStridedSlice S1x32 ![2, 0] · slices_S4x32_S1x32_2_0) : (⟨S4x32, .f32⟩ : BufTy).Contents (Elt F) → (⟨S1x32, .f32⟩ : BufTy).Contents (Elt F)),
    StableHlo.reshape main_v377 main_v378 rfl shapeCasts_S1x32_S32,
    StableHlo.unary main_arg20 main_v379 ((extractStridedSlice S1x32 ![2, 0] · slices_S4x32_S1x32_2_0) : (⟨S4x32, .f32⟩ : BufTy).Contents (Elt F) → (⟨S1x32, .f32⟩ : BufTy).Contents (Elt F)),
    StableHlo.reshape main_v379 main_v380 rfl shapeCasts_S1x32_S32,
    StableHlo.nullary main_cst_51 (constant S_ .f32 0x00000000#32),
    StableHlo.binary main_v327 main_cst_51 main_v381 ((fun x v => Host.reduceAdd x v reducesTo_S800000x32_S32_d0 h_S_) : (⟨S800000x32, .f32⟩ : BufTy).Contents (Elt F) → (⟨S_, .f32⟩ : BufTy).Contents (Elt F) → (⟨S32, .f32⟩ : BufTy).Contents (Elt F)),
    StableHlo.nullary main_cst_52 (constant S_ .f32 0x49435000#32),
    StableHlo.unary main_cst_52 main_v382 (broadcastInDim S32 ![] bcast_S_S32 : (⟨S_, .f32⟩ : BufTy).Contents (Elt F) → (⟨S32, .f32⟩ : BufTy).Contents (Elt F)),
    StableHlo.binary main_v381 main_v382 main_v383 (Host.divf : (⟨S32, .f32⟩ : BufTy).Contents (Elt F) → (⟨S32, .f32⟩ : BufTy).Contents (Elt F) → (⟨S32, .f32⟩ : BufTy).Contents (Elt F)),
    StableHlo.nullary main_c_53 (constantI S_ 32 0#32),
    StableHlo.TRef.nullary main_call10.cst (constant S_ .f32 0x00000000#32),
    StableHlo.TRef.binary (.of main_v327 : StableHlo.TRef sig ⟨S800000x32, .f32⟩) main_call10.cst main_call10.v0 (fun x v => Host.reduceAdd x v reducesTo_S800000x32_S32_d0 h_S_),
    StableHlo.TRef.unary main_call10.v0 main_call10.v1 (broadcastInDim S1x32 ![1] bcast_S32_S1x32_1),
    StableHlo.TRef.nullary main_call10.cst_0 (constant S_ .f32 0x49435000#32),
    StableHlo.TRef.unary main_call10.cst_0 main_call10.v2 (broadcastInDim S1x32 ![] bcast_S_S1x32),
    StableHlo.TRef.binary main_call10.v1 main_call10.v2 main_call10.v3 Host.divf,
    StableHlo.TRef.unary main_call10.v3 main_call10.v4 (broadcastInDim S800000x32 ![0, 1] bcast_S1x32_S800000x32_0_1),
    StableHlo.TRef.binary (.of main_v327 : StableHlo.TRef sig ⟨S800000x32, .f32⟩) main_call10.v4 main_call10.v5 subf,
    StableHlo.TRef.binary main_call10.v5 main_call10.v5 main_call10.v6 mulf,
    StableHlo.TRef.unary (.of main_c_53 : StableHlo.TRef sig ⟨S_, .i32⟩) main_call10.v7 (sitofp .f32),
    StableHlo.TRef.nullary main_call10.cst_1 (constant S_ .f32 0x49435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S800000x32_S32_d0 h_S_),
    StableHlo.TRef.unary main_call10.v8 main_call10.v10 (broadcastInDim S32 ![] bcast_S_S32),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S32 ![] bcast_S_S32),
    StableHlo.TRef.ternary main_call10.v12 main_call10.v11 main_call10.call0.v1 main_call10.call0.v2 (fun p a b => select (broadcastInDim S32 ![] bcast_S_S32 p) a b),
    StableHlo.unary main_v383 main_v385 (broadcastInDim S1x32 ![1] bcast_S32_S1x32_1 : (⟨S32, .f32⟩ : BufTy).Contents (Elt F) → (⟨S1x32, .f32⟩ : BufTy).Contents (Elt F)),
    StableHlo.unary main_v385 main_v386 (broadcastInDim S800000x32 ![0, 1] bcast_S1x32_S800000x32_0_1 : (⟨S1x32, .f32⟩ : BufTy).Contents (Elt F) → (⟨S800000x32, .f32⟩ : BufTy).Contents (Elt F)),
    StableHlo.binary main_v327 main_v386 main_v387 (subf : (⟨S800000x32, .f32⟩ : BufTy).Contents (Elt F) → (⟨S800000x32, .f32⟩ : BufTy).Contents (Elt F) → (⟨S800000x32, .f32⟩ : BufTy).Contents (Elt F)),
    StableHlo.nullary main_cst_54 (constant S_ .f32 0x3727C5AC#32),
    StableHlo.unary main_cst_54 main_v388 (broadcastInDim S32 ![] bcast_S_S32 : (⟨S_, .f32⟩ : BufTy).Contents (Elt F) → (⟨S32, .f32⟩ : BufTy).Contents (Elt F)),
    StableHlo.binary main_v384 main_v388 main_v389 (addf : (⟨S32, .f32⟩ : BufTy).Contents (Elt F) → (⟨S32, .f32⟩ : BufTy).Contents (Elt F) → (⟨S32, .f32⟩ : BufTy).Contents (Elt F)),
    StableHlo.unary main_v389 main_v390 (Host.rsqrt : (⟨S32, .f32⟩ : BufTy).Contents (Elt F) → (⟨S32, .f32⟩ : BufTy).Contents (Elt F)),
    StableHlo.unary main_v390 main_v391 (broadcastInDim S1x32 ![1] bcast_S32_S1x32_1 : (⟨S32, .f32⟩ : BufTy).Contents (Elt F) → (⟨S1x32, .f32⟩ : BufTy).Contents (Elt F)),
    StableHlo.unary main_v391 main_v392 (broadcastInDim S800000x32 ![0, 1] bcast_S1x32_S800000x32_0_1 : (⟨S1x32, .f32⟩ : BufTy).Contents (Elt F) → (⟨S800000x32, .f32⟩ : BufTy).Contents (Elt F)),
    StableHlo.binary main_v387 main_v392 main_v393 (mulf : (⟨S800000x32, .f32⟩ : BufTy).Contents (Elt F) → (⟨S800000x32, .f32⟩ : BufTy).Contents (Elt F) → (⟨S800000x32, .f32⟩ : BufTy).Contents (Elt F)),
    StableHlo.unary main_v378 main_v394 (broadcastInDim S1x32 ![1] bcast_S32_S1x32_1 : (⟨S32, .f32⟩ : BufTy).Contents (Elt F) → (⟨S1x32, .f32⟩ : BufTy).Contents (Elt F)),
    StableHlo.unary main_v394 main_v395 (broadcastInDim S800000x32 ![0, 1] bcast_S1x32_S800000x32_0_1 : (⟨S1x32, .f32⟩ : BufTy).Contents (Elt F) → (⟨S800000x32, .f32⟩ : BufTy).Contents (Elt F)),
    StableHlo.binary main_v393 main_v395 main_v396 (mulf : (⟨S800000x32, .f32⟩ : BufTy).Contents (Elt F) → (⟨S800000x32, .f32⟩ : BufTy).Contents (Elt F) → (⟨S800000x32, .f32⟩ : BufTy).Contents (Elt F)),
    StableHlo.unary main_v380 main_v397 (broadcastInDim S1x32 ![1] bcast_S32_S1x32_1 : (⟨S32, .f32⟩ : BufTy).Contents (Elt F) → (⟨S1x32, .f32⟩ : BufTy).Contents (Elt F)),
    StableHlo.unary main_v397 main_v398 (broadcastInDim S800000x32 ![0, 1] bcast_S1x32_S800000x32_0_1 : (⟨S1x32, .f32⟩ : BufTy).Contents (Elt F) → (⟨S800000x32, .f32⟩ : BufTy).Contents (Elt F)),
    StableHlo.binary main_v396 main_v398 main_v399 (addf : (⟨S800000x32, .f32⟩ : BufTy).Contents (Elt F) → (⟨S800000x32, .f32⟩ : BufTy).Contents (Elt F) → (⟨S800000x32, .f32⟩ : BufTy).Contents (Elt F)),
    StableHlo.TRef.nullary main_call11.cst (constant S_ .f32 0x00000000#32),
    StableHlo.TRef.unary main_call11.cst main_call11.v0 (broadcastInDim S800000x32 ![] bcast_S_S800000x32),
    StableHlo.TRef.binary (.of main_v399 : StableHlo.TRef sig ⟨S800000x32, .f32⟩) main_call11.v0 main_call11.v1 maximumf,
    StableHlo.binary main_v271 main_v400 main_v401 (addf : (⟨S800000x32, .f32⟩ : BufTy).Contents (Elt F) → (⟨S800000x32, .f32⟩ : BufTy).Contents (Elt F) → (⟨S800000x32, .f32⟩ : BufTy).Contents (Elt F)) ]

/-- The reference each operation of the stretch writes, in the list's order: a builder's result operand (of a typed
    reference, the buffer it carries). -/
abbrev opsL3_W : List (Ref sig .tc) :=
  [ main_v272, main_v273, main_v274, main_v275, main_v276, main_v277, main_v278, main_v279,
    main_v280, main_v281, main_v282, main_v283, main_v284, main_v285, main_v286, main_v287,
    main_v288, main_v289, main_v290, main_v291, main_v292, main_v293, main_v294, main_v295,
    main_v296, main_v297, main_v298, main_v299, main_v300, main_v301, main_v302, main_v303,
    main_v304, main_v305, main_v306, main_v307, main_v308, main_v309, main_v310, main_v311,
    main_c_36, main_v312, main_v313, main_c_37, main_v314, main_v315, main_v316, main_v317,
    main_v318, main_c_38, main_v319, main_v320, main_c_39, main_v321, main_v322, main_v323,
    main_v324, main_v325, main_v326, main_v327, main_v328, main_v329, main_cst_40, main_v330,
    main_v331, main_cst_41, main_v332, main_v333, main_c_42, main_v334, main_v335, main_c_43,
    main_v336, main_v337, main_v338, main_v339, main_v340, main_v341, main_cst_44, main_v342,
    main_v343, main_v344, main_cst_45, main_v345, main_v346, main_v347, main_cst_46, main_v348,
    main_v349, main_v350, main_v351, main_v352, main_v353, main_v354, main_v355, main_cst_47,
    main_v356, main_cst_48, main_v357, main_v358, main_c_49, main_call8.cst.ref, main_call8.v0.ref, main_call8.v1.ref,
    main_call8.cst_0.ref, main_call8.v2.ref, main_call8.v3.ref, main_call8.v4.ref, main_call8.v5.ref, main_call8.v6.ref, main_call8.v7.ref, main_call8.cst_1.ref,
    main_call8.v8.ref, main_call8.cst_2.ref, main_call8.v9.ref, main_call8.v10.ref, main_call8.v11.ref, main_call8.cst_3.ref, main_call8.v12.ref, main_call8.cst_4.ref,
    main_call8.call0.v0.ref, main_call8.call0.v1.ref, main_call8.call0.v2.ref, main_v360, main_v361, main_v362, main_cst_50, main_v363,
    main_v364, main_v365, main_v366, main_v367, main_v368, main_v369, main_v370, main_v371,
    main_v372, main_v373, main_v374, main_call9.cst.ref, main_call9.v0.ref, main_call9.v1.ref, main_v376, main_v377,
    main_v378, main_v379, main_v380, main_cst_51, main_v381, main_cst_52, main_v382, main_v383,
    main_c_53, main_call10.cst.ref, main_call10.v0.ref, main_call10.v1.ref, main_call10.cst_0.ref, main_call10.v2.ref, main_call10.v3.ref, main_call10.v4.ref,
    main_call10.v5.ref, main_call10.v6.ref, main_call10.v7.ref, main_call10.cst_1.ref, main_call10.v8.ref, main_call10.cst_2.ref, main_call10.v9.ref, main_call10.v10.ref,
    main_call10.v11.ref, main_call10.cst_3.ref, main_call10.v12.ref, main_call10.cst_4.ref, main_call10.call0.v0.ref, main_call10.call0.v1.ref, main_call10.call0.v2.ref, main_v385,
    main_v386, main_v387, main_cst_54, main_v388, main_v389, main_v390, main_v391, main_v392,
    main_v393, main_v394, main_v395, main_v396, main_v397, main_v398, main_v399, main_call11.cst.ref,
    main_call11.v0.ref, main_call11.v1.ref, main_v401 ]

set_option maxRecDepth 16384 in
set_option maxHeartbeats 8000000 in
/-- Each operation writes exactly its result buffer, and that reference stands in the stretch's table: the
    builder's written set is the singleton of its result operand, whose membership in the literal table is
    decided. -/
theorem opsL3_writes : (opsL3 : List (HloOp τ sig (Elt F))).Forall fun op =>
    op.writes ⊆ (opsL3_W.map (Proc.devRef (τ := τ) .tc)).toFinset := by
  repeat' apply And.intro
  all_goals exact Finset.singleton_subset_iff.mpr (List.mem_toFinset.mpr (List.mem_map_of_mem (by decide)))

end Cert.ReferenceIdeal.RRead

end
-- ==== Proof.RCutL4.lean ====
import proofs.«425355_j88287347737110_2_alg».proof.Proof.Gen.ReferenceIdeal
import Idealize.ShloMosaic.Lib.StableHlo.Run

noncomputable section

namespace Cert.ReferenceIdeal.RRead

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxHeartbeats 8000000 in
/-- Layer 4 of the network as @main runs it: the operations from the one writing main_v402 through the one writing
    main_v531, in @main's order, constants and the called functions' operations (over main_call12 … main_call15) where they stand. It reads the node and edge features at
    (main_v376, main_v401) and leaves the layer's at (main_v506, main_v531). -/
abbrev opsL4 : List (HloOp τ sig (Elt F)) :=
  [ StableHlo.unary main_arg7 main_v402 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v402 main_v403 rfl shapeCasts_S1x32x32_S32x32,
    StableHlo.binary main_v376 main_v403 main_v404 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg8 main_v405 ((extractStridedSlice S1x32 ![3, 0] · slices_S4x32_S1x32_3_0) : (⟨S4x32, .f32⟩ : BufTy).Contents (Elt F) → (⟨S1x32, .f32⟩ : BufTy).Contents (Elt F)),
    StableHlo.reshape main_v405 main_v406 rfl shapeCasts_S1x32_S32,
    StableHlo.unary main_v406 main_v407 (broadcastInDim S1x32 ![1] bcast_S32_S1x32_1 : (⟨S32, .f32⟩ : BufTy).Contents (Elt F) → (⟨S1x32, .f32⟩ : BufTy).Contents (Elt F)),
    StableHlo.unary main_v407 main_v408 (broadcastInDim S100000x32 ![0, 1] bcast_S1x32_S100000x32_0_1 : (⟨S1x32, .f32⟩ : BufTy).Contents (Elt F) → (⟨S100000x32, .f32⟩ : BufTy).Contents (Elt F)),
    StableHlo.binary main_v404 main_v408 main_v409 (addf : (⟨S100000x32, .f32⟩ : BufTy).Contents (Elt F) → (⟨S100000x32, .f32⟩ : BufTy).Contents (Elt F) → (⟨S100000x32, .f32⟩ : BufTy).Contents (Elt F)),
    StableHlo.unary main_arg9 main_v410 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v410 main_v411 rfl shapeCasts_S1x32x32_S32x32,
    StableHlo.binary main_v376 main_v411 main_v412 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg10 main_v413 ((extractStridedSlice S1x32 ![3, 0] · slices_S4x32_S1x32_3_0) : (⟨S4x32, .f32⟩ : BufTy).Contents (Elt F) → (⟨S1x32, .f32⟩ : BufTy).Contents (Elt F)),
    StableHlo.reshape main_v413 main_v414 rfl shapeCasts_S1x32_S32,
    StableHlo.unary main_v414 main_v415 (broadcastInDim S1x32 ![1] bcast_S32_S1x32_1 : (⟨S32, .f32⟩ : BufTy).Contents (Elt F) → (⟨S1x32, .f32⟩ : BufTy).Contents (Elt F)),
    StableHlo.unary main_v415 main_v416 (broadcastInDim S100000x32 ![0, 1] bcast_S1x32_S100000x32_0_1 : (⟨S1x32, .f32⟩ : BufTy).Contents (Elt F) → (⟨S100000x32, .f32⟩ : BufTy).Contents (Elt F)),
    StableHlo.binary main_v412 main_v416 main_v417 (addf : (⟨S100000x32, .f32⟩ : BufTy).Contents (Elt F) → (⟨S100000x32, .f32⟩ : BufTy).Contents (Elt F) → (⟨S100000x32, .f32⟩ : BufTy).Contents (Elt F)),
    StableHlo.unary main_arg11 main_v418 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v418 main_v419 rfl shapeCasts_S1x32x32_S32x32,
    StableHlo.binary main_v401 main_v419 main_v420 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    StableHlo.unary main_arg12 main_v421 ((extractStridedSlice S1x32 ![3, 0] · slices_S4x32_S1x32_3_0) : (⟨S4x32, .f32⟩ : BufTy).Contents (Elt F) → (⟨S1x32, .f32⟩ : BufTy).Contents (Elt F)),
    StableHlo.reshape main_v421 main_v422 rfl shapeCasts_S1x32_S32,
    StableHlo.unary main_v422 main_v423 (broadcastInDim S1x32 ![1] bcast_S32_S1x32_1 : (⟨S32, .f32⟩ : BufTy).Contents (Elt F) → (⟨S1x32, .f32⟩ : BufTy).Contents (Elt F)),
    StableHlo.unary main_v423 main_v424 (broadcastInDim S800000x32 ![0, 1] bcast_S1x32_S800000x32_0_1 : (⟨S1x32, .f32⟩ : BufTy).Contents (Elt F) → (⟨S800000x32, .f32⟩ : BufTy).Contents (Elt F)),
    StableHlo.binary main_v420 main_v424 main_v425 (addf : (⟨S800000x32, .f32⟩ : BufTy).Contents (Elt F) → (⟨S800000x32, .f32⟩ : BufTy).Contents (Elt F) → (⟨S800000x32, .f32⟩ : BufTy).Contents (Elt F)),
    StableHlo.unary main_arg13 main_v426 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v426 main_v427 rfl shapeCasts_S1x32x32_S32x32,
    StableHlo.binary main_v376 main_v427 main_v428 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg14 main_v429 ((extractStridedSlice S1x32 ![3, 0] · slices_S4x32_S1x32_3_0) : (⟨S4x32, .f32⟩ : BufTy).Contents (Elt F) → (⟨S1x32, .f32⟩ : BufTy).Contents (Elt F)),
    StableHlo.reshape main_v429 main_v430 rfl shapeCasts_S1x32_S32,
    StableHlo.unary main_v430 main_v431 (broadcastInDim S1x32 ![1] bcast_S32_S1x32_1 : (⟨S32, .f32⟩ : BufTy).Contents (Elt F) → (⟨S1x32, .f32⟩ : BufTy).Contents (Elt F)),
    StableHlo.unary main_v431 main_v432 (broadcastInDim S100000x32 ![0, 1] bcast_S1x32_S100000x32_0_1 : (⟨S1x32, .f32⟩ : BufTy).Contents (Elt F) → (⟨S100000x32, .f32⟩ : BufTy).Contents (Elt F)),
    StableHlo.binary main_v428 main_v432 main_v433 (addf : (⟨S100000x32, .f32⟩ : BufTy).Contents (Elt F) → (⟨S100000x32, .f32⟩ : BufTy).Contents (Elt F) → (⟨S100000x32, .f32⟩ : BufTy).Contents (Elt F)),
    StableHlo.unary main_arg15 main_v434 ((extractStridedSlice S1x32x32 ![3, 0, 0] · slices_S4x32x32_S1x32x32_3_0_0) : (⟨S4x32x32, .f32⟩ : BufTy).Contents (Elt F) → (⟨S1x32x32, .f32⟩ : BufTy).Contents (Elt F)),
    StableHlo.reshape main_v434 main_v435 rfl shapeCasts_S1x32x32_S32x32,
    StableHlo.binary main_v376 main_v435 main_v436 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg16 main_v437 ((extractStridedSlice S1x32 ![3, 0] · slices_S4x32_S1x32_3_0) : (⟨S4x32, .f32⟩ : BufTy).Contents (Elt F) → (⟨S1x32, .f32⟩ : BufTy).Contents (Elt F)),
    StableHlo.reshape main_v437 main_v438 rfl shapeCasts_S1x32_S32,
    StableHlo.unary main_v438 main_v439 (broadcastInDim S1x32 ![1] bcast_S32_S1x32_1 : (⟨S32, .f32⟩ : BufTy).Contents (Elt F) → (⟨S1x32, .f32⟩ : BufTy).Contents (Elt F)),
    StableHlo.unary main_v439 main_v440 (broadcastInDim S100000x32 ![0, 1] bcast_S1x32_S100000x32_0_1 : (⟨S1x32, .f32⟩ : BufTy).Contents (Elt F) → (⟨S100000x32, .f32⟩ : BufTy).Contents (Elt F)),
    StableHlo.binary main_v436 main_v440 main_v441 (addf : (⟨S100000x32, .f32⟩ : BufTy).Contents (Elt F) → (⟨S100000x32, .f32⟩ : BufTy).Contents (Elt F) → (⟨S100000x32, .f32⟩ : BufTy).Contents (Elt F)),
    StableHlo.nullary main_c_55 (constantI S_ 32 0#32),
    StableHlo.unary main_c_55 main_v442 (broadcastInDim S800000 ![] bcast_S_S800000 : (⟨S_, .i32⟩ : BufTy).Contents (Elt F) → (⟨S800000, .i32⟩ : BufTy).Contents (Elt F)),
    StableHlo.binary main_v3 main_v442 main_v443 (cmpi .slt : (⟨S800000, .i32⟩ : BufTy).Contents (Elt F) → (⟨S800000, .i32⟩ : BufTy).Contents (Elt F) → (⟨S800000, .i1⟩ : BufTy).Contents (Elt F)),
    StableHlo.nullary main_c_56 (constantI S_ 32 100000#32),
    StableHlo.unary main_c_56 main_v444 (broadcastInDim S800000 ![] bcast_S_S800000 : (⟨S_, .i32⟩ : BufTy).Contents (Elt F) → (⟨S800000, .i32⟩ : BufTy).Contents (Elt F)),
    StableHlo.binary main_v3 main_v444 main_v445 (addi : (⟨S800000, .i32⟩ : BufTy).Contents (Elt F) → (⟨S800000, .i32⟩ : BufTy).Contents (Elt F) → (⟨S800000, .i32⟩ : BufTy).Contents (Elt F)),
    StableHlo.ternary main_v443 main_v445 main_v3 main_v446 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v446 main_v447 (broadcastInDim S800000x1 ![0] bcast_S800000_S800000x1_0 : (⟨S800000, .i32⟩ : BufTy).Contents (Elt F) → (⟨S800000x1, .i32⟩ : BufTy).Contents (Elt F)),
    StableHlo.binary main_v409 main_v447 main_v448 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nullary main_c_57 (constantI S_ 32 0#32),
    StableHlo.unary main_c_57 main_v449 (broadcastInDim S800000 ![] bcast_S_S800000 : (⟨S_, .i32⟩ : BufTy).Contents (Elt F) → (⟨S800000, .i32⟩ : BufTy).Contents (Elt F)),
    StableHlo.binary main_v1 main_v449 main_v450 (cmpi .slt : (⟨S800000, .i32⟩ : BufTy).Contents (Elt F) → (⟨S800000, .i32⟩ : BufTy).Contents (Elt F) → (⟨S800000, .i1⟩ : BufTy).Contents (Elt F)),
    StableHlo.nullary main_c_58 (constantI S_ 32 100000#32),
    StableHlo.unary main_c_58 main_v451 (broadcastInDim S800000 ![] bcast_S_S800000 : (⟨S_, .i32⟩ : BufTy).Contents (Elt F) → (⟨S800000, .i32⟩ : BufTy).Contents (Elt F)),
    StableHlo.binary main_v1 main_v451 main_v452 (addi : (⟨S800000, .i32⟩ : BufTy).Contents (Elt F) → (⟨S800000, .i32⟩ : BufTy).Contents (Elt F) → (⟨S800000, .i32⟩ : BufTy).Contents (Elt F)),
    StableHlo.ternary main_v450 main_v452 main_v1 main_v453 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v453 main_v454 (broadcastInDim S800000x1 ![0] bcast_S800000_S800000x1_0 : (⟨S800000, .i32⟩ : BufTy).Contents (Elt F) → (⟨S800000x1, .i32⟩ : BufTy).Contents (Elt F)),
    StableHlo.binary main_v417 main_v454 main_v455 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v448 main_v455 main_v456 (addf : (⟨S800000x32, .f32⟩ : BufTy).Contents (Elt F) → (⟨S800000x32, .f32⟩ : BufTy).Contents (Elt F) → (⟨S800000x32, .f32⟩ : BufTy).Contents (Elt F)),
    StableHlo.binary main_v456 main_v425 main_v457 (addf : (⟨S800000x32, .f32⟩ : BufTy).Contents (Elt F) → (⟨S800000x32, .f32⟩ : BufTy).Contents (Elt F) → (⟨S800000x32, .f32⟩ : BufTy).Contents (Elt F)),
    StableHlo.unary main_v457 main_v458 (Host.negf : (⟨S800000x32, .f32⟩ : BufTy).Contents (Elt F) → (⟨S800000x32, .f32⟩ : BufTy).Contents (Elt F)),
    StableHlo.unary main_v458 main_v459 (Host.exp : (⟨S800000x32, .f32⟩ : BufTy).Contents (Elt F) → (⟨S800000x32, .f32⟩ : BufTy).Contents (Elt F)),
    StableHlo.nullary main_cst_59 (constant S_ .f32 0x3F800000#32),
    StableHlo.unary main_cst_59 main_v460 (broadcastInDim S800000x32 ![] bcast_S_S800000x32 : (⟨S_, .f32⟩ : BufTy).Contents (Elt F) → (⟨S800000x32, .f32⟩ : BufTy).Contents (Elt F)),
    StableHlo.binary main_v460 main_v459 main_v461 (addf : (⟨S800000x32, .f32⟩ : BufTy).Contents (Elt F) → (⟨S800000x32, .f32⟩ : BufTy).Contents (Elt F) → (⟨S800000x32, .f32⟩ : BufTy).Contents (Elt F)),
    StableHlo.nullary main_cst_60 (constant S_ .f32 0x3F800000#32),
    StableHlo.unary main_cst_60 main_v462 (broadcastInDim S800000x32 ![] bcast_S_S800000x32 : (⟨S_, .f32⟩ : BufTy).Contents (Elt F) → (⟨S800000x32, .f32⟩ : BufTy).Contents (Elt F)),
    StableHlo.binary main_v462 main_v461 main_v463 (Host.divf : (⟨S800000x32, .f32⟩ : BufTy).Contents (Elt F) → (⟨S800000x32, .f32⟩ : BufTy).Contents (Elt F) → (⟨S800000x32, .f32⟩ : BufTy).Contents (Elt F)),
    StableHlo.nullary main_c_61 (constantI S_ 32 0#32),
    StableHlo.unary main_c_61 main_v464 (broadcastInDim S800000 ![] bcast_S_S800000 : (⟨S_, .i32⟩ : BufTy).Contents (Elt F) → (⟨S800000, .i32⟩ : BufTy).Contents (Elt F)),
    StableHlo.binary main_v1 main_v464 main_v465 (cmpi .slt : (⟨S800000, .i32⟩ : BufTy).Contents (Elt F) → (⟨S800000, .i32⟩ : BufTy).Contents (Elt F) → (⟨S800000, .i1⟩ : BufTy).Contents (Elt F)),
    StableHlo.nullary main_c_62 (constantI S_ 32 100000#32),
    StableHlo.unary main_c_62 main_v466 (broadcastInDim S800000 ![] bcast_S_S800000 : (⟨S_, .i32⟩ : BufTy).Contents (Elt F) → (⟨S800000, .i32⟩ : BufTy).Contents (Elt F)),
    StableHlo.binary main_v1 main_v466 main_v467 (addi : (⟨S800000, .i32⟩ : BufTy).Contents (Elt F) → (⟨S800000, .i32⟩ : BufTy).Contents (Elt F) → (⟨S800000, .i32⟩ : BufTy).Contents (Elt F)),
    StableHlo.ternary main_v465 main_v467 main_v1 main_v468 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v468 main_v469 (broadcastInDim S800000x1 ![0] bcast_S800000_S800000x1_0 : (⟨S800000, .i32⟩ : BufTy).Contents (Elt F) → (⟨S800000x1, .i32⟩ : BufTy).Contents (Elt F)),
    StableHlo.binary main_v441 main_v469 main_v470 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.binary main_v463 main_v470 main_v471 (mulf : (⟨S800000x32, .f32⟩ : BufTy).Contents (Elt F) → (⟨S800000x32, .f32⟩ : BufTy).Contents (Elt F) → (⟨S800000x32, .f32⟩ : BufTy).Contents (Elt F)),
    StableHlo.nullary main_cst_63 (constant S_ .f32 0x00000000#32),
    StableHlo.unary main_cst_63 main_v472 (broadcastInDim S100000x32 ![] bcast_S_S100000x32 : (⟨S_, .f32⟩ : BufTy).Contents (Elt F) → (⟨S100000x32, .f32⟩ : BufTy).Contents (Elt F)),
    StableHlo.unary main_v3 main_v473 (broadcastInDim S800000x1 ![0] bcast_S800000_S800000x1_0 : (⟨S800000, .i32⟩ : BufTy).Contents (Elt F) → (⟨S800000x1, .i32⟩ : BufTy).Contents (Elt F)),
    StableHlo.ternary main_v472 main_v473 main_v471 main_v474 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_64 (constant S_ .f32 0x00000000#32),
    StableHlo.unary main_cst_64 main_v475 (broadcastInDim S100000x32 ![] bcast_S_S100000x32 : (⟨S_, .f32⟩ : BufTy).Contents (Elt F) → (⟨S100000x32, .f32⟩ : BufTy).Contents (Elt F)),
    StableHlo.unary main_v3 main_v476 (broadcastInDim S800000x1 ![0] bcast_S800000_S800000x1_0 : (⟨S800000, .i32⟩ : BufTy).Contents (Elt F) → (⟨S800000x1, .i32⟩ : BufTy).Contents (Elt F)),
    StableHlo.ternary main_v475 main_v476 main_v463 main_v477 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    StableHlo.nullary main_cst_65 (constant S_ .f32 0x358637BD#32),
    StableHlo.unary main_cst_65 main_v478 (broadcastInDim S100000x32 ![] bcast_S_S100000x32 : (⟨S_, .f32⟩ : BufTy).Contents (Elt F) → (⟨S100000x32, .f32⟩ : BufTy).Contents (Elt F)),
    StableHlo.binary main_v477 main_v478 main_v479 (addf : (⟨S100000x32, .f32⟩ : BufTy).Contents (Elt F) → (⟨S100000x32, .f32⟩ : BufTy).Contents (Elt F) → (⟨S100000x32, .f32⟩ : BufTy).Contents (Elt F)),
    StableHlo.binary main_v474 main_v479 main_v480 (Host.divf : (⟨S100000x32, .f32⟩ : BufTy).Contents (Elt F) → (⟨S100000x32, .f32⟩ : BufTy).Contents (Elt F) → (⟨S100000x32, .f32⟩ : BufTy).Contents (Elt F)),
    StableHlo.binary main_v433 main_v480 main_v481 (addf : (⟨S100000x32, .f32⟩ : BufTy).Contents (Elt F) → (⟨S100000x32, .f32⟩ : BufTy).Contents (Elt F) → (⟨S100000x32, .f32⟩ : BufTy).Contents (Elt F)),
    StableHlo.unary main_arg17 main_v482 ((extractStridedSlice S1x32 ![3, 0] · slices_S4x32_S1x32_3_0) : (⟨S4x32, .f32⟩ : BufTy).Contents (Elt F) → (⟨S1x32, .f32⟩ : BufTy).Contents (Elt F)),
    StableHlo.reshape main_v482 main_v483 rfl shapeCasts_S1x32_S32,
    StableHlo.unary main_arg18 main_v484 ((extractStridedSlice S1x32 ![3, 0] · slices_S4x32_S1x32_3_0) : (⟨S4x32, .f32⟩ : BufTy).Contents (Elt F) → (⟨S1x32, .f32⟩ : BufTy).Contents (Elt F)),
    StableHlo.reshape main_v484 main_v485 rfl shapeCasts_S1x32_S32,
    StableHlo.nullary main_cst_66 (constant S_ .f32 0x00000000#32),
    StableHlo.binary main_v481 main_cst_66 main_v486 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_67 (constant S_ .f32 0x47C35000#32),
    StableHlo.unary main_cst_67 main_v487 (broadcastInDim S32 ![] bcast_S_S32 : (⟨S_, .f32⟩ : BufTy).Contents (Elt F) → (⟨S32, .f32⟩ : BufTy).Contents (Elt F)),
    StableHlo.binary main_v486 main_v487 main_v488 (Host.divf : (⟨S32, .f32⟩ : BufTy).Contents (Elt F) → (⟨S32, .f32⟩ : BufTy).Contents (Elt F) → (⟨S32, .f32⟩ : BufTy).Contents (Elt F)),
    StableHlo.nullary main_c_68 (constantI S_ 32 0#32),
    StableHlo.TRef.nullary main_call12.cst (constant S_ .f32 0x00000000#32),
    StableHlo.TRef.binary (.of main_v481 : StableHlo.TRef sig ⟨S100000x32, .f32⟩) main_call12.cst main_call12.v0 (fun x v => Host.reduceAdd x v reducesTo_S100000x32_S32_d0 h_S_),
    StableHlo.TRef.unary main_call12.v0 main_call12.v1 (broadcastInDim S1x32 ![1] bcast_S32_S1x32_1),
    StableHlo.TRef.nullary main_call12.cst_0 (constant S_ .f32 0x47C35000#32),
    StableHlo.TRef.unary main_call12.cst_0 main_call12.v2 (broadcastInDim S1x32 ![] bcast_S_S1x32),
    StableHlo.TRef.binary main_call12.v1 main_call12.v2 main_call12.v3 Host.divf,
    StableHlo.TRef.unary main_call12.v3 main_call12.v4 (broadcastInDim S100000x32 ![0, 1] bcast_S1x32_S100000x32_0_1),
    StableHlo.TRef.binary (.of main_v481 : StableHlo.TRef sig ⟨S100000x32, .f32⟩) main_call12.v4 main_call12.v5 subf,
    StableHlo.TRef.binary main_call12.v5 main_call12.v5 main_call12.v6 mulf,
    StableHlo.TRef.unary (.of main_c_68 : StableHlo.TRef sig ⟨S_, .i32⟩) main_call12.v7 (sitofp .f32),
    StableHlo.TRef.nullary main_call12.cst_1 (constant S_ .f32 0x47C35000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S100000x32_S32_d0 h_S_),
    StableHlo.TRef.unary main_call12.v8 main_call12.v10 (broadcastInDim S32 ![] bcast_S_S32),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S32 ![] bcast_S_S32),
    StableHlo.TRef.ternary main_call12.v12 main_call12.v11 main_call12.call0.v1 main_call12.call0.v2 (fun p a b => select (broadcastInDim S32 ![] bcast_S_S32 p) a b),
    StableHlo.unary main_v488 main_v490 (broadcastInDim S1x32 ![1] bcast_S32_S1x32_1 : (⟨S32, .f32⟩ : BufTy).Contents (Elt F) → (⟨S1x32, .f32⟩ : BufTy).Contents (Elt F)),
    StableHlo.unary main_v490 main_v491 (broadcastInDim S100000x32 ![0, 1] bcast_S1x32_S100000x32_0_1 : (⟨S1x32, .f32⟩ : BufTy).Contents (Elt F) → (⟨S100000x32, .f32⟩ : BufTy).Contents (Elt F)),
    StableHlo.binary main_v481 main_v491 main_v492 (subf : (⟨S100000x32, .f32⟩ : BufTy).Contents (Elt F) → (⟨S100000x32, .f32⟩ : BufTy).Contents (Elt F) → (⟨S100000x32, .f32⟩ : BufTy).Contents (Elt F)),
    StableHlo.nullary main_cst_69 (constant S_ .f32 0x3727C5AC#32),
    StableHlo.unary main_cst_69 main_v493 (broadcastInDim S32 ![] bcast_S_S32 : (⟨S_, .f32⟩ : BufTy).Contents (Elt F) → (⟨S32, .f32⟩ : BufTy).Contents (Elt F)),
    StableHlo.binary main_v489 main_v493 main_v494 (addf : (⟨S32, .f32⟩ : BufTy).Contents (Elt F) → (⟨S32, .f32⟩ : BufTy).Contents (Elt F) → (⟨S32, .f32⟩ : BufTy).Contents (Elt F)),
    StableHlo.unary main_v494 main_v495 (Host.rsqrt : (⟨S32, .f32⟩ : BufTy).Contents (Elt F) → (⟨S32, .f32⟩ : BufTy).Contents (Elt F)),
    StableHlo.unary main_v495 main_v496 (broadcastInDim S1x32 ![1] bcast_S32_S1x32_1 : (⟨S32, .f32⟩ : BufTy).Contents (Elt F) → (⟨S1x32, .f32⟩ : BufTy).Contents (Elt F)),
    StableHlo.unary main_v496 main_v497 (broadcastInDim S100000x32 ![0, 1] bcast_S1x32_S100000x32_0_1 : (⟨S1x32, .f32⟩ : BufTy).Contents (Elt F) → (⟨S100000x32, .f32⟩ : BufTy).Contents (Elt F)),
    StableHlo.binary main_v492 main_v497 main_v498 (mulf : (⟨S100000x32, .f32⟩ : BufTy).Contents (Elt F) → (⟨S100000x32, .f32⟩ : BufTy).Contents (Elt F) → (⟨S100000x32, .f32⟩ : BufTy).Contents (Elt F)),
    StableHlo.unary main_v483 main_v499 (broadcastInDim S1x32 ![1] bcast_S32_S1x32_1 : (⟨S32, .f32⟩ : BufTy).Contents (Elt F) → (⟨S1x32, .f32⟩ : BufTy).Contents (Elt F)),
    StableHlo.unary main_v499 main_v500 (broadcastInDim S100000x32 ![0, 1] bcast_S1x32_S100000x32_0_1 : (⟨S1x32, .f32⟩ : BufTy).Contents (Elt F) → (⟨S100000x32, .f32⟩ : BufTy).Contents (Elt F)),
    StableHlo.binary main_v498 main_v500 main_v501 (mulf : (⟨S100000x32, .f32⟩ : BufTy).Contents (Elt F) → (⟨S100000x32, .f32⟩ : BufTy).Contents (Elt F) → (⟨S100000x32, .f32⟩ : BufTy).Contents (Elt F)),
    StableHlo.unary main_v485 main_v502 (broadcastInDim S1x32 ![1] bcast_S32_S1x32_1 : (⟨S32, .f32⟩ : BufTy).Contents (Elt F) → (⟨S1x32, .f32⟩ : BufTy).Contents (Elt F)),
    StableHlo.unary main_v502 main_v503 (broadcastInDim S100000x32 ![0, 1] bcast_S1x32_S100000x32_0_1 : (⟨S1x32, .f32⟩ : BufTy).Contents (Elt F) → (⟨S100000x32, .f32⟩ : BufTy).Contents (Elt F)),
    StableHlo.binary main_v501 main_v503 main_v504 (addf : (⟨S100000x32, .f32⟩ : BufTy).Contents (Elt F) → (⟨S100000x32, .f32⟩ : BufTy).Contents (Elt F) → (⟨S100000x32, .f32⟩ : BufTy).Contents (Elt F)),
    StableHlo.TRef.nullary main_call13.cst (constant S_ .f32 0x00000000#32),
    StableHlo.TRef.unary main_call13.cst main_call13.v0 (broadcastInDim S100000x32 ![] bcast_S_S100000x32),
    StableHlo.TRef.binary (.of main_v504 : StableHlo.TRef sig ⟨S100000x32, .f32⟩) main_call13.v0 main_call13.v1 maximumf,
    StableHlo.binary main_v376 main_v505 main_v506 (addf : (⟨S100000x32, .f32⟩ : BufTy).Contents (Elt F) → (⟨S100000x32, .f32⟩ : BufTy).Contents (Elt F) → (⟨S100000x32, .f32⟩ : BufTy).Contents (Elt F)),
    StableHlo.unary main_arg19 main_v507 ((extractStridedSlice S1x32 ![3, 0] · slices_S4x32_S1x32_3_0) : (⟨S4x32, .f32⟩ : BufTy).Contents (Elt F) → (⟨S1x32, .f32⟩ : BufTy).Contents (Elt F)),
    StableHlo.reshape main_v507 main_v508 rfl shapeCasts_S1x32_S32,
    StableHlo.unary main_arg20 main_v509 ((extractStridedSlice S1x32 ![3, 0] · slices_S4x32_S1x32_3_0) : (⟨S4x32, .f32⟩ : BufTy).Contents (Elt F) → (⟨S1x32, .f32⟩ : BufTy).Contents (Elt F)),
    StableHlo.reshape main_v509 main_v510 rfl shapeCasts_S1x32_S32,
    StableHlo.nullary main_cst_70 (constant S_ .f32 0x00000000#32),
    StableHlo.binary main_v457 main_cst_70 main_v511 ((fun x v => Host.reduceAdd x v reducesTo_S800000x32_S32_d0 h_S_) : (⟨S800000x32, .f32⟩ : BufTy).Contents (Elt F) → (⟨S_, .f32⟩ : BufTy).Contents (Elt F) → (⟨S32, .f32⟩ : BufTy).Contents (Elt F)),
    StableHlo.nullary main_cst_71 (constant S_ .f32 0x49435000#32),
    StableHlo.unary main_cst_71 main_v512 (broadcastInDim S32 ![] bcast_S_S32 : (⟨S_, .f32⟩ : BufTy).Contents (Elt F) → (⟨S32, .f32⟩ : BufTy).Contents (Elt F)),
    StableHlo.binary main_v511 main_v512 main_v513 (Host.divf : (⟨S32, .f32⟩ : BufTy).Contents (Elt F) → (⟨S32, .f32⟩ : BufTy).Contents (Elt F) → (⟨S32, .f32⟩ : BufTy).Contents (Elt F)),
    StableHlo.nullary main_c_72 (constantI S_ 32 0#32),
    StableHlo.TRef.nullary main_call14.cst (constant S_ .f32 0x00000000#32),
    StableHlo.TRef.binary (.of main_v457 : StableHlo.TRef sig ⟨S800000x32, .f32⟩) main_call14.cst main_call14.v0 (fun x v => Host.reduceAdd x v reducesTo_S800000x32_S32_d0 h_S_),
    StableHlo.TRef.unary main_call14.v0 main_call14.v1 (broadcastInDim S1x32 ![1] bcast_S32_S1x32_1),
    StableHlo.TRef.nullary main_call14.cst_0 (constant S_ .f32 0x49435000#32),
    StableHlo.TRef.unary main_call14.cst_0 main_call14.v2 (broadcastInDim S1x32 ![] bcast_S_S1x32),
    StableHlo.TRef.binary main_call14.v1 main_call14.v2 main_call14.v3 Host.divf,
    StableHlo.TRef.unary main_call14.v3 main_call14.v4 (broadcastInDim S800000x32 ![0, 1] bcast_S1x32_S800000x32_0_1),
    StableHlo.TRef.binary (.of main_v457 : StableHlo.TRef sig ⟨S800000x32, .f32⟩) main_call14.v4 main_call14.v5 subf,
    StableHlo.TRef.binary main_call14.v5 main_call14.v5 main_call14.v6 mulf,
    StableHlo.TRef.unary (.of main_c_72 : StableHlo.TRef sig ⟨S_, .i32⟩) main_call14.v7 (sitofp .f32),
    StableHlo.TRef.nullary main_call14.cst_1 (constant S_ .f32 0x49435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S800000x32_S32_d0 h_S_),
    StableHlo.TRef.unary main_call14.v8 main_call14.v10 (broadcastInDim S32 ![] bcast_S_S32),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S32 ![] bcast_S_S32),
    StableHlo.TRef.ternary main_call14.v12 main_call14.v11 main_call14.call0.v1 main_call14.call0.v2 (fun p a b => select (broadcastInDim S32 ![] bcast_S_S32 p) a b),
    StableHlo.unary main_v513 main_v515 (broadcastInDim S1x32 ![1] bcast_S32_S1x32_1 : (⟨S32, .f32⟩ : BufTy).Contents (Elt F) → (⟨S1x32, .f32⟩ : BufTy).Contents (Elt F)),
    StableHlo.unary main_v515 main_v516 (broadcastInDim S800000x32 ![0, 1] bcast_S1x32_S800000x32_0_1 : (⟨S1x32, .f32⟩ : BufTy).Contents (Elt F) → (⟨S800000x32, .f32⟩ : BufTy).Contents (Elt F)),
    StableHlo.binary main_v457 main_v516 main_v517 (subf : (⟨S800000x32, .f32⟩ : BufTy).Contents (Elt F) → (⟨S800000x32, .f32⟩ : BufTy).Contents (Elt F) → (⟨S800000x32, .f32⟩ : BufTy).Contents (Elt F)),
    StableHlo.nullary main_cst_73 (constant S_ .f32 0x3727C5AC#32),
    StableHlo.unary main_cst_73 main_v518 (broadcastInDim S32 ![] bcast_S_S32 : (⟨S_, .f32⟩ : BufTy).Contents (Elt F) → (⟨S32, .f32⟩ : BufTy).Contents (Elt F)),
    StableHlo.binary main_v514 main_v518 main_v519 (addf : (⟨S32, .f32⟩ : BufTy).Contents (Elt F) → (⟨S32, .f32⟩ : BufTy).Contents (Elt F) → (⟨S32, .f32⟩ : BufTy).Contents (Elt F)),
    StableHlo.unary main_v519 main_v520 (Host.rsqrt : (⟨S32, .f32⟩ : BufTy).Contents (Elt F) → (⟨S32, .f32⟩ : BufTy).Contents (Elt F)),
    StableHlo.unary main_v520 main_v521 (broadcastInDim S1x32 ![1] bcast_S32_S1x32_1 : (⟨S32, .f32⟩ : BufTy).Contents (Elt F) → (⟨S1x32, .f32⟩ : BufTy).Contents (Elt F)),
    StableHlo.unary main_v521 main_v522 (broadcastInDim S800000x32 ![0, 1] bcast_S1x32_S800000x32_0_1 : (⟨S1x32, .f32⟩ : BufTy).Contents (Elt F) → (⟨S800000x32, .f32⟩ : BufTy).Contents (Elt F)),
    StableHlo.binary main_v517 main_v522 main_v523 (mulf : (⟨S800000x32, .f32⟩ : BufTy).Contents (Elt F) → (⟨S800000x32, .f32⟩ : BufTy).Contents (Elt F) → (⟨S800000x32, .f32⟩ : BufTy).Contents (Elt F)),
    StableHlo.unary main_v508 main_v524 (broadcastInDim S1x32 ![1] bcast_S32_S1x32_1 : (⟨S32, .f32⟩ : BufTy).Contents (Elt F) → (⟨S1x32, .f32⟩ : BufTy).Contents (Elt F)),
    StableHlo.unary main_v524 main_v525 (broadcastInDim S800000x32 ![0, 1] bcast_S1x32_S800000x32_0_1 : (⟨S1x32, .f32⟩ : BufTy).Contents (Elt F) → (⟨S800000x32, .f32⟩ : BufTy).Contents (Elt F)),
    StableHlo.binary main_v523 main_v525 main_v526 (mulf : (⟨S800000x32, .f32⟩ : BufTy).Contents (Elt F) → (⟨S800000x32, .f32⟩ : BufTy).Contents (Elt F) → (⟨S800000x32, .f32⟩ : BufTy).Contents (Elt F)),
    StableHlo.unary main_v510 main_v527 (broadcastInDim S1x32 ![1] bcast_S32_S1x32_1 : (⟨S32, .f32⟩ : BufTy).Contents (Elt F) → (⟨S1x32, .f32⟩ : BufTy).Contents (Elt F)),
    StableHlo.unary main_v527 main_v528 (broadcastInDim S800000x32 ![0, 1] bcast_S1x32_S800000x32_0_1 : (⟨S1x32, .f32⟩ : BufTy).Contents (Elt F) → (⟨S800000x32, .f32⟩ : BufTy).Contents (Elt F)),
    StableHlo.binary main_v526 main_v528 main_v529 (addf : (⟨S800000x32, .f32⟩ : BufTy).Contents (Elt F) → (⟨S800000x32, .f32⟩ : BufTy).Contents (Elt F) → (⟨S800000x32, .f32⟩ : BufTy).Contents (Elt F)),
    StableHlo.TRef.nullary main_call15.cst (constant S_ .f32 0x00000000#32),
    StableHlo.TRef.unary main_call15.cst main_call15.v0 (broadcastInDim S800000x32 ![] bcast_S_S800000x32),
    StableHlo.TRef.binary (.of main_v529 : StableHlo.TRef sig ⟨S800000x32, .f32⟩) main_call15.v0 main_call15.v1 maximumf,
    StableHlo.binary main_v401 main_v530 main_v531 (addf : (⟨S800000x32, .f32⟩ : BufTy).Contents (Elt F) → (⟨S800000x32, .f32⟩ : BufTy).Contents (Elt F) → (⟨S800000x32, .f32⟩ : BufTy).Contents (Elt F)) ]

/-- The reference each operation of the stretch writes, in the list's order: a builder's result operand (of a typed
    reference, the buffer it carries). -/
abbrev opsL4_W : List (Ref sig .tc) :=
  [ main_v402, main_v403, main_v404, main_v405, main_v406, main_v407, main_v408, main_v409,
    main_v410, main_v411, main_v412, main_v413, main_v414, main_v415, main_v416, main_v417,
    main_v418, main_v419, main_v420, main_v421, main_v422, main_v423, main_v424, main_v425,
    main_v426, main_v427, main_v428, main_v429, main_v430, main_v431, main_v432, main_v433,
    main_v434, main_v435, main_v436, main_v437, main_v438, main_v439, main_v440, main_v441,
    main_c_55, main_v442, main_v443, main_c_56, main_v444, main_v445, main_v446, main_v447,
    main_v448, main_c_57, main_v449, main_v450, main_c_58, main_v451, main_v452, main_v453,
    main_v454, main_v455, main_v456, main_v457, main_v458, main_v459, main_cst_59, main_v460,
    main_v461, main_cst_60, main_v462, main_v463, main_c_61, main_v464, main_v465, main_c_62,
    main_v466, main_v467, main_v468, main_v469, main_v470, main_v471, main_cst_63, main_v472,
    main_v473, main_v474, main_cst_64, main_v475, main_v476, main_v477, main_cst_65, main_v478,
    main_v479, main_v480, main_v481, main_v482, main_v483, main_v484, main_v485, main_cst_66,
    main_v486, main_cst_67, main_v487, main_v488, main_c_68, main_call12.cst.ref, main_call12.v0.ref, main_call12.v1.ref,
    main_call12.cst_0.ref, main_call12.v2.ref, main_call12.v3.ref, main_call12.v4.ref, main_call12.v5.ref, main_call12.v6.ref, main_call12.v7.ref, main_call12.cst_1.ref,
    main_call12.v8.ref, main_call12.cst_2.ref, main_call12.v9.ref, main_call12.v10.ref, main_call12.v11.ref, main_call12.cst_3.ref, main_call12.v12.ref, main_call12.cst_4.ref,
    main_call12.call0.v0.ref, main_call12.call0.v1.ref, main_call12.call0.v2.ref, main_v490, main_v491, main_v492, main_cst_69, main_v493,
    main_v494, main_v495, main_v496, main_v497, main_v498, main_v499, main_v500, main_v501,
    main_v502, main_v503, main_v504, main_call13.cst.ref, main_call13.v0.ref, main_call13.v1.ref, main_v506, main_v507,
    main_v508, main_v509, main_v510, main_cst_70, main_v511, main_cst_71, main_v512, main_v513,
    main_c_72, main_call14.cst.ref, main_call14.v0.ref, main_call14.v1.ref, main_call14.cst_0.ref, main_call14.v2.ref, main_call14.v3.ref, main_call14.v4.ref,
    main_call14.v5.ref, main_call14.v6.ref, main_call14.v7.ref, main_call14.cst_1.ref, main_call14.v8.ref, main_call14.cst_2.ref, main_call14.v9.ref, main_call14.v10.ref,
    main_call14.v11.ref, main_call14.cst_3.ref, main_call14.v12.ref, main_call14.cst_4.ref, main_call14.call0.v0.ref, main_call14.call0.v1.ref, main_call14.call0.v2.ref, main_v515,
    main_v516, main_v517, main_cst_73, main_v518, main_v519, main_v520, main_v521, main_v522,
    main_v523, main_v524, main_v525, main_v526, main_v527, main_v528, main_v529, main_call15.cst.ref,
    main_call15.v0.ref, main_call15.v1.ref, main_v531 ]

set_option maxRecDepth 16384 in
set_option maxHeartbeats 8000000 in
/-- Each operation writes exactly its result buffer, and that reference stands in the stretch's table: the
    builder's written set is the singleton of its result operand, whose membership in the literal table is
    decided. -/
theorem opsL4_writes : (opsL4 : List (HloOp τ sig (Elt F))).Forall fun op =>
    op.writes ⊆ (opsL4_W.map (Proc.devRef (τ := τ) .tc)).toFinset := by
  repeat' apply And.intro
  all_goals exact Finset.singleton_subset_iff.mpr (List.mem_toFinset.mpr (List.mem_map_of_mem (by decide)))

end Cert.ReferenceIdeal.RRead

end
-- ==== Proof.RCutH.lean ====
import proofs.«425355_j88287347737110_2_alg».proof.Proof.Gen.ReferenceIdeal
import Idealize.ShloMosaic.Lib.StableHlo.Run

noncomputable section

namespace Cert.ReferenceIdeal.RRead

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxHeartbeats 8000000 in
/-- The score head of @main: its last thirty operations, from the constant main_c_74 through main_v555, the call of
    @relu_1 laid out over main_call16. It reads the last layer's features at (main_v506, main_v531). -/
abbrev opsH : List (HloOp τ sig (Elt F)) :=
  [ StableHlo.nullary main_c_74 (constantI S_ 32 0#32),
    StableHlo.unary main_c_74 main_v532 (broadcastInDim S800000 ![] bcast_S_S800000 : (⟨S_, .i32⟩ : BufTy).Contents (Elt F) → (⟨S800000, .i32⟩ : BufTy).Contents (Elt F)),
    StableHlo.binary main_v1 main_v532 main_v533 (cmpi .slt : (⟨S800000, .i32⟩ : BufTy).Contents (Elt F) → (⟨S800000, .i32⟩ : BufTy).Contents (Elt F) → (⟨S800000, .i1⟩ : BufTy).Contents (Elt F)),
    StableHlo.nullary main_c_75 (constantI S_ 32 100000#32),
    StableHlo.unary main_c_75 main_v534 (broadcastInDim S800000 ![] bcast_S_S800000 : (⟨S_, .i32⟩ : BufTy).Contents (Elt F) → (⟨S800000, .i32⟩ : BufTy).Contents (Elt F)),
    StableHlo.binary main_v1 main_v534 main_v535 (addi : (⟨S800000, .i32⟩ : BufTy).Contents (Elt F) → (⟨S800000, .i32⟩ : BufTy).Contents (Elt F) → (⟨S800000, .i32⟩ : BufTy).Contents (Elt F)),
    StableHlo.ternary main_v533 main_v535 main_v1 main_v536 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v536 main_v537 (broadcastInDim S800000x1 ![0] bcast_S800000_S800000x1_0 : (⟨S800000, .i32⟩ : BufTy).Contents (Elt F) → (⟨S800000x1, .i32⟩ : BufTy).Contents (Elt F)),
    StableHlo.binary main_v506 main_v537 main_v538 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nullary main_c_76 (constantI S_ 32 0#32),
    StableHlo.unary main_c_76 main_v539 (broadcastInDim S800000 ![] bcast_S_S800000 : (⟨S_, .i32⟩ : BufTy).Contents (Elt F) → (⟨S800000, .i32⟩ : BufTy).Contents (Elt F)),
    StableHlo.binary main_v3 main_v539 main_v540 (cmpi .slt : (⟨S800000, .i32⟩ : BufTy).Contents (Elt F) → (⟨S800000, .i32⟩ : BufTy).Contents (Elt F) → (⟨S800000, .i1⟩ : BufTy).Contents (Elt F)),
    StableHlo.nullary main_c_77 (constantI S_ 32 100000#32),
    StableHlo.unary main_c_77 main_v541 (broadcastInDim S800000 ![] bcast_S_S800000 : (⟨S_, .i32⟩ : BufTy).Contents (Elt F) → (⟨S800000, .i32⟩ : BufTy).Contents (Elt F)),
    StableHlo.binary main_v3 main_v541 main_v542 (addi : (⟨S800000, .i32⟩ : BufTy).Contents (Elt F) → (⟨S800000, .i32⟩ : BufTy).Contents (Elt F) → (⟨S800000, .i32⟩ : BufTy).Contents (Elt F)),
    StableHlo.ternary main_v540 main_v542 main_v3 main_v543 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v543 main_v544 (broadcastInDim S800000x1 ![0] bcast_S800000_S800000x1_0 : (⟨S800000, .i32⟩ : BufTy).Contents (Elt F) → (⟨S800000x1, .i32⟩ : BufTy).Contents (Elt F)),
    StableHlo.binary main_v506 main_v544 main_v545 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    StableHlo.nary ![main_v538, main_v545, main_v531] main_v546 (fun u => concatenate S800000x96 1 [⟨S800000x32, u 0⟩, ⟨S800000x32, u 1⟩, ⟨S800000x32, u 2⟩] concatenates_S800000x32_S800000x32_S800000x32_S800000x96_d1),
    StableHlo.binary main_v546 main_arg21 main_v547 ((fun l r => Host.dotGeneral dot_S800000x96_S96x32_S800000x32_1_0_0_1_n_n none l r) : (⟨S800000x96, .f32⟩ : BufTy).Contents (Elt F) → (⟨S96x32, .f32⟩ : BufTy).Contents (Elt F) → (⟨S800000x32, .f32⟩ : BufTy).Contents (Elt F)),
    StableHlo.unary main_arg22 main_v548 (broadcastInDim S1x32 ![1] bcast_S32_S1x32_1 : (⟨S32, .f32⟩ : BufTy).Contents (Elt F) → (⟨S1x32, .f32⟩ : BufTy).Contents (Elt F)),
    StableHlo.unary main_v548 main_v549 (broadcastInDim S800000x32 ![0, 1] bcast_S1x32_S800000x32_0_1 : (⟨S1x32, .f32⟩ : BufTy).Contents (Elt F) → (⟨S800000x32, .f32⟩ : BufTy).Contents (Elt F)),
    StableHlo.binary main_v547 main_v549 main_v550 (addf : (⟨S800000x32, .f32⟩ : BufTy).Contents (Elt F) → (⟨S800000x32, .f32⟩ : BufTy).Contents (Elt F) → (⟨S800000x32, .f32⟩ : BufTy).Contents (Elt F)),
    StableHlo.TRef.nullary main_call16.cst (constant S_ .f32 0x00000000#32),
    StableHlo.TRef.unary main_call16.cst main_call16.v0 (broadcastInDim S800000x32 ![] bcast_S_S800000x32),
    StableHlo.TRef.binary (.of main_v550 : StableHlo.TRef sig ⟨S800000x32, .f32⟩) main_call16.v0 main_call16.v1 maximumf,
    StableHlo.binary main_v551 main_arg23 main_v552 ((fun l r => Host.dotGeneral dot_S800000x32_S32x1_S800000x1_1_0_0_1_n_n none l r) : (⟨S800000x32, .f32⟩ : BufTy).Contents (Elt F) → (⟨S32x1, .f32⟩ : BufTy).Contents (Elt F) → (⟨S800000x1, .f32⟩ : BufTy).Contents (Elt F)),
    StableHlo.unary main_arg24 main_v553 (broadcastInDim S1x1 ![1] bcast_S1_S1x1_1 : (⟨S1, .f32⟩ : BufTy).Contents (Elt F) → (⟨S1x1, .f32⟩ : BufTy).Contents (Elt F)),
    StableHlo.unary main_v553 main_v554 (broadcastInDim S800000x1 ![0, 1] bcast_S1x1_S800000x1_0_1 : (⟨S1x1, .f32⟩ : BufTy).Contents (Elt F) → (⟨S800000x1, .f32⟩ : BufTy).Contents (Elt F)),
    StableHlo.binary main_v552 main_v554 main_v555 (addf : (⟨S800000x1, .f32⟩ : BufTy).Contents (Elt F) → (⟨S800000x1, .f32⟩ : BufTy).Contents (Elt F) → (⟨S800000x1, .f32⟩ : BufTy).Contents (Elt F)) ]

/-- The reference each operation of the stretch writes, in the list's order: a builder's result operand (of a typed
    reference, the buffer it carries). -/
abbrev opsH_W : List (Ref sig .tc) :=
  [ main_c_74, main_v532, main_v533, main_c_75, main_v534, main_v535, main_v536, main_v537,
    main_v538, main_c_76, main_v539, main_v540, main_c_77, main_v541, main_v542, main_v543,
    main_v544, main_v545, main_v546, main_v547, main_v548, main_v549, main_v550, main_call16.cst.ref,
    main_call16.v0.ref, main_call16.v1.ref, main_v552, main_v553, main_v554, main_v555 ]

set_option maxRecDepth 16384 in
set_option maxHeartbeats 8000000 in
/-- Each operation writes exactly its result buffer, and that reference stands in the stretch's table: the
    builder's written set is the singleton of its result operand, whose membership in the literal table is
    decided. -/
theorem opsH_writes : (opsH : List (HloOp τ sig (Elt F))).Forall fun op =>
    op.writes ⊆ (opsH_W.map (Proc.devRef (τ := τ) .tc)).toFinset := by
  repeat' apply And.intro
  all_goals exact Finset.singleton_subset_iff.mpr (List.mem_toFinset.mpr (List.mem_map_of_mem (by decide)))

end Cert.ReferenceIdeal.RRead

end
-- ==== Proof.RCut.lean ====
import proofs.«425355_j88287347737110_2_alg».proof.Proof.RefOps0
import proofs.«425355_j88287347737110_2_alg».proof.Proof.RefOps1
import proofs.«425355_j88287347737110_2_alg».proof.Proof.RefOps2
import proofs.«425355_j88287347737110_2_alg».proof.Proof.RefOps3
import proofs.«425355_j88287347737110_2_alg».proof.Proof.RefOps4
import proofs.«425355_j88287347737110_2_alg».proof.Proof.RefOps5
import proofs.«425355_j88287347737110_2_alg».proof.Proof.RefOps6
import proofs.«425355_j88287347737110_2_alg».proof.Proof.RefOps7
import proofs.«425355_j88287347737110_2_alg».proof.Proof.RefOps8
import proofs.«425355_j88287347737110_2_alg».proof.Proof.RefOps9
import proofs.«425355_j88287347737110_2_alg».proof.Proof.RefOps10
import proofs.«425355_j88287347737110_2_alg».proof.Proof.RCutP
import proofs.«425355_j88287347737110_2_alg».proof.Proof.RCutL1
import proofs.«425355_j88287347737110_2_alg».proof.Proof.RCutL2
import proofs.«425355_j88287347737110_2_alg».proof.Proof.RCutL3
import proofs.«425355_j88287347737110_2_alg».proof.Proof.RCutL4
import proofs.«425355_j88287347737110_2_alg».proof.Proof.RCutH

/-! @main's operations, listed window by window for its run, are the same list cut at the network's stages: the
    prologue, the four layers, the score head. Each stage is written as pieces of the windows (a window's first
    operations, its remaining ones, whole windows), and a list's first n entries followed by its remaining ones are
    the list. -/

noncomputable section

namespace Cert.ReferenceIdeal.RRead

open Cert.ReferenceIdeal Cert.ReferenceIdeal.RefRun Idealize.ShloMosaic Idealize.ShloMosaic.TcCoe Idealize.SL.Sem Idealize.ShloMosaic.StableHlo

variable {F : FTy → Type} [FloatOps F]

/-- A list's first n entries, then its remaining ones followed by another list, are the list followed by that
    other list. -/
theorem take_drop_append {α : Type} (l r : List α) (n : Nat) : l.take n ++ (l.drop n ++ r) = l ++ r := by
  rw [← List.append_assoc, List.take_append_drop]

set_option maxRecDepth 65536 in
set_option maxHeartbeats 8000000 in
/-- The prologue is the first twelve operations of window 0. Both sides compute to the same literal list: taking, dropping and appending literal
    lists computes, and the operations agree one by one. -/
theorem opsP_eq : (opsP : List (HloOp τ sig (Elt F))) = ops0.take 12 := rfl

set_option maxRecDepth 65536 in
set_option maxHeartbeats 8000000 in
/-- Layer 1 is the rest of window 0, window 1, and the first 66 operations of window 2. Both sides compute to the same literal list: taking, dropping and appending literal
    lists computes, and the operations agree one by one. -/
theorem opsL1_eq : (opsL1 : List (HloOp τ sig (Elt F))) = ops0.drop 12 ++ (ops1 ++ (ops2.take 66)) := rfl

set_option maxRecDepth 65536 in
set_option maxHeartbeats 8000000 in
/-- Layer 2 is the rest of window 2, windows 3 and 4, and the first twelve operations of window 5. Both sides compute to the same literal list: taking, dropping and appending literal
    lists computes, and the operations agree one by one. -/
theorem opsL2_eq : (opsL2 : List (HloOp τ sig (Elt F))) = ops2.drop 66 ++ (ops3 ++ (ops4 ++ (ops5.take 12))) := rfl

set_option maxRecDepth 65536 in
set_option maxHeartbeats 8000000 in
/-- Layer 3 is the rest of window 5, window 6, and the first 64 operations of window 7. Both sides compute to the same literal list: taking, dropping and appending literal
    lists computes, and the operations agree one by one. -/
theorem opsL3_eq : (opsL3 : List (HloOp τ sig (Elt F))) = ops5.drop 12 ++ (ops6 ++ (ops7.take 64)) := rfl

set_option maxRecDepth 65536 in
set_option maxHeartbeats 8000000 in
/-- Layer 4 is the rest of window 7, windows 8 and 9, and the first ten operations of window 10. Both sides compute to the same literal list: taking, dropping and appending literal
    lists computes, and the operations agree one by one. -/
theorem opsL4_eq : (opsL4 : List (HloOp τ sig (Elt F))) = ops7.drop 64 ++ (ops8 ++ (ops9 ++ (ops10.take 10))) := rfl

set_option maxRecDepth 65536 in
set_option maxHeartbeats 8000000 in
/-- The head is the rest of window 10. Both sides compute to the same literal list: taking, dropping and appending literal
    lists computes, and the operations agree one by one. -/
theorem opsH_eq : (opsH : List (HloOp τ sig (Elt F))) = ops10.drop 10 := rfl

/-- The windows in order are the stages in order: with each stage written as its pieces of the windows and the
    appends re-associated, every cut window's two pieces stand next to each other and join back into the window. -/
theorem ops_recut :
    (ops0 ++ ops1 ++ ops2 ++ ops3 ++ ops4 ++ ops5 ++ ops6 ++ ops7 ++ ops8 ++ ops9 ++ ops10 : List (HloOp τ sig (Elt F)))
      = opsP ++ opsL1 ++ opsL2 ++ opsL3 ++ opsL4 ++ opsH := by
  rw [opsP_eq, opsL1_eq, opsL2_eq, opsL3_eq, opsL4_eq, opsH_eq]
  simp only [List.append_assoc, take_drop_append, List.take_append_drop]

end Cert.ReferenceIdeal.RRead

end
-- ==== Proof.RReadP.lean ====
import proofs.«425355_j88287347737110_2_alg».proof.Proof.RCutP
import proofs.«425355_j88287347737110_2_alg».proof.Proof.SpecWhole
import Idealize.ShloMosaic.Lib.StableHlo.Run

/-! What @main's prologue leaves in its buffers, as the network's functions of the arguments: the two rows of the
    edge index array and the two input projections. -/

noncomputable section

namespace Cert.ReferenceIdeal.RRead

open Cert.ReferenceIdeal Idealize.ShloMosaic Idealize.ShloMosaic.TcCoe Idealize.SL.Sem Idealize.ShloMosaic.StableHlo

variable {F : FTy → Type} [FloatOps F]

/-- The sources: the fold over the prologue at main_v1 unfolds to row 0 of the index array, reshaped. -/
theorem readP_src (V : Valuation τ sig (Elt F)) :
    after opsP V (main_v1 : DevRef τ sig) = Cert.Spec.srcOf (V (main_arg2 : DevRef τ sig)) := by
  after_results_simp
  rfl

/-- The targets: row 1 of the index array. -/
theorem readP_dst (V : Valuation τ sig (Elt F)) :
    after opsP V (main_v3 : DevRef τ sig) = Cert.Spec.dstOf (V (main_arg2 : DevRef τ sig)) := by
  after_results_simp
  rfl

/-- The node projection: the scalar node input times the projection row, plus the bias on every row. -/
theorem readP_h (V : Valuation τ sig (Elt F)) :
    after opsP V (main_v7 : DevRef τ sig) = Cert.Spec.prologueH (V (main_arg0 : DevRef τ sig)) (V (main_arg3 : DevRef τ sig)) (V (main_arg4 : DevRef τ sig)) := by
  after_results_simp
  rfl

/-- The edge projection, likewise. -/
theorem readP_e (V : Valuation τ sig (Elt F)) :
    after opsP V (main_v11 : DevRef τ sig) = Cert.Spec.prologueE (V (main_arg1 : DevRef τ sig)) (V (main_arg5 : DevRef τ sig)) (V (main_arg6 : DevRef τ sig)) := by
  after_results_simp
  rfl

/-- A reference the prologue does not write keeps its contents through it. -/
theorem readP_keep (V : Valuation τ sig (Elt F)) (r : Ref sig .tc) (hr : r ∉ opsP_W) :
    after opsP V (r : DevRef τ sig) = V (r : DevRef τ sig) :=
  after_of_writes_sub opsP V opsP_writes hr

end Cert.ReferenceIdeal.RRead

end
-- ==== Proof.RReadL1.lean ====
import proofs.«425355_j88287347737110_2_alg».proof.Proof.RCutL1
import proofs.«425355_j88287347737110_2_alg».proof.Proof.SpecWhole
import Idealize.ShloMosaic.Lib.StableHlo.Run

/-! What layer 1 of @main leaves at its two result buffers, as the network's layer function (parameters at index 0 of
    the stacked arrays) of the buffers it reads: the node and edge features it starts from, the edges' sources and
    targets, and the fourteen stacked parameter arrays. -/

noncomputable section

namespace Cert.ReferenceIdeal.RRead

open Cert.ReferenceIdeal Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 16384 in
set_option maxHeartbeats 8000000 in
/-- The node features after layer 1. The fold over the layer's operations unfolds; each operation's result at its
    own buffer is its function of its operands' contents and at any other buffer what was there (the references
    are told apart by computation); what is left is a term over the contents of the buffers the layer reads, and
    the layer function's definition unfolds to the same term: its pieces apply the same operations in the order
    @main does. The gather, the scatter-add and the column sum stay folded: the comparison never looks inside. -/
theorem readL1_h (V : Valuation τ sig (Elt F)) :
    after opsL1 V (main_v116 : DevRef τ sig)
      = (Cert.Spec.layerAt 0 Cert.Spec.slices_W_0 Cert.Spec.slices_b_0
        (V (main_v7 : DevRef τ sig)) (V (main_v11 : DevRef τ sig)) (V (main_v1 : DevRef τ sig)) (V (main_v3 : DevRef τ sig))
        (V (main_arg7 : DevRef τ sig)) (V (main_arg8 : DevRef τ sig)) (V (main_arg9 : DevRef τ sig)) (V (main_arg10 : DevRef τ sig))
        (V (main_arg11 : DevRef τ sig)) (V (main_arg12 : DevRef τ sig)) (V (main_arg13 : DevRef τ sig)) (V (main_arg14 : DevRef τ sig))
        (V (main_arg15 : DevRef τ sig)) (V (main_arg16 : DevRef τ sig)) (V (main_arg17 : DevRef τ sig)) (V (main_arg18 : DevRef τ sig))
        (V (main_arg19 : DevRef τ sig)) (V (main_arg20 : DevRef τ sig))).1 := by
  after_results_simp
  rfl

attribute [local irreducible] Host.gather Host.scatterAdd Host.reduceAdd in
set_option maxRecDepth 16384 in
set_option maxHeartbeats 8000000 in
/-- The edge features after layer 1: the same reading at the layer's other result. -/
theorem readL1_e (V : Valuation τ sig (Elt F)) :
    after opsL1 V (main_v141 : DevRef τ sig)
      = (Cert.Spec.layerAt 0 Cert.Spec.slices_W_0 Cert.Spec.slices_b_0
        (V (main_v7 : DevRef τ sig)) (V (main_v11 : DevRef τ sig)) (V (main_v1 : DevRef τ sig)) (V (main_v3 : DevRef τ sig))
        (V (main_arg7 : DevRef τ sig)) (V (main_arg8 : DevRef τ sig)) (V (main_arg9 : DevRef τ sig)) (V (main_arg10 : DevRef τ sig))
        (V (main_arg11 : DevRef τ sig)) (V (main_arg12 : DevRef τ sig)) (V (main_arg13 : DevRef τ sig)) (V (main_arg14 : DevRef τ sig))
        (V (main_arg15 : DevRef τ sig)) (V (main_arg16 : DevRef τ sig)) (V (main_arg17 : DevRef τ sig)) (V (main_arg18 : DevRef τ sig))
        (V (main_arg19 : DevRef τ sig)) (V (main_arg20 : DevRef τ sig))).2 := by
  after_results_simp
  rfl

/-- A reference layer 1 does not write keeps its contents through it. -/
theorem readL1_keep (V : Valuation τ sig (Elt F)) (r : Ref sig .tc) (hr : r ∉ opsL1_W) :
    after opsL1 V (r : DevRef τ sig) = V (r : DevRef τ sig) :=
  after_of_writes_sub opsL1 V opsL1_writes hr

end Cert.ReferenceIdeal.RRead

end
-- ==== Proof.RReadL2.lean ====
import proofs.«425355_j88287347737110_2_alg».proof.Proof.RCutL2
import proofs.«425355_j88287347737110_2_alg».proof.Proof.SpecWhole
import Idealize.ShloMosaic.Lib.StableHlo.Run

/-! What layer 2 of @main leaves at its two result buffers, as the network's layer function (parameters at index 1 of
    the stacked arrays) of the buffers it reads: the node and edge features it starts from, the edges' sources and
    targets, and the fourteen stacked parameter arrays. -/

noncomputable section

namespace Cert.ReferenceIdeal.RRead

open Cert.ReferenceIdeal Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 16384 in
set_option maxHeartbeats 8000000 in
/-- The node features after layer 2. The fold over the layer's operations unfolds; each operation's result at its
    own buffer is its function of its operands' contents and at any other buffer what was there (the references
    are told apart by computation); what is left is a term over the contents of the buffers the layer reads, and
    the layer function's definition unfolds to the same term: its pieces apply the same operations in the order
    @main does. The gather, the scatter-add and the column sum stay folded: the comparison never looks inside. -/
theorem readL2_h (V : Valuation τ sig (Elt F)) :
    after opsL2 V (main_v246 : DevRef τ sig)
      = (Cert.Spec.layerAt 1 Cert.Spec.slices_W_1 Cert.Spec.slices_b_1
        (V (main_v116 : DevRef τ sig)) (V (main_v141 : DevRef τ sig)) (V (main_v1 : DevRef τ sig)) (V (main_v3 : DevRef τ sig))
        (V (main_arg7 : DevRef τ sig)) (V (main_arg8 : DevRef τ sig)) (V (main_arg9 : DevRef τ sig)) (V (main_arg10 : DevRef τ sig))
        (V (main_arg11 : DevRef τ sig)) (V (main_arg12 : DevRef τ sig)) (V (main_arg13 : DevRef τ sig)) (V (main_arg14 : DevRef τ sig))
        (V (main_arg15 : DevRef τ sig)) (V (main_arg16 : DevRef τ sig)) (V (main_arg17 : DevRef τ sig)) (V (main_arg18 : DevRef τ sig))
        (V (main_arg19 : DevRef τ sig)) (V (main_arg20 : DevRef τ sig))).1 := by
  after_results_simp
  rfl

attribute [local irreducible] Host.gather Host.scatterAdd Host.reduceAdd in
set_option maxRecDepth 16384 in
set_option maxHeartbeats 8000000 in
/-- The edge features after layer 2: the same reading at the layer's other result. -/
theorem readL2_e (V : Valuation τ sig (Elt F)) :
    after opsL2 V (main_v271 : DevRef τ sig)
      = (Cert.Spec.layerAt 1 Cert.Spec.slices_W_1 Cert.Spec.slices_b_1
        (V (main_v116 : DevRef τ sig)) (V (main_v141 : DevRef τ sig)) (V (main_v1 : DevRef τ sig)) (V (main_v3 : DevRef τ sig))
        (V (main_arg7 : DevRef τ sig)) (V (main_arg8 : DevRef τ sig)) (V (main_arg9 : DevRef τ sig)) (V (main_arg10 : DevRef τ sig))
        (V (main_arg11 : DevRef τ sig)) (V (main_arg12 : DevRef τ sig)) (V (main_arg13 : DevRef τ sig)) (V (main_arg14 : DevRef τ sig))
        (V (main_arg15 : DevRef τ sig)) (V (main_arg16 : DevRef τ sig)) (V (main_arg17 : DevRef τ sig)) (V (main_arg18 : DevRef τ sig))
        (V (main_arg19 : DevRef τ sig)) (V (main_arg20 : DevRef τ sig))).2 := by
  after_results_simp
  rfl

/-- A reference layer 2 does not write keeps its contents through it. -/
theorem readL2_keep (V : Valuation τ sig (Elt F)) (r : Ref sig .tc) (hr : r ∉ opsL2_W) :
    after opsL2 V (r : DevRef τ sig) = V (r : DevRef τ sig) :=
  after_of_writes_sub opsL2 V opsL2_writes hr

end Cert.ReferenceIdeal.RRead

end
-- ==== Proof.RReadL3.lean ====
import proofs.«425355_j88287347737110_2_alg».proof.Proof.RCutL3
import proofs.«425355_j88287347737110_2_alg».proof.Proof.SpecWhole
import Idealize.ShloMosaic.Lib.StableHlo.Run

/-! What layer 3 of @main leaves at its two result buffers, as the network's layer function (parameters at index 2 of
    the stacked arrays) of the buffers it reads: the node and edge features it starts from, the edges' sources and
    targets, and the fourteen stacked parameter arrays. -/

noncomputable section

namespace Cert.ReferenceIdeal.RRead

open Cert.ReferenceIdeal Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 16384 in
set_option maxHeartbeats 8000000 in
/-- The node features after layer 3. The fold over the layer's operations unfolds; each operation's result at its
    own buffer is its function of its operands' contents and at any other buffer what was there (the references
    are told apart by computation); what is left is a term over the contents of the buffers the layer reads, and
    the layer function's definition unfolds to the same term: its pieces apply the same operations in the order
    @main does. The gather, the scatter-add and the column sum stay folded: the comparison never looks inside. -/
theorem readL3_h (V : Valuation τ sig (Elt F)) :
    after opsL3 V (main_v376 : DevRef τ sig)
      = (Cert.Spec.layerAt 2 Cert.Spec.slices_W_2 Cert.Spec.slices_b_2
        (V (main_v246 : DevRef τ sig)) (V (main_v271 : DevRef τ sig)) (V (main_v1 : DevRef τ sig)) (V (main_v3 : DevRef τ sig))
        (V (main_arg7 : DevRef τ sig)) (V (main_arg8 : DevRef τ sig)) (V (main_arg9 : DevRef τ sig)) (V (main_arg10 : DevRef τ sig))
        (V (main_arg11 : DevRef τ sig)) (V (main_arg12 : DevRef τ sig)) (V (main_arg13 : DevRef τ sig)) (V (main_arg14 : DevRef τ sig))
        (V (main_arg15 : DevRef τ sig)) (V (main_arg16 : DevRef τ sig)) (V (main_arg17 : DevRef τ sig)) (V (main_arg18 : DevRef τ sig))
        (V (main_arg19 : DevRef τ sig)) (V (main_arg20 : DevRef τ sig))).1 := by
  after_results_simp
  rfl

attribute [local irreducible] Host.gather Host.scatterAdd Host.reduceAdd in
set_option maxRecDepth 16384 in
set_option maxHeartbeats 8000000 in
/-- The edge features after layer 3: the same reading at the layer's other result. -/
theorem readL3_e (V : Valuation τ sig (Elt F)) :
    after opsL3 V (main_v401 : DevRef τ sig)
      = (Cert.Spec.layerAt 2 Cert.Spec.slices_W_2 Cert.Spec.slices_b_2
        (V (main_v246 : DevRef τ sig)) (V (main_v271 : DevRef τ sig)) (V (main_v1 : DevRef τ sig)) (V (main_v3 : DevRef τ sig))
        (V (main_arg7 : DevRef τ sig)) (V (main_arg8 : DevRef τ sig)) (V (main_arg9 : DevRef τ sig)) (V (main_arg10 : DevRef τ sig))
        (V (main_arg11 : DevRef τ sig)) (V (main_arg12 : DevRef τ sig)) (V (main_arg13 : DevRef τ sig)) (V (main_arg14 : DevRef τ sig))
        (V (main_arg15 : DevRef τ sig)) (V (main_arg16 : DevRef τ sig)) (V (main_arg17 : DevRef τ sig)) (V (main_arg18 : DevRef τ sig))
        (V (main_arg19 : DevRef τ sig)) (V (main_arg20 : DevRef τ sig))).2 := by
  after_results_simp
  rfl

/-- A reference layer 3 does not write keeps its contents through it. -/
theorem readL3_keep (V : Valuation τ sig (Elt F)) (r : Ref sig .tc) (hr : r ∉ opsL3_W) :
    after opsL3 V (r : DevRef τ sig) = V (r : DevRef τ sig) :=
  after_of_writes_sub opsL3 V opsL3_writes hr

end Cert.ReferenceIdeal.RRead

end
-- ==== Proof.RReadL4.lean ====
import proofs.«425355_j88287347737110_2_alg».proof.Proof.RCutL4
import proofs.«425355_j88287347737110_2_alg».proof.Proof.SpecWhole
import Idealize.ShloMosaic.Lib.StableHlo.Run

/-! What layer 4 of @main leaves at its two result buffers, as the network's layer function (parameters at index 3 of
    the stacked arrays) of the buffers it reads: the node and edge features it starts from, the edges' sources and
    targets, and the fourteen stacked parameter arrays. -/

noncomputable section

namespace Cert.ReferenceIdeal.RRead

open Cert.ReferenceIdeal Idealize.ShloMosaic Idealize.ShloMosaic.TcCoe Idealize.SL.Sem Idealize.ShloMosaic.StableHlo

variable {F : FTy → Type} [FloatOps F]

attribute [local irreducible] Host.gather Host.scatterAdd Host.reduceAdd in
set_option maxRecDepth 16384 in
set_option maxHeartbeats 8000000 in
/-- The node features after layer 4. The fold over the layer's operations unfolds; each operation's result at its
    own buffer is its function of its operands' contents and at any other buffer what was there (the references
    are told apart by computation); what is left is a term over the contents of the buffers the layer reads, and
    the layer function's definition unfolds to the same term: its pieces apply the same operations in the order
    @main does. The gather, the scatter-add and the column sum stay folded: the comparison never looks inside. -/
theorem readL4_h (V : Valuation τ sig (Elt F)) :
    after opsL4 V (main_v506 : DevRef τ sig)
      = (Cert.Spec.layerAt 3 Cert.Spec.slices_W_3 Cert.Spec.slices_b_3
        (V (main_v376 : DevRef τ sig)) (V (main_v401 : DevRef τ sig)) (V (main_v1 : DevRef τ sig)) (V (main_v3 : DevRef τ sig))
        (V (main_arg7 : DevRef τ sig)) (V (main_arg8 : DevRef τ sig)) (V (main_arg9 : DevRef τ sig)) (V (main_arg10 : DevRef τ sig))
        (V (main_arg11 : DevRef τ sig)) (V (main_arg12 : DevRef τ sig)) (V (main_arg13 : DevRef τ sig)) (V (main_arg14 : DevRef τ sig))
        (V (main_arg15 : DevRef τ sig)) (V (main_arg16 : DevRef τ sig)) (V (main_arg17 : DevRef τ sig)) (V (main_arg18 : DevRef τ sig))
        (V (main_arg19 : DevRef τ sig)) (V (main_arg20 : DevRef τ sig))).1 := by
  after_results_simp
  rfl

attribute [local irreducible] Host.gather Host.scatterAdd Host.reduceAdd in
set_option maxRecDepth 16384 in
set_option maxHeartbeats 8000000 in
/-- The edge features after layer 4: the same reading at the layer's other result. -/
theorem readL4_e (V : Valuation τ sig (Elt F)) :
    after opsL4 V (main_v531 : DevRef τ sig)
      = (Cert.Spec.layerAt 3 Cert.Spec.slices_W_3 Cert.Spec.slices_b_3
        (V (main_v376 : DevRef τ sig)) (V (main_v401 : DevRef τ sig)) (V (main_v1 : DevRef τ sig)) (V (main_v3 : DevRef τ sig))
        (V (main_arg7 : DevRef τ sig)) (V (main_arg8 : DevRef τ sig)) (V (main_arg9 : DevRef τ sig)) (V (main_arg10 : DevRef τ sig))
        (V (main_arg11 : DevRef τ sig)) (V (main_arg12 : DevRef τ sig)) (V (main_arg13 : DevRef τ sig)) (V (main_arg14 : DevRef τ sig))
        (V (main_arg15 : DevRef τ sig)) (V (main_arg16 : DevRef τ sig)) (V (main_arg17 : DevRef τ sig)) (V (main_arg18 : DevRef τ sig))
        (V (main_arg19 : DevRef τ sig)) (V (main_arg20 : DevRef τ sig))).2 := by
  after_results_simp
  rfl

/-- A reference layer 4 does not write keeps its contents through it. -/
theorem readL4_keep (V : Valuation τ sig (Elt F)) (r : Ref sig .tc) (hr : r ∉ opsL4_W) :
    after opsL4 V (r : DevRef τ sig) = V (r : DevRef τ sig) :=
  after_of_writes_sub opsL4 V opsL4_writes hr

end Cert.ReferenceIdeal.RRead

end
-- ==== Proof.RReadH.lean ====
import proofs.«425355_j88287347737110_2_alg».proof.Proof.RCutH
import proofs.«425355_j88287347737110_2_alg».proof.Proof.SpecWhole
import Idealize.ShloMosaic.Lib.StableHlo.Run

/-! What @main's last stretch leaves at its result, as the network's score head of the last layer's features. -/

noncomputable section

namespace Cert.ReferenceIdeal.RRead

open Cert.ReferenceIdeal Idealize.ShloMosaic Idealize.ShloMosaic.TcCoe Idealize.SL.Sem Idealize.ShloMosaic.StableHlo

variable {F : FTy → Type} [FloatOps F]

section Nary3

variable {τ' : Topo} {sig' : RefSig} {Val : EltTy → Type} {x a b y : Ref sig' .tc}

/-- An operation over a LITERAL family of three references (a concatenation of three operands): its result with
    each operand's contents at its own reference — the family of contents written out entry by entry — instead of
    under a binder over the family's index, where the reference is no literal and no further result can be read. -/
theorem nary3_result'
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

end Nary3

attribute [local irreducible] Host.gather Host.scatterAdd Host.reduceAdd in
set_option maxRecDepth 16384 in
set_option maxHeartbeats 4000000 in
/-- The result buffer after the head's operations is the head's term of the buffers it reads: the fold unfolds,
    each operation's result at its own buffer is its function of its operands' contents (the concatenation's three
    operands each at its own reference) and at any other buffer what was there; what is left is the head's
    definition unfolded. -/
theorem readH (V : Valuation τ sig (Elt F)) :
    after opsH V (main_v555 : DevRef τ sig) = Cert.Spec.head (V (main_v506 : DevRef τ sig)) (V (main_v531 : DevRef τ sig)) (V (main_v1 : DevRef τ sig)) (V (main_v3 : DevRef τ sig))
      (V (main_arg21 : DevRef τ sig)) (V (main_arg22 : DevRef τ sig)) (V (main_arg23 : DevRef τ sig)) (V (main_arg24 : DevRef τ sig)) := by
  simp (disch := decide) only [after_cons, after_nil,
    nullary_result', unary_result', binary_result', ternary_result', reshape_result', nary3_result',
    nullary_result_ne', unary_result_ne', binary_result_ne', ternary_result_ne', reshape_result_ne', nary_result_ne']
  rfl

/-- A reference the head does not write keeps its contents through it. -/
theorem readH_keep (V : Valuation τ sig (Elt F)) (r : Ref sig .tc) (hr : r ∉ opsH_W) :
    after opsH V (r : DevRef τ sig) = V (r : DevRef τ sig) :=
  after_of_writes_sub opsH V opsH_writes hr

end Cert.ReferenceIdeal.RRead

end
-- ==== Proof.RRef.lean ====
import proofs.«425355_j88287347737110_2_alg».proof.Proof.RCut
import proofs.«425355_j88287347737110_2_alg».proof.Proof.RReadP
import proofs.«425355_j88287347737110_2_alg».proof.Proof.RReadL1
import proofs.«425355_j88287347737110_2_alg».proof.Proof.RReadL2
import proofs.«425355_j88287347737110_2_alg».proof.Proof.RReadL3
import proofs.«425355_j88287347737110_2_alg».proof.Proof.RReadL4
import proofs.«425355_j88287347737110_2_alg».proof.Proof.RReadH
import Idealize.ShloMosaic.Lib.Pipeline.Frame

/-! The reference's result buffer after all of @main's operations is the network of its twenty-five arguments: the
    list is cut at the network's stages, the fold over an append is the folds composed, and each stage's reading
    is carried to the next — what a stage reads of the stages before it is their reading, and a buffer no stage
    in between writes (the edges' sources and targets, every argument) is read as it was. -/

noncomputable section

namespace Cert.ReferenceIdeal.RRead

open Cert.ReferenceIdeal Cert.ReferenceIdeal.RefRun Idealize.ShloMosaic Idealize.ShloMosaic.TcCoe Idealize.SL.Sem Idealize.ShloMosaic.StableHlo

variable {F : FTy → Type} [FloatOps F]

set_option maxRecDepth 16384 in
set_option maxHeartbeats 8000000 in
/-- Stage by stage from the result back to the arguments: the head's reading over the contents after layer 4;
    those contents at the layer's two results are the layer's reading over the contents after layer 3, and at
    every other buffer the head or a layer reads (none of which layer 4 writes) what they were after layer 3; so on
    through layers 3, 2, 1 and the prologue. What is left is the network's definition with its stages written
    out. -/
theorem ref_read (V : Valuation τ sig (Elt F)) :
    after (ops0 ++ ops1 ++ ops2 ++ ops3 ++ ops4 ++ ops5 ++ ops6 ++ ops7 ++ ops8 ++ ops9 ++ ops10) V (main_v555 : DevRef τ sig)
      = Cert.Spec.whole (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))
          (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig))
          (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig))
          (V (main_arg21 : DevRef τ sig)) (V (main_arg22 : DevRef τ sig)) (V (main_arg23 : DevRef τ sig)) (V (main_arg24 : DevRef τ sig)) := by
  rw [ops_recut]
  simp only [StableHlo.after_append]
  generalize hV1 : after opsP V = V1
  generalize hV2 : after opsL1 V1 = V2
  generalize hV3 : after opsL2 V2 = V3
  generalize hV4 : after opsL3 V3 = V4
  generalize hV5 : after opsL4 V4 = V5
  rw [readH V5]
  -- through layer 4
  have k5 : ∀ r : Ref sig .tc, r ∉ opsL4_W → V5 (no_index (Proc.devRef .tc r)) = V4 (Proc.devRef .tc r) := by
    intro r hr; rw [← hV5]; exact readL4_keep V4 r hr
  have h5 := readL4_h V4
  have e5 := readL4_e V4
  rw [hV5] at h5 e5
  simp (disch := decide) only [h5, e5, k5]
  -- through layer 3
  have k4 : ∀ r : Ref sig .tc, r ∉ opsL3_W → V4 (no_index (Proc.devRef .tc r)) = V3 (Proc.devRef .tc r) := by
    intro r hr; rw [← hV4]; exact readL3_keep V3 r hr
  have h4 := readL3_h V3
  have e4 := readL3_e V3
  rw [hV4] at h4 e4
  simp (disch := decide) only [h4, e4, k4]
  -- through layer 2
  have k3 : ∀ r : Ref sig .tc, r ∉ opsL2_W → V3 (no_index (Proc.devRef .tc r)) = V2 (Proc.devRef .tc r) := by
    intro r hr; rw [← hV3]; exact readL2_keep V2 r hr
  have h3 := readL2_h V2
  have e3 := readL2_e V2
  rw [hV3] at h3 e3
  simp (disch := decide) only [h3, e3, k3]
  -- through layer 1
  have k2 : ∀ r : Ref sig .tc, r ∉ opsL1_W → V2 (no_index (Proc.devRef .tc r)) = V1 (Proc.devRef .tc r) := by
    intro r hr; rw [← hV2]; exact readL1_keep V1 r hr
  have h2 := readL1_h V1
  have e2 := readL1_e V1
  rw [hV2] at h2 e2
  simp (disch := decide) only [h2, e2, k2]
  -- through the prologue
  have k1 : ∀ r : Ref sig .tc, r ∉ opsP_W → V1 (no_index (Proc.devRef .tc r)) = V (Proc.devRef .tc r) := by
    intro r hr; rw [← hV1]; exact readP_keep V r hr
  have s1 := readP_src V
  have d1 := readP_dst V
  have h1 := readP_h V
  have e1 := readP_e V
  rw [hV1] at s1 d1 h1 e1
  simp (disch := decide) only [s1, d1, h1, e1, k1]
  rfl

end Cert.ReferenceIdeal.RRead

end
-- ==== Proof.Bridge.lean ====
import proofs.«425355_j88287347737110_2_alg».proof.Proof.KWhole
import proofs.«425355_j88287347737110_2_alg».proof.Proof.KRead
import proofs.«425355_j88287347737110_2_alg».proof.Proof.RRef
import proofs.«425355_j88287347737110_2_alg».proof.Proof.RefRun

/-! The two programs' results agree: the kernel program's result buffer, read off its run as the
    network in the kernel's arrangement, equals the reference's result buffer, read off its run
    as the reference network, whenever the two memories agree on the 25 argument arrays. -/

noncomputable section

namespace Cert.Bridge

open Idealize.ShloMosaic Idealize.ShloMosaic.TcCoe Idealize.SL.Sem Cert.Spec Cert.KSpec

/-- The reference network takes equal arguments to equal results. -/
theorem whole_congr {a0 a0' : R S100000x1} {a1 a1' : R S800000x1} {a2 a2' : J Ideal S2x800000} {a3 a3' : R S1x32} {a4 a4' : R S32} {a5 a5' : R S1x32} {a6 a6' : R S32} {a7 a7' : R S4x32x32} {a8 a8' : R S4x32} {a9 a9' : R S4x32x32} {a10 a10' : R S4x32} {a11 a11' : R S4x32x32} {a12 a12' : R S4x32} {a13 a13' : R S4x32x32} {a14 a14' : R S4x32} {a15 a15' : R S4x32x32} {a16 a16' : R S4x32} {a17 a17' : R S4x32} {a18 a18' : R S4x32} {a19 a19' : R S4x32} {a20 a20' : R S4x32} {a21 a21' : R S96x32} {a22 a22' : R S32} {a23 a23' : R S32x1} {a24 a24' : R S1}
    (e0 : a0 = a0') (e1 : a1 = a1') (e2 : a2 = a2') (e3 : a3 = a3') (e4 : a4 = a4') (e5 : a5 = a5') (e6 : a6 = a6') (e7 : a7 = a7') (e8 : a8 = a8') (e9 : a9 = a9') (e10 : a10 = a10') (e11 : a11 = a11') (e12 : a12 = a12') (e13 : a13 = a13') (e14 : a14 = a14') (e15 : a15 = a15') (e16 : a16 = a16') (e17 : a17 = a17') (e18 : a18 = a18') (e19 : a19 = a19') (e20 : a20 = a20') (e21 : a21 = a21') (e22 : a22 = a22') (e23 : a23 = a23') (e24 : a24 = a24') :
    whole a0 a1 a2 a3 a4 a5 a6 a7 a8 a9 a10 a11 a12 a13 a14 a15 a16 a17 a18 a19 a20 a21 a22 a23 a24
      = whole a0' a1' a2' a3' a4' a5' a6' a7' a8' a9' a10' a11' a12' a13' a14' a15' a16' a17' a18' a19' a20' a21' a22' a23' a24' := by
  subst_vars
  rfl

/-- From memories agreeing on the argument arrays, the kernel program's fold at its result buffer
    is the reference's fold at its result buffer. -/
theorem value_bridge
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.KernelIdeal.Run.W70 m c (Cert.KernelIdeal.main_v535 : DevRef Cert.KernelIdeal.τ Cert.KernelIdeal.sig)
      = StableHlo.after Cert.ReferenceIdeal.RefRun.ops (StableHlo.launchContents m' c)
          (Cert.ReferenceIdeal.main_v555 : DevRef Cert.ReferenceIdeal.τ Cert.ReferenceIdeal.sig) := by
  obtain ⟨h0, h1, h2, h3, h4, h5, h6, h7, h8, h9, h10, h11, h12, h13, h14, h15, h16, h17, h18, h19, h20, h21, h22, h23, h24⟩ := hagree
  rw [Cert.KernelIdeal.KRead.kread m c, Cert.ReferenceIdeal.RRead.ref_read (StableHlo.launchContents m' c),
    Cert.KSpec.kwhole_eq]
  exact whole_congr h0.symm h1.symm h2.symm h3.symm h4.symm h5.symm h6.symm h7.symm h8.symm h9.symm h10.symm h11.symm h12.symm h13.symm h14.symm h15.symm h16.symm h17.symm h18.symm h19.symm h20.symm h21.symm h22.symm h23.symm h24.symm

end Cert.Bridge
-- ==== Proof.lean ====
/- The certificate's claim, assembled from its parts.

   The programs. The network is a four-layer gated graph network on 100000 nodes and 800000 edges with 32
   features, followed by an edge score head. The kernel program computes it in 23 compute regions joined by host
   steps; the reference computes it as one straight line of 822 host operations.

   The frames. Each program runs to the end without fault, and on every device its 25 argument arrays end as they
   began. For the kernel program, bit by bit and over the extended reals, this is its run's post without the
   clause on the result. For the reference, no operation writes an argument: every written buffer is a tensor
   value's own, and the fold of the operations leaves the other buffers alone.

   The equality over the extended reals. The kernel program's result buffer after its last region is the network
   in the kernel's arrangement applied to the arguments, and the reference's result buffer is the reference
   network applied to its arguments; when the two memories agree on the arguments the two are equal, because the
   arrangement computes the same arrays:
   - a column block of the fused projection (the product with the four weights side by side, sliced afterwards) is
     the separate projection, and a row gather followed by a column slice is the gather of the slice;
   - four 32-column rows packed into one 128-lane row, times the block-diagonal matrix of four copies of the
     weight, is the row-wise product, and the parameters repeated four times add to every row what the reference
     adds;
   - the score head's product over the concatenation of three 32-column blocks is the sum of the three products
     with the row blocks of the weight.
   The common result is witnessed by the kernel program's buffer; the reference's run is carried to it along that
   equality. -/
import proofs.«425355_j88287347737110_2_alg».proof.Defs
import proofs.«425355_j88287347737110_2_alg».proof.Proof.Gen.Kernel
import proofs.«425355_j88287347737110_2_alg».proof.Proof.Gen.KernelIdeal
import proofs.«425355_j88287347737110_2_alg».proof.Proof.Gen.ReferenceIdeal
import proofs.«425355_j88287347737110_2_alg».proof.Proof.Gen.Pre_finite_inputs
import proofs.«425355_j88287347737110_2_alg».proof.Proof.KRun
import proofs.«425355_j88287347737110_2_alg».proof.Proof.Bits.KRun
import proofs.«425355_j88287347737110_2_alg».proof.Proof.RefRun
import proofs.«425355_j88287347737110_2_alg».proof.Proof.Bridge

noncomputable section

namespace Cert.Proof

open Idealize.ShloMosaic Idealize.ShloMosaic.TcCoe Idealize.SL.Sem

/-- The kernel program, bit by bit, runs and leaves its 25 arguments as they were: its run's post without the
    clause on the result. -/
theorem frame_Kernel :
    Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Run.run_main (F := Bits) m ρ)

/-- The same of the kernel program over the extended reals. -/
theorem frame_KernelIdeal :
    Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Run.run_main (F := Ideal) m ρ)

/-- Over the extended reals, from memories that agree on the 25 arguments, both programs run, leave their arguments
    as they were, and end with the same result on every device: the kernel program's result buffer after its last
    region, which the agreement of the two networks identifies with the reference's fold at its result. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  fun m ρ m' ρ' _ hagree =>
    ⟨fun c => Cert.KernelIdeal.Run.W70 (F := Ideal) m c Cert.KernelIdeal.main_v535,
      Cert.KernelIdeal.Run.run_main (F := Ideal) m ρ,
      (θ_run Cert.ReferenceIdeal.defs _ _).mono
        (fun r h c => ⟨(h c _).trans (Cert.Bridge.value_bridge m m' c (hagree c)).symm,
          (h c Cert.ReferenceIdeal.main_arg0).trans (Cert.ReferenceIdeal.RefRun.after_ops_arg _ _ (by decide)),
          (h c Cert.ReferenceIdeal.main_arg1).trans (Cert.ReferenceIdeal.RefRun.after_ops_arg _ _ (by decide)),
          (h c Cert.ReferenceIdeal.main_arg2).trans (Cert.ReferenceIdeal.RefRun.after_ops_arg _ _ (by decide)),
          (h c Cert.ReferenceIdeal.main_arg3).trans (Cert.ReferenceIdeal.RefRun.after_ops_arg _ _ (by decide)),
          (h c Cert.ReferenceIdeal.main_arg4).trans (Cert.ReferenceIdeal.RefRun.after_ops_arg _ _ (by decide)),
          (h c Cert.ReferenceIdeal.main_arg5).trans (Cert.ReferenceIdeal.RefRun.after_ops_arg _ _ (by decide)),
          (h c Cert.ReferenceIdeal.main_arg6).trans (Cert.ReferenceIdeal.RefRun.after_ops_arg _ _ (by decide)),
          (h c Cert.ReferenceIdeal.main_arg7).trans (Cert.ReferenceIdeal.RefRun.after_ops_arg _ _ (by decide)),
          (h c Cert.ReferenceIdeal.main_arg8).trans (Cert.ReferenceIdeal.RefRun.after_ops_arg _ _ (by decide)),
          (h c Cert.ReferenceIdeal.main_arg9).trans (Cert.ReferenceIdeal.RefRun.after_ops_arg _ _ (by decide)),
          (h c Cert.ReferenceIdeal.main_arg10).trans (Cert.ReferenceIdeal.RefRun.after_ops_arg _ _ (by decide)),
          (h c Cert.ReferenceIdeal.main_arg11).trans (Cert.ReferenceIdeal.RefRun.after_ops_arg _ _ (by decide)),
          (h c Cert.ReferenceIdeal.main_arg12).trans (Cert.ReferenceIdeal.RefRun.after_ops_arg _ _ (by decide)),
          (h c Cert.ReferenceIdeal.main_arg13).trans (Cert.ReferenceIdeal.RefRun.after_ops_arg _ _ (by decide)),
          (h c Cert.ReferenceIdeal.main_arg14).trans (Cert.ReferenceIdeal.RefRun.after_ops_arg _ _ (by decide)),
          (h c Cert.ReferenceIdeal.main_arg15).trans (Cert.ReferenceIdeal.RefRun.after_ops_arg _ _ (by decide)),
          (h c Cert.ReferenceIdeal.main_arg16).trans (Cert.ReferenceIdeal.RefRun.after_ops_arg _ _ (by decide)),
          (h c Cert.ReferenceIdeal.main_arg17).trans (Cert.ReferenceIdeal.RefRun.after_ops_arg _ _ (by decide)),
          (h c Cert.ReferenceIdeal.main_arg18).trans (Cert.ReferenceIdeal.RefRun.after_ops_arg _ _ (by decide)),
          (h c Cert.ReferenceIdeal.main_arg19).trans (Cert.ReferenceIdeal.RefRun.after_ops_arg _ _ (by decide)),
          (h c Cert.ReferenceIdeal.main_arg20).trans (Cert.ReferenceIdeal.RefRun.after_ops_arg _ _ (by decide)),
          (h c Cert.ReferenceIdeal.main_arg21).trans (Cert.ReferenceIdeal.RefRun.after_ops_arg _ _ (by decide)),
          (h c Cert.ReferenceIdeal.main_arg22).trans (Cert.ReferenceIdeal.RefRun.after_ops_arg _ _ (by decide)),
          (h c Cert.ReferenceIdeal.main_arg23).trans (Cert.ReferenceIdeal.RefRun.after_ops_arg _ _ (by decide)),
          (h c Cert.ReferenceIdeal.main_arg24).trans (Cert.ReferenceIdeal.RefRun.after_ops_arg _ _ (by decide))⟩)
        (Cert.ReferenceIdeal.RefRun.run_main (F := Ideal) m' ρ')⟩

/-- Everything claimed, under the generated witnesses of the programs' stated side conditions. -/
theorem claim : Cert.Claim :=
  ⟨Cert.Kernel.Gen.facts, Cert.KernelIdeal.Gen.facts, Cert.ReferenceIdeal.Gen.facts, Cert.Pre_finite_inputs.Gen.facts,
    frame_Kernel, frame_KernelIdeal, Cert.ReferenceIdeal.RefRun.frame, trivial, algebraic⟩

end Cert.Proof

end
